-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  IdealRules.truncf_extf.Statement Cert.KernelIdeal.S64x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v141)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v141) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S64x4 : Shape := ⟨2, ![64, 4]⟩
abbrev S128x16 : Shape := ⟨2, ![128, 16]⟩
abbrev S16 : Shape := ⟨1, ![16]⟩
abbrev S16x64 : Shape := ⟨2, ![16, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S68x10 : Shape := ⟨2, ![68, 10]⟩
abbrev S10 : Shape := ⟨1, ![10]⟩
abbrev S10x1 : Shape := ⟨2, ![10, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x4 : S_.BroadcastsInDim S64x4 (![] : Fin 0 → Fin S64x4.rank)
  reducesTo_S64x4_S_d0_1 : S64x4.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S68x10 : S_.BroadcastsInDim S68x10 (![] : Fin 0 → Fin S68x10.rank)
  reducesTo_S68x10_S_d0_1 : S68x10.ReducesTo [0, 1] S_
  bcast_S_S10 : S_.BroadcastsInDim S10 (![] : Fin 0 → Fin S10.rank)
  reducesTo_S10_S_d0 : S10.ReducesTo [0] S_
  bcast_S_S10x1 : S_.BroadcastsInDim S10x1 (![] : Fin 0 → Fin S10x1.rank)
  reducesTo_S10x1_S_d0_1 : S10x1.ReducesTo [0, 1] S_
  bcast_S_S1 : S_.BroadcastsInDim S1 (![] : Fin 0 → Fin S1.rank)
  reducesTo_S1_S_d0 : S1.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part4 {F : FTy → Type} [FloatOps F] (main_arg1 : IVec S2x1600000 32) (main_v63 : IVec S_ 1) (main_v67 : IVec S_ 1) : IVec S_ 1 :=
  let main_v68 : IVec S_ 1 := andi main_v63 main_v67
  let main_c_26 : IVec S_ 32 := constantI S_ 32 0#32
  let main_v69 : IVec S2x1600000 32 := broadcastInDim S2x1600000 ![] bcast_S_S2x1600000 main_c_26
  let main_v70 : IVec S2x1600000 1 := cmpi .sge main_arg1 main_v69
  let main_c_27 : IVec S_ 32 := constantI S_ 32 100000#32
  let main_v71 : IVec S2x1600000 32 := broadcastInDim S2x1600000 ![] bcast_S_S2x1600000 main_c_27
  let main_v72 : IVec S2x1600000 1 := cmpi .slt main_arg1 main_v71
  let main_v73 : IVec S2x1600000 1 := andi main_v70 main_v72
  let main_c_28 : IVec S_ 1 := constantI S_ 1 1#1
  let main_v74 : IVec S_ 1 := (fun x v => Host.reduce IntOp.andi x v reducesTo_S2x1600000_S_d0_1 h_S_) main_v73 main_c_28
  let main_v75 : IVec S_ 1 := andi main_v68 main_v74
  main_v75

def fn_part3 {F : FTy → Type} [FloatOps F] (main_arg1 : IVec S2x1600000 32) (main_arg13 : FVec F S10 .f32) (main_arg14 : FVec F S10x1 .f32) (main_arg15 : FVec F S1 .f32) (main_v48 : IVec S_ 1) (main_v49 : FVec F S68x10 .f32) (main_v50 : FVec F S68x10 .f32) : IVec S_ 1 :=
  let main_v51 : IVec S68x10 1 := cmpf .olt main_v49 main_v50
  let main_c_19 : IVec S_ 1 := constantI S_ 1 1#1
  let main_v52 : IVec S_ 1 := (fun x v => Host.reduce IntOp.andi x v reducesTo_S68x10_S_d0_1 h_S_) main_v51 main_c_19
  let main_v53 : IVec S_ 1 := andi main_v48 main_v52
  let main_v54 : FVec F S10 .f32 := Host.absf main_arg13
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  let main_v59 : FVec F S10x1 .f32 := Host.absf main_arg14
  let main_cst_22 : FVec F S_ .f32 := constant S_ .f32 0x7F800000#32
  let main_v60 : FVec F S10x1 .f32 := broadcastInDim S10x1 ![] bcast_S_S10x1 main_cst_22
  let main_v61 : IVec S10x1 1 := cmpf .olt main_v59 main_v60
  let main_c_23 : IVec S_ 1 := constantI S_ 1 1#1
  let main_v62 : IVec S_ 1 := (fun x v => Host.reduce IntOp.andi x v reducesTo_S10x1_S_d0_1 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg1 main_v63 main_v67

def fn_part2 {F : FTy → Type} [FloatOps F] (main_arg1 : IVec S2x1600000 32) (main_arg9 : FVec F S32 .f32) (main_arg10 : FVec F S32x64 .f32) (main_arg11 : FVec F S64 .f32) (main_arg12 : FVec F S68x10 .f32) (main_arg13 : FVec F S10 .f32) (main_arg14 : FVec F S10x1 .f32) (main_arg15 : FVec F S1 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x64 .f32 := Host.absf main_arg10
  let main_cst_14 : FVec F S_ .f32 := constant S_ .f32 0x7F800000#32
  let main_v40 : FVec F S32x64 .f32 := broadcastInDim S32x64 ![] bcast_S_S32x64 main_cst_14
  let main_v41 : IVec S32x64 1 := cmpf .olt main_v39 main_v40
  let main_c_15 : IVec S_ 1 := constantI S_ 1 1#1
  let main_v42 : IVec S_ 1 := (fun x v => Host.reduce IntOp.andi x v reducesTo_S32x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S68x10 .f32 := Host.absf main_arg12
  let main_cst_18 : FVec F S_ .f32 := constant S_ .f32 0x7F800000#32
  let main_v50 : FVec F S68x10 .f32 := broadcastInDim S68x10 ![] bcast_S_S68x10 main_cst_18
  fn_part3 (F := F) main_arg1 main_arg13 main_arg14 main_arg15 main_v48 main_v49 main_v50

def fn_part1 {F : FTy → Type} [FloatOps F] (main_arg1 : IVec S2x1600000 32) (main_arg6 : FVec F S16x64 .f32) (main_arg7 : FVec F S64 .f32) (main_arg8 : FVec F S64x32 .f32) (main_arg9 : FVec F S32 .f32) (main_arg10 : FVec F S32x64 .f32) (main_arg11 : FVec F S64 .f32) (main_arg12 : FVec F S68x10 .f32) (main_arg13 : FVec F S10 .f32) (main_arg14 : FVec F S10x1 .f32) (main_arg15 : FVec F S1 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x64 .f32 := Host.absf main_arg6
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg8
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg1 main_arg9 main_arg10 main_arg11 main_arg12 main_arg13 main_arg14 main_arg15 main_v33

def fn {F : FTy → Type} [FloatOps F] (main_arg0 : FVec F S100000x128 .f32) (main_arg1 : IVec S2x1600000 32) (main_arg2 : IVec S100000 32) (main_arg3 : FVec F S64x4 .f32) (main_arg4 : FVec F S128x16 .f32) (main_arg5 : FVec F S16 .f32) (main_arg6 : FVec F S16x64 .f32) (main_arg7 : FVec F S64 .f32) (main_arg8 : FVec F S64x32 .f32) (main_arg9 : FVec F S32 .f32) (main_arg10 : FVec F S32x64 .f32) (main_arg11 : FVec F S64 .f32) (main_arg12 : FVec F S68x10 .f32) (main_arg13 : FVec F S10 .f32) (main_arg14 : FVec F S10x1 .f32) (main_arg15 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x4 .f32 := Host.absf main_arg3
  let main_cst_0 : FVec F S_ .f32 := constant S_ .f32 0x7F800000#32
  let main_v5 : FVec F S64x4 .f32 := broadcastInDim S64x4 ![] bcast_S_S64x4 main_cst_0
  let main_v6 : IVec S64x4 1 := cmpf .olt main_v4 main_v5
  let main_c_1 : IVec S_ 1 := constantI S_ 1 1#1
  let main_v7 : IVec S_ 1 := (fun x v => Host.reduce IntOp.andi x v reducesTo_S64x4_S_d0_1 h_S_) main_v6 main_c_1
  let main_v8 : IVec S_ 1 := andi main_v3 main_v7
  let main_v9 : FVec F S128x16 .f32 := Host.absf main_arg4
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg5
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg1 main_arg6 main_arg7 main_arg8 main_arg9 main_arg10 main_arg11 main_arg12 main_arg13 main_arg14 main_arg15 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S64x4 : Shape := ⟨2, ![64, 4]⟩
abbrev S128x16 : Shape := ⟨2, ![128, 16]⟩
abbrev S16 : Shape := ⟨1, ![16]⟩
abbrev S16x64 : Shape := ⟨2, ![16, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S68x10 : Shape := ⟨2, ![68, 10]⟩
abbrev S10 : Shape := ⟨1, ![10]⟩
abbrev S10x1 : Shape := ⟨2, ![10, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1601536 : Shape := ⟨1, ![1601536]⟩
abbrev S1601536x1 : Shape := ⟨2, ![1601536, 1]⟩
abbrev S391x4096 : Shape := ⟨2, ![391, 4096]⟩
abbrev S391 : Shape := ⟨1, ![391]⟩
abbrev S100352x128 : Shape := ⟨2, ![100352, 128]⟩
abbrev S100352 : Shape := ⟨1, ![100352]⟩
abbrev S100352x1 : Shape := ⟨2, ![100352, 1]⟩
abbrev S100352x16 : Shape := ⟨2, ![100352, 16]⟩
abbrev S2048x128 : Shape := ⟨2, ![2048, 128]⟩
abbrev S2048x16 : Shape := ⟨2, ![2048, 16]⟩
abbrev S1601536x16 : Shape := ⟨2, ![1601536, 16]⟩
abbrev S4096 : Shape := ⟨1, ![4096]⟩
abbrev S4096x16 : Shape := ⟨2, ![4096, 16]⟩
abbrev S4096x1 : Shape := ⟨2, ![4096, 1]⟩
abbrev S1x2048 : Shape := ⟨2, ![1, 2048]⟩
abbrev S4096x2048 : Shape := ⟨2, ![4096, 2048]⟩
abbrev S1x16 : Shape := ⟨2, ![1, 16]⟩
abbrev S2048 : Shape := ⟨1, ![2048]⟩
abbrev S2048x1 : Shape := ⟨2, ![2048, 1]⟩
abbrev S1x4096 : Shape := ⟨2, ![1, 4096]⟩
abbrev S2048x4096 : Shape := ⟨2, ![2048, 4096]⟩
abbrev S100352x64 : Shape := ⟨2, ![100352, 64]⟩
abbrev S2048x64 : Shape := ⟨2, ![2048, 64]⟩
abbrev S1601536x64 : Shape := ⟨2, ![1601536, 64]⟩
abbrev S4096x64 : Shape := ⟨2, ![4096, 64]⟩
abbrev S1x64 : Shape := ⟨2, ![1, 64]⟩
abbrev S100352x32 : Shape := ⟨2, ![100352, 32]⟩
abbrev S2048x32 : Shape := ⟨2, ![2048, 32]⟩
abbrev S1601536x32 : Shape := ⟨2, ![1601536, 32]⟩
abbrev S4096x32 : Shape := ⟨2, ![4096, 32]⟩
abbrev S1x32 : Shape := ⟨2, ![1, 32]⟩
abbrev S64x1 : Shape := ⟨2, ![64, 1]⟩
abbrev S64x2048 : Shape := ⟨2, ![64, 2048]⟩
abbrev S64x64 : Shape := ⟨2, ![64, 64]⟩
abbrev S64x68 : Shape := ⟨2, ![64, 68]⟩
abbrev S64x10 : Shape := ⟨2, ![64, 10]⟩
abbrev S1x10 : Shape := ⟨2, ![1, 10]⟩
abbrev S1x1 : Shape := ⟨2, ![1, 1]⟩

abbrev nBuf : Space → Nat
  | .hbm => 207
  | .vmem => 84
  | .smem => 4
  | _ => 0

abbrev hbmTy0_0 (i : Nat) : BufTy := match i % 128 with
  | 0 => ⟨S100000x128, .f32⟩
  | 1 => ⟨S2x1600000, .i32⟩
  | 2 => ⟨S100000, .i32⟩
  | 3 => ⟨S64x4, .f32⟩
  | 4 => ⟨S128x16, .f32⟩
  | 5 => ⟨S16, .f32⟩
  | 6 => ⟨S16x64, .f32⟩
  | 7 => ⟨S64, .f32⟩
  | 8 => ⟨S64x32, .f32⟩
  | 9 => ⟨S32, .f32⟩
  | 10 => ⟨S32x64, .f32⟩
  | 11 => ⟨S64, .f32⟩
  | 12 => ⟨S68x10, .f32⟩
  | 13 => ⟨S10, .f32⟩
  | 14 => ⟨S10x1, .f32⟩
  | 15 => ⟨S1, .f32⟩
  | 16 => ⟨S1x1600000, .i32⟩
  | 17 => ⟨S1600000, .i32⟩
  | 18 => ⟨S1x1600000, .i32⟩
  | 19 => ⟨S1600000, .i32⟩
  | 20 => ⟨S_, .f32⟩
  | 21 => ⟨S100000, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S_, .f32⟩
  | 31 => ⟨S1600000, .f32⟩
  | 32 => ⟨S100000, .f32⟩
  | 33 => ⟨S_, .f32⟩
  | 34 => ⟨S100000, .f32⟩
  | 35 => ⟨S100000, .f32⟩
  | 36 => ⟨S_, .f32⟩
  | 37 => ⟨S100000, .f32⟩
  | 38 => ⟨S100000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000, .f32⟩
  | 57 => ⟨S1600000, .f32⟩
  | 58 => ⟨S100000, .f32⟩
  | 59 => ⟨S_, .i32⟩
  | 60 => ⟨S_, .i32⟩
  | 61 => ⟨S1601536, .i32⟩
  | 62 => ⟨S_, .i32⟩
  | 63 => ⟨S_, .i32⟩
  | 64 => ⟨S1601536, .i32⟩
  | 65 => ⟨S_, .i32⟩
  | 66 => ⟨S_, .f32⟩
  | 67 => ⟨S1601536, .f32⟩
  | 68 => ⟨S1601536, .i32⟩
  | 69 => ⟨S1601536, .i32⟩
  | 70 => ⟨S1601536, .i32⟩
  | 71 => ⟨S1601536, .i32⟩
  | 72 => ⟨S1601536, .i32⟩
  | 73 => ⟨S1601536, .i32⟩
  | 74 => ⟨S1601536, .i32⟩
  | 75 => ⟨S1601536, .i32⟩
  | 76 => ⟨S1601536, .i32⟩
  | 77 => ⟨S_, .i32⟩
  | 78 => ⟨S1601536, .i32⟩
  | 79 => ⟨S1601536, .i1⟩
  | 80 => ⟨S_, .i32⟩
  | 81 => ⟨S1601536, .i32⟩
  | 82 => ⟨S1601536, .i32⟩
  | 83 => ⟨S1601536, .i32⟩
  | 84 => ⟨S1601536x1, .i32⟩
  | 85 => ⟨S1601536, .i32⟩
  | 86 => ⟨S_, .i32⟩
  | 87 => ⟨S1601536, .i32⟩
  | 88 => ⟨S1601536, .i1⟩
  | 89 => ⟨S_, .i32⟩
  | 90 => ⟨S1601536, .i32⟩
  | 91 => ⟨S1601536, .i32⟩
  | 92 => ⟨S1601536, .i32⟩
  | 93 => ⟨S1601536x1, .i32⟩
  | 94 => ⟨S1601536, .i32⟩
  | 95 => ⟨S_, .i32⟩
  | 96 => ⟨S1601536, .i32⟩
  | 97 => ⟨S1601536, .i1⟩
  | 98 => ⟨S_, .i32⟩
  | 99 => ⟨S1601536, .i32⟩
  | 100 => ⟨S1601536, .i32⟩
  | 101 => ⟨S1601536, .i32⟩
  | 102 => ⟨S1601536x1, .i32⟩
  | 103 => ⟨S1601536, .f32⟩
  | 104 => ⟨S_, .i32⟩
  | 105 => ⟨S1601536, .i32⟩
  | 106 => ⟨S1601536, .i1⟩
  | 107 => ⟨S_, .i32⟩
  | 108 => ⟨S1601536, .i32⟩
  | 109 => ⟨S1601536, .i32⟩
  | 110 => ⟨S1601536, .i32⟩
  | 111 => ⟨S1601536x1, .i32⟩
  | 112 => ⟨S1601536, .i32⟩
  | 113 => ⟨S391x4096, .i32⟩
  | 114 => ⟨S_, .i32⟩
  | 115 => ⟨S391x4096, .i32⟩
  | 116 => ⟨S_, .i32⟩
  | 117 => ⟨S391x4096, .i32⟩
  | 118 => ⟨S_, .i32⟩
  | 119 => ⟨S391x4096, .i32⟩
  | 120 => ⟨S_, .i32⟩
  | 121 => ⟨S_, .i32⟩
  | 122 => ⟨S_, .f32⟩
  | 123 => ⟨S100352x128, .f32⟩
  | 124 => ⟨S_, .i32⟩
  | 125 => ⟨S_, .f32⟩
  | 126 => ⟨S100352, .f32⟩
  | 127 => ⟨S_, .i32⟩
  | _ => ⟨S100000x128, .f32⟩

abbrev hbmTy0_1 (i : Nat) : BufTy := match i % 128 with
  | 0 => ⟨S_, .i32⟩
  | 1 => ⟨S100352, .i32⟩
  | 2 => ⟨S100352, .i32⟩
  | 3 => ⟨S_, .i32⟩
  | 4 => ⟨S100352, .i32⟩
  | 5 => ⟨S100352, .i1⟩
  | 6 => ⟨S100352, .f32⟩
  | 7 => ⟨S100352x1, .f32⟩
  | 8 => ⟨S100352x16, .f32⟩
  | 9 => ⟨S1601536x16, .f32⟩
  | 10 => ⟨S_, .i32⟩
  | 11 => ⟨S1601536, .i32⟩
  | 12 => ⟨S1601536, .i1⟩
  | 13 => ⟨S_, .i32⟩
  | 14 => ⟨S1601536, .i32⟩
  | 15 => ⟨S1601536, .i32⟩
  | 16 => ⟨S1601536, .i32⟩
  | 17 => ⟨S1601536x1, .i32⟩
  | 18 => ⟨S1601536x16, .f32⟩
  | 19 => ⟨S1x16, .f32⟩
  | 20 => ⟨S100352x16, .f32⟩
  | 21 => ⟨S100352x16, .f32⟩
  | 22 => ⟨S100352x16, .f32⟩
  | 23 => ⟨S100352x64, .f32⟩
  | 24 => ⟨S1601536x64, .f32⟩
  | 25 => ⟨S_, .i32⟩
  | 26 => ⟨S1601536, .i32⟩
  | 27 => ⟨S1601536, .i1⟩
  | 28 => ⟨S_, .i32⟩
  | 29 => ⟨S1601536, .i32⟩
  | 30 => ⟨S1601536, .i32⟩
  | 31 => ⟨S1601536, .i32⟩
  | 32 => ⟨S1601536x1, .i32⟩
  | 33 => ⟨S1601536x64, .f32⟩
  | 34 => ⟨S1x64, .f32⟩
  | 35 => ⟨S100352x64, .f32⟩
  | 36 => ⟨S100352x64, .f32⟩
  | 37 => ⟨S100352x64, .f32⟩
  | 38 => ⟨S100352x32, .f32⟩
  | 39 => ⟨S1601536x32, .f32⟩
  | 40 => ⟨S_, .i32⟩
  | 41 => ⟨S1601536, .i32⟩
  | 42 => ⟨S1601536, .i1⟩
  | 43 => ⟨S_, .i32⟩
  | 44 => ⟨S1601536, .i32⟩
  | 45 => ⟨S1601536, .i32⟩
  | 46 => ⟨S1601536, .i32⟩
  | 47 => ⟨S1601536x1, .i32⟩
  | 48 => ⟨S1601536x32, .f32⟩
  | 49 => ⟨S1x32, .f32⟩
  | 50 => ⟨S100352x32, .f32⟩
  | 51 => ⟨S100352x32, .f32⟩
  | 52 => ⟨S100352x32, .f32⟩
  | 53 => ⟨S64x32, .f32⟩
  | 54 => ⟨S64x1, .f32⟩
  | 55 => ⟨S_, .f32⟩
  | 56 => ⟨S64x1, .f32⟩
  | 57 => ⟨S64x1, .f32⟩
  | 58 => ⟨S64x32, .f32⟩
  | 59 => ⟨S64x32, .f32⟩
  | 60 => ⟨S64x64, .f32⟩
  | 61 => ⟨S1x64, .f32⟩
  | 62 => ⟨S64x64, .f32⟩
  | 63 => ⟨S64x64, .f32⟩
  | 64 => ⟨S_, .f32⟩
  | 65 => ⟨S64x64, .f32⟩
  | 66 => ⟨S64x64, .f32⟩
  | 67 => ⟨S64x68, .f32⟩
  | 68 => ⟨S64x10, .f32⟩
  | 69 => ⟨S1x10, .f32⟩
  | 70 => ⟨S64x10, .f32⟩
  | 71 => ⟨S64x10, .f32⟩
  | 72 => ⟨S_, .f32⟩
  | 73 => ⟨S64x10, .f32⟩
  | 74 => ⟨S64x10, .f32⟩
  | 75 => ⟨S64x1, .f32⟩
  | 76 => ⟨S1x1, .f32⟩
  | 77 => ⟨S64x1, .f32⟩
  | 78 => ⟨S64x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S128x16, .f32⟩
  | .local _ .vmem, ⟨3, _⟩ => ⟨S2048x16, .f32⟩
  | .local _ .vmem, ⟨4, _⟩ => ⟨S2048x16, .f32⟩
  | .local _ .vmem, ⟨5, _⟩ => ⟨S4096, .i32⟩
  | .local _ .vmem, ⟨6, _⟩ => ⟨S4096, .i32⟩
  | .local _ .vmem, ⟨7, _⟩ => ⟨S4096, .f32⟩
  | .local _ .vmem, ⟨8, _⟩ => ⟨S4096, .f32⟩
  | .local _ .vmem, ⟨9, _⟩ => ⟨S2048x16, .f32⟩
  | .local _ .vmem, ⟨10, _⟩ => ⟨S2048x16, .f32⟩
  | .local _ .vmem, ⟨11, _⟩ => ⟨S4096x16, .f32⟩
  | .local _ .vmem, ⟨12, _⟩ => ⟨S4096x16, .f32⟩
  | .local _ .vmem, ⟨13, _⟩ => ⟨S4096x16, .f32⟩
  | .local _ .vmem, ⟨14, _⟩ => ⟨S4096, .i32⟩
  | .local _ .vmem, ⟨15, _⟩ => ⟨S4096, .i32⟩
  | .local _ .vmem, ⟨16, _⟩ => ⟨S4096x16, .f32⟩
  | .local _ .vmem, ⟨17, _⟩ => ⟨S4096x16, .f32⟩
  | .local _ .vmem, ⟨18, _⟩ => ⟨S2048x16, .f32⟩
  | .local _ .vmem, ⟨19, _⟩ => ⟨S2048x16, .f32⟩
  | .local _ .vmem, ⟨20, _⟩ => ⟨S2048, .f32⟩
  | .local _ .vmem, ⟨21, _⟩ => ⟨S2048, .f32⟩
  | .local _ .vmem, ⟨22, _⟩ => ⟨S1x16, .f32⟩
  | .local _ .vmem, ⟨23, _⟩ => ⟨S2048x16, .f32⟩
  | .local _ .vmem, ⟨24, _⟩ => ⟨S2048x16, .f32⟩
  | .local _ .vmem, ⟨25, _⟩ => ⟨S2048x16, .f32⟩
  | .local _ .vmem, ⟨26, _⟩ => ⟨S2048x16, .f32⟩
  | .local _ .vmem, ⟨27, _⟩ => ⟨S2048x16, .f32⟩
  | .local _ .vmem, ⟨28, _⟩ => ⟨S16x64, .f32⟩
  | .local _ .vmem, ⟨29, _⟩ => ⟨S2048x64, .f32⟩
  | .local _ .vmem, ⟨30, _⟩ => ⟨S2048x64, .f32⟩
  | .local _ .vmem, ⟨31, _⟩ => ⟨S4096, .i32⟩
  | .local _ .vmem, ⟨32, _⟩ => ⟨S4096, .i32⟩
  | .local _ .vmem, ⟨33, _⟩ => ⟨S4096, .f32⟩
  | .local _ .vmem, ⟨34, _⟩ => ⟨S4096, .f32⟩
  | .local _ .vmem, ⟨35, _⟩ => ⟨S2048x64, .f32⟩
  | .local _ .vmem, ⟨36, _⟩ => ⟨S2048x64, .f32⟩
  | .local _ .vmem, ⟨37, _⟩ => ⟨S4096x64, .f32⟩
  | .local _ .vmem, ⟨38, _⟩ => ⟨S4096x64, .f32⟩
  | .local _ .vmem, ⟨39, _⟩ => ⟨S4096x64, .f32⟩
  | .local _ .vmem, ⟨40, _⟩ => ⟨S4096, .i32⟩
  | .local _ .vmem, ⟨41, _⟩ => ⟨S4096, .i32⟩
  | .local _ .vmem, ⟨42, _⟩ => ⟨S4096x64, .f32⟩
  | .local _ .vmem, ⟨43, _⟩ => ⟨S4096x64, .f32⟩
  | .local _ .vmem, ⟨44, _⟩ => ⟨S2048x64, .f32⟩
  | .local _ .vmem, ⟨45, _⟩ => ⟨S2048x64, .f32⟩
  | .local _ .vmem, ⟨46, _⟩ => ⟨S2048, .f32⟩
  | .local _ .vmem, ⟨47, _⟩ => ⟨S2048, .f32⟩
  | .local _ .vmem, ⟨48, _⟩ => ⟨S1x64, .f32⟩
  | .local _ .vmem, ⟨49, _⟩ => ⟨S2048x64, .f32⟩
  | .local _ .vmem, ⟨50, _⟩ => ⟨S2048x64, .f32⟩
  | .local _ .vmem, ⟨51, _⟩ => ⟨S2048x64, .f32⟩
  | .local _ .vmem, ⟨52, _⟩ => ⟨S2048x64, .f32⟩
  | .local _ .vmem, ⟨53, _⟩ => ⟨S2048x64, .f32⟩
  | .local _ .vmem, ⟨54, _⟩ => ⟨S64x32, .f32⟩
  | .local _ .vmem, ⟨55, _⟩ => ⟨S2048x32, .f32⟩
  | .local _ .vmem, ⟨56, _⟩ => ⟨S2048x32, .f32⟩
  | .local _ .vmem, ⟨57, _⟩ => ⟨S4096, .i32⟩
  | .local _ .vmem, ⟨58, _⟩ => ⟨S4096, .i32⟩
  | .local _ .vmem, ⟨59, _⟩ => ⟨S4096, .f32⟩
  | .local _ .vmem, ⟨60, _⟩ => ⟨S4096, .f32⟩
  | .local _ .vmem, ⟨61, _⟩ => ⟨S2048x32, .f32⟩
  | .local _ .vmem, ⟨62, _⟩ => ⟨S2048x32, .f32⟩
  | .local _ .vmem, ⟨63, _⟩ => ⟨S4096x32, .f32⟩
  | .local _ .vmem, ⟨64, _⟩ => ⟨S4096x32, .f32⟩
  | .local _ .vmem, ⟨65, _⟩ => ⟨S4096x32, .f32⟩
  | .local _ .vmem, ⟨66, _⟩ => ⟨S4096, .i32⟩
  | .local _ .vmem, ⟨67, _⟩ => ⟨S4096, .i32⟩
  | .local _ .vmem, ⟨68, _⟩ => ⟨S4096x32, .f32⟩
  | .local _ .vmem, ⟨69, _⟩ => ⟨S4096x32, .f32⟩
  | .local _ .vmem, ⟨70, _⟩ => ⟨S2048x32, .f32⟩
  | .local _ .vmem, ⟨71, _⟩ => ⟨S2048x32, .f32⟩
  | .local _ .vmem, ⟨72, _⟩ => ⟨S2048, .f32⟩
  | .local _ .vmem, ⟨73, _⟩ => ⟨S2048, .f32⟩
  | .local _ .vmem, ⟨74, _⟩ => ⟨S1x32, .f32⟩
  | .local _ .vmem, ⟨75, _⟩ => ⟨S2048x32, .f32⟩
  | .local _ .vmem, ⟨76, _⟩ => ⟨S2048x32, .f32⟩
  | .local _ .vmem, ⟨77, _⟩ => ⟨S2048x32, .f32⟩
  | .local _ .vmem, ⟨78, _⟩ => ⟨S2048, .i32⟩
  | .local _ .vmem, ⟨79, _⟩ => ⟨S2048, .i32⟩
  | .local _ .vmem, ⟨80, _⟩ => ⟨S2048x32, .f32⟩
  | .local _ .vmem, ⟨81, _⟩ => ⟨S2048x32, .f32⟩
  | .local _ .vmem, ⟨82, _⟩ => ⟨S64x32, .f32⟩
  | .local _ .vmem, ⟨83, _⟩ => ⟨S64x1, .f32⟩
  | .local _ .smem, ⟨0, _⟩ => ⟨S391, .i32⟩
  | .local _ .smem, ⟨1, _⟩ => ⟨S391, .i32⟩
  | .local _ .smem, ⟨2, _⟩ => ⟨S391, .i32⟩
  | .local _ .smem, ⟨3, _⟩ => ⟨S391, .i32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_cst_3 : Ref sig .tc := ⟨.hbm, 36, rfl⟩
abbrev main_v15 : Ref sig .tc := ⟨.hbm, 37, rfl⟩
abbrev main_v16 : Ref sig .tc := ⟨.hbm, 38, rfl⟩
abbrev main_c_4 : Ref sig .tc := ⟨.hbm, 39, rfl⟩
abbrev main_v17 : Ref sig .tc := ⟨.hbm, 40, rfl⟩
abbrev main_v18 : Ref sig .tc := ⟨.hbm, 41, rfl⟩
abbrev main_c_5 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_6 : Ref sig .tc := ⟨.hbm, 48, rfl⟩
abbrev main_v24 : Ref sig .tc := ⟨.hbm, 49, rfl⟩
abbrev main_v25 : Ref sig .tc := ⟨.hbm, 50, rfl⟩
abbrev main_c_7 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_8 : Ref sig .tc := ⟨.hbm, 59, rfl⟩
abbrev main_call0_v0 : Ref sig .tc := ⟨.hbm, 60, rfl⟩
abbrev main_v33 : Ref sig .tc := ⟨.hbm, 61, rfl⟩
abbrev main_c_9 : Ref sig .tc := ⟨.hbm, 62, rfl⟩
abbrev main_call1_v0 : Ref sig .tc := ⟨.hbm, 63, rfl⟩
abbrev main_v34 : Ref sig .tc := ⟨.hbm, 64, rfl⟩
abbrev main_c_10 : Ref sig .tc := ⟨.hbm, 65, rfl⟩
abbrev main_call2_v0 : Ref sig .tc := ⟨.hbm, 66, rfl⟩
abbrev main_v35 : Ref sig .tc := ⟨.hbm, 67, rfl⟩
abbrev main_call3_v0 : Ref sig .tc := ⟨.hbm, 68, rfl⟩
abbrev main_call3_v1_0 : Ref sig .tc := ⟨.hbm, 69, rfl⟩
abbrev main_v36 : Ref sig .tc := ⟨.hbm, 70, rfl⟩
abbrev main_call4_v0 : Ref sig .tc := ⟨.hbm, 71, rfl⟩
abbrev main_call4_v1_0 : Ref sig .tc := ⟨.hbm, 72, rfl⟩
abbrev main_v37 : Ref sig .tc := ⟨.hbm, 73, rfl⟩
abbrev main_call5_v0 : Ref sig .tc := ⟨.hbm, 74, rfl⟩
abbrev main_call5_v1_0 : Ref sig .tc := ⟨.hbm, 75, rfl⟩
abbrev main_v38 : Ref sig .tc := ⟨.hbm, 76, rfl⟩
abbrev main_c_11 : Ref sig .tc := ⟨.hbm, 77, rfl⟩
abbrev main_v39 : Ref sig .tc := ⟨.hbm, 78, rfl⟩
abbrev main_v40 : Ref sig .tc := ⟨.hbm, 79, rfl⟩
abbrev main_c_12 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_c_13 : Ref sig .tc := ⟨.hbm, 86, rfl⟩
abbrev main_v46 : Ref sig .tc := ⟨.hbm, 87, rfl⟩
abbrev main_v47 : Ref sig .tc := ⟨.hbm, 88, rfl⟩
abbrev main_c_14 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_c_15 : Ref sig .tc := ⟨.hbm, 95, rfl⟩
abbrev main_v53 : Ref sig .tc := ⟨.hbm, 96, rfl⟩
abbrev main_v54 : Ref sig .tc := ⟨.hbm, 97, rfl⟩
abbrev main_c_16 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_c_17 : Ref sig .tc := ⟨.hbm, 104, rfl⟩
abbrev main_v60 : Ref sig .tc := ⟨.hbm, 105, rfl⟩
abbrev main_v61 : Ref sig .tc := ⟨.hbm, 106, rfl⟩
abbrev main_c_18 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_c_19 : Ref sig .tc := ⟨.hbm, 114, rfl⟩
abbrev main_v69 : Ref sig .tc := ⟨.hbm, 115, rfl⟩
abbrev main_c_20 : Ref sig .tc := ⟨.hbm, 116, rfl⟩
abbrev main_v71 : Ref sig .tc := ⟨.hbm, 117, rfl⟩
abbrev main_c_21 : Ref sig .tc := ⟨.hbm, 118, rfl⟩
abbrev main_v73 : Ref sig .tc := ⟨.hbm, 119, rfl⟩
abbrev main_c_22 : Ref sig .tc := ⟨.hbm, 120, rfl⟩
abbrev main_c_23 : Ref sig .tc := ⟨.hbm, 121, rfl⟩
abbrev main_call6_v0 : Ref sig .tc := ⟨.hbm, 122, rfl⟩
abbrev main_v75 : Ref sig .tc := ⟨.hbm, 123, rfl⟩
abbrev main_c_24 : Ref sig .tc := ⟨.hbm, 124, rfl⟩
abbrev main_call7_v0 : Ref sig .tc := ⟨.hbm, 125, rfl⟩
abbrev main_v76 : Ref sig .tc := ⟨.hbm, 126, rfl⟩
abbrev main_c_25 : Ref sig .tc := ⟨.hbm, 127, rfl⟩
abbrev main_call8_v0 : Ref sig .tc := ⟨.hbm, 128, rfl⟩
abbrev main_v77 : Ref sig .tc := ⟨.hbm, 129, rfl⟩
abbrev main_v78 : Ref sig .tc := ⟨.hbm, 130, rfl⟩
abbrev main_c_26 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_c_27 : Ref sig .tc := ⟨.hbm, 138, rfl⟩
abbrev main_v85 : Ref sig .tc := ⟨.hbm, 139, rfl⟩
abbrev main_v86 : Ref sig .tc := ⟨.hbm, 140, rfl⟩
abbrev main_c_28 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_c_29 : Ref sig .tc := ⟨.hbm, 153, rfl⟩
abbrev main_v98 : Ref sig .tc := ⟨.hbm, 154, rfl⟩
abbrev main_v99 : Ref sig .tc := ⟨.hbm, 155, rfl⟩
abbrev main_c_30 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_c_31 : Ref sig .tc := ⟨.hbm, 168, rfl⟩
abbrev main_v111 : Ref sig .tc := ⟨.hbm, 169, rfl⟩
abbrev main_v112 : Ref sig .tc := ⟨.hbm, 170, rfl⟩
abbrev main_c_32 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122_0 : Ref sig .tc := ⟨.hbm, 181, rfl⟩
abbrev main_v122_1 : Ref sig .tc := ⟨.hbm, 182, rfl⟩
abbrev main_cst_33 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_call9_cst : Ref sig .tc := ⟨.hbm, 192, rfl⟩
abbrev main_call9_v0 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_call10_cst : Ref sig .tc := ⟨.hbm, 200, rfl⟩
abbrev main_call10_v0 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_v68 : Ref sig .tc := ⟨.smem, 0, rfl⟩
abbrev main_v70 : Ref sig .tc := ⟨.smem, 1, rfl⟩
abbrev main_v72 : Ref sig .tc := ⟨.smem, 2, rfl⟩
abbrev main_v74 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc2_scratch0 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg2_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg3_1 : Ref sig .tc := ⟨.vmem, 38, rfl⟩
abbrev cc4_scratch0 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg2_1 : Ref sig .tc := ⟨.vmem, 45, rfl⟩
abbrev cc5_stg3_0 : Ref sig .tc := ⟨.vmem, 46, rfl⟩
abbrev cc5_stg3_1 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg5_1 : Ref sig .tc := ⟨.vmem, 50, rfl⟩
abbrev cc5_scratch0 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg2_0 : Ref sig .tc := ⟨.vmem, 55, rfl⟩
abbrev cc6_stg2_1 : Ref sig .tc := ⟨.vmem, 56, rfl⟩
abbrev cc7_stg0_0 : Ref sig .tc := ⟨.vmem, 57, rfl⟩
abbrev cc7_stg0_1 : Ref sig .tc := ⟨.vmem, 58, rfl⟩
abbrev cc7_stg1_0 : Ref sig .tc := ⟨.vmem, 59, rfl⟩
abbrev cc7_stg1_1 : Ref sig .tc := ⟨.vmem, 60, rfl⟩
abbrev cc7_stg2_0 : Ref sig .tc := ⟨.vmem, 61, rfl⟩
abbrev cc7_stg2_1 : Ref sig .tc := ⟨.vmem, 62, rfl⟩
abbrev cc7_stg3_0 : Ref sig .tc := ⟨.vmem, 63, rfl⟩
abbrev cc7_stg3_1 : Ref sig .tc := ⟨.vmem, 64, rfl⟩
abbrev cc7_scratch0 : Ref sig .tc := ⟨.vmem, 65, rfl⟩
abbrev cc8_stg0_0 : Ref sig .tc := ⟨.vmem, 66, rfl⟩
abbrev cc8_stg0_1 : Ref sig .tc := ⟨.vmem, 67, rfl⟩
abbrev cc8_stg1_0 : Ref sig .tc := ⟨.vmem, 68, rfl⟩
abbrev cc8_stg1_1 : Ref sig .tc := ⟨.vmem, 69, rfl⟩
abbrev cc8_stg2_0 : Ref sig .tc := ⟨.vmem, 70, rfl⟩
abbrev cc8_stg2_1 : Ref sig .tc := ⟨.vmem, 71, rfl⟩
abbrev cc8_stg3_0 : Ref sig .tc := ⟨.vmem, 72, rfl⟩
abbrev cc8_stg3_1 : Ref sig .tc := ⟨.vmem, 73, rfl⟩
abbrev cc8_stg4_0 : Ref sig .tc := ⟨.vmem, 74, rfl⟩
abbrev cc8_stg5_0 : Ref sig .tc := ⟨.vmem, 75, rfl⟩
abbrev cc8_stg5_1 : Ref sig .tc := ⟨.vmem, 76, rfl⟩
abbrev cc8_scratch0 : Ref sig .tc := ⟨.vmem, 77, rfl⟩
abbrev cc9_stg0_0 : Ref sig .tc := ⟨.vmem, 78, rfl⟩
abbrev cc9_stg0_1 : Ref sig .tc := ⟨.vmem, 79, rfl⟩
abbrev cc9_stg1_0 : Ref sig .tc := ⟨.vmem, 80, rfl⟩
abbrev cc9_stg1_1 : Ref sig .tc := ⟨.vmem, 81, rfl⟩
abbrev cc9_stg2_0 : Ref sig .tc := ⟨.vmem, 82, rfl⟩
abbrev cc9_stg3_0 : Ref sig .tc := ⟨.vmem, 83, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem3_1 : DmaSem sig := 36
abbrev cc5_sem0_0 : DmaSem sig := 37
abbrev cc5_sem0_1 : DmaSem sig := 38
abbrev cc5_sem1_0 : DmaSem sig := 39
abbrev cc5_sem1_1 : DmaSem sig := 40
abbrev cc5_sem2_0 : DmaSem sig := 41
abbrev cc5_sem2_1 : DmaSem sig := 42
abbrev cc5_sem3_0 : DmaSem sig := 43
abbrev cc5_sem3_1 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem2_1 : DmaSem sig := 52
abbrev cc7_sem0_0 : DmaSem sig := 53
abbrev cc7_sem0_1 : DmaSem sig := 54
abbrev cc7_sem1_0 : DmaSem sig := 55
abbrev cc7_sem1_1 : DmaSem sig := 56
abbrev cc7_sem2_0 : DmaSem sig := 57
abbrev cc7_sem2_1 : DmaSem sig := 58
abbrev cc7_sem3_0 : DmaSem sig := 59
abbrev cc7_sem3_1 : DmaSem sig := 60
abbrev cc8_sem0_0 : DmaSem sig := 61
abbrev cc8_sem0_1 : DmaSem sig := 62
abbrev cc8_sem1_0 : DmaSem sig := 63
abbrev cc8_sem1_1 : DmaSem sig := 64
abbrev cc8_sem2_0 : DmaSem sig := 65
abbrev cc8_sem2_1 : DmaSem sig := 66
abbrev cc8_sem3_0 : DmaSem sig := 67
abbrev cc8_sem3_1 : DmaSem sig := 68
abbrev cc8_sem4_0 : DmaSem sig := 69
abbrev cc8_sem5_0 : DmaSem sig := 70
abbrev cc8_sem5_1 : DmaSem sig := 71
abbrev cc9_sem0_0 : DmaSem sig := 72
abbrev cc9_sem0_1 : DmaSem sig := 73
abbrev cc9_sem1_0 : DmaSem sig := 74
abbrev cc9_sem1_1 : DmaSem sig := 75
abbrev cc9_sem2_0 : DmaSem sig := 76
abbrev cc9_sem3_0 : DmaSem sig := 77

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![391, 49], ![false, false]⟩

abbrev pre1 : Pipeline.Prefetch sig := ⟨2, ![main_v68.idx, main_v70.idx], fun | 0 => main_v68.names | 1 => main_v70.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v5 : Index := Scalar.indexCast arg0
  ![v5.toNat]
def k1_cond3 (i : grid1.Coords) : BitVec 1 :=
  let arg1 : BitVec 32 := BitVec.ofNat 32 (i 1).val
  let c48_i32 : BitVec 32 := 48#32
  let v14 : BitVec 1 := Scalar.cmpi .eq arg1 c48_i32
  let v15 : BitVec 32 := Scalar.extui v14
  let c0_i32_3 : BitVec 32 := 0#32
  let v16 : BitVec 1 := Scalar.cmpi .ne v15 c0_i32_3
  v16

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S4096x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![49, 391], ![false, false]⟩

abbrev pre2 : Pipeline.Prefetch sig := ⟨2, ![main_v72.idx, main_v74.idx], fun | 0 => main_v72.names | 1 => main_v74.names | ⟨_ + 2, h⟩ => absurd h (Nat.not_lt.2 (Nat.le_add_left _ _)), fun | 0 => rfl | 1 => rfl | ⟨_ + 2, h⟩ => absurd h (Nat.not_lt.2 (Nat.le_add_left _ _))⟩

def k2_off1 (i : grid2.Coords) : Fin 1 → Nat :=
  let arg1 : BitVec 32 := BitVec.ofNat 32 (i 1).val
  let v5 : Index := Scalar.indexCast arg1
  ![v5.toNat]
def k2_cond3 (i : grid2.Coords) : BitVec 1 :=
  let arg1 : BitVec 32 := BitVec.ofNat 32 (i 1).val
  let c390_i32 : BitVec 32 := 390#32
  let v14 : BitVec 1 := Scalar.cmpi .eq arg1 c390_i32
  let v15 : BitVec 32 := Scalar.extui v14
  let c0_i32_3 : BitVec 32 := 0#32
  let v16 : BitVec 1 := Scalar.cmpi .ne v15 c0_i32_3
  v16

def cc2_transform_0 (i : grid2.Coords) : Fin 1 → Nat :=
  let arg0 : BitVec 32 := BitVec.ofNat 32 (i 0).val
  let arg1 : BitVec 32 := BitVec.ofNat 32 (i 1).val
  let c0_i32 : BitVec 32 := 0#32
  ![arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let arg1 : BitVec 32 := BitVec.ofNat 32 (i 1).val
  let c0_i32 : BitVec 32 := 0#32
  ![arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S4096 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S4096x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S2048x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev grid3 : Pipeline.Grid := ⟨1, ![49], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2048x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![391, 49], ![false, false]⟩

abbrev pre4 : Pipeline.Prefetch sig := ⟨2, ![main_v68.idx, main_v70.idx], fun | 0 => main_v68.names | 1 => main_v70.names | ⟨_ + 2, h⟩ => absurd h (Nat.not_lt.2 (Nat.le_add_left _ _)), fun | 0 => rfl | 1 => rfl | ⟨_ + 2, h⟩ => absurd h (Nat.not_lt.2 (Nat.le_add_left _ _))⟩

def k4_off1 (i : grid4.Coords) : Fin 1 → Nat :=
  let arg0 : BitVec 32 := BitVec.ofNat 32 (i 0).val
  let v5 : Index := Scalar.indexCast arg0
  ![v5.toNat]
def k4_cond3 (i : grid4.Coords) : BitVec 1 :=
  let arg1 : BitVec 32 := BitVec.ofNat 32 (i 1).val
  let c48_i32 : BitVec 32 := 48#32
  let v14 : BitVec 1 := Scalar.cmpi .eq arg1 c48_i32
  let v15 : BitVec 32 := Scalar.extui v14
  let c0_i32_3 : BitVec 32 := 0#32
  let v16 : BitVec 1 := Scalar.cmpi .ne v15 c0_i32_3
  v16

def cc4_transform_0 (i : grid4.Coords) : Fin 1 → Nat :=
  let arg0 : BitVec 32 := BitVec.ofNat 32 (i 0).val
  let arg1 : BitVec 32 := BitVec.ofNat 32 (i 1).val
  let c0_i32 : BitVec 32 := 0#32
  ![arg0.toNat]

def cc4_transform_1 (i : grid4.Coords) : Fin 1 → Nat :=
  let arg0 : BitVec 32 := BitVec.ofNat 32 (i 0).val
  let arg1 : BitVec 32 := BitVec.ofNat 32 (i 1).val
  let c0_i32 : BitVec 32 := 0#32
  ![arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S4096 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4096 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S2048x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S4096x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![49, 391], ![false, false]⟩

abbrev pre5 : Pipeline.Prefetch sig := ⟨2, ![main_v72.idx, main_v74.idx], fun | 0 => main_v72.names | 1 => main_v74.names | ⟨_ + 2, h⟩ => absurd h (Nat.not_lt.2 (Nat.le_add_left _ _)), fun | 0 => rfl | 1 => rfl | ⟨_ + 2, h⟩ => absurd h (Nat.not_lt.2 (Nat.le_add_left _ _))⟩

def k5_off1 (i : grid5.Coords) : Fin 1 → Nat :=
  let arg1 : BitVec 32 := BitVec.ofNat 32 (i 1).val
  let v5 : Index := Scalar.indexCast arg1
  ![v5.toNat]
def k5_cond3 (i : grid5.Coords) : BitVec 1 :=
  let arg1 : BitVec 32 := BitVec.ofNat 32 (i 1).val
  let c390_i32 : BitVec 32 := 390#32
  let v14 : BitVec 1 := Scalar.cmpi .eq arg1 c390_i32
  let v15 : BitVec 32 := Scalar.extui v14
  let c0_i32_3 : BitVec 32 := 0#32
  let v16 : BitVec 1 := Scalar.cmpi .ne v15 c0_i32_3
  v16

def cc5_transform_0 (i : grid5.Coords) : Fin 1 → Nat :=
  let arg0 : BitVec 32 := BitVec.ofNat 32 (i 0).val
  let arg1 : BitVec 32 := BitVec.ofNat 32 (i 1).val
  let c0_i32 : BitVec 32 := 0#32
  ![arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_3 (i : grid5.Coords) : Fin 1 → Nat :=
  let arg0 : BitVec 32 := BitVec.ofNat 32 (i 0).val
  let arg1 : BitVec 32 := BitVec.ofNat 32 (i 1).val
  let c0_i32 : BitVec 32 := 0#32
  ![arg0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S4096 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S4096x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S2048x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S2048 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

abbrev stage5_5 : Fin 2 → Memref sig .tc .vmem S2048x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, false]

abbrev grid6 : Pipeline.Grid := ⟨1, ![49], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2048x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2048x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨2, ![391, 49], ![false, false]⟩

abbrev pre7 : Pipeline.Prefetch sig := ⟨2, ![main_v68.idx, main_v70.idx], fun | 0 => main_v68.names | 1 => main_v70.names | ⟨_ + 2, h⟩ => absurd h (Nat.not_lt.2 (Nat.le_add_left _ _)), fun | 0 => rfl | 1 => rfl | ⟨_ + 2, h⟩ => absurd h (Nat.not_lt.2 (Nat.le_add_left _ _))⟩

def k7_off1 (i : grid7.Coords) : Fin 1 → Nat :=
  let arg0 : BitVec 32 := BitVec.ofNat 32 (i 0).val
  let v5 : Index := Scalar.indexCast arg0
  ![v5.toNat]
def k7_cond3 (i : grid7.Coords) : BitVec 1 :=
  let arg1 : BitVec 32 := BitVec.ofNat 32 (i 1).val
  let c48_i32 : BitVec 32 := 48#32
  let v14 : BitVec 1 := Scalar.cmpi .eq arg1 c48_i32
  let v15 : BitVec 32 := Scalar.extui v14
  let c0_i32_3 : BitVec 32 := 0#32
  let v16 : BitVec 1 := Scalar.cmpi .ne v15 c0_i32_3
  v16

def cc7_transform_0 (i : grid7.Coords) : Fin 1 → Nat :=
  let arg0 : BitVec 32 := BitVec.ofNat 32 (i 0).val
  let arg1 : BitVec 32 := BitVec.ofNat 32 (i 1).val
  let c0_i32 : BitVec 32 := 0#32
  ![arg0.toNat]

def cc7_transform_1 (i : grid7.Coords) : Fin 1 → Nat :=
  let arg0 : BitVec 32 := BitVec.ofNat 32 (i 0).val
  let arg1 : BitVec 32 := BitVec.ofNat 32 (i 1).val
  let c0_i32 : BitVec 32 := 0#32
  ![arg0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S4096 .i32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S4096 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

abbrev stage7_2 : Fin 2 → Memref sig .tc .vmem S2048x32 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![false, true]

abbrev stage7_3 : Fin 2 → Memref sig .tc .vmem S4096x32 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false]

abbrev grid8 : Pipeline.Grid := ⟨2, ![49, 391], ![false, false]⟩

abbrev pre8 : Pipeline.Prefetch sig := ⟨2, ![main_v72.idx, main_v74.idx], fun | 0 => main_v72.names | 1 => main_v74.names | ⟨_ + 2, h⟩ => absurd h (Nat.not_lt.2 (Nat.le_add_left _ _)), fun | 0 => rfl | 1 => rfl | ⟨_ + 2, h⟩ => absurd h (Nat.not_lt.2 (Nat.le_add_left _ _))⟩

def k8_off1 (i : grid8.Coords) : Fin 1 → Nat :=
  let arg1 : BitVec 32 := BitVec.ofNat 32 (i 1).val
  let v5 : Index := Scalar.indexCast arg1
  ![v5.toNat]
def k8_cond3 (i : grid8.Coords) : BitVec 1 :=
  let arg1 : BitVec 32 := BitVec.ofNat 32 (i 1).val
  let c390_i32 : BitVec 32 := 390#32
  let v14 : BitVec 1 := Scalar.cmpi .eq arg1 c390_i32
  let v15 : BitVec 32 := Scalar.extui v14
  let c0_i32_3 : BitVec 32 := 0#32
  let v16 : BitVec 1 := Scalar.cmpi .ne v15 c0_i32_3
  v16

def cc8_transform_0 (i : grid8.Coords) : Fin 1 → Nat :=
  let arg0 : BitVec 32 := BitVec.ofNat 32 (i 0).val
  let arg1 : BitVec 32 := BitVec.ofNat 32 (i 1).val
  let c0_i32 : BitVec 32 := 0#32
  ![arg1.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_3 (i : grid8.Coords) : Fin 1 → Nat :=
  let arg0 : BitVec 32 := BitVec.ofNat 32 (i 0).val
  let arg1 : BitVec 32 := BitVec.ofNat 32 (i 1).val
  let c0_i32 : BitVec 32 := 0#32
  ![arg0.toNat]

def cc8_transform_4 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage8_0 : Fin 2 → Memref sig .tc .vmem S4096 .i32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![false, true]

abbrev stage8_1 : Fin 2 → Memref sig .tc .vmem S4096x32 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S2048x32 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, false]

abbrev stage8_3 : Fin 2 → Memref sig .tc .vmem S2048 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, false]

abbrev stage8_4 : Fin 1 → Memref sig .tc .vmem S1x32 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false, false]

abbrev stage8_5 : Fin 2 → Memref sig .tc .vmem S2048x32 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true, false]

abbrev grid9 : Pipeline.Grid := ⟨1, ![49], ![false]⟩

def cc9_transform_0 (i : grid9.Coords) : Fin 1 → Nat :=
  let arg0 : BitVec 32 := BitVec.ofNat 32 (i 0).val
  let c0_i32 : BitVec 32 := 0#32
  ![arg0.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S2048 .i32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2048x32 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S64x32 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S64x1 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  pads_S1600000_S1601536_015360 : S1600000.Pads (![0] : Fin 1 → Nat) ![1536] ![0] S1601536
  h_S_ : 0 < S_.numel
  bcast_S_S1601536 : S_.BroadcastsInDim S1601536 (![] : Fin 0 → Fin S1601536.rank)
  bcast_S1601536_S1601536x1_0 : S1601536.BroadcastsInDim S1601536x1 (![0] : Fin 1 → Fin S1601536x1.rank)
  shapeCasts_S1601536_S391x4096 : S1601536.ShapeCasts S391x4096
  reducesTo_S391x4096_S391_d1 : S391x4096.ReducesTo [1] S391
  pads_S100000x128_S100352x128_03520_000 : S100000x128.Pads (![0, 0] : Fin 2 → Nat) ![352, 0] ![0, 0] S100352x128
  pads_S100000_S100352_03520 : S100000.Pads (![0] : Fin 1 → Nat) ![352] ![0] S100352
  bcast_S_S100352 : S_.BroadcastsInDim S100352 (![] : Fin 0 → Fin S100352.rank)
  bcast_S100352_S100352x1_0 : S100352.BroadcastsInDim S100352x1 (![0] : Fin 1 → Fin S100352x1.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S2048x16_S2048x16_0_0 : ∀ a, (![0, 0] : Fin 2 → Nat) a + S2048x16.size a ≤ S2048x16.size a
  h_S2048x16 : 0 < S2048x16.numel
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  numel1_S1 : S1.numel = 1
  inb_S4096_S4096_0 : ∀ a, (![0] : Fin 1 → Nat) a + S4096.size a ≤ S4096.size a
  h_S4096 : 0 < S4096.numel
  shapeCasts_S4096_S4096 : S4096.ShapeCasts S4096
  shapeCasts_S4096_S4096x1 : S4096.ShapeCasts S4096x1
  iota_S1x2048_d1_w32 : S1x2048.Iotas .tc 32 [1]
  broadcasts_S4096x1_S4096x2048 : S4096x1.Broadcasts S4096x2048
  broadcasts_S1x2048_S4096x2048 : S1x2048.Broadcasts S4096x2048
  natLt_1_32 : 1 < 32
  shapeCasts_S2048x16_S2048x16 : S2048x16.ShapeCasts S2048x16
  broadcasts_S4096x1_S4096x16 : S4096x1.Broadcasts S4096x16
  shapeCasts_S16_S1x16 : S16.ShapeCasts S1x16
  inb_S2048_S2048_0 : ∀ a, (![0] : Fin 1 → Nat) a + S2048.size a ≤ S2048.size a
  h_S2048 : 0 < S2048.numel
  shapeCasts_S2048_S2048 : S2048.ShapeCasts S2048
  shapeCasts_S2048_S2048x1 : S2048.ShapeCasts S2048x1
  broadcasts_S2048x1_S2048x16 : S2048x1.Broadcasts S2048x16
  shapeCasts_S4096_S1x4096 : S4096.ShapeCasts S1x4096
  iota_S2048x1_d0_w32 : S2048x1.Iotas .tc 32 [0]
  broadcasts_S2048x1_S2048x4096 : S2048x1.Broadcasts S2048x4096
  broadcasts_S1x4096_S2048x4096 : S1x4096.Broadcasts S2048x4096
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  bcast_S100352x1_S100352x16_0_1 : S100352x1.BroadcastsInDim S100352x16 (![0, 1] : Fin 2 → Fin S100352x16.rank)
  inb_S16x64_S16x64_0_0 : ∀ a, (![0, 0] : Fin 2 → Nat) a + S16x64.size a ≤ S16x64.size a
  h_S16x64 : 0 < S16x64.numel
  inb_S2048x64_S2048x64_0_0 : ∀ a, (![0, 0] : Fin 2 → Nat) a + S2048x64.size a ≤ S2048x64.size a
  h_S2048x64 : 0 < S2048x64.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  shapeCasts_S2048x64_S2048x64 : S2048x64.ShapeCasts S2048x64
  broadcasts_S4096x1_S4096x64 : S4096x1.Broadcasts S4096x64
  shapeCasts_S64_S1x64 : S64.ShapeCasts S1x64
  broadcasts_S2048x1_S2048x64 : S2048x1.Broadcasts S2048x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  bcast_S100352x1_S100352x64_0_1 : S100352x1.BroadcastsInDim S100352x64 (![0, 1] : Fin 2 → Fin S100352x64.rank)
  inb_S64x32_S64x32_0_0 : ∀ a, (![0, 0] : Fin 2 → Nat) a + S64x32.size a ≤ S64x32.size a
  h_S64x32 : 0 < S64x32.numel
  inb_S2048x32_S2048x32_0_0 : ∀ a, (![0, 0] : Fin 2 → Nat) a + S2048x32.size a ≤ S2048x32.size a
  h_S2048x32 : 0 < S2048x32.numel
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  shapeCasts_S2048x32_S2048x32 : S2048x32.ShapeCasts S2048x32
  broadcasts_S4096x1_S4096x32 : S4096x1.Broadcasts S4096x32
  shapeCasts_S32_S1x32 : S32.ShapeCasts S1x32
  broadcasts_S2048x1_S2048x32 : S2048x1.Broadcasts S2048x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  bcast_S100352x1_S100352x32_0_1 : S100352x1.BroadcastsInDim S100352x32 (![0, 1] : Fin 2 → Fin S100352x32.rank)
  inb_S64x1_S64x1_0_0 : ∀ a, (![0, 0] : Fin 2 → Nat) a + S64x1.size a ≤ S64x1.size a
  h_S64x1 : 0 < S64x1.numel
  shapeCasts_S2048_S1x2048 : S2048.ShapeCasts S1x2048
  iota_S64x1_d0_w32 : S64x1.Iotas .tc 32 [0]
  broadcasts_S64x1_S64x2048 : S64x1.Broadcasts S64x2048
  broadcasts_S1x2048_S64x2048 : S1x2048.Broadcasts S64x2048
  shapeCasts_S64x32_S64x32 : S64x32.ShapeCasts S64x32
  shapeCasts_S64x1_S64x1 : S64x1.ShapeCasts S64x1
  reduces_S64x2048_S64 : S64x2048.Reduces [1] S64
  shapeCasts_S64_S64x1 : S64.ShapeCasts S64x1
  bcast_S_S64x1 : S_.BroadcastsInDim S64x1 (![] : Fin 0 → Fin S64x1.rank)
  bcast_S64x1_S64x32_0_1 : S64x1.BroadcastsInDim S64x32 (![0, 1] : Fin 2 → Fin S64x32.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  concatenates_S64x64_S64x4_S64x68_d1 : Shape.Concatenates [S64x64, S64x4] S64x68 1
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  bcast_S_S64x10 : S_.BroadcastsInDim S64x10 (![] : Fin 0 → Fin S64x10.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S1601536_S1601536x1_S1601536_n_0_n_n_0_1_1_wf : GatherDims.WF S1601536 S1601536x1 S1601536 [] [0] [] [0] [] 1 ![1]
  dot_S2048x128_S128x16_S2048x16_1_0_0_1_n_n_wf : DotDims.WF S2048x128 S128x16 S2048x16 [1] [0] [0] [1] [] []
  dot_S4096x2048_S2048x16_S4096x16_1_0_0_1_n_n_wf : DotDims.WF S4096x2048 S2048x16 S4096x16 [1] [0] [0] [1] [] []
  gather_S1601536x16_S1601536x1_S1601536x16_1_0_n_n_0_1_116_wf : GatherDims.WF S1601536x16 S1601536x1 S1601536x16 [1] [0] [] [0] [] 1 ![1, 16]
  dot_S2048x4096_S4096x16_S2048x16_1_0_0_1_n_n_wf : DotDims.WF S2048x4096 S4096x16 S2048x16 [1] [0] [0] [1] [] []
  dot_S2048x16_S16x64_S2048x64_1_0_0_1_n_n_wf : DotDims.WF S2048x16 S16x64 S2048x64 [1] [0] [0] [1] [] []
  dot_S4096x2048_S2048x64_S4096x64_1_0_0_1_n_n_wf : DotDims.WF S4096x2048 S2048x64 S4096x64 [1] [0] [0] [1] [] []
  gather_S1601536x64_S1601536x1_S1601536x64_1_0_n_n_0_1_164_wf : GatherDims.WF S1601536x64 S1601536x1 S1601536x64 [1] [0] [] [0] [] 1 ![1, 64]
  dot_S2048x4096_S4096x64_S2048x64_1_0_0_1_n_n_wf : DotDims.WF S2048x4096 S4096x64 S2048x64 [1] [0] [0] [1] [] []
  dot_S2048x64_S64x32_S2048x32_1_0_0_1_n_n_wf : DotDims.WF S2048x64 S64x32 S2048x32 [1] [0] [0] [1] [] []
  dot_S4096x2048_S2048x32_S4096x32_1_0_0_1_n_n_wf : DotDims.WF S4096x2048 S2048x32 S4096x32 [1] [0] [0] [1] [] []
  gather_S1601536x32_S1601536x1_S1601536x32_1_0_n_n_0_1_132_wf : GatherDims.WF S1601536x32 S1601536x1 S1601536x32 [1] [0] [] [0] [] 1 ![1, 32]
  dot_S2048x4096_S4096x32_S2048x32_1_0_0_1_n_n_wf : DotDims.WF S2048x4096 S4096x32 S2048x32 [1] [0] [0] [1] [] []
  dot_S64x2048_S2048x32_S64x32_1_0_0_1_n_n_wf : DotDims.WF S64x2048 S2048x32 S64x32 [1] [0] [0] [1] [] []
  dot_S64x32_S32x64_S64x64_1_0_0_1_n_n_wf : DotDims.WF S64x32 S32x64 S64x64 [1] [0] [0] [1] [] []
  dot_S64x68_S68x10_S64x10_1_0_0_1_n_n_wf : DotDims.WF S64x68 S68x10 S64x10 [1] [0] [0] [1] [] []
  dot_S64x10_S10x1_S64x1_1_0_0_1_n_n_wf : DotDims.WF S64x10 S10x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S100352x128.size a
  hwx0_0 : ∀ i : grid0.Coords, EltTy.bits .f32 = 32 ∨ (Rect.block (s := S100352x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x16.size a ≤ S100352x16.size a
  hwx0_2 : ∀ i : grid0.Coords, EltTy.bits .f32 = 32 ∨ (Rect.block (s := S100352x16) S2048x16.size (cc0_transform_2 i) (hinb0_2 i)).WholeWords (EltTy.packing .f32)
  hrank1 : 0 < grid1.rank
  k1_off1_inb : ∀ i : grid1.Coords, ∀ a, (k1_off1 i) a + S1.size a ≤ S391.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096.size a ≤ S1601536.size a
  hwx1_0 : ∀ i : grid1.Coords, EltTy.bits .i32 = 32 ∨ (Rect.block (s := S1601536) S4096.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096.size a ≤ S1601536.size a
  hwx1_1 : ∀ i : grid1.Coords, EltTy.bits .f32 = 32 ∨ (Rect.block (s := S1601536) S4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x16.size a ≤ S100352x16.size a
  hwx1_2 : ∀ i : grid1.Coords, EltTy.bits .f32 = 32 ∨ (Rect.block (s := S100352x16) S2048x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x16.size a ≤ S1601536x16.size a
  hwx1_3 : ∀ i : grid1.Coords, EltTy.bits .f32 = 32 ∨ (Rect.block (s := S1601536x16) S4096x16.size (cc1_transform_3 i) (hinb1_3 i)).WholeWords (EltTy.packing .f32)
  hrank2 : 0 < grid2.rank
  k2_off1_inb : ∀ i : grid2.Coords, ∀ a, (k2_off1 i) a + S1.size a ≤ S391.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096.size a ≤ S1601536.size a
  hwx2_0 : ∀ i : grid2.Coords, EltTy.bits .i32 = 32 ∨ (Rect.block (s := S1601536) S4096.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x16.size a ≤ S1601536x16.size a
  hwx2_1 : ∀ i : grid2.Coords, EltTy.bits .f32 = 32 ∨ (Rect.block (s := S1601536x16) S4096x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x16.size a ≤ S100352x16.size a
  hwx2_2 : ∀ i : grid2.Coords, EltTy.bits .f32 = 32 ∨ (Rect.block (s := S100352x16) S2048x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048.size a ≤ S100352.size a
  hwx2_3 : ∀ i : grid2.Coords, EltTy.bits .f32 = 32 ∨ (Rect.block (s := S100352) S2048.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2048x16.size a ≤ S100352x16.size a
  hwx2_5 : ∀ i : grid2.Coords, EltTy.bits .f32 = 32 ∨ (Rect.block (s := S100352x16) S2048x16.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x16.size a ≤ S100352x16.size a
  hwx3_0 : ∀ i : grid3.Coords, EltTy.bits .f32 = 32 ∨ (Rect.block (s := S100352x16) S2048x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x64.size a ≤ S16x64.size a
  hwx3_1 : ∀ i : grid3.Coords, EltTy.bits .f32 = 32 ∨ (Rect.block (s := S16x64) S16x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x64.size a ≤ S100352x64.size a
  hwx3_2 : ∀ i : grid3.Coords, EltTy.bits .f32 = 32 ∨ (Rect.block (s := S100352x64) S2048x64.size (cc3_transform_2 i) (hinb3_2 i)).WholeWords (EltTy.packing .f32)
  hrank4 : 0 < grid4.rank
  k4_off1_inb : ∀ i : grid4.Coords, ∀ a, (k4_off1 i) a + S1.size a ≤ S391.size a
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096.size a ≤ S1601536.size a
  hwx4_0 : ∀ i : grid4.Coords, EltTy.bits .i32 = 32 ∨ (Rect.block (s := S1601536) S4096.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096.size a ≤ S1601536.size a
  hwx4_1 : ∀ i : grid4.Coords, EltTy.bits .f32 = 32 ∨ (Rect.block (s := S1601536) S4096.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x64.size a ≤ S100352x64.size a
  hwx4_2 : ∀ i : grid4.Coords, EltTy.bits .f32 = 32 ∨ (Rect.block (s := S100352x64) S2048x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4096x64.size a ≤ S1601536x64.size a
  hwx4_3 : ∀ i : grid4.Coords, EltTy.bits .f32 = 32 ∨ (Rect.block (s := S1601536x64) S4096x64.size (cc4_transform_3 i) (hinb4_3 i)).WholeWords (EltTy.packing .f32)
  hrank5 : 0 < grid5.rank
  k5_off1_inb : ∀ i : grid5.Coords, ∀ a, (k5_off1 i) a + S1.size a ≤ S391.size a
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4096.size a ≤ S1601536.size a
  hwx5_0 : ∀ i : grid5.Coords, EltTy.bits .i32 = 32 ∨ (Rect.block (s := S1601536) S4096.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4096x64.size a ≤ S1601536x64.size a
  hwx5_1 : ∀ i : grid5.Coords, EltTy.bits .f32 = 32 ∨ (Rect.block (s := S1601536x64) S4096x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x64.size a ≤ S100352x64.size a
  hwx5_2 : ∀ i : grid5.Coords, EltTy.bits .f32 = 32 ∨ (Rect.block (s := S100352x64) S2048x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2048.size a ≤ S100352.size a
  hwx5_3 : ∀ i : grid5.Coords, EltTy.bits .f32 = 32 ∨ (Rect.block (s := S100352) S2048.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2048x64.size a ≤ S100352x64.size a
  hwx5_5 : ∀ i : grid5.Coords, EltTy.bits .f32 = 32 ∨ (Rect.block (s := S100352x64) S2048x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x64.size a ≤ S100352x64.size a
  hwx6_0 : ∀ i : grid6.Coords, EltTy.bits .f32 = 32 ∨ (Rect.block (s := S100352x64) S2048x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x32.size a ≤ S64x32.size a
  hwx6_1 : ∀ i : grid6.Coords, EltTy.bits .f32 = 32 ∨ (Rect.block (s := S64x32) S64x32.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2048x32.size a ≤ S100352x32.size a
  hwx6_2 : ∀ i : grid6.Coords, EltTy.bits .f32 = 32 ∨ (Rect.block (s := S100352x32) S2048x32.size (cc6_transform_2 i) (hinb6_2 i)).WholeWords (EltTy.packing .f32)
  hrank7 : 0 < grid7.rank
  k7_off1_inb : ∀ i : grid7.Coords, ∀ a, (k7_off1 i) a + S1.size a ≤ S391.size a
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4096.size a ≤ S1601536.size a
  hwx7_0 : ∀ i : grid7.Coords, EltTy.bits .i32 = 32 ∨ (Rect.block (s := S1601536) S4096.size (cc7_transform_0 i) (hinb7_0 i)).WholeWords (EltTy.packing .i32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S4096.size a ≤ S1601536.size a
  hwx7_1 : ∀ i : grid7.Coords, EltTy.bits .f32 = 32 ∨ (Rect.block (s := S1601536) S4096.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2048x32.size a ≤ S100352x32.size a
  hwx7_2 : ∀ i : grid7.Coords, EltTy.bits .f32 = 32 ∨ (Rect.block (s := S100352x32) S2048x32.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S4096x32.size a ≤ S1601536x32.size a
  hwx7_3 : ∀ i : grid7.Coords, EltTy.bits .f32 = 32 ∨ (Rect.block (s := S1601536x32) S4096x32.size (cc7_transform_3 i) (hinb7_3 i)).WholeWords (EltTy.packing .f32)
  hrank8 : 0 < grid8.rank
  k8_off1_inb : ∀ i : grid8.Coords, ∀ a, (k8_off1 i) a + S1.size a ≤ S391.size a
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4096.size a ≤ S1601536.size a
  hwx8_0 : ∀ i : grid8.Coords, EltTy.bits .i32 = 32 ∨ (Rect.block (s := S1601536) S4096.size (cc8_transform_0 i) (hinb8_0 i)).WholeWords (EltTy.packing .i32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S4096x32.size a ≤ S1601536x32.size a
  hwx8_1 : ∀ i : grid8.Coords, EltTy.bits .f32 = 32 ∨ (Rect.block (s := S1601536x32) S4096x32.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2048x32.size a ≤ S100352x32.size a
  hwx8_2 : ∀ i : grid8.Coords, EltTy.bits .f32 = 32 ∨ (Rect.block (s := S100352x32) S2048x32.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2048.size a ≤ S100352.size a
  hwx8_3 : ∀ i : grid8.Coords, EltTy.bits .f32 = 32 ∨ (Rect.block (s := S100352) S2048.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x32.size a ≤ S1x32.size a
  hwx8_4 : ∀ i : grid8.Coords, EltTy.bits .f32 = 32 ∨ (Rect.block (s := S1x32) S1x32.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S2048x32.size a ≤ S100352x32.size a
  hwx8_5 : ∀ i : grid8.Coords, EltTy.bits .f32 = 32 ∨ (Rect.block (s := S100352x32) S2048x32.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2048.size a ≤ S100352.size a
  hwx9_0 : ∀ i : grid9.Coords, EltTy.bits .i32 = 32 ∨ (Rect.block (s := S100352) S2048.size (cc9_transform_0 i) (hinb9_0 i)).WholeWords (EltTy.packing .i32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2048x32.size a ≤ S100352x32.size a
  hwx9_1 : ∀ i : grid9.Coords, EltTy.bits .f32 = 32 ∨ (Rect.block (s := S100352x32) S2048x32.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S64x32.size a ≤ S64x32.size a
  hwx9_2 : ∀ i : grid9.Coords, EltTy.bits .f32 = 32 ∨ (Rect.block (s := S64x32) S64x32.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S64x1.size a ≤ S64x1.size a
  hwx9_3 : ∀ i : grid9.Coords, EltTy.bits .f32 = 32 ∨ (Rect.block (s := S64x1) S64x1.size (cc9_transform_3 i) (hinb9_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def comparator_i32_i32_d0 : BitVec 32 × BitVec 32 → BitVec 32 × BitVec 32 → BitVec 1 :=
  fun l r =>
    let v2 := IntOp.cmpi .slt l.1 r.1
    v2
def gather_S1601536_S1601536x1_S1601536_n_0_n_n_0_1_1 : GatherDims S1601536 S1601536x1 S1601536 where
  offsetDims := []
  collapsedSliceDims := [0]
  operandBatchingDims := []
  startIndicesBatchingDims := []
  startIndexMap := [0]
  indexVectorDim := 1
  sliceSizes := ![1]
  wf := gather_S1601536_S1601536x1_S1601536_n_0_n_n_0_1_1_wf
def dot_S2048x128_S128x16_S2048x16_1_0_0_1_n_n : DotDims S2048x128 S128x16 S2048x16 where
  lhsContracting := [1]
  rhsContracting := [0]
  lhsNonContracting := [0]
  rhsNonContracting := [1]
  lhsBatch := []
  rhsBatch := []
  wf := dot_S2048x128_S128x16_S2048x16_1_0_0_1_n_n_wf
def dot_S4096x2048_S2048x16_S4096x16_1_0_0_1_n_n : DotDims S4096x2048 S2048x16 S4096x16 where
  lhsContracting := [1]
  rhsContracting := [0]
  lhsNonContracting := [0]
  rhsNonContracting := [1]
  lhsBatch := []
  rhsBatch := []
  wf := dot_S4096x2048_S2048x16_S4096x16_1_0_0_1_n_n_wf
def gather_S1601536x16_S1601536x1_S1601536x16_1_0_n_n_0_1_116 : GatherDims S1601536x16 S1601536x1 S1601536x16 where
  offsetDims := [1]
  collapsedSliceDims := [0]
  operandBatchingDims := []
  startIndicesBatchingDims := []
  startIndexMap := [0]
  indexVectorDim := 1
  sliceSizes := ![1, 16]
  wf := gather_S1601536x16_S1601536x1_S1601536x16_1_0_n_n_0_1_116_wf
def dot_S2048x4096_S4096x16_S2048x16_1_0_0_1_n_n : DotDims S2048x4096 S4096x16 S2048x16 where
  lhsContracting := [1]
  rhsContracting := [0]
  lhsNonContracting := [0]
  rhsNonContracting := [1]
  lhsBatch := []
  rhsBatch := []
  wf := dot_S2048x4096_S4096x16_S2048x16_1_0_0_1_n_n_wf
def dot_S2048x16_S16x64_S2048x64_1_0_0_1_n_n : DotDims S2048x16 S16x64 S2048x64 where
  lhsContracting := [1]
  rhsContracting := [0]
  lhsNonContracting := [0]
  rhsNonContracting := [1]
  lhsBatch := []
  rhsBatch := []
  wf := dot_S2048x16_S16x64_S2048x64_1_0_0_1_n_n_wf
def dot_S4096x2048_S2048x64_S4096x64_1_0_0_1_n_n : DotDims S4096x2048 S2048x64 S4096x64 where
  lhsContracting := [1]
  rhsContracting := [0]
  lhsNonContracting := [0]
  rhsNonContracting := [1]
  lhsBatch := []
  rhsBatch := []
  wf := dot_S4096x2048_S2048x64_S4096x64_1_0_0_1_n_n_wf
def gather_S1601536x64_S1601536x1_S1601536x64_1_0_n_n_0_1_164 : GatherDims S1601536x64 S1601536x1 S1601536x64 where
  offsetDims := [1]
  collapsedSliceDims := [0]
  operandBatchingDims := []
  startIndicesBatchingDims := []
  startIndexMap := [0]
  indexVectorDim := 1
  sliceSizes := ![1, 64]
  wf := gather_S1601536x64_S1601536x1_S1601536x64_1_0_n_n_0_1_164_wf
def dot_S2048x4096_S4096x64_S2048x64_1_0_0_1_n_n : DotDims S2048x4096 S4096x64 S2048x64 where
  lhsContracting := [1]
  rhsContracting := [0]
  lhsNonContracting := [0]
  rhsNonContracting := [1]
  lhsBatch := []
  rhsBatch := []
  wf := dot_S2048x4096_S4096x64_S2048x64_1_0_0_1_n_n_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S4096x2048_S2048x32_S4096x32_1_0_0_1_n_n : DotDims S4096x2048 S2048x32 S4096x32 where
  lhsContracting := [1]
  rhsContracting := [0]
  lhsNonContracting := [0]
  rhsNonContracting := [1]
  lhsBatch := []
  rhsBatch := []
  wf := dot_S4096x2048_S2048x32_S4096x32_1_0_0_1_n_n_wf
def gather_S1601536x32_S1601536x1_S1601536x32_1_0_n_n_0_1_132 : GatherDims S1601536x32 S1601536x1 S1601536x32 where
  offsetDims := [1]
  collapsedSliceDims := [0]
  operandBatchingDims := []
  startIndicesBatchingDims := []
  startIndexMap := [0]
  indexVectorDim := 1
  sliceSizes := ![1, 32]
  wf := gather_S1601536x32_S1601536x1_S1601536x32_1_0_n_n_0_1_132_wf
def dot_S2048x4096_S4096x32_S2048x32_1_0_0_1_n_n : DotDims S2048x4096 S4096x32 S2048x32 where
  lhsContracting := [1]
  rhsContracting := [0]
  lhsNonContracting := [0]
  rhsNonContracting := [1]
  lhsBatch := []
  rhsBatch := []
  wf := dot_S2048x4096_S4096x32_S2048x32_1_0_0_1_n_n_wf
def dot_S64x2048_S2048x32_S64x32_1_0_0_1_n_n : DotDims S64x2048 S2048x32 S64x32 where
  lhsContracting := [1]
  rhsContracting := [0]
  lhsNonContracting := [0]
  rhsNonContracting := [1]
  lhsBatch := []
  rhsBatch := []
  wf := dot_S64x2048_S2048x32_S64x32_1_0_0_1_n_n_wf
def dot_S64x32_S32x64_S64x64_1_0_0_1_n_n : DotDims S64x32 S32x64 S64x64 where
  lhsContracting := [1]
  rhsContracting := [0]
  lhsNonContracting := [0]
  rhsNonContracting := [1]
  lhsBatch := []
  rhsBatch := []
  wf := dot_S64x32_S32x64_S64x64_1_0_0_1_n_n_wf
def dot_S64x68_S68x10_S64x10_1_0_0_1_n_n : DotDims S64x68 S68x10 S64x10 where
  lhsContracting := [1]
  rhsContracting := [0]
  lhsNonContracting := [0]
  rhsNonContracting := [1]
  lhsBatch := []
  rhsBatch := []
  wf := dot_S64x68_S68x10_S64x10_1_0_0_1_n_n_wf
def dot_S64x10_S10x1_S64x1_1_0_0_1_n_n : DotDims S64x10 S10x1 S64x1 where
  lhsContracting := [1]
  rhsContracting := [0]
  lhsNonContracting := [0]
  rhsNonContracting := [1]
  lhsBatch := []
  rhsBatch := []
  wf := dot_S64x10_S10x1_S64x1_1_0_0_1_n_n_wf

abbrev win0_0 : Pipeline.Window sig grid0 :=
  Pipeline.Window.ofSpec (Memref.whole main_v75) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v83) S2048x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev spec1_0 : Pipeline.WinSpec sig grid1.rank :=
  Pipeline.WinSpec.ofSpec (Memref.whole main_v52) S4096.size reads1_0 false false 2 stage1_0 sem1_0 nbuf1_0 hstage1_0

abbrev spec1_1 : Pipeline.WinSpec sig grid1.rank :=
  Pipeline.WinSpec.ofSpec (Memref.whole main_v59) S4096.size reads1_1 false false 2 stage1_1 sem1_1 nbuf1_1 hstage1_1

abbrev spec1_2 : Pipeline.WinSpec sig grid1.rank :=
  Pipeline.WinSpec.ofSpec (Memref.whole main_v83) S2048x16.size reads1_2 false false 2 stage1_2 sem1_2 nbuf1_2 hstage1_2

abbrev spec1_3 : Pipeline.WinSpec sig grid1.rank :=
  Pipeline.WinSpec.ofSpec (Memref.whole main_v84) S4096x16.size reads1_3 true false 2 stage1_3 sem1_3 nbuf1_3 hstage1_3

abbrev spec1 : Fin 4 → Pipeline.WinSpec sig grid1.rank := fun | 0 => spec1_0 | 1 => spec1_1 | 2 => spec1_2 | 3 => spec1_3 | ⟨_ + 4, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | ⟨_ + 4, h⟩ => absurd h (Nat.not_lt.2 (Nat.le_add_left _ _))
abbrev ix1 (pf : pre1.Contents (Elt F)) : (w : Fin 4) → grid1.Coords → Fin (spec1 w).shape.rank → Nat := fun | 0 => cc1_transform_0 | 1 => cc1_transform_1 | 2 => cc1_transform_2 | 3 => cc1_transform_3 | ⟨_ + 4, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | 2 => hreads1_2 | 3 => hreads1_3 | ⟨_ + 4, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | 2 => hinb1_2 | 3 => hinb1_3 | ⟨_ + 4, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | 2 => hwx1_2 | 3 => hwx1_3 | ⟨_ + 4, h⟩ => absurd h (Nat.not_lt.2 (Nat.le_add_left _ _))
abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

abbrev spec2_0 : Pipeline.WinSpec sig grid2.rank :=
  Pipeline.WinSpec.ofSpec (Memref.whole main_v66) S4096.size reads2_0 false false 2 stage2_0 sem2_0 nbuf2_0 hstage2_0

abbrev spec2_1 : Pipeline.WinSpec sig grid2.rank :=
  Pipeline.WinSpec.ofSpec (Memref.whole main_v91) S4096x16.size reads2_1 false false 2 stage2_1 sem2_1 nbuf2_1 hstage2_1

abbrev spec2_2 : Pipeline.WinSpec sig grid2.rank :=
  Pipeline.WinSpec.ofSpec (Memref.whole main_v83) S2048x16.size reads2_2 false false 2 stage2_2 sem2_2 nbuf2_2 hstage2_2

abbrev spec2_3 : Pipeline.WinSpec sig grid2.rank :=
  Pipeline.WinSpec.ofSpec (Memref.whole main_v76) S2048.size reads2_3 false false 2 stage2_3 sem2_3 nbuf2_3 hstage2_3

abbrev spec2_4 : Pipeline.WinSpec sig grid2.rank :=
  Pipeline.WinSpec.ofSpec (Memref.whole main_v92) S1x16.size reads2_4 false true 1 stage2_4 sem2_4 nbuf2_4 hstage2_4

abbrev spec2_5 : Pipeline.WinSpec sig grid2.rank :=
  Pipeline.WinSpec.ofSpec (Memref.whole main_v93) S2048x16.size reads2_5 true false 2 stage2_5 sem2_5 nbuf2_5 hstage2_5

abbrev spec2 : Fin 6 → Pipeline.WinSpec sig grid2.rank := fun | 0 => spec2_0 | 1 => spec2_1 | 2 => spec2_2 | 3 => spec2_3 | 4 => spec2_4 | 5 => spec2_5 | ⟨_ + 6, h⟩ => absurd h (Nat.not_lt.2 (Nat.le_add_left _ _))
theorem hcount2 : ∀ w, grid2.bufCount (spec2 w).reads (spec2 w).sync = (spec2 w).nbuf := fun | 0 => nbuf2_0 | 1 => nbuf2_1 | 2 => nbuf2_2 | 3 => nbuf2_3 | 4 => nbuf2_4 | 5 => nbuf2_5 | ⟨_ + 6, h⟩ => absurd h (Nat.not_lt.2 (Nat.le_add_left _ _))
abbrev ix2 (pf : pre2.Contents (Elt F)) : (w : Fin 6) → grid2.Coords → Fin (spec2 w).shape.rank → Nat := fun | 0 => cc2_transform_0 | 1 => cc2_transform_1 | 2 => cc2_transform_2 | 3 => cc2_transform_3 | 4 => cc2_transform_4 | 5 => cc2_transform_5 | ⟨_ + 6, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 | 1 => hreads2_1 | 2 => hreads2_2 | 3 => hreads2_3 | 4 => hreads2_4 | 5 => hreads2_5 | ⟨_ + 6, h⟩ => absurd h (Nat.not_lt.2 (Nat.le_add_left _ _))
def ok2 (_ : pre2.Contents (Elt F)) : Prop :=
  True
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun _ _ => fun | 0 => hinb2_0 | 1 => hinb2_1 | 2 => hinb2_2 | 3 => hinb2_3 | 4 => hinb2_4 | 5 => hinb2_5 | ⟨_ + 6, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun _ _ => fun | 0 => hwx2_0 | 1 => hwx2_1 | 2 => hwx2_2 | 3 => hwx2_3 | 4 => hwx2_4 | 5 => hwx2_5 | ⟨_ + 6, h⟩ => absurd h (Nat.not_lt.2 (Nat.le_add_left _ _))
abbrev idle2 : Fin 6 → grid2.Coords → Bool := fun | 0 => fun _ => false | 1 => fun _ => false | 2 => fun _ => false | 3 => fun _ => false | 4 => fun _ => false | 5 => fun i => !(k2_cond3 i == 1#1) | ⟨_ + 6, h⟩ => absurd h (Nat.not_lt.2 (Nat.le_add_left _ _))

abbrev win3_0 : Pipeline.Window sig grid3 :=
  Pipeline.Window.ofSpec (Memref.whole main_v95) S2048x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S16x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v96) S2048x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev spec4_0 : Pipeline.WinSpec sig grid4.rank :=
  Pipeline.WinSpec.ofSpec (Memref.whole main_v52) S4096.size reads4_0 false false 2 stage4_0 sem4_0 nbuf4_0 hstage4_0

abbrev spec4_1 : Pipeline.WinSpec sig grid4.rank :=
  Pipeline.WinSpec.ofSpec (Memref.whole main_v59) S4096.size reads4_1 false false 2 stage4_1 sem4_1 nbuf4_1 hstage4_1

abbrev spec4_2 : Pipeline.WinSpec sig grid4.rank :=
  Pipeline.WinSpec.ofSpec (Memref.whole main_v96) S2048x64.size reads4_2 false false 2 stage4_2 sem4_2 nbuf4_2 hstage4_2

abbrev spec4_3 : Pipeline.WinSpec sig grid4.rank :=
  Pipeline.WinSpec.ofSpec (Memref.whole main_v97) S4096x64.size reads4_3 true false 2 stage4_3 sem4_3 nbuf4_3 hstage4_3

abbrev spec4 : Fin 4 → Pipeline.WinSpec sig grid4.rank := fun | 0 => spec4_0 | 1 => spec4_1 | 2 => spec4_2 | 3 => spec4_3 | ⟨_ + 4, h⟩ => absurd h (Nat.not_lt.2 (Nat.le_add_left _ _))
theorem hcount4 : ∀ w, grid4.bufCount (spec4 w).reads (spec4 w).sync = (spec4 w).nbuf := fun | 0 => nbuf4_0 | 1 => nbuf4_1 | 2 => nbuf4_2 | 3 => nbuf4_3 | ⟨_ + 4, h⟩ => absurd h (Nat.not_lt.2 (Nat.le_add_left _ _))
abbrev ix4 (pf : pre4.Contents (Elt F)) : (w : Fin 4) → grid4.Coords → Fin (spec4 w).shape.rank → Nat := fun | 0 => cc4_transform_0 | 1 => cc4_transform_1 | 2 => cc4_transform_2 | 3 => cc4_transform_3 | ⟨_ + 4, h⟩ => absurd h (Nat.not_lt.2 (Nat.le_add_left _ _))
theorem hreads4 : ∀ (pf : pre4.Contents (Elt F)) w (i i' : grid4.Coords), (∀ a, (spec4 w).reads a = true → i a = i' a) → ix4 pf w i = ix4 pf w i' := fun pf => fun | 0 => hreads4_0 | 1 => hreads4_1 | 2 => hreads4_2 | 3 => hreads4_3 | ⟨_ + 4, h⟩ => absurd h (Nat.not_lt.2 (Nat.le_add_left _ _))
def ok4 (_ : pre4.Contents (Elt F)) : Prop :=
  True
instance (pf : pre4.Contents (Elt F)) : Decidable (ok4 pf) := decidable_of_iff' _ (Iff.of_eq (ok4.eq_1 pf))
theorem hinb4 : ∀ (pf : pre4.Contents (Elt F)), ok4 pf → ∀ w (i : grid4.Coords) a, (ix4 pf w i a + 1) * (spec4 w).size a ≤ (spec4 w).shape.size a :=
  fun _ _ => fun | 0 => hinb4_0 | 1 => hinb4_1 | 2 => hinb4_2 | 3 => hinb4_3 | ⟨_ + 4, h⟩ => absurd h (Nat.not_lt.2 (Nat.le_add_left _ _))
theorem hwx4 : ∀ (pf : pre4.Contents (Elt F)) (hok : ok4 pf) w (i : grid4.Coords), (spec4 w).elt.bits = 32 ∨ (Rect.block (spec4 w).size (ix4 pf w i) (hinb4 pf hok w i)).WholeWords (spec4 w).elt.packing :=
  fun _ _ => fun | 0 => hwx4_0 | 1 => hwx4_1 | 2 => hwx4_2 | 3 => hwx4_3 | ⟨_ + 4, h⟩ => absurd h (Nat.not_lt.2 (Nat.le_add_left _ _))
abbrev idle4 : Fin 4 → grid4.Coords → Bool := fun | 0 => fun _ => false | 1 => fun _ => false | 2 => fun _ => false | 3 => fun i => !(k4_cond3 i == 1#1) | ⟨_ + 4, h⟩ => absurd h (Nat.not_lt.2 (Nat.le_add_left _ _))

abbrev spec5_0 : Pipeline.WinSpec sig grid5.rank :=
  Pipeline.WinSpec.ofSpec (Memref.whole main_v66) S4096.size reads5_0 false false 2 stage5_0 sem5_0 nbuf5_0 hstage5_0

abbrev spec5_1 : Pipeline.WinSpec sig grid5.rank :=
  Pipeline.WinSpec.ofSpec (Memref.whole main_v104) S4096x64.size reads5_1 false false 2 stage5_1 sem5_1 nbuf5_1 hstage5_1

abbrev spec5_2 : Pipeline.WinSpec sig grid5.rank :=
  Pipeline.WinSpec.ofSpec (Memref.whole main_v96) S2048x64.size reads5_2 false false 2 stage5_2 sem5_2 nbuf5_2 hstage5_2

abbrev spec5_3 : Pipeline.WinSpec sig grid5.rank :=
  Pipeline.WinSpec.ofSpec (Memref.whole main_v76) S2048.size reads5_3 false false 2 stage5_3 sem5_3 nbuf5_3 hstage5_3

abbrev spec5_4 : Pipeline.WinSpec sig grid5.rank :=
  Pipeline.WinSpec.ofSpec (Memref.whole main_v105) S1x64.size reads5_4 false true 1 stage5_4 sem5_4 nbuf5_4 hstage5_4

abbrev spec5_5 : Pipeline.WinSpec sig grid5.rank :=
  Pipeline.WinSpec.ofSpec (Memref.whole main_v106) S2048x64.size reads5_5 true false 2 stage5_5 sem5_5 nbuf5_5 hstage5_5

abbrev spec5 : Fin 6 → Pipeline.WinSpec sig grid5.rank := fun | 0 => spec5_0 | 1 => spec5_1 | 2 => spec5_2 | 3 => spec5_3 | 4 => spec5_4 | 5 => spec5_5 | ⟨_ + 6, h⟩ => absurd h (Nat.not_lt.2 (Nat.le_add_left _ _))
theorem hcount5 : ∀ w, grid5.bufCount (spec5 w).reads (spec5 w).sync = (spec5 w).nbuf := fun | 0 => nbuf5_0 | 1 => nbuf5_1 | 2 => nbuf5_2 | 3 => nbuf5_3 | 4 => nbuf5_4 | 5 => nbuf5_5 | ⟨_ + 6, h⟩ => absurd h (Nat.not_lt.2 (Nat.le_add_left _ _))
abbrev ix5 (pf : pre5.Contents (Elt F)) : (w : Fin 6) → grid5.Coords → Fin (spec5 w).shape.rank → Nat := fun | 0 => cc5_transform_0 | 1 => cc5_transform_1 | 2 => cc5_transform_2 | 3 => cc5_transform_3 | 4 => cc5_transform_4 | 5 => cc5_transform_5 | ⟨_ + 6, h⟩ => absurd h (Nat.not_lt.2 (Nat.le_add_left _ _))
theorem hreads5 : ∀ (pf : pre5.Contents (Elt F)) w (i i' : grid5.Coords), (∀ a, (spec5 w).reads a = true → i a = i' a) → ix5 pf w i = ix5 pf w i' := fun pf => fun | 0 => hreads5_0 | 1 => hreads5_1 | 2 => hreads5_2 | 3 => hreads5_3 | 4 => hreads5_4 | 5 => hreads5_5 | ⟨_ + 6, h⟩ => absurd h (Nat.not_lt.2 (Nat.le_add_left _ _))
def ok5 (_ : pre5.Contents (Elt F)) : Prop :=
  True
instance (pf : pre5.Contents (Elt F)) : Decidable (ok5 pf) := decidable_of_iff' _ (Iff.of_eq (ok5.eq_1 pf))
theorem hinb5 : ∀ (pf : pre5.Contents (Elt F)), ok5 pf → ∀ w (i : grid5.Coords) a, (ix5 pf w i a + 1) * (spec5 w).size a ≤ (spec5 w).shape.size a :=
  fun _ _ => fun | 0 => hinb5_0 | 1 => hinb5_1 | 2 => hinb5_2 | 3 => hinb5_3 | 4 => hinb5_4 | 5 => hinb5_5 | ⟨_ + 6, h⟩ => absurd h (Nat.not_lt.2 (Nat.le_add_left _ _))
theorem hwx5 : ∀ (pf : pre5.Contents (Elt F)) (hok : ok5 pf) w (i : grid5.Coords), (spec5 w).elt.bits = 32 ∨ (Rect.block (spec5 w).size (ix5 pf w i) (hinb5 pf hok w i)).WholeWords (spec5 w).elt.packing :=
  fun _ _ => fun | 0 => hwx5_0 | 1 => hwx5_1 | 2 => hwx5_2 | 3 => hwx5_3 | 4 => hwx5_4 | 5 => hwx5_5 | ⟨_ + 6, h⟩ => absurd h (Nat.not_lt.2 (Nat.le_add_left _ _))
abbrev idle5 : Fin 6 → grid5.Coords → Bool := fun | 0 => fun _ => false | 1 => fun _ => false | 2 => fun _ => false | 3 => fun _ => false | 4 => fun _ => false | 5 => fun i => !(k5_cond3 i == 1#1) | ⟨_ + 6, h⟩ => absurd h (Nat.not_lt.2 (Nat.le_add_left _ _))

abbrev win6_0 : Pipeline.Window sig grid6 :=
  Pipeline.Window.ofSpec (Memref.whole main_v108) S2048x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S64x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v109) S2048x32.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev spec7_0 : Pipeline.WinSpec sig grid7.rank :=
  Pipeline.WinSpec.ofSpec (Memref.whole main_v52) S4096.size reads7_0 false false 2 stage7_0 sem7_0 nbuf7_0 hstage7_0

abbrev spec7_1 : Pipeline.WinSpec sig grid7.rank :=
  Pipeline.WinSpec.ofSpec (Memref.whole main_v59) S4096.size reads7_1 false false 2 stage7_1 sem7_1 nbuf7_1 hstage7_1

abbrev spec7_2 : Pipeline.WinSpec sig grid7.rank :=
  Pipeline.WinSpec.ofSpec (Memref.whole main_v109) S2048x32.size reads7_2 false false 2 stage7_2 sem7_2 nbuf7_2 hstage7_2

abbrev spec7_3 : Pipeline.WinSpec sig grid7.rank :=
  Pipeline.WinSpec.ofSpec (Memref.whole main_v110) S4096x32.size reads7_3 true false 2 stage7_3 sem7_3 nbuf7_3 hstage7_3

abbrev spec7 : Fin 4 → Pipeline.WinSpec sig grid7.rank := fun | 0 => spec7_0 | 1 => spec7_1 | 2 => spec7_2 | 3 => spec7_3 | ⟨_ + 4, h⟩ => absurd h (Nat.not_lt.2 (Nat.le_add_left _ _))
theorem hcount7 : ∀ w, grid7.bufCount (spec7 w).reads (spec7 w).sync = (spec7 w).nbuf := fun | 0 => nbuf7_0 | 1 => nbuf7_1 | 2 => nbuf7_2 | 3 => nbuf7_3 | ⟨_ + 4, h⟩ => absurd h (Nat.not_lt.2 (Nat.le_add_left _ _))
abbrev ix7 (pf : pre7.Contents (Elt F)) : (w : Fin 4) → grid7.Coords → Fin (spec7 w).shape.rank → Nat := fun | 0 => cc7_transform_0 | 1 => cc7_transform_1 | 2 => cc7_transform_2 | 3 => cc7_transform_3 | ⟨_ + 4, h⟩ => absurd h (Nat.not_lt.2 (Nat.le_add_left _ _))
theorem hreads7 : ∀ (pf : pre7.Contents (Elt F)) w (i i' : grid7.Coords), (∀ a, (spec7 w).reads a = true → i a = i' a) → ix7 pf w i = ix7 pf w i' := fun pf => fun | 0 => hreads7_0 | 1 => hreads7_1 | 2 => hreads7_2 | 3 => hreads7_3 | ⟨_ + 4, h⟩ => absurd h (Nat.not_lt.2 (Nat.le_add_left _ _))
def ok7 (_ : pre7.Contents (Elt F)) : Prop :=
  True
instance (pf : pre7.Contents (Elt F)) : Decidable (ok7 pf) := decidable_of_iff' _ (Iff.of_eq (ok7.eq_1 pf))
theorem hinb7 : ∀ (pf : pre7.Contents (Elt F)), ok7 pf → ∀ w (i : grid7.Coords) a, (ix7 pf w i a + 1) * (spec7 w).size a ≤ (spec7 w).shape.size a :=
  fun _ _ => fun | 0 => hinb7_0 | 1 => hinb7_1 | 2 => hinb7_2 | 3 => hinb7_3 | ⟨_ + 4, h⟩ => absurd h (Nat.not_lt.2 (Nat.le_add_left _ _))
theorem hwx7 : ∀ (pf : pre7.Contents (Elt F)) (hok : ok7 pf) w (i : grid7.Coords), (spec7 w).elt.bits = 32 ∨ (Rect.block (spec7 w).size (ix7 pf w i) (hinb7 pf hok w i)).WholeWords (spec7 w).elt.packing :=
  fun _ _ => fun | 0 => hwx7_0 | 1 => hwx7_1 | 2 => hwx7_2 | 3 => hwx7_3 | ⟨_ + 4, h⟩ => absurd h (Nat.not_lt.2 (Nat.le_add_left _ _))
abbrev idle7 : Fin 4 → grid7.Coords → Bool := fun | 0 => fun _ => false | 1 => fun _ => false | 2 => fun _ => false | 3 => fun i => !(k7_cond3 i == 1#1) | ⟨_ + 4, h⟩ => absurd h (Nat.not_lt.2 (Nat.le_add_left _ _))

abbrev spec8_0 : Pipeline.WinSpec sig grid8.rank :=
  Pipeline.WinSpec.ofSpec (Memref.whole main_v66) S4096.size reads8_0 false false 2 stage8_0 sem8_0 nbuf8_0 hstage8_0

abbrev spec8_1 : Pipeline.WinSpec sig grid8.rank :=
  Pipeline.WinSpec.ofSpec (Memref.whole main_v117) S4096x32.size reads8_1 false false 2 stage8_1 sem8_1 nbuf8_1 hstage8_1

abbrev spec8_2 : Pipeline.WinSpec sig grid8.rank :=
  Pipeline.WinSpec.ofSpec (Memref.whole main_v109) S2048x32.size reads8_2 false false 2 stage8_2 sem8_2 nbuf8_2 hstage8_2

abbrev spec8_3 : Pipeline.WinSpec sig grid8.rank :=
  Pipeline.WinSpec.ofSpec (Memref.whole main_v76) S2048.size reads8_3 false false 2 stage8_3 sem8_3 nbuf8_3 hstage8_3

abbrev spec8_4 : Pipeline.WinSpec sig grid8.rank :=
  Pipeline.WinSpec.ofSpec (Memref.whole main_v118) S1x32.size reads8_4 false true 1 stage8_4 sem8_4 nbuf8_4 hstage8_4

abbrev spec8_5 : Pipeline.WinSpec sig grid8.rank :=
  Pipeline.WinSpec.ofSpec (Memref.whole main_v119) S2048x32.size reads8_5 true false 2 stage8_5 sem8_5 nbuf8_5 hstage8_5

abbrev spec8 : Fin 6 → Pipeline.WinSpec sig grid8.rank := fun | 0 => spec8_0 | 1 => spec8_1 | 2 => spec8_2 | 3 => spec8_3 | 4 => spec8_4 | 5 => spec8_5 | ⟨_ + 6, h⟩ => absurd h (Nat.not_lt.2 (Nat.le_add_left _ _))
theorem hcount8 : ∀ w, grid8.bufCount (spec8 w).reads (spec8 w).sync = (spec8 w).nbuf := fun | 0 => nbuf8_0 | 1 => nbuf8_1 | 2 => nbuf8_2 | 3 => nbuf8_3 | 4 => nbuf8_4 | 5 => nbuf8_5 | ⟨_ + 6, h⟩ => absurd h (Nat.not_lt.2 (Nat.le_add_left _ _))
abbrev ix8 (pf : pre8.Contents (Elt F)) : (w : Fin 6) → grid8.Coords → Fin (spec8 w).shape.rank → Nat := fun | 0 => cc8_transform_0 | 1 => cc8_transform_1 | 2 => cc8_transform_2 | 3 => cc8_transform_3 | 4 => cc8_transform_4 | 5 => cc8_transform_5 | ⟨_ + 6, h⟩ => absurd h (Nat.not_lt.2 (Nat.le_add_left _ _))
theorem hreads8 : ∀ (pf : pre8.Contents (Elt F)) w (i i' : grid8.Coords), (∀ a, (spec8 w).reads a = true → i a = i' a) → ix8 pf w i = ix8 pf w i' := fun pf => fun | 0 => hreads8_0 | 1 => hreads8_1 | 2 => hreads8_2 | 3 => hreads8_3 | 4 => hreads8_4 | 5 => hreads8_5 | ⟨_ + 6, h⟩ => absurd h (Nat.not_lt.2 (Nat.le_add_left _ _))
def ok8 (_ : pre8.Contents (Elt F)) : Prop :=
  True
instance (pf : pre8.Contents (Elt F)) : Decidable (ok8 pf) := decidable_of_iff' _ (Iff.of_eq (ok8.eq_1 pf))
theorem hinb8 : ∀ (pf : pre8.Contents (Elt F)), ok8 pf → ∀ w (i : grid8.Coords) a, (ix8 pf w i a + 1) * (spec8 w).size a ≤ (spec8 w).shape.size a :=
  fun _ _ => fun | 0 => hinb8_0 | 1 => hinb8_1 | 2 => hinb8_2 | 3 => hinb8_3 | 4 => hinb8_4 | 5 => hinb8_5 | ⟨_ + 6, h⟩ => absurd h (Nat.not_lt.2 (Nat.le_add_left _ _))
theorem hwx8 : ∀ (pf : pre8.Contents (Elt F)) (hok : ok8 pf) w (i : grid8.Coords), (spec8 w).elt.bits = 32 ∨ (Rect.block (spec8 w).size (ix8 pf w i) (hinb8 pf hok w i)).WholeWords (spec8 w).elt.packing :=
  fun _ _ => fun | 0 => hwx8_0 | 1 => hwx8_1 | 2 => hwx8_2 | 3 => hwx8_3 | 4 => hwx8_4 | 5 => hwx8_5 | ⟨_ + 6, h⟩ => absurd h (Nat.not_lt.2 (Nat.le_add_left _ _))
abbrev idle8 : Fin 6 → grid8.Coords → Bool := fun | 0 => fun _ => false | 1 => fun _ => false | 2 => fun _ => false | 3 => fun _ => false | 4 => fun _ => false | 5 => fun i => !(k8_cond3 i == 1#1) | ⟨_ + 6, h⟩ => absurd h (Nat.not_lt.2 (Nat.le_add_left _ _))

abbrev win9_0 : Pipeline.Window sig grid9 :=
  Pipeline.Window.ofSpec (Memref.whole main_v77) S2048.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v121) S2048x32.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v122_0) S64x32.size cc9_transform_2 reads9_2 true true 1 stage9_2 sem9_2
    hrank9 hreads9_2 hinb9_2 nbuf9_2 (Memref.isWhole_whole _) hwx9_2 hstage9_2

abbrev win9_3 : Pipeline.Window sig grid9 :=
  Pipeline.Window.ofSpec (Memref.whole main_v122_1) S64x1.size cc9_transform_3 reads9_3 true true 1 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where
  harr1 : ∀ w, (spec1 w).arr.IsWhole
  harr2 : ∀ w, (spec2 w).arr.IsWhole
  harr4 : ∀ w, (spec4 w).arr.IsWhole
  harr5 : ∀ w, (spec5 w).arr.IsWhole
  harr7 : ∀ w, (spec7 w).arr.IsWhole
  harr8 : ∀ w, (spec8 w).arr.IsWhole

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S64x4 : Shape := ⟨2, ![64, 4]⟩
abbrev S128x16 : Shape := ⟨2, ![128, 16]⟩
abbrev S16 : Shape := ⟨1, ![16]⟩
abbrev S16x64 : Shape := ⟨2, ![16, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S68x10 : Shape := ⟨2, ![68, 10]⟩
abbrev S10 : Shape := ⟨1, ![10]⟩
abbrev S10x1 : Shape := ⟨2, ![10, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x16 : Shape := ⟨2, ![100000, 16]⟩
abbrev S1700000x16 : Shape := ⟨2, ![1700000, 16]⟩
abbrev S1x16 : Shape := ⟨2, ![1, 16]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩
abbrev S100000x1 : Shape := ⟨2, ![100000, 1]⟩
abbrev S64x1 : Shape := ⟨2, ![64, 1]⟩
abbrev S64x64 : Shape := ⟨2, ![64, 64]⟩
abbrev S64x68 : Shape := ⟨2, ![64, 68]⟩
abbrev S64x10 : Shape := ⟨2, ![64, 10]⟩
abbrev S1x10 : Shape := ⟨2, ![1, 10]⟩
abbrev S1x1 : Shape := ⟨2, ![1, 1]⟩

abbrev nBuf : Space → Nat
  | .hbm => 197
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S64x4, .f32⟩
  | 4 => ⟨S128x16, .f32⟩
  | 5 => ⟨S16, .f32⟩
  | 6 => ⟨S16x64, .f32⟩
  | 7 => ⟨S64, .f32⟩
  | 8 => ⟨S64x32, .f32⟩
  | 9 => ⟨S32, .f32⟩
  | 10 => ⟨S32x64, .f32⟩
  | 11 => ⟨S64, .f32⟩
  | 12 => ⟨S68x10, .f32⟩
  | 13 => ⟨S10, .f32⟩
  | 14 => ⟨S10x1, .f32⟩
  | 15 => ⟨S1, .f32⟩
  | 16 => ⟨S100000, .i32⟩
  | 17 => ⟨S1x1600000, .i32⟩
  | 18 => ⟨S1600000, .i32⟩
  | 19 => ⟨S1700000, .i32⟩
  | 20 => ⟨S1x1600000, .i32⟩
  | 21 => ⟨S1600000, .i32⟩
  | 22 => ⟨S1700000, .i32⟩
  | 23 => ⟨S_, .f32⟩
  | 24 => ⟨S1700000, .f32⟩
  | 25 => ⟨S_, .f32⟩
  | 26 => ⟨S100000, .f32⟩
  | 27 => ⟨S1700000x1, .i32⟩
  | 28 => ⟨S100000, .f32⟩
  | 29 => ⟨S_, .f32⟩
  | 30 => ⟨S100000, .f32⟩
  | 31 => ⟨S100000, .i1⟩
  | 32 => ⟨S_, .f32⟩
  | 33 => ⟨S100000, .f32⟩
  | 34 => ⟨S100000, .f32⟩
  | 35 => ⟨S_, .f32⟩
  | 36 => ⟨S_, .f32⟩
  | 37 => ⟨S100000, .f32⟩
  | 38 => ⟨S100000, .f32⟩
  | 39 => ⟨S100000x16, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000, .f32⟩
  | 58 => ⟨S1700000, .f32⟩
  | 59 => ⟨S_, .i32⟩
  | 60 => ⟨S1700000, .i32⟩
  | 61 => ⟨S1700000, .i1⟩
  | 62 => ⟨S_, .i32⟩
  | 63 => ⟨S1700000, .i32⟩
  | 64 => ⟨S1700000, .i32⟩
  | 65 => ⟨S1700000, .i32⟩
  | 66 => ⟨S1700000x1, .i32⟩
  | 67 => ⟨S1700000x16, .f32⟩
  | 68 => ⟨S1700000x1, .f32⟩
  | 69 => ⟨S1700000x16, .f32⟩
  | 70 => ⟨S1700000x16, .f32⟩
  | 71 => ⟨S_, .f32⟩
  | 72 => ⟨S100000x16, .f32⟩
  | 73 => ⟨S1700000x1, .i32⟩
  | 74 => ⟨S100000x16, .f32⟩
  | 75 => ⟨S1x16, .f32⟩
  | 76 => ⟨S100000x16, .f32⟩
  | 77 => ⟨S100000x16, .f32⟩
  | 78 => ⟨S_, .f32⟩
  | 79 => ⟨S100000x16, .f32⟩
  | 80 => ⟨S100000x16, .f32⟩
  | 81 => ⟨S100000x64, .f32⟩
  | 82 => ⟨S_, .i32⟩
  | 83 => ⟨S1700000, .i32⟩
  | 84 => ⟨S1700000, .i1⟩
  | 85 => ⟨S_, .i32⟩
  | 86 => ⟨S1700000, .i32⟩
  | 87 => ⟨S1700000, .i32⟩
  | 88 => ⟨S1700000, .i32⟩
  | 89 => ⟨S1700000x1, .i32⟩
  | 90 => ⟨S1700000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S1700000, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000x64, .f32⟩
  | 110 => ⟨S1700000x1, .f32⟩
  | 111 => ⟨S1700000x64, .f32⟩
  | 112 => ⟨S1700000x64, .f32⟩
  | 113 => ⟨S_, .f32⟩
  | 114 => ⟨S100000x64, .f32⟩
  | 115 => ⟨S1700000x1, .i32⟩
  | 116 => ⟨S100000x64, .f32⟩
  | 117 => ⟨S1x64, .f32⟩
  | 118 => ⟨S100000x64, .f32⟩
  | 119 => ⟨S100000x64, .f32⟩
  | 120 => ⟨S_, .f32⟩
  | 121 => ⟨S100000x64, .f32⟩
  | 122 => ⟨S100000x64, .f32⟩
  | 123 => ⟨S100000x32, .f32⟩
  | 124 => ⟨S_, .i32⟩
  | 125 => ⟨S1700000, .i32⟩
  | 126 => ⟨S1700000, .i1⟩
  | 127 => ⟨S_, .i32⟩
  | _ => ⟨S100000x128, .f32⟩

abbrev hbmTy0_1 (i : Nat) : BufTy := match i % 128 with
  | 0 => ⟨S1700000, .i32⟩
  | 1 => ⟨S1700000, .i32⟩
  | 2 => ⟨S1700000, .i32⟩
  | 3 => ⟨S1700000x1, .i32⟩
  | 4 => ⟨S1700000, .f32⟩
  | 5 => ⟨S_, .i32⟩
  | 6 => ⟨S1700000, .i32⟩
  | 7 => ⟨S1700000, .i1⟩
  | 8 => ⟨S_, .i32⟩
  | 9 => ⟨S1700000, .i32⟩
  | 10 => ⟨S1700000, .i32⟩
  | 11 => ⟨S1700000, .i32⟩
  | 12 => ⟨S1700000x1, .i32⟩
  | 13 => ⟨S1700000, .f32⟩
  | 14 => ⟨S1700000, .f32⟩
  | 15 => ⟨S_, .i32⟩
  | 16 => ⟨S1700000, .i32⟩
  | 17 => ⟨S1700000, .i1⟩
  | 18 => ⟨S_, .i32⟩
  | 19 => ⟨S1700000, .i32⟩
  | 20 => ⟨S1700000, .i32⟩
  | 21 => ⟨S1700000, .i32⟩
  | 22 => ⟨S1700000x1, .i32⟩
  | 23 => ⟨S1700000x32, .f32⟩
  | 24 => ⟨S1700000x1, .f32⟩
  | 25 => ⟨S1700000x32, .f32⟩
  | 26 => ⟨S1700000x32, .f32⟩
  | 27 => ⟨S_, .f32⟩
  | 28 => ⟨S100000x32, .f32⟩
  | 29 => ⟨S1700000x1, .i32⟩
  | 30 => ⟨S100000x32, .f32⟩
  | 31 => ⟨S1x32, .f32⟩
  | 32 => ⟨S100000x32, .f32⟩
  | 33 => ⟨S100000x32, .f32⟩
  | 34 => ⟨S_, .f32⟩
  | 35 => ⟨S64x32, .f32⟩
  | 36 => ⟨S100000x1, .i32⟩
  | 37 => ⟨S64x32, .f32⟩
  | 38 => ⟨S_, .f32⟩
  | 39 => ⟨S100000, .f32⟩
  | 40 => ⟨S_, .f32⟩
  | 41 => ⟨S64, .f32⟩
  | 42 => ⟨S100000x1, .i32⟩
  | 43 => ⟨S64, .f32⟩
  | 44 => ⟨S_, .f32⟩
  | 45 => ⟨S64, .f32⟩
  | 46 => ⟨S64, .f32⟩
  | 47 => ⟨S64x1, .f32⟩
  | 48 => ⟨S64x32, .f32⟩
  | 49 => ⟨S64x32, .f32⟩
  | 50 => ⟨S64x64, .f32⟩
  | 51 => ⟨S1x64, .f32⟩
  | 52 => ⟨S64x64, .f32⟩
  | 53 => ⟨S64x64, .f32⟩
  | 54 => ⟨S_, .f32⟩
  | 55 => ⟨S64x64, .f32⟩
  | 56 => ⟨S64x64, .f32⟩
  | 57 => ⟨S64x68, .f32⟩
  | 58 => ⟨S64x10, .f32⟩
  | 59 => ⟨S1x10, .f32⟩
  | 60 => ⟨S64x10, .f32⟩
  | 61 => ⟨S64x10, .f32⟩
  | 62 => ⟨S_, .f32⟩
  | 63 => ⟨S64x10, .f32⟩
  | 64 => ⟨S64x10, .f32⟩
  | 65 => ⟨S64x1, .f32⟩
  | 66 => ⟨S1x1, .f32⟩
  | 67 => ⟨S64x1, .f32⟩
  | 68 => ⟨S64x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v15 : Ref sig .tc := ⟨.hbm, 38, rfl⟩
abbrev main_v16 : Ref sig .tc := ⟨.hbm, 39, rfl⟩
abbrev main_c : Ref sig .tc := ⟨.hbm, 40, rfl⟩
abbrev main_v17 : Ref sig .tc := ⟨.hbm, 41, rfl⟩
abbrev main_v18 : Ref sig .tc := ⟨.hbm, 42, rfl⟩
abbrev main_c_4 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_c_6 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_c_7 : Ref sig .tc := ⟨.hbm, 59, rfl⟩
abbrev main_v32 : Ref sig .tc := ⟨.hbm, 60, rfl⟩
abbrev main_v33 : Ref sig .tc := ⟨.hbm, 61, rfl⟩
abbrev main_c_8 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_9 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_call1_cst : Ref sig .tc := ⟨.hbm, 78, rfl⟩
abbrev main_call1_v0 : Ref sig .tc := ⟨.hbm, 79, rfl⟩
abbrev main_v48 : Ref sig .tc := ⟨.hbm, 80, rfl⟩
abbrev main_v49 : Ref sig .tc := ⟨.hbm, 81, rfl⟩
abbrev main_c_10 : Ref sig .tc := ⟨.hbm, 82, rfl⟩
abbrev main_v50 : Ref sig .tc := ⟨.hbm, 83, rfl⟩
abbrev main_v51 : Ref sig .tc := ⟨.hbm, 84, rfl⟩
abbrev main_c_11 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_c_12 : Ref sig .tc := ⟨.hbm, 91, rfl⟩
abbrev main_v57 : Ref sig .tc := ⟨.hbm, 92, rfl⟩
abbrev main_v58 : Ref sig .tc := ⟨.hbm, 93, rfl⟩
abbrev main_c_13 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_c_14 : Ref sig .tc := ⟨.hbm, 101, rfl⟩
abbrev main_v65 : Ref sig .tc := ⟨.hbm, 102, rfl⟩
abbrev main_v66 : Ref sig .tc := ⟨.hbm, 103, rfl⟩
abbrev main_c_15 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_16 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_call2_cst : Ref sig .tc := ⟨.hbm, 120, rfl⟩
abbrev main_call2_v0 : Ref sig .tc := ⟨.hbm, 121, rfl⟩
abbrev main_v81 : Ref sig .tc := ⟨.hbm, 122, rfl⟩
abbrev main_v82 : Ref sig .tc := ⟨.hbm, 123, rfl⟩
abbrev main_c_17 : Ref sig .tc := ⟨.hbm, 124, rfl⟩
abbrev main_v83 : Ref sig .tc := ⟨.hbm, 125, rfl⟩
abbrev main_v84 : Ref sig .tc := ⟨.hbm, 126, rfl⟩
abbrev main_c_18 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_c_19 : Ref sig .tc := ⟨.hbm, 133, rfl⟩
abbrev main_v90 : Ref sig .tc := ⟨.hbm, 134, rfl⟩
abbrev main_v91 : Ref sig .tc := ⟨.hbm, 135, rfl⟩
abbrev main_c_20 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_c_21 : Ref sig .tc := ⟨.hbm, 143, rfl⟩
abbrev main_v98 : Ref sig .tc := ⟨.hbm, 144, rfl⟩
abbrev main_v99 : Ref sig .tc := ⟨.hbm, 145, rfl⟩
abbrev main_c_22 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_cst_23 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_cst_24 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_cst_25 : Ref sig .tc := ⟨.hbm, 166, rfl⟩
abbrev main_v117 : Ref sig .tc := ⟨.hbm, 167, rfl⟩
abbrev main_cst_26 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_cst_27 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_call3_cst : Ref sig .tc := ⟨.hbm, 182, rfl⟩
abbrev main_call3_v0 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_call4_cst : Ref sig .tc := ⟨.hbm, 190, rfl⟩
abbrev main_call4_v0 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S64x32 : S_.BroadcastsInDim S64x32 (![] : Fin 0 → Fin S64x32.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  concatenates_S64x64_S64x4_S64x68_d1 : Shape.Concatenates [S64x64, S64x4] S64x68 1
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  bcast_S_S64x10 : S_.BroadcastsInDim S64x10 (![] : Fin 0 → Fin S64x10.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S100000_S1700000x1_S1700000_n_0_0_1_wf : ScatterDims.WF S100000 S1700000x1 S1700000 [] [0] [0] 1
  dot_S100000x128_S128x16_S100000x16_1_0_0_1_n_n_wf : DotDims.WF S100000x128 S128x16 S100000x16 [1] [0] [0] [1] [] []
  gather_S100000_S1700000x1_S1700000_n_0_n_n_0_1_1_wf : GatherDims.WF S100000 S1700000x1 S1700000 [] [0] [] [0] [] 1 ![1]
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S100000x16_S16x64_S100000x64_1_0_0_1_n_n_wf : DotDims.WF S100000x16 S16x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  scatter_S64x32_S100000x1_S100000x32_1_0_0_1_wf : ScatterDims.WF S64x32 S100000x1 S100000x32 [1] [0] [0] 1
  scatter_S64_S100000x1_S100000_n_0_0_1_wf : ScatterDims.WF S64 S100000x1 S100000 [] [0] [0] 1
  dot_S64x32_S32x64_S64x64_1_0_0_1_n_n_wf : DotDims.WF S64x32 S32x64 S64x64 [1] [0] [0] [1] [] []
  dot_S64x68_S68x10_S64x10_1_0_0_1_n_n_wf : DotDims.WF S64x68 S68x10 S64x10 [1] [0] [0] [1] [] []
  dot_S64x10_S10x1_S64x1_1_0_0_1_n_n_wf : DotDims.WF S64x10 S10x1 S64x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def scatter_S64x32_S100000x1_S100000x32_1_0_0_1 : ScatterDims S64x32 S100000x1 S100000x32 where
  updateWindowDims := [1]
  insertedWindowDims := [0]
  scatterDimsToOperandDims := [0]
  indexVectorDim := 1
  wf := scatter_S64x32_S100000x1_S100000x32_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x32_S32x64_S64x64_1_0_0_1_n_n : DotDims S64x32 S32x64 S64x64 where
  lhsContracting := [1]
  rhsContracting := [0]
  lhsNonContracting := [0]
  rhsNonContracting := [1]
  lhsBatch := []
  rhsBatch := []
  wf := dot_S64x32_S32x64_S64x64_1_0_0_1_n_n_wf
def dot_S64x68_S68x10_S64x10_1_0_0_1_n_n : DotDims S64x68 S68x10 S64x10 where
  lhsContracting := [1]
  rhsContracting := [0]
  lhsNonContracting := [0]
  rhsNonContracting := [1]
  lhsBatch := []
  rhsBatch := []
  wf := dot_S64x68_S68x10_S64x10_1_0_0_1_n_n_wf
def dot_S64x10_S10x1_S64x1_1_0_0_1_n_n : DotDims S64x10 S10x1 S64x1 where
  lhsContracting := [1]
  rhsContracting := [0]
  lhsNonContracting := [0]
  rhsNonContracting := [1]
  lhsBatch := []
  rhsBatch := []
  wf := dot_S64x10_S10x1_S64x1_1_0_0_1_n_n_wf

class Facts : Prop extends Facts₀ where

variable [Facts]
-- ==== Proof.R0Frame.lean ====
/- Region 0 of @main: the first dense layer, rows of the padded feature matrix times the first weight matrix.
   What the pipeline's body finds in its staged operands and leaves in its output buffer at every grid point,
   the proof data built from that at the buffer contents the region is entered with, and the body obligation. -/
import proofs.«417346_j54202487276072_2_alg».proof.Proof.Gen.KernelIdeal.Launch
import proofs.«417346_j54202487276072_2_alg».proof.Proof.Gen.KernelIdeal.Skeleton
import proofs.«417346_j54202487276072_2_alg».proof.Proof.Gen.KernelIdeal.Points
import Idealize.ShloMosaic.Lib.Pipeline.FrameBody
import Idealize.ShloMosaic.Lib.Pipeline.Value
import Idealize.ShloMosaic.Lib.Tactic

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! # Region 0: the first dense layer, one row block per grid point

The grid has 49 points. At point `t` the pipeline stages rows `2048·t … 2048·t + 2047` of the padded feature
matrix (window 0), the whole weight matrix (window 1, staged once, at the first point) and gives the body a
buffer for the same rows of the product (window 2). The body reads both staged operands whole, multiplies them
into a zero accumulator, and overwrites the whole output buffer; it keeps nothing between points. Everything
here is stated at the buffer contents `V` with which the region is entered. -/

section Region
variable (V : (c : Dev nD) → (b : Ref sig .tc) → Buf (Elt F) ((c : Thread nD τ).loc b))

/-! ## The windows' blocks -/

/-- The block of window `w` at grid point `t`: its array, as the region finds it, read through the window's
    rectangle at that point. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The row-block window holds its block at every point: it is fetched at each one, and the body leaves it as
    found. Stated for any proof data with `V`'s array and a body that keeps the block. -/
theorem held0_0 {c : Dev nD} (dat : Dat τ (Elt F) Unit ℕ (UR sig nD τ) ℕ cfg0 c)
    (hA : dat.A 0 = V c (Pipeline.arrRef spec0 0)) (hafter : ∀ t, dat.after 0 t = iblk0 V c 0 t)
    (t : Fin cfg0.N) (d) : dat.before 0 t d = iblk0 V c 0 t :=
  (dat.before_in_eq_fetched 0 rfl (fun _ => rfl) (fun _ _ _ => rfl)
      (fun t => by rw [hafter]; unfold Dat.blockOf iblk0; rw [hA]; try rfl) t d).trans
    (by unfold Dat.fetched Dat.blockOf iblk0; rw [hA]; try rfl)

/-- The weight window holds the whole weight matrix at every point although it is fetched at the first only:
    its block index never moves, so at a later point the buffer still holds the previous point's block, which
    is this point's. -/
theorem held0_1 {c : Dev nD} (dat : Dat τ (Elt F) Unit ℕ (UR sig nD τ) ℕ cfg0 c)
    (hA : dat.A 1 = V c (Pipeline.arrRef spec0 1)) (hafter : ∀ t, dat.after 1 t = iblk0 V c 1 t)
    (t : Fin cfg0.N) (d) : dat.before 1 t d = iblk0 V c 1 t :=
  (dat.before_in_eq_fetched 1 rfl (fun _ => rfl) (fun _ _ _ => rfl)
      (fun t => by rw [hafter]; unfold Dat.blockOf iblk0; rw [hA]; try rfl) t d).trans
    (by unfold Dat.fetched Dat.blockOf iblk0; rw [hA]; try rfl)

/-! ## The body's accesses: each staging buffer whole -/

abbrev rLhs0 : Rect S2048x128 := Rect.unit (s := S2048x128) ![0, 0] S2048x128.size inb_S2048x128_S2048x128_0_0
abbrev rRhs0 : Rect S128x16 := Rect.unit (s := S128x16) ![0, 0] S128x16.size inb_S128x16_S128x16_0_0
abbrev rOut0 : Rect S2048x16 := Rect.unit (s := S2048x16) ![0, 0] S2048x16.size inb_S2048x16_S2048x16_0_0

/-- The offsets of those rectangles are zero on both axes. -/
theorem zeroOff : (![0, 0] : Fin 2 → Nat) = fun _ => 0 := funext fun a => by fin_cases a <;> rfl

/-! ## What the body leaves in the output buffer -/

/-- The output buffer after the body, as a function of the two staged operands: its one store, through the
    whole-buffer rectangle, of the product payload of the two whole-buffer loads. -/
def out0_2 (x0 : Vec F S2048x128 .f32) (x1 : Vec F S128x16 .f32) : Vec F S2048x16 .f32 :=
  View.canon [⟨rOut0, k0_pay1 (View.ld x0 rLhs0) (View.ld x1 rRhs0)⟩]

/-- That one store covers the buffer: its rectangle is the whole shape. -/
theorem covers0_2 (p : Vec F S2048x16 .f32) (y : S2048x16.Idx) :
    ∃ pc ∈ ([⟨rOut0, p⟩] : List (View.Piece (Elt F) S2048x16 .f32)), y ∈ pc.1.set :=
  ⟨_, List.mem_singleton_self _, View.mem_set_unit_zero zeroOff inb_S2048x16_S2048x16_0_0 y⟩

/-! ## The body's triple -/

set_option maxHeartbeats 1000000 in
/-- On whole staging memrefs, the operands' at contents `x0`, `x1` and the output's at anything, the body runs to
    a continuation that holds the operands' as they were and the output's at `out0_2 x0 x1`. The body is its
    skeleton: three loads (the third, of the output buffer, is discarded) and one covering store. -/
theorem triple0 (c : Dev nD) (E : Set ℕ) (i : grid0.Coords)
    (arg1 : Memref sig .tc .vmem S2048x128 .f32) (harg1 : arg1.IsWhole)
    (arg2 : Memref sig .tc .vmem S128x16 .f32) (harg2 : arg2.IsWhole)
    (arg3 : Memref sig .tc .vmem S2048x16 .f32) (harg3 : arg3.IsWhole)
    (x0 : Vec F S2048x128 .f32) (x1 : Vec F S128x16 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E
          (cc0__dense_kernel i arg1 harg1 arg2 harg2 arg3 harg3) K := by
  simp only [cc0__dense_kernel_eq_skeleton]; unfold cc0__dense_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers0_2 _)

/-! ## The pipeline's proof data -/

/-- Pipeline 0's proof data on core `c`: the arrays as the region finds them; after the body at point `t` each
    operand's buffer still at its block and the output's at `out0_2` of the two blocks; the invariant is the
    scoped rest and the generator register, untouched; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-- Each operand's current staging buffer holds its block at every point. -/
theorem before0_0 (c : Dev nD) (t : Fin cfg0.N) (d) : (dat0 V c).before 0 t d = iblk0 V c 0 t :=
  held0_0 V (dat0 V c) (A_eq0 V c 0) (after0_0 V c) t d
theorem before0_1 (c : Dev nD) (t : Fin cfg0.N) (d) : (dat0 V c).before 1 t d = iblk0 V c 1 t :=
  held0_1 V (dat0 V c) (A_eq0 V c 1) (after0_1 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the operands' memrefs hold their blocks, so the body's triple applies; the invariant
    and the core's tallies pass through unread. -/
theorem sound_body0 (c : Dev nD) (t : Fin cfg0.N) :
    bodyPre0 V c t ⊢ wp frame (wpE (defs₀ (F := F)) Variants.none c none) Set.univ (bodyAt0 t)
      (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (triple0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) :
    BodyObligation (dat0 (F := F) V c) (defs₀ (F := F)) Variants.none () Set.univ := fun t => by
  rw [bigSep_W0, bigSep_W0]
  exact sound_body0 V c t

end Region

end Cert.KernelIdeal.R0

end
-- ==== Proof.R1Sched.lean ====
/- The schedule of the gather region (grid [391, 49], point t ↔ (e, j) = (t / 49, t % 49), j the inner axis), at any
   admissible contents `a` of its two prefetched tables: the index maps do not read the tables, so each window's block
   index is a closed form in t, and with it which points fetch an input (src and norm: where j = 0; the node block:
   every point), which write the output back (where j = 48) and where the output is idle (where j ≠ 48). -/
import proofs.«417346_j54202487276072_2_alg».proof.Proof.Gen.KernelIdeal.Launch

noncomputable section

namespace Cert.KernelIdeal.R1

open Cert.KernelIdeal Cert.KernelIdeal.Gen
open Idealize.ShloMosaic Idealize.ShloMosaic.TcCoe
open Idealize.SL Idealize.SL.Sem

variable {F : FTy → Type} [FloatOps F]

/-! ## The coordinates of a point -/

theorem stride1_0 : grid1.stride 0 = 49 := by decide
theorem stride1_1 : grid1.stride 1 = 1 := by decide

/-- The outer coordinate (the edge tile) of point t is t / 49. -/
theorem coords1_0 (t : Fin grid1.N) : (grid1.coords t 0).val = t.val / 49 := by
  have h : t.val < 19159 := Nat.lt_of_lt_of_eq t.isLt N_1
  show t.val / grid1.stride 0 % 391 = _
  rw [stride1_0]; omega

/-- The inner coordinate (the node tile) of point t is t % 49. -/
theorem coords1_1 (t : Fin grid1.N) : (grid1.coords t 1).val = t.val % 49 := by
  show t.val / grid1.stride 1 % 49 = _
  rw [stride1_1, Nat.div_one]

theorem vec2_ne {x y : ℕ} : (![x, 0] : Fin 2 → ℕ) ≠ ![y, 0] ↔ x ≠ y :=
  ⟨fun h hxy => h (by rw [hxy]), fun h heq => h (congrFun heq 0)⟩
theorem vec1_ne {x y : ℕ} : (![x] : Fin 1 → ℕ) ≠ ![y] ↔ x ≠ y :=
  ⟨fun h hxy => h (by rw [hxy]), fun h heq => h (congrFun heq 0)⟩

variable (a : (pcfg1 (F := F)).Adm)

/-! ## The windows' block indices, in closed form -/

theorem idx1_0 (t : Fin (cfg1 a).N) : ((cfg1 a).win 0).index t = ![t.val / 49] := by
  have h : t.val < 19159 := Nat.lt_of_lt_of_eq t.isLt N_1
  show cc1_transform_0 (grid1.coords t) = _
  unfold cc1_transform_0
  simp only [BitVec.toNat_ofNat, coords1_0]
  rw [Nat.mod_eq_of_lt (by omega)]

theorem idx1_1 (t : Fin (cfg1 a).N) : ((cfg1 a).win 1).index t = ![t.val / 49] := by
  have h : t.val < 19159 := Nat.lt_of_lt_of_eq t.isLt N_1
  show cc1_transform_1 (grid1.coords t) = _
  unfold cc1_transform_1
  simp only [BitVec.toNat_ofNat, coords1_0]
  rw [Nat.mod_eq_of_lt (by omega)]

theorem idx1_2 (t : Fin (cfg1 a).N) : ((cfg1 a).win 2).index t = ![t.val % 49, 0] := by
  show cc1_transform_2 (grid1.coords t) = _
  unfold cc1_transform_2
  simp only [BitVec.toNat_ofNat, coords1_1]
  rw [Nat.mod_eq_of_lt (by omega)]

theorem idx1_3 (t : Fin (cfg1 a).N) : ((cfg1 a).win 3).index t = ![t.val / 49, 0] := by
  have h : t.val < 19159 := Nat.lt_of_lt_of_eq t.isLt N_1
  show cc1_transform_3 (grid1.coords t) = _
  unfold cc1_transform_3
  simp only [BitVec.toNat_ofNat, coords1_0]
  rw [Nat.mod_eq_of_lt (by omega)]

/-! ## Which points fetch, which write back -/

/-- The output block is written back exactly at the last node tile of each edge tile (j = 48). -/
theorem flush1_3 (t : Fin (cfg1 a).N) : ((cfg1 a).win 3).flush t = true ↔ t.val % 49 = 48 := by
  have hN : (pcfg1.gridAt a.1).N = 19159 := N_1
  have hN' : (cfg1 a).N = 19159 := N_1
  have hN'' : (cfg1 a).grid.N = 19159 := N_1
  have ht : t.val < 19159 := Nat.lt_of_lt_of_eq t.isLt N_1
  have key : ∀ (s s' : Fin (cfg1 a).N), ((cfg1 a).win 3).index s ≠ ((cfg1 a).win 3).index s' ↔ s.val / 49 ≠ s'.val / 49 :=
    fun s s' => by rw [idx1_3, idx1_3]; exact vec2_ne
  unfold Pipeline.Window.flush
  rw [show ((cfg1 a).win 3).isOut = true from rfl, Bool.true_and, Bool.or_eq_true, decide_eq_true_eq, decide_eq_true_eq]
  constructor
  · rintro (h | ⟨h, hne⟩)
    · omega
    · have h2 := (key _ _).mp hne
      dsimp only at h2
      omega
  · intro h
    by_cases hl : t.val + 1 = 19159
    · exact .inl (by omega)
    · exact .inr ⟨by omega, (key ⟨t.val + 1, by omega⟩ t).mpr (by dsimp only; omega)⟩

/-- The source-index block is fetched exactly at the first node tile of each edge tile (j = 0). -/
theorem fetch1_0 (t : Fin (cfg1 a).N) : ((cfg1 a).win 0).fetch t = true ↔ t.val % 49 = 0 := by
  have hN : (pcfg1.gridAt a.1).N = 19159 := N_1
  have hN' : (cfg1 a).N = 19159 := N_1
  have hN'' : (cfg1 a).grid.N = 19159 := N_1
  have ht : t.val < 19159 := Nat.lt_of_lt_of_eq t.isLt N_1
  have key : ∀ (s s' : Fin (cfg1 a).N), ((cfg1 a).win 0).index s ≠ ((cfg1 a).win 0).index s' ↔ s.val / 49 ≠ s'.val / 49 :=
    fun s s' => by rw [idx1_0, idx1_0]; exact vec1_ne
  unfold Pipeline.Window.fetch
  rw [show ((cfg1 a).win 0).isOut = false from rfl, Bool.not_false, Bool.true_and, Bool.or_eq_true, decide_eq_true_eq, decide_eq_true_eq]
  constructor
  · rintro (h | ⟨h, hne⟩)
    · omega
    · have h2 := (key _ _).mp hne
      dsimp only at h2
      omega
  · intro h
    by_cases hl : t.val = 0
    · exact .inl hl
    · exact .inr ⟨by omega, (key t ⟨t.val - 1, by omega⟩).mpr (by dsimp only; omega)⟩

/-- The edge-norm block likewise. -/
theorem fetch1_1 (t : Fin (cfg1 a).N) : ((cfg1 a).win 1).fetch t = true ↔ t.val % 49 = 0 := by
  have hN : (pcfg1.gridAt a.1).N = 19159 := N_1
  have hN' : (cfg1 a).N = 19159 := N_1
  have hN'' : (cfg1 a).grid.N = 19159 := N_1
  have ht : t.val < 19159 := Nat.lt_of_lt_of_eq t.isLt N_1
  have key : ∀ (s s' : Fin (cfg1 a).N), ((cfg1 a).win 1).index s ≠ ((cfg1 a).win 1).index s' ↔ s.val / 49 ≠ s'.val / 49 :=
    fun s s' => by rw [idx1_1, idx1_1]; exact vec1_ne
  unfold Pipeline.Window.fetch
  rw [show ((cfg1 a).win 1).isOut = false from rfl, Bool.not_false, Bool.true_and, Bool.or_eq_true, decide_eq_true_eq, decide_eq_true_eq]
  constructor
  · rintro (h | ⟨h, hne⟩)
    · omega
    · have h2 := (key _ _).mp hne
      dsimp only at h2
      omega
  · intro h
    by_cases hl : t.val = 0
    · exact .inl hl
    · exact .inr ⟨by omega, (key t ⟨t.val - 1, by omega⟩).mpr (by dsimp only; omega)⟩

/-- The node-feature block is fetched at every point (the node tile changes from each point to the next). -/
theorem fetch1_2 (t : Fin (cfg1 a).N) : ((cfg1 a).win 2).fetch t = true := by
  have hN : (pcfg1.gridAt a.1).N = 19159 := N_1
  have hN' : (cfg1 a).N = 19159 := N_1
  have hN'' : (cfg1 a).grid.N = 19159 := N_1
  have ht : t.val < 19159 := Nat.lt_of_lt_of_eq t.isLt N_1
  have key : ∀ (s s' : Fin (cfg1 a).N), ((cfg1 a).win 2).index s ≠ ((cfg1 a).win 2).index s' ↔ s.val % 49 ≠ s'.val % 49 :=
    fun s s' => by rw [idx1_2, idx1_2]; exact vec2_ne
  unfold Pipeline.Window.fetch
  rw [show ((cfg1 a).win 2).isOut = false from rfl, Bool.not_false, Bool.true_and, Bool.or_eq_true, decide_eq_true_eq, decide_eq_true_eq]
  by_cases hl : t.val = 0
  · exact .inl hl
  · exact .inr ⟨by omega, (key t ⟨t.val - 1, by omega⟩).mpr (by dsimp only; omega)⟩

/-! ## The body's guards on the inner coordinate -/

/-- The first guard (reset the accumulator) as the kernel computes it. -/
abbrev cond1 (i : grid1.Coords) : Prop :=
  Scalar.cmpi .ne (Scalar.extui (Scalar.cmpi .eq (BitVec.ofNat 32 (i 1).val) 0#32)) 0#32 = 1#1

theorem cond1_fin : ∀ j : Fin 49, (Scalar.cmpi .ne (Scalar.extui (Scalar.cmpi .eq (BitVec.ofNat 32 j.val) 0#32)) 0#32 = 1#1) ↔ j.val = 0 := by decide
theorem cond3_fin : ∀ j : Fin 49, (Scalar.cmpi .ne (Scalar.extui (Scalar.cmpi .eq (BitVec.ofNat 32 j.val) 48#32)) 0#32 = 1#1) ↔ j.val = 48 := by decide

/-- It holds exactly where the node tile is the first. -/
theorem cond1_iff (i : grid1.Coords) : cond1 i ↔ (i 1).val = 0 := cond1_fin (i 1)
/-- The third guard (store the output) holds exactly where the node tile is the last. -/
theorem k1_cond3_iff' (i : grid1.Coords) : k1_cond3 i = 1#1 ↔ (i 1).val = 48 := cond3_fin (i 1)
theorem k1_cond3_iff (t : Fin grid1.N) : k1_cond3 (grid1.coords t) = 1#1 ↔ t.val % 49 = 48 := by
  rw [← coords1_1]; exact cond3_fin (grid1.coords t 1)

/-- The output window is idle exactly where the third guard fails. -/
theorem idle1_3 (t : Fin (cfg1 a).N) : (cfg1 a).idle 3 (grid1.coords t) = true ↔ t.val % 49 ≠ 48 := by
  show (!(k1_cond3 (grid1.coords t) == 1#1)) = true ↔ _
  rw [Bool.not_eq_true', beq_eq_false_iff_ne, ne_eq, k1_cond3_iff]

theorem idle1_3_of (i : grid1.Coords) (h : ¬ k1_cond3 i = 1#1) : (cfg1 a).idle 3 i = true := by
  show (!(k1_cond3 i == 1#1)) = true
  rw [Bool.not_eq_true', beq_eq_false_iff_ne]; exact h
theorem live1_3_of (i : grid1.Coords) (h : k1_cond3 i = 1#1) : (cfg1 a).idle 3 i = false := by
  show (!(k1_cond3 i == 1#1)) = false
  rw [Bool.not_eq_false', beq_iff_eq]; exact h

/-- The inputs are never idle. -/
theorem live1_0 (i : grid1.Coords) : (cfg1 a).idle 0 i = false := rfl
theorem live1_1 (i : grid1.Coords) : (cfg1 a).idle 1 i = false := rfl
theorem live1_2 (i : grid1.Coords) : (cfg1 a).idle 2 i = false := rfl

/-- Where the output is idle it is not written back. -/
theorem noflush1_3 (t : Fin (cfg1 a).N) (h : ¬ k1_cond3 (grid1.coords t) = 1#1) : ((cfg1 a).win 3).flush t = false := by
  rw [Bool.eq_false_iff, ne_eq, flush1_3, ← k1_cond3_iff]; exact h

end Cert.KernelIdeal.R1

end
-- ==== Proof.R1Runs.lean ====
import proofs.«417346_j54202487276072_2_alg».proof.Proof.Gen.KernelIdeal.Launch
import proofs.«417346_j54202487276072_2_alg».proof.Proof.Gen.KernelIdeal.Skeleton
import proofs.«417346_j54202487276072_2_alg».proof.Proof.R1Sched
import Idealize.ShloMosaic.Lib.Pipeline.FrameBody
import Idealize.ShloMosaic.Lib.Pipeline.Value
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## The tables as the body is handed them; the step's condition -/

abbrev tbMin1 : Memref sig .tc .smem S391 .i32 := Memref.whole main_v68
abbrev htbMin1 : (tbMin1).IsWhole := Memref.isWhole_whole _
abbrev tbMax1 : Memref sig .tc .smem S391 .i32 := Memref.whole main_v70
abbrev htbMax1 : (tbMax1).IsWhole := Memref.isWhole_whole _

/-- A table's buffer contents on core `c`, and the table held whole at them. -/
abbrev TbBuf1 (c : Dev nD) (M : Memref sig .tc .smem S391 .i32) : Type := Buf (Elt F) (M.view.loc (c : Thread nD τ))
abbrev tbPt1 (c : Dev nD) (M : Memref sig .tc .smem S391 .i32) (f : TbBuf1 (F := F) c M) : sProp 𝕄 :=
  M.view.loc (c : Thread nD τ) ↦{fullShare} f

/-- The word of table `M` the body loads at point `i` (the entry of the point's edge tile), over contents `f`. -/
abbrev wd1 (M : Memref sig .tc .smem S391 .i32) (f : M.view.ty.Contents (Elt F)) (i : grid1.Coords) : Elt F .i32 :=
  M.view.readAt (Elt F) (Rect.unit (s := S391) (k1_off1 i) S1.size (k1_off1_inb i)).toLoadRect f (Shape.Idx.first (numel1_S1.symm ▸ Nat.one_pos))

/-- The condition of the accumulation step as the body computes it: the node tile `[2048 i₁, 2048 i₁ + 2048)` meets
    the range `[mn, mx]` of sources in the edge tile (signed comparisons on the two table words). -/
def k1_act (i : grid1.Coords) (mx mn : Elt F .i32) : BitVec 1 :=
  let arg1 : BitVec 32 := BitVec.ofNat 32 (i 1).val
  let v3 : BitVec 32 := Scalar.muli arg1 2048#32
  let v4 : BitVec 32 := Scalar.addi v3 2048#32
  let v7 : BitVec 1 := Scalar.cmpi .sle v3 mx
  let v10 : BitVec 1 := Scalar.cmpi .sgt v4 mn
  let v11 : BitVec 1 := Scalar.andi v7 v10
  let v12 : BitVec 32 := Scalar.extui v11
  Scalar.cmpi .ne v12 0#32

/-! ## Whole-buffer loads and stores -/

theorem z1 : (![0] : Fin 1 → Nat) = fun _ => 0 := by funext a; fin_cases a; rfl
theorem z2 : (![0, 0] : Fin 2 → Nat) = fun _ => 0 := by funext a; fin_cases a <;> rfl

/-- A load through the whole-shape rectangle at zero offsets reads the memref's contents. -/
theorem rdU (S : Shape) {e : EltTy} {κ : Kind} {sp : Space} (v : View sig κ sp S e) {off : Fin S.rank → Nat} (h : off = fun _ => 0)
    (inb : ∀ a, off a + S.size a ≤ S.size a) (f : v.ty.Contents (Elt F)) :
    v.readAt (Elt F) (Rect.unit off S.size inb).toLoadRect f = v.read (Elt F) f :=
  View.ld_unit_zero h inb _

/-- Every index lies in the whole-shape rectangle: a list of stores headed by one through it covers the buffer. -/
theorem covU (S : Shape) {e : EltTy} {off : Fin S.rank → Nat} (h : off = fun _ => 0) (inb : ∀ a, off a + S.size a ≤ S.size a)
    (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons.mpr (Or.inl rfl), View.mem_set_unit_zero h inb y⟩

/-- A load through it of what the run's stores left, the last of them through it, reads that store's payload. -/
theorem rcU (S : Shape) {e : EltTy} {κ : Kind} {sp : Space} (v : View sig κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (covU S h inb w L), View.canon_cons_unit_zero h, View.ld_unit_zero h]

/-- The buffer read back after the run's stores, the last of them through the whole-shape rectangle: its payload. -/
theorem rwU (S : Shape) {e : EltTy} {κ : Kind} {sp : Space} (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (covU S h inb w L), View.canon_cons_unit_zero h]

/-- The inputs' staging memrefs at their blocks and the two tables at their contents: what every case of the body
    is handed and hands back untouched. -/
def kin1 (c : Dev nD) (arg4 : Memref sig .tc .vmem S4096 .i32) (arg5 : Memref sig .tc .vmem S4096 .f32)
    (arg6 : Memref sig .tc .vmem S2048x16 .f32)
    (x0 : Vec F S4096 .i32) (x1 : Vec F S4096 .f32) (x2 : Vec F S2048x16 .f32)
    (xt0 : TbBuf1 (F := F) c tbMin1) (xt1 : TbBuf1 (F := F) c tbMax1) : sProp 𝕄 :=
  iprop(owns (c : Thread nD τ) arg4 fullShare x0 ∗ owns (c : Thread nD τ) arg5 fullShare x1 ∗ owns (c : Thread nD τ) arg6 fullShare x2
    ∗ tbPt1 c tbMin1 xt0 ∗ tbPt1 c tbMax1 xt1)

/-! ## The body, case by case

The body has three conditionals: on the point's node tile being the first (the scratch is reset to zero), on the two
table words (the accumulation step), on the node tile being the last (the output block is stored). First and last
exclude each other on this grid, which leaves six cases. In each the printed function is its skeleton, run
operation by operation; every load and store is through a whole staging memref. The tables' words are never
evaluated: the case's hypothesis on them decides the middle conditional. -/

set_option maxHeartbeats 1000000 in
/-- First node tile, step taken: the scratch ends at the step applied to zero; the output's buffer is untouched. -/
theorem run1_FA (c : Dev nD) (i : grid1.Coords)
    (arg4 : Memref sig .tc .vmem S4096 .i32) (harg4 : arg4.IsWhole) (arg5 : Memref sig .tc .vmem S4096 .f32) (harg5 : arg5.IsWhole)
    (arg6 : Memref sig .tc .vmem S2048x16 .f32) (harg6 : arg6.IsWhole) (arg7 : Memref sig .tc .vmem S4096x16 .f32) (harg7 : arg7.IsWhole)
    (arg8 : Memref sig .tc .vmem S4096x16 .f32) (harg8 : arg8.IsWhole)
    (x0 : Vec F S4096 .i32) (x1 : Vec F S4096 .f32) (x2 : Vec F S2048x16 .f32)
    (xt0 : TbBuf1 (F := F) c tbMin1) (xt1 : TbBuf1 (F := F) c tbMax1)
    (hc1 : cond1 i) (hc2 : k1_act (F := F) i (wd1 tbMax1 xt1 i) (wd1 tbMin1 xt0 i) = 1#1) (hc3 : ¬ k1_cond3 i = 1#1)
    (xo : Vec F S4096x16 .f32) (E : Set ℕ) (K : PUnit → sProp 𝕄) :
    iprop(kin1 c arg4 arg5 arg6 x0 x1 x2 xt0 xt1
        ∗ (∃ d, owns (c : Thread nD τ) arg8 fullShare d) ∗ owns (c : Thread nD τ) arg7 fullShare xo
        ∗ (iprop(kin1 c arg4 arg5 arg6 x0 x1 x2 xt0 xt1
            ∗ owns (c : Thread nD τ) arg8 fullShare (k1_pay2 i x0 (k1_pay1 (F := F)) x2) ∗ owns (c : Thread nD τ) arg7 fullShare xo) -∗ K ⟨⟩))
      ⊢ wp frame (wpE (defs₀ (F := F)) Variants.none c none) E
          (cc1__gather_kernel i tbMin1 htbMin1 tbMax1 htbMax1 arg4 harg4 arg5 harg5 arg6 harg6 arg7 harg7 arg8 harg8) K := by
  simp only [cc1__gather_kernel_eq_skeleton]; unfold cc1__gather_kernel_skel
  unfold kin1 owns
  iintro ⟨⟨⟨%f0, %hf0, H0⟩, ⟨%f1, %hf1, H1⟩, ⟨%f2, %hf2, H2⟩, HT0, HT1⟩, ⟨%ds, %fs, -, HS⟩, ⟨%f9, %hf9, H9⟩, Hk⟩
  subst hf0 hf1 hf2 hf9
  sl_exec (disch := first | sl_exact hc1 | sl_exact hc2 | sl_exact hc3)
  sl_step
  iapply Hk
  isplitl [H0 H1 H2 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [HT0]; · iexact HT0
    iexact HT1
  isplitl [HS]
  · iexists _; isplitr; swap; · iexact HS
    ipureintro
    -- the second store's payload read the first store's back
    rw [rwU S4096x16 _ _ z2]
    unfold run1_FA.sl.v29 run1_FA.sl.HS_1
    simp only [rcU S4096x16 _ z2, rdU S4096 _ z1, rdU S2048x16 _ z2]
  iexists f9; isplitr; · ipureintro; rfl
  iexact H9

set_option maxHeartbeats 1000000 in
/-- First node tile, step skipped: the scratch ends at zero; the output's buffer is untouched. -/
theorem run1_FI (c : Dev nD) (i : grid1.Coords)
    (arg4 : Memref sig .tc .vmem S4096 .i32) (harg4 : arg4.IsWhole) (arg5 : Memref sig .tc .vmem S4096 .f32) (harg5 : arg5.IsWhole)
    (arg6 : Memref sig .tc .vmem S2048x16 .f32) (harg6 : arg6.IsWhole) (arg7 : Memref sig .tc .vmem S4096x16 .f32) (harg7 : arg7.IsWhole)
    (arg8 : Memref sig .tc .vmem S4096x16 .f32) (harg8 : arg8.IsWhole)
    (x0 : Vec F S4096 .i32) (x1 : Vec F S4096 .f32) (x2 : Vec F S2048x16 .f32)
    (xt0 : TbBuf1 (F := F) c tbMin1) (xt1 : TbBuf1 (F := F) c tbMax1)
    (hc1 : cond1 i) (hc2 : ¬ k1_act (F := F) i (wd1 tbMax1 xt1 i) (wd1 tbMin1 xt0 i) = 1#1) (hc3 : ¬ k1_cond3 i = 1#1)
    (xo : Vec F S4096x16 .f32) (E : Set ℕ) (K : PUnit → sProp 𝕄) :
    iprop(kin1 c arg4 arg5 arg6 x0 x1 x2 xt0 xt1
        ∗ (∃ d, owns (c : Thread nD τ) arg8 fullShare d) ∗ owns (c : Thread nD τ) arg7 fullShare xo
        ∗ (iprop(kin1 c arg4 arg5 arg6 x0 x1 x2 xt0 xt1
            ∗ owns (c : Thread nD τ) arg8 fullShare (k1_pay1 (F := F)) ∗ owns (c : Thread nD τ) arg7 fullShare xo) -∗ K ⟨⟩))
      ⊢ wp frame (wpE (defs₀ (F := F)) Variants.none c none) E
          (cc1__gather_kernel i tbMin1 htbMin1 tbMax1 htbMax1 arg4 harg4 arg5 harg5 arg6 harg6 arg7 harg7 arg8 harg8) K := by
  simp only [cc1__gather_kernel_eq_skeleton]; unfold cc1__gather_kernel_skel
  unfold kin1 owns
  iintro ⟨⟨⟨%f0, %hf0, H0⟩, ⟨%f1, %hf1, H1⟩, ⟨%f2, %hf2, H2⟩, HT0, HT1⟩, ⟨%ds, %fs, -, HS⟩, ⟨%f9, %hf9, H9⟩, Hk⟩
  subst hf0 hf1 hf2 hf9
  sl_exec (disch := first | sl_exact hc1 | sl_exact hc2 | sl_exact hc3)
  sl_step
  iapply Hk
  isplitl [H0 H1 H2 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [HT0]; · iexact HT0
    iexact HT1
  isplitl [HS]
  · iexists _; isplitr; swap; · iexact HS
    ipureintro
    rw [rwU S4096x16 _ _ z2]
  iexists f9; isplitr; · ipureintro; rfl
  iexact H9

set_option maxHeartbeats 1000000 in
/-- A middle node tile, step taken: the scratch ends at the step applied to what it held; the output's buffer is
    untouched. -/
theorem run1_MA (c : Dev nD) (i : grid1.Coords)
    (arg4 : Memref sig .tc .vmem S4096 .i32) (harg4 : arg4.IsWhole) (arg5 : Memref sig .tc .vmem S4096 .f32) (harg5 : arg5.IsWhole)
    (arg6 : Memref sig .tc .vmem S2048x16 .f32) (harg6 : arg6.IsWhole) (arg7 : Memref sig .tc .vmem S4096x16 .f32) (harg7 : arg7.IsWhole)
    (arg8 : Memref sig .tc .vmem S4096x16 .f32) (harg8 : arg8.IsWhole)
    (x0 : Vec F S4096 .i32) (x1 : Vec F S4096 .f32) (x2 : Vec F S2048x16 .f32)
    (xt0 : TbBuf1 (F := F) c tbMin1) (xt1 : TbBuf1 (F := F) c tbMax1)
    (hc1 : ¬ cond1 i) (hc2 : k1_act (F := F) i (wd1 tbMax1 xt1 i) (wd1 tbMin1 xt0 i) = 1#1) (hc3 : ¬ k1_cond3 i = 1#1)
    (xs xo : Vec F S4096x16 .f32) (E : Set ℕ) (K : PUnit → sProp 𝕄) :
    iprop(kin1 c arg4 arg5 arg6 x0 x1 x2 xt0 xt1
        ∗ owns (c : Thread nD τ) arg8 fullShare xs ∗ owns (c : Thread nD τ) arg7 fullShare xo
        ∗ (iprop(kin1 c arg4 arg5 arg6 x0 x1 x2 xt0 xt1
            ∗ owns (c : Thread nD τ) arg8 fullShare (k1_pay2 i x0 xs x2) ∗ owns (c : Thread nD τ) arg7 fullShare xo) -∗ K ⟨⟩))
      ⊢ wp frame (wpE (defs₀ (F := F)) Variants.none c none) E
          (cc1__gather_kernel i tbMin1 htbMin1 tbMax1 htbMax1 arg4 harg4 arg5 harg5 arg6 harg6 arg7 harg7 arg8 harg8) K := by
  simp only [cc1__gather_kernel_eq_skeleton]; unfold cc1__gather_kernel_skel
  unfold kin1 owns
  iintro ⟨⟨⟨%f0, %hf0, H0⟩, ⟨%f1, %hf1, H1⟩, ⟨%f2, %hf2, H2⟩, HT0, HT1⟩, ⟨%fs, %hfs, HS⟩, ⟨%f9, %hf9, H9⟩, Hk⟩
  subst hf0 hf1 hf2 hfs hf9
  sl_exec (disch := first | sl_exact hc1 | sl_exact hc2 | sl_exact hc3)
  sl_step
  iapply Hk
  isplitl [H0 H1 H2 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [HT0]; · iexact HT0
    iexact HT1
  isplitl [HS]
  · iexists _; isplitr; swap; · iexact HS
    ipureintro
    rw [rwU S4096x16 _ _ z2]
    simp only [rdU S4096 _ z1, rdU S4096x16 _ z2, rdU S2048x16 _ z2]
  iexists f9; isplitr; · ipureintro; rfl
  iexact H9

set_option maxHeartbeats 1000000 in
/-- A middle node tile, step skipped: nothing is stored. -/
theorem run1_MI (c : Dev nD) (i : grid1.Coords)
    (arg4 : Memref sig .tc .vmem S4096 .i32) (harg4 : arg4.IsWhole) (arg5 : Memref sig .tc .vmem S4096 .f32) (harg5 : arg5.IsWhole)
    (arg6 : Memref sig .tc .vmem S2048x16 .f32) (harg6 : arg6.IsWhole) (arg7 : Memref sig .tc .vmem S4096x16 .f32) (harg7 : arg7.IsWhole)
    (arg8 : Memref sig .tc .vmem S4096x16 .f32) (harg8 : arg8.IsWhole)
    (x0 : Vec F S4096 .i32) (x1 : Vec F S4096 .f32) (x2 : Vec F S2048x16 .f32)
    (xt0 : TbBuf1 (F := F) c tbMin1) (xt1 : TbBuf1 (F := F) c tbMax1)
    (hc1 : ¬ cond1 i) (hc2 : ¬ k1_act (F := F) i (wd1 tbMax1 xt1 i) (wd1 tbMin1 xt0 i) = 1#1) (hc3 : ¬ k1_cond3 i = 1#1)
    (xs xo : Vec F S4096x16 .f32) (E : Set ℕ) (K : PUnit → sProp 𝕄) :
    iprop(kin1 c arg4 arg5 arg6 x0 x1 x2 xt0 xt1
        ∗ owns (c : Thread nD τ) arg8 fullShare xs ∗ owns (c : Thread nD τ) arg7 fullShare xo
        ∗ (iprop(kin1 c arg4 arg5 arg6 x0 x1 x2 xt0 xt1
            ∗ owns (c : Thread nD τ) arg8 fullShare xs ∗ owns (c : Thread nD τ) arg7 fullShare xo) -∗ K ⟨⟩))
      ⊢ wp frame (wpE (defs₀ (F := F)) Variants.none c none) E
          (cc1__gather_kernel i tbMin1 htbMin1 tbMax1 htbMax1 arg4 harg4 arg5 harg5 arg6 harg6 arg7 harg7 arg8 harg8) K := by
  simp only [cc1__gather_kernel_eq_skeleton]; unfold cc1__gather_kernel_skel
  unfold kin1 owns
  iintro ⟨⟨⟨%f0, %hf0, H0⟩, ⟨%f1, %hf1, H1⟩, ⟨%f2, %hf2, H2⟩, HT0, HT1⟩, ⟨%fs, %hfs, HS⟩, ⟨%f9, %hf9, H9⟩, Hk⟩
  subst hf0 hf1 hf2 hfs hf9
  sl_exec (disch := first | sl_exact hc1 | sl_exact hc2 | sl_exact hc3)
  sl_step
  iapply Hk
  isplitl [H0 H1 H2 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [HT0]; · iexact HT0
    iexact HT1
  isplitl [HS]
  · iexists fs; isplitr; · ipureintro; rfl
    iexact HS
  iexists f9; isplitr; · ipureintro; rfl
  iexact H9

set_option maxHeartbeats 1000000 in
/-- Last node tile, step taken: the scratch ends at the step applied to what it held, and the output's buffer at
    that scaled by the edge norms. -/
theorem run1_LA (c : Dev nD) (i : grid1.Coords)
    (arg4 : Memref sig .tc .vmem S4096 .i32) (harg4 : arg4.IsWhole) (arg5 : Memref sig .tc .vmem S4096 .f32) (harg5 : arg5.IsWhole)
    (arg6 : Memref sig .tc .vmem S2048x16 .f32) (harg6 : arg6.IsWhole) (arg7 : Memref sig .tc .vmem S4096x16 .f32) (harg7 : arg7.IsWhole)
    (arg8 : Memref sig .tc .vmem S4096x16 .f32) (harg8 : arg8.IsWhole)
    (x0 : Vec F S4096 .i32) (x1 : Vec F S4096 .f32) (x2 : Vec F S2048x16 .f32)
    (xt0 : TbBuf1 (F := F) c tbMin1) (xt1 : TbBuf1 (F := F) c tbMax1)
    (hc1 : ¬ cond1 i) (hc2 : k1_act (F := F) i (wd1 tbMax1 xt1 i) (wd1 tbMin1 xt0 i) = 1#1) (hc3 : k1_cond3 i = 1#1)
    (xs : Vec F S4096x16 .f32) (E : Set ℕ) (K : PUnit → sProp 𝕄) :
    iprop(kin1 c arg4 arg5 arg6 x0 x1 x2 xt0 xt1
        ∗ owns (c : Thread nD τ) arg8 fullShare xs ∗ (∃ d, owns (c : Thread nD τ) arg7 fullShare d)
        ∗ (iprop(kin1 c arg4 arg5 arg6 x0 x1 x2 xt0 xt1
            ∗ owns (c : Thread nD τ) arg8 fullShare (k1_pay2 i x0 xs x2)
            ∗ owns (c : Thread nD τ) arg7 fullShare (k1_pay3 x1 (k1_pay2 i x0 xs x2))) -∗ K ⟨⟩))
      ⊢ wp frame (wpE (defs₀ (F := F)) Variants.none c none) E
          (cc1__gather_kernel i tbMin1 htbMin1 tbMax1 htbMax1 arg4 harg4 arg5 harg5 arg6 harg6 arg7 harg7 arg8 harg8) K := by
  simp only [cc1__gather_kernel_eq_skeleton]; unfold cc1__gather_kernel_skel
  unfold kin1 owns
  iintro ⟨⟨⟨%f0, %hf0, H0⟩, ⟨%f1, %hf1, H1⟩, ⟨%f2, %hf2, H2⟩, HT0, HT1⟩, ⟨%fs, %hfs, HS⟩, ⟨%d9, %f9, -, H9⟩, Hk⟩
  subst hf0 hf1 hf2 hfs
  sl_exec (disch := first | sl_exact hc1 | sl_exact hc2 | sl_exact hc3)
  sl_step
  iapply Hk
  isplitl [H0 H1 H2 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [HT0]; · iexact HT0
    iexact HT1
  isplitl [HS]
  · iexists _; isplitr; swap; · iexact HS
    ipureintro
    unfold run1_LA.sl.HS_1
    rw [rwU S4096x16 _ _ z2]
    simp only [rdU S4096 _ z1, rdU S4096x16 _ z2, rdU S2048x16 _ z2]
  iexists _; isplitr; swap; · iexact H9
  ipureintro
  -- the last conditional's load read the step's store back
  rw [rwU S4096x16 _ _ z2]
  unfold run1_LA.sl.v20 run1_LA.sl.HS_1
  simp only [rcU S4096x16 _ z2, rdU S4096 _ z1, rdU S4096x16 _ z2, rdU S2048x16 _ z2]

set_option maxHeartbeats 1000000 in
/-- Last node tile, step skipped: the scratch keeps what it held, and the output's buffer ends at that scaled by the
    edge norms. -/
theorem run1_LI (c : Dev nD) (i : grid1.Coords)
    (arg4 : Memref sig .tc .vmem S4096 .i32) (harg4 : arg4.IsWhole) (arg5 : Memref sig .tc .vmem S4096 .f32) (harg5 : arg5.IsWhole)
    (arg6 : Memref sig .tc .vmem S2048x16 .f32) (harg6 : arg6.IsWhole) (arg7 : Memref sig .tc .vmem S4096x16 .f32) (harg7 : arg7.IsWhole)
    (arg8 : Memref sig .tc .vmem S4096x16 .f32) (harg8 : arg8.IsWhole)
    (x0 : Vec F S4096 .i32) (x1 : Vec F S4096 .f32) (x2 : Vec F S2048x16 .f32)
    (xt0 : TbBuf1 (F := F) c tbMin1) (xt1 : TbBuf1 (F := F) c tbMax1)
    (hc1 : ¬ cond1 i) (hc2 : ¬ k1_act (F := F) i (wd1 tbMax1 xt1 i) (wd1 tbMin1 xt0 i) = 1#1) (hc3 : k1_cond3 i = 1#1)
    (xs : Vec F S4096x16 .f32) (E : Set ℕ) (K : PUnit → sProp 𝕄) :
    iprop(kin1 c arg4 arg5 arg6 x0 x1 x2 xt0 xt1
        ∗ owns (c : Thread nD τ) arg8 fullShare xs ∗ (∃ d, owns (c : Thread nD τ) arg7 fullShare d)
        ∗ (iprop(kin1 c arg4 arg5 arg6 x0 x1 x2 xt0 xt1
            ∗ owns (c : Thread nD τ) arg8 fullShare xs ∗ owns (c : Thread nD τ) arg7 fullShare (k1_pay3 x1 xs)) -∗ K ⟨⟩))
      ⊢ wp frame (wpE (defs₀ (F := F)) Variants.none c none) E
          (cc1__gather_kernel i tbMin1 htbMin1 tbMax1 htbMax1 arg4 harg4 arg5 harg5 arg6 harg6 arg7 harg7 arg8 harg8) K := by
  simp only [cc1__gather_kernel_eq_skeleton]; unfold cc1__gather_kernel_skel
  unfold kin1 owns
  iintro ⟨⟨⟨%f0, %hf0, H0⟩, ⟨%f1, %hf1, H1⟩, ⟨%f2, %hf2, H2⟩, HT0, HT1⟩, ⟨%fs, %hfs, HS⟩, ⟨%d9, %f9, -, H9⟩, Hk⟩
  subst hf0 hf1 hf2 hfs
  sl_exec (disch := first | sl_exact hc1 | sl_exact hc2 | sl_exact hc3)
  sl_step
  iapply Hk
  isplitl [H0 H1 H2 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [HT0]; · iexact HT0
    iexact HT1
  isplitl [HS]
  · iexists fs; isplitr; · ipureintro; rfl
    iexact HS
  iexists _; isplitr; swap; · iexact H9
  ipureintro
  rw [rwU S4096x16 _ _ z2]
  simp only [rdU S4096 _ z1, rdU S4096x16 _ z2]

end Cert.KernelIdeal.R1

end
-- ==== Proof.R1Frame.lean ====
import proofs.«417346_j54202487276072_2_alg».proof.Proof.R1Sched
import proofs.«417346_j54202487276072_2_alg».proof.Proof.R1Runs
import Idealize.ShloMosaic.Lib.Pipeline.FrameBody
import Idealize.ShloMosaic.Lib.Pipeline.Frame

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

-- the buffer contents when the region is entered, and the admissible tables: both parameters, never evaluated
variable (V : (c : Dev nD) → (b : Ref sig .tc) → Buf (Elt F) ((c : Thread nD τ).loc b)) (a : (pcfg1 (F := F)).Adm)

/-! # The gather region (custom_call 1) at entry contents `V` and tables `a`

The scratch carries, along each edge tile's run of node tiles, the sum over the node tiles whose range meets the
edge tile's sources of the rows gathered there; the output block is the scratch scaled by the edge norms at the
last node tile. -/

/-! ## The windows' blocks and the table words -/

/-- Window `w`'s block at point `t`, read off its array as the region finds it. -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- The three input blocks at their vector types (no window is cut: a block's shape is its window's). -/
abbrev srcB (c : Dev nD) (t : Fin (cfg1 a).N) : Vec F S4096 .i32 := iblk1 V a c 0 t
abbrev normB (c : Dev nD) (t : Fin (cfg1 a).N) : Vec F S4096 .f32 := iblk1 V a c 1 t
abbrev hwB (c : Dev nD) (t : Fin (cfg1 a).N) : Vec F S2048x16 .f32 := iblk1 V a c 2 t

/-- The two table words the body loads at point `i`: the least and the greatest source in the edge tile. -/
abbrev wMin1 (i : grid1.Coords) : Elt F .i32 := wd1 tbMin1 (a.1 0) i
abbrev wMax1 (i : grid1.Coords) : Elt F .i32 := wd1 tbMax1 (a.1 1) i

/-- The accumulation step is taken at point `i`. -/
abbrev act1 (i : grid1.Coords) : Prop := k1_act (F := F) i (wMax1 a i) (wMin1 a i) = 1#1

/-! ## The scratch, point by point -/

/-- One point's effect on the scratch from what it held (`prev`): reset to zero at the first node tile, then the
    step if its condition holds. -/
def step1 (i : grid1.Coords) (prev : Vec F S4096x16 .f32) (src : Vec F S4096 .i32) (hw : Vec F S2048x16 .f32) : Vec F S4096x16 .f32 :=
  if act1 a i then k1_pay2 i src (if (i 1).val = 0 then k1_pay1 (F := F) else prev) hw
  else (if (i 1).val = 0 then k1_pay1 (F := F) else prev)

/-- What the scratch holds after the body at point `n`. -/
def accAt1 (c : Dev nD) : (n : ℕ) → n < (cfg1 a).N → Vec F S4096x16 .f32
  | 0, h => step1 a (grid1.coords ⟨0, h⟩) (k1_pay1 (F := F)) (srcB V a c ⟨0, h⟩) (hwB V a c ⟨0, h⟩)
  | n + 1, h => step1 a (grid1.coords ⟨n + 1, h⟩) (accAt1 c n (Nat.lt_of_succ_lt h)) (srcB V a c ⟨n + 1, h⟩) (hwB V a c ⟨n + 1, h⟩)

/-- At a first node tile the scratch restarts from zero. -/
theorem accAt1_first (c : Dev nD) (t : Fin (cfg1 a).N) (hk : (grid1.coords t 1).val = 0) :
    accAt1 V a c t.val t.isLt
      = if act1 a (grid1.coords t) then k1_pay2 (grid1.coords t) (srcB V a c t) (k1_pay1 (F := F)) (hwB V a c t)
        else k1_pay1 (F := F) := by
  obtain ⟨n, hn⟩ := t
  cases n with
  | zero => show step1 a _ _ _ _ = _; unfold step1; simp only [if_pos hk]
  | succ n => show step1 a _ _ _ _ = _; unfold step1; simp only [if_pos hk]

/-- At a later node tile it continues from the point before. -/
theorem accAt1_next (c : Dev nD) (t : Fin (cfg1 a).N) (hk : (grid1.coords t 1).val ≠ 0) :
    accAt1 V a c t.val t.isLt
      = if act1 a (grid1.coords t)
        then k1_pay2 (grid1.coords t) (srcB V a c t) (accAt1 V a c (t.val - 1) (Nat.lt_of_le_of_lt (Nat.sub_le _ _) t.isLt)) (hwB V a c t)
        else accAt1 V a c (t.val - 1) (Nat.lt_of_le_of_lt (Nat.sub_le _ _) t.isLt) := by
  obtain ⟨n, hn⟩ := t
  cases n with
  | zero => exact absurd (by rw [coords1_1]; rfl) hk
  | succ n => show step1 a _ _ _ _ = _; unfold step1; simp only [if_neg hk]; rfl

/-! ## The invariant between points -/

/-- The kernel's scratch operand: a whole scoped buffer of its own. -/
abbrev scM1 : Memref sig .tc .vmem S4096x16 .f32 := Memref.whole cc1_scratch0

/-- The scratch before point `n`: at anything before the first point, else at what the point before left. -/
def scr1 (c : Dev nD) : (n : ℕ) → n < (cfg1 a).N + 1 → sProp 𝕄
  | 0, _ => iprop(∃ d, owns (c : Thread nD τ) scM1 fullShare d)
  | n + 1, h => owns (c : Thread nD τ) scM1 fullShare (accAt1 V a c n (Nat.lt_of_succ_lt_succ h))

/-- The region's invariant before point `t`: the tables held whole at their contents, the scratch, the other scoped
    buffers unopened, the generator register at some state. -/
def Φ1 (c : Dev nD) (t : Fin ((cfg1 a).N + 1)) : sProp 𝕄 :=
  iprop(Pipeline.prefHeld (Ix := Unit) (Name := ℕ) (U := UR sig nD τ) (Lvl := ℕ) pre1 c (fun _ => fullShare) a.1
    ∗ scr1 V a c t.val t.isLt
    ∗ Pipeline.scopedRestBut (Ix := Unit) (Name := ℕ) (U := UR sig nD τ) (Lvl := ℕ) (Val := Elt F) spec1 c [cc1_scratch0]
    ∗ ∃ r, prngReg c r)

theorem scr1_ex (c : Dev nD) (n : ℕ) (h : n < (cfg1 a).N + 1) :
    scr1 V a c n h ⊢ (iprop(∃ d, owns (c : Thread nD τ) scM1 fullShare d) : sProp 𝕄) := by
  cases n with
  | zero => exact .rfl
  | succ n => show owns _ _ _ _ ⊢ _; iintro H; iexists _; iexact H

theorem scr1_pos (c : Dev nD) (n : ℕ) (h : n < (cfg1 a).N + 1) (hn : n ≠ 0) :
    scr1 V a c n h = owns (c : Thread nD τ) scM1 fullShare (accAt1 V a c (n - 1) (by omega)) := by
  cases n with
  | zero => exact absurd rfl hn
  | succ m => rfl

/-! ## The proof data -/

/-- The proof data of pipeline 1 on core `c`: the arrays as the region finds them; after the body each input's
    buffer at its block, the output's at the scratch scaled by the edge norms (consulted only where the block is
    written back: at the last node tile); the invariant `Φ1`; nothing owed; full shares. -/
def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => iblk1 V a c 2 t
    | ⟨3, _⟩ => k1_pay3 (normB V a c t) (accAt1 V a c t.val t.isLt)
  Φ t := Φ1 V a c t
  q _ := fullShare
  owed _ := 0

theorem A_eq1 (c : Dev nD) (w : Fin (cfg1 a).W) : (dat1 V a c).A w = V c (Pipeline.arrRef spec1 w) := by
  dsimp only [dat1]

theorem after1_0 (c : Dev nD) (t : Fin (cfg1 a).N) : (dat1 V a c).after 0 t = iblk1 V a c 0 t := by dsimp only [dat1]; rfl
theorem after1_1 (c : Dev nD) (t : Fin (cfg1 a).N) : (dat1 V a c).after 1 t = iblk1 V a c 1 t := by dsimp only [dat1]; rfl
theorem after1_2 (c : Dev nD) (t : Fin (cfg1 a).N) : (dat1 V a c).after 2 t = iblk1 V a c 2 t := by dsimp only [dat1]; rfl
/-- The output's buffer after the body: the scratch scaled by the edge norms (what the write-back writes at the last node tile). -/
theorem after1_3 (c : Dev nD) (t : Fin (cfg1 a).N) :
    (dat1 V a c).after 3 t = k1_pay3 (normB V a c t) (accAt1 V a c t.val t.isLt) := by dsimp only [dat1]; rfl

/-- Each input's current staging buffer holds its block at every point, fetched there or not: the body only
    reads it, the window is uncut and never idle. -/
theorem before1_0 (c : Dev nD) (t : Fin (cfg1 a).N) (d) : (dat1 V a c).before 0 t d = iblk1 V a c 0 t :=
  ((dat1 V a c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin (cfg1 a).N) (d) : (dat1 V a c).before 1 t d = iblk1 V a c 1 t :=
  ((dat1 V a c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin (cfg1 a).N) (d) : (dat1 V a c).before 2 t d = iblk1 V a c 2 t :=
  ((dat1 V a c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The invariant, opened -/

/-- The tables, one by one. -/
theorem pref1_eq (c : Dev nD) :
    (Pipeline.prefHeld (Ix := Unit) (Name := ℕ) (U := UR sig nD τ) (Lvl := ℕ) pre1 c (fun _ => fullShare) a.1 : sProp 𝕄)
      = iprop(tbPt1 c tbMin1 (a.1 0) ∗ tbPt1 c tbMax1 (a.1 1)) := by
  unfold Pipeline.prefHeld
  rw [show (Finset.univ : Finset (Fin 2)) = insert (0 : Fin 2) {(1 : Fin 2)} from by decide,
    bigSep_insert (by decide), bigSep_singleton]
  rfl

theorem Phi_cast (c : Dev nD) (t : Fin (cfg1 a).N) :
    (dat1 V a c).Φ t.castSucc
      = iprop(Pipeline.prefHeld (Ix := Unit) (Name := ℕ) (U := UR sig nD τ) (Lvl := ℕ) pre1 c (fun _ => fullShare) a.1
          ∗ scr1 V a c t.val (Nat.lt_succ_of_lt t.isLt)
          ∗ Pipeline.scopedRestBut (Ix := Unit) (Name := ℕ) (U := UR sig nD τ) (Lvl := ℕ) (Val := Elt F) spec1 c [cc1_scratch0]
          ∗ ∃ r, prngReg c r) := by
  obtain ⟨n, hn⟩ := t; rfl

theorem Phi_succ (c : Dev nD) (t : Fin (cfg1 a).N) :
    (dat1 V a c).Φ t.succ
      = iprop(Pipeline.prefHeld (Ix := Unit) (Name := ℕ) (U := UR sig nD τ) (Lvl := ℕ) pre1 c (fun _ => fullShare) a.1
          ∗ owns (c : Thread nD τ) scM1 fullShare (accAt1 V a c t.val t.isLt)
          ∗ Pipeline.scopedRestBut (Ix := Unit) (Name := ℕ) (U := UR sig nD τ) (Lvl := ℕ) (Val := Elt F) spec1 c [cc1_scratch0]
          ∗ ∃ r, prngReg c r) := by
  obtain ⟨n, hn⟩ := t; rfl

theorem owes_succ (c : Dev nD) (t : Fin (cfg1 a).N) :
    (dat1 V a c).owesAt () t.succ = (dat1 V a c).owesAt () t.castSucc := rfl

/-! ## The body at a point -/

/-- Each window's current staging memref at point `t`, spelled as the pipeline passes it, and its wholeness. -/
abbrev ms1_0 (t : Fin (cfg1 a).N) : Memref sig .tc .vmem S4096 .i32 := spec1_0.stage ((cfg1 a).slots t 0)
abbrev hs1_0 (t : Fin (cfg1 a).N) : (ms1_0 a t).IsWhole := hstage1_0 (((cfg1 a).slots t 0).cast nbuf1_0)
abbrev ms1_1 (t : Fin (cfg1 a).N) : Memref sig .tc .vmem S4096 .f32 := spec1_1.stage ((cfg1 a).slots t 1)
abbrev hs1_1 (t : Fin (cfg1 a).N) : (ms1_1 a t).IsWhole := hstage1_1 (((cfg1 a).slots t 1).cast nbuf1_1)
abbrev ms1_2 (t : Fin (cfg1 a).N) : Memref sig .tc .vmem S2048x16 .f32 := spec1_2.stage ((cfg1 a).slots t 2)
abbrev hs1_2 (t : Fin (cfg1 a).N) : (ms1_2 a t).IsWhole := hstage1_2 (((cfg1 a).slots t 2).cast nbuf1_2)
abbrev ms1_3 (t : Fin (cfg1 a).N) : Memref sig .tc .vmem S4096x16 .f32 := spec1_3.stage ((cfg1 a).slots t 3)
abbrev hs1_3 (t : Fin (cfg1 a).N) : (ms1_3 a t).IsWhole := hstage1_3 (((cfg1 a).slots t 3).cast nbuf1_3)

/-- The kernel body at point `t`, on what the pipeline calls it with. -/
abbrev bodyAt1 (t : Fin (cfg1 a).N) : Prog (TpuEff nD τ sig (Elt F) Λ₀ .tc) PUnit :=
  cc1__gather_kernel (grid1.coords t) tbMin1 htbMin1 tbMax1 htbMax1 (ms1_0 a t) (hs1_0 a t) (ms1_1 a t) (hs1_1 a t) (ms1_2 a t) (hs1_2 a t)
    (ms1_3 a t) (hs1_3 a t) scM1 (Memref.isWhole_whole _)

/-- What the body is called with at point `t`, the windows one by one, -/
def bodyPre1 (c : Dev nD) (t : Fin (cfg1 a).N) : sProp 𝕄 :=
  iprop((dat1 V a c).Φ t.castSucc ∗ (dat1 V a c).owesAt () t.castSucc
    ∗ (∃ d, owns (c : Thread nD τ) (ms1_0 a t) fullShare ((dat1 V a c).before 0 t d))
    ∗ (∃ d, owns (c : Thread nD τ) (ms1_1 a t) fullShare ((dat1 V a c).before 1 t d))
    ∗ (∃ d, owns (c : Thread nD τ) (ms1_2 a t) fullShare ((dat1 V a c).before 2 t d))
    ∗ (∃ d, owns (c : Thread nD τ) (ms1_3 a t) fullShare ((dat1 V a c).before 3 t d)))

/-- and what it returns: the output's buffer as found where the window is idle, at the scaled scratch where it is stored. -/
def bodyPost1 (c : Dev nD) (t : Fin (cfg1 a).N) : sProp 𝕄 :=
  iprop((dat1 V a c).Φ t.succ ∗ (dat1 V a c).owesAt () t.succ
    ∗ owns (c : Thread nD τ) (ms1_0 a t) fullShare ((dat1 V a c).after 0 t)
    ∗ owns (c : Thread nD τ) (ms1_1 a t) fullShare ((dat1 V a c).after 1 t)
    ∗ owns (c : Thread nD τ) (ms1_2 a t) fullShare ((dat1 V a c).after 2 t)
    ∗ (dat1 V a c).leavesExact 3 t)

/-- Where the output is stored the window is live: its buffer ends at `after`. -/
theorem leaves1_live (c : Dev nD) (t : Fin (cfg1 a).N) (h : (cfg1 a).idle 3 ((cfg1 a).grid.coords t) = false) :
    (dat1 V a c).leavesExact 3 t = owns (c : Thread nD τ) (ms1_3 a t) fullShare ((dat1 V a c).after 3 t) := by
  unfold Dat.leavesExact; rw [h]; rfl

set_option maxHeartbeats 1000000 in
/-- The body at any point. The point's place on the grid decides the first and the last conditional; the middle
    one is decided by cases on the table words, which stay variables. In each case the matching run applies: the
    inputs' memrefs hold their blocks, the scratch what the point before left (anything at a first node tile), and
    the scratch's new contents are `accAt1` at the point by its recursion. -/
theorem sound_body1 (c : Dev nD) (t : Fin (cfg1 a).N) :
    bodyPre1 V a c t ⊢ wp frame (wpE (defs₀ (F := F)) Variants.none c none) Set.univ (bodyAt1 a t) (fun _ => bodyPost1 V a c t) := by
  have hN : t.val < 19159 := lt_of_lt_of_eq t.isLt N_1
  have hk : (grid1.coords t 1).val = t.val % 49 := coords1_1 t
  unfold bodyPre1 bodyPost1
  simp only [before1_0, before1_1, before1_2]
  rw [after1_0, after1_1, after1_2, Phi_cast, Phi_succ, owes_succ, pref1_eq]
  by_cases h0 : t.val % 49 = 0
  · -- a first node tile: the scratch restarts; the output window is idle and not written back
    have hc1 : cond1 (grid1.coords t) := (cond1_iff _).mpr (hk.trans h0)
    have hc3 : ¬ k1_cond3 (grid1.coords t) = 1#1 := fun h => by have := (k1_cond3_iff' _).mp h; omega
    have hidle : (cfg1 a).idle 3 ((cfg1 a).grid.coords t) = true := idle1_3_of a (grid1.coords t) hc3
    have hfl : ((cfg1 a).win 3).flush t = false := noflush1_3 a t hc3
    rw [Dat.leavesExact_idle _ 3 t hidle hfl]
    by_cases hc2 : act1 a (grid1.coords t)
    · have hacc := accAt1_first V a c t (hk.trans h0)
      rw [if_pos hc2] at hacc
      rw [hacc]
      iintro ⟨⟨⟨HT0, HT1⟩, HS, HR, HG⟩, Ho, ⟨%d0, H0⟩, ⟨%d1, H1⟩, ⟨%d2, H2⟩, ⟨%d3, H3⟩⟩
      ihave HS' := (scr1_ex V a c _ _) $$ HS
      iapply (run1_FA c (grid1.coords t) (ms1_0 a t) (hs1_0 a t) (ms1_1 a t) (hs1_1 a t) (ms1_2 a t) (hs1_2 a t) (ms1_3 a t) (hs1_3 a t)
        scM1 (Memref.isWhole_whole _) (srcB V a c t) (normB V a c t) (hwB V a c t) (a.1 0) (a.1 1) hc1 hc2 hc3
        ((dat1 V a c).before 3 t d3) Set.univ _)
      unfold kin1
      isplitl [H0 H1 H2 HT0 HT1]
      · isplitl [H0]; · iexact H0
        isplitl [H1]; · iexact H1
        isplitl [H2]; · iexact H2
        isplitl [HT0]; · iexact HT0
        iexact HT1
      isplitl [HS']; · iexact HS'
      isplitl [H3]; · iexact H3
      iintro ⟨⟨H0, H1, H2, HT0, HT1⟩, HS, H3⟩
      isplitl [HT0 HT1 HS HR HG]
      · isplitl [HT0 HT1]
        · isplitl [HT0]; · iexact HT0
          iexact HT1
        isplitl [HS]; · iexact HS
        isplitl [HR]; · iexact HR
        iexact HG
      isplitl [Ho]; · iexact Ho
      isplitl [H0]; · iexact H0
      isplitl [H1]; · iexact H1
      isplitl [H2]; · iexact H2
      iexists d3; iexact H3
    · have hacc := accAt1_first V a c t (hk.trans h0)
      rw [if_neg hc2] at hacc
      rw [hacc]
      iintro ⟨⟨⟨HT0, HT1⟩, HS, HR, HG⟩, Ho, ⟨%d0, H0⟩, ⟨%d1, H1⟩, ⟨%d2, H2⟩, ⟨%d3, H3⟩⟩
      ihave HS' := (scr1_ex V a c _ _) $$ HS
      iapply (run1_FI c (grid1.coords t) (ms1_0 a t) (hs1_0 a t) (ms1_1 a t) (hs1_1 a t) (ms1_2 a t) (hs1_2 a t) (ms1_3 a t) (hs1_3 a t)
        scM1 (Memref.isWhole_whole _) (srcB V a c t) (normB V a c t) (hwB V a c t) (a.1 0) (a.1 1) hc1 hc2 hc3
        ((dat1 V a c).before 3 t d3) Set.univ _)
      unfold kin1
      isplitl [H0 H1 H2 HT0 HT1]
      · isplitl [H0]; · iexact H0
        isplitl [H1]; · iexact H1
        isplitl [H2]; · iexact H2
        isplitl [HT0]; · iexact HT0
        iexact HT1
      isplitl [HS']; · iexact HS'
      isplitl [H3]; · iexact H3
      iintro ⟨⟨H0, H1, H2, HT0, HT1⟩, HS, H3⟩
      isplitl [HT0 HT1 HS HR HG]
      · isplitl [HT0 HT1]
        · isplitl [HT0]; · iexact HT0
          iexact HT1
        isplitl [HS]; · iexact HS
        isplitl [HR]; · iexact HR
        iexact HG
      isplitl [Ho]; · iexact Ho
      isplitl [H0]; · iexact H0
      isplitl [H1]; · iexact H1
      isplitl [H2]; · iexact H2
      iexists d3; iexact H3
  · -- a later node tile: the scratch holds what the point before left
    have ht0 : t.val ≠ 0 := fun h => h0 (by rw [h])
    have hc1 : ¬ cond1 (grid1.coords t) := fun h => h0 (hk.symm.trans ((cond1_iff _).mp h))
    have hk' : (grid1.coords t 1).val ≠ 0 := fun h => h0 (hk.symm.trans h)
    rw [scr1_pos V a c t.val _ ht0]
    by_cases hL : t.val % 49 = 48
    · -- the last node tile: the output block is stored, and written back
      have hc3 : k1_cond3 (grid1.coords t) = 1#1 := (k1_cond3_iff' _).mpr (hk.trans hL)
      have hlive : (cfg1 a).idle 3 ((cfg1 a).grid.coords t) = false := live1_3_of a (grid1.coords t) hc3
      rw [leaves1_live V a c t hlive, after1_3]
      by_cases hc2 : act1 a (grid1.coords t)
      · have hacc := accAt1_next V a c t hk'
        rw [if_pos hc2] at hacc
        rw [hacc]
        iintro ⟨⟨⟨HT0, HT1⟩, HS, HR, HG⟩, Ho, ⟨%d0, H0⟩, ⟨%d1, H1⟩, ⟨%d2, H2⟩, ⟨%d3, H3⟩⟩
        iapply (run1_LA c (grid1.coords t) (ms1_0 a t) (hs1_0 a t) (ms1_1 a t) (hs1_1 a t) (ms1_2 a t) (hs1_2 a t) (ms1_3 a t) (hs1_3 a t)
          scM1 (Memref.isWhole_whole _) (srcB V a c t) (normB V a c t) (hwB V a c t) (a.1 0) (a.1 1) hc1 hc2 hc3
          (accAt1 V a c (t.val - 1) (Nat.lt_of_le_of_lt (Nat.sub_le _ _) t.isLt)) Set.univ _)
        unfold kin1
        isplitl [H0 H1 H2 HT0 HT1]
        · isplitl [H0]; · iexact H0
          isplitl [H1]; · iexact H1
          isplitl [H2]; · iexact H2
          isplitl [HT0]; · iexact HT0
          iexact HT1
        isplitl [HS]; · iexact HS
        isplitl [H3]; · iexists _; iexact H3
        iintro ⟨⟨H0, H1, H2, HT0, HT1⟩, HS, H3⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        iexact H3
      · have hacc := accAt1_next V a c t hk'
        rw [if_neg hc2] at hacc
        rw [hacc]
        iintro ⟨⟨⟨HT0, HT1⟩, HS, HR, HG⟩, Ho, ⟨%d0, H0⟩, ⟨%d1, H1⟩, ⟨%d2, H2⟩, ⟨%d3, H3⟩⟩
        iapply (run1_LI c (grid1.coords t) (ms1_0 a t) (hs1_0 a t) (ms1_1 a t) (hs1_1 a t) (ms1_2 a t) (hs1_2 a t) (ms1_3 a t) (hs1_3 a t)
          scM1 (Memref.isWhole_whole _) (srcB V a c t) (normB V a c t) (hwB V a c t) (a.1 0) (a.1 1) hc1 hc2 hc3
          (accAt1 V a c (t.val - 1) (Nat.lt_of_le_of_lt (Nat.sub_le _ _) t.isLt)) Set.univ _)
        unfold kin1
        isplitl [H0 H1 H2 HT0 HT1]
        · isplitl [H0]; · iexact H0
          isplitl [H1]; · iexact H1
          isplitl [H2]; · iexact H2
          isplitl [HT0]; · iexact HT0
          iexact HT1
        isplitl [HS]; · iexact HS
        isplitl [H3]; · iexists _; iexact H3
        iintro ⟨⟨H0, H1, H2, HT0, HT1⟩, HS, H3⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        iexact H3
    · -- a middle node tile: the output window is idle and not written back
      have hc3 : ¬ k1_cond3 (grid1.coords t) = 1#1 := fun h => hL (hk.symm.trans ((k1_cond3_iff' _).mp h))
      have hidle : (cfg1 a).idle 3 ((cfg1 a).grid.coords t) = true := idle1_3_of a (grid1.coords t) hc3
      have hfl : ((cfg1 a).win 3).flush t = false := noflush1_3 a t hc3
      rw [Dat.leavesExact_idle _ 3 t hidle hfl]
      by_cases hc2 : act1 a (grid1.coords t)
      · have hacc := accAt1_next V a c t hk'
        rw [if_pos hc2] at hacc
        rw [hacc]
        iintro ⟨⟨⟨HT0, HT1⟩, HS, HR, HG⟩, Ho, ⟨%d0, H0⟩, ⟨%d1, H1⟩, ⟨%d2, H2⟩, ⟨%d3, H3⟩⟩
        iapply (run1_MA c (grid1.coords t) (ms1_0 a t) (hs1_0 a t) (ms1_1 a t) (hs1_1 a t) (ms1_2 a t) (hs1_2 a t) (ms1_3 a t) (hs1_3 a t)
          scM1 (Memref.isWhole_whole _) (srcB V a c t) (normB V a c t) (hwB V a c t) (a.1 0) (a.1 1) hc1 hc2 hc3
          (accAt1 V a c (t.val - 1) (Nat.lt_of_le_of_lt (Nat.sub_le _ _) t.isLt)) ((dat1 V a c).before 3 t d3) Set.univ _)
        unfold kin1
        isplitl [H0 H1 H2 HT0 HT1]
        · isplitl [H0]; · iexact H0
          isplitl [H1]; · iexact H1
          isplitl [H2]; · iexact H2
          isplitl [HT0]; · iexact HT0
          iexact HT1
        isplitl [HS]; · iexact HS
        isplitl [H3]; · iexact H3
        iintro ⟨⟨H0, H1, H2, HT0, HT1⟩, HS, H3⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        iexists d3; iexact H3
      · have hacc := accAt1_next V a c t hk'
        rw [if_neg hc2] at hacc
        rw [hacc]
        iintro ⟨⟨⟨HT0, HT1⟩, HS, HR, HG⟩, Ho, ⟨%d0, H0⟩, ⟨%d1, H1⟩, ⟨%d2, H2⟩, ⟨%d3, H3⟩⟩
        iapply (run1_MI c (grid1.coords t) (ms1_0 a t) (hs1_0 a t) (ms1_1 a t) (hs1_1 a t) (ms1_2 a t) (hs1_2 a t) (ms1_3 a t) (hs1_3 a t)
          scM1 (Memref.isWhole_whole _) (srcB V a c t) (normB V a c t) (hwB V a c t) (a.1 0) (a.1 1) hc1 hc2 hc3
          (accAt1 V a c (t.val - 1) (Nat.lt_of_le_of_lt (Nat.sub_le _ _) t.isLt)) ((dat1 V a c).before 3 t d3) Set.univ _)
        unfold kin1
        isplitl [H0 H1 H2 HT0 HT1]
        · isplitl [H0]; · iexact H0
          isplitl [H1]; · iexact H1
          isplitl [H2]; · iexact H2
          isplitl [HT0]; · iexact HT0
          iexact HT1
        isplitl [HS]; · iexact HS
        isplitl [H3]; · iexact H3
        iintro ⟨⟨H0, H1, H2, HT0, HT1⟩, HS, H3⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        iexists d3; iexact H3

/-- The library's body obligation, at every point. -/
theorem body_obligation1 (c : Dev nD) : BodyObligation (dat1 (F := F) V a c) (defs₀ (F := F)) Variants.none () Set.univ := fun t => by
  rw [bigSep_W1, bigSep_W1]
  exact sound_body1 V a c t

/-! ## The invariant at the region's two ends -/

/-- The scratch as the region finds it (a scoped buffer at some contents) is the scratch memref owned at some contents. -/
theorem scr_in (c : Dev nD) :
    (iprop(∃ f : Buf (Elt F) ((c : Thread nD τ).loc cc1_scratch0), ((c : Thread nD τ).loc cc1_scratch0) ↦{fullShare} f) : sProp 𝕄)
      ⊢ iprop(∃ d, owns (c : Thread nD τ) scM1 fullShare d) := by
  simp only [owns_whole]; exact .rfl

theorem scr_out (c : Dev nD) :
    (iprop(∃ d, owns (c : Thread nD τ) scM1 fullShare d) : sProp 𝕄)
      ⊢ iprop(∃ f : Buf (Elt F) ((c : Thread nD τ).loc cc1_scratch0), ((c : Thread nD τ).loc cc1_scratch0) ↦{fullShare} f) := by
  simp only [owns_whole]; exact .rfl

/-- The invariant before the first point, from the generator register, the tables and the scoped rest. -/
theorem hin1 (c : Dev nD) :
    iprop((∃ r, prngReg c r) ∗ Pipeline.prefHeld pre1 c (fun _ => fullShare) a.1 ∗ Pipeline.scopedRest spec1 c) ⊢ (dat1 V a c).Φ 0 := by
  rw [scopedRest1_split]
  show _ ⊢ Φ1 V a c 0
  unfold Φ1
  show _ ⊢ iprop(_ ∗ (∃ d, owns (c : Thread nD τ) scM1 fullShare d) ∗ _ ∗ _)
  iintro ⟨HG, HT, HS, HR⟩
  isplitl [HT]; · iexact HT
  isplitl [HS]; · iapply (scr_in c); iexact HS
  isplitl [HR]; · iexact HR
  iexact HG

/-- The invariant after the last point gives the generator register and the tables (at the full share) back, and
    the scoped rest; the kernel has no semaphore of its own. -/
theorem hout1 (c : Dev nD) :
    (dat1 V a c).Φ (Fin.last _)
      ⊢ iprop(((∃ r, prngReg c r) ∗ Pipeline.prefHeld pre1 c (fun _ => fullShare) a.1) ∗ Pipeline.ownSems0 (fun k : PEmpty => k.elim) c ∗ Pipeline.scopedRest spec1 c) := by
  rw [scopedRest1_split, Pipeline.ownSems0_none]
  show Φ1 V a c (Fin.last _) ⊢ _
  unfold Φ1
  iintro ⟨HT, HS, HR, HG⟩
  ihave HS' := (scr1_ex V a c _ _) $$ HS
  isplitl [HG HT]
  · isplitl [HG]; · iexact HG
    iexact HT
  isplitr
  · iempintro
  isplitl [HS']; · iapply (scr_out c); iexact HS'
  iexact HR

end Cert.KernelIdeal.R1

end
-- ==== Proof.R2Sched.lean ====
import proofs.«417346_j54202487276072_2_alg».proof.Proof.Gen.KernelIdeal.Launch
import Idealize.ShloMosaic.Lib.Pipeline.Kit
import Idealize.ShloMosaic.Lib.Affine

noncomputable section

namespace Cert.KernelIdeal.R2

open Cert.KernelIdeal Cert.KernelIdeal.Gen
open Idealize.ShloMosaic Idealize.ShloMosaic.TcCoe
open Idealize.SL Idealize.SL.Sem

variable {F : FTy → Type} [FloatOps F]

/-! # The schedule of the scatter region on its grid `[49, 391]`

Point `t` is (node tile `t / 391`, edge tile `t % 391`), the edge tile moving fastest. None of these facts reads
the prefetched tables: the index maps are functions of the point alone. -/

theorem stride2_0 : grid2.stride 0 = 391 := by decide
theorem stride2_1 : grid2.stride 1 = 1 := by decide

/-- The node tile of point `t`. -/
theorem coords2_0 (t : Fin grid2.N) : (grid2.coords t 0).val = t.val / 391 := by
  have hN : t.val < 19159 := lt_of_lt_of_eq t.isLt N_2
  show t.val / grid2.stride 0 % 49 = _
  rw [stride2_0]; omega

/-- The edge tile of point `t`. -/
theorem coords2_1 (t : Fin grid2.N) : (grid2.coords t 1).val = t.val % 391 := by
  show t.val / grid2.stride 1 % 391 = _
  rw [stride2_1, Nat.div_one]

/-! ## The body's two conditions on the point -/

/-- The condition of the first conditional (the scratch is initialised) holds exactly at the first edge tile. -/
theorem c1_iff (i : grid2.Coords) :
    (Scalar.cmpi .ne (Scalar.extui (Scalar.cmpi .eq (BitVec.ofNat 32 (i 1).val) 0#32)) 0#32) = 1#1 ↔ (i 1).val = 0 := by
  have hk : (i 1).val < 391 := (i 1).isLt
  rw [Scalar.guard_iff, Scalar.cmpi, IntOp.cmpi_eq, ← BitVec.toNat_inj]
  simp only [BitVec.toNat_ofNat]
  omega

/-- The output block is stored exactly at the last edge tile. -/
theorem cond3_iff (i : grid2.Coords) : k2_cond3 i = 1#1 ↔ (i 1).val = 390 := by
  have hk : (i 1).val < 391 := (i 1).isLt
  show (Scalar.cmpi .ne (Scalar.extui (Scalar.cmpi .eq (BitVec.ofNat 32 (i 1).val) 390#32)) 0#32) = 1#1 ↔ _
  rw [Scalar.guard_iff, Scalar.cmpi, IntOp.cmpi_eq, ← BitVec.toNat_inj]
  simp only [BitVec.toNat_ofNat]
  omega

/-! ## The output window's write-backs -/

/-- The output's block index is the node tile. -/
theorem tr5_0 (i : grid2.Coords) : cc2_transform_5 i 0 = (i 0).val := by
  have hk : (i 0).val < 49 := (i 0).isLt
  show (BitVec.ofNat 32 (i 0).val).toNat = _
  rw [BitVec.toNat_ofNat]; omega

theorem tr5_ne_iff (i j : grid2.Coords) : cc2_transform_5 i ≠ cc2_transform_5 j ↔ (i 0).val ≠ (j 0).val := by
  constructor
  · intro h e; apply h; funext x
    fin_cases x
    · show cc2_transform_5 i 0 = cc2_transform_5 j 0
      rw [tr5_0, tr5_0, e]
    · rfl
  · intro h e; apply h
    have := congrFun e 0
    rwa [tr5_0, tr5_0] at this

variable (a : (pcfg2 (F := F)).Adm)

/-- The output block is written back exactly after the last edge tile of its node tile. -/
theorem flush2_5 (t : Fin (cfg2 a).N) : ((cfg2 a).win 5).flush t = true ↔ t.val % 391 = 390 := by
  have hN : t.val < 19159 := lt_of_lt_of_eq t.isLt N_2
  rw [Pipeline.Window.flush_eq_flushOf]
  show Pipeline.Window.flushOf grid2 true cc2_transform_5 t = true ↔ _
  unfold Pipeline.Window.flushOf
  rw [Bool.true_and, Bool.or_eq_true, decide_eq_true_eq, decide_eq_true_eq]
  constructor
  · rintro (h | ⟨h, hne⟩)
    · have hN2 := N_2; omega
    · rw [tr5_ne_iff, coords2_0, coords2_0] at hne
      dsimp only at hne
      omega
  · intro h
    by_cases hl : t.val + 1 = grid2.N
    · exact .inl hl
    · have h' : t.val + 1 < grid2.N := by have hN2 := N_2; omega
      refine .inr ⟨h', ?_⟩
      rw [tr5_ne_iff, coords2_0, coords2_0]
      dsimp only
      omega

/-- Where the output window is idle: everywhere but at the last edge tile. -/
theorem idle2_5 (t : Fin (cfg2 a).N) : (cfg2 a).idle 5 ((cfg2 a).grid.coords t) = !(k2_cond3 (grid2.coords t) == 1#1) := rfl

/-- The input windows are never idle. -/
theorem live2 (w : Fin (cfg2 a).W) (hw : w ≠ 5) (i : (cfg2 a).grid.Coords) : (cfg2 a).idle w i = false := by
  fin_cases w <;> first | rfl | exact absurd rfl hw

end Cert.KernelIdeal.R2

end
-- ==== Proof.R2Runs.lean ====
import proofs.«417346_j54202487276072_2_alg».proof.Proof.Gen.KernelIdeal.Launch
import proofs.«417346_j54202487276072_2_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## The tables as the body is handed them; the step's condition -/

abbrev tbMin : Memref sig .tc .smem S391 .i32 := Memref.whole main_v72
abbrev htbMin : (tbMin).IsWhole := Memref.isWhole_whole _
abbrev tbMax : Memref sig .tc .smem S391 .i32 := Memref.whole main_v74
abbrev htbMax : (tbMax).IsWhole := Memref.isWhole_whole _

/-- A table's buffer contents on core `c`, and the table held whole at them. -/
abbrev TbBuf2 (c : Dev nD) (M : Memref sig .tc .smem S391 .i32) : Type := Buf (Elt F) (M.view.loc (c : Thread nD τ))
abbrev tbPt2 (c : Dev nD) (M : Memref sig .tc .smem S391 .i32) (f : TbBuf2 (F := F) c M) : sProp 𝕄 :=
  M.view.loc (c : Thread nD τ) ↦{fullShare} f

/-- The word of table `M` the body loads at point `i` (the entry of the point's edge tile), over contents `f`. -/
abbrev wd2 (M : Memref sig .tc .smem S391 .i32) (f : M.view.ty.Contents (Elt F)) (i : grid2.Coords) : Elt F .i32 :=
  M.view.readAt (Elt F) (Rect.unit (s := S391) (k2_off1 i) S1.size (k2_off1_inb i)).toLoadRect f (Shape.Idx.first (numel1_S1.symm ▸ Nat.one_pos))

/-- The condition of the accumulation step as the body computes it: the node tile `[2048 i₀, 2048 i₀ + 2048)` meets
    the range `[mn, mx]` of destinations in the edge tile (signed comparisons on the two table words). -/
def k2_act (i : grid2.Coords) (mx mn : Elt F .i32) : BitVec 1 :=
  let arg0 : BitVec 32 := BitVec.ofNat 32 (i 0).val
  let v3 : BitVec 32 := Scalar.muli arg0 2048#32
  let v4 : BitVec 32 := Scalar.addi v3 2048#32
  let v7 : BitVec 1 := Scalar.cmpi .sle v3 mx
  let v10 : BitVec 1 := Scalar.cmpi .sgt v4 mn
  let v11 : BitVec 1 := Scalar.andi v7 v10
  let v12 : BitVec 32 := Scalar.extui v11
  Scalar.cmpi .ne v12 0#32

/-- The condition of the first conditional: the scratch is initialised at the first edge tile. -/
abbrev k2_c1 (i : grid2.Coords) : Prop :=
  (Scalar.cmpi .ne (Scalar.extui (Scalar.cmpi .eq (BitVec.ofNat 32 (i 1).val) 0#32)) 0#32) = 1#1

/-! ## Whole-buffer loads and stores -/

theorem z1 : (![0] : Fin 1 → Nat) = fun _ => 0 := by funext a; fin_cases a; rfl
theorem z2 : (![0, 0] : Fin 2 → Nat) = fun _ => 0 := by funext a; fin_cases a <;> rfl

/-- A load through the whole-shape rectangle at zero offsets reads the memref's contents. -/
theorem rdU (S : Shape) {e : EltTy} {κ : Kind} {sp : Space} (v : View sig κ sp S e) {off : Fin S.rank → Nat} (h : off = fun _ => 0)
    (inb : ∀ a, off a + S.size a ≤ S.size a) (f : v.ty.Contents (Elt F)) :
    v.readAt (Elt F) (Rect.unit off S.size inb).toLoadRect f = v.read (Elt F) f :=
  View.ld_unit_zero h inb _

/-- Every index lies in the whole-shape rectangle: a list of stores headed by one through it covers the buffer. -/
theorem covU (S : Shape) {e : EltTy} {off : Fin S.rank → Nat} (h : off = fun _ => 0) (inb : ∀ a, off a + S.size a ≤ S.size a)
    (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons.mpr (Or.inl rfl), View.mem_set_unit_zero h inb y⟩

/-- A load through it of what the run's stores left, the last of them through it, reads that store's payload. -/
theorem rcU (S : Shape) {e : EltTy} {κ : Kind} {sp : Space} (v : View sig κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (covU S h inb w L), View.canon_cons_unit_zero h, View.ld_unit_zero h]

/-- The buffer read back after the run's stores, the last of them through the whole-shape rectangle: its payload. -/
theorem rwU (S : Shape) {e : EltTy} {κ : Kind} {sp : Space} (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (covU S h inb w L), View.canon_cons_unit_zero h]

/-- The inputs' staging memrefs at their blocks and the two tables at their contents: what every case of the body
    is handed and hands back untouched. -/
def kin2 (c : Dev nD) (arg4 : Memref sig .tc .vmem S4096 .i32) (arg5 : Memref sig .tc .vmem S4096x16 .f32)
    (arg6 : Memref sig .tc .vmem S2048x16 .f32) (arg7 : Memref sig .tc .vmem S2048 .f32) (arg8 : Memref sig .tc .vmem S1x16 .f32)
    (x0 : Vec F S4096 .i32) (x1 : Vec F S4096x16 .f32) (x2 : Vec F S2048x16 .f32) (x3 : Vec F S2048 .f32) (x4 : Vec F S1x16 .f32)
    (xt0 : TbBuf2 (F := F) c tbMin) (xt1 : TbBuf2 (F := F) c tbMax) : sProp 𝕄 :=
  iprop(owns (c : Thread nD τ) arg4 fullShare x0 ∗ owns (c : Thread nD τ) arg5 fullShare x1 ∗ owns (c : Thread nD τ) arg6 fullShare x2
    ∗ owns (c : Thread nD τ) arg7 fullShare x3 ∗ owns (c : Thread nD τ) arg8 fullShare x4 ∗ tbPt2 c tbMin xt0 ∗ tbPt2 c tbMax xt1)

/-! ## The body, case by case

The body has three conditionals: on the point's edge tile being the first (the scratch is initialised), on the two
table words (the accumulation step), on the edge tile being the last (the output block is stored). First and last
exclude each other on this grid, which leaves six cases. In each the printed function is its skeleton, run
operation by operation; every load and store is through a whole staging memref. The tables' words are never
evaluated: the case's hypothesis on them decides the middle conditional. -/

set_option maxHeartbeats 1000000 in
/-- First edge tile, step taken: the scratch ends at the step applied to the initial value; the output's buffer is
    untouched. -/
theorem run2_FA (c : Dev nD) (i : grid2.Coords)
    (arg4 : Memref sig .tc .vmem S4096 .i32) (harg4 : arg4.IsWhole) (arg5 : Memref sig .tc .vmem S4096x16 .f32) (harg5 : arg5.IsWhole)
    (arg6 : Memref sig .tc .vmem S2048x16 .f32) (harg6 : arg6.IsWhole) (arg7 : Memref sig .tc .vmem S2048 .f32) (harg7 : arg7.IsWhole)
    (arg8 : Memref sig .tc .vmem S1x16 .f32) (harg8 : arg8.IsWhole) (arg9 : Memref sig .tc .vmem S2048x16 .f32) (harg9 : arg9.IsWhole)
    (arg10 : Memref sig .tc .vmem S2048x16 .f32) (harg10 : arg10.IsWhole)
    (x0 : Vec F S4096 .i32) (x1 : Vec F S4096x16 .f32) (x2 : Vec F S2048x16 .f32) (x3 : Vec F S2048 .f32) (x4 : Vec F S1x16 .f32)
    (xt0 : TbBuf2 (F := F) c tbMin) (xt1 : TbBuf2 (F := F) c tbMax)
    (hc1 : k2_c1 i) (hc2 : k2_act (F := F) i (wd2 tbMax xt1 i) (wd2 tbMin xt0 i) = 1#1) (hc3 : ¬ k2_cond3 i = 1#1)
    (xo : Vec F S2048x16 .f32) (E : Set ℕ) (K : PUnit → sProp 𝕄) :
    iprop(kin2 c arg4 arg5 arg6 arg7 arg8 x0 x1 x2 x3 x4 xt0 xt1
        ∗ (∃ d, owns (c : Thread nD τ) arg10 fullShare d) ∗ owns (c : Thread nD τ) arg9 fullShare xo
        ∗ (iprop(kin2 c arg4 arg5 arg6 arg7 arg8 x0 x1 x2 x3 x4 xt0 xt1
            ∗ owns (c : Thread nD τ) arg10 fullShare (k2_pay2 i x0 (k2_pay1 x3 x2) x1) ∗ owns (c : Thread nD τ) arg9 fullShare xo) -∗ K ⟨⟩))
      ⊢ wp frame (wpE (defs₀ (F := F)) Variants.none c none) E
          (cc2__scatter_kernel i tbMin htbMin tbMax htbMax arg4 harg4 arg5 harg5 arg6 harg6 arg7 harg7 arg8 harg8 arg9 harg9 arg10 harg10) K := by
  simp only [cc2__scatter_kernel_eq_skeleton]; unfold cc2__scatter_kernel_skel
  unfold kin2 owns
  iintro ⟨⟨⟨%f0, %hf0, H0⟩, ⟨%f1, %hf1, H1⟩, ⟨%f2, %hf2, H2⟩, ⟨%f3, %hf3, H3⟩, ⟨%f4, %hf4, H4⟩, HT0, HT1⟩, ⟨%ds, %fs, -, HS⟩, ⟨%f9, %hf9, H9⟩, Hk⟩
  subst hf0 hf1 hf2 hf3 hf4 hf9
  sl_exec (disch := first | sl_exact hc1 | sl_exact hc2 | sl_exact hc3)
  sl_step
  iapply Hk
  isplitl [H0 H1 H2 H3 H4 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [HT0]; · iexact HT0
    iexact HT1
  isplitl [HS]
  · iexists _; isplitr; swap; · iexact HS
    ipureintro
    -- the second store's payload read the first store's back
    rw [rwU S2048x16 _ _ z2]
    unfold run2_FA.sl.v29 run2_FA.sl.HS_1
    simp only [rcU S2048x16 _ z2, rdU S4096 _ z1, rdU S2048 _ z1, rdU S2048x16 _ z2, rdU S4096x16 _ z2]
  iexists f9; isplitr; · ipureintro; rfl
  iexact H9

set_option maxHeartbeats 1000000 in
/-- First edge tile, step skipped: the scratch ends at the initial value; the output's buffer is untouched. -/
theorem run2_FI (c : Dev nD) (i : grid2.Coords)
    (arg4 : Memref sig .tc .vmem S4096 .i32) (harg4 : arg4.IsWhole) (arg5 : Memref sig .tc .vmem S4096x16 .f32) (harg5 : arg5.IsWhole)
    (arg6 : Memref sig .tc .vmem S2048x16 .f32) (harg6 : arg6.IsWhole) (arg7 : Memref sig .tc .vmem S2048 .f32) (harg7 : arg7.IsWhole)
    (arg8 : Memref sig .tc .vmem S1x16 .f32) (harg8 : arg8.IsWhole) (arg9 : Memref sig .tc .vmem S2048x16 .f32) (harg9 : arg9.IsWhole)
    (arg10 : Memref sig .tc .vmem S2048x16 .f32) (harg10 : arg10.IsWhole)
    (x0 : Vec F S4096 .i32) (x1 : Vec F S4096x16 .f32) (x2 : Vec F S2048x16 .f32) (x3 : Vec F S2048 .f32) (x4 : Vec F S1x16 .f32)
    (xt0 : TbBuf2 (F := F) c tbMin) (xt1 : TbBuf2 (F := F) c tbMax)
    (hc1 : k2_c1 i) (hc2 : ¬ k2_act (F := F) i (wd2 tbMax xt1 i) (wd2 tbMin xt0 i) = 1#1) (hc3 : ¬ k2_cond3 i = 1#1)
    (xo : Vec F S2048x16 .f32) (E : Set ℕ) (K : PUnit → sProp 𝕄) :
    iprop(kin2 c arg4 arg5 arg6 arg7 arg8 x0 x1 x2 x3 x4 xt0 xt1
        ∗ (∃ d, owns (c : Thread nD τ) arg10 fullShare d) ∗ owns (c : Thread nD τ) arg9 fullShare xo
        ∗ (iprop(kin2 c arg4 arg5 arg6 arg7 arg8 x0 x1 x2 x3 x4 xt0 xt1
            ∗ owns (c : Thread nD τ) arg10 fullShare (k2_pay1 x3 x2) ∗ owns (c : Thread nD τ) arg9 fullShare xo) -∗ K ⟨⟩))
      ⊢ wp frame (wpE (defs₀ (F := F)) Variants.none c none) E
          (cc2__scatter_kernel i tbMin htbMin tbMax htbMax arg4 harg4 arg5 harg5 arg6 harg6 arg7 harg7 arg8 harg8 arg9 harg9 arg10 harg10) K := by
  simp only [cc2__scatter_kernel_eq_skeleton]; unfold cc2__scatter_kernel_skel
  unfold kin2 owns
  iintro ⟨⟨⟨%f0, %hf0, H0⟩, ⟨%f1, %hf1, H1⟩, ⟨%f2, %hf2, H2⟩, ⟨%f3, %hf3, H3⟩, ⟨%f4, %hf4, H4⟩, HT0, HT1⟩, ⟨%ds, %fs, -, HS⟩, ⟨%f9, %hf9, H9⟩, Hk⟩
  subst hf0 hf1 hf2 hf3 hf4 hf9
  sl_exec (disch := first | sl_exact hc1 | sl_exact hc2 | sl_exact hc3)
  sl_step
  iapply Hk
  isplitl [H0 H1 H2 H3 H4 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [HT0]; · iexact HT0
    iexact HT1
  isplitl [HS]
  · iexists _; isplitr; swap; · iexact HS
    ipureintro
    rw [rwU S2048x16 _ _ z2]
    simp only [rdU S2048 _ z1, rdU S2048x16 _ z2]
  iexists f9; isplitr; · ipureintro; rfl
  iexact H9

set_option maxHeartbeats 1000000 in
/-- A middle edge tile, step taken: the scratch ends at the step applied to what it held; the output's buffer is
    untouched. -/
theorem run2_MA (c : Dev nD) (i : grid2.Coords)
    (arg4 : Memref sig .tc .vmem S4096 .i32) (harg4 : arg4.IsWhole) (arg5 : Memref sig .tc .vmem S4096x16 .f32) (harg5 : arg5.IsWhole)
    (arg6 : Memref sig .tc .vmem S2048x16 .f32) (harg6 : arg6.IsWhole) (arg7 : Memref sig .tc .vmem S2048 .f32) (harg7 : arg7.IsWhole)
    (arg8 : Memref sig .tc .vmem S1x16 .f32) (harg8 : arg8.IsWhole) (arg9 : Memref sig .tc .vmem S2048x16 .f32) (harg9 : arg9.IsWhole)
    (arg10 : Memref sig .tc .vmem S2048x16 .f32) (harg10 : arg10.IsWhole)
    (x0 : Vec F S4096 .i32) (x1 : Vec F S4096x16 .f32) (x2 : Vec F S2048x16 .f32) (x3 : Vec F S2048 .f32) (x4 : Vec F S1x16 .f32)
    (xt0 : TbBuf2 (F := F) c tbMin) (xt1 : TbBuf2 (F := F) c tbMax)
    (hc1 : ¬ k2_c1 i) (hc2 : k2_act (F := F) i (wd2 tbMax xt1 i) (wd2 tbMin xt0 i) = 1#1) (hc3 : ¬ k2_cond3 i = 1#1)
    (xs xo : Vec F S2048x16 .f32) (E : Set ℕ) (K : PUnit → sProp 𝕄) :
    iprop(kin2 c arg4 arg5 arg6 arg7 arg8 x0 x1 x2 x3 x4 xt0 xt1
        ∗ owns (c : Thread nD τ) arg10 fullShare xs ∗ owns (c : Thread nD τ) arg9 fullShare xo
        ∗ (iprop(kin2 c arg4 arg5 arg6 arg7 arg8 x0 x1 x2 x3 x4 xt0 xt1
            ∗ owns (c : Thread nD τ) arg10 fullShare (k2_pay2 i x0 xs x1) ∗ owns (c : Thread nD τ) arg9 fullShare xo) -∗ K ⟨⟩))
      ⊢ wp frame (wpE (defs₀ (F := F)) Variants.none c none) E
          (cc2__scatter_kernel i tbMin htbMin tbMax htbMax arg4 harg4 arg5 harg5 arg6 harg6 arg7 harg7 arg8 harg8 arg9 harg9 arg10 harg10) K := by
  simp only [cc2__scatter_kernel_eq_skeleton]; unfold cc2__scatter_kernel_skel
  unfold kin2 owns
  iintro ⟨⟨⟨%f0, %hf0, H0⟩, ⟨%f1, %hf1, H1⟩, ⟨%f2, %hf2, H2⟩, ⟨%f3, %hf3, H3⟩, ⟨%f4, %hf4, H4⟩, HT0, HT1⟩, ⟨%fs, %hfs, HS⟩, ⟨%f9, %hf9, H9⟩, Hk⟩
  subst hf0 hf1 hf2 hf3 hf4 hfs hf9
  sl_exec (disch := first | sl_exact hc1 | sl_exact hc2 | sl_exact hc3)
  sl_step
  iapply Hk
  isplitl [H0 H1 H2 H3 H4 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [HT0]; · iexact HT0
    iexact HT1
  isplitl [HS]
  · iexists _; isplitr; swap; · iexact HS
    ipureintro
    rw [rwU S2048x16 _ _ z2]
    simp only [rdU S4096 _ z1, rdU S2048x16 _ z2, rdU S4096x16 _ z2]
  iexists f9; isplitr; · ipureintro; rfl
  iexact H9

set_option maxHeartbeats 1000000 in
/-- A middle edge tile, step skipped: nothing is stored. -/
theorem run2_MI (c : Dev nD) (i : grid2.Coords)
    (arg4 : Memref sig .tc .vmem S4096 .i32) (harg4 : arg4.IsWhole) (arg5 : Memref sig .tc .vmem S4096x16 .f32) (harg5 : arg5.IsWhole)
    (arg6 : Memref sig .tc .vmem S2048x16 .f32) (harg6 : arg6.IsWhole) (arg7 : Memref sig .tc .vmem S2048 .f32) (harg7 : arg7.IsWhole)
    (arg8 : Memref sig .tc .vmem S1x16 .f32) (harg8 : arg8.IsWhole) (arg9 : Memref sig .tc .vmem S2048x16 .f32) (harg9 : arg9.IsWhole)
    (arg10 : Memref sig .tc .vmem S2048x16 .f32) (harg10 : arg10.IsWhole)
    (x0 : Vec F S4096 .i32) (x1 : Vec F S4096x16 .f32) (x2 : Vec F S2048x16 .f32) (x3 : Vec F S2048 .f32) (x4 : Vec F S1x16 .f32)
    (xt0 : TbBuf2 (F := F) c tbMin) (xt1 : TbBuf2 (F := F) c tbMax)
    (hc1 : ¬ k2_c1 i) (hc2 : ¬ k2_act (F := F) i (wd2 tbMax xt1 i) (wd2 tbMin xt0 i) = 1#1) (hc3 : ¬ k2_cond3 i = 1#1)
    (xs xo : Vec F S2048x16 .f32) (E : Set ℕ) (K : PUnit → sProp 𝕄) :
    iprop(kin2 c arg4 arg5 arg6 arg7 arg8 x0 x1 x2 x3 x4 xt0 xt1
        ∗ owns (c : Thread nD τ) arg10 fullShare xs ∗ owns (c : Thread nD τ) arg9 fullShare xo
        ∗ (iprop(kin2 c arg4 arg5 arg6 arg7 arg8 x0 x1 x2 x3 x4 xt0 xt1
            ∗ owns (c : Thread nD τ) arg10 fullShare xs ∗ owns (c : Thread nD τ) arg9 fullShare xo) -∗ K ⟨⟩))
      ⊢ wp frame (wpE (defs₀ (F := F)) Variants.none c none) E
          (cc2__scatter_kernel i tbMin htbMin tbMax htbMax arg4 harg4 arg5 harg5 arg6 harg6 arg7 harg7 arg8 harg8 arg9 harg9 arg10 harg10) K := by
  simp only [cc2__scatter_kernel_eq_skeleton]; unfold cc2__scatter_kernel_skel
  unfold kin2 owns
  iintro ⟨⟨⟨%f0, %hf0, H0⟩, ⟨%f1, %hf1, H1⟩, ⟨%f2, %hf2, H2⟩, ⟨%f3, %hf3, H3⟩, ⟨%f4, %hf4, H4⟩, HT0, HT1⟩, ⟨%fs, %hfs, HS⟩, ⟨%f9, %hf9, H9⟩, Hk⟩
  subst hf0 hf1 hf2 hf3 hf4 hfs hf9
  sl_exec (disch := first | sl_exact hc1 | sl_exact hc2 | sl_exact hc3)
  sl_step
  iapply Hk
  isplitl [H0 H1 H2 H3 H4 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [HT0]; · iexact HT0
    iexact HT1
  isplitl [HS]
  · iexists fs; isplitr; · ipureintro; rfl
    iexact HS
  iexists f9; isplitr; · ipureintro; rfl
  iexact H9

set_option maxHeartbeats 1000000 in
/-- Last edge tile, step taken: the scratch ends at the step applied to what it held, and the output's buffer at
    the epilogue of that. -/
theorem run2_LA (c : Dev nD) (i : grid2.Coords)
    (arg4 : Memref sig .tc .vmem S4096 .i32) (harg4 : arg4.IsWhole) (arg5 : Memref sig .tc .vmem S4096x16 .f32) (harg5 : arg5.IsWhole)
    (arg6 : Memref sig .tc .vmem S2048x16 .f32) (harg6 : arg6.IsWhole) (arg7 : Memref sig .tc .vmem S2048 .f32) (harg7 : arg7.IsWhole)
    (arg8 : Memref sig .tc .vmem S1x16 .f32) (harg8 : arg8.IsWhole) (arg9 : Memref sig .tc .vmem S2048x16 .f32) (harg9 : arg9.IsWhole)
    (arg10 : Memref sig .tc .vmem S2048x16 .f32) (harg10 : arg10.IsWhole)
    (x0 : Vec F S4096 .i32) (x1 : Vec F S4096x16 .f32) (x2 : Vec F S2048x16 .f32) (x3 : Vec F S2048 .f32) (x4 : Vec F S1x16 .f32)
    (xt0 : TbBuf2 (F := F) c tbMin) (xt1 : TbBuf2 (F := F) c tbMax)
    (hc1 : ¬ k2_c1 i) (hc2 : k2_act (F := F) i (wd2 tbMax xt1 i) (wd2 tbMin xt0 i) = 1#1) (hc3 : k2_cond3 i = 1#1)
    (xs : Vec F S2048x16 .f32) (E : Set ℕ) (K : PUnit → sProp 𝕄) :
    iprop(kin2 c arg4 arg5 arg6 arg7 arg8 x0 x1 x2 x3 x4 xt0 xt1
        ∗ owns (c : Thread nD τ) arg10 fullShare xs ∗ (∃ d, owns (c : Thread nD τ) arg9 fullShare d)
        ∗ (iprop(kin2 c arg4 arg5 arg6 arg7 arg8 x0 x1 x2 x3 x4 xt0 xt1
            ∗ owns (c : Thread nD τ) arg10 fullShare (k2_pay2 i x0 xs x1)
            ∗ owns (c : Thread nD τ) arg9 fullShare (k2_pay3 (k2_pay2 i x0 xs x1) x4)) -∗ K ⟨⟩))
      ⊢ wp frame (wpE (defs₀ (F := F)) Variants.none c none) E
          (cc2__scatter_kernel i tbMin htbMin tbMax htbMax arg4 harg4 arg5 harg5 arg6 harg6 arg7 harg7 arg8 harg8 arg9 harg9 arg10 harg10) K := by
  simp only [cc2__scatter_kernel_eq_skeleton]; unfold cc2__scatter_kernel_skel
  unfold kin2 owns
  iintro ⟨⟨⟨%f0, %hf0, H0⟩, ⟨%f1, %hf1, H1⟩, ⟨%f2, %hf2, H2⟩, ⟨%f3, %hf3, H3⟩, ⟨%f4, %hf4, H4⟩, HT0, HT1⟩, ⟨%fs, %hfs, HS⟩, ⟨%d9, %f9, -, H9⟩, Hk⟩
  subst hf0 hf1 hf2 hf3 hf4 hfs
  sl_exec (disch := first | sl_exact hc1 | sl_exact hc2 | sl_exact hc3)
  sl_step
  iapply Hk
  isplitl [H0 H1 H2 H3 H4 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [HT0]; · iexact HT0
    iexact HT1
  isplitl [HS]
  · iexists _; isplitr; swap; · iexact HS
    ipureintro
    unfold run2_LA.sl.HS_1
    rw [rwU S2048x16 _ _ z2]
    simp only [rdU S4096 _ z1, rdU S2048x16 _ z2, rdU S4096x16 _ z2]
  iexists _; isplitr; swap; · iexact H9
  ipureintro
  -- the epilogue's load read the step's store back
  rw [rwU S2048x16 _ _ z2]
  unfold run2_LA.sl.v17 run2_LA.sl.HS_1
  simp only [rcU S2048x16 _ z2, rdU S4096 _ z1, rdU S2048x16 _ z2, rdU S4096x16 _ z2, rdU S1x16 _ z2]

set_option maxHeartbeats 1000000 in
/-- Last edge tile, step skipped: the scratch keeps what it held, and the output's buffer ends at the epilogue of
    that. -/
theorem run2_LI (c : Dev nD) (i : grid2.Coords)
    (arg4 : Memref sig .tc .vmem S4096 .i32) (harg4 : arg4.IsWhole) (arg5 : Memref sig .tc .vmem S4096x16 .f32) (harg5 : arg5.IsWhole)
    (arg6 : Memref sig .tc .vmem S2048x16 .f32) (harg6 : arg6.IsWhole) (arg7 : Memref sig .tc .vmem S2048 .f32) (harg7 : arg7.IsWhole)
    (arg8 : Memref sig .tc .vmem S1x16 .f32) (harg8 : arg8.IsWhole) (arg9 : Memref sig .tc .vmem S2048x16 .f32) (harg9 : arg9.IsWhole)
    (arg10 : Memref sig .tc .vmem S2048x16 .f32) (harg10 : arg10.IsWhole)
    (x0 : Vec F S4096 .i32) (x1 : Vec F S4096x16 .f32) (x2 : Vec F S2048x16 .f32) (x3 : Vec F S2048 .f32) (x4 : Vec F S1x16 .f32)
    (xt0 : TbBuf2 (F := F) c tbMin) (xt1 : TbBuf2 (F := F) c tbMax)
    (hc1 : ¬ k2_c1 i) (hc2 : ¬ k2_act (F := F) i (wd2 tbMax xt1 i) (wd2 tbMin xt0 i) = 1#1) (hc3 : k2_cond3 i = 1#1)
    (xs : Vec F S2048x16 .f32) (E : Set ℕ) (K : PUnit → sProp 𝕄) :
    iprop(kin2 c arg4 arg5 arg6 arg7 arg8 x0 x1 x2 x3 x4 xt0 xt1
        ∗ owns (c : Thread nD τ) arg10 fullShare xs ∗ (∃ d, owns (c : Thread nD τ) arg9 fullShare d)
        ∗ (iprop(kin2 c arg4 arg5 arg6 arg7 arg8 x0 x1 x2 x3 x4 xt0 xt1
            ∗ owns (c : Thread nD τ) arg10 fullShare xs ∗ owns (c : Thread nD τ) arg9 fullShare (k2_pay3 xs x4)) -∗ K ⟨⟩))
      ⊢ wp frame (wpE (defs₀ (F := F)) Variants.none c none) E
          (cc2__scatter_kernel i tbMin htbMin tbMax htbMax arg4 harg4 arg5 harg5 arg6 harg6 arg7 harg7 arg8 harg8 arg9 harg9 arg10 harg10) K := by
  simp only [cc2__scatter_kernel_eq_skeleton]; unfold cc2__scatter_kernel_skel
  unfold kin2 owns
  iintro ⟨⟨⟨%f0, %hf0, H0⟩, ⟨%f1, %hf1, H1⟩, ⟨%f2, %hf2, H2⟩, ⟨%f3, %hf3, H3⟩, ⟨%f4, %hf4, H4⟩, HT0, HT1⟩, ⟨%fs, %hfs, HS⟩, ⟨%d9, %f9, -, H9⟩, Hk⟩
  subst hf0 hf1 hf2 hf3 hf4 hfs
  sl_exec (disch := first | sl_exact hc1 | sl_exact hc2 | sl_exact hc3)
  sl_step
  iapply Hk
  isplitl [H0 H1 H2 H3 H4 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [HT0]; · iexact HT0
    iexact HT1
  isplitl [HS]
  · iexists fs; isplitr; · ipureintro; rfl
    iexact HS
  iexists _; isplitr; swap; · iexact H9
  ipureintro
  rw [rwU S2048x16 _ _ z2]
  simp only [rdU S2048x16 _ z2, rdU S1x16 _ z2]

end Cert.KernelIdeal.R2

end
-- ==== Proof.R2Frame.lean ====
import proofs.«417346_j54202487276072_2_alg».proof.Proof.R2Sched
import proofs.«417346_j54202487276072_2_alg».proof.Proof.R2Runs
import Idealize.ShloMosaic.Lib.Pipeline.FrameBody
import Idealize.ShloMosaic.Lib.Pipeline.Frame

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

-- the buffer contents when the region is entered, and the admissible tables: both parameters, never evaluated
variable (V : (c : Dev nD) → (b : Ref sig .tc) → Buf (Elt F) ((c : Thread nD τ).loc b)) (a : (pcfg2 (F := F)).Adm)

/-! # The scatter region (custom_call 2) at entry contents `V` and tables `a`

The scratch carries, along each node tile's run of edge tiles, the self term plus the sum over the edge tiles
whose destination range meets the node tile; the output block is the epilogue of the scratch at the last edge
tile. -/

/-! ## The windows' blocks and the table words -/

/-- Window `w`'s block at point `t`, read off its array as the region finds it. -/
def iblk2 (c : Dev nD) (w : Fin (cfg2 a).W) (t : Fin (cfg2 a).N) : (((cfg2 a).win w).xblock ((cfg2 a).grid.coords t)).Idx → Elt F ((cfg2 a).win w).elt :=
  (((cfg2 a).win w).blk t).view.read (Elt F) (V c (Pipeline.arrRef spec2 w))

/-- The five input blocks at their vector types (no window is cut: a block's shape is its window's). -/
abbrev dstB (c : Dev nD) (t : Fin (cfg2 a).N) : Vec F S4096 .i32 := iblk2 V a c 0 t
abbrev gB (c : Dev nD) (t : Fin (cfg2 a).N) : Vec F S4096x16 .f32 := iblk2 V a c 1 t
abbrev hwB (c : Dev nD) (t : Fin (cfg2 a).N) : Vec F S2048x16 .f32 := iblk2 V a c 2 t
abbrev snB (c : Dev nD) (t : Fin (cfg2 a).N) : Vec F S2048 .f32 := iblk2 V a c 3 t
abbrev biasB (c : Dev nD) (t : Fin (cfg2 a).N) : Vec F S1x16 .f32 := iblk2 V a c 4 t

/-- The two table words the body loads at point `i`: the least and the greatest destination in the edge tile. -/
abbrev wMin (i : grid2.Coords) : Elt F .i32 := wd2 tbMin (a.1 0) i
abbrev wMax (i : grid2.Coords) : Elt F .i32 := wd2 tbMax (a.1 1) i

/-- The accumulation step is taken at point `i`. -/
abbrev act2 (i : grid2.Coords) : Prop := k2_act (F := F) i (wMax a i) (wMin a i) = 1#1

/-! ## The scratch, point by point -/

/-- One point's effect on the scratch from what it held (`prev`): initialised at the first edge tile, then the
    step if its condition holds. -/
def step2 (i : grid2.Coords) (prev : Vec F S2048x16 .f32) (sn : Vec F S2048 .f32) (hw : Vec F S2048x16 .f32)
    (dst : Vec F S4096 .i32) (g : Vec F S4096x16 .f32) : Vec F S2048x16 .f32 :=
  if act2 a i then k2_pay2 i dst (if (i 1).val = 0 then k2_pay1 sn hw else prev) g
  else (if (i 1).val = 0 then k2_pay1 sn hw else prev)

/-- What the scratch holds after the body at point `n`. -/
def accAt2 (c : Dev nD) : (n : ℕ) → n < (cfg2 a).N → Vec F S2048x16 .f32
  | 0, h => step2 a (grid2.coords ⟨0, h⟩) (k2_pay1 (snB V a c ⟨0, h⟩) (hwB V a c ⟨0, h⟩)) (snB V a c ⟨0, h⟩) (hwB V a c ⟨0, h⟩)
      (dstB V a c ⟨0, h⟩) (gB V a c ⟨0, h⟩)
  | n + 1, h => step2 a (grid2.coords ⟨n + 1, h⟩) (accAt2 c n (Nat.lt_of_succ_lt h)) (snB V a c ⟨n + 1, h⟩) (hwB V a c ⟨n + 1, h⟩)
      (dstB V a c ⟨n + 1, h⟩) (gB V a c ⟨n + 1, h⟩)

/-- At a first edge tile the scratch restarts from the self term. -/
theorem accAt2_first (c : Dev nD) (t : Fin (cfg2 a).N) (hk : (grid2.coords t 1).val = 0) :
    accAt2 V a c t.val t.isLt
      = if act2 a (grid2.coords t) then k2_pay2 (grid2.coords t) (dstB V a c t) (k2_pay1 (snB V a c t) (hwB V a c t)) (gB V a c t)
        else k2_pay1 (snB V a c t) (hwB V a c t) := by
  obtain ⟨n, hn⟩ := t
  cases n with
  | zero => show step2 a _ _ _ _ _ _ = _; unfold step2; simp only [if_pos hk]
  | succ n => show step2 a _ _ _ _ _ _ = _; unfold step2; simp only [if_pos hk]

/-- At a later edge tile it continues from the point before. -/
theorem accAt2_next (c : Dev nD) (t : Fin (cfg2 a).N) (hk : (grid2.coords t 1).val ≠ 0) :
    accAt2 V a c t.val t.isLt
      = if act2 a (grid2.coords t)
        then k2_pay2 (grid2.coords t) (dstB V a c t) (accAt2 V a c (t.val - 1) (Nat.lt_of_le_of_lt (Nat.sub_le _ _) t.isLt)) (gB V a c t)
        else accAt2 V a c (t.val - 1) (Nat.lt_of_le_of_lt (Nat.sub_le _ _) t.isLt) := by
  obtain ⟨n, hn⟩ := t
  cases n with
  | zero => exact absurd (by rw [coords2_1]; rfl) hk
  | succ n => show step2 a _ _ _ _ _ _ = _; unfold step2; simp only [if_neg hk]; rfl

/-! ## The invariant between points -/

/-- The kernel's scratch operand: a whole scoped buffer of its own. -/
abbrev scM2 : Memref sig .tc .vmem S2048x16 .f32 := Memref.whole cc2_scratch0

/-- The scratch before point `n`: at anything before the first point, else at what the point before left. -/
def scr2 (c : Dev nD) : (n : ℕ) → n < (cfg2 a).N + 1 → sProp 𝕄
  | 0, _ => iprop(∃ d, owns (c : Thread nD τ) scM2 fullShare d)
  | n + 1, h => owns (c : Thread nD τ) scM2 fullShare (accAt2 V a c n (Nat.lt_of_succ_lt_succ h))

/-- The region's invariant before point `t`: the tables held whole at their contents, the scratch, the other scoped
    buffers unopened, the generator register at some state. -/
def Φ2 (c : Dev nD) (t : Fin ((cfg2 a).N + 1)) : sProp 𝕄 :=
  iprop(Pipeline.prefHeld (Ix := Unit) (Name := ℕ) (U := UR sig nD τ) (Lvl := ℕ) pre2 c (fun _ => fullShare) a.1
    ∗ scr2 V a c t.val t.isLt
    ∗ Pipeline.scopedRestBut (Ix := Unit) (Name := ℕ) (U := UR sig nD τ) (Lvl := ℕ) (Val := Elt F) spec2 c [cc2_scratch0]
    ∗ ∃ r, prngReg c r)

theorem scr2_ex (c : Dev nD) (n : ℕ) (h : n < (cfg2 a).N + 1) :
    scr2 V a c n h ⊢ (iprop(∃ d, owns (c : Thread nD τ) scM2 fullShare d) : sProp 𝕄) := by
  cases n with
  | zero => exact .rfl
  | succ n => show owns _ _ _ _ ⊢ _; iintro H; iexists _; iexact H

theorem scr2_pos (c : Dev nD) (n : ℕ) (h : n < (cfg2 a).N + 1) (hn : n ≠ 0) :
    scr2 V a c n h = owns (c : Thread nD τ) scM2 fullShare (accAt2 V a c (n - 1) (by omega)) := by
  cases n with
  | zero => exact absurd rfl hn
  | succ m => rfl

/-! ## The proof data -/

/-- The proof data of pipeline 2 on core `c`: the arrays as the region finds them; after the body each input's
    buffer at its block, the output's at the epilogue of the scratch (consulted only where the block is written
    back: at the last edge tile); the invariant `Φ2`; nothing owed; full shares. -/
def dat2 (c : Dev nD) : Dat τ (Elt F) Unit ℕ (UR sig nD τ) ℕ (cfg2 a) c where
  A w := V c (Pipeline.arrRef spec2 w)
  after w t := match w with
    | ⟨0, _⟩ => iblk2 V a c 0 t
    | ⟨1, _⟩ => iblk2 V a c 1 t
    | ⟨2, _⟩ => iblk2 V a c 2 t
    | ⟨3, _⟩ => iblk2 V a c 3 t
    | ⟨4, _⟩ => iblk2 V a c 4 t
    | ⟨5, _⟩ => k2_pay3 (accAt2 V a c t.val t.isLt) (biasB V a c t)
  Φ t := Φ2 V a c t
  q _ := fullShare
  owed _ := 0

theorem A_eq2 (c : Dev nD) (w : Fin (cfg2 a).W) : (dat2 V a c).A w = V c (Pipeline.arrRef spec2 w) := by
  dsimp only [dat2]

theorem after2_0 (c : Dev nD) (t : Fin (cfg2 a).N) : (dat2 V a c).after 0 t = iblk2 V a c 0 t := by dsimp only [dat2]; rfl
theorem after2_1 (c : Dev nD) (t : Fin (cfg2 a).N) : (dat2 V a c).after 1 t = iblk2 V a c 1 t := by dsimp only [dat2]; rfl
theorem after2_2 (c : Dev nD) (t : Fin (cfg2 a).N) : (dat2 V a c).after 2 t = iblk2 V a c 2 t := by dsimp only [dat2]; rfl
theorem after2_3 (c : Dev nD) (t : Fin (cfg2 a).N) : (dat2 V a c).after 3 t = iblk2 V a c 3 t := by dsimp only [dat2]; rfl
theorem after2_4 (c : Dev nD) (t : Fin (cfg2 a).N) : (dat2 V a c).after 4 t = iblk2 V a c 4 t := by dsimp only [dat2]; rfl
/-- The output's buffer after the body: the epilogue of the scratch (what the write-back writes at the last edge tile). -/
theorem after2_5 (c : Dev nD) (t : Fin (cfg2 a).N) :
    (dat2 V a c).after 5 t = k2_pay3 (accAt2 V a c t.val t.isLt) (biasB V a c t) := by dsimp only [dat2]; rfl

/-- Each input's current staging buffer holds its block at every point, fetched there or not: the body only
    reads it, the window is uncut and never idle. -/
theorem before2_0 (c : Dev nD) (t : Fin (cfg2 a).N) (d) : (dat2 V a c).before 0 t d = iblk2 V a c 0 t :=
  ((dat2 V a c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin (cfg2 a).N) (d) : (dat2 V a c).before 1 t d = iblk2 V a c 1 t :=
  ((dat2 V a c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin (cfg2 a).N) (d) : (dat2 V a c).before 2 t d = iblk2 V a c 2 t :=
  ((dat2 V a c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin (cfg2 a).N) (d) : (dat2 V a c).before 3 t d = iblk2 V a c 3 t :=
  ((dat2 V a c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin (cfg2 a).N) (d) : (dat2 V a c).before 4 t d = iblk2 V a c 4 t :=
  ((dat2 V a c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)

/-! ## The invariant, opened -/

/-- The tables, one by one. -/
theorem pref2_eq (c : Dev nD) :
    (Pipeline.prefHeld (Ix := Unit) (Name := ℕ) (U := UR sig nD τ) (Lvl := ℕ) pre2 c (fun _ => fullShare) a.1 : sProp 𝕄)
      = iprop(tbPt2 c tbMin (a.1 0) ∗ tbPt2 c tbMax (a.1 1)) := by
  unfold Pipeline.prefHeld
  rw [show (Finset.univ : Finset (Fin 2)) = insert (0 : Fin 2) {(1 : Fin 2)} from by decide,
    bigSep_insert (by decide), bigSep_singleton]
  rfl

theorem Phi_cast (c : Dev nD) (t : Fin (cfg2 a).N) :
    (dat2 V a c).Φ t.castSucc
      = iprop(Pipeline.prefHeld (Ix := Unit) (Name := ℕ) (U := UR sig nD τ) (Lvl := ℕ) pre2 c (fun _ => fullShare) a.1
          ∗ scr2 V a c t.val (Nat.lt_succ_of_lt t.isLt)
          ∗ Pipeline.scopedRestBut (Ix := Unit) (Name := ℕ) (U := UR sig nD τ) (Lvl := ℕ) (Val := Elt F) spec2 c [cc2_scratch0]
          ∗ ∃ r, prngReg c r) := by
  obtain ⟨n, hn⟩ := t; rfl

theorem Phi_succ (c : Dev nD) (t : Fin (cfg2 a).N) :
    (dat2 V a c).Φ t.succ
      = iprop(Pipeline.prefHeld (Ix := Unit) (Name := ℕ) (U := UR sig nD τ) (Lvl := ℕ) pre2 c (fun _ => fullShare) a.1
          ∗ owns (c : Thread nD τ) scM2 fullShare (accAt2 V a c t.val t.isLt)
          ∗ Pipeline.scopedRestBut (Ix := Unit) (Name := ℕ) (U := UR sig nD τ) (Lvl := ℕ) (Val := Elt F) spec2 c [cc2_scratch0]
          ∗ ∃ r, prngReg c r) := by
  obtain ⟨n, hn⟩ := t; rfl

theorem owes_succ (c : Dev nD) (t : Fin (cfg2 a).N) :
    (dat2 V a c).owesAt () t.succ = (dat2 V a c).owesAt () t.castSucc := rfl

/-! ## The body at a point -/

/-- Each window's current staging memref at point `t`, spelled as the pipeline passes it, and its wholeness. -/
abbrev ms2_0 (t : Fin (cfg2 a).N) : Memref sig .tc .vmem S4096 .i32 := spec2_0.stage ((cfg2 a).slots t 0)
abbrev hs2_0 (t : Fin (cfg2 a).N) : (ms2_0 a t).IsWhole := hstage2_0 (((cfg2 a).slots t 0).cast nbuf2_0)
abbrev ms2_1 (t : Fin (cfg2 a).N) : Memref sig .tc .vmem S4096x16 .f32 := spec2_1.stage ((cfg2 a).slots t 1)
abbrev hs2_1 (t : Fin (cfg2 a).N) : (ms2_1 a t).IsWhole := hstage2_1 (((cfg2 a).slots t 1).cast nbuf2_1)
abbrev ms2_2 (t : Fin (cfg2 a).N) : Memref sig .tc .vmem S2048x16 .f32 := spec2_2.stage ((cfg2 a).slots t 2)
abbrev hs2_2 (t : Fin (cfg2 a).N) : (ms2_2 a t).IsWhole := hstage2_2 (((cfg2 a).slots t 2).cast nbuf2_2)
abbrev ms2_3 (t : Fin (cfg2 a).N) : Memref sig .tc .vmem S2048 .f32 := spec2_3.stage ((cfg2 a).slots t 3)
abbrev hs2_3 (t : Fin (cfg2 a).N) : (ms2_3 a t).IsWhole := hstage2_3 (((cfg2 a).slots t 3).cast nbuf2_3)
abbrev ms2_4 (t : Fin (cfg2 a).N) : Memref sig .tc .vmem S1x16 .f32 := spec2_4.stage ((cfg2 a).slots t 4)
abbrev hs2_4 (t : Fin (cfg2 a).N) : (ms2_4 a t).IsWhole := hstage2_4 (((cfg2 a).slots t 4).cast nbuf2_4)
abbrev ms2_5 (t : Fin (cfg2 a).N) : Memref sig .tc .vmem S2048x16 .f32 := spec2_5.stage ((cfg2 a).slots t 5)
abbrev hs2_5 (t : Fin (cfg2 a).N) : (ms2_5 a t).IsWhole := hstage2_5 (((cfg2 a).slots t 5).cast nbuf2_5)

/-- The kernel body at point `t`, on what the pipeline calls it with. -/
abbrev bodyAt2 (t : Fin (cfg2 a).N) : Prog (TpuEff nD τ sig (Elt F) Λ₀ .tc) PUnit :=
  cc2__scatter_kernel (grid2.coords t) tbMin htbMin tbMax htbMax (ms2_0 a t) (hs2_0 a t) (ms2_1 a t) (hs2_1 a t) (ms2_2 a t) (hs2_2 a t)
    (ms2_3 a t) (hs2_3 a t) (ms2_4 a t) (hs2_4 a t) (ms2_5 a t) (hs2_5 a t) scM2 (Memref.isWhole_whole _)

/-- What the body is called with at point `t`, the windows one by one, -/
def bodyPre2 (c : Dev nD) (t : Fin (cfg2 a).N) : sProp 𝕄 :=
  iprop((dat2 V a c).Φ t.castSucc ∗ (dat2 V a c).owesAt () t.castSucc
    ∗ (∃ d, owns (c : Thread nD τ) (ms2_0 a t) fullShare ((dat2 V a c).before 0 t d))
    ∗ (∃ d, owns (c : Thread nD τ) (ms2_1 a t) fullShare ((dat2 V a c).before 1 t d))
    ∗ (∃ d, owns (c : Thread nD τ) (ms2_2 a t) fullShare ((dat2 V a c).before 2 t d))
    ∗ (∃ d, owns (c : Thread nD τ) (ms2_3 a t) fullShare ((dat2 V a c).before 3 t d))
    ∗ (∃ d, owns (c : Thread nD τ) (ms2_4 a t) fullShare ((dat2 V a c).before 4 t d))
    ∗ (∃ d, owns (c : Thread nD τ) (ms2_5 a t) fullShare ((dat2 V a c).before 5 t d)))

/-- and what it returns: the output's buffer as found where the window is idle, at the epilogue where it is stored. -/
def bodyPost2 (c : Dev nD) (t : Fin (cfg2 a).N) : sProp 𝕄 :=
  iprop((dat2 V a c).Φ t.succ ∗ (dat2 V a c).owesAt () t.succ
    ∗ owns (c : Thread nD τ) (ms2_0 a t) fullShare ((dat2 V a c).after 0 t)
    ∗ owns (c : Thread nD τ) (ms2_1 a t) fullShare ((dat2 V a c).after 1 t)
    ∗ owns (c : Thread nD τ) (ms2_2 a t) fullShare ((dat2 V a c).after 2 t)
    ∗ owns (c : Thread nD τ) (ms2_3 a t) fullShare ((dat2 V a c).after 3 t)
    ∗ owns (c : Thread nD τ) (ms2_4 a t) fullShare ((dat2 V a c).after 4 t)
    ∗ (dat2 V a c).leavesExact 5 t)

/-- Where the output is stored the window is live: its buffer ends at `after`. -/
theorem leaves2_live (c : Dev nD) (t : Fin (cfg2 a).N) (h : (cfg2 a).idle 5 ((cfg2 a).grid.coords t) = false) :
    (dat2 V a c).leavesExact 5 t = owns (c : Thread nD τ) (ms2_5 a t) fullShare ((dat2 V a c).after 5 t) := by
  unfold Dat.leavesExact; rw [h]; rfl

set_option maxHeartbeats 1000000 in
/-- The body at any point. The point's place on the grid decides the first and the last conditional; the middle
    one is decided by cases on the table words, which stay variables. In each case the matching run applies: the
    inputs' memrefs hold their blocks, the scratch what the point before left (anything at a first edge tile), and
    the scratch's new contents are `accAt2` at the point by its recursion. -/
theorem sound_body2 (c : Dev nD) (t : Fin (cfg2 a).N) :
    bodyPre2 V a c t ⊢ wp frame (wpE (defs₀ (F := F)) Variants.none c none) Set.univ (bodyAt2 a t) (fun _ => bodyPost2 V a c t) := by
  have hN : t.val < 19159 := lt_of_lt_of_eq t.isLt N_2
  have hk : (grid2.coords t 1).val = t.val % 391 := coords2_1 t
  unfold bodyPre2 bodyPost2
  simp only [before2_0, before2_1, before2_2, before2_3, before2_4]
  rw [after2_0, after2_1, after2_2, after2_3, after2_4, Phi_cast, Phi_succ, owes_succ, pref2_eq]
  by_cases h0 : t.val % 391 = 0
  · -- a first edge tile: the scratch restarts; the output window is idle and not written back
    have hc1 : k2_c1 (grid2.coords t) := (c1_iff _).mpr (hk.trans h0)
    have hc3 : ¬ k2_cond3 (grid2.coords t) = 1#1 := fun h => by have := (cond3_iff _).mp h; omega
    have hidle : (cfg2 a).idle 5 ((cfg2 a).grid.coords t) = true := by
      rw [idle2_5, beq_eq_false_iff_ne.mpr hc3]; rfl
    have hfl : ((cfg2 a).win 5).flush t = false := by
      rw [Bool.eq_false_iff]; intro h; have := (flush2_5 a t).mp h; omega
    rw [Dat.leavesExact_idle _ 5 t hidle hfl]
    by_cases hc2 : act2 a (grid2.coords t)
    · have hacc := accAt2_first V a c t (hk.trans h0)
      rw [if_pos hc2] at hacc
      rw [hacc]
      iintro ⟨⟨⟨HT0, HT1⟩, HS, HR, HG⟩, Ho, ⟨%d0, H0⟩, ⟨%d1, H1⟩, ⟨%d2, H2⟩, ⟨%d3, H3⟩, ⟨%d4, H4⟩, ⟨%d5, H5⟩⟩
      ihave HS' := (scr2_ex V a c _ _) $$ HS
      iapply (run2_FA c (grid2.coords t) (ms2_0 a t) (hs2_0 a t) (ms2_1 a t) (hs2_1 a t) (ms2_2 a t) (hs2_2 a t) (ms2_3 a t) (hs2_3 a t)
        (ms2_4 a t) (hs2_4 a t) (ms2_5 a t) (hs2_5 a t) scM2 (Memref.isWhole_whole _)
        (dstB V a c t) (gB V a c t) (hwB V a c t) (snB V a c t) (biasB V a c t) (a.1 0) (a.1 1) hc1 hc2 hc3
        ((dat2 V a c).before 5 t d5) Set.univ _)
      unfold kin2
      isplitl [H0 H1 H2 H3 H4 HT0 HT1]
      · isplitl [H0]; · iexact H0
        isplitl [H1]; · iexact H1
        isplitl [H2]; · iexact H2
        isplitl [H3]; · iexact H3
        isplitl [H4]; · iexact H4
        isplitl [HT0]; · iexact HT0
        iexact HT1
      isplitl [HS']; · iexact HS'
      isplitl [H5]; · iexact H5
      iintro ⟨⟨H0, H1, H2, H3, H4, HT0, HT1⟩, HS, H5⟩
      isplitl [HT0 HT1 HS HR HG]
      · isplitl [HT0 HT1]
        · isplitl [HT0]; · iexact HT0
          iexact HT1
        isplitl [HS]; · iexact HS
        isplitl [HR]; · iexact HR
        iexact HG
      isplitl [Ho]; · iexact Ho
      isplitl [H0]; · iexact H0
      isplitl [H1]; · iexact H1
      isplitl [H2]; · iexact H2
      isplitl [H3]; · iexact H3
      isplitl [H4]; · iexact H4
      iexists d5; iexact H5
    · have hacc := accAt2_first V a c t (hk.trans h0)
      rw [if_neg hc2] at hacc
      rw [hacc]
      iintro ⟨⟨⟨HT0, HT1⟩, HS, HR, HG⟩, Ho, ⟨%d0, H0⟩, ⟨%d1, H1⟩, ⟨%d2, H2⟩, ⟨%d3, H3⟩, ⟨%d4, H4⟩, ⟨%d5, H5⟩⟩
      ihave HS' := (scr2_ex V a c _ _) $$ HS
      iapply (run2_FI c (grid2.coords t) (ms2_0 a t) (hs2_0 a t) (ms2_1 a t) (hs2_1 a t) (ms2_2 a t) (hs2_2 a t) (ms2_3 a t) (hs2_3 a t)
        (ms2_4 a t) (hs2_4 a t) (ms2_5 a t) (hs2_5 a t) scM2 (Memref.isWhole_whole _)
        (dstB V a c t) (gB V a c t) (hwB V a c t) (snB V a c t) (biasB V a c t) (a.1 0) (a.1 1) hc1 hc2 hc3
        ((dat2 V a c).before 5 t d5) Set.univ _)
      unfold kin2
      isplitl [H0 H1 H2 H3 H4 HT0 HT1]
      · isplitl [H0]; · iexact H0
        isplitl [H1]; · iexact H1
        isplitl [H2]; · iexact H2
        isplitl [H3]; · iexact H3
        isplitl [H4]; · iexact H4
        isplitl [HT0]; · iexact HT0
        iexact HT1
      isplitl [HS']; · iexact HS'
      isplitl [H5]; · iexact H5
      iintro ⟨⟨H0, H1, H2, H3, H4, HT0, HT1⟩, HS, H5⟩
      isplitl [HT0 HT1 HS HR HG]
      · isplitl [HT0 HT1]
        · isplitl [HT0]; · iexact HT0
          iexact HT1
        isplitl [HS]; · iexact HS
        isplitl [HR]; · iexact HR
        iexact HG
      isplitl [Ho]; · iexact Ho
      isplitl [H0]; · iexact H0
      isplitl [H1]; · iexact H1
      isplitl [H2]; · iexact H2
      isplitl [H3]; · iexact H3
      isplitl [H4]; · iexact H4
      iexists d5; iexact H5
  · -- a later edge tile: the scratch holds what the point before left
    have ht0 : t.val ≠ 0 := fun h => h0 (by rw [h])
    have hc1 : ¬ k2_c1 (grid2.coords t) := fun h => h0 (hk.symm.trans ((c1_iff _).mp h))
    have hk' : (grid2.coords t 1).val ≠ 0 := fun h => h0 (hk.symm.trans h)
    rw [scr2_pos V a c t.val _ ht0]
    by_cases hL : t.val % 391 = 390
    · -- the last edge tile: the output block is stored, and written back
      have hc3 : k2_cond3 (grid2.coords t) = 1#1 := (cond3_iff _).mpr (hk.trans hL)
      have hlive : (cfg2 a).idle 5 ((cfg2 a).grid.coords t) = false := by
        rw [idle2_5, hc3]; rfl
      rw [leaves2_live V a c t hlive, after2_5]
      by_cases hc2 : act2 a (grid2.coords t)
      · have hacc := accAt2_next V a c t hk'
        rw [if_pos hc2] at hacc
        rw [hacc]
        iintro ⟨⟨⟨HT0, HT1⟩, HS, HR, HG⟩, Ho, ⟨%d0, H0⟩, ⟨%d1, H1⟩, ⟨%d2, H2⟩, ⟨%d3, H3⟩, ⟨%d4, H4⟩, ⟨%d5, H5⟩⟩
        iapply (run2_LA c (grid2.coords t) (ms2_0 a t) (hs2_0 a t) (ms2_1 a t) (hs2_1 a t) (ms2_2 a t) (hs2_2 a t) (ms2_3 a t) (hs2_3 a t)
          (ms2_4 a t) (hs2_4 a t) (ms2_5 a t) (hs2_5 a t) scM2 (Memref.isWhole_whole _)
          (dstB V a c t) (gB V a c t) (hwB V a c t) (snB V a c t) (biasB V a c t) (a.1 0) (a.1 1) hc1 hc2 hc3
          (accAt2 V a c (t.val - 1) (Nat.lt_of_le_of_lt (Nat.sub_le _ _) t.isLt)) Set.univ _)
        unfold kin2
        isplitl [H0 H1 H2 H3 H4 HT0 HT1]
        · isplitl [H0]; · iexact H0
          isplitl [H1]; · iexact H1
          isplitl [H2]; · iexact H2
          isplitl [H3]; · iexact H3
          isplitl [H4]; · iexact H4
          isplitl [HT0]; · iexact HT0
          iexact HT1
        isplitl [HS]; · iexact HS
        isplitl [H5]; · iexists _; iexact H5
        iintro ⟨⟨H0, H1, H2, H3, H4, HT0, HT1⟩, HS, H5⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        isplitl [H3]; · iexact H3
        isplitl [H4]; · iexact H4
        iexact H5
      · have hacc := accAt2_next V a c t hk'
        rw [if_neg hc2] at hacc
        rw [hacc]
        iintro ⟨⟨⟨HT0, HT1⟩, HS, HR, HG⟩, Ho, ⟨%d0, H0⟩, ⟨%d1, H1⟩, ⟨%d2, H2⟩, ⟨%d3, H3⟩, ⟨%d4, H4⟩, ⟨%d5, H5⟩⟩
        iapply (run2_LI c (grid2.coords t) (ms2_0 a t) (hs2_0 a t) (ms2_1 a t) (hs2_1 a t) (ms2_2 a t) (hs2_2 a t) (ms2_3 a t) (hs2_3 a t)
          (ms2_4 a t) (hs2_4 a t) (ms2_5 a t) (hs2_5 a t) scM2 (Memref.isWhole_whole _)
          (dstB V a c t) (gB V a c t) (hwB V a c t) (snB V a c t) (biasB V a c t) (a.1 0) (a.1 1) hc1 hc2 hc3
          (accAt2 V a c (t.val - 1) (Nat.lt_of_le_of_lt (Nat.sub_le _ _) t.isLt)) Set.univ _)
        unfold kin2
        isplitl [H0 H1 H2 H3 H4 HT0 HT1]
        · isplitl [H0]; · iexact H0
          isplitl [H1]; · iexact H1
          isplitl [H2]; · iexact H2
          isplitl [H3]; · iexact H3
          isplitl [H4]; · iexact H4
          isplitl [HT0]; · iexact HT0
          iexact HT1
        isplitl [HS]; · iexact HS
        isplitl [H5]; · iexists _; iexact H5
        iintro ⟨⟨H0, H1, H2, H3, H4, HT0, HT1⟩, HS, H5⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        isplitl [H3]; · iexact H3
        isplitl [H4]; · iexact H4
        iexact H5
    · -- a middle edge tile: the output window is idle and not written back
      have hc3 : ¬ k2_cond3 (grid2.coords t) = 1#1 := fun h => hL (hk.symm.trans ((cond3_iff _).mp h))
      have hidle : (cfg2 a).idle 5 ((cfg2 a).grid.coords t) = true := by
        rw [idle2_5, beq_eq_false_iff_ne.mpr hc3]; rfl
      have hfl : ((cfg2 a).win 5).flush t = false := by
        rw [Bool.eq_false_iff]; intro h; exact hL ((flush2_5 a t).mp h)
      rw [Dat.leavesExact_idle _ 5 t hidle hfl]
      by_cases hc2 : act2 a (grid2.coords t)
      · have hacc := accAt2_next V a c t hk'
        rw [if_pos hc2] at hacc
        rw [hacc]
        iintro ⟨⟨⟨HT0, HT1⟩, HS, HR, HG⟩, Ho, ⟨%d0, H0⟩, ⟨%d1, H1⟩, ⟨%d2, H2⟩, ⟨%d3, H3⟩, ⟨%d4, H4⟩, ⟨%d5, H5⟩⟩
        iapply (run2_MA c (grid2.coords t) (ms2_0 a t) (hs2_0 a t) (ms2_1 a t) (hs2_1 a t) (ms2_2 a t) (hs2_2 a t) (ms2_3 a t) (hs2_3 a t)
          (ms2_4 a t) (hs2_4 a t) (ms2_5 a t) (hs2_5 a t) scM2 (Memref.isWhole_whole _)
          (dstB V a c t) (gB V a c t) (hwB V a c t) (snB V a c t) (biasB V a c t) (a.1 0) (a.1 1) hc1 hc2 hc3
          (accAt2 V a c (t.val - 1) (Nat.lt_of_le_of_lt (Nat.sub_le _ _) t.isLt)) ((dat2 V a c).before 5 t d5) Set.univ _)
        unfold kin2
        isplitl [H0 H1 H2 H3 H4 HT0 HT1]
        · isplitl [H0]; · iexact H0
          isplitl [H1]; · iexact H1
          isplitl [H2]; · iexact H2
          isplitl [H3]; · iexact H3
          isplitl [H4]; · iexact H4
          isplitl [HT0]; · iexact HT0
          iexact HT1
        isplitl [HS]; · iexact HS
        isplitl [H5]; · iexact H5
        iintro ⟨⟨H0, H1, H2, H3, H4, HT0, HT1⟩, HS, H5⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        isplitl [H3]; · iexact H3
        isplitl [H4]; · iexact H4
        iexists d5; iexact H5
      · have hacc := accAt2_next V a c t hk'
        rw [if_neg hc2] at hacc
        rw [hacc]
        iintro ⟨⟨⟨HT0, HT1⟩, HS, HR, HG⟩, Ho, ⟨%d0, H0⟩, ⟨%d1, H1⟩, ⟨%d2, H2⟩, ⟨%d3, H3⟩, ⟨%d4, H4⟩, ⟨%d5, H5⟩⟩
        iapply (run2_MI c (grid2.coords t) (ms2_0 a t) (hs2_0 a t) (ms2_1 a t) (hs2_1 a t) (ms2_2 a t) (hs2_2 a t) (ms2_3 a t) (hs2_3 a t)
          (ms2_4 a t) (hs2_4 a t) (ms2_5 a t) (hs2_5 a t) scM2 (Memref.isWhole_whole _)
          (dstB V a c t) (gB V a c t) (hwB V a c t) (snB V a c t) (biasB V a c t) (a.1 0) (a.1 1) hc1 hc2 hc3
          (accAt2 V a c (t.val - 1) (Nat.lt_of_le_of_lt (Nat.sub_le _ _) t.isLt)) ((dat2 V a c).before 5 t d5) Set.univ _)
        unfold kin2
        isplitl [H0 H1 H2 H3 H4 HT0 HT1]
        · isplitl [H0]; · iexact H0
          isplitl [H1]; · iexact H1
          isplitl [H2]; · iexact H2
          isplitl [H3]; · iexact H3
          isplitl [H4]; · iexact H4
          isplitl [HT0]; · iexact HT0
          iexact HT1
        isplitl [HS]; · iexact HS
        isplitl [H5]; · iexact H5
        iintro ⟨⟨H0, H1, H2, H3, H4, HT0, HT1⟩, HS, H5⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        isplitl [H3]; · iexact H3
        isplitl [H4]; · iexact H4
        iexists d5; iexact H5

/-- The library's body obligation, at every point. -/
theorem body_obligation2 (c : Dev nD) : BodyObligation (dat2 (F := F) V a c) (defs₀ (F := F)) Variants.none () Set.univ := fun t => by
  rw [bigSep_W2, bigSep_W2]
  exact sound_body2 V a c t

/-! ## The invariant at the region's two ends -/

/-- The scratch as the region finds it (a scoped buffer at some contents) is the scratch memref owned at some contents. -/
theorem scr_in (c : Dev nD) :
    (iprop(∃ f : Buf (Elt F) ((c : Thread nD τ).loc cc2_scratch0), ((c : Thread nD τ).loc cc2_scratch0) ↦{fullShare} f) : sProp 𝕄)
      ⊢ iprop(∃ d, owns (c : Thread nD τ) scM2 fullShare d) := by
  simp only [owns_whole]; exact .rfl

theorem scr_out (c : Dev nD) :
    (iprop(∃ d, owns (c : Thread nD τ) scM2 fullShare d) : sProp 𝕄)
      ⊢ iprop(∃ f : Buf (Elt F) ((c : Thread nD τ).loc cc2_scratch0), ((c : Thread nD τ).loc cc2_scratch0) ↦{fullShare} f) := by
  simp only [owns_whole]; exact .rfl

/-- The invariant before the first point, from the generator register, the tables and the scoped rest. -/
theorem hin2 (c : Dev nD) :
    iprop((∃ r, prngReg c r) ∗ Pipeline.prefHeld pre2 c (fun _ => fullShare) a.1 ∗ Pipeline.scopedRest spec2 c) ⊢ (dat2 V a c).Φ 0 := by
  rw [scopedRest2_split]
  show _ ⊢ Φ2 V a c 0
  unfold Φ2
  show _ ⊢ iprop(_ ∗ (∃ d, owns (c : Thread nD τ) scM2 fullShare d) ∗ _ ∗ _)
  iintro ⟨HG, HT, HS, HR⟩
  isplitl [HT]; · iexact HT
  isplitl [HS]; · iapply (scr_in c); iexact HS
  isplitl [HR]; · iexact HR
  iexact HG

/-- The invariant after the last point gives the generator register and the tables (at the full share) back, and
    the scoped rest; the kernel has no semaphore of its own. -/
theorem hout2 (c : Dev nD) :
    (dat2 V a c).Φ (Fin.last _)
      ⊢ iprop(((∃ r, prngReg c r) ∗ Pipeline.prefHeld pre2 c (fun _ => fullShare) a.1) ∗ Pipeline.ownSems0 (fun k : PEmpty => k.elim) c ∗ Pipeline.scopedRest spec2 c) := by
  rw [scopedRest2_split, Pipeline.ownSems0_none]
  show Φ2 V a c (Fin.last _) ⊢ _
  unfold Φ2
  iintro ⟨HT, HS, HR, HG⟩
  ihave HS' := (scr2_ex V a c _ _) $$ HS
  isplitl [HG HT]
  · isplitl [HG]; · iexact HG
    iexact HT
  isplitr
  · iempintro
  isplitl [HS']; · iapply (scr_out c); iexact HS'
  iexact HR

end Cert.KernelIdeal.R2

end
-- ==== Proof.R3Frame.lean ====
/- Region 3 of @main: the second dense layer, rows of the first layer's activations times the second weight matrix.
   What the pipeline's body finds in its staged operands and leaves in its output buffer at every grid point,
   the proof data built from that at the buffer contents the region is entered with, and the body obligation. -/
import proofs.«417346_j54202487276072_2_alg».proof.Proof.Gen.KernelIdeal.Launch
import proofs.«417346_j54202487276072_2_alg».proof.Proof.Gen.KernelIdeal.Skeleton
import proofs.«417346_j54202487276072_2_alg».proof.Proof.Gen.KernelIdeal.Points
import Idealize.ShloMosaic.Lib.Pipeline.FrameBody
import Idealize.ShloMosaic.Lib.Pipeline.Value
import Idealize.ShloMosaic.Lib.Tactic

noncomputable section

namespace Cert.KernelIdeal.R3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! # Region 3: the second dense layer, one row block per grid point

The grid has 49 points. At point `t` the pipeline stages rows `2048·t … 2048·t + 2047` of the padded feature
matrix (window 0), the whole weight matrix (window 1, staged once, at the first point) and gives the body a
buffer for the same rows of the product (window 2). The body reads both staged operands whole, multiplies them
into a zero accumulator, and overwrites the whole output buffer; it keeps nothing between points. Everything
here is stated at the buffer contents `V` with which the region is entered. -/

section Region
variable (V : (c : Dev nD) → (b : Ref sig .tc) → Buf (Elt F) ((c : Thread nD τ).loc b))

/-! ## The windows' blocks -/

/-- The block of window `w` at grid point `t`: its array, as the region finds it, read through the window's
    rectangle at that point. -/
def iblk3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-- The row-block window holds its block at every point: it is fetched at each one, and the body leaves it as
    found. Stated for any proof data with `V`'s array and a body that keeps the block. -/
theorem held3_0 {c : Dev nD} (dat : Dat τ (Elt F) Unit ℕ (UR sig nD τ) ℕ cfg3 c)
    (hA : dat.A 0 = V c (Pipeline.arrRef spec3 0)) (hafter : ∀ t, dat.after 0 t = iblk3 V c 0 t)
    (t : Fin cfg3.N) (d) : dat.before 0 t d = iblk3 V c 0 t :=
  (dat.before_in_eq_fetched 0 rfl (fun _ => rfl) (fun _ _ _ => rfl)
      (fun t => by rw [hafter]; unfold Dat.blockOf iblk3; rw [hA]; try rfl) t d).trans
    (by unfold Dat.fetched Dat.blockOf iblk3; rw [hA]; try rfl)

/-- The weight window holds the whole weight matrix at every point although it is fetched at the first only:
    its block index never moves, so at a later point the buffer still holds the previous point's block, which
    is this point's. -/
theorem held3_1 {c : Dev nD} (dat : Dat τ (Elt F) Unit ℕ (UR sig nD τ) ℕ cfg3 c)
    (hA : dat.A 1 = V c (Pipeline.arrRef spec3 1)) (hafter : ∀ t, dat.after 1 t = iblk3 V c 1 t)
    (t : Fin cfg3.N) (d) : dat.before 1 t d = iblk3 V c 1 t :=
  (dat.before_in_eq_fetched 1 rfl (fun _ => rfl) (fun _ _ _ => rfl)
      (fun t => by rw [hafter]; unfold Dat.blockOf iblk3; rw [hA]; try rfl) t d).trans
    (by unfold Dat.fetched Dat.blockOf iblk3; rw [hA]; try rfl)

/-! ## The body's accesses: each staging buffer whole -/

abbrev rLhs3 : Rect S2048x16 := Rect.unit (s := S2048x16) ![0, 0] S2048x16.size inb_S2048x16_S2048x16_0_0
abbrev rRhs3 : Rect S16x64 := Rect.unit (s := S16x64) ![0, 0] S16x64.size inb_S16x64_S16x64_0_0
abbrev rOut3 : Rect S2048x64 := Rect.unit (s := S2048x64) ![0, 0] S2048x64.size inb_S2048x64_S2048x64_0_0

/-- The offsets of those rectangles are zero on both axes. -/
theorem zeroOff : (![0, 0] : Fin 2 → Nat) = fun _ => 0 := funext fun a => by fin_cases a <;> rfl

/-! ## What the body leaves in the output buffer -/

/-- The output buffer after the body, as a function of the two staged operands: its one store, through the
    whole-buffer rectangle, of the product payload of the two whole-buffer loads. -/
def out3_2 (x0 : Vec F S2048x16 .f32) (x1 : Vec F S16x64 .f32) : Vec F S2048x64 .f32 :=
  View.canon [⟨rOut3, k3_pay1 (View.ld x0 rLhs3) (View.ld x1 rRhs3)⟩]

/-- That one store covers the buffer: its rectangle is the whole shape. -/
theorem covers3_2 (p : Vec F S2048x64 .f32) (y : S2048x64.Idx) :
    ∃ pc ∈ ([⟨rOut3, p⟩] : List (View.Piece (Elt F) S2048x64 .f32)), y ∈ pc.1.set :=
  ⟨_, List.mem_singleton_self _, View.mem_set_unit_zero zeroOff inb_S2048x64_S2048x64_0_0 y⟩

/-! ## The body's triple -/

set_option maxHeartbeats 1000000 in
/-- On whole staging memrefs, the operands' at contents `x0`, `x1` and the output's at anything, the body runs to
    a continuation that holds the operands' as they were and the output's at `out3_2 x0 x1`. The body is its
    skeleton: three loads (the third, of the output buffer, is discarded) and one covering store. -/
theorem triple3 (c : Dev nD) (E : Set ℕ) (i : grid3.Coords)
    (arg1 : Memref sig .tc .vmem S2048x16 .f32) (harg1 : arg1.IsWhole)
    (arg2 : Memref sig .tc .vmem S16x64 .f32) (harg2 : arg2.IsWhole)
    (arg3 : Memref sig .tc .vmem S2048x64 .f32) (harg3 : arg3.IsWhole)
    (x0 : Vec F S2048x16 .f32) (x1 : Vec F S16x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E
          (cc3__dense_kernel i arg1 harg1 arg2 harg2 arg3 harg3) K := by
  simp only [cc3__dense_kernel_eq_skeleton]; unfold cc3__dense_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers3_2 _)

/-! ## The pipeline's proof data -/

/-- Pipeline 3's proof data on core `c`: the arrays as the region finds them; after the body at point `t` each
    operand's buffer still at its block and the output's at `out3_2` of the two blocks; the invariant is the
    scoped rest and the generator register, untouched; full shares; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = out3_2 (iblk3 V c 0 t) (iblk3 V c 1 t) := by dsimp only [dat3]

/-- Each operand's current staging buffer holds its block at every point. -/
theorem before3_0 (c : Dev nD) (t : Fin cfg3.N) (d) : (dat3 V c).before 0 t d = iblk3 V c 0 t :=
  held3_0 V (dat3 V c) (A_eq3 V c 0) (after3_0 V c) t d
theorem before3_1 (c : Dev nD) (t : Fin cfg3.N) (d) : (dat3 V c).before 1 t d = iblk3 V c 1 t :=
  held3_1 V (dat3 V c) (A_eq3 V c 1) (after3_1 V c) t d

/-! ## The body obligation -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the operands' memrefs hold their blocks, so the body's triple applies; the invariant
    and the core's tallies pass through unread. -/
theorem sound_body3 (c : Dev nD) (t : Fin cfg3.N) :
    bodyPre3 V c t ⊢ wp frame (wpE (defs₀ (F := F)) Variants.none c none) Set.univ (bodyAt3 t)
      (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (triple3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) :
    BodyObligation (dat3 (F := F) V c) (defs₀ (F := F)) Variants.none () Set.univ := fun t => by
  rw [bigSep_W3, bigSep_W3]
  exact sound_body3 V c t

end Region

end Cert.KernelIdeal.R3

end
-- ==== Proof.R4Sched.lean ====
/- The schedule of the gather region (grid [391, 49], point t ↔ (e, j) = (t / 49, t % 49), j the inner axis), at any
   admissible contents `a` of its two prefetched tables: the index maps do not read the tables, so each window's block
   index is a closed form in t, and with it which points fetch an input (src and norm: where j = 0; the node block:
   every point), which write the output back (where j = 48) and where the output is idle (where j ≠ 48). -/
import proofs.«417346_j54202487276072_2_alg».proof.Proof.Gen.KernelIdeal.Launch

noncomputable section

namespace Cert.KernelIdeal.R4

open Cert.KernelIdeal Cert.KernelIdeal.Gen
open Idealize.ShloMosaic Idealize.ShloMosaic.TcCoe
open Idealize.SL Idealize.SL.Sem

variable {F : FTy → Type} [FloatOps F]

/-! ## The coordinates of a point -/

theorem stride4_0 : grid4.stride 0 = 49 := by decide
theorem stride4_1 : grid4.stride 1 = 1 := by decide

/-- The outer coordinate (the edge tile) of point t is t / 49. -/
theorem coords4_0 (t : Fin grid4.N) : (grid4.coords t 0).val = t.val / 49 := by
  have h : t.val < 19159 := Nat.lt_of_lt_of_eq t.isLt N_4
  show t.val / grid4.stride 0 % 391 = _
  rw [stride4_0]; omega

/-- The inner coordinate (the node tile) of point t is t % 49. -/
theorem coords4_1 (t : Fin grid4.N) : (grid4.coords t 1).val = t.val % 49 := by
  show t.val / grid4.stride 1 % 49 = _
  rw [stride4_1, Nat.div_one]

theorem vec2_ne {x y : ℕ} : (![x, 0] : Fin 2 → ℕ) ≠ ![y, 0] ↔ x ≠ y :=
  ⟨fun h hxy => h (by rw [hxy]), fun h heq => h (congrFun heq 0)⟩
theorem vec1_ne {x y : ℕ} : (![x] : Fin 1 → ℕ) ≠ ![y] ↔ x ≠ y :=
  ⟨fun h hxy => h (by rw [hxy]), fun h heq => h (congrFun heq 0)⟩

variable (a : (pcfg4 (F := F)).Adm)

/-! ## The windows' block indices, in closed form -/

theorem idx4_0 (t : Fin (cfg4 a).N) : ((cfg4 a).win 0).index t = ![t.val / 49] := by
  have h : t.val < 19159 := Nat.lt_of_lt_of_eq t.isLt N_4
  show cc4_transform_0 (grid4.coords t) = _
  unfold cc4_transform_0
  simp only [BitVec.toNat_ofNat, coords4_0]
  rw [Nat.mod_eq_of_lt (by omega)]

theorem idx4_1 (t : Fin (cfg4 a).N) : ((cfg4 a).win 1).index t = ![t.val / 49] := by
  have h : t.val < 19159 := Nat.lt_of_lt_of_eq t.isLt N_4
  show cc4_transform_1 (grid4.coords t) = _
  unfold cc4_transform_1
  simp only [BitVec.toNat_ofNat, coords4_0]
  rw [Nat.mod_eq_of_lt (by omega)]

theorem idx4_2 (t : Fin (cfg4 a).N) : ((cfg4 a).win 2).index t = ![t.val % 49, 0] := by
  show cc4_transform_2 (grid4.coords t) = _
  unfold cc4_transform_2
  simp only [BitVec.toNat_ofNat, coords4_1]
  rw [Nat.mod_eq_of_lt (by omega)]

theorem idx4_3 (t : Fin (cfg4 a).N) : ((cfg4 a).win 3).index t = ![t.val / 49, 0] := by
  have h : t.val < 19159 := Nat.lt_of_lt_of_eq t.isLt N_4
  show cc4_transform_3 (grid4.coords t) = _
  unfold cc4_transform_3
  simp only [BitVec.toNat_ofNat, coords4_0]
  rw [Nat.mod_eq_of_lt (by omega)]

/-! ## Which points fetch, which write back -/

/-- The output block is written back exactly at the last node tile of each edge tile (j = 48). -/
theorem flush4_3 (t : Fin (cfg4 a).N) : ((cfg4 a).win 3).flush t = true ↔ t.val % 49 = 48 := by
  have hN : (pcfg4.gridAt a.1).N = 19159 := N_4
  have hN' : (cfg4 a).N = 19159 := N_4
  have hN'' : (cfg4 a).grid.N = 19159 := N_4
  have ht : t.val < 19159 := Nat.lt_of_lt_of_eq t.isLt N_4
  have key : ∀ (s s' : Fin (cfg4 a).N), ((cfg4 a).win 3).index s ≠ ((cfg4 a).win 3).index s' ↔ s.val / 49 ≠ s'.val / 49 :=
    fun s s' => by rw [idx4_3, idx4_3]; exact vec2_ne
  unfold Pipeline.Window.flush
  rw [show ((cfg4 a).win 3).isOut = true from rfl, Bool.true_and, Bool.or_eq_true, decide_eq_true_eq, decide_eq_true_eq]
  constructor
  · rintro (h | ⟨h, hne⟩)
    · omega
    · have h2 := (key _ _).mp hne
      dsimp only at h2
      omega
  · intro h
    by_cases hl : t.val + 1 = 19159
    · exact .inl (by omega)
    · exact .inr ⟨by omega, (key ⟨t.val + 1, by omega⟩ t).mpr (by dsimp only; omega)⟩

/-- The source-index block is fetched exactly at the first node tile of each edge tile (j = 0). -/
theorem fetch4_0 (t : Fin (cfg4 a).N) : ((cfg4 a).win 0).fetch t = true ↔ t.val % 49 = 0 := by
  have hN : (pcfg4.gridAt a.1).N = 19159 := N_4
  have hN' : (cfg4 a).N = 19159 := N_4
  have hN'' : (cfg4 a).grid.N = 19159 := N_4
  have ht : t.val < 19159 := Nat.lt_of_lt_of_eq t.isLt N_4
  have key : ∀ (s s' : Fin (cfg4 a).N), ((cfg4 a).win 0).index s ≠ ((cfg4 a).win 0).index s' ↔ s.val / 49 ≠ s'.val / 49 :=
    fun s s' => by rw [idx4_0, idx4_0]; exact vec1_ne
  unfold Pipeline.Window.fetch
  rw [show ((cfg4 a).win 0).isOut = false from rfl, Bool.not_false, Bool.true_and, Bool.or_eq_true, decide_eq_true_eq, decide_eq_true_eq]
  constructor
  · rintro (h | ⟨h, hne⟩)
    · omega
    · have h2 := (key _ _).mp hne
      dsimp only at h2
      omega
  · intro h
    by_cases hl : t.val = 0
    · exact .inl hl
    · exact .inr ⟨by omega, (key t ⟨t.val - 1, by omega⟩).mpr (by dsimp only; omega)⟩

/-- The edge-norm block likewise. -/
theorem fetch4_1 (t : Fin (cfg4 a).N) : ((cfg4 a).win 1).fetch t = true ↔ t.val % 49 = 0 := by
  have hN : (pcfg4.gridAt a.1).N = 19159 := N_4
  have hN' : (cfg4 a).N = 19159 := N_4
  have hN'' : (cfg4 a).grid.N = 19159 := N_4
  have ht : t.val < 19159 := Nat.lt_of_lt_of_eq t.isLt N_4
  have key : ∀ (s s' : Fin (cfg4 a).N), ((cfg4 a).win 1).index s ≠ ((cfg4 a).win 1).index s' ↔ s.val / 49 ≠ s'.val / 49 :=
    fun s s' => by rw [idx4_1, idx4_1]; exact vec1_ne
  unfold Pipeline.Window.fetch
  rw [show ((cfg4 a).win 1).isOut = false from rfl, Bool.not_false, Bool.true_and, Bool.or_eq_true, decide_eq_true_eq, decide_eq_true_eq]
  constructor
  · rintro (h | ⟨h, hne⟩)
    · omega
    · have h2 := (key _ _).mp hne
      dsimp only at h2
      omega
  · intro h
    by_cases hl : t.val = 0
    · exact .inl hl
    · exact .inr ⟨by omega, (key t ⟨t.val - 1, by omega⟩).mpr (by dsimp only; omega)⟩

/-- The node-feature block is fetched at every point (the node tile changes from each point to the next). -/
theorem fetch4_2 (t : Fin (cfg4 a).N) : ((cfg4 a).win 2).fetch t = true := by
  have hN : (pcfg4.gridAt a.1).N = 19159 := N_4
  have hN' : (cfg4 a).N = 19159 := N_4
  have hN'' : (cfg4 a).grid.N = 19159 := N_4
  have ht : t.val < 19159 := Nat.lt_of_lt_of_eq t.isLt N_4
  have key : ∀ (s s' : Fin (cfg4 a).N), ((cfg4 a).win 2).index s ≠ ((cfg4 a).win 2).index s' ↔ s.val % 49 ≠ s'.val % 49 :=
    fun s s' => by rw [idx4_2, idx4_2]; exact vec2_ne
  unfold Pipeline.Window.fetch
  rw [show ((cfg4 a).win 2).isOut = false from rfl, Bool.not_false, Bool.true_and, Bool.or_eq_true, decide_eq_true_eq, decide_eq_true_eq]
  by_cases hl : t.val = 0
  · exact .inl hl
  · exact .inr ⟨by omega, (key t ⟨t.val - 1, by omega⟩).mpr (by dsimp only; omega)⟩

/-! ## The body's guards on the inner coordinate -/

/-- The first guard (reset the accumulator) as the kernel computes it. -/
abbrev cond1 (i : grid4.Coords) : Prop :=
  Scalar.cmpi .ne (Scalar.extui (Scalar.cmpi .eq (BitVec.ofNat 32 (i 1).val) 0#32)) 0#32 = 1#1

theorem cond1_fin : ∀ j : Fin 49, (Scalar.cmpi .ne (Scalar.extui (Scalar.cmpi .eq (BitVec.ofNat 32 j.val) 0#32)) 0#32 = 1#1) ↔ j.val = 0 := by decide
theorem cond3_fin : ∀ j : Fin 49, (Scalar.cmpi .ne (Scalar.extui (Scalar.cmpi .eq (BitVec.ofNat 32 j.val) 48#32)) 0#32 = 1#1) ↔ j.val = 48 := by decide

/-- It holds exactly where the node tile is the first. -/
theorem cond1_iff (i : grid4.Coords) : cond1 i ↔ (i 1).val = 0 := cond1_fin (i 1)
/-- The third guard (store the output) holds exactly where the node tile is the last. -/
theorem k4_cond3_iff' (i : grid4.Coords) : k4_cond3 i = 1#1 ↔ (i 1).val = 48 := cond3_fin (i 1)
theorem k4_cond3_iff (t : Fin grid4.N) : k4_cond3 (grid4.coords t) = 1#1 ↔ t.val % 49 = 48 := by
  rw [← coords4_1]; exact cond3_fin (grid4.coords t 1)

/-- The output window is idle exactly where the third guard fails. -/
theorem idle4_3 (t : Fin (cfg4 a).N) : (cfg4 a).idle 3 (grid4.coords t) = true ↔ t.val % 49 ≠ 48 := by
  show (!(k4_cond3 (grid4.coords t) == 1#1)) = true ↔ _
  rw [Bool.not_eq_true', beq_eq_false_iff_ne, ne_eq, k4_cond3_iff]

theorem idle4_3_of (i : grid4.Coords) (h : ¬ k4_cond3 i = 1#1) : (cfg4 a).idle 3 i = true := by
  show (!(k4_cond3 i == 1#1)) = true
  rw [Bool.not_eq_true', beq_eq_false_iff_ne]; exact h
theorem live4_3_of (i : grid4.Coords) (h : k4_cond3 i = 1#1) : (cfg4 a).idle 3 i = false := by
  show (!(k4_cond3 i == 1#1)) = false
  rw [Bool.not_eq_false', beq_iff_eq]; exact h

/-- The inputs are never idle. -/
theorem live4_0 (i : grid4.Coords) : (cfg4 a).idle 0 i = false := rfl
theorem live4_1 (i : grid4.Coords) : (cfg4 a).idle 1 i = false := rfl
theorem live4_2 (i : grid4.Coords) : (cfg4 a).idle 2 i = false := rfl

/-- Where the output is idle it is not written back. -/
theorem noflush4_3 (t : Fin (cfg4 a).N) (h : ¬ k4_cond3 (grid4.coords t) = 1#1) : ((cfg4 a).win 3).flush t = false := by
  rw [Bool.eq_false_iff, ne_eq, flush4_3, ← k4_cond3_iff]; exact h

end Cert.KernelIdeal.R4

end
-- ==== Proof.R4Runs.lean ====
import proofs.«417346_j54202487276072_2_alg».proof.Proof.Gen.KernelIdeal.Launch
import proofs.«417346_j54202487276072_2_alg».proof.Proof.Gen.KernelIdeal.Skeleton
import proofs.«417346_j54202487276072_2_alg».proof.Proof.R4Sched
import Idealize.ShloMosaic.Lib.Pipeline.FrameBody
import Idealize.ShloMosaic.Lib.Pipeline.Value
import Idealize.ShloMosaic.Lib.Tactic

set_option maxRecDepth 16384

noncomputable section

namespace Cert.KernelIdeal.R4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## The tables as the body is handed them; the step's condition -/

abbrev tbMin4 : Memref sig .tc .smem S391 .i32 := Memref.whole main_v68
abbrev htbMin4 : (tbMin4).IsWhole := Memref.isWhole_whole _
abbrev tbMax4 : Memref sig .tc .smem S391 .i32 := Memref.whole main_v70
abbrev htbMax4 : (tbMax4).IsWhole := Memref.isWhole_whole _

/-- A table's buffer contents on core `c`, and the table held whole at them. -/
abbrev TbBuf4 (c : Dev nD) (M : Memref sig .tc .smem S391 .i32) : Type := Buf (Elt F) (M.view.loc (c : Thread nD τ))
abbrev tbPt4 (c : Dev nD) (M : Memref sig .tc .smem S391 .i32) (f : TbBuf4 (F := F) c M) : sProp 𝕄 :=
  M.view.loc (c : Thread nD τ) ↦{fullShare} f

/-- The word of table `M` the body loads at point `i` (the entry of the point's edge tile), over contents `f`. -/
abbrev wd4 (M : Memref sig .tc .smem S391 .i32) (f : M.view.ty.Contents (Elt F)) (i : grid4.Coords) : Elt F .i32 :=
  M.view.readAt (Elt F) (Rect.unit (s := S391) (k4_off1 i) S1.size (k4_off1_inb i)).toLoadRect f (Shape.Idx.first (numel1_S1.symm ▸ Nat.one_pos))

/-- The condition of the accumulation step as the body computes it: the node tile `[2048 i₁, 2048 i₁ + 2048)` meets
    the range `[mn, mx]` of sources in the edge tile (signed comparisons on the two table words). -/
def k4_act (i : grid4.Coords) (mx mn : Elt F .i32) : BitVec 1 :=
  let arg1 : BitVec 32 := BitVec.ofNat 32 (i 1).val
  let v3 : BitVec 32 := Scalar.muli arg1 2048#32
  let v4 : BitVec 32 := Scalar.addi v3 2048#32
  let v7 : BitVec 1 := Scalar.cmpi .sle v3 mx
  let v10 : BitVec 1 := Scalar.cmpi .sgt v4 mn
  let v11 : BitVec 1 := Scalar.andi v7 v10
  let v12 : BitVec 32 := Scalar.extui v11
  Scalar.cmpi .ne v12 0#32

/-! ## Whole-buffer loads and stores -/

theorem z1 : (![0] : Fin 1 → Nat) = fun _ => 0 := by funext a; fin_cases a; rfl
theorem z2 : (![0, 0] : Fin 2 → Nat) = fun _ => 0 := by funext a; fin_cases a <;> rfl

/-- A load through the whole-shape rectangle at zero offsets reads the memref's contents. -/
theorem rdU (S : Shape) {e : EltTy} {κ : Kind} {sp : Space} (v : View sig κ sp S e) {off : Fin S.rank → Nat} (h : off = fun _ => 0)
    (inb : ∀ a, off a + S.size a ≤ S.size a) (f : v.ty.Contents (Elt F)) :
    v.readAt (Elt F) (Rect.unit off S.size inb).toLoadRect f = v.read (Elt F) f :=
  View.ld_unit_zero h inb _

/-- Every index lies in the whole-shape rectangle: a list of stores headed by one through it covers the buffer. -/
theorem covU (S : Shape) {e : EltTy} {off : Fin S.rank → Nat} (h : off = fun _ => 0) (inb : ∀ a, off a + S.size a ≤ S.size a)
    (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons.mpr (Or.inl rfl), View.mem_set_unit_zero h inb y⟩

/-- A load through it of what the run's stores left, the last of them through it, reads that store's payload. -/
theorem rcU (S : Shape) {e : EltTy} {κ : Kind} {sp : Space} (v : View sig κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (covU S h inb w L), View.canon_cons_unit_zero h, View.ld_unit_zero h]

/-- The buffer read back after the run's stores, the last of them through the whole-shape rectangle: its payload. -/
theorem rwU (S : Shape) {e : EltTy} {κ : Kind} {sp : Space} (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (covU S h inb w L), View.canon_cons_unit_zero h]

/-- The inputs' staging memrefs at their blocks and the two tables at their contents: what every case of the body
    is handed and hands back untouched. -/
def kin4 (c : Dev nD) (arg4 : Memref sig .tc .vmem S4096 .i32) (arg5 : Memref sig .tc .vmem S4096 .f32)
    (arg6 : Memref sig .tc .vmem S2048x64 .f32)
    (x0 : Vec F S4096 .i32) (x1 : Vec F S4096 .f32) (x2 : Vec F S2048x64 .f32)
    (xt0 : TbBuf4 (F := F) c tbMin4) (xt1 : TbBuf4 (F := F) c tbMax4) : sProp 𝕄 :=
  iprop(owns (c : Thread nD τ) arg4 fullShare x0 ∗ owns (c : Thread nD τ) arg5 fullShare x1 ∗ owns (c : Thread nD τ) arg6 fullShare x2
    ∗ tbPt4 c tbMin4 xt0 ∗ tbPt4 c tbMax4 xt1)

/-! ## The body, case by case

The body has three conditionals: on the point's node tile being the first (the scratch is reset to zero), on the two
table words (the accumulation step), on the node tile being the last (the output block is stored). First and last
exclude each other on this grid, which leaves six cases. In each the printed function is its skeleton, run
operation by operation; every load and store is through a whole staging memref. The tables' words are never
evaluated: the case's hypothesis on them decides the middle conditional. -/

set_option maxHeartbeats 1000000 in
/-- First node tile, step taken: the scratch ends at the step applied to zero; the output's buffer is untouched. -/
theorem run4_FA (c : Dev nD) (i : grid4.Coords)
    (arg4 : Memref sig .tc .vmem S4096 .i32) (harg4 : arg4.IsWhole) (arg5 : Memref sig .tc .vmem S4096 .f32) (harg5 : arg5.IsWhole)
    (arg6 : Memref sig .tc .vmem S2048x64 .f32) (harg6 : arg6.IsWhole) (arg7 : Memref sig .tc .vmem S4096x64 .f32) (harg7 : arg7.IsWhole)
    (arg8 : Memref sig .tc .vmem S4096x64 .f32) (harg8 : arg8.IsWhole)
    (x0 : Vec F S4096 .i32) (x1 : Vec F S4096 .f32) (x2 : Vec F S2048x64 .f32)
    (xt0 : TbBuf4 (F := F) c tbMin4) (xt1 : TbBuf4 (F := F) c tbMax4)
    (hc1 : cond1 i) (hc2 : k4_act (F := F) i (wd4 tbMax4 xt1 i) (wd4 tbMin4 xt0 i) = 1#1) (hc3 : ¬ k4_cond3 i = 1#1)
    (xo : Vec F S4096x64 .f32) (E : Set ℕ) (K : PUnit → sProp 𝕄) :
    iprop(kin4 c arg4 arg5 arg6 x0 x1 x2 xt0 xt1
        ∗ (∃ d, owns (c : Thread nD τ) arg8 fullShare d) ∗ owns (c : Thread nD τ) arg7 fullShare xo
        ∗ (iprop(kin4 c arg4 arg5 arg6 x0 x1 x2 xt0 xt1
            ∗ owns (c : Thread nD τ) arg8 fullShare (k4_pay2 i x0 (k4_pay1 (F := F)) x2) ∗ owns (c : Thread nD τ) arg7 fullShare xo) -∗ K ⟨⟩))
      ⊢ wp frame (wpE (defs₀ (F := F)) Variants.none c none) E
          (cc4__gather_kernel i tbMin4 htbMin4 tbMax4 htbMax4 arg4 harg4 arg5 harg5 arg6 harg6 arg7 harg7 arg8 harg8) K := by
  simp only [cc4__gather_kernel_eq_skeleton]; unfold cc4__gather_kernel_skel
  unfold kin4 owns
  iintro ⟨⟨⟨%f0, %hf0, H0⟩, ⟨%f1, %hf1, H1⟩, ⟨%f2, %hf2, H2⟩, HT0, HT1⟩, ⟨%ds, %fs, -, HS⟩, ⟨%f9, %hf9, H9⟩, Hk⟩
  subst hf0 hf1 hf2 hf9
  sl_exec (disch := first | sl_exact hc1 | sl_exact hc2 | sl_exact hc3)
  sl_step
  iapply Hk
  isplitl [H0 H1 H2 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [HT0]; · iexact HT0
    iexact HT1
  isplitl [HS]
  · iexists _; isplitr; swap; · iexact HS
    ipureintro
    -- the second store's payload read the first store's back
    rw [rwU S4096x64 _ _ z2]
    unfold run4_FA.sl.v29 run4_FA.sl.HS_1
    simp only [rcU S4096x64 _ z2, rdU S4096 _ z1, rdU S2048x64 _ z2]
  iexists f9; isplitr; · ipureintro; rfl
  iexact H9

set_option maxHeartbeats 1000000 in
/-- First node tile, step skipped: the scratch ends at zero; the output's buffer is untouched. -/
theorem run4_FI (c : Dev nD) (i : grid4.Coords)
    (arg4 : Memref sig .tc .vmem S4096 .i32) (harg4 : arg4.IsWhole) (arg5 : Memref sig .tc .vmem S4096 .f32) (harg5 : arg5.IsWhole)
    (arg6 : Memref sig .tc .vmem S2048x64 .f32) (harg6 : arg6.IsWhole) (arg7 : Memref sig .tc .vmem S4096x64 .f32) (harg7 : arg7.IsWhole)
    (arg8 : Memref sig .tc .vmem S4096x64 .f32) (harg8 : arg8.IsWhole)
    (x0 : Vec F S4096 .i32) (x1 : Vec F S4096 .f32) (x2 : Vec F S2048x64 .f32)
    (xt0 : TbBuf4 (F := F) c tbMin4) (xt1 : TbBuf4 (F := F) c tbMax4)
    (hc1 : cond1 i) (hc2 : ¬ k4_act (F := F) i (wd4 tbMax4 xt1 i) (wd4 tbMin4 xt0 i) = 1#1) (hc3 : ¬ k4_cond3 i = 1#1)
    (xo : Vec F S4096x64 .f32) (E : Set ℕ) (K : PUnit → sProp 𝕄) :
    iprop(kin4 c arg4 arg5 arg6 x0 x1 x2 xt0 xt1
        ∗ (∃ d, owns (c : Thread nD τ) arg8 fullShare d) ∗ owns (c : Thread nD τ) arg7 fullShare xo
        ∗ (iprop(kin4 c arg4 arg5 arg6 x0 x1 x2 xt0 xt1
            ∗ owns (c : Thread nD τ) arg8 fullShare (k4_pay1 (F := F)) ∗ owns (c : Thread nD τ) arg7 fullShare xo) -∗ K ⟨⟩))
      ⊢ wp frame (wpE (defs₀ (F := F)) Variants.none c none) E
          (cc4__gather_kernel i tbMin4 htbMin4 tbMax4 htbMax4 arg4 harg4 arg5 harg5 arg6 harg6 arg7 harg7 arg8 harg8) K := by
  simp only [cc4__gather_kernel_eq_skeleton]; unfold cc4__gather_kernel_skel
  unfold kin4 owns
  iintro ⟨⟨⟨%f0, %hf0, H0⟩, ⟨%f1, %hf1, H1⟩, ⟨%f2, %hf2, H2⟩, HT0, HT1⟩, ⟨%ds, %fs, -, HS⟩, ⟨%f9, %hf9, H9⟩, Hk⟩
  subst hf0 hf1 hf2 hf9
  sl_exec (disch := first | sl_exact hc1 | sl_exact hc2 | sl_exact hc3)
  sl_step
  iapply Hk
  isplitl [H0 H1 H2 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [HT0]; · iexact HT0
    iexact HT1
  isplitl [HS]
  · iexists _; isplitr; swap; · iexact HS
    ipureintro
    rw [rwU S4096x64 _ _ z2]
  iexists f9; isplitr; · ipureintro; rfl
  iexact H9

set_option maxHeartbeats 1000000 in
/-- A middle node tile, step taken: the scratch ends at the step applied to what it held; the output's buffer is
    untouched. -/
theorem run4_MA (c : Dev nD) (i : grid4.Coords)
    (arg4 : Memref sig .tc .vmem S4096 .i32) (harg4 : arg4.IsWhole) (arg5 : Memref sig .tc .vmem S4096 .f32) (harg5 : arg5.IsWhole)
    (arg6 : Memref sig .tc .vmem S2048x64 .f32) (harg6 : arg6.IsWhole) (arg7 : Memref sig .tc .vmem S4096x64 .f32) (harg7 : arg7.IsWhole)
    (arg8 : Memref sig .tc .vmem S4096x64 .f32) (harg8 : arg8.IsWhole)
    (x0 : Vec F S4096 .i32) (x1 : Vec F S4096 .f32) (x2 : Vec F S2048x64 .f32)
    (xt0 : TbBuf4 (F := F) c tbMin4) (xt1 : TbBuf4 (F := F) c tbMax4)
    (hc1 : ¬ cond1 i) (hc2 : k4_act (F := F) i (wd4 tbMax4 xt1 i) (wd4 tbMin4 xt0 i) = 1#1) (hc3 : ¬ k4_cond3 i = 1#1)
    (xs xo : Vec F S4096x64 .f32) (E : Set ℕ) (K : PUnit → sProp 𝕄) :
    iprop(kin4 c arg4 arg5 arg6 x0 x1 x2 xt0 xt1
        ∗ owns (c : Thread nD τ) arg8 fullShare xs ∗ owns (c : Thread nD τ) arg7 fullShare xo
        ∗ (iprop(kin4 c arg4 arg5 arg6 x0 x1 x2 xt0 xt1
            ∗ owns (c : Thread nD τ) arg8 fullShare (k4_pay2 i x0 xs x2) ∗ owns (c : Thread nD τ) arg7 fullShare xo) -∗ K ⟨⟩))
      ⊢ wp frame (wpE (defs₀ (F := F)) Variants.none c none) E
          (cc4__gather_kernel i tbMin4 htbMin4 tbMax4 htbMax4 arg4 harg4 arg5 harg5 arg6 harg6 arg7 harg7 arg8 harg8) K := by
  simp only [cc4__gather_kernel_eq_skeleton]; unfold cc4__gather_kernel_skel
  unfold kin4 owns
  iintro ⟨⟨⟨%f0, %hf0, H0⟩, ⟨%f1, %hf1, H1⟩, ⟨%f2, %hf2, H2⟩, HT0, HT1⟩, ⟨%fs, %hfs, HS⟩, ⟨%f9, %hf9, H9⟩, Hk⟩
  subst hf0 hf1 hf2 hfs hf9
  sl_exec (disch := first | sl_exact hc1 | sl_exact hc2 | sl_exact hc3)
  sl_step
  iapply Hk
  isplitl [H0 H1 H2 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [HT0]; · iexact HT0
    iexact HT1
  isplitl [HS]
  · iexists _; isplitr; swap; · iexact HS
    ipureintro
    rw [rwU S4096x64 _ _ z2]
    simp only [rdU S4096 _ z1, rdU S4096x64 _ z2, rdU S2048x64 _ z2]
  iexists f9; isplitr; · ipureintro; rfl
  iexact H9

set_option maxHeartbeats 1000000 in
/-- A middle node tile, step skipped: nothing is stored. -/
theorem run4_MI (c : Dev nD) (i : grid4.Coords)
    (arg4 : Memref sig .tc .vmem S4096 .i32) (harg4 : arg4.IsWhole) (arg5 : Memref sig .tc .vmem S4096 .f32) (harg5 : arg5.IsWhole)
    (arg6 : Memref sig .tc .vmem S2048x64 .f32) (harg6 : arg6.IsWhole) (arg7 : Memref sig .tc .vmem S4096x64 .f32) (harg7 : arg7.IsWhole)
    (arg8 : Memref sig .tc .vmem S4096x64 .f32) (harg8 : arg8.IsWhole)
    (x0 : Vec F S4096 .i32) (x1 : Vec F S4096 .f32) (x2 : Vec F S2048x64 .f32)
    (xt0 : TbBuf4 (F := F) c tbMin4) (xt1 : TbBuf4 (F := F) c tbMax4)
    (hc1 : ¬ cond1 i) (hc2 : ¬ k4_act (F := F) i (wd4 tbMax4 xt1 i) (wd4 tbMin4 xt0 i) = 1#1) (hc3 : ¬ k4_cond3 i = 1#1)
    (xs xo : Vec F S4096x64 .f32) (E : Set ℕ) (K : PUnit → sProp 𝕄) :
    iprop(kin4 c arg4 arg5 arg6 x0 x1 x2 xt0 xt1
        ∗ owns (c : Thread nD τ) arg8 fullShare xs ∗ owns (c : Thread nD τ) arg7 fullShare xo
        ∗ (iprop(kin4 c arg4 arg5 arg6 x0 x1 x2 xt0 xt1
            ∗ owns (c : Thread nD τ) arg8 fullShare xs ∗ owns (c : Thread nD τ) arg7 fullShare xo) -∗ K ⟨⟩))
      ⊢ wp frame (wpE (defs₀ (F := F)) Variants.none c none) E
          (cc4__gather_kernel i tbMin4 htbMin4 tbMax4 htbMax4 arg4 harg4 arg5 harg5 arg6 harg6 arg7 harg7 arg8 harg8) K := by
  simp only [cc4__gather_kernel_eq_skeleton]; unfold cc4__gather_kernel_skel
  unfold kin4 owns
  iintro ⟨⟨⟨%f0, %hf0, H0⟩, ⟨%f1, %hf1, H1⟩, ⟨%f2, %hf2, H2⟩, HT0, HT1⟩, ⟨%fs, %hfs, HS⟩, ⟨%f9, %hf9, H9⟩, Hk⟩
  subst hf0 hf1 hf2 hfs hf9
  sl_exec (disch := first | sl_exact hc1 | sl_exact hc2 | sl_exact hc3)
  sl_step
  iapply Hk
  isplitl [H0 H1 H2 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [HT0]; · iexact HT0
    iexact HT1
  isplitl [HS]
  · iexists fs; isplitr; · ipureintro; rfl
    iexact HS
  iexists f9; isplitr; · ipureintro; rfl
  iexact H9

set_option maxHeartbeats 1000000 in
/-- Last node tile, step taken: the scratch ends at the step applied to what it held, and the output's buffer at
    that scaled by the edge norms. -/
theorem run4_LA (c : Dev nD) (i : grid4.Coords)
    (arg4 : Memref sig .tc .vmem S4096 .i32) (harg4 : arg4.IsWhole) (arg5 : Memref sig .tc .vmem S4096 .f32) (harg5 : arg5.IsWhole)
    (arg6 : Memref sig .tc .vmem S2048x64 .f32) (harg6 : arg6.IsWhole) (arg7 : Memref sig .tc .vmem S4096x64 .f32) (harg7 : arg7.IsWhole)
    (arg8 : Memref sig .tc .vmem S4096x64 .f32) (harg8 : arg8.IsWhole)
    (x0 : Vec F S4096 .i32) (x1 : Vec F S4096 .f32) (x2 : Vec F S2048x64 .f32)
    (xt0 : TbBuf4 (F := F) c tbMin4) (xt1 : TbBuf4 (F := F) c tbMax4)
    (hc1 : ¬ cond1 i) (hc2 : k4_act (F := F) i (wd4 tbMax4 xt1 i) (wd4 tbMin4 xt0 i) = 1#1) (hc3 : k4_cond3 i = 1#1)
    (xs : Vec F S4096x64 .f32) (E : Set ℕ) (K : PUnit → sProp 𝕄) :
    iprop(kin4 c arg4 arg5 arg6 x0 x1 x2 xt0 xt1
        ∗ owns (c : Thread nD τ) arg8 fullShare xs ∗ (∃ d, owns (c : Thread nD τ) arg7 fullShare d)
        ∗ (iprop(kin4 c arg4 arg5 arg6 x0 x1 x2 xt0 xt1
            ∗ owns (c : Thread nD τ) arg8 fullShare (k4_pay2 i x0 xs x2)
            ∗ owns (c : Thread nD τ) arg7 fullShare (k4_pay3 x1 (k4_pay2 i x0 xs x2))) -∗ K ⟨⟩))
      ⊢ wp frame (wpE (defs₀ (F := F)) Variants.none c none) E
          (cc4__gather_kernel i tbMin4 htbMin4 tbMax4 htbMax4 arg4 harg4 arg5 harg5 arg6 harg6 arg7 harg7 arg8 harg8) K := by
  simp only [cc4__gather_kernel_eq_skeleton]; unfold cc4__gather_kernel_skel
  unfold kin4 owns
  iintro ⟨⟨⟨%f0, %hf0, H0⟩, ⟨%f1, %hf1, H1⟩, ⟨%f2, %hf2, H2⟩, HT0, HT1⟩, ⟨%fs, %hfs, HS⟩, ⟨%d9, %f9, -, H9⟩, Hk⟩
  subst hf0 hf1 hf2 hfs
  sl_exec (disch := first | sl_exact hc1 | sl_exact hc2 | sl_exact hc3)
  sl_step
  iapply Hk
  isplitl [H0 H1 H2 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [HT0]; · iexact HT0
    iexact HT1
  isplitl [HS]
  · iexists _; isplitr; swap; · iexact HS
    ipureintro
    unfold run4_LA.sl.HS_1
    rw [rwU S4096x64 _ _ z2]
    simp only [rdU S4096 _ z1, rdU S4096x64 _ z2, rdU S2048x64 _ z2]
  iexists _; isplitr; swap; · iexact H9
  ipureintro
  -- the last conditional's load read the step's store back
  rw [rwU S4096x64 _ _ z2]
  unfold run4_LA.sl.v20 run4_LA.sl.HS_1
  simp only [rcU S4096x64 _ z2, rdU S4096 _ z1, rdU S4096x64 _ z2, rdU S2048x64 _ z2]

set_option maxHeartbeats 1000000 in
/-- Last node tile, step skipped: the scratch keeps what it held, and the output's buffer ends at that scaled by the
    edge norms. -/
theorem run4_LI (c : Dev nD) (i : grid4.Coords)
    (arg4 : Memref sig .tc .vmem S4096 .i32) (harg4 : arg4.IsWhole) (arg5 : Memref sig .tc .vmem S4096 .f32) (harg5 : arg5.IsWhole)
    (arg6 : Memref sig .tc .vmem S2048x64 .f32) (harg6 : arg6.IsWhole) (arg7 : Memref sig .tc .vmem S4096x64 .f32) (harg7 : arg7.IsWhole)
    (arg8 : Memref sig .tc .vmem S4096x64 .f32) (harg8 : arg8.IsWhole)
    (x0 : Vec F S4096 .i32) (x1 : Vec F S4096 .f32) (x2 : Vec F S2048x64 .f32)
    (xt0 : TbBuf4 (F := F) c tbMin4) (xt1 : TbBuf4 (F := F) c tbMax4)
    (hc1 : ¬ cond1 i) (hc2 : ¬ k4_act (F := F) i (wd4 tbMax4 xt1 i) (wd4 tbMin4 xt0 i) = 1#1) (hc3 : k4_cond3 i = 1#1)
    (xs : Vec F S4096x64 .f32) (E : Set ℕ) (K : PUnit → sProp 𝕄) :
    iprop(kin4 c arg4 arg5 arg6 x0 x1 x2 xt0 xt1
        ∗ owns (c : Thread nD τ) arg8 fullShare xs ∗ (∃ d, owns (c : Thread nD τ) arg7 fullShare d)
        ∗ (iprop(kin4 c arg4 arg5 arg6 x0 x1 x2 xt0 xt1
            ∗ owns (c : Thread nD τ) arg8 fullShare xs ∗ owns (c : Thread nD τ) arg7 fullShare (k4_pay3 x1 xs)) -∗ K ⟨⟩))
      ⊢ wp frame (wpE (defs₀ (F := F)) Variants.none c none) E
          (cc4__gather_kernel i tbMin4 htbMin4 tbMax4 htbMax4 arg4 harg4 arg5 harg5 arg6 harg6 arg7 harg7 arg8 harg8) K := by
  simp only [cc4__gather_kernel_eq_skeleton]; unfold cc4__gather_kernel_skel
  unfold kin4 owns
  iintro ⟨⟨⟨%f0, %hf0, H0⟩, ⟨%f1, %hf1, H1⟩, ⟨%f2, %hf2, H2⟩, HT0, HT1⟩, ⟨%fs, %hfs, HS⟩, ⟨%d9, %f9, -, H9⟩, Hk⟩
  subst hf0 hf1 hf2 hfs
  sl_exec (disch := first | sl_exact hc1 | sl_exact hc2 | sl_exact hc3)
  sl_step
  iapply Hk
  isplitl [H0 H1 H2 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [HT0]; · iexact HT0
    iexact HT1
  isplitl [HS]
  · iexists fs; isplitr; · ipureintro; rfl
    iexact HS
  iexists _; isplitr; swap; · iexact H9
  ipureintro
  rw [rwU S4096x64 _ _ z2]
  simp only [rdU S4096 _ z1, rdU S4096x64 _ z2]

end Cert.KernelIdeal.R4

end
-- ==== Proof.R4Frame.lean ====
import proofs.«417346_j54202487276072_2_alg».proof.Proof.R4Sched
import proofs.«417346_j54202487276072_2_alg».proof.Proof.R4Runs
import Idealize.ShloMosaic.Lib.Pipeline.FrameBody
import Idealize.ShloMosaic.Lib.Pipeline.Frame

set_option maxRecDepth 16384

noncomputable section

namespace Cert.KernelIdeal.R4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

-- the buffer contents when the region is entered, and the admissible tables: both parameters, never evaluated
variable (V : (c : Dev nD) → (b : Ref sig .tc) → Buf (Elt F) ((c : Thread nD τ).loc b)) (a : (pcfg4 (F := F)).Adm)

/-! # The gather region (custom_call 1) at entry contents `V` and tables `a`

The scratch carries, along each edge tile's run of node tiles, the sum over the node tiles whose range meets the
edge tile's sources of the rows gathered there; the output block is the scratch scaled by the edge norms at the
last node tile. -/

/-! ## The windows' blocks and the table words -/

/-- Window `w`'s block at point `t`, read off its array as the region finds it. -/
def iblk4 (c : Dev nD) (w : Fin (cfg4 a).W) (t : Fin (cfg4 a).N) : (((cfg4 a).win w).xblock ((cfg4 a).grid.coords t)).Idx → Elt F ((cfg4 a).win w).elt :=
  (((cfg4 a).win w).blk t).view.read (Elt F) (V c (Pipeline.arrRef spec4 w))

/-- The three input blocks at their vector types (no window is cut: a block's shape is its window's). -/
abbrev srcB (c : Dev nD) (t : Fin (cfg4 a).N) : Vec F S4096 .i32 := iblk4 V a c 0 t
abbrev normB (c : Dev nD) (t : Fin (cfg4 a).N) : Vec F S4096 .f32 := iblk4 V a c 1 t
abbrev hwB (c : Dev nD) (t : Fin (cfg4 a).N) : Vec F S2048x64 .f32 := iblk4 V a c 2 t

/-- The two table words the body loads at point `i`: the least and the greatest source in the edge tile. -/
abbrev wMin4 (i : grid4.Coords) : Elt F .i32 := wd4 tbMin4 (a.1 0) i
abbrev wMax4 (i : grid4.Coords) : Elt F .i32 := wd4 tbMax4 (a.1 1) i

/-- The accumulation step is taken at point `i`. -/
abbrev act4 (i : grid4.Coords) : Prop := k4_act (F := F) i (wMax4 a i) (wMin4 a i) = 1#1

/-! ## The scratch, point by point -/

/-- One point's effect on the scratch from what it held (`prev`): reset to zero at the first node tile, then the
    step if its condition holds. -/
def step4 (i : grid4.Coords) (prev : Vec F S4096x64 .f32) (src : Vec F S4096 .i32) (hw : Vec F S2048x64 .f32) : Vec F S4096x64 .f32 :=
  if act4 a i then k4_pay2 i src (if (i 1).val = 0 then k4_pay1 (F := F) else prev) hw
  else (if (i 1).val = 0 then k4_pay1 (F := F) else prev)

/-- What the scratch holds after the body at point `n`. -/
def accAt4 (c : Dev nD) : (n : ℕ) → n < (cfg4 a).N → Vec F S4096x64 .f32
  | 0, h => step4 a (grid4.coords ⟨0, h⟩) (k4_pay1 (F := F)) (srcB V a c ⟨0, h⟩) (hwB V a c ⟨0, h⟩)
  | n + 1, h => step4 a (grid4.coords ⟨n + 1, h⟩) (accAt4 c n (Nat.lt_of_succ_lt h)) (srcB V a c ⟨n + 1, h⟩) (hwB V a c ⟨n + 1, h⟩)

/-- At a first node tile the scratch restarts from zero. -/
theorem accAt4_first (c : Dev nD) (t : Fin (cfg4 a).N) (hk : (grid4.coords t 1).val = 0) :
    accAt4 V a c t.val t.isLt
      = if act4 a (grid4.coords t) then k4_pay2 (grid4.coords t) (srcB V a c t) (k4_pay1 (F := F)) (hwB V a c t)
        else k4_pay1 (F := F) := by
  obtain ⟨n, hn⟩ := t
  cases n with
  | zero => show step4 a _ _ _ _ = _; unfold step4; simp only [if_pos hk]
  | succ n => show step4 a _ _ _ _ = _; unfold step4; simp only [if_pos hk]

/-- At a later node tile it continues from the point before. -/
theorem accAt4_next (c : Dev nD) (t : Fin (cfg4 a).N) (hk : (grid4.coords t 1).val ≠ 0) :
    accAt4 V a c t.val t.isLt
      = if act4 a (grid4.coords t)
        then k4_pay2 (grid4.coords t) (srcB V a c t) (accAt4 V a c (t.val - 1) (Nat.lt_of_le_of_lt (Nat.sub_le _ _) t.isLt)) (hwB V a c t)
        else accAt4 V a c (t.val - 1) (Nat.lt_of_le_of_lt (Nat.sub_le _ _) t.isLt) := by
  obtain ⟨n, hn⟩ := t
  cases n with
  | zero => exact absurd (by rw [coords4_1]; rfl) hk
  | succ n => show step4 a _ _ _ _ = _; unfold step4; simp only [if_neg hk]; rfl

/-! ## The invariant between points -/

/-- The kernel's scratch operand: a whole scoped buffer of its own. -/
abbrev scM4 : Memref sig .tc .vmem S4096x64 .f32 := Memref.whole cc4_scratch0

/-- The scratch before point `n`: at anything before the first point, else at what the point before left. -/
def scr4 (c : Dev nD) : (n : ℕ) → n < (cfg4 a).N + 1 → sProp 𝕄
  | 0, _ => iprop(∃ d, owns (c : Thread nD τ) scM4 fullShare d)
  | n + 1, h => owns (c : Thread nD τ) scM4 fullShare (accAt4 V a c n (Nat.lt_of_succ_lt_succ h))

/-- The region's invariant before point `t`: the tables held whole at their contents, the scratch, the other scoped
    buffers unopened, the generator register at some state. -/
def Φ1 (c : Dev nD) (t : Fin ((cfg4 a).N + 1)) : sProp 𝕄 :=
  iprop(Pipeline.prefHeld (Ix := Unit) (Name := ℕ) (U := UR sig nD τ) (Lvl := ℕ) pre4 c (fun _ => fullShare) a.1
    ∗ scr4 V a c t.val t.isLt
    ∗ Pipeline.scopedRestBut (Ix := Unit) (Name := ℕ) (U := UR sig nD τ) (Lvl := ℕ) (Val := Elt F) spec4 c [cc4_scratch0]
    ∗ ∃ r, prngReg c r)

theorem scr4_ex (c : Dev nD) (n : ℕ) (h : n < (cfg4 a).N + 1) :
    scr4 V a c n h ⊢ (iprop(∃ d, owns (c : Thread nD τ) scM4 fullShare d) : sProp 𝕄) := by
  cases n with
  | zero => exact .rfl
  | succ n => show owns _ _ _ _ ⊢ _; iintro H; iexists _; iexact H

theorem scr4_pos (c : Dev nD) (n : ℕ) (h : n < (cfg4 a).N + 1) (hn : n ≠ 0) :
    scr4 V a c n h = owns (c : Thread nD τ) scM4 fullShare (accAt4 V a c (n - 1) (by omega)) := by
  cases n with
  | zero => exact absurd rfl hn
  | succ m => rfl

/-! ## The proof data -/

/-- The proof data of pipeline 4 on core `c`: the arrays as the region finds them; after the body each input's
    buffer at its block, the output's at the scratch scaled by the edge norms (consulted only where the block is
    written back: at the last node tile); the invariant `Φ1`; nothing owed; full shares. -/
def dat4 (c : Dev nD) : Dat τ (Elt F) Unit ℕ (UR sig nD τ) ℕ (cfg4 a) c where
  A w := V c (Pipeline.arrRef spec4 w)
  after w t := match w with
    | ⟨0, _⟩ => iblk4 V a c 0 t
    | ⟨1, _⟩ => iblk4 V a c 1 t
    | ⟨2, _⟩ => iblk4 V a c 2 t
    | ⟨3, _⟩ => k4_pay3 (normB V a c t) (accAt4 V a c t.val t.isLt)
  Φ t := Φ1 V a c t
  q _ := fullShare
  owed _ := 0

theorem A_eq4 (c : Dev nD) (w : Fin (cfg4 a).W) : (dat4 V a c).A w = V c (Pipeline.arrRef spec4 w) := by
  dsimp only [dat4]

theorem after4_0 (c : Dev nD) (t : Fin (cfg4 a).N) : (dat4 V a c).after 0 t = iblk4 V a c 0 t := by dsimp only [dat4]; rfl
theorem after4_1 (c : Dev nD) (t : Fin (cfg4 a).N) : (dat4 V a c).after 1 t = iblk4 V a c 1 t := by dsimp only [dat4]; rfl
theorem after4_2 (c : Dev nD) (t : Fin (cfg4 a).N) : (dat4 V a c).after 2 t = iblk4 V a c 2 t := by dsimp only [dat4]; rfl
/-- The output's buffer after the body: the scratch scaled by the edge norms (what the write-back writes at the last node tile). -/
theorem after4_3 (c : Dev nD) (t : Fin (cfg4 a).N) :
    (dat4 V a c).after 3 t = k4_pay3 (normB V a c t) (accAt4 V a c t.val t.isLt) := by dsimp only [dat4]; rfl

/-- Each input's current staging buffer holds its block at every point, fetched there or not: the body only
    reads it, the window is uncut and never idle. -/
theorem before4_0 (c : Dev nD) (t : Fin (cfg4 a).N) (d) : (dat4 V a c).before 0 t d = iblk4 V a c 0 t :=
  ((dat4 V a c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)
theorem before4_1 (c : Dev nD) (t : Fin (cfg4 a).N) (d) : (dat4 V a c).before 1 t d = iblk4 V a c 1 t :=
  ((dat4 V a c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)
theorem before4_2 (c : Dev nD) (t : Fin (cfg4 a).N) (d) : (dat4 V a c).before 2 t d = iblk4 V a c 2 t :=
  ((dat4 V a c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)

/-! ## The invariant, opened -/

/-- The tables, one by one. -/
theorem pref4_eq (c : Dev nD) :
    (Pipeline.prefHeld (Ix := Unit) (Name := ℕ) (U := UR sig nD τ) (Lvl := ℕ) pre4 c (fun _ => fullShare) a.1 : sProp 𝕄)
      = iprop(tbPt4 c tbMin4 (a.1 0) ∗ tbPt4 c tbMax4 (a.1 1)) := by
  unfold Pipeline.prefHeld
  rw [show (Finset.univ : Finset (Fin 2)) = insert (0 : Fin 2) {(1 : Fin 2)} from by decide,
    bigSep_insert (by decide), bigSep_singleton]
  rfl

theorem Phi_cast (c : Dev nD) (t : Fin (cfg4 a).N) :
    (dat4 V a c).Φ t.castSucc
      = iprop(Pipeline.prefHeld (Ix := Unit) (Name := ℕ) (U := UR sig nD τ) (Lvl := ℕ) pre4 c (fun _ => fullShare) a.1
          ∗ scr4 V a c t.val (Nat.lt_succ_of_lt t.isLt)
          ∗ Pipeline.scopedRestBut (Ix := Unit) (Name := ℕ) (U := UR sig nD τ) (Lvl := ℕ) (Val := Elt F) spec4 c [cc4_scratch0]
          ∗ ∃ r, prngReg c r) := by
  obtain ⟨n, hn⟩ := t; rfl

theorem Phi_succ (c : Dev nD) (t : Fin (cfg4 a).N) :
    (dat4 V a c).Φ t.succ
      = iprop(Pipeline.prefHeld (Ix := Unit) (Name := ℕ) (U := UR sig nD τ) (Lvl := ℕ) pre4 c (fun _ => fullShare) a.1
          ∗ owns (c : Thread nD τ) scM4 fullShare (accAt4 V a c t.val t.isLt)
          ∗ Pipeline.scopedRestBut (Ix := Unit) (Name := ℕ) (U := UR sig nD τ) (Lvl := ℕ) (Val := Elt F) spec4 c [cc4_scratch0]
          ∗ ∃ r, prngReg c r) := by
  obtain ⟨n, hn⟩ := t; rfl

theorem owes_succ (c : Dev nD) (t : Fin (cfg4 a).N) :
    (dat4 V a c).owesAt () t.succ = (dat4 V a c).owesAt () t.castSucc := rfl

/-! ## The body at a point -/

/-- Each window's current staging memref at point `t`, spelled as the pipeline passes it, and its wholeness. -/
abbrev ms4_0 (t : Fin (cfg4 a).N) : Memref sig .tc .vmem S4096 .i32 := spec4_0.stage ((cfg4 a).slots t 0)
abbrev hs4_0 (t : Fin (cfg4 a).N) : (ms4_0 a t).IsWhole := hstage4_0 (((cfg4 a).slots t 0).cast nbuf4_0)
abbrev ms4_1 (t : Fin (cfg4 a).N) : Memref sig .tc .vmem S4096 .f32 := spec4_1.stage ((cfg4 a).slots t 1)
abbrev hs4_1 (t : Fin (cfg4 a).N) : (ms4_1 a t).IsWhole := hstage4_1 (((cfg4 a).slots t 1).cast nbuf4_1)
abbrev ms4_2 (t : Fin (cfg4 a).N) : Memref sig .tc .vmem S2048x64 .f32 := spec4_2.stage ((cfg4 a).slots t 2)
abbrev hs4_2 (t : Fin (cfg4 a).N) : (ms4_2 a t).IsWhole := hstage4_2 (((cfg4 a).slots t 2).cast nbuf4_2)
abbrev ms4_3 (t : Fin (cfg4 a).N) : Memref sig .tc .vmem S4096x64 .f32 := spec4_3.stage ((cfg4 a).slots t 3)
abbrev hs4_3 (t : Fin (cfg4 a).N) : (ms4_3 a t).IsWhole := hstage4_3 (((cfg4 a).slots t 3).cast nbuf4_3)

/-- The kernel body at point `t`, on what the pipeline calls it with. -/
abbrev bodyAt4 (t : Fin (cfg4 a).N) : Prog (TpuEff nD τ sig (Elt F) Λ₀ .tc) PUnit :=
  cc4__gather_kernel (grid4.coords t) tbMin4 htbMin4 tbMax4 htbMax4 (ms4_0 a t) (hs4_0 a t) (ms4_1 a t) (hs4_1 a t) (ms4_2 a t) (hs4_2 a t)
    (ms4_3 a t) (hs4_3 a t) scM4 (Memref.isWhole_whole _)

/-- What the body is called with at point `t`, the windows one by one, -/
def bodyPre4 (c : Dev nD) (t : Fin (cfg4 a).N) : sProp 𝕄 :=
  iprop((dat4 V a c).Φ t.castSucc ∗ (dat4 V a c).owesAt () t.castSucc
    ∗ (∃ d, owns (c : Thread nD τ) (ms4_0 a t) fullShare ((dat4 V a c).before 0 t d))
    ∗ (∃ d, owns (c : Thread nD τ) (ms4_1 a t) fullShare ((dat4 V a c).before 1 t d))
    ∗ (∃ d, owns (c : Thread nD τ) (ms4_2 a t) fullShare ((dat4 V a c).before 2 t d))
    ∗ (∃ d, owns (c : Thread nD τ) (ms4_3 a t) fullShare ((dat4 V a c).before 3 t d)))

/-- and what it returns: the output's buffer as found where the window is idle, at the scaled scratch where it is stored. -/
def bodyPost4 (c : Dev nD) (t : Fin (cfg4 a).N) : sProp 𝕄 :=
  iprop((dat4 V a c).Φ t.succ ∗ (dat4 V a c).owesAt () t.succ
    ∗ owns (c : Thread nD τ) (ms4_0 a t) fullShare ((dat4 V a c).after 0 t)
    ∗ owns (c : Thread nD τ) (ms4_1 a t) fullShare ((dat4 V a c).after 1 t)
    ∗ owns (c : Thread nD τ) (ms4_2 a t) fullShare ((dat4 V a c).after 2 t)
    ∗ (dat4 V a c).leavesExact 3 t)

/-- Where the output is stored the window is live: its buffer ends at `after`. -/
theorem leaves4_live (c : Dev nD) (t : Fin (cfg4 a).N) (h : (cfg4 a).idle 3 ((cfg4 a).grid.coords t) = false) :
    (dat4 V a c).leavesExact 3 t = owns (c : Thread nD τ) (ms4_3 a t) fullShare ((dat4 V a c).after 3 t) := by
  unfold Dat.leavesExact; rw [h]; rfl

set_option maxHeartbeats 1000000 in
/-- The body at any point. The point's place on the grid decides the first and the last conditional; the middle
    one is decided by cases on the table words, which stay variables. In each case the matching run applies: the
    inputs' memrefs hold their blocks, the scratch what the point before left (anything at a first node tile), and
    the scratch's new contents are `accAt4` at the point by its recursion. -/
theorem sound_body4 (c : Dev nD) (t : Fin (cfg4 a).N) :
    bodyPre4 V a c t ⊢ wp frame (wpE (defs₀ (F := F)) Variants.none c none) Set.univ (bodyAt4 a t) (fun _ => bodyPost4 V a c t) := by
  have hN : t.val < 19159 := lt_of_lt_of_eq t.isLt N_4
  have hk : (grid4.coords t 1).val = t.val % 49 := coords4_1 t
  unfold bodyPre4 bodyPost4
  simp only [before4_0, before4_1, before4_2]
  rw [after4_0, after4_1, after4_2, Phi_cast, Phi_succ, owes_succ, pref4_eq]
  by_cases h0 : t.val % 49 = 0
  · -- a first node tile: the scratch restarts; the output window is idle and not written back
    have hc1 : cond1 (grid4.coords t) := (cond1_iff _).mpr (hk.trans h0)
    have hc3 : ¬ k4_cond3 (grid4.coords t) = 1#1 := fun h => by have := (k4_cond3_iff' _).mp h; omega
    have hidle : (cfg4 a).idle 3 ((cfg4 a).grid.coords t) = true := idle4_3_of a (grid4.coords t) hc3
    have hfl : ((cfg4 a).win 3).flush t = false := noflush4_3 a t hc3
    rw [Dat.leavesExact_idle _ 3 t hidle hfl]
    by_cases hc2 : act4 a (grid4.coords t)
    · have hacc := accAt4_first V a c t (hk.trans h0)
      rw [if_pos hc2] at hacc
      rw [hacc]
      iintro ⟨⟨⟨HT0, HT1⟩, HS, HR, HG⟩, Ho, ⟨%d0, H0⟩, ⟨%d1, H1⟩, ⟨%d2, H2⟩, ⟨%d3, H3⟩⟩
      ihave HS' := (scr4_ex V a c _ _) $$ HS
      iapply (run4_FA c (grid4.coords t) (ms4_0 a t) (hs4_0 a t) (ms4_1 a t) (hs4_1 a t) (ms4_2 a t) (hs4_2 a t) (ms4_3 a t) (hs4_3 a t)
        scM4 (Memref.isWhole_whole _) (srcB V a c t) (normB V a c t) (hwB V a c t) (a.1 0) (a.1 1) hc1 hc2 hc3
        ((dat4 V a c).before 3 t d3) Set.univ _)
      unfold kin4
      isplitl [H0 H1 H2 HT0 HT1]
      · isplitl [H0]; · iexact H0
        isplitl [H1]; · iexact H1
        isplitl [H2]; · iexact H2
        isplitl [HT0]; · iexact HT0
        iexact HT1
      isplitl [HS']; · iexact HS'
      isplitl [H3]; · iexact H3
      iintro ⟨⟨H0, H1, H2, HT0, HT1⟩, HS, H3⟩
      isplitl [HT0 HT1 HS HR HG]
      · isplitl [HT0 HT1]
        · isplitl [HT0]; · iexact HT0
          iexact HT1
        isplitl [HS]; · iexact HS
        isplitl [HR]; · iexact HR
        iexact HG
      isplitl [Ho]; · iexact Ho
      isplitl [H0]; · iexact H0
      isplitl [H1]; · iexact H1
      isplitl [H2]; · iexact H2
      iexists d3; iexact H3
    · have hacc := accAt4_first V a c t (hk.trans h0)
      rw [if_neg hc2] at hacc
      rw [hacc]
      iintro ⟨⟨⟨HT0, HT1⟩, HS, HR, HG⟩, Ho, ⟨%d0, H0⟩, ⟨%d1, H1⟩, ⟨%d2, H2⟩, ⟨%d3, H3⟩⟩
      ihave HS' := (scr4_ex V a c _ _) $$ HS
      iapply (run4_FI c (grid4.coords t) (ms4_0 a t) (hs4_0 a t) (ms4_1 a t) (hs4_1 a t) (ms4_2 a t) (hs4_2 a t) (ms4_3 a t) (hs4_3 a t)
        scM4 (Memref.isWhole_whole _) (srcB V a c t) (normB V a c t) (hwB V a c t) (a.1 0) (a.1 1) hc1 hc2 hc3
        ((dat4 V a c).before 3 t d3) Set.univ _)
      unfold kin4
      isplitl [H0 H1 H2 HT0 HT1]
      · isplitl [H0]; · iexact H0
        isplitl [H1]; · iexact H1
        isplitl [H2]; · iexact H2
        isplitl [HT0]; · iexact HT0
        iexact HT1
      isplitl [HS']; · iexact HS'
      isplitl [H3]; · iexact H3
      iintro ⟨⟨H0, H1, H2, HT0, HT1⟩, HS, H3⟩
      isplitl [HT0 HT1 HS HR HG]
      · isplitl [HT0 HT1]
        · isplitl [HT0]; · iexact HT0
          iexact HT1
        isplitl [HS]; · iexact HS
        isplitl [HR]; · iexact HR
        iexact HG
      isplitl [Ho]; · iexact Ho
      isplitl [H0]; · iexact H0
      isplitl [H1]; · iexact H1
      isplitl [H2]; · iexact H2
      iexists d3; iexact H3
  · -- a later node tile: the scratch holds what the point before left
    have ht0 : t.val ≠ 0 := fun h => h0 (by rw [h])
    have hc1 : ¬ cond1 (grid4.coords t) := fun h => h0 (hk.symm.trans ((cond1_iff _).mp h))
    have hk' : (grid4.coords t 1).val ≠ 0 := fun h => h0 (hk.symm.trans h)
    rw [scr4_pos V a c t.val _ ht0]
    by_cases hL : t.val % 49 = 48
    · -- the last node tile: the output block is stored, and written back
      have hc3 : k4_cond3 (grid4.coords t) = 1#1 := (k4_cond3_iff' _).mpr (hk.trans hL)
      have hlive : (cfg4 a).idle 3 ((cfg4 a).grid.coords t) = false := live4_3_of a (grid4.coords t) hc3
      rw [leaves4_live V a c t hlive, after4_3]
      by_cases hc2 : act4 a (grid4.coords t)
      · have hacc := accAt4_next V a c t hk'
        rw [if_pos hc2] at hacc
        rw [hacc]
        iintro ⟨⟨⟨HT0, HT1⟩, HS, HR, HG⟩, Ho, ⟨%d0, H0⟩, ⟨%d1, H1⟩, ⟨%d2, H2⟩, ⟨%d3, H3⟩⟩
        iapply (run4_LA c (grid4.coords t) (ms4_0 a t) (hs4_0 a t) (ms4_1 a t) (hs4_1 a t) (ms4_2 a t) (hs4_2 a t) (ms4_3 a t) (hs4_3 a t)
          scM4 (Memref.isWhole_whole _) (srcB V a c t) (normB V a c t) (hwB V a c t) (a.1 0) (a.1 1) hc1 hc2 hc3
          (accAt4 V a c (t.val - 1) (Nat.lt_of_le_of_lt (Nat.sub_le _ _) t.isLt)) Set.univ _)
        unfold kin4
        isplitl [H0 H1 H2 HT0 HT1]
        · isplitl [H0]; · iexact H0
          isplitl [H1]; · iexact H1
          isplitl [H2]; · iexact H2
          isplitl [HT0]; · iexact HT0
          iexact HT1
        isplitl [HS]; · iexact HS
        isplitl [H3]; · iexists _; iexact H3
        iintro ⟨⟨H0, H1, H2, HT0, HT1⟩, HS, H3⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        iexact H3
      · have hacc := accAt4_next V a c t hk'
        rw [if_neg hc2] at hacc
        rw [hacc]
        iintro ⟨⟨⟨HT0, HT1⟩, HS, HR, HG⟩, Ho, ⟨%d0, H0⟩, ⟨%d1, H1⟩, ⟨%d2, H2⟩, ⟨%d3, H3⟩⟩
        iapply (run4_LI c (grid4.coords t) (ms4_0 a t) (hs4_0 a t) (ms4_1 a t) (hs4_1 a t) (ms4_2 a t) (hs4_2 a t) (ms4_3 a t) (hs4_3 a t)
          scM4 (Memref.isWhole_whole _) (srcB V a c t) (normB V a c t) (hwB V a c t) (a.1 0) (a.1 1) hc1 hc2 hc3
          (accAt4 V a c (t.val - 1) (Nat.lt_of_le_of_lt (Nat.sub_le _ _) t.isLt)) Set.univ _)
        unfold kin4
        isplitl [H0 H1 H2 HT0 HT1]
        · isplitl [H0]; · iexact H0
          isplitl [H1]; · iexact H1
          isplitl [H2]; · iexact H2
          isplitl [HT0]; · iexact HT0
          iexact HT1
        isplitl [HS]; · iexact HS
        isplitl [H3]; · iexists _; iexact H3
        iintro ⟨⟨H0, H1, H2, HT0, HT1⟩, HS, H3⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        iexact H3
    · -- a middle node tile: the output window is idle and not written back
      have hc3 : ¬ k4_cond3 (grid4.coords t) = 1#1 := fun h => hL (hk.symm.trans ((k4_cond3_iff' _).mp h))
      have hidle : (cfg4 a).idle 3 ((cfg4 a).grid.coords t) = true := idle4_3_of a (grid4.coords t) hc3
      have hfl : ((cfg4 a).win 3).flush t = false := noflush4_3 a t hc3
      rw [Dat.leavesExact_idle _ 3 t hidle hfl]
      by_cases hc2 : act4 a (grid4.coords t)
      · have hacc := accAt4_next V a c t hk'
        rw [if_pos hc2] at hacc
        rw [hacc]
        iintro ⟨⟨⟨HT0, HT1⟩, HS, HR, HG⟩, Ho, ⟨%d0, H0⟩, ⟨%d1, H1⟩, ⟨%d2, H2⟩, ⟨%d3, H3⟩⟩
        iapply (run4_MA c (grid4.coords t) (ms4_0 a t) (hs4_0 a t) (ms4_1 a t) (hs4_1 a t) (ms4_2 a t) (hs4_2 a t) (ms4_3 a t) (hs4_3 a t)
          scM4 (Memref.isWhole_whole _) (srcB V a c t) (normB V a c t) (hwB V a c t) (a.1 0) (a.1 1) hc1 hc2 hc3
          (accAt4 V a c (t.val - 1) (Nat.lt_of_le_of_lt (Nat.sub_le _ _) t.isLt)) ((dat4 V a c).before 3 t d3) Set.univ _)
        unfold kin4
        isplitl [H0 H1 H2 HT0 HT1]
        · isplitl [H0]; · iexact H0
          isplitl [H1]; · iexact H1
          isplitl [H2]; · iexact H2
          isplitl [HT0]; · iexact HT0
          iexact HT1
        isplitl [HS]; · iexact HS
        isplitl [H3]; · iexact H3
        iintro ⟨⟨H0, H1, H2, HT0, HT1⟩, HS, H3⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        iexists d3; iexact H3
      · have hacc := accAt4_next V a c t hk'
        rw [if_neg hc2] at hacc
        rw [hacc]
        iintro ⟨⟨⟨HT0, HT1⟩, HS, HR, HG⟩, Ho, ⟨%d0, H0⟩, ⟨%d1, H1⟩, ⟨%d2, H2⟩, ⟨%d3, H3⟩⟩
        iapply (run4_MI c (grid4.coords t) (ms4_0 a t) (hs4_0 a t) (ms4_1 a t) (hs4_1 a t) (ms4_2 a t) (hs4_2 a t) (ms4_3 a t) (hs4_3 a t)
          scM4 (Memref.isWhole_whole _) (srcB V a c t) (normB V a c t) (hwB V a c t) (a.1 0) (a.1 1) hc1 hc2 hc3
          (accAt4 V a c (t.val - 1) (Nat.lt_of_le_of_lt (Nat.sub_le _ _) t.isLt)) ((dat4 V a c).before 3 t d3) Set.univ _)
        unfold kin4
        isplitl [H0 H1 H2 HT0 HT1]
        · isplitl [H0]; · iexact H0
          isplitl [H1]; · iexact H1
          isplitl [H2]; · iexact H2
          isplitl [HT0]; · iexact HT0
          iexact HT1
        isplitl [HS]; · iexact HS
        isplitl [H3]; · iexact H3
        iintro ⟨⟨H0, H1, H2, HT0, HT1⟩, HS, H3⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        iexists d3; iexact H3

/-- The library's body obligation, at every point. -/
theorem body_obligation4 (c : Dev nD) : BodyObligation (dat4 (F := F) V a c) (defs₀ (F := F)) Variants.none () Set.univ := fun t => by
  rw [bigSep_W4, bigSep_W4]
  exact sound_body4 V a c t

/-! ## The invariant at the region's two ends -/

/-- The scratch as the region finds it (a scoped buffer at some contents) is the scratch memref owned at some contents. -/
theorem scr_in (c : Dev nD) :
    (iprop(∃ f : Buf (Elt F) ((c : Thread nD τ).loc cc4_scratch0), ((c : Thread nD τ).loc cc4_scratch0) ↦{fullShare} f) : sProp 𝕄)
      ⊢ iprop(∃ d, owns (c : Thread nD τ) scM4 fullShare d) := by
  simp only [owns_whole]; exact .rfl

theorem scr_out (c : Dev nD) :
    (iprop(∃ d, owns (c : Thread nD τ) scM4 fullShare d) : sProp 𝕄)
      ⊢ iprop(∃ f : Buf (Elt F) ((c : Thread nD τ).loc cc4_scratch0), ((c : Thread nD τ).loc cc4_scratch0) ↦{fullShare} f) := by
  simp only [owns_whole]; exact .rfl

/-- The invariant before the first point, from the generator register, the tables and the scoped rest. -/
theorem hin4 (c : Dev nD) :
    iprop((∃ r, prngReg c r) ∗ Pipeline.prefHeld pre4 c (fun _ => fullShare) a.1 ∗ Pipeline.scopedRest spec4 c) ⊢ (dat4 V a c).Φ 0 := by
  rw [scopedRest4_split]
  show _ ⊢ Φ1 V a c 0
  unfold Φ1
  show _ ⊢ iprop(_ ∗ (∃ d, owns (c : Thread nD τ) scM4 fullShare d) ∗ _ ∗ _)
  iintro ⟨HG, HT, HS, HR⟩
  isplitl [HT]; · iexact HT
  isplitl [HS]; · iapply (scr_in c); iexact HS
  isplitl [HR]; · iexact HR
  iexact HG

/-- The invariant after the last point gives the generator register and the tables (at the full share) back, and
    the scoped rest; the kernel has no semaphore of its own. -/
theorem hout4 (c : Dev nD) :
    (dat4 V a c).Φ (Fin.last _)
      ⊢ iprop(((∃ r, prngReg c r) ∗ Pipeline.prefHeld pre4 c (fun _ => fullShare) a.1) ∗ Pipeline.ownSems0 (fun k : PEmpty => k.elim) c ∗ Pipeline.scopedRest spec4 c) := by
  rw [scopedRest4_split, Pipeline.ownSems0_none]
  show Φ1 V a c (Fin.last _) ⊢ _
  unfold Φ1
  iintro ⟨HT, HS, HR, HG⟩
  ihave HS' := (scr4_ex V a c _ _) $$ HS
  isplitl [HG HT]
  · isplitl [HG]; · iexact HG
    iexact HT
  isplitr
  · iempintro
  isplitl [HS']; · iapply (scr_out c); iexact HS'
  iexact HR

end Cert.KernelIdeal.R4

end
-- ==== Proof.R5Sched.lean ====
import proofs.«417346_j54202487276072_2_alg».proof.Proof.Gen.KernelIdeal.Launch
import Idealize.ShloMosaic.Lib.Pipeline.Kit
import Idealize.ShloMosaic.Lib.Affine

noncomputable section

namespace Cert.KernelIdeal.R5

open Cert.KernelIdeal Cert.KernelIdeal.Gen
open Idealize.ShloMosaic Idealize.ShloMosaic.TcCoe
open Idealize.SL Idealize.SL.Sem

variable {F : FTy → Type} [FloatOps F]

/-! # The schedule of the scatter region on its grid `[49, 391]`

Point `t` is (node tile `t / 391`, edge tile `t % 391`), the edge tile moving fastest. None of these facts reads
the prefetched tables: the index maps are functions of the point alone. -/

theorem stride5_0 : grid5.stride 0 = 391 := by decide
theorem stride5_1 : grid5.stride 1 = 1 := by decide

/-- The node tile of point `t`. -/
theorem coords5_0 (t : Fin grid5.N) : (grid5.coords t 0).val = t.val / 391 := by
  have hN : t.val < 19159 := lt_of_lt_of_eq t.isLt N_5
  show t.val / grid5.stride 0 % 49 = _
  rw [stride5_0]; omega

/-- The edge tile of point `t`. -/
theorem coords5_1 (t : Fin grid5.N) : (grid5.coords t 1).val = t.val % 391 := by
  show t.val / grid5.stride 1 % 391 = _
  rw [stride5_1, Nat.div_one]

/-! ## The body's two conditions on the point -/

/-- The condition of the first conditional (the scratch is initialised) holds exactly at the first edge tile. -/
theorem c1_iff (i : grid5.Coords) :
    (Scalar.cmpi .ne (Scalar.extui (Scalar.cmpi .eq (BitVec.ofNat 32 (i 1).val) 0#32)) 0#32) = 1#1 ↔ (i 1).val = 0 := by
  have hk : (i 1).val < 391 := (i 1).isLt
  rw [Scalar.guard_iff, Scalar.cmpi, IntOp.cmpi_eq, ← BitVec.toNat_inj]
  simp only [BitVec.toNat_ofNat]
  omega

/-- The output block is stored exactly at the last edge tile. -/
theorem cond3_iff (i : grid5.Coords) : k5_cond3 i = 1#1 ↔ (i 1).val = 390 := by
  have hk : (i 1).val < 391 := (i 1).isLt
  show (Scalar.cmpi .ne (Scalar.extui (Scalar.cmpi .eq (BitVec.ofNat 32 (i 1).val) 390#32)) 0#32) = 1#1 ↔ _
  rw [Scalar.guard_iff, Scalar.cmpi, IntOp.cmpi_eq, ← BitVec.toNat_inj]
  simp only [BitVec.toNat_ofNat]
  omega

/-! ## The output window's write-backs -/

/-- The output's block index is the node tile. -/
theorem tr5_0 (i : grid5.Coords) : cc5_transform_5 i 0 = (i 0).val := by
  have hk : (i 0).val < 49 := (i 0).isLt
  show (BitVec.ofNat 32 (i 0).val).toNat = _
  rw [BitVec.toNat_ofNat]; omega

theorem tr5_ne_iff (i j : grid5.Coords) : cc5_transform_5 i ≠ cc5_transform_5 j ↔ (i 0).val ≠ (j 0).val := by
  constructor
  · intro h e; apply h; funext x
    fin_cases x
    · show cc5_transform_5 i 0 = cc5_transform_5 j 0
      rw [tr5_0, tr5_0, e]
    · rfl
  · intro h e; apply h
    have := congrFun e 0
    rwa [tr5_0, tr5_0] at this

variable (a : (pcfg5 (F := F)).Adm)

/-- The output block is written back exactly after the last edge tile of its node tile. -/
theorem flush5_5 (t : Fin (cfg5 a).N) : ((cfg5 a).win 5).flush t = true ↔ t.val % 391 = 390 := by
  have hN : t.val < 19159 := lt_of_lt_of_eq t.isLt N_5
  rw [Pipeline.Window.flush_eq_flushOf]
  show Pipeline.Window.flushOf grid5 true cc5_transform_5 t = true ↔ _
  unfold Pipeline.Window.flushOf
  rw [Bool.true_and, Bool.or_eq_true, decide_eq_true_eq, decide_eq_true_eq]
  constructor
  · rintro (h | ⟨h, hne⟩)
    · have hN2 := N_5; omega
    · rw [tr5_ne_iff, coords5_0, coords5_0] at hne
      dsimp only at hne
      omega
  · intro h
    by_cases hl : t.val + 1 = grid5.N
    · exact .inl hl
    · have h' : t.val + 1 < grid5.N := by have hN2 := N_5; omega
      refine .inr ⟨h', ?_⟩
      rw [tr5_ne_iff, coords5_0, coords5_0]
      dsimp only
      omega

/-- Where the output window is idle: everywhere but at the last edge tile. -/
theorem idle5_5 (t : Fin (cfg5 a).N) : (cfg5 a).idle 5 ((cfg5 a).grid.coords t) = !(k5_cond3 (grid5.coords t) == 1#1) := rfl

/-- The input windows are never idle. -/
theorem live5 (w : Fin (cfg5 a).W) (hw : w ≠ 5) (i : (cfg5 a).grid.Coords) : (cfg5 a).idle w i = false := by
  fin_cases w <;> first | rfl | exact absurd rfl hw

end Cert.KernelIdeal.R5

end
-- ==== Proof.R5Runs.lean ====
import proofs.«417346_j54202487276072_2_alg».proof.Proof.Gen.KernelIdeal.Launch
import proofs.«417346_j54202487276072_2_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.R5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## The tables as the body is handed them; the step's condition -/

abbrev tbMin : Memref sig .tc .smem S391 .i32 := Memref.whole main_v72
abbrev htbMin : (tbMin).IsWhole := Memref.isWhole_whole _
abbrev tbMax : Memref sig .tc .smem S391 .i32 := Memref.whole main_v74
abbrev htbMax : (tbMax).IsWhole := Memref.isWhole_whole _

/-- A table's buffer contents on core `c`, and the table held whole at them. -/
abbrev TbBuf5 (c : Dev nD) (M : Memref sig .tc .smem S391 .i32) : Type := Buf (Elt F) (M.view.loc (c : Thread nD τ))
abbrev tbPt5 (c : Dev nD) (M : Memref sig .tc .smem S391 .i32) (f : TbBuf5 (F := F) c M) : sProp 𝕄 :=
  M.view.loc (c : Thread nD τ) ↦{fullShare} f

/-- The word of table `M` the body loads at point `i` (the entry of the point's edge tile), over contents `f`. -/
abbrev wd5 (M : Memref sig .tc .smem S391 .i32) (f : M.view.ty.Contents (Elt F)) (i : grid5.Coords) : Elt F .i32 :=
  M.view.readAt (Elt F) (Rect.unit (s := S391) (k5_off1 i) S1.size (k5_off1_inb i)).toLoadRect f (Shape.Idx.first (numel1_S1.symm ▸ Nat.one_pos))

/-- The condition of the accumulation step as the body computes it: the node tile `[2048 i₀, 2048 i₀ + 2048)` meets
    the range `[mn, mx]` of destinations in the edge tile (signed comparisons on the two table words). -/
def k5_act (i : grid5.Coords) (mx mn : Elt F .i32) : BitVec 1 :=
  let arg0 : BitVec 32 := BitVec.ofNat 32 (i 0).val
  let v3 : BitVec 32 := Scalar.muli arg0 2048#32
  let v4 : BitVec 32 := Scalar.addi v3 2048#32
  let v7 : BitVec 1 := Scalar.cmpi .sle v3 mx
  let v10 : BitVec 1 := Scalar.cmpi .sgt v4 mn
  let v11 : BitVec 1 := Scalar.andi v7 v10
  let v12 : BitVec 32 := Scalar.extui v11
  Scalar.cmpi .ne v12 0#32

/-- The condition of the first conditional: the scratch is initialised at the first edge tile. -/
abbrev k5_c1 (i : grid5.Coords) : Prop :=
  (Scalar.cmpi .ne (Scalar.extui (Scalar.cmpi .eq (BitVec.ofNat 32 (i 1).val) 0#32)) 0#32) = 1#1

/-! ## Whole-buffer loads and stores -/

theorem z1 : (![0] : Fin 1 → Nat) = fun _ => 0 := by funext a; fin_cases a; rfl
theorem z2 : (![0, 0] : Fin 2 → Nat) = fun _ => 0 := by funext a; fin_cases a <;> rfl

/-- A load through the whole-shape rectangle at zero offsets reads the memref's contents. -/
theorem rdU (S : Shape) {e : EltTy} {κ : Kind} {sp : Space} (v : View sig κ sp S e) {off : Fin S.rank → Nat} (h : off = fun _ => 0)
    (inb : ∀ a, off a + S.size a ≤ S.size a) (f : v.ty.Contents (Elt F)) :
    v.readAt (Elt F) (Rect.unit off S.size inb).toLoadRect f = v.read (Elt F) f :=
  View.ld_unit_zero h inb _

/-- Every index lies in the whole-shape rectangle: a list of stores headed by one through it covers the buffer. -/
theorem covU (S : Shape) {e : EltTy} {off : Fin S.rank → Nat} (h : off = fun _ => 0) (inb : ∀ a, off a + S.size a ≤ S.size a)
    (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons.mpr (Or.inl rfl), View.mem_set_unit_zero h inb y⟩

/-- A load through it of what the run's stores left, the last of them through it, reads that store's payload. -/
theorem rcU (S : Shape) {e : EltTy} {κ : Kind} {sp : Space} (v : View sig κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (covU S h inb w L), View.canon_cons_unit_zero h, View.ld_unit_zero h]

/-- The buffer read back after the run's stores, the last of them through the whole-shape rectangle: its payload. -/
theorem rwU (S : Shape) {e : EltTy} {κ : Kind} {sp : Space} (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (covU S h inb w L), View.canon_cons_unit_zero h]

/-- The inputs' staging memrefs at their blocks and the two tables at their contents: what every case of the body
    is handed and hands back untouched. -/
def kin5 (c : Dev nD) (arg4 : Memref sig .tc .vmem S4096 .i32) (arg5 : Memref sig .tc .vmem S4096x64 .f32)
    (arg6 : Memref sig .tc .vmem S2048x64 .f32) (arg7 : Memref sig .tc .vmem S2048 .f32) (arg8 : Memref sig .tc .vmem S1x64 .f32)
    (x0 : Vec F S4096 .i32) (x1 : Vec F S4096x64 .f32) (x2 : Vec F S2048x64 .f32) (x3 : Vec F S2048 .f32) (x4 : Vec F S1x64 .f32)
    (xt0 : TbBuf5 (F := F) c tbMin) (xt1 : TbBuf5 (F := F) c tbMax) : sProp 𝕄 :=
  iprop(owns (c : Thread nD τ) arg4 fullShare x0 ∗ owns (c : Thread nD τ) arg5 fullShare x1 ∗ owns (c : Thread nD τ) arg6 fullShare x2
    ∗ owns (c : Thread nD τ) arg7 fullShare x3 ∗ owns (c : Thread nD τ) arg8 fullShare x4 ∗ tbPt5 c tbMin xt0 ∗ tbPt5 c tbMax xt1)

/-! ## The body, case by case

The body has three conditionals: on the point's edge tile being the first (the scratch is initialised), on the two
table words (the accumulation step), on the edge tile being the last (the output block is stored). First and last
exclude each other on this grid, which leaves six cases. In each the printed function is its skeleton, run
operation by operation; every load and store is through a whole staging memref. The tables' words are never
evaluated: the case's hypothesis on them decides the middle conditional. -/

set_option maxHeartbeats 1000000 in
/-- First edge tile, step taken: the scratch ends at the step applied to the initial value; the output's buffer is
    untouched. -/
theorem run5_FA (c : Dev nD) (i : grid5.Coords)
    (arg4 : Memref sig .tc .vmem S4096 .i32) (harg4 : arg4.IsWhole) (arg5 : Memref sig .tc .vmem S4096x64 .f32) (harg5 : arg5.IsWhole)
    (arg6 : Memref sig .tc .vmem S2048x64 .f32) (harg6 : arg6.IsWhole) (arg7 : Memref sig .tc .vmem S2048 .f32) (harg7 : arg7.IsWhole)
    (arg8 : Memref sig .tc .vmem S1x64 .f32) (harg8 : arg8.IsWhole) (arg9 : Memref sig .tc .vmem S2048x64 .f32) (harg9 : arg9.IsWhole)
    (arg10 : Memref sig .tc .vmem S2048x64 .f32) (harg10 : arg10.IsWhole)
    (x0 : Vec F S4096 .i32) (x1 : Vec F S4096x64 .f32) (x2 : Vec F S2048x64 .f32) (x3 : Vec F S2048 .f32) (x4 : Vec F S1x64 .f32)
    (xt0 : TbBuf5 (F := F) c tbMin) (xt1 : TbBuf5 (F := F) c tbMax)
    (hc1 : k5_c1 i) (hc2 : k5_act (F := F) i (wd5 tbMax xt1 i) (wd5 tbMin xt0 i) = 1#1) (hc3 : ¬ k5_cond3 i = 1#1)
    (xo : Vec F S2048x64 .f32) (E : Set ℕ) (K : PUnit → sProp 𝕄) :
    iprop(kin5 c arg4 arg5 arg6 arg7 arg8 x0 x1 x2 x3 x4 xt0 xt1
        ∗ (∃ d, owns (c : Thread nD τ) arg10 fullShare d) ∗ owns (c : Thread nD τ) arg9 fullShare xo
        ∗ (iprop(kin5 c arg4 arg5 arg6 arg7 arg8 x0 x1 x2 x3 x4 xt0 xt1
            ∗ owns (c : Thread nD τ) arg10 fullShare (k5_pay2 i x0 (k5_pay1 x3 x2) x1) ∗ owns (c : Thread nD τ) arg9 fullShare xo) -∗ K ⟨⟩))
      ⊢ wp frame (wpE (defs₀ (F := F)) Variants.none c none) E
          (cc5__scatter_kernel i tbMin htbMin tbMax htbMax arg4 harg4 arg5 harg5 arg6 harg6 arg7 harg7 arg8 harg8 arg9 harg9 arg10 harg10) K := by
  simp only [cc5__scatter_kernel_eq_skeleton]; unfold cc5__scatter_kernel_skel
  unfold kin5 owns
  iintro ⟨⟨⟨%f0, %hf0, H0⟩, ⟨%f1, %hf1, H1⟩, ⟨%f2, %hf2, H2⟩, ⟨%f3, %hf3, H3⟩, ⟨%f4, %hf4, H4⟩, HT0, HT1⟩, ⟨%ds, %fs, -, HS⟩, ⟨%f9, %hf9, H9⟩, Hk⟩
  subst hf0 hf1 hf2 hf3 hf4 hf9
  sl_exec (disch := first | sl_exact hc1 | sl_exact hc2 | sl_exact hc3)
  sl_step
  iapply Hk
  isplitl [H0 H1 H2 H3 H4 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [HT0]; · iexact HT0
    iexact HT1
  isplitl [HS]
  · iexists _; isplitr; swap; · iexact HS
    ipureintro
    -- the second store's payload read the first store's back
    rw [rwU S2048x64 _ _ z2]
    unfold run5_FA.sl.v29 run5_FA.sl.HS_1
    simp only [rcU S2048x64 _ z2, rdU S4096 _ z1, rdU S2048 _ z1, rdU S2048x64 _ z2, rdU S4096x64 _ z2]
  iexists f9; isplitr; · ipureintro; rfl
  iexact H9

set_option maxHeartbeats 1000000 in
/-- First edge tile, step skipped: the scratch ends at the initial value; the output's buffer is untouched. -/
theorem run5_FI (c : Dev nD) (i : grid5.Coords)
    (arg4 : Memref sig .tc .vmem S4096 .i32) (harg4 : arg4.IsWhole) (arg5 : Memref sig .tc .vmem S4096x64 .f32) (harg5 : arg5.IsWhole)
    (arg6 : Memref sig .tc .vmem S2048x64 .f32) (harg6 : arg6.IsWhole) (arg7 : Memref sig .tc .vmem S2048 .f32) (harg7 : arg7.IsWhole)
    (arg8 : Memref sig .tc .vmem S1x64 .f32) (harg8 : arg8.IsWhole) (arg9 : Memref sig .tc .vmem S2048x64 .f32) (harg9 : arg9.IsWhole)
    (arg10 : Memref sig .tc .vmem S2048x64 .f32) (harg10 : arg10.IsWhole)
    (x0 : Vec F S4096 .i32) (x1 : Vec F S4096x64 .f32) (x2 : Vec F S2048x64 .f32) (x3 : Vec F S2048 .f32) (x4 : Vec F S1x64 .f32)
    (xt0 : TbBuf5 (F := F) c tbMin) (xt1 : TbBuf5 (F := F) c tbMax)
    (hc1 : k5_c1 i) (hc2 : ¬ k5_act (F := F) i (wd5 tbMax xt1 i) (wd5 tbMin xt0 i) = 1#1) (hc3 : ¬ k5_cond3 i = 1#1)
    (xo : Vec F S2048x64 .f32) (E : Set ℕ) (K : PUnit → sProp 𝕄) :
    iprop(kin5 c arg4 arg5 arg6 arg7 arg8 x0 x1 x2 x3 x4 xt0 xt1
        ∗ (∃ d, owns (c : Thread nD τ) arg10 fullShare d) ∗ owns (c : Thread nD τ) arg9 fullShare xo
        ∗ (iprop(kin5 c arg4 arg5 arg6 arg7 arg8 x0 x1 x2 x3 x4 xt0 xt1
            ∗ owns (c : Thread nD τ) arg10 fullShare (k5_pay1 x3 x2) ∗ owns (c : Thread nD τ) arg9 fullShare xo) -∗ K ⟨⟩))
      ⊢ wp frame (wpE (defs₀ (F := F)) Variants.none c none) E
          (cc5__scatter_kernel i tbMin htbMin tbMax htbMax arg4 harg4 arg5 harg5 arg6 harg6 arg7 harg7 arg8 harg8 arg9 harg9 arg10 harg10) K := by
  simp only [cc5__scatter_kernel_eq_skeleton]; unfold cc5__scatter_kernel_skel
  unfold kin5 owns
  iintro ⟨⟨⟨%f0, %hf0, H0⟩, ⟨%f1, %hf1, H1⟩, ⟨%f2, %hf2, H2⟩, ⟨%f3, %hf3, H3⟩, ⟨%f4, %hf4, H4⟩, HT0, HT1⟩, ⟨%ds, %fs, -, HS⟩, ⟨%f9, %hf9, H9⟩, Hk⟩
  subst hf0 hf1 hf2 hf3 hf4 hf9
  sl_exec (disch := first | sl_exact hc1 | sl_exact hc2 | sl_exact hc3)
  sl_step
  iapply Hk
  isplitl [H0 H1 H2 H3 H4 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [HT0]; · iexact HT0
    iexact HT1
  isplitl [HS]
  · iexists _; isplitr; swap; · iexact HS
    ipureintro
    rw [rwU S2048x64 _ _ z2]
    simp only [rdU S2048 _ z1, rdU S2048x64 _ z2]
  iexists f9; isplitr; · ipureintro; rfl
  iexact H9

set_option maxHeartbeats 1000000 in
/-- A middle edge tile, step taken: the scratch ends at the step applied to what it held; the output's buffer is
    untouched. -/
theorem run5_MA (c : Dev nD) (i : grid5.Coords)
    (arg4 : Memref sig .tc .vmem S4096 .i32) (harg4 : arg4.IsWhole) (arg5 : Memref sig .tc .vmem S4096x64 .f32) (harg5 : arg5.IsWhole)
    (arg6 : Memref sig .tc .vmem S2048x64 .f32) (harg6 : arg6.IsWhole) (arg7 : Memref sig .tc .vmem S2048 .f32) (harg7 : arg7.IsWhole)
    (arg8 : Memref sig .tc .vmem S1x64 .f32) (harg8 : arg8.IsWhole) (arg9 : Memref sig .tc .vmem S2048x64 .f32) (harg9 : arg9.IsWhole)
    (arg10 : Memref sig .tc .vmem S2048x64 .f32) (harg10 : arg10.IsWhole)
    (x0 : Vec F S4096 .i32) (x1 : Vec F S4096x64 .f32) (x2 : Vec F S2048x64 .f32) (x3 : Vec F S2048 .f32) (x4 : Vec F S1x64 .f32)
    (xt0 : TbBuf5 (F := F) c tbMin) (xt1 : TbBuf5 (F := F) c tbMax)
    (hc1 : ¬ k5_c1 i) (hc2 : k5_act (F := F) i (wd5 tbMax xt1 i) (wd5 tbMin xt0 i) = 1#1) (hc3 : ¬ k5_cond3 i = 1#1)
    (xs xo : Vec F S2048x64 .f32) (E : Set ℕ) (K : PUnit → sProp 𝕄) :
    iprop(kin5 c arg4 arg5 arg6 arg7 arg8 x0 x1 x2 x3 x4 xt0 xt1
        ∗ owns (c : Thread nD τ) arg10 fullShare xs ∗ owns (c : Thread nD τ) arg9 fullShare xo
        ∗ (iprop(kin5 c arg4 arg5 arg6 arg7 arg8 x0 x1 x2 x3 x4 xt0 xt1
            ∗ owns (c : Thread nD τ) arg10 fullShare (k5_pay2 i x0 xs x1) ∗ owns (c : Thread nD τ) arg9 fullShare xo) -∗ K ⟨⟩))
      ⊢ wp frame (wpE (defs₀ (F := F)) Variants.none c none) E
          (cc5__scatter_kernel i tbMin htbMin tbMax htbMax arg4 harg4 arg5 harg5 arg6 harg6 arg7 harg7 arg8 harg8 arg9 harg9 arg10 harg10) K := by
  simp only [cc5__scatter_kernel_eq_skeleton]; unfold cc5__scatter_kernel_skel
  unfold kin5 owns
  iintro ⟨⟨⟨%f0, %hf0, H0⟩, ⟨%f1, %hf1, H1⟩, ⟨%f2, %hf2, H2⟩, ⟨%f3, %hf3, H3⟩, ⟨%f4, %hf4, H4⟩, HT0, HT1⟩, ⟨%fs, %hfs, HS⟩, ⟨%f9, %hf9, H9⟩, Hk⟩
  subst hf0 hf1 hf2 hf3 hf4 hfs hf9
  sl_exec (disch := first | sl_exact hc1 | sl_exact hc2 | sl_exact hc3)
  sl_step
  iapply Hk
  isplitl [H0 H1 H2 H3 H4 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [HT0]; · iexact HT0
    iexact HT1
  isplitl [HS]
  · iexists _; isplitr; swap; · iexact HS
    ipureintro
    rw [rwU S2048x64 _ _ z2]
    simp only [rdU S4096 _ z1, rdU S2048x64 _ z2, rdU S4096x64 _ z2]
  iexists f9; isplitr; · ipureintro; rfl
  iexact H9

set_option maxHeartbeats 1000000 in
/-- A middle edge tile, step skipped: nothing is stored. -/
theorem run5_MI (c : Dev nD) (i : grid5.Coords)
    (arg4 : Memref sig .tc .vmem S4096 .i32) (harg4 : arg4.IsWhole) (arg5 : Memref sig .tc .vmem S4096x64 .f32) (harg5 : arg5.IsWhole)
    (arg6 : Memref sig .tc .vmem S2048x64 .f32) (harg6 : arg6.IsWhole) (arg7 : Memref sig .tc .vmem S2048 .f32) (harg7 : arg7.IsWhole)
    (arg8 : Memref sig .tc .vmem S1x64 .f32) (harg8 : arg8.IsWhole) (arg9 : Memref sig .tc .vmem S2048x64 .f32) (harg9 : arg9.IsWhole)
    (arg10 : Memref sig .tc .vmem S2048x64 .f32) (harg10 : arg10.IsWhole)
    (x0 : Vec F S4096 .i32) (x1 : Vec F S4096x64 .f32) (x2 : Vec F S2048x64 .f32) (x3 : Vec F S2048 .f32) (x4 : Vec F S1x64 .f32)
    (xt0 : TbBuf5 (F := F) c tbMin) (xt1 : TbBuf5 (F := F) c tbMax)
    (hc1 : ¬ k5_c1 i) (hc2 : ¬ k5_act (F := F) i (wd5 tbMax xt1 i) (wd5 tbMin xt0 i) = 1#1) (hc3 : ¬ k5_cond3 i = 1#1)
    (xs xo : Vec F S2048x64 .f32) (E : Set ℕ) (K : PUnit → sProp 𝕄) :
    iprop(kin5 c arg4 arg5 arg6 arg7 arg8 x0 x1 x2 x3 x4 xt0 xt1
        ∗ owns (c : Thread nD τ) arg10 fullShare xs ∗ owns (c : Thread nD τ) arg9 fullShare xo
        ∗ (iprop(kin5 c arg4 arg5 arg6 arg7 arg8 x0 x1 x2 x3 x4 xt0 xt1
            ∗ owns (c : Thread nD τ) arg10 fullShare xs ∗ owns (c : Thread nD τ) arg9 fullShare xo) -∗ K ⟨⟩))
      ⊢ wp frame (wpE (defs₀ (F := F)) Variants.none c none) E
          (cc5__scatter_kernel i tbMin htbMin tbMax htbMax arg4 harg4 arg5 harg5 arg6 harg6 arg7 harg7 arg8 harg8 arg9 harg9 arg10 harg10) K := by
  simp only [cc5__scatter_kernel_eq_skeleton]; unfold cc5__scatter_kernel_skel
  unfold kin5 owns
  iintro ⟨⟨⟨%f0, %hf0, H0⟩, ⟨%f1, %hf1, H1⟩, ⟨%f2, %hf2, H2⟩, ⟨%f3, %hf3, H3⟩, ⟨%f4, %hf4, H4⟩, HT0, HT1⟩, ⟨%fs, %hfs, HS⟩, ⟨%f9, %hf9, H9⟩, Hk⟩
  subst hf0 hf1 hf2 hf3 hf4 hfs hf9
  sl_exec (disch := first | sl_exact hc1 | sl_exact hc2 | sl_exact hc3)
  sl_step
  iapply Hk
  isplitl [H0 H1 H2 H3 H4 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [HT0]; · iexact HT0
    iexact HT1
  isplitl [HS]
  · iexists fs; isplitr; · ipureintro; rfl
    iexact HS
  iexists f9; isplitr; · ipureintro; rfl
  iexact H9

set_option maxHeartbeats 1000000 in
/-- Last edge tile, step taken: the scratch ends at the step applied to what it held, and the output's buffer at
    the epilogue of that. -/
theorem run5_LA (c : Dev nD) (i : grid5.Coords)
    (arg4 : Memref sig .tc .vmem S4096 .i32) (harg4 : arg4.IsWhole) (arg5 : Memref sig .tc .vmem S4096x64 .f32) (harg5 : arg5.IsWhole)
    (arg6 : Memref sig .tc .vmem S2048x64 .f32) (harg6 : arg6.IsWhole) (arg7 : Memref sig .tc .vmem S2048 .f32) (harg7 : arg7.IsWhole)
    (arg8 : Memref sig .tc .vmem S1x64 .f32) (harg8 : arg8.IsWhole) (arg9 : Memref sig .tc .vmem S2048x64 .f32) (harg9 : arg9.IsWhole)
    (arg10 : Memref sig .tc .vmem S2048x64 .f32) (harg10 : arg10.IsWhole)
    (x0 : Vec F S4096 .i32) (x1 : Vec F S4096x64 .f32) (x2 : Vec F S2048x64 .f32) (x3 : Vec F S2048 .f32) (x4 : Vec F S1x64 .f32)
    (xt0 : TbBuf5 (F := F) c tbMin) (xt1 : TbBuf5 (F := F) c tbMax)
    (hc1 : ¬ k5_c1 i) (hc2 : k5_act (F := F) i (wd5 tbMax xt1 i) (wd5 tbMin xt0 i) = 1#1) (hc3 : k5_cond3 i = 1#1)
    (xs : Vec F S2048x64 .f32) (E : Set ℕ) (K : PUnit → sProp 𝕄) :
    iprop(kin5 c arg4 arg5 arg6 arg7 arg8 x0 x1 x2 x3 x4 xt0 xt1
        ∗ owns (c : Thread nD τ) arg10 fullShare xs ∗ (∃ d, owns (c : Thread nD τ) arg9 fullShare d)
        ∗ (iprop(kin5 c arg4 arg5 arg6 arg7 arg8 x0 x1 x2 x3 x4 xt0 xt1
            ∗ owns (c : Thread nD τ) arg10 fullShare (k5_pay2 i x0 xs x1)
            ∗ owns (c : Thread nD τ) arg9 fullShare (k5_pay3 (k5_pay2 i x0 xs x1) x4)) -∗ K ⟨⟩))
      ⊢ wp frame (wpE (defs₀ (F := F)) Variants.none c none) E
          (cc5__scatter_kernel i tbMin htbMin tbMax htbMax arg4 harg4 arg5 harg5 arg6 harg6 arg7 harg7 arg8 harg8 arg9 harg9 arg10 harg10) K := by
  simp only [cc5__scatter_kernel_eq_skeleton]; unfold cc5__scatter_kernel_skel
  unfold kin5 owns
  iintro ⟨⟨⟨%f0, %hf0, H0⟩, ⟨%f1, %hf1, H1⟩, ⟨%f2, %hf2, H2⟩, ⟨%f3, %hf3, H3⟩, ⟨%f4, %hf4, H4⟩, HT0, HT1⟩, ⟨%fs, %hfs, HS⟩, ⟨%d9, %f9, -, H9⟩, Hk⟩
  subst hf0 hf1 hf2 hf3 hf4 hfs
  sl_exec (disch := first | sl_exact hc1 | sl_exact hc2 | sl_exact hc3)
  sl_step
  iapply Hk
  isplitl [H0 H1 H2 H3 H4 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [HT0]; · iexact HT0
    iexact HT1
  isplitl [HS]
  · iexists _; isplitr; swap; · iexact HS
    ipureintro
    unfold run5_LA.sl.HS_1
    rw [rwU S2048x64 _ _ z2]
    simp only [rdU S4096 _ z1, rdU S2048x64 _ z2, rdU S4096x64 _ z2]
  iexists _; isplitr; swap; · iexact H9
  ipureintro
  -- the epilogue's load read the step's store back
  rw [rwU S2048x64 _ _ z2]
  unfold run5_LA.sl.v17 run5_LA.sl.HS_1
  simp only [rcU S2048x64 _ z2, rdU S4096 _ z1, rdU S2048x64 _ z2, rdU S4096x64 _ z2, rdU S1x64 _ z2]

set_option maxHeartbeats 1000000 in
/-- Last edge tile, step skipped: the scratch keeps what it held, and the output's buffer ends at the epilogue of
    that. -/
theorem run5_LI (c : Dev nD) (i : grid5.Coords)
    (arg4 : Memref sig .tc .vmem S4096 .i32) (harg4 : arg4.IsWhole) (arg5 : Memref sig .tc .vmem S4096x64 .f32) (harg5 : arg5.IsWhole)
    (arg6 : Memref sig .tc .vmem S2048x64 .f32) (harg6 : arg6.IsWhole) (arg7 : Memref sig .tc .vmem S2048 .f32) (harg7 : arg7.IsWhole)
    (arg8 : Memref sig .tc .vmem S1x64 .f32) (harg8 : arg8.IsWhole) (arg9 : Memref sig .tc .vmem S2048x64 .f32) (harg9 : arg9.IsWhole)
    (arg10 : Memref sig .tc .vmem S2048x64 .f32) (harg10 : arg10.IsWhole)
    (x0 : Vec F S4096 .i32) (x1 : Vec F S4096x64 .f32) (x2 : Vec F S2048x64 .f32) (x3 : Vec F S2048 .f32) (x4 : Vec F S1x64 .f32)
    (xt0 : TbBuf5 (F := F) c tbMin) (xt1 : TbBuf5 (F := F) c tbMax)
    (hc1 : ¬ k5_c1 i) (hc2 : ¬ k5_act (F := F) i (wd5 tbMax xt1 i) (wd5 tbMin xt0 i) = 1#1) (hc3 : k5_cond3 i = 1#1)
    (xs : Vec F S2048x64 .f32) (E : Set ℕ) (K : PUnit → sProp 𝕄) :
    iprop(kin5 c arg4 arg5 arg6 arg7 arg8 x0 x1 x2 x3 x4 xt0 xt1
        ∗ owns (c : Thread nD τ) arg10 fullShare xs ∗ (∃ d, owns (c : Thread nD τ) arg9 fullShare d)
        ∗ (iprop(kin5 c arg4 arg5 arg6 arg7 arg8 x0 x1 x2 x3 x4 xt0 xt1
            ∗ owns (c : Thread nD τ) arg10 fullShare xs ∗ owns (c : Thread nD τ) arg9 fullShare (k5_pay3 xs x4)) -∗ K ⟨⟩))
      ⊢ wp frame (wpE (defs₀ (F := F)) Variants.none c none) E
          (cc5__scatter_kernel i tbMin htbMin tbMax htbMax arg4 harg4 arg5 harg5 arg6 harg6 arg7 harg7 arg8 harg8 arg9 harg9 arg10 harg10) K := by
  simp only [cc5__scatter_kernel_eq_skeleton]; unfold cc5__scatter_kernel_skel
  unfold kin5 owns
  iintro ⟨⟨⟨%f0, %hf0, H0⟩, ⟨%f1, %hf1, H1⟩, ⟨%f2, %hf2, H2⟩, ⟨%f3, %hf3, H3⟩, ⟨%f4, %hf4, H4⟩, HT0, HT1⟩, ⟨%fs, %hfs, HS⟩, ⟨%d9, %f9, -, H9⟩, Hk⟩
  subst hf0 hf1 hf2 hf3 hf4 hfs
  sl_exec (disch := first | sl_exact hc1 | sl_exact hc2 | sl_exact hc3)
  sl_step
  iapply Hk
  isplitl [H0 H1 H2 H3 H4 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [HT0]; · iexact HT0
    iexact HT1
  isplitl [HS]
  · iexists fs; isplitr; · ipureintro; rfl
    iexact HS
  iexists _; isplitr; swap; · iexact H9
  ipureintro
  rw [rwU S2048x64 _ _ z2]
  simp only [rdU S2048x64 _ z2, rdU S1x64 _ z2]

end Cert.KernelIdeal.R5

end
-- ==== Proof.R5Frame.lean ====
import proofs.«417346_j54202487276072_2_alg».proof.Proof.R5Sched
import proofs.«417346_j54202487276072_2_alg».proof.Proof.R5Runs
import Idealize.ShloMosaic.Lib.Pipeline.FrameBody
import Idealize.ShloMosaic.Lib.Pipeline.Frame

set_option maxRecDepth 16384

noncomputable section

namespace Cert.KernelIdeal.R5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

-- the buffer contents when the region is entered, and the admissible tables: both parameters, never evaluated
variable (V : (c : Dev nD) → (b : Ref sig .tc) → Buf (Elt F) ((c : Thread nD τ).loc b)) (a : (pcfg5 (F := F)).Adm)

/-! # The scatter region (custom_call 2) at entry contents `V` and tables `a`

The scratch carries, along each node tile's run of edge tiles, the self term plus the sum over the edge tiles
whose destination range meets the node tile; the output block is the epilogue of the scratch at the last edge
tile. -/

/-! ## The windows' blocks and the table words -/

/-- Window `w`'s block at point `t`, read off its array as the region finds it. -/
def iblk5 (c : Dev nD) (w : Fin (cfg5 a).W) (t : Fin (cfg5 a).N) : (((cfg5 a).win w).xblock ((cfg5 a).grid.coords t)).Idx → Elt F ((cfg5 a).win w).elt :=
  (((cfg5 a).win w).blk t).view.read (Elt F) (V c (Pipeline.arrRef spec5 w))

/-- The five input blocks at their vector types (no window is cut: a block's shape is its window's). -/
abbrev dstB (c : Dev nD) (t : Fin (cfg5 a).N) : Vec F S4096 .i32 := iblk5 V a c 0 t
abbrev gB (c : Dev nD) (t : Fin (cfg5 a).N) : Vec F S4096x64 .f32 := iblk5 V a c 1 t
abbrev hwB (c : Dev nD) (t : Fin (cfg5 a).N) : Vec F S2048x64 .f32 := iblk5 V a c 2 t
abbrev snB (c : Dev nD) (t : Fin (cfg5 a).N) : Vec F S2048 .f32 := iblk5 V a c 3 t
abbrev biasB (c : Dev nD) (t : Fin (cfg5 a).N) : Vec F S1x64 .f32 := iblk5 V a c 4 t

/-- The two table words the body loads at point `i`: the least and the greatest destination in the edge tile. -/
abbrev wMin (i : grid5.Coords) : Elt F .i32 := wd5 tbMin (a.1 0) i
abbrev wMax (i : grid5.Coords) : Elt F .i32 := wd5 tbMax (a.1 1) i

/-- The accumulation step is taken at point `i`. -/
abbrev act5 (i : grid5.Coords) : Prop := k5_act (F := F) i (wMax a i) (wMin a i) = 1#1

/-! ## The scratch, point by point -/

/-- One point's effect on the scratch from what it held (`prev`): initialised at the first edge tile, then the
    step if its condition holds. -/
def step5 (i : grid5.Coords) (prev : Vec F S2048x64 .f32) (sn : Vec F S2048 .f32) (hw : Vec F S2048x64 .f32)
    (dst : Vec F S4096 .i32) (g : Vec F S4096x64 .f32) : Vec F S2048x64 .f32 :=
  if act5 a i then k5_pay2 i dst (if (i 1).val = 0 then k5_pay1 sn hw else prev) g
  else (if (i 1).val = 0 then k5_pay1 sn hw else prev)

/-- What the scratch holds after the body at point `n`. -/
def accAt5 (c : Dev nD) : (n : ℕ) → n < (cfg5 a).N → Vec F S2048x64 .f32
  | 0, h => step5 a (grid5.coords ⟨0, h⟩) (k5_pay1 (snB V a c ⟨0, h⟩) (hwB V a c ⟨0, h⟩)) (snB V a c ⟨0, h⟩) (hwB V a c ⟨0, h⟩)
      (dstB V a c ⟨0, h⟩) (gB V a c ⟨0, h⟩)
  | n + 1, h => step5 a (grid5.coords ⟨n + 1, h⟩) (accAt5 c n (Nat.lt_of_succ_lt h)) (snB V a c ⟨n + 1, h⟩) (hwB V a c ⟨n + 1, h⟩)
      (dstB V a c ⟨n + 1, h⟩) (gB V a c ⟨n + 1, h⟩)

/-- At a first edge tile the scratch restarts from the self term. -/
theorem accAt5_first (c : Dev nD) (t : Fin (cfg5 a).N) (hk : (grid5.coords t 1).val = 0) :
    accAt5 V a c t.val t.isLt
      = if act5 a (grid5.coords t) then k5_pay2 (grid5.coords t) (dstB V a c t) (k5_pay1 (snB V a c t) (hwB V a c t)) (gB V a c t)
        else k5_pay1 (snB V a c t) (hwB V a c t) := by
  obtain ⟨n, hn⟩ := t
  cases n with
  | zero => show step5 a _ _ _ _ _ _ = _; unfold step5; simp only [if_pos hk]
  | succ n => show step5 a _ _ _ _ _ _ = _; unfold step5; simp only [if_pos hk]

/-- At a later edge tile it continues from the point before. -/
theorem accAt5_next (c : Dev nD) (t : Fin (cfg5 a).N) (hk : (grid5.coords t 1).val ≠ 0) :
    accAt5 V a c t.val t.isLt
      = if act5 a (grid5.coords t)
        then k5_pay2 (grid5.coords t) (dstB V a c t) (accAt5 V a c (t.val - 1) (Nat.lt_of_le_of_lt (Nat.sub_le _ _) t.isLt)) (gB V a c t)
        else accAt5 V a c (t.val - 1) (Nat.lt_of_le_of_lt (Nat.sub_le _ _) t.isLt) := by
  obtain ⟨n, hn⟩ := t
  cases n with
  | zero => exact absurd (by rw [coords5_1]; rfl) hk
  | succ n => show step5 a _ _ _ _ _ _ = _; unfold step5; simp only [if_neg hk]; rfl

/-! ## The invariant between points -/

/-- The kernel's scratch operand: a whole scoped buffer of its own. -/
abbrev scM5 : Memref sig .tc .vmem S2048x64 .f32 := Memref.whole cc5_scratch0

/-- The scratch before point `n`: at anything before the first point, else at what the point before left. -/
def scr5 (c : Dev nD) : (n : ℕ) → n < (cfg5 a).N + 1 → sProp 𝕄
  | 0, _ => iprop(∃ d, owns (c : Thread nD τ) scM5 fullShare d)
  | n + 1, h => owns (c : Thread nD τ) scM5 fullShare (accAt5 V a c n (Nat.lt_of_succ_lt_succ h))

/-- The region's invariant before point `t`: the tables held whole at their contents, the scratch, the other scoped
    buffers unopened, the generator register at some state. -/
def Φ2 (c : Dev nD) (t : Fin ((cfg5 a).N + 1)) : sProp 𝕄 :=
  iprop(Pipeline.prefHeld (Ix := Unit) (Name := ℕ) (U := UR sig nD τ) (Lvl := ℕ) pre5 c (fun _ => fullShare) a.1
    ∗ scr5 V a c t.val t.isLt
    ∗ Pipeline.scopedRestBut (Ix := Unit) (Name := ℕ) (U := UR sig nD τ) (Lvl := ℕ) (Val := Elt F) spec5 c [cc5_scratch0]
    ∗ ∃ r, prngReg c r)

theorem scr5_ex (c : Dev nD) (n : ℕ) (h : n < (cfg5 a).N + 1) :
    scr5 V a c n h ⊢ (iprop(∃ d, owns (c : Thread nD τ) scM5 fullShare d) : sProp 𝕄) := by
  cases n with
  | zero => exact .rfl
  | succ n => show owns _ _ _ _ ⊢ _; iintro H; iexists _; iexact H

theorem scr5_pos (c : Dev nD) (n : ℕ) (h : n < (cfg5 a).N + 1) (hn : n ≠ 0) :
    scr5 V a c n h = owns (c : Thread nD τ) scM5 fullShare (accAt5 V a c (n - 1) (by omega)) := by
  cases n with
  | zero => exact absurd rfl hn
  | succ m => rfl

/-! ## The proof data -/

/-- The proof data of pipeline 5 on core `c`: the arrays as the region finds them; after the body each input's
    buffer at its block, the output's at the epilogue of the scratch (consulted only where the block is written
    back: at the last edge tile); the invariant `Φ2`; nothing owed; full shares. -/
def dat5 (c : Dev nD) : Dat τ (Elt F) Unit ℕ (UR sig nD τ) ℕ (cfg5 a) c where
  A w := V c (Pipeline.arrRef spec5 w)
  after w t := match w with
    | ⟨0, _⟩ => iblk5 V a c 0 t
    | ⟨1, _⟩ => iblk5 V a c 1 t
    | ⟨2, _⟩ => iblk5 V a c 2 t
    | ⟨3, _⟩ => iblk5 V a c 3 t
    | ⟨4, _⟩ => iblk5 V a c 4 t
    | ⟨5, _⟩ => k5_pay3 (accAt5 V a c t.val t.isLt) (biasB V a c t)
  Φ t := Φ2 V a c t
  q _ := fullShare
  owed _ := 0

theorem A_eq5 (c : Dev nD) (w : Fin (cfg5 a).W) : (dat5 V a c).A w = V c (Pipeline.arrRef spec5 w) := by
  dsimp only [dat5]

theorem after5_0 (c : Dev nD) (t : Fin (cfg5 a).N) : (dat5 V a c).after 0 t = iblk5 V a c 0 t := by dsimp only [dat5]; rfl
theorem after5_1 (c : Dev nD) (t : Fin (cfg5 a).N) : (dat5 V a c).after 1 t = iblk5 V a c 1 t := by dsimp only [dat5]; rfl
theorem after5_2 (c : Dev nD) (t : Fin (cfg5 a).N) : (dat5 V a c).after 2 t = iblk5 V a c 2 t := by dsimp only [dat5]; rfl
theorem after5_3 (c : Dev nD) (t : Fin (cfg5 a).N) : (dat5 V a c).after 3 t = iblk5 V a c 3 t := by dsimp only [dat5]; rfl
theorem after5_4 (c : Dev nD) (t : Fin (cfg5 a).N) : (dat5 V a c).after 4 t = iblk5 V a c 4 t := by dsimp only [dat5]; rfl
/-- The output's buffer after the body: the epilogue of the scratch (what the write-back writes at the last edge tile). -/
theorem after5_5 (c : Dev nD) (t : Fin (cfg5 a).N) :
    (dat5 V a c).after 5 t = k5_pay3 (accAt5 V a c t.val t.isLt) (biasB V a c t) := by dsimp only [dat5]; rfl

/-- Each input's current staging buffer holds its block at every point, fetched there or not: the body only
    reads it, the window is uncut and never idle. -/
theorem before5_0 (c : Dev nD) (t : Fin (cfg5 a).N) (d) : (dat5 V a c).before 0 t d = iblk5 V a c 0 t :=
  ((dat5 V a c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)
theorem before5_1 (c : Dev nD) (t : Fin (cfg5 a).N) (d) : (dat5 V a c).before 1 t d = iblk5 V a c 1 t :=
  ((dat5 V a c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)
theorem before5_2 (c : Dev nD) (t : Fin (cfg5 a).N) (d) : (dat5 V a c).before 2 t d = iblk5 V a c 2 t :=
  ((dat5 V a c).before_in_eq_fetched 2 rfl (fun _ => rfl) (fun _ _ _ => rfl)
    (fun t => by rw [after5_2]; unfold Dat.blockOf iblk5; rw [A_eq5]; try rfl) t d).trans
    (by unfold Dat.fetched Dat.blockOf iblk5; rw [A_eq5]; try rfl)
theorem before5_3 (c : Dev nD) (t : Fin (cfg5 a).N) (d) : (dat5 V a c).before 3 t d = iblk5 V a c 3 t :=
  ((dat5 V a c).before_in_eq_fetched 3 rfl (fun _ => rfl) (fun _ _ _ => rfl)
    (fun t => by rw [after5_3]; unfold Dat.blockOf iblk5; rw [A_eq5]; try rfl) t d).trans
    (by unfold Dat.fetched Dat.blockOf iblk5; rw [A_eq5]; try rfl)
theorem before5_4 (c : Dev nD) (t : Fin (cfg5 a).N) (d) : (dat5 V a c).before 4 t d = iblk5 V a c 4 t :=
  ((dat5 V a c).before_in_eq_fetched 4 rfl (fun _ => rfl) (fun _ _ _ => rfl)
    (fun t => by rw [after5_4]; unfold Dat.blockOf iblk5; rw [A_eq5]; try rfl) t d).trans
    (by unfold Dat.fetched Dat.blockOf iblk5; rw [A_eq5]; try rfl)

/-! ## The invariant, opened -/

/-- The tables, one by one. -/
theorem pref5_eq (c : Dev nD) :
    (Pipeline.prefHeld (Ix := Unit) (Name := ℕ) (U := UR sig nD τ) (Lvl := ℕ) pre5 c (fun _ => fullShare) a.1 : sProp 𝕄)
      = iprop(tbPt5 c tbMin (a.1 0) ∗ tbPt5 c tbMax (a.1 1)) := by
  unfold Pipeline.prefHeld
  rw [show (Finset.univ : Finset (Fin 2)) = insert (0 : Fin 2) {(1 : Fin 2)} from by decide,
    bigSep_insert (by decide), bigSep_singleton]
  rfl

theorem Phi_cast (c : Dev nD) (t : Fin (cfg5 a).N) :
    (dat5 V a c).Φ t.castSucc
      = iprop(Pipeline.prefHeld (Ix := Unit) (Name := ℕ) (U := UR sig nD τ) (Lvl := ℕ) pre5 c (fun _ => fullShare) a.1
          ∗ scr5 V a c t.val (Nat.lt_succ_of_lt t.isLt)
          ∗ Pipeline.scopedRestBut (Ix := Unit) (Name := ℕ) (U := UR sig nD τ) (Lvl := ℕ) (Val := Elt F) spec5 c [cc5_scratch0]
          ∗ ∃ r, prngReg c r) := by
  obtain ⟨n, hn⟩ := t; rfl

theorem Phi_succ (c : Dev nD) (t : Fin (cfg5 a).N) :
    (dat5 V a c).Φ t.succ
      = iprop(Pipeline.prefHeld (Ix := Unit) (Name := ℕ) (U := UR sig nD τ) (Lvl := ℕ) pre5 c (fun _ => fullShare) a.1
          ∗ owns (c : Thread nD τ) scM5 fullShare (accAt5 V a c t.val t.isLt)
          ∗ Pipeline.scopedRestBut (Ix := Unit) (Name := ℕ) (U := UR sig nD τ) (Lvl := ℕ) (Val := Elt F) spec5 c [cc5_scratch0]
          ∗ ∃ r, prngReg c r) := by
  obtain ⟨n, hn⟩ := t; rfl

theorem owes_succ (c : Dev nD) (t : Fin (cfg5 a).N) :
    (dat5 V a c).owesAt () t.succ = (dat5 V a c).owesAt () t.castSucc := rfl

/-! ## The body at a point -/

/-- Each window's current staging memref at point `t`, spelled as the pipeline passes it, and its wholeness. -/
abbrev ms5_0 (t : Fin (cfg5 a).N) : Memref sig .tc .vmem S4096 .i32 := spec5_0.stage ((cfg5 a).slots t 0)
abbrev hs5_0 (t : Fin (cfg5 a).N) : (ms5_0 a t).IsWhole := hstage5_0 (((cfg5 a).slots t 0).cast nbuf5_0)
abbrev ms5_1 (t : Fin (cfg5 a).N) : Memref sig .tc .vmem S4096x64 .f32 := spec5_1.stage ((cfg5 a).slots t 1)
abbrev hs5_1 (t : Fin (cfg5 a).N) : (ms5_1 a t).IsWhole := hstage5_1 (((cfg5 a).slots t 1).cast nbuf5_1)
abbrev ms5_2 (t : Fin (cfg5 a).N) : Memref sig .tc .vmem S2048x64 .f32 := spec5_2.stage ((cfg5 a).slots t 2)
abbrev hs5_2 (t : Fin (cfg5 a).N) : (ms5_2 a t).IsWhole := hstage5_2 (((cfg5 a).slots t 2).cast nbuf5_2)
abbrev ms5_3 (t : Fin (cfg5 a).N) : Memref sig .tc .vmem S2048 .f32 := spec5_3.stage ((cfg5 a).slots t 3)
abbrev hs5_3 (t : Fin (cfg5 a).N) : (ms5_3 a t).IsWhole := hstage5_3 (((cfg5 a).slots t 3).cast nbuf5_3)
abbrev ms5_4 (t : Fin (cfg5 a).N) : Memref sig .tc .vmem S1x64 .f32 := spec5_4.stage ((cfg5 a).slots t 4)
abbrev hs5_4 (t : Fin (cfg5 a).N) : (ms5_4 a t).IsWhole := hstage5_4 (((cfg5 a).slots t 4).cast nbuf5_4)
abbrev ms5_5 (t : Fin (cfg5 a).N) : Memref sig .tc .vmem S2048x64 .f32 := spec5_5.stage ((cfg5 a).slots t 5)
abbrev hs5_5 (t : Fin (cfg5 a).N) : (ms5_5 a t).IsWhole := hstage5_5 (((cfg5 a).slots t 5).cast nbuf5_5)

/-- The kernel body at point `t`, on what the pipeline calls it with. -/
abbrev bodyAt5 (t : Fin (cfg5 a).N) : Prog (TpuEff nD τ sig (Elt F) Λ₀ .tc) PUnit :=
  cc5__scatter_kernel (grid5.coords t) tbMin htbMin tbMax htbMax (ms5_0 a t) (hs5_0 a t) (ms5_1 a t) (hs5_1 a t) (ms5_2 a t) (hs5_2 a t)
    (ms5_3 a t) (hs5_3 a t) (ms5_4 a t) (hs5_4 a t) (ms5_5 a t) (hs5_5 a t) scM5 (Memref.isWhole_whole _)

/-- What the body is called with at point `t`, the windows one by one, -/
def bodyPre5 (c : Dev nD) (t : Fin (cfg5 a).N) : sProp 𝕄 :=
  iprop((dat5 V a c).Φ t.castSucc ∗ (dat5 V a c).owesAt () t.castSucc
    ∗ (∃ d, owns (c : Thread nD τ) (ms5_0 a t) fullShare ((dat5 V a c).before 0 t d))
    ∗ (∃ d, owns (c : Thread nD τ) (ms5_1 a t) fullShare ((dat5 V a c).before 1 t d))
    ∗ (∃ d, owns (c : Thread nD τ) (ms5_2 a t) fullShare ((dat5 V a c).before 2 t d))
    ∗ (∃ d, owns (c : Thread nD τ) (ms5_3 a t) fullShare ((dat5 V a c).before 3 t d))
    ∗ (∃ d, owns (c : Thread nD τ) (ms5_4 a t) fullShare ((dat5 V a c).before 4 t d))
    ∗ (∃ d, owns (c : Thread nD τ) (ms5_5 a t) fullShare ((dat5 V a c).before 5 t d)))

/-- and what it returns: the output's buffer as found where the window is idle, at the epilogue where it is stored. -/
def bodyPost5 (c : Dev nD) (t : Fin (cfg5 a).N) : sProp 𝕄 :=
  iprop((dat5 V a c).Φ t.succ ∗ (dat5 V a c).owesAt () t.succ
    ∗ owns (c : Thread nD τ) (ms5_0 a t) fullShare ((dat5 V a c).after 0 t)
    ∗ owns (c : Thread nD τ) (ms5_1 a t) fullShare ((dat5 V a c).after 1 t)
    ∗ owns (c : Thread nD τ) (ms5_2 a t) fullShare ((dat5 V a c).after 2 t)
    ∗ owns (c : Thread nD τ) (ms5_3 a t) fullShare ((dat5 V a c).after 3 t)
    ∗ owns (c : Thread nD τ) (ms5_4 a t) fullShare ((dat5 V a c).after 4 t)
    ∗ (dat5 V a c).leavesExact 5 t)

/-- Where the output is stored the window is live: its buffer ends at `after`. -/
theorem leaves5_live (c : Dev nD) (t : Fin (cfg5 a).N) (h : (cfg5 a).idle 5 ((cfg5 a).grid.coords t) = false) :
    (dat5 V a c).leavesExact 5 t = owns (c : Thread nD τ) (ms5_5 a t) fullShare ((dat5 V a c).after 5 t) := by
  unfold Dat.leavesExact; rw [h]; rfl

set_option maxHeartbeats 1000000 in
/-- The body at any point. The point's place on the grid decides the first and the last conditional; the middle
    one is decided by cases on the table words, which stay variables. In each case the matching run applies: the
    inputs' memrefs hold their blocks, the scratch what the point before left (anything at a first edge tile), and
    the scratch's new contents are `accAt5` at the point by its recursion. -/
theorem sound_body5 (c : Dev nD) (t : Fin (cfg5 a).N) :
    bodyPre5 V a c t ⊢ wp frame (wpE (defs₀ (F := F)) Variants.none c none) Set.univ (bodyAt5 a t) (fun _ => bodyPost5 V a c t) := by
  have hN : t.val < 19159 := lt_of_lt_of_eq t.isLt N_5
  have hk : (grid5.coords t 1).val = t.val % 391 := coords5_1 t
  unfold bodyPre5 bodyPost5
  simp only [before5_0, before5_1, before5_2, before5_3, before5_4]
  rw [after5_0, after5_1, after5_2, after5_3, after5_4, Phi_cast, Phi_succ, owes_succ, pref5_eq]
  by_cases h0 : t.val % 391 = 0
  · -- a first edge tile: the scratch restarts; the output window is idle and not written back
    have hc1 : k5_c1 (grid5.coords t) := (c1_iff _).mpr (hk.trans h0)
    have hc3 : ¬ k5_cond3 (grid5.coords t) = 1#1 := fun h => by have := (cond3_iff _).mp h; omega
    have hidle : (cfg5 a).idle 5 ((cfg5 a).grid.coords t) = true := by
      rw [idle5_5, beq_eq_false_iff_ne.mpr hc3]; rfl
    have hfl : ((cfg5 a).win 5).flush t = false := by
      rw [Bool.eq_false_iff]; intro h; have := (flush5_5 a t).mp h; omega
    rw [Dat.leavesExact_idle _ 5 t hidle hfl]
    by_cases hc2 : act5 a (grid5.coords t)
    · have hacc := accAt5_first V a c t (hk.trans h0)
      rw [if_pos hc2] at hacc
      rw [hacc]
      iintro ⟨⟨⟨HT0, HT1⟩, HS, HR, HG⟩, Ho, ⟨%d0, H0⟩, ⟨%d1, H1⟩, ⟨%d2, H2⟩, ⟨%d3, H3⟩, ⟨%d4, H4⟩, ⟨%d5, H5⟩⟩
      ihave HS' := (scr5_ex V a c _ _) $$ HS
      iapply (run5_FA c (grid5.coords t) (ms5_0 a t) (hs5_0 a t) (ms5_1 a t) (hs5_1 a t) (ms5_2 a t) (hs5_2 a t) (ms5_3 a t) (hs5_3 a t)
        (ms5_4 a t) (hs5_4 a t) (ms5_5 a t) (hs5_5 a t) scM5 (Memref.isWhole_whole _)
        (dstB V a c t) (gB V a c t) (hwB V a c t) (snB V a c t) (biasB V a c t) (a.1 0) (a.1 1) hc1 hc2 hc3
        ((dat5 V a c).before 5 t d5) Set.univ _)
      unfold kin5
      isplitl [H0 H1 H2 H3 H4 HT0 HT1]
      · isplitl [H0]; · iexact H0
        isplitl [H1]; · iexact H1
        isplitl [H2]; · iexact H2
        isplitl [H3]; · iexact H3
        isplitl [H4]; · iexact H4
        isplitl [HT0]; · iexact HT0
        iexact HT1
      isplitl [HS']; · iexact HS'
      isplitl [H5]; · iexact H5
      iintro ⟨⟨H0, H1, H2, H3, H4, HT0, HT1⟩, HS, H5⟩
      isplitl [HT0 HT1 HS HR HG]
      · isplitl [HT0 HT1]
        · isplitl [HT0]; · iexact HT0
          iexact HT1
        isplitl [HS]; · iexact HS
        isplitl [HR]; · iexact HR
        iexact HG
      isplitl [Ho]; · iexact Ho
      isplitl [H0]; · iexact H0
      isplitl [H1]; · iexact H1
      isplitl [H2]; · iexact H2
      isplitl [H3]; · iexact H3
      isplitl [H4]; · iexact H4
      iexists d5; iexact H5
    · have hacc := accAt5_first V a c t (hk.trans h0)
      rw [if_neg hc2] at hacc
      rw [hacc]
      iintro ⟨⟨⟨HT0, HT1⟩, HS, HR, HG⟩, Ho, ⟨%d0, H0⟩, ⟨%d1, H1⟩, ⟨%d2, H2⟩, ⟨%d3, H3⟩, ⟨%d4, H4⟩, ⟨%d5, H5⟩⟩
      ihave HS' := (scr5_ex V a c _ _) $$ HS
      iapply (run5_FI c (grid5.coords t) (ms5_0 a t) (hs5_0 a t) (ms5_1 a t) (hs5_1 a t) (ms5_2 a t) (hs5_2 a t) (ms5_3 a t) (hs5_3 a t)
        (ms5_4 a t) (hs5_4 a t) (ms5_5 a t) (hs5_5 a t) scM5 (Memref.isWhole_whole _)
        (dstB V a c t) (gB V a c t) (hwB V a c t) (snB V a c t) (biasB V a c t) (a.1 0) (a.1 1) hc1 hc2 hc3
        ((dat5 V a c).before 5 t d5) Set.univ _)
      unfold kin5
      isplitl [H0 H1 H2 H3 H4 HT0 HT1]
      · isplitl [H0]; · iexact H0
        isplitl [H1]; · iexact H1
        isplitl [H2]; · iexact H2
        isplitl [H3]; · iexact H3
        isplitl [H4]; · iexact H4
        isplitl [HT0]; · iexact HT0
        iexact HT1
      isplitl [HS']; · iexact HS'
      isplitl [H5]; · iexact H5
      iintro ⟨⟨H0, H1, H2, H3, H4, HT0, HT1⟩, HS, H5⟩
      isplitl [HT0 HT1 HS HR HG]
      · isplitl [HT0 HT1]
        · isplitl [HT0]; · iexact HT0
          iexact HT1
        isplitl [HS]; · iexact HS
        isplitl [HR]; · iexact HR
        iexact HG
      isplitl [Ho]; · iexact Ho
      isplitl [H0]; · iexact H0
      isplitl [H1]; · iexact H1
      isplitl [H2]; · iexact H2
      isplitl [H3]; · iexact H3
      isplitl [H4]; · iexact H4
      iexists d5; iexact H5
  · -- a later edge tile: the scratch holds what the point before left
    have ht0 : t.val ≠ 0 := fun h => h0 (by rw [h])
    have hc1 : ¬ k5_c1 (grid5.coords t) := fun h => h0 (hk.symm.trans ((c1_iff _).mp h))
    have hk' : (grid5.coords t 1).val ≠ 0 := fun h => h0 (hk.symm.trans h)
    rw [scr5_pos V a c t.val _ ht0]
    by_cases hL : t.val % 391 = 390
    · -- the last edge tile: the output block is stored, and written back
      have hc3 : k5_cond3 (grid5.coords t) = 1#1 := (cond3_iff _).mpr (hk.trans hL)
      have hlive : (cfg5 a).idle 5 ((cfg5 a).grid.coords t) = false := by
        rw [idle5_5, hc3]; rfl
      rw [leaves5_live V a c t hlive, after5_5]
      by_cases hc2 : act5 a (grid5.coords t)
      · have hacc := accAt5_next V a c t hk'
        rw [if_pos hc2] at hacc
        rw [hacc]
        iintro ⟨⟨⟨HT0, HT1⟩, HS, HR, HG⟩, Ho, ⟨%d0, H0⟩, ⟨%d1, H1⟩, ⟨%d2, H2⟩, ⟨%d3, H3⟩, ⟨%d4, H4⟩, ⟨%d5, H5⟩⟩
        iapply (run5_LA c (grid5.coords t) (ms5_0 a t) (hs5_0 a t) (ms5_1 a t) (hs5_1 a t) (ms5_2 a t) (hs5_2 a t) (ms5_3 a t) (hs5_3 a t)
          (ms5_4 a t) (hs5_4 a t) (ms5_5 a t) (hs5_5 a t) scM5 (Memref.isWhole_whole _)
          (dstB V a c t) (gB V a c t) (hwB V a c t) (snB V a c t) (biasB V a c t) (a.1 0) (a.1 1) hc1 hc2 hc3
          (accAt5 V a c (t.val - 1) (Nat.lt_of_le_of_lt (Nat.sub_le _ _) t.isLt)) Set.univ _)
        unfold kin5
        isplitl [H0 H1 H2 H3 H4 HT0 HT1]
        · isplitl [H0]; · iexact H0
          isplitl [H1]; · iexact H1
          isplitl [H2]; · iexact H2
          isplitl [H3]; · iexact H3
          isplitl [H4]; · iexact H4
          isplitl [HT0]; · iexact HT0
          iexact HT1
        isplitl [HS]; · iexact HS
        isplitl [H5]; · iexists _; iexact H5
        iintro ⟨⟨H0, H1, H2, H3, H4, HT0, HT1⟩, HS, H5⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        isplitl [H3]; · iexact H3
        isplitl [H4]; · iexact H4
        iexact H5
      · have hacc := accAt5_next V a c t hk'
        rw [if_neg hc2] at hacc
        rw [hacc]
        iintro ⟨⟨⟨HT0, HT1⟩, HS, HR, HG⟩, Ho, ⟨%d0, H0⟩, ⟨%d1, H1⟩, ⟨%d2, H2⟩, ⟨%d3, H3⟩, ⟨%d4, H4⟩, ⟨%d5, H5⟩⟩
        iapply (run5_LI c (grid5.coords t) (ms5_0 a t) (hs5_0 a t) (ms5_1 a t) (hs5_1 a t) (ms5_2 a t) (hs5_2 a t) (ms5_3 a t) (hs5_3 a t)
          (ms5_4 a t) (hs5_4 a t) (ms5_5 a t) (hs5_5 a t) scM5 (Memref.isWhole_whole _)
          (dstB V a c t) (gB V a c t) (hwB V a c t) (snB V a c t) (biasB V a c t) (a.1 0) (a.1 1) hc1 hc2 hc3
          (accAt5 V a c (t.val - 1) (Nat.lt_of_le_of_lt (Nat.sub_le _ _) t.isLt)) Set.univ _)
        unfold kin5
        isplitl [H0 H1 H2 H3 H4 HT0 HT1]
        · isplitl [H0]; · iexact H0
          isplitl [H1]; · iexact H1
          isplitl [H2]; · iexact H2
          isplitl [H3]; · iexact H3
          isplitl [H4]; · iexact H4
          isplitl [HT0]; · iexact HT0
          iexact HT1
        isplitl [HS]; · iexact HS
        isplitl [H5]; · iexists _; iexact H5
        iintro ⟨⟨H0, H1, H2, H3, H4, HT0, HT1⟩, HS, H5⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        isplitl [H3]; · iexact H3
        isplitl [H4]; · iexact H4
        iexact H5
    · -- a middle edge tile: the output window is idle and not written back
      have hc3 : ¬ k5_cond3 (grid5.coords t) = 1#1 := fun h => hL (hk.symm.trans ((cond3_iff _).mp h))
      have hidle : (cfg5 a).idle 5 ((cfg5 a).grid.coords t) = true := by
        rw [idle5_5, beq_eq_false_iff_ne.mpr hc3]; rfl
      have hfl : ((cfg5 a).win 5).flush t = false := by
        rw [Bool.eq_false_iff]; intro h; exact hL ((flush5_5 a t).mp h)
      rw [Dat.leavesExact_idle _ 5 t hidle hfl]
      by_cases hc2 : act5 a (grid5.coords t)
      · have hacc := accAt5_next V a c t hk'
        rw [if_pos hc2] at hacc
        rw [hacc]
        iintro ⟨⟨⟨HT0, HT1⟩, HS, HR, HG⟩, Ho, ⟨%d0, H0⟩, ⟨%d1, H1⟩, ⟨%d2, H2⟩, ⟨%d3, H3⟩, ⟨%d4, H4⟩, ⟨%d5, H5⟩⟩
        iapply (run5_MA c (grid5.coords t) (ms5_0 a t) (hs5_0 a t) (ms5_1 a t) (hs5_1 a t) (ms5_2 a t) (hs5_2 a t) (ms5_3 a t) (hs5_3 a t)
          (ms5_4 a t) (hs5_4 a t) (ms5_5 a t) (hs5_5 a t) scM5 (Memref.isWhole_whole _)
          (dstB V a c t) (gB V a c t) (hwB V a c t) (snB V a c t) (biasB V a c t) (a.1 0) (a.1 1) hc1 hc2 hc3
          (accAt5 V a c (t.val - 1) (Nat.lt_of_le_of_lt (Nat.sub_le _ _) t.isLt)) ((dat5 V a c).before 5 t d5) Set.univ _)
        unfold kin5
        isplitl [H0 H1 H2 H3 H4 HT0 HT1]
        · isplitl [H0]; · iexact H0
          isplitl [H1]; · iexact H1
          isplitl [H2]; · iexact H2
          isplitl [H3]; · iexact H3
          isplitl [H4]; · iexact H4
          isplitl [HT0]; · iexact HT0
          iexact HT1
        isplitl [HS]; · iexact HS
        isplitl [H5]; · iexact H5
        iintro ⟨⟨H0, H1, H2, H3, H4, HT0, HT1⟩, HS, H5⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        isplitl [H3]; · iexact H3
        isplitl [H4]; · iexact H4
        iexists d5; iexact H5
      · have hacc := accAt5_next V a c t hk'
        rw [if_neg hc2] at hacc
        rw [hacc]
        iintro ⟨⟨⟨HT0, HT1⟩, HS, HR, HG⟩, Ho, ⟨%d0, H0⟩, ⟨%d1, H1⟩, ⟨%d2, H2⟩, ⟨%d3, H3⟩, ⟨%d4, H4⟩, ⟨%d5, H5⟩⟩
        iapply (run5_MI c (grid5.coords t) (ms5_0 a t) (hs5_0 a t) (ms5_1 a t) (hs5_1 a t) (ms5_2 a t) (hs5_2 a t) (ms5_3 a t) (hs5_3 a t)
          (ms5_4 a t) (hs5_4 a t) (ms5_5 a t) (hs5_5 a t) scM5 (Memref.isWhole_whole _)
          (dstB V a c t) (gB V a c t) (hwB V a c t) (snB V a c t) (biasB V a c t) (a.1 0) (a.1 1) hc1 hc2 hc3
          (accAt5 V a c (t.val - 1) (Nat.lt_of_le_of_lt (Nat.sub_le _ _) t.isLt)) ((dat5 V a c).before 5 t d5) Set.univ _)
        unfold kin5
        isplitl [H0 H1 H2 H3 H4 HT0 HT1]
        · isplitl [H0]; · iexact H0
          isplitl [H1]; · iexact H1
          isplitl [H2]; · iexact H2
          isplitl [H3]; · iexact H3
          isplitl [H4]; · iexact H4
          isplitl [HT0]; · iexact HT0
          iexact HT1
        isplitl [HS]; · iexact HS
        isplitl [H5]; · iexact H5
        iintro ⟨⟨H0, H1, H2, H3, H4, HT0, HT1⟩, HS, H5⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        isplitl [H3]; · iexact H3
        isplitl [H4]; · iexact H4
        iexists d5; iexact H5

/-- The library's body obligation, at every point. -/
theorem body_obligation5 (c : Dev nD) : BodyObligation (dat5 (F := F) V a c) (defs₀ (F := F)) Variants.none () Set.univ := fun t => by
  rw [bigSep_W5, bigSep_W5]
  exact sound_body5 V a c t

/-! ## The invariant at the region's two ends -/

/-- The scratch as the region finds it (a scoped buffer at some contents) is the scratch memref owned at some contents. -/
theorem scr_in (c : Dev nD) :
    (iprop(∃ f : Buf (Elt F) ((c : Thread nD τ).loc cc5_scratch0), ((c : Thread nD τ).loc cc5_scratch0) ↦{fullShare} f) : sProp 𝕄)
      ⊢ iprop(∃ d, owns (c : Thread nD τ) scM5 fullShare d) := by
  simp only [owns_whole]; exact .rfl

theorem scr_out (c : Dev nD) :
    (iprop(∃ d, owns (c : Thread nD τ) scM5 fullShare d) : sProp 𝕄)
      ⊢ iprop(∃ f : Buf (Elt F) ((c : Thread nD τ).loc cc5_scratch0), ((c : Thread nD τ).loc cc5_scratch0) ↦{fullShare} f) := by
  simp only [owns_whole]; exact .rfl

/-- The invariant before the first point, from the generator register, the tables and the scoped rest. -/
theorem hin5 (c : Dev nD) :
    iprop((∃ r, prngReg c r) ∗ Pipeline.prefHeld pre5 c (fun _ => fullShare) a.1 ∗ Pipeline.scopedRest spec5 c) ⊢ (dat5 V a c).Φ 0 := by
  rw [scopedRest5_split]
  show _ ⊢ Φ2 V a c 0
  unfold Φ2
  show _ ⊢ iprop(_ ∗ (∃ d, owns (c : Thread nD τ) scM5 fullShare d) ∗ _ ∗ _)
  iintro ⟨HG, HT, HS, HR⟩
  isplitl [HT]; · iexact HT
  isplitl [HS]; · iapply (scr_in c); iexact HS
  isplitl [HR]; · iexact HR
  iexact HG

/-- The invariant after the last point gives the generator register and the tables (at the full share) back, and
    the scoped rest; the kernel has no semaphore of its own. -/
theorem hout5 (c : Dev nD) :
    (dat5 V a c).Φ (Fin.last _)
      ⊢ iprop(((∃ r, prngReg c r) ∗ Pipeline.prefHeld pre5 c (fun _ => fullShare) a.1) ∗ Pipeline.ownSems0 (fun k : PEmpty => k.elim) c ∗ Pipeline.scopedRest spec5 c) := by
  rw [scopedRest5_split, Pipeline.ownSems0_none]
  show Φ2 V a c (Fin.last _) ⊢ _
  unfold Φ2
  iintro ⟨HT, HS, HR, HG⟩
  ihave HS' := (scr5_ex V a c _ _) $$ HS
  isplitl [HG HT]
  · isplitl [HG]; · iexact HG
    iexact HT
  isplitr
  · iempintro
  isplitl [HS']; · iapply (scr_out c); iexact HS'
  iexact HR

end Cert.KernelIdeal.R5

end
-- ==== Proof.R6Frame.lean ====
/- Region 6 of @main: the third dense layer, rows of the second layer's activations times the third weight matrix.
   What the pipeline's body finds in its staged operands and leaves in its output buffer at every grid point,
   the proof data built from that at the buffer contents the region is entered with, and the body obligation. -/
import proofs.«417346_j54202487276072_2_alg».proof.Proof.Gen.KernelIdeal.Launch
import proofs.«417346_j54202487276072_2_alg».proof.Proof.Gen.KernelIdeal.Skeleton
import proofs.«417346_j54202487276072_2_alg».proof.Proof.Gen.KernelIdeal.Points
import Idealize.ShloMosaic.Lib.Pipeline.FrameBody
import Idealize.ShloMosaic.Lib.Pipeline.Value
import Idealize.ShloMosaic.Lib.Tactic

noncomputable section

namespace Cert.KernelIdeal.R6

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! # Region 6: the third dense layer, one row block per grid point

The grid has 49 points. At point `t` the pipeline stages rows `2048·t … 2048·t + 2047` of the padded feature
matrix (window 0), the whole weight matrix (window 1, staged once, at the first point) and gives the body a
buffer for the same rows of the product (window 2). The body reads both staged operands whole, multiplies them
into a zero accumulator, and overwrites the whole output buffer; it keeps nothing between points. Everything
here is stated at the buffer contents `V` with which the region is entered. -/

section Region
variable (V : (c : Dev nD) → (b : Ref sig .tc) → Buf (Elt F) ((c : Thread nD τ).loc b))

/-! ## The windows' blocks -/

/-- The block of window `w` at grid point `t`: its array, as the region finds it, read through the window's
    rectangle at that point. -/
def iblk6 (c : Dev nD) (w : Fin cfg6.W) (t : Fin cfg6.N) :
    ((cfg6.win w).xblock (cfg6.grid.coords t)).Idx → Elt F (cfg6.win w).elt :=
  ((cfg6.win w).blk t).view.read (Elt F) (V c (Pipeline.arrRef spec6 w))

/-- The row-block window holds its block at every point: it is fetched at each one, and the body leaves it as
    found. Stated for any proof data with `V`'s array and a body that keeps the block. -/
theorem held6_0 {c : Dev nD} (dat : Dat τ (Elt F) Unit ℕ (UR sig nD τ) ℕ cfg6 c)
    (hA : dat.A 0 = V c (Pipeline.arrRef spec6 0)) (hafter : ∀ t, dat.after 0 t = iblk6 V c 0 t)
    (t : Fin cfg6.N) (d) : dat.before 0 t d = iblk6 V c 0 t :=
  (dat.before_in_eq_fetched 0 rfl (fun _ => rfl) (fun _ _ _ => rfl)
      (fun t => by rw [hafter]; unfold Dat.blockOf iblk6; rw [hA]; try rfl) t d).trans
    (by unfold Dat.fetched Dat.blockOf iblk6; rw [hA]; try rfl)

/-- The weight window holds the whole weight matrix at every point although it is fetched at the first only:
    its block index never moves, so at a later point the buffer still holds the previous point's block, which
    is this point's. -/
theorem held6_1 {c : Dev nD} (dat : Dat τ (Elt F) Unit ℕ (UR sig nD τ) ℕ cfg6 c)
    (hA : dat.A 1 = V c (Pipeline.arrRef spec6 1)) (hafter : ∀ t, dat.after 1 t = iblk6 V c 1 t)
    (t : Fin cfg6.N) (d) : dat.before 1 t d = iblk6 V c 1 t :=
  (dat.before_in_eq_fetched 1 rfl (fun _ => rfl) (fun _ _ _ => rfl)
      (fun t => by rw [hafter]; unfold Dat.blockOf iblk6; rw [hA]; try rfl) t d).trans
    (by unfold Dat.fetched Dat.blockOf iblk6; rw [hA]; try rfl)

/-! ## The body's accesses: each staging buffer whole -/

abbrev rLhs6 : Rect S2048x64 := Rect.unit (s := S2048x64) ![0, 0] S2048x64.size inb_S2048x64_S2048x64_0_0
abbrev rRhs6 : Rect S64x32 := Rect.unit (s := S64x32) ![0, 0] S64x32.size inb_S64x32_S64x32_0_0
abbrev rOut6 : Rect S2048x32 := Rect.unit (s := S2048x32) ![0, 0] S2048x32.size inb_S2048x32_S2048x32_0_0

/-- The offsets of those rectangles are zero on both axes. -/
theorem zeroOff : (![0, 0] : Fin 2 → Nat) = fun _ => 0 := funext fun a => by fin_cases a <;> rfl

/-! ## What the body leaves in the output buffer -/

/-- The output buffer after the body, as a function of the two staged operands: its one store, through the
    whole-buffer rectangle, of the product payload of the two whole-buffer loads. -/
def out6_2 (x0 : Vec F S2048x64 .f32) (x1 : Vec F S64x32 .f32) : Vec F S2048x32 .f32 :=
  View.canon [⟨rOut6, k6_pay1 (View.ld x0 rLhs6) (View.ld x1 rRhs6)⟩]

/-- That one store covers the buffer: its rectangle is the whole shape. -/
theorem covers6_2 (p : Vec F S2048x32 .f32) (y : S2048x32.Idx) :
    ∃ pc ∈ ([⟨rOut6, p⟩] : List (View.Piece (Elt F) S2048x32 .f32)), y ∈ pc.1.set :=
  ⟨_, List.mem_singleton_self _, View.mem_set_unit_zero zeroOff inb_S2048x32_S2048x32_0_0 y⟩

/-! ## The body's triple -/

set_option maxHeartbeats 1000000 in
/-- On whole staging memrefs, the operands' at contents `x0`, `x1` and the output's at anything, the body runs to
    a continuation that holds the operands' as they were and the output's at `out6_2 x0 x1`. The body is its
    skeleton: three loads (the third, of the output buffer, is discarded) and one covering store. -/
theorem triple6 (c : Dev nD) (E : Set ℕ) (i : grid6.Coords)
    (arg1 : Memref sig .tc .vmem S2048x64 .f32) (harg1 : arg1.IsWhole)
    (arg2 : Memref sig .tc .vmem S64x32 .f32) (harg2 : arg2.IsWhole)
    (arg3 : Memref sig .tc .vmem S2048x32 .f32) (harg3 : arg3.IsWhole)
    (x0 : Vec F S2048x64 .f32) (x1 : Vec F S64x32 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out6_2 x0 x1)) -∗ K ⟨⟩))
      ⊢ wp frame (wpE (defs₀ (F := F)) Variants.none c none) E
          (cc6__dense_kernel i arg1 harg1 arg2 harg2 arg3 harg3) K := by
  simp only [cc6__dense_kernel_eq_skeleton]; unfold cc6__dense_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers6_2 _)

/-! ## The pipeline's proof data -/

/-- Pipeline 6's proof data on core `c`: the arrays as the region finds them; after the body at point `t` each
    operand's buffer still at its block and the output's at `out6_2` of the two blocks; the invariant is the
    scoped rest and the generator register, untouched; full shares; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) :
    (dat6 V c).after 2 t = out6_2 (iblk6 V c 0 t) (iblk6 V c 1 t) := by dsimp only [dat6]

/-- Each operand's current staging buffer holds its block at every point. -/
theorem before6_0 (c : Dev nD) (t : Fin cfg6.N) (d) : (dat6 V c).before 0 t d = iblk6 V c 0 t :=
  held6_0 V (dat6 V c) (A_eq6 V c 0) (after6_0 V c) t d
theorem before6_1 (c : Dev nD) (t : Fin cfg6.N) (d) : (dat6 V c).before 1 t d = iblk6 V c 1 t :=
  held6_1 V (dat6 V c) (A_eq6 V c 1) (after6_1 V c) t d

/-! ## The body obligation -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the operands' memrefs hold their blocks, so the body's triple applies; the invariant
    and the core's tallies pass through unread. -/
theorem sound_body6 (c : Dev nD) (t : Fin cfg6.N) :
    bodyPre6 V c t ⊢ wp frame (wpE (defs₀ (F := F)) Variants.none c none) Set.univ (bodyAt6 t)
      (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (triple6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) :
    BodyObligation (dat6 (F := F) V c) (defs₀ (F := F)) Variants.none () Set.univ := fun t => by
  rw [bigSep_W6, bigSep_W6]
  exact sound_body6 V c t

end Region

end Cert.KernelIdeal.R6

end
-- ==== Proof.R7Sched.lean ====
/- The schedule of the gather region (grid [391, 49], point t ↔ (e, j) = (t / 49, t % 49), j the inner axis), at any
   admissible contents `a` of its two prefetched tables: the index maps do not read the tables, so each window's block
   index is a closed form in t, and with it which points fetch an input (src and norm: where j = 0; the node block:
   every point), which write the output back (where j = 48) and where the output is idle (where j ≠ 48). -/
import proofs.«417346_j54202487276072_2_alg».proof.Proof.Gen.KernelIdeal.Launch

noncomputable section

namespace Cert.KernelIdeal.R7

open Cert.KernelIdeal Cert.KernelIdeal.Gen
open Idealize.ShloMosaic Idealize.ShloMosaic.TcCoe
open Idealize.SL Idealize.SL.Sem

variable {F : FTy → Type} [FloatOps F]

/-! ## The coordinates of a point -/

theorem stride7_0 : grid7.stride 0 = 49 := by decide
theorem stride7_1 : grid7.stride 1 = 1 := by decide

/-- The outer coordinate (the edge tile) of point t is t / 49. -/
theorem coords7_0 (t : Fin grid7.N) : (grid7.coords t 0).val = t.val / 49 := by
  have h : t.val < 19159 := Nat.lt_of_lt_of_eq t.isLt N_7
  show t.val / grid7.stride 0 % 391 = _
  rw [stride7_0]; omega

/-- The inner coordinate (the node tile) of point t is t % 49. -/
theorem coords7_1 (t : Fin grid7.N) : (grid7.coords t 1).val = t.val % 49 := by
  show t.val / grid7.stride 1 % 49 = _
  rw [stride7_1, Nat.div_one]

theorem vec2_ne {x y : ℕ} : (![x, 0] : Fin 2 → ℕ) ≠ ![y, 0] ↔ x ≠ y :=
  ⟨fun h hxy => h (by rw [hxy]), fun h heq => h (congrFun heq 0)⟩
theorem vec1_ne {x y : ℕ} : (![x] : Fin 1 → ℕ) ≠ ![y] ↔ x ≠ y :=
  ⟨fun h hxy => h (by rw [hxy]), fun h heq => h (congrFun heq 0)⟩

variable (a : (pcfg7 (F := F)).Adm)

/-! ## The windows' block indices, in closed form -/

theorem idx7_0 (t : Fin (cfg7 a).N) : ((cfg7 a).win 0).index t = ![t.val / 49] := by
  have h : t.val < 19159 := Nat.lt_of_lt_of_eq t.isLt N_7
  show cc7_transform_0 (grid7.coords t) = _
  unfold cc7_transform_0
  simp only [BitVec.toNat_ofNat, coords7_0]
  rw [Nat.mod_eq_of_lt (by omega)]

theorem idx7_1 (t : Fin (cfg7 a).N) : ((cfg7 a).win 1).index t = ![t.val / 49] := by
  have h : t.val < 19159 := Nat.lt_of_lt_of_eq t.isLt N_7
  show cc7_transform_1 (grid7.coords t) = _
  unfold cc7_transform_1
  simp only [BitVec.toNat_ofNat, coords7_0]
  rw [Nat.mod_eq_of_lt (by omega)]

theorem idx7_2 (t : Fin (cfg7 a).N) : ((cfg7 a).win 2).index t = ![t.val % 49, 0] := by
  show cc7_transform_2 (grid7.coords t) = _
  unfold cc7_transform_2
  simp only [BitVec.toNat_ofNat, coords7_1]
  rw [Nat.mod_eq_of_lt (by omega)]

theorem idx7_3 (t : Fin (cfg7 a).N) : ((cfg7 a).win 3).index t = ![t.val / 49, 0] := by
  have h : t.val < 19159 := Nat.lt_of_lt_of_eq t.isLt N_7
  show cc7_transform_3 (grid7.coords t) = _
  unfold cc7_transform_3
  simp only [BitVec.toNat_ofNat, coords7_0]
  rw [Nat.mod_eq_of_lt (by omega)]

/-! ## Which points fetch, which write back -/

/-- The output block is written back exactly at the last node tile of each edge tile (j = 48). -/
theorem flush7_3 (t : Fin (cfg7 a).N) : ((cfg7 a).win 3).flush t = true ↔ t.val % 49 = 48 := by
  have hN : (pcfg7.gridAt a.1).N = 19159 := N_7
  have hN' : (cfg7 a).N = 19159 := N_7
  have hN'' : (cfg7 a).grid.N = 19159 := N_7
  have ht : t.val < 19159 := Nat.lt_of_lt_of_eq t.isLt N_7
  have key : ∀ (s s' : Fin (cfg7 a).N), ((cfg7 a).win 3).index s ≠ ((cfg7 a).win 3).index s' ↔ s.val / 49 ≠ s'.val / 49 :=
    fun s s' => by rw [idx7_3, idx7_3]; exact vec2_ne
  unfold Pipeline.Window.flush
  rw [show ((cfg7 a).win 3).isOut = true from rfl, Bool.true_and, Bool.or_eq_true, decide_eq_true_eq, decide_eq_true_eq]
  constructor
  · rintro (h | ⟨h, hne⟩)
    · omega
    · have h2 := (key _ _).mp hne
      dsimp only at h2
      omega
  · intro h
    by_cases hl : t.val + 1 = 19159
    · exact .inl (by omega)
    · exact .inr ⟨by omega, (key ⟨t.val + 1, by omega⟩ t).mpr (by dsimp only; omega)⟩

/-- The source-index block is fetched exactly at the first node tile of each edge tile (j = 0). -/
theorem fetch7_0 (t : Fin (cfg7 a).N) : ((cfg7 a).win 0).fetch t = true ↔ t.val % 49 = 0 := by
  have hN : (pcfg7.gridAt a.1).N = 19159 := N_7
  have hN' : (cfg7 a).N = 19159 := N_7
  have hN'' : (cfg7 a).grid.N = 19159 := N_7
  have ht : t.val < 19159 := Nat.lt_of_lt_of_eq t.isLt N_7
  have key : ∀ (s s' : Fin (cfg7 a).N), ((cfg7 a).win 0).index s ≠ ((cfg7 a).win 0).index s' ↔ s.val / 49 ≠ s'.val / 49 :=
    fun s s' => by rw [idx7_0, idx7_0]; exact vec1_ne
  unfold Pipeline.Window.fetch
  rw [show ((cfg7 a).win 0).isOut = false from rfl, Bool.not_false, Bool.true_and, Bool.or_eq_true, decide_eq_true_eq, decide_eq_true_eq]
  constructor
  · rintro (h | ⟨h, hne⟩)
    · omega
    · have h2 := (key _ _).mp hne
      dsimp only at h2
      omega
  · intro h
    by_cases hl : t.val = 0
    · exact .inl hl
    · exact .inr ⟨by omega, (key t ⟨t.val - 1, by omega⟩).mpr (by dsimp only; omega)⟩

/-- The edge-norm block likewise. -/
theorem fetch7_1 (t : Fin (cfg7 a).N) : ((cfg7 a).win 1).fetch t = true ↔ t.val % 49 = 0 := by
  have hN : (pcfg7.gridAt a.1).N = 19159 := N_7
  have hN' : (cfg7 a).N = 19159 := N_7
  have hN'' : (cfg7 a).grid.N = 19159 := N_7
  have ht : t.val < 19159 := Nat.lt_of_lt_of_eq t.isLt N_7
  have key : ∀ (s s' : Fin (cfg7 a).N), ((cfg7 a).win 1).index s ≠ ((cfg7 a).win 1).index s' ↔ s.val / 49 ≠ s'.val / 49 :=
    fun s s' => by rw [idx7_1, idx7_1]; exact vec1_ne
  unfold Pipeline.Window.fetch
  rw [show ((cfg7 a).win 1).isOut = false from rfl, Bool.not_false, Bool.true_and, Bool.or_eq_true, decide_eq_true_eq, decide_eq_true_eq]
  constructor
  · rintro (h | ⟨h, hne⟩)
    · omega
    · have h2 := (key _ _).mp hne
      dsimp only at h2
      omega
  · intro h
    by_cases hl : t.val = 0
    · exact .inl hl
    · exact .inr ⟨by omega, (key t ⟨t.val - 1, by omega⟩).mpr (by dsimp only; omega)⟩

/-- The node-feature block is fetched at every point (the node tile changes from each point to the next). -/
theorem fetch7_2 (t : Fin (cfg7 a).N) : ((cfg7 a).win 2).fetch t = true := by
  have hN : (pcfg7.gridAt a.1).N = 19159 := N_7
  have hN' : (cfg7 a).N = 19159 := N_7
  have hN'' : (cfg7 a).grid.N = 19159 := N_7
  have ht : t.val < 19159 := Nat.lt_of_lt_of_eq t.isLt N_7
  have key : ∀ (s s' : Fin (cfg7 a).N), ((cfg7 a).win 2).index s ≠ ((cfg7 a).win 2).index s' ↔ s.val % 49 ≠ s'.val % 49 :=
    fun s s' => by rw [idx7_2, idx7_2]; exact vec2_ne
  unfold Pipeline.Window.fetch
  rw [show ((cfg7 a).win 2).isOut = false from rfl, Bool.not_false, Bool.true_and, Bool.or_eq_true, decide_eq_true_eq, decide_eq_true_eq]
  by_cases hl : t.val = 0
  · exact .inl hl
  · exact .inr ⟨by omega, (key t ⟨t.val - 1, by omega⟩).mpr (by dsimp only; omega)⟩

/-! ## The body's guards on the inner coordinate -/

/-- The first guard (reset the accumulator) as the kernel computes it. -/
abbrev cond1 (i : grid7.Coords) : Prop :=
  Scalar.cmpi .ne (Scalar.extui (Scalar.cmpi .eq (BitVec.ofNat 32 (i 1).val) 0#32)) 0#32 = 1#1

theorem cond1_fin : ∀ j : Fin 49, (Scalar.cmpi .ne (Scalar.extui (Scalar.cmpi .eq (BitVec.ofNat 32 j.val) 0#32)) 0#32 = 1#1) ↔ j.val = 0 := by decide
theorem cond3_fin : ∀ j : Fin 49, (Scalar.cmpi .ne (Scalar.extui (Scalar.cmpi .eq (BitVec.ofNat 32 j.val) 48#32)) 0#32 = 1#1) ↔ j.val = 48 := by decide

/-- It holds exactly where the node tile is the first. -/
theorem cond1_iff (i : grid7.Coords) : cond1 i ↔ (i 1).val = 0 := cond1_fin (i 1)
/-- The third guard (store the output) holds exactly where the node tile is the last. -/
theorem k7_cond3_iff' (i : grid7.Coords) : k7_cond3 i = 1#1 ↔ (i 1).val = 48 := cond3_fin (i 1)
theorem k7_cond3_iff (t : Fin grid7.N) : k7_cond3 (grid7.coords t) = 1#1 ↔ t.val % 49 = 48 := by
  rw [← coords7_1]; exact cond3_fin (grid7.coords t 1)

/-- The output window is idle exactly where the third guard fails. -/
theorem idle7_3 (t : Fin (cfg7 a).N) : (cfg7 a).idle 3 (grid7.coords t) = true ↔ t.val % 49 ≠ 48 := by
  show (!(k7_cond3 (grid7.coords t) == 1#1)) = true ↔ _
  rw [Bool.not_eq_true', beq_eq_false_iff_ne, ne_eq, k7_cond3_iff]

theorem idle7_3_of (i : grid7.Coords) (h : ¬ k7_cond3 i = 1#1) : (cfg7 a).idle 3 i = true := by
  show (!(k7_cond3 i == 1#1)) = true
  rw [Bool.not_eq_true', beq_eq_false_iff_ne]; exact h
theorem live7_3_of (i : grid7.Coords) (h : k7_cond3 i = 1#1) : (cfg7 a).idle 3 i = false := by
  show (!(k7_cond3 i == 1#1)) = false
  rw [Bool.not_eq_false', beq_iff_eq]; exact h

/-- The inputs are never idle. -/
theorem live7_0 (i : grid7.Coords) : (cfg7 a).idle 0 i = false := rfl
theorem live7_1 (i : grid7.Coords) : (cfg7 a).idle 1 i = false := rfl
theorem live7_2 (i : grid7.Coords) : (cfg7 a).idle 2 i = false := rfl

/-- Where the output is idle it is not written back. -/
theorem noflush7_3 (t : Fin (cfg7 a).N) (h : ¬ k7_cond3 (grid7.coords t) = 1#1) : ((cfg7 a).win 3).flush t = false := by
  rw [Bool.eq_false_iff, ne_eq, flush7_3, ← k7_cond3_iff]; exact h

end Cert.KernelIdeal.R7

end
-- ==== Proof.R7Runs.lean ====
import proofs.«417346_j54202487276072_2_alg».proof.Proof.Gen.KernelIdeal.Launch
import proofs.«417346_j54202487276072_2_alg».proof.Proof.Gen.KernelIdeal.Skeleton
import proofs.«417346_j54202487276072_2_alg».proof.Proof.R7Sched
import Idealize.ShloMosaic.Lib.Pipeline.FrameBody
import Idealize.ShloMosaic.Lib.Pipeline.Value
import Idealize.ShloMosaic.Lib.Tactic

set_option maxRecDepth 16384

noncomputable section

namespace Cert.KernelIdeal.R7

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## The tables as the body is handed them; the step's condition -/

abbrev tbMin7 : Memref sig .tc .smem S391 .i32 := Memref.whole main_v68
abbrev htbMin7 : (tbMin7).IsWhole := Memref.isWhole_whole _
abbrev tbMax7 : Memref sig .tc .smem S391 .i32 := Memref.whole main_v70
abbrev htbMax7 : (tbMax7).IsWhole := Memref.isWhole_whole _

/-- A table's buffer contents on core `c`, and the table held whole at them. -/
abbrev TbBuf7 (c : Dev nD) (M : Memref sig .tc .smem S391 .i32) : Type := Buf (Elt F) (M.view.loc (c : Thread nD τ))
abbrev tbPt7 (c : Dev nD) (M : Memref sig .tc .smem S391 .i32) (f : TbBuf7 (F := F) c M) : sProp 𝕄 :=
  M.view.loc (c : Thread nD τ) ↦{fullShare} f

/-- The word of table `M` the body loads at point `i` (the entry of the point's edge tile), over contents `f`. -/
abbrev wd7 (M : Memref sig .tc .smem S391 .i32) (f : M.view.ty.Contents (Elt F)) (i : grid7.Coords) : Elt F .i32 :=
  M.view.readAt (Elt F) (Rect.unit (s := S391) (k7_off1 i) S1.size (k7_off1_inb i)).toLoadRect f (Shape.Idx.first (numel1_S1.symm ▸ Nat.one_pos))

/-- The condition of the accumulation step as the body computes it: the node tile `[2048 i₁, 2048 i₁ + 2048)` meets
    the range `[mn, mx]` of sources in the edge tile (signed comparisons on the two table words). -/
def k7_act (i : grid7.Coords) (mx mn : Elt F .i32) : BitVec 1 :=
  let arg1 : BitVec 32 := BitVec.ofNat 32 (i 1).val
  let v3 : BitVec 32 := Scalar.muli arg1 2048#32
  let v4 : BitVec 32 := Scalar.addi v3 2048#32
  let v7 : BitVec 1 := Scalar.cmpi .sle v3 mx
  let v10 : BitVec 1 := Scalar.cmpi .sgt v4 mn
  let v11 : BitVec 1 := Scalar.andi v7 v10
  let v12 : BitVec 32 := Scalar.extui v11
  Scalar.cmpi .ne v12 0#32

/-! ## Whole-buffer loads and stores -/

theorem z1 : (![0] : Fin 1 → Nat) = fun _ => 0 := by funext a; fin_cases a; rfl
theorem z2 : (![0, 0] : Fin 2 → Nat) = fun _ => 0 := by funext a; fin_cases a <;> rfl

/-- A load through the whole-shape rectangle at zero offsets reads the memref's contents. -/
theorem rdU (S : Shape) {e : EltTy} {κ : Kind} {sp : Space} (v : View sig κ sp S e) {off : Fin S.rank → Nat} (h : off = fun _ => 0)
    (inb : ∀ a, off a + S.size a ≤ S.size a) (f : v.ty.Contents (Elt F)) :
    v.readAt (Elt F) (Rect.unit off S.size inb).toLoadRect f = v.read (Elt F) f :=
  View.ld_unit_zero h inb _

/-- Every index lies in the whole-shape rectangle: a list of stores headed by one through it covers the buffer. -/
theorem covU (S : Shape) {e : EltTy} {off : Fin S.rank → Nat} (h : off = fun _ => 0) (inb : ∀ a, off a + S.size a ≤ S.size a)
    (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons.mpr (Or.inl rfl), View.mem_set_unit_zero h inb y⟩

/-- A load through it of what the run's stores left, the last of them through it, reads that store's payload. -/
theorem rcU (S : Shape) {e : EltTy} {κ : Kind} {sp : Space} (v : View sig κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (covU S h inb w L), View.canon_cons_unit_zero h, View.ld_unit_zero h]

/-- The buffer read back after the run's stores, the last of them through the whole-shape rectangle: its payload. -/
theorem rwU (S : Shape) {e : EltTy} {κ : Kind} {sp : Space} (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (covU S h inb w L), View.canon_cons_unit_zero h]

/-- The inputs' staging memrefs at their blocks and the two tables at their contents: what every case of the body
    is handed and hands back untouched. -/
def kin7 (c : Dev nD) (arg4 : Memref sig .tc .vmem S4096 .i32) (arg5 : Memref sig .tc .vmem S4096 .f32)
    (arg6 : Memref sig .tc .vmem S2048x32 .f32)
    (x0 : Vec F S4096 .i32) (x1 : Vec F S4096 .f32) (x2 : Vec F S2048x32 .f32)
    (xt0 : TbBuf7 (F := F) c tbMin7) (xt1 : TbBuf7 (F := F) c tbMax7) : sProp 𝕄 :=
  iprop(owns (c : Thread nD τ) arg4 fullShare x0 ∗ owns (c : Thread nD τ) arg5 fullShare x1 ∗ owns (c : Thread nD τ) arg6 fullShare x2
    ∗ tbPt7 c tbMin7 xt0 ∗ tbPt7 c tbMax7 xt1)

/-! ## The body, case by case

The body has three conditionals: on the point's node tile being the first (the scratch is reset to zero), on the two
table words (the accumulation step), on the node tile being the last (the output block is stored). First and last
exclude each other on this grid, which leaves six cases. In each the printed function is its skeleton, run
operation by operation; every load and store is through a whole staging memref. The tables' words are never
evaluated: the case's hypothesis on them decides the middle conditional. -/

set_option maxHeartbeats 1000000 in
/-- First node tile, step taken: the scratch ends at the step applied to zero; the output's buffer is untouched. -/
theorem run7_FA (c : Dev nD) (i : grid7.Coords)
    (arg4 : Memref sig .tc .vmem S4096 .i32) (harg4 : arg4.IsWhole) (arg5 : Memref sig .tc .vmem S4096 .f32) (harg5 : arg5.IsWhole)
    (arg6 : Memref sig .tc .vmem S2048x32 .f32) (harg6 : arg6.IsWhole) (arg7 : Memref sig .tc .vmem S4096x32 .f32) (harg7 : arg7.IsWhole)
    (arg8 : Memref sig .tc .vmem S4096x32 .f32) (harg8 : arg8.IsWhole)
    (x0 : Vec F S4096 .i32) (x1 : Vec F S4096 .f32) (x2 : Vec F S2048x32 .f32)
    (xt0 : TbBuf7 (F := F) c tbMin7) (xt1 : TbBuf7 (F := F) c tbMax7)
    (hc1 : cond1 i) (hc2 : k7_act (F := F) i (wd7 tbMax7 xt1 i) (wd7 tbMin7 xt0 i) = 1#1) (hc3 : ¬ k7_cond3 i = 1#1)
    (xo : Vec F S4096x32 .f32) (E : Set ℕ) (K : PUnit → sProp 𝕄) :
    iprop(kin7 c arg4 arg5 arg6 x0 x1 x2 xt0 xt1
        ∗ (∃ d, owns (c : Thread nD τ) arg8 fullShare d) ∗ owns (c : Thread nD τ) arg7 fullShare xo
        ∗ (iprop(kin7 c arg4 arg5 arg6 x0 x1 x2 xt0 xt1
            ∗ owns (c : Thread nD τ) arg8 fullShare (k7_pay2 i x0 (k7_pay1 (F := F)) x2) ∗ owns (c : Thread nD τ) arg7 fullShare xo) -∗ K ⟨⟩))
      ⊢ wp frame (wpE (defs₀ (F := F)) Variants.none c none) E
          (cc7__gather_kernel i tbMin7 htbMin7 tbMax7 htbMax7 arg4 harg4 arg5 harg5 arg6 harg6 arg7 harg7 arg8 harg8) K := by
  simp only [cc7__gather_kernel_eq_skeleton]; unfold cc7__gather_kernel_skel
  unfold kin7 owns
  iintro ⟨⟨⟨%f0, %hf0, H0⟩, ⟨%f1, %hf1, H1⟩, ⟨%f2, %hf2, H2⟩, HT0, HT1⟩, ⟨%ds, %fs, -, HS⟩, ⟨%f9, %hf9, H9⟩, Hk⟩
  subst hf0 hf1 hf2 hf9
  sl_exec (disch := first | sl_exact hc1 | sl_exact hc2 | sl_exact hc3)
  sl_step
  iapply Hk
  isplitl [H0 H1 H2 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [HT0]; · iexact HT0
    iexact HT1
  isplitl [HS]
  · iexists _; isplitr; swap; · iexact HS
    ipureintro
    -- the second store's payload read the first store's back
    rw [rwU S4096x32 _ _ z2]
    unfold run7_FA.sl.v29 run7_FA.sl.HS_1
    simp only [rcU S4096x32 _ z2, rdU S4096 _ z1, rdU S2048x32 _ z2]
  iexists f9; isplitr; · ipureintro; rfl
  iexact H9

set_option maxHeartbeats 1000000 in
/-- First node tile, step skipped: the scratch ends at zero; the output's buffer is untouched. -/
theorem run7_FI (c : Dev nD) (i : grid7.Coords)
    (arg4 : Memref sig .tc .vmem S4096 .i32) (harg4 : arg4.IsWhole) (arg5 : Memref sig .tc .vmem S4096 .f32) (harg5 : arg5.IsWhole)
    (arg6 : Memref sig .tc .vmem S2048x32 .f32) (harg6 : arg6.IsWhole) (arg7 : Memref sig .tc .vmem S4096x32 .f32) (harg7 : arg7.IsWhole)
    (arg8 : Memref sig .tc .vmem S4096x32 .f32) (harg8 : arg8.IsWhole)
    (x0 : Vec F S4096 .i32) (x1 : Vec F S4096 .f32) (x2 : Vec F S2048x32 .f32)
    (xt0 : TbBuf7 (F := F) c tbMin7) (xt1 : TbBuf7 (F := F) c tbMax7)
    (hc1 : cond1 i) (hc2 : ¬ k7_act (F := F) i (wd7 tbMax7 xt1 i) (wd7 tbMin7 xt0 i) = 1#1) (hc3 : ¬ k7_cond3 i = 1#1)
    (xo : Vec F S4096x32 .f32) (E : Set ℕ) (K : PUnit → sProp 𝕄) :
    iprop(kin7 c arg4 arg5 arg6 x0 x1 x2 xt0 xt1
        ∗ (∃ d, owns (c : Thread nD τ) arg8 fullShare d) ∗ owns (c : Thread nD τ) arg7 fullShare xo
        ∗ (iprop(kin7 c arg4 arg5 arg6 x0 x1 x2 xt0 xt1
            ∗ owns (c : Thread nD τ) arg8 fullShare (k7_pay1 (F := F)) ∗ owns (c : Thread nD τ) arg7 fullShare xo) -∗ K ⟨⟩))
      ⊢ wp frame (wpE (defs₀ (F := F)) Variants.none c none) E
          (cc7__gather_kernel i tbMin7 htbMin7 tbMax7 htbMax7 arg4 harg4 arg5 harg5 arg6 harg6 arg7 harg7 arg8 harg8) K := by
  simp only [cc7__gather_kernel_eq_skeleton]; unfold cc7__gather_kernel_skel
  unfold kin7 owns
  iintro ⟨⟨⟨%f0, %hf0, H0⟩, ⟨%f1, %hf1, H1⟩, ⟨%f2, %hf2, H2⟩, HT0, HT1⟩, ⟨%ds, %fs, -, HS⟩, ⟨%f9, %hf9, H9⟩, Hk⟩
  subst hf0 hf1 hf2 hf9
  sl_exec (disch := first | sl_exact hc1 | sl_exact hc2 | sl_exact hc3)
  sl_step
  iapply Hk
  isplitl [H0 H1 H2 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [HT0]; · iexact HT0
    iexact HT1
  isplitl [HS]
  · iexists _; isplitr; swap; · iexact HS
    ipureintro
    rw [rwU S4096x32 _ _ z2]
  iexists f9; isplitr; · ipureintro; rfl
  iexact H9

set_option maxHeartbeats 1000000 in
/-- A middle node tile, step taken: the scratch ends at the step applied to what it held; the output's buffer is
    untouched. -/
theorem run7_MA (c : Dev nD) (i : grid7.Coords)
    (arg4 : Memref sig .tc .vmem S4096 .i32) (harg4 : arg4.IsWhole) (arg5 : Memref sig .tc .vmem S4096 .f32) (harg5 : arg5.IsWhole)
    (arg6 : Memref sig .tc .vmem S2048x32 .f32) (harg6 : arg6.IsWhole) (arg7 : Memref sig .tc .vmem S4096x32 .f32) (harg7 : arg7.IsWhole)
    (arg8 : Memref sig .tc .vmem S4096x32 .f32) (harg8 : arg8.IsWhole)
    (x0 : Vec F S4096 .i32) (x1 : Vec F S4096 .f32) (x2 : Vec F S2048x32 .f32)
    (xt0 : TbBuf7 (F := F) c tbMin7) (xt1 : TbBuf7 (F := F) c tbMax7)
    (hc1 : ¬ cond1 i) (hc2 : k7_act (F := F) i (wd7 tbMax7 xt1 i) (wd7 tbMin7 xt0 i) = 1#1) (hc3 : ¬ k7_cond3 i = 1#1)
    (xs xo : Vec F S4096x32 .f32) (E : Set ℕ) (K : PUnit → sProp 𝕄) :
    iprop(kin7 c arg4 arg5 arg6 x0 x1 x2 xt0 xt1
        ∗ owns (c : Thread nD τ) arg8 fullShare xs ∗ owns (c : Thread nD τ) arg7 fullShare xo
        ∗ (iprop(kin7 c arg4 arg5 arg6 x0 x1 x2 xt0 xt1
            ∗ owns (c : Thread nD τ) arg8 fullShare (k7_pay2 i x0 xs x2) ∗ owns (c : Thread nD τ) arg7 fullShare xo) -∗ K ⟨⟩))
      ⊢ wp frame (wpE (defs₀ (F := F)) Variants.none c none) E
          (cc7__gather_kernel i tbMin7 htbMin7 tbMax7 htbMax7 arg4 harg4 arg5 harg5 arg6 harg6 arg7 harg7 arg8 harg8) K := by
  simp only [cc7__gather_kernel_eq_skeleton]; unfold cc7__gather_kernel_skel
  unfold kin7 owns
  iintro ⟨⟨⟨%f0, %hf0, H0⟩, ⟨%f1, %hf1, H1⟩, ⟨%f2, %hf2, H2⟩, HT0, HT1⟩, ⟨%fs, %hfs, HS⟩, ⟨%f9, %hf9, H9⟩, Hk⟩
  subst hf0 hf1 hf2 hfs hf9
  sl_exec (disch := first | sl_exact hc1 | sl_exact hc2 | sl_exact hc3)
  sl_step
  iapply Hk
  isplitl [H0 H1 H2 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [HT0]; · iexact HT0
    iexact HT1
  isplitl [HS]
  · iexists _; isplitr; swap; · iexact HS
    ipureintro
    rw [rwU S4096x32 _ _ z2]
    simp only [rdU S4096 _ z1, rdU S4096x32 _ z2, rdU S2048x32 _ z2]
  iexists f9; isplitr; · ipureintro; rfl
  iexact H9

set_option maxHeartbeats 1000000 in
/-- A middle node tile, step skipped: nothing is stored. -/
theorem run7_MI (c : Dev nD) (i : grid7.Coords)
    (arg4 : Memref sig .tc .vmem S4096 .i32) (harg4 : arg4.IsWhole) (arg5 : Memref sig .tc .vmem S4096 .f32) (harg5 : arg5.IsWhole)
    (arg6 : Memref sig .tc .vmem S2048x32 .f32) (harg6 : arg6.IsWhole) (arg7 : Memref sig .tc .vmem S4096x32 .f32) (harg7 : arg7.IsWhole)
    (arg8 : Memref sig .tc .vmem S4096x32 .f32) (harg8 : arg8.IsWhole)
    (x0 : Vec F S4096 .i32) (x1 : Vec F S4096 .f32) (x2 : Vec F S2048x32 .f32)
    (xt0 : TbBuf7 (F := F) c tbMin7) (xt1 : TbBuf7 (F := F) c tbMax7)
    (hc1 : ¬ cond1 i) (hc2 : ¬ k7_act (F := F) i (wd7 tbMax7 xt1 i) (wd7 tbMin7 xt0 i) = 1#1) (hc3 : ¬ k7_cond3 i = 1#1)
    (xs xo : Vec F S4096x32 .f32) (E : Set ℕ) (K : PUnit → sProp 𝕄) :
    iprop(kin7 c arg4 arg5 arg6 x0 x1 x2 xt0 xt1
        ∗ owns (c : Thread nD τ) arg8 fullShare xs ∗ owns (c : Thread nD τ) arg7 fullShare xo
        ∗ (iprop(kin7 c arg4 arg5 arg6 x0 x1 x2 xt0 xt1
            ∗ owns (c : Thread nD τ) arg8 fullShare xs ∗ owns (c : Thread nD τ) arg7 fullShare xo) -∗ K ⟨⟩))
      ⊢ wp frame (wpE (defs₀ (F := F)) Variants.none c none) E
          (cc7__gather_kernel i tbMin7 htbMin7 tbMax7 htbMax7 arg4 harg4 arg5 harg5 arg6 harg6 arg7 harg7 arg8 harg8) K := by
  simp only [cc7__gather_kernel_eq_skeleton]; unfold cc7__gather_kernel_skel
  unfold kin7 owns
  iintro ⟨⟨⟨%f0, %hf0, H0⟩, ⟨%f1, %hf1, H1⟩, ⟨%f2, %hf2, H2⟩, HT0, HT1⟩, ⟨%fs, %hfs, HS⟩, ⟨%f9, %hf9, H9⟩, Hk⟩
  subst hf0 hf1 hf2 hfs hf9
  sl_exec (disch := first | sl_exact hc1 | sl_exact hc2 | sl_exact hc3)
  sl_step
  iapply Hk
  isplitl [H0 H1 H2 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [HT0]; · iexact HT0
    iexact HT1
  isplitl [HS]
  · iexists fs; isplitr; · ipureintro; rfl
    iexact HS
  iexists f9; isplitr; · ipureintro; rfl
  iexact H9

set_option maxHeartbeats 1000000 in
/-- Last node tile, step taken: the scratch ends at the step applied to what it held, and the output's buffer at
    that scaled by the edge norms. -/
theorem run7_LA (c : Dev nD) (i : grid7.Coords)
    (arg4 : Memref sig .tc .vmem S4096 .i32) (harg4 : arg4.IsWhole) (arg5 : Memref sig .tc .vmem S4096 .f32) (harg5 : arg5.IsWhole)
    (arg6 : Memref sig .tc .vmem S2048x32 .f32) (harg6 : arg6.IsWhole) (arg7 : Memref sig .tc .vmem S4096x32 .f32) (harg7 : arg7.IsWhole)
    (arg8 : Memref sig .tc .vmem S4096x32 .f32) (harg8 : arg8.IsWhole)
    (x0 : Vec F S4096 .i32) (x1 : Vec F S4096 .f32) (x2 : Vec F S2048x32 .f32)
    (xt0 : TbBuf7 (F := F) c tbMin7) (xt1 : TbBuf7 (F := F) c tbMax7)
    (hc1 : ¬ cond1 i) (hc2 : k7_act (F := F) i (wd7 tbMax7 xt1 i) (wd7 tbMin7 xt0 i) = 1#1) (hc3 : k7_cond3 i = 1#1)
    (xs : Vec F S4096x32 .f32) (E : Set ℕ) (K : PUnit → sProp 𝕄) :
    iprop(kin7 c arg4 arg5 arg6 x0 x1 x2 xt0 xt1
        ∗ owns (c : Thread nD τ) arg8 fullShare xs ∗ (∃ d, owns (c : Thread nD τ) arg7 fullShare d)
        ∗ (iprop(kin7 c arg4 arg5 arg6 x0 x1 x2 xt0 xt1
            ∗ owns (c : Thread nD τ) arg8 fullShare (k7_pay2 i x0 xs x2)
            ∗ owns (c : Thread nD τ) arg7 fullShare (k7_pay3 x1 (k7_pay2 i x0 xs x2))) -∗ K ⟨⟩))
      ⊢ wp frame (wpE (defs₀ (F := F)) Variants.none c none) E
          (cc7__gather_kernel i tbMin7 htbMin7 tbMax7 htbMax7 arg4 harg4 arg5 harg5 arg6 harg6 arg7 harg7 arg8 harg8) K := by
  simp only [cc7__gather_kernel_eq_skeleton]; unfold cc7__gather_kernel_skel
  unfold kin7 owns
  iintro ⟨⟨⟨%f0, %hf0, H0⟩, ⟨%f1, %hf1, H1⟩, ⟨%f2, %hf2, H2⟩, HT0, HT1⟩, ⟨%fs, %hfs, HS⟩, ⟨%d9, %f9, -, H9⟩, Hk⟩
  subst hf0 hf1 hf2 hfs
  sl_exec (disch := first | sl_exact hc1 | sl_exact hc2 | sl_exact hc3)
  sl_step
  iapply Hk
  isplitl [H0 H1 H2 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [HT0]; · iexact HT0
    iexact HT1
  isplitl [HS]
  · iexists _; isplitr; swap; · iexact HS
    ipureintro
    unfold run7_LA.sl.HS_1
    rw [rwU S4096x32 _ _ z2]
    simp only [rdU S4096 _ z1, rdU S4096x32 _ z2, rdU S2048x32 _ z2]
  iexists _; isplitr; swap; · iexact H9
  ipureintro
  -- the last conditional's load read the step's store back
  rw [rwU S4096x32 _ _ z2]
  unfold run7_LA.sl.v20 run7_LA.sl.HS_1
  simp only [rcU S4096x32 _ z2, rdU S4096 _ z1, rdU S4096x32 _ z2, rdU S2048x32 _ z2]

set_option maxHeartbeats 1000000 in
/-- Last node tile, step skipped: the scratch keeps what it held, and the output's buffer ends at that scaled by the
    edge norms. -/
theorem run7_LI (c : Dev nD) (i : grid7.Coords)
    (arg4 : Memref sig .tc .vmem S4096 .i32) (harg4 : arg4.IsWhole) (arg5 : Memref sig .tc .vmem S4096 .f32) (harg5 : arg5.IsWhole)
    (arg6 : Memref sig .tc .vmem S2048x32 .f32) (harg6 : arg6.IsWhole) (arg7 : Memref sig .tc .vmem S4096x32 .f32) (harg7 : arg7.IsWhole)
    (arg8 : Memref sig .tc .vmem S4096x32 .f32) (harg8 : arg8.IsWhole)
    (x0 : Vec F S4096 .i32) (x1 : Vec F S4096 .f32) (x2 : Vec F S2048x32 .f32)
    (xt0 : TbBuf7 (F := F) c tbMin7) (xt1 : TbBuf7 (F := F) c tbMax7)
    (hc1 : ¬ cond1 i) (hc2 : ¬ k7_act (F := F) i (wd7 tbMax7 xt1 i) (wd7 tbMin7 xt0 i) = 1#1) (hc3 : k7_cond3 i = 1#1)
    (xs : Vec F S4096x32 .f32) (E : Set ℕ) (K : PUnit → sProp 𝕄) :
    iprop(kin7 c arg4 arg5 arg6 x0 x1 x2 xt0 xt1
        ∗ owns (c : Thread nD τ) arg8 fullShare xs ∗ (∃ d, owns (c : Thread nD τ) arg7 fullShare d)
        ∗ (iprop(kin7 c arg4 arg5 arg6 x0 x1 x2 xt0 xt1
            ∗ owns (c : Thread nD τ) arg8 fullShare xs ∗ owns (c : Thread nD τ) arg7 fullShare (k7_pay3 x1 xs)) -∗ K ⟨⟩))
      ⊢ wp frame (wpE (defs₀ (F := F)) Variants.none c none) E
          (cc7__gather_kernel i tbMin7 htbMin7 tbMax7 htbMax7 arg4 harg4 arg5 harg5 arg6 harg6 arg7 harg7 arg8 harg8) K := by
  simp only [cc7__gather_kernel_eq_skeleton]; unfold cc7__gather_kernel_skel
  unfold kin7 owns
  iintro ⟨⟨⟨%f0, %hf0, H0⟩, ⟨%f1, %hf1, H1⟩, ⟨%f2, %hf2, H2⟩, HT0, HT1⟩, ⟨%fs, %hfs, HS⟩, ⟨%d9, %f9, -, H9⟩, Hk⟩
  subst hf0 hf1 hf2 hfs
  sl_exec (disch := first | sl_exact hc1 | sl_exact hc2 | sl_exact hc3)
  sl_step
  iapply Hk
  isplitl [H0 H1 H2 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [HT0]; · iexact HT0
    iexact HT1
  isplitl [HS]
  · iexists fs; isplitr; · ipureintro; rfl
    iexact HS
  iexists _; isplitr; swap; · iexact H9
  ipureintro
  rw [rwU S4096x32 _ _ z2]
  simp only [rdU S4096 _ z1, rdU S4096x32 _ z2]

end Cert.KernelIdeal.R7

end
-- ==== Proof.R7Frame.lean ====
import proofs.«417346_j54202487276072_2_alg».proof.Proof.R7Sched
import proofs.«417346_j54202487276072_2_alg».proof.Proof.R7Runs
import Idealize.ShloMosaic.Lib.Pipeline.FrameBody
import Idealize.ShloMosaic.Lib.Pipeline.Frame

set_option maxRecDepth 16384

noncomputable section

namespace Cert.KernelIdeal.R7

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

-- the buffer contents when the region is entered, and the admissible tables: both parameters, never evaluated
variable (V : (c : Dev nD) → (b : Ref sig .tc) → Buf (Elt F) ((c : Thread nD τ).loc b)) (a : (pcfg7 (F := F)).Adm)

/-! # The gather region (custom_call 1) at entry contents `V` and tables `a`

The scratch carries, along each edge tile's run of node tiles, the sum over the node tiles whose range meets the
edge tile's sources of the rows gathered there; the output block is the scratch scaled by the edge norms at the
last node tile. -/

/-! ## The windows' blocks and the table words -/

/-- Window `w`'s block at point `t`, read off its array as the region finds it. -/
def iblk7 (c : Dev nD) (w : Fin (cfg7 a).W) (t : Fin (cfg7 a).N) : (((cfg7 a).win w).xblock ((cfg7 a).grid.coords t)).Idx → Elt F ((cfg7 a).win w).elt :=
  (((cfg7 a).win w).blk t).view.read (Elt F) (V c (Pipeline.arrRef spec7 w))

/-- The three input blocks at their vector types (no window is cut: a block's shape is its window's). -/
abbrev srcB (c : Dev nD) (t : Fin (cfg7 a).N) : Vec F S4096 .i32 := iblk7 V a c 0 t
abbrev normB (c : Dev nD) (t : Fin (cfg7 a).N) : Vec F S4096 .f32 := iblk7 V a c 1 t
abbrev hwB (c : Dev nD) (t : Fin (cfg7 a).N) : Vec F S2048x32 .f32 := iblk7 V a c 2 t

/-- The two table words the body loads at point `i`: the least and the greatest source in the edge tile. -/
abbrev wMin7 (i : grid7.Coords) : Elt F .i32 := wd7 tbMin7 (a.1 0) i
abbrev wMax7 (i : grid7.Coords) : Elt F .i32 := wd7 tbMax7 (a.1 1) i

/-- The accumulation step is taken at point `i`. -/
abbrev act7 (i : grid7.Coords) : Prop := k7_act (F := F) i (wMax7 a i) (wMin7 a i) = 1#1

/-! ## The scratch, point by point -/

/-- One point's effect on the scratch from what it held (`prev`): reset to zero at the first node tile, then the
    step if its condition holds. -/
def step7 (i : grid7.Coords) (prev : Vec F S4096x32 .f32) (src : Vec F S4096 .i32) (hw : Vec F S2048x32 .f32) : Vec F S4096x32 .f32 :=
  if act7 a i then k7_pay2 i src (if (i 1).val = 0 then k7_pay1 (F := F) else prev) hw
  else (if (i 1).val = 0 then k7_pay1 (F := F) else prev)

/-- What the scratch holds after the body at point `n`. -/
def accAt7 (c : Dev nD) : (n : ℕ) → n < (cfg7 a).N → Vec F S4096x32 .f32
  | 0, h => step7 a (grid7.coords ⟨0, h⟩) (k7_pay1 (F := F)) (srcB V a c ⟨0, h⟩) (hwB V a c ⟨0, h⟩)
  | n + 1, h => step7 a (grid7.coords ⟨n + 1, h⟩) (accAt7 c n (Nat.lt_of_succ_lt h)) (srcB V a c ⟨n + 1, h⟩) (hwB V a c ⟨n + 1, h⟩)

/-- At a first node tile the scratch restarts from zero. -/
theorem accAt7_first (c : Dev nD) (t : Fin (cfg7 a).N) (hk : (grid7.coords t 1).val = 0) :
    accAt7 V a c t.val t.isLt
      = if act7 a (grid7.coords t) then k7_pay2 (grid7.coords t) (srcB V a c t) (k7_pay1 (F := F)) (hwB V a c t)
        else k7_pay1 (F := F) := by
  obtain ⟨n, hn⟩ := t
  cases n with
  | zero => show step7 a _ _ _ _ = _; unfold step7; simp only [if_pos hk]
  | succ n => show step7 a _ _ _ _ = _; unfold step7; simp only [if_pos hk]

/-- At a later node tile it continues from the point before. -/
theorem accAt7_next (c : Dev nD) (t : Fin (cfg7 a).N) (hk : (grid7.coords t 1).val ≠ 0) :
    accAt7 V a c t.val t.isLt
      = if act7 a (grid7.coords t)
        then k7_pay2 (grid7.coords t) (srcB V a c t) (accAt7 V a c (t.val - 1) (Nat.lt_of_le_of_lt (Nat.sub_le _ _) t.isLt)) (hwB V a c t)
        else accAt7 V a c (t.val - 1) (Nat.lt_of_le_of_lt (Nat.sub_le _ _) t.isLt) := by
  obtain ⟨n, hn⟩ := t
  cases n with
  | zero => exact absurd (by rw [coords7_1]; rfl) hk
  | succ n => show step7 a _ _ _ _ = _; unfold step7; simp only [if_neg hk]; rfl

/-! ## The invariant between points -/

/-- The kernel's scratch operand: a whole scoped buffer of its own. -/
abbrev scM7 : Memref sig .tc .vmem S4096x32 .f32 := Memref.whole cc7_scratch0

/-- The scratch before point `n`: at anything before the first point, else at what the point before left. -/
def scr7 (c : Dev nD) : (n : ℕ) → n < (cfg7 a).N + 1 → sProp 𝕄
  | 0, _ => iprop(∃ d, owns (c : Thread nD τ) scM7 fullShare d)
  | n + 1, h => owns (c : Thread nD τ) scM7 fullShare (accAt7 V a c n (Nat.lt_of_succ_lt_succ h))

/-- The region's invariant before point `t`: the tables held whole at their contents, the scratch, the other scoped
    buffers unopened, the generator register at some state. -/
def Φ1 (c : Dev nD) (t : Fin ((cfg7 a).N + 1)) : sProp 𝕄 :=
  iprop(Pipeline.prefHeld (Ix := Unit) (Name := ℕ) (U := UR sig nD τ) (Lvl := ℕ) pre7 c (fun _ => fullShare) a.1
    ∗ scr7 V a c t.val t.isLt
    ∗ Pipeline.scopedRestBut (Ix := Unit) (Name := ℕ) (U := UR sig nD τ) (Lvl := ℕ) (Val := Elt F) spec7 c [cc7_scratch0]
    ∗ ∃ r, prngReg c r)

theorem scr7_ex (c : Dev nD) (n : ℕ) (h : n < (cfg7 a).N + 1) :
    scr7 V a c n h ⊢ (iprop(∃ d, owns (c : Thread nD τ) scM7 fullShare d) : sProp 𝕄) := by
  cases n with
  | zero => exact .rfl
  | succ n => show owns _ _ _ _ ⊢ _; iintro H; iexists _; iexact H

theorem scr7_pos (c : Dev nD) (n : ℕ) (h : n < (cfg7 a).N + 1) (hn : n ≠ 0) :
    scr7 V a c n h = owns (c : Thread nD τ) scM7 fullShare (accAt7 V a c (n - 1) (by omega)) := by
  cases n with
  | zero => exact absurd rfl hn
  | succ m => rfl

/-! ## The proof data -/

/-- The proof data of pipeline 7 on core `c`: the arrays as the region finds them; after the body each input's
    buffer at its block, the output's at the scratch scaled by the edge norms (consulted only where the block is
    written back: at the last node tile); the invariant `Φ1`; nothing owed; full shares. -/
def dat7 (c : Dev nD) : Dat τ (Elt F) Unit ℕ (UR sig nD τ) ℕ (cfg7 a) c where
  A w := V c (Pipeline.arrRef spec7 w)
  after w t := match w with
    | ⟨0, _⟩ => iblk7 V a c 0 t
    | ⟨1, _⟩ => iblk7 V a c 1 t
    | ⟨2, _⟩ => iblk7 V a c 2 t
    | ⟨3, _⟩ => k7_pay3 (normB V a c t) (accAt7 V a c t.val t.isLt)
  Φ t := Φ1 V a c t
  q _ := fullShare
  owed _ := 0

theorem A_eq7 (c : Dev nD) (w : Fin (cfg7 a).W) : (dat7 V a c).A w = V c (Pipeline.arrRef spec7 w) := by
  dsimp only [dat7]

theorem after7_0 (c : Dev nD) (t : Fin (cfg7 a).N) : (dat7 V a c).after 0 t = iblk7 V a c 0 t := by dsimp only [dat7]; rfl
theorem after7_1 (c : Dev nD) (t : Fin (cfg7 a).N) : (dat7 V a c).after 1 t = iblk7 V a c 1 t := by dsimp only [dat7]; rfl
theorem after7_2 (c : Dev nD) (t : Fin (cfg7 a).N) : (dat7 V a c).after 2 t = iblk7 V a c 2 t := by dsimp only [dat7]; rfl
/-- The output's buffer after the body: the scratch scaled by the edge norms (what the write-back writes at the last node tile). -/
theorem after7_3 (c : Dev nD) (t : Fin (cfg7 a).N) :
    (dat7 V a c).after 3 t = k7_pay3 (normB V a c t) (accAt7 V a c t.val t.isLt) := by dsimp only [dat7]; rfl

/-- Each input's current staging buffer holds its block at every point, fetched there or not: the body only
    reads it, the window is uncut and never idle. -/
theorem before7_0 (c : Dev nD) (t : Fin (cfg7 a).N) (d) : (dat7 V a c).before 0 t d = iblk7 V a c 0 t :=
  ((dat7 V a c).before_in_eq_fetched 0 rfl (fun _ => rfl) (fun _ _ _ => rfl)
    (fun t => by rw [after7_0]; unfold Dat.blockOf iblk7; rw [A_eq7]; try rfl) t d).trans
    (by unfold Dat.fetched Dat.blockOf iblk7; rw [A_eq7]; try rfl)
theorem before7_1 (c : Dev nD) (t : Fin (cfg7 a).N) (d) : (dat7 V a c).before 1 t d = iblk7 V a c 1 t :=
  ((dat7 V a c).before_in_eq_fetched 1 rfl (fun _ => rfl) (fun _ _ _ => rfl)
    (fun t => by rw [after7_1]; unfold Dat.blockOf iblk7; rw [A_eq7]; try rfl) t d).trans
    (by unfold Dat.fetched Dat.blockOf iblk7; rw [A_eq7]; try rfl)
theorem before7_2 (c : Dev nD) (t : Fin (cfg7 a).N) (d) : (dat7 V a c).before 2 t d = iblk7 V a c 2 t :=
  ((dat7 V a c).before_in_eq_fetched 2 rfl (fun _ => rfl) (fun _ _ _ => rfl)
    (fun t => by rw [after7_2]; unfold Dat.blockOf iblk7; rw [A_eq7]; try rfl) t d).trans
    (by unfold Dat.fetched Dat.blockOf iblk7; rw [A_eq7]; try rfl)

/-! ## The invariant, opened -/

/-- The tables, one by one. -/
theorem pref7_eq (c : Dev nD) :
    (Pipeline.prefHeld (Ix := Unit) (Name := ℕ) (U := UR sig nD τ) (Lvl := ℕ) pre7 c (fun _ => fullShare) a.1 : sProp 𝕄)
      = iprop(tbPt7 c tbMin7 (a.1 0) ∗ tbPt7 c tbMax7 (a.1 1)) := by
  unfold Pipeline.prefHeld
  rw [show (Finset.univ : Finset (Fin 2)) = insert (0 : Fin 2) {(1 : Fin 2)} from by decide,
    bigSep_insert (by decide), bigSep_singleton]
  rfl

theorem Phi_cast (c : Dev nD) (t : Fin (cfg7 a).N) :
    (dat7 V a c).Φ t.castSucc
      = iprop(Pipeline.prefHeld (Ix := Unit) (Name := ℕ) (U := UR sig nD τ) (Lvl := ℕ) pre7 c (fun _ => fullShare) a.1
          ∗ scr7 V a c t.val (Nat.lt_succ_of_lt t.isLt)
          ∗ Pipeline.scopedRestBut (Ix := Unit) (Name := ℕ) (U := UR sig nD τ) (Lvl := ℕ) (Val := Elt F) spec7 c [cc7_scratch0]
          ∗ ∃ r, prngReg c r) := by
  obtain ⟨n, hn⟩ := t; rfl

theorem Phi_succ (c : Dev nD) (t : Fin (cfg7 a).N) :
    (dat7 V a c).Φ t.succ
      = iprop(Pipeline.prefHeld (Ix := Unit) (Name := ℕ) (U := UR sig nD τ) (Lvl := ℕ) pre7 c (fun _ => fullShare) a.1
          ∗ owns (c : Thread nD τ) scM7 fullShare (accAt7 V a c t.val t.isLt)
          ∗ Pipeline.scopedRestBut (Ix := Unit) (Name := ℕ) (U := UR sig nD τ) (Lvl := ℕ) (Val := Elt F) spec7 c [cc7_scratch0]
          ∗ ∃ r, prngReg c r) := by
  obtain ⟨n, hn⟩ := t; rfl

theorem owes_succ (c : Dev nD) (t : Fin (cfg7 a).N) :
    (dat7 V a c).owesAt () t.succ = (dat7 V a c).owesAt () t.castSucc := rfl

/-! ## The body at a point -/

/-- Each window's current staging memref at point `t`, spelled as the pipeline passes it, and its wholeness. -/
abbrev ms7_0 (t : Fin (cfg7 a).N) : Memref sig .tc .vmem S4096 .i32 := spec7_0.stage ((cfg7 a).slots t 0)
abbrev hs7_0 (t : Fin (cfg7 a).N) : (ms7_0 a t).IsWhole := hstage7_0 (((cfg7 a).slots t 0).cast nbuf7_0)
abbrev ms7_1 (t : Fin (cfg7 a).N) : Memref sig .tc .vmem S4096 .f32 := spec7_1.stage ((cfg7 a).slots t 1)
abbrev hs7_1 (t : Fin (cfg7 a).N) : (ms7_1 a t).IsWhole := hstage7_1 (((cfg7 a).slots t 1).cast nbuf7_1)
abbrev ms7_2 (t : Fin (cfg7 a).N) : Memref sig .tc .vmem S2048x32 .f32 := spec7_2.stage ((cfg7 a).slots t 2)
abbrev hs7_2 (t : Fin (cfg7 a).N) : (ms7_2 a t).IsWhole := hstage7_2 (((cfg7 a).slots t 2).cast nbuf7_2)
abbrev ms7_3 (t : Fin (cfg7 a).N) : Memref sig .tc .vmem S4096x32 .f32 := spec7_3.stage ((cfg7 a).slots t 3)
abbrev hs7_3 (t : Fin (cfg7 a).N) : (ms7_3 a t).IsWhole := hstage7_3 (((cfg7 a).slots t 3).cast nbuf7_3)

/-- The kernel body at point `t`, on what the pipeline calls it with. -/
abbrev bodyAt7 (t : Fin (cfg7 a).N) : Prog (TpuEff nD τ sig (Elt F) Λ₀ .tc) PUnit :=
  cc7__gather_kernel (grid7.coords t) tbMin7 htbMin7 tbMax7 htbMax7 (ms7_0 a t) (hs7_0 a t) (ms7_1 a t) (hs7_1 a t) (ms7_2 a t) (hs7_2 a t)
    (ms7_3 a t) (hs7_3 a t) scM7 (Memref.isWhole_whole _)

/-- What the body is called with at point `t`, the windows one by one, -/
def bodyPre7 (c : Dev nD) (t : Fin (cfg7 a).N) : sProp 𝕄 :=
  iprop((dat7 V a c).Φ t.castSucc ∗ (dat7 V a c).owesAt () t.castSucc
    ∗ (∃ d, owns (c : Thread nD τ) (ms7_0 a t) fullShare ((dat7 V a c).before 0 t d))
    ∗ (∃ d, owns (c : Thread nD τ) (ms7_1 a t) fullShare ((dat7 V a c).before 1 t d))
    ∗ (∃ d, owns (c : Thread nD τ) (ms7_2 a t) fullShare ((dat7 V a c).before 2 t d))
    ∗ (∃ d, owns (c : Thread nD τ) (ms7_3 a t) fullShare ((dat7 V a c).before 3 t d)))

/-- and what it returns: the output's buffer as found where the window is idle, at the scaled scratch where it is stored. -/
def bodyPost7 (c : Dev nD) (t : Fin (cfg7 a).N) : sProp 𝕄 :=
  iprop((dat7 V a c).Φ t.succ ∗ (dat7 V a c).owesAt () t.succ
    ∗ owns (c : Thread nD τ) (ms7_0 a t) fullShare ((dat7 V a c).after 0 t)
    ∗ owns (c : Thread nD τ) (ms7_1 a t) fullShare ((dat7 V a c).after 1 t)
    ∗ owns (c : Thread nD τ) (ms7_2 a t) fullShare ((dat7 V a c).after 2 t)
    ∗ (dat7 V a c).leavesExact 3 t)

/-- Where the output is stored the window is live: its buffer ends at `after`. -/
theorem leaves7_live (c : Dev nD) (t : Fin (cfg7 a).N) (h : (cfg7 a).idle 3 ((cfg7 a).grid.coords t) = false) :
    (dat7 V a c).leavesExact 3 t = owns (c : Thread nD τ) (ms7_3 a t) fullShare ((dat7 V a c).after 3 t) := by
  unfold Dat.leavesExact; rw [h]; rfl

set_option maxHeartbeats 1000000 in
/-- The body at any point. The point's place on the grid decides the first and the last conditional; the middle
    one is decided by cases on the table words, which stay variables. In each case the matching run applies: the
    inputs' memrefs hold their blocks, the scratch what the point before left (anything at a first node tile), and
    the scratch's new contents are `accAt7` at the point by its recursion. -/
theorem sound_body7 (c : Dev nD) (t : Fin (cfg7 a).N) :
    bodyPre7 V a c t ⊢ wp frame (wpE (defs₀ (F := F)) Variants.none c none) Set.univ (bodyAt7 a t) (fun _ => bodyPost7 V a c t) := by
  have hN : t.val < 19159 := lt_of_lt_of_eq t.isLt N_7
  have hk : (grid7.coords t 1).val = t.val % 49 := coords7_1 t
  unfold bodyPre7 bodyPost7
  simp only [before7_0, before7_1, before7_2]
  rw [after7_0, after7_1, after7_2, Phi_cast, Phi_succ, owes_succ, pref7_eq]
  by_cases h0 : t.val % 49 = 0
  · -- a first node tile: the scratch restarts; the output window is idle and not written back
    have hc1 : cond1 (grid7.coords t) := (cond1_iff _).mpr (hk.trans h0)
    have hc3 : ¬ k7_cond3 (grid7.coords t) = 1#1 := fun h => by have := (k7_cond3_iff' _).mp h; omega
    have hidle : (cfg7 a).idle 3 ((cfg7 a).grid.coords t) = true := idle7_3_of a (grid7.coords t) hc3
    have hfl : ((cfg7 a).win 3).flush t = false := noflush7_3 a t hc3
    rw [Dat.leavesExact_idle _ 3 t hidle hfl]
    by_cases hc2 : act7 a (grid7.coords t)
    · have hacc := accAt7_first V a c t (hk.trans h0)
      rw [if_pos hc2] at hacc
      rw [hacc]
      iintro ⟨⟨⟨HT0, HT1⟩, HS, HR, HG⟩, Ho, ⟨%d0, H0⟩, ⟨%d1, H1⟩, ⟨%d2, H2⟩, ⟨%d3, H3⟩⟩
      ihave HS' := (scr7_ex V a c _ _) $$ HS
      iapply (run7_FA c (grid7.coords t) (ms7_0 a t) (hs7_0 a t) (ms7_1 a t) (hs7_1 a t) (ms7_2 a t) (hs7_2 a t) (ms7_3 a t) (hs7_3 a t)
        scM7 (Memref.isWhole_whole _) (srcB V a c t) (normB V a c t) (hwB V a c t) (a.1 0) (a.1 1) hc1 hc2 hc3
        ((dat7 V a c).before 3 t d3) Set.univ _)
      unfold kin7
      isplitl [H0 H1 H2 HT0 HT1]
      · isplitl [H0]; · iexact H0
        isplitl [H1]; · iexact H1
        isplitl [H2]; · iexact H2
        isplitl [HT0]; · iexact HT0
        iexact HT1
      isplitl [HS']; · iexact HS'
      isplitl [H3]; · iexact H3
      iintro ⟨⟨H0, H1, H2, HT0, HT1⟩, HS, H3⟩
      isplitl [HT0 HT1 HS HR HG]
      · isplitl [HT0 HT1]
        · isplitl [HT0]; · iexact HT0
          iexact HT1
        isplitl [HS]; · iexact HS
        isplitl [HR]; · iexact HR
        iexact HG
      isplitl [Ho]; · iexact Ho
      isplitl [H0]; · iexact H0
      isplitl [H1]; · iexact H1
      isplitl [H2]; · iexact H2
      iexists d3; iexact H3
    · have hacc := accAt7_first V a c t (hk.trans h0)
      rw [if_neg hc2] at hacc
      rw [hacc]
      iintro ⟨⟨⟨HT0, HT1⟩, HS, HR, HG⟩, Ho, ⟨%d0, H0⟩, ⟨%d1, H1⟩, ⟨%d2, H2⟩, ⟨%d3, H3⟩⟩
      ihave HS' := (scr7_ex V a c _ _) $$ HS
      iapply (run7_FI c (grid7.coords t) (ms7_0 a t) (hs7_0 a t) (ms7_1 a t) (hs7_1 a t) (ms7_2 a t) (hs7_2 a t) (ms7_3 a t) (hs7_3 a t)
        scM7 (Memref.isWhole_whole _) (srcB V a c t) (normB V a c t) (hwB V a c t) (a.1 0) (a.1 1) hc1 hc2 hc3
        ((dat7 V a c).before 3 t d3) Set.univ _)
      unfold kin7
      isplitl [H0 H1 H2 HT0 HT1]
      · isplitl [H0]; · iexact H0
        isplitl [H1]; · iexact H1
        isplitl [H2]; · iexact H2
        isplitl [HT0]; · iexact HT0
        iexact HT1
      isplitl [HS']; · iexact HS'
      isplitl [H3]; · iexact H3
      iintro ⟨⟨H0, H1, H2, HT0, HT1⟩, HS, H3⟩
      isplitl [HT0 HT1 HS HR HG]
      · isplitl [HT0 HT1]
        · isplitl [HT0]; · iexact HT0
          iexact HT1
        isplitl [HS]; · iexact HS
        isplitl [HR]; · iexact HR
        iexact HG
      isplitl [Ho]; · iexact Ho
      isplitl [H0]; · iexact H0
      isplitl [H1]; · iexact H1
      isplitl [H2]; · iexact H2
      iexists d3; iexact H3
  · -- a later node tile: the scratch holds what the point before left
    have ht0 : t.val ≠ 0 := fun h => h0 (by rw [h])
    have hc1 : ¬ cond1 (grid7.coords t) := fun h => h0 (hk.symm.trans ((cond1_iff _).mp h))
    have hk' : (grid7.coords t 1).val ≠ 0 := fun h => h0 (hk.symm.trans h)
    rw [scr7_pos V a c t.val _ ht0]
    by_cases hL : t.val % 49 = 48
    · -- the last node tile: the output block is stored, and written back
      have hc3 : k7_cond3 (grid7.coords t) = 1#1 := (k7_cond3_iff' _).mpr (hk.trans hL)
      have hlive : (cfg7 a).idle 3 ((cfg7 a).grid.coords t) = false := live7_3_of a (grid7.coords t) hc3
      rw [leaves7_live V a c t hlive, after7_3]
      by_cases hc2 : act7 a (grid7.coords t)
      · have hacc := accAt7_next V a c t hk'
        rw [if_pos hc2] at hacc
        rw [hacc]
        iintro ⟨⟨⟨HT0, HT1⟩, HS, HR, HG⟩, Ho, ⟨%d0, H0⟩, ⟨%d1, H1⟩, ⟨%d2, H2⟩, ⟨%d3, H3⟩⟩
        iapply (run7_LA c (grid7.coords t) (ms7_0 a t) (hs7_0 a t) (ms7_1 a t) (hs7_1 a t) (ms7_2 a t) (hs7_2 a t) (ms7_3 a t) (hs7_3 a t)
          scM7 (Memref.isWhole_whole _) (srcB V a c t) (normB V a c t) (hwB V a c t) (a.1 0) (a.1 1) hc1 hc2 hc3
          (accAt7 V a c (t.val - 1) (Nat.lt_of_le_of_lt (Nat.sub_le _ _) t.isLt)) Set.univ _)
        unfold kin7
        isplitl [H0 H1 H2 HT0 HT1]
        · isplitl [H0]; · iexact H0
          isplitl [H1]; · iexact H1
          isplitl [H2]; · iexact H2
          isplitl [HT0]; · iexact HT0
          iexact HT1
        isplitl [HS]; · iexact HS
        isplitl [H3]; · iexists _; iexact H3
        iintro ⟨⟨H0, H1, H2, HT0, HT1⟩, HS, H3⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        iexact H3
      · have hacc := accAt7_next V a c t hk'
        rw [if_neg hc2] at hacc
        rw [hacc]
        iintro ⟨⟨⟨HT0, HT1⟩, HS, HR, HG⟩, Ho, ⟨%d0, H0⟩, ⟨%d1, H1⟩, ⟨%d2, H2⟩, ⟨%d3, H3⟩⟩
        iapply (run7_LI c (grid7.coords t) (ms7_0 a t) (hs7_0 a t) (ms7_1 a t) (hs7_1 a t) (ms7_2 a t) (hs7_2 a t) (ms7_3 a t) (hs7_3 a t)
          scM7 (Memref.isWhole_whole _) (srcB V a c t) (normB V a c t) (hwB V a c t) (a.1 0) (a.1 1) hc1 hc2 hc3
          (accAt7 V a c (t.val - 1) (Nat.lt_of_le_of_lt (Nat.sub_le _ _) t.isLt)) Set.univ _)
        unfold kin7
        isplitl [H0 H1 H2 HT0 HT1]
        · isplitl [H0]; · iexact H0
          isplitl [H1]; · iexact H1
          isplitl [H2]; · iexact H2
          isplitl [HT0]; · iexact HT0
          iexact HT1
        isplitl [HS]; · iexact HS
        isplitl [H3]; · iexists _; iexact H3
        iintro ⟨⟨H0, H1, H2, HT0, HT1⟩, HS, H3⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        iexact H3
    · -- a middle node tile: the output window is idle and not written back
      have hc3 : ¬ k7_cond3 (grid7.coords t) = 1#1 := fun h => hL (hk.symm.trans ((k7_cond3_iff' _).mp h))
      have hidle : (cfg7 a).idle 3 ((cfg7 a).grid.coords t) = true := idle7_3_of a (grid7.coords t) hc3
      have hfl : ((cfg7 a).win 3).flush t = false := noflush7_3 a t hc3
      rw [Dat.leavesExact_idle _ 3 t hidle hfl]
      by_cases hc2 : act7 a (grid7.coords t)
      · have hacc := accAt7_next V a c t hk'
        rw [if_pos hc2] at hacc
        rw [hacc]
        iintro ⟨⟨⟨HT0, HT1⟩, HS, HR, HG⟩, Ho, ⟨%d0, H0⟩, ⟨%d1, H1⟩, ⟨%d2, H2⟩, ⟨%d3, H3⟩⟩
        iapply (run7_MA c (grid7.coords t) (ms7_0 a t) (hs7_0 a t) (ms7_1 a t) (hs7_1 a t) (ms7_2 a t) (hs7_2 a t) (ms7_3 a t) (hs7_3 a t)
          scM7 (Memref.isWhole_whole _) (srcB V a c t) (normB V a c t) (hwB V a c t) (a.1 0) (a.1 1) hc1 hc2 hc3
          (accAt7 V a c (t.val - 1) (Nat.lt_of_le_of_lt (Nat.sub_le _ _) t.isLt)) ((dat7 V a c).before 3 t d3) Set.univ _)
        unfold kin7
        isplitl [H0 H1 H2 HT0 HT1]
        · isplitl [H0]; · iexact H0
          isplitl [H1]; · iexact H1
          isplitl [H2]; · iexact H2
          isplitl [HT0]; · iexact HT0
          iexact HT1
        isplitl [HS]; · iexact HS
        isplitl [H3]; · iexact H3
        iintro ⟨⟨H0, H1, H2, HT0, HT1⟩, HS, H3⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        iexists d3; iexact H3
      · have hacc := accAt7_next V a c t hk'
        rw [if_neg hc2] at hacc
        rw [hacc]
        iintro ⟨⟨⟨HT0, HT1⟩, HS, HR, HG⟩, Ho, ⟨%d0, H0⟩, ⟨%d1, H1⟩, ⟨%d2, H2⟩, ⟨%d3, H3⟩⟩
        iapply (run7_MI c (grid7.coords t) (ms7_0 a t) (hs7_0 a t) (ms7_1 a t) (hs7_1 a t) (ms7_2 a t) (hs7_2 a t) (ms7_3 a t) (hs7_3 a t)
          scM7 (Memref.isWhole_whole _) (srcB V a c t) (normB V a c t) (hwB V a c t) (a.1 0) (a.1 1) hc1 hc2 hc3
          (accAt7 V a c (t.val - 1) (Nat.lt_of_le_of_lt (Nat.sub_le _ _) t.isLt)) ((dat7 V a c).before 3 t d3) Set.univ _)
        unfold kin7
        isplitl [H0 H1 H2 HT0 HT1]
        · isplitl [H0]; · iexact H0
          isplitl [H1]; · iexact H1
          isplitl [H2]; · iexact H2
          isplitl [HT0]; · iexact HT0
          iexact HT1
        isplitl [HS]; · iexact HS
        isplitl [H3]; · iexact H3
        iintro ⟨⟨H0, H1, H2, HT0, HT1⟩, HS, H3⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        iexists d3; iexact H3

/-- The library's body obligation, at every point. -/
theorem body_obligation7 (c : Dev nD) : BodyObligation (dat7 (F := F) V a c) (defs₀ (F := F)) Variants.none () Set.univ := fun t => by
  rw [bigSep_W7, bigSep_W7]
  exact sound_body7 V a c t

/-! ## The invariant at the region's two ends -/

/-- The scratch as the region finds it (a scoped buffer at some contents) is the scratch memref owned at some contents. -/
theorem scr_in (c : Dev nD) :
    (iprop(∃ f : Buf (Elt F) ((c : Thread nD τ).loc cc7_scratch0), ((c : Thread nD τ).loc cc7_scratch0) ↦{fullShare} f) : sProp 𝕄)
      ⊢ iprop(∃ d, owns (c : Thread nD τ) scM7 fullShare d) := by
  simp only [owns_whole]; exact .rfl

theorem scr_out (c : Dev nD) :
    (iprop(∃ d, owns (c : Thread nD τ) scM7 fullShare d) : sProp 𝕄)
      ⊢ iprop(∃ f : Buf (Elt F) ((c : Thread nD τ).loc cc7_scratch0), ((c : Thread nD τ).loc cc7_scratch0) ↦{fullShare} f) := by
  simp only [owns_whole]; exact .rfl

/-- The invariant before the first point, from the generator register, the tables and the scoped rest. -/
theorem hin7 (c : Dev nD) :
    iprop((∃ r, prngReg c r) ∗ Pipeline.prefHeld pre7 c (fun _ => fullShare) a.1 ∗ Pipeline.scopedRest spec7 c) ⊢ (dat7 V a c).Φ 0 := by
  rw [scopedRest7_split]
  show _ ⊢ Φ1 V a c 0
  unfold Φ1
  show _ ⊢ iprop(_ ∗ (∃ d, owns (c : Thread nD τ) scM7 fullShare d) ∗ _ ∗ _)
  iintro ⟨HG, HT, HS, HR⟩
  isplitl [HT]; · iexact HT
  isplitl [HS]; · iapply (scr_in c); iexact HS
  isplitl [HR]; · iexact HR
  iexact HG

/-- The invariant after the last point gives the generator register and the tables (at the full share) back, and
    the scoped rest; the kernel has no semaphore of its own. -/
theorem hout7 (c : Dev nD) :
    (dat7 V a c).Φ (Fin.last _)
      ⊢ iprop(((∃ r, prngReg c r) ∗ Pipeline.prefHeld pre7 c (fun _ => fullShare) a.1) ∗ Pipeline.ownSems0 (fun k : PEmpty => k.elim) c ∗ Pipeline.scopedRest spec7 c) := by
  rw [scopedRest7_split, Pipeline.ownSems0_none]
  show Φ1 V a c (Fin.last _) ⊢ _
  unfold Φ1
  iintro ⟨HT, HS, HR, HG⟩
  ihave HS' := (scr7_ex V a c _ _) $$ HS
  isplitl [HG HT]
  · isplitl [HG]; · iexact HG
    iexact HT
  isplitr
  · iempintro
  isplitl [HS']; · iapply (scr_out c); iexact HS'
  iexact HR

end Cert.KernelIdeal.R7

end
-- ==== Proof.R8Sched.lean ====
import proofs.«417346_j54202487276072_2_alg».proof.Proof.Gen.KernelIdeal.Launch
import Idealize.ShloMosaic.Lib.Pipeline.Kit
import Idealize.ShloMosaic.Lib.Affine

noncomputable section

namespace Cert.KernelIdeal.R8

open Cert.KernelIdeal Cert.KernelIdeal.Gen
open Idealize.ShloMosaic Idealize.ShloMosaic.TcCoe
open Idealize.SL Idealize.SL.Sem

variable {F : FTy → Type} [FloatOps F]

/-! # The schedule of the scatter region on its grid `[49, 391]`

Point `t` is (node tile `t / 391`, edge tile `t % 391`), the edge tile moving fastest. None of these facts reads
the prefetched tables: the index maps are functions of the point alone. -/

theorem stride8_0 : grid8.stride 0 = 391 := by decide
theorem stride8_1 : grid8.stride 1 = 1 := by decide

/-- The node tile of point `t`. -/
theorem coords8_0 (t : Fin grid8.N) : (grid8.coords t 0).val = t.val / 391 := by
  have hN : t.val < 19159 := lt_of_lt_of_eq t.isLt N_8
  show t.val / grid8.stride 0 % 49 = _
  rw [stride8_0]; omega

/-- The edge tile of point `t`. -/
theorem coords8_1 (t : Fin grid8.N) : (grid8.coords t 1).val = t.val % 391 := by
  show t.val / grid8.stride 1 % 391 = _
  rw [stride8_1, Nat.div_one]

/-! ## The body's two conditions on the point -/

/-- The condition of the first conditional (the scratch is initialised) holds exactly at the first edge tile. -/
theorem c1_iff (i : grid8.Coords) :
    (Scalar.cmpi .ne (Scalar.extui (Scalar.cmpi .eq (BitVec.ofNat 32 (i 1).val) 0#32)) 0#32) = 1#1 ↔ (i 1).val = 0 := by
  have hk : (i 1).val < 391 := (i 1).isLt
  rw [Scalar.guard_iff, Scalar.cmpi, IntOp.cmpi_eq, ← BitVec.toNat_inj]
  simp only [BitVec.toNat_ofNat]
  omega

/-- The output block is stored exactly at the last edge tile. -/
theorem cond3_iff (i : grid8.Coords) : k8_cond3 i = 1#1 ↔ (i 1).val = 390 := by
  have hk : (i 1).val < 391 := (i 1).isLt
  show (Scalar.cmpi .ne (Scalar.extui (Scalar.cmpi .eq (BitVec.ofNat 32 (i 1).val) 390#32)) 0#32) = 1#1 ↔ _
  rw [Scalar.guard_iff, Scalar.cmpi, IntOp.cmpi_eq, ← BitVec.toNat_inj]
  simp only [BitVec.toNat_ofNat]
  omega

/-! ## The output window's write-backs -/

/-- The output's block index is the node tile. -/
theorem tr5_0 (i : grid8.Coords) : cc8_transform_5 i 0 = (i 0).val := by
  have hk : (i 0).val < 49 := (i 0).isLt
  show (BitVec.ofNat 32 (i 0).val).toNat = _
  rw [BitVec.toNat_ofNat]; omega

theorem tr5_ne_iff (i j : grid8.Coords) : cc8_transform_5 i ≠ cc8_transform_5 j ↔ (i 0).val ≠ (j 0).val := by
  constructor
  · intro h e; apply h; funext x
    fin_cases x
    · show cc8_transform_5 i 0 = cc8_transform_5 j 0
      rw [tr5_0, tr5_0, e]
    · rfl
  · intro h e; apply h
    have := congrFun e 0
    rwa [tr5_0, tr5_0] at this

variable (a : (pcfg8 (F := F)).Adm)

/-- The output block is written back exactly after the last edge tile of its node tile. -/
theorem flush8_5 (t : Fin (cfg8 a).N) : ((cfg8 a).win 5).flush t = true ↔ t.val % 391 = 390 := by
  have hN : t.val < 19159 := lt_of_lt_of_eq t.isLt N_8
  rw [Pipeline.Window.flush_eq_flushOf]
  show Pipeline.Window.flushOf grid8 true cc8_transform_5 t = true ↔ _
  unfold Pipeline.Window.flushOf
  rw [Bool.true_and, Bool.or_eq_true, decide_eq_true_eq, decide_eq_true_eq]
  constructor
  · rintro (h | ⟨h, hne⟩)
    · have hN2 := N_8; omega
    · rw [tr5_ne_iff, coords8_0, coords8_0] at hne
      dsimp only at hne
      omega
  · intro h
    by_cases hl : t.val + 1 = grid8.N
    · exact .inl hl
    · have h' : t.val + 1 < grid8.N := by have hN2 := N_8; omega
      refine .inr ⟨h', ?_⟩
      rw [tr5_ne_iff, coords8_0, coords8_0]
      dsimp only
      omega

/-- Where the output window is idle: everywhere but at the last edge tile. -/
theorem idle8_5 (t : Fin (cfg8 a).N) : (cfg8 a).idle 5 ((cfg8 a).grid.coords t) = !(k8_cond3 (grid8.coords t) == 1#1) := rfl

/-- The input windows are never idle. -/
theorem live8 (w : Fin (cfg8 a).W) (hw : w ≠ 5) (i : (cfg8 a).grid.Coords) : (cfg8 a).idle w i = false := by
  fin_cases w <;> first | rfl | exact absurd rfl hw

end Cert.KernelIdeal.R8

end
-- ==== Proof.R8Runs.lean ====
import proofs.«417346_j54202487276072_2_alg».proof.Proof.Gen.KernelIdeal.Launch
import proofs.«417346_j54202487276072_2_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.R8

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## The tables as the body is handed them; the step's condition -/

abbrev tbMin : Memref sig .tc .smem S391 .i32 := Memref.whole main_v72
abbrev htbMin : (tbMin).IsWhole := Memref.isWhole_whole _
abbrev tbMax : Memref sig .tc .smem S391 .i32 := Memref.whole main_v74
abbrev htbMax : (tbMax).IsWhole := Memref.isWhole_whole _

/-- A table's buffer contents on core `c`, and the table held whole at them. -/
abbrev TbBuf8 (c : Dev nD) (M : Memref sig .tc .smem S391 .i32) : Type := Buf (Elt F) (M.view.loc (c : Thread nD τ))
abbrev tbPt8 (c : Dev nD) (M : Memref sig .tc .smem S391 .i32) (f : TbBuf8 (F := F) c M) : sProp 𝕄 :=
  M.view.loc (c : Thread nD τ) ↦{fullShare} f

/-- The word of table `M` the body loads at point `i` (the entry of the point's edge tile), over contents `f`. -/
abbrev wd8 (M : Memref sig .tc .smem S391 .i32) (f : M.view.ty.Contents (Elt F)) (i : grid8.Coords) : Elt F .i32 :=
  M.view.readAt (Elt F) (Rect.unit (s := S391) (k8_off1 i) S1.size (k8_off1_inb i)).toLoadRect f (Shape.Idx.first (numel1_S1.symm ▸ Nat.one_pos))

/-- The condition of the accumulation step as the body computes it: the node tile `[2048 i₀, 2048 i₀ + 2048)` meets
    the range `[mn, mx]` of destinations in the edge tile (signed comparisons on the two table words). -/
def k8_act (i : grid8.Coords) (mx mn : Elt F .i32) : BitVec 1 :=
  let arg0 : BitVec 32 := BitVec.ofNat 32 (i 0).val
  let v3 : BitVec 32 := Scalar.muli arg0 2048#32
  let v4 : BitVec 32 := Scalar.addi v3 2048#32
  let v7 : BitVec 1 := Scalar.cmpi .sle v3 mx
  let v10 : BitVec 1 := Scalar.cmpi .sgt v4 mn
  let v11 : BitVec 1 := Scalar.andi v7 v10
  let v12 : BitVec 32 := Scalar.extui v11
  Scalar.cmpi .ne v12 0#32

/-- The condition of the first conditional: the scratch is initialised at the first edge tile. -/
abbrev k8_c1 (i : grid8.Coords) : Prop :=
  (Scalar.cmpi .ne (Scalar.extui (Scalar.cmpi .eq (BitVec.ofNat 32 (i 1).val) 0#32)) 0#32) = 1#1

/-! ## Whole-buffer loads and stores -/

theorem z1 : (![0] : Fin 1 → Nat) = fun _ => 0 := by funext a; fin_cases a; rfl
theorem z2 : (![0, 0] : Fin 2 → Nat) = fun _ => 0 := by funext a; fin_cases a <;> rfl

/-- A load through the whole-shape rectangle at zero offsets reads the memref's contents. -/
theorem rdU (S : Shape) {e : EltTy} {κ : Kind} {sp : Space} (v : View sig κ sp S e) {off : Fin S.rank → Nat} (h : off = fun _ => 0)
    (inb : ∀ a, off a + S.size a ≤ S.size a) (f : v.ty.Contents (Elt F)) :
    v.readAt (Elt F) (Rect.unit off S.size inb).toLoadRect f = v.read (Elt F) f :=
  View.ld_unit_zero h inb _

/-- Every index lies in the whole-shape rectangle: a list of stores headed by one through it covers the buffer. -/
theorem covU (S : Shape) {e : EltTy} {off : Fin S.rank → Nat} (h : off = fun _ => 0) (inb : ∀ a, off a + S.size a ≤ S.size a)
    (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons.mpr (Or.inl rfl), View.mem_set_unit_zero h inb y⟩

/-- A load through it of what the run's stores left, the last of them through it, reads that store's payload. -/
theorem rcU (S : Shape) {e : EltTy} {κ : Kind} {sp : Space} (v : View sig κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (covU S h inb w L), View.canon_cons_unit_zero h, View.ld_unit_zero h]

/-- The buffer read back after the run's stores, the last of them through the whole-shape rectangle: its payload. -/
theorem rwU (S : Shape) {e : EltTy} {κ : Kind} {sp : Space} (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (covU S h inb w L), View.canon_cons_unit_zero h]

/-- The inputs' staging memrefs at their blocks and the two tables at their contents: what every case of the body
    is handed and hands back untouched. -/
def kin8 (c : Dev nD) (arg4 : Memref sig .tc .vmem S4096 .i32) (arg5 : Memref sig .tc .vmem S4096x32 .f32)
    (arg6 : Memref sig .tc .vmem S2048x32 .f32) (arg7 : Memref sig .tc .vmem S2048 .f32) (arg8 : Memref sig .tc .vmem S1x32 .f32)
    (x0 : Vec F S4096 .i32) (x1 : Vec F S4096x32 .f32) (x2 : Vec F S2048x32 .f32) (x3 : Vec F S2048 .f32) (x4 : Vec F S1x32 .f32)
    (xt0 : TbBuf8 (F := F) c tbMin) (xt1 : TbBuf8 (F := F) c tbMax) : sProp 𝕄 :=
  iprop(owns (c : Thread nD τ) arg4 fullShare x0 ∗ owns (c : Thread nD τ) arg5 fullShare x1 ∗ owns (c : Thread nD τ) arg6 fullShare x2
    ∗ owns (c : Thread nD τ) arg7 fullShare x3 ∗ owns (c : Thread nD τ) arg8 fullShare x4 ∗ tbPt8 c tbMin xt0 ∗ tbPt8 c tbMax xt1)

/-! ## The body, case by case

The body has three conditionals: on the point's edge tile being the first (the scratch is initialised), on the two
table words (the accumulation step), on the edge tile being the last (the output block is stored). First and last
exclude each other on this grid, which leaves six cases. In each the printed function is its skeleton, run
operation by operation; every load and store is through a whole staging memref. The tables' words are never
evaluated: the case's hypothesis on them decides the middle conditional. -/

set_option maxHeartbeats 1000000 in
/-- First edge tile, step taken: the scratch ends at the step applied to the initial value; the output's buffer is
    untouched. -/
theorem run8_FA (c : Dev nD) (i : grid8.Coords)
    (arg4 : Memref sig .tc .vmem S4096 .i32) (harg4 : arg4.IsWhole) (arg5 : Memref sig .tc .vmem S4096x32 .f32) (harg5 : arg5.IsWhole)
    (arg6 : Memref sig .tc .vmem S2048x32 .f32) (harg6 : arg6.IsWhole) (arg7 : Memref sig .tc .vmem S2048 .f32) (harg7 : arg7.IsWhole)
    (arg8 : Memref sig .tc .vmem S1x32 .f32) (harg8 : arg8.IsWhole) (arg9 : Memref sig .tc .vmem S2048x32 .f32) (harg9 : arg9.IsWhole)
    (arg10 : Memref sig .tc .vmem S2048x32 .f32) (harg10 : arg10.IsWhole)
    (x0 : Vec F S4096 .i32) (x1 : Vec F S4096x32 .f32) (x2 : Vec F S2048x32 .f32) (x3 : Vec F S2048 .f32) (x4 : Vec F S1x32 .f32)
    (xt0 : TbBuf8 (F := F) c tbMin) (xt1 : TbBuf8 (F := F) c tbMax)
    (hc1 : k8_c1 i) (hc2 : k8_act (F := F) i (wd8 tbMax xt1 i) (wd8 tbMin xt0 i) = 1#1) (hc3 : ¬ k8_cond3 i = 1#1)
    (xo : Vec F S2048x32 .f32) (E : Set ℕ) (K : PUnit → sProp 𝕄) :
    iprop(kin8 c arg4 arg5 arg6 arg7 arg8 x0 x1 x2 x3 x4 xt0 xt1
        ∗ (∃ d, owns (c : Thread nD τ) arg10 fullShare d) ∗ owns (c : Thread nD τ) arg9 fullShare xo
        ∗ (iprop(kin8 c arg4 arg5 arg6 arg7 arg8 x0 x1 x2 x3 x4 xt0 xt1
            ∗ owns (c : Thread nD τ) arg10 fullShare (k8_pay2 i x0 (k8_pay1 x3 x2) x1) ∗ owns (c : Thread nD τ) arg9 fullShare xo) -∗ K ⟨⟩))
      ⊢ wp frame (wpE (defs₀ (F := F)) Variants.none c none) E
          (cc8__scatter_kernel i tbMin htbMin tbMax htbMax arg4 harg4 arg5 harg5 arg6 harg6 arg7 harg7 arg8 harg8 arg9 harg9 arg10 harg10) K := by
  simp only [cc8__scatter_kernel_eq_skeleton]; unfold cc8__scatter_kernel_skel
  unfold kin8 owns
  iintro ⟨⟨⟨%f0, %hf0, H0⟩, ⟨%f1, %hf1, H1⟩, ⟨%f2, %hf2, H2⟩, ⟨%f3, %hf3, H3⟩, ⟨%f4, %hf4, H4⟩, HT0, HT1⟩, ⟨%ds, %fs, -, HS⟩, ⟨%f9, %hf9, H9⟩, Hk⟩
  subst hf0 hf1 hf2 hf3 hf4 hf9
  sl_exec (disch := first | sl_exact hc1 | sl_exact hc2 | sl_exact hc3)
  sl_step
  iapply Hk
  isplitl [H0 H1 H2 H3 H4 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [HT0]; · iexact HT0
    iexact HT1
  isplitl [HS]
  · iexists _; isplitr; swap; · iexact HS
    ipureintro
    -- the second store's payload read the first store's back
    rw [rwU S2048x32 _ _ z2]
    unfold run8_FA.sl.v29 run8_FA.sl.HS_1
    simp only [rcU S2048x32 _ z2, rdU S4096 _ z1, rdU S2048 _ z1, rdU S2048x32 _ z2, rdU S4096x32 _ z2]
  iexists f9; isplitr; · ipureintro; rfl
  iexact H9

set_option maxHeartbeats 1000000 in
/-- First edge tile, step skipped: the scratch ends at the initial value; the output's buffer is untouched. -/
theorem run8_FI (c : Dev nD) (i : grid8.Coords)
    (arg4 : Memref sig .tc .vmem S4096 .i32) (harg4 : arg4.IsWhole) (arg5 : Memref sig .tc .vmem S4096x32 .f32) (harg5 : arg5.IsWhole)
    (arg6 : Memref sig .tc .vmem S2048x32 .f32) (harg6 : arg6.IsWhole) (arg7 : Memref sig .tc .vmem S2048 .f32) (harg7 : arg7.IsWhole)
    (arg8 : Memref sig .tc .vmem S1x32 .f32) (harg8 : arg8.IsWhole) (arg9 : Memref sig .tc .vmem S2048x32 .f32) (harg9 : arg9.IsWhole)
    (arg10 : Memref sig .tc .vmem S2048x32 .f32) (harg10 : arg10.IsWhole)
    (x0 : Vec F S4096 .i32) (x1 : Vec F S4096x32 .f32) (x2 : Vec F S2048x32 .f32) (x3 : Vec F S2048 .f32) (x4 : Vec F S1x32 .f32)
    (xt0 : TbBuf8 (F := F) c tbMin) (xt1 : TbBuf8 (F := F) c tbMax)
    (hc1 : k8_c1 i) (hc2 : ¬ k8_act (F := F) i (wd8 tbMax xt1 i) (wd8 tbMin xt0 i) = 1#1) (hc3 : ¬ k8_cond3 i = 1#1)
    (xo : Vec F S2048x32 .f32) (E : Set ℕ) (K : PUnit → sProp 𝕄) :
    iprop(kin8 c arg4 arg5 arg6 arg7 arg8 x0 x1 x2 x3 x4 xt0 xt1
        ∗ (∃ d, owns (c : Thread nD τ) arg10 fullShare d) ∗ owns (c : Thread nD τ) arg9 fullShare xo
        ∗ (iprop(kin8 c arg4 arg5 arg6 arg7 arg8 x0 x1 x2 x3 x4 xt0 xt1
            ∗ owns (c : Thread nD τ) arg10 fullShare (k8_pay1 x3 x2) ∗ owns (c : Thread nD τ) arg9 fullShare xo) -∗ K ⟨⟩))
      ⊢ wp frame (wpE (defs₀ (F := F)) Variants.none c none) E
          (cc8__scatter_kernel i tbMin htbMin tbMax htbMax arg4 harg4 arg5 harg5 arg6 harg6 arg7 harg7 arg8 harg8 arg9 harg9 arg10 harg10) K := by
  simp only [cc8__scatter_kernel_eq_skeleton]; unfold cc8__scatter_kernel_skel
  unfold kin8 owns
  iintro ⟨⟨⟨%f0, %hf0, H0⟩, ⟨%f1, %hf1, H1⟩, ⟨%f2, %hf2, H2⟩, ⟨%f3, %hf3, H3⟩, ⟨%f4, %hf4, H4⟩, HT0, HT1⟩, ⟨%ds, %fs, -, HS⟩, ⟨%f9, %hf9, H9⟩, Hk⟩
  subst hf0 hf1 hf2 hf3 hf4 hf9
  sl_exec (disch := first | sl_exact hc1 | sl_exact hc2 | sl_exact hc3)
  sl_step
  iapply Hk
  isplitl [H0 H1 H2 H3 H4 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [HT0]; · iexact HT0
    iexact HT1
  isplitl [HS]
  · iexists _; isplitr; swap; · iexact HS
    ipureintro
    rw [rwU S2048x32 _ _ z2]
    simp only [rdU S2048 _ z1, rdU S2048x32 _ z2]
  iexists f9; isplitr; · ipureintro; rfl
  iexact H9

set_option maxHeartbeats 1000000 in
/-- A middle edge tile, step taken: the scratch ends at the step applied to what it held; the output's buffer is
    untouched. -/
theorem run8_MA (c : Dev nD) (i : grid8.Coords)
    (arg4 : Memref sig .tc .vmem S4096 .i32) (harg4 : arg4.IsWhole) (arg5 : Memref sig .tc .vmem S4096x32 .f32) (harg5 : arg5.IsWhole)
    (arg6 : Memref sig .tc .vmem S2048x32 .f32) (harg6 : arg6.IsWhole) (arg7 : Memref sig .tc .vmem S2048 .f32) (harg7 : arg7.IsWhole)
    (arg8 : Memref sig .tc .vmem S1x32 .f32) (harg8 : arg8.IsWhole) (arg9 : Memref sig .tc .vmem S2048x32 .f32) (harg9 : arg9.IsWhole)
    (arg10 : Memref sig .tc .vmem S2048x32 .f32) (harg10 : arg10.IsWhole)
    (x0 : Vec F S4096 .i32) (x1 : Vec F S4096x32 .f32) (x2 : Vec F S2048x32 .f32) (x3 : Vec F S2048 .f32) (x4 : Vec F S1x32 .f32)
    (xt0 : TbBuf8 (F := F) c tbMin) (xt1 : TbBuf8 (F := F) c tbMax)
    (hc1 : ¬ k8_c1 i) (hc2 : k8_act (F := F) i (wd8 tbMax xt1 i) (wd8 tbMin xt0 i) = 1#1) (hc3 : ¬ k8_cond3 i = 1#1)
    (xs xo : Vec F S2048x32 .f32) (E : Set ℕ) (K : PUnit → sProp 𝕄) :
    iprop(kin8 c arg4 arg5 arg6 arg7 arg8 x0 x1 x2 x3 x4 xt0 xt1
        ∗ owns (c : Thread nD τ) arg10 fullShare xs ∗ owns (c : Thread nD τ) arg9 fullShare xo
        ∗ (iprop(kin8 c arg4 arg5 arg6 arg7 arg8 x0 x1 x2 x3 x4 xt0 xt1
            ∗ owns (c : Thread nD τ) arg10 fullShare (k8_pay2 i x0 xs x1) ∗ owns (c : Thread nD τ) arg9 fullShare xo) -∗ K ⟨⟩))
      ⊢ wp frame (wpE (defs₀ (F := F)) Variants.none c none) E
          (cc8__scatter_kernel i tbMin htbMin tbMax htbMax arg4 harg4 arg5 harg5 arg6 harg6 arg7 harg7 arg8 harg8 arg9 harg9 arg10 harg10) K := by
  simp only [cc8__scatter_kernel_eq_skeleton]; unfold cc8__scatter_kernel_skel
  unfold kin8 owns
  iintro ⟨⟨⟨%f0, %hf0, H0⟩, ⟨%f1, %hf1, H1⟩, ⟨%f2, %hf2, H2⟩, ⟨%f3, %hf3, H3⟩, ⟨%f4, %hf4, H4⟩, HT0, HT1⟩, ⟨%fs, %hfs, HS⟩, ⟨%f9, %hf9, H9⟩, Hk⟩
  subst hf0 hf1 hf2 hf3 hf4 hfs hf9
  sl_exec (disch := first | sl_exact hc1 | sl_exact hc2 | sl_exact hc3)
  sl_step
  iapply Hk
  isplitl [H0 H1 H2 H3 H4 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [HT0]; · iexact HT0
    iexact HT1
  isplitl [HS]
  · iexists _; isplitr; swap; · iexact HS
    ipureintro
    rw [rwU S2048x32 _ _ z2]
    simp only [rdU S4096 _ z1, rdU S2048x32 _ z2, rdU S4096x32 _ z2]
  iexists f9; isplitr; · ipureintro; rfl
  iexact H9

set_option maxHeartbeats 1000000 in
/-- A middle edge tile, step skipped: nothing is stored. -/
theorem run8_MI (c : Dev nD) (i : grid8.Coords)
    (arg4 : Memref sig .tc .vmem S4096 .i32) (harg4 : arg4.IsWhole) (arg5 : Memref sig .tc .vmem S4096x32 .f32) (harg5 : arg5.IsWhole)
    (arg6 : Memref sig .tc .vmem S2048x32 .f32) (harg6 : arg6.IsWhole) (arg7 : Memref sig .tc .vmem S2048 .f32) (harg7 : arg7.IsWhole)
    (arg8 : Memref sig .tc .vmem S1x32 .f32) (harg8 : arg8.IsWhole) (arg9 : Memref sig .tc .vmem S2048x32 .f32) (harg9 : arg9.IsWhole)
    (arg10 : Memref sig .tc .vmem S2048x32 .f32) (harg10 : arg10.IsWhole)
    (x0 : Vec F S4096 .i32) (x1 : Vec F S4096x32 .f32) (x2 : Vec F S2048x32 .f32) (x3 : Vec F S2048 .f32) (x4 : Vec F S1x32 .f32)
    (xt0 : TbBuf8 (F := F) c tbMin) (xt1 : TbBuf8 (F := F) c tbMax)
    (hc1 : ¬ k8_c1 i) (hc2 : ¬ k8_act (F := F) i (wd8 tbMax xt1 i) (wd8 tbMin xt0 i) = 1#1) (hc3 : ¬ k8_cond3 i = 1#1)
    (xs xo : Vec F S2048x32 .f32) (E : Set ℕ) (K : PUnit → sProp 𝕄) :
    iprop(kin8 c arg4 arg5 arg6 arg7 arg8 x0 x1 x2 x3 x4 xt0 xt1
        ∗ owns (c : Thread nD τ) arg10 fullShare xs ∗ owns (c : Thread nD τ) arg9 fullShare xo
        ∗ (iprop(kin8 c arg4 arg5 arg6 arg7 arg8 x0 x1 x2 x3 x4 xt0 xt1
            ∗ owns (c : Thread nD τ) arg10 fullShare xs ∗ owns (c : Thread nD τ) arg9 fullShare xo) -∗ K ⟨⟩))
      ⊢ wp frame (wpE (defs₀ (F := F)) Variants.none c none) E
          (cc8__scatter_kernel i tbMin htbMin tbMax htbMax arg4 harg4 arg5 harg5 arg6 harg6 arg7 harg7 arg8 harg8 arg9 harg9 arg10 harg10) K := by
  simp only [cc8__scatter_kernel_eq_skeleton]; unfold cc8__scatter_kernel_skel
  unfold kin8 owns
  iintro ⟨⟨⟨%f0, %hf0, H0⟩, ⟨%f1, %hf1, H1⟩, ⟨%f2, %hf2, H2⟩, ⟨%f3, %hf3, H3⟩, ⟨%f4, %hf4, H4⟩, HT0, HT1⟩, ⟨%fs, %hfs, HS⟩, ⟨%f9, %hf9, H9⟩, Hk⟩
  subst hf0 hf1 hf2 hf3 hf4 hfs hf9
  sl_exec (disch := first | sl_exact hc1 | sl_exact hc2 | sl_exact hc3)
  sl_step
  iapply Hk
  isplitl [H0 H1 H2 H3 H4 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [HT0]; · iexact HT0
    iexact HT1
  isplitl [HS]
  · iexists fs; isplitr; · ipureintro; rfl
    iexact HS
  iexists f9; isplitr; · ipureintro; rfl
  iexact H9

set_option maxHeartbeats 1000000 in
/-- Last edge tile, step taken: the scratch ends at the step applied to what it held, and the output's buffer at
    the epilogue of that. -/
theorem run8_LA (c : Dev nD) (i : grid8.Coords)
    (arg4 : Memref sig .tc .vmem S4096 .i32) (harg4 : arg4.IsWhole) (arg5 : Memref sig .tc .vmem S4096x32 .f32) (harg5 : arg5.IsWhole)
    (arg6 : Memref sig .tc .vmem S2048x32 .f32) (harg6 : arg6.IsWhole) (arg7 : Memref sig .tc .vmem S2048 .f32) (harg7 : arg7.IsWhole)
    (arg8 : Memref sig .tc .vmem S1x32 .f32) (harg8 : arg8.IsWhole) (arg9 : Memref sig .tc .vmem S2048x32 .f32) (harg9 : arg9.IsWhole)
    (arg10 : Memref sig .tc .vmem S2048x32 .f32) (harg10 : arg10.IsWhole)
    (x0 : Vec F S4096 .i32) (x1 : Vec F S4096x32 .f32) (x2 : Vec F S2048x32 .f32) (x3 : Vec F S2048 .f32) (x4 : Vec F S1x32 .f32)
    (xt0 : TbBuf8 (F := F) c tbMin) (xt1 : TbBuf8 (F := F) c tbMax)
    (hc1 : ¬ k8_c1 i) (hc2 : k8_act (F := F) i (wd8 tbMax xt1 i) (wd8 tbMin xt0 i) = 1#1) (hc3 : k8_cond3 i = 1#1)
    (xs : Vec F S2048x32 .f32) (E : Set ℕ) (K : PUnit → sProp 𝕄) :
    iprop(kin8 c arg4 arg5 arg6 arg7 arg8 x0 x1 x2 x3 x4 xt0 xt1
        ∗ owns (c : Thread nD τ) arg10 fullShare xs ∗ (∃ d, owns (c : Thread nD τ) arg9 fullShare d)
        ∗ (iprop(kin8 c arg4 arg5 arg6 arg7 arg8 x0 x1 x2 x3 x4 xt0 xt1
            ∗ owns (c : Thread nD τ) arg10 fullShare (k8_pay2 i x0 xs x1)
            ∗ owns (c : Thread nD τ) arg9 fullShare (k8_pay3 (k8_pay2 i x0 xs x1) x4)) -∗ K ⟨⟩))
      ⊢ wp frame (wpE (defs₀ (F := F)) Variants.none c none) E
          (cc8__scatter_kernel i tbMin htbMin tbMax htbMax arg4 harg4 arg5 harg5 arg6 harg6 arg7 harg7 arg8 harg8 arg9 harg9 arg10 harg10) K := by
  simp only [cc8__scatter_kernel_eq_skeleton]; unfold cc8__scatter_kernel_skel
  unfold kin8 owns
  iintro ⟨⟨⟨%f0, %hf0, H0⟩, ⟨%f1, %hf1, H1⟩, ⟨%f2, %hf2, H2⟩, ⟨%f3, %hf3, H3⟩, ⟨%f4, %hf4, H4⟩, HT0, HT1⟩, ⟨%fs, %hfs, HS⟩, ⟨%d9, %f9, -, H9⟩, Hk⟩
  subst hf0 hf1 hf2 hf3 hf4 hfs
  sl_exec (disch := first | sl_exact hc1 | sl_exact hc2 | sl_exact hc3)
  sl_step
  iapply Hk
  isplitl [H0 H1 H2 H3 H4 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [HT0]; · iexact HT0
    iexact HT1
  isplitl [HS]
  · iexists _; isplitr; swap; · iexact HS
    ipureintro
    unfold run8_LA.sl.HS_1
    rw [rwU S2048x32 _ _ z2]
    simp only [rdU S4096 _ z1, rdU S2048x32 _ z2, rdU S4096x32 _ z2]
  iexists _; isplitr; swap; · iexact H9
  ipureintro
  -- the epilogue's load read the step's store back
  rw [rwU S2048x32 _ _ z2]
  unfold run8_LA.sl.v17 run8_LA.sl.HS_1
  simp only [rcU S2048x32 _ z2, rdU S4096 _ z1, rdU S2048x32 _ z2, rdU S4096x32 _ z2, rdU S1x32 _ z2]

set_option maxHeartbeats 1000000 in
/-- Last edge tile, step skipped: the scratch keeps what it held, and the output's buffer ends at the epilogue of
    that. -/
theorem run8_LI (c : Dev nD) (i : grid8.Coords)
    (arg4 : Memref sig .tc .vmem S4096 .i32) (harg4 : arg4.IsWhole) (arg5 : Memref sig .tc .vmem S4096x32 .f32) (harg5 : arg5.IsWhole)
    (arg6 : Memref sig .tc .vmem S2048x32 .f32) (harg6 : arg6.IsWhole) (arg7 : Memref sig .tc .vmem S2048 .f32) (harg7 : arg7.IsWhole)
    (arg8 : Memref sig .tc .vmem S1x32 .f32) (harg8 : arg8.IsWhole) (arg9 : Memref sig .tc .vmem S2048x32 .f32) (harg9 : arg9.IsWhole)
    (arg10 : Memref sig .tc .vmem S2048x32 .f32) (harg10 : arg10.IsWhole)
    (x0 : Vec F S4096 .i32) (x1 : Vec F S4096x32 .f32) (x2 : Vec F S2048x32 .f32) (x3 : Vec F S2048 .f32) (x4 : Vec F S1x32 .f32)
    (xt0 : TbBuf8 (F := F) c tbMin) (xt1 : TbBuf8 (F := F) c tbMax)
    (hc1 : ¬ k8_c1 i) (hc2 : ¬ k8_act (F := F) i (wd8 tbMax xt1 i) (wd8 tbMin xt0 i) = 1#1) (hc3 : k8_cond3 i = 1#1)
    (xs : Vec F S2048x32 .f32) (E : Set ℕ) (K : PUnit → sProp 𝕄) :
    iprop(kin8 c arg4 arg5 arg6 arg7 arg8 x0 x1 x2 x3 x4 xt0 xt1
        ∗ owns (c : Thread nD τ) arg10 fullShare xs ∗ (∃ d, owns (c : Thread nD τ) arg9 fullShare d)
        ∗ (iprop(kin8 c arg4 arg5 arg6 arg7 arg8 x0 x1 x2 x3 x4 xt0 xt1
            ∗ owns (c : Thread nD τ) arg10 fullShare xs ∗ owns (c : Thread nD τ) arg9 fullShare (k8_pay3 xs x4)) -∗ K ⟨⟩))
      ⊢ wp frame (wpE (defs₀ (F := F)) Variants.none c none) E
          (cc8__scatter_kernel i tbMin htbMin tbMax htbMax arg4 harg4 arg5 harg5 arg6 harg6 arg7 harg7 arg8 harg8 arg9 harg9 arg10 harg10) K := by
  simp only [cc8__scatter_kernel_eq_skeleton]; unfold cc8__scatter_kernel_skel
  unfold kin8 owns
  iintro ⟨⟨⟨%f0, %hf0, H0⟩, ⟨%f1, %hf1, H1⟩, ⟨%f2, %hf2, H2⟩, ⟨%f3, %hf3, H3⟩, ⟨%f4, %hf4, H4⟩, HT0, HT1⟩, ⟨%fs, %hfs, HS⟩, ⟨%d9, %f9, -, H9⟩, Hk⟩
  subst hf0 hf1 hf2 hf3 hf4 hfs
  sl_exec (disch := first | sl_exact hc1 | sl_exact hc2 | sl_exact hc3)
  sl_step
  iapply Hk
  isplitl [H0 H1 H2 H3 H4 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [HT0]; · iexact HT0
    iexact HT1
  isplitl [HS]
  · iexists fs; isplitr; · ipureintro; rfl
    iexact HS
  iexists _; isplitr; swap; · iexact H9
  ipureintro
  rw [rwU S2048x32 _ _ z2]
  simp only [rdU S2048x32 _ z2, rdU S1x32 _ z2]

end Cert.KernelIdeal.R8

end
-- ==== Proof.R8Frame.lean ====
import proofs.«417346_j54202487276072_2_alg».proof.Proof.R8Sched
import proofs.«417346_j54202487276072_2_alg».proof.Proof.R8Runs
import Idealize.ShloMosaic.Lib.Pipeline.FrameBody
import Idealize.ShloMosaic.Lib.Pipeline.Frame

set_option maxRecDepth 16384

noncomputable section

namespace Cert.KernelIdeal.R8

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

-- the buffer contents when the region is entered, and the admissible tables: both parameters, never evaluated
variable (V : (c : Dev nD) → (b : Ref sig .tc) → Buf (Elt F) ((c : Thread nD τ).loc b)) (a : (pcfg8 (F := F)).Adm)

/-! # The scatter region (custom_call 2) at entry contents `V` and tables `a`

The scratch carries, along each node tile's run of edge tiles, the self term plus the sum over the edge tiles
whose destination range meets the node tile; the output block is the epilogue of the scratch at the last edge
tile. -/

/-! ## The windows' blocks and the table words -/

/-- Window `w`'s block at point `t`, read off its array as the region finds it. -/
def iblk8 (c : Dev nD) (w : Fin (cfg8 a).W) (t : Fin (cfg8 a).N) : (((cfg8 a).win w).xblock ((cfg8 a).grid.coords t)).Idx → Elt F ((cfg8 a).win w).elt :=
  (((cfg8 a).win w).blk t).view.read (Elt F) (V c (Pipeline.arrRef spec8 w))

/-- The five input blocks at their vector types (no window is cut: a block's shape is its window's). -/
abbrev dstB (c : Dev nD) (t : Fin (cfg8 a).N) : Vec F S4096 .i32 := iblk8 V a c 0 t
abbrev gB (c : Dev nD) (t : Fin (cfg8 a).N) : Vec F S4096x32 .f32 := iblk8 V a c 1 t
abbrev hwB (c : Dev nD) (t : Fin (cfg8 a).N) : Vec F S2048x32 .f32 := iblk8 V a c 2 t
abbrev snB (c : Dev nD) (t : Fin (cfg8 a).N) : Vec F S2048 .f32 := iblk8 V a c 3 t
abbrev biasB (c : Dev nD) (t : Fin (cfg8 a).N) : Vec F S1x32 .f32 := iblk8 V a c 4 t

/-- The two table words the body loads at point `i`: the least and the greatest destination in the edge tile. -/
abbrev wMin (i : grid8.Coords) : Elt F .i32 := wd8 tbMin (a.1 0) i
abbrev wMax (i : grid8.Coords) : Elt F .i32 := wd8 tbMax (a.1 1) i

/-- The accumulation step is taken at point `i`. -/
abbrev act8 (i : grid8.Coords) : Prop := k8_act (F := F) i (wMax a i) (wMin a i) = 1#1

/-! ## The scratch, point by point -/

/-- One point's effect on the scratch from what it held (`prev`): initialised at the first edge tile, then the
    step if its condition holds. -/
def step8 (i : grid8.Coords) (prev : Vec F S2048x32 .f32) (sn : Vec F S2048 .f32) (hw : Vec F S2048x32 .f32)
    (dst : Vec F S4096 .i32) (g : Vec F S4096x32 .f32) : Vec F S2048x32 .f32 :=
  if act8 a i then k8_pay2 i dst (if (i 1).val = 0 then k8_pay1 sn hw else prev) g
  else (if (i 1).val = 0 then k8_pay1 sn hw else prev)

/-- What the scratch holds after the body at point `n`. -/
def accAt8 (c : Dev nD) : (n : ℕ) → n < (cfg8 a).N → Vec F S2048x32 .f32
  | 0, h => step8 a (grid8.coords ⟨0, h⟩) (k8_pay1 (snB V a c ⟨0, h⟩) (hwB V a c ⟨0, h⟩)) (snB V a c ⟨0, h⟩) (hwB V a c ⟨0, h⟩)
      (dstB V a c ⟨0, h⟩) (gB V a c ⟨0, h⟩)
  | n + 1, h => step8 a (grid8.coords ⟨n + 1, h⟩) (accAt8 c n (Nat.lt_of_succ_lt h)) (snB V a c ⟨n + 1, h⟩) (hwB V a c ⟨n + 1, h⟩)
      (dstB V a c ⟨n + 1, h⟩) (gB V a c ⟨n + 1, h⟩)

/-- At a first edge tile the scratch restarts from the self term. -/
theorem accAt8_first (c : Dev nD) (t : Fin (cfg8 a).N) (hk : (grid8.coords t 1).val = 0) :
    accAt8 V a c t.val t.isLt
      = if act8 a (grid8.coords t) then k8_pay2 (grid8.coords t) (dstB V a c t) (k8_pay1 (snB V a c t) (hwB V a c t)) (gB V a c t)
        else k8_pay1 (snB V a c t) (hwB V a c t) := by
  obtain ⟨n, hn⟩ := t
  cases n with
  | zero => show step8 a _ _ _ _ _ _ = _; unfold step8; simp only [if_pos hk]
  | succ n => show step8 a _ _ _ _ _ _ = _; unfold step8; simp only [if_pos hk]

/-- At a later edge tile it continues from the point before. -/
theorem accAt8_next (c : Dev nD) (t : Fin (cfg8 a).N) (hk : (grid8.coords t 1).val ≠ 0) :
    accAt8 V a c t.val t.isLt
      = if act8 a (grid8.coords t)
        then k8_pay2 (grid8.coords t) (dstB V a c t) (accAt8 V a c (t.val - 1) (Nat.lt_of_le_of_lt (Nat.sub_le _ _) t.isLt)) (gB V a c t)
        else accAt8 V a c (t.val - 1) (Nat.lt_of_le_of_lt (Nat.sub_le _ _) t.isLt) := by
  obtain ⟨n, hn⟩ := t
  cases n with
  | zero => exact absurd (by rw [coords8_1]; rfl) hk
  | succ n => show step8 a _ _ _ _ _ _ = _; unfold step8; simp only [if_neg hk]; rfl

/-! ## The invariant between points -/

/-- The kernel's scratch operand: a whole scoped buffer of its own. -/
abbrev scM8 : Memref sig .tc .vmem S2048x32 .f32 := Memref.whole cc8_scratch0

/-- The scratch before point `n`: at anything before the first point, else at what the point before left. -/
def scr8 (c : Dev nD) : (n : ℕ) → n < (cfg8 a).N + 1 → sProp 𝕄
  | 0, _ => iprop(∃ d, owns (c : Thread nD τ) scM8 fullShare d)
  | n + 1, h => owns (c : Thread nD τ) scM8 fullShare (accAt8 V a c n (Nat.lt_of_succ_lt_succ h))

/-- The region's invariant before point `t`: the tables held whole at their contents, the scratch, the other scoped
    buffers unopened, the generator register at some state. -/
def Φ2 (c : Dev nD) (t : Fin ((cfg8 a).N + 1)) : sProp 𝕄 :=
  iprop(Pipeline.prefHeld (Ix := Unit) (Name := ℕ) (U := UR sig nD τ) (Lvl := ℕ) pre8 c (fun _ => fullShare) a.1
    ∗ scr8 V a c t.val t.isLt
    ∗ Pipeline.scopedRestBut (Ix := Unit) (Name := ℕ) (U := UR sig nD τ) (Lvl := ℕ) (Val := Elt F) spec8 c [cc8_scratch0]
    ∗ ∃ r, prngReg c r)

theorem scr8_ex (c : Dev nD) (n : ℕ) (h : n < (cfg8 a).N + 1) :
    scr8 V a c n h ⊢ (iprop(∃ d, owns (c : Thread nD τ) scM8 fullShare d) : sProp 𝕄) := by
  cases n with
  | zero => exact .rfl
  | succ n => show owns _ _ _ _ ⊢ _; iintro H; iexists _; iexact H

theorem scr8_pos (c : Dev nD) (n : ℕ) (h : n < (cfg8 a).N + 1) (hn : n ≠ 0) :
    scr8 V a c n h = owns (c : Thread nD τ) scM8 fullShare (accAt8 V a c (n - 1) (by omega)) := by
  cases n with
  | zero => exact absurd rfl hn
  | succ m => rfl

/-! ## The proof data -/

/-- The proof data of pipeline 8 on core `c`: the arrays as the region finds them; after the body each input's
    buffer at its block, the output's at the epilogue of the scratch (consulted only where the block is written
    back: at the last edge tile); the invariant `Φ2`; nothing owed; full shares. -/
def dat8 (c : Dev nD) : Dat τ (Elt F) Unit ℕ (UR sig nD τ) ℕ (cfg8 a) c where
  A w := V c (Pipeline.arrRef spec8 w)
  after w t := match w with
    | ⟨0, _⟩ => iblk8 V a c 0 t
    | ⟨1, _⟩ => iblk8 V a c 1 t
    | ⟨2, _⟩ => iblk8 V a c 2 t
    | ⟨3, _⟩ => iblk8 V a c 3 t
    | ⟨4, _⟩ => iblk8 V a c 4 t
    | ⟨5, _⟩ => k8_pay3 (accAt8 V a c t.val t.isLt) (biasB V a c t)
  Φ t := Φ2 V a c t
  q _ := fullShare
  owed _ := 0

theorem A_eq8 (c : Dev nD) (w : Fin (cfg8 a).W) : (dat8 V a c).A w = V c (Pipeline.arrRef spec8 w) := by
  dsimp only [dat8]

theorem after8_0 (c : Dev nD) (t : Fin (cfg8 a).N) : (dat8 V a c).after 0 t = iblk8 V a c 0 t := by dsimp only [dat8]; rfl
theorem after8_1 (c : Dev nD) (t : Fin (cfg8 a).N) : (dat8 V a c).after 1 t = iblk8 V a c 1 t := by dsimp only [dat8]; rfl
theorem after8_2 (c : Dev nD) (t : Fin (cfg8 a).N) : (dat8 V a c).after 2 t = iblk8 V a c 2 t := by dsimp only [dat8]; rfl
theorem after8_3 (c : Dev nD) (t : Fin (cfg8 a).N) : (dat8 V a c).after 3 t = iblk8 V a c 3 t := by dsimp only [dat8]; rfl
theorem after8_4 (c : Dev nD) (t : Fin (cfg8 a).N) : (dat8 V a c).after 4 t = iblk8 V a c 4 t := by dsimp only [dat8]; rfl
/-- The output's buffer after the body: the epilogue of the scratch (what the write-back writes at the last edge tile). -/
theorem after8_5 (c : Dev nD) (t : Fin (cfg8 a).N) :
    (dat8 V a c).after 5 t = k8_pay3 (accAt8 V a c t.val t.isLt) (biasB V a c t) := by dsimp only [dat8]; rfl

/-- Each input's current staging buffer holds its block at every point, fetched there or not: the body only
    reads it, the window is uncut and never idle. -/
theorem before8_0 (c : Dev nD) (t : Fin (cfg8 a).N) (d) : (dat8 V a c).before 0 t d = iblk8 V a c 0 t :=
  ((dat8 V a c).before_in_eq_fetched 0 rfl (fun _ => rfl) (fun _ _ _ => rfl)
    (fun t => by rw [after8_0]; unfold Dat.blockOf iblk8; rw [A_eq8]; try rfl) t d).trans
    (by unfold Dat.fetched Dat.blockOf iblk8; rw [A_eq8]; try rfl)
theorem before8_1 (c : Dev nD) (t : Fin (cfg8 a).N) (d) : (dat8 V a c).before 1 t d = iblk8 V a c 1 t :=
  ((dat8 V a c).before_in_eq_fetched 1 rfl (fun _ => rfl) (fun _ _ _ => rfl)
    (fun t => by rw [after8_1]; unfold Dat.blockOf iblk8; rw [A_eq8]; try rfl) t d).trans
    (by unfold Dat.fetched Dat.blockOf iblk8; rw [A_eq8]; try rfl)
theorem before8_2 (c : Dev nD) (t : Fin (cfg8 a).N) (d) : (dat8 V a c).before 2 t d = iblk8 V a c 2 t :=
  ((dat8 V a c).before_in_eq_fetched 2 rfl (fun _ => rfl) (fun _ _ _ => rfl)
    (fun t => by rw [after8_2]; unfold Dat.blockOf iblk8; rw [A_eq8]; try rfl) t d).trans
    (by unfold Dat.fetched Dat.blockOf iblk8; rw [A_eq8]; try rfl)
theorem before8_3 (c : Dev nD) (t : Fin (cfg8 a).N) (d) : (dat8 V a c).before 3 t d = iblk8 V a c 3 t :=
  ((dat8 V a c).before_in_eq_fetched 3 rfl (fun _ => rfl) (fun _ _ _ => rfl)
    (fun t => by rw [after8_3]; unfold Dat.blockOf iblk8; rw [A_eq8]; try rfl) t d).trans
    (by unfold Dat.fetched Dat.blockOf iblk8; rw [A_eq8]; try rfl)
theorem before8_4 (c : Dev nD) (t : Fin (cfg8 a).N) (d) : (dat8 V a c).before 4 t d = iblk8 V a c 4 t :=
  ((dat8 V a c).before_in_eq_fetched 4 rfl (fun _ => rfl) (fun _ _ _ => rfl)
    (fun t => by rw [after8_4]; unfold Dat.blockOf iblk8; rw [A_eq8]; try rfl) t d).trans
    (by unfold Dat.fetched Dat.blockOf iblk8; rw [A_eq8]; try rfl)

/-! ## The invariant, opened -/

/-- The tables, one by one. -/
theorem pref8_eq (c : Dev nD) :
    (Pipeline.prefHeld (Ix := Unit) (Name := ℕ) (U := UR sig nD τ) (Lvl := ℕ) pre8 c (fun _ => fullShare) a.1 : sProp 𝕄)
      = iprop(tbPt8 c tbMin (a.1 0) ∗ tbPt8 c tbMax (a.1 1)) := by
  unfold Pipeline.prefHeld
  rw [show (Finset.univ : Finset (Fin 2)) = insert (0 : Fin 2) {(1 : Fin 2)} from by decide,
    bigSep_insert (by decide), bigSep_singleton]
  rfl

theorem Phi_cast (c : Dev nD) (t : Fin (cfg8 a).N) :
    (dat8 V a c).Φ t.castSucc
      = iprop(Pipeline.prefHeld (Ix := Unit) (Name := ℕ) (U := UR sig nD τ) (Lvl := ℕ) pre8 c (fun _ => fullShare) a.1
          ∗ scr8 V a c t.val (Nat.lt_succ_of_lt t.isLt)
          ∗ Pipeline.scopedRestBut (Ix := Unit) (Name := ℕ) (U := UR sig nD τ) (Lvl := ℕ) (Val := Elt F) spec8 c [cc8_scratch0]
          ∗ ∃ r, prngReg c r) := by
  obtain ⟨n, hn⟩ := t; rfl

theorem Phi_succ (c : Dev nD) (t : Fin (cfg8 a).N) :
    (dat8 V a c).Φ t.succ
      = iprop(Pipeline.prefHeld (Ix := Unit) (Name := ℕ) (U := UR sig nD τ) (Lvl := ℕ) pre8 c (fun _ => fullShare) a.1
          ∗ owns (c : Thread nD τ) scM8 fullShare (accAt8 V a c t.val t.isLt)
          ∗ Pipeline.scopedRestBut (Ix := Unit) (Name := ℕ) (U := UR sig nD τ) (Lvl := ℕ) (Val := Elt F) spec8 c [cc8_scratch0]
          ∗ ∃ r, prngReg c r) := by
  obtain ⟨n, hn⟩ := t; rfl

theorem owes_succ (c : Dev nD) (t : Fin (cfg8 a).N) :
    (dat8 V a c).owesAt () t.succ = (dat8 V a c).owesAt () t.castSucc := rfl

/-! ## The body at a point -/

/-- Each window's current staging memref at point `t`, spelled as the pipeline passes it, and its wholeness. -/
abbrev ms8_0 (t : Fin (cfg8 a).N) : Memref sig .tc .vmem S4096 .i32 := spec8_0.stage ((cfg8 a).slots t 0)
abbrev hs8_0 (t : Fin (cfg8 a).N) : (ms8_0 a t).IsWhole := hstage8_0 (((cfg8 a).slots t 0).cast nbuf8_0)
abbrev ms8_1 (t : Fin (cfg8 a).N) : Memref sig .tc .vmem S4096x32 .f32 := spec8_1.stage ((cfg8 a).slots t 1)
abbrev hs8_1 (t : Fin (cfg8 a).N) : (ms8_1 a t).IsWhole := hstage8_1 (((cfg8 a).slots t 1).cast nbuf8_1)
abbrev ms8_2 (t : Fin (cfg8 a).N) : Memref sig .tc .vmem S2048x32 .f32 := spec8_2.stage ((cfg8 a).slots t 2)
abbrev hs8_2 (t : Fin (cfg8 a).N) : (ms8_2 a t).IsWhole := hstage8_2 (((cfg8 a).slots t 2).cast nbuf8_2)
abbrev ms8_3 (t : Fin (cfg8 a).N) : Memref sig .tc .vmem S2048 .f32 := spec8_3.stage ((cfg8 a).slots t 3)
abbrev hs8_3 (t : Fin (cfg8 a).N) : (ms8_3 a t).IsWhole := hstage8_3 (((cfg8 a).slots t 3).cast nbuf8_3)
abbrev ms8_4 (t : Fin (cfg8 a).N) : Memref sig .tc .vmem S1x32 .f32 := spec8_4.stage ((cfg8 a).slots t 4)
abbrev hs8_4 (t : Fin (cfg8 a).N) : (ms8_4 a t).IsWhole := hstage8_4 (((cfg8 a).slots t 4).cast nbuf8_4)
abbrev ms8_5 (t : Fin (cfg8 a).N) : Memref sig .tc .vmem S2048x32 .f32 := spec8_5.stage ((cfg8 a).slots t 5)
abbrev hs8_5 (t : Fin (cfg8 a).N) : (ms8_5 a t).IsWhole := hstage8_5 (((cfg8 a).slots t 5).cast nbuf8_5)

/-- The kernel body at point `t`, on what the pipeline calls it with. -/
abbrev bodyAt8 (t : Fin (cfg8 a).N) : Prog (TpuEff nD τ sig (Elt F) Λ₀ .tc) PUnit :=
  cc8__scatter_kernel (grid8.coords t) tbMin htbMin tbMax htbMax (ms8_0 a t) (hs8_0 a t) (ms8_1 a t) (hs8_1 a t) (ms8_2 a t) (hs8_2 a t)
    (ms8_3 a t) (hs8_3 a t) (ms8_4 a t) (hs8_4 a t) (ms8_5 a t) (hs8_5 a t) scM8 (Memref.isWhole_whole _)

/-- What the body is called with at point `t`, the windows one by one, -/
def bodyPre8 (c : Dev nD) (t : Fin (cfg8 a).N) : sProp 𝕄 :=
  iprop((dat8 V a c).Φ t.castSucc ∗ (dat8 V a c).owesAt () t.castSucc
    ∗ (∃ d, owns (c : Thread nD τ) (ms8_0 a t) fullShare ((dat8 V a c).before 0 t d))
    ∗ (∃ d, owns (c : Thread nD τ) (ms8_1 a t) fullShare ((dat8 V a c).before 1 t d))
    ∗ (∃ d, owns (c : Thread nD τ) (ms8_2 a t) fullShare ((dat8 V a c).before 2 t d))
    ∗ (∃ d, owns (c : Thread nD τ) (ms8_3 a t) fullShare ((dat8 V a c).before 3 t d))
    ∗ (∃ d, owns (c : Thread nD τ) (ms8_4 a t) fullShare ((dat8 V a c).before 4 t d))
    ∗ (∃ d, owns (c : Thread nD τ) (ms8_5 a t) fullShare ((dat8 V a c).before 5 t d)))

/-- and what it returns: the output's buffer as found where the window is idle, at the epilogue where it is stored. -/
def bodyPost8 (c : Dev nD) (t : Fin (cfg8 a).N) : sProp 𝕄 :=
  iprop((dat8 V a c).Φ t.succ ∗ (dat8 V a c).owesAt () t.succ
    ∗ owns (c : Thread nD τ) (ms8_0 a t) fullShare ((dat8 V a c).after 0 t)
    ∗ owns (c : Thread nD τ) (ms8_1 a t) fullShare ((dat8 V a c).after 1 t)
    ∗ owns (c : Thread nD τ) (ms8_2 a t) fullShare ((dat8 V a c).after 2 t)
    ∗ owns (c : Thread nD τ) (ms8_3 a t) fullShare ((dat8 V a c).after 3 t)
    ∗ owns (c : Thread nD τ) (ms8_4 a t) fullShare ((dat8 V a c).after 4 t)
    ∗ (dat8 V a c).leavesExact 5 t)

/-- Where the output is stored the window is live: its buffer ends at `after`. -/
theorem leaves8_live (c : Dev nD) (t : Fin (cfg8 a).N) (h : (cfg8 a).idle 5 ((cfg8 a).grid.coords t) = false) :
    (dat8 V a c).leavesExact 5 t = owns (c : Thread nD τ) (ms8_5 a t) fullShare ((dat8 V a c).after 5 t) := by
  unfold Dat.leavesExact; rw [h]; rfl

set_option maxHeartbeats 1000000 in
/-- The body at any point. The point's place on the grid decides the first and the last conditional; the middle
    one is decided by cases on the table words, which stay variables. In each case the matching run applies: the
    inputs' memrefs hold their blocks, the scratch what the point before left (anything at a first edge tile), and
    the scratch's new contents are `accAt8` at the point by its recursion. -/
theorem sound_body8 (c : Dev nD) (t : Fin (cfg8 a).N) :
    bodyPre8 V a c t ⊢ wp frame (wpE (defs₀ (F := F)) Variants.none c none) Set.univ (bodyAt8 a t) (fun _ => bodyPost8 V a c t) := by
  have hN : t.val < 19159 := lt_of_lt_of_eq t.isLt N_8
  have hk : (grid8.coords t 1).val = t.val % 391 := coords8_1 t
  unfold bodyPre8 bodyPost8
  simp only [before8_0, before8_1, before8_2, before8_3, before8_4]
  rw [after8_0, after8_1, after8_2, after8_3, after8_4, Phi_cast, Phi_succ, owes_succ, pref8_eq]
  by_cases h0 : t.val % 391 = 0
  · -- a first edge tile: the scratch restarts; the output window is idle and not written back
    have hc1 : k8_c1 (grid8.coords t) := (c1_iff _).mpr (hk.trans h0)
    have hc3 : ¬ k8_cond3 (grid8.coords t) = 1#1 := fun h => by have := (cond3_iff _).mp h; omega
    have hidle : (cfg8 a).idle 5 ((cfg8 a).grid.coords t) = true := by
      rw [idle8_5, beq_eq_false_iff_ne.mpr hc3]; rfl
    have hfl : ((cfg8 a).win 5).flush t = false := by
      rw [Bool.eq_false_iff]; intro h; have := (flush8_5 a t).mp h; omega
    rw [Dat.leavesExact_idle _ 5 t hidle hfl]
    by_cases hc2 : act8 a (grid8.coords t)
    · have hacc := accAt8_first V a c t (hk.trans h0)
      rw [if_pos hc2] at hacc
      rw [hacc]
      iintro ⟨⟨⟨HT0, HT1⟩, HS, HR, HG⟩, Ho, ⟨%d0, H0⟩, ⟨%d1, H1⟩, ⟨%d2, H2⟩, ⟨%d3, H3⟩, ⟨%d4, H4⟩, ⟨%d5, H5⟩⟩
      ihave HS' := (scr8_ex V a c _ _) $$ HS
      iapply (run8_FA c (grid8.coords t) (ms8_0 a t) (hs8_0 a t) (ms8_1 a t) (hs8_1 a t) (ms8_2 a t) (hs8_2 a t) (ms8_3 a t) (hs8_3 a t)
        (ms8_4 a t) (hs8_4 a t) (ms8_5 a t) (hs8_5 a t) scM8 (Memref.isWhole_whole _)
        (dstB V a c t) (gB V a c t) (hwB V a c t) (snB V a c t) (biasB V a c t) (a.1 0) (a.1 1) hc1 hc2 hc3
        ((dat8 V a c).before 5 t d5) Set.univ _)
      unfold kin8
      isplitl [H0 H1 H2 H3 H4 HT0 HT1]
      · isplitl [H0]; · iexact H0
        isplitl [H1]; · iexact H1
        isplitl [H2]; · iexact H2
        isplitl [H3]; · iexact H3
        isplitl [H4]; · iexact H4
        isplitl [HT0]; · iexact HT0
        iexact HT1
      isplitl [HS']; · iexact HS'
      isplitl [H5]; · iexact H5
      iintro ⟨⟨H0, H1, H2, H3, H4, HT0, HT1⟩, HS, H5⟩
      isplitl [HT0 HT1 HS HR HG]
      · isplitl [HT0 HT1]
        · isplitl [HT0]; · iexact HT0
          iexact HT1
        isplitl [HS]; · iexact HS
        isplitl [HR]; · iexact HR
        iexact HG
      isplitl [Ho]; · iexact Ho
      isplitl [H0]; · iexact H0
      isplitl [H1]; · iexact H1
      isplitl [H2]; · iexact H2
      isplitl [H3]; · iexact H3
      isplitl [H4]; · iexact H4
      iexists d5; iexact H5
    · have hacc := accAt8_first V a c t (hk.trans h0)
      rw [if_neg hc2] at hacc
      rw [hacc]
      iintro ⟨⟨⟨HT0, HT1⟩, HS, HR, HG⟩, Ho, ⟨%d0, H0⟩, ⟨%d1, H1⟩, ⟨%d2, H2⟩, ⟨%d3, H3⟩, ⟨%d4, H4⟩, ⟨%d5, H5⟩⟩
      ihave HS' := (scr8_ex V a c _ _) $$ HS
      iapply (run8_FI c (grid8.coords t) (ms8_0 a t) (hs8_0 a t) (ms8_1 a t) (hs8_1 a t) (ms8_2 a t) (hs8_2 a t) (ms8_3 a t) (hs8_3 a t)
        (ms8_4 a t) (hs8_4 a t) (ms8_5 a t) (hs8_5 a t) scM8 (Memref.isWhole_whole _)
        (dstB V a c t) (gB V a c t) (hwB V a c t) (snB V a c t) (biasB V a c t) (a.1 0) (a.1 1) hc1 hc2 hc3
        ((dat8 V a c).before 5 t d5) Set.univ _)
      unfold kin8
      isplitl [H0 H1 H2 H3 H4 HT0 HT1]
      · isplitl [H0]; · iexact H0
        isplitl [H1]; · iexact H1
        isplitl [H2]; · iexact H2
        isplitl [H3]; · iexact H3
        isplitl [H4]; · iexact H4
        isplitl [HT0]; · iexact HT0
        iexact HT1
      isplitl [HS']; · iexact HS'
      isplitl [H5]; · iexact H5
      iintro ⟨⟨H0, H1, H2, H3, H4, HT0, HT1⟩, HS, H5⟩
      isplitl [HT0 HT1 HS HR HG]
      · isplitl [HT0 HT1]
        · isplitl [HT0]; · iexact HT0
          iexact HT1
        isplitl [HS]; · iexact HS
        isplitl [HR]; · iexact HR
        iexact HG
      isplitl [Ho]; · iexact Ho
      isplitl [H0]; · iexact H0
      isplitl [H1]; · iexact H1
      isplitl [H2]; · iexact H2
      isplitl [H3]; · iexact H3
      isplitl [H4]; · iexact H4
      iexists d5; iexact H5
  · -- a later edge tile: the scratch holds what the point before left
    have ht0 : t.val ≠ 0 := fun h => h0 (by rw [h])
    have hc1 : ¬ k8_c1 (grid8.coords t) := fun h => h0 (hk.symm.trans ((c1_iff _).mp h))
    have hk' : (grid8.coords t 1).val ≠ 0 := fun h => h0 (hk.symm.trans h)
    rw [scr8_pos V a c t.val _ ht0]
    by_cases hL : t.val % 391 = 390
    · -- the last edge tile: the output block is stored, and written back
      have hc3 : k8_cond3 (grid8.coords t) = 1#1 := (cond3_iff _).mpr (hk.trans hL)
      have hlive : (cfg8 a).idle 5 ((cfg8 a).grid.coords t) = false := by
        rw [idle8_5, hc3]; rfl
      rw [leaves8_live V a c t hlive, after8_5]
      by_cases hc2 : act8 a (grid8.coords t)
      · have hacc := accAt8_next V a c t hk'
        rw [if_pos hc2] at hacc
        rw [hacc]
        iintro ⟨⟨⟨HT0, HT1⟩, HS, HR, HG⟩, Ho, ⟨%d0, H0⟩, ⟨%d1, H1⟩, ⟨%d2, H2⟩, ⟨%d3, H3⟩, ⟨%d4, H4⟩, ⟨%d5, H5⟩⟩
        iapply (run8_LA c (grid8.coords t) (ms8_0 a t) (hs8_0 a t) (ms8_1 a t) (hs8_1 a t) (ms8_2 a t) (hs8_2 a t) (ms8_3 a t) (hs8_3 a t)
          (ms8_4 a t) (hs8_4 a t) (ms8_5 a t) (hs8_5 a t) scM8 (Memref.isWhole_whole _)
          (dstB V a c t) (gB V a c t) (hwB V a c t) (snB V a c t) (biasB V a c t) (a.1 0) (a.1 1) hc1 hc2 hc3
          (accAt8 V a c (t.val - 1) (Nat.lt_of_le_of_lt (Nat.sub_le _ _) t.isLt)) Set.univ _)
        unfold kin8
        isplitl [H0 H1 H2 H3 H4 HT0 HT1]
        · isplitl [H0]; · iexact H0
          isplitl [H1]; · iexact H1
          isplitl [H2]; · iexact H2
          isplitl [H3]; · iexact H3
          isplitl [H4]; · iexact H4
          isplitl [HT0]; · iexact HT0
          iexact HT1
        isplitl [HS]; · iexact HS
        isplitl [H5]; · iexists _; iexact H5
        iintro ⟨⟨H0, H1, H2, H3, H4, HT0, HT1⟩, HS, H5⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        isplitl [H3]; · iexact H3
        isplitl [H4]; · iexact H4
        iexact H5
      · have hacc := accAt8_next V a c t hk'
        rw [if_neg hc2] at hacc
        rw [hacc]
        iintro ⟨⟨⟨HT0, HT1⟩, HS, HR, HG⟩, Ho, ⟨%d0, H0⟩, ⟨%d1, H1⟩, ⟨%d2, H2⟩, ⟨%d3, H3⟩, ⟨%d4, H4⟩, ⟨%d5, H5⟩⟩
        iapply (run8_LI c (grid8.coords t) (ms8_0 a t) (hs8_0 a t) (ms8_1 a t) (hs8_1 a t) (ms8_2 a t) (hs8_2 a t) (ms8_3 a t) (hs8_3 a t)
          (ms8_4 a t) (hs8_4 a t) (ms8_5 a t) (hs8_5 a t) scM8 (Memref.isWhole_whole _)
          (dstB V a c t) (gB V a c t) (hwB V a c t) (snB V a c t) (biasB V a c t) (a.1 0) (a.1 1) hc1 hc2 hc3
          (accAt8 V a c (t.val - 1) (Nat.lt_of_le_of_lt (Nat.sub_le _ _) t.isLt)) Set.univ _)
        unfold kin8
        isplitl [H0 H1 H2 H3 H4 HT0 HT1]
        · isplitl [H0]; · iexact H0
          isplitl [H1]; · iexact H1
          isplitl [H2]; · iexact H2
          isplitl [H3]; · iexact H3
          isplitl [H4]; · iexact H4
          isplitl [HT0]; · iexact HT0
          iexact HT1
        isplitl [HS]; · iexact HS
        isplitl [H5]; · iexists _; iexact H5
        iintro ⟨⟨H0, H1, H2, H3, H4, HT0, HT1⟩, HS, H5⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        isplitl [H3]; · iexact H3
        isplitl [H4]; · iexact H4
        iexact H5
    · -- a middle edge tile: the output window is idle and not written back
      have hc3 : ¬ k8_cond3 (grid8.coords t) = 1#1 := fun h => hL (hk.symm.trans ((cond3_iff _).mp h))
      have hidle : (cfg8 a).idle 5 ((cfg8 a).grid.coords t) = true := by
        rw [idle8_5, beq_eq_false_iff_ne.mpr hc3]; rfl
      have hfl : ((cfg8 a).win 5).flush t = false := by
        rw [Bool.eq_false_iff]; intro h; exact hL ((flush8_5 a t).mp h)
      rw [Dat.leavesExact_idle _ 5 t hidle hfl]
      by_cases hc2 : act8 a (grid8.coords t)
      · have hacc := accAt8_next V a c t hk'
        rw [if_pos hc2] at hacc
        rw [hacc]
        iintro ⟨⟨⟨HT0, HT1⟩, HS, HR, HG⟩, Ho, ⟨%d0, H0⟩, ⟨%d1, H1⟩, ⟨%d2, H2⟩, ⟨%d3, H3⟩, ⟨%d4, H4⟩, ⟨%d5, H5⟩⟩
        iapply (run8_MA c (grid8.coords t) (ms8_0 a t) (hs8_0 a t) (ms8_1 a t) (hs8_1 a t) (ms8_2 a t) (hs8_2 a t) (ms8_3 a t) (hs8_3 a t)
          (ms8_4 a t) (hs8_4 a t) (ms8_5 a t) (hs8_5 a t) scM8 (Memref.isWhole_whole _)
          (dstB V a c t) (gB V a c t) (hwB V a c t) (snB V a c t) (biasB V a c t) (a.1 0) (a.1 1) hc1 hc2 hc3
          (accAt8 V a c (t.val - 1) (Nat.lt_of_le_of_lt (Nat.sub_le _ _) t.isLt)) ((dat8 V a c).before 5 t d5) Set.univ _)
        unfold kin8
        isplitl [H0 H1 H2 H3 H4 HT0 HT1]
        · isplitl [H0]; · iexact H0
          isplitl [H1]; · iexact H1
          isplitl [H2]; · iexact H2
          isplitl [H3]; · iexact H3
          isplitl [H4]; · iexact H4
          isplitl [HT0]; · iexact HT0
          iexact HT1
        isplitl [HS]; · iexact HS
        isplitl [H5]; · iexact H5
        iintro ⟨⟨H0, H1, H2, H3, H4, HT0, HT1⟩, HS, H5⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        isplitl [H3]; · iexact H3
        isplitl [H4]; · iexact H4
        iexists d5; iexact H5
      · have hacc := accAt8_next V a c t hk'
        rw [if_neg hc2] at hacc
        rw [hacc]
        iintro ⟨⟨⟨HT0, HT1⟩, HS, HR, HG⟩, Ho, ⟨%d0, H0⟩, ⟨%d1, H1⟩, ⟨%d2, H2⟩, ⟨%d3, H3⟩, ⟨%d4, H4⟩, ⟨%d5, H5⟩⟩
        iapply (run8_MI c (grid8.coords t) (ms8_0 a t) (hs8_0 a t) (ms8_1 a t) (hs8_1 a t) (ms8_2 a t) (hs8_2 a t) (ms8_3 a t) (hs8_3 a t)
          (ms8_4 a t) (hs8_4 a t) (ms8_5 a t) (hs8_5 a t) scM8 (Memref.isWhole_whole _)
          (dstB V a c t) (gB V a c t) (hwB V a c t) (snB V a c t) (biasB V a c t) (a.1 0) (a.1 1) hc1 hc2 hc3
          (accAt8 V a c (t.val - 1) (Nat.lt_of_le_of_lt (Nat.sub_le _ _) t.isLt)) ((dat8 V a c).before 5 t d5) Set.univ _)
        unfold kin8
        isplitl [H0 H1 H2 H3 H4 HT0 HT1]
        · isplitl [H0]; · iexact H0
          isplitl [H1]; · iexact H1
          isplitl [H2]; · iexact H2
          isplitl [H3]; · iexact H3
          isplitl [H4]; · iexact H4
          isplitl [HT0]; · iexact HT0
          iexact HT1
        isplitl [HS]; · iexact HS
        isplitl [H5]; · iexact H5
        iintro ⟨⟨H0, H1, H2, H3, H4, HT0, HT1⟩, HS, H5⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        isplitl [H3]; · iexact H3
        isplitl [H4]; · iexact H4
        iexists d5; iexact H5

/-- The library's body obligation, at every point. -/
theorem body_obligation8 (c : Dev nD) : BodyObligation (dat8 (F := F) V a c) (defs₀ (F := F)) Variants.none () Set.univ := fun t => by
  rw [bigSep_W8, bigSep_W8]
  exact sound_body8 V a c t

/-! ## The invariant at the region's two ends -/

/-- The scratch as the region finds it (a scoped buffer at some contents) is the scratch memref owned at some contents. -/
theorem scr_in (c : Dev nD) :
    (iprop(∃ f : Buf (Elt F) ((c : Thread nD τ).loc cc8_scratch0), ((c : Thread nD τ).loc cc8_scratch0) ↦{fullShare} f) : sProp 𝕄)
      ⊢ iprop(∃ d, owns (c : Thread nD τ) scM8 fullShare d) := by
  simp only [owns_whole]; exact .rfl

theorem scr_out (c : Dev nD) :
    (iprop(∃ d, owns (c : Thread nD τ) scM8 fullShare d) : sProp 𝕄)
      ⊢ iprop(∃ f : Buf (Elt F) ((c : Thread nD τ).loc cc8_scratch0), ((c : Thread nD τ).loc cc8_scratch0) ↦{fullShare} f) := by
  simp only [owns_whole]; exact .rfl

/-- The invariant before the first point, from the generator register, the tables and the scoped rest. -/
theorem hin8 (c : Dev nD) :
    iprop((∃ r, prngReg c r) ∗ Pipeline.prefHeld pre8 c (fun _ => fullShare) a.1 ∗ Pipeline.scopedRest spec8 c) ⊢ (dat8 V a c).Φ 0 := by
  rw [scopedRest8_split]
  show _ ⊢ Φ2 V a c 0
  unfold Φ2
  show _ ⊢ iprop(_ ∗ (∃ d, owns (c : Thread nD τ) scM8 fullShare d) ∗ _ ∗ _)
  iintro ⟨HG, HT, HS, HR⟩
  isplitl [HT]; · iexact HT
  isplitl [HS]; · iapply (scr_in c); iexact HS
  isplitl [HR]; · iexact HR
  iexact HG

/-- The invariant after the last point gives the generator register and the tables (at the full share) back, and
    the scoped rest; the kernel has no semaphore of its own. -/
theorem hout8 (c : Dev nD) :
    (dat8 V a c).Φ (Fin.last _)
      ⊢ iprop(((∃ r, prngReg c r) ∗ Pipeline.prefHeld pre8 c (fun _ => fullShare) a.1) ∗ Pipeline.ownSems0 (fun k : PEmpty => k.elim) c ∗ Pipeline.scopedRest spec8 c) := by
  rw [scopedRest8_split, Pipeline.ownSems0_none]
  show Φ2 V a c (Fin.last _) ⊢ _
  unfold Φ2
  iintro ⟨HT, HS, HR, HG⟩
  ihave HS' := (scr8_ex V a c _ _) $$ HS
  isplitl [HG HT]
  · isplitl [HG]; · iexact HG
    iexact HT
  isplitr
  · iempintro
  isplitl [HS']; · iapply (scr_out c); iexact HS'
  iexact HR

end Cert.KernelIdeal.R8

end
-- ==== Proof.R9Frame.lean ====
import proofs.«417346_j54202487276072_2_alg».proof.Proof.Gen.KernelIdeal.Launch
import proofs.«417346_j54202487276072_2_alg».proof.Proof.Gen.KernelIdeal.Skeleton
import proofs.«417346_j54202487276072_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.R9

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The pool region (custom_call 9), at the contents `V` its arrays hold when it is entered

The grid has 49 points. Windows 0 and 1 (the graph ids and the node features) move with the point and are fetched at
every point; windows 2 and 3 (the per-graph sums and the per-graph counts) keep block (0, 0) throughout, live in their own
staging buffers from point to point, and are written back once, after the last point. At point 0 the body first stores
zeros in both output buffers; at every point it then reads both buffers, adds the point's contribution and stores them back. -/

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-! ## What the two output buffers hold after each point -/

/-- The two outputs' staging buffers after the body at point `n`: at point 0 the body's two sums over the zero blocks
    (`k9_pay1`, `k9_pay2`), at a later point over what the point before left. -/
def outsAt9 (c : Dev nD) : (n : ℕ) → n < cfg9.N → Vec F S64x32 .f32 × Vec F S64x1 .f32
  | 0, hn => (k9_pay4 (iblk9 V c 0 ⟨0, hn⟩) k9_pay1 (iblk9 V c 1 ⟨0, hn⟩), k9_pay5 (iblk9 V c 0 ⟨0, hn⟩) k9_pay2)
  | n + 1, hn =>
    (k9_pay4 (iblk9 V c 0 ⟨n + 1, hn⟩) (outsAt9 c n (Nat.lt_of_succ_lt hn)).1 (iblk9 V c 1 ⟨n + 1, hn⟩),
     k9_pay5 (iblk9 V c 0 ⟨n + 1, hn⟩) (outsAt9 c n (Nat.lt_of_succ_lt hn)).2)

/-- Point 0: both sums start from the zero blocks. -/
theorem outsAt9_zero (c : Dev nD) (hn : 0 < cfg9.N) :
    outsAt9 V c 0 hn = (k9_pay4 (iblk9 V c 0 ⟨0, hn⟩) k9_pay1 (iblk9 V c 1 ⟨0, hn⟩), k9_pay5 (iblk9 V c 0 ⟨0, hn⟩) k9_pay2) := rfl

/-- Point `n + 1`: both sums continue from what point `n` left. -/
theorem outsAt9_succ (c : Dev nD) (n : ℕ) (hn : n + 1 < cfg9.N) :
    outsAt9 V c (n + 1) hn
      = (k9_pay4 (iblk9 V c 0 ⟨n + 1, hn⟩) (outsAt9 V c n (Nat.lt_of_succ_lt hn)).1 (iblk9 V c 1 ⟨n + 1, hn⟩),
         k9_pay5 (iblk9 V c 0 ⟨n + 1, hn⟩) (outsAt9 V c n (Nat.lt_of_succ_lt hn)).2) := rfl

/-- At the first point, in terms of the point itself. -/
theorem outsAt9_A (c : Dev nD) (t : Fin cfg9.N) (h0 : t.val % 49 = 0) :
    outsAt9 V c t.val t.isLt = (k9_pay4 (iblk9 V c 0 t) k9_pay1 (iblk9 V c 1 t), k9_pay5 (iblk9 V c 0 t) k9_pay2) := by
  obtain ⟨n, hn⟩ := t
  cases n with
  | zero => rfl
  | succ n =>
    exfalso
    have hN : n + 1 < 49 := lt_of_lt_of_eq hn (show cfg9.N = 49 from N_9)
    dsimp only at h0
    omega

/-- At a later point, in terms of the point itself and of what the point before left. -/
theorem outsAt9_B (c : Dev nD) (t : Fin cfg9.N) (h0 : ¬t.val % 49 = 0) :
    outsAt9 V c t.val t.isLt
      = (k9_pay4 (iblk9 V c 0 t) (outsAt9 V c (t.val - 1) (Nat.lt_of_le_of_lt (Nat.sub_le _ _) t.isLt)).1 (iblk9 V c 1 t),
         k9_pay5 (iblk9 V c 0 t) (outsAt9 V c (t.val - 1) (Nat.lt_of_le_of_lt (Nat.sub_le _ _) t.isLt)).2) := by
  obtain ⟨n, hn⟩ := t
  cases n with
  | zero => exact absurd (Nat.zero_mod _) h0
  | succ n => rfl

/-! ## The body's branch condition -/

/-- The condition of the body's one conditional, from the grid coordinates: the point's coordinate is 0. -/
abbrev cond9_0 (i : grid9.Coords) : Prop := (Scalar.cmpi .ne (Scalar.extui (Scalar.cmpi .eq (BitVec.ofNat 32 (i 0).val) 0#32)) 0#32) = 1#1
/-- It holds at the first point only. -/
theorem hcond9_0 : ∀ t : Fin cfg9.N, cond9_0 (grid9.coords t) ↔ t.val % 49 = 0 :=
  (by decide +kernel : ∀ t : Fin grid9.N, cond9_0 (grid9.coords t) ↔ t.val % 49 = 0)

/-! ## The body's triples, one per case -/

theorem hz1 : (![0] : Fin 1 → Nat) = fun _ => 0 := funext fun a => by fin_cases a; rfl
theorem hz2 : (![0, 0] : Fin 2 → Nat) = fun _ => 0 := funext fun a => by fin_cases a <;> rfl

set_option maxHeartbeats 1000000 in
/-- THE FIRST POINT. On whole staging memrefs, the inputs' at contents `x0`, `x1` and the outputs' at anything, the body
    runs to the continuation holding the inputs' as they were and the outputs' at the body's two sums over the zero
    blocks: each output buffer is zeroed by a store over all of it, read back (the zero block), and overwritten, again
    over all of it, by the sum. -/
theorem sound_kernel9_A (c : Dev nD) (E : Set ℕ) (i : grid9.Coords)
    (arg1 : Memref sig .tc .vmem S2048 .i32) (harg1 : arg1.IsWhole) (arg2 : Memref sig .tc .vmem S2048x32 .f32) (harg2 : arg2.IsWhole)
    (arg3 : Memref sig .tc .vmem S64x32 .f32) (harg3 : arg3.IsWhole) (arg4 : Memref sig .tc .vmem S64x1 .f32) (harg4 : arg4.IsWhole)
    (hc0 : cond9_0 i) (x0 : Vec F S2048 .i32) (x1 : Vec F S2048x32 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k9_pay4 x0 k9_pay1 x1)
            ∗ owns (c : Thread nD τ) arg4 fullShare (k9_pay5 x0 k9_pay2)) -∗ K ⟨⟩))
      ⊢ wp frame (wpE (defs₀ (F := F)) Variants.none c none) E (cc9__pool_kernel i arg1 harg1 arg2 harg2 arg3 harg3 arg4 harg4) K := by
  simp only [cc9__pool_kernel_eq_skeleton]; unfold cc9__pool_kernel_skel
  unfold owns
  iintro ⟨⟨%f0, %hf0, H0⟩, ⟨%f1, %hf1, H1⟩, ⟨%d2, %f2, -, H2⟩, ⟨%d3, %f3, -, H3⟩, Hk⟩
  obtain rfl := harg1.eq_unread hf0; obtain rfl := harg2.eq_unread hf1
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_run_names
    rw [View.read_writes_eq_canon _ _ _ (fun y => ⟨_, List.mem_cons_self, View.mem_set_unit_zero hz2 inb_S64x32_S64x32_0_0 y⟩),
      View.canon_cons_unit_zero hz2, View.readCov_unit_zero _ hz2]
    simp only [View.readAt_eq_ld, harg1.read_unread, harg2.read_unread, View.ld_unit_zero (S := S2048) hz1,
      View.ld_unit_zero (S := S2048x32) hz2]
  iexists _; isplitr
  swap; · iexact H3
  ipureintro
  sl_unfold_run_names
  rw [View.read_writes_eq_canon _ _ _ (fun y => ⟨_, List.mem_cons_self, View.mem_set_unit_zero hz2 inb_S64x1_S64x1_0_0 y⟩),
    View.canon_cons_unit_zero hz2, View.readCov_unit_zero _ hz2]
  simp only [View.readAt_eq_ld, harg1.read_unread, View.ld_unit_zero (S := S2048) hz1]

set_option maxHeartbeats 1000000 in
/-- A LATER POINT. On whole staging memrefs, the inputs' at contents `x0`, `x1` and the outputs' at their running
    contents `xo2`, `xo3`, the body runs to the continuation holding the inputs' as they were and the outputs' at the
    body's two sums over the running contents: each output buffer is read and overwritten, over all of it, by the sum. -/
theorem sound_kernel9_B (c : Dev nD) (E : Set ℕ) (i : grid9.Coords)
    (arg1 : Memref sig .tc .vmem S2048 .i32) (harg1 : arg1.IsWhole) (arg2 : Memref sig .tc .vmem S2048x32 .f32) (harg2 : arg2.IsWhole)
    (arg3 : Memref sig .tc .vmem S64x32 .f32) (harg3 : arg3.IsWhole) (arg4 : Memref sig .tc .vmem S64x1 .f32) (harg4 : arg4.IsWhole)
    (hc0 : ¬cond9_0 i) (x0 : Vec F S2048 .i32) (x1 : Vec F S2048x32 .f32) (xo2 : Vec F S64x32 .f32) (xo3 : Vec F S64x1 .f32)
    (K : PUnit → sProp 𝕄) :
    iprop(owns (c : Thread nD τ) arg1 fullShare x0 ∗ owns (c : Thread nD τ) arg2 fullShare x1
        ∗ owns (c : Thread nD τ) arg3 fullShare xo2 ∗ owns (c : Thread nD τ) arg4 fullShare xo3
        ∗ (iprop(owns (c : Thread nD τ) arg1 fullShare x0 ∗ owns (c : Thread nD τ) arg2 fullShare x1
            ∗ owns (c : Thread nD τ) arg3 fullShare (k9_pay4 x0 xo2 x1)
            ∗ owns (c : Thread nD τ) arg4 fullShare (k9_pay5 x0 xo3)) -∗ K ⟨⟩))
      ⊢ wp frame (wpE (defs₀ (F := F)) Variants.none c none) E (cc9__pool_kernel i arg1 harg1 arg2 harg2 arg3 harg3 arg4 harg4) K := by
  simp only [cc9__pool_kernel_eq_skeleton]; unfold cc9__pool_kernel_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1
  obtain rfl := harg3.eq_unread hf2; obtain rfl := harg4.eq_unread hf3
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_run_names
    rw [View.read_writes_eq_canon _ _ _ (fun y => ⟨_, List.mem_cons_self, View.mem_set_unit_zero hz2 inb_S64x32_S64x32_0_0 y⟩),
      View.canon_cons_unit_zero hz2]
    simp only [View.readAt_eq_ld, harg1.read_unread, harg2.read_unread, harg3.read_unread, View.ld_unit_zero (S := S2048) hz1,
      View.ld_unit_zero (S := S2048x32) hz2, View.ld_unit_zero (S := S64x32) hz2]
  iexists _; isplitr
  swap; · iexact H3
  ipureintro
  sl_unfold_run_names
  rw [View.read_writes_eq_canon _ _ _ (fun y => ⟨_, List.mem_cons_self, View.mem_set_unit_zero hz2 inb_S64x1_S64x1_0_0 y⟩),
    View.canon_cons_unit_zero hz2]
  simp only [View.readAt_eq_ld, harg1.read_unread, harg4.read_unread, View.ld_unit_zero (S := S2048) hz1,
    View.ld_unit_zero (S := S64x1) hz2]

/-! ## The pipeline's proof data -/

/-- The proof data of the pool pipeline on core `c`: the arrays as the region finds them (`V`); after the body at point
    `t` each input's buffer at its block and the two outputs' at `outsAt9`; the invariant the scoped rest and the
    generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => (outsAt9 V c t.val t.isLt).1
    | ⟨3, _⟩ => (outsAt9 V c t.val t.isLt).2
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = (outsAt9 V c t.val t.isLt).1 := by dsimp only [dat9]
theorem after9_3 (c : Dev nD) (t : Fin cfg9.N) : (dat9 V c).after 3 t = (outsAt9 V c t.val t.isLt).2 := by dsimp only [dat9]

/-- Each input is fetched at every point, so its current staging buffer holds its block there. -/
theorem before9_0 (c : Dev nD) (t : Fin cfg9.N) (d) : (dat9 V c).before 0 t d = iblk9 V c 0 t := by
  rw [(dat9 V c).before_fetched 0 t (fetch9_0 t) d]
  unfold Dat.fetched Dat.blockOf iblk9
  rw [A_eq9]
  try rfl
theorem before9_1 (c : Dev nD) (t : Fin cfg9.N) (d) : (dat9 V c).before 1 t d = iblk9 V c 1 t := by
  rw [(dat9 V c).before_fetched 1 t (fetch9_1 t) d]
  unfold Dat.fetched Dat.blockOf iblk9
  rw [A_eq9]
  try rfl

/-- After the first point each output's staging buffer holds what the body left at the point before: the point before
    is never the last one, so nothing was written back between, and the window is live and uncut. -/
theorem before9_2_B (c : Dev nD) (t : Fin cfg9.N) (h0 : ¬t.val % 49 = 0) (d) :
    (dat9 V c).before 2 t d = (outsAt9 V c (t.val - 1) (Nat.lt_of_le_of_lt (Nat.sub_le _ _) t.isLt)).1 := by
  have hN : t.val < 49 := lt_of_lt_of_eq t.isLt (show cfg9.N = 49 from N_9)
  rw [Dat.before_out_kept _ 2 rfl t (by omega) (Bool.eq_false_iff.mpr fun h => by have := (flush9_2 _).mp h; dsimp only at this; omega)
    (fun _ => rfl) (fun _ _ => rfl)]
  dsimp only [dat9]
theorem before9_3_B (c : Dev nD) (t : Fin cfg9.N) (h0 : ¬t.val % 49 = 0) (d) :
    (dat9 V c).before 3 t d = (outsAt9 V c (t.val - 1) (Nat.lt_of_le_of_lt (Nat.sub_le _ _) t.isLt)).2 := by
  have hN : t.val < 49 := lt_of_lt_of_eq t.isLt (show cfg9.N = 49 from N_9)
  rw [Dat.before_out_kept _ 3 rfl t (by omega) (Bool.eq_false_iff.mpr fun h => by have := (flush9_3 _).mp h; dsimp only at this; omega)
    (fun _ => rfl) (fun _ _ => rfl)]
  dsimp only [dat9]

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

set_option maxHeartbeats 800000 in
/-- The body at any point: the inputs' memrefs hold their blocks; the branch condition says whether the point is the
    first; at a later point each output's memref holds what the point before left; so the case's triple applies; the
    invariant passes through unread and the core owes nothing throughout. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2, after9_3]
  by_cases h0 : t.val % 49 = 0
  · rw [outsAt9_A V c t h0]
    dsimp only
    iintro ⟨HΦ, Ho, ⟨%d0, H0⟩, ⟨%d1, H1⟩, ⟨%d2, H2⟩, ⟨%d3, H3⟩⟩
    iapply (sound_kernel9_A c Set.univ (grid9.coords t) _ _ _ _ _ _ _ _ ((hcond9_0 t).mpr h0) (iblk9 V c 0 t) (iblk9 V c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [outsAt9_B V c t h0]
    simp only [before9_2_B V c t h0, before9_3_B V c t h0]
    iintro ⟨HΦ, Ho, ⟨%d0, H0⟩, ⟨%d1, H1⟩, ⟨%d2, H2⟩, ⟨%d3, H3⟩⟩
    iapply (sound_kernel9_B c Set.univ (grid9.coords t) _ _ _ _ _ _ _ _ (fun h => h0 ((hcond9_0 t).mp h)) (iblk9 V c 0 t) (iblk9 V c 1 t)
      (outsAt9 V c (t.val - 1) (Nat.lt_of_le_of_lt (Nat.sub_le _ _) t.isLt)).1
      (outsAt9 V c (t.val - 1) (Nat.lt_of_le_of_lt (Nat.sub_le _ _) t.isLt)).2 _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation9 (c : Dev nD) : BodyObligation (dat9 (F := F) V c) (defs₀ (F := F)) Variants.none () Set.univ := fun t => by
  rw [bigSep_W9, bigSep_W9]
  exact sound_body9 V c t

/-! ## The final arrays: the one write-back, after the last point, covers each output's whole array -/

/-- The last point. -/
theorem lt48 : 48 < cfg9.N := by rw [show cfg9.N = 49 from N_9]; decide
abbrev t48 : Fin cfg9.N := ⟨48, lt48⟩

/-- The two results, as contents of the result arrays: what the last point leaves in the two staging buffers. -/
abbrev res9_2 (c : Dev nD) : Buf (Elt F) ((c : Thread nD τ).loc main_v122_0) := (outsAt9 V c 48 lt48).1
abbrev res9_3 (c : Dev nD) : Buf (Elt F) ((c : Thread nD τ).loc main_v122_1) := (outsAt9 V c 48 lt48).2

/-- The one write-back of window 2, at point 48, writes `res9_2`: block (0, 0) of the [64, 32] array, read through zero
    offsets, is the array. -/
theorem flushed9_2 (c : Dev nD) (t : Fin cfg9.N) (hf : (cfg9.win 2).flush t = true) :
    (dat9 V c).flushed 2 t = ((cfg9.win 2).blk t).view.read (Elt F) (res9_2 V c) := by
  have hN : t.val < 49 := lt_of_lt_of_eq t.isLt (show cfg9.N = 49 from N_9)
  have h48 : t.val = 48 := by have := (flush9_2 t).mp hf; omega
  obtain rfl : t = t48 := Fin.ext h48
  show (cfg9.win 2).cut (grid9.coords t48) ((dat9 V c).after 2 t48) = _
  rw [after9_2]
  have hz' : (fun a => win9_2.index t48 a * main_v122_0.ty.shape.size a) = fun _ => 0 := funext fun a => by fin_cases a <;> decide
  exact (Memref.read_access_unit_zero (Elt F) main_v122_0 hz' (fun a => by rw [congrFun hz' a]; simp) (res9_2 V c)).symm

theorem flushed9_3 (c : Dev nD) (t : Fin cfg9.N) (hf : (cfg9.win 3).flush t = true) :
    (dat9 V c).flushed 3 t = ((cfg9.win 3).blk t).view.read (Elt F) (res9_3 V c) := by
  have hN : t.val < 49 := lt_of_lt_of_eq t.isLt (show cfg9.N = 49 from N_9)
  have h48 : t.val = 48 := by have := (flush9_3 t).mp hf; omega
  obtain rfl : t = t48 := Fin.ext h48
  show (cfg9.win 3).cut (grid9.coords t48) ((dat9 V c).after 3 t48) = _
  rw [after9_3]
  have hz' : (fun a => win9_3.index t48 a * main_v122_1.ty.shape.size a) = fun _ => 0 := funext fun a => by fin_cases a <;> decide
  exact (Memref.read_access_unit_zero (Elt F) main_v122_1 hz' (fun a => by rw [congrFun hz' a]; simp) (res9_3 V c)).symm

/-- The per-graph sums' array ends holding what the last point left in its staging buffer. -/
theorem arrAt9_2 (c : Dev nD) : (dat9 V c).arrAt 2 cfg9.N = res9_2 V c :=
  (dat9 V c).arrAt_eq_of_cover 2 (res9_2 V c) (flushed9_2 V c) fun i =>
    ⟨t48, (flush9_2 t48).mpr rfl, by
      show i ∈ ((View.whole main_v122_0).slice (win9_2.rect t48)).set
      rw [View.set_slice_whole, Rect.mem_set_unit]
      intro a
      have h0 : (i 0 : Nat) < 64 := (i 0).isLt
      have h1 : (i 1 : Nat) < 32 := (i 1).isLt
      match a with
      | ⟨0, _⟩ =>
        show win9_2.index t48 0 * win9_2.size 0 ≤ (i 0 : Nat) ∧ (i 0 : Nat) < win9_2.index t48 0 * win9_2.size 0 + win9_2.xsize (grid9.coords t48) 0
        rw [show win9_2.index t48 0 * win9_2.size 0 = 0 from by decide +kernel, show win9_2.xsize (grid9.coords t48) 0 = 64 from by decide +kernel]
        omega
      | ⟨1, _⟩ =>
        show win9_2.index t48 1 * win9_2.size 1 ≤ (i 1 : Nat) ∧ (i 1 : Nat) < win9_2.index t48 1 * win9_2.size 1 + win9_2.xsize (grid9.coords t48) 1
        rw [show win9_2.index t48 1 * win9_2.size 1 = 0 from by decide +kernel, show win9_2.xsize (grid9.coords t48) 1 = 32 from by decide +kernel]
        omega⟩

/-- The per-graph counts' array likewise. -/
theorem arrAt9_3 (c : Dev nD) : (dat9 V c).arrAt 3 cfg9.N = res9_3 V c :=
  (dat9 V c).arrAt_eq_of_cover 3 (res9_3 V c) (flushed9_3 V c) fun i =>
    ⟨t48, (flush9_3 t48).mpr rfl, by
      show i ∈ ((View.whole main_v122_1).slice (win9_3.rect t48)).set
      rw [View.set_slice_whole, Rect.mem_set_unit]
      intro a
      have h0 : (i 0 : Nat) < 64 := (i 0).isLt
      have h1 : (i 1 : Nat) < 1 := (i 1).isLt
      match a with
      | ⟨0, _⟩ =>
        show win9_3.index t48 0 * win9_3.size 0 ≤ (i 0 : Nat) ∧ (i 0 : Nat) < win9_3.index t48 0 * win9_3.size 0 + win9_3.xsize (grid9.coords t48) 0
        rw [show win9_3.index t48 0 * win9_3.size 0 = 0 from by decide +kernel, show win9_3.xsize (grid9.coords t48) 0 = 64 from by decide +kernel]
        omega
      | ⟨1, _⟩ =>
        show win9_3.index t48 1 * win9_3.size 1 ≤ (i 1 : Nat) ∧ (i 1 : Nat) < win9_3.index t48 1 * win9_3.size 1 + win9_3.xsize (grid9.coords t48) 1
        rw [show win9_3.index t48 1 * win9_3.size 1 = 0 from by decide +kernel, show win9_3.xsize (grid9.coords t48) 1 = 1 from by decide +kernel]
        omega⟩

/-- The inputs' arrays end as the region found them. -/
theorem arrAt9_0 (c : Dev nD) : (dat9 V c).arrAt 0 cfg9.N = V c (Pipeline.arrRef spec9 0) :=
  ((dat9 V c).arrAt_in 0 rfl _).trans (A_eq9 V c 0)
theorem arrAt9_1 (c : Dev nD) : (dat9 V c).arrAt 1 cfg9.N = V c (Pipeline.arrRef spec9 1) :=
  ((dat9 V c).arrAt_in 1 rfl _).trans (A_eq9 V c 1)

end Cert.KernelIdeal.R9

end
-- ==== Proof.RunKI.lean ====
import proofs.«417346_j54202487276072_2_alg».proof.Proof.RegionsKI
import Idealize.ShloMosaic.Lib.Pipeline.RegionsLoop
import Idealize.ShloMosaic.Lib.Pipeline.Kit
import proofs.«417346_j54202487276072_2_alg».proof.Proof.R0Frame
import proofs.«417346_j54202487276072_2_alg».proof.Proof.R1Frame
import proofs.«417346_j54202487276072_2_alg».proof.Proof.R2Frame
import proofs.«417346_j54202487276072_2_alg».proof.Proof.R3Frame
import proofs.«417346_j54202487276072_2_alg».proof.Proof.R4Frame
import proofs.«417346_j54202487276072_2_alg».proof.Proof.R5Frame
import proofs.«417346_j54202487276072_2_alg».proof.Proof.R6Frame
import proofs.«417346_j54202487276072_2_alg».proof.Proof.R7Frame
import proofs.«417346_j54202487276072_2_alg».proof.Proof.R8Frame
import proofs.«417346_j54202487276072_2_alg».proof.Proof.R9Frame

set_option maxRecDepth 1692

noncomputable section

namespace Cert.KernelIdeal.Run

open Cert.KernelIdeal Cert.KernelIdeal.Gen Cert.KernelIdeal.GenP

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

abbrev 𝒱₀ : Variants := Variants.none
/-- No core owes another anything: no level is assigned. -/
abbrev L : GSem nD τ sig → Finset Unit := fun _ => ∅
abbrev lv : GSem nD τ sig → Unit → ℕ := fun _ _ => 0
/-- What rides beside the unscoped buffers through every item of @main: the core's generator register at some state
    and its `owes` at nothing. -/
abbrev R (c : Dev nD) : sProp 𝕄 := iprop((∃ r, prngReg c r) ∗ ∃ W, owes (c : Thread nD τ) (0 : CellTallies nD τ sig Unit) W)

/-! ## One kernel region as a segment, for any pipeline of the program -/

section Builder

variable (a : (p : Fin 10) → (pcfgs (F := F) p).Adm)
  (pdats : (p : Fin 10) → (c : Dev nD) → Dat τ (Elt F) Unit ℕ (UR sig nD τ) ℕ (Pipeline.pin (pcfgs (F := F)) a p) c)

set_option backward.isDefEq.respectTransparency.types false in
/-- A kernel region over the thread state "every unscoped buffer at a valuation, the generator register, nothing owed":
    entered at `Vin`, left at `Vout`. The windows' arrays are split out of the unscoped buffers and put back at the exit
    contents; the prefetched tables are split out of the rest, lent to the invariant and returned by it at the full share;
    the generator register goes into the invariant and comes back; nothing is owed; the kernel has no semaphore of its
    own. -/
def regionSeg (p : Fin 10) (lf : Pipeline.PLaunchFacts (nD := nD) (τ := τ) (pcfgs (F := F)) p)
    (Vin Vout : Dev nD → Valuation τ sig (Elt F))
    (hA : ∀ c w, (pdats p c).A w = Vin c (Pipeline.arrRef (Pipeline.pin (pcfgs (F := F)) a p).spec w))
    (hq : ∀ c w, (pdats p c).q w = fullShare)
    (howed : ∀ c t, (pdats p c).owed t = 0)
    (hrec : ∀ c, (pdats p c).recorded 0 = Set.univ)
    (hbody : ∀ c, Pipeline.BodyObligationLoose (pdats p c) defs₀ 𝒱₀ () Set.univ)
    (htab : ∀ c, (a p).1 = fun k => Vin c ((pcfgs (F := F) p).pre.ref k))
    (hin : ∀ c, iprop((∃ r, prngReg c r) ∗ Pipeline.prefHeld (pcfgs (F := F) p).pre c (fun _ => fullShare) (a p).1
        ∗ Pipeline.scopedRest (Pipeline.pin (pcfgs (F := F)) a p).spec c) ⊢ ((pdats p c).Φ 0 : sProp 𝕄))
    (hout : ∀ c, ((pdats p c).Φ (Fin.last _) : sProp 𝕄) ⊢ iprop(((∃ r, prngReg c r) ∗ Pipeline.prefHeld (pcfgs (F := F) p).pre c (fun _ => fullShare) (a p).1)
        ∗ Pipeline.ownSems0 (fun k : PEmpty => k.elim) c ∗ Pipeline.scopedRest (Pipeline.pin (pcfgs (F := F)) a p).spec c))
    (hF : ∀ c w, (pdats p c).arrAt w (Pipeline.pin (pcfgs (F := F)) a p).N = Vout c (Pipeline.arrRef (Pipeline.pin (pcfgs (F := F)) a p).spec w))
    (hrest : ∀ c (b : Ref sig .tc), b ∉ Finset.univ.image (Pipeline.arrRef (Pipeline.pin (pcfgs (F := F)) a p).spec) → Vout c b = Vin c b) :
    Pipeline.RegionSeg (pcfgs (F := F)) a pdats () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop((∃ r, prngReg c r) ∗ Pipeline.prefHeld (pcfgs (F := F) p).pre c (fun _ => fullShare) (a p).1)
  Z c := Pipeline.unscopedRestP (Ix := Unit) (Name := ℕ) (U := UR sig nD τ) (Lvl := ℕ) (pcfgs (F := F) p).pre (Pipeline.pin (pcfgs (F := F)) a p).spec c (fun b => Vin c b)
  hentry c := by
    rw [Pipeline.ownSems0_none]
    have hsplit := Pipeline.arrays_of_unscopedBufs (p := p) (pcfgs (F := F)) a pdats lf.win lf.arr_whole c
      ((pdats p c).share_full (hq c)) (fun b => Vin c b) (hA c)
    rw [Pipeline.unscopedBufs_held, Pipeline.unscopedRest_split lf.pre c (fun b => Vin c b), ← htab c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin Pipeline.Dat.bound
      rw [howed c 0, hrec c]
      icases HO with ⟨%W, HO⟩; iexists W; isplitr; · ipureintro; exact fun _ _ => Or.inl trivial
      iexact HO
    isplitl [Hp]; · iexact Hp
    iexact Hrest
  hin c := hin c
  hout c := hout c
  hexit c := by
    have hjoin := Pipeline.unscopedBufs_of_arrays (p := p) (pcfgs (F := F)) a (Ix := Unit) (Name := ℕ) (U := UR sig nD τ) (Lvl := ℕ)
      lf.win lf.arr_whole c pdats ((pdats p c).share_full (hq c))
      (fun b => Vin c b) (fun b => Vout c b) ((pdats p c).arrAt · (Pipeline.pin (pcfgs (F := F)) a p).N) (hF c) (hrest c)
    rw [Pipeline.unscopedBufs_held, Pipeline.unscopedRest_split lf.pre c (fun b => Vin c b), ← htab c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    rw [howed c (Fin.last _)]
    icases HO with ⟨%W, -, HO⟩; iexists W; iexact HO

end Builder

/-! ## The invariant of a region with no prefetched table -/

/-- Into the class invariant: the generator register and the scoped rest (no table is held). -/
theorem hinA {gr W : Nat} (win : Fin W → Pipeline.WinSpec sig gr) (c : Dev nD) (v : (Pipeline.Prefetch.none (sig := sig)).Contents (Elt F)) :
    iprop((∃ r, prngReg c r) ∗ Pipeline.prefHeld Pipeline.Prefetch.none c (fun _ => fullShare) v ∗ Pipeline.scopedRest win c)
      ⊢ (Pipeline.ΦA win c : sProp 𝕄) := by
  unfold Pipeline.ΦA
  iintro ⟨Hp, -, Hr⟩
  isplitl [Hr]; · iexact Hr
  iexact Hp

/-- Out of the class invariant: the same back, no table and no semaphore of the kernel's own. -/
theorem houtA {gr W : Nat} (win : Fin W → Pipeline.WinSpec sig gr) (c : Dev nD) (v : (Pipeline.Prefetch.none (sig := sig)).Contents (Elt F)) :
    (Pipeline.ΦA win c : sProp 𝕄)
      ⊢ iprop(((∃ r, prngReg c r) ∗ Pipeline.prefHeld Pipeline.Prefetch.none c (fun _ => fullShare) v)
          ∗ Pipeline.ownSems0 (fun k : PEmpty => k.elim) c ∗ Pipeline.scopedRest win c) := by
  rw [Pipeline.ownSems0_none]
  unfold Pipeline.ΦA Pipeline.prefHeld
  rw [show (Finset.univ : Finset (Fin 0)) = ∅ from rfl, BI.bigSep_empty]
  iintro ⟨Hr, Hp⟩
  isplitl [Hp]
  · isplitl [Hp]; · iexact Hp
    iempintro
  isplitr; · iempintro
  iexact Hr

/-! ## The prefetched tables and the admissible contents -/

section Vals

variable (m : (ℓ : Loc nD τ sig) → Buf (Elt F) ℓ)

/-- A valuation read at the TensorCore's references (what a region's proof data take). -/
abbrev rd (W : Dev nD → Valuation τ sig (Elt F)) : (c : Dev nD) → (b : Ref sig .tc) → Buf (Elt F) ((c : Thread nD τ).loc b) :=
  fun c b => W c b

/-- The gather regions' two tables (per edge block, the first and the last node block its sources fall in), as the host
    stretches before the first region leave them. There is one device, so they are read on core 0. -/
def tabG : pre1.Contents (Elt F) := fun k => V16 m 0 (pre1.ref k)
/-- The scatter regions' two tables (per node block, the first and the last edge block whose targets fall in it). -/
def tabS : pre2.Contents (Elt F) := fun k => V16 m 0 (pre2.ref k)
theorem tabG_apply (k : Fin 2) : tabG m k = V16 m 0 (pre1.ref k) := rfl
theorem tabS_apply (k : Fin 2) : tabS m k = V16 m 0 (pre2.ref k) := rfl
-- the tables are results of host sorts: they are never unfolded past this point
attribute [irreducible] tabG tabS

/-- The index maps of the gather and scatter regions do not read the tables: every contents is admissible. -/
abbrev adm1 : (pcfg1 (F := F)).Adm := ⟨tabG m, trivial⟩
abbrev adm2 : (pcfg2 (F := F)).Adm := ⟨tabS m, trivial⟩
abbrev adm4 : (pcfg4 (F := F)).Adm := ⟨tabG m, trivial⟩
abbrev adm5 : (pcfg5 (F := F)).Adm := ⟨tabS m, trivial⟩
abbrev adm7 : (pcfg7 (F := F)).Adm := ⟨tabG m, trivial⟩
abbrev adm8 : (pcfg8 (F := F)).Adm := ⟨tabS m, trivial⟩
/-- The prefetched tables' admissible contents, per pipeline. -/
abbrev adm : (p : Fin 10) → (pcfgs (F := F) p).Adm
  | ⟨0, _⟩ => cfg0.toPCfg_adm
  | ⟨1, _⟩ => adm1 m
  | ⟨2, _⟩ => adm2 m
  | ⟨3, _⟩ => cfg3.toPCfg_adm
  | ⟨4, _⟩ => adm4 m
  | ⟨5, _⟩ => adm5 m
  | ⟨6, _⟩ => cfg6.toPCfg_adm
  | ⟨7, _⟩ => adm7 m
  | ⟨8, _⟩ => adm8 m
  | ⟨9, _⟩ => cfg9.toPCfg_adm

/-- The four table buffers. -/
abbrev tabRefs : List (Ref sig .tc) := [main_v68, main_v70, main_v72, main_v74]
theorem pre1_mem (k : Fin 2) : pre1.ref k ∈ tabRefs := by revert k; decide
theorem pre2_mem (k : Fin 2) : pre2.ref k ∈ tabRefs := by revert k; decide

/-- A valuation updated at one reference, read there and elsewhere. -/
theorem upd_out (W : Valuation τ sig (Elt F)) (y : Ref sig .tc) (X : (Proc.devRef (τ := τ) .tc y).ty.Contents (Elt F)) :
    Function.update W (Proc.devRef .tc y) X (Proc.devRef .tc y) = X := Function.update_self ..
theorem upd_of_ne (W : Valuation τ sig (Elt F)) (y : Ref sig .tc) (X : (Proc.devRef (τ := τ) .tc y).ty.Contents (Elt F)) (r : Ref sig .tc) (h : r ≠ y) :
    Function.update W (Proc.devRef .tc y) X (Proc.devRef .tc r) = W (Proc.devRef .tc r) :=
  Function.update_of_ne (StableHlo.devRef_ne_of_ne h) ..

/-! ## The buffers' contents between items, written without the unknowns `outs`

`W J` is the valuation after item J−1 with each region's exit contents spelled out (`X J`: the output window's array
after the last write-back); the unknowns `outs` are then read off these, and `V J m outs = W J`. -/

/-- What region 0 leaves in `main_v83`. -/
def X17 (c : Dev nD) : (Proc.devRef (τ := τ) .tc main_v83).ty.Contents (Elt F) := (R0.dat0 (rd (V16 m)) c).arrAt 2 cfg0.N
def W17 (c : Dev nD) : Valuation τ sig (Elt F) := Function.update (V16 m c) main_v83 (X17 m c)
/-- What region 1 leaves in `main_v84`. -/
def X18 (c : Dev nD) : (Proc.devRef (τ := τ) .tc main_v84).ty.Contents (Elt F) := (R1.dat1 (rd (W17 m)) (adm1 m) c).arrAt 3 (cfg1 (adm1 m)).N
def W18 (c : Dev nD) : Valuation τ sig (Elt F) := Function.update (W17 m c) main_v84 (X18 m c)
def W19 (c : Dev nD) : Valuation τ sig (Elt F) := StableHlo.after hostOps2 (W18 m c)
/-- What region 2 leaves in `main_v93`. -/
def X20 (c : Dev nD) : (Proc.devRef (τ := τ) .tc main_v93).ty.Contents (Elt F) := (R2.dat2 (rd (W19 m)) (adm2 m) c).arrAt 5 (cfg2 (adm2 m)).N
def W20 (c : Dev nD) : Valuation τ sig (Elt F) := Function.update (W19 m c) main_v93 (X20 m c)
def W21 (c : Dev nD) : Valuation τ sig (Elt F) := StableHlo.after hostOps3 (W20 m c)
/-- What region 3 leaves in `main_v96`. -/
def X22 (c : Dev nD) : (Proc.devRef (τ := τ) .tc main_v96).ty.Contents (Elt F) := (R3.dat3 (rd (W21 m)) c).arrAt 2 cfg3.N
def W22 (c : Dev nD) : Valuation τ sig (Elt F) := Function.update (W21 m c) main_v96 (X22 m c)
/-- What region 4 leaves in `main_v97`. -/
def X23 (c : Dev nD) : (Proc.devRef (τ := τ) .tc main_v97).ty.Contents (Elt F) := (R4.dat4 (rd (W22 m)) (adm4 m) c).arrAt 3 (cfg4 (adm4 m)).N
def W23 (c : Dev nD) : Valuation τ sig (Elt F) := Function.update (W22 m c) main_v97 (X23 m c)
def W24 (c : Dev nD) : Valuation τ sig (Elt F) := StableHlo.after hostOps5 (W23 m c)
/-- What region 5 leaves in `main_v106`. -/
def X25 (c : Dev nD) : (Proc.devRef (τ := τ) .tc main_v106).ty.Contents (Elt F) := (R5.dat5 (rd (W24 m)) (adm5 m) c).arrAt 5 (cfg5 (adm5 m)).N
def W25 (c : Dev nD) : Valuation τ sig (Elt F) := Function.update (W24 m c) main_v106 (X25 m c)
def W26 (c : Dev nD) : Valuation τ sig (Elt F) := StableHlo.after hostOps6 (W25 m c)
/-- What region 6 leaves in `main_v109`. -/
def X27 (c : Dev nD) : (Proc.devRef (τ := τ) .tc main_v109).ty.Contents (Elt F) := (R6.dat6 (rd (W26 m)) c).arrAt 2 cfg6.N
def W27 (c : Dev nD) : Valuation τ sig (Elt F) := Function.update (W26 m c) main_v109 (X27 m c)
/-- What region 7 leaves in `main_v110`. -/
def X28 (c : Dev nD) : (Proc.devRef (τ := τ) .tc main_v110).ty.Contents (Elt F) := (R7.dat7 (rd (W27 m)) (adm7 m) c).arrAt 3 (cfg7 (adm7 m)).N
def W28 (c : Dev nD) : Valuation τ sig (Elt F) := Function.update (W27 m c) main_v110 (X28 m c)
def W29 (c : Dev nD) : Valuation τ sig (Elt F) := StableHlo.after hostOps8 (W28 m c)
/-- What region 8 leaves in `main_v119`. -/
def X30 (c : Dev nD) : (Proc.devRef (τ := τ) .tc main_v119).ty.Contents (Elt F) := (R8.dat8 (rd (W29 m)) (adm8 m) c).arrAt 5 (cfg8 (adm8 m)).N
def W30 (c : Dev nD) : Valuation τ sig (Elt F) := Function.update (W29 m c) main_v119 (X30 m c)
def W31 (c : Dev nD) : Valuation τ sig (Elt F) := StableHlo.after hostOps9 (W30 m c)
/-- What region 9 leaves in `main_v122_0` and in `main_v122_1`. -/
def X32a (c : Dev nD) : (Proc.devRef (τ := τ) .tc main_v122_0).ty.Contents (Elt F) := (R9.dat9 (rd (W31 m)) c).arrAt 2 cfg9.N
def X32b (c : Dev nD) : (Proc.devRef (τ := τ) .tc main_v122_1).ty.Contents (Elt F) := (R9.dat9 (rd (W31 m)) c).arrAt 3 cfg9.N
def W32 (c : Dev nD) : Valuation τ sig (Elt F) :=
  Function.update (Function.update (W31 m c) main_v122_0 (X32a m c)) main_v122_1 (X32b m c)

/-! ### No item up to the last region writes a table buffer -/

theorem W17_tab (c : Dev nD) (r : Ref sig .tc) (hr : r ∈ tabRefs) : W17 m c r = V16 m c r := by
  have h : ∀ r ∈ tabRefs, r ≠ main_v83 := by decide
  unfold W17; exact upd_of_ne _ _ _ r (h r hr)
theorem W18_tab (c : Dev nD) (r : Ref sig .tc) (hr : r ∈ tabRefs) : W18 m c r = V16 m c r := by
  have h : ∀ r ∈ tabRefs, r ≠ main_v84 := by decide
  unfold W18; exact (upd_of_ne _ _ _ r (h r hr)).trans (W17_tab m c r hr)
theorem W19_tab (c : Dev nD) (r : Ref sig .tc) (hr : r ∈ tabRefs) : W19 m c r = V16 m c r := by
  have h : ∀ r ∈ tabRefs, r ∉ hostOps2_W := by decide
  unfold W19; exact (StableHlo.after_of_writes_sub hostOps2 _ hostOps2_writes (h r hr)).trans (W18_tab m c r hr)
theorem W20_tab (c : Dev nD) (r : Ref sig .tc) (hr : r ∈ tabRefs) : W20 m c r = V16 m c r := by
  have h : ∀ r ∈ tabRefs, r ≠ main_v93 := by decide
  unfold W20; exact (upd_of_ne _ _ _ r (h r hr)).trans (W19_tab m c r hr)
theorem W21_tab (c : Dev nD) (r : Ref sig .tc) (hr : r ∈ tabRefs) : W21 m c r = V16 m c r := by
  have h : ∀ r ∈ tabRefs, r ∉ hostOps3_W := by decide
  unfold W21; exact (StableHlo.after_of_writes_sub hostOps3 _ hostOps3_writes (h r hr)).trans (W20_tab m c r hr)
theorem W22_tab (c : Dev nD) (r : Ref sig .tc) (hr : r ∈ tabRefs) : W22 m c r = V16 m c r := by
  have h : ∀ r ∈ tabRefs, r ≠ main_v96 := by decide
  unfold W22; exact (upd_of_ne _ _ _ r (h r hr)).trans (W21_tab m c r hr)
theorem W23_tab (c : Dev nD) (r : Ref sig .tc) (hr : r ∈ tabRefs) : W23 m c r = V16 m c r := by
  have h : ∀ r ∈ tabRefs, r ≠ main_v97 := by decide
  unfold W23; exact (upd_of_ne _ _ _ r (h r hr)).trans (W22_tab m c r hr)
theorem W24_tab (c : Dev nD) (r : Ref sig .tc) (hr : r ∈ tabRefs) : W24 m c r = V16 m c r := by
  have h : ∀ r ∈ tabRefs, r ∉ hostOps5_W := by decide
  unfold W24; exact (StableHlo.after_of_writes_sub hostOps5 _ hostOps5_writes (h r hr)).trans (W23_tab m c r hr)
theorem W25_tab (c : Dev nD) (r : Ref sig .tc) (hr : r ∈ tabRefs) : W25 m c r = V16 m c r := by
  have h : ∀ r ∈ tabRefs, r ≠ main_v106 := by decide
  unfold W25; exact (upd_of_ne _ _ _ r (h r hr)).trans (W24_tab m c r hr)
theorem W26_tab (c : Dev nD) (r : Ref sig .tc) (hr : r ∈ tabRefs) : W26 m c r = V16 m c r := by
  have h : ∀ r ∈ tabRefs, r ∉ hostOps6_W := by decide
  unfold W26; exact (StableHlo.after_of_writes_sub hostOps6 _ hostOps6_writes (h r hr)).trans (W25_tab m c r hr)
theorem W27_tab (c : Dev nD) (r : Ref sig .tc) (hr : r ∈ tabRefs) : W27 m c r = V16 m c r := by
  have h : ∀ r ∈ tabRefs, r ≠ main_v109 := by decide
  unfold W27; exact (upd_of_ne _ _ _ r (h r hr)).trans (W26_tab m c r hr)
theorem W28_tab (c : Dev nD) (r : Ref sig .tc) (hr : r ∈ tabRefs) : W28 m c r = V16 m c r := by
  have h : ∀ r ∈ tabRefs, r ≠ main_v110 := by decide
  unfold W28; exact (upd_of_ne _ _ _ r (h r hr)).trans (W27_tab m c r hr)
theorem W29_tab (c : Dev nD) (r : Ref sig .tc) (hr : r ∈ tabRefs) : W29 m c r = V16 m c r := by
  have h : ∀ r ∈ tabRefs, r ∉ hostOps8_W := by decide
  unfold W29; exact (StableHlo.after_of_writes_sub hostOps8 _ hostOps8_writes (h r hr)).trans (W28_tab m c r hr)

/-- The tables a region entered at a valuation that still has the table buffers as the first region found them. -/
theorem tabG_of (W : Dev nD → Valuation τ sig (Elt F)) (hW : ∀ c (r : Ref sig .tc), r ∈ tabRefs → W c r = V16 m c r) (c : Dev nD) :
    tabG m = fun k => W c (pre1.ref k) := by
  funext k
  rw [tabG_apply, hW c _ (pre1_mem k), Subsingleton.elim c 0]
theorem tabS_of (W : Dev nD → Valuation τ sig (Elt F)) (hW : ∀ c (r : Ref sig .tc), r ∈ tabRefs → W c r = V16 m c r) (c : Dev nD) :
    tabS m = fun k => W c (pre2.ref k) := by
  funext k
  rw [tabS_apply, hW c _ (pre2_mem k), Subsingleton.elim c 0]

/-! ### The unknowns, and the generated valuations at them -/

/-- What the regions leave: after item J−1 every buffer holds what `W J` says (read only at the regions' outputs). -/
def outs : Outs (F := F) := fun J r c =>
  match J with
  | 17 => W17 m c r
  | 18 => W18 m c r
  | 20 => W20 m c r
  | 22 => W22 m c r
  | 23 => W23 m c r
  | 25 => W25 m c r
  | 27 => W27 m c r
  | 28 => W28 m c r
  | 30 => W30 m c r
  | 32 => W32 m c r
  | _ => m ((c : Thread nD τ).loc r)

theorem V17_eq (c : Dev nD) : V17 m (outs m) c = W17 m c := by
  show Function.update (V16 m c) main_v83 (W17 m c main_v83) = W17 m c
  unfold W17; rw [upd_out]
theorem V18_eq (c : Dev nD) : V18 m (outs m) c = W18 m c := by
  show Function.update (V17 m (outs m) c) main_v84 (W18 m c main_v84) = W18 m c
  rw [V17_eq]; unfold W18; rw [upd_out]
theorem V19_eq (c : Dev nD) : V19 m (outs m) c = W19 m c := by
  show StableHlo.after hostOps2 (V18 m (outs m) c) = W19 m c
  rw [V18_eq]; rfl
theorem V20_eq (c : Dev nD) : V20 m (outs m) c = W20 m c := by
  show Function.update (V19 m (outs m) c) main_v93 (W20 m c main_v93) = W20 m c
  rw [V19_eq]; unfold W20; rw [upd_out]
theorem V21_eq (c : Dev nD) : V21 m (outs m) c = W21 m c := by
  show StableHlo.after hostOps3 (V20 m (outs m) c) = W21 m c
  rw [V20_eq]; rfl
theorem V22_eq (c : Dev nD) : V22 m (outs m) c = W22 m c := by
  show Function.update (V21 m (outs m) c) main_v96 (W22 m c main_v96) = W22 m c
  rw [V21_eq]; unfold W22; rw [upd_out]
theorem V23_eq (c : Dev nD) : V23 m (outs m) c = W23 m c := by
  show Function.update (V22 m (outs m) c) main_v97 (W23 m c main_v97) = W23 m c
  rw [V22_eq]; unfold W23; rw [upd_out]
theorem V24_eq (c : Dev nD) : V24 m (outs m) c = W24 m c := by
  show StableHlo.after hostOps5 (V23 m (outs m) c) = W24 m c
  rw [V23_eq]; rfl
theorem V25_eq (c : Dev nD) : V25 m (outs m) c = W25 m c := by
  show Function.update (V24 m (outs m) c) main_v106 (W25 m c main_v106) = W25 m c
  rw [V24_eq]; unfold W25; rw [upd_out]
theorem V26_eq (c : Dev nD) : V26 m (outs m) c = W26 m c := by
  show StableHlo.after hostOps6 (V25 m (outs m) c) = W26 m c
  rw [V25_eq]; rfl
theorem V27_eq (c : Dev nD) : V27 m (outs m) c = W27 m c := by
  show Function.update (V26 m (outs m) c) main_v109 (W27 m c main_v109) = W27 m c
  rw [V26_eq]; unfold W27; rw [upd_out]
theorem V28_eq (c : Dev nD) : V28 m (outs m) c = W28 m c := by
  show Function.update (V27 m (outs m) c) main_v110 (W28 m c main_v110) = W28 m c
  rw [V27_eq]; unfold W28; rw [upd_out]
theorem V29_eq (c : Dev nD) : V29 m (outs m) c = W29 m c := by
  show StableHlo.after hostOps8 (V28 m (outs m) c) = W29 m c
  rw [V28_eq]; rfl
theorem V30_eq (c : Dev nD) : V30 m (outs m) c = W30 m c := by
  show Function.update (V29 m (outs m) c) main_v119 (W30 m c main_v119) = W30 m c
  rw [V29_eq]; unfold W30; rw [upd_out]
theorem V31_eq (c : Dev nD) : V31 m (outs m) c = W31 m c := by
  show StableHlo.after hostOps9 (V30 m (outs m) c) = W31 m c
  rw [V30_eq]; rfl
theorem V32_eq (c : Dev nD) : V32 m (outs m) c = W32 m c := by
  show Function.update (Function.update (V31 m (outs m) c) main_v122_0 (W32 m c main_v122_0)) main_v122_1 (W32 m c main_v122_1) = W32 m c
  rw [V31_eq]; unfold W32; rw [upd_out, upd_of_ne _ _ _ main_v122_0 (by decide), upd_out]

/-! ### What each region leaves, over the valuations with the unknowns in place

Each region's exit contents are the folded write-backs of its own proof data at its entry valuation; the entry
valuation with the unknowns read at `outs` is the one without them (`V<j>_eq`). -/

theorem outs_17 (c : Dev nD) : outs m 17 main_v83 c = (R0.dat0 (rd (V16 m)) c).arrAt 2 cfg0.N := by
  show W17 m c main_v83 = _
  unfold W17; rw [upd_out]; unfold X17
  rfl
theorem outs_18 (c : Dev nD) : outs m 18 main_v84 c = (R1.dat1 (rd (V17 m (outs m))) (adm1 m) c).arrAt 3 (cfg1 (adm1 m)).N := by
  show W18 m c main_v84 = _
  unfold W18; rw [upd_out]; unfold X18
  exact congrArg (fun W : Dev nD → Valuation τ sig (Elt F) => (R1.dat1 (rd W) (adm1 m) c).arrAt 3 (cfg1 (adm1 m)).N) (funext fun c => (V17_eq m c).symm)
theorem outs_20 (c : Dev nD) : outs m 20 main_v93 c = (R2.dat2 (rd (V19 m (outs m))) (adm2 m) c).arrAt 5 (cfg2 (adm2 m)).N := by
  show W20 m c main_v93 = _
  unfold W20; rw [upd_out]; unfold X20
  exact congrArg (fun W : Dev nD → Valuation τ sig (Elt F) => (R2.dat2 (rd W) (adm2 m) c).arrAt 5 (cfg2 (adm2 m)).N) (funext fun c => (V19_eq m c).symm)
theorem outs_22 (c : Dev nD) : outs m 22 main_v96 c = (R3.dat3 (rd (V21 m (outs m))) c).arrAt 2 cfg3.N := by
  show W22 m c main_v96 = _
  unfold W22; rw [upd_out]; unfold X22
  exact congrArg (fun W : Dev nD → Valuation τ sig (Elt F) => (R3.dat3 (rd W) c).arrAt 2 cfg3.N) (funext fun c => (V21_eq m c).symm)
theorem outs_23 (c : Dev nD) : outs m 23 main_v97 c = (R4.dat4 (rd (V22 m (outs m))) (adm4 m) c).arrAt 3 (cfg4 (adm4 m)).N := by
  show W23 m c main_v97 = _
  unfold W23; rw [upd_out]; unfold X23
  exact congrArg (fun W : Dev nD → Valuation τ sig (Elt F) => (R4.dat4 (rd W) (adm4 m) c).arrAt 3 (cfg4 (adm4 m)).N) (funext fun c => (V22_eq m c).symm)
theorem outs_25 (c : Dev nD) : outs m 25 main_v106 c = (R5.dat5 (rd (V24 m (outs m))) (adm5 m) c).arrAt 5 (cfg5 (adm5 m)).N := by
  show W25 m c main_v106 = _
  unfold W25; rw [upd_out]; unfold X25
  exact congrArg (fun W : Dev nD → Valuation τ sig (Elt F) => (R5.dat5 (rd W) (adm5 m) c).arrAt 5 (cfg5 (adm5 m)).N) (funext fun c => (V24_eq m c).symm)
theorem outs_27 (c : Dev nD) : outs m 27 main_v109 c = (R6.dat6 (rd (V26 m (outs m))) c).arrAt 2 cfg6.N := by
  show W27 m c main_v109 = _
  unfold W27; rw [upd_out]; unfold X27
  exact congrArg (fun W : Dev nD → Valuation τ sig (Elt F) => (R6.dat6 (rd W) c).arrAt 2 cfg6.N) (funext fun c => (V26_eq m c).symm)
theorem outs_28 (c : Dev nD) : outs m 28 main_v110 c = (R7.dat7 (rd (V27 m (outs m))) (adm7 m) c).arrAt 3 (cfg7 (adm7 m)).N := by
  show W28 m c main_v110 = _
  unfold W28; rw [upd_out]; unfold X28
  exact congrArg (fun W : Dev nD → Valuation τ sig (Elt F) => (R7.dat7 (rd W) (adm7 m) c).arrAt 3 (cfg7 (adm7 m)).N) (funext fun c => (V27_eq m c).symm)
theorem outs_30 (c : Dev nD) : outs m 30 main_v119 c = (R8.dat8 (rd (V29 m (outs m))) (adm8 m) c).arrAt 5 (cfg8 (adm8 m)).N := by
  show W30 m c main_v119 = _
  unfold W30; rw [upd_out]; unfold X30
  exact congrArg (fun W : Dev nD → Valuation τ sig (Elt F) => (R8.dat8 (rd W) (adm8 m) c).arrAt 5 (cfg8 (adm8 m)).N) (funext fun c => (V29_eq m c).symm)
theorem outs_32a (c : Dev nD) : outs m 32 main_v122_0 c = (R9.dat9 (rd (V31 m (outs m))) c).arrAt 2 cfg9.N := by
  show W32 m c main_v122_0 = _
  unfold W32; rw [upd_of_ne _ _ _ main_v122_0 (by decide), upd_out]; unfold X32a
  exact congrArg (fun W : Dev nD → Valuation τ sig (Elt F) => (R9.dat9 (rd W) c).arrAt 2 cfg9.N) (funext fun c => (V31_eq m c).symm)
theorem outs_32b (c : Dev nD) : outs m 32 main_v122_1 c = (R9.dat9 (rd (V31 m (outs m))) c).arrAt 3 cfg9.N := by
  show W32 m c main_v122_1 = _
  unfold W32; rw [upd_out]; unfold X32b
  exact congrArg (fun W : Dev nD → Valuation τ sig (Elt F) => (R9.dat9 (rd W) c).arrAt 3 cfg9.N) (funext fun c => (V31_eq m c).symm)

/-! ## The proof data family -/

/-- Every pipeline's proof data, each at its region's entry valuation: a literal `match`, so that
    `Pipeline.pin pcfgs (adm m) p` at a numeral reduces to the printed configuration. -/
def pdats : (p : Fin 10) → (c : Dev nD) → Dat τ (Elt F) Unit ℕ (UR sig nD τ) ℕ (Pipeline.pin (pcfgs (F := F)) (adm m) p) c
  | ⟨0, _⟩ => fun c => R0.dat0 (rd (V16 m)) c
  | ⟨1, _⟩ => fun c => R1.dat1 (rd (W17 m)) (adm1 m) c
  | ⟨2, _⟩ => fun c => R2.dat2 (rd (W19 m)) (adm2 m) c
  | ⟨3, _⟩ => fun c => R3.dat3 (rd (W21 m)) c
  | ⟨4, _⟩ => fun c => R4.dat4 (rd (W22 m)) (adm4 m) c
  | ⟨5, _⟩ => fun c => R5.dat5 (rd (W24 m)) (adm5 m) c
  | ⟨6, _⟩ => fun c => R6.dat6 (rd (W26 m)) c
  | ⟨7, _⟩ => fun c => R7.dat7 (rd (W27 m)) (adm7 m) c
  | ⟨8, _⟩ => fun c => R8.dat8 (rd (W29 m)) (adm8 m) c
  | ⟨9, _⟩ => fun c => R9.dat9 (rd (W31 m)) c

/-! ## Each region's entry contents are read off the valuation it is entered at -/

theorem dat0_A (V : (c : Dev nD) → (b : Ref sig .tc) → Buf (Elt F) ((c : Thread nD τ).loc b)) (c : Dev nD) (w) :
    (R0.dat0 V c).A w = V c (Pipeline.arrRef spec0 w) := rfl
theorem dat1_A (V : (c : Dev nD) → (b : Ref sig .tc) → Buf (Elt F) ((c : Thread nD τ).loc b)) (a : (pcfg1 (F := F)).Adm) (c : Dev nD) (w) :
    (R1.dat1 V a c).A w = V c (Pipeline.arrRef spec1 w) := rfl
theorem dat2_A (V : (c : Dev nD) → (b : Ref sig .tc) → Buf (Elt F) ((c : Thread nD τ).loc b)) (a : (pcfg2 (F := F)).Adm) (c : Dev nD) (w) :
    (R2.dat2 V a c).A w = V c (Pipeline.arrRef spec2 w) := rfl
theorem dat3_A (V : (c : Dev nD) → (b : Ref sig .tc) → Buf (Elt F) ((c : Thread nD τ).loc b)) (c : Dev nD) (w) :
    (R3.dat3 V c).A w = V c (Pipeline.arrRef spec3 w) := rfl
theorem dat4_A (V : (c : Dev nD) → (b : Ref sig .tc) → Buf (Elt F) ((c : Thread nD τ).loc b)) (a : (pcfg4 (F := F)).Adm) (c : Dev nD) (w) :
    (R4.dat4 V a c).A w = V c (Pipeline.arrRef spec4 w) := rfl
theorem dat5_A (V : (c : Dev nD) → (b : Ref sig .tc) → Buf (Elt F) ((c : Thread nD τ).loc b)) (a : (pcfg5 (F := F)).Adm) (c : Dev nD) (w) :
    (R5.dat5 V a c).A w = V c (Pipeline.arrRef spec5 w) := rfl
theorem dat6_A (V : (c : Dev nD) → (b : Ref sig .tc) → Buf (Elt F) ((c : Thread nD τ).loc b)) (c : Dev nD) (w) :
    (R6.dat6 V c).A w = V c (Pipeline.arrRef spec6 w) := rfl
theorem dat7_A (V : (c : Dev nD) → (b : Ref sig .tc) → Buf (Elt F) ((c : Thread nD τ).loc b)) (a : (pcfg7 (F := F)).Adm) (c : Dev nD) (w) :
    (R7.dat7 V a c).A w = V c (Pipeline.arrRef spec7 w) := rfl
theorem dat8_A (V : (c : Dev nD) → (b : Ref sig .tc) → Buf (Elt F) ((c : Thread nD τ).loc b)) (a : (pcfg8 (F := F)).Adm) (c : Dev nD) (w) :
    (R8.dat8 V a c).A w = V c (Pipeline.arrRef spec8 w) := rfl
theorem dat9_A (V : (c : Dev nD) → (b : Ref sig .tc) → Buf (Elt F) ((c : Thread nD τ).loc b)) (c : Dev nD) (w) :
    (R9.dat9 V c).A w = V c (Pipeline.arrRef spec9 w) := rfl

/-! ## Each region's exit: its arrays at what the pipeline leaves, every other buffer as entered

An input window's array is never written back (`Dat.arrAt_in`), so it holds what it held at entry, which the exit
valuation keeps because the windows' arrays are pairwise distinct buffers (`WinFacts.arr_inj`); the output window's array
holds the folded write-backs, which is what the exit valuation was updated to. -/

theorem hF0 (c : Dev nD) : ∀ w : Fin 3, (R0.dat0 (rd (V16 m)) c).arrAt w cfg0.N = W17 m c (Pipeline.arrRef spec0 w)
  | 0 => by rw [(R0.dat0 (rd (V16 m)) c).arrAt_in 0 rfl, dat0_A]; unfold W17; exact (upd_of_ne _ main_v83 _ (Pipeline.arrRef spec0 0) (fun e => absurd (winFacts0.arr_inj (a₁ := 0) (a₂ := 2) e) (by decide))).symm
  | 1 => by rw [(R0.dat0 (rd (V16 m)) c).arrAt_in 1 rfl, dat0_A]; unfold W17; exact (upd_of_ne _ main_v83 _ (Pipeline.arrRef spec0 1) (fun e => absurd (winFacts0.arr_inj (a₁ := 1) (a₂ := 2) e) (by decide))).symm
  | 2 => by unfold W17; exact (upd_out _ main_v83 _).symm
  | ⟨_ + 3, h⟩ => absurd h (Nat.not_lt.2 (Nat.le_add_left _ _))
theorem hrest0 (c : Dev nD) (b : Ref sig .tc) (hb : b ∉ Finset.univ.image (Pipeline.arrRef spec0)) : W17 m c b = V16 m c b := by
  unfold W17
  exact upd_of_ne _ main_v83 _ b fun e => hb (by rw [e]; exact Finset.mem_image.mpr ⟨2, Finset.mem_univ _, rfl⟩)

theorem hF1 (c : Dev nD) : ∀ w : Fin 4, (R1.dat1 (rd (W17 m)) (adm1 m) c).arrAt w (cfg1 (adm1 m)).N = W18 m c (Pipeline.arrRef spec1 w)
  | 0 => by rw [(R1.dat1 (rd (W17 m)) (adm1 m) c).arrAt_in 0 rfl, dat1_A]; unfold W18; exact (upd_of_ne _ main_v84 _ (Pipeline.arrRef spec1 0) (fun e => absurd (winFacts1.arr_inj (a₁ := 0) (a₂ := 3) e) (by decide))).symm
  | 1 => by rw [(R1.dat1 (rd (W17 m)) (adm1 m) c).arrAt_in 1 rfl, dat1_A]; unfold W18; exact (upd_of_ne _ main_v84 _ (Pipeline.arrRef spec1 1) (fun e => absurd (winFacts1.arr_inj (a₁ := 1) (a₂ := 3) e) (by decide))).symm
  | 2 => by rw [(R1.dat1 (rd (W17 m)) (adm1 m) c).arrAt_in 2 rfl, dat1_A]; unfold W18; exact (upd_of_ne _ main_v84 _ (Pipeline.arrRef spec1 2) (fun e => absurd (winFacts1.arr_inj (a₁ := 2) (a₂ := 3) e) (by decide))).symm
  | 3 => by unfold W18; exact (upd_out _ main_v84 _).symm
  | ⟨_ + 4, h⟩ => absurd h (Nat.not_lt.2 (Nat.le_add_left _ _))
theorem hrest1 (c : Dev nD) (b : Ref sig .tc) (hb : b ∉ Finset.univ.image (Pipeline.arrRef spec1)) : W18 m c b = W17 m c b := by
  unfold W18
  exact upd_of_ne _ main_v84 _ b fun e => hb (by rw [e]; exact Finset.mem_image.mpr ⟨3, Finset.mem_univ _, rfl⟩)

theorem hF2 (c : Dev nD) : ∀ w : Fin 6, (R2.dat2 (rd (W19 m)) (adm2 m) c).arrAt w (cfg2 (adm2 m)).N = W20 m c (Pipeline.arrRef spec2 w)
  | 0 => by rw [(R2.dat2 (rd (W19 m)) (adm2 m) c).arrAt_in 0 rfl, dat2_A]; unfold W20; exact (upd_of_ne _ main_v93 _ (Pipeline.arrRef spec2 0) (fun e => absurd (winFacts2.arr_inj (a₁ := 0) (a₂ := 5) e) (by decide))).symm
  | 1 => by rw [(R2.dat2 (rd (W19 m)) (adm2 m) c).arrAt_in 1 rfl, dat2_A]; unfold W20; exact (upd_of_ne _ main_v93 _ (Pipeline.arrRef spec2 1) (fun e => absurd (winFacts2.arr_inj (a₁ := 1) (a₂ := 5) e) (by decide))).symm
  | 2 => by rw [(R2.dat2 (rd (W19 m)) (adm2 m) c).arrAt_in 2 rfl, dat2_A]; unfold W20; exact (upd_of_ne _ main_v93 _ (Pipeline.arrRef spec2 2) (fun e => absurd (winFacts2.arr_inj (a₁ := 2) (a₂ := 5) e) (by decide))).symm
  | 3 => by rw [(R2.dat2 (rd (W19 m)) (adm2 m) c).arrAt_in 3 rfl, dat2_A]; unfold W20; exact (upd_of_ne _ main_v93 _ (Pipeline.arrRef spec2 3) (fun e => absurd (winFacts2.arr_inj (a₁ := 3) (a₂ := 5) e) (by decide))).symm
  | 4 => by rw [(R2.dat2 (rd (W19 m)) (adm2 m) c).arrAt_in 4 rfl, dat2_A]; unfold W20; exact (upd_of_ne _ main_v93 _ (Pipeline.arrRef spec2 4) (fun e => absurd (winFacts2.arr_inj (a₁ := 4) (a₂ := 5) e) (by decide))).symm
  | 5 => by unfold W20; exact (upd_out _ main_v93 _).symm
  | ⟨_ + 6, h⟩ => absurd h (Nat.not_lt.2 (Nat.le_add_left _ _))
theorem hrest2 (c : Dev nD) (b : Ref sig .tc) (hb : b ∉ Finset.univ.image (Pipeline.arrRef spec2)) : W20 m c b = W19 m c b := by
  unfold W20
  exact upd_of_ne _ main_v93 _ b fun e => hb (by rw [e]; exact Finset.mem_image.mpr ⟨5, Finset.mem_univ _, rfl⟩)

theorem hF3 (c : Dev nD) : ∀ w : Fin 3, (R3.dat3 (rd (W21 m)) c).arrAt w cfg3.N = W22 m c (Pipeline.arrRef spec3 w)
  | 0 => by rw [(R3.dat3 (rd (W21 m)) c).arrAt_in 0 rfl, dat3_A]; unfold W22; exact (upd_of_ne _ main_v96 _ (Pipeline.arrRef spec3 0) (fun e => absurd (winFacts3.arr_inj (a₁ := 0) (a₂ := 2) e) (by decide))).symm
  | 1 => by rw [(R3.dat3 (rd (W21 m)) c).arrAt_in 1 rfl, dat3_A]; unfold W22; exact (upd_of_ne _ main_v96 _ (Pipeline.arrRef spec3 1) (fun e => absurd (winFacts3.arr_inj (a₁ := 1) (a₂ := 2) e) (by decide))).symm
  | 2 => by unfold W22; exact (upd_out _ main_v96 _).symm
  | ⟨_ + 3, h⟩ => absurd h (Nat.not_lt.2 (Nat.le_add_left _ _))
theorem hrest3 (c : Dev nD) (b : Ref sig .tc) (hb : b ∉ Finset.univ.image (Pipeline.arrRef spec3)) : W22 m c b = W21 m c b := by
  unfold W22
  exact upd_of_ne _ main_v96 _ b fun e => hb (by rw [e]; exact Finset.mem_image.mpr ⟨2, Finset.mem_univ _, rfl⟩)

theorem hF4 (c : Dev nD) : ∀ w : Fin 4, (R4.dat4 (rd (W22 m)) (adm4 m) c).arrAt w (cfg4 (adm4 m)).N = W23 m c (Pipeline.arrRef spec4 w)
  | 0 => by rw [(R4.dat4 (rd (W22 m)) (adm4 m) c).arrAt_in 0 rfl, dat4_A]; unfold W23; exact (upd_of_ne _ main_v97 _ (Pipeline.arrRef spec4 0) (fun e => absurd (winFacts4.arr_inj (a₁ := 0) (a₂ := 3) e) (by decide))).symm
  | 1 => by rw [(R4.dat4 (rd (W22 m)) (adm4 m) c).arrAt_in 1 rfl, dat4_A]; unfold W23; exact (upd_of_ne _ main_v97 _ (Pipeline.arrRef spec4 1) (fun e => absurd (winFacts4.arr_inj (a₁ := 1) (a₂ := 3) e) (by decide))).symm
  | 2 => by rw [(R4.dat4 (rd (W22 m)) (adm4 m) c).arrAt_in 2 rfl, dat4_A]; unfold W23; exact (upd_of_ne _ main_v97 _ (Pipeline.arrRef spec4 2) (fun e => absurd (winFacts4.arr_inj (a₁ := 2) (a₂ := 3) e) (by decide))).symm
  | 3 => by unfold W23; exact (upd_out _ main_v97 _).symm
  | ⟨_ + 4, h⟩ => absurd h (Nat.not_lt.2 (Nat.le_add_left _ _))
theorem hrest4 (c : Dev nD) (b : Ref sig .tc) (hb : b ∉ Finset.univ.image (Pipeline.arrRef spec4)) : W23 m c b = W22 m c b := by
  unfold W23
  exact upd_of_ne _ main_v97 _ b fun e => hb (by rw [e]; exact Finset.mem_image.mpr ⟨3, Finset.mem_univ _, rfl⟩)

theorem hF5 (c : Dev nD) : ∀ w : Fin 6, (R5.dat5 (rd (W24 m)) (adm5 m) c).arrAt w (cfg5 (adm5 m)).N = W25 m c (Pipeline.arrRef spec5 w)
  | 0 => by rw [(R5.dat5 (rd (W24 m)) (adm5 m) c).arrAt_in 0 rfl, dat5_A]; unfold W25; exact (upd_of_ne _ main_v106 _ (Pipeline.arrRef spec5 0) (fun e => absurd (winFacts5.arr_inj (a₁ := 0) (a₂ := 5) e) (by decide))).symm
  | 1 => by rw [(R5.dat5 (rd (W24 m)) (adm5 m) c).arrAt_in 1 rfl, dat5_A]; unfold W25; exact (upd_of_ne _ main_v106 _ (Pipeline.arrRef spec5 1) (fun e => absurd (winFacts5.arr_inj (a₁ := 1) (a₂ := 5) e) (by decide))).symm
  | 2 => by rw [(R5.dat5 (rd (W24 m)) (adm5 m) c).arrAt_in 2 rfl, dat5_A]; unfold W25; exact (upd_of_ne _ main_v106 _ (Pipeline.arrRef spec5 2) (fun e => absurd (winFacts5.arr_inj (a₁ := 2) (a₂ := 5) e) (by decide))).symm
  | 3 => by rw [(R5.dat5 (rd (W24 m)) (adm5 m) c).arrAt_in 3 rfl, dat5_A]; unfold W25; exact (upd_of_ne _ main_v106 _ (Pipeline.arrRef spec5 3) (fun e => absurd (winFacts5.arr_inj (a₁ := 3) (a₂ := 5) e) (by decide))).symm
  | 4 => by rw [(R5.dat5 (rd (W24 m)) (adm5 m) c).arrAt_in 4 rfl, dat5_A]; unfold W25; exact (upd_of_ne _ main_v106 _ (Pipeline.arrRef spec5 4) (fun e => absurd (winFacts5.arr_inj (a₁ := 4) (a₂ := 5) e) (by decide))).symm
  | 5 => by unfold W25; exact (upd_out _ main_v106 _).symm
  | ⟨_ + 6, h⟩ => absurd h (Nat.not_lt.2 (Nat.le_add_left _ _))
theorem hrest5 (c : Dev nD) (b : Ref sig .tc) (hb : b ∉ Finset.univ.image (Pipeline.arrRef spec5)) : W25 m c b = W24 m c b := by
  unfold W25
  exact upd_of_ne _ main_v106 _ b fun e => hb (by rw [e]; exact Finset.mem_image.mpr ⟨5, Finset.mem_univ _, rfl⟩)

theorem hF6 (c : Dev nD) : ∀ w : Fin 3, (R6.dat6 (rd (W26 m)) c).arrAt w cfg6.N = W27 m c (Pipeline.arrRef spec6 w)
  | 0 => by rw [(R6.dat6 (rd (W26 m)) c).arrAt_in 0 rfl, dat6_A]; unfold W27; exact (upd_of_ne _ main_v109 _ (Pipeline.arrRef spec6 0) (fun e => absurd (winFacts6.arr_inj (a₁ := 0) (a₂ := 2) e) (by decide))).symm
  | 1 => by rw [(R6.dat6 (rd (W26 m)) c).arrAt_in 1 rfl, dat6_A]; unfold W27; exact (upd_of_ne _ main_v109 _ (Pipeline.arrRef spec6 1) (fun e => absurd (winFacts6.arr_inj (a₁ := 1) (a₂ := 2) e) (by decide))).symm
  | 2 => by unfold W27; exact (upd_out _ main_v109 _).symm
  | ⟨_ + 3, h⟩ => absurd h (Nat.not_lt.2 (Nat.le_add_left _ _))
theorem hrest6 (c : Dev nD) (b : Ref sig .tc) (hb : b ∉ Finset.univ.image (Pipeline.arrRef spec6)) : W27 m c b = W26 m c b := by
  unfold W27
  exact upd_of_ne _ main_v109 _ b fun e => hb (by rw [e]; exact Finset.mem_image.mpr ⟨2, Finset.mem_univ _, rfl⟩)

theorem hF7 (c : Dev nD) : ∀ w : Fin 4, (R7.dat7 (rd (W27 m)) (adm7 m) c).arrAt w (cfg7 (adm7 m)).N = W28 m c (Pipeline.arrRef spec7 w)
  | 0 => by rw [(R7.dat7 (rd (W27 m)) (adm7 m) c).arrAt_in 0 rfl, dat7_A]; unfold W28; exact (upd_of_ne _ main_v110 _ (Pipeline.arrRef spec7 0) (fun e => absurd (winFacts7.arr_inj (a₁ := 0) (a₂ := 3) e) (by decide))).symm
  | 1 => by rw [(R7.dat7 (rd (W27 m)) (adm7 m) c).arrAt_in 1 rfl, dat7_A]; unfold W28; exact (upd_of_ne _ main_v110 _ (Pipeline.arrRef spec7 1) (fun e => absurd (winFacts7.arr_inj (a₁ := 1) (a₂ := 3) e) (by decide))).symm
  | 2 => by rw [(R7.dat7 (rd (W27 m)) (adm7 m) c).arrAt_in 2 rfl, dat7_A]; unfold W28; exact (upd_of_ne _ main_v110 _ (Pipeline.arrRef spec7 2) (fun e => absurd (winFacts7.arr_inj (a₁ := 2) (a₂ := 3) e) (by decide))).symm
  | 3 => by unfold W28; exact (upd_out _ main_v110 _).symm
  | ⟨_ + 4, h⟩ => absurd h (Nat.not_lt.2 (Nat.le_add_left _ _))
theorem hrest7 (c : Dev nD) (b : Ref sig .tc) (hb : b ∉ Finset.univ.image (Pipeline.arrRef spec7)) : W28 m c b = W27 m c b := by
  unfold W28
  exact upd_of_ne _ main_v110 _ b fun e => hb (by rw [e]; exact Finset.mem_image.mpr ⟨3, Finset.mem_univ _, rfl⟩)

theorem hF8 (c : Dev nD) : ∀ w : Fin 6, (R8.dat8 (rd (W29 m)) (adm8 m) c).arrAt w (cfg8 (adm8 m)).N = W30 m c (Pipeline.arrRef spec8 w)
  | 0 => by rw [(R8.dat8 (rd (W29 m)) (adm8 m) c).arrAt_in 0 rfl, dat8_A]; unfold W30; exact (upd_of_ne _ main_v119 _ (Pipeline.arrRef spec8 0) (fun e => absurd (winFacts8.arr_inj (a₁ := 0) (a₂ := 5) e) (by decide))).symm
  | 1 => by rw [(R8.dat8 (rd (W29 m)) (adm8 m) c).arrAt_in 1 rfl, dat8_A]; unfold W30; exact (upd_of_ne _ main_v119 _ (Pipeline.arrRef spec8 1) (fun e => absurd (winFacts8.arr_inj (a₁ := 1) (a₂ := 5) e) (by decide))).symm
  | 2 => by rw [(R8.dat8 (rd (W29 m)) (adm8 m) c).arrAt_in 2 rfl, dat8_A]; unfold W30; exact (upd_of_ne _ main_v119 _ (Pipeline.arrRef spec8 2) (fun e => absurd (winFacts8.arr_inj (a₁ := 2) (a₂ := 5) e) (by decide))).symm
  | 3 => by rw [(R8.dat8 (rd (W29 m)) (adm8 m) c).arrAt_in 3 rfl, dat8_A]; unfold W30; exact (upd_of_ne _ main_v119 _ (Pipeline.arrRef spec8 3) (fun e => absurd (winFacts8.arr_inj (a₁ := 3) (a₂ := 5) e) (by decide))).symm
  | 4 => by rw [(R8.dat8 (rd (W29 m)) (adm8 m) c).arrAt_in 4 rfl, dat8_A]; unfold W30; exact (upd_of_ne _ main_v119 _ (Pipeline.arrRef spec8 4) (fun e => absurd (winFacts8.arr_inj (a₁ := 4) (a₂ := 5) e) (by decide))).symm
  | 5 => by unfold W30; exact (upd_out _ main_v119 _).symm
  | ⟨_ + 6, h⟩ => absurd h (Nat.not_lt.2 (Nat.le_add_left _ _))
theorem hrest8 (c : Dev nD) (b : Ref sig .tc) (hb : b ∉ Finset.univ.image (Pipeline.arrRef spec8)) : W30 m c b = W29 m c b := by
  unfold W30
  exact upd_of_ne _ main_v119 _ b fun e => hb (by rw [e]; exact Finset.mem_image.mpr ⟨5, Finset.mem_univ _, rfl⟩)

theorem hF9 (c : Dev nD) : ∀ w : Fin 4, (R9.dat9 (rd (W31 m)) c).arrAt w cfg9.N = W32 m c (Pipeline.arrRef spec9 w)
  | 0 => by
    rw [(R9.dat9 (rd (W31 m)) c).arrAt_in 0 rfl, dat9_A]; unfold W32
    exact ((upd_of_ne _ main_v122_1 _ (Pipeline.arrRef spec9 0) (fun e => absurd (winFacts9.arr_inj (a₁ := 0) (a₂ := 3) e) (by decide))).trans (upd_of_ne _ main_v122_0 _ (Pipeline.arrRef spec9 0) (fun e => absurd (winFacts9.arr_inj (a₁ := 0) (a₂ := 2) e) (by decide)))).symm
  | 1 => by
    rw [(R9.dat9 (rd (W31 m)) c).arrAt_in 1 rfl, dat9_A]; unfold W32
    exact ((upd_of_ne _ main_v122_1 _ (Pipeline.arrRef spec9 1) (fun e => absurd (winFacts9.arr_inj (a₁ := 1) (a₂ := 3) e) (by decide))).trans (upd_of_ne _ main_v122_0 _ (Pipeline.arrRef spec9 1) (fun e => absurd (winFacts9.arr_inj (a₁ := 1) (a₂ := 2) e) (by decide)))).symm
  | 2 => by
    unfold W32
    rw [upd_of_ne _ main_v122_1 _ (Pipeline.arrRef spec9 2) (fun e => absurd (winFacts9.arr_inj (a₁ := 2) (a₂ := 3) e) (by decide))]; exact (upd_out _ main_v122_0 _).symm
  | 3 => by unfold W32; exact (upd_out _ main_v122_1 _).symm
  | ⟨_ + 4, h⟩ => absurd h (Nat.not_lt.2 (Nat.le_add_left _ _))
theorem hrest9 (c : Dev nD) (b : Ref sig .tc) (hb : b ∉ Finset.univ.image (Pipeline.arrRef spec9)) : W32 m c b = W31 m c b := by
  unfold W32
  rw [upd_of_ne _ main_v122_1 _ b fun e => hb (by rw [e]; exact Finset.mem_image.mpr ⟨3, Finset.mem_univ _, rfl⟩),
    upd_of_ne _ main_v122_0 _ b fun e => hb (by rw [e]; exact Finset.mem_image.mpr ⟨2, Finset.mem_univ _, rfl⟩)]

/-! ## The regions as segments -/

set_option backward.isDefEq.respectTransparency.types false in
/-- Region 0 (custom_call 0), no prefetched table: the class invariant takes the generator register and the scoped rest. -/
def reg0 : Pipeline.RegionSeg (pcfgs (F := F)) (adm m) (pdats m) () defs₀ 𝒱₀ L lv 0 :=
  regionSeg (adm m) (pdats m) 0 launch0 (V16 m) (W17 m)
    (fun c w => dat0_A (rd (V16 m)) c w) (fun _ _ => rfl) (fun _ _ => rfl) (fun _ => rfl)
    (fun c => (R0.body_obligation0 (rd (V16 m)) c).loose)
    (fun _ => funext fun k => k.elim0)
    (fun c => hinA spec0 c _) (fun c => houtA spec0 c _)
    (hF0 m) (hrest0 m)

set_option backward.isDefEq.respectTransparency.types false in
/-- Region 1 (custom_call 1): its two tables are among the unscoped buffers, unchanged since the first region. -/
def reg1 : Pipeline.RegionSeg (pcfgs (F := F)) (adm m) (pdats m) () defs₀ 𝒱₀ L lv 1 :=
  regionSeg (adm m) (pdats m) 1 launch1 (W17 m) (W18 m)
    (fun c w => dat1_A (rd (W17 m)) (adm1 m) c w) (fun _ _ => rfl) (fun _ _ => rfl) (fun _ => rfl)
    (fun c => (R1.body_obligation1 (rd (W17 m)) (adm1 m) c).loose)
    (fun c => tabG_of m (W17 m) (W17_tab m) c)
    (fun c => R1.hin1 (rd (W17 m)) (adm1 m) c) (fun c => R1.hout1 (rd (W17 m)) (adm1 m) c)
    (hF1 m) (hrest1 m)

set_option backward.isDefEq.respectTransparency.types false in
/-- Region 2 (custom_call 2): its two tables are among the unscoped buffers, unchanged since the first region. -/
def reg2 : Pipeline.RegionSeg (pcfgs (F := F)) (adm m) (pdats m) () defs₀ 𝒱₀ L lv 2 :=
  regionSeg (adm m) (pdats m) 2 launch2 (W19 m) (W20 m)
    (fun c w => dat2_A (rd (W19 m)) (adm2 m) c w) (fun _ _ => rfl) (fun _ _ => rfl) (fun _ => rfl)
    (fun c => (R2.body_obligation2 (rd (W19 m)) (adm2 m) c).loose)
    (fun c => tabS_of m (W19 m) (W19_tab m) c)
    (fun c => R2.hin2 (rd (W19 m)) (adm2 m) c) (fun c => R2.hout2 (rd (W19 m)) (adm2 m) c)
    (hF2 m) (hrest2 m)

set_option backward.isDefEq.respectTransparency.types false in
/-- Region 3 (custom_call 3), no prefetched table: the class invariant takes the generator register and the scoped rest. -/
def reg3 : Pipeline.RegionSeg (pcfgs (F := F)) (adm m) (pdats m) () defs₀ 𝒱₀ L lv 3 :=
  regionSeg (adm m) (pdats m) 3 launch3 (W21 m) (W22 m)
    (fun c w => dat3_A (rd (W21 m)) c w) (fun _ _ => rfl) (fun _ _ => rfl) (fun _ => rfl)
    (fun c => (R3.body_obligation3 (rd (W21 m)) c).loose)
    (fun _ => funext fun k => k.elim0)
    (fun c => hinA spec3 c _) (fun c => houtA spec3 c _)
    (hF3 m) (hrest3 m)

set_option backward.isDefEq.respectTransparency.types false in
/-- Region 4 (custom_call 4): its two tables are among the unscoped buffers, unchanged since the first region. -/
def reg4 : Pipeline.RegionSeg (pcfgs (F := F)) (adm m) (pdats m) () defs₀ 𝒱₀ L lv 4 :=
  regionSeg (adm m) (pdats m) 4 launch4 (W22 m) (W23 m)
    (fun c w => dat4_A (rd (W22 m)) (adm4 m) c w) (fun _ _ => rfl) (fun _ _ => rfl) (fun _ => rfl)
    (fun c => (R4.body_obligation4 (rd (W22 m)) (adm4 m) c).loose)
    (fun c => tabG_of m (W22 m) (W22_tab m) c)
    (fun c => R4.hin4 (rd (W22 m)) (adm4 m) c) (fun c => R4.hout4 (rd (W22 m)) (adm4 m) c)
    (hF4 m) (hrest4 m)

set_option backward.isDefEq.respectTransparency.types false in
/-- Region 5 (custom_call 5): its two tables are among the unscoped buffers, unchanged since the first region. -/
def reg5 : Pipeline.RegionSeg (pcfgs (F := F)) (adm m) (pdats m) () defs₀ 𝒱₀ L lv 5 :=
  regionSeg (adm m) (pdats m) 5 launch5 (W24 m) (W25 m)
    (fun c w => dat5_A (rd (W24 m)) (adm5 m) c w) (fun _ _ => rfl) (fun _ _ => rfl) (fun _ => rfl)
    (fun c => (R5.body_obligation5 (rd (W24 m)) (adm5 m) c).loose)
    (fun c => tabS_of m (W24 m) (W24_tab m) c)
    (fun c => R5.hin5 (rd (W24 m)) (adm5 m) c) (fun c => R5.hout5 (rd (W24 m)) (adm5 m) c)
    (hF5 m) (hrest5 m)

set_option backward.isDefEq.respectTransparency.types false in
/-- Region 6 (custom_call 6), no prefetched table: the class invariant takes the generator register and the scoped rest. -/
def reg6 : Pipeline.RegionSeg (pcfgs (F := F)) (adm m) (pdats m) () defs₀ 𝒱₀ L lv 6 :=
  regionSeg (adm m) (pdats m) 6 launch6 (W26 m) (W27 m)
    (fun c w => dat6_A (rd (W26 m)) c w) (fun _ _ => rfl) (fun _ _ => rfl) (fun _ => rfl)
    (fun c => (R6.body_obligation6 (rd (W26 m)) c).loose)
    (fun _ => funext fun k => k.elim0)
    (fun c => hinA spec6 c _) (fun c => houtA spec6 c _)
    (hF6 m) (hrest6 m)

set_option backward.isDefEq.respectTransparency.types false in
/-- Region 7 (custom_call 7): its two tables are among the unscoped buffers, unchanged since the first region. -/
def reg7 : Pipeline.RegionSeg (pcfgs (F := F)) (adm m) (pdats m) () defs₀ 𝒱₀ L lv 7 :=
  regionSeg (adm m) (pdats m) 7 launch7 (W27 m) (W28 m)
    (fun c w => dat7_A (rd (W27 m)) (adm7 m) c w) (fun _ _ => rfl) (fun _ _ => rfl) (fun _ => rfl)
    (fun c => (R7.body_obligation7 (rd (W27 m)) (adm7 m) c).loose)
    (fun c => tabG_of m (W27 m) (W27_tab m) c)
    (fun c => R7.hin7 (rd (W27 m)) (adm7 m) c) (fun c => R7.hout7 (rd (W27 m)) (adm7 m) c)
    (hF7 m) (hrest7 m)

set_option backward.isDefEq.respectTransparency.types false in
/-- Region 8 (custom_call 8): its two tables are among the unscoped buffers, unchanged since the first region. -/
def reg8 : Pipeline.RegionSeg (pcfgs (F := F)) (adm m) (pdats m) () defs₀ 𝒱₀ L lv 8 :=
  regionSeg (adm m) (pdats m) 8 launch8 (W29 m) (W30 m)
    (fun c w => dat8_A (rd (W29 m)) (adm8 m) c w) (fun _ _ => rfl) (fun _ _ => rfl) (fun _ => rfl)
    (fun c => (R8.body_obligation8 (rd (W29 m)) (adm8 m) c).loose)
    (fun c => tabS_of m (W29 m) (W29_tab m) c)
    (fun c => R8.hin8 (rd (W29 m)) (adm8 m) c) (fun c => R8.hout8 (rd (W29 m)) (adm8 m) c)
    (hF8 m) (hrest8 m)

set_option backward.isDefEq.respectTransparency.types false in
/-- Region 9 (custom_call 9), no prefetched table: the class invariant takes the generator register and the scoped rest. -/
def reg9 : Pipeline.RegionSeg (pcfgs (F := F)) (adm m) (pdats m) () defs₀ 𝒱₀ L lv 9 :=
  regionSeg (adm m) (pdats m) 9 launch9 (W31 m) (W32 m)
    (fun c w => dat9_A (rd (W31 m)) c w) (fun _ _ => rfl) (fun _ _ => rfl) (fun _ => rfl)
    (fun c => (R9.body_obligation9 (rd (W31 m)) c).loose)
    (fun _ => funext fun k => k.elim0)
    (fun c => hinA spec9 c _) (fun c => houtA spec9 c _)
    (hF9 m) (hrest9 m)

/-! ## The launch -/

/-- The launch element: the pipelines' cells and duty tokens. -/
abbrev u₀ : UR sig nD τ :=
  initOf (Pipeline.cells (Pipeline.pin (pcfgs (F := F)) (adm m)) (cellOf_inj (adm m))) (Pipeline.launchToks (Pipeline.pin (pcfgs (F := F)) (adm m)) (cellOf_inj (adm m)))

theorem hu₀ : (ownU (u₀ m) : sProp 𝕄) ⊢ |={Set.univ}=> iprop(BI.own ((emb₁ : Emb (UR sig nD τ) 𝕄) (u₀ m)) ∗ bigSep Finset.univ fun _ : Dev nD => (iprop(emp) : sProp 𝕄)) := by
  iintro Hu; imodintro
  isplitl [Hu]
  · iapply (show (ownU (u₀ m) : sProp 𝕄) ⊢ BI.own (emb₁ (u₀ m)) from .rfl)
    iexact Hu
  iapply (show (BI.emp : sProp 𝕄) ⊢ bigSep Finset.univ (fun _ : Dev nD => (BI.emp : sProp 𝕄)) from by rw [BI.bigSep_emp_const])
  iempintro

end Vals

/-- What the launch deals every core makes the riding state: the generator register at its launch state, nothing owed. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem hE10 (c : Dev nD) : (R (F := F) c : sProp 𝕄) ⊢ iprop(∃ W, owes (c : Thread nD τ) (0 : CellTallies nD τ sig Unit) W) := by
  iintro ⟨-, H⟩; iexact H

/-! ## The run and the frame -/

set_option backward.isDefEq.respectTransparency.types false in
/-- THE RUN: from any memory with zero counters every weakly fair execution of @main terminates and every final memory
    holds, on every core, every unscoped buffer at the last valuation, the regions' exit contents being `outs m`. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      ∀ b ∈ Pipeline.ucRefs τ sig, r.2.mem ((c.tc : Thread nD τ).1, b) = V37 m (outs m) c b) :=
  run_cond m (EP := emb₁) (ι := ()) (𝒱₀ := 𝒱₀) (L := L) (lv := lv) (hL := fun _ _ => rfl) (ρ := ρ) (outs := outs m) (a := adm m) (pdats := pdats m)
    (O₀ := 0) (G := fun _ => iprop(emp)) (u₀ := u₀ m) (hu₀ := hu₀ m) (E := fun _ c => R c) (hE0 := hE0 ρ) (hE10 := hE10)
    (R0 := reg0 m) (hpre0 := (fun c => .rfl)) (hpost0 := fun c => by rw [V17_eq m c]; exact .rfl)
    (R1 := reg1 m) (hpre1 := (fun c => by rw [V17_eq m c]; exact .rfl)) (hpost1 := fun c => by rw [V18_eq m c]; exact .rfl)
    (R2 := reg2 m) (hpre2 := (fun c => by rw [V19_eq m c]; exact .rfl)) (hpost2 := fun c => by rw [V20_eq m c]; exact .rfl)
    (R3 := reg3 m) (hpre3 := (fun c => by rw [V21_eq m c]; exact .rfl)) (hpost3 := fun c => by rw [V22_eq m c]; exact .rfl)
    (R4 := reg4 m) (hpre4 := (fun c => by rw [V22_eq m c]; exact .rfl)) (hpost4 := fun c => by rw [V23_eq m c]; exact .rfl)
    (R5 := reg5 m) (hpre5 := (fun c => by rw [V24_eq m c]; exact .rfl)) (hpost5 := fun c => by rw [V25_eq m c]; exact .rfl)
    (R6 := reg6 m) (hpre6 := (fun c => by rw [V26_eq m c]; exact .rfl)) (hpost6 := fun c => by rw [V27_eq m c]; exact .rfl)
    (R7 := reg7 m) (hpre7 := (fun c => by rw [V27_eq m c]; exact .rfl)) (hpost7 := fun c => by rw [V28_eq m c]; exact .rfl)
    (R8 := reg8 m) (hpre8 := (fun c => by rw [V29_eq m c]; exact .rfl)) (hpost8 := fun c => by rw [V30_eq m c]; exact .rfl)
    (R9 := reg9 m) (hpre9 := (fun c => by rw [V31_eq m c]; exact .rfl)) (hpost9 := fun c => by rw [V32_eq m c]; exact .rfl)

set_option backward.isDefEq.respectTransparency.types false in
/-- THE FRAME: the same executions end with every argument as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_cond m (EP := emb₁) (ι := ()) (𝒱₀ := 𝒱₀) (L := L) (lv := lv) (hL := fun _ _ => rfl) (ρ := ρ) (outs := outs m) (a := adm m) (pdats := pdats m)
    (O₀ := 0) (G := fun _ => iprop(emp)) (u₀ := u₀ m) (hu₀ := hu₀ m) (E := fun _ c => R c) (hE0 := hE0 ρ) (hE10 := hE10)
    (R0 := reg0 m) (hpre0 := (fun c => .rfl)) (hpost0 := fun c => by rw [V17_eq m c]; exact .rfl)
    (R1 := reg1 m) (hpre1 := (fun c => by rw [V17_eq m c]; exact .rfl)) (hpost1 := fun c => by rw [V18_eq m c]; exact .rfl)
    (R2 := reg2 m) (hpre2 := (fun c => by rw [V19_eq m c]; exact .rfl)) (hpost2 := fun c => by rw [V20_eq m c]; exact .rfl)
    (R3 := reg3 m) (hpre3 := (fun c => by rw [V21_eq m c]; exact .rfl)) (hpost3 := fun c => by rw [V22_eq m c]; exact .rfl)
    (R4 := reg4 m) (hpre4 := (fun c => by rw [V22_eq m c]; exact .rfl)) (hpost4 := fun c => by rw [V23_eq m c]; exact .rfl)
    (R5 := reg5 m) (hpre5 := (fun c => by rw [V24_eq m c]; exact .rfl)) (hpost5 := fun c => by rw [V25_eq m c]; exact .rfl)
    (R6 := reg6 m) (hpre6 := (fun c => by rw [V26_eq m c]; exact .rfl)) (hpost6 := fun c => by rw [V27_eq m c]; exact .rfl)
    (R7 := reg7 m) (hpre7 := (fun c => by rw [V27_eq m c]; exact .rfl)) (hpost7 := fun c => by rw [V28_eq m c]; exact .rfl)
    (R8 := reg8 m) (hpre8 := (fun c => by rw [V29_eq m c]; exact .rfl)) (hpost8 := fun c => by rw [V30_eq m c]; exact .rfl)
    (R9 := reg9 m) (hpre9 := (fun c => by rw [V31_eq m c]; exact .rfl)) (hpost9 := fun c => by rw [V32_eq m c]; exact .rfl)

end Cert.KernelIdeal.Run

end
-- ==== Proof.K.R0Frame.lean ====
/- Region 0 of @main: the first dense layer, rows of the padded feature matrix times the first weight matrix.
   What the pipeline's body finds in its staged operands and leaves in its output buffer at every grid point,
   the proof data built from that at the buffer contents the region is entered with, and the body obligation. -/
import proofs.«417346_j54202487276072_2_alg».proof.Proof.Gen.Kernel.Launch
import proofs.«417346_j54202487276072_2_alg».proof.Proof.Gen.Kernel.Skeleton
import proofs.«417346_j54202487276072_2_alg».proof.Proof.Gen.Kernel.Points
import Idealize.ShloMosaic.Lib.Pipeline.FrameBody
import Idealize.ShloMosaic.Lib.Pipeline.Value
import Idealize.ShloMosaic.Lib.Tactic

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! # Region 0: the first dense layer, one row block per grid point

The grid has 49 points. At point `t` the pipeline stages rows `2048·t … 2048·t + 2047` of the padded feature
matrix (window 0), the whole weight matrix (window 1, staged once, at the first point) and gives the body a
buffer for the same rows of the product (window 2). The body reads both staged operands whole, multiplies them
into a zero accumulator, and overwrites the whole output buffer; it keeps nothing between points. Everything
here is stated at the buffer contents `V` with which the region is entered. -/

section Region
variable (V : (c : Dev nD) → (b : Ref sig .tc) → Buf (Elt F) ((c : Thread nD τ).loc b))

/-! ## The windows' blocks -/

/-- The block of window `w` at grid point `t`: its array, as the region finds it, read through the window's
    rectangle at that point. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The row-block window holds its block at every point: it is fetched at each one, and the body leaves it as
    found. Stated for any proof data with `V`'s array and a body that keeps the block. -/
theorem held0_0 {c : Dev nD} (dat : Dat τ (Elt F) Unit ℕ (UR sig nD τ) ℕ cfg0 c)
    (hA : dat.A 0 = V c (Pipeline.arrRef spec0 0)) (hafter : ∀ t, dat.after 0 t = iblk0 V c 0 t)
    (t : Fin cfg0.N) (d) : dat.before 0 t d = iblk0 V c 0 t :=
  (dat.before_in_eq_fetched 0 rfl (fun _ => rfl) (fun _ _ _ => rfl)
      (fun t => by rw [hafter]; unfold Dat.blockOf iblk0; rw [hA]; try rfl) t d).trans
    (by unfold Dat.fetched Dat.blockOf iblk0; rw [hA]; try rfl)

/-- The weight window holds the whole weight matrix at every point although it is fetched at the first only:
    its block index never moves, so at a later point the buffer still holds the previous point's block, which
    is this point's. -/
theorem held0_1 {c : Dev nD} (dat : Dat τ (Elt F) Unit ℕ (UR sig nD τ) ℕ cfg0 c)
    (hA : dat.A 1 = V c (Pipeline.arrRef spec0 1)) (hafter : ∀ t, dat.after 1 t = iblk0 V c 1 t)
    (t : Fin cfg0.N) (d) : dat.before 1 t d = iblk0 V c 1 t :=
  (dat.before_in_eq_fetched 1 rfl (fun _ => rfl) (fun _ _ _ => rfl)
      (fun t => by rw [hafter]; unfold Dat.blockOf iblk0; rw [hA]; try rfl) t d).trans
    (by unfold Dat.fetched Dat.blockOf iblk0; rw [hA]; try rfl)

/-! ## The body's accesses: each staging buffer whole -/

abbrev rLhs0 : Rect S2048x128 := Rect.unit (s := S2048x128) ![0, 0] S2048x128.size inb_S2048x128_S2048x128_0_0
abbrev rRhs0 : Rect S128x16 := Rect.unit (s := S128x16) ![0, 0] S128x16.size inb_S128x16_S128x16_0_0
abbrev rOut0 : Rect S2048x16 := Rect.unit (s := S2048x16) ![0, 0] S2048x16.size inb_S2048x16_S2048x16_0_0

/-- The offsets of those rectangles are zero on both axes. -/
theorem zeroOff : (![0, 0] : Fin 2 → Nat) = fun _ => 0 := funext fun a => by fin_cases a <;> rfl

/-! ## What the body leaves in the output buffer -/

/-- The output buffer after the body, as a function of the two staged operands: its one store, through the
    whole-buffer rectangle, of the product payload of the two whole-buffer loads. -/
def out0_2 (x0 : Vec F S2048x128 .f32) (x1 : Vec F S128x16 .f32) : Vec F S2048x16 .f32 :=
  View.canon [⟨rOut0, k0_pay1 (View.ld x0 rLhs0) (View.ld x1 rRhs0)⟩]

/-- That one store covers the buffer: its rectangle is the whole shape. -/
theorem covers0_2 (p : Vec F S2048x16 .f32) (y : S2048x16.Idx) :
    ∃ pc ∈ ([⟨rOut0, p⟩] : List (View.Piece (Elt F) S2048x16 .f32)), y ∈ pc.1.set :=
  ⟨_, List.mem_singleton_self _, View.mem_set_unit_zero zeroOff inb_S2048x16_S2048x16_0_0 y⟩

/-! ## The body's triple -/

set_option maxHeartbeats 1000000 in
/-- On whole staging memrefs, the operands' at contents `x0`, `x1` and the output's at anything, the body runs to
    a continuation that holds the operands' as they were and the output's at `out0_2 x0 x1`. The body is its
    skeleton: three loads (the third, of the output buffer, is discarded) and one covering store. -/
theorem triple0 (c : Dev nD) (E : Set ℕ) (i : grid0.Coords)
    (arg1 : Memref sig .tc .vmem S2048x128 .f32) (harg1 : arg1.IsWhole)
    (arg2 : Memref sig .tc .vmem S128x16 .f32) (harg2 : arg2.IsWhole)
    (arg3 : Memref sig .tc .vmem S2048x16 .f32) (harg3 : arg3.IsWhole)
    (x0 : Vec F S2048x128 .f32) (x1 : Vec F S128x16 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E
          (cc0__dense_kernel i arg1 harg1 arg2 harg2 arg3 harg3) K := by
  simp only [cc0__dense_kernel_eq_skeleton]; unfold cc0__dense_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers0_2 _)

/-! ## The pipeline's proof data -/

/-- Pipeline 0's proof data on core `c`: the arrays as the region finds them; after the body at point `t` each
    operand's buffer still at its block and the output's at `out0_2` of the two blocks; the invariant is the
    scoped rest and the generator register, untouched; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-- Each operand's current staging buffer holds its block at every point. -/
theorem before0_0 (c : Dev nD) (t : Fin cfg0.N) (d) : (dat0 V c).before 0 t d = iblk0 V c 0 t :=
  held0_0 V (dat0 V c) (A_eq0 V c 0) (after0_0 V c) t d
theorem before0_1 (c : Dev nD) (t : Fin cfg0.N) (d) : (dat0 V c).before 1 t d = iblk0 V c 1 t :=
  held0_1 V (dat0 V c) (A_eq0 V c 1) (after0_1 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the operands' memrefs hold their blocks, so the body's triple applies; the invariant
    and the core's tallies pass through unread. -/
theorem sound_body0 (c : Dev nD) (t : Fin cfg0.N) :
    bodyPre0 V c t ⊢ wp frame (wpE (defs₀ (F := F)) Variants.none c none) Set.univ (bodyAt0 t)
      (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (triple0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) :
    BodyObligation (dat0 (F := F) V c) (defs₀ (F := F)) Variants.none () Set.univ := fun t => by
  rw [bigSep_W0, bigSep_W0]
  exact sound_body0 V c t

end Region

end Cert.Kernel.R0

end
-- ==== Proof.K.R1Sched.lean ====
/- The schedule of the gather region (grid [391, 49], point t ↔ (e, j) = (t / 49, t % 49), j the inner axis), at any
   admissible contents `a` of its two prefetched tables: the index maps do not read the tables, so each window's block
   index is a closed form in t, and with it which points fetch an input (src and norm: where j = 0; the node block:
   every point), which write the output back (where j = 48) and where the output is idle (where j ≠ 48). -/
import proofs.«417346_j54202487276072_2_alg».proof.Proof.Gen.Kernel.Launch

noncomputable section

namespace Cert.Kernel.R1

open Cert.Kernel Cert.Kernel.Gen
open Idealize.ShloMosaic Idealize.ShloMosaic.TcCoe
open Idealize.SL Idealize.SL.Sem

variable {F : FTy → Type} [FloatOps F]

/-! ## The coordinates of a point -/

theorem stride1_0 : grid1.stride 0 = 49 := by decide
theorem stride1_1 : grid1.stride 1 = 1 := by decide

/-- The outer coordinate (the edge tile) of point t is t / 49. -/
theorem coords1_0 (t : Fin grid1.N) : (grid1.coords t 0).val = t.val / 49 := by
  have h : t.val < 19159 := Nat.lt_of_lt_of_eq t.isLt N_1
  show t.val / grid1.stride 0 % 391 = _
  rw [stride1_0]; omega

/-- The inner coordinate (the node tile) of point t is t % 49. -/
theorem coords1_1 (t : Fin grid1.N) : (grid1.coords t 1).val = t.val % 49 := by
  show t.val / grid1.stride 1 % 49 = _
  rw [stride1_1, Nat.div_one]

theorem vec2_ne {x y : ℕ} : (![x, 0] : Fin 2 → ℕ) ≠ ![y, 0] ↔ x ≠ y :=
  ⟨fun h hxy => h (by rw [hxy]), fun h heq => h (congrFun heq 0)⟩
theorem vec1_ne {x y : ℕ} : (![x] : Fin 1 → ℕ) ≠ ![y] ↔ x ≠ y :=
  ⟨fun h hxy => h (by rw [hxy]), fun h heq => h (congrFun heq 0)⟩

variable (a : (pcfg1 (F := F)).Adm)

/-! ## The windows' block indices, in closed form -/

theorem idx1_0 (t : Fin (cfg1 a).N) : ((cfg1 a).win 0).index t = ![t.val / 49] := by
  have h : t.val < 19159 := Nat.lt_of_lt_of_eq t.isLt N_1
  show cc1_transform_0 (grid1.coords t) = _
  unfold cc1_transform_0
  simp only [BitVec.toNat_ofNat, coords1_0]
  rw [Nat.mod_eq_of_lt (by omega)]

theorem idx1_1 (t : Fin (cfg1 a).N) : ((cfg1 a).win 1).index t = ![t.val / 49] := by
  have h : t.val < 19159 := Nat.lt_of_lt_of_eq t.isLt N_1
  show cc1_transform_1 (grid1.coords t) = _
  unfold cc1_transform_1
  simp only [BitVec.toNat_ofNat, coords1_0]
  rw [Nat.mod_eq_of_lt (by omega)]

theorem idx1_2 (t : Fin (cfg1 a).N) : ((cfg1 a).win 2).index t = ![t.val % 49, 0] := by
  show cc1_transform_2 (grid1.coords t) = _
  unfold cc1_transform_2
  simp only [BitVec.toNat_ofNat, coords1_1]
  rw [Nat.mod_eq_of_lt (by omega)]

theorem idx1_3 (t : Fin (cfg1 a).N) : ((cfg1 a).win 3).index t = ![t.val / 49, 0] := by
  have h : t.val < 19159 := Nat.lt_of_lt_of_eq t.isLt N_1
  show cc1_transform_3 (grid1.coords t) = _
  unfold cc1_transform_3
  simp only [BitVec.toNat_ofNat, coords1_0]
  rw [Nat.mod_eq_of_lt (by omega)]

/-! ## Which points fetch, which write back -/

/-- The output block is written back exactly at the last node tile of each edge tile (j = 48). -/
theorem flush1_3 (t : Fin (cfg1 a).N) : ((cfg1 a).win 3).flush t = true ↔ t.val % 49 = 48 := by
  have hN : (pcfg1.gridAt a.1).N = 19159 := N_1
  have hN' : (cfg1 a).N = 19159 := N_1
  have hN'' : (cfg1 a).grid.N = 19159 := N_1
  have ht : t.val < 19159 := Nat.lt_of_lt_of_eq t.isLt N_1
  have key : ∀ (s s' : Fin (cfg1 a).N), ((cfg1 a).win 3).index s ≠ ((cfg1 a).win 3).index s' ↔ s.val / 49 ≠ s'.val / 49 :=
    fun s s' => by rw [idx1_3, idx1_3]; exact vec2_ne
  unfold Pipeline.Window.flush
  rw [show ((cfg1 a).win 3).isOut = true from rfl, Bool.true_and, Bool.or_eq_true, decide_eq_true_eq, decide_eq_true_eq]
  constructor
  · rintro (h | ⟨h, hne⟩)
    · omega
    · have h2 := (key _ _).mp hne
      dsimp only at h2
      omega
  · intro h
    by_cases hl : t.val + 1 = 19159
    · exact .inl (by omega)
    · exact .inr ⟨by omega, (key ⟨t.val + 1, by omega⟩ t).mpr (by dsimp only; omega)⟩

/-- The source-index block is fetched exactly at the first node tile of each edge tile (j = 0). -/
theorem fetch1_0 (t : Fin (cfg1 a).N) : ((cfg1 a).win 0).fetch t = true ↔ t.val % 49 = 0 := by
  have hN : (pcfg1.gridAt a.1).N = 19159 := N_1
  have hN' : (cfg1 a).N = 19159 := N_1
  have hN'' : (cfg1 a).grid.N = 19159 := N_1
  have ht : t.val < 19159 := Nat.lt_of_lt_of_eq t.isLt N_1
  have key : ∀ (s s' : Fin (cfg1 a).N), ((cfg1 a).win 0).index s ≠ ((cfg1 a).win 0).index s' ↔ s.val / 49 ≠ s'.val / 49 :=
    fun s s' => by rw [idx1_0, idx1_0]; exact vec1_ne
  unfold Pipeline.Window.fetch
  rw [show ((cfg1 a).win 0).isOut = false from rfl, Bool.not_false, Bool.true_and, Bool.or_eq_true, decide_eq_true_eq, decide_eq_true_eq]
  constructor
  · rintro (h | ⟨h, hne⟩)
    · omega
    · have h2 := (key _ _).mp hne
      dsimp only at h2
      omega
  · intro h
    by_cases hl : t.val = 0
    · exact .inl hl
    · exact .inr ⟨by omega, (key t ⟨t.val - 1, by omega⟩).mpr (by dsimp only; omega)⟩

/-- The edge-norm block likewise. -/
theorem fetch1_1 (t : Fin (cfg1 a).N) : ((cfg1 a).win 1).fetch t = true ↔ t.val % 49 = 0 := by
  have hN : (pcfg1.gridAt a.1).N = 19159 := N_1
  have hN' : (cfg1 a).N = 19159 := N_1
  have hN'' : (cfg1 a).grid.N = 19159 := N_1
  have ht : t.val < 19159 := Nat.lt_of_lt_of_eq t.isLt N_1
  have key : ∀ (s s' : Fin (cfg1 a).N), ((cfg1 a).win 1).index s ≠ ((cfg1 a).win 1).index s' ↔ s.val / 49 ≠ s'.val / 49 :=
    fun s s' => by rw [idx1_1, idx1_1]; exact vec1_ne
  unfold Pipeline.Window.fetch
  rw [show ((cfg1 a).win 1).isOut = false from rfl, Bool.not_false, Bool.true_and, Bool.or_eq_true, decide_eq_true_eq, decide_eq_true_eq]
  constructor
  · rintro (h | ⟨h, hne⟩)
    · omega
    · have h2 := (key _ _).mp hne
      dsimp only at h2
      omega
  · intro h
    by_cases hl : t.val = 0
    · exact .inl hl
    · exact .inr ⟨by omega, (key t ⟨t.val - 1, by omega⟩).mpr (by dsimp only; omega)⟩

/-- The node-feature block is fetched at every point (the node tile changes from each point to the next). -/
theorem fetch1_2 (t : Fin (cfg1 a).N) : ((cfg1 a).win 2).fetch t = true := by
  have hN : (pcfg1.gridAt a.1).N = 19159 := N_1
  have hN' : (cfg1 a).N = 19159 := N_1
  have hN'' : (cfg1 a).grid.N = 19159 := N_1
  have ht : t.val < 19159 := Nat.lt_of_lt_of_eq t.isLt N_1
  have key : ∀ (s s' : Fin (cfg1 a).N), ((cfg1 a).win 2).index s ≠ ((cfg1 a).win 2).index s' ↔ s.val % 49 ≠ s'.val % 49 :=
    fun s s' => by rw [idx1_2, idx1_2]; exact vec2_ne
  unfold Pipeline.Window.fetch
  rw [show ((cfg1 a).win 2).isOut = false from rfl, Bool.not_false, Bool.true_and, Bool.or_eq_true, decide_eq_true_eq, decide_eq_true_eq]
  by_cases hl : t.val = 0
  · exact .inl hl
  · exact .inr ⟨by omega, (key t ⟨t.val - 1, by omega⟩).mpr (by dsimp only; omega)⟩

/-! ## The body's guards on the inner coordinate -/

/-- The first guard (reset the accumulator) as the kernel computes it. -/
abbrev cond1 (i : grid1.Coords) : Prop :=
  Scalar.cmpi .ne (Scalar.extui (Scalar.cmpi .eq (BitVec.ofNat 32 (i 1).val) 0#32)) 0#32 = 1#1

theorem cond1_fin : ∀ j : Fin 49, (Scalar.cmpi .ne (Scalar.extui (Scalar.cmpi .eq (BitVec.ofNat 32 j.val) 0#32)) 0#32 = 1#1) ↔ j.val = 0 := by decide
theorem cond3_fin : ∀ j : Fin 49, (Scalar.cmpi .ne (Scalar.extui (Scalar.cmpi .eq (BitVec.ofNat 32 j.val) 48#32)) 0#32 = 1#1) ↔ j.val = 48 := by decide

/-- It holds exactly where the node tile is the first. -/
theorem cond1_iff (i : grid1.Coords) : cond1 i ↔ (i 1).val = 0 := cond1_fin (i 1)
/-- The third guard (store the output) holds exactly where the node tile is the last. -/
theorem k1_cond3_iff' (i : grid1.Coords) : k1_cond3 i = 1#1 ↔ (i 1).val = 48 := cond3_fin (i 1)
theorem k1_cond3_iff (t : Fin grid1.N) : k1_cond3 (grid1.coords t) = 1#1 ↔ t.val % 49 = 48 := by
  rw [← coords1_1]; exact cond3_fin (grid1.coords t 1)

/-- The output window is idle exactly where the third guard fails. -/
theorem idle1_3 (t : Fin (cfg1 a).N) : (cfg1 a).idle 3 (grid1.coords t) = true ↔ t.val % 49 ≠ 48 := by
  show (!(k1_cond3 (grid1.coords t) == 1#1)) = true ↔ _
  rw [Bool.not_eq_true', beq_eq_false_iff_ne, ne_eq, k1_cond3_iff]

theorem idle1_3_of (i : grid1.Coords) (h : ¬ k1_cond3 i = 1#1) : (cfg1 a).idle 3 i = true := by
  show (!(k1_cond3 i == 1#1)) = true
  rw [Bool.not_eq_true', beq_eq_false_iff_ne]; exact h
theorem live1_3_of (i : grid1.Coords) (h : k1_cond3 i = 1#1) : (cfg1 a).idle 3 i = false := by
  show (!(k1_cond3 i == 1#1)) = false
  rw [Bool.not_eq_false', beq_iff_eq]; exact h

/-- The inputs are never idle. -/
theorem live1_0 (i : grid1.Coords) : (cfg1 a).idle 0 i = false := rfl
theorem live1_1 (i : grid1.Coords) : (cfg1 a).idle 1 i = false := rfl
theorem live1_2 (i : grid1.Coords) : (cfg1 a).idle 2 i = false := rfl

/-- Where the output is idle it is not written back. -/
theorem noflush1_3 (t : Fin (cfg1 a).N) (h : ¬ k1_cond3 (grid1.coords t) = 1#1) : ((cfg1 a).win 3).flush t = false := by
  rw [Bool.eq_false_iff, ne_eq, flush1_3, ← k1_cond3_iff]; exact h

end Cert.Kernel.R1

end
-- ==== Proof.K.R1Runs.lean ====
import proofs.«417346_j54202487276072_2_alg».proof.Proof.Gen.Kernel.Launch
import proofs.«417346_j54202487276072_2_alg».proof.Proof.Gen.Kernel.Skeleton
import proofs.«417346_j54202487276072_2_alg».proof.Proof.K.R1Sched
import Idealize.ShloMosaic.Lib.Pipeline.FrameBody
import Idealize.ShloMosaic.Lib.Pipeline.Value
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## The tables as the body is handed them; the step's condition -/

abbrev tbMin1 : Memref sig .tc .smem S391 .i32 := Memref.whole main_v68
abbrev htbMin1 : (tbMin1).IsWhole := Memref.isWhole_whole _
abbrev tbMax1 : Memref sig .tc .smem S391 .i32 := Memref.whole main_v70
abbrev htbMax1 : (tbMax1).IsWhole := Memref.isWhole_whole _

/-- A table's buffer contents on core `c`, and the table held whole at them. -/
abbrev TbBuf1 (c : Dev nD) (M : Memref sig .tc .smem S391 .i32) : Type := Buf (Elt F) (M.view.loc (c : Thread nD τ))
abbrev tbPt1 (c : Dev nD) (M : Memref sig .tc .smem S391 .i32) (f : TbBuf1 (F := F) c M) : sProp 𝕄 :=
  M.view.loc (c : Thread nD τ) ↦{fullShare} f

/-- The word of table `M` the body loads at point `i` (the entry of the point's edge tile), over contents `f`. -/
abbrev wd1 (M : Memref sig .tc .smem S391 .i32) (f : M.view.ty.Contents (Elt F)) (i : grid1.Coords) : Elt F .i32 :=
  M.view.readAt (Elt F) (Rect.unit (s := S391) (k1_off1 i) S1.size (k1_off1_inb i)).toLoadRect f (Shape.Idx.first (numel1_S1.symm ▸ Nat.one_pos))

/-- The condition of the accumulation step as the body computes it: the node tile `[2048 i₁, 2048 i₁ + 2048)` meets
    the range `[mn, mx]` of sources in the edge tile (signed comparisons on the two table words). -/
def k1_act (i : grid1.Coords) (mx mn : Elt F .i32) : BitVec 1 :=
  let arg1 : BitVec 32 := BitVec.ofNat 32 (i 1).val
  let v3 : BitVec 32 := Scalar.muli arg1 2048#32
  let v4 : BitVec 32 := Scalar.addi v3 2048#32
  let v7 : BitVec 1 := Scalar.cmpi .sle v3 mx
  let v10 : BitVec 1 := Scalar.cmpi .sgt v4 mn
  let v11 : BitVec 1 := Scalar.andi v7 v10
  let v12 : BitVec 32 := Scalar.extui v11
  Scalar.cmpi .ne v12 0#32

/-! ## Whole-buffer loads and stores -/

theorem z1 : (![0] : Fin 1 → Nat) = fun _ => 0 := by funext a; fin_cases a; rfl
theorem z2 : (![0, 0] : Fin 2 → Nat) = fun _ => 0 := by funext a; fin_cases a <;> rfl

/-- A load through the whole-shape rectangle at zero offsets reads the memref's contents. -/
theorem rdU (S : Shape) {e : EltTy} {κ : Kind} {sp : Space} (v : View sig κ sp S e) {off : Fin S.rank → Nat} (h : off = fun _ => 0)
    (inb : ∀ a, off a + S.size a ≤ S.size a) (f : v.ty.Contents (Elt F)) :
    v.readAt (Elt F) (Rect.unit off S.size inb).toLoadRect f = v.read (Elt F) f :=
  View.ld_unit_zero h inb _

/-- Every index lies in the whole-shape rectangle: a list of stores headed by one through it covers the buffer. -/
theorem covU (S : Shape) {e : EltTy} {off : Fin S.rank → Nat} (h : off = fun _ => 0) (inb : ∀ a, off a + S.size a ≤ S.size a)
    (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons.mpr (Or.inl rfl), View.mem_set_unit_zero h inb y⟩

/-- A load through it of what the run's stores left, the last of them through it, reads that store's payload. -/
theorem rcU (S : Shape) {e : EltTy} {κ : Kind} {sp : Space} (v : View sig κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (covU S h inb w L), View.canon_cons_unit_zero h, View.ld_unit_zero h]

/-- The buffer read back after the run's stores, the last of them through the whole-shape rectangle: its payload. -/
theorem rwU (S : Shape) {e : EltTy} {κ : Kind} {sp : Space} (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (covU S h inb w L), View.canon_cons_unit_zero h]

/-- The inputs' staging memrefs at their blocks and the two tables at their contents: what every case of the body
    is handed and hands back untouched. -/
def kin1 (c : Dev nD) (arg4 : Memref sig .tc .vmem S4096 .i32) (arg5 : Memref sig .tc .vmem S4096 .f32)
    (arg6 : Memref sig .tc .vmem S2048x16 .f32)
    (x0 : Vec F S4096 .i32) (x1 : Vec F S4096 .f32) (x2 : Vec F S2048x16 .f32)
    (xt0 : TbBuf1 (F := F) c tbMin1) (xt1 : TbBuf1 (F := F) c tbMax1) : sProp 𝕄 :=
  iprop(owns (c : Thread nD τ) arg4 fullShare x0 ∗ owns (c : Thread nD τ) arg5 fullShare x1 ∗ owns (c : Thread nD τ) arg6 fullShare x2
    ∗ tbPt1 c tbMin1 xt0 ∗ tbPt1 c tbMax1 xt1)

/-! ## The body, case by case

The body has three conditionals: on the point's node tile being the first (the scratch is reset to zero), on the two
table words (the accumulation step), on the node tile being the last (the output block is stored). First and last
exclude each other on this grid, which leaves six cases. In each the printed function is its skeleton, run
operation by operation; every load and store is through a whole staging memref. The tables' words are never
evaluated: the case's hypothesis on them decides the middle conditional. -/

set_option maxHeartbeats 1000000 in
/-- First node tile, step taken: the scratch ends at the step applied to zero; the output's buffer is untouched. -/
theorem run1_FA (c : Dev nD) (i : grid1.Coords)
    (arg4 : Memref sig .tc .vmem S4096 .i32) (harg4 : arg4.IsWhole) (arg5 : Memref sig .tc .vmem S4096 .f32) (harg5 : arg5.IsWhole)
    (arg6 : Memref sig .tc .vmem S2048x16 .f32) (harg6 : arg6.IsWhole) (arg7 : Memref sig .tc .vmem S4096x16 .f32) (harg7 : arg7.IsWhole)
    (arg8 : Memref sig .tc .vmem S4096x16 .f32) (harg8 : arg8.IsWhole)
    (x0 : Vec F S4096 .i32) (x1 : Vec F S4096 .f32) (x2 : Vec F S2048x16 .f32)
    (xt0 : TbBuf1 (F := F) c tbMin1) (xt1 : TbBuf1 (F := F) c tbMax1)
    (hc1 : cond1 i) (hc2 : k1_act (F := F) i (wd1 tbMax1 xt1 i) (wd1 tbMin1 xt0 i) = 1#1) (hc3 : ¬ k1_cond3 i = 1#1)
    (xo : Vec F S4096x16 .f32) (E : Set ℕ) (K : PUnit → sProp 𝕄) :
    iprop(kin1 c arg4 arg5 arg6 x0 x1 x2 xt0 xt1
        ∗ (∃ d, owns (c : Thread nD τ) arg8 fullShare d) ∗ owns (c : Thread nD τ) arg7 fullShare xo
        ∗ (iprop(kin1 c arg4 arg5 arg6 x0 x1 x2 xt0 xt1
            ∗ owns (c : Thread nD τ) arg8 fullShare (k1_pay2 i x0 (k1_pay1 (F := F)) x2) ∗ owns (c : Thread nD τ) arg7 fullShare xo) -∗ K ⟨⟩))
      ⊢ wp frame (wpE (defs₀ (F := F)) Variants.none c none) E
          (cc1__gather_kernel i tbMin1 htbMin1 tbMax1 htbMax1 arg4 harg4 arg5 harg5 arg6 harg6 arg7 harg7 arg8 harg8) K := by
  simp only [cc1__gather_kernel_eq_skeleton]; unfold cc1__gather_kernel_skel
  unfold kin1 owns
  iintro ⟨⟨⟨%f0, %hf0, H0⟩, ⟨%f1, %hf1, H1⟩, ⟨%f2, %hf2, H2⟩, HT0, HT1⟩, ⟨%ds, %fs, -, HS⟩, ⟨%f9, %hf9, H9⟩, Hk⟩
  subst hf0 hf1 hf2 hf9
  sl_exec (disch := first | sl_exact hc1 | sl_exact hc2 | sl_exact hc3)
  sl_step
  iapply Hk
  isplitl [H0 H1 H2 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [HT0]; · iexact HT0
    iexact HT1
  isplitl [HS]
  · iexists _; isplitr; swap; · iexact HS
    ipureintro
    -- the second store's payload read the first store's back
    rw [rwU S4096x16 _ _ z2]
    unfold run1_FA.sl.v29 run1_FA.sl.HS_1
    simp only [rcU S4096x16 _ z2, rdU S4096 _ z1, rdU S2048x16 _ z2]
  iexists f9; isplitr; · ipureintro; rfl
  iexact H9

set_option maxHeartbeats 1000000 in
/-- First node tile, step skipped: the scratch ends at zero; the output's buffer is untouched. -/
theorem run1_FI (c : Dev nD) (i : grid1.Coords)
    (arg4 : Memref sig .tc .vmem S4096 .i32) (harg4 : arg4.IsWhole) (arg5 : Memref sig .tc .vmem S4096 .f32) (harg5 : arg5.IsWhole)
    (arg6 : Memref sig .tc .vmem S2048x16 .f32) (harg6 : arg6.IsWhole) (arg7 : Memref sig .tc .vmem S4096x16 .f32) (harg7 : arg7.IsWhole)
    (arg8 : Memref sig .tc .vmem S4096x16 .f32) (harg8 : arg8.IsWhole)
    (x0 : Vec F S4096 .i32) (x1 : Vec F S4096 .f32) (x2 : Vec F S2048x16 .f32)
    (xt0 : TbBuf1 (F := F) c tbMin1) (xt1 : TbBuf1 (F := F) c tbMax1)
    (hc1 : cond1 i) (hc2 : ¬ k1_act (F := F) i (wd1 tbMax1 xt1 i) (wd1 tbMin1 xt0 i) = 1#1) (hc3 : ¬ k1_cond3 i = 1#1)
    (xo : Vec F S4096x16 .f32) (E : Set ℕ) (K : PUnit → sProp 𝕄) :
    iprop(kin1 c arg4 arg5 arg6 x0 x1 x2 xt0 xt1
        ∗ (∃ d, owns (c : Thread nD τ) arg8 fullShare d) ∗ owns (c : Thread nD τ) arg7 fullShare xo
        ∗ (iprop(kin1 c arg4 arg5 arg6 x0 x1 x2 xt0 xt1
            ∗ owns (c : Thread nD τ) arg8 fullShare (k1_pay1 (F := F)) ∗ owns (c : Thread nD τ) arg7 fullShare xo) -∗ K ⟨⟩))
      ⊢ wp frame (wpE (defs₀ (F := F)) Variants.none c none) E
          (cc1__gather_kernel i tbMin1 htbMin1 tbMax1 htbMax1 arg4 harg4 arg5 harg5 arg6 harg6 arg7 harg7 arg8 harg8) K := by
  simp only [cc1__gather_kernel_eq_skeleton]; unfold cc1__gather_kernel_skel
  unfold kin1 owns
  iintro ⟨⟨⟨%f0, %hf0, H0⟩, ⟨%f1, %hf1, H1⟩, ⟨%f2, %hf2, H2⟩, HT0, HT1⟩, ⟨%ds, %fs, -, HS⟩, ⟨%f9, %hf9, H9⟩, Hk⟩
  subst hf0 hf1 hf2 hf9
  sl_exec (disch := first | sl_exact hc1 | sl_exact hc2 | sl_exact hc3)
  sl_step
  iapply Hk
  isplitl [H0 H1 H2 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [HT0]; · iexact HT0
    iexact HT1
  isplitl [HS]
  · iexists _; isplitr; swap; · iexact HS
    ipureintro
    rw [rwU S4096x16 _ _ z2]
  iexists f9; isplitr; · ipureintro; rfl
  iexact H9

set_option maxHeartbeats 1000000 in
/-- A middle node tile, step taken: the scratch ends at the step applied to what it held; the output's buffer is
    untouched. -/
theorem run1_MA (c : Dev nD) (i : grid1.Coords)
    (arg4 : Memref sig .tc .vmem S4096 .i32) (harg4 : arg4.IsWhole) (arg5 : Memref sig .tc .vmem S4096 .f32) (harg5 : arg5.IsWhole)
    (arg6 : Memref sig .tc .vmem S2048x16 .f32) (harg6 : arg6.IsWhole) (arg7 : Memref sig .tc .vmem S4096x16 .f32) (harg7 : arg7.IsWhole)
    (arg8 : Memref sig .tc .vmem S4096x16 .f32) (harg8 : arg8.IsWhole)
    (x0 : Vec F S4096 .i32) (x1 : Vec F S4096 .f32) (x2 : Vec F S2048x16 .f32)
    (xt0 : TbBuf1 (F := F) c tbMin1) (xt1 : TbBuf1 (F := F) c tbMax1)
    (hc1 : ¬ cond1 i) (hc2 : k1_act (F := F) i (wd1 tbMax1 xt1 i) (wd1 tbMin1 xt0 i) = 1#1) (hc3 : ¬ k1_cond3 i = 1#1)
    (xs xo : Vec F S4096x16 .f32) (E : Set ℕ) (K : PUnit → sProp 𝕄) :
    iprop(kin1 c arg4 arg5 arg6 x0 x1 x2 xt0 xt1
        ∗ owns (c : Thread nD τ) arg8 fullShare xs ∗ owns (c : Thread nD τ) arg7 fullShare xo
        ∗ (iprop(kin1 c arg4 arg5 arg6 x0 x1 x2 xt0 xt1
            ∗ owns (c : Thread nD τ) arg8 fullShare (k1_pay2 i x0 xs x2) ∗ owns (c : Thread nD τ) arg7 fullShare xo) -∗ K ⟨⟩))
      ⊢ wp frame (wpE (defs₀ (F := F)) Variants.none c none) E
          (cc1__gather_kernel i tbMin1 htbMin1 tbMax1 htbMax1 arg4 harg4 arg5 harg5 arg6 harg6 arg7 harg7 arg8 harg8) K := by
  simp only [cc1__gather_kernel_eq_skeleton]; unfold cc1__gather_kernel_skel
  unfold kin1 owns
  iintro ⟨⟨⟨%f0, %hf0, H0⟩, ⟨%f1, %hf1, H1⟩, ⟨%f2, %hf2, H2⟩, HT0, HT1⟩, ⟨%fs, %hfs, HS⟩, ⟨%f9, %hf9, H9⟩, Hk⟩
  subst hf0 hf1 hf2 hfs hf9
  sl_exec (disch := first | sl_exact hc1 | sl_exact hc2 | sl_exact hc3)
  sl_step
  iapply Hk
  isplitl [H0 H1 H2 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [HT0]; · iexact HT0
    iexact HT1
  isplitl [HS]
  · iexists _; isplitr; swap; · iexact HS
    ipureintro
    rw [rwU S4096x16 _ _ z2]
    simp only [rdU S4096 _ z1, rdU S4096x16 _ z2, rdU S2048x16 _ z2]
  iexists f9; isplitr; · ipureintro; rfl
  iexact H9

set_option maxHeartbeats 1000000 in
/-- A middle node tile, step skipped: nothing is stored. -/
theorem run1_MI (c : Dev nD) (i : grid1.Coords)
    (arg4 : Memref sig .tc .vmem S4096 .i32) (harg4 : arg4.IsWhole) (arg5 : Memref sig .tc .vmem S4096 .f32) (harg5 : arg5.IsWhole)
    (arg6 : Memref sig .tc .vmem S2048x16 .f32) (harg6 : arg6.IsWhole) (arg7 : Memref sig .tc .vmem S4096x16 .f32) (harg7 : arg7.IsWhole)
    (arg8 : Memref sig .tc .vmem S4096x16 .f32) (harg8 : arg8.IsWhole)
    (x0 : Vec F S4096 .i32) (x1 : Vec F S4096 .f32) (x2 : Vec F S2048x16 .f32)
    (xt0 : TbBuf1 (F := F) c tbMin1) (xt1 : TbBuf1 (F := F) c tbMax1)
    (hc1 : ¬ cond1 i) (hc2 : ¬ k1_act (F := F) i (wd1 tbMax1 xt1 i) (wd1 tbMin1 xt0 i) = 1#1) (hc3 : ¬ k1_cond3 i = 1#1)
    (xs xo : Vec F S4096x16 .f32) (E : Set ℕ) (K : PUnit → sProp 𝕄) :
    iprop(kin1 c arg4 arg5 arg6 x0 x1 x2 xt0 xt1
        ∗ owns (c : Thread nD τ) arg8 fullShare xs ∗ owns (c : Thread nD τ) arg7 fullShare xo
        ∗ (iprop(kin1 c arg4 arg5 arg6 x0 x1 x2 xt0 xt1
            ∗ owns (c : Thread nD τ) arg8 fullShare xs ∗ owns (c : Thread nD τ) arg7 fullShare xo) -∗ K ⟨⟩))
      ⊢ wp frame (wpE (defs₀ (F := F)) Variants.none c none) E
          (cc1__gather_kernel i tbMin1 htbMin1 tbMax1 htbMax1 arg4 harg4 arg5 harg5 arg6 harg6 arg7 harg7 arg8 harg8) K := by
  simp only [cc1__gather_kernel_eq_skeleton]; unfold cc1__gather_kernel_skel
  unfold kin1 owns
  iintro ⟨⟨⟨%f0, %hf0, H0⟩, ⟨%f1, %hf1, H1⟩, ⟨%f2, %hf2, H2⟩, HT0, HT1⟩, ⟨%fs, %hfs, HS⟩, ⟨%f9, %hf9, H9⟩, Hk⟩
  subst hf0 hf1 hf2 hfs hf9
  sl_exec (disch := first | sl_exact hc1 | sl_exact hc2 | sl_exact hc3)
  sl_step
  iapply Hk
  isplitl [H0 H1 H2 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [HT0]; · iexact HT0
    iexact HT1
  isplitl [HS]
  · iexists fs; isplitr; · ipureintro; rfl
    iexact HS
  iexists f9; isplitr; · ipureintro; rfl
  iexact H9

set_option maxHeartbeats 1000000 in
/-- Last node tile, step taken: the scratch ends at the step applied to what it held, and the output's buffer at
    that scaled by the edge norms. -/
theorem run1_LA (c : Dev nD) (i : grid1.Coords)
    (arg4 : Memref sig .tc .vmem S4096 .i32) (harg4 : arg4.IsWhole) (arg5 : Memref sig .tc .vmem S4096 .f32) (harg5 : arg5.IsWhole)
    (arg6 : Memref sig .tc .vmem S2048x16 .f32) (harg6 : arg6.IsWhole) (arg7 : Memref sig .tc .vmem S4096x16 .f32) (harg7 : arg7.IsWhole)
    (arg8 : Memref sig .tc .vmem S4096x16 .f32) (harg8 : arg8.IsWhole)
    (x0 : Vec F S4096 .i32) (x1 : Vec F S4096 .f32) (x2 : Vec F S2048x16 .f32)
    (xt0 : TbBuf1 (F := F) c tbMin1) (xt1 : TbBuf1 (F := F) c tbMax1)
    (hc1 : ¬ cond1 i) (hc2 : k1_act (F := F) i (wd1 tbMax1 xt1 i) (wd1 tbMin1 xt0 i) = 1#1) (hc3 : k1_cond3 i = 1#1)
    (xs : Vec F S4096x16 .f32) (E : Set ℕ) (K : PUnit → sProp 𝕄) :
    iprop(kin1 c arg4 arg5 arg6 x0 x1 x2 xt0 xt1
        ∗ owns (c : Thread nD τ) arg8 fullShare xs ∗ (∃ d, owns (c : Thread nD τ) arg7 fullShare d)
        ∗ (iprop(kin1 c arg4 arg5 arg6 x0 x1 x2 xt0 xt1
            ∗ owns (c : Thread nD τ) arg8 fullShare (k1_pay2 i x0 xs x2)
            ∗ owns (c : Thread nD τ) arg7 fullShare (k1_pay3 x1 (k1_pay2 i x0 xs x2))) -∗ K ⟨⟩))
      ⊢ wp frame (wpE (defs₀ (F := F)) Variants.none c none) E
          (cc1__gather_kernel i tbMin1 htbMin1 tbMax1 htbMax1 arg4 harg4 arg5 harg5 arg6 harg6 arg7 harg7 arg8 harg8) K := by
  simp only [cc1__gather_kernel_eq_skeleton]; unfold cc1__gather_kernel_skel
  unfold kin1 owns
  iintro ⟨⟨⟨%f0, %hf0, H0⟩, ⟨%f1, %hf1, H1⟩, ⟨%f2, %hf2, H2⟩, HT0, HT1⟩, ⟨%fs, %hfs, HS⟩, ⟨%d9, %f9, -, H9⟩, Hk⟩
  subst hf0 hf1 hf2 hfs
  sl_exec (disch := first | sl_exact hc1 | sl_exact hc2 | sl_exact hc3)
  sl_step
  iapply Hk
  isplitl [H0 H1 H2 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [HT0]; · iexact HT0
    iexact HT1
  isplitl [HS]
  · iexists _; isplitr; swap; · iexact HS
    ipureintro
    unfold run1_LA.sl.HS_1
    rw [rwU S4096x16 _ _ z2]
    simp only [rdU S4096 _ z1, rdU S4096x16 _ z2, rdU S2048x16 _ z2]
  iexists _; isplitr; swap; · iexact H9
  ipureintro
  -- the last conditional's load read the step's store back
  rw [rwU S4096x16 _ _ z2]
  unfold run1_LA.sl.v20 run1_LA.sl.HS_1
  simp only [rcU S4096x16 _ z2, rdU S4096 _ z1, rdU S4096x16 _ z2, rdU S2048x16 _ z2]

set_option maxHeartbeats 1000000 in
/-- Last node tile, step skipped: the scratch keeps what it held, and the output's buffer ends at that scaled by the
    edge norms. -/
theorem run1_LI (c : Dev nD) (i : grid1.Coords)
    (arg4 : Memref sig .tc .vmem S4096 .i32) (harg4 : arg4.IsWhole) (arg5 : Memref sig .tc .vmem S4096 .f32) (harg5 : arg5.IsWhole)
    (arg6 : Memref sig .tc .vmem S2048x16 .f32) (harg6 : arg6.IsWhole) (arg7 : Memref sig .tc .vmem S4096x16 .f32) (harg7 : arg7.IsWhole)
    (arg8 : Memref sig .tc .vmem S4096x16 .f32) (harg8 : arg8.IsWhole)
    (x0 : Vec F S4096 .i32) (x1 : Vec F S4096 .f32) (x2 : Vec F S2048x16 .f32)
    (xt0 : TbBuf1 (F := F) c tbMin1) (xt1 : TbBuf1 (F := F) c tbMax1)
    (hc1 : ¬ cond1 i) (hc2 : ¬ k1_act (F := F) i (wd1 tbMax1 xt1 i) (wd1 tbMin1 xt0 i) = 1#1) (hc3 : k1_cond3 i = 1#1)
    (xs : Vec F S4096x16 .f32) (E : Set ℕ) (K : PUnit → sProp 𝕄) :
    iprop(kin1 c arg4 arg5 arg6 x0 x1 x2 xt0 xt1
        ∗ owns (c : Thread nD τ) arg8 fullShare xs ∗ (∃ d, owns (c : Thread nD τ) arg7 fullShare d)
        ∗ (iprop(kin1 c arg4 arg5 arg6 x0 x1 x2 xt0 xt1
            ∗ owns (c : Thread nD τ) arg8 fullShare xs ∗ owns (c : Thread nD τ) arg7 fullShare (k1_pay3 x1 xs)) -∗ K ⟨⟩))
      ⊢ wp frame (wpE (defs₀ (F := F)) Variants.none c none) E
          (cc1__gather_kernel i tbMin1 htbMin1 tbMax1 htbMax1 arg4 harg4 arg5 harg5 arg6 harg6 arg7 harg7 arg8 harg8) K := by
  simp only [cc1__gather_kernel_eq_skeleton]; unfold cc1__gather_kernel_skel
  unfold kin1 owns
  iintro ⟨⟨⟨%f0, %hf0, H0⟩, ⟨%f1, %hf1, H1⟩, ⟨%f2, %hf2, H2⟩, HT0, HT1⟩, ⟨%fs, %hfs, HS⟩, ⟨%d9, %f9, -, H9⟩, Hk⟩
  subst hf0 hf1 hf2 hfs
  sl_exec (disch := first | sl_exact hc1 | sl_exact hc2 | sl_exact hc3)
  sl_step
  iapply Hk
  isplitl [H0 H1 H2 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [HT0]; · iexact HT0
    iexact HT1
  isplitl [HS]
  · iexists fs; isplitr; · ipureintro; rfl
    iexact HS
  iexists _; isplitr; swap; · iexact H9
  ipureintro
  rw [rwU S4096x16 _ _ z2]
  simp only [rdU S4096 _ z1, rdU S4096x16 _ z2]

end Cert.Kernel.R1

end
-- ==== Proof.K.R1Frame.lean ====
import proofs.«417346_j54202487276072_2_alg».proof.Proof.K.R1Sched
import proofs.«417346_j54202487276072_2_alg».proof.Proof.K.R1Runs
import Idealize.ShloMosaic.Lib.Pipeline.FrameBody
import Idealize.ShloMosaic.Lib.Pipeline.Frame

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

-- the buffer contents when the region is entered, and the admissible tables: both parameters, never evaluated
variable (V : (c : Dev nD) → (b : Ref sig .tc) → Buf (Elt F) ((c : Thread nD τ).loc b)) (a : (pcfg1 (F := F)).Adm)

/-! # The gather region (custom_call 1) at entry contents `V` and tables `a`

The scratch carries, along each edge tile's run of node tiles, the sum over the node tiles whose range meets the
edge tile's sources of the rows gathered there; the output block is the scratch scaled by the edge norms at the
last node tile. -/

/-! ## The windows' blocks and the table words -/

/-- Window `w`'s block at point `t`, read off its array as the region finds it. -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- The three input blocks at their vector types (no window is cut: a block's shape is its window's). -/
abbrev srcB (c : Dev nD) (t : Fin (cfg1 a).N) : Vec F S4096 .i32 := iblk1 V a c 0 t
abbrev normB (c : Dev nD) (t : Fin (cfg1 a).N) : Vec F S4096 .f32 := iblk1 V a c 1 t
abbrev hwB (c : Dev nD) (t : Fin (cfg1 a).N) : Vec F S2048x16 .f32 := iblk1 V a c 2 t

/-- The two table words the body loads at point `i`: the least and the greatest source in the edge tile. -/
abbrev wMin1 (i : grid1.Coords) : Elt F .i32 := wd1 tbMin1 (a.1 0) i
abbrev wMax1 (i : grid1.Coords) : Elt F .i32 := wd1 tbMax1 (a.1 1) i

/-- The accumulation step is taken at point `i`. -/
abbrev act1 (i : grid1.Coords) : Prop := k1_act (F := F) i (wMax1 a i) (wMin1 a i) = 1#1

/-! ## The scratch, point by point -/

/-- One point's effect on the scratch from what it held (`prev`): reset to zero at the first node tile, then the
    step if its condition holds. -/
def step1 (i : grid1.Coords) (prev : Vec F S4096x16 .f32) (src : Vec F S4096 .i32) (hw : Vec F S2048x16 .f32) : Vec F S4096x16 .f32 :=
  if act1 a i then k1_pay2 i src (if (i 1).val = 0 then k1_pay1 (F := F) else prev) hw
  else (if (i 1).val = 0 then k1_pay1 (F := F) else prev)

/-- What the scratch holds after the body at point `n`. -/
def accAt1 (c : Dev nD) : (n : ℕ) → n < (cfg1 a).N → Vec F S4096x16 .f32
  | 0, h => step1 a (grid1.coords ⟨0, h⟩) (k1_pay1 (F := F)) (srcB V a c ⟨0, h⟩) (hwB V a c ⟨0, h⟩)
  | n + 1, h => step1 a (grid1.coords ⟨n + 1, h⟩) (accAt1 c n (Nat.lt_of_succ_lt h)) (srcB V a c ⟨n + 1, h⟩) (hwB V a c ⟨n + 1, h⟩)

/-- At a first node tile the scratch restarts from zero. -/
theorem accAt1_first (c : Dev nD) (t : Fin (cfg1 a).N) (hk : (grid1.coords t 1).val = 0) :
    accAt1 V a c t.val t.isLt
      = if act1 a (grid1.coords t) then k1_pay2 (grid1.coords t) (srcB V a c t) (k1_pay1 (F := F)) (hwB V a c t)
        else k1_pay1 (F := F) := by
  obtain ⟨n, hn⟩ := t
  cases n with
  | zero => show step1 a _ _ _ _ = _; unfold step1; simp only [if_pos hk]
  | succ n => show step1 a _ _ _ _ = _; unfold step1; simp only [if_pos hk]

/-- At a later node tile it continues from the point before. -/
theorem accAt1_next (c : Dev nD) (t : Fin (cfg1 a).N) (hk : (grid1.coords t 1).val ≠ 0) :
    accAt1 V a c t.val t.isLt
      = if act1 a (grid1.coords t)
        then k1_pay2 (grid1.coords t) (srcB V a c t) (accAt1 V a c (t.val - 1) (Nat.lt_of_le_of_lt (Nat.sub_le _ _) t.isLt)) (hwB V a c t)
        else accAt1 V a c (t.val - 1) (Nat.lt_of_le_of_lt (Nat.sub_le _ _) t.isLt) := by
  obtain ⟨n, hn⟩ := t
  cases n with
  | zero => exact absurd (by rw [coords1_1]; rfl) hk
  | succ n => show step1 a _ _ _ _ = _; unfold step1; simp only [if_neg hk]; rfl

/-! ## The invariant between points -/

/-- The kernel's scratch operand: a whole scoped buffer of its own. -/
abbrev scM1 : Memref sig .tc .vmem S4096x16 .f32 := Memref.whole cc1_scratch0

/-- The scratch before point `n`: at anything before the first point, else at what the point before left. -/
def scr1 (c : Dev nD) : (n : ℕ) → n < (cfg1 a).N + 1 → sProp 𝕄
  | 0, _ => iprop(∃ d, owns (c : Thread nD τ) scM1 fullShare d)
  | n + 1, h => owns (c : Thread nD τ) scM1 fullShare (accAt1 V a c n (Nat.lt_of_succ_lt_succ h))

/-- The region's invariant before point `t`: the tables held whole at their contents, the scratch, the other scoped
    buffers unopened, the generator register at some state. -/
def Φ1 (c : Dev nD) (t : Fin ((cfg1 a).N + 1)) : sProp 𝕄 :=
  iprop(Pipeline.prefHeld (Ix := Unit) (Name := ℕ) (U := UR sig nD τ) (Lvl := ℕ) pre1 c (fun _ => fullShare) a.1
    ∗ scr1 V a c t.val t.isLt
    ∗ Pipeline.scopedRestBut (Ix := Unit) (Name := ℕ) (U := UR sig nD τ) (Lvl := ℕ) (Val := Elt F) spec1 c [cc1_scratch0]
    ∗ ∃ r, prngReg c r)

theorem scr1_ex (c : Dev nD) (n : ℕ) (h : n < (cfg1 a).N + 1) :
    scr1 V a c n h ⊢ (iprop(∃ d, owns (c : Thread nD τ) scM1 fullShare d) : sProp 𝕄) := by
  cases n with
  | zero => exact .rfl
  | succ n => show owns _ _ _ _ ⊢ _; iintro H; iexists _; iexact H

theorem scr1_pos (c : Dev nD) (n : ℕ) (h : n < (cfg1 a).N + 1) (hn : n ≠ 0) :
    scr1 V a c n h = owns (c : Thread nD τ) scM1 fullShare (accAt1 V a c (n - 1) (by omega)) := by
  cases n with
  | zero => exact absurd rfl hn
  | succ m => rfl

/-! ## The proof data -/

/-- The proof data of pipeline 1 on core `c`: the arrays as the region finds them; after the body each input's
    buffer at its block, the output's at the scratch scaled by the edge norms (consulted only where the block is
    written back: at the last node tile); the invariant `Φ1`; nothing owed; full shares. -/
def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => iblk1 V a c 2 t
    | ⟨3, _⟩ => k1_pay3 (normB V a c t) (accAt1 V a c t.val t.isLt)
  Φ t := Φ1 V a c t
  q _ := fullShare
  owed _ := 0

theorem A_eq1 (c : Dev nD) (w : Fin (cfg1 a).W) : (dat1 V a c).A w = V c (Pipeline.arrRef spec1 w) := by
  dsimp only [dat1]

theorem after1_0 (c : Dev nD) (t : Fin (cfg1 a).N) : (dat1 V a c).after 0 t = iblk1 V a c 0 t := by dsimp only [dat1]; rfl
theorem after1_1 (c : Dev nD) (t : Fin (cfg1 a).N) : (dat1 V a c).after 1 t = iblk1 V a c 1 t := by dsimp only [dat1]; rfl
theorem after1_2 (c : Dev nD) (t : Fin (cfg1 a).N) : (dat1 V a c).after 2 t = iblk1 V a c 2 t := by dsimp only [dat1]; rfl
/-- The output's buffer after the body: the scratch scaled by the edge norms (what the write-back writes at the last node tile). -/
theorem after1_3 (c : Dev nD) (t : Fin (cfg1 a).N) :
    (dat1 V a c).after 3 t = k1_pay3 (normB V a c t) (accAt1 V a c t.val t.isLt) := by dsimp only [dat1]; rfl

/-- Each input's current staging buffer holds its block at every point, fetched there or not: the body only
    reads it, the window is uncut and never idle. -/
theorem before1_0 (c : Dev nD) (t : Fin (cfg1 a).N) (d) : (dat1 V a c).before 0 t d = iblk1 V a c 0 t :=
  ((dat1 V a c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin (cfg1 a).N) (d) : (dat1 V a c).before 1 t d = iblk1 V a c 1 t :=
  ((dat1 V a c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin (cfg1 a).N) (d) : (dat1 V a c).before 2 t d = iblk1 V a c 2 t :=
  ((dat1 V a c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The invariant, opened -/

/-- The tables, one by one. -/
theorem pref1_eq (c : Dev nD) :
    (Pipeline.prefHeld (Ix := Unit) (Name := ℕ) (U := UR sig nD τ) (Lvl := ℕ) pre1 c (fun _ => fullShare) a.1 : sProp 𝕄)
      = iprop(tbPt1 c tbMin1 (a.1 0) ∗ tbPt1 c tbMax1 (a.1 1)) := by
  unfold Pipeline.prefHeld
  rw [show (Finset.univ : Finset (Fin 2)) = insert (0 : Fin 2) {(1 : Fin 2)} from by decide,
    bigSep_insert (by decide), bigSep_singleton]
  rfl

theorem Phi_cast (c : Dev nD) (t : Fin (cfg1 a).N) :
    (dat1 V a c).Φ t.castSucc
      = iprop(Pipeline.prefHeld (Ix := Unit) (Name := ℕ) (U := UR sig nD τ) (Lvl := ℕ) pre1 c (fun _ => fullShare) a.1
          ∗ scr1 V a c t.val (Nat.lt_succ_of_lt t.isLt)
          ∗ Pipeline.scopedRestBut (Ix := Unit) (Name := ℕ) (U := UR sig nD τ) (Lvl := ℕ) (Val := Elt F) spec1 c [cc1_scratch0]
          ∗ ∃ r, prngReg c r) := by
  obtain ⟨n, hn⟩ := t; rfl

theorem Phi_succ (c : Dev nD) (t : Fin (cfg1 a).N) :
    (dat1 V a c).Φ t.succ
      = iprop(Pipeline.prefHeld (Ix := Unit) (Name := ℕ) (U := UR sig nD τ) (Lvl := ℕ) pre1 c (fun _ => fullShare) a.1
          ∗ owns (c : Thread nD τ) scM1 fullShare (accAt1 V a c t.val t.isLt)
          ∗ Pipeline.scopedRestBut (Ix := Unit) (Name := ℕ) (U := UR sig nD τ) (Lvl := ℕ) (Val := Elt F) spec1 c [cc1_scratch0]
          ∗ ∃ r, prngReg c r) := by
  obtain ⟨n, hn⟩ := t; rfl

theorem owes_succ (c : Dev nD) (t : Fin (cfg1 a).N) :
    (dat1 V a c).owesAt () t.succ = (dat1 V a c).owesAt () t.castSucc := rfl

/-! ## The body at a point -/

/-- Each window's current staging memref at point `t`, spelled as the pipeline passes it, and its wholeness. -/
abbrev ms1_0 (t : Fin (cfg1 a).N) : Memref sig .tc .vmem S4096 .i32 := spec1_0.stage ((cfg1 a).slots t 0)
abbrev hs1_0 (t : Fin (cfg1 a).N) : (ms1_0 a t).IsWhole := hstage1_0 (((cfg1 a).slots t 0).cast nbuf1_0)
abbrev ms1_1 (t : Fin (cfg1 a).N) : Memref sig .tc .vmem S4096 .f32 := spec1_1.stage ((cfg1 a).slots t 1)
abbrev hs1_1 (t : Fin (cfg1 a).N) : (ms1_1 a t).IsWhole := hstage1_1 (((cfg1 a).slots t 1).cast nbuf1_1)
abbrev ms1_2 (t : Fin (cfg1 a).N) : Memref sig .tc .vmem S2048x16 .f32 := spec1_2.stage ((cfg1 a).slots t 2)
abbrev hs1_2 (t : Fin (cfg1 a).N) : (ms1_2 a t).IsWhole := hstage1_2 (((cfg1 a).slots t 2).cast nbuf1_2)
abbrev ms1_3 (t : Fin (cfg1 a).N) : Memref sig .tc .vmem S4096x16 .f32 := spec1_3.stage ((cfg1 a).slots t 3)
abbrev hs1_3 (t : Fin (cfg1 a).N) : (ms1_3 a t).IsWhole := hstage1_3 (((cfg1 a).slots t 3).cast nbuf1_3)

/-- The kernel body at point `t`, on what the pipeline calls it with. -/
abbrev bodyAt1 (t : Fin (cfg1 a).N) : Prog (TpuEff nD τ sig (Elt F) Λ₀ .tc) PUnit :=
  cc1__gather_kernel (grid1.coords t) tbMin1 htbMin1 tbMax1 htbMax1 (ms1_0 a t) (hs1_0 a t) (ms1_1 a t) (hs1_1 a t) (ms1_2 a t) (hs1_2 a t)
    (ms1_3 a t) (hs1_3 a t) scM1 (Memref.isWhole_whole _)

/-- What the body is called with at point `t`, the windows one by one, -/
def bodyPre1 (c : Dev nD) (t : Fin (cfg1 a).N) : sProp 𝕄 :=
  iprop((dat1 V a c).Φ t.castSucc ∗ (dat1 V a c).owesAt () t.castSucc
    ∗ (∃ d, owns (c : Thread nD τ) (ms1_0 a t) fullShare ((dat1 V a c).before 0 t d))
    ∗ (∃ d, owns (c : Thread nD τ) (ms1_1 a t) fullShare ((dat1 V a c).before 1 t d))
    ∗ (∃ d, owns (c : Thread nD τ) (ms1_2 a t) fullShare ((dat1 V a c).before 2 t d))
    ∗ (∃ d, owns (c : Thread nD τ) (ms1_3 a t) fullShare ((dat1 V a c).before 3 t d)))

/-- and what it returns: the output's buffer as found where the window is idle, at the scaled scratch where it is stored. -/
def bodyPost1 (c : Dev nD) (t : Fin (cfg1 a).N) : sProp 𝕄 :=
  iprop((dat1 V a c).Φ t.succ ∗ (dat1 V a c).owesAt () t.succ
    ∗ owns (c : Thread nD τ) (ms1_0 a t) fullShare ((dat1 V a c).after 0 t)
    ∗ owns (c : Thread nD τ) (ms1_1 a t) fullShare ((dat1 V a c).after 1 t)
    ∗ owns (c : Thread nD τ) (ms1_2 a t) fullShare ((dat1 V a c).after 2 t)
    ∗ (dat1 V a c).leavesExact 3 t)

/-- Where the output is stored the window is live: its buffer ends at `after`. -/
theorem leaves1_live (c : Dev nD) (t : Fin (cfg1 a).N) (h : (cfg1 a).idle 3 ((cfg1 a).grid.coords t) = false) :
    (dat1 V a c).leavesExact 3 t = owns (c : Thread nD τ) (ms1_3 a t) fullShare ((dat1 V a c).after 3 t) := by
  unfold Dat.leavesExact; rw [h]; rfl

set_option maxHeartbeats 1000000 in
/-- The body at any point. The point's place on the grid decides the first and the last conditional; the middle
    one is decided by cases on the table words, which stay variables. In each case the matching run applies: the
    inputs' memrefs hold their blocks, the scratch what the point before left (anything at a first node tile), and
    the scratch's new contents are `accAt1` at the point by its recursion. -/
theorem sound_body1 (c : Dev nD) (t : Fin (cfg1 a).N) :
    bodyPre1 V a c t ⊢ wp frame (wpE (defs₀ (F := F)) Variants.none c none) Set.univ (bodyAt1 a t) (fun _ => bodyPost1 V a c t) := by
  have hN : t.val < 19159 := lt_of_lt_of_eq t.isLt N_1
  have hk : (grid1.coords t 1).val = t.val % 49 := coords1_1 t
  unfold bodyPre1 bodyPost1
  simp only [before1_0, before1_1, before1_2]
  rw [after1_0, after1_1, after1_2, Phi_cast, Phi_succ, owes_succ, pref1_eq]
  by_cases h0 : t.val % 49 = 0
  · -- a first node tile: the scratch restarts; the output window is idle and not written back
    have hc1 : cond1 (grid1.coords t) := (cond1_iff _).mpr (hk.trans h0)
    have hc3 : ¬ k1_cond3 (grid1.coords t) = 1#1 := fun h => by have := (k1_cond3_iff' _).mp h; omega
    have hidle : (cfg1 a).idle 3 ((cfg1 a).grid.coords t) = true := idle1_3_of a (grid1.coords t) hc3
    have hfl : ((cfg1 a).win 3).flush t = false := noflush1_3 a t hc3
    rw [Dat.leavesExact_idle _ 3 t hidle hfl]
    by_cases hc2 : act1 a (grid1.coords t)
    · have hacc := accAt1_first V a c t (hk.trans h0)
      rw [if_pos hc2] at hacc
      rw [hacc]
      iintro ⟨⟨⟨HT0, HT1⟩, HS, HR, HG⟩, Ho, ⟨%d0, H0⟩, ⟨%d1, H1⟩, ⟨%d2, H2⟩, ⟨%d3, H3⟩⟩
      ihave HS' := (scr1_ex V a c _ _) $$ HS
      iapply (run1_FA c (grid1.coords t) (ms1_0 a t) (hs1_0 a t) (ms1_1 a t) (hs1_1 a t) (ms1_2 a t) (hs1_2 a t) (ms1_3 a t) (hs1_3 a t)
        scM1 (Memref.isWhole_whole _) (srcB V a c t) (normB V a c t) (hwB V a c t) (a.1 0) (a.1 1) hc1 hc2 hc3
        ((dat1 V a c).before 3 t d3) Set.univ _)
      unfold kin1
      isplitl [H0 H1 H2 HT0 HT1]
      · isplitl [H0]; · iexact H0
        isplitl [H1]; · iexact H1
        isplitl [H2]; · iexact H2
        isplitl [HT0]; · iexact HT0
        iexact HT1
      isplitl [HS']; · iexact HS'
      isplitl [H3]; · iexact H3
      iintro ⟨⟨H0, H1, H2, HT0, HT1⟩, HS, H3⟩
      isplitl [HT0 HT1 HS HR HG]
      · isplitl [HT0 HT1]
        · isplitl [HT0]; · iexact HT0
          iexact HT1
        isplitl [HS]; · iexact HS
        isplitl [HR]; · iexact HR
        iexact HG
      isplitl [Ho]; · iexact Ho
      isplitl [H0]; · iexact H0
      isplitl [H1]; · iexact H1
      isplitl [H2]; · iexact H2
      iexists d3; iexact H3
    · have hacc := accAt1_first V a c t (hk.trans h0)
      rw [if_neg hc2] at hacc
      rw [hacc]
      iintro ⟨⟨⟨HT0, HT1⟩, HS, HR, HG⟩, Ho, ⟨%d0, H0⟩, ⟨%d1, H1⟩, ⟨%d2, H2⟩, ⟨%d3, H3⟩⟩
      ihave HS' := (scr1_ex V a c _ _) $$ HS
      iapply (run1_FI c (grid1.coords t) (ms1_0 a t) (hs1_0 a t) (ms1_1 a t) (hs1_1 a t) (ms1_2 a t) (hs1_2 a t) (ms1_3 a t) (hs1_3 a t)
        scM1 (Memref.isWhole_whole _) (srcB V a c t) (normB V a c t) (hwB V a c t) (a.1 0) (a.1 1) hc1 hc2 hc3
        ((dat1 V a c).before 3 t d3) Set.univ _)
      unfold kin1
      isplitl [H0 H1 H2 HT0 HT1]
      · isplitl [H0]; · iexact H0
        isplitl [H1]; · iexact H1
        isplitl [H2]; · iexact H2
        isplitl [HT0]; · iexact HT0
        iexact HT1
      isplitl [HS']; · iexact HS'
      isplitl [H3]; · iexact H3
      iintro ⟨⟨H0, H1, H2, HT0, HT1⟩, HS, H3⟩
      isplitl [HT0 HT1 HS HR HG]
      · isplitl [HT0 HT1]
        · isplitl [HT0]; · iexact HT0
          iexact HT1
        isplitl [HS]; · iexact HS
        isplitl [HR]; · iexact HR
        iexact HG
      isplitl [Ho]; · iexact Ho
      isplitl [H0]; · iexact H0
      isplitl [H1]; · iexact H1
      isplitl [H2]; · iexact H2
      iexists d3; iexact H3
  · -- a later node tile: the scratch holds what the point before left
    have ht0 : t.val ≠ 0 := fun h => h0 (by rw [h])
    have hc1 : ¬ cond1 (grid1.coords t) := fun h => h0 (hk.symm.trans ((cond1_iff _).mp h))
    have hk' : (grid1.coords t 1).val ≠ 0 := fun h => h0 (hk.symm.trans h)
    rw [scr1_pos V a c t.val _ ht0]
    by_cases hL : t.val % 49 = 48
    · -- the last node tile: the output block is stored, and written back
      have hc3 : k1_cond3 (grid1.coords t) = 1#1 := (k1_cond3_iff' _).mpr (hk.trans hL)
      have hlive : (cfg1 a).idle 3 ((cfg1 a).grid.coords t) = false := live1_3_of a (grid1.coords t) hc3
      rw [leaves1_live V a c t hlive, after1_3]
      by_cases hc2 : act1 a (grid1.coords t)
      · have hacc := accAt1_next V a c t hk'
        rw [if_pos hc2] at hacc
        rw [hacc]
        iintro ⟨⟨⟨HT0, HT1⟩, HS, HR, HG⟩, Ho, ⟨%d0, H0⟩, ⟨%d1, H1⟩, ⟨%d2, H2⟩, ⟨%d3, H3⟩⟩
        iapply (run1_LA c (grid1.coords t) (ms1_0 a t) (hs1_0 a t) (ms1_1 a t) (hs1_1 a t) (ms1_2 a t) (hs1_2 a t) (ms1_3 a t) (hs1_3 a t)
          scM1 (Memref.isWhole_whole _) (srcB V a c t) (normB V a c t) (hwB V a c t) (a.1 0) (a.1 1) hc1 hc2 hc3
          (accAt1 V a c (t.val - 1) (Nat.lt_of_le_of_lt (Nat.sub_le _ _) t.isLt)) Set.univ _)
        unfold kin1
        isplitl [H0 H1 H2 HT0 HT1]
        · isplitl [H0]; · iexact H0
          isplitl [H1]; · iexact H1
          isplitl [H2]; · iexact H2
          isplitl [HT0]; · iexact HT0
          iexact HT1
        isplitl [HS]; · iexact HS
        isplitl [H3]; · iexists _; iexact H3
        iintro ⟨⟨H0, H1, H2, HT0, HT1⟩, HS, H3⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        iexact H3
      · have hacc := accAt1_next V a c t hk'
        rw [if_neg hc2] at hacc
        rw [hacc]
        iintro ⟨⟨⟨HT0, HT1⟩, HS, HR, HG⟩, Ho, ⟨%d0, H0⟩, ⟨%d1, H1⟩, ⟨%d2, H2⟩, ⟨%d3, H3⟩⟩
        iapply (run1_LI c (grid1.coords t) (ms1_0 a t) (hs1_0 a t) (ms1_1 a t) (hs1_1 a t) (ms1_2 a t) (hs1_2 a t) (ms1_3 a t) (hs1_3 a t)
          scM1 (Memref.isWhole_whole _) (srcB V a c t) (normB V a c t) (hwB V a c t) (a.1 0) (a.1 1) hc1 hc2 hc3
          (accAt1 V a c (t.val - 1) (Nat.lt_of_le_of_lt (Nat.sub_le _ _) t.isLt)) Set.univ _)
        unfold kin1
        isplitl [H0 H1 H2 HT0 HT1]
        · isplitl [H0]; · iexact H0
          isplitl [H1]; · iexact H1
          isplitl [H2]; · iexact H2
          isplitl [HT0]; · iexact HT0
          iexact HT1
        isplitl [HS]; · iexact HS
        isplitl [H3]; · iexists _; iexact H3
        iintro ⟨⟨H0, H1, H2, HT0, HT1⟩, HS, H3⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        iexact H3
    · -- a middle node tile: the output window is idle and not written back
      have hc3 : ¬ k1_cond3 (grid1.coords t) = 1#1 := fun h => hL (hk.symm.trans ((k1_cond3_iff' _).mp h))
      have hidle : (cfg1 a).idle 3 ((cfg1 a).grid.coords t) = true := idle1_3_of a (grid1.coords t) hc3
      have hfl : ((cfg1 a).win 3).flush t = false := noflush1_3 a t hc3
      rw [Dat.leavesExact_idle _ 3 t hidle hfl]
      by_cases hc2 : act1 a (grid1.coords t)
      · have hacc := accAt1_next V a c t hk'
        rw [if_pos hc2] at hacc
        rw [hacc]
        iintro ⟨⟨⟨HT0, HT1⟩, HS, HR, HG⟩, Ho, ⟨%d0, H0⟩, ⟨%d1, H1⟩, ⟨%d2, H2⟩, ⟨%d3, H3⟩⟩
        iapply (run1_MA c (grid1.coords t) (ms1_0 a t) (hs1_0 a t) (ms1_1 a t) (hs1_1 a t) (ms1_2 a t) (hs1_2 a t) (ms1_3 a t) (hs1_3 a t)
          scM1 (Memref.isWhole_whole _) (srcB V a c t) (normB V a c t) (hwB V a c t) (a.1 0) (a.1 1) hc1 hc2 hc3
          (accAt1 V a c (t.val - 1) (Nat.lt_of_le_of_lt (Nat.sub_le _ _) t.isLt)) ((dat1 V a c).before 3 t d3) Set.univ _)
        unfold kin1
        isplitl [H0 H1 H2 HT0 HT1]
        · isplitl [H0]; · iexact H0
          isplitl [H1]; · iexact H1
          isplitl [H2]; · iexact H2
          isplitl [HT0]; · iexact HT0
          iexact HT1
        isplitl [HS]; · iexact HS
        isplitl [H3]; · iexact H3
        iintro ⟨⟨H0, H1, H2, HT0, HT1⟩, HS, H3⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        iexists d3; iexact H3
      · have hacc := accAt1_next V a c t hk'
        rw [if_neg hc2] at hacc
        rw [hacc]
        iintro ⟨⟨⟨HT0, HT1⟩, HS, HR, HG⟩, Ho, ⟨%d0, H0⟩, ⟨%d1, H1⟩, ⟨%d2, H2⟩, ⟨%d3, H3⟩⟩
        iapply (run1_MI c (grid1.coords t) (ms1_0 a t) (hs1_0 a t) (ms1_1 a t) (hs1_1 a t) (ms1_2 a t) (hs1_2 a t) (ms1_3 a t) (hs1_3 a t)
          scM1 (Memref.isWhole_whole _) (srcB V a c t) (normB V a c t) (hwB V a c t) (a.1 0) (a.1 1) hc1 hc2 hc3
          (accAt1 V a c (t.val - 1) (Nat.lt_of_le_of_lt (Nat.sub_le _ _) t.isLt)) ((dat1 V a c).before 3 t d3) Set.univ _)
        unfold kin1
        isplitl [H0 H1 H2 HT0 HT1]
        · isplitl [H0]; · iexact H0
          isplitl [H1]; · iexact H1
          isplitl [H2]; · iexact H2
          isplitl [HT0]; · iexact HT0
          iexact HT1
        isplitl [HS]; · iexact HS
        isplitl [H3]; · iexact H3
        iintro ⟨⟨H0, H1, H2, HT0, HT1⟩, HS, H3⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        iexists d3; iexact H3

/-- The library's body obligation, at every point. -/
theorem body_obligation1 (c : Dev nD) : BodyObligation (dat1 (F := F) V a c) (defs₀ (F := F)) Variants.none () Set.univ := fun t => by
  rw [bigSep_W1, bigSep_W1]
  exact sound_body1 V a c t

/-! ## The invariant at the region's two ends -/

/-- The scratch as the region finds it (a scoped buffer at some contents) is the scratch memref owned at some contents. -/
theorem scr_in (c : Dev nD) :
    (iprop(∃ f : Buf (Elt F) ((c : Thread nD τ).loc cc1_scratch0), ((c : Thread nD τ).loc cc1_scratch0) ↦{fullShare} f) : sProp 𝕄)
      ⊢ iprop(∃ d, owns (c : Thread nD τ) scM1 fullShare d) := by
  simp only [owns_whole]; exact .rfl

theorem scr_out (c : Dev nD) :
    (iprop(∃ d, owns (c : Thread nD τ) scM1 fullShare d) : sProp 𝕄)
      ⊢ iprop(∃ f : Buf (Elt F) ((c : Thread nD τ).loc cc1_scratch0), ((c : Thread nD τ).loc cc1_scratch0) ↦{fullShare} f) := by
  simp only [owns_whole]; exact .rfl

/-- The invariant before the first point, from the generator register, the tables and the scoped rest. -/
theorem hin1 (c : Dev nD) :
    iprop((∃ r, prngReg c r) ∗ Pipeline.prefHeld pre1 c (fun _ => fullShare) a.1 ∗ Pipeline.scopedRest spec1 c) ⊢ (dat1 V a c).Φ 0 := by
  rw [scopedRest1_split]
  show _ ⊢ Φ1 V a c 0
  unfold Φ1
  show _ ⊢ iprop(_ ∗ (∃ d, owns (c : Thread nD τ) scM1 fullShare d) ∗ _ ∗ _)
  iintro ⟨HG, HT, HS, HR⟩
  isplitl [HT]; · iexact HT
  isplitl [HS]; · iapply (scr_in c); iexact HS
  isplitl [HR]; · iexact HR
  iexact HG

/-- The invariant after the last point gives the generator register and the tables (at the full share) back, and
    the scoped rest; the kernel has no semaphore of its own. -/
theorem hout1 (c : Dev nD) :
    (dat1 V a c).Φ (Fin.last _)
      ⊢ iprop(((∃ r, prngReg c r) ∗ Pipeline.prefHeld pre1 c (fun _ => fullShare) a.1) ∗ Pipeline.ownSems0 (fun k : PEmpty => k.elim) c ∗ Pipeline.scopedRest spec1 c) := by
  rw [scopedRest1_split, Pipeline.ownSems0_none]
  show Φ1 V a c (Fin.last _) ⊢ _
  unfold Φ1
  iintro ⟨HT, HS, HR, HG⟩
  ihave HS' := (scr1_ex V a c _ _) $$ HS
  isplitl [HG HT]
  · isplitl [HG]; · iexact HG
    iexact HT
  isplitr
  · iempintro
  isplitl [HS']; · iapply (scr_out c); iexact HS'
  iexact HR

end Cert.Kernel.R1

end
-- ==== Proof.K.R2Sched.lean ====
import proofs.«417346_j54202487276072_2_alg».proof.Proof.Gen.Kernel.Launch
import Idealize.ShloMosaic.Lib.Pipeline.Kit
import Idealize.ShloMosaic.Lib.Affine

noncomputable section

namespace Cert.Kernel.R2

open Cert.Kernel Cert.Kernel.Gen
open Idealize.ShloMosaic Idealize.ShloMosaic.TcCoe
open Idealize.SL Idealize.SL.Sem

variable {F : FTy → Type} [FloatOps F]

/-! # The schedule of the scatter region on its grid `[49, 391]`

Point `t` is (node tile `t / 391`, edge tile `t % 391`), the edge tile moving fastest. None of these facts reads
the prefetched tables: the index maps are functions of the point alone. -/

theorem stride2_0 : grid2.stride 0 = 391 := by decide
theorem stride2_1 : grid2.stride 1 = 1 := by decide

/-- The node tile of point `t`. -/
theorem coords2_0 (t : Fin grid2.N) : (grid2.coords t 0).val = t.val / 391 := by
  have hN : t.val < 19159 := lt_of_lt_of_eq t.isLt N_2
  show t.val / grid2.stride 0 % 49 = _
  rw [stride2_0]; omega

/-- The edge tile of point `t`. -/
theorem coords2_1 (t : Fin grid2.N) : (grid2.coords t 1).val = t.val % 391 := by
  show t.val / grid2.stride 1 % 391 = _
  rw [stride2_1, Nat.div_one]

/-! ## The body's two conditions on the point -/

/-- The condition of the first conditional (the scratch is initialised) holds exactly at the first edge tile. -/
theorem c1_iff (i : grid2.Coords) :
    (Scalar.cmpi .ne (Scalar.extui (Scalar.cmpi .eq (BitVec.ofNat 32 (i 1).val) 0#32)) 0#32) = 1#1 ↔ (i 1).val = 0 := by
  have hk : (i 1).val < 391 := (i 1).isLt
  rw [Scalar.guard_iff, Scalar.cmpi, IntOp.cmpi_eq, ← BitVec.toNat_inj]
  simp only [BitVec.toNat_ofNat]
  omega

/-- The output block is stored exactly at the last edge tile. -/
theorem cond3_iff (i : grid2.Coords) : k2_cond3 i = 1#1 ↔ (i 1).val = 390 := by
  have hk : (i 1).val < 391 := (i 1).isLt
  show (Scalar.cmpi .ne (Scalar.extui (Scalar.cmpi .eq (BitVec.ofNat 32 (i 1).val) 390#32)) 0#32) = 1#1 ↔ _
  rw [Scalar.guard_iff, Scalar.cmpi, IntOp.cmpi_eq, ← BitVec.toNat_inj]
  simp only [BitVec.toNat_ofNat]
  omega

/-! ## The output window's write-backs -/

/-- The output's block index is the node tile. -/
theorem tr5_0 (i : grid2.Coords) : cc2_transform_5 i 0 = (i 0).val := by
  have hk : (i 0).val < 49 := (i 0).isLt
  show (BitVec.ofNat 32 (i 0).val).toNat = _
  rw [BitVec.toNat_ofNat]; omega

theorem tr5_ne_iff (i j : grid2.Coords) : cc2_transform_5 i ≠ cc2_transform_5 j ↔ (i 0).val ≠ (j 0).val := by
  constructor
  · intro h e; apply h; funext x
    fin_cases x
    · show cc2_transform_5 i 0 = cc2_transform_5 j 0
      rw [tr5_0, tr5_0, e]
    · rfl
  · intro h e; apply h
    have := congrFun e 0
    rwa [tr5_0, tr5_0] at this

variable (a : (pcfg2 (F := F)).Adm)

/-- The output block is written back exactly after the last edge tile of its node tile. -/
theorem flush2_5 (t : Fin (cfg2 a).N) : ((cfg2 a).win 5).flush t = true ↔ t.val % 391 = 390 := by
  have hN : t.val < 19159 := lt_of_lt_of_eq t.isLt N_2
  rw [Pipeline.Window.flush_eq_flushOf]
  show Pipeline.Window.flushOf grid2 true cc2_transform_5 t = true ↔ _
  unfold Pipeline.Window.flushOf
  rw [Bool.true_and, Bool.or_eq_true, decide_eq_true_eq, decide_eq_true_eq]
  constructor
  · rintro (h | ⟨h, hne⟩)
    · have hN2 := N_2; omega
    · rw [tr5_ne_iff, coords2_0, coords2_0] at hne
      dsimp only at hne
      omega
  · intro h
    by_cases hl : t.val + 1 = grid2.N
    · exact .inl hl
    · have h' : t.val + 1 < grid2.N := by have hN2 := N_2; omega
      refine .inr ⟨h', ?_⟩
      rw [tr5_ne_iff, coords2_0, coords2_0]
      dsimp only
      omega

/-- Where the output window is idle: everywhere but at the last edge tile. -/
theorem idle2_5 (t : Fin (cfg2 a).N) : (cfg2 a).idle 5 ((cfg2 a).grid.coords t) = !(k2_cond3 (grid2.coords t) == 1#1) := rfl

/-- The input windows are never idle. -/
theorem live2 (w : Fin (cfg2 a).W) (hw : w ≠ 5) (i : (cfg2 a).grid.Coords) : (cfg2 a).idle w i = false := by
  fin_cases w <;> first | rfl | exact absurd rfl hw

end Cert.Kernel.R2

end
-- ==== Proof.K.R2Runs.lean ====
import proofs.«417346_j54202487276072_2_alg».proof.Proof.Gen.Kernel.Launch
import proofs.«417346_j54202487276072_2_alg».proof.Proof.Gen.Kernel.Skeleton
import Idealize.ShloMosaic.Lib.Pipeline.FrameBody
import Idealize.ShloMosaic.Lib.Pipeline.Value
import Idealize.ShloMosaic.Lib.Tactic

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## The tables as the body is handed them; the step's condition -/

abbrev tbMin : Memref sig .tc .smem S391 .i32 := Memref.whole main_v72
abbrev htbMin : (tbMin).IsWhole := Memref.isWhole_whole _
abbrev tbMax : Memref sig .tc .smem S391 .i32 := Memref.whole main_v74
abbrev htbMax : (tbMax).IsWhole := Memref.isWhole_whole _

/-- A table's buffer contents on core `c`, and the table held whole at them. -/
abbrev TbBuf2 (c : Dev nD) (M : Memref sig .tc .smem S391 .i32) : Type := Buf (Elt F) (M.view.loc (c : Thread nD τ))
abbrev tbPt2 (c : Dev nD) (M : Memref sig .tc .smem S391 .i32) (f : TbBuf2 (F := F) c M) : sProp 𝕄 :=
  M.view.loc (c : Thread nD τ) ↦{fullShare} f

/-- The word of table `M` the body loads at point `i` (the entry of the point's edge tile), over contents `f`. -/
abbrev wd2 (M : Memref sig .tc .smem S391 .i32) (f : M.view.ty.Contents (Elt F)) (i : grid2.Coords) : Elt F .i32 :=
  M.view.readAt (Elt F) (Rect.unit (s := S391) (k2_off1 i) S1.size (k2_off1_inb i)).toLoadRect f (Shape.Idx.first (numel1_S1.symm ▸ Nat.one_pos))

/-- The condition of the accumulation step as the body computes it: the node tile `[2048 i₀, 2048 i₀ + 2048)` meets
    the range `[mn, mx]` of destinations in the edge tile (signed comparisons on the two table words). -/
def k2_act (i : grid2.Coords) (mx mn : Elt F .i32) : BitVec 1 :=
  let arg0 : BitVec 32 := BitVec.ofNat 32 (i 0).val
  let v3 : BitVec 32 := Scalar.muli arg0 2048#32
  let v4 : BitVec 32 := Scalar.addi v3 2048#32
  let v7 : BitVec 1 := Scalar.cmpi .sle v3 mx
  let v10 : BitVec 1 := Scalar.cmpi .sgt v4 mn
  let v11 : BitVec 1 := Scalar.andi v7 v10
  let v12 : BitVec 32 := Scalar.extui v11
  Scalar.cmpi .ne v12 0#32

/-- The condition of the first conditional: the scratch is initialised at the first edge tile. -/
abbrev k2_c1 (i : grid2.Coords) : Prop :=
  (Scalar.cmpi .ne (Scalar.extui (Scalar.cmpi .eq (BitVec.ofNat 32 (i 1).val) 0#32)) 0#32) = 1#1

/-! ## Whole-buffer loads and stores -/

theorem z1 : (![0] : Fin 1 → Nat) = fun _ => 0 := by funext a; fin_cases a; rfl
theorem z2 : (![0, 0] : Fin 2 → Nat) = fun _ => 0 := by funext a; fin_cases a <;> rfl

/-- A load through the whole-shape rectangle at zero offsets reads the memref's contents. -/
theorem rdU (S : Shape) {e : EltTy} {κ : Kind} {sp : Space} (v : View sig κ sp S e) {off : Fin S.rank → Nat} (h : off = fun _ => 0)
    (inb : ∀ a, off a + S.size a ≤ S.size a) (f : v.ty.Contents (Elt F)) :
    v.readAt (Elt F) (Rect.unit off S.size inb).toLoadRect f = v.read (Elt F) f :=
  View.ld_unit_zero h inb _

/-- Every index lies in the whole-shape rectangle: a list of stores headed by one through it covers the buffer. -/
theorem covU (S : Shape) {e : EltTy} {off : Fin S.rank → Nat} (h : off = fun _ => 0) (inb : ∀ a, off a + S.size a ≤ S.size a)
    (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons.mpr (Or.inl rfl), View.mem_set_unit_zero h inb y⟩

/-- A load through it of what the run's stores left, the last of them through it, reads that store's payload. -/
theorem rcU (S : Shape) {e : EltTy} {κ : Kind} {sp : Space} (v : View sig κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (covU S h inb w L), View.canon_cons_unit_zero h, View.ld_unit_zero h]

/-- The buffer read back after the run's stores, the last of them through the whole-shape rectangle: its payload. -/
theorem rwU (S : Shape) {e : EltTy} {κ : Kind} {sp : Space} (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (covU S h inb w L), View.canon_cons_unit_zero h]

/-- The inputs' staging memrefs at their blocks and the two tables at their contents: what every case of the body
    is handed and hands back untouched. -/
def kin2 (c : Dev nD) (arg4 : Memref sig .tc .vmem S4096 .i32) (arg5 : Memref sig .tc .vmem S4096x16 .f32)
    (arg6 : Memref sig .tc .vmem S2048x16 .f32) (arg7 : Memref sig .tc .vmem S2048 .f32) (arg8 : Memref sig .tc .vmem S1x16 .f32)
    (x0 : Vec F S4096 .i32) (x1 : Vec F S4096x16 .f32) (x2 : Vec F S2048x16 .f32) (x3 : Vec F S2048 .f32) (x4 : Vec F S1x16 .f32)
    (xt0 : TbBuf2 (F := F) c tbMin) (xt1 : TbBuf2 (F := F) c tbMax) : sProp 𝕄 :=
  iprop(owns (c : Thread nD τ) arg4 fullShare x0 ∗ owns (c : Thread nD τ) arg5 fullShare x1 ∗ owns (c : Thread nD τ) arg6 fullShare x2
    ∗ owns (c : Thread nD τ) arg7 fullShare x3 ∗ owns (c : Thread nD τ) arg8 fullShare x4 ∗ tbPt2 c tbMin xt0 ∗ tbPt2 c tbMax xt1)

/-! ## The body, case by case

The body has three conditionals: on the point's edge tile being the first (the scratch is initialised), on the two
table words (the accumulation step), on the edge tile being the last (the output block is stored). First and last
exclude each other on this grid, which leaves six cases. In each the printed function is its skeleton, run
operation by operation; every load and store is through a whole staging memref. The tables' words are never
evaluated: the case's hypothesis on them decides the middle conditional. -/

set_option maxHeartbeats 1000000 in
/-- First edge tile, step taken: the scratch ends at the step applied to the initial value; the output's buffer is
    untouched. -/
theorem run2_FA (c : Dev nD) (i : grid2.Coords)
    (arg4 : Memref sig .tc .vmem S4096 .i32) (harg4 : arg4.IsWhole) (arg5 : Memref sig .tc .vmem S4096x16 .f32) (harg5 : arg5.IsWhole)
    (arg6 : Memref sig .tc .vmem S2048x16 .f32) (harg6 : arg6.IsWhole) (arg7 : Memref sig .tc .vmem S2048 .f32) (harg7 : arg7.IsWhole)
    (arg8 : Memref sig .tc .vmem S1x16 .f32) (harg8 : arg8.IsWhole) (arg9 : Memref sig .tc .vmem S2048x16 .f32) (harg9 : arg9.IsWhole)
    (arg10 : Memref sig .tc .vmem S2048x16 .f32) (harg10 : arg10.IsWhole)
    (x0 : Vec F S4096 .i32) (x1 : Vec F S4096x16 .f32) (x2 : Vec F S2048x16 .f32) (x3 : Vec F S2048 .f32) (x4 : Vec F S1x16 .f32)
    (xt0 : TbBuf2 (F := F) c tbMin) (xt1 : TbBuf2 (F := F) c tbMax)
    (hc1 : k2_c1 i) (hc2 : k2_act (F := F) i (wd2 tbMax xt1 i) (wd2 tbMin xt0 i) = 1#1) (hc3 : ¬ k2_cond3 i = 1#1)
    (xo : Vec F S2048x16 .f32) (E : Set ℕ) (K : PUnit → sProp 𝕄) :
    iprop(kin2 c arg4 arg5 arg6 arg7 arg8 x0 x1 x2 x3 x4 xt0 xt1
        ∗ (∃ d, owns (c : Thread nD τ) arg10 fullShare d) ∗ owns (c : Thread nD τ) arg9 fullShare xo
        ∗ (iprop(kin2 c arg4 arg5 arg6 arg7 arg8 x0 x1 x2 x3 x4 xt0 xt1
            ∗ owns (c : Thread nD τ) arg10 fullShare (k2_pay2 i x0 (k2_pay1 x3 x2) x1) ∗ owns (c : Thread nD τ) arg9 fullShare xo) -∗ K ⟨⟩))
      ⊢ wp frame (wpE (defs₀ (F := F)) Variants.none c none) E
          (cc2__scatter_kernel i tbMin htbMin tbMax htbMax arg4 harg4 arg5 harg5 arg6 harg6 arg7 harg7 arg8 harg8 arg9 harg9 arg10 harg10) K := by
  simp only [cc2__scatter_kernel_eq_skeleton]; unfold cc2__scatter_kernel_skel
  unfold kin2 owns
  iintro ⟨⟨⟨%f0, %hf0, H0⟩, ⟨%f1, %hf1, H1⟩, ⟨%f2, %hf2, H2⟩, ⟨%f3, %hf3, H3⟩, ⟨%f4, %hf4, H4⟩, HT0, HT1⟩, ⟨%ds, %fs, -, HS⟩, ⟨%f9, %hf9, H9⟩, Hk⟩
  subst hf0 hf1 hf2 hf3 hf4 hf9
  sl_exec (disch := first | sl_exact hc1 | sl_exact hc2 | sl_exact hc3)
  sl_step
  iapply Hk
  isplitl [H0 H1 H2 H3 H4 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [HT0]; · iexact HT0
    iexact HT1
  isplitl [HS]
  · iexists _; isplitr; swap; · iexact HS
    ipureintro
    -- the second store's payload read the first store's back
    rw [rwU S2048x16 _ _ z2]
    unfold run2_FA.sl.v29 run2_FA.sl.HS_1
    simp only [rcU S2048x16 _ z2, rdU S4096 _ z1, rdU S2048 _ z1, rdU S2048x16 _ z2, rdU S4096x16 _ z2]
  iexists f9; isplitr; · ipureintro; rfl
  iexact H9

set_option maxHeartbeats 1000000 in
/-- First edge tile, step skipped: the scratch ends at the initial value; the output's buffer is untouched. -/
theorem run2_FI (c : Dev nD) (i : grid2.Coords)
    (arg4 : Memref sig .tc .vmem S4096 .i32) (harg4 : arg4.IsWhole) (arg5 : Memref sig .tc .vmem S4096x16 .f32) (harg5 : arg5.IsWhole)
    (arg6 : Memref sig .tc .vmem S2048x16 .f32) (harg6 : arg6.IsWhole) (arg7 : Memref sig .tc .vmem S2048 .f32) (harg7 : arg7.IsWhole)
    (arg8 : Memref sig .tc .vmem S1x16 .f32) (harg8 : arg8.IsWhole) (arg9 : Memref sig .tc .vmem S2048x16 .f32) (harg9 : arg9.IsWhole)
    (arg10 : Memref sig .tc .vmem S2048x16 .f32) (harg10 : arg10.IsWhole)
    (x0 : Vec F S4096 .i32) (x1 : Vec F S4096x16 .f32) (x2 : Vec F S2048x16 .f32) (x3 : Vec F S2048 .f32) (x4 : Vec F S1x16 .f32)
    (xt0 : TbBuf2 (F := F) c tbMin) (xt1 : TbBuf2 (F := F) c tbMax)
    (hc1 : k2_c1 i) (hc2 : ¬ k2_act (F := F) i (wd2 tbMax xt1 i) (wd2 tbMin xt0 i) = 1#1) (hc3 : ¬ k2_cond3 i = 1#1)
    (xo : Vec F S2048x16 .f32) (E : Set ℕ) (K : PUnit → sProp 𝕄) :
    iprop(kin2 c arg4 arg5 arg6 arg7 arg8 x0 x1 x2 x3 x4 xt0 xt1
        ∗ (∃ d, owns (c : Thread nD τ) arg10 fullShare d) ∗ owns (c : Thread nD τ) arg9 fullShare xo
        ∗ (iprop(kin2 c arg4 arg5 arg6 arg7 arg8 x0 x1 x2 x3 x4 xt0 xt1
            ∗ owns (c : Thread nD τ) arg10 fullShare (k2_pay1 x3 x2) ∗ owns (c : Thread nD τ) arg9 fullShare xo) -∗ K ⟨⟩))
      ⊢ wp frame (wpE (defs₀ (F := F)) Variants.none c none) E
          (cc2__scatter_kernel i tbMin htbMin tbMax htbMax arg4 harg4 arg5 harg5 arg6 harg6 arg7 harg7 arg8 harg8 arg9 harg9 arg10 harg10) K := by
  simp only [cc2__scatter_kernel_eq_skeleton]; unfold cc2__scatter_kernel_skel
  unfold kin2 owns
  iintro ⟨⟨⟨%f0, %hf0, H0⟩, ⟨%f1, %hf1, H1⟩, ⟨%f2, %hf2, H2⟩, ⟨%f3, %hf3, H3⟩, ⟨%f4, %hf4, H4⟩, HT0, HT1⟩, ⟨%ds, %fs, -, HS⟩, ⟨%f9, %hf9, H9⟩, Hk⟩
  subst hf0 hf1 hf2 hf3 hf4 hf9
  sl_exec (disch := first | sl_exact hc1 | sl_exact hc2 | sl_exact hc3)
  sl_step
  iapply Hk
  isplitl [H0 H1 H2 H3 H4 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [HT0]; · iexact HT0
    iexact HT1
  isplitl [HS]
  · iexists _; isplitr; swap; · iexact HS
    ipureintro
    rw [rwU S2048x16 _ _ z2]
    simp only [rdU S2048 _ z1, rdU S2048x16 _ z2]
  iexists f9; isplitr; · ipureintro; rfl
  iexact H9

set_option maxHeartbeats 1000000 in
/-- A middle edge tile, step taken: the scratch ends at the step applied to what it held; the output's buffer is
    untouched. -/
theorem run2_MA (c : Dev nD) (i : grid2.Coords)
    (arg4 : Memref sig .tc .vmem S4096 .i32) (harg4 : arg4.IsWhole) (arg5 : Memref sig .tc .vmem S4096x16 .f32) (harg5 : arg5.IsWhole)
    (arg6 : Memref sig .tc .vmem S2048x16 .f32) (harg6 : arg6.IsWhole) (arg7 : Memref sig .tc .vmem S2048 .f32) (harg7 : arg7.IsWhole)
    (arg8 : Memref sig .tc .vmem S1x16 .f32) (harg8 : arg8.IsWhole) (arg9 : Memref sig .tc .vmem S2048x16 .f32) (harg9 : arg9.IsWhole)
    (arg10 : Memref sig .tc .vmem S2048x16 .f32) (harg10 : arg10.IsWhole)
    (x0 : Vec F S4096 .i32) (x1 : Vec F S4096x16 .f32) (x2 : Vec F S2048x16 .f32) (x3 : Vec F S2048 .f32) (x4 : Vec F S1x16 .f32)
    (xt0 : TbBuf2 (F := F) c tbMin) (xt1 : TbBuf2 (F := F) c tbMax)
    (hc1 : ¬ k2_c1 i) (hc2 : k2_act (F := F) i (wd2 tbMax xt1 i) (wd2 tbMin xt0 i) = 1#1) (hc3 : ¬ k2_cond3 i = 1#1)
    (xs xo : Vec F S2048x16 .f32) (E : Set ℕ) (K : PUnit → sProp 𝕄) :
    iprop(kin2 c arg4 arg5 arg6 arg7 arg8 x0 x1 x2 x3 x4 xt0 xt1
        ∗ owns (c : Thread nD τ) arg10 fullShare xs ∗ owns (c : Thread nD τ) arg9 fullShare xo
        ∗ (iprop(kin2 c arg4 arg5 arg6 arg7 arg8 x0 x1 x2 x3 x4 xt0 xt1
            ∗ owns (c : Thread nD τ) arg10 fullShare (k2_pay2 i x0 xs x1) ∗ owns (c : Thread nD τ) arg9 fullShare xo) -∗ K ⟨⟩))
      ⊢ wp frame (wpE (defs₀ (F := F)) Variants.none c none) E
          (cc2__scatter_kernel i tbMin htbMin tbMax htbMax arg4 harg4 arg5 harg5 arg6 harg6 arg7 harg7 arg8 harg8 arg9 harg9 arg10 harg10) K := by
  simp only [cc2__scatter_kernel_eq_skeleton]; unfold cc2__scatter_kernel_skel
  unfold kin2 owns
  iintro ⟨⟨⟨%f0, %hf0, H0⟩, ⟨%f1, %hf1, H1⟩, ⟨%f2, %hf2, H2⟩, ⟨%f3, %hf3, H3⟩, ⟨%f4, %hf4, H4⟩, HT0, HT1⟩, ⟨%fs, %hfs, HS⟩, ⟨%f9, %hf9, H9⟩, Hk⟩
  subst hf0 hf1 hf2 hf3 hf4 hfs hf9
  sl_exec (disch := first | sl_exact hc1 | sl_exact hc2 | sl_exact hc3)
  sl_step
  iapply Hk
  isplitl [H0 H1 H2 H3 H4 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [HT0]; · iexact HT0
    iexact HT1
  isplitl [HS]
  · iexists _; isplitr; swap; · iexact HS
    ipureintro
    rw [rwU S2048x16 _ _ z2]
    simp only [rdU S4096 _ z1, rdU S2048x16 _ z2, rdU S4096x16 _ z2]
  iexists f9; isplitr; · ipureintro; rfl
  iexact H9

set_option maxHeartbeats 1000000 in
/-- A middle edge tile, step skipped: nothing is stored. -/
theorem run2_MI (c : Dev nD) (i : grid2.Coords)
    (arg4 : Memref sig .tc .vmem S4096 .i32) (harg4 : arg4.IsWhole) (arg5 : Memref sig .tc .vmem S4096x16 .f32) (harg5 : arg5.IsWhole)
    (arg6 : Memref sig .tc .vmem S2048x16 .f32) (harg6 : arg6.IsWhole) (arg7 : Memref sig .tc .vmem S2048 .f32) (harg7 : arg7.IsWhole)
    (arg8 : Memref sig .tc .vmem S1x16 .f32) (harg8 : arg8.IsWhole) (arg9 : Memref sig .tc .vmem S2048x16 .f32) (harg9 : arg9.IsWhole)
    (arg10 : Memref sig .tc .vmem S2048x16 .f32) (harg10 : arg10.IsWhole)
    (x0 : Vec F S4096 .i32) (x1 : Vec F S4096x16 .f32) (x2 : Vec F S2048x16 .f32) (x3 : Vec F S2048 .f32) (x4 : Vec F S1x16 .f32)
    (xt0 : TbBuf2 (F := F) c tbMin) (xt1 : TbBuf2 (F := F) c tbMax)
    (hc1 : ¬ k2_c1 i) (hc2 : ¬ k2_act (F := F) i (wd2 tbMax xt1 i) (wd2 tbMin xt0 i) = 1#1) (hc3 : ¬ k2_cond3 i = 1#1)
    (xs xo : Vec F S2048x16 .f32) (E : Set ℕ) (K : PUnit → sProp 𝕄) :
    iprop(kin2 c arg4 arg5 arg6 arg7 arg8 x0 x1 x2 x3 x4 xt0 xt1
        ∗ owns (c : Thread nD τ) arg10 fullShare xs ∗ owns (c : Thread nD τ) arg9 fullShare xo
        ∗ (iprop(kin2 c arg4 arg5 arg6 arg7 arg8 x0 x1 x2 x3 x4 xt0 xt1
            ∗ owns (c : Thread nD τ) arg10 fullShare xs ∗ owns (c : Thread nD τ) arg9 fullShare xo) -∗ K ⟨⟩))
      ⊢ wp frame (wpE (defs₀ (F := F)) Variants.none c none) E
          (cc2__scatter_kernel i tbMin htbMin tbMax htbMax arg4 harg4 arg5 harg5 arg6 harg6 arg7 harg7 arg8 harg8 arg9 harg9 arg10 harg10) K := by
  simp only [cc2__scatter_kernel_eq_skeleton]; unfold cc2__scatter_kernel_skel
  unfold kin2 owns
  iintro ⟨⟨⟨%f0, %hf0, H0⟩, ⟨%f1, %hf1, H1⟩, ⟨%f2, %hf2, H2⟩, ⟨%f3, %hf3, H3⟩, ⟨%f4, %hf4, H4⟩, HT0, HT1⟩, ⟨%fs, %hfs, HS⟩, ⟨%f9, %hf9, H9⟩, Hk⟩
  subst hf0 hf1 hf2 hf3 hf4 hfs hf9
  sl_exec (disch := first | sl_exact hc1 | sl_exact hc2 | sl_exact hc3)
  sl_step
  iapply Hk
  isplitl [H0 H1 H2 H3 H4 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [HT0]; · iexact HT0
    iexact HT1
  isplitl [HS]
  · iexists fs; isplitr; · ipureintro; rfl
    iexact HS
  iexists f9; isplitr; · ipureintro; rfl
  iexact H9

set_option maxHeartbeats 1000000 in
/-- Last edge tile, step taken: the scratch ends at the step applied to what it held, and the output's buffer at
    the epilogue of that. -/
theorem run2_LA (c : Dev nD) (i : grid2.Coords)
    (arg4 : Memref sig .tc .vmem S4096 .i32) (harg4 : arg4.IsWhole) (arg5 : Memref sig .tc .vmem S4096x16 .f32) (harg5 : arg5.IsWhole)
    (arg6 : Memref sig .tc .vmem S2048x16 .f32) (harg6 : arg6.IsWhole) (arg7 : Memref sig .tc .vmem S2048 .f32) (harg7 : arg7.IsWhole)
    (arg8 : Memref sig .tc .vmem S1x16 .f32) (harg8 : arg8.IsWhole) (arg9 : Memref sig .tc .vmem S2048x16 .f32) (harg9 : arg9.IsWhole)
    (arg10 : Memref sig .tc .vmem S2048x16 .f32) (harg10 : arg10.IsWhole)
    (x0 : Vec F S4096 .i32) (x1 : Vec F S4096x16 .f32) (x2 : Vec F S2048x16 .f32) (x3 : Vec F S2048 .f32) (x4 : Vec F S1x16 .f32)
    (xt0 : TbBuf2 (F := F) c tbMin) (xt1 : TbBuf2 (F := F) c tbMax)
    (hc1 : ¬ k2_c1 i) (hc2 : k2_act (F := F) i (wd2 tbMax xt1 i) (wd2 tbMin xt0 i) = 1#1) (hc3 : k2_cond3 i = 1#1)
    (xs : Vec F S2048x16 .f32) (E : Set ℕ) (K : PUnit → sProp 𝕄) :
    iprop(kin2 c arg4 arg5 arg6 arg7 arg8 x0 x1 x2 x3 x4 xt0 xt1
        ∗ owns (c : Thread nD τ) arg10 fullShare xs ∗ (∃ d, owns (c : Thread nD τ) arg9 fullShare d)
        ∗ (iprop(kin2 c arg4 arg5 arg6 arg7 arg8 x0 x1 x2 x3 x4 xt0 xt1
            ∗ owns (c : Thread nD τ) arg10 fullShare (k2_pay2 i x0 xs x1)
            ∗ owns (c : Thread nD τ) arg9 fullShare (k2_pay3 (k2_pay2 i x0 xs x1) x4)) -∗ K ⟨⟩))
      ⊢ wp frame (wpE (defs₀ (F := F)) Variants.none c none) E
          (cc2__scatter_kernel i tbMin htbMin tbMax htbMax arg4 harg4 arg5 harg5 arg6 harg6 arg7 harg7 arg8 harg8 arg9 harg9 arg10 harg10) K := by
  simp only [cc2__scatter_kernel_eq_skeleton]; unfold cc2__scatter_kernel_skel
  unfold kin2 owns
  iintro ⟨⟨⟨%f0, %hf0, H0⟩, ⟨%f1, %hf1, H1⟩, ⟨%f2, %hf2, H2⟩, ⟨%f3, %hf3, H3⟩, ⟨%f4, %hf4, H4⟩, HT0, HT1⟩, ⟨%fs, %hfs, HS⟩, ⟨%d9, %f9, -, H9⟩, Hk⟩
  subst hf0 hf1 hf2 hf3 hf4 hfs
  sl_exec (disch := first | sl_exact hc1 | sl_exact hc2 | sl_exact hc3)
  sl_step
  iapply Hk
  isplitl [H0 H1 H2 H3 H4 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [HT0]; · iexact HT0
    iexact HT1
  isplitl [HS]
  · iexists _; isplitr; swap; · iexact HS
    ipureintro
    unfold run2_LA.sl.HS_1
    rw [rwU S2048x16 _ _ z2]
    simp only [rdU S4096 _ z1, rdU S2048x16 _ z2, rdU S4096x16 _ z2]
  iexists _; isplitr; swap; · iexact H9
  ipureintro
  -- the epilogue's load read the step's store back
  rw [rwU S2048x16 _ _ z2]
  unfold run2_LA.sl.v17 run2_LA.sl.HS_1
  simp only [rcU S2048x16 _ z2, rdU S4096 _ z1, rdU S2048x16 _ z2, rdU S4096x16 _ z2, rdU S1x16 _ z2]

set_option maxHeartbeats 1000000 in
/-- Last edge tile, step skipped: the scratch keeps what it held, and the output's buffer ends at the epilogue of
    that. -/
theorem run2_LI (c : Dev nD) (i : grid2.Coords)
    (arg4 : Memref sig .tc .vmem S4096 .i32) (harg4 : arg4.IsWhole) (arg5 : Memref sig .tc .vmem S4096x16 .f32) (harg5 : arg5.IsWhole)
    (arg6 : Memref sig .tc .vmem S2048x16 .f32) (harg6 : arg6.IsWhole) (arg7 : Memref sig .tc .vmem S2048 .f32) (harg7 : arg7.IsWhole)
    (arg8 : Memref sig .tc .vmem S1x16 .f32) (harg8 : arg8.IsWhole) (arg9 : Memref sig .tc .vmem S2048x16 .f32) (harg9 : arg9.IsWhole)
    (arg10 : Memref sig .tc .vmem S2048x16 .f32) (harg10 : arg10.IsWhole)
    (x0 : Vec F S4096 .i32) (x1 : Vec F S4096x16 .f32) (x2 : Vec F S2048x16 .f32) (x3 : Vec F S2048 .f32) (x4 : Vec F S1x16 .f32)
    (xt0 : TbBuf2 (F := F) c tbMin) (xt1 : TbBuf2 (F := F) c tbMax)
    (hc1 : ¬ k2_c1 i) (hc2 : ¬ k2_act (F := F) i (wd2 tbMax xt1 i) (wd2 tbMin xt0 i) = 1#1) (hc3 : k2_cond3 i = 1#1)
    (xs : Vec F S2048x16 .f32) (E : Set ℕ) (K : PUnit → sProp 𝕄) :
    iprop(kin2 c arg4 arg5 arg6 arg7 arg8 x0 x1 x2 x3 x4 xt0 xt1
        ∗ owns (c : Thread nD τ) arg10 fullShare xs ∗ (∃ d, owns (c : Thread nD τ) arg9 fullShare d)
        ∗ (iprop(kin2 c arg4 arg5 arg6 arg7 arg8 x0 x1 x2 x3 x4 xt0 xt1
            ∗ owns (c : Thread nD τ) arg10 fullShare xs ∗ owns (c : Thread nD τ) arg9 fullShare (k2_pay3 xs x4)) -∗ K ⟨⟩))
      ⊢ wp frame (wpE (defs₀ (F := F)) Variants.none c none) E
          (cc2__scatter_kernel i tbMin htbMin tbMax htbMax arg4 harg4 arg5 harg5 arg6 harg6 arg7 harg7 arg8 harg8 arg9 harg9 arg10 harg10) K := by
  simp only [cc2__scatter_kernel_eq_skeleton]; unfold cc2__scatter_kernel_skel
  unfold kin2 owns
  iintro ⟨⟨⟨%f0, %hf0, H0⟩, ⟨%f1, %hf1, H1⟩, ⟨%f2, %hf2, H2⟩, ⟨%f3, %hf3, H3⟩, ⟨%f4, %hf4, H4⟩, HT0, HT1⟩, ⟨%fs, %hfs, HS⟩, ⟨%d9, %f9, -, H9⟩, Hk⟩
  subst hf0 hf1 hf2 hf3 hf4 hfs
  sl_exec (disch := first | sl_exact hc1 | sl_exact hc2 | sl_exact hc3)
  sl_step
  iapply Hk
  isplitl [H0 H1 H2 H3 H4 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [HT0]; · iexact HT0
    iexact HT1
  isplitl [HS]
  · iexists fs; isplitr; · ipureintro; rfl
    iexact HS
  iexists _; isplitr; swap; · iexact H9
  ipureintro
  rw [rwU S2048x16 _ _ z2]
  simp only [rdU S2048x16 _ z2, rdU S1x16 _ z2]

end Cert.Kernel.R2

end
-- ==== Proof.K.R2Frame.lean ====
import proofs.«417346_j54202487276072_2_alg».proof.Proof.K.R2Sched
import proofs.«417346_j54202487276072_2_alg».proof.Proof.K.R2Runs
import Idealize.ShloMosaic.Lib.Pipeline.FrameBody
import Idealize.ShloMosaic.Lib.Pipeline.Frame

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

-- the buffer contents when the region is entered, and the admissible tables: both parameters, never evaluated
variable (V : (c : Dev nD) → (b : Ref sig .tc) → Buf (Elt F) ((c : Thread nD τ).loc b)) (a : (pcfg2 (F := F)).Adm)

/-! # The scatter region (custom_call 2) at entry contents `V` and tables `a`

The scratch carries, along each node tile's run of edge tiles, the self term plus the sum over the edge tiles
whose destination range meets the node tile; the output block is the epilogue of the scratch at the last edge
tile. -/

/-! ## The windows' blocks and the table words -/

/-- Window `w`'s block at point `t`, read off its array as the region finds it. -/
def iblk2 (c : Dev nD) (w : Fin (cfg2 a).W) (t : Fin (cfg2 a).N) : (((cfg2 a).win w).xblock ((cfg2 a).grid.coords t)).Idx → Elt F ((cfg2 a).win w).elt :=
  (((cfg2 a).win w).blk t).view.read (Elt F) (V c (Pipeline.arrRef spec2 w))

/-- The five input blocks at their vector types (no window is cut: a block's shape is its window's). -/
abbrev dstB (c : Dev nD) (t : Fin (cfg2 a).N) : Vec F S4096 .i32 := iblk2 V a c 0 t
abbrev gB (c : Dev nD) (t : Fin (cfg2 a).N) : Vec F S4096x16 .f32 := iblk2 V a c 1 t
abbrev hwB (c : Dev nD) (t : Fin (cfg2 a).N) : Vec F S2048x16 .f32 := iblk2 V a c 2 t
abbrev snB (c : Dev nD) (t : Fin (cfg2 a).N) : Vec F S2048 .f32 := iblk2 V a c 3 t
abbrev biasB (c : Dev nD) (t : Fin (cfg2 a).N) : Vec F S1x16 .f32 := iblk2 V a c 4 t

/-- The two table words the body loads at point `i`: the least and the greatest destination in the edge tile. -/
abbrev wMin (i : grid2.Coords) : Elt F .i32 := wd2 tbMin (a.1 0) i
abbrev wMax (i : grid2.Coords) : Elt F .i32 := wd2 tbMax (a.1 1) i

/-- The accumulation step is taken at point `i`. -/
abbrev act2 (i : grid2.Coords) : Prop := k2_act (F := F) i (wMax a i) (wMin a i) = 1#1

/-! ## The scratch, point by point -/

/-- One point's effect on the scratch from what it held (`prev`): initialised at the first edge tile, then the
    step if its condition holds. -/
def step2 (i : grid2.Coords) (prev : Vec F S2048x16 .f32) (sn : Vec F S2048 .f32) (hw : Vec F S2048x16 .f32)
    (dst : Vec F S4096 .i32) (g : Vec F S4096x16 .f32) : Vec F S2048x16 .f32 :=
  if act2 a i then k2_pay2 i dst (if (i 1).val = 0 then k2_pay1 sn hw else prev) g
  else (if (i 1).val = 0 then k2_pay1 sn hw else prev)

/-- What the scratch holds after the body at point `n`. -/
def accAt2 (c : Dev nD) : (n : ℕ) → n < (cfg2 a).N → Vec F S2048x16 .f32
  | 0, h => step2 a (grid2.coords ⟨0, h⟩) (k2_pay1 (snB V a c ⟨0, h⟩) (hwB V a c ⟨0, h⟩)) (snB V a c ⟨0, h⟩) (hwB V a c ⟨0, h⟩)
      (dstB V a c ⟨0, h⟩) (gB V a c ⟨0, h⟩)
  | n + 1, h => step2 a (grid2.coords ⟨n + 1, h⟩) (accAt2 c n (Nat.lt_of_succ_lt h)) (snB V a c ⟨n + 1, h⟩) (hwB V a c ⟨n + 1, h⟩)
      (dstB V a c ⟨n + 1, h⟩) (gB V a c ⟨n + 1, h⟩)

/-- At a first edge tile the scratch restarts from the self term. -/
theorem accAt2_first (c : Dev nD) (t : Fin (cfg2 a).N) (hk : (grid2.coords t 1).val = 0) :
    accAt2 V a c t.val t.isLt
      = if act2 a (grid2.coords t) then k2_pay2 (grid2.coords t) (dstB V a c t) (k2_pay1 (snB V a c t) (hwB V a c t)) (gB V a c t)
        else k2_pay1 (snB V a c t) (hwB V a c t) := by
  obtain ⟨n, hn⟩ := t
  cases n with
  | zero => show step2 a _ _ _ _ _ _ = _; unfold step2; simp only [if_pos hk]
  | succ n => show step2 a _ _ _ _ _ _ = _; unfold step2; simp only [if_pos hk]

/-- At a later edge tile it continues from the point before. -/
theorem accAt2_next (c : Dev nD) (t : Fin (cfg2 a).N) (hk : (grid2.coords t 1).val ≠ 0) :
    accAt2 V a c t.val t.isLt
      = if act2 a (grid2.coords t)
        then k2_pay2 (grid2.coords t) (dstB V a c t) (accAt2 V a c (t.val - 1) (Nat.lt_of_le_of_lt (Nat.sub_le _ _) t.isLt)) (gB V a c t)
        else accAt2 V a c (t.val - 1) (Nat.lt_of_le_of_lt (Nat.sub_le _ _) t.isLt) := by
  obtain ⟨n, hn⟩ := t
  cases n with
  | zero => exact absurd (by rw [coords2_1]; rfl) hk
  | succ n => show step2 a _ _ _ _ _ _ = _; unfold step2; simp only [if_neg hk]; rfl

/-! ## The invariant between points -/

/-- The kernel's scratch operand: a whole scoped buffer of its own. -/
abbrev scM2 : Memref sig .tc .vmem S2048x16 .f32 := Memref.whole cc2_scratch0

/-- The scratch before point `n`: at anything before the first point, else at what the point before left. -/
def scr2 (c : Dev nD) : (n : ℕ) → n < (cfg2 a).N + 1 → sProp 𝕄
  | 0, _ => iprop(∃ d, owns (c : Thread nD τ) scM2 fullShare d)
  | n + 1, h => owns (c : Thread nD τ) scM2 fullShare (accAt2 V a c n (Nat.lt_of_succ_lt_succ h))

/-- The region's invariant before point `t`: the tables held whole at their contents, the scratch, the other scoped
    buffers unopened, the generator register at some state. -/
def Φ2 (c : Dev nD) (t : Fin ((cfg2 a).N + 1)) : sProp 𝕄 :=
  iprop(Pipeline.prefHeld (Ix := Unit) (Name := ℕ) (U := UR sig nD τ) (Lvl := ℕ) pre2 c (fun _ => fullShare) a.1
    ∗ scr2 V a c t.val t.isLt
    ∗ Pipeline.scopedRestBut (Ix := Unit) (Name := ℕ) (U := UR sig nD τ) (Lvl := ℕ) (Val := Elt F) spec2 c [cc2_scratch0]
    ∗ ∃ r, prngReg c r)

theorem scr2_ex (c : Dev nD) (n : ℕ) (h : n < (cfg2 a).N + 1) :
    scr2 V a c n h ⊢ (iprop(∃ d, owns (c : Thread nD τ) scM2 fullShare d) : sProp 𝕄) := by
  cases n with
  | zero => exact .rfl
  | succ n => show owns _ _ _ _ ⊢ _; iintro H; iexists _; iexact H

theorem scr2_pos (c : Dev nD) (n : ℕ) (h : n < (cfg2 a).N + 1) (hn : n ≠ 0) :
    scr2 V a c n h = owns (c : Thread nD τ) scM2 fullShare (accAt2 V a c (n - 1) (by omega)) := by
  cases n with
  | zero => exact absurd rfl hn
  | succ m => rfl

/-! ## The proof data -/

/-- The proof data of pipeline 2 on core `c`: the arrays as the region finds them; after the body each input's
    buffer at its block, the output's at the epilogue of the scratch (consulted only where the block is written
    back: at the last edge tile); the invariant `Φ2`; nothing owed; full shares. -/
def dat2 (c : Dev nD) : Dat τ (Elt F) Unit ℕ (UR sig nD τ) ℕ (cfg2 a) c where
  A w := V c (Pipeline.arrRef spec2 w)
  after w t := match w with
    | ⟨0, _⟩ => iblk2 V a c 0 t
    | ⟨1, _⟩ => iblk2 V a c 1 t
    | ⟨2, _⟩ => iblk2 V a c 2 t
    | ⟨3, _⟩ => iblk2 V a c 3 t
    | ⟨4, _⟩ => iblk2 V a c 4 t
    | ⟨5, _⟩ => k2_pay3 (accAt2 V a c t.val t.isLt) (biasB V a c t)
  Φ t := Φ2 V a c t
  q _ := fullShare
  owed _ := 0

theorem A_eq2 (c : Dev nD) (w : Fin (cfg2 a).W) : (dat2 V a c).A w = V c (Pipeline.arrRef spec2 w) := by
  dsimp only [dat2]

theorem after2_0 (c : Dev nD) (t : Fin (cfg2 a).N) : (dat2 V a c).after 0 t = iblk2 V a c 0 t := by dsimp only [dat2]; rfl
theorem after2_1 (c : Dev nD) (t : Fin (cfg2 a).N) : (dat2 V a c).after 1 t = iblk2 V a c 1 t := by dsimp only [dat2]; rfl
theorem after2_2 (c : Dev nD) (t : Fin (cfg2 a).N) : (dat2 V a c).after 2 t = iblk2 V a c 2 t := by dsimp only [dat2]; rfl
theorem after2_3 (c : Dev nD) (t : Fin (cfg2 a).N) : (dat2 V a c).after 3 t = iblk2 V a c 3 t := by dsimp only [dat2]; rfl
theorem after2_4 (c : Dev nD) (t : Fin (cfg2 a).N) : (dat2 V a c).after 4 t = iblk2 V a c 4 t := by dsimp only [dat2]; rfl
/-- The output's buffer after the body: the epilogue of the scratch (what the write-back writes at the last edge tile). -/
theorem after2_5 (c : Dev nD) (t : Fin (cfg2 a).N) :
    (dat2 V a c).after 5 t = k2_pay3 (accAt2 V a c t.val t.isLt) (biasB V a c t) := by dsimp only [dat2]; rfl

/-- Each input's current staging buffer holds its block at every point, fetched there or not: the body only
    reads it, the window is uncut and never idle. -/
theorem before2_0 (c : Dev nD) (t : Fin (cfg2 a).N) (d) : (dat2 V a c).before 0 t d = iblk2 V a c 0 t :=
  ((dat2 V a c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin (cfg2 a).N) (d) : (dat2 V a c).before 1 t d = iblk2 V a c 1 t :=
  ((dat2 V a c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin (cfg2 a).N) (d) : (dat2 V a c).before 2 t d = iblk2 V a c 2 t :=
  ((dat2 V a c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin (cfg2 a).N) (d) : (dat2 V a c).before 3 t d = iblk2 V a c 3 t :=
  ((dat2 V a c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin (cfg2 a).N) (d) : (dat2 V a c).before 4 t d = iblk2 V a c 4 t :=
  ((dat2 V a c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)

/-! ## The invariant, opened -/

/-- The tables, one by one. -/
theorem pref2_eq (c : Dev nD) :
    (Pipeline.prefHeld (Ix := Unit) (Name := ℕ) (U := UR sig nD τ) (Lvl := ℕ) pre2 c (fun _ => fullShare) a.1 : sProp 𝕄)
      = iprop(tbPt2 c tbMin (a.1 0) ∗ tbPt2 c tbMax (a.1 1)) := by
  unfold Pipeline.prefHeld
  rw [show (Finset.univ : Finset (Fin 2)) = insert (0 : Fin 2) {(1 : Fin 2)} from by decide,
    bigSep_insert (by decide), bigSep_singleton]
  rfl

theorem Phi_cast (c : Dev nD) (t : Fin (cfg2 a).N) :
    (dat2 V a c).Φ t.castSucc
      = iprop(Pipeline.prefHeld (Ix := Unit) (Name := ℕ) (U := UR sig nD τ) (Lvl := ℕ) pre2 c (fun _ => fullShare) a.1
          ∗ scr2 V a c t.val (Nat.lt_succ_of_lt t.isLt)
          ∗ Pipeline.scopedRestBut (Ix := Unit) (Name := ℕ) (U := UR sig nD τ) (Lvl := ℕ) (Val := Elt F) spec2 c [cc2_scratch0]
          ∗ ∃ r, prngReg c r) := by
  obtain ⟨n, hn⟩ := t; rfl

theorem Phi_succ (c : Dev nD) (t : Fin (cfg2 a).N) :
    (dat2 V a c).Φ t.succ
      = iprop(Pipeline.prefHeld (Ix := Unit) (Name := ℕ) (U := UR sig nD τ) (Lvl := ℕ) pre2 c (fun _ => fullShare) a.1
          ∗ owns (c : Thread nD τ) scM2 fullShare (accAt2 V a c t.val t.isLt)
          ∗ Pipeline.scopedRestBut (Ix := Unit) (Name := ℕ) (U := UR sig nD τ) (Lvl := ℕ) (Val := Elt F) spec2 c [cc2_scratch0]
          ∗ ∃ r, prngReg c r) := by
  obtain ⟨n, hn⟩ := t; rfl

theorem owes_succ (c : Dev nD) (t : Fin (cfg2 a).N) :
    (dat2 V a c).owesAt () t.succ = (dat2 V a c).owesAt () t.castSucc := rfl

/-! ## The body at a point -/

/-- Each window's current staging memref at point `t`, spelled as the pipeline passes it, and its wholeness. -/
abbrev ms2_0 (t : Fin (cfg2 a).N) : Memref sig .tc .vmem S4096 .i32 := spec2_0.stage ((cfg2 a).slots t 0)
abbrev hs2_0 (t : Fin (cfg2 a).N) : (ms2_0 a t).IsWhole := hstage2_0 (((cfg2 a).slots t 0).cast nbuf2_0)
abbrev ms2_1 (t : Fin (cfg2 a).N) : Memref sig .tc .vmem S4096x16 .f32 := spec2_1.stage ((cfg2 a).slots t 1)
abbrev hs2_1 (t : Fin (cfg2 a).N) : (ms2_1 a t).IsWhole := hstage2_1 (((cfg2 a).slots t 1).cast nbuf2_1)
abbrev ms2_2 (t : Fin (cfg2 a).N) : Memref sig .tc .vmem S2048x16 .f32 := spec2_2.stage ((cfg2 a).slots t 2)
abbrev hs2_2 (t : Fin (cfg2 a).N) : (ms2_2 a t).IsWhole := hstage2_2 (((cfg2 a).slots t 2).cast nbuf2_2)
abbrev ms2_3 (t : Fin (cfg2 a).N) : Memref sig .tc .vmem S2048 .f32 := spec2_3.stage ((cfg2 a).slots t 3)
abbrev hs2_3 (t : Fin (cfg2 a).N) : (ms2_3 a t).IsWhole := hstage2_3 (((cfg2 a).slots t 3).cast nbuf2_3)
abbrev ms2_4 (t : Fin (cfg2 a).N) : Memref sig .tc .vmem S1x16 .f32 := spec2_4.stage ((cfg2 a).slots t 4)
abbrev hs2_4 (t : Fin (cfg2 a).N) : (ms2_4 a t).IsWhole := hstage2_4 (((cfg2 a).slots t 4).cast nbuf2_4)
abbrev ms2_5 (t : Fin (cfg2 a).N) : Memref sig .tc .vmem S2048x16 .f32 := spec2_5.stage ((cfg2 a).slots t 5)
abbrev hs2_5 (t : Fin (cfg2 a).N) : (ms2_5 a t).IsWhole := hstage2_5 (((cfg2 a).slots t 5).cast nbuf2_5)

/-- The kernel body at point `t`, on what the pipeline calls it with. -/
abbrev bodyAt2 (t : Fin (cfg2 a).N) : Prog (TpuEff nD τ sig (Elt F) Λ₀ .tc) PUnit :=
  cc2__scatter_kernel (grid2.coords t) tbMin htbMin tbMax htbMax (ms2_0 a t) (hs2_0 a t) (ms2_1 a t) (hs2_1 a t) (ms2_2 a t) (hs2_2 a t)
    (ms2_3 a t) (hs2_3 a t) (ms2_4 a t) (hs2_4 a t) (ms2_5 a t) (hs2_5 a t) scM2 (Memref.isWhole_whole _)

/-- What the body is called with at point `t`, the windows one by one, -/
def bodyPre2 (c : Dev nD) (t : Fin (cfg2 a).N) : sProp 𝕄 :=
  iprop((dat2 V a c).Φ t.castSucc ∗ (dat2 V a c).owesAt () t.castSucc
    ∗ (∃ d, owns (c : Thread nD τ) (ms2_0 a t) fullShare ((dat2 V a c).before 0 t d))
    ∗ (∃ d, owns (c : Thread nD τ) (ms2_1 a t) fullShare ((dat2 V a c).before 1 t d))
    ∗ (∃ d, owns (c : Thread nD τ) (ms2_2 a t) fullShare ((dat2 V a c).before 2 t d))
    ∗ (∃ d, owns (c : Thread nD τ) (ms2_3 a t) fullShare ((dat2 V a c).before 3 t d))
    ∗ (∃ d, owns (c : Thread nD τ) (ms2_4 a t) fullShare ((dat2 V a c).before 4 t d))
    ∗ (∃ d, owns (c : Thread nD τ) (ms2_5 a t) fullShare ((dat2 V a c).before 5 t d)))

/-- and what it returns: the output's buffer as found where the window is idle, at the epilogue where it is stored. -/
def bodyPost2 (c : Dev nD) (t : Fin (cfg2 a).N) : sProp 𝕄 :=
  iprop((dat2 V a c).Φ t.succ ∗ (dat2 V a c).owesAt () t.succ
    ∗ owns (c : Thread nD τ) (ms2_0 a t) fullShare ((dat2 V a c).after 0 t)
    ∗ owns (c : Thread nD τ) (ms2_1 a t) fullShare ((dat2 V a c).after 1 t)
    ∗ owns (c : Thread nD τ) (ms2_2 a t) fullShare ((dat2 V a c).after 2 t)
    ∗ owns (c : Thread nD τ) (ms2_3 a t) fullShare ((dat2 V a c).after 3 t)
    ∗ owns (c : Thread nD τ) (ms2_4 a t) fullShare ((dat2 V a c).after 4 t)
    ∗ (dat2 V a c).leavesExact 5 t)

/-- Where the output is stored the window is live: its buffer ends at `after`. -/
theorem leaves2_live (c : Dev nD) (t : Fin (cfg2 a).N) (h : (cfg2 a).idle 5 ((cfg2 a).grid.coords t) = false) :
    (dat2 V a c).leavesExact 5 t = owns (c : Thread nD τ) (ms2_5 a t) fullShare ((dat2 V a c).after 5 t) := by
  unfold Dat.leavesExact; rw [h]; rfl

set_option maxHeartbeats 1000000 in
/-- The body at any point. The point's place on the grid decides the first and the last conditional; the middle
    one is decided by cases on the table words, which stay variables. In each case the matching run applies: the
    inputs' memrefs hold their blocks, the scratch what the point before left (anything at a first edge tile), and
    the scratch's new contents are `accAt2` at the point by its recursion. -/
theorem sound_body2 (c : Dev nD) (t : Fin (cfg2 a).N) :
    bodyPre2 V a c t ⊢ wp frame (wpE (defs₀ (F := F)) Variants.none c none) Set.univ (bodyAt2 a t) (fun _ => bodyPost2 V a c t) := by
  have hN : t.val < 19159 := lt_of_lt_of_eq t.isLt N_2
  have hk : (grid2.coords t 1).val = t.val % 391 := coords2_1 t
  unfold bodyPre2 bodyPost2
  simp only [before2_0, before2_1, before2_2, before2_3, before2_4]
  rw [after2_0, after2_1, after2_2, after2_3, after2_4, Phi_cast, Phi_succ, owes_succ, pref2_eq]
  by_cases h0 : t.val % 391 = 0
  · -- a first edge tile: the scratch restarts; the output window is idle and not written back
    have hc1 : k2_c1 (grid2.coords t) := (c1_iff _).mpr (hk.trans h0)
    have hc3 : ¬ k2_cond3 (grid2.coords t) = 1#1 := fun h => by have := (cond3_iff _).mp h; omega
    have hidle : (cfg2 a).idle 5 ((cfg2 a).grid.coords t) = true := by
      rw [idle2_5, beq_eq_false_iff_ne.mpr hc3]; rfl
    have hfl : ((cfg2 a).win 5).flush t = false := by
      rw [Bool.eq_false_iff]; intro h; have := (flush2_5 a t).mp h; omega
    rw [Dat.leavesExact_idle _ 5 t hidle hfl]
    by_cases hc2 : act2 a (grid2.coords t)
    · have hacc := accAt2_first V a c t (hk.trans h0)
      rw [if_pos hc2] at hacc
      rw [hacc]
      iintro ⟨⟨⟨HT0, HT1⟩, HS, HR, HG⟩, Ho, ⟨%d0, H0⟩, ⟨%d1, H1⟩, ⟨%d2, H2⟩, ⟨%d3, H3⟩, ⟨%d4, H4⟩, ⟨%d5, H5⟩⟩
      ihave HS' := (scr2_ex V a c _ _) $$ HS
      iapply (run2_FA c (grid2.coords t) (ms2_0 a t) (hs2_0 a t) (ms2_1 a t) (hs2_1 a t) (ms2_2 a t) (hs2_2 a t) (ms2_3 a t) (hs2_3 a t)
        (ms2_4 a t) (hs2_4 a t) (ms2_5 a t) (hs2_5 a t) scM2 (Memref.isWhole_whole _)
        (dstB V a c t) (gB V a c t) (hwB V a c t) (snB V a c t) (biasB V a c t) (a.1 0) (a.1 1) hc1 hc2 hc3
        ((dat2 V a c).before 5 t d5) Set.univ _)
      unfold kin2
      isplitl [H0 H1 H2 H3 H4 HT0 HT1]
      · isplitl [H0]; · iexact H0
        isplitl [H1]; · iexact H1
        isplitl [H2]; · iexact H2
        isplitl [H3]; · iexact H3
        isplitl [H4]; · iexact H4
        isplitl [HT0]; · iexact HT0
        iexact HT1
      isplitl [HS']; · iexact HS'
      isplitl [H5]; · iexact H5
      iintro ⟨⟨H0, H1, H2, H3, H4, HT0, HT1⟩, HS, H5⟩
      isplitl [HT0 HT1 HS HR HG]
      · isplitl [HT0 HT1]
        · isplitl [HT0]; · iexact HT0
          iexact HT1
        isplitl [HS]; · iexact HS
        isplitl [HR]; · iexact HR
        iexact HG
      isplitl [Ho]; · iexact Ho
      isplitl [H0]; · iexact H0
      isplitl [H1]; · iexact H1
      isplitl [H2]; · iexact H2
      isplitl [H3]; · iexact H3
      isplitl [H4]; · iexact H4
      iexists d5; iexact H5
    · have hacc := accAt2_first V a c t (hk.trans h0)
      rw [if_neg hc2] at hacc
      rw [hacc]
      iintro ⟨⟨⟨HT0, HT1⟩, HS, HR, HG⟩, Ho, ⟨%d0, H0⟩, ⟨%d1, H1⟩, ⟨%d2, H2⟩, ⟨%d3, H3⟩, ⟨%d4, H4⟩, ⟨%d5, H5⟩⟩
      ihave HS' := (scr2_ex V a c _ _) $$ HS
      iapply (run2_FI c (grid2.coords t) (ms2_0 a t) (hs2_0 a t) (ms2_1 a t) (hs2_1 a t) (ms2_2 a t) (hs2_2 a t) (ms2_3 a t) (hs2_3 a t)
        (ms2_4 a t) (hs2_4 a t) (ms2_5 a t) (hs2_5 a t) scM2 (Memref.isWhole_whole _)
        (dstB V a c t) (gB V a c t) (hwB V a c t) (snB V a c t) (biasB V a c t) (a.1 0) (a.1 1) hc1 hc2 hc3
        ((dat2 V a c).before 5 t d5) Set.univ _)
      unfold kin2
      isplitl [H0 H1 H2 H3 H4 HT0 HT1]
      · isplitl [H0]; · iexact H0
        isplitl [H1]; · iexact H1
        isplitl [H2]; · iexact H2
        isplitl [H3]; · iexact H3
        isplitl [H4]; · iexact H4
        isplitl [HT0]; · iexact HT0
        iexact HT1
      isplitl [HS']; · iexact HS'
      isplitl [H5]; · iexact H5
      iintro ⟨⟨H0, H1, H2, H3, H4, HT0, HT1⟩, HS, H5⟩
      isplitl [HT0 HT1 HS HR HG]
      · isplitl [HT0 HT1]
        · isplitl [HT0]; · iexact HT0
          iexact HT1
        isplitl [HS]; · iexact HS
        isplitl [HR]; · iexact HR
        iexact HG
      isplitl [Ho]; · iexact Ho
      isplitl [H0]; · iexact H0
      isplitl [H1]; · iexact H1
      isplitl [H2]; · iexact H2
      isplitl [H3]; · iexact H3
      isplitl [H4]; · iexact H4
      iexists d5; iexact H5
  · -- a later edge tile: the scratch holds what the point before left
    have ht0 : t.val ≠ 0 := fun h => h0 (by rw [h])
    have hc1 : ¬ k2_c1 (grid2.coords t) := fun h => h0 (hk.symm.trans ((c1_iff _).mp h))
    have hk' : (grid2.coords t 1).val ≠ 0 := fun h => h0 (hk.symm.trans h)
    rw [scr2_pos V a c t.val _ ht0]
    by_cases hL : t.val % 391 = 390
    · -- the last edge tile: the output block is stored, and written back
      have hc3 : k2_cond3 (grid2.coords t) = 1#1 := (cond3_iff _).mpr (hk.trans hL)
      have hlive : (cfg2 a).idle 5 ((cfg2 a).grid.coords t) = false := by
        rw [idle2_5, hc3]; rfl
      rw [leaves2_live V a c t hlive, after2_5]
      by_cases hc2 : act2 a (grid2.coords t)
      · have hacc := accAt2_next V a c t hk'
        rw [if_pos hc2] at hacc
        rw [hacc]
        iintro ⟨⟨⟨HT0, HT1⟩, HS, HR, HG⟩, Ho, ⟨%d0, H0⟩, ⟨%d1, H1⟩, ⟨%d2, H2⟩, ⟨%d3, H3⟩, ⟨%d4, H4⟩, ⟨%d5, H5⟩⟩
        iapply (run2_LA c (grid2.coords t) (ms2_0 a t) (hs2_0 a t) (ms2_1 a t) (hs2_1 a t) (ms2_2 a t) (hs2_2 a t) (ms2_3 a t) (hs2_3 a t)
          (ms2_4 a t) (hs2_4 a t) (ms2_5 a t) (hs2_5 a t) scM2 (Memref.isWhole_whole _)
          (dstB V a c t) (gB V a c t) (hwB V a c t) (snB V a c t) (biasB V a c t) (a.1 0) (a.1 1) hc1 hc2 hc3
          (accAt2 V a c (t.val - 1) (Nat.lt_of_le_of_lt (Nat.sub_le _ _) t.isLt)) Set.univ _)
        unfold kin2
        isplitl [H0 H1 H2 H3 H4 HT0 HT1]
        · isplitl [H0]; · iexact H0
          isplitl [H1]; · iexact H1
          isplitl [H2]; · iexact H2
          isplitl [H3]; · iexact H3
          isplitl [H4]; · iexact H4
          isplitl [HT0]; · iexact HT0
          iexact HT1
        isplitl [HS]; · iexact HS
        isplitl [H5]; · iexists _; iexact H5
        iintro ⟨⟨H0, H1, H2, H3, H4, HT0, HT1⟩, HS, H5⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        isplitl [H3]; · iexact H3
        isplitl [H4]; · iexact H4
        iexact H5
      · have hacc := accAt2_next V a c t hk'
        rw [if_neg hc2] at hacc
        rw [hacc]
        iintro ⟨⟨⟨HT0, HT1⟩, HS, HR, HG⟩, Ho, ⟨%d0, H0⟩, ⟨%d1, H1⟩, ⟨%d2, H2⟩, ⟨%d3, H3⟩, ⟨%d4, H4⟩, ⟨%d5, H5⟩⟩
        iapply (run2_LI c (grid2.coords t) (ms2_0 a t) (hs2_0 a t) (ms2_1 a t) (hs2_1 a t) (ms2_2 a t) (hs2_2 a t) (ms2_3 a t) (hs2_3 a t)
          (ms2_4 a t) (hs2_4 a t) (ms2_5 a t) (hs2_5 a t) scM2 (Memref.isWhole_whole _)
          (dstB V a c t) (gB V a c t) (hwB V a c t) (snB V a c t) (biasB V a c t) (a.1 0) (a.1 1) hc1 hc2 hc3
          (accAt2 V a c (t.val - 1) (Nat.lt_of_le_of_lt (Nat.sub_le _ _) t.isLt)) Set.univ _)
        unfold kin2
        isplitl [H0 H1 H2 H3 H4 HT0 HT1]
        · isplitl [H0]; · iexact H0
          isplitl [H1]; · iexact H1
          isplitl [H2]; · iexact H2
          isplitl [H3]; · iexact H3
          isplitl [H4]; · iexact H4
          isplitl [HT0]; · iexact HT0
          iexact HT1
        isplitl [HS]; · iexact HS
        isplitl [H5]; · iexists _; iexact H5
        iintro ⟨⟨H0, H1, H2, H3, H4, HT0, HT1⟩, HS, H5⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        isplitl [H3]; · iexact H3
        isplitl [H4]; · iexact H4
        iexact H5
    · -- a middle edge tile: the output window is idle and not written back
      have hc3 : ¬ k2_cond3 (grid2.coords t) = 1#1 := fun h => hL (hk.symm.trans ((cond3_iff _).mp h))
      have hidle : (cfg2 a).idle 5 ((cfg2 a).grid.coords t) = true := by
        rw [idle2_5, beq_eq_false_iff_ne.mpr hc3]; rfl
      have hfl : ((cfg2 a).win 5).flush t = false := by
        rw [Bool.eq_false_iff]; intro h; exact hL ((flush2_5 a t).mp h)
      rw [Dat.leavesExact_idle _ 5 t hidle hfl]
      by_cases hc2 : act2 a (grid2.coords t)
      · have hacc := accAt2_next V a c t hk'
        rw [if_pos hc2] at hacc
        rw [hacc]
        iintro ⟨⟨⟨HT0, HT1⟩, HS, HR, HG⟩, Ho, ⟨%d0, H0⟩, ⟨%d1, H1⟩, ⟨%d2, H2⟩, ⟨%d3, H3⟩, ⟨%d4, H4⟩, ⟨%d5, H5⟩⟩
        iapply (run2_MA c (grid2.coords t) (ms2_0 a t) (hs2_0 a t) (ms2_1 a t) (hs2_1 a t) (ms2_2 a t) (hs2_2 a t) (ms2_3 a t) (hs2_3 a t)
          (ms2_4 a t) (hs2_4 a t) (ms2_5 a t) (hs2_5 a t) scM2 (Memref.isWhole_whole _)
          (dstB V a c t) (gB V a c t) (hwB V a c t) (snB V a c t) (biasB V a c t) (a.1 0) (a.1 1) hc1 hc2 hc3
          (accAt2 V a c (t.val - 1) (Nat.lt_of_le_of_lt (Nat.sub_le _ _) t.isLt)) ((dat2 V a c).before 5 t d5) Set.univ _)
        unfold kin2
        isplitl [H0 H1 H2 H3 H4 HT0 HT1]
        · isplitl [H0]; · iexact H0
          isplitl [H1]; · iexact H1
          isplitl [H2]; · iexact H2
          isplitl [H3]; · iexact H3
          isplitl [H4]; · iexact H4
          isplitl [HT0]; · iexact HT0
          iexact HT1
        isplitl [HS]; · iexact HS
        isplitl [H5]; · iexact H5
        iintro ⟨⟨H0, H1, H2, H3, H4, HT0, HT1⟩, HS, H5⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        isplitl [H3]; · iexact H3
        isplitl [H4]; · iexact H4
        iexists d5; iexact H5
      · have hacc := accAt2_next V a c t hk'
        rw [if_neg hc2] at hacc
        rw [hacc]
        iintro ⟨⟨⟨HT0, HT1⟩, HS, HR, HG⟩, Ho, ⟨%d0, H0⟩, ⟨%d1, H1⟩, ⟨%d2, H2⟩, ⟨%d3, H3⟩, ⟨%d4, H4⟩, ⟨%d5, H5⟩⟩
        iapply (run2_MI c (grid2.coords t) (ms2_0 a t) (hs2_0 a t) (ms2_1 a t) (hs2_1 a t) (ms2_2 a t) (hs2_2 a t) (ms2_3 a t) (hs2_3 a t)
          (ms2_4 a t) (hs2_4 a t) (ms2_5 a t) (hs2_5 a t) scM2 (Memref.isWhole_whole _)
          (dstB V a c t) (gB V a c t) (hwB V a c t) (snB V a c t) (biasB V a c t) (a.1 0) (a.1 1) hc1 hc2 hc3
          (accAt2 V a c (t.val - 1) (Nat.lt_of_le_of_lt (Nat.sub_le _ _) t.isLt)) ((dat2 V a c).before 5 t d5) Set.univ _)
        unfold kin2
        isplitl [H0 H1 H2 H3 H4 HT0 HT1]
        · isplitl [H0]; · iexact H0
          isplitl [H1]; · iexact H1
          isplitl [H2]; · iexact H2
          isplitl [H3]; · iexact H3
          isplitl [H4]; · iexact H4
          isplitl [HT0]; · iexact HT0
          iexact HT1
        isplitl [HS]; · iexact HS
        isplitl [H5]; · iexact H5
        iintro ⟨⟨H0, H1, H2, H3, H4, HT0, HT1⟩, HS, H5⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        isplitl [H3]; · iexact H3
        isplitl [H4]; · iexact H4
        iexists d5; iexact H5

/-- The library's body obligation, at every point. -/
theorem body_obligation2 (c : Dev nD) : BodyObligation (dat2 (F := F) V a c) (defs₀ (F := F)) Variants.none () Set.univ := fun t => by
  rw [bigSep_W2, bigSep_W2]
  exact sound_body2 V a c t

/-! ## The invariant at the region's two ends -/

/-- The scratch as the region finds it (a scoped buffer at some contents) is the scratch memref owned at some contents. -/
theorem scr_in (c : Dev nD) :
    (iprop(∃ f : Buf (Elt F) ((c : Thread nD τ).loc cc2_scratch0), ((c : Thread nD τ).loc cc2_scratch0) ↦{fullShare} f) : sProp 𝕄)
      ⊢ iprop(∃ d, owns (c : Thread nD τ) scM2 fullShare d) := by
  simp only [owns_whole]; exact .rfl

theorem scr_out (c : Dev nD) :
    (iprop(∃ d, owns (c : Thread nD τ) scM2 fullShare d) : sProp 𝕄)
      ⊢ iprop(∃ f : Buf (Elt F) ((c : Thread nD τ).loc cc2_scratch0), ((c : Thread nD τ).loc cc2_scratch0) ↦{fullShare} f) := by
  simp only [owns_whole]; exact .rfl

/-- The invariant before the first point, from the generator register, the tables and the scoped rest. -/
theorem hin2 (c : Dev nD) :
    iprop((∃ r, prngReg c r) ∗ Pipeline.prefHeld pre2 c (fun _ => fullShare) a.1 ∗ Pipeline.scopedRest spec2 c) ⊢ (dat2 V a c).Φ 0 := by
  rw [scopedRest2_split]
  show _ ⊢ Φ2 V a c 0
  unfold Φ2
  show _ ⊢ iprop(_ ∗ (∃ d, owns (c : Thread nD τ) scM2 fullShare d) ∗ _ ∗ _)
  iintro ⟨HG, HT, HS, HR⟩
  isplitl [HT]; · iexact HT
  isplitl [HS]; · iapply (scr_in c); iexact HS
  isplitl [HR]; · iexact HR
  iexact HG

/-- The invariant after the last point gives the generator register and the tables (at the full share) back, and
    the scoped rest; the kernel has no semaphore of its own. -/
theorem hout2 (c : Dev nD) :
    (dat2 V a c).Φ (Fin.last _)
      ⊢ iprop(((∃ r, prngReg c r) ∗ Pipeline.prefHeld pre2 c (fun _ => fullShare) a.1) ∗ Pipeline.ownSems0 (fun k : PEmpty => k.elim) c ∗ Pipeline.scopedRest spec2 c) := by
  rw [scopedRest2_split, Pipeline.ownSems0_none]
  show Φ2 V a c (Fin.last _) ⊢ _
  unfold Φ2
  iintro ⟨HT, HS, HR, HG⟩
  ihave HS' := (scr2_ex V a c _ _) $$ HS
  isplitl [HG HT]
  · isplitl [HG]; · iexact HG
    iexact HT
  isplitr
  · iempintro
  isplitl [HS']; · iapply (scr_out c); iexact HS'
  iexact HR

end Cert.Kernel.R2

end
-- ==== Proof.K.R3Frame.lean ====
/- Region 3 of @main: the second dense layer, rows of the first layer's activations times the second weight matrix.
   What the pipeline's body finds in its staged operands and leaves in its output buffer at every grid point,
   the proof data built from that at the buffer contents the region is entered with, and the body obligation. -/
import proofs.«417346_j54202487276072_2_alg».proof.Proof.Gen.Kernel.Launch
import proofs.«417346_j54202487276072_2_alg».proof.Proof.Gen.Kernel.Skeleton
import proofs.«417346_j54202487276072_2_alg».proof.Proof.Gen.Kernel.Points
import Idealize.ShloMosaic.Lib.Pipeline.FrameBody
import Idealize.ShloMosaic.Lib.Pipeline.Value
import Idealize.ShloMosaic.Lib.Tactic

noncomputable section

namespace Cert.Kernel.R3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! # Region 3: the second dense layer, one row block per grid point

The grid has 49 points. At point `t` the pipeline stages rows `2048·t … 2048·t + 2047` of the padded feature
matrix (window 0), the whole weight matrix (window 1, staged once, at the first point) and gives the body a
buffer for the same rows of the product (window 2). The body reads both staged operands whole, multiplies them
into a zero accumulator, and overwrites the whole output buffer; it keeps nothing between points. Everything
here is stated at the buffer contents `V` with which the region is entered. -/

section Region
variable (V : (c : Dev nD) → (b : Ref sig .tc) → Buf (Elt F) ((c : Thread nD τ).loc b))

/-! ## The windows' blocks -/

/-- The block of window `w` at grid point `t`: its array, as the region finds it, read through the window's
    rectangle at that point. -/
def iblk3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-- The row-block window holds its block at every point: it is fetched at each one, and the body leaves it as
    found. Stated for any proof data with `V`'s array and a body that keeps the block. -/
theorem held3_0 {c : Dev nD} (dat : Dat τ (Elt F) Unit ℕ (UR sig nD τ) ℕ cfg3 c)
    (hA : dat.A 0 = V c (Pipeline.arrRef spec3 0)) (hafter : ∀ t, dat.after 0 t = iblk3 V c 0 t)
    (t : Fin cfg3.N) (d) : dat.before 0 t d = iblk3 V c 0 t :=
  (dat.before_in_eq_fetched 0 rfl (fun _ => rfl) (fun _ _ _ => rfl)
      (fun t => by rw [hafter]; unfold Dat.blockOf iblk3; rw [hA]; try rfl) t d).trans
    (by unfold Dat.fetched Dat.blockOf iblk3; rw [hA]; try rfl)

/-- The weight window holds the whole weight matrix at every point although it is fetched at the first only:
    its block index never moves, so at a later point the buffer still holds the previous point's block, which
    is this point's. -/
theorem held3_1 {c : Dev nD} (dat : Dat τ (Elt F) Unit ℕ (UR sig nD τ) ℕ cfg3 c)
    (hA : dat.A 1 = V c (Pipeline.arrRef spec3 1)) (hafter : ∀ t, dat.after 1 t = iblk3 V c 1 t)
    (t : Fin cfg3.N) (d) : dat.before 1 t d = iblk3 V c 1 t :=
  (dat.before_in_eq_fetched 1 rfl (fun _ => rfl) (fun _ _ _ => rfl)
      (fun t => by rw [hafter]; unfold Dat.blockOf iblk3; rw [hA]; try rfl) t d).trans
    (by unfold Dat.fetched Dat.blockOf iblk3; rw [hA]; try rfl)

/-! ## The body's accesses: each staging buffer whole -/

abbrev rLhs3 : Rect S2048x16 := Rect.unit (s := S2048x16) ![0, 0] S2048x16.size inb_S2048x16_S2048x16_0_0
abbrev rRhs3 : Rect S16x64 := Rect.unit (s := S16x64) ![0, 0] S16x64.size inb_S16x64_S16x64_0_0
abbrev rOut3 : Rect S2048x64 := Rect.unit (s := S2048x64) ![0, 0] S2048x64.size inb_S2048x64_S2048x64_0_0

/-- The offsets of those rectangles are zero on both axes. -/
theorem zeroOff : (![0, 0] : Fin 2 → Nat) = fun _ => 0 := funext fun a => by fin_cases a <;> rfl

/-! ## What the body leaves in the output buffer -/

/-- The output buffer after the body, as a function of the two staged operands: its one store, through the
    whole-buffer rectangle, of the product payload of the two whole-buffer loads. -/
def out3_2 (x0 : Vec F S2048x16 .f32) (x1 : Vec F S16x64 .f32) : Vec F S2048x64 .f32 :=
  View.canon [⟨rOut3, k3_pay1 (View.ld x0 rLhs3) (View.ld x1 rRhs3)⟩]

/-- That one store covers the buffer: its rectangle is the whole shape. -/
theorem covers3_2 (p : Vec F S2048x64 .f32) (y : S2048x64.Idx) :
    ∃ pc ∈ ([⟨rOut3, p⟩] : List (View.Piece (Elt F) S2048x64 .f32)), y ∈ pc.1.set :=
  ⟨_, List.mem_singleton_self _, View.mem_set_unit_zero zeroOff inb_S2048x64_S2048x64_0_0 y⟩

/-! ## The body's triple -/

set_option maxHeartbeats 1000000 in
/-- On whole staging memrefs, the operands' at contents `x0`, `x1` and the output's at anything, the body runs to
    a continuation that holds the operands' as they were and the output's at `out3_2 x0 x1`. The body is its
    skeleton: three loads (the third, of the output buffer, is discarded) and one covering store. -/
theorem triple3 (c : Dev nD) (E : Set ℕ) (i : grid3.Coords)
    (arg1 : Memref sig .tc .vmem S2048x16 .f32) (harg1 : arg1.IsWhole)
    (arg2 : Memref sig .tc .vmem S16x64 .f32) (harg2 : arg2.IsWhole)
    (arg3 : Memref sig .tc .vmem S2048x64 .f32) (harg3 : arg3.IsWhole)
    (x0 : Vec F S2048x16 .f32) (x1 : Vec F S16x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E
          (cc3__dense_kernel i arg1 harg1 arg2 harg2 arg3 harg3) K := by
  simp only [cc3__dense_kernel_eq_skeleton]; unfold cc3__dense_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers3_2 _)

/-! ## The pipeline's proof data -/

/-- Pipeline 3's proof data on core `c`: the arrays as the region finds them; after the body at point `t` each
    operand's buffer still at its block and the output's at `out3_2` of the two blocks; the invariant is the
    scoped rest and the generator register, untouched; full shares; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = out3_2 (iblk3 V c 0 t) (iblk3 V c 1 t) := by dsimp only [dat3]

/-- Each operand's current staging buffer holds its block at every point. -/
theorem before3_0 (c : Dev nD) (t : Fin cfg3.N) (d) : (dat3 V c).before 0 t d = iblk3 V c 0 t :=
  held3_0 V (dat3 V c) (A_eq3 V c 0) (after3_0 V c) t d
theorem before3_1 (c : Dev nD) (t : Fin cfg3.N) (d) : (dat3 V c).before 1 t d = iblk3 V c 1 t :=
  held3_1 V (dat3 V c) (A_eq3 V c 1) (after3_1 V c) t d

/-! ## The body obligation -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the operands' memrefs hold their blocks, so the body's triple applies; the invariant
    and the core's tallies pass through unread. -/
theorem sound_body3 (c : Dev nD) (t : Fin cfg3.N) :
    bodyPre3 V c t ⊢ wp frame (wpE (defs₀ (F := F)) Variants.none c none) Set.univ (bodyAt3 t)
      (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (triple3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) :
    BodyObligation (dat3 (F := F) V c) (defs₀ (F := F)) Variants.none () Set.univ := fun t => by
  rw [bigSep_W3, bigSep_W3]
  exact sound_body3 V c t

end Region

end Cert.Kernel.R3

end
-- ==== Proof.K.R4Sched.lean ====
/- The schedule of the gather region (grid [391, 49], point t ↔ (e, j) = (t / 49, t % 49), j the inner axis), at any
   admissible contents `a` of its two prefetched tables: the index maps do not read the tables, so each window's block
   index is a closed form in t, and with it which points fetch an input (src and norm: where j = 0; the node block:
   every point), which write the output back (where j = 48) and where the output is idle (where j ≠ 48). -/
import proofs.«417346_j54202487276072_2_alg».proof.Proof.Gen.Kernel.Launch

noncomputable section

namespace Cert.Kernel.R4

open Cert.Kernel Cert.Kernel.Gen
open Idealize.ShloMosaic Idealize.ShloMosaic.TcCoe
open Idealize.SL Idealize.SL.Sem

variable {F : FTy → Type} [FloatOps F]

/-! ## The coordinates of a point -/

theorem stride4_0 : grid4.stride 0 = 49 := by decide
theorem stride4_1 : grid4.stride 1 = 1 := by decide

/-- The outer coordinate (the edge tile) of point t is t / 49. -/
theorem coords4_0 (t : Fin grid4.N) : (grid4.coords t 0).val = t.val / 49 := by
  have h : t.val < 19159 := Nat.lt_of_lt_of_eq t.isLt N_4
  show t.val / grid4.stride 0 % 391 = _
  rw [stride4_0]; omega

/-- The inner coordinate (the node tile) of point t is t % 49. -/
theorem coords4_1 (t : Fin grid4.N) : (grid4.coords t 1).val = t.val % 49 := by
  show t.val / grid4.stride 1 % 49 = _
  rw [stride4_1, Nat.div_one]

theorem vec2_ne {x y : ℕ} : (![x, 0] : Fin 2 → ℕ) ≠ ![y, 0] ↔ x ≠ y :=
  ⟨fun h hxy => h (by rw [hxy]), fun h heq => h (congrFun heq 0)⟩
theorem vec1_ne {x y : ℕ} : (![x] : Fin 1 → ℕ) ≠ ![y] ↔ x ≠ y :=
  ⟨fun h hxy => h (by rw [hxy]), fun h heq => h (congrFun heq 0)⟩

variable (a : (pcfg4 (F := F)).Adm)

/-! ## The windows' block indices, in closed form -/

theorem idx4_0 (t : Fin (cfg4 a).N) : ((cfg4 a).win 0).index t = ![t.val / 49] := by
  have h : t.val < 19159 := Nat.lt_of_lt_of_eq t.isLt N_4
  show cc4_transform_0 (grid4.coords t) = _
  unfold cc4_transform_0
  simp only [BitVec.toNat_ofNat, coords4_0]
  rw [Nat.mod_eq_of_lt (by omega)]

theorem idx4_1 (t : Fin (cfg4 a).N) : ((cfg4 a).win 1).index t = ![t.val / 49] := by
  have h : t.val < 19159 := Nat.lt_of_lt_of_eq t.isLt N_4
  show cc4_transform_1 (grid4.coords t) = _
  unfold cc4_transform_1
  simp only [BitVec.toNat_ofNat, coords4_0]
  rw [Nat.mod_eq_of_lt (by omega)]

theorem idx4_2 (t : Fin (cfg4 a).N) : ((cfg4 a).win 2).index t = ![t.val % 49, 0] := by
  show cc4_transform_2 (grid4.coords t) = _
  unfold cc4_transform_2
  simp only [BitVec.toNat_ofNat, coords4_1]
  rw [Nat.mod_eq_of_lt (by omega)]

theorem idx4_3 (t : Fin (cfg4 a).N) : ((cfg4 a).win 3).index t = ![t.val / 49, 0] := by
  have h : t.val < 19159 := Nat.lt_of_lt_of_eq t.isLt N_4
  show cc4_transform_3 (grid4.coords t) = _
  unfold cc4_transform_3
  simp only [BitVec.toNat_ofNat, coords4_0]
  rw [Nat.mod_eq_of_lt (by omega)]

/-! ## Which points fetch, which write back -/

/-- The output block is written back exactly at the last node tile of each edge tile (j = 48). -/
theorem flush4_3 (t : Fin (cfg4 a).N) : ((cfg4 a).win 3).flush t = true ↔ t.val % 49 = 48 := by
  have hN : (pcfg4.gridAt a.1).N = 19159 := N_4
  have hN' : (cfg4 a).N = 19159 := N_4
  have hN'' : (cfg4 a).grid.N = 19159 := N_4
  have ht : t.val < 19159 := Nat.lt_of_lt_of_eq t.isLt N_4
  have key : ∀ (s s' : Fin (cfg4 a).N), ((cfg4 a).win 3).index s ≠ ((cfg4 a).win 3).index s' ↔ s.val / 49 ≠ s'.val / 49 :=
    fun s s' => by rw [idx4_3, idx4_3]; exact vec2_ne
  unfold Pipeline.Window.flush
  rw [show ((cfg4 a).win 3).isOut = true from rfl, Bool.true_and, Bool.or_eq_true, decide_eq_true_eq, decide_eq_true_eq]
  constructor
  · rintro (h | ⟨h, hne⟩)
    · omega
    · have h2 := (key _ _).mp hne
      dsimp only at h2
      omega
  · intro h
    by_cases hl : t.val + 1 = 19159
    · exact .inl (by omega)
    · exact .inr ⟨by omega, (key ⟨t.val + 1, by omega⟩ t).mpr (by dsimp only; omega)⟩

/-- The source-index block is fetched exactly at the first node tile of each edge tile (j = 0). -/
theorem fetch4_0 (t : Fin (cfg4 a).N) : ((cfg4 a).win 0).fetch t = true ↔ t.val % 49 = 0 := by
  have hN : (pcfg4.gridAt a.1).N = 19159 := N_4
  have hN' : (cfg4 a).N = 19159 := N_4
  have hN'' : (cfg4 a).grid.N = 19159 := N_4
  have ht : t.val < 19159 := Nat.lt_of_lt_of_eq t.isLt N_4
  have key : ∀ (s s' : Fin (cfg4 a).N), ((cfg4 a).win 0).index s ≠ ((cfg4 a).win 0).index s' ↔ s.val / 49 ≠ s'.val / 49 :=
    fun s s' => by rw [idx4_0, idx4_0]; exact vec1_ne
  unfold Pipeline.Window.fetch
  rw [show ((cfg4 a).win 0).isOut = false from rfl, Bool.not_false, Bool.true_and, Bool.or_eq_true, decide_eq_true_eq, decide_eq_true_eq]
  constructor
  · rintro (h | ⟨h, hne⟩)
    · omega
    · have h2 := (key _ _).mp hne
      dsimp only at h2
      omega
  · intro h
    by_cases hl : t.val = 0
    · exact .inl hl
    · exact .inr ⟨by omega, (key t ⟨t.val - 1, by omega⟩).mpr (by dsimp only; omega)⟩

/-- The edge-norm block likewise. -/
theorem fetch4_1 (t : Fin (cfg4 a).N) : ((cfg4 a).win 1).fetch t = true ↔ t.val % 49 = 0 := by
  have hN : (pcfg4.gridAt a.1).N = 19159 := N_4
  have hN' : (cfg4 a).N = 19159 := N_4
  have hN'' : (cfg4 a).grid.N = 19159 := N_4
  have ht : t.val < 19159 := Nat.lt_of_lt_of_eq t.isLt N_4
  have key : ∀ (s s' : Fin (cfg4 a).N), ((cfg4 a).win 1).index s ≠ ((cfg4 a).win 1).index s' ↔ s.val / 49 ≠ s'.val / 49 :=
    fun s s' => by rw [idx4_1, idx4_1]; exact vec1_ne
  unfold Pipeline.Window.fetch
  rw [show ((cfg4 a).win 1).isOut = false from rfl, Bool.not_false, Bool.true_and, Bool.or_eq_true, decide_eq_true_eq, decide_eq_true_eq]
  constructor
  · rintro (h | ⟨h, hne⟩)
    · omega
    · have h2 := (key _ _).mp hne
      dsimp only at h2
      omega
  · intro h
    by_cases hl : t.val = 0
    · exact .inl hl
    · exact .inr ⟨by omega, (key t ⟨t.val - 1, by omega⟩).mpr (by dsimp only; omega)⟩

/-- The node-feature block is fetched at every point (the node tile changes from each point to the next). -/
theorem fetch4_2 (t : Fin (cfg4 a).N) : ((cfg4 a).win 2).fetch t = true := by
  have hN : (pcfg4.gridAt a.1).N = 19159 := N_4
  have hN' : (cfg4 a).N = 19159 := N_4
  have hN'' : (cfg4 a).grid.N = 19159 := N_4
  have ht : t.val < 19159 := Nat.lt_of_lt_of_eq t.isLt N_4
  have key : ∀ (s s' : Fin (cfg4 a).N), ((cfg4 a).win 2).index s ≠ ((cfg4 a).win 2).index s' ↔ s.val % 49 ≠ s'.val % 49 :=
    fun s s' => by rw [idx4_2, idx4_2]; exact vec2_ne
  unfold Pipeline.Window.fetch
  rw [show ((cfg4 a).win 2).isOut = false from rfl, Bool.not_false, Bool.true_and, Bool.or_eq_true, decide_eq_true_eq, decide_eq_true_eq]
  by_cases hl : t.val = 0
  · exact .inl hl
  · exact .inr ⟨by omega, (key t ⟨t.val - 1, by omega⟩).mpr (by dsimp only; omega)⟩

/-! ## The body's guards on the inner coordinate -/

/-- The first guard (reset the accumulator) as the kernel computes it. -/
abbrev cond1 (i : grid4.Coords) : Prop :=
  Scalar.cmpi .ne (Scalar.extui (Scalar.cmpi .eq (BitVec.ofNat 32 (i 1).val) 0#32)) 0#32 = 1#1

theorem cond1_fin : ∀ j : Fin 49, (Scalar.cmpi .ne (Scalar.extui (Scalar.cmpi .eq (BitVec.ofNat 32 j.val) 0#32)) 0#32 = 1#1) ↔ j.val = 0 := by decide
theorem cond3_fin : ∀ j : Fin 49, (Scalar.cmpi .ne (Scalar.extui (Scalar.cmpi .eq (BitVec.ofNat 32 j.val) 48#32)) 0#32 = 1#1) ↔ j.val = 48 := by decide

/-- It holds exactly where the node tile is the first. -/
theorem cond1_iff (i : grid4.Coords) : cond1 i ↔ (i 1).val = 0 := cond1_fin (i 1)
/-- The third guard (store the output) holds exactly where the node tile is the last. -/
theorem k4_cond3_iff' (i : grid4.Coords) : k4_cond3 i = 1#1 ↔ (i 1).val = 48 := cond3_fin (i 1)
theorem k4_cond3_iff (t : Fin grid4.N) : k4_cond3 (grid4.coords t) = 1#1 ↔ t.val % 49 = 48 := by
  rw [← coords4_1]; exact cond3_fin (grid4.coords t 1)

/-- The output window is idle exactly where the third guard fails. -/
theorem idle4_3 (t : Fin (cfg4 a).N) : (cfg4 a).idle 3 (grid4.coords t) = true ↔ t.val % 49 ≠ 48 := by
  show (!(k4_cond3 (grid4.coords t) == 1#1)) = true ↔ _
  rw [Bool.not_eq_true', beq_eq_false_iff_ne, ne_eq, k4_cond3_iff]

theorem idle4_3_of (i : grid4.Coords) (h : ¬ k4_cond3 i = 1#1) : (cfg4 a).idle 3 i = true := by
  show (!(k4_cond3 i == 1#1)) = true
  rw [Bool.not_eq_true', beq_eq_false_iff_ne]; exact h
theorem live4_3_of (i : grid4.Coords) (h : k4_cond3 i = 1#1) : (cfg4 a).idle 3 i = false := by
  show (!(k4_cond3 i == 1#1)) = false
  rw [Bool.not_eq_false', beq_iff_eq]; exact h

/-- The inputs are never idle. -/
theorem live4_0 (i : grid4.Coords) : (cfg4 a).idle 0 i = false := rfl
theorem live4_1 (i : grid4.Coords) : (cfg4 a).idle 1 i = false := rfl
theorem live4_2 (i : grid4.Coords) : (cfg4 a).idle 2 i = false := rfl

/-- Where the output is idle it is not written back. -/
theorem noflush4_3 (t : Fin (cfg4 a).N) (h : ¬ k4_cond3 (grid4.coords t) = 1#1) : ((cfg4 a).win 3).flush t = false := by
  rw [Bool.eq_false_iff, ne_eq, flush4_3, ← k4_cond3_iff]; exact h

end Cert.Kernel.R4

end
-- ==== Proof.K.R4Runs.lean ====
import proofs.«417346_j54202487276072_2_alg».proof.Proof.Gen.Kernel.Launch
import proofs.«417346_j54202487276072_2_alg».proof.Proof.Gen.Kernel.Skeleton
import proofs.«417346_j54202487276072_2_alg».proof.Proof.K.R4Sched
import Idealize.ShloMosaic.Lib.Pipeline.FrameBody
import Idealize.ShloMosaic.Lib.Pipeline.Value
import Idealize.ShloMosaic.Lib.Tactic

set_option maxRecDepth 16384

noncomputable section

namespace Cert.Kernel.R4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## The tables as the body is handed them; the step's condition -/

abbrev tbMin4 : Memref sig .tc .smem S391 .i32 := Memref.whole main_v68
abbrev htbMin4 : (tbMin4).IsWhole := Memref.isWhole_whole _
abbrev tbMax4 : Memref sig .tc .smem S391 .i32 := Memref.whole main_v70
abbrev htbMax4 : (tbMax4).IsWhole := Memref.isWhole_whole _

/-- A table's buffer contents on core `c`, and the table held whole at them. -/
abbrev TbBuf4 (c : Dev nD) (M : Memref sig .tc .smem S391 .i32) : Type := Buf (Elt F) (M.view.loc (c : Thread nD τ))
abbrev tbPt4 (c : Dev nD) (M : Memref sig .tc .smem S391 .i32) (f : TbBuf4 (F := F) c M) : sProp 𝕄 :=
  M.view.loc (c : Thread nD τ) ↦{fullShare} f

/-- The word of table `M` the body loads at point `i` (the entry of the point's edge tile), over contents `f`. -/
abbrev wd4 (M : Memref sig .tc .smem S391 .i32) (f : M.view.ty.Contents (Elt F)) (i : grid4.Coords) : Elt F .i32 :=
  M.view.readAt (Elt F) (Rect.unit (s := S391) (k4_off1 i) S1.size (k4_off1_inb i)).toLoadRect f (Shape.Idx.first (numel1_S1.symm ▸ Nat.one_pos))

/-- The condition of the accumulation step as the body computes it: the node tile `[2048 i₁, 2048 i₁ + 2048)` meets
    the range `[mn, mx]` of sources in the edge tile (signed comparisons on the two table words). -/
def k4_act (i : grid4.Coords) (mx mn : Elt F .i32) : BitVec 1 :=
  let arg1 : BitVec 32 := BitVec.ofNat 32 (i 1).val
  let v3 : BitVec 32 := Scalar.muli arg1 2048#32
  let v4 : BitVec 32 := Scalar.addi v3 2048#32
  let v7 : BitVec 1 := Scalar.cmpi .sle v3 mx
  let v10 : BitVec 1 := Scalar.cmpi .sgt v4 mn
  let v11 : BitVec 1 := Scalar.andi v7 v10
  let v12 : BitVec 32 := Scalar.extui v11
  Scalar.cmpi .ne v12 0#32

/-! ## Whole-buffer loads and stores -/

theorem z1 : (![0] : Fin 1 → Nat) = fun _ => 0 := by funext a; fin_cases a; rfl
theorem z2 : (![0, 0] : Fin 2 → Nat) = fun _ => 0 := by funext a; fin_cases a <;> rfl

/-- A load through the whole-shape rectangle at zero offsets reads the memref's contents. -/
theorem rdU (S : Shape) {e : EltTy} {κ : Kind} {sp : Space} (v : View sig κ sp S e) {off : Fin S.rank → Nat} (h : off = fun _ => 0)
    (inb : ∀ a, off a + S.size a ≤ S.size a) (f : v.ty.Contents (Elt F)) :
    v.readAt (Elt F) (Rect.unit off S.size inb).toLoadRect f = v.read (Elt F) f :=
  View.ld_unit_zero h inb _

/-- Every index lies in the whole-shape rectangle: a list of stores headed by one through it covers the buffer. -/
theorem covU (S : Shape) {e : EltTy} {off : Fin S.rank → Nat} (h : off = fun _ => 0) (inb : ∀ a, off a + S.size a ≤ S.size a)
    (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons.mpr (Or.inl rfl), View.mem_set_unit_zero h inb y⟩

/-- A load through it of what the run's stores left, the last of them through it, reads that store's payload. -/
theorem rcU (S : Shape) {e : EltTy} {κ : Kind} {sp : Space} (v : View sig κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (covU S h inb w L), View.canon_cons_unit_zero h, View.ld_unit_zero h]

/-- The buffer read back after the run's stores, the last of them through the whole-shape rectangle: its payload. -/
theorem rwU (S : Shape) {e : EltTy} {κ : Kind} {sp : Space} (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (covU S h inb w L), View.canon_cons_unit_zero h]

/-- The inputs' staging memrefs at their blocks and the two tables at their contents: what every case of the body
    is handed and hands back untouched. -/
def kin4 (c : Dev nD) (arg4 : Memref sig .tc .vmem S4096 .i32) (arg5 : Memref sig .tc .vmem S4096 .f32)
    (arg6 : Memref sig .tc .vmem S2048x64 .f32)
    (x0 : Vec F S4096 .i32) (x1 : Vec F S4096 .f32) (x2 : Vec F S2048x64 .f32)
    (xt0 : TbBuf4 (F := F) c tbMin4) (xt1 : TbBuf4 (F := F) c tbMax4) : sProp 𝕄 :=
  iprop(owns (c : Thread nD τ) arg4 fullShare x0 ∗ owns (c : Thread nD τ) arg5 fullShare x1 ∗ owns (c : Thread nD τ) arg6 fullShare x2
    ∗ tbPt4 c tbMin4 xt0 ∗ tbPt4 c tbMax4 xt1)

/-! ## The body, case by case

The body has three conditionals: on the point's node tile being the first (the scratch is reset to zero), on the two
table words (the accumulation step), on the node tile being the last (the output block is stored). First and last
exclude each other on this grid, which leaves six cases. In each the printed function is its skeleton, run
operation by operation; every load and store is through a whole staging memref. The tables' words are never
evaluated: the case's hypothesis on them decides the middle conditional. -/

set_option maxHeartbeats 1000000 in
/-- First node tile, step taken: the scratch ends at the step applied to zero; the output's buffer is untouched. -/
theorem run4_FA (c : Dev nD) (i : grid4.Coords)
    (arg4 : Memref sig .tc .vmem S4096 .i32) (harg4 : arg4.IsWhole) (arg5 : Memref sig .tc .vmem S4096 .f32) (harg5 : arg5.IsWhole)
    (arg6 : Memref sig .tc .vmem S2048x64 .f32) (harg6 : arg6.IsWhole) (arg7 : Memref sig .tc .vmem S4096x64 .f32) (harg7 : arg7.IsWhole)
    (arg8 : Memref sig .tc .vmem S4096x64 .f32) (harg8 : arg8.IsWhole)
    (x0 : Vec F S4096 .i32) (x1 : Vec F S4096 .f32) (x2 : Vec F S2048x64 .f32)
    (xt0 : TbBuf4 (F := F) c tbMin4) (xt1 : TbBuf4 (F := F) c tbMax4)
    (hc1 : cond1 i) (hc2 : k4_act (F := F) i (wd4 tbMax4 xt1 i) (wd4 tbMin4 xt0 i) = 1#1) (hc3 : ¬ k4_cond3 i = 1#1)
    (xo : Vec F S4096x64 .f32) (E : Set ℕ) (K : PUnit → sProp 𝕄) :
    iprop(kin4 c arg4 arg5 arg6 x0 x1 x2 xt0 xt1
        ∗ (∃ d, owns (c : Thread nD τ) arg8 fullShare d) ∗ owns (c : Thread nD τ) arg7 fullShare xo
        ∗ (iprop(kin4 c arg4 arg5 arg6 x0 x1 x2 xt0 xt1
            ∗ owns (c : Thread nD τ) arg8 fullShare (k4_pay2 i x0 (k4_pay1 (F := F)) x2) ∗ owns (c : Thread nD τ) arg7 fullShare xo) -∗ K ⟨⟩))
      ⊢ wp frame (wpE (defs₀ (F := F)) Variants.none c none) E
          (cc4__gather_kernel i tbMin4 htbMin4 tbMax4 htbMax4 arg4 harg4 arg5 harg5 arg6 harg6 arg7 harg7 arg8 harg8) K := by
  simp only [cc4__gather_kernel_eq_skeleton]; unfold cc4__gather_kernel_skel
  unfold kin4 owns
  iintro ⟨⟨⟨%f0, %hf0, H0⟩, ⟨%f1, %hf1, H1⟩, ⟨%f2, %hf2, H2⟩, HT0, HT1⟩, ⟨%ds, %fs, -, HS⟩, ⟨%f9, %hf9, H9⟩, Hk⟩
  subst hf0 hf1 hf2 hf9
  sl_exec (disch := first | sl_exact hc1 | sl_exact hc2 | sl_exact hc3)
  sl_step
  iapply Hk
  isplitl [H0 H1 H2 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [HT0]; · iexact HT0
    iexact HT1
  isplitl [HS]
  · iexists _; isplitr; swap; · iexact HS
    ipureintro
    -- the second store's payload read the first store's back
    rw [rwU S4096x64 _ _ z2]
    unfold run4_FA.sl.v29 run4_FA.sl.HS_1
    simp only [rcU S4096x64 _ z2, rdU S4096 _ z1, rdU S2048x64 _ z2]
  iexists f9; isplitr; · ipureintro; rfl
  iexact H9

set_option maxHeartbeats 1000000 in
/-- First node tile, step skipped: the scratch ends at zero; the output's buffer is untouched. -/
theorem run4_FI (c : Dev nD) (i : grid4.Coords)
    (arg4 : Memref sig .tc .vmem S4096 .i32) (harg4 : arg4.IsWhole) (arg5 : Memref sig .tc .vmem S4096 .f32) (harg5 : arg5.IsWhole)
    (arg6 : Memref sig .tc .vmem S2048x64 .f32) (harg6 : arg6.IsWhole) (arg7 : Memref sig .tc .vmem S4096x64 .f32) (harg7 : arg7.IsWhole)
    (arg8 : Memref sig .tc .vmem S4096x64 .f32) (harg8 : arg8.IsWhole)
    (x0 : Vec F S4096 .i32) (x1 : Vec F S4096 .f32) (x2 : Vec F S2048x64 .f32)
    (xt0 : TbBuf4 (F := F) c tbMin4) (xt1 : TbBuf4 (F := F) c tbMax4)
    (hc1 : cond1 i) (hc2 : ¬ k4_act (F := F) i (wd4 tbMax4 xt1 i) (wd4 tbMin4 xt0 i) = 1#1) (hc3 : ¬ k4_cond3 i = 1#1)
    (xo : Vec F S4096x64 .f32) (E : Set ℕ) (K : PUnit → sProp 𝕄) :
    iprop(kin4 c arg4 arg5 arg6 x0 x1 x2 xt0 xt1
        ∗ (∃ d, owns (c : Thread nD τ) arg8 fullShare d) ∗ owns (c : Thread nD τ) arg7 fullShare xo
        ∗ (iprop(kin4 c arg4 arg5 arg6 x0 x1 x2 xt0 xt1
            ∗ owns (c : Thread nD τ) arg8 fullShare (k4_pay1 (F := F)) ∗ owns (c : Thread nD τ) arg7 fullShare xo) -∗ K ⟨⟩))
      ⊢ wp frame (wpE (defs₀ (F := F)) Variants.none c none) E
          (cc4__gather_kernel i tbMin4 htbMin4 tbMax4 htbMax4 arg4 harg4 arg5 harg5 arg6 harg6 arg7 harg7 arg8 harg8) K := by
  simp only [cc4__gather_kernel_eq_skeleton]; unfold cc4__gather_kernel_skel
  unfold kin4 owns
  iintro ⟨⟨⟨%f0, %hf0, H0⟩, ⟨%f1, %hf1, H1⟩, ⟨%f2, %hf2, H2⟩, HT0, HT1⟩, ⟨%ds, %fs, -, HS⟩, ⟨%f9, %hf9, H9⟩, Hk⟩
  subst hf0 hf1 hf2 hf9
  sl_exec (disch := first | sl_exact hc1 | sl_exact hc2 | sl_exact hc3)
  sl_step
  iapply Hk
  isplitl [H0 H1 H2 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [HT0]; · iexact HT0
    iexact HT1
  isplitl [HS]
  · iexists _; isplitr; swap; · iexact HS
    ipureintro
    rw [rwU S4096x64 _ _ z2]
  iexists f9; isplitr; · ipureintro; rfl
  iexact H9

set_option maxHeartbeats 1000000 in
/-- A middle node tile, step taken: the scratch ends at the step applied to what it held; the output's buffer is
    untouched. -/
theorem run4_MA (c : Dev nD) (i : grid4.Coords)
    (arg4 : Memref sig .tc .vmem S4096 .i32) (harg4 : arg4.IsWhole) (arg5 : Memref sig .tc .vmem S4096 .f32) (harg5 : arg5.IsWhole)
    (arg6 : Memref sig .tc .vmem S2048x64 .f32) (harg6 : arg6.IsWhole) (arg7 : Memref sig .tc .vmem S4096x64 .f32) (harg7 : arg7.IsWhole)
    (arg8 : Memref sig .tc .vmem S4096x64 .f32) (harg8 : arg8.IsWhole)
    (x0 : Vec F S4096 .i32) (x1 : Vec F S4096 .f32) (x2 : Vec F S2048x64 .f32)
    (xt0 : TbBuf4 (F := F) c tbMin4) (xt1 : TbBuf4 (F := F) c tbMax4)
    (hc1 : ¬ cond1 i) (hc2 : k4_act (F := F) i (wd4 tbMax4 xt1 i) (wd4 tbMin4 xt0 i) = 1#1) (hc3 : ¬ k4_cond3 i = 1#1)
    (xs xo : Vec F S4096x64 .f32) (E : Set ℕ) (K : PUnit → sProp 𝕄) :
    iprop(kin4 c arg4 arg5 arg6 x0 x1 x2 xt0 xt1
        ∗ owns (c : Thread nD τ) arg8 fullShare xs ∗ owns (c : Thread nD τ) arg7 fullShare xo
        ∗ (iprop(kin4 c arg4 arg5 arg6 x0 x1 x2 xt0 xt1
            ∗ owns (c : Thread nD τ) arg8 fullShare (k4_pay2 i x0 xs x2) ∗ owns (c : Thread nD τ) arg7 fullShare xo) -∗ K ⟨⟩))
      ⊢ wp frame (wpE (defs₀ (F := F)) Variants.none c none) E
          (cc4__gather_kernel i tbMin4 htbMin4 tbMax4 htbMax4 arg4 harg4 arg5 harg5 arg6 harg6 arg7 harg7 arg8 harg8) K := by
  simp only [cc4__gather_kernel_eq_skeleton]; unfold cc4__gather_kernel_skel
  unfold kin4 owns
  iintro ⟨⟨⟨%f0, %hf0, H0⟩, ⟨%f1, %hf1, H1⟩, ⟨%f2, %hf2, H2⟩, HT0, HT1⟩, ⟨%fs, %hfs, HS⟩, ⟨%f9, %hf9, H9⟩, Hk⟩
  subst hf0 hf1 hf2 hfs hf9
  sl_exec (disch := first | sl_exact hc1 | sl_exact hc2 | sl_exact hc3)
  sl_step
  iapply Hk
  isplitl [H0 H1 H2 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [HT0]; · iexact HT0
    iexact HT1
  isplitl [HS]
  · iexists _; isplitr; swap; · iexact HS
    ipureintro
    rw [rwU S4096x64 _ _ z2]
    simp only [rdU S4096 _ z1, rdU S4096x64 _ z2, rdU S2048x64 _ z2]
  iexists f9; isplitr; · ipureintro; rfl
  iexact H9

set_option maxHeartbeats 1000000 in
/-- A middle node tile, step skipped: nothing is stored. -/
theorem run4_MI (c : Dev nD) (i : grid4.Coords)
    (arg4 : Memref sig .tc .vmem S4096 .i32) (harg4 : arg4.IsWhole) (arg5 : Memref sig .tc .vmem S4096 .f32) (harg5 : arg5.IsWhole)
    (arg6 : Memref sig .tc .vmem S2048x64 .f32) (harg6 : arg6.IsWhole) (arg7 : Memref sig .tc .vmem S4096x64 .f32) (harg7 : arg7.IsWhole)
    (arg8 : Memref sig .tc .vmem S4096x64 .f32) (harg8 : arg8.IsWhole)
    (x0 : Vec F S4096 .i32) (x1 : Vec F S4096 .f32) (x2 : Vec F S2048x64 .f32)
    (xt0 : TbBuf4 (F := F) c tbMin4) (xt1 : TbBuf4 (F := F) c tbMax4)
    (hc1 : ¬ cond1 i) (hc2 : ¬ k4_act (F := F) i (wd4 tbMax4 xt1 i) (wd4 tbMin4 xt0 i) = 1#1) (hc3 : ¬ k4_cond3 i = 1#1)
    (xs xo : Vec F S4096x64 .f32) (E : Set ℕ) (K : PUnit → sProp 𝕄) :
    iprop(kin4 c arg4 arg5 arg6 x0 x1 x2 xt0 xt1
        ∗ owns (c : Thread nD τ) arg8 fullShare xs ∗ owns (c : Thread nD τ) arg7 fullShare xo
        ∗ (iprop(kin4 c arg4 arg5 arg6 x0 x1 x2 xt0 xt1
            ∗ owns (c : Thread nD τ) arg8 fullShare xs ∗ owns (c : Thread nD τ) arg7 fullShare xo) -∗ K ⟨⟩))
      ⊢ wp frame (wpE (defs₀ (F := F)) Variants.none c none) E
          (cc4__gather_kernel i tbMin4 htbMin4 tbMax4 htbMax4 arg4 harg4 arg5 harg5 arg6 harg6 arg7 harg7 arg8 harg8) K := by
  simp only [cc4__gather_kernel_eq_skeleton]; unfold cc4__gather_kernel_skel
  unfold kin4 owns
  iintro ⟨⟨⟨%f0, %hf0, H0⟩, ⟨%f1, %hf1, H1⟩, ⟨%f2, %hf2, H2⟩, HT0, HT1⟩, ⟨%fs, %hfs, HS⟩, ⟨%f9, %hf9, H9⟩, Hk⟩
  subst hf0 hf1 hf2 hfs hf9
  sl_exec (disch := first | sl_exact hc1 | sl_exact hc2 | sl_exact hc3)
  sl_step
  iapply Hk
  isplitl [H0 H1 H2 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [HT0]; · iexact HT0
    iexact HT1
  isplitl [HS]
  · iexists fs; isplitr; · ipureintro; rfl
    iexact HS
  iexists f9; isplitr; · ipureintro; rfl
  iexact H9

set_option maxHeartbeats 1000000 in
/-- Last node tile, step taken: the scratch ends at the step applied to what it held, and the output's buffer at
    that scaled by the edge norms. -/
theorem run4_LA (c : Dev nD) (i : grid4.Coords)
    (arg4 : Memref sig .tc .vmem S4096 .i32) (harg4 : arg4.IsWhole) (arg5 : Memref sig .tc .vmem S4096 .f32) (harg5 : arg5.IsWhole)
    (arg6 : Memref sig .tc .vmem S2048x64 .f32) (harg6 : arg6.IsWhole) (arg7 : Memref sig .tc .vmem S4096x64 .f32) (harg7 : arg7.IsWhole)
    (arg8 : Memref sig .tc .vmem S4096x64 .f32) (harg8 : arg8.IsWhole)
    (x0 : Vec F S4096 .i32) (x1 : Vec F S4096 .f32) (x2 : Vec F S2048x64 .f32)
    (xt0 : TbBuf4 (F := F) c tbMin4) (xt1 : TbBuf4 (F := F) c tbMax4)
    (hc1 : ¬ cond1 i) (hc2 : k4_act (F := F) i (wd4 tbMax4 xt1 i) (wd4 tbMin4 xt0 i) = 1#1) (hc3 : k4_cond3 i = 1#1)
    (xs : Vec F S4096x64 .f32) (E : Set ℕ) (K : PUnit → sProp 𝕄) :
    iprop(kin4 c arg4 arg5 arg6 x0 x1 x2 xt0 xt1
        ∗ owns (c : Thread nD τ) arg8 fullShare xs ∗ (∃ d, owns (c : Thread nD τ) arg7 fullShare d)
        ∗ (iprop(kin4 c arg4 arg5 arg6 x0 x1 x2 xt0 xt1
            ∗ owns (c : Thread nD τ) arg8 fullShare (k4_pay2 i x0 xs x2)
            ∗ owns (c : Thread nD τ) arg7 fullShare (k4_pay3 x1 (k4_pay2 i x0 xs x2))) -∗ K ⟨⟩))
      ⊢ wp frame (wpE (defs₀ (F := F)) Variants.none c none) E
          (cc4__gather_kernel i tbMin4 htbMin4 tbMax4 htbMax4 arg4 harg4 arg5 harg5 arg6 harg6 arg7 harg7 arg8 harg8) K := by
  simp only [cc4__gather_kernel_eq_skeleton]; unfold cc4__gather_kernel_skel
  unfold kin4 owns
  iintro ⟨⟨⟨%f0, %hf0, H0⟩, ⟨%f1, %hf1, H1⟩, ⟨%f2, %hf2, H2⟩, HT0, HT1⟩, ⟨%fs, %hfs, HS⟩, ⟨%d9, %f9, -, H9⟩, Hk⟩
  subst hf0 hf1 hf2 hfs
  sl_exec (disch := first | sl_exact hc1 | sl_exact hc2 | sl_exact hc3)
  sl_step
  iapply Hk
  isplitl [H0 H1 H2 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [HT0]; · iexact HT0
    iexact HT1
  isplitl [HS]
  · iexists _; isplitr; swap; · iexact HS
    ipureintro
    unfold run4_LA.sl.HS_1
    rw [rwU S4096x64 _ _ z2]
    simp only [rdU S4096 _ z1, rdU S4096x64 _ z2, rdU S2048x64 _ z2]
  iexists _; isplitr; swap; · iexact H9
  ipureintro
  -- the last conditional's load read the step's store back
  rw [rwU S4096x64 _ _ z2]
  unfold run4_LA.sl.v20 run4_LA.sl.HS_1
  simp only [rcU S4096x64 _ z2, rdU S4096 _ z1, rdU S4096x64 _ z2, rdU S2048x64 _ z2]

set_option maxHeartbeats 1000000 in
/-- Last node tile, step skipped: the scratch keeps what it held, and the output's buffer ends at that scaled by the
    edge norms. -/
theorem run4_LI (c : Dev nD) (i : grid4.Coords)
    (arg4 : Memref sig .tc .vmem S4096 .i32) (harg4 : arg4.IsWhole) (arg5 : Memref sig .tc .vmem S4096 .f32) (harg5 : arg5.IsWhole)
    (arg6 : Memref sig .tc .vmem S2048x64 .f32) (harg6 : arg6.IsWhole) (arg7 : Memref sig .tc .vmem S4096x64 .f32) (harg7 : arg7.IsWhole)
    (arg8 : Memref sig .tc .vmem S4096x64 .f32) (harg8 : arg8.IsWhole)
    (x0 : Vec F S4096 .i32) (x1 : Vec F S4096 .f32) (x2 : Vec F S2048x64 .f32)
    (xt0 : TbBuf4 (F := F) c tbMin4) (xt1 : TbBuf4 (F := F) c tbMax4)
    (hc1 : ¬ cond1 i) (hc2 : ¬ k4_act (F := F) i (wd4 tbMax4 xt1 i) (wd4 tbMin4 xt0 i) = 1#1) (hc3 : k4_cond3 i = 1#1)
    (xs : Vec F S4096x64 .f32) (E : Set ℕ) (K : PUnit → sProp 𝕄) :
    iprop(kin4 c arg4 arg5 arg6 x0 x1 x2 xt0 xt1
        ∗ owns (c : Thread nD τ) arg8 fullShare xs ∗ (∃ d, owns (c : Thread nD τ) arg7 fullShare d)
        ∗ (iprop(kin4 c arg4 arg5 arg6 x0 x1 x2 xt0 xt1
            ∗ owns (c : Thread nD τ) arg8 fullShare xs ∗ owns (c : Thread nD τ) arg7 fullShare (k4_pay3 x1 xs)) -∗ K ⟨⟩))
      ⊢ wp frame (wpE (defs₀ (F := F)) Variants.none c none) E
          (cc4__gather_kernel i tbMin4 htbMin4 tbMax4 htbMax4 arg4 harg4 arg5 harg5 arg6 harg6 arg7 harg7 arg8 harg8) K := by
  simp only [cc4__gather_kernel_eq_skeleton]; unfold cc4__gather_kernel_skel
  unfold kin4 owns
  iintro ⟨⟨⟨%f0, %hf0, H0⟩, ⟨%f1, %hf1, H1⟩, ⟨%f2, %hf2, H2⟩, HT0, HT1⟩, ⟨%fs, %hfs, HS⟩, ⟨%d9, %f9, -, H9⟩, Hk⟩
  subst hf0 hf1 hf2 hfs
  sl_exec (disch := first | sl_exact hc1 | sl_exact hc2 | sl_exact hc3)
  sl_step
  iapply Hk
  isplitl [H0 H1 H2 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [HT0]; · iexact HT0
    iexact HT1
  isplitl [HS]
  · iexists fs; isplitr; · ipureintro; rfl
    iexact HS
  iexists _; isplitr; swap; · iexact H9
  ipureintro
  rw [rwU S4096x64 _ _ z2]
  simp only [rdU S4096 _ z1, rdU S4096x64 _ z2]

end Cert.Kernel.R4

end
-- ==== Proof.K.R4Frame.lean ====
import proofs.«417346_j54202487276072_2_alg».proof.Proof.K.R4Sched
import proofs.«417346_j54202487276072_2_alg».proof.Proof.K.R4Runs
import Idealize.ShloMosaic.Lib.Pipeline.FrameBody
import Idealize.ShloMosaic.Lib.Pipeline.Frame

set_option maxRecDepth 16384

noncomputable section

namespace Cert.Kernel.R4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

-- the buffer contents when the region is entered, and the admissible tables: both parameters, never evaluated
variable (V : (c : Dev nD) → (b : Ref sig .tc) → Buf (Elt F) ((c : Thread nD τ).loc b)) (a : (pcfg4 (F := F)).Adm)

/-! # The gather region (custom_call 1) at entry contents `V` and tables `a`

The scratch carries, along each edge tile's run of node tiles, the sum over the node tiles whose range meets the
edge tile's sources of the rows gathered there; the output block is the scratch scaled by the edge norms at the
last node tile. -/

/-! ## The windows' blocks and the table words -/

/-- Window `w`'s block at point `t`, read off its array as the region finds it. -/
def iblk4 (c : Dev nD) (w : Fin (cfg4 a).W) (t : Fin (cfg4 a).N) : (((cfg4 a).win w).xblock ((cfg4 a).grid.coords t)).Idx → Elt F ((cfg4 a).win w).elt :=
  (((cfg4 a).win w).blk t).view.read (Elt F) (V c (Pipeline.arrRef spec4 w))

/-- The three input blocks at their vector types (no window is cut: a block's shape is its window's). -/
abbrev srcB (c : Dev nD) (t : Fin (cfg4 a).N) : Vec F S4096 .i32 := iblk4 V a c 0 t
abbrev normB (c : Dev nD) (t : Fin (cfg4 a).N) : Vec F S4096 .f32 := iblk4 V a c 1 t
abbrev hwB (c : Dev nD) (t : Fin (cfg4 a).N) : Vec F S2048x64 .f32 := iblk4 V a c 2 t

/-- The two table words the body loads at point `i`: the least and the greatest source in the edge tile. -/
abbrev wMin4 (i : grid4.Coords) : Elt F .i32 := wd4 tbMin4 (a.1 0) i
abbrev wMax4 (i : grid4.Coords) : Elt F .i32 := wd4 tbMax4 (a.1 1) i

/-- The accumulation step is taken at point `i`. -/
abbrev act4 (i : grid4.Coords) : Prop := k4_act (F := F) i (wMax4 a i) (wMin4 a i) = 1#1

/-! ## The scratch, point by point -/

/-- One point's effect on the scratch from what it held (`prev`): reset to zero at the first node tile, then the
    step if its condition holds. -/
def step4 (i : grid4.Coords) (prev : Vec F S4096x64 .f32) (src : Vec F S4096 .i32) (hw : Vec F S2048x64 .f32) : Vec F S4096x64 .f32 :=
  if act4 a i then k4_pay2 i src (if (i 1).val = 0 then k4_pay1 (F := F) else prev) hw
  else (if (i 1).val = 0 then k4_pay1 (F := F) else prev)

/-- What the scratch holds after the body at point `n`. -/
def accAt4 (c : Dev nD) : (n : ℕ) → n < (cfg4 a).N → Vec F S4096x64 .f32
  | 0, h => step4 a (grid4.coords ⟨0, h⟩) (k4_pay1 (F := F)) (srcB V a c ⟨0, h⟩) (hwB V a c ⟨0, h⟩)
  | n + 1, h => step4 a (grid4.coords ⟨n + 1, h⟩) (accAt4 c n (Nat.lt_of_succ_lt h)) (srcB V a c ⟨n + 1, h⟩) (hwB V a c ⟨n + 1, h⟩)

/-- At a first node tile the scratch restarts from zero. -/
theorem accAt4_first (c : Dev nD) (t : Fin (cfg4 a).N) (hk : (grid4.coords t 1).val = 0) :
    accAt4 V a c t.val t.isLt
      = if act4 a (grid4.coords t) then k4_pay2 (grid4.coords t) (srcB V a c t) (k4_pay1 (F := F)) (hwB V a c t)
        else k4_pay1 (F := F) := by
  obtain ⟨n, hn⟩ := t
  cases n with
  | zero => show step4 a _ _ _ _ = _; unfold step4; simp only [if_pos hk]
  | succ n => show step4 a _ _ _ _ = _; unfold step4; simp only [if_pos hk]

/-- At a later node tile it continues from the point before. -/
theorem accAt4_next (c : Dev nD) (t : Fin (cfg4 a).N) (hk : (grid4.coords t 1).val ≠ 0) :
    accAt4 V a c t.val t.isLt
      = if act4 a (grid4.coords t)
        then k4_pay2 (grid4.coords t) (srcB V a c t) (accAt4 V a c (t.val - 1) (Nat.lt_of_le_of_lt (Nat.sub_le _ _) t.isLt)) (hwB V a c t)
        else accAt4 V a c (t.val - 1) (Nat.lt_of_le_of_lt (Nat.sub_le _ _) t.isLt) := by
  obtain ⟨n, hn⟩ := t
  cases n with
  | zero => exact absurd (by rw [coords4_1]; rfl) hk
  | succ n => show step4 a _ _ _ _ = _; unfold step4; simp only [if_neg hk]; rfl

/-! ## The invariant between points -/

/-- The kernel's scratch operand: a whole scoped buffer of its own. -/
abbrev scM4 : Memref sig .tc .vmem S4096x64 .f32 := Memref.whole cc4_scratch0

/-- The scratch before point `n`: at anything before the first point, else at what the point before left. -/
def scr4 (c : Dev nD) : (n : ℕ) → n < (cfg4 a).N + 1 → sProp 𝕄
  | 0, _ => iprop(∃ d, owns (c : Thread nD τ) scM4 fullShare d)
  | n + 1, h => owns (c : Thread nD τ) scM4 fullShare (accAt4 V a c n (Nat.lt_of_succ_lt_succ h))

/-- The region's invariant before point `t`: the tables held whole at their contents, the scratch, the other scoped
    buffers unopened, the generator register at some state. -/
def Φ1 (c : Dev nD) (t : Fin ((cfg4 a).N + 1)) : sProp 𝕄 :=
  iprop(Pipeline.prefHeld (Ix := Unit) (Name := ℕ) (U := UR sig nD τ) (Lvl := ℕ) pre4 c (fun _ => fullShare) a.1
    ∗ scr4 V a c t.val t.isLt
    ∗ Pipeline.scopedRestBut (Ix := Unit) (Name := ℕ) (U := UR sig nD τ) (Lvl := ℕ) (Val := Elt F) spec4 c [cc4_scratch0]
    ∗ ∃ r, prngReg c r)

theorem scr4_ex (c : Dev nD) (n : ℕ) (h : n < (cfg4 a).N + 1) :
    scr4 V a c n h ⊢ (iprop(∃ d, owns (c : Thread nD τ) scM4 fullShare d) : sProp 𝕄) := by
  cases n with
  | zero => exact .rfl
  | succ n => show owns _ _ _ _ ⊢ _; iintro H; iexists _; iexact H

theorem scr4_pos (c : Dev nD) (n : ℕ) (h : n < (cfg4 a).N + 1) (hn : n ≠ 0) :
    scr4 V a c n h = owns (c : Thread nD τ) scM4 fullShare (accAt4 V a c (n - 1) (by omega)) := by
  cases n with
  | zero => exact absurd rfl hn
  | succ m => rfl

/-! ## The proof data -/

/-- The proof data of pipeline 4 on core `c`: the arrays as the region finds them; after the body each input's
    buffer at its block, the output's at the scratch scaled by the edge norms (consulted only where the block is
    written back: at the last node tile); the invariant `Φ1`; nothing owed; full shares. -/
def dat4 (c : Dev nD) : Dat τ (Elt F) Unit ℕ (UR sig nD τ) ℕ (cfg4 a) c where
  A w := V c (Pipeline.arrRef spec4 w)
  after w t := match w with
    | ⟨0, _⟩ => iblk4 V a c 0 t
    | ⟨1, _⟩ => iblk4 V a c 1 t
    | ⟨2, _⟩ => iblk4 V a c 2 t
    | ⟨3, _⟩ => k4_pay3 (normB V a c t) (accAt4 V a c t.val t.isLt)
  Φ t := Φ1 V a c t
  q _ := fullShare
  owed _ := 0

theorem A_eq4 (c : Dev nD) (w : Fin (cfg4 a).W) : (dat4 V a c).A w = V c (Pipeline.arrRef spec4 w) := by
  dsimp only [dat4]

theorem after4_0 (c : Dev nD) (t : Fin (cfg4 a).N) : (dat4 V a c).after 0 t = iblk4 V a c 0 t := by dsimp only [dat4]; rfl
theorem after4_1 (c : Dev nD) (t : Fin (cfg4 a).N) : (dat4 V a c).after 1 t = iblk4 V a c 1 t := by dsimp only [dat4]; rfl
theorem after4_2 (c : Dev nD) (t : Fin (cfg4 a).N) : (dat4 V a c).after 2 t = iblk4 V a c 2 t := by dsimp only [dat4]; rfl
/-- The output's buffer after the body: the scratch scaled by the edge norms (what the write-back writes at the last node tile). -/
theorem after4_3 (c : Dev nD) (t : Fin (cfg4 a).N) :
    (dat4 V a c).after 3 t = k4_pay3 (normB V a c t) (accAt4 V a c t.val t.isLt) := by dsimp only [dat4]; rfl

/-- Each input's current staging buffer holds its block at every point, fetched there or not: the body only
    reads it, the window is uncut and never idle. -/
theorem before4_0 (c : Dev nD) (t : Fin (cfg4 a).N) (d) : (dat4 V a c).before 0 t d = iblk4 V a c 0 t :=
  ((dat4 V a c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)
theorem before4_1 (c : Dev nD) (t : Fin (cfg4 a).N) (d) : (dat4 V a c).before 1 t d = iblk4 V a c 1 t :=
  ((dat4 V a c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)
theorem before4_2 (c : Dev nD) (t : Fin (cfg4 a).N) (d) : (dat4 V a c).before 2 t d = iblk4 V a c 2 t :=
  ((dat4 V a c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)

/-! ## The invariant, opened -/

/-- The tables, one by one. -/
theorem pref4_eq (c : Dev nD) :
    (Pipeline.prefHeld (Ix := Unit) (Name := ℕ) (U := UR sig nD τ) (Lvl := ℕ) pre4 c (fun _ => fullShare) a.1 : sProp 𝕄)
      = iprop(tbPt4 c tbMin4 (a.1 0) ∗ tbPt4 c tbMax4 (a.1 1)) := by
  unfold Pipeline.prefHeld
  rw [show (Finset.univ : Finset (Fin 2)) = insert (0 : Fin 2) {(1 : Fin 2)} from by decide,
    bigSep_insert (by decide), bigSep_singleton]
  rfl

theorem Phi_cast (c : Dev nD) (t : Fin (cfg4 a).N) :
    (dat4 V a c).Φ t.castSucc
      = iprop(Pipeline.prefHeld (Ix := Unit) (Name := ℕ) (U := UR sig nD τ) (Lvl := ℕ) pre4 c (fun _ => fullShare) a.1
          ∗ scr4 V a c t.val (Nat.lt_succ_of_lt t.isLt)
          ∗ Pipeline.scopedRestBut (Ix := Unit) (Name := ℕ) (U := UR sig nD τ) (Lvl := ℕ) (Val := Elt F) spec4 c [cc4_scratch0]
          ∗ ∃ r, prngReg c r) := by
  obtain ⟨n, hn⟩ := t; rfl

theorem Phi_succ (c : Dev nD) (t : Fin (cfg4 a).N) :
    (dat4 V a c).Φ t.succ
      = iprop(Pipeline.prefHeld (Ix := Unit) (Name := ℕ) (U := UR sig nD τ) (Lvl := ℕ) pre4 c (fun _ => fullShare) a.1
          ∗ owns (c : Thread nD τ) scM4 fullShare (accAt4 V a c t.val t.isLt)
          ∗ Pipeline.scopedRestBut (Ix := Unit) (Name := ℕ) (U := UR sig nD τ) (Lvl := ℕ) (Val := Elt F) spec4 c [cc4_scratch0]
          ∗ ∃ r, prngReg c r) := by
  obtain ⟨n, hn⟩ := t; rfl

theorem owes_succ (c : Dev nD) (t : Fin (cfg4 a).N) :
    (dat4 V a c).owesAt () t.succ = (dat4 V a c).owesAt () t.castSucc := rfl

/-! ## The body at a point -/

/-- Each window's current staging memref at point `t`, spelled as the pipeline passes it, and its wholeness. -/
abbrev ms4_0 (t : Fin (cfg4 a).N) : Memref sig .tc .vmem S4096 .i32 := spec4_0.stage ((cfg4 a).slots t 0)
abbrev hs4_0 (t : Fin (cfg4 a).N) : (ms4_0 a t).IsWhole := hstage4_0 (((cfg4 a).slots t 0).cast nbuf4_0)
abbrev ms4_1 (t : Fin (cfg4 a).N) : Memref sig .tc .vmem S4096 .f32 := spec4_1.stage ((cfg4 a).slots t 1)
abbrev hs4_1 (t : Fin (cfg4 a).N) : (ms4_1 a t).IsWhole := hstage4_1 (((cfg4 a).slots t 1).cast nbuf4_1)
abbrev ms4_2 (t : Fin (cfg4 a).N) : Memref sig .tc .vmem S2048x64 .f32 := spec4_2.stage ((cfg4 a).slots t 2)
abbrev hs4_2 (t : Fin (cfg4 a).N) : (ms4_2 a t).IsWhole := hstage4_2 (((cfg4 a).slots t 2).cast nbuf4_2)
abbrev ms4_3 (t : Fin (cfg4 a).N) : Memref sig .tc .vmem S4096x64 .f32 := spec4_3.stage ((cfg4 a).slots t 3)
abbrev hs4_3 (t : Fin (cfg4 a).N) : (ms4_3 a t).IsWhole := hstage4_3 (((cfg4 a).slots t 3).cast nbuf4_3)

/-- The kernel body at point `t`, on what the pipeline calls it with. -/
abbrev bodyAt4 (t : Fin (cfg4 a).N) : Prog (TpuEff nD τ sig (Elt F) Λ₀ .tc) PUnit :=
  cc4__gather_kernel (grid4.coords t) tbMin4 htbMin4 tbMax4 htbMax4 (ms4_0 a t) (hs4_0 a t) (ms4_1 a t) (hs4_1 a t) (ms4_2 a t) (hs4_2 a t)
    (ms4_3 a t) (hs4_3 a t) scM4 (Memref.isWhole_whole _)

/-- What the body is called with at point `t`, the windows one by one, -/
def bodyPre4 (c : Dev nD) (t : Fin (cfg4 a).N) : sProp 𝕄 :=
  iprop((dat4 V a c).Φ t.castSucc ∗ (dat4 V a c).owesAt () t.castSucc
    ∗ (∃ d, owns (c : Thread nD τ) (ms4_0 a t) fullShare ((dat4 V a c).before 0 t d))
    ∗ (∃ d, owns (c : Thread nD τ) (ms4_1 a t) fullShare ((dat4 V a c).before 1 t d))
    ∗ (∃ d, owns (c : Thread nD τ) (ms4_2 a t) fullShare ((dat4 V a c).before 2 t d))
    ∗ (∃ d, owns (c : Thread nD τ) (ms4_3 a t) fullShare ((dat4 V a c).before 3 t d)))

/-- and what it returns: the output's buffer as found where the window is idle, at the scaled scratch where it is stored. -/
def bodyPost4 (c : Dev nD) (t : Fin (cfg4 a).N) : sProp 𝕄 :=
  iprop((dat4 V a c).Φ t.succ ∗ (dat4 V a c).owesAt () t.succ
    ∗ owns (c : Thread nD τ) (ms4_0 a t) fullShare ((dat4 V a c).after 0 t)
    ∗ owns (c : Thread nD τ) (ms4_1 a t) fullShare ((dat4 V a c).after 1 t)
    ∗ owns (c : Thread nD τ) (ms4_2 a t) fullShare ((dat4 V a c).after 2 t)
    ∗ (dat4 V a c).leavesExact 3 t)

/-- Where the output is stored the window is live: its buffer ends at `after`. -/
theorem leaves4_live (c : Dev nD) (t : Fin (cfg4 a).N) (h : (cfg4 a).idle 3 ((cfg4 a).grid.coords t) = false) :
    (dat4 V a c).leavesExact 3 t = owns (c : Thread nD τ) (ms4_3 a t) fullShare ((dat4 V a c).after 3 t) := by
  unfold Dat.leavesExact; rw [h]; rfl

set_option maxHeartbeats 1000000 in
/-- The body at any point. The point's place on the grid decides the first and the last conditional; the middle
    one is decided by cases on the table words, which stay variables. In each case the matching run applies: the
    inputs' memrefs hold their blocks, the scratch what the point before left (anything at a first node tile), and
    the scratch's new contents are `accAt4` at the point by its recursion. -/
theorem sound_body4 (c : Dev nD) (t : Fin (cfg4 a).N) :
    bodyPre4 V a c t ⊢ wp frame (wpE (defs₀ (F := F)) Variants.none c none) Set.univ (bodyAt4 a t) (fun _ => bodyPost4 V a c t) := by
  have hN : t.val < 19159 := lt_of_lt_of_eq t.isLt N_4
  have hk : (grid4.coords t 1).val = t.val % 49 := coords4_1 t
  unfold bodyPre4 bodyPost4
  simp only [before4_0, before4_1, before4_2]
  rw [after4_0, after4_1, after4_2, Phi_cast, Phi_succ, owes_succ, pref4_eq]
  by_cases h0 : t.val % 49 = 0
  · -- a first node tile: the scratch restarts; the output window is idle and not written back
    have hc1 : cond1 (grid4.coords t) := (cond1_iff _).mpr (hk.trans h0)
    have hc3 : ¬ k4_cond3 (grid4.coords t) = 1#1 := fun h => by have := (k4_cond3_iff' _).mp h; omega
    have hidle : (cfg4 a).idle 3 ((cfg4 a).grid.coords t) = true := idle4_3_of a (grid4.coords t) hc3
    have hfl : ((cfg4 a).win 3).flush t = false := noflush4_3 a t hc3
    rw [Dat.leavesExact_idle _ 3 t hidle hfl]
    by_cases hc2 : act4 a (grid4.coords t)
    · have hacc := accAt4_first V a c t (hk.trans h0)
      rw [if_pos hc2] at hacc
      rw [hacc]
      iintro ⟨⟨⟨HT0, HT1⟩, HS, HR, HG⟩, Ho, ⟨%d0, H0⟩, ⟨%d1, H1⟩, ⟨%d2, H2⟩, ⟨%d3, H3⟩⟩
      ihave HS' := (scr4_ex V a c _ _) $$ HS
      iapply (run4_FA c (grid4.coords t) (ms4_0 a t) (hs4_0 a t) (ms4_1 a t) (hs4_1 a t) (ms4_2 a t) (hs4_2 a t) (ms4_3 a t) (hs4_3 a t)
        scM4 (Memref.isWhole_whole _) (srcB V a c t) (normB V a c t) (hwB V a c t) (a.1 0) (a.1 1) hc1 hc2 hc3
        ((dat4 V a c).before 3 t d3) Set.univ _)
      unfold kin4
      isplitl [H0 H1 H2 HT0 HT1]
      · isplitl [H0]; · iexact H0
        isplitl [H1]; · iexact H1
        isplitl [H2]; · iexact H2
        isplitl [HT0]; · iexact HT0
        iexact HT1
      isplitl [HS']; · iexact HS'
      isplitl [H3]; · iexact H3
      iintro ⟨⟨H0, H1, H2, HT0, HT1⟩, HS, H3⟩
      isplitl [HT0 HT1 HS HR HG]
      · isplitl [HT0 HT1]
        · isplitl [HT0]; · iexact HT0
          iexact HT1
        isplitl [HS]; · iexact HS
        isplitl [HR]; · iexact HR
        iexact HG
      isplitl [Ho]; · iexact Ho
      isplitl [H0]; · iexact H0
      isplitl [H1]; · iexact H1
      isplitl [H2]; · iexact H2
      iexists d3; iexact H3
    · have hacc := accAt4_first V a c t (hk.trans h0)
      rw [if_neg hc2] at hacc
      rw [hacc]
      iintro ⟨⟨⟨HT0, HT1⟩, HS, HR, HG⟩, Ho, ⟨%d0, H0⟩, ⟨%d1, H1⟩, ⟨%d2, H2⟩, ⟨%d3, H3⟩⟩
      ihave HS' := (scr4_ex V a c _ _) $$ HS
      iapply (run4_FI c (grid4.coords t) (ms4_0 a t) (hs4_0 a t) (ms4_1 a t) (hs4_1 a t) (ms4_2 a t) (hs4_2 a t) (ms4_3 a t) (hs4_3 a t)
        scM4 (Memref.isWhole_whole _) (srcB V a c t) (normB V a c t) (hwB V a c t) (a.1 0) (a.1 1) hc1 hc2 hc3
        ((dat4 V a c).before 3 t d3) Set.univ _)
      unfold kin4
      isplitl [H0 H1 H2 HT0 HT1]
      · isplitl [H0]; · iexact H0
        isplitl [H1]; · iexact H1
        isplitl [H2]; · iexact H2
        isplitl [HT0]; · iexact HT0
        iexact HT1
      isplitl [HS']; · iexact HS'
      isplitl [H3]; · iexact H3
      iintro ⟨⟨H0, H1, H2, HT0, HT1⟩, HS, H3⟩
      isplitl [HT0 HT1 HS HR HG]
      · isplitl [HT0 HT1]
        · isplitl [HT0]; · iexact HT0
          iexact HT1
        isplitl [HS]; · iexact HS
        isplitl [HR]; · iexact HR
        iexact HG
      isplitl [Ho]; · iexact Ho
      isplitl [H0]; · iexact H0
      isplitl [H1]; · iexact H1
      isplitl [H2]; · iexact H2
      iexists d3; iexact H3
  · -- a later node tile: the scratch holds what the point before left
    have ht0 : t.val ≠ 0 := fun h => h0 (by rw [h])
    have hc1 : ¬ cond1 (grid4.coords t) := fun h => h0 (hk.symm.trans ((cond1_iff _).mp h))
    have hk' : (grid4.coords t 1).val ≠ 0 := fun h => h0 (hk.symm.trans h)
    rw [scr4_pos V a c t.val _ ht0]
    by_cases hL : t.val % 49 = 48
    · -- the last node tile: the output block is stored, and written back
      have hc3 : k4_cond3 (grid4.coords t) = 1#1 := (k4_cond3_iff' _).mpr (hk.trans hL)
      have hlive : (cfg4 a).idle 3 ((cfg4 a).grid.coords t) = false := live4_3_of a (grid4.coords t) hc3
      rw [leaves4_live V a c t hlive, after4_3]
      by_cases hc2 : act4 a (grid4.coords t)
      · have hacc := accAt4_next V a c t hk'
        rw [if_pos hc2] at hacc
        rw [hacc]
        iintro ⟨⟨⟨HT0, HT1⟩, HS, HR, HG⟩, Ho, ⟨%d0, H0⟩, ⟨%d1, H1⟩, ⟨%d2, H2⟩, ⟨%d3, H3⟩⟩
        iapply (run4_LA c (grid4.coords t) (ms4_0 a t) (hs4_0 a t) (ms4_1 a t) (hs4_1 a t) (ms4_2 a t) (hs4_2 a t) (ms4_3 a t) (hs4_3 a t)
          scM4 (Memref.isWhole_whole _) (srcB V a c t) (normB V a c t) (hwB V a c t) (a.1 0) (a.1 1) hc1 hc2 hc3
          (accAt4 V a c (t.val - 1) (Nat.lt_of_le_of_lt (Nat.sub_le _ _) t.isLt)) Set.univ _)
        unfold kin4
        isplitl [H0 H1 H2 HT0 HT1]
        · isplitl [H0]; · iexact H0
          isplitl [H1]; · iexact H1
          isplitl [H2]; · iexact H2
          isplitl [HT0]; · iexact HT0
          iexact HT1
        isplitl [HS]; · iexact HS
        isplitl [H3]; · iexists _; iexact H3
        iintro ⟨⟨H0, H1, H2, HT0, HT1⟩, HS, H3⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        iexact H3
      · have hacc := accAt4_next V a c t hk'
        rw [if_neg hc2] at hacc
        rw [hacc]
        iintro ⟨⟨⟨HT0, HT1⟩, HS, HR, HG⟩, Ho, ⟨%d0, H0⟩, ⟨%d1, H1⟩, ⟨%d2, H2⟩, ⟨%d3, H3⟩⟩
        iapply (run4_LI c (grid4.coords t) (ms4_0 a t) (hs4_0 a t) (ms4_1 a t) (hs4_1 a t) (ms4_2 a t) (hs4_2 a t) (ms4_3 a t) (hs4_3 a t)
          scM4 (Memref.isWhole_whole _) (srcB V a c t) (normB V a c t) (hwB V a c t) (a.1 0) (a.1 1) hc1 hc2 hc3
          (accAt4 V a c (t.val - 1) (Nat.lt_of_le_of_lt (Nat.sub_le _ _) t.isLt)) Set.univ _)
        unfold kin4
        isplitl [H0 H1 H2 HT0 HT1]
        · isplitl [H0]; · iexact H0
          isplitl [H1]; · iexact H1
          isplitl [H2]; · iexact H2
          isplitl [HT0]; · iexact HT0
          iexact HT1
        isplitl [HS]; · iexact HS
        isplitl [H3]; · iexists _; iexact H3
        iintro ⟨⟨H0, H1, H2, HT0, HT1⟩, HS, H3⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        iexact H3
    · -- a middle node tile: the output window is idle and not written back
      have hc3 : ¬ k4_cond3 (grid4.coords t) = 1#1 := fun h => hL (hk.symm.trans ((k4_cond3_iff' _).mp h))
      have hidle : (cfg4 a).idle 3 ((cfg4 a).grid.coords t) = true := idle4_3_of a (grid4.coords t) hc3
      have hfl : ((cfg4 a).win 3).flush t = false := noflush4_3 a t hc3
      rw [Dat.leavesExact_idle _ 3 t hidle hfl]
      by_cases hc2 : act4 a (grid4.coords t)
      · have hacc := accAt4_next V a c t hk'
        rw [if_pos hc2] at hacc
        rw [hacc]
        iintro ⟨⟨⟨HT0, HT1⟩, HS, HR, HG⟩, Ho, ⟨%d0, H0⟩, ⟨%d1, H1⟩, ⟨%d2, H2⟩, ⟨%d3, H3⟩⟩
        iapply (run4_MA c (grid4.coords t) (ms4_0 a t) (hs4_0 a t) (ms4_1 a t) (hs4_1 a t) (ms4_2 a t) (hs4_2 a t) (ms4_3 a t) (hs4_3 a t)
          scM4 (Memref.isWhole_whole _) (srcB V a c t) (normB V a c t) (hwB V a c t) (a.1 0) (a.1 1) hc1 hc2 hc3
          (accAt4 V a c (t.val - 1) (Nat.lt_of_le_of_lt (Nat.sub_le _ _) t.isLt)) ((dat4 V a c).before 3 t d3) Set.univ _)
        unfold kin4
        isplitl [H0 H1 H2 HT0 HT1]
        · isplitl [H0]; · iexact H0
          isplitl [H1]; · iexact H1
          isplitl [H2]; · iexact H2
          isplitl [HT0]; · iexact HT0
          iexact HT1
        isplitl [HS]; · iexact HS
        isplitl [H3]; · iexact H3
        iintro ⟨⟨H0, H1, H2, HT0, HT1⟩, HS, H3⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        iexists d3; iexact H3
      · have hacc := accAt4_next V a c t hk'
        rw [if_neg hc2] at hacc
        rw [hacc]
        iintro ⟨⟨⟨HT0, HT1⟩, HS, HR, HG⟩, Ho, ⟨%d0, H0⟩, ⟨%d1, H1⟩, ⟨%d2, H2⟩, ⟨%d3, H3⟩⟩
        iapply (run4_MI c (grid4.coords t) (ms4_0 a t) (hs4_0 a t) (ms4_1 a t) (hs4_1 a t) (ms4_2 a t) (hs4_2 a t) (ms4_3 a t) (hs4_3 a t)
          scM4 (Memref.isWhole_whole _) (srcB V a c t) (normB V a c t) (hwB V a c t) (a.1 0) (a.1 1) hc1 hc2 hc3
          (accAt4 V a c (t.val - 1) (Nat.lt_of_le_of_lt (Nat.sub_le _ _) t.isLt)) ((dat4 V a c).before 3 t d3) Set.univ _)
        unfold kin4
        isplitl [H0 H1 H2 HT0 HT1]
        · isplitl [H0]; · iexact H0
          isplitl [H1]; · iexact H1
          isplitl [H2]; · iexact H2
          isplitl [HT0]; · iexact HT0
          iexact HT1
        isplitl [HS]; · iexact HS
        isplitl [H3]; · iexact H3
        iintro ⟨⟨H0, H1, H2, HT0, HT1⟩, HS, H3⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        iexists d3; iexact H3

/-- The library's body obligation, at every point. -/
theorem body_obligation4 (c : Dev nD) : BodyObligation (dat4 (F := F) V a c) (defs₀ (F := F)) Variants.none () Set.univ := fun t => by
  rw [bigSep_W4, bigSep_W4]
  exact sound_body4 V a c t

/-! ## The invariant at the region's two ends -/

/-- The scratch as the region finds it (a scoped buffer at some contents) is the scratch memref owned at some contents. -/
theorem scr_in (c : Dev nD) :
    (iprop(∃ f : Buf (Elt F) ((c : Thread nD τ).loc cc4_scratch0), ((c : Thread nD τ).loc cc4_scratch0) ↦{fullShare} f) : sProp 𝕄)
      ⊢ iprop(∃ d, owns (c : Thread nD τ) scM4 fullShare d) := by
  simp only [owns_whole]; exact .rfl

theorem scr_out (c : Dev nD) :
    (iprop(∃ d, owns (c : Thread nD τ) scM4 fullShare d) : sProp 𝕄)
      ⊢ iprop(∃ f : Buf (Elt F) ((c : Thread nD τ).loc cc4_scratch0), ((c : Thread nD τ).loc cc4_scratch0) ↦{fullShare} f) := by
  simp only [owns_whole]; exact .rfl

/-- The invariant before the first point, from the generator register, the tables and the scoped rest. -/
theorem hin4 (c : Dev nD) :
    iprop((∃ r, prngReg c r) ∗ Pipeline.prefHeld pre4 c (fun _ => fullShare) a.1 ∗ Pipeline.scopedRest spec4 c) ⊢ (dat4 V a c).Φ 0 := by
  rw [scopedRest4_split]
  show _ ⊢ Φ1 V a c 0
  unfold Φ1
  show _ ⊢ iprop(_ ∗ (∃ d, owns (c : Thread nD τ) scM4 fullShare d) ∗ _ ∗ _)
  iintro ⟨HG, HT, HS, HR⟩
  isplitl [HT]; · iexact HT
  isplitl [HS]; · iapply (scr_in c); iexact HS
  isplitl [HR]; · iexact HR
  iexact HG

/-- The invariant after the last point gives the generator register and the tables (at the full share) back, and
    the scoped rest; the kernel has no semaphore of its own. -/
theorem hout4 (c : Dev nD) :
    (dat4 V a c).Φ (Fin.last _)
      ⊢ iprop(((∃ r, prngReg c r) ∗ Pipeline.prefHeld pre4 c (fun _ => fullShare) a.1) ∗ Pipeline.ownSems0 (fun k : PEmpty => k.elim) c ∗ Pipeline.scopedRest spec4 c) := by
  rw [scopedRest4_split, Pipeline.ownSems0_none]
  show Φ1 V a c (Fin.last _) ⊢ _
  unfold Φ1
  iintro ⟨HT, HS, HR, HG⟩
  ihave HS' := (scr4_ex V a c _ _) $$ HS
  isplitl [HG HT]
  · isplitl [HG]; · iexact HG
    iexact HT
  isplitr
  · iempintro
  isplitl [HS']; · iapply (scr_out c); iexact HS'
  iexact HR

end Cert.Kernel.R4

end
-- ==== Proof.K.R5Sched.lean ====
import proofs.«417346_j54202487276072_2_alg».proof.Proof.Gen.Kernel.Launch
import Idealize.ShloMosaic.Lib.Pipeline.Kit
import Idealize.ShloMosaic.Lib.Affine

noncomputable section

namespace Cert.Kernel.R5

open Cert.Kernel Cert.Kernel.Gen
open Idealize.ShloMosaic Idealize.ShloMosaic.TcCoe
open Idealize.SL Idealize.SL.Sem

variable {F : FTy → Type} [FloatOps F]

/-! # The schedule of the scatter region on its grid `[49, 391]`

Point `t` is (node tile `t / 391`, edge tile `t % 391`), the edge tile moving fastest. None of these facts reads
the prefetched tables: the index maps are functions of the point alone. -/

theorem stride5_0 : grid5.stride 0 = 391 := by decide
theorem stride5_1 : grid5.stride 1 = 1 := by decide

/-- The node tile of point `t`. -/
theorem coords5_0 (t : Fin grid5.N) : (grid5.coords t 0).val = t.val / 391 := by
  have hN : t.val < 19159 := lt_of_lt_of_eq t.isLt N_5
  show t.val / grid5.stride 0 % 49 = _
  rw [stride5_0]; omega

/-- The edge tile of point `t`. -/
theorem coords5_1 (t : Fin grid5.N) : (grid5.coords t 1).val = t.val % 391 := by
  show t.val / grid5.stride 1 % 391 = _
  rw [stride5_1, Nat.div_one]

/-! ## The body's two conditions on the point -/

/-- The condition of the first conditional (the scratch is initialised) holds exactly at the first edge tile. -/
theorem c1_iff (i : grid5.Coords) :
    (Scalar.cmpi .ne (Scalar.extui (Scalar.cmpi .eq (BitVec.ofNat 32 (i 1).val) 0#32)) 0#32) = 1#1 ↔ (i 1).val = 0 := by
  have hk : (i 1).val < 391 := (i 1).isLt
  rw [Scalar.guard_iff, Scalar.cmpi, IntOp.cmpi_eq, ← BitVec.toNat_inj]
  simp only [BitVec.toNat_ofNat]
  omega

/-- The output block is stored exactly at the last edge tile. -/
theorem cond3_iff (i : grid5.Coords) : k5_cond3 i = 1#1 ↔ (i 1).val = 390 := by
  have hk : (i 1).val < 391 := (i 1).isLt
  show (Scalar.cmpi .ne (Scalar.extui (Scalar.cmpi .eq (BitVec.ofNat 32 (i 1).val) 390#32)) 0#32) = 1#1 ↔ _
  rw [Scalar.guard_iff, Scalar.cmpi, IntOp.cmpi_eq, ← BitVec.toNat_inj]
  simp only [BitVec.toNat_ofNat]
  omega

/-! ## The output window's write-backs -/

/-- The output's block index is the node tile. -/
theorem tr5_0 (i : grid5.Coords) : cc5_transform_5 i 0 = (i 0).val := by
  have hk : (i 0).val < 49 := (i 0).isLt
  show (BitVec.ofNat 32 (i 0).val).toNat = _
  rw [BitVec.toNat_ofNat]; omega

theorem tr5_ne_iff (i j : grid5.Coords) : cc5_transform_5 i ≠ cc5_transform_5 j ↔ (i 0).val ≠ (j 0).val := by
  constructor
  · intro h e; apply h; funext x
    fin_cases x
    · show cc5_transform_5 i 0 = cc5_transform_5 j 0
      rw [tr5_0, tr5_0, e]
    · rfl
  · intro h e; apply h
    have := congrFun e 0
    rwa [tr5_0, tr5_0] at this

variable (a : (pcfg5 (F := F)).Adm)

/-- The output block is written back exactly after the last edge tile of its node tile. -/
theorem flush5_5 (t : Fin (cfg5 a).N) : ((cfg5 a).win 5).flush t = true ↔ t.val % 391 = 390 := by
  have hN : t.val < 19159 := lt_of_lt_of_eq t.isLt N_5
  rw [Pipeline.Window.flush_eq_flushOf]
  show Pipeline.Window.flushOf grid5 true cc5_transform_5 t = true ↔ _
  unfold Pipeline.Window.flushOf
  rw [Bool.true_and, Bool.or_eq_true, decide_eq_true_eq, decide_eq_true_eq]
  constructor
  · rintro (h | ⟨h, hne⟩)
    · have hN2 := N_5; omega
    · rw [tr5_ne_iff, coords5_0, coords5_0] at hne
      dsimp only at hne
      omega
  · intro h
    by_cases hl : t.val + 1 = grid5.N
    · exact .inl hl
    · have h' : t.val + 1 < grid5.N := by have hN2 := N_5; omega
      refine .inr ⟨h', ?_⟩
      rw [tr5_ne_iff, coords5_0, coords5_0]
      dsimp only
      omega

/-- Where the output window is idle: everywhere but at the last edge tile. -/
theorem idle5_5 (t : Fin (cfg5 a).N) : (cfg5 a).idle 5 ((cfg5 a).grid.coords t) = !(k5_cond3 (grid5.coords t) == 1#1) := rfl

/-- The input windows are never idle. -/
theorem live5 (w : Fin (cfg5 a).W) (hw : w ≠ 5) (i : (cfg5 a).grid.Coords) : (cfg5 a).idle w i = false := by
  fin_cases w <;> first | rfl | exact absurd rfl hw

end Cert.Kernel.R5

end
-- ==== Proof.K.R5Runs.lean ====
import proofs.«417346_j54202487276072_2_alg».proof.Proof.Gen.Kernel.Launch
import proofs.«417346_j54202487276072_2_alg».proof.Proof.Gen.Kernel.Skeleton
import Idealize.ShloMosaic.Lib.Pipeline.FrameBody
import Idealize.ShloMosaic.Lib.Pipeline.Value
import Idealize.ShloMosaic.Lib.Tactic

set_option maxRecDepth 16384

noncomputable section

namespace Cert.Kernel.R5

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## The tables as the body is handed them; the step's condition -/

abbrev tbMin : Memref sig .tc .smem S391 .i32 := Memref.whole main_v72
abbrev htbMin : (tbMin).IsWhole := Memref.isWhole_whole _
abbrev tbMax : Memref sig .tc .smem S391 .i32 := Memref.whole main_v74
abbrev htbMax : (tbMax).IsWhole := Memref.isWhole_whole _

/-- A table's buffer contents on core `c`, and the table held whole at them. -/
abbrev TbBuf5 (c : Dev nD) (M : Memref sig .tc .smem S391 .i32) : Type := Buf (Elt F) (M.view.loc (c : Thread nD τ))
abbrev tbPt5 (c : Dev nD) (M : Memref sig .tc .smem S391 .i32) (f : TbBuf5 (F := F) c M) : sProp 𝕄 :=
  M.view.loc (c : Thread nD τ) ↦{fullShare} f

/-- The word of table `M` the body loads at point `i` (the entry of the point's edge tile), over contents `f`. -/
abbrev wd5 (M : Memref sig .tc .smem S391 .i32) (f : M.view.ty.Contents (Elt F)) (i : grid5.Coords) : Elt F .i32 :=
  M.view.readAt (Elt F) (Rect.unit (s := S391) (k5_off1 i) S1.size (k5_off1_inb i)).toLoadRect f (Shape.Idx.first (numel1_S1.symm ▸ Nat.one_pos))

/-- The condition of the accumulation step as the body computes it: the node tile `[2048 i₀, 2048 i₀ + 2048)` meets
    the range `[mn, mx]` of destinations in the edge tile (signed comparisons on the two table words). -/
def k5_act (i : grid5.Coords) (mx mn : Elt F .i32) : BitVec 1 :=
  let arg0 : BitVec 32 := BitVec.ofNat 32 (i 0).val
  let v3 : BitVec 32 := Scalar.muli arg0 2048#32
  let v4 : BitVec 32 := Scalar.addi v3 2048#32
  let v7 : BitVec 1 := Scalar.cmpi .sle v3 mx
  let v10 : BitVec 1 := Scalar.cmpi .sgt v4 mn
  let v11 : BitVec 1 := Scalar.andi v7 v10
  let v12 : BitVec 32 := Scalar.extui v11
  Scalar.cmpi .ne v12 0#32

/-- The condition of the first conditional: the scratch is initialised at the first edge tile. -/
abbrev k5_c1 (i : grid5.Coords) : Prop :=
  (Scalar.cmpi .ne (Scalar.extui (Scalar.cmpi .eq (BitVec.ofNat 32 (i 1).val) 0#32)) 0#32) = 1#1

/-! ## Whole-buffer loads and stores -/

theorem z1 : (![0] : Fin 1 → Nat) = fun _ => 0 := by funext a; fin_cases a; rfl
theorem z2 : (![0, 0] : Fin 2 → Nat) = fun _ => 0 := by funext a; fin_cases a <;> rfl

/-- A load through the whole-shape rectangle at zero offsets reads the memref's contents. -/
theorem rdU (S : Shape) {e : EltTy} {κ : Kind} {sp : Space} (v : View sig κ sp S e) {off : Fin S.rank → Nat} (h : off = fun _ => 0)
    (inb : ∀ a, off a + S.size a ≤ S.size a) (f : v.ty.Contents (Elt F)) :
    v.readAt (Elt F) (Rect.unit off S.size inb).toLoadRect f = v.read (Elt F) f :=
  View.ld_unit_zero h inb _

/-- Every index lies in the whole-shape rectangle: a list of stores headed by one through it covers the buffer. -/
theorem covU (S : Shape) {e : EltTy} {off : Fin S.rank → Nat} (h : off = fun _ => 0) (inb : ∀ a, off a + S.size a ≤ S.size a)
    (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons.mpr (Or.inl rfl), View.mem_set_unit_zero h inb y⟩

/-- A load through it of what the run's stores left, the last of them through it, reads that store's payload. -/
theorem rcU (S : Shape) {e : EltTy} {κ : Kind} {sp : Space} (v : View sig κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (covU S h inb w L), View.canon_cons_unit_zero h, View.ld_unit_zero h]

/-- The buffer read back after the run's stores, the last of them through the whole-shape rectangle: its payload. -/
theorem rwU (S : Shape) {e : EltTy} {κ : Kind} {sp : Space} (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (covU S h inb w L), View.canon_cons_unit_zero h]

/-- The inputs' staging memrefs at their blocks and the two tables at their contents: what every case of the body
    is handed and hands back untouched. -/
def kin5 (c : Dev nD) (arg4 : Memref sig .tc .vmem S4096 .i32) (arg5 : Memref sig .tc .vmem S4096x64 .f32)
    (arg6 : Memref sig .tc .vmem S2048x64 .f32) (arg7 : Memref sig .tc .vmem S2048 .f32) (arg8 : Memref sig .tc .vmem S1x64 .f32)
    (x0 : Vec F S4096 .i32) (x1 : Vec F S4096x64 .f32) (x2 : Vec F S2048x64 .f32) (x3 : Vec F S2048 .f32) (x4 : Vec F S1x64 .f32)
    (xt0 : TbBuf5 (F := F) c tbMin) (xt1 : TbBuf5 (F := F) c tbMax) : sProp 𝕄 :=
  iprop(owns (c : Thread nD τ) arg4 fullShare x0 ∗ owns (c : Thread nD τ) arg5 fullShare x1 ∗ owns (c : Thread nD τ) arg6 fullShare x2
    ∗ owns (c : Thread nD τ) arg7 fullShare x3 ∗ owns (c : Thread nD τ) arg8 fullShare x4 ∗ tbPt5 c tbMin xt0 ∗ tbPt5 c tbMax xt1)

/-! ## The body, case by case

The body has three conditionals: on the point's edge tile being the first (the scratch is initialised), on the two
table words (the accumulation step), on the edge tile being the last (the output block is stored). First and last
exclude each other on this grid, which leaves six cases. In each the printed function is its skeleton, run
operation by operation; every load and store is through a whole staging memref. The tables' words are never
evaluated: the case's hypothesis on them decides the middle conditional. -/

set_option maxHeartbeats 1000000 in
/-- First edge tile, step taken: the scratch ends at the step applied to the initial value; the output's buffer is
    untouched. -/
theorem run5_FA (c : Dev nD) (i : grid5.Coords)
    (arg4 : Memref sig .tc .vmem S4096 .i32) (harg4 : arg4.IsWhole) (arg5 : Memref sig .tc .vmem S4096x64 .f32) (harg5 : arg5.IsWhole)
    (arg6 : Memref sig .tc .vmem S2048x64 .f32) (harg6 : arg6.IsWhole) (arg7 : Memref sig .tc .vmem S2048 .f32) (harg7 : arg7.IsWhole)
    (arg8 : Memref sig .tc .vmem S1x64 .f32) (harg8 : arg8.IsWhole) (arg9 : Memref sig .tc .vmem S2048x64 .f32) (harg9 : arg9.IsWhole)
    (arg10 : Memref sig .tc .vmem S2048x64 .f32) (harg10 : arg10.IsWhole)
    (x0 : Vec F S4096 .i32) (x1 : Vec F S4096x64 .f32) (x2 : Vec F S2048x64 .f32) (x3 : Vec F S2048 .f32) (x4 : Vec F S1x64 .f32)
    (xt0 : TbBuf5 (F := F) c tbMin) (xt1 : TbBuf5 (F := F) c tbMax)
    (hc1 : k5_c1 i) (hc2 : k5_act (F := F) i (wd5 tbMax xt1 i) (wd5 tbMin xt0 i) = 1#1) (hc3 : ¬ k5_cond3 i = 1#1)
    (xo : Vec F S2048x64 .f32) (E : Set ℕ) (K : PUnit → sProp 𝕄) :
    iprop(kin5 c arg4 arg5 arg6 arg7 arg8 x0 x1 x2 x3 x4 xt0 xt1
        ∗ (∃ d, owns (c : Thread nD τ) arg10 fullShare d) ∗ owns (c : Thread nD τ) arg9 fullShare xo
        ∗ (iprop(kin5 c arg4 arg5 arg6 arg7 arg8 x0 x1 x2 x3 x4 xt0 xt1
            ∗ owns (c : Thread nD τ) arg10 fullShare (k5_pay2 i x0 (k5_pay1 x3 x2) x1) ∗ owns (c : Thread nD τ) arg9 fullShare xo) -∗ K ⟨⟩))
      ⊢ wp frame (wpE (defs₀ (F := F)) Variants.none c none) E
          (cc5__scatter_kernel i tbMin htbMin tbMax htbMax arg4 harg4 arg5 harg5 arg6 harg6 arg7 harg7 arg8 harg8 arg9 harg9 arg10 harg10) K := by
  simp only [cc5__scatter_kernel_eq_skeleton]; unfold cc5__scatter_kernel_skel
  unfold kin5 owns
  iintro ⟨⟨⟨%f0, %hf0, H0⟩, ⟨%f1, %hf1, H1⟩, ⟨%f2, %hf2, H2⟩, ⟨%f3, %hf3, H3⟩, ⟨%f4, %hf4, H4⟩, HT0, HT1⟩, ⟨%ds, %fs, -, HS⟩, ⟨%f9, %hf9, H9⟩, Hk⟩
  subst hf0 hf1 hf2 hf3 hf4 hf9
  sl_exec (disch := first | sl_exact hc1 | sl_exact hc2 | sl_exact hc3)
  sl_step
  iapply Hk
  isplitl [H0 H1 H2 H3 H4 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [HT0]; · iexact HT0
    iexact HT1
  isplitl [HS]
  · iexists _; isplitr; swap; · iexact HS
    ipureintro
    -- the second store's payload read the first store's back
    rw [rwU S2048x64 _ _ z2]
    unfold run5_FA.sl.v29 run5_FA.sl.HS_1
    simp only [rcU S2048x64 _ z2, rdU S4096 _ z1, rdU S2048 _ z1, rdU S2048x64 _ z2, rdU S4096x64 _ z2]
  iexists f9; isplitr; · ipureintro; rfl
  iexact H9

set_option maxHeartbeats 1000000 in
/-- First edge tile, step skipped: the scratch ends at the initial value; the output's buffer is untouched. -/
theorem run5_FI (c : Dev nD) (i : grid5.Coords)
    (arg4 : Memref sig .tc .vmem S4096 .i32) (harg4 : arg4.IsWhole) (arg5 : Memref sig .tc .vmem S4096x64 .f32) (harg5 : arg5.IsWhole)
    (arg6 : Memref sig .tc .vmem S2048x64 .f32) (harg6 : arg6.IsWhole) (arg7 : Memref sig .tc .vmem S2048 .f32) (harg7 : arg7.IsWhole)
    (arg8 : Memref sig .tc .vmem S1x64 .f32) (harg8 : arg8.IsWhole) (arg9 : Memref sig .tc .vmem S2048x64 .f32) (harg9 : arg9.IsWhole)
    (arg10 : Memref sig .tc .vmem S2048x64 .f32) (harg10 : arg10.IsWhole)
    (x0 : Vec F S4096 .i32) (x1 : Vec F S4096x64 .f32) (x2 : Vec F S2048x64 .f32) (x3 : Vec F S2048 .f32) (x4 : Vec F S1x64 .f32)
    (xt0 : TbBuf5 (F := F) c tbMin) (xt1 : TbBuf5 (F := F) c tbMax)
    (hc1 : k5_c1 i) (hc2 : ¬ k5_act (F := F) i (wd5 tbMax xt1 i) (wd5 tbMin xt0 i) = 1#1) (hc3 : ¬ k5_cond3 i = 1#1)
    (xo : Vec F S2048x64 .f32) (E : Set ℕ) (K : PUnit → sProp 𝕄) :
    iprop(kin5 c arg4 arg5 arg6 arg7 arg8 x0 x1 x2 x3 x4 xt0 xt1
        ∗ (∃ d, owns (c : Thread nD τ) arg10 fullShare d) ∗ owns (c : Thread nD τ) arg9 fullShare xo
        ∗ (iprop(kin5 c arg4 arg5 arg6 arg7 arg8 x0 x1 x2 x3 x4 xt0 xt1
            ∗ owns (c : Thread nD τ) arg10 fullShare (k5_pay1 x3 x2) ∗ owns (c : Thread nD τ) arg9 fullShare xo) -∗ K ⟨⟩))
      ⊢ wp frame (wpE (defs₀ (F := F)) Variants.none c none) E
          (cc5__scatter_kernel i tbMin htbMin tbMax htbMax arg4 harg4 arg5 harg5 arg6 harg6 arg7 harg7 arg8 harg8 arg9 harg9 arg10 harg10) K := by
  simp only [cc5__scatter_kernel_eq_skeleton]; unfold cc5__scatter_kernel_skel
  unfold kin5 owns
  iintro ⟨⟨⟨%f0, %hf0, H0⟩, ⟨%f1, %hf1, H1⟩, ⟨%f2, %hf2, H2⟩, ⟨%f3, %hf3, H3⟩, ⟨%f4, %hf4, H4⟩, HT0, HT1⟩, ⟨%ds, %fs, -, HS⟩, ⟨%f9, %hf9, H9⟩, Hk⟩
  subst hf0 hf1 hf2 hf3 hf4 hf9
  sl_exec (disch := first | sl_exact hc1 | sl_exact hc2 | sl_exact hc3)
  sl_step
  iapply Hk
  isplitl [H0 H1 H2 H3 H4 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [HT0]; · iexact HT0
    iexact HT1
  isplitl [HS]
  · iexists _; isplitr; swap; · iexact HS
    ipureintro
    rw [rwU S2048x64 _ _ z2]
    simp only [rdU S2048 _ z1, rdU S2048x64 _ z2]
  iexists f9; isplitr; · ipureintro; rfl
  iexact H9

set_option maxHeartbeats 1000000 in
/-- A middle edge tile, step taken: the scratch ends at the step applied to what it held; the output's buffer is
    untouched. -/
theorem run5_MA (c : Dev nD) (i : grid5.Coords)
    (arg4 : Memref sig .tc .vmem S4096 .i32) (harg4 : arg4.IsWhole) (arg5 : Memref sig .tc .vmem S4096x64 .f32) (harg5 : arg5.IsWhole)
    (arg6 : Memref sig .tc .vmem S2048x64 .f32) (harg6 : arg6.IsWhole) (arg7 : Memref sig .tc .vmem S2048 .f32) (harg7 : arg7.IsWhole)
    (arg8 : Memref sig .tc .vmem S1x64 .f32) (harg8 : arg8.IsWhole) (arg9 : Memref sig .tc .vmem S2048x64 .f32) (harg9 : arg9.IsWhole)
    (arg10 : Memref sig .tc .vmem S2048x64 .f32) (harg10 : arg10.IsWhole)
    (x0 : Vec F S4096 .i32) (x1 : Vec F S4096x64 .f32) (x2 : Vec F S2048x64 .f32) (x3 : Vec F S2048 .f32) (x4 : Vec F S1x64 .f32)
    (xt0 : TbBuf5 (F := F) c tbMin) (xt1 : TbBuf5 (F := F) c tbMax)
    (hc1 : ¬ k5_c1 i) (hc2 : k5_act (F := F) i (wd5 tbMax xt1 i) (wd5 tbMin xt0 i) = 1#1) (hc3 : ¬ k5_cond3 i = 1#1)
    (xs xo : Vec F S2048x64 .f32) (E : Set ℕ) (K : PUnit → sProp 𝕄) :
    iprop(kin5 c arg4 arg5 arg6 arg7 arg8 x0 x1 x2 x3 x4 xt0 xt1
        ∗ owns (c : Thread nD τ) arg10 fullShare xs ∗ owns (c : Thread nD τ) arg9 fullShare xo
        ∗ (iprop(kin5 c arg4 arg5 arg6 arg7 arg8 x0 x1 x2 x3 x4 xt0 xt1
            ∗ owns (c : Thread nD τ) arg10 fullShare (k5_pay2 i x0 xs x1) ∗ owns (c : Thread nD τ) arg9 fullShare xo) -∗ K ⟨⟩))
      ⊢ wp frame (wpE (defs₀ (F := F)) Variants.none c none) E
          (cc5__scatter_kernel i tbMin htbMin tbMax htbMax arg4 harg4 arg5 harg5 arg6 harg6 arg7 harg7 arg8 harg8 arg9 harg9 arg10 harg10) K := by
  simp only [cc5__scatter_kernel_eq_skeleton]; unfold cc5__scatter_kernel_skel
  unfold kin5 owns
  iintro ⟨⟨⟨%f0, %hf0, H0⟩, ⟨%f1, %hf1, H1⟩, ⟨%f2, %hf2, H2⟩, ⟨%f3, %hf3, H3⟩, ⟨%f4, %hf4, H4⟩, HT0, HT1⟩, ⟨%fs, %hfs, HS⟩, ⟨%f9, %hf9, H9⟩, Hk⟩
  subst hf0 hf1 hf2 hf3 hf4 hfs hf9
  sl_exec (disch := first | sl_exact hc1 | sl_exact hc2 | sl_exact hc3)
  sl_step
  iapply Hk
  isplitl [H0 H1 H2 H3 H4 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [HT0]; · iexact HT0
    iexact HT1
  isplitl [HS]
  · iexists _; isplitr; swap; · iexact HS
    ipureintro
    rw [rwU S2048x64 _ _ z2]
    simp only [rdU S4096 _ z1, rdU S2048x64 _ z2, rdU S4096x64 _ z2]
  iexists f9; isplitr; · ipureintro; rfl
  iexact H9

set_option maxHeartbeats 1000000 in
/-- A middle edge tile, step skipped: nothing is stored. -/
theorem run5_MI (c : Dev nD) (i : grid5.Coords)
    (arg4 : Memref sig .tc .vmem S4096 .i32) (harg4 : arg4.IsWhole) (arg5 : Memref sig .tc .vmem S4096x64 .f32) (harg5 : arg5.IsWhole)
    (arg6 : Memref sig .tc .vmem S2048x64 .f32) (harg6 : arg6.IsWhole) (arg7 : Memref sig .tc .vmem S2048 .f32) (harg7 : arg7.IsWhole)
    (arg8 : Memref sig .tc .vmem S1x64 .f32) (harg8 : arg8.IsWhole) (arg9 : Memref sig .tc .vmem S2048x64 .f32) (harg9 : arg9.IsWhole)
    (arg10 : Memref sig .tc .vmem S2048x64 .f32) (harg10 : arg10.IsWhole)
    (x0 : Vec F S4096 .i32) (x1 : Vec F S4096x64 .f32) (x2 : Vec F S2048x64 .f32) (x3 : Vec F S2048 .f32) (x4 : Vec F S1x64 .f32)
    (xt0 : TbBuf5 (F := F) c tbMin) (xt1 : TbBuf5 (F := F) c tbMax)
    (hc1 : ¬ k5_c1 i) (hc2 : ¬ k5_act (F := F) i (wd5 tbMax xt1 i) (wd5 tbMin xt0 i) = 1#1) (hc3 : ¬ k5_cond3 i = 1#1)
    (xs xo : Vec F S2048x64 .f32) (E : Set ℕ) (K : PUnit → sProp 𝕄) :
    iprop(kin5 c arg4 arg5 arg6 arg7 arg8 x0 x1 x2 x3 x4 xt0 xt1
        ∗ owns (c : Thread nD τ) arg10 fullShare xs ∗ owns (c : Thread nD τ) arg9 fullShare xo
        ∗ (iprop(kin5 c arg4 arg5 arg6 arg7 arg8 x0 x1 x2 x3 x4 xt0 xt1
            ∗ owns (c : Thread nD τ) arg10 fullShare xs ∗ owns (c : Thread nD τ) arg9 fullShare xo) -∗ K ⟨⟩))
      ⊢ wp frame (wpE (defs₀ (F := F)) Variants.none c none) E
          (cc5__scatter_kernel i tbMin htbMin tbMax htbMax arg4 harg4 arg5 harg5 arg6 harg6 arg7 harg7 arg8 harg8 arg9 harg9 arg10 harg10) K := by
  simp only [cc5__scatter_kernel_eq_skeleton]; unfold cc5__scatter_kernel_skel
  unfold kin5 owns
  iintro ⟨⟨⟨%f0, %hf0, H0⟩, ⟨%f1, %hf1, H1⟩, ⟨%f2, %hf2, H2⟩, ⟨%f3, %hf3, H3⟩, ⟨%f4, %hf4, H4⟩, HT0, HT1⟩, ⟨%fs, %hfs, HS⟩, ⟨%f9, %hf9, H9⟩, Hk⟩
  subst hf0 hf1 hf2 hf3 hf4 hfs hf9
  sl_exec (disch := first | sl_exact hc1 | sl_exact hc2 | sl_exact hc3)
  sl_step
  iapply Hk
  isplitl [H0 H1 H2 H3 H4 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [HT0]; · iexact HT0
    iexact HT1
  isplitl [HS]
  · iexists fs; isplitr; · ipureintro; rfl
    iexact HS
  iexists f9; isplitr; · ipureintro; rfl
  iexact H9

set_option maxHeartbeats 1000000 in
/-- Last edge tile, step taken: the scratch ends at the step applied to what it held, and the output's buffer at
    the epilogue of that. -/
theorem run5_LA (c : Dev nD) (i : grid5.Coords)
    (arg4 : Memref sig .tc .vmem S4096 .i32) (harg4 : arg4.IsWhole) (arg5 : Memref sig .tc .vmem S4096x64 .f32) (harg5 : arg5.IsWhole)
    (arg6 : Memref sig .tc .vmem S2048x64 .f32) (harg6 : arg6.IsWhole) (arg7 : Memref sig .tc .vmem S2048 .f32) (harg7 : arg7.IsWhole)
    (arg8 : Memref sig .tc .vmem S1x64 .f32) (harg8 : arg8.IsWhole) (arg9 : Memref sig .tc .vmem S2048x64 .f32) (harg9 : arg9.IsWhole)
    (arg10 : Memref sig .tc .vmem S2048x64 .f32) (harg10 : arg10.IsWhole)
    (x0 : Vec F S4096 .i32) (x1 : Vec F S4096x64 .f32) (x2 : Vec F S2048x64 .f32) (x3 : Vec F S2048 .f32) (x4 : Vec F S1x64 .f32)
    (xt0 : TbBuf5 (F := F) c tbMin) (xt1 : TbBuf5 (F := F) c tbMax)
    (hc1 : ¬ k5_c1 i) (hc2 : k5_act (F := F) i (wd5 tbMax xt1 i) (wd5 tbMin xt0 i) = 1#1) (hc3 : k5_cond3 i = 1#1)
    (xs : Vec F S2048x64 .f32) (E : Set ℕ) (K : PUnit → sProp 𝕄) :
    iprop(kin5 c arg4 arg5 arg6 arg7 arg8 x0 x1 x2 x3 x4 xt0 xt1
        ∗ owns (c : Thread nD τ) arg10 fullShare xs ∗ (∃ d, owns (c : Thread nD τ) arg9 fullShare d)
        ∗ (iprop(kin5 c arg4 arg5 arg6 arg7 arg8 x0 x1 x2 x3 x4 xt0 xt1
            ∗ owns (c : Thread nD τ) arg10 fullShare (k5_pay2 i x0 xs x1)
            ∗ owns (c : Thread nD τ) arg9 fullShare (k5_pay3 (k5_pay2 i x0 xs x1) x4)) -∗ K ⟨⟩))
      ⊢ wp frame (wpE (defs₀ (F := F)) Variants.none c none) E
          (cc5__scatter_kernel i tbMin htbMin tbMax htbMax arg4 harg4 arg5 harg5 arg6 harg6 arg7 harg7 arg8 harg8 arg9 harg9 arg10 harg10) K := by
  simp only [cc5__scatter_kernel_eq_skeleton]; unfold cc5__scatter_kernel_skel
  unfold kin5 owns
  iintro ⟨⟨⟨%f0, %hf0, H0⟩, ⟨%f1, %hf1, H1⟩, ⟨%f2, %hf2, H2⟩, ⟨%f3, %hf3, H3⟩, ⟨%f4, %hf4, H4⟩, HT0, HT1⟩, ⟨%fs, %hfs, HS⟩, ⟨%d9, %f9, -, H9⟩, Hk⟩
  subst hf0 hf1 hf2 hf3 hf4 hfs
  sl_exec (disch := first | sl_exact hc1 | sl_exact hc2 | sl_exact hc3)
  sl_step
  iapply Hk
  isplitl [H0 H1 H2 H3 H4 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [HT0]; · iexact HT0
    iexact HT1
  isplitl [HS]
  · iexists _; isplitr; swap; · iexact HS
    ipureintro
    unfold run5_LA.sl.HS_1
    rw [rwU S2048x64 _ _ z2]
    simp only [rdU S4096 _ z1, rdU S2048x64 _ z2, rdU S4096x64 _ z2]
  iexists _; isplitr; swap; · iexact H9
  ipureintro
  -- the epilogue's load read the step's store back
  rw [rwU S2048x64 _ _ z2]
  unfold run5_LA.sl.v17 run5_LA.sl.HS_1
  simp only [rcU S2048x64 _ z2, rdU S4096 _ z1, rdU S2048x64 _ z2, rdU S4096x64 _ z2, rdU S1x64 _ z2]

set_option maxHeartbeats 1000000 in
/-- Last edge tile, step skipped: the scratch keeps what it held, and the output's buffer ends at the epilogue of
    that. -/
theorem run5_LI (c : Dev nD) (i : grid5.Coords)
    (arg4 : Memref sig .tc .vmem S4096 .i32) (harg4 : arg4.IsWhole) (arg5 : Memref sig .tc .vmem S4096x64 .f32) (harg5 : arg5.IsWhole)
    (arg6 : Memref sig .tc .vmem S2048x64 .f32) (harg6 : arg6.IsWhole) (arg7 : Memref sig .tc .vmem S2048 .f32) (harg7 : arg7.IsWhole)
    (arg8 : Memref sig .tc .vmem S1x64 .f32) (harg8 : arg8.IsWhole) (arg9 : Memref sig .tc .vmem S2048x64 .f32) (harg9 : arg9.IsWhole)
    (arg10 : Memref sig .tc .vmem S2048x64 .f32) (harg10 : arg10.IsWhole)
    (x0 : Vec F S4096 .i32) (x1 : Vec F S4096x64 .f32) (x2 : Vec F S2048x64 .f32) (x3 : Vec F S2048 .f32) (x4 : Vec F S1x64 .f32)
    (xt0 : TbBuf5 (F := F) c tbMin) (xt1 : TbBuf5 (F := F) c tbMax)
    (hc1 : ¬ k5_c1 i) (hc2 : ¬ k5_act (F := F) i (wd5 tbMax xt1 i) (wd5 tbMin xt0 i) = 1#1) (hc3 : k5_cond3 i = 1#1)
    (xs : Vec F S2048x64 .f32) (E : Set ℕ) (K : PUnit → sProp 𝕄) :
    iprop(kin5 c arg4 arg5 arg6 arg7 arg8 x0 x1 x2 x3 x4 xt0 xt1
        ∗ owns (c : Thread nD τ) arg10 fullShare xs ∗ (∃ d, owns (c : Thread nD τ) arg9 fullShare d)
        ∗ (iprop(kin5 c arg4 arg5 arg6 arg7 arg8 x0 x1 x2 x3 x4 xt0 xt1
            ∗ owns (c : Thread nD τ) arg10 fullShare xs ∗ owns (c : Thread nD τ) arg9 fullShare (k5_pay3 xs x4)) -∗ K ⟨⟩))
      ⊢ wp frame (wpE (defs₀ (F := F)) Variants.none c none) E
          (cc5__scatter_kernel i tbMin htbMin tbMax htbMax arg4 harg4 arg5 harg5 arg6 harg6 arg7 harg7 arg8 harg8 arg9 harg9 arg10 harg10) K := by
  simp only [cc5__scatter_kernel_eq_skeleton]; unfold cc5__scatter_kernel_skel
  unfold kin5 owns
  iintro ⟨⟨⟨%f0, %hf0, H0⟩, ⟨%f1, %hf1, H1⟩, ⟨%f2, %hf2, H2⟩, ⟨%f3, %hf3, H3⟩, ⟨%f4, %hf4, H4⟩, HT0, HT1⟩, ⟨%fs, %hfs, HS⟩, ⟨%d9, %f9, -, H9⟩, Hk⟩
  subst hf0 hf1 hf2 hf3 hf4 hfs
  sl_exec (disch := first | sl_exact hc1 | sl_exact hc2 | sl_exact hc3)
  sl_step
  iapply Hk
  isplitl [H0 H1 H2 H3 H4 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [HT0]; · iexact HT0
    iexact HT1
  isplitl [HS]
  · iexists fs; isplitr; · ipureintro; rfl
    iexact HS
  iexists _; isplitr; swap; · iexact H9
  ipureintro
  rw [rwU S2048x64 _ _ z2]
  simp only [rdU S2048x64 _ z2, rdU S1x64 _ z2]

end Cert.Kernel.R5

end
-- ==== Proof.K.R5Frame.lean ====
import proofs.«417346_j54202487276072_2_alg».proof.Proof.K.R5Sched
import proofs.«417346_j54202487276072_2_alg».proof.Proof.K.R5Runs
import Idealize.ShloMosaic.Lib.Pipeline.FrameBody
import Idealize.ShloMosaic.Lib.Pipeline.Frame

set_option maxRecDepth 16384

noncomputable section

namespace Cert.Kernel.R5

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

-- the buffer contents when the region is entered, and the admissible tables: both parameters, never evaluated
variable (V : (c : Dev nD) → (b : Ref sig .tc) → Buf (Elt F) ((c : Thread nD τ).loc b)) (a : (pcfg5 (F := F)).Adm)

/-! # The scatter region (custom_call 2) at entry contents `V` and tables `a`

The scratch carries, along each node tile's run of edge tiles, the self term plus the sum over the edge tiles
whose destination range meets the node tile; the output block is the epilogue of the scratch at the last edge
tile. -/

/-! ## The windows' blocks and the table words -/

/-- Window `w`'s block at point `t`, read off its array as the region finds it. -/
def iblk5 (c : Dev nD) (w : Fin (cfg5 a).W) (t : Fin (cfg5 a).N) : (((cfg5 a).win w).xblock ((cfg5 a).grid.coords t)).Idx → Elt F ((cfg5 a).win w).elt :=
  (((cfg5 a).win w).blk t).view.read (Elt F) (V c (Pipeline.arrRef spec5 w))

/-- The five input blocks at their vector types (no window is cut: a block's shape is its window's). -/
abbrev dstB (c : Dev nD) (t : Fin (cfg5 a).N) : Vec F S4096 .i32 := iblk5 V a c 0 t
abbrev gB (c : Dev nD) (t : Fin (cfg5 a).N) : Vec F S4096x64 .f32 := iblk5 V a c 1 t
abbrev hwB (c : Dev nD) (t : Fin (cfg5 a).N) : Vec F S2048x64 .f32 := iblk5 V a c 2 t
abbrev snB (c : Dev nD) (t : Fin (cfg5 a).N) : Vec F S2048 .f32 := iblk5 V a c 3 t
abbrev biasB (c : Dev nD) (t : Fin (cfg5 a).N) : Vec F S1x64 .f32 := iblk5 V a c 4 t

/-- The two table words the body loads at point `i`: the least and the greatest destination in the edge tile. -/
abbrev wMin (i : grid5.Coords) : Elt F .i32 := wd5 tbMin (a.1 0) i
abbrev wMax (i : grid5.Coords) : Elt F .i32 := wd5 tbMax (a.1 1) i

/-- The accumulation step is taken at point `i`. -/
abbrev act5 (i : grid5.Coords) : Prop := k5_act (F := F) i (wMax a i) (wMin a i) = 1#1

/-! ## The scratch, point by point -/

/-- One point's effect on the scratch from what it held (`prev`): initialised at the first edge tile, then the
    step if its condition holds. -/
def step5 (i : grid5.Coords) (prev : Vec F S2048x64 .f32) (sn : Vec F S2048 .f32) (hw : Vec F S2048x64 .f32)
    (dst : Vec F S4096 .i32) (g : Vec F S4096x64 .f32) : Vec F S2048x64 .f32 :=
  if act5 a i then k5_pay2 i dst (if (i 1).val = 0 then k5_pay1 sn hw else prev) g
  else (if (i 1).val = 0 then k5_pay1 sn hw else prev)

/-- What the scratch holds after the body at point `n`. -/
def accAt5 (c : Dev nD) : (n : ℕ) → n < (cfg5 a).N → Vec F S2048x64 .f32
  | 0, h => step5 a (grid5.coords ⟨0, h⟩) (k5_pay1 (snB V a c ⟨0, h⟩) (hwB V a c ⟨0, h⟩)) (snB V a c ⟨0, h⟩) (hwB V a c ⟨0, h⟩)
      (dstB V a c ⟨0, h⟩) (gB V a c ⟨0, h⟩)
  | n + 1, h => step5 a (grid5.coords ⟨n + 1, h⟩) (accAt5 c n (Nat.lt_of_succ_lt h)) (snB V a c ⟨n + 1, h⟩) (hwB V a c ⟨n + 1, h⟩)
      (dstB V a c ⟨n + 1, h⟩) (gB V a c ⟨n + 1, h⟩)

/-- At a first edge tile the scratch restarts from the self term. -/
theorem accAt5_first (c : Dev nD) (t : Fin (cfg5 a).N) (hk : (grid5.coords t 1).val = 0) :
    accAt5 V a c t.val t.isLt
      = if act5 a (grid5.coords t) then k5_pay2 (grid5.coords t) (dstB V a c t) (k5_pay1 (snB V a c t) (hwB V a c t)) (gB V a c t)
        else k5_pay1 (snB V a c t) (hwB V a c t) := by
  obtain ⟨n, hn⟩ := t
  cases n with
  | zero => show step5 a _ _ _ _ _ _ = _; unfold step5; simp only [if_pos hk]
  | succ n => show step5 a _ _ _ _ _ _ = _; unfold step5; simp only [if_pos hk]

/-- At a later edge tile it continues from the point before. -/
theorem accAt5_next (c : Dev nD) (t : Fin (cfg5 a).N) (hk : (grid5.coords t 1).val ≠ 0) :
    accAt5 V a c t.val t.isLt
      = if act5 a (grid5.coords t)
        then k5_pay2 (grid5.coords t) (dstB V a c t) (accAt5 V a c (t.val - 1) (Nat.lt_of_le_of_lt (Nat.sub_le _ _) t.isLt)) (gB V a c t)
        else accAt5 V a c (t.val - 1) (Nat.lt_of_le_of_lt (Nat.sub_le _ _) t.isLt) := by
  obtain ⟨n, hn⟩ := t
  cases n with
  | zero => exact absurd (by rw [coords5_1]; rfl) hk
  | succ n => show step5 a _ _ _ _ _ _ = _; unfold step5; simp only [if_neg hk]; rfl

/-! ## The invariant between points -/

/-- The kernel's scratch operand: a whole scoped buffer of its own. -/
abbrev scM5 : Memref sig .tc .vmem S2048x64 .f32 := Memref.whole cc5_scratch0

/-- The scratch before point `n`: at anything before the first point, else at what the point before left. -/
def scr5 (c : Dev nD) : (n : ℕ) → n < (cfg5 a).N + 1 → sProp 𝕄
  | 0, _ => iprop(∃ d, owns (c : Thread nD τ) scM5 fullShare d)
  | n + 1, h => owns (c : Thread nD τ) scM5 fullShare (accAt5 V a c n (Nat.lt_of_succ_lt_succ h))

/-- The region's invariant before point `t`: the tables held whole at their contents, the scratch, the other scoped
    buffers unopened, the generator register at some state. -/
def Φ2 (c : Dev nD) (t : Fin ((cfg5 a).N + 1)) : sProp 𝕄 :=
  iprop(Pipeline.prefHeld (Ix := Unit) (Name := ℕ) (U := UR sig nD τ) (Lvl := ℕ) pre5 c (fun _ => fullShare) a.1
    ∗ scr5 V a c t.val t.isLt
    ∗ Pipeline.scopedRestBut (Ix := Unit) (Name := ℕ) (U := UR sig nD τ) (Lvl := ℕ) (Val := Elt F) spec5 c [cc5_scratch0]
    ∗ ∃ r, prngReg c r)

theorem scr5_ex (c : Dev nD) (n : ℕ) (h : n < (cfg5 a).N + 1) :
    scr5 V a c n h ⊢ (iprop(∃ d, owns (c : Thread nD τ) scM5 fullShare d) : sProp 𝕄) := by
  cases n with
  | zero => exact .rfl
  | succ n => show owns _ _ _ _ ⊢ _; iintro H; iexists _; iexact H

theorem scr5_pos (c : Dev nD) (n : ℕ) (h : n < (cfg5 a).N + 1) (hn : n ≠ 0) :
    scr5 V a c n h = owns (c : Thread nD τ) scM5 fullShare (accAt5 V a c (n - 1) (by omega)) := by
  cases n with
  | zero => exact absurd rfl hn
  | succ m => rfl

/-! ## The proof data -/

/-- The proof data of pipeline 5 on core `c`: the arrays as the region finds them; after the body each input's
    buffer at its block, the output's at the epilogue of the scratch (consulted only where the block is written
    back: at the last edge tile); the invariant `Φ2`; nothing owed; full shares. -/
def dat5 (c : Dev nD) : Dat τ (Elt F) Unit ℕ (UR sig nD τ) ℕ (cfg5 a) c where
  A w := V c (Pipeline.arrRef spec5 w)
  after w t := match w with
    | ⟨0, _⟩ => iblk5 V a c 0 t
    | ⟨1, _⟩ => iblk5 V a c 1 t
    | ⟨2, _⟩ => iblk5 V a c 2 t
    | ⟨3, _⟩ => iblk5 V a c 3 t
    | ⟨4, _⟩ => iblk5 V a c 4 t
    | ⟨5, _⟩ => k5_pay3 (accAt5 V a c t.val t.isLt) (biasB V a c t)
  Φ t := Φ2 V a c t
  q _ := fullShare
  owed _ := 0

theorem A_eq5 (c : Dev nD) (w : Fin (cfg5 a).W) : (dat5 V a c).A w = V c (Pipeline.arrRef spec5 w) := by
  dsimp only [dat5]

theorem after5_0 (c : Dev nD) (t : Fin (cfg5 a).N) : (dat5 V a c).after 0 t = iblk5 V a c 0 t := by dsimp only [dat5]; rfl
theorem after5_1 (c : Dev nD) (t : Fin (cfg5 a).N) : (dat5 V a c).after 1 t = iblk5 V a c 1 t := by dsimp only [dat5]; rfl
theorem after5_2 (c : Dev nD) (t : Fin (cfg5 a).N) : (dat5 V a c).after 2 t = iblk5 V a c 2 t := by dsimp only [dat5]; rfl
theorem after5_3 (c : Dev nD) (t : Fin (cfg5 a).N) : (dat5 V a c).after 3 t = iblk5 V a c 3 t := by dsimp only [dat5]; rfl
theorem after5_4 (c : Dev nD) (t : Fin (cfg5 a).N) : (dat5 V a c).after 4 t = iblk5 V a c 4 t := by dsimp only [dat5]; rfl
/-- The output's buffer after the body: the epilogue of the scratch (what the write-back writes at the last edge tile). -/
theorem after5_5 (c : Dev nD) (t : Fin (cfg5 a).N) :
    (dat5 V a c).after 5 t = k5_pay3 (accAt5 V a c t.val t.isLt) (biasB V a c t) := by dsimp only [dat5]; rfl

/-- Each input's current staging buffer holds its block at every point, fetched there or not: the body only
    reads it, the window is uncut and never idle. -/
theorem before5_0 (c : Dev nD) (t : Fin (cfg5 a).N) (d) : (dat5 V a c).before 0 t d = iblk5 V a c 0 t :=
  ((dat5 V a c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)
theorem before5_1 (c : Dev nD) (t : Fin (cfg5 a).N) (d) : (dat5 V a c).before 1 t d = iblk5 V a c 1 t :=
  ((dat5 V a c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)
theorem before5_2 (c : Dev nD) (t : Fin (cfg5 a).N) (d) : (dat5 V a c).before 2 t d = iblk5 V a c 2 t :=
  ((dat5 V a c).before_in_eq_fetched 2 rfl (fun _ => rfl) (fun _ _ _ => rfl)
    (fun t => by rw [after5_2]; unfold Dat.blockOf iblk5; rw [A_eq5]; try rfl) t d).trans
    (by unfold Dat.fetched Dat.blockOf iblk5; rw [A_eq5]; try rfl)
theorem before5_3 (c : Dev nD) (t : Fin (cfg5 a).N) (d) : (dat5 V a c).before 3 t d = iblk5 V a c 3 t :=
  ((dat5 V a c).before_in_eq_fetched 3 rfl (fun _ => rfl) (fun _ _ _ => rfl)
    (fun t => by rw [after5_3]; unfold Dat.blockOf iblk5; rw [A_eq5]; try rfl) t d).trans
    (by unfold Dat.fetched Dat.blockOf iblk5; rw [A_eq5]; try rfl)
theorem before5_4 (c : Dev nD) (t : Fin (cfg5 a).N) (d) : (dat5 V a c).before 4 t d = iblk5 V a c 4 t :=
  ((dat5 V a c).before_in_eq_fetched 4 rfl (fun _ => rfl) (fun _ _ _ => rfl)
    (fun t => by rw [after5_4]; unfold Dat.blockOf iblk5; rw [A_eq5]; try rfl) t d).trans
    (by unfold Dat.fetched Dat.blockOf iblk5; rw [A_eq5]; try rfl)

/-! ## The invariant, opened -/

/-- The tables, one by one. -/
theorem pref5_eq (c : Dev nD) :
    (Pipeline.prefHeld (Ix := Unit) (Name := ℕ) (U := UR sig nD τ) (Lvl := ℕ) pre5 c (fun _ => fullShare) a.1 : sProp 𝕄)
      = iprop(tbPt5 c tbMin (a.1 0) ∗ tbPt5 c tbMax (a.1 1)) := by
  unfold Pipeline.prefHeld
  rw [show (Finset.univ : Finset (Fin 2)) = insert (0 : Fin 2) {(1 : Fin 2)} from by decide,
    bigSep_insert (by decide), bigSep_singleton]
  rfl

theorem Phi_cast (c : Dev nD) (t : Fin (cfg5 a).N) :
    (dat5 V a c).Φ t.castSucc
      = iprop(Pipeline.prefHeld (Ix := Unit) (Name := ℕ) (U := UR sig nD τ) (Lvl := ℕ) pre5 c (fun _ => fullShare) a.1
          ∗ scr5 V a c t.val (Nat.lt_succ_of_lt t.isLt)
          ∗ Pipeline.scopedRestBut (Ix := Unit) (Name := ℕ) (U := UR sig nD τ) (Lvl := ℕ) (Val := Elt F) spec5 c [cc5_scratch0]
          ∗ ∃ r, prngReg c r) := by
  obtain ⟨n, hn⟩ := t; rfl

theorem Phi_succ (c : Dev nD) (t : Fin (cfg5 a).N) :
    (dat5 V a c).Φ t.succ
      = iprop(Pipeline.prefHeld (Ix := Unit) (Name := ℕ) (U := UR sig nD τ) (Lvl := ℕ) pre5 c (fun _ => fullShare) a.1
          ∗ owns (c : Thread nD τ) scM5 fullShare (accAt5 V a c t.val t.isLt)
          ∗ Pipeline.scopedRestBut (Ix := Unit) (Name := ℕ) (U := UR sig nD τ) (Lvl := ℕ) (Val := Elt F) spec5 c [cc5_scratch0]
          ∗ ∃ r, prngReg c r) := by
  obtain ⟨n, hn⟩ := t; rfl

theorem owes_succ (c : Dev nD) (t : Fin (cfg5 a).N) :
    (dat5 V a c).owesAt () t.succ = (dat5 V a c).owesAt () t.castSucc := rfl

/-! ## The body at a point -/

/-- Each window's current staging memref at point `t`, spelled as the pipeline passes it, and its wholeness. -/
abbrev ms5_0 (t : Fin (cfg5 a).N) : Memref sig .tc .vmem S4096 .i32 := spec5_0.stage ((cfg5 a).slots t 0)
abbrev hs5_0 (t : Fin (cfg5 a).N) : (ms5_0 a t).IsWhole := hstage5_0 (((cfg5 a).slots t 0).cast nbuf5_0)
abbrev ms5_1 (t : Fin (cfg5 a).N) : Memref sig .tc .vmem S4096x64 .f32 := spec5_1.stage ((cfg5 a).slots t 1)
abbrev hs5_1 (t : Fin (cfg5 a).N) : (ms5_1 a t).IsWhole := hstage5_1 (((cfg5 a).slots t 1).cast nbuf5_1)
abbrev ms5_2 (t : Fin (cfg5 a).N) : Memref sig .tc .vmem S2048x64 .f32 := spec5_2.stage ((cfg5 a).slots t 2)
abbrev hs5_2 (t : Fin (cfg5 a).N) : (ms5_2 a t).IsWhole := hstage5_2 (((cfg5 a).slots t 2).cast nbuf5_2)
abbrev ms5_3 (t : Fin (cfg5 a).N) : Memref sig .tc .vmem S2048 .f32 := spec5_3.stage ((cfg5 a).slots t 3)
abbrev hs5_3 (t : Fin (cfg5 a).N) : (ms5_3 a t).IsWhole := hstage5_3 (((cfg5 a).slots t 3).cast nbuf5_3)
abbrev ms5_4 (t : Fin (cfg5 a).N) : Memref sig .tc .vmem S1x64 .f32 := spec5_4.stage ((cfg5 a).slots t 4)
abbrev hs5_4 (t : Fin (cfg5 a).N) : (ms5_4 a t).IsWhole := hstage5_4 (((cfg5 a).slots t 4).cast nbuf5_4)
abbrev ms5_5 (t : Fin (cfg5 a).N) : Memref sig .tc .vmem S2048x64 .f32 := spec5_5.stage ((cfg5 a).slots t 5)
abbrev hs5_5 (t : Fin (cfg5 a).N) : (ms5_5 a t).IsWhole := hstage5_5 (((cfg5 a).slots t 5).cast nbuf5_5)

/-- The kernel body at point `t`, on what the pipeline calls it with. -/
abbrev bodyAt5 (t : Fin (cfg5 a).N) : Prog (TpuEff nD τ sig (Elt F) Λ₀ .tc) PUnit :=
  cc5__scatter_kernel (grid5.coords t) tbMin htbMin tbMax htbMax (ms5_0 a t) (hs5_0 a t) (ms5_1 a t) (hs5_1 a t) (ms5_2 a t) (hs5_2 a t)
    (ms5_3 a t) (hs5_3 a t) (ms5_4 a t) (hs5_4 a t) (ms5_5 a t) (hs5_5 a t) scM5 (Memref.isWhole_whole _)

/-- What the body is called with at point `t`, the windows one by one, -/
def bodyPre5 (c : Dev nD) (t : Fin (cfg5 a).N) : sProp 𝕄 :=
  iprop((dat5 V a c).Φ t.castSucc ∗ (dat5 V a c).owesAt () t.castSucc
    ∗ (∃ d, owns (c : Thread nD τ) (ms5_0 a t) fullShare ((dat5 V a c).before 0 t d))
    ∗ (∃ d, owns (c : Thread nD τ) (ms5_1 a t) fullShare ((dat5 V a c).before 1 t d))
    ∗ (∃ d, owns (c : Thread nD τ) (ms5_2 a t) fullShare ((dat5 V a c).before 2 t d))
    ∗ (∃ d, owns (c : Thread nD τ) (ms5_3 a t) fullShare ((dat5 V a c).before 3 t d))
    ∗ (∃ d, owns (c : Thread nD τ) (ms5_4 a t) fullShare ((dat5 V a c).before 4 t d))
    ∗ (∃ d, owns (c : Thread nD τ) (ms5_5 a t) fullShare ((dat5 V a c).before 5 t d)))

/-- and what it returns: the output's buffer as found where the window is idle, at the epilogue where it is stored. -/
def bodyPost5 (c : Dev nD) (t : Fin (cfg5 a).N) : sProp 𝕄 :=
  iprop((dat5 V a c).Φ t.succ ∗ (dat5 V a c).owesAt () t.succ
    ∗ owns (c : Thread nD τ) (ms5_0 a t) fullShare ((dat5 V a c).after 0 t)
    ∗ owns (c : Thread nD τ) (ms5_1 a t) fullShare ((dat5 V a c).after 1 t)
    ∗ owns (c : Thread nD τ) (ms5_2 a t) fullShare ((dat5 V a c).after 2 t)
    ∗ owns (c : Thread nD τ) (ms5_3 a t) fullShare ((dat5 V a c).after 3 t)
    ∗ owns (c : Thread nD τ) (ms5_4 a t) fullShare ((dat5 V a c).after 4 t)
    ∗ (dat5 V a c).leavesExact 5 t)

/-- Where the output is stored the window is live: its buffer ends at `after`. -/
theorem leaves5_live (c : Dev nD) (t : Fin (cfg5 a).N) (h : (cfg5 a).idle 5 ((cfg5 a).grid.coords t) = false) :
    (dat5 V a c).leavesExact 5 t = owns (c : Thread nD τ) (ms5_5 a t) fullShare ((dat5 V a c).after 5 t) := by
  unfold Dat.leavesExact; rw [h]; rfl

set_option maxHeartbeats 1000000 in
/-- The body at any point. The point's place on the grid decides the first and the last conditional; the middle
    one is decided by cases on the table words, which stay variables. In each case the matching run applies: the
    inputs' memrefs hold their blocks, the scratch what the point before left (anything at a first edge tile), and
    the scratch's new contents are `accAt5` at the point by its recursion. -/
theorem sound_body5 (c : Dev nD) (t : Fin (cfg5 a).N) :
    bodyPre5 V a c t ⊢ wp frame (wpE (defs₀ (F := F)) Variants.none c none) Set.univ (bodyAt5 a t) (fun _ => bodyPost5 V a c t) := by
  have hN : t.val < 19159 := lt_of_lt_of_eq t.isLt N_5
  have hk : (grid5.coords t 1).val = t.val % 391 := coords5_1 t
  unfold bodyPre5 bodyPost5
  simp only [before5_0, before5_1, before5_2, before5_3, before5_4]
  rw [after5_0, after5_1, after5_2, after5_3, after5_4, Phi_cast, Phi_succ, owes_succ, pref5_eq]
  by_cases h0 : t.val % 391 = 0
  · -- a first edge tile: the scratch restarts; the output window is idle and not written back
    have hc1 : k5_c1 (grid5.coords t) := (c1_iff _).mpr (hk.trans h0)
    have hc3 : ¬ k5_cond3 (grid5.coords t) = 1#1 := fun h => by have := (cond3_iff _).mp h; omega
    have hidle : (cfg5 a).idle 5 ((cfg5 a).grid.coords t) = true := by
      rw [idle5_5, beq_eq_false_iff_ne.mpr hc3]; rfl
    have hfl : ((cfg5 a).win 5).flush t = false := by
      rw [Bool.eq_false_iff]; intro h; have := (flush5_5 a t).mp h; omega
    rw [Dat.leavesExact_idle _ 5 t hidle hfl]
    by_cases hc2 : act5 a (grid5.coords t)
    · have hacc := accAt5_first V a c t (hk.trans h0)
      rw [if_pos hc2] at hacc
      rw [hacc]
      iintro ⟨⟨⟨HT0, HT1⟩, HS, HR, HG⟩, Ho, ⟨%d0, H0⟩, ⟨%d1, H1⟩, ⟨%d2, H2⟩, ⟨%d3, H3⟩, ⟨%d4, H4⟩, ⟨%d5, H5⟩⟩
      ihave HS' := (scr5_ex V a c _ _) $$ HS
      iapply (run5_FA c (grid5.coords t) (ms5_0 a t) (hs5_0 a t) (ms5_1 a t) (hs5_1 a t) (ms5_2 a t) (hs5_2 a t) (ms5_3 a t) (hs5_3 a t)
        (ms5_4 a t) (hs5_4 a t) (ms5_5 a t) (hs5_5 a t) scM5 (Memref.isWhole_whole _)
        (dstB V a c t) (gB V a c t) (hwB V a c t) (snB V a c t) (biasB V a c t) (a.1 0) (a.1 1) hc1 hc2 hc3
        ((dat5 V a c).before 5 t d5) Set.univ _)
      unfold kin5
      isplitl [H0 H1 H2 H3 H4 HT0 HT1]
      · isplitl [H0]; · iexact H0
        isplitl [H1]; · iexact H1
        isplitl [H2]; · iexact H2
        isplitl [H3]; · iexact H3
        isplitl [H4]; · iexact H4
        isplitl [HT0]; · iexact HT0
        iexact HT1
      isplitl [HS']; · iexact HS'
      isplitl [H5]; · iexact H5
      iintro ⟨⟨H0, H1, H2, H3, H4, HT0, HT1⟩, HS, H5⟩
      isplitl [HT0 HT1 HS HR HG]
      · isplitl [HT0 HT1]
        · isplitl [HT0]; · iexact HT0
          iexact HT1
        isplitl [HS]; · iexact HS
        isplitl [HR]; · iexact HR
        iexact HG
      isplitl [Ho]; · iexact Ho
      isplitl [H0]; · iexact H0
      isplitl [H1]; · iexact H1
      isplitl [H2]; · iexact H2
      isplitl [H3]; · iexact H3
      isplitl [H4]; · iexact H4
      iexists d5; iexact H5
    · have hacc := accAt5_first V a c t (hk.trans h0)
      rw [if_neg hc2] at hacc
      rw [hacc]
      iintro ⟨⟨⟨HT0, HT1⟩, HS, HR, HG⟩, Ho, ⟨%d0, H0⟩, ⟨%d1, H1⟩, ⟨%d2, H2⟩, ⟨%d3, H3⟩, ⟨%d4, H4⟩, ⟨%d5, H5⟩⟩
      ihave HS' := (scr5_ex V a c _ _) $$ HS
      iapply (run5_FI c (grid5.coords t) (ms5_0 a t) (hs5_0 a t) (ms5_1 a t) (hs5_1 a t) (ms5_2 a t) (hs5_2 a t) (ms5_3 a t) (hs5_3 a t)
        (ms5_4 a t) (hs5_4 a t) (ms5_5 a t) (hs5_5 a t) scM5 (Memref.isWhole_whole _)
        (dstB V a c t) (gB V a c t) (hwB V a c t) (snB V a c t) (biasB V a c t) (a.1 0) (a.1 1) hc1 hc2 hc3
        ((dat5 V a c).before 5 t d5) Set.univ _)
      unfold kin5
      isplitl [H0 H1 H2 H3 H4 HT0 HT1]
      · isplitl [H0]; · iexact H0
        isplitl [H1]; · iexact H1
        isplitl [H2]; · iexact H2
        isplitl [H3]; · iexact H3
        isplitl [H4]; · iexact H4
        isplitl [HT0]; · iexact HT0
        iexact HT1
      isplitl [HS']; · iexact HS'
      isplitl [H5]; · iexact H5
      iintro ⟨⟨H0, H1, H2, H3, H4, HT0, HT1⟩, HS, H5⟩
      isplitl [HT0 HT1 HS HR HG]
      · isplitl [HT0 HT1]
        · isplitl [HT0]; · iexact HT0
          iexact HT1
        isplitl [HS]; · iexact HS
        isplitl [HR]; · iexact HR
        iexact HG
      isplitl [Ho]; · iexact Ho
      isplitl [H0]; · iexact H0
      isplitl [H1]; · iexact H1
      isplitl [H2]; · iexact H2
      isplitl [H3]; · iexact H3
      isplitl [H4]; · iexact H4
      iexists d5; iexact H5
  · -- a later edge tile: the scratch holds what the point before left
    have ht0 : t.val ≠ 0 := fun h => h0 (by rw [h])
    have hc1 : ¬ k5_c1 (grid5.coords t) := fun h => h0 (hk.symm.trans ((c1_iff _).mp h))
    have hk' : (grid5.coords t 1).val ≠ 0 := fun h => h0 (hk.symm.trans h)
    rw [scr5_pos V a c t.val _ ht0]
    by_cases hL : t.val % 391 = 390
    · -- the last edge tile: the output block is stored, and written back
      have hc3 : k5_cond3 (grid5.coords t) = 1#1 := (cond3_iff _).mpr (hk.trans hL)
      have hlive : (cfg5 a).idle 5 ((cfg5 a).grid.coords t) = false := by
        rw [idle5_5, hc3]; rfl
      rw [leaves5_live V a c t hlive, after5_5]
      by_cases hc2 : act5 a (grid5.coords t)
      · have hacc := accAt5_next V a c t hk'
        rw [if_pos hc2] at hacc
        rw [hacc]
        iintro ⟨⟨⟨HT0, HT1⟩, HS, HR, HG⟩, Ho, ⟨%d0, H0⟩, ⟨%d1, H1⟩, ⟨%d2, H2⟩, ⟨%d3, H3⟩, ⟨%d4, H4⟩, ⟨%d5, H5⟩⟩
        iapply (run5_LA c (grid5.coords t) (ms5_0 a t) (hs5_0 a t) (ms5_1 a t) (hs5_1 a t) (ms5_2 a t) (hs5_2 a t) (ms5_3 a t) (hs5_3 a t)
          (ms5_4 a t) (hs5_4 a t) (ms5_5 a t) (hs5_5 a t) scM5 (Memref.isWhole_whole _)
          (dstB V a c t) (gB V a c t) (hwB V a c t) (snB V a c t) (biasB V a c t) (a.1 0) (a.1 1) hc1 hc2 hc3
          (accAt5 V a c (t.val - 1) (Nat.lt_of_le_of_lt (Nat.sub_le _ _) t.isLt)) Set.univ _)
        unfold kin5
        isplitl [H0 H1 H2 H3 H4 HT0 HT1]
        · isplitl [H0]; · iexact H0
          isplitl [H1]; · iexact H1
          isplitl [H2]; · iexact H2
          isplitl [H3]; · iexact H3
          isplitl [H4]; · iexact H4
          isplitl [HT0]; · iexact HT0
          iexact HT1
        isplitl [HS]; · iexact HS
        isplitl [H5]; · iexists _; iexact H5
        iintro ⟨⟨H0, H1, H2, H3, H4, HT0, HT1⟩, HS, H5⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        isplitl [H3]; · iexact H3
        isplitl [H4]; · iexact H4
        iexact H5
      · have hacc := accAt5_next V a c t hk'
        rw [if_neg hc2] at hacc
        rw [hacc]
        iintro ⟨⟨⟨HT0, HT1⟩, HS, HR, HG⟩, Ho, ⟨%d0, H0⟩, ⟨%d1, H1⟩, ⟨%d2, H2⟩, ⟨%d3, H3⟩, ⟨%d4, H4⟩, ⟨%d5, H5⟩⟩
        iapply (run5_LI c (grid5.coords t) (ms5_0 a t) (hs5_0 a t) (ms5_1 a t) (hs5_1 a t) (ms5_2 a t) (hs5_2 a t) (ms5_3 a t) (hs5_3 a t)
          (ms5_4 a t) (hs5_4 a t) (ms5_5 a t) (hs5_5 a t) scM5 (Memref.isWhole_whole _)
          (dstB V a c t) (gB V a c t) (hwB V a c t) (snB V a c t) (biasB V a c t) (a.1 0) (a.1 1) hc1 hc2 hc3
          (accAt5 V a c (t.val - 1) (Nat.lt_of_le_of_lt (Nat.sub_le _ _) t.isLt)) Set.univ _)
        unfold kin5
        isplitl [H0 H1 H2 H3 H4 HT0 HT1]
        · isplitl [H0]; · iexact H0
          isplitl [H1]; · iexact H1
          isplitl [H2]; · iexact H2
          isplitl [H3]; · iexact H3
          isplitl [H4]; · iexact H4
          isplitl [HT0]; · iexact HT0
          iexact HT1
        isplitl [HS]; · iexact HS
        isplitl [H5]; · iexists _; iexact H5
        iintro ⟨⟨H0, H1, H2, H3, H4, HT0, HT1⟩, HS, H5⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        isplitl [H3]; · iexact H3
        isplitl [H4]; · iexact H4
        iexact H5
    · -- a middle edge tile: the output window is idle and not written back
      have hc3 : ¬ k5_cond3 (grid5.coords t) = 1#1 := fun h => hL (hk.symm.trans ((cond3_iff _).mp h))
      have hidle : (cfg5 a).idle 5 ((cfg5 a).grid.coords t) = true := by
        rw [idle5_5, beq_eq_false_iff_ne.mpr hc3]; rfl
      have hfl : ((cfg5 a).win 5).flush t = false := by
        rw [Bool.eq_false_iff]; intro h; exact hL ((flush5_5 a t).mp h)
      rw [Dat.leavesExact_idle _ 5 t hidle hfl]
      by_cases hc2 : act5 a (grid5.coords t)
      · have hacc := accAt5_next V a c t hk'
        rw [if_pos hc2] at hacc
        rw [hacc]
        iintro ⟨⟨⟨HT0, HT1⟩, HS, HR, HG⟩, Ho, ⟨%d0, H0⟩, ⟨%d1, H1⟩, ⟨%d2, H2⟩, ⟨%d3, H3⟩, ⟨%d4, H4⟩, ⟨%d5, H5⟩⟩
        iapply (run5_MA c (grid5.coords t) (ms5_0 a t) (hs5_0 a t) (ms5_1 a t) (hs5_1 a t) (ms5_2 a t) (hs5_2 a t) (ms5_3 a t) (hs5_3 a t)
          (ms5_4 a t) (hs5_4 a t) (ms5_5 a t) (hs5_5 a t) scM5 (Memref.isWhole_whole _)
          (dstB V a c t) (gB V a c t) (hwB V a c t) (snB V a c t) (biasB V a c t) (a.1 0) (a.1 1) hc1 hc2 hc3
          (accAt5 V a c (t.val - 1) (Nat.lt_of_le_of_lt (Nat.sub_le _ _) t.isLt)) ((dat5 V a c).before 5 t d5) Set.univ _)
        unfold kin5
        isplitl [H0 H1 H2 H3 H4 HT0 HT1]
        · isplitl [H0]; · iexact H0
          isplitl [H1]; · iexact H1
          isplitl [H2]; · iexact H2
          isplitl [H3]; · iexact H3
          isplitl [H4]; · iexact H4
          isplitl [HT0]; · iexact HT0
          iexact HT1
        isplitl [HS]; · iexact HS
        isplitl [H5]; · iexact H5
        iintro ⟨⟨H0, H1, H2, H3, H4, HT0, HT1⟩, HS, H5⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        isplitl [H3]; · iexact H3
        isplitl [H4]; · iexact H4
        iexists d5; iexact H5
      · have hacc := accAt5_next V a c t hk'
        rw [if_neg hc2] at hacc
        rw [hacc]
        iintro ⟨⟨⟨HT0, HT1⟩, HS, HR, HG⟩, Ho, ⟨%d0, H0⟩, ⟨%d1, H1⟩, ⟨%d2, H2⟩, ⟨%d3, H3⟩, ⟨%d4, H4⟩, ⟨%d5, H5⟩⟩
        iapply (run5_MI c (grid5.coords t) (ms5_0 a t) (hs5_0 a t) (ms5_1 a t) (hs5_1 a t) (ms5_2 a t) (hs5_2 a t) (ms5_3 a t) (hs5_3 a t)
          (ms5_4 a t) (hs5_4 a t) (ms5_5 a t) (hs5_5 a t) scM5 (Memref.isWhole_whole _)
          (dstB V a c t) (gB V a c t) (hwB V a c t) (snB V a c t) (biasB V a c t) (a.1 0) (a.1 1) hc1 hc2 hc3
          (accAt5 V a c (t.val - 1) (Nat.lt_of_le_of_lt (Nat.sub_le _ _) t.isLt)) ((dat5 V a c).before 5 t d5) Set.univ _)
        unfold kin5
        isplitl [H0 H1 H2 H3 H4 HT0 HT1]
        · isplitl [H0]; · iexact H0
          isplitl [H1]; · iexact H1
          isplitl [H2]; · iexact H2
          isplitl [H3]; · iexact H3
          isplitl [H4]; · iexact H4
          isplitl [HT0]; · iexact HT0
          iexact HT1
        isplitl [HS]; · iexact HS
        isplitl [H5]; · iexact H5
        iintro ⟨⟨H0, H1, H2, H3, H4, HT0, HT1⟩, HS, H5⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        isplitl [H3]; · iexact H3
        isplitl [H4]; · iexact H4
        iexists d5; iexact H5

/-- The library's body obligation, at every point. -/
theorem body_obligation5 (c : Dev nD) : BodyObligation (dat5 (F := F) V a c) (defs₀ (F := F)) Variants.none () Set.univ := fun t => by
  rw [bigSep_W5, bigSep_W5]
  exact sound_body5 V a c t

/-! ## The invariant at the region's two ends -/

/-- The scratch as the region finds it (a scoped buffer at some contents) is the scratch memref owned at some contents. -/
theorem scr_in (c : Dev nD) :
    (iprop(∃ f : Buf (Elt F) ((c : Thread nD τ).loc cc5_scratch0), ((c : Thread nD τ).loc cc5_scratch0) ↦{fullShare} f) : sProp 𝕄)
      ⊢ iprop(∃ d, owns (c : Thread nD τ) scM5 fullShare d) := by
  simp only [owns_whole]; exact .rfl

theorem scr_out (c : Dev nD) :
    (iprop(∃ d, owns (c : Thread nD τ) scM5 fullShare d) : sProp 𝕄)
      ⊢ iprop(∃ f : Buf (Elt F) ((c : Thread nD τ).loc cc5_scratch0), ((c : Thread nD τ).loc cc5_scratch0) ↦{fullShare} f) := by
  simp only [owns_whole]; exact .rfl

/-- The invariant before the first point, from the generator register, the tables and the scoped rest. -/
theorem hin5 (c : Dev nD) :
    iprop((∃ r, prngReg c r) ∗ Pipeline.prefHeld pre5 c (fun _ => fullShare) a.1 ∗ Pipeline.scopedRest spec5 c) ⊢ (dat5 V a c).Φ 0 := by
  rw [scopedRest5_split]
  show _ ⊢ Φ2 V a c 0
  unfold Φ2
  show _ ⊢ iprop(_ ∗ (∃ d, owns (c : Thread nD τ) scM5 fullShare d) ∗ _ ∗ _)
  iintro ⟨HG, HT, HS, HR⟩
  isplitl [HT]; · iexact HT
  isplitl [HS]; · iapply (scr_in c); iexact HS
  isplitl [HR]; · iexact HR
  iexact HG

/-- The invariant after the last point gives the generator register and the tables (at the full share) back, and
    the scoped rest; the kernel has no semaphore of its own. -/
theorem hout5 (c : Dev nD) :
    (dat5 V a c).Φ (Fin.last _)
      ⊢ iprop(((∃ r, prngReg c r) ∗ Pipeline.prefHeld pre5 c (fun _ => fullShare) a.1) ∗ Pipeline.ownSems0 (fun k : PEmpty => k.elim) c ∗ Pipeline.scopedRest spec5 c) := by
  rw [scopedRest5_split, Pipeline.ownSems0_none]
  show Φ2 V a c (Fin.last _) ⊢ _
  unfold Φ2
  iintro ⟨HT, HS, HR, HG⟩
  ihave HS' := (scr5_ex V a c _ _) $$ HS
  isplitl [HG HT]
  · isplitl [HG]; · iexact HG
    iexact HT
  isplitr
  · iempintro
  isplitl [HS']; · iapply (scr_out c); iexact HS'
  iexact HR

end Cert.Kernel.R5

end
-- ==== Proof.K.R6Frame.lean ====
/- Region 6 of @main: the third dense layer, rows of the second layer's activations times the third weight matrix.
   What the pipeline's body finds in its staged operands and leaves in its output buffer at every grid point,
   the proof data built from that at the buffer contents the region is entered with, and the body obligation. -/
import proofs.«417346_j54202487276072_2_alg».proof.Proof.Gen.Kernel.Launch
import proofs.«417346_j54202487276072_2_alg».proof.Proof.Gen.Kernel.Skeleton
import proofs.«417346_j54202487276072_2_alg».proof.Proof.Gen.Kernel.Points
import Idealize.ShloMosaic.Lib.Pipeline.FrameBody
import Idealize.ShloMosaic.Lib.Pipeline.Value
import Idealize.ShloMosaic.Lib.Tactic

noncomputable section

namespace Cert.Kernel.R6

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! # Region 6: the third dense layer, one row block per grid point

The grid has 49 points. At point `t` the pipeline stages rows `2048·t … 2048·t + 2047` of the padded feature
matrix (window 0), the whole weight matrix (window 1, staged once, at the first point) and gives the body a
buffer for the same rows of the product (window 2). The body reads both staged operands whole, multiplies them
into a zero accumulator, and overwrites the whole output buffer; it keeps nothing between points. Everything
here is stated at the buffer contents `V` with which the region is entered. -/

section Region
variable (V : (c : Dev nD) → (b : Ref sig .tc) → Buf (Elt F) ((c : Thread nD τ).loc b))

/-! ## The windows' blocks -/

/-- The block of window `w` at grid point `t`: its array, as the region finds it, read through the window's
    rectangle at that point. -/
def iblk6 (c : Dev nD) (w : Fin cfg6.W) (t : Fin cfg6.N) :
    ((cfg6.win w).xblock (cfg6.grid.coords t)).Idx → Elt F (cfg6.win w).elt :=
  ((cfg6.win w).blk t).view.read (Elt F) (V c (Pipeline.arrRef spec6 w))

/-- The row-block window holds its block at every point: it is fetched at each one, and the body leaves it as
    found. Stated for any proof data with `V`'s array and a body that keeps the block. -/
theorem held6_0 {c : Dev nD} (dat : Dat τ (Elt F) Unit ℕ (UR sig nD τ) ℕ cfg6 c)
    (hA : dat.A 0 = V c (Pipeline.arrRef spec6 0)) (hafter : ∀ t, dat.after 0 t = iblk6 V c 0 t)
    (t : Fin cfg6.N) (d) : dat.before 0 t d = iblk6 V c 0 t :=
  (dat.before_in_eq_fetched 0 rfl (fun _ => rfl) (fun _ _ _ => rfl)
      (fun t => by rw [hafter]; unfold Dat.blockOf iblk6; rw [hA]; try rfl) t d).trans
    (by unfold Dat.fetched Dat.blockOf iblk6; rw [hA]; try rfl)

/-- The weight window holds the whole weight matrix at every point although it is fetched at the first only:
    its block index never moves, so at a later point the buffer still holds the previous point's block, which
    is this point's. -/
theorem held6_1 {c : Dev nD} (dat : Dat τ (Elt F) Unit ℕ (UR sig nD τ) ℕ cfg6 c)
    (hA : dat.A 1 = V c (Pipeline.arrRef spec6 1)) (hafter : ∀ t, dat.after 1 t = iblk6 V c 1 t)
    (t : Fin cfg6.N) (d) : dat.before 1 t d = iblk6 V c 1 t :=
  (dat.before_in_eq_fetched 1 rfl (fun _ => rfl) (fun _ _ _ => rfl)
      (fun t => by rw [hafter]; unfold Dat.blockOf iblk6; rw [hA]; try rfl) t d).trans
    (by unfold Dat.fetched Dat.blockOf iblk6; rw [hA]; try rfl)

/-! ## The body's accesses: each staging buffer whole -/

abbrev rLhs6 : Rect S2048x64 := Rect.unit (s := S2048x64) ![0, 0] S2048x64.size inb_S2048x64_S2048x64_0_0
abbrev rRhs6 : Rect S64x32 := Rect.unit (s := S64x32) ![0, 0] S64x32.size inb_S64x32_S64x32_0_0
abbrev rOut6 : Rect S2048x32 := Rect.unit (s := S2048x32) ![0, 0] S2048x32.size inb_S2048x32_S2048x32_0_0

/-- The offsets of those rectangles are zero on both axes. -/
theorem zeroOff : (![0, 0] : Fin 2 → Nat) = fun _ => 0 := funext fun a => by fin_cases a <;> rfl

/-! ## What the body leaves in the output buffer -/

/-- The output buffer after the body, as a function of the two staged operands: its one store, through the
    whole-buffer rectangle, of the product payload of the two whole-buffer loads. -/
def out6_2 (x0 : Vec F S2048x64 .f32) (x1 : Vec F S64x32 .f32) : Vec F S2048x32 .f32 :=
  View.canon [⟨rOut6, k6_pay1 (View.ld x0 rLhs6) (View.ld x1 rRhs6)⟩]

/-- That one store covers the buffer: its rectangle is the whole shape. -/
theorem covers6_2 (p : Vec F S2048x32 .f32) (y : S2048x32.Idx) :
    ∃ pc ∈ ([⟨rOut6, p⟩] : List (View.Piece (Elt F) S2048x32 .f32)), y ∈ pc.1.set :=
  ⟨_, List.mem_singleton_self _, View.mem_set_unit_zero zeroOff inb_S2048x32_S2048x32_0_0 y⟩

/-! ## The body's triple -/

set_option maxHeartbeats 1000000 in
/-- On whole staging memrefs, the operands' at contents `x0`, `x1` and the output's at anything, the body runs to
    a continuation that holds the operands' as they were and the output's at `out6_2 x0 x1`. The body is its
    skeleton: three loads (the third, of the output buffer, is discarded) and one covering store. -/
theorem triple6 (c : Dev nD) (E : Set ℕ) (i : grid6.Coords)
    (arg1 : Memref sig .tc .vmem S2048x64 .f32) (harg1 : arg1.IsWhole)
    (arg2 : Memref sig .tc .vmem S64x32 .f32) (harg2 : arg2.IsWhole)
    (arg3 : Memref sig .tc .vmem S2048x32 .f32) (harg3 : arg3.IsWhole)
    (x0 : Vec F S2048x64 .f32) (x1 : Vec F S64x32 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out6_2 x0 x1)) -∗ K ⟨⟩))
      ⊢ wp frame (wpE (defs₀ (F := F)) Variants.none c none) E
          (cc6__dense_kernel i arg1 harg1 arg2 harg2 arg3 harg3) K := by
  simp only [cc6__dense_kernel_eq_skeleton]; unfold cc6__dense_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers6_2 _)

/-! ## The pipeline's proof data -/

/-- Pipeline 6's proof data on core `c`: the arrays as the region finds them; after the body at point `t` each
    operand's buffer still at its block and the output's at `out6_2` of the two blocks; the invariant is the
    scoped rest and the generator register, untouched; full shares; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) :
    (dat6 V c).after 2 t = out6_2 (iblk6 V c 0 t) (iblk6 V c 1 t) := by dsimp only [dat6]

/-- Each operand's current staging buffer holds its block at every point. -/
theorem before6_0 (c : Dev nD) (t : Fin cfg6.N) (d) : (dat6 V c).before 0 t d = iblk6 V c 0 t :=
  held6_0 V (dat6 V c) (A_eq6 V c 0) (after6_0 V c) t d
theorem before6_1 (c : Dev nD) (t : Fin cfg6.N) (d) : (dat6 V c).before 1 t d = iblk6 V c 1 t :=
  held6_1 V (dat6 V c) (A_eq6 V c 1) (after6_1 V c) t d

/-! ## The body obligation -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the operands' memrefs hold their blocks, so the body's triple applies; the invariant
    and the core's tallies pass through unread. -/
theorem sound_body6 (c : Dev nD) (t : Fin cfg6.N) :
    bodyPre6 V c t ⊢ wp frame (wpE (defs₀ (F := F)) Variants.none c none) Set.univ (bodyAt6 t)
      (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (triple6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) :
    BodyObligation (dat6 (F := F) V c) (defs₀ (F := F)) Variants.none () Set.univ := fun t => by
  rw [bigSep_W6, bigSep_W6]
  exact sound_body6 V c t

end Region

end Cert.Kernel.R6

end
-- ==== Proof.K.R7Sched.lean ====
/- The schedule of the gather region (grid [391, 49], point t ↔ (e, j) = (t / 49, t % 49), j the inner axis), at any
   admissible contents `a` of its two prefetched tables: the index maps do not read the tables, so each window's block
   index is a closed form in t, and with it which points fetch an input (src and norm: where j = 0; the node block:
   every point), which write the output back (where j = 48) and where the output is idle (where j ≠ 48). -/
import proofs.«417346_j54202487276072_2_alg».proof.Proof.Gen.Kernel.Launch

noncomputable section

namespace Cert.Kernel.R7

open Cert.Kernel Cert.Kernel.Gen
open Idealize.ShloMosaic Idealize.ShloMosaic.TcCoe
open Idealize.SL Idealize.SL.Sem

variable {F : FTy → Type} [FloatOps F]

/-! ## The coordinates of a point -/

theorem stride7_0 : grid7.stride 0 = 49 := by decide
theorem stride7_1 : grid7.stride 1 = 1 := by decide

/-- The outer coordinate (the edge tile) of point t is t / 49. -/
theorem coords7_0 (t : Fin grid7.N) : (grid7.coords t 0).val = t.val / 49 := by
  have h : t.val < 19159 := Nat.lt_of_lt_of_eq t.isLt N_7
  show t.val / grid7.stride 0 % 391 = _
  rw [stride7_0]; omega

/-- The inner coordinate (the node tile) of point t is t % 49. -/
theorem coords7_1 (t : Fin grid7.N) : (grid7.coords t 1).val = t.val % 49 := by
  show t.val / grid7.stride 1 % 49 = _
  rw [stride7_1, Nat.div_one]

theorem vec2_ne {x y : ℕ} : (![x, 0] : Fin 2 → ℕ) ≠ ![y, 0] ↔ x ≠ y :=
  ⟨fun h hxy => h (by rw [hxy]), fun h heq => h (congrFun heq 0)⟩
theorem vec1_ne {x y : ℕ} : (![x] : Fin 1 → ℕ) ≠ ![y] ↔ x ≠ y :=
  ⟨fun h hxy => h (by rw [hxy]), fun h heq => h (congrFun heq 0)⟩

variable (a : (pcfg7 (F := F)).Adm)

/-! ## The windows' block indices, in closed form -/

theorem idx7_0 (t : Fin (cfg7 a).N) : ((cfg7 a).win 0).index t = ![t.val / 49] := by
  have h : t.val < 19159 := Nat.lt_of_lt_of_eq t.isLt N_7
  show cc7_transform_0 (grid7.coords t) = _
  unfold cc7_transform_0
  simp only [BitVec.toNat_ofNat, coords7_0]
  rw [Nat.mod_eq_of_lt (by omega)]

theorem idx7_1 (t : Fin (cfg7 a).N) : ((cfg7 a).win 1).index t = ![t.val / 49] := by
  have h : t.val < 19159 := Nat.lt_of_lt_of_eq t.isLt N_7
  show cc7_transform_1 (grid7.coords t) = _
  unfold cc7_transform_1
  simp only [BitVec.toNat_ofNat, coords7_0]
  rw [Nat.mod_eq_of_lt (by omega)]

theorem idx7_2 (t : Fin (cfg7 a).N) : ((cfg7 a).win 2).index t = ![t.val % 49, 0] := by
  show cc7_transform_2 (grid7.coords t) = _
  unfold cc7_transform_2
  simp only [BitVec.toNat_ofNat, coords7_1]
  rw [Nat.mod_eq_of_lt (by omega)]

theorem idx7_3 (t : Fin (cfg7 a).N) : ((cfg7 a).win 3).index t = ![t.val / 49, 0] := by
  have h : t.val < 19159 := Nat.lt_of_lt_of_eq t.isLt N_7
  show cc7_transform_3 (grid7.coords t) = _
  unfold cc7_transform_3
  simp only [BitVec.toNat_ofNat, coords7_0]
  rw [Nat.mod_eq_of_lt (by omega)]

/-! ## Which points fetch, which write back -/

/-- The output block is written back exactly at the last node tile of each edge tile (j = 48). -/
theorem flush7_3 (t : Fin (cfg7 a).N) : ((cfg7 a).win 3).flush t = true ↔ t.val % 49 = 48 := by
  have hN : (pcfg7.gridAt a.1).N = 19159 := N_7
  have hN' : (cfg7 a).N = 19159 := N_7
  have hN'' : (cfg7 a).grid.N = 19159 := N_7
  have ht : t.val < 19159 := Nat.lt_of_lt_of_eq t.isLt N_7
  have key : ∀ (s s' : Fin (cfg7 a).N), ((cfg7 a).win 3).index s ≠ ((cfg7 a).win 3).index s' ↔ s.val / 49 ≠ s'.val / 49 :=
    fun s s' => by rw [idx7_3, idx7_3]; exact vec2_ne
  unfold Pipeline.Window.flush
  rw [show ((cfg7 a).win 3).isOut = true from rfl, Bool.true_and, Bool.or_eq_true, decide_eq_true_eq, decide_eq_true_eq]
  constructor
  · rintro (h | ⟨h, hne⟩)
    · omega
    · have h2 := (key _ _).mp hne
      dsimp only at h2
      omega
  · intro h
    by_cases hl : t.val + 1 = 19159
    · exact .inl (by omega)
    · exact .inr ⟨by omega, (key ⟨t.val + 1, by omega⟩ t).mpr (by dsimp only; omega)⟩

/-- The source-index block is fetched exactly at the first node tile of each edge tile (j = 0). -/
theorem fetch7_0 (t : Fin (cfg7 a).N) : ((cfg7 a).win 0).fetch t = true ↔ t.val % 49 = 0 := by
  have hN : (pcfg7.gridAt a.1).N = 19159 := N_7
  have hN' : (cfg7 a).N = 19159 := N_7
  have hN'' : (cfg7 a).grid.N = 19159 := N_7
  have ht : t.val < 19159 := Nat.lt_of_lt_of_eq t.isLt N_7
  have key : ∀ (s s' : Fin (cfg7 a).N), ((cfg7 a).win 0).index s ≠ ((cfg7 a).win 0).index s' ↔ s.val / 49 ≠ s'.val / 49 :=
    fun s s' => by rw [idx7_0, idx7_0]; exact vec1_ne
  unfold Pipeline.Window.fetch
  rw [show ((cfg7 a).win 0).isOut = false from rfl, Bool.not_false, Bool.true_and, Bool.or_eq_true, decide_eq_true_eq, decide_eq_true_eq]
  constructor
  · rintro (h | ⟨h, hne⟩)
    · omega
    · have h2 := (key _ _).mp hne
      dsimp only at h2
      omega
  · intro h
    by_cases hl : t.val = 0
    · exact .inl hl
    · exact .inr ⟨by omega, (key t ⟨t.val - 1, by omega⟩).mpr (by dsimp only; omega)⟩

/-- The edge-norm block likewise. -/
theorem fetch7_1 (t : Fin (cfg7 a).N) : ((cfg7 a).win 1).fetch t = true ↔ t.val % 49 = 0 := by
  have hN : (pcfg7.gridAt a.1).N = 19159 := N_7
  have hN' : (cfg7 a).N = 19159 := N_7
  have hN'' : (cfg7 a).grid.N = 19159 := N_7
  have ht : t.val < 19159 := Nat.lt_of_lt_of_eq t.isLt N_7
  have key : ∀ (s s' : Fin (cfg7 a).N), ((cfg7 a).win 1).index s ≠ ((cfg7 a).win 1).index s' ↔ s.val / 49 ≠ s'.val / 49 :=
    fun s s' => by rw [idx7_1, idx7_1]; exact vec1_ne
  unfold Pipeline.Window.fetch
  rw [show ((cfg7 a).win 1).isOut = false from rfl, Bool.not_false, Bool.true_and, Bool.or_eq_true, decide_eq_true_eq, decide_eq_true_eq]
  constructor
  · rintro (h | ⟨h, hne⟩)
    · omega
    · have h2 := (key _ _).mp hne
      dsimp only at h2
      omega
  · intro h
    by_cases hl : t.val = 0
    · exact .inl hl
    · exact .inr ⟨by omega, (key t ⟨t.val - 1, by omega⟩).mpr (by dsimp only; omega)⟩

/-- The node-feature block is fetched at every point (the node tile changes from each point to the next). -/
theorem fetch7_2 (t : Fin (cfg7 a).N) : ((cfg7 a).win 2).fetch t = true := by
  have hN : (pcfg7.gridAt a.1).N = 19159 := N_7
  have hN' : (cfg7 a).N = 19159 := N_7
  have hN'' : (cfg7 a).grid.N = 19159 := N_7
  have ht : t.val < 19159 := Nat.lt_of_lt_of_eq t.isLt N_7
  have key : ∀ (s s' : Fin (cfg7 a).N), ((cfg7 a).win 2).index s ≠ ((cfg7 a).win 2).index s' ↔ s.val % 49 ≠ s'.val % 49 :=
    fun s s' => by rw [idx7_2, idx7_2]; exact vec2_ne
  unfold Pipeline.Window.fetch
  rw [show ((cfg7 a).win 2).isOut = false from rfl, Bool.not_false, Bool.true_and, Bool.or_eq_true, decide_eq_true_eq, decide_eq_true_eq]
  by_cases hl : t.val = 0
  · exact .inl hl
  · exact .inr ⟨by omega, (key t ⟨t.val - 1, by omega⟩).mpr (by dsimp only; omega)⟩

/-! ## The body's guards on the inner coordinate -/

/-- The first guard (reset the accumulator) as the kernel computes it. -/
abbrev cond1 (i : grid7.Coords) : Prop :=
  Scalar.cmpi .ne (Scalar.extui (Scalar.cmpi .eq (BitVec.ofNat 32 (i 1).val) 0#32)) 0#32 = 1#1

theorem cond1_fin : ∀ j : Fin 49, (Scalar.cmpi .ne (Scalar.extui (Scalar.cmpi .eq (BitVec.ofNat 32 j.val) 0#32)) 0#32 = 1#1) ↔ j.val = 0 := by decide
theorem cond3_fin : ∀ j : Fin 49, (Scalar.cmpi .ne (Scalar.extui (Scalar.cmpi .eq (BitVec.ofNat 32 j.val) 48#32)) 0#32 = 1#1) ↔ j.val = 48 := by decide

/-- It holds exactly where the node tile is the first. -/
theorem cond1_iff (i : grid7.Coords) : cond1 i ↔ (i 1).val = 0 := cond1_fin (i 1)
/-- The third guard (store the output) holds exactly where the node tile is the last. -/
theorem k7_cond3_iff' (i : grid7.Coords) : k7_cond3 i = 1#1 ↔ (i 1).val = 48 := cond3_fin (i 1)
theorem k7_cond3_iff (t : Fin grid7.N) : k7_cond3 (grid7.coords t) = 1#1 ↔ t.val % 49 = 48 := by
  rw [← coords7_1]; exact cond3_fin (grid7.coords t 1)

/-- The output window is idle exactly where the third guard fails. -/
theorem idle7_3 (t : Fin (cfg7 a).N) : (cfg7 a).idle 3 (grid7.coords t) = true ↔ t.val % 49 ≠ 48 := by
  show (!(k7_cond3 (grid7.coords t) == 1#1)) = true ↔ _
  rw [Bool.not_eq_true', beq_eq_false_iff_ne, ne_eq, k7_cond3_iff]

theorem idle7_3_of (i : grid7.Coords) (h : ¬ k7_cond3 i = 1#1) : (cfg7 a).idle 3 i = true := by
  show (!(k7_cond3 i == 1#1)) = true
  rw [Bool.not_eq_true', beq_eq_false_iff_ne]; exact h
theorem live7_3_of (i : grid7.Coords) (h : k7_cond3 i = 1#1) : (cfg7 a).idle 3 i = false := by
  show (!(k7_cond3 i == 1#1)) = false
  rw [Bool.not_eq_false', beq_iff_eq]; exact h

/-- The inputs are never idle. -/
theorem live7_0 (i : grid7.Coords) : (cfg7 a).idle 0 i = false := rfl
theorem live7_1 (i : grid7.Coords) : (cfg7 a).idle 1 i = false := rfl
theorem live7_2 (i : grid7.Coords) : (cfg7 a).idle 2 i = false := rfl

/-- Where the output is idle it is not written back. -/
theorem noflush7_3 (t : Fin (cfg7 a).N) (h : ¬ k7_cond3 (grid7.coords t) = 1#1) : ((cfg7 a).win 3).flush t = false := by
  rw [Bool.eq_false_iff, ne_eq, flush7_3, ← k7_cond3_iff]; exact h

end Cert.Kernel.R7

end
-- ==== Proof.K.R7Runs.lean ====
import proofs.«417346_j54202487276072_2_alg».proof.Proof.Gen.Kernel.Launch
import proofs.«417346_j54202487276072_2_alg».proof.Proof.Gen.Kernel.Skeleton
import proofs.«417346_j54202487276072_2_alg».proof.Proof.K.R7Sched
import Idealize.ShloMosaic.Lib.Pipeline.FrameBody
import Idealize.ShloMosaic.Lib.Pipeline.Value
import Idealize.ShloMosaic.Lib.Tactic

set_option maxRecDepth 16384

noncomputable section

namespace Cert.Kernel.R7

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## The tables as the body is handed them; the step's condition -/

abbrev tbMin7 : Memref sig .tc .smem S391 .i32 := Memref.whole main_v68
abbrev htbMin7 : (tbMin7).IsWhole := Memref.isWhole_whole _
abbrev tbMax7 : Memref sig .tc .smem S391 .i32 := Memref.whole main_v70
abbrev htbMax7 : (tbMax7).IsWhole := Memref.isWhole_whole _

/-- A table's buffer contents on core `c`, and the table held whole at them. -/
abbrev TbBuf7 (c : Dev nD) (M : Memref sig .tc .smem S391 .i32) : Type := Buf (Elt F) (M.view.loc (c : Thread nD τ))
abbrev tbPt7 (c : Dev nD) (M : Memref sig .tc .smem S391 .i32) (f : TbBuf7 (F := F) c M) : sProp 𝕄 :=
  M.view.loc (c : Thread nD τ) ↦{fullShare} f

/-- The word of table `M` the body loads at point `i` (the entry of the point's edge tile), over contents `f`. -/
abbrev wd7 (M : Memref sig .tc .smem S391 .i32) (f : M.view.ty.Contents (Elt F)) (i : grid7.Coords) : Elt F .i32 :=
  M.view.readAt (Elt F) (Rect.unit (s := S391) (k7_off1 i) S1.size (k7_off1_inb i)).toLoadRect f (Shape.Idx.first (numel1_S1.symm ▸ Nat.one_pos))

/-- The condition of the accumulation step as the body computes it: the node tile `[2048 i₁, 2048 i₁ + 2048)` meets
    the range `[mn, mx]` of sources in the edge tile (signed comparisons on the two table words). -/
def k7_act (i : grid7.Coords) (mx mn : Elt F .i32) : BitVec 1 :=
  let arg1 : BitVec 32 := BitVec.ofNat 32 (i 1).val
  let v3 : BitVec 32 := Scalar.muli arg1 2048#32
  let v4 : BitVec 32 := Scalar.addi v3 2048#32
  let v7 : BitVec 1 := Scalar.cmpi .sle v3 mx
  let v10 : BitVec 1 := Scalar.cmpi .sgt v4 mn
  let v11 : BitVec 1 := Scalar.andi v7 v10
  let v12 : BitVec 32 := Scalar.extui v11
  Scalar.cmpi .ne v12 0#32

/-! ## Whole-buffer loads and stores -/

theorem z1 : (![0] : Fin 1 → Nat) = fun _ => 0 := by funext a; fin_cases a; rfl
theorem z2 : (![0, 0] : Fin 2 → Nat) = fun _ => 0 := by funext a; fin_cases a <;> rfl

/-- A load through the whole-shape rectangle at zero offsets reads the memref's contents. -/
theorem rdU (S : Shape) {e : EltTy} {κ : Kind} {sp : Space} (v : View sig κ sp S e) {off : Fin S.rank → Nat} (h : off = fun _ => 0)
    (inb : ∀ a, off a + S.size a ≤ S.size a) (f : v.ty.Contents (Elt F)) :
    v.readAt (Elt F) (Rect.unit off S.size inb).toLoadRect f = v.read (Elt F) f :=
  View.ld_unit_zero h inb _

/-- Every index lies in the whole-shape rectangle: a list of stores headed by one through it covers the buffer. -/
theorem covU (S : Shape) {e : EltTy} {off : Fin S.rank → Nat} (h : off = fun _ => 0) (inb : ∀ a, off a + S.size a ≤ S.size a)
    (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons.mpr (Or.inl rfl), View.mem_set_unit_zero h inb y⟩

/-- A load through it of what the run's stores left, the last of them through it, reads that store's payload. -/
theorem rcU (S : Shape) {e : EltTy} {κ : Kind} {sp : Space} (v : View sig κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (covU S h inb w L), View.canon_cons_unit_zero h, View.ld_unit_zero h]

/-- The buffer read back after the run's stores, the last of them through the whole-shape rectangle: its payload. -/
theorem rwU (S : Shape) {e : EltTy} {κ : Kind} {sp : Space} (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (covU S h inb w L), View.canon_cons_unit_zero h]

/-- The inputs' staging memrefs at their blocks and the two tables at their contents: what every case of the body
    is handed and hands back untouched. -/
def kin7 (c : Dev nD) (arg4 : Memref sig .tc .vmem S4096 .i32) (arg5 : Memref sig .tc .vmem S4096 .f32)
    (arg6 : Memref sig .tc .vmem S2048x32 .f32)
    (x0 : Vec F S4096 .i32) (x1 : Vec F S4096 .f32) (x2 : Vec F S2048x32 .f32)
    (xt0 : TbBuf7 (F := F) c tbMin7) (xt1 : TbBuf7 (F := F) c tbMax7) : sProp 𝕄 :=
  iprop(owns (c : Thread nD τ) arg4 fullShare x0 ∗ owns (c : Thread nD τ) arg5 fullShare x1 ∗ owns (c : Thread nD τ) arg6 fullShare x2
    ∗ tbPt7 c tbMin7 xt0 ∗ tbPt7 c tbMax7 xt1)

/-! ## The body, case by case

The body has three conditionals: on the point's node tile being the first (the scratch is reset to zero), on the two
table words (the accumulation step), on the node tile being the last (the output block is stored). First and last
exclude each other on this grid, which leaves six cases. In each the printed function is its skeleton, run
operation by operation; every load and store is through a whole staging memref. The tables' words are never
evaluated: the case's hypothesis on them decides the middle conditional. -/

set_option maxHeartbeats 1000000 in
/-- First node tile, step taken: the scratch ends at the step applied to zero; the output's buffer is untouched. -/
theorem run7_FA (c : Dev nD) (i : grid7.Coords)
    (arg4 : Memref sig .tc .vmem S4096 .i32) (harg4 : arg4.IsWhole) (arg5 : Memref sig .tc .vmem S4096 .f32) (harg5 : arg5.IsWhole)
    (arg6 : Memref sig .tc .vmem S2048x32 .f32) (harg6 : arg6.IsWhole) (arg7 : Memref sig .tc .vmem S4096x32 .f32) (harg7 : arg7.IsWhole)
    (arg8 : Memref sig .tc .vmem S4096x32 .f32) (harg8 : arg8.IsWhole)
    (x0 : Vec F S4096 .i32) (x1 : Vec F S4096 .f32) (x2 : Vec F S2048x32 .f32)
    (xt0 : TbBuf7 (F := F) c tbMin7) (xt1 : TbBuf7 (F := F) c tbMax7)
    (hc1 : cond1 i) (hc2 : k7_act (F := F) i (wd7 tbMax7 xt1 i) (wd7 tbMin7 xt0 i) = 1#1) (hc3 : ¬ k7_cond3 i = 1#1)
    (xo : Vec F S4096x32 .f32) (E : Set ℕ) (K : PUnit → sProp 𝕄) :
    iprop(kin7 c arg4 arg5 arg6 x0 x1 x2 xt0 xt1
        ∗ (∃ d, owns (c : Thread nD τ) arg8 fullShare d) ∗ owns (c : Thread nD τ) arg7 fullShare xo
        ∗ (iprop(kin7 c arg4 arg5 arg6 x0 x1 x2 xt0 xt1
            ∗ owns (c : Thread nD τ) arg8 fullShare (k7_pay2 i x0 (k7_pay1 (F := F)) x2) ∗ owns (c : Thread nD τ) arg7 fullShare xo) -∗ K ⟨⟩))
      ⊢ wp frame (wpE (defs₀ (F := F)) Variants.none c none) E
          (cc7__gather_kernel i tbMin7 htbMin7 tbMax7 htbMax7 arg4 harg4 arg5 harg5 arg6 harg6 arg7 harg7 arg8 harg8) K := by
  simp only [cc7__gather_kernel_eq_skeleton]; unfold cc7__gather_kernel_skel
  unfold kin7 owns
  iintro ⟨⟨⟨%f0, %hf0, H0⟩, ⟨%f1, %hf1, H1⟩, ⟨%f2, %hf2, H2⟩, HT0, HT1⟩, ⟨%ds, %fs, -, HS⟩, ⟨%f9, %hf9, H9⟩, Hk⟩
  subst hf0 hf1 hf2 hf9
  sl_exec (disch := first | sl_exact hc1 | sl_exact hc2 | sl_exact hc3)
  sl_step
  iapply Hk
  isplitl [H0 H1 H2 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [HT0]; · iexact HT0
    iexact HT1
  isplitl [HS]
  · iexists _; isplitr; swap; · iexact HS
    ipureintro
    -- the second store's payload read the first store's back
    rw [rwU S4096x32 _ _ z2]
    unfold run7_FA.sl.v29 run7_FA.sl.HS_1
    simp only [rcU S4096x32 _ z2, rdU S4096 _ z1, rdU S2048x32 _ z2]
  iexists f9; isplitr; · ipureintro; rfl
  iexact H9

set_option maxHeartbeats 1000000 in
/-- First node tile, step skipped: the scratch ends at zero; the output's buffer is untouched. -/
theorem run7_FI (c : Dev nD) (i : grid7.Coords)
    (arg4 : Memref sig .tc .vmem S4096 .i32) (harg4 : arg4.IsWhole) (arg5 : Memref sig .tc .vmem S4096 .f32) (harg5 : arg5.IsWhole)
    (arg6 : Memref sig .tc .vmem S2048x32 .f32) (harg6 : arg6.IsWhole) (arg7 : Memref sig .tc .vmem S4096x32 .f32) (harg7 : arg7.IsWhole)
    (arg8 : Memref sig .tc .vmem S4096x32 .f32) (harg8 : arg8.IsWhole)
    (x0 : Vec F S4096 .i32) (x1 : Vec F S4096 .f32) (x2 : Vec F S2048x32 .f32)
    (xt0 : TbBuf7 (F := F) c tbMin7) (xt1 : TbBuf7 (F := F) c tbMax7)
    (hc1 : cond1 i) (hc2 : ¬ k7_act (F := F) i (wd7 tbMax7 xt1 i) (wd7 tbMin7 xt0 i) = 1#1) (hc3 : ¬ k7_cond3 i = 1#1)
    (xo : Vec F S4096x32 .f32) (E : Set ℕ) (K : PUnit → sProp 𝕄) :
    iprop(kin7 c arg4 arg5 arg6 x0 x1 x2 xt0 xt1
        ∗ (∃ d, owns (c : Thread nD τ) arg8 fullShare d) ∗ owns (c : Thread nD τ) arg7 fullShare xo
        ∗ (iprop(kin7 c arg4 arg5 arg6 x0 x1 x2 xt0 xt1
            ∗ owns (c : Thread nD τ) arg8 fullShare (k7_pay1 (F := F)) ∗ owns (c : Thread nD τ) arg7 fullShare xo) -∗ K ⟨⟩))
      ⊢ wp frame (wpE (defs₀ (F := F)) Variants.none c none) E
          (cc7__gather_kernel i tbMin7 htbMin7 tbMax7 htbMax7 arg4 harg4 arg5 harg5 arg6 harg6 arg7 harg7 arg8 harg8) K := by
  simp only [cc7__gather_kernel_eq_skeleton]; unfold cc7__gather_kernel_skel
  unfold kin7 owns
  iintro ⟨⟨⟨%f0, %hf0, H0⟩, ⟨%f1, %hf1, H1⟩, ⟨%f2, %hf2, H2⟩, HT0, HT1⟩, ⟨%ds, %fs, -, HS⟩, ⟨%f9, %hf9, H9⟩, Hk⟩
  subst hf0 hf1 hf2 hf9
  sl_exec (disch := first | sl_exact hc1 | sl_exact hc2 | sl_exact hc3)
  sl_step
  iapply Hk
  isplitl [H0 H1 H2 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [HT0]; · iexact HT0
    iexact HT1
  isplitl [HS]
  · iexists _; isplitr; swap; · iexact HS
    ipureintro
    rw [rwU S4096x32 _ _ z2]
  iexists f9; isplitr; · ipureintro; rfl
  iexact H9

set_option maxHeartbeats 1000000 in
/-- A middle node tile, step taken: the scratch ends at the step applied to what it held; the output's buffer is
    untouched. -/
theorem run7_MA (c : Dev nD) (i : grid7.Coords)
    (arg4 : Memref sig .tc .vmem S4096 .i32) (harg4 : arg4.IsWhole) (arg5 : Memref sig .tc .vmem S4096 .f32) (harg5 : arg5.IsWhole)
    (arg6 : Memref sig .tc .vmem S2048x32 .f32) (harg6 : arg6.IsWhole) (arg7 : Memref sig .tc .vmem S4096x32 .f32) (harg7 : arg7.IsWhole)
    (arg8 : Memref sig .tc .vmem S4096x32 .f32) (harg8 : arg8.IsWhole)
    (x0 : Vec F S4096 .i32) (x1 : Vec F S4096 .f32) (x2 : Vec F S2048x32 .f32)
    (xt0 : TbBuf7 (F := F) c tbMin7) (xt1 : TbBuf7 (F := F) c tbMax7)
    (hc1 : ¬ cond1 i) (hc2 : k7_act (F := F) i (wd7 tbMax7 xt1 i) (wd7 tbMin7 xt0 i) = 1#1) (hc3 : ¬ k7_cond3 i = 1#1)
    (xs xo : Vec F S4096x32 .f32) (E : Set ℕ) (K : PUnit → sProp 𝕄) :
    iprop(kin7 c arg4 arg5 arg6 x0 x1 x2 xt0 xt1
        ∗ owns (c : Thread nD τ) arg8 fullShare xs ∗ owns (c : Thread nD τ) arg7 fullShare xo
        ∗ (iprop(kin7 c arg4 arg5 arg6 x0 x1 x2 xt0 xt1
            ∗ owns (c : Thread nD τ) arg8 fullShare (k7_pay2 i x0 xs x2) ∗ owns (c : Thread nD τ) arg7 fullShare xo) -∗ K ⟨⟩))
      ⊢ wp frame (wpE (defs₀ (F := F)) Variants.none c none) E
          (cc7__gather_kernel i tbMin7 htbMin7 tbMax7 htbMax7 arg4 harg4 arg5 harg5 arg6 harg6 arg7 harg7 arg8 harg8) K := by
  simp only [cc7__gather_kernel_eq_skeleton]; unfold cc7__gather_kernel_skel
  unfold kin7 owns
  iintro ⟨⟨⟨%f0, %hf0, H0⟩, ⟨%f1, %hf1, H1⟩, ⟨%f2, %hf2, H2⟩, HT0, HT1⟩, ⟨%fs, %hfs, HS⟩, ⟨%f9, %hf9, H9⟩, Hk⟩
  subst hf0 hf1 hf2 hfs hf9
  sl_exec (disch := first | sl_exact hc1 | sl_exact hc2 | sl_exact hc3)
  sl_step
  iapply Hk
  isplitl [H0 H1 H2 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [HT0]; · iexact HT0
    iexact HT1
  isplitl [HS]
  · iexists _; isplitr; swap; · iexact HS
    ipureintro
    rw [rwU S4096x32 _ _ z2]
    simp only [rdU S4096 _ z1, rdU S4096x32 _ z2, rdU S2048x32 _ z2]
  iexists f9; isplitr; · ipureintro; rfl
  iexact H9

set_option maxHeartbeats 1000000 in
/-- A middle node tile, step skipped: nothing is stored. -/
theorem run7_MI (c : Dev nD) (i : grid7.Coords)
    (arg4 : Memref sig .tc .vmem S4096 .i32) (harg4 : arg4.IsWhole) (arg5 : Memref sig .tc .vmem S4096 .f32) (harg5 : arg5.IsWhole)
    (arg6 : Memref sig .tc .vmem S2048x32 .f32) (harg6 : arg6.IsWhole) (arg7 : Memref sig .tc .vmem S4096x32 .f32) (harg7 : arg7.IsWhole)
    (arg8 : Memref sig .tc .vmem S4096x32 .f32) (harg8 : arg8.IsWhole)
    (x0 : Vec F S4096 .i32) (x1 : Vec F S4096 .f32) (x2 : Vec F S2048x32 .f32)
    (xt0 : TbBuf7 (F := F) c tbMin7) (xt1 : TbBuf7 (F := F) c tbMax7)
    (hc1 : ¬ cond1 i) (hc2 : ¬ k7_act (F := F) i (wd7 tbMax7 xt1 i) (wd7 tbMin7 xt0 i) = 1#1) (hc3 : ¬ k7_cond3 i = 1#1)
    (xs xo : Vec F S4096x32 .f32) (E : Set ℕ) (K : PUnit → sProp 𝕄) :
    iprop(kin7 c arg4 arg5 arg6 x0 x1 x2 xt0 xt1
        ∗ owns (c : Thread nD τ) arg8 fullShare xs ∗ owns (c : Thread nD τ) arg7 fullShare xo
        ∗ (iprop(kin7 c arg4 arg5 arg6 x0 x1 x2 xt0 xt1
            ∗ owns (c : Thread nD τ) arg8 fullShare xs ∗ owns (c : Thread nD τ) arg7 fullShare xo) -∗ K ⟨⟩))
      ⊢ wp frame (wpE (defs₀ (F := F)) Variants.none c none) E
          (cc7__gather_kernel i tbMin7 htbMin7 tbMax7 htbMax7 arg4 harg4 arg5 harg5 arg6 harg6 arg7 harg7 arg8 harg8) K := by
  simp only [cc7__gather_kernel_eq_skeleton]; unfold cc7__gather_kernel_skel
  unfold kin7 owns
  iintro ⟨⟨⟨%f0, %hf0, H0⟩, ⟨%f1, %hf1, H1⟩, ⟨%f2, %hf2, H2⟩, HT0, HT1⟩, ⟨%fs, %hfs, HS⟩, ⟨%f9, %hf9, H9⟩, Hk⟩
  subst hf0 hf1 hf2 hfs hf9
  sl_exec (disch := first | sl_exact hc1 | sl_exact hc2 | sl_exact hc3)
  sl_step
  iapply Hk
  isplitl [H0 H1 H2 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [HT0]; · iexact HT0
    iexact HT1
  isplitl [HS]
  · iexists fs; isplitr; · ipureintro; rfl
    iexact HS
  iexists f9; isplitr; · ipureintro; rfl
  iexact H9

set_option maxHeartbeats 1000000 in
/-- Last node tile, step taken: the scratch ends at the step applied to what it held, and the output's buffer at
    that scaled by the edge norms. -/
theorem run7_LA (c : Dev nD) (i : grid7.Coords)
    (arg4 : Memref sig .tc .vmem S4096 .i32) (harg4 : arg4.IsWhole) (arg5 : Memref sig .tc .vmem S4096 .f32) (harg5 : arg5.IsWhole)
    (arg6 : Memref sig .tc .vmem S2048x32 .f32) (harg6 : arg6.IsWhole) (arg7 : Memref sig .tc .vmem S4096x32 .f32) (harg7 : arg7.IsWhole)
    (arg8 : Memref sig .tc .vmem S4096x32 .f32) (harg8 : arg8.IsWhole)
    (x0 : Vec F S4096 .i32) (x1 : Vec F S4096 .f32) (x2 : Vec F S2048x32 .f32)
    (xt0 : TbBuf7 (F := F) c tbMin7) (xt1 : TbBuf7 (F := F) c tbMax7)
    (hc1 : ¬ cond1 i) (hc2 : k7_act (F := F) i (wd7 tbMax7 xt1 i) (wd7 tbMin7 xt0 i) = 1#1) (hc3 : k7_cond3 i = 1#1)
    (xs : Vec F S4096x32 .f32) (E : Set ℕ) (K : PUnit → sProp 𝕄) :
    iprop(kin7 c arg4 arg5 arg6 x0 x1 x2 xt0 xt1
        ∗ owns (c : Thread nD τ) arg8 fullShare xs ∗ (∃ d, owns (c : Thread nD τ) arg7 fullShare d)
        ∗ (iprop(kin7 c arg4 arg5 arg6 x0 x1 x2 xt0 xt1
            ∗ owns (c : Thread nD τ) arg8 fullShare (k7_pay2 i x0 xs x2)
            ∗ owns (c : Thread nD τ) arg7 fullShare (k7_pay3 x1 (k7_pay2 i x0 xs x2))) -∗ K ⟨⟩))
      ⊢ wp frame (wpE (defs₀ (F := F)) Variants.none c none) E
          (cc7__gather_kernel i tbMin7 htbMin7 tbMax7 htbMax7 arg4 harg4 arg5 harg5 arg6 harg6 arg7 harg7 arg8 harg8) K := by
  simp only [cc7__gather_kernel_eq_skeleton]; unfold cc7__gather_kernel_skel
  unfold kin7 owns
  iintro ⟨⟨⟨%f0, %hf0, H0⟩, ⟨%f1, %hf1, H1⟩, ⟨%f2, %hf2, H2⟩, HT0, HT1⟩, ⟨%fs, %hfs, HS⟩, ⟨%d9, %f9, -, H9⟩, Hk⟩
  subst hf0 hf1 hf2 hfs
  sl_exec (disch := first | sl_exact hc1 | sl_exact hc2 | sl_exact hc3)
  sl_step
  iapply Hk
  isplitl [H0 H1 H2 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [HT0]; · iexact HT0
    iexact HT1
  isplitl [HS]
  · iexists _; isplitr; swap; · iexact HS
    ipureintro
    unfold run7_LA.sl.HS_1
    rw [rwU S4096x32 _ _ z2]
    simp only [rdU S4096 _ z1, rdU S4096x32 _ z2, rdU S2048x32 _ z2]
  iexists _; isplitr; swap; · iexact H9
  ipureintro
  -- the last conditional's load read the step's store back
  rw [rwU S4096x32 _ _ z2]
  unfold run7_LA.sl.v20 run7_LA.sl.HS_1
  simp only [rcU S4096x32 _ z2, rdU S4096 _ z1, rdU S4096x32 _ z2, rdU S2048x32 _ z2]

set_option maxHeartbeats 1000000 in
/-- Last node tile, step skipped: the scratch keeps what it held, and the output's buffer ends at that scaled by the
    edge norms. -/
theorem run7_LI (c : Dev nD) (i : grid7.Coords)
    (arg4 : Memref sig .tc .vmem S4096 .i32) (harg4 : arg4.IsWhole) (arg5 : Memref sig .tc .vmem S4096 .f32) (harg5 : arg5.IsWhole)
    (arg6 : Memref sig .tc .vmem S2048x32 .f32) (harg6 : arg6.IsWhole) (arg7 : Memref sig .tc .vmem S4096x32 .f32) (harg7 : arg7.IsWhole)
    (arg8 : Memref sig .tc .vmem S4096x32 .f32) (harg8 : arg8.IsWhole)
    (x0 : Vec F S4096 .i32) (x1 : Vec F S4096 .f32) (x2 : Vec F S2048x32 .f32)
    (xt0 : TbBuf7 (F := F) c tbMin7) (xt1 : TbBuf7 (F := F) c tbMax7)
    (hc1 : ¬ cond1 i) (hc2 : ¬ k7_act (F := F) i (wd7 tbMax7 xt1 i) (wd7 tbMin7 xt0 i) = 1#1) (hc3 : k7_cond3 i = 1#1)
    (xs : Vec F S4096x32 .f32) (E : Set ℕ) (K : PUnit → sProp 𝕄) :
    iprop(kin7 c arg4 arg5 arg6 x0 x1 x2 xt0 xt1
        ∗ owns (c : Thread nD τ) arg8 fullShare xs ∗ (∃ d, owns (c : Thread nD τ) arg7 fullShare d)
        ∗ (iprop(kin7 c arg4 arg5 arg6 x0 x1 x2 xt0 xt1
            ∗ owns (c : Thread nD τ) arg8 fullShare xs ∗ owns (c : Thread nD τ) arg7 fullShare (k7_pay3 x1 xs)) -∗ K ⟨⟩))
      ⊢ wp frame (wpE (defs₀ (F := F)) Variants.none c none) E
          (cc7__gather_kernel i tbMin7 htbMin7 tbMax7 htbMax7 arg4 harg4 arg5 harg5 arg6 harg6 arg7 harg7 arg8 harg8) K := by
  simp only [cc7__gather_kernel_eq_skeleton]; unfold cc7__gather_kernel_skel
  unfold kin7 owns
  iintro ⟨⟨⟨%f0, %hf0, H0⟩, ⟨%f1, %hf1, H1⟩, ⟨%f2, %hf2, H2⟩, HT0, HT1⟩, ⟨%fs, %hfs, HS⟩, ⟨%d9, %f9, -, H9⟩, Hk⟩
  subst hf0 hf1 hf2 hfs
  sl_exec (disch := first | sl_exact hc1 | sl_exact hc2 | sl_exact hc3)
  sl_step
  iapply Hk
  isplitl [H0 H1 H2 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [HT0]; · iexact HT0
    iexact HT1
  isplitl [HS]
  · iexists fs; isplitr; · ipureintro; rfl
    iexact HS
  iexists _; isplitr; swap; · iexact H9
  ipureintro
  rw [rwU S4096x32 _ _ z2]
  simp only [rdU S4096 _ z1, rdU S4096x32 _ z2]

end Cert.Kernel.R7

end
-- ==== Proof.K.R7Frame.lean ====
import proofs.«417346_j54202487276072_2_alg».proof.Proof.K.R7Sched
import proofs.«417346_j54202487276072_2_alg».proof.Proof.K.R7Runs
import Idealize.ShloMosaic.Lib.Pipeline.FrameBody
import Idealize.ShloMosaic.Lib.Pipeline.Frame

set_option maxRecDepth 16384

noncomputable section

namespace Cert.Kernel.R7

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

-- the buffer contents when the region is entered, and the admissible tables: both parameters, never evaluated
variable (V : (c : Dev nD) → (b : Ref sig .tc) → Buf (Elt F) ((c : Thread nD τ).loc b)) (a : (pcfg7 (F := F)).Adm)

/-! # The gather region (custom_call 1) at entry contents `V` and tables `a`

The scratch carries, along each edge tile's run of node tiles, the sum over the node tiles whose range meets the
edge tile's sources of the rows gathered there; the output block is the scratch scaled by the edge norms at the
last node tile. -/

/-! ## The windows' blocks and the table words -/

/-- Window `w`'s block at point `t`, read off its array as the region finds it. -/
def iblk7 (c : Dev nD) (w : Fin (cfg7 a).W) (t : Fin (cfg7 a).N) : (((cfg7 a).win w).xblock ((cfg7 a).grid.coords t)).Idx → Elt F ((cfg7 a).win w).elt :=
  (((cfg7 a).win w).blk t).view.read (Elt F) (V c (Pipeline.arrRef spec7 w))

/-- The three input blocks at their vector types (no window is cut: a block's shape is its window's). -/
abbrev srcB (c : Dev nD) (t : Fin (cfg7 a).N) : Vec F S4096 .i32 := iblk7 V a c 0 t
abbrev normB (c : Dev nD) (t : Fin (cfg7 a).N) : Vec F S4096 .f32 := iblk7 V a c 1 t
abbrev hwB (c : Dev nD) (t : Fin (cfg7 a).N) : Vec F S2048x32 .f32 := iblk7 V a c 2 t

/-- The two table words the body loads at point `i`: the least and the greatest source in the edge tile. -/
abbrev wMin7 (i : grid7.Coords) : Elt F .i32 := wd7 tbMin7 (a.1 0) i
abbrev wMax7 (i : grid7.Coords) : Elt F .i32 := wd7 tbMax7 (a.1 1) i

/-- The accumulation step is taken at point `i`. -/
abbrev act7 (i : grid7.Coords) : Prop := k7_act (F := F) i (wMax7 a i) (wMin7 a i) = 1#1

/-! ## The scratch, point by point -/

/-- One point's effect on the scratch from what it held (`prev`): reset to zero at the first node tile, then the
    step if its condition holds. -/
def step7 (i : grid7.Coords) (prev : Vec F S4096x32 .f32) (src : Vec F S4096 .i32) (hw : Vec F S2048x32 .f32) : Vec F S4096x32 .f32 :=
  if act7 a i then k7_pay2 i src (if (i 1).val = 0 then k7_pay1 (F := F) else prev) hw
  else (if (i 1).val = 0 then k7_pay1 (F := F) else prev)

/-- What the scratch holds after the body at point `n`. -/
def accAt7 (c : Dev nD) : (n : ℕ) → n < (cfg7 a).N → Vec F S4096x32 .f32
  | 0, h => step7 a (grid7.coords ⟨0, h⟩) (k7_pay1 (F := F)) (srcB V a c ⟨0, h⟩) (hwB V a c ⟨0, h⟩)
  | n + 1, h => step7 a (grid7.coords ⟨n + 1, h⟩) (accAt7 c n (Nat.lt_of_succ_lt h)) (srcB V a c ⟨n + 1, h⟩) (hwB V a c ⟨n + 1, h⟩)

/-- At a first node tile the scratch restarts from zero. -/
theorem accAt7_first (c : Dev nD) (t : Fin (cfg7 a).N) (hk : (grid7.coords t 1).val = 0) :
    accAt7 V a c t.val t.isLt
      = if act7 a (grid7.coords t) then k7_pay2 (grid7.coords t) (srcB V a c t) (k7_pay1 (F := F)) (hwB V a c t)
        else k7_pay1 (F := F) := by
  obtain ⟨n, hn⟩ := t
  cases n with
  | zero => show step7 a _ _ _ _ = _; unfold step7; simp only [if_pos hk]
  | succ n => show step7 a _ _ _ _ = _; unfold step7; simp only [if_pos hk]

/-- At a later node tile it continues from the point before. -/
theorem accAt7_next (c : Dev nD) (t : Fin (cfg7 a).N) (hk : (grid7.coords t 1).val ≠ 0) :
    accAt7 V a c t.val t.isLt
      = if act7 a (grid7.coords t)
        then k7_pay2 (grid7.coords t) (srcB V a c t) (accAt7 V a c (t.val - 1) (Nat.lt_of_le_of_lt (Nat.sub_le _ _) t.isLt)) (hwB V a c t)
        else accAt7 V a c (t.val - 1) (Nat.lt_of_le_of_lt (Nat.sub_le _ _) t.isLt) := by
  obtain ⟨n, hn⟩ := t
  cases n with
  | zero => exact absurd (by rw [coords7_1]; rfl) hk
  | succ n => show step7 a _ _ _ _ = _; unfold step7; simp only [if_neg hk]; rfl

/-! ## The invariant between points -/

/-- The kernel's scratch operand: a whole scoped buffer of its own. -/
abbrev scM7 : Memref sig .tc .vmem S4096x32 .f32 := Memref.whole cc7_scratch0

/-- The scratch before point `n`: at anything before the first point, else at what the point before left. -/
def scr7 (c : Dev nD) : (n : ℕ) → n < (cfg7 a).N + 1 → sProp 𝕄
  | 0, _ => iprop(∃ d, owns (c : Thread nD τ) scM7 fullShare d)
  | n + 1, h => owns (c : Thread nD τ) scM7 fullShare (accAt7 V a c n (Nat.lt_of_succ_lt_succ h))

/-- The region's invariant before point `t`: the tables held whole at their contents, the scratch, the other scoped
    buffers unopened, the generator register at some state. -/
def Φ1 (c : Dev nD) (t : Fin ((cfg7 a).N + 1)) : sProp 𝕄 :=
  iprop(Pipeline.prefHeld (Ix := Unit) (Name := ℕ) (U := UR sig nD τ) (Lvl := ℕ) pre7 c (fun _ => fullShare) a.1
    ∗ scr7 V a c t.val t.isLt
    ∗ Pipeline.scopedRestBut (Ix := Unit) (Name := ℕ) (U := UR sig nD τ) (Lvl := ℕ) (Val := Elt F) spec7 c [cc7_scratch0]
    ∗ ∃ r, prngReg c r)

theorem scr7_ex (c : Dev nD) (n : ℕ) (h : n < (cfg7 a).N + 1) :
    scr7 V a c n h ⊢ (iprop(∃ d, owns (c : Thread nD τ) scM7 fullShare d) : sProp 𝕄) := by
  cases n with
  | zero => exact .rfl
  | succ n => show owns _ _ _ _ ⊢ _; iintro H; iexists _; iexact H

theorem scr7_pos (c : Dev nD) (n : ℕ) (h : n < (cfg7 a).N + 1) (hn : n ≠ 0) :
    scr7 V a c n h = owns (c : Thread nD τ) scM7 fullShare (accAt7 V a c (n - 1) (by omega)) := by
  cases n with
  | zero => exact absurd rfl hn
  | succ m => rfl

/-! ## The proof data -/

/-- The proof data of pipeline 7 on core `c`: the arrays as the region finds them; after the body each input's
    buffer at its block, the output's at the scratch scaled by the edge norms (consulted only where the block is
    written back: at the last node tile); the invariant `Φ1`; nothing owed; full shares. -/
def dat7 (c : Dev nD) : Dat τ (Elt F) Unit ℕ (UR sig nD τ) ℕ (cfg7 a) c where
  A w := V c (Pipeline.arrRef spec7 w)
  after w t := match w with
    | ⟨0, _⟩ => iblk7 V a c 0 t
    | ⟨1, _⟩ => iblk7 V a c 1 t
    | ⟨2, _⟩ => iblk7 V a c 2 t
    | ⟨3, _⟩ => k7_pay3 (normB V a c t) (accAt7 V a c t.val t.isLt)
  Φ t := Φ1 V a c t
  q _ := fullShare
  owed _ := 0

theorem A_eq7 (c : Dev nD) (w : Fin (cfg7 a).W) : (dat7 V a c).A w = V c (Pipeline.arrRef spec7 w) := by
  dsimp only [dat7]

theorem after7_0 (c : Dev nD) (t : Fin (cfg7 a).N) : (dat7 V a c).after 0 t = iblk7 V a c 0 t := by dsimp only [dat7]; rfl
theorem after7_1 (c : Dev nD) (t : Fin (cfg7 a).N) : (dat7 V a c).after 1 t = iblk7 V a c 1 t := by dsimp only [dat7]; rfl
theorem after7_2 (c : Dev nD) (t : Fin (cfg7 a).N) : (dat7 V a c).after 2 t = iblk7 V a c 2 t := by dsimp only [dat7]; rfl
/-- The output's buffer after the body: the scratch scaled by the edge norms (what the write-back writes at the last node tile). -/
theorem after7_3 (c : Dev nD) (t : Fin (cfg7 a).N) :
    (dat7 V a c).after 3 t = k7_pay3 (normB V a c t) (accAt7 V a c t.val t.isLt) := by dsimp only [dat7]; rfl

/-- Each input's current staging buffer holds its block at every point, fetched there or not: the body only
    reads it, the window is uncut and never idle. -/
theorem before7_0 (c : Dev nD) (t : Fin (cfg7 a).N) (d) : (dat7 V a c).before 0 t d = iblk7 V a c 0 t :=
  ((dat7 V a c).before_in_eq_fetched 0 rfl (fun _ => rfl) (fun _ _ _ => rfl)
    (fun t => by rw [after7_0]; unfold Dat.blockOf iblk7; rw [A_eq7]; try rfl) t d).trans
    (by unfold Dat.fetched Dat.blockOf iblk7; rw [A_eq7]; try rfl)
theorem before7_1 (c : Dev nD) (t : Fin (cfg7 a).N) (d) : (dat7 V a c).before 1 t d = iblk7 V a c 1 t :=
  ((dat7 V a c).before_in_eq_fetched 1 rfl (fun _ => rfl) (fun _ _ _ => rfl)
    (fun t => by rw [after7_1]; unfold Dat.blockOf iblk7; rw [A_eq7]; try rfl) t d).trans
    (by unfold Dat.fetched Dat.blockOf iblk7; rw [A_eq7]; try rfl)
theorem before7_2 (c : Dev nD) (t : Fin (cfg7 a).N) (d) : (dat7 V a c).before 2 t d = iblk7 V a c 2 t :=
  ((dat7 V a c).before_in_eq_fetched 2 rfl (fun _ => rfl) (fun _ _ _ => rfl)
    (fun t => by rw [after7_2]; unfold Dat.blockOf iblk7; rw [A_eq7]; try rfl) t d).trans
    (by unfold Dat.fetched Dat.blockOf iblk7; rw [A_eq7]; try rfl)

/-! ## The invariant, opened -/

/-- The tables, one by one. -/
theorem pref7_eq (c : Dev nD) :
    (Pipeline.prefHeld (Ix := Unit) (Name := ℕ) (U := UR sig nD τ) (Lvl := ℕ) pre7 c (fun _ => fullShare) a.1 : sProp 𝕄)
      = iprop(tbPt7 c tbMin7 (a.1 0) ∗ tbPt7 c tbMax7 (a.1 1)) := by
  unfold Pipeline.prefHeld
  rw [show (Finset.univ : Finset (Fin 2)) = insert (0 : Fin 2) {(1 : Fin 2)} from by decide,
    bigSep_insert (by decide), bigSep_singleton]
  rfl

theorem Phi_cast (c : Dev nD) (t : Fin (cfg7 a).N) :
    (dat7 V a c).Φ t.castSucc
      = iprop(Pipeline.prefHeld (Ix := Unit) (Name := ℕ) (U := UR sig nD τ) (Lvl := ℕ) pre7 c (fun _ => fullShare) a.1
          ∗ scr7 V a c t.val (Nat.lt_succ_of_lt t.isLt)
          ∗ Pipeline.scopedRestBut (Ix := Unit) (Name := ℕ) (U := UR sig nD τ) (Lvl := ℕ) (Val := Elt F) spec7 c [cc7_scratch0]
          ∗ ∃ r, prngReg c r) := by
  obtain ⟨n, hn⟩ := t; rfl

theorem Phi_succ (c : Dev nD) (t : Fin (cfg7 a).N) :
    (dat7 V a c).Φ t.succ
      = iprop(Pipeline.prefHeld (Ix := Unit) (Name := ℕ) (U := UR sig nD τ) (Lvl := ℕ) pre7 c (fun _ => fullShare) a.1
          ∗ owns (c : Thread nD τ) scM7 fullShare (accAt7 V a c t.val t.isLt)
          ∗ Pipeline.scopedRestBut (Ix := Unit) (Name := ℕ) (U := UR sig nD τ) (Lvl := ℕ) (Val := Elt F) spec7 c [cc7_scratch0]
          ∗ ∃ r, prngReg c r) := by
  obtain ⟨n, hn⟩ := t; rfl

theorem owes_succ (c : Dev nD) (t : Fin (cfg7 a).N) :
    (dat7 V a c).owesAt () t.succ = (dat7 V a c).owesAt () t.castSucc := rfl

/-! ## The body at a point -/

/-- Each window's current staging memref at point `t`, spelled as the pipeline passes it, and its wholeness. -/
abbrev ms7_0 (t : Fin (cfg7 a).N) : Memref sig .tc .vmem S4096 .i32 := spec7_0.stage ((cfg7 a).slots t 0)
abbrev hs7_0 (t : Fin (cfg7 a).N) : (ms7_0 a t).IsWhole := hstage7_0 (((cfg7 a).slots t 0).cast nbuf7_0)
abbrev ms7_1 (t : Fin (cfg7 a).N) : Memref sig .tc .vmem S4096 .f32 := spec7_1.stage ((cfg7 a).slots t 1)
abbrev hs7_1 (t : Fin (cfg7 a).N) : (ms7_1 a t).IsWhole := hstage7_1 (((cfg7 a).slots t 1).cast nbuf7_1)
abbrev ms7_2 (t : Fin (cfg7 a).N) : Memref sig .tc .vmem S2048x32 .f32 := spec7_2.stage ((cfg7 a).slots t 2)
abbrev hs7_2 (t : Fin (cfg7 a).N) : (ms7_2 a t).IsWhole := hstage7_2 (((cfg7 a).slots t 2).cast nbuf7_2)
abbrev ms7_3 (t : Fin (cfg7 a).N) : Memref sig .tc .vmem S4096x32 .f32 := spec7_3.stage ((cfg7 a).slots t 3)
abbrev hs7_3 (t : Fin (cfg7 a).N) : (ms7_3 a t).IsWhole := hstage7_3 (((cfg7 a).slots t 3).cast nbuf7_3)

/-- The kernel body at point `t`, on what the pipeline calls it with. -/
abbrev bodyAt7 (t : Fin (cfg7 a).N) : Prog (TpuEff nD τ sig (Elt F) Λ₀ .tc) PUnit :=
  cc7__gather_kernel (grid7.coords t) tbMin7 htbMin7 tbMax7 htbMax7 (ms7_0 a t) (hs7_0 a t) (ms7_1 a t) (hs7_1 a t) (ms7_2 a t) (hs7_2 a t)
    (ms7_3 a t) (hs7_3 a t) scM7 (Memref.isWhole_whole _)

/-- What the body is called with at point `t`, the windows one by one, -/
def bodyPre7 (c : Dev nD) (t : Fin (cfg7 a).N) : sProp 𝕄 :=
  iprop((dat7 V a c).Φ t.castSucc ∗ (dat7 V a c).owesAt () t.castSucc
    ∗ (∃ d, owns (c : Thread nD τ) (ms7_0 a t) fullShare ((dat7 V a c).before 0 t d))
    ∗ (∃ d, owns (c : Thread nD τ) (ms7_1 a t) fullShare ((dat7 V a c).before 1 t d))
    ∗ (∃ d, owns (c : Thread nD τ) (ms7_2 a t) fullShare ((dat7 V a c).before 2 t d))
    ∗ (∃ d, owns (c : Thread nD τ) (ms7_3 a t) fullShare ((dat7 V a c).before 3 t d)))

/-- and what it returns: the output's buffer as found where the window is idle, at the scaled scratch where it is stored. -/
def bodyPost7 (c : Dev nD) (t : Fin (cfg7 a).N) : sProp 𝕄 :=
  iprop((dat7 V a c).Φ t.succ ∗ (dat7 V a c).owesAt () t.succ
    ∗ owns (c : Thread nD τ) (ms7_0 a t) fullShare ((dat7 V a c).after 0 t)
    ∗ owns (c : Thread nD τ) (ms7_1 a t) fullShare ((dat7 V a c).after 1 t)
    ∗ owns (c : Thread nD τ) (ms7_2 a t) fullShare ((dat7 V a c).after 2 t)
    ∗ (dat7 V a c).leavesExact 3 t)

/-- Where the output is stored the window is live: its buffer ends at `after`. -/
theorem leaves7_live (c : Dev nD) (t : Fin (cfg7 a).N) (h : (cfg7 a).idle 3 ((cfg7 a).grid.coords t) = false) :
    (dat7 V a c).leavesExact 3 t = owns (c : Thread nD τ) (ms7_3 a t) fullShare ((dat7 V a c).after 3 t) := by
  unfold Dat.leavesExact; rw [h]; rfl

set_option maxHeartbeats 1000000 in
/-- The body at any point. The point's place on the grid decides the first and the last conditional; the middle
    one is decided by cases on the table words, which stay variables. In each case the matching run applies: the
    inputs' memrefs hold their blocks, the scratch what the point before left (anything at a first node tile), and
    the scratch's new contents are `accAt7` at the point by its recursion. -/
theorem sound_body7 (c : Dev nD) (t : Fin (cfg7 a).N) :
    bodyPre7 V a c t ⊢ wp frame (wpE (defs₀ (F := F)) Variants.none c none) Set.univ (bodyAt7 a t) (fun _ => bodyPost7 V a c t) := by
  have hN : t.val < 19159 := lt_of_lt_of_eq t.isLt N_7
  have hk : (grid7.coords t 1).val = t.val % 49 := coords7_1 t
  unfold bodyPre7 bodyPost7
  simp only [before7_0, before7_1, before7_2]
  rw [after7_0, after7_1, after7_2, Phi_cast, Phi_succ, owes_succ, pref7_eq]
  by_cases h0 : t.val % 49 = 0
  · -- a first node tile: the scratch restarts; the output window is idle and not written back
    have hc1 : cond1 (grid7.coords t) := (cond1_iff _).mpr (hk.trans h0)
    have hc3 : ¬ k7_cond3 (grid7.coords t) = 1#1 := fun h => by have := (k7_cond3_iff' _).mp h; omega
    have hidle : (cfg7 a).idle 3 ((cfg7 a).grid.coords t) = true := idle7_3_of a (grid7.coords t) hc3
    have hfl : ((cfg7 a).win 3).flush t = false := noflush7_3 a t hc3
    rw [Dat.leavesExact_idle _ 3 t hidle hfl]
    by_cases hc2 : act7 a (grid7.coords t)
    · have hacc := accAt7_first V a c t (hk.trans h0)
      rw [if_pos hc2] at hacc
      rw [hacc]
      iintro ⟨⟨⟨HT0, HT1⟩, HS, HR, HG⟩, Ho, ⟨%d0, H0⟩, ⟨%d1, H1⟩, ⟨%d2, H2⟩, ⟨%d3, H3⟩⟩
      ihave HS' := (scr7_ex V a c _ _) $$ HS
      iapply (run7_FA c (grid7.coords t) (ms7_0 a t) (hs7_0 a t) (ms7_1 a t) (hs7_1 a t) (ms7_2 a t) (hs7_2 a t) (ms7_3 a t) (hs7_3 a t)
        scM7 (Memref.isWhole_whole _) (srcB V a c t) (normB V a c t) (hwB V a c t) (a.1 0) (a.1 1) hc1 hc2 hc3
        ((dat7 V a c).before 3 t d3) Set.univ _)
      unfold kin7
      isplitl [H0 H1 H2 HT0 HT1]
      · isplitl [H0]; · iexact H0
        isplitl [H1]; · iexact H1
        isplitl [H2]; · iexact H2
        isplitl [HT0]; · iexact HT0
        iexact HT1
      isplitl [HS']; · iexact HS'
      isplitl [H3]; · iexact H3
      iintro ⟨⟨H0, H1, H2, HT0, HT1⟩, HS, H3⟩
      isplitl [HT0 HT1 HS HR HG]
      · isplitl [HT0 HT1]
        · isplitl [HT0]; · iexact HT0
          iexact HT1
        isplitl [HS]; · iexact HS
        isplitl [HR]; · iexact HR
        iexact HG
      isplitl [Ho]; · iexact Ho
      isplitl [H0]; · iexact H0
      isplitl [H1]; · iexact H1
      isplitl [H2]; · iexact H2
      iexists d3; iexact H3
    · have hacc := accAt7_first V a c t (hk.trans h0)
      rw [if_neg hc2] at hacc
      rw [hacc]
      iintro ⟨⟨⟨HT0, HT1⟩, HS, HR, HG⟩, Ho, ⟨%d0, H0⟩, ⟨%d1, H1⟩, ⟨%d2, H2⟩, ⟨%d3, H3⟩⟩
      ihave HS' := (scr7_ex V a c _ _) $$ HS
      iapply (run7_FI c (grid7.coords t) (ms7_0 a t) (hs7_0 a t) (ms7_1 a t) (hs7_1 a t) (ms7_2 a t) (hs7_2 a t) (ms7_3 a t) (hs7_3 a t)
        scM7 (Memref.isWhole_whole _) (srcB V a c t) (normB V a c t) (hwB V a c t) (a.1 0) (a.1 1) hc1 hc2 hc3
        ((dat7 V a c).before 3 t d3) Set.univ _)
      unfold kin7
      isplitl [H0 H1 H2 HT0 HT1]
      · isplitl [H0]; · iexact H0
        isplitl [H1]; · iexact H1
        isplitl [H2]; · iexact H2
        isplitl [HT0]; · iexact HT0
        iexact HT1
      isplitl [HS']; · iexact HS'
      isplitl [H3]; · iexact H3
      iintro ⟨⟨H0, H1, H2, HT0, HT1⟩, HS, H3⟩
      isplitl [HT0 HT1 HS HR HG]
      · isplitl [HT0 HT1]
        · isplitl [HT0]; · iexact HT0
          iexact HT1
        isplitl [HS]; · iexact HS
        isplitl [HR]; · iexact HR
        iexact HG
      isplitl [Ho]; · iexact Ho
      isplitl [H0]; · iexact H0
      isplitl [H1]; · iexact H1
      isplitl [H2]; · iexact H2
      iexists d3; iexact H3
  · -- a later node tile: the scratch holds what the point before left
    have ht0 : t.val ≠ 0 := fun h => h0 (by rw [h])
    have hc1 : ¬ cond1 (grid7.coords t) := fun h => h0 (hk.symm.trans ((cond1_iff _).mp h))
    have hk' : (grid7.coords t 1).val ≠ 0 := fun h => h0 (hk.symm.trans h)
    rw [scr7_pos V a c t.val _ ht0]
    by_cases hL : t.val % 49 = 48
    · -- the last node tile: the output block is stored, and written back
      have hc3 : k7_cond3 (grid7.coords t) = 1#1 := (k7_cond3_iff' _).mpr (hk.trans hL)
      have hlive : (cfg7 a).idle 3 ((cfg7 a).grid.coords t) = false := live7_3_of a (grid7.coords t) hc3
      rw [leaves7_live V a c t hlive, after7_3]
      by_cases hc2 : act7 a (grid7.coords t)
      · have hacc := accAt7_next V a c t hk'
        rw [if_pos hc2] at hacc
        rw [hacc]
        iintro ⟨⟨⟨HT0, HT1⟩, HS, HR, HG⟩, Ho, ⟨%d0, H0⟩, ⟨%d1, H1⟩, ⟨%d2, H2⟩, ⟨%d3, H3⟩⟩
        iapply (run7_LA c (grid7.coords t) (ms7_0 a t) (hs7_0 a t) (ms7_1 a t) (hs7_1 a t) (ms7_2 a t) (hs7_2 a t) (ms7_3 a t) (hs7_3 a t)
          scM7 (Memref.isWhole_whole _) (srcB V a c t) (normB V a c t) (hwB V a c t) (a.1 0) (a.1 1) hc1 hc2 hc3
          (accAt7 V a c (t.val - 1) (Nat.lt_of_le_of_lt (Nat.sub_le _ _) t.isLt)) Set.univ _)
        unfold kin7
        isplitl [H0 H1 H2 HT0 HT1]
        · isplitl [H0]; · iexact H0
          isplitl [H1]; · iexact H1
          isplitl [H2]; · iexact H2
          isplitl [HT0]; · iexact HT0
          iexact HT1
        isplitl [HS]; · iexact HS
        isplitl [H3]; · iexists _; iexact H3
        iintro ⟨⟨H0, H1, H2, HT0, HT1⟩, HS, H3⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        iexact H3
      · have hacc := accAt7_next V a c t hk'
        rw [if_neg hc2] at hacc
        rw [hacc]
        iintro ⟨⟨⟨HT0, HT1⟩, HS, HR, HG⟩, Ho, ⟨%d0, H0⟩, ⟨%d1, H1⟩, ⟨%d2, H2⟩, ⟨%d3, H3⟩⟩
        iapply (run7_LI c (grid7.coords t) (ms7_0 a t) (hs7_0 a t) (ms7_1 a t) (hs7_1 a t) (ms7_2 a t) (hs7_2 a t) (ms7_3 a t) (hs7_3 a t)
          scM7 (Memref.isWhole_whole _) (srcB V a c t) (normB V a c t) (hwB V a c t) (a.1 0) (a.1 1) hc1 hc2 hc3
          (accAt7 V a c (t.val - 1) (Nat.lt_of_le_of_lt (Nat.sub_le _ _) t.isLt)) Set.univ _)
        unfold kin7
        isplitl [H0 H1 H2 HT0 HT1]
        · isplitl [H0]; · iexact H0
          isplitl [H1]; · iexact H1
          isplitl [H2]; · iexact H2
          isplitl [HT0]; · iexact HT0
          iexact HT1
        isplitl [HS]; · iexact HS
        isplitl [H3]; · iexists _; iexact H3
        iintro ⟨⟨H0, H1, H2, HT0, HT1⟩, HS, H3⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        iexact H3
    · -- a middle node tile: the output window is idle and not written back
      have hc3 : ¬ k7_cond3 (grid7.coords t) = 1#1 := fun h => hL (hk.symm.trans ((k7_cond3_iff' _).mp h))
      have hidle : (cfg7 a).idle 3 ((cfg7 a).grid.coords t) = true := idle7_3_of a (grid7.coords t) hc3
      have hfl : ((cfg7 a).win 3).flush t = false := noflush7_3 a t hc3
      rw [Dat.leavesExact_idle _ 3 t hidle hfl]
      by_cases hc2 : act7 a (grid7.coords t)
      · have hacc := accAt7_next V a c t hk'
        rw [if_pos hc2] at hacc
        rw [hacc]
        iintro ⟨⟨⟨HT0, HT1⟩, HS, HR, HG⟩, Ho, ⟨%d0, H0⟩, ⟨%d1, H1⟩, ⟨%d2, H2⟩, ⟨%d3, H3⟩⟩
        iapply (run7_MA c (grid7.coords t) (ms7_0 a t) (hs7_0 a t) (ms7_1 a t) (hs7_1 a t) (ms7_2 a t) (hs7_2 a t) (ms7_3 a t) (hs7_3 a t)
          scM7 (Memref.isWhole_whole _) (srcB V a c t) (normB V a c t) (hwB V a c t) (a.1 0) (a.1 1) hc1 hc2 hc3
          (accAt7 V a c (t.val - 1) (Nat.lt_of_le_of_lt (Nat.sub_le _ _) t.isLt)) ((dat7 V a c).before 3 t d3) Set.univ _)
        unfold kin7
        isplitl [H0 H1 H2 HT0 HT1]
        · isplitl [H0]; · iexact H0
          isplitl [H1]; · iexact H1
          isplitl [H2]; · iexact H2
          isplitl [HT0]; · iexact HT0
          iexact HT1
        isplitl [HS]; · iexact HS
        isplitl [H3]; · iexact H3
        iintro ⟨⟨H0, H1, H2, HT0, HT1⟩, HS, H3⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        iexists d3; iexact H3
      · have hacc := accAt7_next V a c t hk'
        rw [if_neg hc2] at hacc
        rw [hacc]
        iintro ⟨⟨⟨HT0, HT1⟩, HS, HR, HG⟩, Ho, ⟨%d0, H0⟩, ⟨%d1, H1⟩, ⟨%d2, H2⟩, ⟨%d3, H3⟩⟩
        iapply (run7_MI c (grid7.coords t) (ms7_0 a t) (hs7_0 a t) (ms7_1 a t) (hs7_1 a t) (ms7_2 a t) (hs7_2 a t) (ms7_3 a t) (hs7_3 a t)
          scM7 (Memref.isWhole_whole _) (srcB V a c t) (normB V a c t) (hwB V a c t) (a.1 0) (a.1 1) hc1 hc2 hc3
          (accAt7 V a c (t.val - 1) (Nat.lt_of_le_of_lt (Nat.sub_le _ _) t.isLt)) ((dat7 V a c).before 3 t d3) Set.univ _)
        unfold kin7
        isplitl [H0 H1 H2 HT0 HT1]
        · isplitl [H0]; · iexact H0
          isplitl [H1]; · iexact H1
          isplitl [H2]; · iexact H2
          isplitl [HT0]; · iexact HT0
          iexact HT1
        isplitl [HS]; · iexact HS
        isplitl [H3]; · iexact H3
        iintro ⟨⟨H0, H1, H2, HT0, HT1⟩, HS, H3⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        iexists d3; iexact H3

/-- The library's body obligation, at every point. -/
theorem body_obligation7 (c : Dev nD) : BodyObligation (dat7 (F := F) V a c) (defs₀ (F := F)) Variants.none () Set.univ := fun t => by
  rw [bigSep_W7, bigSep_W7]
  exact sound_body7 V a c t

/-! ## The invariant at the region's two ends -/

/-- The scratch as the region finds it (a scoped buffer at some contents) is the scratch memref owned at some contents. -/
theorem scr_in (c : Dev nD) :
    (iprop(∃ f : Buf (Elt F) ((c : Thread nD τ).loc cc7_scratch0), ((c : Thread nD τ).loc cc7_scratch0) ↦{fullShare} f) : sProp 𝕄)
      ⊢ iprop(∃ d, owns (c : Thread nD τ) scM7 fullShare d) := by
  simp only [owns_whole]; exact .rfl

theorem scr_out (c : Dev nD) :
    (iprop(∃ d, owns (c : Thread nD τ) scM7 fullShare d) : sProp 𝕄)
      ⊢ iprop(∃ f : Buf (Elt F) ((c : Thread nD τ).loc cc7_scratch0), ((c : Thread nD τ).loc cc7_scratch0) ↦{fullShare} f) := by
  simp only [owns_whole]; exact .rfl

/-- The invariant before the first point, from the generator register, the tables and the scoped rest. -/
theorem hin7 (c : Dev nD) :
    iprop((∃ r, prngReg c r) ∗ Pipeline.prefHeld pre7 c (fun _ => fullShare) a.1 ∗ Pipeline.scopedRest spec7 c) ⊢ (dat7 V a c).Φ 0 := by
  rw [scopedRest7_split]
  show _ ⊢ Φ1 V a c 0
  unfold Φ1
  show _ ⊢ iprop(_ ∗ (∃ d, owns (c : Thread nD τ) scM7 fullShare d) ∗ _ ∗ _)
  iintro ⟨HG, HT, HS, HR⟩
  isplitl [HT]; · iexact HT
  isplitl [HS]; · iapply (scr_in c); iexact HS
  isplitl [HR]; · iexact HR
  iexact HG

/-- The invariant after the last point gives the generator register and the tables (at the full share) back, and
    the scoped rest; the kernel has no semaphore of its own. -/
theorem hout7 (c : Dev nD) :
    (dat7 V a c).Φ (Fin.last _)
      ⊢ iprop(((∃ r, prngReg c r) ∗ Pipeline.prefHeld pre7 c (fun _ => fullShare) a.1) ∗ Pipeline.ownSems0 (fun k : PEmpty => k.elim) c ∗ Pipeline.scopedRest spec7 c) := by
  rw [scopedRest7_split, Pipeline.ownSems0_none]
  show Φ1 V a c (Fin.last _) ⊢ _
  unfold Φ1
  iintro ⟨HT, HS, HR, HG⟩
  ihave HS' := (scr7_ex V a c _ _) $$ HS
  isplitl [HG HT]
  · isplitl [HG]; · iexact HG
    iexact HT
  isplitr
  · iempintro
  isplitl [HS']; · iapply (scr_out c); iexact HS'
  iexact HR

end Cert.Kernel.R7

end
-- ==== Proof.K.R8Sched.lean ====
import proofs.«417346_j54202487276072_2_alg».proof.Proof.Gen.Kernel.Launch
import Idealize.ShloMosaic.Lib.Pipeline.Kit
import Idealize.ShloMosaic.Lib.Affine

noncomputable section

namespace Cert.Kernel.R8

open Cert.Kernel Cert.Kernel.Gen
open Idealize.ShloMosaic Idealize.ShloMosaic.TcCoe
open Idealize.SL Idealize.SL.Sem

variable {F : FTy → Type} [FloatOps F]

/-! # The schedule of the scatter region on its grid `[49, 391]`

Point `t` is (node tile `t / 391`, edge tile `t % 391`), the edge tile moving fastest. None of these facts reads
the prefetched tables: the index maps are functions of the point alone. -/

theorem stride8_0 : grid8.stride 0 = 391 := by decide
theorem stride8_1 : grid8.stride 1 = 1 := by decide

/-- The node tile of point `t`. -/
theorem coords8_0 (t : Fin grid8.N) : (grid8.coords t 0).val = t.val / 391 := by
  have hN : t.val < 19159 := lt_of_lt_of_eq t.isLt N_8
  show t.val / grid8.stride 0 % 49 = _
  rw [stride8_0]; omega

/-- The edge tile of point `t`. -/
theorem coords8_1 (t : Fin grid8.N) : (grid8.coords t 1).val = t.val % 391 := by
  show t.val / grid8.stride 1 % 391 = _
  rw [stride8_1, Nat.div_one]

/-! ## The body's two conditions on the point -/

/-- The condition of the first conditional (the scratch is initialised) holds exactly at the first edge tile. -/
theorem c1_iff (i : grid8.Coords) :
    (Scalar.cmpi .ne (Scalar.extui (Scalar.cmpi .eq (BitVec.ofNat 32 (i 1).val) 0#32)) 0#32) = 1#1 ↔ (i 1).val = 0 := by
  have hk : (i 1).val < 391 := (i 1).isLt
  rw [Scalar.guard_iff, Scalar.cmpi, IntOp.cmpi_eq, ← BitVec.toNat_inj]
  simp only [BitVec.toNat_ofNat]
  omega

/-- The output block is stored exactly at the last edge tile. -/
theorem cond3_iff (i : grid8.Coords) : k8_cond3 i = 1#1 ↔ (i 1).val = 390 := by
  have hk : (i 1).val < 391 := (i 1).isLt
  show (Scalar.cmpi .ne (Scalar.extui (Scalar.cmpi .eq (BitVec.ofNat 32 (i 1).val) 390#32)) 0#32) = 1#1 ↔ _
  rw [Scalar.guard_iff, Scalar.cmpi, IntOp.cmpi_eq, ← BitVec.toNat_inj]
  simp only [BitVec.toNat_ofNat]
  omega

/-! ## The output window's write-backs -/

/-- The output's block index is the node tile. -/
theorem tr5_0 (i : grid8.Coords) : cc8_transform_5 i 0 = (i 0).val := by
  have hk : (i 0).val < 49 := (i 0).isLt
  show (BitVec.ofNat 32 (i 0).val).toNat = _
  rw [BitVec.toNat_ofNat]; omega

theorem tr5_ne_iff (i j : grid8.Coords) : cc8_transform_5 i ≠ cc8_transform_5 j ↔ (i 0).val ≠ (j 0).val := by
  constructor
  · intro h e; apply h; funext x
    fin_cases x
    · show cc8_transform_5 i 0 = cc8_transform_5 j 0
      rw [tr5_0, tr5_0, e]
    · rfl
  · intro h e; apply h
    have := congrFun e 0
    rwa [tr5_0, tr5_0] at this

variable (a : (pcfg8 (F := F)).Adm)

/-- The output block is written back exactly after the last edge tile of its node tile. -/
theorem flush8_5 (t : Fin (cfg8 a).N) : ((cfg8 a).win 5).flush t = true ↔ t.val % 391 = 390 := by
  have hN : t.val < 19159 := lt_of_lt_of_eq t.isLt N_8
  rw [Pipeline.Window.flush_eq_flushOf]
  show Pipeline.Window.flushOf grid8 true cc8_transform_5 t = true ↔ _
  unfold Pipeline.Window.flushOf
  rw [Bool.true_and, Bool.or_eq_true, decide_eq_true_eq, decide_eq_true_eq]
  constructor
  · rintro (h | ⟨h, hne⟩)
    · have hN2 := N_8; omega
    · rw [tr5_ne_iff, coords8_0, coords8_0] at hne
      dsimp only at hne
      omega
  · intro h
    by_cases hl : t.val + 1 = grid8.N
    · exact .inl hl
    · have h' : t.val + 1 < grid8.N := by have hN2 := N_8; omega
      refine .inr ⟨h', ?_⟩
      rw [tr5_ne_iff, coords8_0, coords8_0]
      dsimp only
      omega

/-- Where the output window is idle: everywhere but at the last edge tile. -/
theorem idle8_5 (t : Fin (cfg8 a).N) : (cfg8 a).idle 5 ((cfg8 a).grid.coords t) = !(k8_cond3 (grid8.coords t) == 1#1) := rfl

/-- The input windows are never idle. -/
theorem live8 (w : Fin (cfg8 a).W) (hw : w ≠ 5) (i : (cfg8 a).grid.Coords) : (cfg8 a).idle w i = false := by
  fin_cases w <;> first | rfl | exact absurd rfl hw

end Cert.Kernel.R8

end
-- ==== Proof.K.R8Runs.lean ====
import proofs.«417346_j54202487276072_2_alg».proof.Proof.Gen.Kernel.Launch
import proofs.«417346_j54202487276072_2_alg».proof.Proof.Gen.Kernel.Skeleton
import Idealize.ShloMosaic.Lib.Pipeline.FrameBody
import Idealize.ShloMosaic.Lib.Pipeline.Value
import Idealize.ShloMosaic.Lib.Tactic

set_option maxRecDepth 16384

noncomputable section

namespace Cert.Kernel.R8

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## The tables as the body is handed them; the step's condition -/

abbrev tbMin : Memref sig .tc .smem S391 .i32 := Memref.whole main_v72
abbrev htbMin : (tbMin).IsWhole := Memref.isWhole_whole _
abbrev tbMax : Memref sig .tc .smem S391 .i32 := Memref.whole main_v74
abbrev htbMax : (tbMax).IsWhole := Memref.isWhole_whole _

/-- A table's buffer contents on core `c`, and the table held whole at them. -/
abbrev TbBuf8 (c : Dev nD) (M : Memref sig .tc .smem S391 .i32) : Type := Buf (Elt F) (M.view.loc (c : Thread nD τ))
abbrev tbPt8 (c : Dev nD) (M : Memref sig .tc .smem S391 .i32) (f : TbBuf8 (F := F) c M) : sProp 𝕄 :=
  M.view.loc (c : Thread nD τ) ↦{fullShare} f

/-- The word of table `M` the body loads at point `i` (the entry of the point's edge tile), over contents `f`. -/
abbrev wd8 (M : Memref sig .tc .smem S391 .i32) (f : M.view.ty.Contents (Elt F)) (i : grid8.Coords) : Elt F .i32 :=
  M.view.readAt (Elt F) (Rect.unit (s := S391) (k8_off1 i) S1.size (k8_off1_inb i)).toLoadRect f (Shape.Idx.first (numel1_S1.symm ▸ Nat.one_pos))

/-- The condition of the accumulation step as the body computes it: the node tile `[2048 i₀, 2048 i₀ + 2048)` meets
    the range `[mn, mx]` of destinations in the edge tile (signed comparisons on the two table words). -/
def k8_act (i : grid8.Coords) (mx mn : Elt F .i32) : BitVec 1 :=
  let arg0 : BitVec 32 := BitVec.ofNat 32 (i 0).val
  let v3 : BitVec 32 := Scalar.muli arg0 2048#32
  let v4 : BitVec 32 := Scalar.addi v3 2048#32
  let v7 : BitVec 1 := Scalar.cmpi .sle v3 mx
  let v10 : BitVec 1 := Scalar.cmpi .sgt v4 mn
  let v11 : BitVec 1 := Scalar.andi v7 v10
  let v12 : BitVec 32 := Scalar.extui v11
  Scalar.cmpi .ne v12 0#32

/-- The condition of the first conditional: the scratch is initialised at the first edge tile. -/
abbrev k8_c1 (i : grid8.Coords) : Prop :=
  (Scalar.cmpi .ne (Scalar.extui (Scalar.cmpi .eq (BitVec.ofNat 32 (i 1).val) 0#32)) 0#32) = 1#1

/-! ## Whole-buffer loads and stores -/

theorem z1 : (![0] : Fin 1 → Nat) = fun _ => 0 := by funext a; fin_cases a; rfl
theorem z2 : (![0, 0] : Fin 2 → Nat) = fun _ => 0 := by funext a; fin_cases a <;> rfl

/-- A load through the whole-shape rectangle at zero offsets reads the memref's contents. -/
theorem rdU (S : Shape) {e : EltTy} {κ : Kind} {sp : Space} (v : View sig κ sp S e) {off : Fin S.rank → Nat} (h : off = fun _ => 0)
    (inb : ∀ a, off a + S.size a ≤ S.size a) (f : v.ty.Contents (Elt F)) :
    v.readAt (Elt F) (Rect.unit off S.size inb).toLoadRect f = v.read (Elt F) f :=
  View.ld_unit_zero h inb _

/-- Every index lies in the whole-shape rectangle: a list of stores headed by one through it covers the buffer. -/
theorem covU (S : Shape) {e : EltTy} {off : Fin S.rank → Nat} (h : off = fun _ => 0) (inb : ∀ a, off a + S.size a ≤ S.size a)
    (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons.mpr (Or.inl rfl), View.mem_set_unit_zero h inb y⟩

/-- A load through it of what the run's stores left, the last of them through it, reads that store's payload. -/
theorem rcU (S : Shape) {e : EltTy} {κ : Kind} {sp : Space} (v : View sig κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (covU S h inb w L), View.canon_cons_unit_zero h, View.ld_unit_zero h]

/-- The buffer read back after the run's stores, the last of them through the whole-shape rectangle: its payload. -/
theorem rwU (S : Shape) {e : EltTy} {κ : Kind} {sp : Space} (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (covU S h inb w L), View.canon_cons_unit_zero h]

/-- The inputs' staging memrefs at their blocks and the two tables at their contents: what every case of the body
    is handed and hands back untouched. -/
def kin8 (c : Dev nD) (arg4 : Memref sig .tc .vmem S4096 .i32) (arg5 : Memref sig .tc .vmem S4096x32 .f32)
    (arg6 : Memref sig .tc .vmem S2048x32 .f32) (arg7 : Memref sig .tc .vmem S2048 .f32) (arg8 : Memref sig .tc .vmem S1x32 .f32)
    (x0 : Vec F S4096 .i32) (x1 : Vec F S4096x32 .f32) (x2 : Vec F S2048x32 .f32) (x3 : Vec F S2048 .f32) (x4 : Vec F S1x32 .f32)
    (xt0 : TbBuf8 (F := F) c tbMin) (xt1 : TbBuf8 (F := F) c tbMax) : sProp 𝕄 :=
  iprop(owns (c : Thread nD τ) arg4 fullShare x0 ∗ owns (c : Thread nD τ) arg5 fullShare x1 ∗ owns (c : Thread nD τ) arg6 fullShare x2
    ∗ owns (c : Thread nD τ) arg7 fullShare x3 ∗ owns (c : Thread nD τ) arg8 fullShare x4 ∗ tbPt8 c tbMin xt0 ∗ tbPt8 c tbMax xt1)

/-! ## The body, case by case

The body has three conditionals: on the point's edge tile being the first (the scratch is initialised), on the two
table words (the accumulation step), on the edge tile being the last (the output block is stored). First and last
exclude each other on this grid, which leaves six cases. In each the printed function is its skeleton, run
operation by operation; every load and store is through a whole staging memref. The tables' words are never
evaluated: the case's hypothesis on them decides the middle conditional. -/

set_option maxHeartbeats 1000000 in
/-- First edge tile, step taken: the scratch ends at the step applied to the initial value; the output's buffer is
    untouched. -/
theorem run8_FA (c : Dev nD) (i : grid8.Coords)
    (arg4 : Memref sig .tc .vmem S4096 .i32) (harg4 : arg4.IsWhole) (arg5 : Memref sig .tc .vmem S4096x32 .f32) (harg5 : arg5.IsWhole)
    (arg6 : Memref sig .tc .vmem S2048x32 .f32) (harg6 : arg6.IsWhole) (arg7 : Memref sig .tc .vmem S2048 .f32) (harg7 : arg7.IsWhole)
    (arg8 : Memref sig .tc .vmem S1x32 .f32) (harg8 : arg8.IsWhole) (arg9 : Memref sig .tc .vmem S2048x32 .f32) (harg9 : arg9.IsWhole)
    (arg10 : Memref sig .tc .vmem S2048x32 .f32) (harg10 : arg10.IsWhole)
    (x0 : Vec F S4096 .i32) (x1 : Vec F S4096x32 .f32) (x2 : Vec F S2048x32 .f32) (x3 : Vec F S2048 .f32) (x4 : Vec F S1x32 .f32)
    (xt0 : TbBuf8 (F := F) c tbMin) (xt1 : TbBuf8 (F := F) c tbMax)
    (hc1 : k8_c1 i) (hc2 : k8_act (F := F) i (wd8 tbMax xt1 i) (wd8 tbMin xt0 i) = 1#1) (hc3 : ¬ k8_cond3 i = 1#1)
    (xo : Vec F S2048x32 .f32) (E : Set ℕ) (K : PUnit → sProp 𝕄) :
    iprop(kin8 c arg4 arg5 arg6 arg7 arg8 x0 x1 x2 x3 x4 xt0 xt1
        ∗ (∃ d, owns (c : Thread nD τ) arg10 fullShare d) ∗ owns (c : Thread nD τ) arg9 fullShare xo
        ∗ (iprop(kin8 c arg4 arg5 arg6 arg7 arg8 x0 x1 x2 x3 x4 xt0 xt1
            ∗ owns (c : Thread nD τ) arg10 fullShare (k8_pay2 i x0 (k8_pay1 x3 x2) x1) ∗ owns (c : Thread nD τ) arg9 fullShare xo) -∗ K ⟨⟩))
      ⊢ wp frame (wpE (defs₀ (F := F)) Variants.none c none) E
          (cc8__scatter_kernel i tbMin htbMin tbMax htbMax arg4 harg4 arg5 harg5 arg6 harg6 arg7 harg7 arg8 harg8 arg9 harg9 arg10 harg10) K := by
  simp only [cc8__scatter_kernel_eq_skeleton]; unfold cc8__scatter_kernel_skel
  unfold kin8 owns
  iintro ⟨⟨⟨%f0, %hf0, H0⟩, ⟨%f1, %hf1, H1⟩, ⟨%f2, %hf2, H2⟩, ⟨%f3, %hf3, H3⟩, ⟨%f4, %hf4, H4⟩, HT0, HT1⟩, ⟨%ds, %fs, -, HS⟩, ⟨%f9, %hf9, H9⟩, Hk⟩
  subst hf0 hf1 hf2 hf3 hf4 hf9
  sl_exec (disch := first | sl_exact hc1 | sl_exact hc2 | sl_exact hc3)
  sl_step
  iapply Hk
  isplitl [H0 H1 H2 H3 H4 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [HT0]; · iexact HT0
    iexact HT1
  isplitl [HS]
  · iexists _; isplitr; swap; · iexact HS
    ipureintro
    -- the second store's payload read the first store's back
    rw [rwU S2048x32 _ _ z2]
    unfold run8_FA.sl.v29 run8_FA.sl.HS_1
    simp only [rcU S2048x32 _ z2, rdU S4096 _ z1, rdU S2048 _ z1, rdU S2048x32 _ z2, rdU S4096x32 _ z2]
  iexists f9; isplitr; · ipureintro; rfl
  iexact H9

set_option maxHeartbeats 1000000 in
/-- First edge tile, step skipped: the scratch ends at the initial value; the output's buffer is untouched. -/
theorem run8_FI (c : Dev nD) (i : grid8.Coords)
    (arg4 : Memref sig .tc .vmem S4096 .i32) (harg4 : arg4.IsWhole) (arg5 : Memref sig .tc .vmem S4096x32 .f32) (harg5 : arg5.IsWhole)
    (arg6 : Memref sig .tc .vmem S2048x32 .f32) (harg6 : arg6.IsWhole) (arg7 : Memref sig .tc .vmem S2048 .f32) (harg7 : arg7.IsWhole)
    (arg8 : Memref sig .tc .vmem S1x32 .f32) (harg8 : arg8.IsWhole) (arg9 : Memref sig .tc .vmem S2048x32 .f32) (harg9 : arg9.IsWhole)
    (arg10 : Memref sig .tc .vmem S2048x32 .f32) (harg10 : arg10.IsWhole)
    (x0 : Vec F S4096 .i32) (x1 : Vec F S4096x32 .f32) (x2 : Vec F S2048x32 .f32) (x3 : Vec F S2048 .f32) (x4 : Vec F S1x32 .f32)
    (xt0 : TbBuf8 (F := F) c tbMin) (xt1 : TbBuf8 (F := F) c tbMax)
    (hc1 : k8_c1 i) (hc2 : ¬ k8_act (F := F) i (wd8 tbMax xt1 i) (wd8 tbMin xt0 i) = 1#1) (hc3 : ¬ k8_cond3 i = 1#1)
    (xo : Vec F S2048x32 .f32) (E : Set ℕ) (K : PUnit → sProp 𝕄) :
    iprop(kin8 c arg4 arg5 arg6 arg7 arg8 x0 x1 x2 x3 x4 xt0 xt1
        ∗ (∃ d, owns (c : Thread nD τ) arg10 fullShare d) ∗ owns (c : Thread nD τ) arg9 fullShare xo
        ∗ (iprop(kin8 c arg4 arg5 arg6 arg7 arg8 x0 x1 x2 x3 x4 xt0 xt1
            ∗ owns (c : Thread nD τ) arg10 fullShare (k8_pay1 x3 x2) ∗ owns (c : Thread nD τ) arg9 fullShare xo) -∗ K ⟨⟩))
      ⊢ wp frame (wpE (defs₀ (F := F)) Variants.none c none) E
          (cc8__scatter_kernel i tbMin htbMin tbMax htbMax arg4 harg4 arg5 harg5 arg6 harg6 arg7 harg7 arg8 harg8 arg9 harg9 arg10 harg10) K := by
  simp only [cc8__scatter_kernel_eq_skeleton]; unfold cc8__scatter_kernel_skel
  unfold kin8 owns
  iintro ⟨⟨⟨%f0, %hf0, H0⟩, ⟨%f1, %hf1, H1⟩, ⟨%f2, %hf2, H2⟩, ⟨%f3, %hf3, H3⟩, ⟨%f4, %hf4, H4⟩, HT0, HT1⟩, ⟨%ds, %fs, -, HS⟩, ⟨%f9, %hf9, H9⟩, Hk⟩
  subst hf0 hf1 hf2 hf3 hf4 hf9
  sl_exec (disch := first | sl_exact hc1 | sl_exact hc2 | sl_exact hc3)
  sl_step
  iapply Hk
  isplitl [H0 H1 H2 H3 H4 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [HT0]; · iexact HT0
    iexact HT1
  isplitl [HS]
  · iexists _; isplitr; swap; · iexact HS
    ipureintro
    rw [rwU S2048x32 _ _ z2]
    simp only [rdU S2048 _ z1, rdU S2048x32 _ z2]
  iexists f9; isplitr; · ipureintro; rfl
  iexact H9

set_option maxHeartbeats 1000000 in
/-- A middle edge tile, step taken: the scratch ends at the step applied to what it held; the output's buffer is
    untouched. -/
theorem run8_MA (c : Dev nD) (i : grid8.Coords)
    (arg4 : Memref sig .tc .vmem S4096 .i32) (harg4 : arg4.IsWhole) (arg5 : Memref sig .tc .vmem S4096x32 .f32) (harg5 : arg5.IsWhole)
    (arg6 : Memref sig .tc .vmem S2048x32 .f32) (harg6 : arg6.IsWhole) (arg7 : Memref sig .tc .vmem S2048 .f32) (harg7 : arg7.IsWhole)
    (arg8 : Memref sig .tc .vmem S1x32 .f32) (harg8 : arg8.IsWhole) (arg9 : Memref sig .tc .vmem S2048x32 .f32) (harg9 : arg9.IsWhole)
    (arg10 : Memref sig .tc .vmem S2048x32 .f32) (harg10 : arg10.IsWhole)
    (x0 : Vec F S4096 .i32) (x1 : Vec F S4096x32 .f32) (x2 : Vec F S2048x32 .f32) (x3 : Vec F S2048 .f32) (x4 : Vec F S1x32 .f32)
    (xt0 : TbBuf8 (F := F) c tbMin) (xt1 : TbBuf8 (F := F) c tbMax)
    (hc1 : ¬ k8_c1 i) (hc2 : k8_act (F := F) i (wd8 tbMax xt1 i) (wd8 tbMin xt0 i) = 1#1) (hc3 : ¬ k8_cond3 i = 1#1)
    (xs xo : Vec F S2048x32 .f32) (E : Set ℕ) (K : PUnit → sProp 𝕄) :
    iprop(kin8 c arg4 arg5 arg6 arg7 arg8 x0 x1 x2 x3 x4 xt0 xt1
        ∗ owns (c : Thread nD τ) arg10 fullShare xs ∗ owns (c : Thread nD τ) arg9 fullShare xo
        ∗ (iprop(kin8 c arg4 arg5 arg6 arg7 arg8 x0 x1 x2 x3 x4 xt0 xt1
            ∗ owns (c : Thread nD τ) arg10 fullShare (k8_pay2 i x0 xs x1) ∗ owns (c : Thread nD τ) arg9 fullShare xo) -∗ K ⟨⟩))
      ⊢ wp frame (wpE (defs₀ (F := F)) Variants.none c none) E
          (cc8__scatter_kernel i tbMin htbMin tbMax htbMax arg4 harg4 arg5 harg5 arg6 harg6 arg7 harg7 arg8 harg8 arg9 harg9 arg10 harg10) K := by
  simp only [cc8__scatter_kernel_eq_skeleton]; unfold cc8__scatter_kernel_skel
  unfold kin8 owns
  iintro ⟨⟨⟨%f0, %hf0, H0⟩, ⟨%f1, %hf1, H1⟩, ⟨%f2, %hf2, H2⟩, ⟨%f3, %hf3, H3⟩, ⟨%f4, %hf4, H4⟩, HT0, HT1⟩, ⟨%fs, %hfs, HS⟩, ⟨%f9, %hf9, H9⟩, Hk⟩
  subst hf0 hf1 hf2 hf3 hf4 hfs hf9
  sl_exec (disch := first | sl_exact hc1 | sl_exact hc2 | sl_exact hc3)
  sl_step
  iapply Hk
  isplitl [H0 H1 H2 H3 H4 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [HT0]; · iexact HT0
    iexact HT1
  isplitl [HS]
  · iexists _; isplitr; swap; · iexact HS
    ipureintro
    rw [rwU S2048x32 _ _ z2]
    simp only [rdU S4096 _ z1, rdU S2048x32 _ z2, rdU S4096x32 _ z2]
  iexists f9; isplitr; · ipureintro; rfl
  iexact H9

set_option maxHeartbeats 1000000 in
/-- A middle edge tile, step skipped: nothing is stored. -/
theorem run8_MI (c : Dev nD) (i : grid8.Coords)
    (arg4 : Memref sig .tc .vmem S4096 .i32) (harg4 : arg4.IsWhole) (arg5 : Memref sig .tc .vmem S4096x32 .f32) (harg5 : arg5.IsWhole)
    (arg6 : Memref sig .tc .vmem S2048x32 .f32) (harg6 : arg6.IsWhole) (arg7 : Memref sig .tc .vmem S2048 .f32) (harg7 : arg7.IsWhole)
    (arg8 : Memref sig .tc .vmem S1x32 .f32) (harg8 : arg8.IsWhole) (arg9 : Memref sig .tc .vmem S2048x32 .f32) (harg9 : arg9.IsWhole)
    (arg10 : Memref sig .tc .vmem S2048x32 .f32) (harg10 : arg10.IsWhole)
    (x0 : Vec F S4096 .i32) (x1 : Vec F S4096x32 .f32) (x2 : Vec F S2048x32 .f32) (x3 : Vec F S2048 .f32) (x4 : Vec F S1x32 .f32)
    (xt0 : TbBuf8 (F := F) c tbMin) (xt1 : TbBuf8 (F := F) c tbMax)
    (hc1 : ¬ k8_c1 i) (hc2 : ¬ k8_act (F := F) i (wd8 tbMax xt1 i) (wd8 tbMin xt0 i) = 1#1) (hc3 : ¬ k8_cond3 i = 1#1)
    (xs xo : Vec F S2048x32 .f32) (E : Set ℕ) (K : PUnit → sProp 𝕄) :
    iprop(kin8 c arg4 arg5 arg6 arg7 arg8 x0 x1 x2 x3 x4 xt0 xt1
        ∗ owns (c : Thread nD τ) arg10 fullShare xs ∗ owns (c : Thread nD τ) arg9 fullShare xo
        ∗ (iprop(kin8 c arg4 arg5 arg6 arg7 arg8 x0 x1 x2 x3 x4 xt0 xt1
            ∗ owns (c : Thread nD τ) arg10 fullShare xs ∗ owns (c : Thread nD τ) arg9 fullShare xo) -∗ K ⟨⟩))
      ⊢ wp frame (wpE (defs₀ (F := F)) Variants.none c none) E
          (cc8__scatter_kernel i tbMin htbMin tbMax htbMax arg4 harg4 arg5 harg5 arg6 harg6 arg7 harg7 arg8 harg8 arg9 harg9 arg10 harg10) K := by
  simp only [cc8__scatter_kernel_eq_skeleton]; unfold cc8__scatter_kernel_skel
  unfold kin8 owns
  iintro ⟨⟨⟨%f0, %hf0, H0⟩, ⟨%f1, %hf1, H1⟩, ⟨%f2, %hf2, H2⟩, ⟨%f3, %hf3, H3⟩, ⟨%f4, %hf4, H4⟩, HT0, HT1⟩, ⟨%fs, %hfs, HS⟩, ⟨%f9, %hf9, H9⟩, Hk⟩
  subst hf0 hf1 hf2 hf3 hf4 hfs hf9
  sl_exec (disch := first | sl_exact hc1 | sl_exact hc2 | sl_exact hc3)
  sl_step
  iapply Hk
  isplitl [H0 H1 H2 H3 H4 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [HT0]; · iexact HT0
    iexact HT1
  isplitl [HS]
  · iexists fs; isplitr; · ipureintro; rfl
    iexact HS
  iexists f9; isplitr; · ipureintro; rfl
  iexact H9

set_option maxHeartbeats 1000000 in
/-- Last edge tile, step taken: the scratch ends at the step applied to what it held, and the output's buffer at
    the epilogue of that. -/
theorem run8_LA (c : Dev nD) (i : grid8.Coords)
    (arg4 : Memref sig .tc .vmem S4096 .i32) (harg4 : arg4.IsWhole) (arg5 : Memref sig .tc .vmem S4096x32 .f32) (harg5 : arg5.IsWhole)
    (arg6 : Memref sig .tc .vmem S2048x32 .f32) (harg6 : arg6.IsWhole) (arg7 : Memref sig .tc .vmem S2048 .f32) (harg7 : arg7.IsWhole)
    (arg8 : Memref sig .tc .vmem S1x32 .f32) (harg8 : arg8.IsWhole) (arg9 : Memref sig .tc .vmem S2048x32 .f32) (harg9 : arg9.IsWhole)
    (arg10 : Memref sig .tc .vmem S2048x32 .f32) (harg10 : arg10.IsWhole)
    (x0 : Vec F S4096 .i32) (x1 : Vec F S4096x32 .f32) (x2 : Vec F S2048x32 .f32) (x3 : Vec F S2048 .f32) (x4 : Vec F S1x32 .f32)
    (xt0 : TbBuf8 (F := F) c tbMin) (xt1 : TbBuf8 (F := F) c tbMax)
    (hc1 : ¬ k8_c1 i) (hc2 : k8_act (F := F) i (wd8 tbMax xt1 i) (wd8 tbMin xt0 i) = 1#1) (hc3 : k8_cond3 i = 1#1)
    (xs : Vec F S2048x32 .f32) (E : Set ℕ) (K : PUnit → sProp 𝕄) :
    iprop(kin8 c arg4 arg5 arg6 arg7 arg8 x0 x1 x2 x3 x4 xt0 xt1
        ∗ owns (c : Thread nD τ) arg10 fullShare xs ∗ (∃ d, owns (c : Thread nD τ) arg9 fullShare d)
        ∗ (iprop(kin8 c arg4 arg5 arg6 arg7 arg8 x0 x1 x2 x3 x4 xt0 xt1
            ∗ owns (c : Thread nD τ) arg10 fullShare (k8_pay2 i x0 xs x1)
            ∗ owns (c : Thread nD τ) arg9 fullShare (k8_pay3 (k8_pay2 i x0 xs x1) x4)) -∗ K ⟨⟩))
      ⊢ wp frame (wpE (defs₀ (F := F)) Variants.none c none) E
          (cc8__scatter_kernel i tbMin htbMin tbMax htbMax arg4 harg4 arg5 harg5 arg6 harg6 arg7 harg7 arg8 harg8 arg9 harg9 arg10 harg10) K := by
  simp only [cc8__scatter_kernel_eq_skeleton]; unfold cc8__scatter_kernel_skel
  unfold kin8 owns
  iintro ⟨⟨⟨%f0, %hf0, H0⟩, ⟨%f1, %hf1, H1⟩, ⟨%f2, %hf2, H2⟩, ⟨%f3, %hf3, H3⟩, ⟨%f4, %hf4, H4⟩, HT0, HT1⟩, ⟨%fs, %hfs, HS⟩, ⟨%d9, %f9, -, H9⟩, Hk⟩
  subst hf0 hf1 hf2 hf3 hf4 hfs
  sl_exec (disch := first | sl_exact hc1 | sl_exact hc2 | sl_exact hc3)
  sl_step
  iapply Hk
  isplitl [H0 H1 H2 H3 H4 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [HT0]; · iexact HT0
    iexact HT1
  isplitl [HS]
  · iexists _; isplitr; swap; · iexact HS
    ipureintro
    unfold run8_LA.sl.HS_1
    rw [rwU S2048x32 _ _ z2]
    simp only [rdU S4096 _ z1, rdU S2048x32 _ z2, rdU S4096x32 _ z2]
  iexists _; isplitr; swap; · iexact H9
  ipureintro
  -- the epilogue's load read the step's store back
  rw [rwU S2048x32 _ _ z2]
  unfold run8_LA.sl.v17 run8_LA.sl.HS_1
  simp only [rcU S2048x32 _ z2, rdU S4096 _ z1, rdU S2048x32 _ z2, rdU S4096x32 _ z2, rdU S1x32 _ z2]

set_option maxHeartbeats 1000000 in
/-- Last edge tile, step skipped: the scratch keeps what it held, and the output's buffer ends at the epilogue of
    that. -/
theorem run8_LI (c : Dev nD) (i : grid8.Coords)
    (arg4 : Memref sig .tc .vmem S4096 .i32) (harg4 : arg4.IsWhole) (arg5 : Memref sig .tc .vmem S4096x32 .f32) (harg5 : arg5.IsWhole)
    (arg6 : Memref sig .tc .vmem S2048x32 .f32) (harg6 : arg6.IsWhole) (arg7 : Memref sig .tc .vmem S2048 .f32) (harg7 : arg7.IsWhole)
    (arg8 : Memref sig .tc .vmem S1x32 .f32) (harg8 : arg8.IsWhole) (arg9 : Memref sig .tc .vmem S2048x32 .f32) (harg9 : arg9.IsWhole)
    (arg10 : Memref sig .tc .vmem S2048x32 .f32) (harg10 : arg10.IsWhole)
    (x0 : Vec F S4096 .i32) (x1 : Vec F S4096x32 .f32) (x2 : Vec F S2048x32 .f32) (x3 : Vec F S2048 .f32) (x4 : Vec F S1x32 .f32)
    (xt0 : TbBuf8 (F := F) c tbMin) (xt1 : TbBuf8 (F := F) c tbMax)
    (hc1 : ¬ k8_c1 i) (hc2 : ¬ k8_act (F := F) i (wd8 tbMax xt1 i) (wd8 tbMin xt0 i) = 1#1) (hc3 : k8_cond3 i = 1#1)
    (xs : Vec F S2048x32 .f32) (E : Set ℕ) (K : PUnit → sProp 𝕄) :
    iprop(kin8 c arg4 arg5 arg6 arg7 arg8 x0 x1 x2 x3 x4 xt0 xt1
        ∗ owns (c : Thread nD τ) arg10 fullShare xs ∗ (∃ d, owns (c : Thread nD τ) arg9 fullShare d)
        ∗ (iprop(kin8 c arg4 arg5 arg6 arg7 arg8 x0 x1 x2 x3 x4 xt0 xt1
            ∗ owns (c : Thread nD τ) arg10 fullShare xs ∗ owns (c : Thread nD τ) arg9 fullShare (k8_pay3 xs x4)) -∗ K ⟨⟩))
      ⊢ wp frame (wpE (defs₀ (F := F)) Variants.none c none) E
          (cc8__scatter_kernel i tbMin htbMin tbMax htbMax arg4 harg4 arg5 harg5 arg6 harg6 arg7 harg7 arg8 harg8 arg9 harg9 arg10 harg10) K := by
  simp only [cc8__scatter_kernel_eq_skeleton]; unfold cc8__scatter_kernel_skel
  unfold kin8 owns
  iintro ⟨⟨⟨%f0, %hf0, H0⟩, ⟨%f1, %hf1, H1⟩, ⟨%f2, %hf2, H2⟩, ⟨%f3, %hf3, H3⟩, ⟨%f4, %hf4, H4⟩, HT0, HT1⟩, ⟨%fs, %hfs, HS⟩, ⟨%d9, %f9, -, H9⟩, Hk⟩
  subst hf0 hf1 hf2 hf3 hf4 hfs
  sl_exec (disch := first | sl_exact hc1 | sl_exact hc2 | sl_exact hc3)
  sl_step
  iapply Hk
  isplitl [H0 H1 H2 H3 H4 HT0 HT1]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [HT0]; · iexact HT0
    iexact HT1
  isplitl [HS]
  · iexists fs; isplitr; · ipureintro; rfl
    iexact HS
  iexists _; isplitr; swap; · iexact H9
  ipureintro
  rw [rwU S2048x32 _ _ z2]
  simp only [rdU S2048x32 _ z2, rdU S1x32 _ z2]

end Cert.Kernel.R8

end
-- ==== Proof.K.R8Frame.lean ====
import proofs.«417346_j54202487276072_2_alg».proof.Proof.K.R8Sched
import proofs.«417346_j54202487276072_2_alg».proof.Proof.K.R8Runs
import Idealize.ShloMosaic.Lib.Pipeline.FrameBody
import Idealize.ShloMosaic.Lib.Pipeline.Frame

set_option maxRecDepth 16384

noncomputable section

namespace Cert.Kernel.R8

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

-- the buffer contents when the region is entered, and the admissible tables: both parameters, never evaluated
variable (V : (c : Dev nD) → (b : Ref sig .tc) → Buf (Elt F) ((c : Thread nD τ).loc b)) (a : (pcfg8 (F := F)).Adm)

/-! # The scatter region (custom_call 2) at entry contents `V` and tables `a`

The scratch carries, along each node tile's run of edge tiles, the self term plus the sum over the edge tiles
whose destination range meets the node tile; the output block is the epilogue of the scratch at the last edge
tile. -/

/-! ## The windows' blocks and the table words -/

/-- Window `w`'s block at point `t`, read off its array as the region finds it. -/
def iblk8 (c : Dev nD) (w : Fin (cfg8 a).W) (t : Fin (cfg8 a).N) : (((cfg8 a).win w).xblock ((cfg8 a).grid.coords t)).Idx → Elt F ((cfg8 a).win w).elt :=
  (((cfg8 a).win w).blk t).view.read (Elt F) (V c (Pipeline.arrRef spec8 w))

/-- The five input blocks at their vector types (no window is cut: a block's shape is its window's). -/
abbrev dstB (c : Dev nD) (t : Fin (cfg8 a).N) : Vec F S4096 .i32 := iblk8 V a c 0 t
abbrev gB (c : Dev nD) (t : Fin (cfg8 a).N) : Vec F S4096x32 .f32 := iblk8 V a c 1 t
abbrev hwB (c : Dev nD) (t : Fin (cfg8 a).N) : Vec F S2048x32 .f32 := iblk8 V a c 2 t
abbrev snB (c : Dev nD) (t : Fin (cfg8 a).N) : Vec F S2048 .f32 := iblk8 V a c 3 t
abbrev biasB (c : Dev nD) (t : Fin (cfg8 a).N) : Vec F S1x32 .f32 := iblk8 V a c 4 t

/-- The two table words the body loads at point `i`: the least and the greatest destination in the edge tile. -/
abbrev wMin (i : grid8.Coords) : Elt F .i32 := wd8 tbMin (a.1 0) i
abbrev wMax (i : grid8.Coords) : Elt F .i32 := wd8 tbMax (a.1 1) i

/-- The accumulation step is taken at point `i`. -/
abbrev act8 (i : grid8.Coords) : Prop := k8_act (F := F) i (wMax a i) (wMin a i) = 1#1

/-! ## The scratch, point by point -/

/-- One point's effect on the scratch from what it held (`prev`): initialised at the first edge tile, then the
    step if its condition holds. -/
def step8 (i : grid8.Coords) (prev : Vec F S2048x32 .f32) (sn : Vec F S2048 .f32) (hw : Vec F S2048x32 .f32)
    (dst : Vec F S4096 .i32) (g : Vec F S4096x32 .f32) : Vec F S2048x32 .f32 :=
  if act8 a i then k8_pay2 i dst (if (i 1).val = 0 then k8_pay1 sn hw else prev) g
  else (if (i 1).val = 0 then k8_pay1 sn hw else prev)

/-- What the scratch holds after the body at point `n`. -/
def accAt8 (c : Dev nD) : (n : ℕ) → n < (cfg8 a).N → Vec F S2048x32 .f32
  | 0, h => step8 a (grid8.coords ⟨0, h⟩) (k8_pay1 (snB V a c ⟨0, h⟩) (hwB V a c ⟨0, h⟩)) (snB V a c ⟨0, h⟩) (hwB V a c ⟨0, h⟩)
      (dstB V a c ⟨0, h⟩) (gB V a c ⟨0, h⟩)
  | n + 1, h => step8 a (grid8.coords ⟨n + 1, h⟩) (accAt8 c n (Nat.lt_of_succ_lt h)) (snB V a c ⟨n + 1, h⟩) (hwB V a c ⟨n + 1, h⟩)
      (dstB V a c ⟨n + 1, h⟩) (gB V a c ⟨n + 1, h⟩)

/-- At a first edge tile the scratch restarts from the self term. -/
theorem accAt8_first (c : Dev nD) (t : Fin (cfg8 a).N) (hk : (grid8.coords t 1).val = 0) :
    accAt8 V a c t.val t.isLt
      = if act8 a (grid8.coords t) then k8_pay2 (grid8.coords t) (dstB V a c t) (k8_pay1 (snB V a c t) (hwB V a c t)) (gB V a c t)
        else k8_pay1 (snB V a c t) (hwB V a c t) := by
  obtain ⟨n, hn⟩ := t
  cases n with
  | zero => show step8 a _ _ _ _ _ _ = _; unfold step8; simp only [if_pos hk]
  | succ n => show step8 a _ _ _ _ _ _ = _; unfold step8; simp only [if_pos hk]

/-- At a later edge tile it continues from the point before. -/
theorem accAt8_next (c : Dev nD) (t : Fin (cfg8 a).N) (hk : (grid8.coords t 1).val ≠ 0) :
    accAt8 V a c t.val t.isLt
      = if act8 a (grid8.coords t)
        then k8_pay2 (grid8.coords t) (dstB V a c t) (accAt8 V a c (t.val - 1) (Nat.lt_of_le_of_lt (Nat.sub_le _ _) t.isLt)) (gB V a c t)
        else accAt8 V a c (t.val - 1) (Nat.lt_of_le_of_lt (Nat.sub_le _ _) t.isLt) := by
  obtain ⟨n, hn⟩ := t
  cases n with
  | zero => exact absurd (by rw [coords8_1]; rfl) hk
  | succ n => show step8 a _ _ _ _ _ _ = _; unfold step8; simp only [if_neg hk]; rfl

/-! ## The invariant between points -/

/-- The kernel's scratch operand: a whole scoped buffer of its own. -/
abbrev scM8 : Memref sig .tc .vmem S2048x32 .f32 := Memref.whole cc8_scratch0

/-- The scratch before point `n`: at anything before the first point, else at what the point before left. -/
def scr8 (c : Dev nD) : (n : ℕ) → n < (cfg8 a).N + 1 → sProp 𝕄
  | 0, _ => iprop(∃ d, owns (c : Thread nD τ) scM8 fullShare d)
  | n + 1, h => owns (c : Thread nD τ) scM8 fullShare (accAt8 V a c n (Nat.lt_of_succ_lt_succ h))

/-- The region's invariant before point `t`: the tables held whole at their contents, the scratch, the other scoped
    buffers unopened, the generator register at some state. -/
def Φ2 (c : Dev nD) (t : Fin ((cfg8 a).N + 1)) : sProp 𝕄 :=
  iprop(Pipeline.prefHeld (Ix := Unit) (Name := ℕ) (U := UR sig nD τ) (Lvl := ℕ) pre8 c (fun _ => fullShare) a.1
    ∗ scr8 V a c t.val t.isLt
    ∗ Pipeline.scopedRestBut (Ix := Unit) (Name := ℕ) (U := UR sig nD τ) (Lvl := ℕ) (Val := Elt F) spec8 c [cc8_scratch0]
    ∗ ∃ r, prngReg c r)

theorem scr8_ex (c : Dev nD) (n : ℕ) (h : n < (cfg8 a).N + 1) :
    scr8 V a c n h ⊢ (iprop(∃ d, owns (c : Thread nD τ) scM8 fullShare d) : sProp 𝕄) := by
  cases n with
  | zero => exact .rfl
  | succ n => show owns _ _ _ _ ⊢ _; iintro H; iexists _; iexact H

theorem scr8_pos (c : Dev nD) (n : ℕ) (h : n < (cfg8 a).N + 1) (hn : n ≠ 0) :
    scr8 V a c n h = owns (c : Thread nD τ) scM8 fullShare (accAt8 V a c (n - 1) (by omega)) := by
  cases n with
  | zero => exact absurd rfl hn
  | succ m => rfl

/-! ## The proof data -/

/-- The proof data of pipeline 8 on core `c`: the arrays as the region finds them; after the body each input's
    buffer at its block, the output's at the epilogue of the scratch (consulted only where the block is written
    back: at the last edge tile); the invariant `Φ2`; nothing owed; full shares. -/
def dat8 (c : Dev nD) : Dat τ (Elt F) Unit ℕ (UR sig nD τ) ℕ (cfg8 a) c where
  A w := V c (Pipeline.arrRef spec8 w)
  after w t := match w with
    | ⟨0, _⟩ => iblk8 V a c 0 t
    | ⟨1, _⟩ => iblk8 V a c 1 t
    | ⟨2, _⟩ => iblk8 V a c 2 t
    | ⟨3, _⟩ => iblk8 V a c 3 t
    | ⟨4, _⟩ => iblk8 V a c 4 t
    | ⟨5, _⟩ => k8_pay3 (accAt8 V a c t.val t.isLt) (biasB V a c t)
  Φ t := Φ2 V a c t
  q _ := fullShare
  owed _ := 0

theorem A_eq8 (c : Dev nD) (w : Fin (cfg8 a).W) : (dat8 V a c).A w = V c (Pipeline.arrRef spec8 w) := by
  dsimp only [dat8]

theorem after8_0 (c : Dev nD) (t : Fin (cfg8 a).N) : (dat8 V a c).after 0 t = iblk8 V a c 0 t := by dsimp only [dat8]; rfl
theorem after8_1 (c : Dev nD) (t : Fin (cfg8 a).N) : (dat8 V a c).after 1 t = iblk8 V a c 1 t := by dsimp only [dat8]; rfl
theorem after8_2 (c : Dev nD) (t : Fin (cfg8 a).N) : (dat8 V a c).after 2 t = iblk8 V a c 2 t := by dsimp only [dat8]; rfl
theorem after8_3 (c : Dev nD) (t : Fin (cfg8 a).N) : (dat8 V a c).after 3 t = iblk8 V a c 3 t := by dsimp only [dat8]; rfl
theorem after8_4 (c : Dev nD) (t : Fin (cfg8 a).N) : (dat8 V a c).after 4 t = iblk8 V a c 4 t := by dsimp only [dat8]; rfl
/-- The output's buffer after the body: the epilogue of the scratch (what the write-back writes at the last edge tile). -/
theorem after8_5 (c : Dev nD) (t : Fin (cfg8 a).N) :
    (dat8 V a c).after 5 t = k8_pay3 (accAt8 V a c t.val t.isLt) (biasB V a c t) := by dsimp only [dat8]; rfl

/-- Each input's current staging buffer holds its block at every point, fetched there or not: the body only
    reads it, the window is uncut and never idle. -/
theorem before8_0 (c : Dev nD) (t : Fin (cfg8 a).N) (d) : (dat8 V a c).before 0 t d = iblk8 V a c 0 t :=
  ((dat8 V a c).before_in_eq_fetched 0 rfl (fun _ => rfl) (fun _ _ _ => rfl)
    (fun t => by rw [after8_0]; unfold Dat.blockOf iblk8; rw [A_eq8]; try rfl) t d).trans
    (by unfold Dat.fetched Dat.blockOf iblk8; rw [A_eq8]; try rfl)
theorem before8_1 (c : Dev nD) (t : Fin (cfg8 a).N) (d) : (dat8 V a c).before 1 t d = iblk8 V a c 1 t :=
  ((dat8 V a c).before_in_eq_fetched 1 rfl (fun _ => rfl) (fun _ _ _ => rfl)
    (fun t => by rw [after8_1]; unfold Dat.blockOf iblk8; rw [A_eq8]; try rfl) t d).trans
    (by unfold Dat.fetched Dat.blockOf iblk8; rw [A_eq8]; try rfl)
theorem before8_2 (c : Dev nD) (t : Fin (cfg8 a).N) (d) : (dat8 V a c).before 2 t d = iblk8 V a c 2 t :=
  ((dat8 V a c).before_in_eq_fetched 2 rfl (fun _ => rfl) (fun _ _ _ => rfl)
    (fun t => by rw [after8_2]; unfold Dat.blockOf iblk8; rw [A_eq8]; try rfl) t d).trans
    (by unfold Dat.fetched Dat.blockOf iblk8; rw [A_eq8]; try rfl)
theorem before8_3 (c : Dev nD) (t : Fin (cfg8 a).N) (d) : (dat8 V a c).before 3 t d = iblk8 V a c 3 t :=
  ((dat8 V a c).before_in_eq_fetched 3 rfl (fun _ => rfl) (fun _ _ _ => rfl)
    (fun t => by rw [after8_3]; unfold Dat.blockOf iblk8; rw [A_eq8]; try rfl) t d).trans
    (by unfold Dat.fetched Dat.blockOf iblk8; rw [A_eq8]; try rfl)
theorem before8_4 (c : Dev nD) (t : Fin (cfg8 a).N) (d) : (dat8 V a c).before 4 t d = iblk8 V a c 4 t :=
  ((dat8 V a c).before_in_eq_fetched 4 rfl (fun _ => rfl) (fun _ _ _ => rfl)
    (fun t => by rw [after8_4]; unfold Dat.blockOf iblk8; rw [A_eq8]; try rfl) t d).trans
    (by unfold Dat.fetched Dat.blockOf iblk8; rw [A_eq8]; try rfl)

/-! ## The invariant, opened -/

/-- The tables, one by one. -/
theorem pref8_eq (c : Dev nD) :
    (Pipeline.prefHeld (Ix := Unit) (Name := ℕ) (U := UR sig nD τ) (Lvl := ℕ) pre8 c (fun _ => fullShare) a.1 : sProp 𝕄)
      = iprop(tbPt8 c tbMin (a.1 0) ∗ tbPt8 c tbMax (a.1 1)) := by
  unfold Pipeline.prefHeld
  rw [show (Finset.univ : Finset (Fin 2)) = insert (0 : Fin 2) {(1 : Fin 2)} from by decide,
    bigSep_insert (by decide), bigSep_singleton]
  rfl

theorem Phi_cast (c : Dev nD) (t : Fin (cfg8 a).N) :
    (dat8 V a c).Φ t.castSucc
      = iprop(Pipeline.prefHeld (Ix := Unit) (Name := ℕ) (U := UR sig nD τ) (Lvl := ℕ) pre8 c (fun _ => fullShare) a.1
          ∗ scr8 V a c t.val (Nat.lt_succ_of_lt t.isLt)
          ∗ Pipeline.scopedRestBut (Ix := Unit) (Name := ℕ) (U := UR sig nD τ) (Lvl := ℕ) (Val := Elt F) spec8 c [cc8_scratch0]
          ∗ ∃ r, prngReg c r) := by
  obtain ⟨n, hn⟩ := t; rfl

theorem Phi_succ (c : Dev nD) (t : Fin (cfg8 a).N) :
    (dat8 V a c).Φ t.succ
      = iprop(Pipeline.prefHeld (Ix := Unit) (Name := ℕ) (U := UR sig nD τ) (Lvl := ℕ) pre8 c (fun _ => fullShare) a.1
          ∗ owns (c : Thread nD τ) scM8 fullShare (accAt8 V a c t.val t.isLt)
          ∗ Pipeline.scopedRestBut (Ix := Unit) (Name := ℕ) (U := UR sig nD τ) (Lvl := ℕ) (Val := Elt F) spec8 c [cc8_scratch0]
          ∗ ∃ r, prngReg c r) := by
  obtain ⟨n, hn⟩ := t; rfl

theorem owes_succ (c : Dev nD) (t : Fin (cfg8 a).N) :
    (dat8 V a c).owesAt () t.succ = (dat8 V a c).owesAt () t.castSucc := rfl

/-! ## The body at a point -/

/-- Each window's current staging memref at point `t`, spelled as the pipeline passes it, and its wholeness. -/
abbrev ms8_0 (t : Fin (cfg8 a).N) : Memref sig .tc .vmem S4096 .i32 := spec8_0.stage ((cfg8 a).slots t 0)
abbrev hs8_0 (t : Fin (cfg8 a).N) : (ms8_0 a t).IsWhole := hstage8_0 (((cfg8 a).slots t 0).cast nbuf8_0)
abbrev ms8_1 (t : Fin (cfg8 a).N) : Memref sig .tc .vmem S4096x32 .f32 := spec8_1.stage ((cfg8 a).slots t 1)
abbrev hs8_1 (t : Fin (cfg8 a).N) : (ms8_1 a t).IsWhole := hstage8_1 (((cfg8 a).slots t 1).cast nbuf8_1)
abbrev ms8_2 (t : Fin (cfg8 a).N) : Memref sig .tc .vmem S2048x32 .f32 := spec8_2.stage ((cfg8 a).slots t 2)
abbrev hs8_2 (t : Fin (cfg8 a).N) : (ms8_2 a t).IsWhole := hstage8_2 (((cfg8 a).slots t 2).cast nbuf8_2)
abbrev ms8_3 (t : Fin (cfg8 a).N) : Memref sig .tc .vmem S2048 .f32 := spec8_3.stage ((cfg8 a).slots t 3)
abbrev hs8_3 (t : Fin (cfg8 a).N) : (ms8_3 a t).IsWhole := hstage8_3 (((cfg8 a).slots t 3).cast nbuf8_3)
abbrev ms8_4 (t : Fin (cfg8 a).N) : Memref sig .tc .vmem S1x32 .f32 := spec8_4.stage ((cfg8 a).slots t 4)
abbrev hs8_4 (t : Fin (cfg8 a).N) : (ms8_4 a t).IsWhole := hstage8_4 (((cfg8 a).slots t 4).cast nbuf8_4)
abbrev ms8_5 (t : Fin (cfg8 a).N) : Memref sig .tc .vmem S2048x32 .f32 := spec8_5.stage ((cfg8 a).slots t 5)
abbrev hs8_5 (t : Fin (cfg8 a).N) : (ms8_5 a t).IsWhole := hstage8_5 (((cfg8 a).slots t 5).cast nbuf8_5)

/-- The kernel body at point `t`, on what the pipeline calls it with. -/
abbrev bodyAt8 (t : Fin (cfg8 a).N) : Prog (TpuEff nD τ sig (Elt F) Λ₀ .tc) PUnit :=
  cc8__scatter_kernel (grid8.coords t) tbMin htbMin tbMax htbMax (ms8_0 a t) (hs8_0 a t) (ms8_1 a t) (hs8_1 a t) (ms8_2 a t) (hs8_2 a t)
    (ms8_3 a t) (hs8_3 a t) (ms8_4 a t) (hs8_4 a t) (ms8_5 a t) (hs8_5 a t) scM8 (Memref.isWhole_whole _)

/-- What the body is called with at point `t`, the windows one by one, -/
def bodyPre8 (c : Dev nD) (t : Fin (cfg8 a).N) : sProp 𝕄 :=
  iprop((dat8 V a c).Φ t.castSucc ∗ (dat8 V a c).owesAt () t.castSucc
    ∗ (∃ d, owns (c : Thread nD τ) (ms8_0 a t) fullShare ((dat8 V a c).before 0 t d))
    ∗ (∃ d, owns (c : Thread nD τ) (ms8_1 a t) fullShare ((dat8 V a c).before 1 t d))
    ∗ (∃ d, owns (c : Thread nD τ) (ms8_2 a t) fullShare ((dat8 V a c).before 2 t d))
    ∗ (∃ d, owns (c : Thread nD τ) (ms8_3 a t) fullShare ((dat8 V a c).before 3 t d))
    ∗ (∃ d, owns (c : Thread nD τ) (ms8_4 a t) fullShare ((dat8 V a c).before 4 t d))
    ∗ (∃ d, owns (c : Thread nD τ) (ms8_5 a t) fullShare ((dat8 V a c).before 5 t d)))

/-- and what it returns: the output's buffer as found where the window is idle, at the epilogue where it is stored. -/
def bodyPost8 (c : Dev nD) (t : Fin (cfg8 a).N) : sProp 𝕄 :=
  iprop((dat8 V a c).Φ t.succ ∗ (dat8 V a c).owesAt () t.succ
    ∗ owns (c : Thread nD τ) (ms8_0 a t) fullShare ((dat8 V a c).after 0 t)
    ∗ owns (c : Thread nD τ) (ms8_1 a t) fullShare ((dat8 V a c).after 1 t)
    ∗ owns (c : Thread nD τ) (ms8_2 a t) fullShare ((dat8 V a c).after 2 t)
    ∗ owns (c : Thread nD τ) (ms8_3 a t) fullShare ((dat8 V a c).after 3 t)
    ∗ owns (c : Thread nD τ) (ms8_4 a t) fullShare ((dat8 V a c).after 4 t)
    ∗ (dat8 V a c).leavesExact 5 t)

/-- Where the output is stored the window is live: its buffer ends at `after`. -/
theorem leaves8_live (c : Dev nD) (t : Fin (cfg8 a).N) (h : (cfg8 a).idle 5 ((cfg8 a).grid.coords t) = false) :
    (dat8 V a c).leavesExact 5 t = owns (c : Thread nD τ) (ms8_5 a t) fullShare ((dat8 V a c).after 5 t) := by
  unfold Dat.leavesExact; rw [h]; rfl

set_option maxHeartbeats 1000000 in
/-- The body at any point. The point's place on the grid decides the first and the last conditional; the middle
    one is decided by cases on the table words, which stay variables. In each case the matching run applies: the
    inputs' memrefs hold their blocks, the scratch what the point before left (anything at a first edge tile), and
    the scratch's new contents are `accAt8` at the point by its recursion. -/
theorem sound_body8 (c : Dev nD) (t : Fin (cfg8 a).N) :
    bodyPre8 V a c t ⊢ wp frame (wpE (defs₀ (F := F)) Variants.none c none) Set.univ (bodyAt8 a t) (fun _ => bodyPost8 V a c t) := by
  have hN : t.val < 19159 := lt_of_lt_of_eq t.isLt N_8
  have hk : (grid8.coords t 1).val = t.val % 391 := coords8_1 t
  unfold bodyPre8 bodyPost8
  simp only [before8_0, before8_1, before8_2, before8_3, before8_4]
  rw [after8_0, after8_1, after8_2, after8_3, after8_4, Phi_cast, Phi_succ, owes_succ, pref8_eq]
  by_cases h0 : t.val % 391 = 0
  · -- a first edge tile: the scratch restarts; the output window is idle and not written back
    have hc1 : k8_c1 (grid8.coords t) := (c1_iff _).mpr (hk.trans h0)
    have hc3 : ¬ k8_cond3 (grid8.coords t) = 1#1 := fun h => by have := (cond3_iff _).mp h; omega
    have hidle : (cfg8 a).idle 5 ((cfg8 a).grid.coords t) = true := by
      rw [idle8_5, beq_eq_false_iff_ne.mpr hc3]; rfl
    have hfl : ((cfg8 a).win 5).flush t = false := by
      rw [Bool.eq_false_iff]; intro h; have := (flush8_5 a t).mp h; omega
    rw [Dat.leavesExact_idle _ 5 t hidle hfl]
    by_cases hc2 : act8 a (grid8.coords t)
    · have hacc := accAt8_first V a c t (hk.trans h0)
      rw [if_pos hc2] at hacc
      rw [hacc]
      iintro ⟨⟨⟨HT0, HT1⟩, HS, HR, HG⟩, Ho, ⟨%d0, H0⟩, ⟨%d1, H1⟩, ⟨%d2, H2⟩, ⟨%d3, H3⟩, ⟨%d4, H4⟩, ⟨%d5, H5⟩⟩
      ihave HS' := (scr8_ex V a c _ _) $$ HS
      iapply (run8_FA c (grid8.coords t) (ms8_0 a t) (hs8_0 a t) (ms8_1 a t) (hs8_1 a t) (ms8_2 a t) (hs8_2 a t) (ms8_3 a t) (hs8_3 a t)
        (ms8_4 a t) (hs8_4 a t) (ms8_5 a t) (hs8_5 a t) scM8 (Memref.isWhole_whole _)
        (dstB V a c t) (gB V a c t) (hwB V a c t) (snB V a c t) (biasB V a c t) (a.1 0) (a.1 1) hc1 hc2 hc3
        ((dat8 V a c).before 5 t d5) Set.univ _)
      unfold kin8
      isplitl [H0 H1 H2 H3 H4 HT0 HT1]
      · isplitl [H0]; · iexact H0
        isplitl [H1]; · iexact H1
        isplitl [H2]; · iexact H2
        isplitl [H3]; · iexact H3
        isplitl [H4]; · iexact H4
        isplitl [HT0]; · iexact HT0
        iexact HT1
      isplitl [HS']; · iexact HS'
      isplitl [H5]; · iexact H5
      iintro ⟨⟨H0, H1, H2, H3, H4, HT0, HT1⟩, HS, H5⟩
      isplitl [HT0 HT1 HS HR HG]
      · isplitl [HT0 HT1]
        · isplitl [HT0]; · iexact HT0
          iexact HT1
        isplitl [HS]; · iexact HS
        isplitl [HR]; · iexact HR
        iexact HG
      isplitl [Ho]; · iexact Ho
      isplitl [H0]; · iexact H0
      isplitl [H1]; · iexact H1
      isplitl [H2]; · iexact H2
      isplitl [H3]; · iexact H3
      isplitl [H4]; · iexact H4
      iexists d5; iexact H5
    · have hacc := accAt8_first V a c t (hk.trans h0)
      rw [if_neg hc2] at hacc
      rw [hacc]
      iintro ⟨⟨⟨HT0, HT1⟩, HS, HR, HG⟩, Ho, ⟨%d0, H0⟩, ⟨%d1, H1⟩, ⟨%d2, H2⟩, ⟨%d3, H3⟩, ⟨%d4, H4⟩, ⟨%d5, H5⟩⟩
      ihave HS' := (scr8_ex V a c _ _) $$ HS
      iapply (run8_FI c (grid8.coords t) (ms8_0 a t) (hs8_0 a t) (ms8_1 a t) (hs8_1 a t) (ms8_2 a t) (hs8_2 a t) (ms8_3 a t) (hs8_3 a t)
        (ms8_4 a t) (hs8_4 a t) (ms8_5 a t) (hs8_5 a t) scM8 (Memref.isWhole_whole _)
        (dstB V a c t) (gB V a c t) (hwB V a c t) (snB V a c t) (biasB V a c t) (a.1 0) (a.1 1) hc1 hc2 hc3
        ((dat8 V a c).before 5 t d5) Set.univ _)
      unfold kin8
      isplitl [H0 H1 H2 H3 H4 HT0 HT1]
      · isplitl [H0]; · iexact H0
        isplitl [H1]; · iexact H1
        isplitl [H2]; · iexact H2
        isplitl [H3]; · iexact H3
        isplitl [H4]; · iexact H4
        isplitl [HT0]; · iexact HT0
        iexact HT1
      isplitl [HS']; · iexact HS'
      isplitl [H5]; · iexact H5
      iintro ⟨⟨H0, H1, H2, H3, H4, HT0, HT1⟩, HS, H5⟩
      isplitl [HT0 HT1 HS HR HG]
      · isplitl [HT0 HT1]
        · isplitl [HT0]; · iexact HT0
          iexact HT1
        isplitl [HS]; · iexact HS
        isplitl [HR]; · iexact HR
        iexact HG
      isplitl [Ho]; · iexact Ho
      isplitl [H0]; · iexact H0
      isplitl [H1]; · iexact H1
      isplitl [H2]; · iexact H2
      isplitl [H3]; · iexact H3
      isplitl [H4]; · iexact H4
      iexists d5; iexact H5
  · -- a later edge tile: the scratch holds what the point before left
    have ht0 : t.val ≠ 0 := fun h => h0 (by rw [h])
    have hc1 : ¬ k8_c1 (grid8.coords t) := fun h => h0 (hk.symm.trans ((c1_iff _).mp h))
    have hk' : (grid8.coords t 1).val ≠ 0 := fun h => h0 (hk.symm.trans h)
    rw [scr8_pos V a c t.val _ ht0]
    by_cases hL : t.val % 391 = 390
    · -- the last edge tile: the output block is stored, and written back
      have hc3 : k8_cond3 (grid8.coords t) = 1#1 := (cond3_iff _).mpr (hk.trans hL)
      have hlive : (cfg8 a).idle 5 ((cfg8 a).grid.coords t) = false := by
        rw [idle8_5, hc3]; rfl
      rw [leaves8_live V a c t hlive, after8_5]
      by_cases hc2 : act8 a (grid8.coords t)
      · have hacc := accAt8_next V a c t hk'
        rw [if_pos hc2] at hacc
        rw [hacc]
        iintro ⟨⟨⟨HT0, HT1⟩, HS, HR, HG⟩, Ho, ⟨%d0, H0⟩, ⟨%d1, H1⟩, ⟨%d2, H2⟩, ⟨%d3, H3⟩, ⟨%d4, H4⟩, ⟨%d5, H5⟩⟩
        iapply (run8_LA c (grid8.coords t) (ms8_0 a t) (hs8_0 a t) (ms8_1 a t) (hs8_1 a t) (ms8_2 a t) (hs8_2 a t) (ms8_3 a t) (hs8_3 a t)
          (ms8_4 a t) (hs8_4 a t) (ms8_5 a t) (hs8_5 a t) scM8 (Memref.isWhole_whole _)
          (dstB V a c t) (gB V a c t) (hwB V a c t) (snB V a c t) (biasB V a c t) (a.1 0) (a.1 1) hc1 hc2 hc3
          (accAt8 V a c (t.val - 1) (Nat.lt_of_le_of_lt (Nat.sub_le _ _) t.isLt)) Set.univ _)
        unfold kin8
        isplitl [H0 H1 H2 H3 H4 HT0 HT1]
        · isplitl [H0]; · iexact H0
          isplitl [H1]; · iexact H1
          isplitl [H2]; · iexact H2
          isplitl [H3]; · iexact H3
          isplitl [H4]; · iexact H4
          isplitl [HT0]; · iexact HT0
          iexact HT1
        isplitl [HS]; · iexact HS
        isplitl [H5]; · iexists _; iexact H5
        iintro ⟨⟨H0, H1, H2, H3, H4, HT0, HT1⟩, HS, H5⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        isplitl [H3]; · iexact H3
        isplitl [H4]; · iexact H4
        iexact H5
      · have hacc := accAt8_next V a c t hk'
        rw [if_neg hc2] at hacc
        rw [hacc]
        iintro ⟨⟨⟨HT0, HT1⟩, HS, HR, HG⟩, Ho, ⟨%d0, H0⟩, ⟨%d1, H1⟩, ⟨%d2, H2⟩, ⟨%d3, H3⟩, ⟨%d4, H4⟩, ⟨%d5, H5⟩⟩
        iapply (run8_LI c (grid8.coords t) (ms8_0 a t) (hs8_0 a t) (ms8_1 a t) (hs8_1 a t) (ms8_2 a t) (hs8_2 a t) (ms8_3 a t) (hs8_3 a t)
          (ms8_4 a t) (hs8_4 a t) (ms8_5 a t) (hs8_5 a t) scM8 (Memref.isWhole_whole _)
          (dstB V a c t) (gB V a c t) (hwB V a c t) (snB V a c t) (biasB V a c t) (a.1 0) (a.1 1) hc1 hc2 hc3
          (accAt8 V a c (t.val - 1) (Nat.lt_of_le_of_lt (Nat.sub_le _ _) t.isLt)) Set.univ _)
        unfold kin8
        isplitl [H0 H1 H2 H3 H4 HT0 HT1]
        · isplitl [H0]; · iexact H0
          isplitl [H1]; · iexact H1
          isplitl [H2]; · iexact H2
          isplitl [H3]; · iexact H3
          isplitl [H4]; · iexact H4
          isplitl [HT0]; · iexact HT0
          iexact HT1
        isplitl [HS]; · iexact HS
        isplitl [H5]; · iexists _; iexact H5
        iintro ⟨⟨H0, H1, H2, H3, H4, HT0, HT1⟩, HS, H5⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        isplitl [H3]; · iexact H3
        isplitl [H4]; · iexact H4
        iexact H5
    · -- a middle edge tile: the output window is idle and not written back
      have hc3 : ¬ k8_cond3 (grid8.coords t) = 1#1 := fun h => hL (hk.symm.trans ((cond3_iff _).mp h))
      have hidle : (cfg8 a).idle 5 ((cfg8 a).grid.coords t) = true := by
        rw [idle8_5, beq_eq_false_iff_ne.mpr hc3]; rfl
      have hfl : ((cfg8 a).win 5).flush t = false := by
        rw [Bool.eq_false_iff]; intro h; exact hL ((flush8_5 a t).mp h)
      rw [Dat.leavesExact_idle _ 5 t hidle hfl]
      by_cases hc2 : act8 a (grid8.coords t)
      · have hacc := accAt8_next V a c t hk'
        rw [if_pos hc2] at hacc
        rw [hacc]
        iintro ⟨⟨⟨HT0, HT1⟩, HS, HR, HG⟩, Ho, ⟨%d0, H0⟩, ⟨%d1, H1⟩, ⟨%d2, H2⟩, ⟨%d3, H3⟩, ⟨%d4, H4⟩, ⟨%d5, H5⟩⟩
        iapply (run8_MA c (grid8.coords t) (ms8_0 a t) (hs8_0 a t) (ms8_1 a t) (hs8_1 a t) (ms8_2 a t) (hs8_2 a t) (ms8_3 a t) (hs8_3 a t)
          (ms8_4 a t) (hs8_4 a t) (ms8_5 a t) (hs8_5 a t) scM8 (Memref.isWhole_whole _)
          (dstB V a c t) (gB V a c t) (hwB V a c t) (snB V a c t) (biasB V a c t) (a.1 0) (a.1 1) hc1 hc2 hc3
          (accAt8 V a c (t.val - 1) (Nat.lt_of_le_of_lt (Nat.sub_le _ _) t.isLt)) ((dat8 V a c).before 5 t d5) Set.univ _)
        unfold kin8
        isplitl [H0 H1 H2 H3 H4 HT0 HT1]
        · isplitl [H0]; · iexact H0
          isplitl [H1]; · iexact H1
          isplitl [H2]; · iexact H2
          isplitl [H3]; · iexact H3
          isplitl [H4]; · iexact H4
          isplitl [HT0]; · iexact HT0
          iexact HT1
        isplitl [HS]; · iexact HS
        isplitl [H5]; · iexact H5
        iintro ⟨⟨H0, H1, H2, H3, H4, HT0, HT1⟩, HS, H5⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        isplitl [H3]; · iexact H3
        isplitl [H4]; · iexact H4
        iexists d5; iexact H5
      · have hacc := accAt8_next V a c t hk'
        rw [if_neg hc2] at hacc
        rw [hacc]
        iintro ⟨⟨⟨HT0, HT1⟩, HS, HR, HG⟩, Ho, ⟨%d0, H0⟩, ⟨%d1, H1⟩, ⟨%d2, H2⟩, ⟨%d3, H3⟩, ⟨%d4, H4⟩, ⟨%d5, H5⟩⟩
        iapply (run8_MI c (grid8.coords t) (ms8_0 a t) (hs8_0 a t) (ms8_1 a t) (hs8_1 a t) (ms8_2 a t) (hs8_2 a t) (ms8_3 a t) (hs8_3 a t)
          (ms8_4 a t) (hs8_4 a t) (ms8_5 a t) (hs8_5 a t) scM8 (Memref.isWhole_whole _)
          (dstB V a c t) (gB V a c t) (hwB V a c t) (snB V a c t) (biasB V a c t) (a.1 0) (a.1 1) hc1 hc2 hc3
          (accAt8 V a c (t.val - 1) (Nat.lt_of_le_of_lt (Nat.sub_le _ _) t.isLt)) ((dat8 V a c).before 5 t d5) Set.univ _)
        unfold kin8
        isplitl [H0 H1 H2 H3 H4 HT0 HT1]
        · isplitl [H0]; · iexact H0
          isplitl [H1]; · iexact H1
          isplitl [H2]; · iexact H2
          isplitl [H3]; · iexact H3
          isplitl [H4]; · iexact H4
          isplitl [HT0]; · iexact HT0
          iexact HT1
        isplitl [HS]; · iexact HS
        isplitl [H5]; · iexact H5
        iintro ⟨⟨H0, H1, H2, H3, H4, HT0, HT1⟩, HS, H5⟩
        isplitl [HT0 HT1 HS HR HG]
        · isplitl [HT0 HT1]
          · isplitl [HT0]; · iexact HT0
            iexact HT1
          isplitl [HS]; · iexact HS
          isplitl [HR]; · iexact HR
          iexact HG
        isplitl [Ho]; · iexact Ho
        isplitl [H0]; · iexact H0
        isplitl [H1]; · iexact H1
        isplitl [H2]; · iexact H2
        isplitl [H3]; · iexact H3
        isplitl [H4]; · iexact H4
        iexists d5; iexact H5

/-- The library's body obligation, at every point. -/
theorem body_obligation8 (c : Dev nD) : BodyObligation (dat8 (F := F) V a c) (defs₀ (F := F)) Variants.none () Set.univ := fun t => by
  rw [bigSep_W8, bigSep_W8]
  exact sound_body8 V a c t

/-! ## The invariant at the region's two ends -/

/-- The scratch as the region finds it (a scoped buffer at some contents) is the scratch memref owned at some contents. -/
theorem scr_in (c : Dev nD) :
    (iprop(∃ f : Buf (Elt F) ((c : Thread nD τ).loc cc8_scratch0), ((c : Thread nD τ).loc cc8_scratch0) ↦{fullShare} f) : sProp 𝕄)
      ⊢ iprop(∃ d, owns (c : Thread nD τ) scM8 fullShare d) := by
  simp only [owns_whole]; exact .rfl

theorem scr_out (c : Dev nD) :
    (iprop(∃ d, owns (c : Thread nD τ) scM8 fullShare d) : sProp 𝕄)
      ⊢ iprop(∃ f : Buf (Elt F) ((c : Thread nD τ).loc cc8_scratch0), ((c : Thread nD τ).loc cc8_scratch0) ↦{fullShare} f) := by
  simp only [owns_whole]; exact .rfl

/-- The invariant before the first point, from the generator register, the tables and the scoped rest. -/
theorem hin8 (c : Dev nD) :
    iprop((∃ r, prngReg c r) ∗ Pipeline.prefHeld pre8 c (fun _ => fullShare) a.1 ∗ Pipeline.scopedRest spec8 c) ⊢ (dat8 V a c).Φ 0 := by
  rw [scopedRest8_split]
  show _ ⊢ Φ2 V a c 0
  unfold Φ2
  show _ ⊢ iprop(_ ∗ (∃ d, owns (c : Thread nD τ) scM8 fullShare d) ∗ _ ∗ _)
  iintro ⟨HG, HT, HS, HR⟩
  isplitl [HT]; · iexact HT
  isplitl [HS]; · iapply (scr_in c); iexact HS
  isplitl [HR]; · iexact HR
  iexact HG

/-- The invariant after the last point gives the generator register and the tables (at the full share) back, and
    the scoped rest; the kernel has no semaphore of its own. -/
theorem hout8 (c : Dev nD) :
    (dat8 V a c).Φ (Fin.last _)
      ⊢ iprop(((∃ r, prngReg c r) ∗ Pipeline.prefHeld pre8 c (fun _ => fullShare) a.1) ∗ Pipeline.ownSems0 (fun k : PEmpty => k.elim) c ∗ Pipeline.scopedRest spec8 c) := by
  rw [scopedRest8_split, Pipeline.ownSems0_none]
  show Φ2 V a c (Fin.last _) ⊢ _
  unfold Φ2
  iintro ⟨HT, HS, HR, HG⟩
  ihave HS' := (scr8_ex V a c _ _) $$ HS
  isplitl [HG HT]
  · isplitl [HG]; · iexact HG
    iexact HT
  isplitr
  · iempintro
  isplitl [HS']; · iapply (scr_out c); iexact HS'
  iexact HR

end Cert.Kernel.R8

end
-- ==== Proof.K.R9Frame.lean ====
import proofs.«417346_j54202487276072_2_alg».proof.Proof.Gen.Kernel.Launch
import proofs.«417346_j54202487276072_2_alg».proof.Proof.Gen.Kernel.Skeleton
import proofs.«417346_j54202487276072_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.R9

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The pool region (custom_call 9), at the contents `V` its arrays hold when it is entered

The grid has 49 points. Windows 0 and 1 (the graph ids and the node features) move with the point and are fetched at
every point; windows 2 and 3 (the per-graph sums and the per-graph counts) keep block (0, 0) throughout, live in their own
staging buffers from point to point, and are written back once, after the last point. At point 0 the body first stores
zeros in both output buffers; at every point it then reads both buffers, adds the point's contribution and stores them back. -/

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-! ## What the two output buffers hold after each point -/

/-- The two outputs' staging buffers after the body at point `n`: at point 0 the body's two sums over the zero blocks
    (`k9_pay1`, `k9_pay2`), at a later point over what the point before left. -/
def outsAt9 (c : Dev nD) : (n : ℕ) → n < cfg9.N → Vec F S64x32 .f32 × Vec F S64x1 .f32
  | 0, hn => (k9_pay4 (iblk9 V c 0 ⟨0, hn⟩) k9_pay1 (iblk9 V c 1 ⟨0, hn⟩), k9_pay5 (iblk9 V c 0 ⟨0, hn⟩) k9_pay2)
  | n + 1, hn =>
    (k9_pay4 (iblk9 V c 0 ⟨n + 1, hn⟩) (outsAt9 c n (Nat.lt_of_succ_lt hn)).1 (iblk9 V c 1 ⟨n + 1, hn⟩),
     k9_pay5 (iblk9 V c 0 ⟨n + 1, hn⟩) (outsAt9 c n (Nat.lt_of_succ_lt hn)).2)

/-- Point 0: both sums start from the zero blocks. -/
theorem outsAt9_zero (c : Dev nD) (hn : 0 < cfg9.N) :
    outsAt9 V c 0 hn = (k9_pay4 (iblk9 V c 0 ⟨0, hn⟩) k9_pay1 (iblk9 V c 1 ⟨0, hn⟩), k9_pay5 (iblk9 V c 0 ⟨0, hn⟩) k9_pay2) := rfl

/-- Point `n + 1`: both sums continue from what point `n` left. -/
theorem outsAt9_succ (c : Dev nD) (n : ℕ) (hn : n + 1 < cfg9.N) :
    outsAt9 V c (n + 1) hn
      = (k9_pay4 (iblk9 V c 0 ⟨n + 1, hn⟩) (outsAt9 V c n (Nat.lt_of_succ_lt hn)).1 (iblk9 V c 1 ⟨n + 1, hn⟩),
         k9_pay5 (iblk9 V c 0 ⟨n + 1, hn⟩) (outsAt9 V c n (Nat.lt_of_succ_lt hn)).2) := rfl

/-- At the first point, in terms of the point itself. -/
theorem outsAt9_A (c : Dev nD) (t : Fin cfg9.N) (h0 : t.val % 49 = 0) :
    outsAt9 V c t.val t.isLt = (k9_pay4 (iblk9 V c 0 t) k9_pay1 (iblk9 V c 1 t), k9_pay5 (iblk9 V c 0 t) k9_pay2) := by
  obtain ⟨n, hn⟩ := t
  cases n with
  | zero => rfl
  | succ n =>
    exfalso
    have hN : n + 1 < 49 := lt_of_lt_of_eq hn (show cfg9.N = 49 from N_9)
    dsimp only at h0
    omega

/-- At a later point, in terms of the point itself and of what the point before left. -/
theorem outsAt9_B (c : Dev nD) (t : Fin cfg9.N) (h0 : ¬t.val % 49 = 0) :
    outsAt9 V c t.val t.isLt
      = (k9_pay4 (iblk9 V c 0 t) (outsAt9 V c (t.val - 1) (Nat.lt_of_le_of_lt (Nat.sub_le _ _) t.isLt)).1 (iblk9 V c 1 t),
         k9_pay5 (iblk9 V c 0 t) (outsAt9 V c (t.val - 1) (Nat.lt_of_le_of_lt (Nat.sub_le _ _) t.isLt)).2) := by
  obtain ⟨n, hn⟩ := t
  cases n with
  | zero => exact absurd (Nat.zero_mod _) h0
  | succ n => rfl

/-! ## The body's branch condition -/

/-- The condition of the body's one conditional, from the grid coordinates: the point's coordinate is 0. -/
abbrev cond9_0 (i : grid9.Coords) : Prop := (Scalar.cmpi .ne (Scalar.extui (Scalar.cmpi .eq (BitVec.ofNat 32 (i 0).val) 0#32)) 0#32) = 1#1
/-- It holds at the first point only. -/
theorem hcond9_0 : ∀ t : Fin cfg9.N, cond9_0 (grid9.coords t) ↔ t.val % 49 = 0 :=
  (by decide +kernel : ∀ t : Fin grid9.N, cond9_0 (grid9.coords t) ↔ t.val % 49 = 0)

/-! ## The body's triples, one per case -/

theorem hz1 : (![0] : Fin 1 → Nat) = fun _ => 0 := funext fun a => by fin_cases a; rfl
theorem hz2 : (![0, 0] : Fin 2 → Nat) = fun _ => 0 := funext fun a => by fin_cases a <;> rfl

set_option maxHeartbeats 1000000 in
/-- THE FIRST POINT. On whole staging memrefs, the inputs' at contents `x0`, `x1` and the outputs' at anything, the body
    runs to the continuation holding the inputs' as they were and the outputs' at the body's two sums over the zero
    blocks: each output buffer is zeroed by a store over all of it, read back (the zero block), and overwritten, again
    over all of it, by the sum. -/
theorem sound_kernel9_A (c : Dev nD) (E : Set ℕ) (i : grid9.Coords)
    (arg1 : Memref sig .tc .vmem S2048 .i32) (harg1 : arg1.IsWhole) (arg2 : Memref sig .tc .vmem S2048x32 .f32) (harg2 : arg2.IsWhole)
    (arg3 : Memref sig .tc .vmem S64x32 .f32) (harg3 : arg3.IsWhole) (arg4 : Memref sig .tc .vmem S64x1 .f32) (harg4 : arg4.IsWhole)
    (hc0 : cond9_0 i) (x0 : Vec F S2048 .i32) (x1 : Vec F S2048x32 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k9_pay4 x0 k9_pay1 x1)
            ∗ owns (c : Thread nD τ) arg4 fullShare (k9_pay5 x0 k9_pay2)) -∗ K ⟨⟩))
      ⊢ wp frame (wpE (defs₀ (F := F)) Variants.none c none) E (cc9__pool_kernel i arg1 harg1 arg2 harg2 arg3 harg3 arg4 harg4) K := by
  simp only [cc9__pool_kernel_eq_skeleton]; unfold cc9__pool_kernel_skel
  unfold owns
  iintro ⟨⟨%f0, %hf0, H0⟩, ⟨%f1, %hf1, H1⟩, ⟨%d2, %f2, -, H2⟩, ⟨%d3, %f3, -, H3⟩, Hk⟩
  obtain rfl := harg1.eq_unread hf0; obtain rfl := harg2.eq_unread hf1
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_run_names
    rw [View.read_writes_eq_canon _ _ _ (fun y => ⟨_, List.mem_cons_self, View.mem_set_unit_zero hz2 inb_S64x32_S64x32_0_0 y⟩),
      View.canon_cons_unit_zero hz2, View.readCov_unit_zero _ hz2]
    simp only [View.readAt_eq_ld, harg1.read_unread, harg2.read_unread, View.ld_unit_zero (S := S2048) hz1,
      View.ld_unit_zero (S := S2048x32) hz2]
  iexists _; isplitr
  swap; · iexact H3
  ipureintro
  sl_unfold_run_names
  rw [View.read_writes_eq_canon _ _ _ (fun y => ⟨_, List.mem_cons_self, View.mem_set_unit_zero hz2 inb_S64x1_S64x1_0_0 y⟩),
    View.canon_cons_unit_zero hz2, View.readCov_unit_zero _ hz2]
  simp only [View.readAt_eq_ld, harg1.read_unread, View.ld_unit_zero (S := S2048) hz1]

set_option maxHeartbeats 1000000 in
/-- A LATER POINT. On whole staging memrefs, the inputs' at contents `x0`, `x1` and the outputs' at their running
    contents `xo2`, `xo3`, the body runs to the continuation holding the inputs' as they were and the outputs' at the
    body's two sums over the running contents: each output buffer is read and overwritten, over all of it, by the sum. -/
theorem sound_kernel9_B (c : Dev nD) (E : Set ℕ) (i : grid9.Coords)
    (arg1 : Memref sig .tc .vmem S2048 .i32) (harg1 : arg1.IsWhole) (arg2 : Memref sig .tc .vmem S2048x32 .f32) (harg2 : arg2.IsWhole)
    (arg3 : Memref sig .tc .vmem S64x32 .f32) (harg3 : arg3.IsWhole) (arg4 : Memref sig .tc .vmem S64x1 .f32) (harg4 : arg4.IsWhole)
    (hc0 : ¬cond9_0 i) (x0 : Vec F S2048 .i32) (x1 : Vec F S2048x32 .f32) (xo2 : Vec F S64x32 .f32) (xo3 : Vec F S64x1 .f32)
    (K : PUnit → sProp 𝕄) :
    iprop(owns (c : Thread nD τ) arg1 fullShare x0 ∗ owns (c : Thread nD τ) arg2 fullShare x1
        ∗ owns (c : Thread nD τ) arg3 fullShare xo2 ∗ owns (c : Thread nD τ) arg4 fullShare xo3
        ∗ (iprop(owns (c : Thread nD τ) arg1 fullShare x0 ∗ owns (c : Thread nD τ) arg2 fullShare x1
            ∗ owns (c : Thread nD τ) arg3 fullShare (k9_pay4 x0 xo2 x1)
            ∗ owns (c : Thread nD τ) arg4 fullShare (k9_pay5 x0 xo3)) -∗ K ⟨⟩))
      ⊢ wp frame (wpE (defs₀ (F := F)) Variants.none c none) E (cc9__pool_kernel i arg1 harg1 arg2 harg2 arg3 harg3 arg4 harg4) K := by
  simp only [cc9__pool_kernel_eq_skeleton]; unfold cc9__pool_kernel_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1
  obtain rfl := harg3.eq_unread hf2; obtain rfl := harg4.eq_unread hf3
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_run_names
    rw [View.read_writes_eq_canon _ _ _ (fun y => ⟨_, List.mem_cons_self, View.mem_set_unit_zero hz2 inb_S64x32_S64x32_0_0 y⟩),
      View.canon_cons_unit_zero hz2]
    simp only [View.readAt_eq_ld, harg1.read_unread, harg2.read_unread, harg3.read_unread, View.ld_unit_zero (S := S2048) hz1,
      View.ld_unit_zero (S := S2048x32) hz2, View.ld_unit_zero (S := S64x32) hz2]
  iexists _; isplitr
  swap; · iexact H3
  ipureintro
  sl_unfold_run_names
  rw [View.read_writes_eq_canon _ _ _ (fun y => ⟨_, List.mem_cons_self, View.mem_set_unit_zero hz2 inb_S64x1_S64x1_0_0 y⟩),
    View.canon_cons_unit_zero hz2]
  simp only [View.readAt_eq_ld, harg1.read_unread, harg4.read_unread, View.ld_unit_zero (S := S2048) hz1,
    View.ld_unit_zero (S := S64x1) hz2]

/-! ## The pipeline's proof data -/

/-- The proof data of the pool pipeline on core `c`: the arrays as the region finds them (`V`); after the body at point
    `t` each input's buffer at its block and the two outputs' at `outsAt9`; the invariant the scoped rest and the
    generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => (outsAt9 V c t.val t.isLt).1
    | ⟨3, _⟩ => (outsAt9 V c t.val t.isLt).2
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = (outsAt9 V c t.val t.isLt).1 := by dsimp only [dat9]
theorem after9_3 (c : Dev nD) (t : Fin cfg9.N) : (dat9 V c).after 3 t = (outsAt9 V c t.val t.isLt).2 := by dsimp only [dat9]

/-- Each input is fetched at every point, so its current staging buffer holds its block there. -/
theorem before9_0 (c : Dev nD) (t : Fin cfg9.N) (d) : (dat9 V c).before 0 t d = iblk9 V c 0 t := by
  rw [(dat9 V c).before_fetched 0 t (fetch9_0 t) d]
  unfold Dat.fetched Dat.blockOf iblk9
  rw [A_eq9]
  try rfl
theorem before9_1 (c : Dev nD) (t : Fin cfg9.N) (d) : (dat9 V c).before 1 t d = iblk9 V c 1 t := by
  rw [(dat9 V c).before_fetched 1 t (fetch9_1 t) d]
  unfold Dat.fetched Dat.blockOf iblk9
  rw [A_eq9]
  try rfl

/-- After the first point each output's staging buffer holds what the body left at the point before: the point before
    is never the last one, so nothing was written back between, and the window is live and uncut. -/
theorem before9_2_B (c : Dev nD) (t : Fin cfg9.N) (h0 : ¬t.val % 49 = 0) (d) :
    (dat9 V c).before 2 t d = (outsAt9 V c (t.val - 1) (Nat.lt_of_le_of_lt (Nat.sub_le _ _) t.isLt)).1 := by
  have hN : t.val < 49 := lt_of_lt_of_eq t.isLt (show cfg9.N = 49 from N_9)
  rw [Dat.before_out_kept _ 2 rfl t (by omega) (Bool.eq_false_iff.mpr fun h => by have := (flush9_2 _).mp h; dsimp only at this; omega)
    (fun _ => rfl) (fun _ _ => rfl)]
  dsimp only [dat9]
theorem before9_3_B (c : Dev nD) (t : Fin cfg9.N) (h0 : ¬t.val % 49 = 0) (d) :
    (dat9 V c).before 3 t d = (outsAt9 V c (t.val - 1) (Nat.lt_of_le_of_lt (Nat.sub_le _ _) t.isLt)).2 := by
  have hN : t.val < 49 := lt_of_lt_of_eq t.isLt (show cfg9.N = 49 from N_9)
  rw [Dat.before_out_kept _ 3 rfl t (by omega) (Bool.eq_false_iff.mpr fun h => by have := (flush9_3 _).mp h; dsimp only at this; omega)
    (fun _ => rfl) (fun _ _ => rfl)]
  dsimp only [dat9]

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

set_option maxHeartbeats 800000 in
/-- The body at any point: the inputs' memrefs hold their blocks; the branch condition says whether the point is the
    first; at a later point each output's memref holds what the point before left; so the case's triple applies; the
    invariant passes through unread and the core owes nothing throughout. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2, after9_3]
  by_cases h0 : t.val % 49 = 0
  · rw [outsAt9_A V c t h0]
    dsimp only
    iintro ⟨HΦ, Ho, ⟨%d0, H0⟩, ⟨%d1, H1⟩, ⟨%d2, H2⟩, ⟨%d3, H3⟩⟩
    iapply (sound_kernel9_A c Set.univ (grid9.coords t) _ _ _ _ _ _ _ _ ((hcond9_0 t).mpr h0) (iblk9 V c 0 t) (iblk9 V c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [outsAt9_B V c t h0]
    simp only [before9_2_B V c t h0, before9_3_B V c t h0]
    iintro ⟨HΦ, Ho, ⟨%d0, H0⟩, ⟨%d1, H1⟩, ⟨%d2, H2⟩, ⟨%d3, H3⟩⟩
    iapply (sound_kernel9_B c Set.univ (grid9.coords t) _ _ _ _ _ _ _ _ (fun h => h0 ((hcond9_0 t).mp h)) (iblk9 V c 0 t) (iblk9 V c 1 t)
      (outsAt9 V c (t.val - 1) (Nat.lt_of_le_of_lt (Nat.sub_le _ _) t.isLt)).1
      (outsAt9 V c (t.val - 1) (Nat.lt_of_le_of_lt (Nat.sub_le _ _) t.isLt)).2 _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation9 (c : Dev nD) : BodyObligation (dat9 (F := F) V c) (defs₀ (F := F)) Variants.none () Set.univ := fun t => by
  rw [bigSep_W9, bigSep_W9]
  exact sound_body9 V c t

/-! ## The final arrays: the one write-back, after the last point, covers each output's whole array -/

/-- The last point. -/
theorem lt48 : 48 < cfg9.N := by rw [show cfg9.N = 49 from N_9]; decide
abbrev t48 : Fin cfg9.N := ⟨48, lt48⟩

/-- The two results, as contents of the result arrays: what the last point leaves in the two staging buffers. -/
abbrev res9_2 (c : Dev nD) : Buf (Elt F) ((c : Thread nD τ).loc main_v122_0) := (outsAt9 V c 48 lt48).1
abbrev res9_3 (c : Dev nD) : Buf (Elt F) ((c : Thread nD τ).loc main_v122_1) := (outsAt9 V c 48 lt48).2

/-- The one write-back of window 2, at point 48, writes `res9_2`: block (0, 0) of the [64, 32] array, read through zero
    offsets, is the array. -/
theorem flushed9_2 (c : Dev nD) (t : Fin cfg9.N) (hf : (cfg9.win 2).flush t = true) :
    (dat9 V c).flushed 2 t = ((cfg9.win 2).blk t).view.read (Elt F) (res9_2 V c) := by
  have hN : t.val < 49 := lt_of_lt_of_eq t.isLt (show cfg9.N = 49 from N_9)
  have h48 : t.val = 48 := by have := (flush9_2 t).mp hf; omega
  obtain rfl : t = t48 := Fin.ext h48
  show (cfg9.win 2).cut (grid9.coords t48) ((dat9 V c).after 2 t48) = _
  rw [after9_2]
  have hz' : (fun a => win9_2.index t48 a * main_v122_0.ty.shape.size a) = fun _ => 0 := funext fun a => by fin_cases a <;> decide
  exact (Memref.read_access_unit_zero (Elt F) main_v122_0 hz' (fun a => by rw [congrFun hz' a]; simp) (res9_2 V c)).symm

theorem flushed9_3 (c : Dev nD) (t : Fin cfg9.N) (hf : (cfg9.win 3).flush t = true) :
    (dat9 V c).flushed 3 t = ((cfg9.win 3).blk t).view.read (Elt F) (res9_3 V c) := by
  have hN : t.val < 49 := lt_of_lt_of_eq t.isLt (show cfg9.N = 49 from N_9)
  have h48 : t.val = 48 := by have := (flush9_3 t).mp hf; omega
  obtain rfl : t = t48 := Fin.ext h48
  show (cfg9.win 3).cut (grid9.coords t48) ((dat9 V c).after 3 t48) = _
  rw [after9_3]
  have hz' : (fun a => win9_3.index t48 a * main_v122_1.ty.shape.size a) = fun _ => 0 := funext fun a => by fin_cases a <;> decide
  exact (Memref.read_access_unit_zero (Elt F) main_v122_1 hz' (fun a => by rw [congrFun hz' a]; simp) (res9_3 V c)).symm

/-- The per-graph sums' array ends holding what the last point left in its staging buffer. -/
theorem arrAt9_2 (c : Dev nD) : (dat9 V c).arrAt 2 cfg9.N = res9_2 V c :=
  (dat9 V c).arrAt_eq_of_cover 2 (res9_2 V c) (flushed9_2 V c) fun i =>
    ⟨t48, (flush9_2 t48).mpr rfl, by
      show i ∈ ((View.whole main_v122_0).slice (win9_2.rect t48)).set
      rw [View.set_slice_whole, Rect.mem_set_unit]
      intro a
      have h0 : (i 0 : Nat) < 64 := (i 0).isLt
      have h1 : (i 1 : Nat) < 32 := (i 1).isLt
      match a with
      | ⟨0, _⟩ =>
        show win9_2.index t48 0 * win9_2.size 0 ≤ (i 0 : Nat) ∧ (i 0 : Nat) < win9_2.index t48 0 * win9_2.size 0 + win9_2.xsize (grid9.coords t48) 0
        rw [show win9_2.index t48 0 * win9_2.size 0 = 0 from by decide +kernel, show win9_2.xsize (grid9.coords t48) 0 = 64 from by decide +kernel]
        omega
      | ⟨1, _⟩ =>
        show win9_2.index t48 1 * win9_2.size 1 ≤ (i 1 : Nat) ∧ (i 1 : Nat) < win9_2.index t48 1 * win9_2.size 1 + win9_2.xsize (grid9.coords t48) 1
        rw [show win9_2.index t48 1 * win9_2.size 1 = 0 from by decide +kernel, show win9_2.xsize (grid9.coords t48) 1 = 32 from by decide +kernel]
        omega⟩

/-- The per-graph counts' array likewise. -/
theorem arrAt9_3 (c : Dev nD) : (dat9 V c).arrAt 3 cfg9.N = res9_3 V c :=
  (dat9 V c).arrAt_eq_of_cover 3 (res9_3 V c) (flushed9_3 V c) fun i =>
    ⟨t48, (flush9_3 t48).mpr rfl, by
      show i ∈ ((View.whole main_v122_1).slice (win9_3.rect t48)).set
      rw [View.set_slice_whole, Rect.mem_set_unit]
      intro a
      have h0 : (i 0 : Nat) < 64 := (i 0).isLt
      have h1 : (i 1 : Nat) < 1 := (i 1).isLt
      match a with
      | ⟨0, _⟩ =>
        show win9_3.index t48 0 * win9_3.size 0 ≤ (i 0 : Nat) ∧ (i 0 : Nat) < win9_3.index t48 0 * win9_3.size 0 + win9_3.xsize (grid9.coords t48) 0
        rw [show win9_3.index t48 0 * win9_3.size 0 = 0 from by decide +kernel, show win9_3.xsize (grid9.coords t48) 0 = 64 from by decide +kernel]
        omega
      | ⟨1, _⟩ =>
        show win9_3.index t48 1 * win9_3.size 1 ≤ (i 1 : Nat) ∧ (i 1 : Nat) < win9_3.index t48 1 * win9_3.size 1 + win9_3.xsize (grid9.coords t48) 1
        rw [show win9_3.index t48 1 * win9_3.size 1 = 0 from by decide +kernel, show win9_3.xsize (grid9.coords t48) 1 = 1 from by decide +kernel]
        omega⟩

/-- The inputs' arrays end as the region found them. -/
theorem arrAt9_0 (c : Dev nD) : (dat9 V c).arrAt 0 cfg9.N = V c (Pipeline.arrRef spec9 0) :=
  ((dat9 V c).arrAt_in 0 rfl _).trans (A_eq9 V c 0)
theorem arrAt9_1 (c : Dev nD) : (dat9 V c).arrAt 1 cfg9.N = V c (Pipeline.arrRef spec9 1) :=
  ((dat9 V c).arrAt_in 1 rfl _).trans (A_eq9 V c 1)

end Cert.Kernel.R9

end
-- ==== Proof.K.RunKI.lean ====
import proofs.«417346_j54202487276072_2_alg».proof.Proof.RegionsK
import Idealize.ShloMosaic.Lib.Pipeline.RegionsLoop
import Idealize.ShloMosaic.Lib.Pipeline.Kit
import proofs.«417346_j54202487276072_2_alg».proof.Proof.K.R0Frame
import proofs.«417346_j54202487276072_2_alg».proof.Proof.K.R1Frame
import proofs.«417346_j54202487276072_2_alg».proof.Proof.K.R2Frame
import proofs.«417346_j54202487276072_2_alg».proof.Proof.K.R3Frame
import proofs.«417346_j54202487276072_2_alg».proof.Proof.K.R4Frame
import proofs.«417346_j54202487276072_2_alg».proof.Proof.K.R5Frame
import proofs.«417346_j54202487276072_2_alg».proof.Proof.K.R6Frame
import proofs.«417346_j54202487276072_2_alg».proof.Proof.K.R7Frame
import proofs.«417346_j54202487276072_2_alg».proof.Proof.K.R8Frame
import proofs.«417346_j54202487276072_2_alg».proof.Proof.K.R9Frame

set_option maxRecDepth 1692

noncomputable section

namespace Cert.Kernel.Run

open Cert.Kernel Cert.Kernel.Gen Cert.Kernel.GenP

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

abbrev 𝒱₀ : Variants := Variants.none
/-- No core owes another anything: no level is assigned. -/
abbrev L : GSem nD τ sig → Finset Unit := fun _ => ∅
abbrev lv : GSem nD τ sig → Unit → ℕ := fun _ _ => 0
/-- What rides beside the unscoped buffers through every item of @main: the core's generator register at some state
    and its `owes` at nothing. -/
abbrev R (c : Dev nD) : sProp 𝕄 := iprop((∃ r, prngReg c r) ∗ ∃ W, owes (c : Thread nD τ) (0 : CellTallies nD τ sig Unit) W)

/-! ## One kernel region as a segment, for any pipeline of the program -/

section Builder

variable (a : (p : Fin 10) → (pcfgs (F := F) p).Adm)
  (pdats : (p : Fin 10) → (c : Dev nD) → Dat τ (Elt F) Unit ℕ (UR sig nD τ) ℕ (Pipeline.pin (pcfgs (F := F)) a p) c)

set_option backward.isDefEq.respectTransparency.types false in
/-- A kernel region over the thread state "every unscoped buffer at a valuation, the generator register, nothing owed":
    entered at `Vin`, left at `Vout`. The windows' arrays are split out of the unscoped buffers and put back at the exit
    contents; the prefetched tables are split out of the rest, lent to the invariant and returned by it at the full share;
    the generator register goes into the invariant and comes back; nothing is owed; the kernel has no semaphore of its
    own. -/
def regionSeg (p : Fin 10) (lf : Pipeline.PLaunchFacts (nD := nD) (τ := τ) (pcfgs (F := F)) p)
    (Vin Vout : Dev nD → Valuation τ sig (Elt F))
    (hA : ∀ c w, (pdats p c).A w = Vin c (Pipeline.arrRef (Pipeline.pin (pcfgs (F := F)) a p).spec w))
    (hq : ∀ c w, (pdats p c).q w = fullShare)
    (howed : ∀ c t, (pdats p c).owed t = 0)
    (hrec : ∀ c, (pdats p c).recorded 0 = Set.univ)
    (hbody : ∀ c, Pipeline.BodyObligationLoose (pdats p c) defs₀ 𝒱₀ () Set.univ)
    (htab : ∀ c, (a p).1 = fun k => Vin c ((pcfgs (F := F) p).pre.ref k))
    (hin : ∀ c, iprop((∃ r, prngReg c r) ∗ Pipeline.prefHeld (pcfgs (F := F) p).pre c (fun _ => fullShare) (a p).1
        ∗ Pipeline.scopedRest (Pipeline.pin (pcfgs (F := F)) a p).spec c) ⊢ ((pdats p c).Φ 0 : sProp 𝕄))
    (hout : ∀ c, ((pdats p c).Φ (Fin.last _) : sProp 𝕄) ⊢ iprop(((∃ r, prngReg c r) ∗ Pipeline.prefHeld (pcfgs (F := F) p).pre c (fun _ => fullShare) (a p).1)
        ∗ Pipeline.ownSems0 (fun k : PEmpty => k.elim) c ∗ Pipeline.scopedRest (Pipeline.pin (pcfgs (F := F)) a p).spec c))
    (hF : ∀ c w, (pdats p c).arrAt w (Pipeline.pin (pcfgs (F := F)) a p).N = Vout c (Pipeline.arrRef (Pipeline.pin (pcfgs (F := F)) a p).spec w))
    (hrest : ∀ c (b : Ref sig .tc), b ∉ Finset.univ.image (Pipeline.arrRef (Pipeline.pin (pcfgs (F := F)) a p).spec) → Vout c b = Vin c b) :
    Pipeline.RegionSeg (pcfgs (F := F)) a pdats () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop((∃ r, prngReg c r) ∗ Pipeline.prefHeld (pcfgs (F := F) p).pre c (fun _ => fullShare) (a p).1)
  Z c := Pipeline.unscopedRestP (Ix := Unit) (Name := ℕ) (U := UR sig nD τ) (Lvl := ℕ) (pcfgs (F := F) p).pre (Pipeline.pin (pcfgs (F := F)) a p).spec c (fun b => Vin c b)
  hentry c := by
    rw [Pipeline.ownSems0_none]
    have hsplit := Pipeline.arrays_of_unscopedBufs (p := p) (pcfgs (F := F)) a pdats lf.win lf.arr_whole c
      ((pdats p c).share_full (hq c)) (fun b => Vin c b) (hA c)
    rw [Pipeline.unscopedBufs_held, Pipeline.unscopedRest_split lf.pre c (fun b => Vin c b), ← htab c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin Pipeline.Dat.bound
      rw [howed c 0, hrec c]
      icases HO with ⟨%W, HO⟩; iexists W; isplitr; · ipureintro; exact fun _ _ => Or.inl trivial
      iexact HO
    isplitl [Hp]; · iexact Hp
    iexact Hrest
  hin c := hin c
  hout c := hout c
  hexit c := by
    have hjoin := Pipeline.unscopedBufs_of_arrays (p := p) (pcfgs (F := F)) a (Ix := Unit) (Name := ℕ) (U := UR sig nD τ) (Lvl := ℕ)
      lf.win lf.arr_whole c pdats ((pdats p c).share_full (hq c))
      (fun b => Vin c b) (fun b => Vout c b) ((pdats p c).arrAt · (Pipeline.pin (pcfgs (F := F)) a p).N) (hF c) (hrest c)
    rw [Pipeline.unscopedBufs_held, Pipeline.unscopedRest_split lf.pre c (fun b => Vin c b), ← htab c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    rw [howed c (Fin.last _)]
    icases HO with ⟨%W, -, HO⟩; iexists W; iexact HO

end Builder

/-! ## The invariant of a region with no prefetched table -/

/-- Into the class invariant: the generator register and the scoped rest (no table is held). -/
theorem hinA {gr W : Nat} (win : Fin W → Pipeline.WinSpec sig gr) (c : Dev nD) (v : (Pipeline.Prefetch.none (sig := sig)).Contents (Elt F)) :
    iprop((∃ r, prngReg c r) ∗ Pipeline.prefHeld Pipeline.Prefetch.none c (fun _ => fullShare) v ∗ Pipeline.scopedRest win c)
      ⊢ (Pipeline.ΦA win c : sProp 𝕄) := by
  unfold Pipeline.ΦA
  iintro ⟨Hp, -, Hr⟩
  isplitl [Hr]; · iexact Hr
  iexact Hp

/-- Out of the class invariant: the same back, no table and no semaphore of the kernel's own. -/
theorem houtA {gr W : Nat} (win : Fin W → Pipeline.WinSpec sig gr) (c : Dev nD) (v : (Pipeline.Prefetch.none (sig := sig)).Contents (Elt F)) :
    (Pipeline.ΦA win c : sProp 𝕄)
      ⊢ iprop(((∃ r, prngReg c r) ∗ Pipeline.prefHeld Pipeline.Prefetch.none c (fun _ => fullShare) v)
          ∗ Pipeline.ownSems0 (fun k : PEmpty => k.elim) c ∗ Pipeline.scopedRest win c) := by
  rw [Pipeline.ownSems0_none]
  unfold Pipeline.ΦA Pipeline.prefHeld
  rw [show (Finset.univ : Finset (Fin 0)) = ∅ from rfl, BI.bigSep_empty]
  iintro ⟨Hr, Hp⟩
  isplitl [Hp]
  · isplitl [Hp]; · iexact Hp
    iempintro
  isplitr; · iempintro
  iexact Hr

/-! ## The prefetched tables and the admissible contents -/

section Vals

variable (m : (ℓ : Loc nD τ sig) → Buf (Elt F) ℓ)

/-- A valuation read at the TensorCore's references (what a region's proof data take). -/
abbrev rd (W : Dev nD → Valuation τ sig (Elt F)) : (c : Dev nD) → (b : Ref sig .tc) → Buf (Elt F) ((c : Thread nD τ).loc b) :=
  fun c b => W c b

/-- The gather regions' two tables (per edge block, the first and the last node block its sources fall in), as the host
    stretches before the first region leave them. There is one device, so they are read on core 0. -/
def tabG : pre1.Contents (Elt F) := fun k => V16 m 0 (pre1.ref k)
/-- The scatter regions' two tables (per node block, the first and the last edge block whose targets fall in it). -/
def tabS : pre2.Contents (Elt F) := fun k => V16 m 0 (pre2.ref k)
theorem tabG_apply (k : Fin 2) : tabG m k = V16 m 0 (pre1.ref k) := rfl
theorem tabS_apply (k : Fin 2) : tabS m k = V16 m 0 (pre2.ref k) := rfl
-- the tables are results of host sorts: they are never unfolded past this point
attribute [irreducible] tabG tabS

/-- The index maps of the gather and scatter regions do not read the tables: every contents is admissible. -/
abbrev adm1 : (pcfg1 (F := F)).Adm := ⟨tabG m, trivial⟩
abbrev adm2 : (pcfg2 (F := F)).Adm := ⟨tabS m, trivial⟩
abbrev adm4 : (pcfg4 (F := F)).Adm := ⟨tabG m, trivial⟩
abbrev adm5 : (pcfg5 (F := F)).Adm := ⟨tabS m, trivial⟩
abbrev adm7 : (pcfg7 (F := F)).Adm := ⟨tabG m, trivial⟩
abbrev adm8 : (pcfg8 (F := F)).Adm := ⟨tabS m, trivial⟩
/-- The prefetched tables' admissible contents, per pipeline. -/
abbrev adm : (p : Fin 10) → (pcfgs (F := F) p).Adm
  | ⟨0, _⟩ => cfg0.toPCfg_adm
  | ⟨1, _⟩ => adm1 m
  | ⟨2, _⟩ => adm2 m
  | ⟨3, _⟩ => cfg3.toPCfg_adm
  | ⟨4, _⟩ => adm4 m
  | ⟨5, _⟩ => adm5 m
  | ⟨6, _⟩ => cfg6.toPCfg_adm
  | ⟨7, _⟩ => adm7 m
  | ⟨8, _⟩ => adm8 m
  | ⟨9, _⟩ => cfg9.toPCfg_adm

/-- The four table buffers. -/
abbrev tabRefs : List (Ref sig .tc) := [main_v68, main_v70, main_v72, main_v74]
theorem pre1_mem (k : Fin 2) : pre1.ref k ∈ tabRefs := by revert k; decide
theorem pre2_mem (k : Fin 2) : pre2.ref k ∈ tabRefs := by revert k; decide

/-- A valuation updated at one reference, read there and elsewhere. -/
theorem upd_out (W : Valuation τ sig (Elt F)) (y : Ref sig .tc) (X : (Proc.devRef (τ := τ) .tc y).ty.Contents (Elt F)) :
    Function.update W (Proc.devRef .tc y) X (Proc.devRef .tc y) = X := Function.update_self ..
theorem upd_of_ne (W : Valuation τ sig (Elt F)) (y : Ref sig .tc) (X : (Proc.devRef (τ := τ) .tc y).ty.Contents (Elt F)) (r : Ref sig .tc) (h : r ≠ y) :
    Function.update W (Proc.devRef .tc y) X (Proc.devRef .tc r) = W (Proc.devRef .tc r) :=
  Function.update_of_ne (StableHlo.devRef_ne_of_ne h) ..

/-! ## The buffers' contents between items, written without the unknowns `outs`

`W J` is the valuation after item J−1 with each region's exit contents spelled out (`X J`: the output window's array
after the last write-back); the unknowns `outs` are then read off these, and `V J m outs = W J`. -/

/-- What region 0 leaves in `main_v83`. -/
def X17 (c : Dev nD) : (Proc.devRef (τ := τ) .tc main_v83).ty.Contents (Elt F) := (R0.dat0 (rd (V16 m)) c).arrAt 2 cfg0.N
def W17 (c : Dev nD) : Valuation τ sig (Elt F) := Function.update (V16 m c) main_v83 (X17 m c)
/-- What region 1 leaves in `main_v84`. -/
def X18 (c : Dev nD) : (Proc.devRef (τ := τ) .tc main_v84).ty.Contents (Elt F) := (R1.dat1 (rd (W17 m)) (adm1 m) c).arrAt 3 (cfg1 (adm1 m)).N
def W18 (c : Dev nD) : Valuation τ sig (Elt F) := Function.update (W17 m c) main_v84 (X18 m c)
def W19 (c : Dev nD) : Valuation τ sig (Elt F) := StableHlo.after hostOps2 (W18 m c)
/-- What region 2 leaves in `main_v93`. -/
def X20 (c : Dev nD) : (Proc.devRef (τ := τ) .tc main_v93).ty.Contents (Elt F) := (R2.dat2 (rd (W19 m)) (adm2 m) c).arrAt 5 (cfg2 (adm2 m)).N
def W20 (c : Dev nD) : Valuation τ sig (Elt F) := Function.update (W19 m c) main_v93 (X20 m c)
def W21 (c : Dev nD) : Valuation τ sig (Elt F) := StableHlo.after hostOps3 (W20 m c)
/-- What region 3 leaves in `main_v96`. -/
def X22 (c : Dev nD) : (Proc.devRef (τ := τ) .tc main_v96).ty.Contents (Elt F) := (R3.dat3 (rd (W21 m)) c).arrAt 2 cfg3.N
def W22 (c : Dev nD) : Valuation τ sig (Elt F) := Function.update (W21 m c) main_v96 (X22 m c)
/-- What region 4 leaves in `main_v97`. -/
def X23 (c : Dev nD) : (Proc.devRef (τ := τ) .tc main_v97).ty.Contents (Elt F) := (R4.dat4 (rd (W22 m)) (adm4 m) c).arrAt 3 (cfg4 (adm4 m)).N
def W23 (c : Dev nD) : Valuation τ sig (Elt F) := Function.update (W22 m c) main_v97 (X23 m c)
def W24 (c : Dev nD) : Valuation τ sig (Elt F) := StableHlo.after hostOps5 (W23 m c)
/-- What region 5 leaves in `main_v106`. -/
def X25 (c : Dev nD) : (Proc.devRef (τ := τ) .tc main_v106).ty.Contents (Elt F) := (R5.dat5 (rd (W24 m)) (adm5 m) c).arrAt 5 (cfg5 (adm5 m)).N
def W25 (c : Dev nD) : Valuation τ sig (Elt F) := Function.update (W24 m c) main_v106 (X25 m c)
def W26 (c : Dev nD) : Valuation τ sig (Elt F) := StableHlo.after hostOps6 (W25 m c)
/-- What region 6 leaves in `main_v109`. -/
def X27 (c : Dev nD) : (Proc.devRef (τ := τ) .tc main_v109).ty.Contents (Elt F) := (R6.dat6 (rd (W26 m)) c).arrAt 2 cfg6.N
def W27 (c : Dev nD) : Valuation τ sig (Elt F) := Function.update (W26 m c) main_v109 (X27 m c)
/-- What region 7 leaves in `main_v110`. -/
def X28 (c : Dev nD) : (Proc.devRef (τ := τ) .tc main_v110).ty.Contents (Elt F) := (R7.dat7 (rd (W27 m)) (adm7 m) c).arrAt 3 (cfg7 (adm7 m)).N
def W28 (c : Dev nD) : Valuation τ sig (Elt F) := Function.update (W27 m c) main_v110 (X28 m c)
def W29 (c : Dev nD) : Valuation τ sig (Elt F) := StableHlo.after hostOps8 (W28 m c)
/-- What region 8 leaves in `main_v119`. -/
def X30 (c : Dev nD) : (Proc.devRef (τ := τ) .tc main_v119).ty.Contents (Elt F) := (R8.dat8 (rd (W29 m)) (adm8 m) c).arrAt 5 (cfg8 (adm8 m)).N
def W30 (c : Dev nD) : Valuation τ sig (Elt F) := Function.update (W29 m c) main_v119 (X30 m c)
def W31 (c : Dev nD) : Valuation τ sig (Elt F) := StableHlo.after hostOps9 (W30 m c)
/-- What region 9 leaves in `main_v122_0` and in `main_v122_1`. -/
def X32a (c : Dev nD) : (Proc.devRef (τ := τ) .tc main_v122_0).ty.Contents (Elt F) := (R9.dat9 (rd (W31 m)) c).arrAt 2 cfg9.N
def X32b (c : Dev nD) : (Proc.devRef (τ := τ) .tc main_v122_1).ty.Contents (Elt F) := (R9.dat9 (rd (W31 m)) c).arrAt 3 cfg9.N
def W32 (c : Dev nD) : Valuation τ sig (Elt F) :=
  Function.update (Function.update (W31 m c) main_v122_0 (X32a m c)) main_v122_1 (X32b m c)

/-! ### No item up to the last region writes a table buffer -/

theorem W17_tab (c : Dev nD) (r : Ref sig .tc) (hr : r ∈ tabRefs) : W17 m c r = V16 m c r := by
  have h : ∀ r ∈ tabRefs, r ≠ main_v83 := by decide
  unfold W17; exact upd_of_ne _ _ _ r (h r hr)
theorem W18_tab (c : Dev nD) (r : Ref sig .tc) (hr : r ∈ tabRefs) : W18 m c r = V16 m c r := by
  have h : ∀ r ∈ tabRefs, r ≠ main_v84 := by decide
  unfold W18; exact (upd_of_ne _ _ _ r (h r hr)).trans (W17_tab m c r hr)
theorem W19_tab (c : Dev nD) (r : Ref sig .tc) (hr : r ∈ tabRefs) : W19 m c r = V16 m c r := by
  have h : ∀ r ∈ tabRefs, r ∉ hostOps2_W := by decide
  unfold W19; exact (StableHlo.after_of_writes_sub hostOps2 _ hostOps2_writes (h r hr)).trans (W18_tab m c r hr)
theorem W20_tab (c : Dev nD) (r : Ref sig .tc) (hr : r ∈ tabRefs) : W20 m c r = V16 m c r := by
  have h : ∀ r ∈ tabRefs, r ≠ main_v93 := by decide
  unfold W20; exact (upd_of_ne _ _ _ r (h r hr)).trans (W19_tab m c r hr)
theorem W21_tab (c : Dev nD) (r : Ref sig .tc) (hr : r ∈ tabRefs) : W21 m c r = V16 m c r := by
  have h : ∀ r ∈ tabRefs, r ∉ hostOps3_W := by decide
  unfold W21; exact (StableHlo.after_of_writes_sub hostOps3 _ hostOps3_writes (h r hr)).trans (W20_tab m c r hr)
theorem W22_tab (c : Dev nD) (r : Ref sig .tc) (hr : r ∈ tabRefs) : W22 m c r = V16 m c r := by
  have h : ∀ r ∈ tabRefs, r ≠ main_v96 := by decide
  unfold W22; exact (upd_of_ne _ _ _ r (h r hr)).trans (W21_tab m c r hr)
theorem W23_tab (c : Dev nD) (r : Ref sig .tc) (hr : r ∈ tabRefs) : W23 m c r = V16 m c r := by
  have h : ∀ r ∈ tabRefs, r ≠ main_v97 := by decide
  unfold W23; exact (upd_of_ne _ _ _ r (h r hr)).trans (W22_tab m c r hr)
theorem W24_tab (c : Dev nD) (r : Ref sig .tc) (hr : r ∈ tabRefs) : W24 m c r = V16 m c r := by
  have h : ∀ r ∈ tabRefs, r ∉ hostOps5_W := by decide
  unfold W24; exact (StableHlo.after_of_writes_sub hostOps5 _ hostOps5_writes (h r hr)).trans (W23_tab m c r hr)
theorem W25_tab (c : Dev nD) (r : Ref sig .tc) (hr : r ∈ tabRefs) : W25 m c r = V16 m c r := by
  have h : ∀ r ∈ tabRefs, r ≠ main_v106 := by decide
  unfold W25; exact (upd_of_ne _ _ _ r (h r hr)).trans (W24_tab m c r hr)
theorem W26_tab (c : Dev nD) (r : Ref sig .tc) (hr : r ∈ tabRefs) : W26 m c r = V16 m c r := by
  have h : ∀ r ∈ tabRefs, r ∉ hostOps6_W := by decide
  unfold W26; exact (StableHlo.after_of_writes_sub hostOps6 _ hostOps6_writes (h r hr)).trans (W25_tab m c r hr)
theorem W27_tab (c : Dev nD) (r : Ref sig .tc) (hr : r ∈ tabRefs) : W27 m c r = V16 m c r := by
  have h : ∀ r ∈ tabRefs, r ≠ main_v109 := by decide
  unfold W27; exact (upd_of_ne _ _ _ r (h r hr)).trans (W26_tab m c r hr)
theorem W28_tab (c : Dev nD) (r : Ref sig .tc) (hr : r ∈ tabRefs) : W28 m c r = V16 m c r := by
  have h : ∀ r ∈ tabRefs, r ≠ main_v110 := by decide
  unfold W28; exact (upd_of_ne _ _ _ r (h r hr)).trans (W27_tab m c r hr)
theorem W29_tab (c : Dev nD) (r : Ref sig .tc) (hr : r ∈ tabRefs) : W29 m c r = V16 m c r := by
  have h : ∀ r ∈ tabRefs, r ∉ hostOps8_W := by decide
  unfold W29; exact (StableHlo.after_of_writes_sub hostOps8 _ hostOps8_writes (h r hr)).trans (W28_tab m c r hr)

/-- The tables a region entered at a valuation that still has the table buffers as the first region found them. -/
theorem tabG_of (W : Dev nD → Valuation τ sig (Elt F)) (hW : ∀ c (r : Ref sig .tc), r ∈ tabRefs → W c r = V16 m c r) (c : Dev nD) :
    tabG m = fun k => W c (pre1.ref k) := by
  funext k
  rw [tabG_apply, hW c _ (pre1_mem k), Subsingleton.elim c 0]
theorem tabS_of (W : Dev nD → Valuation τ sig (Elt F)) (hW : ∀ c (r : Ref sig .tc), r ∈ tabRefs → W c r = V16 m c r) (c : Dev nD) :
    tabS m = fun k => W c (pre2.ref k) := by
  funext k
  rw [tabS_apply, hW c _ (pre2_mem k), Subsingleton.elim c 0]

/-! ### The unknowns, and the generated valuations at them -/

/-- What the regions leave: after item J−1 every buffer holds what `W J` says (read only at the regions' outputs). -/
def outs : Outs (F := F) := fun J r c =>
  match J with
  | 17 => W17 m c r
  | 18 => W18 m c r
  | 20 => W20 m c r
  | 22 => W22 m c r
  | 23 => W23 m c r
  | 25 => W25 m c r
  | 27 => W27 m c r
  | 28 => W28 m c r
  | 30 => W30 m c r
  | 32 => W32 m c r
  | _ => m ((c : Thread nD τ).loc r)

theorem V17_eq (c : Dev nD) : V17 m (outs m) c = W17 m c := by
  show Function.update (V16 m c) main_v83 (W17 m c main_v83) = W17 m c
  unfold W17; rw [upd_out]
theorem V18_eq (c : Dev nD) : V18 m (outs m) c = W18 m c := by
  show Function.update (V17 m (outs m) c) main_v84 (W18 m c main_v84) = W18 m c
  rw [V17_eq]; unfold W18; rw [upd_out]
theorem V19_eq (c : Dev nD) : V19 m (outs m) c = W19 m c := by
  show StableHlo.after hostOps2 (V18 m (outs m) c) = W19 m c
  rw [V18_eq]; rfl
theorem V20_eq (c : Dev nD) : V20 m (outs m) c = W20 m c := by
  show Function.update (V19 m (outs m) c) main_v93 (W20 m c main_v93) = W20 m c
  rw [V19_eq]; unfold W20; rw [upd_out]
theorem V21_eq (c : Dev nD) : V21 m (outs m) c = W21 m c := by
  show StableHlo.after hostOps3 (V20 m (outs m) c) = W21 m c
  rw [V20_eq]; rfl
theorem V22_eq (c : Dev nD) : V22 m (outs m) c = W22 m c := by
  show Function.update (V21 m (outs m) c) main_v96 (W22 m c main_v96) = W22 m c
  rw [V21_eq]; unfold W22; rw [upd_out]
theorem V23_eq (c : Dev nD) : V23 m (outs m) c = W23 m c := by
  show Function.update (V22 m (outs m) c) main_v97 (W23 m c main_v97) = W23 m c
  rw [V22_eq]; unfold W23; rw [upd_out]
theorem V24_eq (c : Dev nD) : V24 m (outs m) c = W24 m c := by
  show StableHlo.after hostOps5 (V23 m (outs m) c) = W24 m c
  rw [V23_eq]; rfl
theorem V25_eq (c : Dev nD) : V25 m (outs m) c = W25 m c := by
  show Function.update (V24 m (outs m) c) main_v106 (W25 m c main_v106) = W25 m c
  rw [V24_eq]; unfold W25; rw [upd_out]
theorem V26_eq (c : Dev nD) : V26 m (outs m) c = W26 m c := by
  show StableHlo.after hostOps6 (V25 m (outs m) c) = W26 m c
  rw [V25_eq]; rfl
theorem V27_eq (c : Dev nD) : V27 m (outs m) c = W27 m c := by
  show Function.update (V26 m (outs m) c) main_v109 (W27 m c main_v109) = W27 m c
  rw [V26_eq]; unfold W27; rw [upd_out]
theorem V28_eq (c : Dev nD) : V28 m (outs m) c = W28 m c := by
  show Function.update (V27 m (outs m) c) main_v110 (W28 m c main_v110) = W28 m c
  rw [V27_eq]; unfold W28; rw [upd_out]
theorem V29_eq (c : Dev nD) : V29 m (outs m) c = W29 m c := by
  show StableHlo.after hostOps8 (V28 m (outs m) c) = W29 m c
  rw [V28_eq]; rfl
theorem V30_eq (c : Dev nD) : V30 m (outs m) c = W30 m c := by
  show Function.update (V29 m (outs m) c) main_v119 (W30 m c main_v119) = W30 m c
  rw [V29_eq]; unfold W30; rw [upd_out]
theorem V31_eq (c : Dev nD) : V31 m (outs m) c = W31 m c := by
  show StableHlo.after hostOps9 (V30 m (outs m) c) = W31 m c
  rw [V30_eq]; rfl
theorem V32_eq (c : Dev nD) : V32 m (outs m) c = W32 m c := by
  show Function.update (Function.update (V31 m (outs m) c) main_v122_0 (W32 m c main_v122_0)) main_v122_1 (W32 m c main_v122_1) = W32 m c
  rw [V31_eq]; unfold W32; rw [upd_out, upd_of_ne _ _ _ main_v122_0 (by decide), upd_out]

/-! ### What each region leaves, over the valuations with the unknowns in place

Each region's exit contents are the folded write-backs of its own proof data at its entry valuation; the entry
valuation with the unknowns read at `outs` is the one without them (`V<j>_eq`). -/

theorem outs_17 (c : Dev nD) : outs m 17 main_v83 c = (R0.dat0 (rd (V16 m)) c).arrAt 2 cfg0.N := by
  show W17 m c main_v83 = _
  unfold W17; rw [upd_out]; unfold X17
  rfl
theorem outs_18 (c : Dev nD) : outs m 18 main_v84 c = (R1.dat1 (rd (V17 m (outs m))) (adm1 m) c).arrAt 3 (cfg1 (adm1 m)).N := by
  show W18 m c main_v84 = _
  unfold W18; rw [upd_out]; unfold X18
  exact congrArg (fun W : Dev nD → Valuation τ sig (Elt F) => (R1.dat1 (rd W) (adm1 m) c).arrAt 3 (cfg1 (adm1 m)).N) (funext fun c => (V17_eq m c).symm)
theorem outs_20 (c : Dev nD) : outs m 20 main_v93 c = (R2.dat2 (rd (V19 m (outs m))) (adm2 m) c).arrAt 5 (cfg2 (adm2 m)).N := by
  show W20 m c main_v93 = _
  unfold W20; rw [upd_out]; unfold X20
  exact congrArg (fun W : Dev nD → Valuation τ sig (Elt F) => (R2.dat2 (rd W) (adm2 m) c).arrAt 5 (cfg2 (adm2 m)).N) (funext fun c => (V19_eq m c).symm)
theorem outs_22 (c : Dev nD) : outs m 22 main_v96 c = (R3.dat3 (rd (V21 m (outs m))) c).arrAt 2 cfg3.N := by
  show W22 m c main_v96 = _
  unfold W22; rw [upd_out]; unfold X22
  exact congrArg (fun W : Dev nD → Valuation τ sig (Elt F) => (R3.dat3 (rd W) c).arrAt 2 cfg3.N) (funext fun c => (V21_eq m c).symm)
theorem outs_23 (c : Dev nD) : outs m 23 main_v97 c = (R4.dat4 (rd (V22 m (outs m))) (adm4 m) c).arrAt 3 (cfg4 (adm4 m)).N := by
  show W23 m c main_v97 = _
  unfold W23; rw [upd_out]; unfold X23
  exact congrArg (fun W : Dev nD → Valuation τ sig (Elt F) => (R4.dat4 (rd W) (adm4 m) c).arrAt 3 (cfg4 (adm4 m)).N) (funext fun c => (V22_eq m c).symm)
theorem outs_25 (c : Dev nD) : outs m 25 main_v106 c = (R5.dat5 (rd (V24 m (outs m))) (adm5 m) c).arrAt 5 (cfg5 (adm5 m)).N := by
  show W25 m c main_v106 = _
  unfold W25; rw [upd_out]; unfold X25
  exact congrArg (fun W : Dev nD → Valuation τ sig (Elt F) => (R5.dat5 (rd W) (adm5 m) c).arrAt 5 (cfg5 (adm5 m)).N) (funext fun c => (V24_eq m c).symm)
theorem outs_27 (c : Dev nD) : outs m 27 main_v109 c = (R6.dat6 (rd (V26 m (outs m))) c).arrAt 2 cfg6.N := by
  show W27 m c main_v109 = _
  unfold W27; rw [upd_out]; unfold X27
  exact congrArg (fun W : Dev nD → Valuation τ sig (Elt F) => (R6.dat6 (rd W) c).arrAt 2 cfg6.N) (funext fun c => (V26_eq m c).symm)
theorem outs_28 (c : Dev nD) : outs m 28 main_v110 c = (R7.dat7 (rd (V27 m (outs m))) (adm7 m) c).arrAt 3 (cfg7 (adm7 m)).N := by
  show W28 m c main_v110 = _
  unfold W28; rw [upd_out]; unfold X28
  exact congrArg (fun W : Dev nD → Valuation τ sig (Elt F) => (R7.dat7 (rd W) (adm7 m) c).arrAt 3 (cfg7 (adm7 m)).N) (funext fun c => (V27_eq m c).symm)
theorem outs_30 (c : Dev nD) : outs m 30 main_v119 c = (R8.dat8 (rd (V29 m (outs m))) (adm8 m) c).arrAt 5 (cfg8 (adm8 m)).N := by
  show W30 m c main_v119 = _
  unfold W30; rw [upd_out]; unfold X30
  exact congrArg (fun W : Dev nD → Valuation τ sig (Elt F) => (R8.dat8 (rd W) (adm8 m) c).arrAt 5 (cfg8 (adm8 m)).N) (funext fun c => (V29_eq m c).symm)
theorem outs_32a (c : Dev nD) : outs m 32 main_v122_0 c = (R9.dat9 (rd (V31 m (outs m))) c).arrAt 2 cfg9.N := by
  show W32 m c main_v122_0 = _
  unfold W32; rw [upd_of_ne _ _ _ main_v122_0 (by decide), upd_out]; unfold X32a
  exact congrArg (fun W : Dev nD → Valuation τ sig (Elt F) => (R9.dat9 (rd W) c).arrAt 2 cfg9.N) (funext fun c => (V31_eq m c).symm)
theorem outs_32b (c : Dev nD) : outs m 32 main_v122_1 c = (R9.dat9 (rd (V31 m (outs m))) c).arrAt 3 cfg9.N := by
  show W32 m c main_v122_1 = _
  unfold W32; rw [upd_out]; unfold X32b
  exact congrArg (fun W : Dev nD → Valuation τ sig (Elt F) => (R9.dat9 (rd W) c).arrAt 3 cfg9.N) (funext fun c => (V31_eq m c).symm)

/-! ## The proof data family -/

/-- Every pipeline's proof data, each at its region's entry valuation: a literal `match`, so that
    `Pipeline.pin pcfgs (adm m) p` at a numeral reduces to the printed configuration. -/
def pdats : (p : Fin 10) → (c : Dev nD) → Dat τ (Elt F) Unit ℕ (UR sig nD τ) ℕ (Pipeline.pin (pcfgs (F := F)) (adm m) p) c
  | ⟨0, _⟩ => fun c => R0.dat0 (rd (V16 m)) c
  | ⟨1, _⟩ => fun c => R1.dat1 (rd (W17 m)) (adm1 m) c
  | ⟨2, _⟩ => fun c => R2.dat2 (rd (W19 m)) (adm2 m) c
  | ⟨3, _⟩ => fun c => R3.dat3 (rd (W21 m)) c
  | ⟨4, _⟩ => fun c => R4.dat4 (rd (W22 m)) (adm4 m) c
  | ⟨5, _⟩ => fun c => R5.dat5 (rd (W24 m)) (adm5 m) c
  | ⟨6, _⟩ => fun c => R6.dat6 (rd (W26 m)) c
  | ⟨7, _⟩ => fun c => R7.dat7 (rd (W27 m)) (adm7 m) c
  | ⟨8, _⟩ => fun c => R8.dat8 (rd (W29 m)) (adm8 m) c
  | ⟨9, _⟩ => fun c => R9.dat9 (rd (W31 m)) c

/-! ## Each region's entry contents are read off the valuation it is entered at -/

theorem dat0_A (V : (c : Dev nD) → (b : Ref sig .tc) → Buf (Elt F) ((c : Thread nD τ).loc b)) (c : Dev nD) (w) :
    (R0.dat0 V c).A w = V c (Pipeline.arrRef spec0 w) := rfl
theorem dat1_A (V : (c : Dev nD) → (b : Ref sig .tc) → Buf (Elt F) ((c : Thread nD τ).loc b)) (a : (pcfg1 (F := F)).Adm) (c : Dev nD) (w) :
    (R1.dat1 V a c).A w = V c (Pipeline.arrRef spec1 w) := rfl
theorem dat2_A (V : (c : Dev nD) → (b : Ref sig .tc) → Buf (Elt F) ((c : Thread nD τ).loc b)) (a : (pcfg2 (F := F)).Adm) (c : Dev nD) (w) :
    (R2.dat2 V a c).A w = V c (Pipeline.arrRef spec2 w) := rfl
theorem dat3_A (V : (c : Dev nD) → (b : Ref sig .tc) → Buf (Elt F) ((c : Thread nD τ).loc b)) (c : Dev nD) (w) :
    (R3.dat3 V c).A w = V c (Pipeline.arrRef spec3 w) := rfl
theorem dat4_A (V : (c : Dev nD) → (b : Ref sig .tc) → Buf (Elt F) ((c : Thread nD τ).loc b)) (a : (pcfg4 (F := F)).Adm) (c : Dev nD) (w) :
    (R4.dat4 V a c).A w = V c (Pipeline.arrRef spec4 w) := rfl
theorem dat5_A (V : (c : Dev nD) → (b : Ref sig .tc) → Buf (Elt F) ((c : Thread nD τ).loc b)) (a : (pcfg5 (F := F)).Adm) (c : Dev nD) (w) :
    (R5.dat5 V a c).A w = V c (Pipeline.arrRef spec5 w) := rfl
theorem dat6_A (V : (c : Dev nD) → (b : Ref sig .tc) → Buf (Elt F) ((c : Thread nD τ).loc b)) (c : Dev nD) (w) :
    (R6.dat6 V c).A w = V c (Pipeline.arrRef spec6 w) := rfl
theorem dat7_A (V : (c : Dev nD) → (b : Ref sig .tc) → Buf (Elt F) ((c : Thread nD τ).loc b)) (a : (pcfg7 (F := F)).Adm) (c : Dev nD) (w) :
    (R7.dat7 V a c).A w = V c (Pipeline.arrRef spec7 w) := rfl
theorem dat8_A (V : (c : Dev nD) → (b : Ref sig .tc) → Buf (Elt F) ((c : Thread nD τ).loc b)) (a : (pcfg8 (F := F)).Adm) (c : Dev nD) (w) :
    (R8.dat8 V a c).A w = V c (Pipeline.arrRef spec8 w) := rfl
theorem dat9_A (V : (c : Dev nD) → (b : Ref sig .tc) → Buf (Elt F) ((c : Thread nD τ).loc b)) (c : Dev nD) (w) :
    (R9.dat9 V c).A w = V c (Pipeline.arrRef spec9 w) := rfl

/-! ## Each region's exit: its arrays at what the pipeline leaves, every other buffer as entered

An input window's array is never written back (`Dat.arrAt_in`), so it holds what it held at entry, which the exit
valuation keeps because the windows' arrays are pairwise distinct buffers (`WinFacts.arr_inj`); the output window's array
holds the folded write-backs, which is what the exit valuation was updated to. -/

theorem hF0 (c : Dev nD) : ∀ w : Fin 3, (R0.dat0 (rd (V16 m)) c).arrAt w cfg0.N = W17 m c (Pipeline.arrRef spec0 w)
  | 0 => by rw [(R0.dat0 (rd (V16 m)) c).arrAt_in 0 rfl, dat0_A]; unfold W17; exact (upd_of_ne _ main_v83 _ (Pipeline.arrRef spec0 0) (fun e => absurd (winFacts0.arr_inj (a₁ := 0) (a₂ := 2) e) (by decide))).symm
  | 1 => by rw [(R0.dat0 (rd (V16 m)) c).arrAt_in 1 rfl, dat0_A]; unfold W17; exact (upd_of_ne _ main_v83 _ (Pipeline.arrRef spec0 1) (fun e => absurd (winFacts0.arr_inj (a₁ := 1) (a₂ := 2) e) (by decide))).symm
  | 2 => by unfold W17; exact (upd_out _ main_v83 _).symm
  | ⟨_ + 3, h⟩ => absurd h (Nat.not_lt.2 (Nat.le_add_left _ _))
theorem hrest0 (c : Dev nD) (b : Ref sig .tc) (hb : b ∉ Finset.univ.image (Pipeline.arrRef spec0)) : W17 m c b = V16 m c b := by
  unfold W17
  exact upd_of_ne _ main_v83 _ b fun e => hb (by rw [e]; exact Finset.mem_image.mpr ⟨2, Finset.mem_univ _, rfl⟩)

theorem hF1 (c : Dev nD) : ∀ w : Fin 4, (R1.dat1 (rd (W17 m)) (adm1 m) c).arrAt w (cfg1 (adm1 m)).N = W18 m c (Pipeline.arrRef spec1 w)
  | 0 => by rw [(R1.dat1 (rd (W17 m)) (adm1 m) c).arrAt_in 0 rfl, dat1_A]; unfold W18; exact (upd_of_ne _ main_v84 _ (Pipeline.arrRef spec1 0) (fun e => absurd (winFacts1.arr_inj (a₁ := 0) (a₂ := 3) e) (by decide))).symm
  | 1 => by rw [(R1.dat1 (rd (W17 m)) (adm1 m) c).arrAt_in 1 rfl, dat1_A]; unfold W18; exact (upd_of_ne _ main_v84 _ (Pipeline.arrRef spec1 1) (fun e => absurd (winFacts1.arr_inj (a₁ := 1) (a₂ := 3) e) (by decide))).symm
  | 2 => by rw [(R1.dat1 (rd (W17 m)) (adm1 m) c).arrAt_in 2 rfl, dat1_A]; unfold W18; exact (upd_of_ne _ main_v84 _ (Pipeline.arrRef spec1 2) (fun e => absurd (winFacts1.arr_inj (a₁ := 2) (a₂ := 3) e) (by decide))).symm
  | 3 => by unfold W18; exact (upd_out _ main_v84 _).symm
  | ⟨_ + 4, h⟩ => absurd h (Nat.not_lt.2 (Nat.le_add_left _ _))
theorem hrest1 (c : Dev nD) (b : Ref sig .tc) (hb : b ∉ Finset.univ.image (Pipeline.arrRef spec1)) : W18 m c b = W17 m c b := by
  unfold W18
  exact upd_of_ne _ main_v84 _ b fun e => hb (by rw [e]; exact Finset.mem_image.mpr ⟨3, Finset.mem_univ _, rfl⟩)

theorem hF2 (c : Dev nD) : ∀ w : Fin 6, (R2.dat2 (rd (W19 m)) (adm2 m) c).arrAt w (cfg2 (adm2 m)).N = W20 m c (Pipeline.arrRef spec2 w)
  | 0 => by rw [(R2.dat2 (rd (W19 m)) (adm2 m) c).arrAt_in 0 rfl, dat2_A]; unfold W20; exact (upd_of_ne _ main_v93 _ (Pipeline.arrRef spec2 0) (fun e => absurd (winFacts2.arr_inj (a₁ := 0) (a₂ := 5) e) (by decide))).symm
  | 1 => by rw [(R2.dat2 (rd (W19 m)) (adm2 m) c).arrAt_in 1 rfl, dat2_A]; unfold W20; exact (upd_of_ne _ main_v93 _ (Pipeline.arrRef spec2 1) (fun e => absurd (winFacts2.arr_inj (a₁ := 1) (a₂ := 5) e) (by decide))).symm
  | 2 => by rw [(R2.dat2 (rd (W19 m)) (adm2 m) c).arrAt_in 2 rfl, dat2_A]; unfold W20; exact (upd_of_ne _ main_v93 _ (Pipeline.arrRef spec2 2) (fun e => absurd (winFacts2.arr_inj (a₁ := 2) (a₂ := 5) e) (by decide))).symm
  | 3 => by rw [(R2.dat2 (rd (W19 m)) (adm2 m) c).arrAt_in 3 rfl, dat2_A]; unfold W20; exact (upd_of_ne _ main_v93 _ (Pipeline.arrRef spec2 3) (fun e => absurd (winFacts2.arr_inj (a₁ := 3) (a₂ := 5) e) (by decide))).symm
  | 4 => by rw [(R2.dat2 (rd (W19 m)) (adm2 m) c).arrAt_in 4 rfl, dat2_A]; unfold W20; exact (upd_of_ne _ main_v93 _ (Pipeline.arrRef spec2 4) (fun e => absurd (winFacts2.arr_inj (a₁ := 4) (a₂ := 5) e) (by decide))).symm
  | 5 => by unfold W20; exact (upd_out _ main_v93 _).symm
  | ⟨_ + 6, h⟩ => absurd h (Nat.not_lt.2 (Nat.le_add_left _ _))
theorem hrest2 (c : Dev nD) (b : Ref sig .tc) (hb : b ∉ Finset.univ.image (Pipeline.arrRef spec2)) : W20 m c b = W19 m c b := by
  unfold W20
  exact upd_of_ne _ main_v93 _ b fun e => hb (by rw [e]; exact Finset.mem_image.mpr ⟨5, Finset.mem_univ _, rfl⟩)

theorem hF3 (c : Dev nD) : ∀ w : Fin 3, (R3.dat3 (rd (W21 m)) c).arrAt w cfg3.N = W22 m c (Pipeline.arrRef spec3 w)
  | 0 => by rw [(R3.dat3 (rd (W21 m)) c).arrAt_in 0 rfl, dat3_A]; unfold W22; exact (upd_of_ne _ main_v96 _ (Pipeline.arrRef spec3 0) (fun e => absurd (winFacts3.arr_inj (a₁ := 0) (a₂ := 2) e) (by decide))).symm
  | 1 => by rw [(R3.dat3 (rd (W21 m)) c).arrAt_in 1 rfl, dat3_A]; unfold W22; exact (upd_of_ne _ main_v96 _ (Pipeline.arrRef spec3 1) (fun e => absurd (winFacts3.arr_inj (a₁ := 1) (a₂ := 2) e) (by decide))).symm
  | 2 => by unfold W22; exact (upd_out _ main_v96 _).symm
  | ⟨_ + 3, h⟩ => absurd h (Nat.not_lt.2 (Nat.le_add_left _ _))
theorem hrest3 (c : Dev nD) (b : Ref sig .tc) (hb : b ∉ Finset.univ.image (Pipeline.arrRef spec3)) : W22 m c b = W21 m c b := by
  unfold W22
  exact upd_of_ne _ main_v96 _ b fun e => hb (by rw [e]; exact Finset.mem_image.mpr ⟨2, Finset.mem_univ _, rfl⟩)

theorem hF4 (c : Dev nD) : ∀ w : Fin 4, (R4.dat4 (rd (W22 m)) (adm4 m) c).arrAt w (cfg4 (adm4 m)).N = W23 m c (Pipeline.arrRef spec4 w)
  | 0 => by rw [(R4.dat4 (rd (W22 m)) (adm4 m) c).arrAt_in 0 rfl, dat4_A]; unfold W23; exact (upd_of_ne _ main_v97 _ (Pipeline.arrRef spec4 0) (fun e => absurd (winFacts4.arr_inj (a₁ := 0) (a₂ := 3) e) (by decide))).symm
  | 1 => by rw [(R4.dat4 (rd (W22 m)) (adm4 m) c).arrAt_in 1 rfl, dat4_A]; unfold W23; exact (upd_of_ne _ main_v97 _ (Pipeline.arrRef spec4 1) (fun e => absurd (winFacts4.arr_inj (a₁ := 1) (a₂ := 3) e) (by decide))).symm
  | 2 => by rw [(R4.dat4 (rd (W22 m)) (adm4 m) c).arrAt_in 2 rfl, dat4_A]; unfold W23; exact (upd_of_ne _ main_v97 _ (Pipeline.arrRef spec4 2) (fun e => absurd (winFacts4.arr_inj (a₁ := 2) (a₂ := 3) e) (by decide))).symm
  | 3 => by unfold W23; exact (upd_out _ main_v97 _).symm
  | ⟨_ + 4, h⟩ => absurd h (Nat.not_lt.2 (Nat.le_add_left _ _))
theorem hrest4 (c : Dev nD) (b : Ref sig .tc) (hb : b ∉ Finset.univ.image (Pipeline.arrRef spec4)) : W23 m c b = W22 m c b := by
  unfold W23
  exact upd_of_ne _ main_v97 _ b fun e => hb (by rw [e]; exact Finset.mem_image.mpr ⟨3, Finset.mem_univ _, rfl⟩)

theorem hF5 (c : Dev nD) : ∀ w : Fin 6, (R5.dat5 (rd (W24 m)) (adm5 m) c).arrAt w (cfg5 (adm5 m)).N = W25 m c (Pipeline.arrRef spec5 w)
  | 0 => by rw [(R5.dat5 (rd (W24 m)) (adm5 m) c).arrAt_in 0 rfl, dat5_A]; unfold W25; exact (upd_of_ne _ main_v106 _ (Pipeline.arrRef spec5 0) (fun e => absurd (winFacts5.arr_inj (a₁ := 0) (a₂ := 5) e) (by decide))).symm
  | 1 => by rw [(R5.dat5 (rd (W24 m)) (adm5 m) c).arrAt_in 1 rfl, dat5_A]; unfold W25; exact (upd_of_ne _ main_v106 _ (Pipeline.arrRef spec5 1) (fun e => absurd (winFacts5.arr_inj (a₁ := 1) (a₂ := 5) e) (by decide))).symm
  | 2 => by rw [(R5.dat5 (rd (W24 m)) (adm5 m) c).arrAt_in 2 rfl, dat5_A]; unfold W25; exact (upd_of_ne _ main_v106 _ (Pipeline.arrRef spec5 2) (fun e => absurd (winFacts5.arr_inj (a₁ := 2) (a₂ := 5) e) (by decide))).symm
  | 3 => by rw [(R5.dat5 (rd (W24 m)) (adm5 m) c).arrAt_in 3 rfl, dat5_A]; unfold W25; exact (upd_of_ne _ main_v106 _ (Pipeline.arrRef spec5 3) (fun e => absurd (winFacts5.arr_inj (a₁ := 3) (a₂ := 5) e) (by decide))).symm
  | 4 => by rw [(R5.dat5 (rd (W24 m)) (adm5 m) c).arrAt_in 4 rfl, dat5_A]; unfold W25; exact (upd_of_ne _ main_v106 _ (Pipeline.arrRef spec5 4) (fun e => absurd (winFacts5.arr_inj (a₁ := 4) (a₂ := 5) e) (by decide))).symm
  | 5 => by unfold W25; exact (upd_out _ main_v106 _).symm
  | ⟨_ + 6, h⟩ => absurd h (Nat.not_lt.2 (Nat.le_add_left _ _))
theorem hrest5 (c : Dev nD) (b : Ref sig .tc) (hb : b ∉ Finset.univ.image (Pipeline.arrRef spec5)) : W25 m c b = W24 m c b := by
  unfold W25
  exact upd_of_ne _ main_v106 _ b fun e => hb (by rw [e]; exact Finset.mem_image.mpr ⟨5, Finset.mem_univ _, rfl⟩)

theorem hF6 (c : Dev nD) : ∀ w : Fin 3, (R6.dat6 (rd (W26 m)) c).arrAt w cfg6.N = W27 m c (Pipeline.arrRef spec6 w)
  | 0 => by rw [(R6.dat6 (rd (W26 m)) c).arrAt_in 0 rfl, dat6_A]; unfold W27; exact (upd_of_ne _ main_v109 _ (Pipeline.arrRef spec6 0) (fun e => absurd (winFacts6.arr_inj (a₁ := 0) (a₂ := 2) e) (by decide))).symm
  | 1 => by rw [(R6.dat6 (rd (W26 m)) c).arrAt_in 1 rfl, dat6_A]; unfold W27; exact (upd_of_ne _ main_v109 _ (Pipeline.arrRef spec6 1) (fun e => absurd (winFacts6.arr_inj (a₁ := 1) (a₂ := 2) e) (by decide))).symm
  | 2 => by unfold W27; exact (upd_out _ main_v109 _).symm
  | ⟨_ + 3, h⟩ => absurd h (Nat.not_lt.2 (Nat.le_add_left _ _))
theorem hrest6 (c : Dev nD) (b : Ref sig .tc) (hb : b ∉ Finset.univ.image (Pipeline.arrRef spec6)) : W27 m c b = W26 m c b := by
  unfold W27
  exact upd_of_ne _ main_v109 _ b fun e => hb (by rw [e]; exact Finset.mem_image.mpr ⟨2, Finset.mem_univ _, rfl⟩)

theorem hF7 (c : Dev nD) : ∀ w : Fin 4, (R7.dat7 (rd (W27 m)) (adm7 m) c).arrAt w (cfg7 (adm7 m)).N = W28 m c (Pipeline.arrRef spec7 w)
  | 0 => by rw [(R7.dat7 (rd (W27 m)) (adm7 m) c).arrAt_in 0 rfl, dat7_A]; unfold W28; exact (upd_of_ne _ main_v110 _ (Pipeline.arrRef spec7 0) (fun e => absurd (winFacts7.arr_inj (a₁ := 0) (a₂ := 3) e) (by decide))).symm
  | 1 => by rw [(R7.dat7 (rd (W27 m)) (adm7 m) c).arrAt_in 1 rfl, dat7_A]; unfold W28; exact (upd_of_ne _ main_v110 _ (Pipeline.arrRef spec7 1) (fun e => absurd (winFacts7.arr_inj (a₁ := 1) (a₂ := 3) e) (by decide))).symm
  | 2 => by rw [(R7.dat7 (rd (W27 m)) (adm7 m) c).arrAt_in 2 rfl, dat7_A]; unfold W28; exact (upd_of_ne _ main_v110 _ (Pipeline.arrRef spec7 2) (fun e => absurd (winFacts7.arr_inj (a₁ := 2) (a₂ := 3) e) (by decide))).symm
  | 3 => by unfold W28; exact (upd_out _ main_v110 _).symm
  | ⟨_ + 4, h⟩ => absurd h (Nat.not_lt.2 (Nat.le_add_left _ _))
theorem hrest7 (c : Dev nD) (b : Ref sig .tc) (hb : b ∉ Finset.univ.image (Pipeline.arrRef spec7)) : W28 m c b = W27 m c b := by
  unfold W28
  exact upd_of_ne _ main_v110 _ b fun e => hb (by rw [e]; exact Finset.mem_image.mpr ⟨3, Finset.mem_univ _, rfl⟩)

theorem hF8 (c : Dev nD) : ∀ w : Fin 6, (R8.dat8 (rd (W29 m)) (adm8 m) c).arrAt w (cfg8 (adm8 m)).N = W30 m c (Pipeline.arrRef spec8 w)
  | 0 => by rw [(R8.dat8 (rd (W29 m)) (adm8 m) c).arrAt_in 0 rfl, dat8_A]; unfold W30; exact (upd_of_ne _ main_v119 _ (Pipeline.arrRef spec8 0) (fun e => absurd (winFacts8.arr_inj (a₁ := 0) (a₂ := 5) e) (by decide))).symm
  | 1 => by rw [(R8.dat8 (rd (W29 m)) (adm8 m) c).arrAt_in 1 rfl, dat8_A]; unfold W30; exact (upd_of_ne _ main_v119 _ (Pipeline.arrRef spec8 1) (fun e => absurd (winFacts8.arr_inj (a₁ := 1) (a₂ := 5) e) (by decide))).symm
  | 2 => by rw [(R8.dat8 (rd (W29 m)) (adm8 m) c).arrAt_in 2 rfl, dat8_A]; unfold W30; exact (upd_of_ne _ main_v119 _ (Pipeline.arrRef spec8 2) (fun e => absurd (winFacts8.arr_inj (a₁ := 2) (a₂ := 5) e) (by decide))).symm
  | 3 => by rw [(R8.dat8 (rd (W29 m)) (adm8 m) c).arrAt_in 3 rfl, dat8_A]; unfold W30; exact (upd_of_ne _ main_v119 _ (Pipeline.arrRef spec8 3) (fun e => absurd (winFacts8.arr_inj (a₁ := 3) (a₂ := 5) e) (by decide))).symm
  | 4 => by rw [(R8.dat8 (rd (W29 m)) (adm8 m) c).arrAt_in 4 rfl, dat8_A]; unfold W30; exact (upd_of_ne _ main_v119 _ (Pipeline.arrRef spec8 4) (fun e => absurd (winFacts8.arr_inj (a₁ := 4) (a₂ := 5) e) (by decide))).symm
  | 5 => by unfold W30; exact (upd_out _ main_v119 _).symm
  | ⟨_ + 6, h⟩ => absurd h (Nat.not_lt.2 (Nat.le_add_left _ _))
theorem hrest8 (c : Dev nD) (b : Ref sig .tc) (hb : b ∉ Finset.univ.image (Pipeline.arrRef spec8)) : W30 m c b = W29 m c b := by
  unfold W30
  exact upd_of_ne _ main_v119 _ b fun e => hb (by rw [e]; exact Finset.mem_image.mpr ⟨5, Finset.mem_univ _, rfl⟩)

theorem hF9 (c : Dev nD) : ∀ w : Fin 4, (R9.dat9 (rd (W31 m)) c).arrAt w cfg9.N = W32 m c (Pipeline.arrRef spec9 w)
  | 0 => by
    rw [(R9.dat9 (rd (W31 m)) c).arrAt_in 0 rfl, dat9_A]; unfold W32
    exact ((upd_of_ne _ main_v122_1 _ (Pipeline.arrRef spec9 0) (fun e => absurd (winFacts9.arr_inj (a₁ := 0) (a₂ := 3) e) (by decide))).trans (upd_of_ne _ main_v122_0 _ (Pipeline.arrRef spec9 0) (fun e => absurd (winFacts9.arr_inj (a₁ := 0) (a₂ := 2) e) (by decide)))).symm
  | 1 => by
    rw [(R9.dat9 (rd (W31 m)) c).arrAt_in 1 rfl, dat9_A]; unfold W32
    exact ((upd_of_ne _ main_v122_1 _ (Pipeline.arrRef spec9 1) (fun e => absurd (winFacts9.arr_inj (a₁ := 1) (a₂ := 3) e) (by decide))).trans (upd_of_ne _ main_v122_0 _ (Pipeline.arrRef spec9 1) (fun e => absurd (winFacts9.arr_inj (a₁ := 1) (a₂ := 2) e) (by decide)))).symm
  | 2 => by
    unfold W32
    rw [upd_of_ne _ main_v122_1 _ (Pipeline.arrRef spec9 2) (fun e => absurd (winFacts9.arr_inj (a₁ := 2) (a₂ := 3) e) (by decide))]; exact (upd_out _ main_v122_0 _).symm
  | 3 => by unfold W32; exact (upd_out _ main_v122_1 _).symm
  | ⟨_ + 4, h⟩ => absurd h (Nat.not_lt.2 (Nat.le_add_left _ _))
theorem hrest9 (c : Dev nD) (b : Ref sig .tc) (hb : b ∉ Finset.univ.image (Pipeline.arrRef spec9)) : W32 m c b = W31 m c b := by
  unfold W32
  rw [upd_of_ne _ main_v122_1 _ b fun e => hb (by rw [e]; exact Finset.mem_image.mpr ⟨3, Finset.mem_univ _, rfl⟩),
    upd_of_ne _ main_v122_0 _ b fun e => hb (by rw [e]; exact Finset.mem_image.mpr ⟨2, Finset.mem_univ _, rfl⟩)]

/-! ## The regions as segments -/

set_option backward.isDefEq.respectTransparency.types false in
/-- Region 0 (custom_call 0), no prefetched table: the class invariant takes the generator register and the scoped rest. -/
def reg0 : Pipeline.RegionSeg (pcfgs (F := F)) (adm m) (pdats m) () defs₀ 𝒱₀ L lv 0 :=
  regionSeg (adm m) (pdats m) 0 launch0 (V16 m) (W17 m)
    (fun c w => dat0_A (rd (V16 m)) c w) (fun _ _ => rfl) (fun _ _ => rfl) (fun _ => rfl)
    (fun c => (R0.body_obligation0 (rd (V16 m)) c).loose)
    (fun _ => funext fun k => k.elim0)
    (fun c => hinA spec0 c _) (fun c => houtA spec0 c _)
    (hF0 m) (hrest0 m)

set_option backward.isDefEq.respectTransparency.types false in
/-- Region 1 (custom_call 1): its two tables are among the unscoped buffers, unchanged since the first region. -/
def reg1 : Pipeline.RegionSeg (pcfgs (F := F)) (adm m) (pdats m) () defs₀ 𝒱₀ L lv 1 :=
  regionSeg (adm m) (pdats m) 1 launch1 (W17 m) (W18 m)
    (fun c w => dat1_A (rd (W17 m)) (adm1 m) c w) (fun _ _ => rfl) (fun _ _ => rfl) (fun _ => rfl)
    (fun c => (R1.body_obligation1 (rd (W17 m)) (adm1 m) c).loose)
    (fun c => tabG_of m (W17 m) (W17_tab m) c)
    (fun c => R1.hin1 (rd (W17 m)) (adm1 m) c) (fun c => R1.hout1 (rd (W17 m)) (adm1 m) c)
    (hF1 m) (hrest1 m)

set_option backward.isDefEq.respectTransparency.types false in
/-- Region 2 (custom_call 2): its two tables are among the unscoped buffers, unchanged since the first region. -/
def reg2 : Pipeline.RegionSeg (pcfgs (F := F)) (adm m) (pdats m) () defs₀ 𝒱₀ L lv 2 :=
  regionSeg (adm m) (pdats m) 2 launch2 (W19 m) (W20 m)
    (fun c w => dat2_A (rd (W19 m)) (adm2 m) c w) (fun _ _ => rfl) (fun _ _ => rfl) (fun _ => rfl)
    (fun c => (R2.body_obligation2 (rd (W19 m)) (adm2 m) c).loose)
    (fun c => tabS_of m (W19 m) (W19_tab m) c)
    (fun c => R2.hin2 (rd (W19 m)) (adm2 m) c) (fun c => R2.hout2 (rd (W19 m)) (adm2 m) c)
    (hF2 m) (hrest2 m)

set_option backward.isDefEq.respectTransparency.types false in
/-- Region 3 (custom_call 3), no prefetched table: the class invariant takes the generator register and the scoped rest. -/
def reg3 : Pipeline.RegionSeg (pcfgs (F := F)) (adm m) (pdats m) () defs₀ 𝒱₀ L lv 3 :=
  regionSeg (adm m) (pdats m) 3 launch3 (W21 m) (W22 m)
    (fun c w => dat3_A (rd (W21 m)) c w) (fun _ _ => rfl) (fun _ _ => rfl) (fun _ => rfl)
    (fun c => (R3.body_obligation3 (rd (W21 m)) c).loose)
    (fun _ => funext fun k => k.elim0)
    (fun c => hinA spec3 c _) (fun c => houtA spec3 c _)
    (hF3 m) (hrest3 m)

set_option backward.isDefEq.respectTransparency.types false in
/-- Region 4 (custom_call 4): its two tables are among the unscoped buffers, unchanged since the first region. -/
def reg4 : Pipeline.RegionSeg (pcfgs (F := F)) (adm m) (pdats m) () defs₀ 𝒱₀ L lv 4 :=
  regionSeg (adm m) (pdats m) 4 launch4 (W22 m) (W23 m)
    (fun c w => dat4_A (rd (W22 m)) (adm4 m) c w) (fun _ _ => rfl) (fun _ _ => rfl) (fun _ => rfl)
    (fun c => (R4.body_obligation4 (rd (W22 m)) (adm4 m) c).loose)
    (fun c => tabG_of m (W22 m) (W22_tab m) c)
    (fun c => R4.hin4 (rd (W22 m)) (adm4 m) c) (fun c => R4.hout4 (rd (W22 m)) (adm4 m) c)
    (hF4 m) (hrest4 m)

set_option backward.isDefEq.respectTransparency.types false in
/-- Region 5 (custom_call 5): its two tables are among the unscoped buffers, unchanged since the first region. -/
def reg5 : Pipeline.RegionSeg (pcfgs (F := F)) (adm m) (pdats m) () defs₀ 𝒱₀ L lv 5 :=
  regionSeg (adm m) (pdats m) 5 launch5 (W24 m) (W25 m)
    (fun c w => dat5_A (rd (W24 m)) (adm5 m) c w) (fun _ _ => rfl) (fun _ _ => rfl) (fun _ => rfl)
    (fun c => (R5.body_obligation5 (rd (W24 m)) (adm5 m) c).loose)
    (fun c => tabS_of m (W24 m) (W24_tab m) c)
    (fun c => R5.hin5 (rd (W24 m)) (adm5 m) c) (fun c => R5.hout5 (rd (W24 m)) (adm5 m) c)
    (hF5 m) (hrest5 m)

set_option backward.isDefEq.respectTransparency.types false in
/-- Region 6 (custom_call 6), no prefetched table: the class invariant takes the generator register and the scoped rest. -/
def reg6 : Pipeline.RegionSeg (pcfgs (F := F)) (adm m) (pdats m) () defs₀ 𝒱₀ L lv 6 :=
  regionSeg (adm m) (pdats m) 6 launch6 (W26 m) (W27 m)
    (fun c w => dat6_A (rd (W26 m)) c w) (fun _ _ => rfl) (fun _ _ => rfl) (fun _ => rfl)
    (fun c => (R6.body_obligation6 (rd (W26 m)) c).loose)
    (fun _ => funext fun k => k.elim0)
    (fun c => hinA spec6 c _) (fun c => houtA spec6 c _)
    (hF6 m) (hrest6 m)

set_option backward.isDefEq.respectTransparency.types false in
/-- Region 7 (custom_call 7): its two tables are among the unscoped buffers, unchanged since the first region. -/
def reg7 : Pipeline.RegionSeg (pcfgs (F := F)) (adm m) (pdats m) () defs₀ 𝒱₀ L lv 7 :=
  regionSeg (adm m) (pdats m) 7 launch7 (W27 m) (W28 m)
    (fun c w => dat7_A (rd (W27 m)) (adm7 m) c w) (fun _ _ => rfl) (fun _ _ => rfl) (fun _ => rfl)
    (fun c => (R7.body_obligation7 (rd (W27 m)) (adm7 m) c).loose)
    (fun c => tabG_of m (W27 m) (W27_tab m) c)
    (fun c => R7.hin7 (rd (W27 m)) (adm7 m) c) (fun c => R7.hout7 (rd (W27 m)) (adm7 m) c)
    (hF7 m) (hrest7 m)

set_option backward.isDefEq.respectTransparency.types false in
/-- Region 8 (custom_call 8): its two tables are among the unscoped buffers, unchanged since the first region. -/
def reg8 : Pipeline.RegionSeg (pcfgs (F := F)) (adm m) (pdats m) () defs₀ 𝒱₀ L lv 8 :=
  regionSeg (adm m) (pdats m) 8 launch8 (W29 m) (W30 m)
    (fun c w => dat8_A (rd (W29 m)) (adm8 m) c w) (fun _ _ => rfl) (fun _ _ => rfl) (fun _ => rfl)
    (fun c => (R8.body_obligation8 (rd (W29 m)) (adm8 m) c).loose)
    (fun c => tabS_of m (W29 m) (W29_tab m) c)
    (fun c => R8.hin8 (rd (W29 m)) (adm8 m) c) (fun c => R8.hout8 (rd (W29 m)) (adm8 m) c)
    (hF8 m) (hrest8 m)

set_option backward.isDefEq.respectTransparency.types false in
/-- Region 9 (custom_call 9), no prefetched table: the class invariant takes the generator register and the scoped rest. -/
def reg9 : Pipeline.RegionSeg (pcfgs (F := F)) (adm m) (pdats m) () defs₀ 𝒱₀ L lv 9 :=
  regionSeg (adm m) (pdats m) 9 launch9 (W31 m) (W32 m)
    (fun c w => dat9_A (rd (W31 m)) c w) (fun _ _ => rfl) (fun _ _ => rfl) (fun _ => rfl)
    (fun c => (R9.body_obligation9 (rd (W31 m)) c).loose)
    (fun _ => funext fun k => k.elim0)
    (fun c => hinA spec9 c _) (fun c => houtA spec9 c _)
    (hF9 m) (hrest9 m)

/-! ## The launch -/

/-- The launch element: the pipelines' cells and duty tokens. -/
abbrev u₀ : UR sig nD τ :=
  initOf (Pipeline.cells (Pipeline.pin (pcfgs (F := F)) (adm m)) (cellOf_inj (adm m))) (Pipeline.launchToks (Pipeline.pin (pcfgs (F := F)) (adm m)) (cellOf_inj (adm m)))

theorem hu₀ : (ownU (u₀ m) : sProp 𝕄) ⊢ |={Set.univ}=> iprop(BI.own ((emb₁ : Emb (UR sig nD τ) 𝕄) (u₀ m)) ∗ bigSep Finset.univ fun _ : Dev nD => (iprop(emp) : sProp 𝕄)) := by
  iintro Hu; imodintro
  isplitl [Hu]
  · iapply (show (ownU (u₀ m) : sProp 𝕄) ⊢ BI.own (emb₁ (u₀ m)) from .rfl)
    iexact Hu
  iapply (show (BI.emp : sProp 𝕄) ⊢ bigSep Finset.univ (fun _ : Dev nD => (BI.emp : sProp 𝕄)) from by rw [BI.bigSep_emp_const])
  iempintro

end Vals

/-- What the launch deals every core makes the riding state: the generator register at its launch state, nothing owed. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem hE10 (c : Dev nD) : (R (F := F) c : sProp 𝕄) ⊢ iprop(∃ W, owes (c : Thread nD τ) (0 : CellTallies nD τ sig Unit) W) := by
  iintro ⟨-, H⟩; iexact H

/-! ## The run and the frame -/

set_option backward.isDefEq.respectTransparency.types false in
/-- THE RUN: from any memory with zero counters every weakly fair execution of @main terminates and every final memory
    holds, on every core, every unscoped buffer at the last valuation, the regions' exit contents being `outs m`. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      ∀ b ∈ Pipeline.ucRefs τ sig, r.2.mem ((c.tc : Thread nD τ).1, b) = V37 m (outs m) c b) :=
  run_cond m (EP := emb₁) (ι := ()) (𝒱₀ := 𝒱₀) (L := L) (lv := lv) (hL := fun _ _ => rfl) (ρ := ρ) (outs := outs m) (a := adm m) (pdats := pdats m)
    (O₀ := 0) (G := fun _ => iprop(emp)) (u₀ := u₀ m) (hu₀ := hu₀ m) (E := fun _ c => R c) (hE0 := hE0 ρ) (hE10 := hE10)
    (R0 := reg0 m) (hpre0 := (fun c => .rfl)) (hpost0 := fun c => by rw [V17_eq m c]; exact .rfl)
    (R1 := reg1 m) (hpre1 := (fun c => by rw [V17_eq m c]; exact .rfl)) (hpost1 := fun c => by rw [V18_eq m c]; exact .rfl)
    (R2 := reg2 m) (hpre2 := (fun c => by rw [V19_eq m c]; exact .rfl)) (hpost2 := fun c => by rw [V20_eq m c]; exact .rfl)
    (R3 := reg3 m) (hpre3 := (fun c => by rw [V21_eq m c]; exact .rfl)) (hpost3 := fun c => by rw [V22_eq m c]; exact .rfl)
    (R4 := reg4 m) (hpre4 := (fun c => by rw [V22_eq m c]; exact .rfl)) (hpost4 := fun c => by rw [V23_eq m c]; exact .rfl)
    (R5 := reg5 m) (hpre5 := (fun c => by rw [V24_eq m c]; exact .rfl)) (hpost5 := fun c => by rw [V25_eq m c]; exact .rfl)
    (R6 := reg6 m) (hpre6 := (fun c => by rw [V26_eq m c]; exact .rfl)) (hpost6 := fun c => by rw [V27_eq m c]; exact .rfl)
    (R7 := reg7 m) (hpre7 := (fun c => by rw [V27_eq m c]; exact .rfl)) (hpost7 := fun c => by rw [V28_eq m c]; exact .rfl)
    (R8 := reg8 m) (hpre8 := (fun c => by rw [V29_eq m c]; exact .rfl)) (hpost8 := fun c => by rw [V30_eq m c]; exact .rfl)
    (R9 := reg9 m) (hpre9 := (fun c => by rw [V31_eq m c]; exact .rfl)) (hpost9 := fun c => by rw [V32_eq m c]; exact .rfl)

set_option backward.isDefEq.respectTransparency.types false in
/-- THE FRAME: the same executions end with every argument as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_cond m (EP := emb₁) (ι := ()) (𝒱₀ := 𝒱₀) (L := L) (lv := lv) (hL := fun _ _ => rfl) (ρ := ρ) (outs := outs m) (a := adm m) (pdats := pdats m)
    (O₀ := 0) (G := fun _ => iprop(emp)) (u₀ := u₀ m) (hu₀ := hu₀ m) (E := fun _ c => R c) (hE0 := hE0 ρ) (hE10 := hE10)
    (R0 := reg0 m) (hpre0 := (fun c => .rfl)) (hpost0 := fun c => by rw [V17_eq m c]; exact .rfl)
    (R1 := reg1 m) (hpre1 := (fun c => by rw [V17_eq m c]; exact .rfl)) (hpost1 := fun c => by rw [V18_eq m c]; exact .rfl)
    (R2 := reg2 m) (hpre2 := (fun c => by rw [V19_eq m c]; exact .rfl)) (hpost2 := fun c => by rw [V20_eq m c]; exact .rfl)
    (R3 := reg3 m) (hpre3 := (fun c => by rw [V21_eq m c]; exact .rfl)) (hpost3 := fun c => by rw [V22_eq m c]; exact .rfl)
    (R4 := reg4 m) (hpre4 := (fun c => by rw [V22_eq m c]; exact .rfl)) (hpost4 := fun c => by rw [V23_eq m c]; exact .rfl)
    (R5 := reg5 m) (hpre5 := (fun c => by rw [V24_eq m c]; exact .rfl)) (hpost5 := fun c => by rw [V25_eq m c]; exact .rfl)
    (R6 := reg6 m) (hpre6 := (fun c => by rw [V26_eq m c]; exact .rfl)) (hpost6 := fun c => by rw [V27_eq m c]; exact .rfl)
    (R7 := reg7 m) (hpre7 := (fun c => by rw [V27_eq m c]; exact .rfl)) (hpost7 := fun c => by rw [V28_eq m c]; exact .rfl)
    (R8 := reg8 m) (hpre8 := (fun c => by rw [V29_eq m c]; exact .rfl)) (hpost8 := fun c => by rw [V30_eq m c]; exact .rfl)
    (R9 := reg9 m) (hpre9 := (fun c => by rw [V31_eq m c]; exact .rfl)) (hpost9 := fun c => by rw [V32_eq m c]; exact .rfl)

end Cert.Kernel.Run

end
-- ==== Proof.RefRunH0.lean ====
import proofs.«417346_j54202487276072_2_alg».proof.Proof.Gen.ReferenceIdeal
import Idealize.ShloMosaic.Lib.StableHlo.Run

set_option maxRecDepth 8192

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- @main's operations 0 … 2 of 181 (counting from 0; a called function's operations stand in its call's place). -/
abbrev ops0 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000 ]

/-- @main's operations 3 … 5 of 181 (counting from 0; a called function's operations stand in its call's place). -/
abbrev ops1 : List (HloOp τ sig (Elt F)) :=
  [ binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000 ]

/-- @main's operations 6 … 22 of 181 (counting from 0; a called function's operations stand in its call's place). -/
abbrev ops2 : List (HloOp τ sig (Elt F)) :=
  [ binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf (F := F) .ogt : (⟨S100000, .f32⟩ : BufTy).Contents (Elt F) → (⟨S100000, .f32⟩ : BufTy).Contents (Elt F) → (⟨S100000, .i1⟩ : BufTy).Contents (Elt F)),
    nullary main_cst_2 (constant S_ .f32 0xBF000000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (Host.powf : (⟨S100000, .f32⟩ : BufTy).Contents (Elt F) → (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v14) (TRef.of (T := ⟨S100000, .f32⟩) main_call0_v1) (TRef.of (T := ⟨S100000, .f32⟩) main_v15) select ]

/-- @main's operations 23 … 61 of 181 (counting from 0; a called function's operations stand in its call's place). -/
abbrev ops3 : List (HloOp τ sig (Elt F)) :=
  [ binary main_arg0 main_arg4 main_v16 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    nullary main_c (constantI S_ 32 0#32),
    unary main_c main_v17 (broadcastInDim S1700000 ![] bcast_S_S1700000 : (⟨S_, .i32⟩ : BufTy).Contents (Elt F) → (⟨S1700000, .i32⟩ : BufTy).Contents (Elt F)),
    binary main_v3 main_v17 main_v18 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v19 (broadcastInDim S1700000 ![] bcast_S_S1700000 : (⟨S_, .i32⟩ : BufTy).Contents (Elt F) → (⟨S1700000, .i32⟩ : BufTy).Contents (Elt F)),
    binary main_v3 main_v19 main_v20 (addi : (⟨S1700000, .i32⟩ : BufTy).Contents (Elt F) → (⟨S1700000, .i32⟩ : BufTy).Contents (Elt F) → (⟨S1700000, .i32⟩ : BufTy).Contents (Elt F)),
    ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v21 main_v22 (broadcastInDim S1700000x1 ![0] bcast_S1700000_S1700000x1_0 : (⟨S1700000, .i32⟩ : BufTy).Contents (Elt F) → (⟨S1700000x1, .i32⟩ : BufTy).Contents (Elt F)),
    binary main_v15 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_5 (constantI S_ 32 0#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v26 (broadcastInDim S1700000 ![] bcast_S_S1700000 : (⟨S_, .i32⟩ : BufTy).Contents (Elt F) → (⟨S1700000, .i32⟩ : BufTy).Contents (Elt F)),
    binary main_v6 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v15 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)),
    nullary main_c_7 (constantI S_ 32 0#32),
    unary main_c_7 main_v32 (broadcastInDim S1700000 ![] bcast_S_S1700000 : (⟨S_, .i32⟩ : BufTy).Contents (Elt F) → (⟨S1700000, .i32⟩ : BufTy).Contents (Elt F)),
    binary main_v3 main_v32 main_v33 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v34 (broadcastInDim S1700000 ![] bcast_S_S1700000 : (⟨S_, .i32⟩ : BufTy).Contents (Elt F) → (⟨S1700000, .i32⟩ : BufTy).Contents (Elt F)),
    binary main_v3 main_v34 main_v35 (addi : (⟨S1700000, .i32⟩ : BufTy).Contents (Elt F) → (⟨S1700000, .i32⟩ : BufTy).Contents (Elt F) → (⟨S1700000, .i32⟩ : BufTy).Contents (Elt F)),
    ternary main_v33 main_v35 main_v3 main_v36 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v36 main_v37 (broadcastInDim S1700000x1 ![0] bcast_S1700000_S1700000x1_0 : (⟨S1700000, .i32⟩ : BufTy).Contents (Elt F) → (⟨S1700000x1, .i32⟩ : BufTy).Contents (Elt F)),
    binary main_v16 main_v37 main_v38 ((fun x i => Host.gather gather_S100000x16_S1700000x1_S1700000x16_1_0_n_n_0_1_116 x i) : (⟨S100000x16, .f32⟩ : BufTy).Contents (Elt F) → (⟨S1700000x1, .i32⟩ : BufTy).Contents (Elt F) → (⟨S1700000x16, .f32⟩ : BufTy).Contents (Elt F)),
    unary main_v31 main_v39 (broadcastInDim S1700000x1 ![0] bcast_S1700000_S1700000x1_0 : (⟨S1700000, .f32⟩ : BufTy).Contents (Elt F) → (⟨S1700000x1, .f32⟩ : BufTy).Contents (Elt F)),
    unary main_v39 main_v40 (broadcastInDim S1700000x16 ![0, 1] bcast_S1700000x1_S1700000x16_0_1 : (⟨S1700000x1, .f32⟩ : BufTy).Contents (Elt F) → (⟨S1700000x16, .f32⟩ : BufTy).Contents (Elt F)),
    binary main_v38 main_v40 main_v41 (mulf : (⟨S1700000x16, .f32⟩ : BufTy).Contents (Elt F) → (⟨S1700000x16, .f32⟩ : BufTy).Contents (Elt F) → (⟨S1700000x16, .f32⟩ : BufTy).Contents (Elt F)),
    nullary main_cst_9 (constant S_ .f32 0x00000000#32),
    unary main_cst_9 main_v42 (broadcastInDim S100000x16 ![] bcast_S_S100000x16 : (⟨S_, .f32⟩ : BufTy).Contents (Elt F) → (⟨S100000x16, .f32⟩ : BufTy).Contents (Elt F)),
    unary main_v6 main_v43 (broadcastInDim S1700000x1 ![0] bcast_S1700000_S1700000x1_0 : (⟨S1700000, .i32⟩ : BufTy).Contents (Elt F) → (⟨S1700000x1, .i32⟩ : BufTy).Contents (Elt F)),
    ternary main_v42 main_v43 main_v41 main_v44 ((fun x i u => Host.scatterAdd scatter_S100000x16_S1700000x1_S1700000x16_1_0_0_1 x i u) : (⟨S100000x16, .f32⟩ : BufTy).Contents (Elt F) → (⟨S1700000x1, .i32⟩ : BufTy).Contents (Elt F) → (⟨S1700000x16, .f32⟩ : BufTy).Contents (Elt F) → (⟨S100000x16, .f32⟩ : BufTy).Contents (Elt F)),
    unary main_arg5 main_v45 (broadcastInDim S1x16 ![1] bcast_S16_S1x16_1 : (⟨S16, .f32⟩ : BufTy).Contents (Elt F) → (⟨S1x16, .f32⟩ : BufTy).Contents (Elt F)),
    unary main_v45 main_v46 (broadcastInDim S100000x16 ![0, 1] bcast_S1x16_S100000x16_0_1 : (⟨S1x16, .f32⟩ : BufTy).Contents (Elt F) → (⟨S100000x16, .f32⟩ : BufTy).Contents (Elt F)),
    binary main_v44 main_v46 main_v47 (addf : (⟨S100000x16, .f32⟩ : BufTy).Contents (Elt F) → (⟨S100000x16, .f32⟩ : BufTy).Contents (Elt F) → (⟨S100000x16, .f32⟩ : BufTy).Contents (Elt F)) ]

/-- @main's operations 62 … 103 of 181 (counting from 0; a called function's operations stand in its call's place). -/
abbrev ops4 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v47) (TRef.of (T := ⟨S100000x16, .f32⟩) main_call1_v0) (TRef.of (T := ⟨S100000x16, .f32⟩) main_v48) maximumf,
    binary main_v48 main_arg6 main_v49 ((fun l r => Host.dotGeneral dot_S100000x16_S16x64_S100000x64_1_0_0_1_n_n none l r) : (⟨S100000x16, .f32⟩ : BufTy).Contents (Elt F) → (⟨S16x64, .f32⟩ : BufTy).Contents (Elt F) → (⟨S100000x64, .f32⟩ : BufTy).Contents (Elt F)),
    nullary main_c_10 (constantI S_ 32 0#32),
    unary main_c_10 main_v50 (broadcastInDim S1700000 ![] bcast_S_S1700000 : (⟨S_, .i32⟩ : BufTy).Contents (Elt F) → (⟨S1700000, .i32⟩ : BufTy).Contents (Elt F)),
    binary main_v3 main_v50 main_v51 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v52 (broadcastInDim S1700000 ![] bcast_S_S1700000 : (⟨S_, .i32⟩ : BufTy).Contents (Elt F) → (⟨S1700000, .i32⟩ : BufTy).Contents (Elt F)),
    binary main_v3 main_v52 main_v53 (addi : (⟨S1700000, .i32⟩ : BufTy).Contents (Elt F) → (⟨S1700000, .i32⟩ : BufTy).Contents (Elt F) → (⟨S1700000, .i32⟩ : BufTy).Contents (Elt F)),
    ternary main_v51 main_v53 main_v3 main_v54 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v54 main_v55 (broadcastInDim S1700000x1 ![0] bcast_S1700000_S1700000x1_0 : (⟨S1700000, .i32⟩ : BufTy).Contents (Elt F) → (⟨S1700000x1, .i32⟩ : BufTy).Contents (Elt F)),
    binary main_v15 main_v55 main_v56 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_12 (constantI S_ 32 0#32),
    unary main_c_12 main_v57 (broadcastInDim S1700000 ![] bcast_S_S1700000 : (⟨S_, .i32⟩ : BufTy).Contents (Elt F) → (⟨S1700000, .i32⟩ : BufTy).Contents (Elt F)),
    binary main_v6 main_v57 main_v58 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v59 (broadcastInDim S1700000 ![] bcast_S_S1700000 : (⟨S_, .i32⟩ : BufTy).Contents (Elt F) → (⟨S1700000, .i32⟩ : BufTy).Contents (Elt F)),
    binary main_v6 main_v59 main_v60 (addi : (⟨S1700000, .i32⟩ : BufTy).Contents (Elt F) → (⟨S1700000, .i32⟩ : BufTy).Contents (Elt F) → (⟨S1700000, .i32⟩ : BufTy).Contents (Elt F)),
    ternary main_v58 main_v60 main_v6 main_v61 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v61 main_v62 (broadcastInDim S1700000x1 ![0] bcast_S1700000_S1700000x1_0 : (⟨S1700000, .i32⟩ : BufTy).Contents (Elt F) → (⟨S1700000x1, .i32⟩ : BufTy).Contents (Elt F)),
    binary main_v15 main_v62 main_v63 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v56 main_v63 main_v64 (mulf : (⟨S1700000, .f32⟩ : BufTy).Contents (Elt F) → (⟨S1700000, .f32⟩ : BufTy).Contents (Elt F) → (⟨S1700000, .f32⟩ : BufTy).Contents (Elt F)),
    nullary main_c_14 (constantI S_ 32 0#32),
    unary main_c_14 main_v65 (broadcastInDim S1700000 ![] bcast_S_S1700000 : (⟨S_, .i32⟩ : BufTy).Contents (Elt F) → (⟨S1700000, .i32⟩ : BufTy).Contents (Elt F)),
    binary main_v3 main_v65 main_v66 (cmpi .slt : (⟨S1700000, .i32⟩ : BufTy).Contents (Elt F) → (⟨S1700000, .i32⟩ : BufTy).Contents (Elt F) → (⟨S1700000, .i1⟩ : BufTy).Contents (Elt F)),
    nullary main_c_15 (constantI S_ 32 100000#32),
    unary main_c_15 main_v67 (broadcastInDim S1700000 ![] bcast_S_S1700000 : (⟨S_, .i32⟩ : BufTy).Contents (Elt F) → (⟨S1700000, .i32⟩ : BufTy).Contents (Elt F)),
    binary main_v3 main_v67 main_v68 (addi : (⟨S1700000, .i32⟩ : BufTy).Contents (Elt F) → (⟨S1700000, .i32⟩ : BufTy).Contents (Elt F) → (⟨S1700000, .i32⟩ : BufTy).Contents (Elt F)),
    ternary main_v66 main_v68 main_v3 main_v69 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v69 main_v70 (broadcastInDim S1700000x1 ![0] bcast_S1700000_S1700000x1_0 : (⟨S1700000, .i32⟩ : BufTy).Contents (Elt F) → (⟨S1700000x1, .i32⟩ : BufTy).Contents (Elt F)),
    binary main_v49 main_v70 main_v71 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v64 main_v72 (broadcastInDim S1700000x1 ![0] bcast_S1700000_S1700000x1_0 : (⟨S1700000, .f32⟩ : BufTy).Contents (Elt F) → (⟨S1700000x1, .f32⟩ : BufTy).Contents (Elt F)),
    unary main_v72 main_v73 (broadcastInDim S1700000x64 ![0, 1] bcast_S1700000x1_S1700000x64_0_1 : (⟨S1700000x1, .f32⟩ : BufTy).Contents (Elt F) → (⟨S1700000x64, .f32⟩ : BufTy).Contents (Elt F)),
    binary main_v71 main_v73 main_v74 (mulf : (⟨S1700000x64, .f32⟩ : BufTy).Contents (Elt F) → (⟨S1700000x64, .f32⟩ : BufTy).Contents (Elt F) → (⟨S1700000x64, .f32⟩ : BufTy).Contents (Elt F)),
    nullary main_cst_16 (constant S_ .f32 0x00000000#32),
    unary main_cst_16 main_v75 (broadcastInDim S100000x64 ![] bcast_S_S100000x64 : (⟨S_, .f32⟩ : BufTy).Contents (Elt F) → (⟨S100000x64, .f32⟩ : BufTy).Contents (Elt F)),
    unary main_v6 main_v76 (broadcastInDim S1700000x1 ![0] bcast_S1700000_S1700000x1_0 : (⟨S1700000, .i32⟩ : BufTy).Contents (Elt F) → (⟨S1700000x1, .i32⟩ : BufTy).Contents (Elt F)),
    ternary main_v75 main_v76 main_v74 main_v77 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg7 main_v78 (broadcastInDim S1x64 ![1] bcast_S64_S1x64_1 : (⟨S64, .f32⟩ : BufTy).Contents (Elt F) → (⟨S1x64, .f32⟩ : BufTy).Contents (Elt F)),
    unary main_v78 main_v79 (broadcastInDim S100000x64 ![0, 1] bcast_S1x64_S100000x64_0_1 : (⟨S1x64, .f32⟩ : BufTy).Contents (Elt F) → (⟨S100000x64, .f32⟩ : BufTy).Contents (Elt F)),
    binary main_v77 main_v79 main_v80 (addf : (⟨S100000x64, .f32⟩ : BufTy).Contents (Elt F) → (⟨S100000x64, .f32⟩ : BufTy).Contents (Elt F) → (⟨S100000x64, .f32⟩ : BufTy).Contents (Elt F)) ]

/-- @main's operations 104 … 125 of 181 (counting from 0; a called function's operations stand in its call's place). -/
abbrev ops5 : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v80) (TRef.of (T := ⟨S100000x64, .f32⟩) main_call2_v0) (TRef.of (T := ⟨S100000x64, .f32⟩) main_v81) maximumf,
    binary main_v81 main_arg8 main_v82 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    nullary main_c_17 (constantI S_ 32 0#32),
    unary main_c_17 main_v83 (broadcastInDim S1700000 ![] bcast_S_S1700000 : (⟨S_, .i32⟩ : BufTy).Contents (Elt F) → (⟨S1700000, .i32⟩ : BufTy).Contents (Elt F)),
    binary main_v3 main_v83 main_v84 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v85 (broadcastInDim S1700000 ![] bcast_S_S1700000 : (⟨S_, .i32⟩ : BufTy).Contents (Elt F) → (⟨S1700000, .i32⟩ : BufTy).Contents (Elt F)),
    binary main_v3 main_v85 main_v86 (addi : (⟨S1700000, .i32⟩ : BufTy).Contents (Elt F) → (⟨S1700000, .i32⟩ : BufTy).Contents (Elt F) → (⟨S1700000, .i32⟩ : BufTy).Contents (Elt F)),
    ternary main_v84 main_v86 main_v3 main_v87 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v87 main_v88 (broadcastInDim S1700000x1 ![0] bcast_S1700000_S1700000x1_0 : (⟨S1700000, .i32⟩ : BufTy).Contents (Elt F) → (⟨S1700000x1, .i32⟩ : BufTy).Contents (Elt F)),
    binary main_v15 main_v88 main_v89 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_19 (constantI S_ 32 0#32),
    unary main_c_19 main_v90 (broadcastInDim S1700000 ![] bcast_S_S1700000 : (⟨S_, .i32⟩ : BufTy).Contents (Elt F) → (⟨S1700000, .i32⟩ : BufTy).Contents (Elt F)),
    binary main_v6 main_v90 main_v91 (cmpi .slt : (⟨S1700000, .i32⟩ : BufTy).Contents (Elt F) → (⟨S1700000, .i32⟩ : BufTy).Contents (Elt F) → (⟨S1700000, .i1⟩ : BufTy).Contents (Elt F)),
    nullary main_c_20 (constantI S_ 32 100000#32),
    unary main_c_20 main_v92 (broadcastInDim S1700000 ![] bcast_S_S1700000 : (⟨S_, .i32⟩ : BufTy).Contents (Elt F) → (⟨S1700000, .i32⟩ : BufTy).Contents (Elt F)),
    binary main_v6 main_v92 main_v93 (addi : (⟨S1700000, .i32⟩ : BufTy).Contents (Elt F) → (⟨S1700000, .i32⟩ : BufTy).Contents (Elt F) → (⟨S1700000, .i32⟩ : BufTy).Contents (Elt F)),
    ternary main_v91 main_v93 main_v6 main_v94 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v94 main_v95 (broadcastInDim S1700000x1 ![0] bcast_S1700000_S1700000x1_0 : (⟨S1700000, .i32⟩ : BufTy).Contents (Elt F) → (⟨S1700000x1, .i32⟩ : BufTy).Contents (Elt F)),
    binary main_v15 main_v95 main_v96 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)) ]

/-- @main's operations 126 … 145 of 181 (counting from 0; a called function's operations stand in its call's place). -/
abbrev ops6 : List (HloOp τ sig (Elt F)) :=
  [ binary main_v89 main_v96 main_v97 (mulf : (⟨S1700000, .f32⟩ : BufTy).Contents (Elt F) → (⟨S1700000, .f32⟩ : BufTy).Contents (Elt F) → (⟨S1700000, .f32⟩ : BufTy).Contents (Elt F)),
    nullary main_c_21 (constantI S_ 32 0#32),
    unary main_c_21 main_v98 (broadcastInDim S1700000 ![] bcast_S_S1700000 : (⟨S_, .i32⟩ : BufTy).Contents (Elt F) → (⟨S1700000, .i32⟩ : BufTy).Contents (Elt F)),
    binary main_v3 main_v98 main_v99 (cmpi .slt : (⟨S1700000, .i32⟩ : BufTy).Contents (Elt F) → (⟨S1700000, .i32⟩ : BufTy).Contents (Elt F) → (⟨S1700000, .i1⟩ : BufTy).Contents (Elt F)),
    nullary main_c_22 (constantI S_ 32 100000#32),
    unary main_c_22 main_v100 (broadcastInDim S1700000 ![] bcast_S_S1700000 : (⟨S_, .i32⟩ : BufTy).Contents (Elt F) → (⟨S1700000, .i32⟩ : BufTy).Contents (Elt F)),
    binary main_v3 main_v100 main_v101 (addi : (⟨S1700000, .i32⟩ : BufTy).Contents (Elt F) → (⟨S1700000, .i32⟩ : BufTy).Contents (Elt F) → (⟨S1700000, .i32⟩ : BufTy).Contents (Elt F)),
    ternary main_v99 main_v101 main_v3 main_v102 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v102 main_v103 (broadcastInDim S1700000x1 ![0] bcast_S1700000_S1700000x1_0 : (⟨S1700000, .i32⟩ : BufTy).Contents (Elt F) → (⟨S1700000x1, .i32⟩ : BufTy).Contents (Elt F)),
    binary main_v82 main_v103 main_v104 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    unary main_v97 main_v105 (broadcastInDim S1700000x1 ![0] bcast_S1700000_S1700000x1_0 : (⟨S1700000, .f32⟩ : BufTy).Contents (Elt F) → (⟨S1700000x1, .f32⟩ : BufTy).Contents (Elt F)),
    unary main_v105 main_v106 (broadcastInDim S1700000x32 ![0, 1] bcast_S1700000x1_S1700000x32_0_1 : (⟨S1700000x1, .f32⟩ : BufTy).Contents (Elt F) → (⟨S1700000x32, .f32⟩ : BufTy).Contents (Elt F)),
    binary main_v104 main_v106 main_v107 (mulf : (⟨S1700000x32, .f32⟩ : BufTy).Contents (Elt F) → (⟨S1700000x32, .f32⟩ : BufTy).Contents (Elt F) → (⟨S1700000x32, .f32⟩ : BufTy).Contents (Elt F)),
    nullary main_cst_23 (constant S_ .f32 0x00000000#32),
    unary main_cst_23 main_v108 (broadcastInDim S100000x32 ![] bcast_S_S100000x32 : (⟨S_, .f32⟩ : BufTy).Contents (Elt F) → (⟨S100000x32, .f32⟩ : BufTy).Contents (Elt F)),
    unary main_v6 main_v109 (broadcastInDim S1700000x1 ![0] bcast_S1700000_S1700000x1_0 : (⟨S1700000, .i32⟩ : BufTy).Contents (Elt F) → (⟨S1700000x1, .i32⟩ : BufTy).Contents (Elt F)),
    ternary main_v108 main_v109 main_v107 main_v110 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    unary main_arg9 main_v111 (broadcastInDim S1x32 ![1] bcast_S32_S1x32_1 : (⟨S32, .f32⟩ : BufTy).Contents (Elt F) → (⟨S1x32, .f32⟩ : BufTy).Contents (Elt F)),
    unary main_v111 main_v112 (broadcastInDim S100000x32 ![0, 1] bcast_S1x32_S100000x32_0_1 : (⟨S1x32, .f32⟩ : BufTy).Contents (Elt F) → (⟨S100000x32, .f32⟩ : BufTy).Contents (Elt F)),
    binary main_v110 main_v112 main_v113 (addf : (⟨S100000x32, .f32⟩ : BufTy).Contents (Elt F) → (⟨S100000x32, .f32⟩ : BufTy).Contents (Elt F) → (⟨S100000x32, .f32⟩ : BufTy).Contents (Elt F)) ]

/-- @main's operations 146 … 168 of 181 (counting from 0; a called function's operations stand in its call's place). -/
abbrev ops7 : List (HloOp τ sig (Elt F)) :=
  [ nullary main_cst_24 (constant S_ .f32 0x00000000#32),
    unary main_cst_24 main_v114 (broadcastInDim S64x32 ![] bcast_S_S64x32 : (⟨S_, .f32⟩ : BufTy).Contents (Elt F) → (⟨S64x32, .f32⟩ : BufTy).Contents (Elt F)),
    unary main_arg2 main_v115 (broadcastInDim S100000x1 ![0] bcast_S100000_S100000x1_0 : (⟨S100000, .i32⟩ : BufTy).Contents (Elt F) → (⟨S100000x1, .i32⟩ : BufTy).Contents (Elt F)),
    ternary main_v114 main_v115 main_v113 main_v116 ((fun x i u => Host.scatterAdd scatter_S64x32_S100000x1_S100000x32_1_0_0_1 x i u) : (⟨S64x32, .f32⟩ : BufTy).Contents (Elt F) → (⟨S100000x1, .i32⟩ : BufTy).Contents (Elt F) → (⟨S100000x32, .f32⟩ : BufTy).Contents (Elt F) → (⟨S64x32, .f32⟩ : BufTy).Contents (Elt F)),
    nullary main_cst_25 (constant S_ .f32 0x3F800000#32),
    unary main_cst_25 main_v117 (broadcastInDim S100000 ![] bcast_S_S100000 : (⟨S_, .f32⟩ : BufTy).Contents (Elt F) → (⟨S100000, .f32⟩ : BufTy).Contents (Elt F)),
    nullary main_cst_26 (constant S_ .f32 0x00000000#32),
    unary main_cst_26 main_v118 (broadcastInDim S64 ![] bcast_S_S64 : (⟨S_, .f32⟩ : BufTy).Contents (Elt F) → (⟨S64, .f32⟩ : BufTy).Contents (Elt F)),
    unary main_arg2 main_v119 (broadcastInDim S100000x1 ![0] bcast_S100000_S100000x1_0 : (⟨S100000, .i32⟩ : BufTy).Contents (Elt F) → (⟨S100000x1, .i32⟩ : BufTy).Contents (Elt F)),
    ternary main_v118 main_v119 main_v117 main_v120 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    nullary main_cst_27 (constant S_ .f32 0x3F800000#32),
    unary main_cst_27 main_v121 (broadcastInDim S64 ![] bcast_S_S64 : (⟨S_, .f32⟩ : BufTy).Contents (Elt F) → (⟨S64, .f32⟩ : BufTy).Contents (Elt F)),
    binary main_v120 main_v121 main_v122 (maximumf : (⟨S64, .f32⟩ : BufTy).Contents (Elt F) → (⟨S64, .f32⟩ : BufTy).Contents (Elt F) → (⟨S64, .f32⟩ : BufTy).Contents (Elt F)),
    unary main_v122 main_v123 (broadcastInDim S64x1 ![0] bcast_S64_S64x1_0 : (⟨S64, .f32⟩ : BufTy).Contents (Elt F) → (⟨S64x1, .f32⟩ : BufTy).Contents (Elt F)),
    unary main_v123 main_v124 (broadcastInDim S64x32 ![0, 1] bcast_S64x1_S64x32_0_1 : (⟨S64x1, .f32⟩ : BufTy).Contents (Elt F) → (⟨S64x32, .f32⟩ : BufTy).Contents (Elt F)),
    binary main_v116 main_v124 main_v125 (Host.divf : (⟨S64x32, .f32⟩ : BufTy).Contents (Elt F) → (⟨S64x32, .f32⟩ : BufTy).Contents (Elt F) → (⟨S64x32, .f32⟩ : BufTy).Contents (Elt F)),
    binary main_v125 main_arg10 main_v126 ((fun l r => Host.dotGeneral dot_S64x32_S32x64_S64x64_1_0_0_1_n_n none l r) : (⟨S64x32, .f32⟩ : BufTy).Contents (Elt F) → (⟨S32x64, .f32⟩ : BufTy).Contents (Elt F) → (⟨S64x64, .f32⟩ : BufTy).Contents (Elt F)),
    unary main_arg11 main_v127 (broadcastInDim S1x64 ![1] bcast_S64_S1x64_1 : (⟨S64, .f32⟩ : BufTy).Contents (Elt F) → (⟨S1x64, .f32⟩ : BufTy).Contents (Elt F)),
    unary main_v127 main_v128 (broadcastInDim S64x64 ![0, 1] bcast_S1x64_S64x64_0_1 : (⟨S1x64, .f32⟩ : BufTy).Contents (Elt F) → (⟨S64x64, .f32⟩ : BufTy).Contents (Elt F)),
    binary main_v126 main_v128 main_v129 (addf : (⟨S64x64, .f32⟩ : BufTy).Contents (Elt F) → (⟨S64x64, .f32⟩ : BufTy).Contents (Elt F) → (⟨S64x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S64x64, .f32⟩) main_call3_v0) (broadcastInDim S64x64 ![] bcast_S_S64x64),
    TRef.binary (TRef.of (T := ⟨S64x64, .f32⟩) main_v129) (TRef.of (T := ⟨S64x64, .f32⟩) main_call3_v0) (TRef.of (T := ⟨S64x64, .f32⟩) main_v130) maximumf ]

/-- @main's operations 169 … 180 of 181 (counting from 0; a called function's operations stand in its call's place). -/
abbrev ops8 : List (HloOp τ sig (Elt F)) :=
  [ binary main_v130 main_arg3 main_v131 ((fun a b => concatenate S64x68 1 [⟨S64x64, a⟩, ⟨S64x4, b⟩] concatenates_S64x64_S64x4_S64x68_d1) : (⟨S64x64, .f32⟩ : BufTy).Contents (Elt F) → (⟨S64x4, .f32⟩ : BufTy).Contents (Elt F) → (⟨S64x68, .f32⟩ : BufTy).Contents (Elt F)),
    binary main_v131 main_arg12 main_v132 ((fun l r => Host.dotGeneral dot_S64x68_S68x10_S64x10_1_0_0_1_n_n none l r) : (⟨S64x68, .f32⟩ : BufTy).Contents (Elt F) → (⟨S68x10, .f32⟩ : BufTy).Contents (Elt F) → (⟨S64x10, .f32⟩ : BufTy).Contents (Elt F)),
    unary main_arg13 main_v133 (broadcastInDim S1x10 ![1] bcast_S10_S1x10_1 : (⟨S10, .f32⟩ : BufTy).Contents (Elt F) → (⟨S1x10, .f32⟩ : BufTy).Contents (Elt F)),
    unary main_v133 main_v134 (broadcastInDim S64x10 ![0, 1] bcast_S1x10_S64x10_0_1 : (⟨S1x10, .f32⟩ : BufTy).Contents (Elt F) → (⟨S64x10, .f32⟩ : BufTy).Contents (Elt F)),
    binary main_v132 main_v134 main_v135 (addf : (⟨S64x10, .f32⟩ : BufTy).Contents (Elt F) → (⟨S64x10, .f32⟩ : BufTy).Contents (Elt F) → (⟨S64x10, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S64x10, .f32⟩) main_call4_v0) (broadcastInDim S64x10 ![] bcast_S_S64x10),
    TRef.binary (TRef.of (T := ⟨S64x10, .f32⟩) main_v135) (TRef.of (T := ⟨S64x10, .f32⟩) main_call4_v0) (TRef.of (T := ⟨S64x10, .f32⟩) main_v136) maximumf,
    binary main_v136 main_arg14 main_v137 ((fun l r => Host.dotGeneral dot_S64x10_S10x1_S64x1_1_0_0_1_n_n none l r) : (⟨S64x10, .f32⟩ : BufTy).Contents (Elt F) → (⟨S10x1, .f32⟩ : BufTy).Contents (Elt F) → (⟨S64x1, .f32⟩ : BufTy).Contents (Elt F)),
    unary main_arg15 main_v138 (broadcastInDim S1x1 ![1] bcast_S1_S1x1_1 : (⟨S1, .f32⟩ : BufTy).Contents (Elt F) → (⟨S1x1, .f32⟩ : BufTy).Contents (Elt F)),
    unary main_v138 main_v139 (broadcastInDim S64x1 ![0, 1] bcast_S1x1_S64x1_0_1 : (⟨S1x1, .f32⟩ : BufTy).Contents (Elt F) → (⟨S64x1, .f32⟩ : BufTy).Contents (Elt F)),
    binary main_v137 main_v139 main_v140 (addf : (⟨S64x1, .f32⟩ : BufTy).Contents (Elt F) → (⟨S64x1, .f32⟩ : BufTy).Contents (Elt F) → (⟨S64x1, .f32⟩ : BufTy).Contents (Elt F)) ]

/-- @main's 181 operations, in order. -/
abbrev ops : List (HloOp τ sig (Elt F)) :=
  ops0 ++ (ops1 ++ (ops2 ++ (ops3 ++ (ops4 ++ (ops5 ++ (ops6 ++ (ops7 ++ (ops8))))))))

/-- Every buffer an operation of the run touches is a TensorCore buffer. -/
theorem ops0_sub : (ops0 : List (HloOp τ sig (Elt F))).Forall fun op => op.bufs ⊆ tcRefs τ sig :=
  ⟨nullary_bufs_sub .., unary_bufs_sub .., reshape_bufs_sub ..⟩
/-- Every operation of the run determines what it writes. -/
theorem ops0_fresh : (ops0 : List (HloOp τ sig (Elt F))).Forall fun op => op.fresh = ∅ :=
  ⟨rfl, rfl, rfl⟩
/-- The buffers the run's operations write. -/
abbrev ops0_W : List (Ref sig .tc) := [main_v0, main_v1, main_v2]
theorem ops0_writes : (ops0 : List (HloOp τ sig (Elt F))).Forall fun op => op.writes ⊆ (ops0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Every buffer an operation of the run touches is a TensorCore buffer. -/
theorem ops1_sub : (ops1 : List (HloOp τ sig (Elt F))).Forall fun op => op.bufs ⊆ tcRefs τ sig :=
  ⟨binary_bufs_sub .., unary_bufs_sub .., reshape_bufs_sub ..⟩
/-- Every operation of the run determines what it writes. -/
theorem ops1_fresh : (ops1 : List (HloOp τ sig (Elt F))).Forall fun op => op.fresh = ∅ :=
  ⟨rfl, rfl, rfl⟩
/-- The buffers the run's operations write. -/
abbrev ops1_W : List (Ref sig .tc) := [main_v3, main_v4, main_v5]
theorem ops1_writes : (ops1 : List (HloOp τ sig (Elt F))).Forall fun op => op.writes ⊆ (ops1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Every buffer an operation of the run touches is a TensorCore buffer. -/
theorem ops2_sub : (ops2 : List (HloOp τ sig (Elt F))).Forall fun op => op.bufs ⊆ tcRefs τ sig :=
  ⟨binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub ..⟩
/-- Every operation of the run determines what it writes. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl⟩
/-- The buffers the run's operations write. -/
abbrev ops2_W : List (Ref sig .tc) := [main_v6, main_cst, main_v7, main_cst_0, main_v8, main_v9, main_v10, main_cst_1, main_v11, main_v12, main_cst_2, main_v13, main_v14, main_cst_3, main_call0_v0, main_call0_v1, main_v15]
theorem ops2_writes : (ops2 : List (HloOp τ sig (Elt F))).Forall fun op => op.writes ⊆ (ops2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Every buffer an operation of the run touches is a TensorCore buffer. -/
theorem ops3_sub : (ops3 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
/-- Every operation of the run determines what it writes. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers the run's operations write. -/
abbrev ops3_W : List (Ref sig .tc) := [main_v16, main_c, main_v17, main_v18, main_c_4, main_v19, main_v20, main_v21, main_v22, main_v23, main_c_5, main_v24, main_v25, main_c_6, main_v26, main_v27, main_v28, main_v29, main_v30, main_v31, main_c_7, main_v32, main_v33, main_c_8, main_v34, main_v35, main_v36, main_v37, main_v38, main_v39, main_v40, main_v41, main_cst_9, main_v42, main_v43, main_v44, main_v45, main_v46, main_v47]
theorem ops3_writes : (ops3 : List (HloOp τ sig (Elt F))).Forall fun op => op.writes ⊆ (ops3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Every buffer an operation of the run touches is a TensorCore buffer. -/
theorem ops4_sub : (ops4 : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
/-- Every operation of the run determines what it writes. -/
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers the run's operations write. -/
abbrev ops4_W : List (Ref sig .tc) := [main_call1_cst, main_call1_v0, main_v48, main_v49, main_c_10, main_v50, main_v51, main_c_11, main_v52, main_v53, main_v54, main_v55, main_v56, main_c_12, main_v57, main_v58, main_c_13, main_v59, main_v60, main_v61, main_v62, main_v63, main_v64, main_c_14, main_v65, main_v66, main_c_15, main_v67, main_v68, main_v69, main_v70, main_v71, main_v72, main_v73, main_v74, main_cst_16, main_v75, main_v76, main_v77, main_v78, main_v79, main_v80]
theorem ops4_writes : (ops4 : List (HloOp τ sig (Elt F))).Forall fun op => op.writes ⊆ (ops4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Every buffer an operation of the run touches is a TensorCore buffer. -/
theorem ops5_sub : (ops5 : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
/-- Every operation of the run determines what it writes. -/
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
/-- The buffers the run's operations write. -/
abbrev ops5_W : List (Ref sig .tc) := [main_call2_cst, main_call2_v0, main_v81, main_v82, main_c_17, main_v83, main_v84, main_c_18, main_v85, main_v86, main_v87, main_v88, main_v89, main_c_19, main_v90, main_v91, main_c_20, main_v92, main_v93, main_v94, main_v95, main_v96]
theorem ops5_writes : (ops5 : List (HloOp τ sig (Elt F))).Forall fun op => op.writes ⊆ (ops5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Every buffer an operation of the run touches is a TensorCore buffer. -/
theorem ops6_sub : (ops6 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
/-- Every operation of the run determines what it writes. -/
theorem ops6_fresh : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
/-- The buffers the run's operations write. -/
abbrev ops6_W : List (Ref sig .tc) := [main_v97, main_c_21, main_v98, main_v99, main_c_22, main_v100, main_v101, main_v102, main_v103, main_v104, main_v105, main_v106, main_v107, main_cst_23, main_v108, main_v109, main_v110, main_v111, main_v112, main_v113]
theorem ops6_writes : (ops6 : List (HloOp τ sig (Elt F))).Forall fun op => op.writes ⊆ (ops6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Every buffer an operation of the run touches is a TensorCore buffer. -/
theorem ops7_sub : (ops7 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub ..⟩
/-- Every operation of the run determines what it writes. -/
theorem ops7_fresh : (ops7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
/-- The buffers the run's operations write. -/
abbrev ops7_W : List (Ref sig .tc) := [main_cst_24, main_v114, main_v115, main_v116, main_cst_25, main_v117, main_cst_26, main_v118, main_v119, main_v120, main_cst_27, main_v121, main_v122, main_v123, main_v124, main_v125, main_v126, main_v127, main_v128, main_v129, main_call3_cst, main_call3_v0, main_v130]
theorem ops7_writes : (ops7 : List (HloOp τ sig (Elt F))).Forall fun op => op.writes ⊆ (ops7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Every buffer an operation of the run touches is a TensorCore buffer. -/
theorem ops8_sub : (ops8 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
/-- Every operation of the run determines what it writes. -/
theorem ops8_fresh : (ops8 : List (HloOp τ sig (Elt F))).Forall fun op => op.fresh = ∅ :=
  ⟨rfl, rfl, rfl, rfl, rfl, rfl, rfl, rfl, rfl, rfl, rfl, rfl⟩
/-- The buffers the run's operations write. -/
abbrev ops8_W : List (Ref sig .tc) := [main_v131, main_v132, main_v133, main_v134, main_v135, main_call4_cst, main_call4_v0, main_v136, main_v137, main_v138, main_v139, main_v140]
theorem ops8_writes : (ops8 : List (HloOp τ sig (Elt F))).Forall fun op => op.writes ⊆ (ops8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h, List.forall_iff_forall_mem.mp ops7_sub op h, List.forall_iff_forall_mem.mp ops8_sub op h]
theorem ops_fresh : ∀ op ∈ (ops : List (HloOp τ sig (Elt F))), op.fresh = ∅ := fun op h => by
  simp only [ops, List.mem_append] at h
  rcases h with h | h | h | h | h | h | h | h | h
  exacts [List.forall_iff_forall_mem.mp ops0_fresh op h, List.forall_iff_forall_mem.mp ops1_fresh op h, List.forall_iff_forall_mem.mp ops2_fresh op h, List.forall_iff_forall_mem.mp ops3_fresh op h, List.forall_iff_forall_mem.mp ops4_fresh op h, List.forall_iff_forall_mem.mp ops5_fresh op h, List.forall_iff_forall_mem.mp ops6_fresh op h, List.forall_iff_forall_mem.mp ops7_fresh op h, List.forall_iff_forall_mem.mp ops8_fresh op h]

/-- The device's buffer contents before the first run. -/
def val0 (V0 : Valuation τ sig (Elt F)) : Valuation τ sig (Elt F) := V0
/-- The device's buffer contents after the first 1 run. -/
def val1 (V0 : Valuation τ sig (Elt F)) : Valuation τ sig (Elt F) := after ops0 (val0 V0)
/-- A buffer the run does not write keeps its contents through it. -/
theorem val1_keep (V0 : Valuation τ sig (Elt F)) (r : Ref sig .tc) (h : r ∉ ops0_W) :
    val1 V0 (Proc.devRef .tc r) = val0 V0 (Proc.devRef .tc r) :=
  after_of_writes_sub ops0 _ ops0_writes h
/-- The device's buffer contents after the first 2 runs. -/
def val2 (V0 : Valuation τ sig (Elt F)) : Valuation τ sig (Elt F) := after ops1 (val1 V0)
/-- A buffer the run does not write keeps its contents through it. -/
theorem val2_keep (V0 : Valuation τ sig (Elt F)) (r : Ref sig .tc) (h : r ∉ ops1_W) :
    val2 V0 (Proc.devRef .tc r) = val1 V0 (Proc.devRef .tc r) :=
  after_of_writes_sub ops1 _ ops1_writes h
/-- The device's buffer contents after the first 3 runs. -/
def val3 (V0 : Valuation τ sig (Elt F)) : Valuation τ sig (Elt F) := after ops2 (val2 V0)
/-- A buffer the run does not write keeps its contents through it. -/
theorem val3_keep (V0 : Valuation τ sig (Elt F)) (r : Ref sig .tc) (h : r ∉ ops2_W) :
    val3 V0 (Proc.devRef .tc r) = val2 V0 (Proc.devRef .tc r) :=
  after_of_writes_sub ops2 _ ops2_writes h
/-- The device's buffer contents after the first 4 runs. -/
def val4 (V0 : Valuation τ sig (Elt F)) : Valuation τ sig (Elt F) := after ops3 (val3 V0)
/-- A buffer the run does not write keeps its contents through it. -/
theorem val4_keep (V0 : Valuation τ sig (Elt F)) (r : Ref sig .tc) (h : r ∉ ops3_W) :
    val4 V0 (Proc.devRef .tc r) = val3 V0 (Proc.devRef .tc r) :=
  after_of_writes_sub ops3 _ ops3_writes h
/-- The device's buffer contents after the first 5 runs. -/
def val5 (V0 : Valuation τ sig (Elt F)) : Valuation τ sig (Elt F) := after ops4 (val4 V0)
/-- A buffer the run does not write keeps its contents through it. -/
theorem val5_keep (V0 : Valuation τ sig (Elt F)) (r : Ref sig .tc) (h : r ∉ ops4_W) :
    val5 V0 (Proc.devRef .tc r) = val4 V0 (Proc.devRef .tc r) :=
  after_of_writes_sub ops4 _ ops4_writes h
/-- The device's buffer contents after the first 6 runs. -/
def val6 (V0 : Valuation τ sig (Elt F)) : Valuation τ sig (Elt F) := after ops5 (val5 V0)
/-- A buffer the run does not write keeps its contents through it. -/
theorem val6_keep (V0 : Valuation τ sig (Elt F)) (r : Ref sig .tc) (h : r ∉ ops5_W) :
    val6 V0 (Proc.devRef .tc r) = val5 V0 (Proc.devRef .tc r) :=
  after_of_writes_sub ops5 _ ops5_writes h
/-- The device's buffer contents after the first 7 runs. -/
def val7 (V0 : Valuation τ sig (Elt F)) : Valuation τ sig (Elt F) := after ops6 (val6 V0)
/-- A buffer the run does not write keeps its contents through it. -/
theorem val7_keep (V0 : Valuation τ sig (Elt F)) (r : Ref sig .tc) (h : r ∉ ops6_W) :
    val7 V0 (Proc.devRef .tc r) = val6 V0 (Proc.devRef .tc r) :=
  after_of_writes_sub ops6 _ ops6_writes h
/-- The device's buffer contents after the first 8 runs. -/
def val8 (V0 : Valuation τ sig (Elt F)) : Valuation τ sig (Elt F) := after ops7 (val7 V0)
/-- A buffer the run does not write keeps its contents through it. -/
theorem val8_keep (V0 : Valuation τ sig (Elt F)) (r : Ref sig .tc) (h : r ∉ ops7_W) :
    val8 V0 (Proc.devRef .tc r) = val7 V0 (Proc.devRef .tc r) :=
  after_of_writes_sub ops7 _ ops7_writes h
/-- The device's buffer contents after the first 9 runs. -/
def val9 (V0 : Valuation τ sig (Elt F)) : Valuation τ sig (Elt F) := after ops8 (val8 V0)
/-- A buffer the run does not write keeps its contents through it. -/
theorem val9_keep (V0 : Valuation τ sig (Elt F)) (r : Ref sig .tc) (h : r ∉ ops8_W) :
    val9 V0 (Proc.devRef .tc r) = val8 V0 (Proc.devRef .tc r) :=
  after_of_writes_sub ops8 _ ops8_writes h

/-- The fold over two lists one after the other is the second's fold after the first's. -/
theorem after_app (l₁ l₂ : List (HloOp τ sig (Elt F))) (V : Valuation τ sig (Elt F)) : after (l₁ ++ l₂) V = after l₂ (after l₁ V) := by
  induction l₁ generalizing V with
  | nil => rfl
  | cons op l ih => simp only [List.cons_append, after_cons, ih]
/-- The whole list's fold is the runs' folds composed. -/
theorem after_ops (V0 : Valuation τ sig (Elt F)) : after ops V0 = val9 V0 := by
  simp only [ops, after_app]
  rfl

theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl
theorem val0_main_arg10 (V0 : Valuation τ sig (Elt F)) : val0 V0 (no_index (Proc.devRef .tc main_arg10)) = V0 (Proc.devRef .tc main_arg10) := rfl
theorem val0_main_arg11 (V0 : Valuation τ sig (Elt F)) : val0 V0 (no_index (Proc.devRef .tc main_arg11)) = V0 (Proc.devRef .tc main_arg11) := rfl
theorem val0_main_arg12 (V0 : Valuation τ sig (Elt F)) : val0 V0 (no_index (Proc.devRef .tc main_arg12)) = V0 (Proc.devRef .tc main_arg12) := rfl
theorem val0_main_arg13 (V0 : Valuation τ sig (Elt F)) : val0 V0 (no_index (Proc.devRef .tc main_arg13)) = V0 (Proc.devRef .tc main_arg13) := rfl
theorem val0_main_arg14 (V0 : Valuation τ sig (Elt F)) : val0 V0 (no_index (Proc.devRef .tc main_arg14)) = V0 (Proc.devRef .tc main_arg14) := rfl
theorem val0_main_arg15 (V0 : Valuation τ sig (Elt F)) : val0 V0 (no_index (Proc.devRef .tc main_arg15)) = V0 (Proc.devRef .tc main_arg15) := rfl
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
theorem val1_main_arg8 (V0 : Valuation τ sig (Elt F)) : val1 V0 (no_index (Proc.devRef .tc main_arg8)) = V0 (Proc.devRef .tc main_arg8) :=
  (val1_keep V0 main_arg8 (by decide)).trans (val0_main_arg8 V0)
theorem val1_main_arg9 (V0 : Valuation τ sig (Elt F)) : val1 V0 (no_index (Proc.devRef .tc main_arg9)) = V0 (Proc.devRef .tc main_arg9) :=
  (val1_keep V0 main_arg9 (by decide)).trans (val0_main_arg9 V0)
theorem val1_main_arg10 (V0 : Valuation τ sig (Elt F)) : val1 V0 (no_index (Proc.devRef .tc main_arg10)) = V0 (Proc.devRef .tc main_arg10) :=
  (val1_keep V0 main_arg10 (by decide)).trans (val0_main_arg10 V0)
theorem val1_main_arg11 (V0 : Valuation τ sig (Elt F)) : val1 V0 (no_index (Proc.devRef .tc main_arg11)) = V0 (Proc.devRef .tc main_arg11) :=
  (val1_keep V0 main_arg11 (by decide)).trans (val0_main_arg11 V0)
theorem val1_main_arg12 (V0 : Valuation τ sig (Elt F)) : val1 V0 (no_index (Proc.devRef .tc main_arg12)) = V0 (Proc.devRef .tc main_arg12) :=
  (val1_keep V0 main_arg12 (by decide)).trans (val0_main_arg12 V0)
theorem val1_main_arg13 (V0 : Valuation τ sig (Elt F)) : val1 V0 (no_index (Proc.devRef .tc main_arg13)) = V0 (Proc.devRef .tc main_arg13) :=
  (val1_keep V0 main_arg13 (by decide)).trans (val0_main_arg13 V0)
theorem val1_main_arg14 (V0 : Valuation τ sig (Elt F)) : val1 V0 (no_index (Proc.devRef .tc main_arg14)) = V0 (Proc.devRef .tc main_arg14) :=
  (val1_keep V0 main_arg14 (by decide)).trans (val0_main_arg14 V0)
theorem val1_main_arg15 (V0 : Valuation τ sig (Elt F)) : val1 V0 (no_index (Proc.devRef .tc main_arg15)) = V0 (Proc.devRef .tc main_arg15) :=
  (val1_keep V0 main_arg15 (by decide)).trans (val0_main_arg15 V0)
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_arg9 (V0 : Valuation τ sig (Elt F)) : val2 V0 (no_index (Proc.devRef .tc main_arg9)) = V0 (Proc.devRef .tc main_arg9) :=
  (val2_keep V0 main_arg9 (by decide)).trans (val1_main_arg9 V0)
theorem val2_main_arg10 (V0 : Valuation τ sig (Elt F)) : val2 V0 (no_index (Proc.devRef .tc main_arg10)) = V0 (Proc.devRef .tc main_arg10) :=
  (val2_keep V0 main_arg10 (by decide)).trans (val1_main_arg10 V0)
theorem val2_main_arg11 (V0 : Valuation τ sig (Elt F)) : val2 V0 (no_index (Proc.devRef .tc main_arg11)) = V0 (Proc.devRef .tc main_arg11) :=
  (val2_keep V0 main_arg11 (by decide)).trans (val1_main_arg11 V0)
theorem val2_main_arg12 (V0 : Valuation τ sig (Elt F)) : val2 V0 (no_index (Proc.devRef .tc main_arg12)) = V0 (Proc.devRef .tc main_arg12) :=
  (val2_keep V0 main_arg12 (by decide)).trans (val1_main_arg12 V0)
theorem val2_main_arg13 (V0 : Valuation τ sig (Elt F)) : val2 V0 (no_index (Proc.devRef .tc main_arg13)) = V0 (Proc.devRef .tc main_arg13) :=
  (val2_keep V0 main_arg13 (by decide)).trans (val1_main_arg13 V0)
theorem val2_main_arg14 (V0 : Valuation τ sig (Elt F)) : val2 V0 (no_index (Proc.devRef .tc main_arg14)) = V0 (Proc.devRef .tc main_arg14) :=
  (val2_keep V0 main_arg14 (by decide)).trans (val1_main_arg14 V0)
theorem val2_main_arg15 (V0 : Valuation τ sig (Elt F)) : val2 V0 (no_index (Proc.devRef .tc main_arg15)) = V0 (Proc.devRef .tc main_arg15) :=
  (val2_keep V0 main_arg15 (by decide)).trans (val1_main_arg15 V0)
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)
theorem val3_main_arg10 (V0 : Valuation τ sig (Elt F)) : val3 V0 (no_index (Proc.devRef .tc main_arg10)) = V0 (Proc.devRef .tc main_arg10) :=
  (val3_keep V0 main_arg10 (by decide)).trans (val2_main_arg10 V0)
theorem val3_main_arg11 (V0 : Valuation τ sig (Elt F)) : val3 V0 (no_index (Proc.devRef .tc main_arg11)) = V0 (Proc.devRef .tc main_arg11) :=
  (val3_keep V0 main_arg11 (by decide)).trans (val2_main_arg11 V0)
theorem val3_main_arg12 (V0 : Valuation τ sig (Elt F)) : val3 V0 (no_index (Proc.devRef .tc main_arg12)) = V0 (Proc.devRef .tc main_arg12) :=
  (val3_keep V0 main_arg12 (by decide)).trans (val2_main_arg12 V0)
theorem val3_main_arg13 (V0 : Valuation τ sig (Elt F)) : val3 V0 (no_index (Proc.devRef .tc main_arg13)) = V0 (Proc.devRef .tc main_arg13) :=
  (val3_keep V0 main_arg13 (by decide)).trans (val2_main_arg13 V0)
theorem val3_main_arg14 (V0 : Valuation τ sig (Elt F)) : val3 V0 (no_index (Proc.devRef .tc main_arg14)) = V0 (Proc.devRef .tc main_arg14) :=
  (val3_keep V0 main_arg14 (by decide)).trans (val2_main_arg14 V0)
theorem val3_main_arg15 (V0 : Valuation τ sig (Elt F)) : val3 V0 (no_index (Proc.devRef .tc main_arg15)) = V0 (Proc.devRef .tc main_arg15) :=
  (val3_keep V0 main_arg15 (by decide)).trans (val2_main_arg15 V0)
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_arg8 (V0 : Valuation τ sig (Elt F)) : val4 V0 (no_index (Proc.devRef .tc main_arg8)) = V0 (Proc.devRef .tc main_arg8) :=
  (val4_keep V0 main_arg8 (by decide)).trans (val3_main_arg8 V0)
theorem val4_main_arg9 (V0 : Valuation τ sig (Elt F)) : val4 V0 (no_index (Proc.devRef .tc main_arg9)) = V0 (Proc.devRef .tc main_arg9) :=
  (val4_keep V0 main_arg9 (by decide)).trans (val3_main_arg9 V0)
theorem val4_main_arg10 (V0 : Valuation τ sig (Elt F)) : val4 V0 (no_index (Proc.devRef .tc main_arg10)) = V0 (Proc.devRef .tc main_arg10) :=
  (val4_keep V0 main_arg10 (by decide)).trans (val3_main_arg10 V0)
theorem val4_main_arg11 (V0 : Valuation τ sig (Elt F)) : val4 V0 (no_index (Proc.devRef .tc main_arg11)) = V0 (Proc.devRef .tc main_arg11) :=
  (val4_keep V0 main_arg11 (by decide)).trans (val3_main_arg11 V0)
theorem val4_main_arg12 (V0 : Valuation τ sig (Elt F)) : val4 V0 (no_index (Proc.devRef .tc main_arg12)) = V0 (Proc.devRef .tc main_arg12) :=
  (val4_keep V0 main_arg12 (by decide)).trans (val3_main_arg12 V0)
theorem val4_main_arg13 (V0 : Valuation τ sig (Elt F)) : val4 V0 (no_index (Proc.devRef .tc main_arg13)) = V0 (Proc.devRef .tc main_arg13) :=
  (val4_keep V0 main_arg13 (by decide)).trans (val3_main_arg13 V0)
theorem val4_main_arg14 (V0 : Valuation τ sig (Elt F)) : val4 V0 (no_index (Proc.devRef .tc main_arg14)) = V0 (Proc.devRef .tc main_arg14) :=
  (val4_keep V0 main_arg14 (by decide)).trans (val3_main_arg14 V0)
theorem val4_main_arg15 (V0 : Valuation τ sig (Elt F)) : val4 V0 (no_index (Proc.devRef .tc main_arg15)) = V0 (Proc.devRef .tc main_arg15) :=
  (val4_keep V0 main_arg15 (by decide)).trans (val3_main_arg15 V0)
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_arg7 (V0 : Valuation τ sig (Elt F)) : val5 V0 (no_index (Proc.devRef .tc main_arg7)) = V0 (Proc.devRef .tc main_arg7) :=
  (val5_keep V0 main_arg7 (by decide)).trans (val4_main_arg7 V0)
theorem val5_main_arg8 (V0 : Valuation τ sig (Elt F)) : val5 V0 (no_index (Proc.devRef .tc main_arg8)) = V0 (Proc.devRef .tc main_arg8) :=
  (val5_keep V0 main_arg8 (by decide)).trans (val4_main_arg8 V0)
theorem val5_main_arg9 (V0 : Valuation τ sig (Elt F)) : val5 V0 (no_index (Proc.devRef .tc main_arg9)) = V0 (Proc.devRef .tc main_arg9) :=
  (val5_keep V0 main_arg9 (by decide)).trans (val4_main_arg9 V0)
theorem val5_main_arg10 (V0 : Valuation τ sig (Elt F)) : val5 V0 (no_index (Proc.devRef .tc main_arg10)) = V0 (Proc.devRef .tc main_arg10) :=
  (val5_keep V0 main_arg10 (by decide)).trans (val4_main_arg10 V0)
theorem val5_main_arg11 (V0 : Valuation τ sig (Elt F)) : val5 V0 (no_index (Proc.devRef .tc main_arg11)) = V0 (Proc.devRef .tc main_arg11) :=
  (val5_keep V0 main_arg11 (by decide)).trans (val4_main_arg11 V0)
theorem val5_main_arg12 (V0 : Valuation τ sig (Elt F)) : val5 V0 (no_index (Proc.devRef .tc main_arg12)) = V0 (Proc.devRef .tc main_arg12) :=
  (val5_keep V0 main_arg12 (by decide)).trans (val4_main_arg12 V0)
theorem val5_main_arg13 (V0 : Valuation τ sig (Elt F)) : val5 V0 (no_index (Proc.devRef .tc main_arg13)) = V0 (Proc.devRef .tc main_arg13) :=
  (val5_keep V0 main_arg13 (by decide)).trans (val4_main_arg13 V0)
theorem val5_main_arg14 (V0 : Valuation τ sig (Elt F)) : val5 V0 (no_index (Proc.devRef .tc main_arg14)) = V0 (Proc.devRef .tc main_arg14) :=
  (val5_keep V0 main_arg14 (by decide)).trans (val4_main_arg14 V0)
theorem val5_main_arg15 (V0 : Valuation τ sig (Elt F)) : val5 V0 (no_index (Proc.devRef .tc main_arg15)) = V0 (Proc.devRef .tc main_arg15) :=
  (val5_keep V0 main_arg15 (by decide)).trans (val4_main_arg15 V0)
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
theorem val6_main_arg7 (V0 : Valuation τ sig (Elt F)) : val6 V0 (no_index (Proc.devRef .tc main_arg7)) = V0 (Proc.devRef .tc main_arg7) :=
  (val6_keep V0 main_arg7 (by decide)).trans (val5_main_arg7 V0)
theorem val6_main_arg8 (V0 : Valuation τ sig (Elt F)) : val6 V0 (no_index (Proc.devRef .tc main_arg8)) = V0 (Proc.devRef .tc main_arg8) :=
  (val6_keep V0 main_arg8 (by decide)).trans (val5_main_arg8 V0)
theorem val6_main_arg9 (V0 : Valuation τ sig (Elt F)) : val6 V0 (no_index (Proc.devRef .tc main_arg9)) = V0 (Proc.devRef .tc main_arg9) :=
  (val6_keep V0 main_arg9 (by decide)).trans (val5_main_arg9 V0)
theorem val6_main_arg10 (V0 : Valuation τ sig (Elt F)) : val6 V0 (no_index (Proc.devRef .tc main_arg10)) = V0 (Proc.devRef .tc main_arg10) :=
  (val6_keep V0 main_arg10 (by decide)).trans (val5_main_arg10 V0)
theorem val6_main_arg11 (V0 : Valuation τ sig (Elt F)) : val6 V0 (no_index (Proc.devRef .tc main_arg11)) = V0 (Proc.devRef .tc main_arg11) :=
  (val6_keep V0 main_arg11 (by decide)).trans (val5_main_arg11 V0)
theorem val6_main_arg12 (V0 : Valuation τ sig (Elt F)) : val6 V0 (no_index (Proc.devRef .tc main_arg12)) = V0 (Proc.devRef .tc main_arg12) :=
  (val6_keep V0 main_arg12 (by decide)).trans (val5_main_arg12 V0)
theorem val6_main_arg13 (V0 : Valuation τ sig (Elt F)) : val6 V0 (no_index (Proc.devRef .tc main_arg13)) = V0 (Proc.devRef .tc main_arg13) :=
  (val6_keep V0 main_arg13 (by decide)).trans (val5_main_arg13 V0)
theorem val6_main_arg14 (V0 : Valuation τ sig (Elt F)) : val6 V0 (no_index (Proc.devRef .tc main_arg14)) = V0 (Proc.devRef .tc main_arg14) :=
  (val6_keep V0 main_arg14 (by decide)).trans (val5_main_arg14 V0)
theorem val6_main_arg15 (V0 : Valuation τ sig (Elt F)) : val6 V0 (no_index (Proc.devRef .tc main_arg15)) = V0 (Proc.devRef .tc main_arg15) :=
  (val6_keep V0 main_arg15 (by decide)).trans (val5_main_arg15 V0)
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_arg4 (V0 : Valuation τ sig (Elt F)) : val7 V0 (no_index (Proc.devRef .tc main_arg4)) = V0 (Proc.devRef .tc main_arg4) :=
  (val7_keep V0 main_arg4 (by decide)).trans (val6_main_arg4 V0)
theorem val7_main_arg5 (V0 : Valuation τ sig (Elt F)) : val7 V0 (no_index (Proc.devRef .tc main_arg5)) = V0 (Proc.devRef .tc main_arg5) :=
  (val7_keep V0 main_arg5 (by decide)).trans (val6_main_arg5 V0)
theorem val7_main_arg6 (V0 : Valuation τ sig (Elt F)) : val7 V0 (no_index (Proc.devRef .tc main_arg6)) = V0 (Proc.devRef .tc main_arg6) :=
  (val7_keep V0 main_arg6 (by decide)).trans (val6_main_arg6 V0)
theorem val7_main_arg7 (V0 : Valuation τ sig (Elt F)) : val7 V0 (no_index (Proc.devRef .tc main_arg7)) = V0 (Proc.devRef .tc main_arg7) :=
  (val7_keep V0 main_arg7 (by decide)).trans (val6_main_arg7 V0)
theorem val7_main_arg8 (V0 : Valuation τ sig (Elt F)) : val7 V0 (no_index (Proc.devRef .tc main_arg8)) = V0 (Proc.devRef .tc main_arg8) :=
  (val7_keep V0 main_arg8 (by decide)).trans (val6_main_arg8 V0)
theorem val7_main_arg9 (V0 : Valuation τ sig (Elt F)) : val7 V0 (no_index (Proc.devRef .tc main_arg9)) = V0 (Proc.devRef .tc main_arg9) :=
  (val7_keep V0 main_arg9 (by decide)).trans (val6_main_arg9 V0)
theorem val7_main_arg10 (V0 : Valuation τ sig (Elt F)) : val7 V0 (no_index (Proc.devRef .tc main_arg10)) = V0 (Proc.devRef .tc main_arg10) :=
  (val7_keep V0 main_arg10 (by decide)).trans (val6_main_arg10 V0)
theorem val7_main_arg11 (V0 : Valuation τ sig (Elt F)) : val7 V0 (no_index (Proc.devRef .tc main_arg11)) = V0 (Proc.devRef .tc main_arg11) :=
  (val7_keep V0 main_arg11 (by decide)).trans (val6_main_arg11 V0)
theorem val7_main_arg12 (V0 : Valuation τ sig (Elt F)) : val7 V0 (no_index (Proc.devRef .tc main_arg12)) = V0 (Proc.devRef .tc main_arg12) :=
  (val7_keep V0 main_arg12 (by decide)).trans (val6_main_arg12 V0)
theorem val7_main_arg13 (V0 : Valuation τ sig (Elt F)) : val7 V0 (no_index (Proc.devRef .tc main_arg13)) = V0 (Proc.devRef .tc main_arg13) :=
  (val7_keep V0 main_arg13 (by decide)).trans (val6_main_arg13 V0)
theorem val7_main_arg14 (V0 : Valuation τ sig (Elt F)) : val7 V0 (no_index (Proc.devRef .tc main_arg14)) = V0 (Proc.devRef .tc main_arg14) :=
  (val7_keep V0 main_arg14 (by decide)).trans (val6_main_arg14 V0)
theorem val7_main_arg15 (V0 : Valuation τ sig (Elt F)) : val7 V0 (no_index (Proc.devRef .tc main_arg15)) = V0 (Proc.devRef .tc main_arg15) :=
  (val7_keep V0 main_arg15 (by decide)).trans (val6_main_arg15 V0)
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
theorem val8_main_arg3 (V0 : Valuation τ sig (Elt F)) : val8 V0 (no_index (Proc.devRef .tc main_arg3)) = V0 (Proc.devRef .tc main_arg3) :=
  (val8_keep V0 main_arg3 (by decide)).trans (val7_main_arg3 V0)
theorem val8_main_arg4 (V0 : Valuation τ sig (Elt F)) : val8 V0 (no_index (Proc.devRef .tc main_arg4)) = V0 (Proc.devRef .tc main_arg4) :=
  (val8_keep V0 main_arg4 (by decide)).trans (val7_main_arg4 V0)
theorem val8_main_arg5 (V0 : Valuation τ sig (Elt F)) : val8 V0 (no_index (Proc.devRef .tc main_arg5)) = V0 (Proc.devRef .tc main_arg5) :=
  (val8_keep V0 main_arg5 (by decide)).trans (val7_main_arg5 V0)
theorem val8_main_arg6 (V0 : Valuation τ sig (Elt F)) : val8 V0 (no_index (Proc.devRef .tc main_arg6)) = V0 (Proc.devRef .tc main_arg6) :=
  (val8_keep V0 main_arg6 (by decide)).trans (val7_main_arg6 V0)
theorem val8_main_arg7 (V0 : Valuation τ sig (Elt F)) : val8 V0 (no_index (Proc.devRef .tc main_arg7)) = V0 (Proc.devRef .tc main_arg7) :=
  (val8_keep V0 main_arg7 (by decide)).trans (val7_main_arg7 V0)
theorem val8_main_arg8 (V0 : Valuation τ sig (Elt F)) : val8 V0 (no_index (Proc.devRef .tc main_arg8)) = V0 (Proc.devRef .tc main_arg8) :=
  (val8_keep V0 main_arg8 (by decide)).trans (val7_main_arg8 V0)
theorem val8_main_arg9 (V0 : Valuation τ sig (Elt F)) : val8 V0 (no_index (Proc.devRef .tc main_arg9)) = V0 (Proc.devRef .tc main_arg9) :=
  (val8_keep V0 main_arg9 (by decide)).trans (val7_main_arg9 V0)
theorem val8_main_arg10 (V0 : Valuation τ sig (Elt F)) : val8 V0 (no_index (Proc.devRef .tc main_arg10)) = V0 (Proc.devRef .tc main_arg10) :=
  (val8_keep V0 main_arg10 (by decide)).trans (val7_main_arg10 V0)
theorem val8_main_arg11 (V0 : Valuation τ sig (Elt F)) : val8 V0 (no_index (Proc.devRef .tc main_arg11)) = V0 (Proc.devRef .tc main_arg11) :=
  (val8_keep V0 main_arg11 (by decide)).trans (val7_main_arg11 V0)
theorem val8_main_arg12 (V0 : Valuation τ sig (Elt F)) : val8 V0 (no_index (Proc.devRef .tc main_arg12)) = V0 (Proc.devRef .tc main_arg12) :=
  (val8_keep V0 main_arg12 (by decide)).trans (val7_main_arg12 V0)
theorem val8_main_arg13 (V0 : Valuation τ sig (Elt F)) : val8 V0 (no_index (Proc.devRef .tc main_arg13)) = V0 (Proc.devRef .tc main_arg13) :=
  (val8_keep V0 main_arg13 (by decide)).trans (val7_main_arg13 V0)
theorem val8_main_arg14 (V0 : Valuation τ sig (Elt F)) : val8 V0 (no_index (Proc.devRef .tc main_arg14)) = V0 (Proc.devRef .tc main_arg14) :=
  (val8_keep V0 main_arg14 (by decide)).trans (val7_main_arg14 V0)
theorem val8_main_arg15 (V0 : Valuation τ sig (Elt F)) : val8 V0 (no_index (Proc.devRef .tc main_arg15)) = V0 (Proc.devRef .tc main_arg15) :=
  (val8_keep V0 main_arg15 (by decide)).trans (val7_main_arg15 V0)
theorem val9_main_arg0 (V0 : Valuation τ sig (Elt F)) : val9 V0 (no_index (Proc.devRef .tc main_arg0)) = V0 (Proc.devRef .tc main_arg0) :=
  (val9_keep V0 main_arg0 (by decide)).trans (val8_main_arg0 V0)
theorem val9_main_arg1 (V0 : Valuation τ sig (Elt F)) : val9 V0 (no_index (Proc.devRef .tc main_arg1)) = V0 (Proc.devRef .tc main_arg1) :=
  (val9_keep V0 main_arg1 (by decide)).trans (val8_main_arg1 V0)
theorem val9_main_arg2 (V0 : Valuation τ sig (Elt F)) : val9 V0 (no_index (Proc.devRef .tc main_arg2)) = V0 (Proc.devRef .tc main_arg2) :=
  (val9_keep V0 main_arg2 (by decide)).trans (val8_main_arg2 V0)
theorem val9_main_arg3 (V0 : Valuation τ sig (Elt F)) : val9 V0 (no_index (Proc.devRef .tc main_arg3)) = V0 (Proc.devRef .tc main_arg3) :=
  (val9_keep V0 main_arg3 (by decide)).trans (val8_main_arg3 V0)
theorem val9_main_arg4 (V0 : Valuation τ sig (Elt F)) : val9 V0 (no_index (Proc.devRef .tc main_arg4)) = V0 (Proc.devRef .tc main_arg4) :=
  (val9_keep V0 main_arg4 (by decide)).trans (val8_main_arg4 V0)
theorem val9_main_arg5 (V0 : Valuation τ sig (Elt F)) : val9 V0 (no_index (Proc.devRef .tc main_arg5)) = V0 (Proc.devRef .tc main_arg5) :=
  (val9_keep V0 main_arg5 (by decide)).trans (val8_main_arg5 V0)
theorem val9_main_arg6 (V0 : Valuation τ sig (Elt F)) : val9 V0 (no_index (Proc.devRef .tc main_arg6)) = V0 (Proc.devRef .tc main_arg6) :=
  (val9_keep V0 main_arg6 (by decide)).trans (val8_main_arg6 V0)
theorem val9_main_arg7 (V0 : Valuation τ sig (Elt F)) : val9 V0 (no_index (Proc.devRef .tc main_arg7)) = V0 (Proc.devRef .tc main_arg7) :=
  (val9_keep V0 main_arg7 (by decide)).trans (val8_main_arg7 V0)
theorem val9_main_arg8 (V0 : Valuation τ sig (Elt F)) : val9 V0 (no_index (Proc.devRef .tc main_arg8)) = V0 (Proc.devRef .tc main_arg8) :=
  (val9_keep V0 main_arg8 (by decide)).trans (val8_main_arg8 V0)
theorem val9_main_arg9 (V0 : Valuation τ sig (Elt F)) : val9 V0 (no_index (Proc.devRef .tc main_arg9)) = V0 (Proc.devRef .tc main_arg9) :=
  (val9_keep V0 main_arg9 (by decide)).trans (val8_main_arg9 V0)
theorem val9_main_arg10 (V0 : Valuation τ sig (Elt F)) : val9 V0 (no_index (Proc.devRef .tc main_arg10)) = V0 (Proc.devRef .tc main_arg10) :=
  (val9_keep V0 main_arg10 (by decide)).trans (val8_main_arg10 V0)
theorem val9_main_arg11 (V0 : Valuation τ sig (Elt F)) : val9 V0 (no_index (Proc.devRef .tc main_arg11)) = V0 (Proc.devRef .tc main_arg11) :=
  (val9_keep V0 main_arg11 (by decide)).trans (val8_main_arg11 V0)
theorem val9_main_arg12 (V0 : Valuation τ sig (Elt F)) : val9 V0 (no_index (Proc.devRef .tc main_arg12)) = V0 (Proc.devRef .tc main_arg12) :=
  (val9_keep V0 main_arg12 (by decide)).trans (val8_main_arg12 V0)
theorem val9_main_arg13 (V0 : Valuation τ sig (Elt F)) : val9 V0 (no_index (Proc.devRef .tc main_arg13)) = V0 (Proc.devRef .tc main_arg13) :=
  (val9_keep V0 main_arg13 (by decide)).trans (val8_main_arg13 V0)
theorem val9_main_arg14 (V0 : Valuation τ sig (Elt F)) : val9 V0 (no_index (Proc.devRef .tc main_arg14)) = V0 (Proc.devRef .tc main_arg14) :=
  (val9_keep V0 main_arg14 (by decide)).trans (val8_main_arg14 V0)
theorem val9_main_arg15 (V0 : Valuation τ sig (Elt F)) : val9 V0 (no_index (Proc.devRef .tc main_arg15)) = V0 (Proc.devRef .tc main_arg15) :=
  (val9_keep V0 main_arg15 (by decide)).trans (val8_main_arg15 V0)

end Cert.ReferenceIdeal.RunH

end
-- ==== Proof.RefRunHMain.lean ====
import proofs.«417346_j54202487276072_2_alg».proof.Proof.RefRunH0

set_option maxRecDepth 8192

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
theorem main_part0_eq (c : Dev nD) : main_part0 (F := F) c = seq (ops0 ++ (ops1 ++ (ops2 ++ (ops3)))) := rfl
set_option maxHeartbeats 4000000 in
theorem main_part1_eq (c : Dev nD) : main_part1 (F := F) c = seq (ops4 ++ (ops5)) := rfl
set_option maxHeartbeats 4000000 in
theorem main_part2_eq (c : Dev nD) : main_part2 (F := F) c = seq (ops6 ++ (ops7 ++ (ops8))) := rfl
set_option maxHeartbeats 4000000 in
theorem main_eq (c : Dev nD) : main (F := F) c = seq ops := by
  have e : (ops : List (HloOp τ sig (Elt F))) = (ops0 ++ (ops1 ++ (ops2 ++ (ops3)))) ++ ((ops4 ++ (ops5)) ++ ((ops6 ++ (ops7 ++ (ops8))))) := by
    simp only [ops, List.append_assoc]
  rw [e, seq_append (ops0 ++ (ops1 ++ (ops2 ++ (ops3)))), seq_append (ops4 ++ (ops5)), ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide

end Cert.ReferenceIdeal.RunH

end
-- ==== Proof.RefRunH1.lean ====
import proofs.«417346_j54202487276072_2_alg».proof.Proof.RefRunH0
import proofs.«417346_j54202487276072_2_alg».proof.Proof.RefRead

set_option maxRecDepth 8192

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
theorem val1_main_v0 (V0 : Valuation τ sig (Elt F)) : val1 V0 (no_index (Proc.devRef .tc main_v0)) = ReadP.val_main_v0 (F := F) := by
  unfold val1
  simp only [ops0]
  after_results_simp
  first | done | rfl
set_option maxHeartbeats 4000000 in
theorem val1_main_v2 (V0 : Valuation τ sig (Elt F)) : val1 V0 (no_index (Proc.devRef .tc main_v2)) = ReadP.val_main_v2 (F := F) (V0 (Proc.devRef .tc main_arg1)) := by
  unfold val1
  simp only [ops0]
  after_results_simp
  try simp only [val0_main_arg1]
  first | done | rfl
theorem val2_main_v0 (V0 : Valuation τ sig (Elt F)) : val2 V0 (no_index (Proc.devRef .tc main_v0)) = ReadP.val_main_v0 (F := F) :=
  (val2_keep V0 main_v0 (by decide)).trans (val1_main_v0 V0)
set_option maxHeartbeats 4000000 in
theorem val2_main_v3 (V0 : Valuation τ sig (Elt F)) : val2 V0 (no_index (Proc.devRef .tc main_v3)) = ReadP.val_main_v3 (F := F) (V0 (Proc.devRef .tc main_arg1)) := by
  unfold val2
  simp only [ops1]
  after_results_simp
  try simp only [val1_main_v0, val1_main_v2]
  try rw [show val1 V0 (Proc.devRef .tc main_v2) = _ from val1_main_v2 V0]
  try rw [show val1 V0 (Proc.devRef .tc main_v0) = _ from val1_main_v0 V0]
  first | done | rfl
set_option maxHeartbeats 4000000 in
theorem val2_main_v5 (V0 : Valuation τ sig (Elt F)) : val2 V0 (no_index (Proc.devRef .tc main_v5)) = ReadP.val_main_v5 (F := F) (V0 (Proc.devRef .tc main_arg1)) := by
  unfold val2
  simp only [ops1]
  after_results_simp
  try simp only [val1_main_arg1]
  first | done | rfl
theorem val3_main_v3 (V0 : Valuation τ sig (Elt F)) : val3 V0 (no_index (Proc.devRef .tc main_v3)) = ReadP.val_main_v3 (F := F) (V0 (Proc.devRef .tc main_arg1)) :=
  (val3_keep V0 main_v3 (by decide)).trans (val2_main_v3 V0)
set_option maxHeartbeats 4000000 in
theorem val3_main_v6 (V0 : Valuation τ sig (Elt F)) : val3 V0 (no_index (Proc.devRef .tc main_v6)) = ReadP.val_main_v6 (F := F) (V0 (Proc.devRef .tc main_arg1)) := by
  unfold val3
  simp only [ops2]
  after_results_simp
  try simp only [val2_main_v0, val2_main_v5]
  try rw [show val2 V0 (Proc.devRef .tc main_v5) = _ from val2_main_v5 V0]
  try rw [show val2 V0 (Proc.devRef .tc main_v0) = _ from val2_main_v0 V0]
  first | done | rfl
set_option maxHeartbeats 4000000 in
theorem val3_main_v15 (V0 : Valuation τ sig (Elt F)) : val3 V0 (no_index (Proc.devRef .tc main_v15)) = ReadP.val_main_v15 (F := F) (V0 (Proc.devRef .tc main_arg1)) := by
  unfold val3
  simp only [ops2]
  after_results_simp
  try simp only [val2_main_v0, val2_main_v5]
  try rw [show val2 V0 (Proc.devRef .tc main_v5) = _ from val2_main_v5 V0]
  try rw [show val2 V0 (Proc.devRef .tc main_v0) = _ from val2_main_v0 V0]
  first | done | rfl

end Cert.ReferenceIdeal.RunH

end
-- ==== Proof.RefRunH2.lean ====
import proofs.«417346_j54202487276072_2_alg».proof.Proof.RefRunH1

set_option maxRecDepth 8192

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

theorem val4_main_v3 (V0 : Valuation τ sig (Elt F)) : val4 V0 (no_index (Proc.devRef .tc main_v3)) = ReadP.val_main_v3 (F := F) (V0 (Proc.devRef .tc main_arg1)) :=
  (val4_keep V0 main_v3 (by decide)).trans (val3_main_v3 V0)
theorem val4_main_v6 (V0 : Valuation τ sig (Elt F)) : val4 V0 (no_index (Proc.devRef .tc main_v6)) = ReadP.val_main_v6 (F := F) (V0 (Proc.devRef .tc main_arg1)) :=
  (val4_keep V0 main_v6 (by decide)).trans (val3_main_v6 V0)
theorem val4_main_v15 (V0 : Valuation τ sig (Elt F)) : val4 V0 (no_index (Proc.devRef .tc main_v15)) = ReadP.val_main_v15 (F := F) (V0 (Proc.devRef .tc main_arg1)) :=
  (val4_keep V0 main_v15 (by decide)).trans (val3_main_v15 V0)
set_option maxHeartbeats 4000000 in
theorem val4_main_v47 (V0 : Valuation τ sig (Elt F)) : val4 V0 (no_index (Proc.devRef .tc main_v47)) = ReadP.val_main_v47 (F := F) (V0 (Proc.devRef .tc main_arg0)) (V0 (Proc.devRef .tc main_arg1)) (V0 (Proc.devRef .tc main_arg4)) (V0 (Proc.devRef .tc main_arg5)) := by
  unfold val4
  simp only [ops3]
  after_results_simp
  try simp only [val3_main_arg5, val3_main_v6, val3_main_v15, val3_main_v3, val3_main_arg4, val3_main_arg0]
  first | done | rfl

end Cert.ReferenceIdeal.RunH

end
-- ==== Proof.RefRunH3.lean ====
import proofs.«417346_j54202487276072_2_alg».proof.Proof.RefRunH2

set_option maxRecDepth 8192

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

theorem val5_main_v3 (V0 : Valuation τ sig (Elt F)) : val5 V0 (no_index (Proc.devRef .tc main_v3)) = ReadP.val_main_v3 (F := F) (V0 (Proc.devRef .tc main_arg1)) :=
  (val5_keep V0 main_v3 (by decide)).trans (val4_main_v3 V0)
theorem val5_main_v6 (V0 : Valuation τ sig (Elt F)) : val5 V0 (no_index (Proc.devRef .tc main_v6)) = ReadP.val_main_v6 (F := F) (V0 (Proc.devRef .tc main_arg1)) :=
  (val5_keep V0 main_v6 (by decide)).trans (val4_main_v6 V0)
theorem val5_main_v15 (V0 : Valuation τ sig (Elt F)) : val5 V0 (no_index (Proc.devRef .tc main_v15)) = ReadP.val_main_v15 (F := F) (V0 (Proc.devRef .tc main_arg1)) :=
  (val5_keep V0 main_v15 (by decide)).trans (val4_main_v15 V0)
set_option maxHeartbeats 4000000 in
theorem val5_main_v80 (V0 : Valuation τ sig (Elt F)) : val5 V0 (no_index (Proc.devRef .tc main_v80)) = ReadP.val_main_v80 (F := F) (V0 (Proc.devRef .tc main_arg0)) (V0 (Proc.devRef .tc main_arg1)) (V0 (Proc.devRef .tc main_arg4)) (V0 (Proc.devRef .tc main_arg5)) (V0 (Proc.devRef .tc main_arg6)) (V0 (Proc.devRef .tc main_arg7)) := by
  unfold val5
  simp only [ops4]
  after_results_simp
  try simp only [val4_main_arg7, val4_main_v6, val4_main_v15, val4_main_v3, val4_main_arg6, val4_main_v47]
  first | done | rfl

end Cert.ReferenceIdeal.RunH

end
-- ==== Proof.RefRunH4.lean ====
import proofs.«417346_j54202487276072_2_alg».proof.Proof.RefRunH3

set_option maxRecDepth 8192

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

theorem val6_main_v3 (V0 : Valuation τ sig (Elt F)) : val6 V0 (no_index (Proc.devRef .tc main_v3)) = ReadP.val_main_v3 (F := F) (V0 (Proc.devRef .tc main_arg1)) :=
  (val6_keep V0 main_v3 (by decide)).trans (val5_main_v3 V0)
theorem val6_main_v6 (V0 : Valuation τ sig (Elt F)) : val6 V0 (no_index (Proc.devRef .tc main_v6)) = ReadP.val_main_v6 (F := F) (V0 (Proc.devRef .tc main_arg1)) :=
  (val6_keep V0 main_v6 (by decide)).trans (val5_main_v6 V0)
set_option maxHeartbeats 4000000 in
theorem val6_main_v82 (V0 : Valuation τ sig (Elt F)) : val6 V0 (no_index (Proc.devRef .tc main_v82)) = ReadP.val_main_v82 (F := F) (V0 (Proc.devRef .tc main_arg0)) (V0 (Proc.devRef .tc main_arg1)) (V0 (Proc.devRef .tc main_arg4)) (V0 (Proc.devRef .tc main_arg5)) (V0 (Proc.devRef .tc main_arg6)) (V0 (Proc.devRef .tc main_arg7)) (V0 (Proc.devRef .tc main_arg8)) := by
  unfold val6
  simp only [ops5]
  after_results_simp
  try simp only [val5_main_arg8, val5_main_v80]
  first | done | rfl
set_option maxHeartbeats 4000000 in
theorem val6_main_v89 (V0 : Valuation τ sig (Elt F)) : val6 V0 (no_index (Proc.devRef .tc main_v89)) = ReadP.val_main_v89 (F := F) (V0 (Proc.devRef .tc main_arg1)) := by
  unfold val6
  simp only [ops5]
  after_results_simp
  try simp only [val5_main_v3, val5_main_v15]
  first | done | rfl
set_option maxHeartbeats 4000000 in
theorem val6_main_v96 (V0 : Valuation τ sig (Elt F)) : val6 V0 (no_index (Proc.devRef .tc main_v96)) = ReadP.val_main_v96 (F := F) (V0 (Proc.devRef .tc main_arg1)) := by
  unfold val6
  simp only [ops5]
  after_results_simp
  try simp only [val5_main_v6, val5_main_v15]
  first | done | rfl

end Cert.ReferenceIdeal.RunH

end
-- ==== Proof.RefRunH5.lean ====
import proofs.«417346_j54202487276072_2_alg».proof.Proof.RefRunH4

set_option maxRecDepth 8192

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
theorem val7_main_v113 (V0 : Valuation τ sig (Elt F)) : val7 V0 (no_index (Proc.devRef .tc main_v113)) = ReadP.val_main_v113 (F := F) (V0 (Proc.devRef .tc main_arg0)) (V0 (Proc.devRef .tc main_arg1)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold val7
  simp only [ops6]
  after_results_simp
  try simp only [val6_main_arg9, val6_main_v96, val6_main_v89, val6_main_v3, val6_main_v82, val6_main_v6]
  first | done | rfl

end Cert.ReferenceIdeal.RunH

end
-- ==== Proof.RefRunH6.lean ====
import proofs.«417346_j54202487276072_2_alg».proof.Proof.RefRunH5

set_option maxRecDepth 8192

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
theorem val8_main_v130 (V0 : Valuation τ sig (Elt F)) : val8 V0 (no_index (Proc.devRef .tc main_v130)) = ReadP.val_main_v130 (F := F) (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  unfold val8
  simp only [ops7]
  after_results_simp
  try simp only [val7_main_arg11, val7_main_arg10, val7_main_arg2, val7_main_v113]
  first | done | rfl
set_option maxHeartbeats 4000000 in
theorem val9_main_v140 (V0 : Valuation τ sig (Elt F)) : val9 V0 (no_index (Proc.devRef .tc main_v140)) = ReadP.val_main_v140 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) := by
  unfold val9
  simp only [ops8]
  after_results_simp
  try simp only [val8_main_arg15, val8_main_arg14, val8_main_arg13, val8_main_arg12, val8_main_arg3, val8_main_v130]
  try rw [show val8 V0 (Proc.devRef .tc main_v130) = _ from val8_main_v130 V0]
  try rw [show val8 V0 (Proc.devRef .tc main_arg3) = _ from val8_main_arg3 V0]
  first | done | rfl

end Cert.ReferenceIdeal.RunH

end
-- ==== Proof.RefRunH.lean ====
import proofs.«417346_j54202487276072_2_alg».proof.Proof.RefRunHMain
import proofs.«417346_j54202487276072_2_alg».proof.Proof.RefRunH6

set_option maxRecDepth 8192

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- On every device, for any float values, from any memory with zero counters: every weakly fair execution of
    @main terminates with the result at its stage function of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v140) = ReadP.val_main_v140 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v140).trans (by simp only [after_ops]; exact val9_main_v140 (launchContents m c)),
      (h c main_arg0).trans (by simp only [after_ops]; exact val9_main_arg0 (launchContents m c)),
      (h c main_arg1).trans (by simp only [after_ops]; exact val9_main_arg1 (launchContents m c)),
      (h c main_arg2).trans (by simp only [after_ops]; exact val9_main_arg2 (launchContents m c)),
      (h c main_arg3).trans (by simp only [after_ops]; exact val9_main_arg3 (launchContents m c)),
      (h c main_arg4).trans (by simp only [after_ops]; exact val9_main_arg4 (launchContents m c)),
      (h c main_arg5).trans (by simp only [after_ops]; exact val9_main_arg5 (launchContents m c)),
      (h c main_arg6).trans (by simp only [after_ops]; exact val9_main_arg6 (launchContents m c)),
      (h c main_arg7).trans (by simp only [after_ops]; exact val9_main_arg7 (launchContents m c)),
      (h c main_arg8).trans (by simp only [after_ops]; exact val9_main_arg8 (launchContents m c)),
      (h c main_arg9).trans (by simp only [after_ops]; exact val9_main_arg9 (launchContents m c)),
      (h c main_arg10).trans (by simp only [after_ops]; exact val9_main_arg10 (launchContents m c)),
      (h c main_arg11).trans (by simp only [after_ops]; exact val9_main_arg11 (launchContents m c)),
      (h c main_arg12).trans (by simp only [after_ops]; exact val9_main_arg12 (launchContents m c)),
      (h c main_arg13).trans (by simp only [after_ops]; exact val9_main_arg13 (launchContents m c)),
      (h c main_arg14).trans (by simp only [after_ops]; exact val9_main_arg14 (launchContents m c)),
      (h c main_arg15).trans (by simp only [after_ops]; exact val9_main_arg15 (launchContents m c))⟩)
    (run_seq scopedRefs_eq scopedSems_eq defs main (fun _ => ops) main_eq (fun _ => ops_sub) m ρ (fun _ => ops_fresh))

end Cert.ReferenceIdeal.RunH

end
-- ==== Proof.Preserves.lean ====
import proofs.«417346_j54202487276072_2_alg».proof.Defs

/-!
  The one ledger entry of the ideal pass: in the pool region the 0/1 selection matrix
  (shape 64 × 2048) is narrowed from f32 to bf16 and widened back.  At the ideal instance a
  change of format is the identity, so the printed program keeps the matrix itself; at the
  word-level instance the same window is the rounding through bf16.  Both facts are the
  library rule's statement at this shape and this pair of formats (bf16 has fewer bits than f32).
-/

noncomputable section

namespace Cert.Proof.P

open Idealize.ShloMosaic

theorem preserves : Cert.preserves_Kernel_KernelIdeal :=
  IdealRules.truncf_extf.statement Cert.KernelIdeal.S64x2048 .f32 .bf16

end Cert.Proof.P

end
-- ==== Proof.ComposeAsm.lean ====
/-
  The value claim, assembled: given the idealized program's run (every unscoped buffer ends at the last
  valuation), the reference's run (its result ends at a named term of its arguments) and the one equation
  between the two results, the two programs run, end with equal results, and leave their arguments unchanged.
-/
import proofs.«417346_j54202487276072_2_alg».proof.Defs
import proofs.«417346_j54202487276072_2_alg».proof.Proof.RegionsKI

-- decided memberships among the program's references recurse past the default depth
set_option maxRecDepth 1692

noncomputable section

namespace Cert.Proof.C

open Idealize.ShloMosaic Idealize.ShloMosaic.TcCoe Idealize.SL.Sem

/-- The memory of the idealized program, and of the reference. -/
abbrev MemK : Type := (ℓ : Loc Cert.KernelIdeal.nD Cert.KernelIdeal.τ Cert.KernelIdeal.sig) → Buf (Elt Ideal) ℓ
abbrev MemR : Type := (ℓ : Loc Cert.ReferenceIdeal.nD Cert.ReferenceIdeal.τ Cert.ReferenceIdeal.sig) → Buf (Elt Ideal) ℓ

/-- The two memories agree on the sixteen arguments. -/
def Agree (m : MemK) (m' : MemR) : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
        ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
        ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
        ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
        ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
        ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
        ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
        ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
        ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
        ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
        ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
        ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
        ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
        ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
        ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
        ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)

theorem algebraic_of [hKI : Cert.KernelIdeal.Facts] [hRI : Cert.ReferenceIdeal.Facts] [hP : Cert.Pre_finite_inputs.Facts]
    (outs : MemK → Cert.KernelIdeal.GenP.Outs (F := Ideal))
    (resR : MemR → (c : Dev Cert.ReferenceIdeal.nD) → Buf (Elt Ideal) ((c.tc : Thread Cert.ReferenceIdeal.nD Cert.ReferenceIdeal.τ).loc Cert.ReferenceIdeal.main_v140))
    (hrunK : ∀ (m : MemK) (ρ : Dev Cert.KernelIdeal.nD → PrngReg), Cert.Pre_KernelIdeal m →
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD, ∀ b ∈ Pipeline.ucRefs Cert.KernelIdeal.τ Cert.KernelIdeal.sig,
          r.2.mem ((c.tc : Thread Cert.KernelIdeal.nD Cert.KernelIdeal.τ).1, b) = Cert.KernelIdeal.GenP.V37 m (outs m) c b))
    (hrunR : ∀ (m' : MemR) (ρ' : Dev Cert.ReferenceIdeal.nD → PrngReg),
      θ_run (Cert.ReferenceIdeal.defs (F := Ideal)) (onTc (τ := Cert.ReferenceIdeal.τ) (Cert.ReferenceIdeal.main (F := Ideal))) ⟨m', fun _ => 0, ρ'⟩
        (fun r => ∀ c : Dev Cert.ReferenceIdeal.nD,
          r.2.mem ((c.tc : Thread Cert.ReferenceIdeal.nD Cert.ReferenceIdeal.τ).loc Cert.ReferenceIdeal.main_v140) = resR m' c
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
        ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
        ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
        ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)))
    (hval : ∀ (m : MemK) (m' : MemR), Cert.Pre_KernelIdeal m → Agree m m' → ∀ c : Dev Cert.KernelIdeal.nD,
      resR m' c = Cert.KernelIdeal.GenP.V37 m (outs m) c Cert.KernelIdeal.main_v141) :
    Cert.algebraic_KernelIdeal_ReferenceIdeal := by
  intro m ρ m' ρ' hpre hagree
  refine ⟨fun c => Cert.KernelIdeal.GenP.V37 m (outs m) c Cert.KernelIdeal.main_v141, ?_, ?_⟩
  · exact (θ_run (Cert.KernelIdeal.defs (F := Ideal)) _ _).mono (fun r h c =>
      ⟨h c (Proc.devRef .tc Cert.KernelIdeal.main_v141) (Finset.mem_filter.mpr ⟨StableHlo.devRef_mem_tcRefs Cert.KernelIdeal.main_v141, by decide⟩),
        (h c (Proc.devRef .tc Cert.KernelIdeal.main_arg0) (Finset.mem_filter.mpr ⟨StableHlo.devRef_mem_tcRefs Cert.KernelIdeal.main_arg0, by decide⟩)).trans (Cert.KernelIdeal.GenP.V37_main_arg0 m (outs m) c),
        (h c (Proc.devRef .tc Cert.KernelIdeal.main_arg1) (Finset.mem_filter.mpr ⟨StableHlo.devRef_mem_tcRefs Cert.KernelIdeal.main_arg1, by decide⟩)).trans (Cert.KernelIdeal.GenP.V37_main_arg1 m (outs m) c),
        (h c (Proc.devRef .tc Cert.KernelIdeal.main_arg2) (Finset.mem_filter.mpr ⟨StableHlo.devRef_mem_tcRefs Cert.KernelIdeal.main_arg2, by decide⟩)).trans (Cert.KernelIdeal.GenP.V37_main_arg2 m (outs m) c),
        (h c (Proc.devRef .tc Cert.KernelIdeal.main_arg3) (Finset.mem_filter.mpr ⟨StableHlo.devRef_mem_tcRefs Cert.KernelIdeal.main_arg3, by decide⟩)).trans (Cert.KernelIdeal.GenP.V37_main_arg3 m (outs m) c),
        (h c (Proc.devRef .tc Cert.KernelIdeal.main_arg4) (Finset.mem_filter.mpr ⟨StableHlo.devRef_mem_tcRefs Cert.KernelIdeal.main_arg4, by decide⟩)).trans (Cert.KernelIdeal.GenP.V37_main_arg4 m (outs m) c),
        (h c (Proc.devRef .tc Cert.KernelIdeal.main_arg5) (Finset.mem_filter.mpr ⟨StableHlo.devRef_mem_tcRefs Cert.KernelIdeal.main_arg5, by decide⟩)).trans (Cert.KernelIdeal.GenP.V37_main_arg5 m (outs m) c),
        (h c (Proc.devRef .tc Cert.KernelIdeal.main_arg6) (Finset.mem_filter.mpr ⟨StableHlo.devRef_mem_tcRefs Cert.KernelIdeal.main_arg6, by decide⟩)).trans (Cert.KernelIdeal.GenP.V37_main_arg6 m (outs m) c),
        (h c (Proc.devRef .tc Cert.KernelIdeal.main_arg7) (Finset.mem_filter.mpr ⟨StableHlo.devRef_mem_tcRefs Cert.KernelIdeal.main_arg7, by decide⟩)).trans (Cert.KernelIdeal.GenP.V37_main_arg7 m (outs m) c),
        (h c (Proc.devRef .tc Cert.KernelIdeal.main_arg8) (Finset.mem_filter.mpr ⟨StableHlo.devRef_mem_tcRefs Cert.KernelIdeal.main_arg8, by decide⟩)).trans (Cert.KernelIdeal.GenP.V37_main_arg8 m (outs m) c),
        (h c (Proc.devRef .tc Cert.KernelIdeal.main_arg9) (Finset.mem_filter.mpr ⟨StableHlo.devRef_mem_tcRefs Cert.KernelIdeal.main_arg9, by decide⟩)).trans (Cert.KernelIdeal.GenP.V37_main_arg9 m (outs m) c),
        (h c (Proc.devRef .tc Cert.KernelIdeal.main_arg10) (Finset.mem_filter.mpr ⟨StableHlo.devRef_mem_tcRefs Cert.KernelIdeal.main_arg10, by decide⟩)).trans (Cert.KernelIdeal.GenP.V37_main_arg10 m (outs m) c),
        (h c (Proc.devRef .tc Cert.KernelIdeal.main_arg11) (Finset.mem_filter.mpr ⟨StableHlo.devRef_mem_tcRefs Cert.KernelIdeal.main_arg11, by decide⟩)).trans (Cert.KernelIdeal.GenP.V37_main_arg11 m (outs m) c),
        (h c (Proc.devRef .tc Cert.KernelIdeal.main_arg12) (Finset.mem_filter.mpr ⟨StableHlo.devRef_mem_tcRefs Cert.KernelIdeal.main_arg12, by decide⟩)).trans (Cert.KernelIdeal.GenP.V37_main_arg12 m (outs m) c),
        (h c (Proc.devRef .tc Cert.KernelIdeal.main_arg13) (Finset.mem_filter.mpr ⟨StableHlo.devRef_mem_tcRefs Cert.KernelIdeal.main_arg13, by decide⟩)).trans (Cert.KernelIdeal.GenP.V37_main_arg13 m (outs m) c),
        (h c (Proc.devRef .tc Cert.KernelIdeal.main_arg14) (Finset.mem_filter.mpr ⟨StableHlo.devRef_mem_tcRefs Cert.KernelIdeal.main_arg14, by decide⟩)).trans (Cert.KernelIdeal.GenP.V37_main_arg14 m (outs m) c),
        (h c (Proc.devRef .tc Cert.KernelIdeal.main_arg15) (Finset.mem_filter.mpr ⟨StableHlo.devRef_mem_tcRefs Cert.KernelIdeal.main_arg15, by decide⟩)).trans (Cert.KernelIdeal.GenP.V37_main_arg15 m (outs m) c)⟩) (hrunK m ρ hpre)
  · exact (θ_run (Cert.ReferenceIdeal.defs (F := Ideal)) _ _).mono (fun r h c =>
      ⟨(h c).1.trans (hval m m' hpre hagree c), (h c).2⟩) (hrunR m' ρ')

end Cert.Proof.C

end
-- ==== Proof.ComposeFacts.lean ====
/-
  What a region leaves in its output array, as a statement about arrays: a dense product, a gather of rows scaled
  by an edge weight, a scatter of rows onto nodes with a self term and a bias, the pool's sums and counts. And the
  eleven such statements about this program's ten regions, each at the buffers as the region finds them.
-/
import proofs.«417346_j54202487276072_2_alg».proof.Proof.RegionsKI
import Idealize.ShloMosaic.Lib.ValueIdx

noncomputable section

namespace Cert.Proof.C

open Cert.KernelIdeal Cert.KernelIdeal.Gen
open Idealize.ShloMosaic Idealize.ShloMosaic.TcCoe
open scoped BigOperators

/-- `o` is the product of `x` (100352 rows, `K` columns) and `w` (`K` rows, `D` columns). -/
def DenseEq {K D : ℕ} (o : (⟨2, ![100352, D]⟩ : Shape).Idx → EReal) (x : (⟨2, ![100352, K]⟩ : Shape).Idx → EReal)
    (w : (⟨2, ![K, D]⟩ : Shape).Idx → EReal) : Prop :=
  ∀ (n : Fin 100352) (d : Fin D), o (ValueIdx.ix2 n d) = ∑ k : Fin K, x (ValueIdx.ix2 n k) * w (ValueIdx.ix2 k d)

/-- Row `k` of `o` is row `src k` of `hw` (zero when `src k` is past the table's end) times the weight `nrm k`. -/
def GatherEq {D : ℕ} (o : (⟨2, ![1601536, D]⟩ : Shape).Idx → EReal) (src : (⟨1, ![1601536]⟩ : Shape).Idx → BitVec 32)
    (hw : (⟨2, ![100352, D]⟩ : Shape).Idx → EReal) (nrm : (⟨1, ![1601536]⟩ : Shape).Idx → EReal) : Prop :=
  ∀ (k : Fin 1601536) (d : Fin D), o (ValueIdx.ix2 k d)
    = (if h : (src (ValueIdx.ix1 k)).toNat < 100352
        then hw (ValueIdx.ix2 ⟨(src (ValueIdx.ix1 k)).toNat, h⟩ d) else 0) * nrm (ValueIdx.ix1 k)

/-- Row `n` of `o` is `act` of: the self term, plus the rows of `g` whose destination is `n`, plus the bias row. -/
def ScatterEq {D : ℕ} (act : EReal → EReal) (o : (⟨2, ![100352, D]⟩ : Shape).Idx → EReal) (sn : (⟨1, ![100352]⟩ : Shape).Idx → EReal)
    (hw : (⟨2, ![100352, D]⟩ : Shape).Idx → EReal) (dst : (⟨1, ![1601536]⟩ : Shape).Idx → BitVec 32)
    (g : (⟨2, ![1601536, D]⟩ : Shape).Idx → EReal) (b : (⟨2, ![1, D]⟩ : Shape).Idx → EReal) : Prop :=
  ∀ (n : Fin 100352) (d : Fin D), o (ValueIdx.ix2 n d)
    = act (sn (ValueIdx.ix1 n) * hw (ValueIdx.ix2 n d)
        + (∑ p : Fin 1601536, if (dst (ValueIdx.ix1 p)).toNat = n.val then g (ValueIdx.ix2 p d) else 0)
        + b (ValueIdx.ix2 (0 : Fin 1) d))

/-- Row `g` of `o` is the sum of the rows of `h` whose graph id is `g`. -/
def PoolSumEq {D : ℕ} (o : (⟨2, ![64, D]⟩ : Shape).Idx → EReal) (bt : (⟨1, ![100352]⟩ : Shape).Idx → BitVec 32)
    (h : (⟨2, ![100352, D]⟩ : Shape).Idx → EReal) : Prop :=
  ∀ (g : Fin 64) (d : Fin D), o (ValueIdx.ix2 g d)
    = ∑ i : Fin 100352, if bt (ValueIdx.ix1 i) = BitVec.ofNat 32 g.val then h (ValueIdx.ix2 i d) else 0

/-- Entry `g` of `o` is the number of rows whose graph id is `g`. -/
def PoolCntEq (o : (⟨2, ![64, 1]⟩ : Shape).Idx → EReal) (bt : (⟨1, ![100352]⟩ : Shape).Idx → BitVec 32) : Prop :=
  ∀ (g : Fin 64), o (ValueIdx.ix2 g (0 : Fin 1))
    = ∑ i : Fin 100352, if bt (ValueIdx.ix1 i) = BitVec.ofNat 32 g.val then (1 : EReal) else 0

/-- What the ten regions leave, each in terms of the buffers as the region finds them: three dense products, three
    gathers, three scatters (the last without the maximum), the pool's sums and counts. -/
structure RegionFacts (m : (ℓ : Loc nD τ sig) → Buf (Elt Ideal) ℓ) (outs : GenP.Outs (F := Ideal)) (c : Dev nD) :
    Prop where
  /-- layer 1: the dense region's product, the gather region's messages, the scatter region's rows -/
  d1 : DenseEq (K := 128) (D := 16) (outs 17 main_v83 c) (GenP.V16 m c main_v75) (GenP.V16 m c main_arg4)
  g1 : GatherEq (D := 16) (outs 18 main_v84 c) (GenP.V17 m outs c main_v52) (GenP.V17 m outs c main_v83)
    (GenP.V17 m outs c main_v59)
  s1 : ScatterEq (D := 16) (fun t : EReal => max t 0) (outs 20 main_v93 c) (GenP.V19 m outs c main_v76)
    (GenP.V19 m outs c main_v83) (GenP.V19 m outs c main_v66) (GenP.V19 m outs c main_v91)
    (GenP.V19 m outs c main_v92)
  /-- layer 2: the dense region's product, the gather region's messages, the scatter region's rows -/
  d2 : DenseEq (K := 16) (D := 64) (outs 22 main_v96 c) (GenP.V21 m outs c main_v95) (GenP.V21 m outs c main_arg6)
  g2 : GatherEq (D := 64) (outs 23 main_v97 c) (GenP.V22 m outs c main_v52) (GenP.V22 m outs c main_v96)
    (GenP.V22 m outs c main_v59)
  s2 : ScatterEq (D := 64) (fun t : EReal => max t 0) (outs 25 main_v106 c) (GenP.V24 m outs c main_v76)
    (GenP.V24 m outs c main_v96) (GenP.V24 m outs c main_v66) (GenP.V24 m outs c main_v104)
    (GenP.V24 m outs c main_v105)
  /-- layer 3: the dense region's product, the gather region's messages, the scatter region's rows -/
  d3 : DenseEq (K := 64) (D := 32) (outs 27 main_v109 c) (GenP.V26 m outs c main_v108) (GenP.V26 m outs c main_arg8)
  g3 : GatherEq (D := 32) (outs 28 main_v110 c) (GenP.V27 m outs c main_v52) (GenP.V27 m outs c main_v109)
    (GenP.V27 m outs c main_v59)
  s3 : ScatterEq (D := 32) (fun t : EReal => t) (outs 30 main_v119 c) (GenP.V29 m outs c main_v76)
    (GenP.V29 m outs c main_v109) (GenP.V29 m outs c main_v66) (GenP.V29 m outs c main_v117)
    (GenP.V29 m outs c main_v118)
  /-- the pool region's sums and counts -/
  ps : PoolSumEq (D := 32) (outs 32 main_v122_0 c) (GenP.V31 m outs c main_v77) (GenP.V31 m outs c main_v121)
  pc : PoolCntEq (outs 32 main_v122_1 c) (GenP.V31 m outs c main_v77)

end Cert.Proof.C

end
-- ==== Proof.KHostB.lean ====
/- What the host stretches between the kernel regions write, as equations at ANY contents of the buffers:
   the row gather at the combined permutation, the bias as a one-row matrix, the product with the row mask. -/
import proofs.«417346_j54202487276072_2_alg».proof.Proof.Gen.KernelIdeal.Launch
import Idealize.ShloMosaic.Lib.StableHlo.Run

set_option maxRecDepth 1692

noncomputable section

namespace Cert.KernelIdeal.KH

open Cert.KernelIdeal Cert.KernelIdeal.Gen
open Idealize.ShloMosaic Idealize.ShloMosaic.TcCoe

variable {F : FTy → Type} [FloatOps F]

/-- The index normalisation in front of a gather along an axis of 1601536 positions: a negative index counts from the
    end (`i < 0 ? i + 1601536 : i`). -/
def wrapE (i : Vec F S1601536 .i32) : Vec F S1601536 .i32 :=
  ((select : (⟨S1601536, .i1⟩ : BufTy).Contents (Elt F) → (⟨S1601536, .i32⟩ : BufTy).Contents (Elt F) → (⟨S1601536, .i32⟩ : BufTy).Contents (Elt F) → (⟨S1601536, .i32⟩ : BufTy).Contents (Elt F)) ((cmpi .slt : (⟨S1601536, .i32⟩ : BufTy).Contents (Elt F) → (⟨S1601536, .i32⟩ : BufTy).Contents (Elt F) → (⟨S1601536, .i1⟩ : BufTy).Contents (Elt F)) i ((broadcastInDim S1601536 ![] bcast_S_S1601536 : (⟨S_, .i32⟩ : BufTy).Contents (Elt F) → (⟨S1601536, .i32⟩ : BufTy).Contents (Elt F)) ((constantI S_ 32 0#32) : (⟨S_, .i32⟩ : BufTy).Contents (Elt F)))) ((addi : (⟨S1601536, .i32⟩ : BufTy).Contents (Elt F) → (⟨S1601536, .i32⟩ : BufTy).Contents (Elt F) → (⟨S1601536, .i32⟩ : BufTy).Contents (Elt F)) i ((broadcastInDim S1601536 ![] bcast_S_S1601536 : (⟨S_, .i32⟩ : BufTy).Contents (Elt F) → (⟨S1601536, .i32⟩ : BufTy).Contents (Elt F)) ((constantI S_ 32 1601536#32) : (⟨S_, .i32⟩ : BufTy).Contents (Elt F)))) i)

/-- The normalised indices as a one-column matrix: the gather's start indices. -/
def colE (i : Vec F S1601536 .i32) : Vec F S1601536x1 .i32 :=
  ((broadcastInDim S1601536x1 ![0] bcast_S1601536_S1601536x1_0 : (⟨S1601536, .i32⟩ : BufTy).Contents (Elt F) → (⟨S1601536x1, .i32⟩ : BufTy).Contents (Elt F)) (wrapE i))

/-- Rows of a 1601536 × 16 matrix gathered at the (normalised) positions `i`: row `e` of the result is row `i e` of `x`. -/
def rows16 (x : Vec F S1601536x16 .f32) (i : Vec F S1601536 .i32) : Vec F S1601536x16 .f32 :=
  (((fun x i => Host.gather gather_S1601536x16_S1601536x1_S1601536x16_1_0_n_n_0_1_116 x i) : (⟨S1601536x16, .f32⟩ : BufTy).Contents (Elt F) → (⟨S1601536x1, .i32⟩ : BufTy).Contents (Elt F) → (⟨S1601536x16, .f32⟩ : BufTy).Contents (Elt F)) x (colE i))

/-- A bias vector of 16 entries as a 1 × 16 matrix. -/
def biasRow16 (b : Vec F S16 .f32) : Vec F S1x16 .f32 :=
  (shapeCast S1x16 b shapeCasts_S16_S1x16 : (⟨S1x16, .f32⟩ : BufTy).Contents (Elt F))

theorem h2_v91 (U : Valuation τ sig (Elt F)) :
    StableHlo.after hostOps2 U main_v91 = rows16 (U main_v84) (U main_v45) := by
  dsimp only [hostOps2]; after_results <;> (try simp only [StableHlo.TRef.ofBuf, StableHlo.TRef.toBuf, cast_eq]) <;> rfl

theorem h2_v92 (U : Valuation τ sig (Elt F)) :
    StableHlo.after hostOps2 U main_v92 = biasRow16 (U main_arg5) := by
  dsimp only [hostOps2]; after_results <;> (try simp only [StableHlo.TRef.ofBuf, StableHlo.TRef.toBuf, cast_eq]) <;> rfl

/-- Rows of a 1601536 × 64 matrix gathered at the (normalised) positions `i`: row `e` of the result is row `i e` of `x`. -/
def rows64 (x : Vec F S1601536x64 .f32) (i : Vec F S1601536 .i32) : Vec F S1601536x64 .f32 :=
  (((fun x i => Host.gather gather_S1601536x64_S1601536x1_S1601536x64_1_0_n_n_0_1_164 x i) : (⟨S1601536x64, .f32⟩ : BufTy).Contents (Elt F) → (⟨S1601536x1, .i32⟩ : BufTy).Contents (Elt F) → (⟨S1601536x64, .f32⟩ : BufTy).Contents (Elt F)) x (colE i))

/-- A bias vector of 64 entries as a 1 × 64 matrix. -/
def biasRow64 (b : Vec F S64 .f32) : Vec F S1x64 .f32 :=
  (shapeCast S1x64 b shapeCasts_S64_S1x64 : (⟨S1x64, .f32⟩ : BufTy).Contents (Elt F))

theorem h5_v104 (U : Valuation τ sig (Elt F)) :
    StableHlo.after hostOps5 U main_v104 = rows64 (U main_v97) (U main_v45) := by
  dsimp only [hostOps5]; after_results <;> (try simp only [StableHlo.TRef.ofBuf, StableHlo.TRef.toBuf, cast_eq]) <;> rfl

theorem h5_v105 (U : Valuation τ sig (Elt F)) :
    StableHlo.after hostOps5 U main_v105 = biasRow64 (U main_arg7) := by
  dsimp only [hostOps5]; after_results <;> (try simp only [StableHlo.TRef.ofBuf, StableHlo.TRef.toBuf, cast_eq]) <;> rfl

/-- Rows of a 1601536 × 32 matrix gathered at the (normalised) positions `i`: row `e` of the result is row `i e` of `x`. -/
def rows32 (x : Vec F S1601536x32 .f32) (i : Vec F S1601536 .i32) : Vec F S1601536x32 .f32 :=
  (((fun x i => Host.gather gather_S1601536x32_S1601536x1_S1601536x32_1_0_n_n_0_1_132 x i) : (⟨S1601536x32, .f32⟩ : BufTy).Contents (Elt F) → (⟨S1601536x1, .i32⟩ : BufTy).Contents (Elt F) → (⟨S1601536x32, .f32⟩ : BufTy).Contents (Elt F)) x (colE i))

/-- A bias vector of 32 entries as a 1 × 32 matrix. -/
def biasRow32 (b : Vec F S32 .f32) : Vec F S1x32 .f32 :=
  (shapeCast S1x32 b shapeCasts_S32_S1x32 : (⟨S1x32, .f32⟩ : BufTy).Contents (Elt F))

theorem h8_v117 (U : Valuation τ sig (Elt F)) :
    StableHlo.after hostOps8 U main_v117 = rows32 (U main_v110) (U main_v45) := by
  dsimp only [hostOps8]; after_results <;> (try simp only [StableHlo.TRef.ofBuf, StableHlo.TRef.toBuf, cast_eq]) <;> rfl

theorem h8_v118 (U : Valuation τ sig (Elt F)) :
    StableHlo.after hostOps8 U main_v118 = biasRow32 (U main_arg9) := by
  dsimp only [hostOps8]; after_results <;> (try simp only [StableHlo.TRef.ofBuf, StableHlo.TRef.toBuf, cast_eq]) <;> rfl

/-- A 100352 × 16 matrix times the row mask (a one-column matrix broadcast along the rows). -/
def maskRows16 (v : Vec F S100352x16 .f32) (mk : Vec F S100352x1 .f32) : Vec F S100352x16 .f32 :=
  ((mulf : (⟨S100352x16, .f32⟩ : BufTy).Contents (Elt F) → (⟨S100352x16, .f32⟩ : BufTy).Contents (Elt F) → (⟨S100352x16, .f32⟩ : BufTy).Contents (Elt F)) v ((broadcastInDim S100352x16 ![0, 1] bcast_S100352x1_S100352x16_0_1 : (⟨S100352x1, .f32⟩ : BufTy).Contents (Elt F) → (⟨S100352x16, .f32⟩ : BufTy).Contents (Elt F)) mk))

theorem h3_v95 (U : Valuation τ sig (Elt F)) :
    StableHlo.after hostOps3 U main_v95 = maskRows16 (U main_v93) (U main_v82) := by
  dsimp only [hostOps3]; after_results <;> (try simp only [StableHlo.TRef.ofBuf, StableHlo.TRef.toBuf, cast_eq]) <;> rfl

/-- A 100352 × 64 matrix times the row mask (a one-column matrix broadcast along the rows). -/
def maskRows64 (v : Vec F S100352x64 .f32) (mk : Vec F S100352x1 .f32) : Vec F S100352x64 .f32 :=
  ((mulf : (⟨S100352x64, .f32⟩ : BufTy).Contents (Elt F) → (⟨S100352x64, .f32⟩ : BufTy).Contents (Elt F) → (⟨S100352x64, .f32⟩ : BufTy).Contents (Elt F)) v ((broadcastInDim S100352x64 ![0, 1] bcast_S100352x1_S100352x64_0_1 : (⟨S100352x1, .f32⟩ : BufTy).Contents (Elt F) → (⟨S100352x64, .f32⟩ : BufTy).Contents (Elt F)) mk))

theorem h6_v108 (U : Valuation τ sig (Elt F)) :
    StableHlo.after hostOps6 U main_v108 = maskRows64 (U main_v106) (U main_v82) := by
  dsimp only [hostOps6]; after_results <;> (try simp only [StableHlo.TRef.ofBuf, StableHlo.TRef.toBuf, cast_eq]) <;> rfl

/-- A 100352 × 32 matrix times the row mask (a one-column matrix broadcast along the rows). -/
def maskRows32 (v : Vec F S100352x32 .f32) (mk : Vec F S100352x1 .f32) : Vec F S100352x32 .f32 :=
  ((mulf : (⟨S100352x32, .f32⟩ : BufTy).Contents (Elt F) → (⟨S100352x32, .f32⟩ : BufTy).Contents (Elt F) → (⟨S100352x32, .f32⟩ : BufTy).Contents (Elt F)) v ((broadcastInDim S100352x32 ![0, 1] bcast_S100352x1_S100352x32_0_1 : (⟨S100352x1, .f32⟩ : BufTy).Contents (Elt F) → (⟨S100352x32, .f32⟩ : BufTy).Contents (Elt F)) mk))

theorem h9_v121 (U : Valuation τ sig (Elt F)) :
    StableHlo.after hostOps9 U main_v121 = maskRows32 (U main_v119) (U main_v82) := by
  dsimp only [hostOps9]; after_results <;> (try simp only [StableHlo.TRef.ofBuf, StableHlo.TRef.toBuf, cast_eq]) <;> rfl

end Cert.KernelIdeal.KH
-- ==== Proof.KHostA0.lean ====
/- The pure functions of the argument arrays that the host stretches before the first kernel region compute, each
   the composed term of the stretch's operations, and what every such stretch writes from ANY contents of the buffers. -/
import proofs.«417346_j54202487276072_2_alg».proof.Proof.Gen.KernelIdeal.Launch
import Idealize.ShloMosaic.Lib.StableHlo.Run
import proofs.«417346_j54202487276072_2_alg».proof.Proof.KHostB
set_option maxRecDepth 1692

noncomputable section

namespace Cert.KernelIdeal.KH

open Cert.KernelIdeal Cert.KernelIdeal.Gen
open Idealize.ShloMosaic Idealize.ShloMosaic.TcCoe

variable {F : FTy → Type} [FloatOps F]

/-- The source row of the edge list. -/
def src0 (ei : Vec F S2x1600000 .i32) : Vec F S1600000 .i32 :=
  (shapeCast S1600000 (((extractStridedSlice S1x1600000 ![0, 0] · slices_S2x1600000_S1x1600000_0_0) : (⟨S2x1600000, .i32⟩ : BufTy).Contents (Elt F) → (⟨S1x1600000, .i32⟩ : BufTy).Contents (Elt F)) ei) shapeCasts_S1x1600000_S1600000 : (⟨S1600000, .i32⟩ : BufTy).Contents (Elt F))

/-- The destination row of the edge list. -/
def dst0 (ei : Vec F S2x1600000 .i32) : Vec F S1600000 .i32 :=
  (shapeCast S1600000 (((extractStridedSlice S1x1600000 ![1, 0] · slices_S2x1600000_S1x1600000_1_0) : (⟨S2x1600000, .i32⟩ : BufTy).Contents (Elt F) → (⟨S1x1600000, .i32⟩ : BufTy).Contents (Elt F)) ei) shapeCasts_S1x1600000_S1600000 : (⟨S1600000, .i32⟩ : BufTy).Contents (Elt F))

/-- The index normalisation in front of a gather or scatter along the 100000 nodes: `i < 0 ? i + 100000 : i`. -/
def wrapN (i : Vec F S1600000 .i32) : Vec F S1600000 .i32 :=
  ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) i ((broadcastInDim S1600000 ![] bcast_S_S1600000 : (⟨S_, .i32⟩ : BufTy).Contents (Elt F) → (⟨S1600000, .i32⟩ : BufTy).Contents (Elt F)) ((constantI S_ 32 0#32) : (⟨S_, .i32⟩ : BufTy).Contents (Elt F)))) ((addi : (⟨S1600000, .i32⟩ : BufTy).Contents (Elt F) → (⟨S1600000, .i32⟩ : BufTy).Contents (Elt F) → (⟨S1600000, .i32⟩ : BufTy).Contents (Elt F)) i ((broadcastInDim S1600000 ![] bcast_S_S1600000 : (⟨S_, .i32⟩ : BufTy).Contents (Elt F) → (⟨S1600000, .i32⟩ : BufTy).Contents (Elt F)) ((constantI S_ 32 100000#32) : (⟨S_, .i32⟩ : BufTy).Contents (Elt F)))) i)

/-- The normalised node indices as a one-column matrix. -/
def colN (i : Vec F S1600000 .i32) : Vec F S1600000x1 .i32 :=
  ((broadcastInDim S1600000x1 ![0] bcast_S1600000_S1600000x1_0 : (⟨S1600000, .i32⟩ : BufTy).Contents (Elt F) → (⟨S1600000x1, .i32⟩ : BufTy).Contents (Elt F)) (wrapN i))

/-- The degree of every node: the number of edges that end in it, plus one (the self loop). -/
def deg (ei : Vec F S2x1600000 .i32) : Vec F S100000 .f32 :=
  ((addf : (⟨S100000, .f32⟩ : BufTy).Contents (Elt F) → (⟨S100000, .f32⟩ : BufTy).Contents (Elt F) → (⟨S100000, .f32⟩ : BufTy).Contents (Elt F)) (((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) ((constant (F := F) S_ .f32 0x00000000#32) : (⟨S_, .f32⟩ : BufTy).Contents (Elt F))) (colN (dst0 ei)) ((broadcastInDim S1600000 ![] bcast_S_S1600000 : (⟨S_, .f32⟩ : BufTy).Contents (Elt F) → (⟨S1600000, .f32⟩ : BufTy).Contents (Elt F)) ((constant (F := F) S_ .f32 0x3F800000#32) : (⟨S_, .f32⟩ : BufTy).Contents (Elt F)))) ((broadcastInDim S100000 ![] bcast_S_S100000 : (⟨S_, .f32⟩ : BufTy).Contents (Elt F) → (⟨S100000, .f32⟩ : BufTy).Contents (Elt F)) ((constant (F := F) S_ .f32 0x3F800000#32) : (⟨S_, .f32⟩ : BufTy).Contents (Elt F))))

/-- The degree to the power −1/2. -/
def dinv (ei : Vec F S2x1600000 .i32) : Vec F S100000 .f32 :=
  ((Host.powf : (⟨S100000, .f32⟩ : BufTy).Contents (Elt F) → (⟨S100000, .f32⟩ : BufTy).Contents (Elt F) → (⟨S100000, .f32⟩ : BufTy).Contents (Elt F)) (deg ei) ((broadcastInDim S100000 ![] bcast_S_S100000 : (⟨S_, .f32⟩ : BufTy).Contents (Elt F) → (⟨S100000, .f32⟩ : BufTy).Contents (Elt F)) ((constant (F := F) S_ .f32 0xBF000000#32) : (⟨S_, .f32⟩ : BufTy).Contents (Elt F))))

/-- The symmetric normalisation of every edge: `dinv` at its source times `dinv` at its destination. -/
def normE (ei : Vec F S2x1600000 .i32) : Vec F S1600000 .f32 :=
  ((mulf : (⟨S1600000, .f32⟩ : BufTy).Contents (Elt F) → (⟨S1600000, .f32⟩ : BufTy).Contents (Elt F) → (⟨S1600000, .f32⟩ : BufTy).Contents (Elt F)) (((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)) (dinv ei) (colN (src0 ei))) (((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)) (dinv ei) (colN (dst0 ei))))

/-- The self loop's normalisation of every node: `dinv` squared. -/
def selfNorm (ei : Vec F S2x1600000 .i32) : Vec F S100000 .f32 :=
  ((mulf : (⟨S100000, .f32⟩ : BufTy).Contents (Elt F) → (⟨S100000, .f32⟩ : BufTy).Contents (Elt F) → (⟨S100000, .f32⟩ : BufTy).Contents (Elt F)) (dinv ei) (dinv ei))

/-! ### The stretch before the first outlined call -/
theorem h0_v1 (U : Valuation τ sig (Elt F)) : StableHlo.after hostOps0 U main_v1 = src0 (U main_arg1) := by
  dsimp only [hostOps0]; after_results_simp <;> rfl
theorem h0_v3 (U : Valuation τ sig (Elt F)) : StableHlo.after hostOps0 U main_v3 = dst0 (U main_arg1) := by
  dsimp only [hostOps0]; after_results_simp <;> rfl
theorem h0_v14 (U : Valuation τ sig (Elt F)) : StableHlo.after hostOps0 U main_v14 = deg (U main_arg1) := by
  dsimp only [hostOps0]; after_results_simp <;> rfl
theorem h0_v16 (U : Valuation τ sig (Elt F)) : StableHlo.after hostOps0 U main_v16 = dinv (U main_arg1) := by
  dsimp only [hostOps0]; after_results_simp <;> rfl
theorem h0_v31 (U : Valuation τ sig (Elt F)) : StableHlo.after hostOps0 U main_v31 = normE (U main_arg1) := by
  dsimp only [hostOps0]; after_results_simp <;> rfl
theorem h0_v32 (U : Valuation τ sig (Elt F)) : StableHlo.after hostOps0 U main_v32 = selfNorm (U main_arg1) := by
  dsimp only [hostOps0]; after_results_simp <;> rfl
theorem h0_c_8 (U : Valuation τ sig (Elt F)) : StableHlo.after hostOps0 U main_c_8 = (constantI S_ 32 0#32 : (⟨S_, .i32⟩ : BufTy).Contents (Elt F)) := by
  dsimp only [hostOps0]; after_results_simp <;> rfl

/-! ### The paddings, the sorts -/

/-- An edge row padded by 1536 entries of the given value, to 391 tiles of 4096. -/
def padI (x : Vec F S1600000 .i32) (z : Vec F S_ .i32) : Vec F S1601536 .i32 :=
  (((fun x v => pad S1601536 ![0] ![1536] ![0] x v pads_S1600000_S1601536_015360 h_S_) : (⟨S1600000, .i32⟩ : BufTy).Contents (Elt F) → (⟨S_, .i32⟩ : BufTy).Contents (Elt F) → (⟨S1601536, .i32⟩ : BufTy).Contents (Elt F)) x ((id : (⟨S_, .i32⟩ : BufTy).Contents (Elt F) → (⟨S_, .i32⟩ : BufTy).Contents (Elt F)) z))

/-- The edge normalisations padded by 1536 entries of the given integer read as a float. -/
def padF (x : Vec F S1600000 .f32) (z : Vec F S_ .i32) : Vec F S1601536 .f32 :=
  (((fun x v => pad S1601536 ![0] ![1536] ![0] x v pads_S1600000_S1601536_015360 h_S_) : (⟨S1600000, .f32⟩ : BufTy).Contents (Elt F) → (⟨S_, .f32⟩ : BufTy).Contents (Elt F) → (⟨S1601536, .f32⟩ : BufTy).Contents (Elt F)) x (((sitofp (F := F) .f32) : (⟨S_, .i32⟩ : BufTy).Contents (Elt F) → (⟨S_, .f32⟩ : BufTy).Contents (Elt F)) z))

/-- The padded source row (padding 0). -/
def srcP (ei : Vec F S2x1600000 .i32) : Vec F S1601536 .i32 := padI (src0 ei) (constantI S_ 32 0#32 : (⟨S_, .i32⟩ : BufTy).Contents (Elt F))
/-- The padded destination row (padding 0). -/
def dstP (ei : Vec F S2x1600000 .i32) : Vec F S1601536 .i32 := padI (dst0 ei) (constantI S_ 32 0#32 : (⟨S_, .i32⟩ : BufTy).Contents (Elt F))
/-- The padded edge normalisations (padding 0.0). -/
def normP (ei : Vec F S2x1600000 .i32) : Vec F S1601536 .f32 := padF (normE ei) (constantI S_ 32 0#32 : (⟨S_, .i32⟩ : BufTy).Contents (Elt F))

/-- The stable sorting permutation of a key vector: the positions `0 … 1601535` carried along a stable sort of the keys. -/
def argsortE (k : Vec F S1601536 .i32) : Vec F S1601536 .i32 :=
  (((fun x y => (Host.sort2 S1601536 0 comparator_i32_i32_d0 x y).2) : (⟨S1601536, .i32⟩ : BufTy).Contents (Elt F) → (⟨S1601536, .i32⟩ : BufTy).Contents (Elt F) → (⟨S1601536, .i32⟩ : BufTy).Contents (Elt F)) k ((iotaInDim S1601536 32 0) : (⟨S1601536, .i32⟩ : BufTy).Contents (Elt F)))

/-- The permutation that sorts the padded source row. -/
def permSrc (ei : Vec F S2x1600000 .i32) : Vec F S1601536 .i32 := argsortE (srcP ei)
/-- The sorting permutation of that permutation (its inverse). -/
def invPermSrc (ei : Vec F S2x1600000 .i32) : Vec F S1601536 .i32 := argsortE (permSrc ei)
/-- The permutation that sorts the padded destination row. -/
def permDst (ei : Vec F S2x1600000 .i32) : Vec F S1601536 .i32 := argsortE (dstP ei)

/-- The node features padded by 352 rows of the given integer read as a float. -/
def padX (x : Vec F S100000x128 .f32) (z : Vec F S_ .i32) : Vec F S100352x128 .f32 :=
  (((fun x v => pad S100352x128 ![0, 0] ![352, 0] ![0, 0] x v pads_S100000x128_S100352x128_03520_000 h_S_) : (⟨S100000x128, .f32⟩ : BufTy).Contents (Elt F) → (⟨S_, .f32⟩ : BufTy).Contents (Elt F) → (⟨S100352x128, .f32⟩ : BufTy).Contents (Elt F)) x (((sitofp (F := F) .f32) : (⟨S_, .i32⟩ : BufTy).Contents (Elt F) → (⟨S_, .f32⟩ : BufTy).Contents (Elt F)) z))
/-- A vector over the nodes padded by 352 entries of the given integer read as a float. -/
def padS (x : Vec F S100000 .f32) (z : Vec F S_ .i32) : Vec F S100352 .f32 :=
  (((fun x v => pad S100352 ![0] ![352] ![0] x v pads_S100000_S100352_03520 h_S_) : (⟨S100000, .f32⟩ : BufTy).Contents (Elt F) → (⟨S_, .f32⟩ : BufTy).Contents (Elt F) → (⟨S100352, .f32⟩ : BufTy).Contents (Elt F)) x (((sitofp (F := F) .f32) : (⟨S_, .i32⟩ : BufTy).Contents (Elt F) → (⟨S_, .f32⟩ : BufTy).Contents (Elt F)) z))
/-- The graph ids padded by 352 entries of the given value. -/
def padB (x : Vec F S100000 .i32) (z : Vec F S_ .i32) : Vec F S100352 .i32 :=
  (((fun x v => pad S100352 ![0] ![352] ![0] x v pads_S100000_S100352_03520 h_S_) : (⟨S100000, .i32⟩ : BufTy).Contents (Elt F) → (⟨S_, .i32⟩ : BufTy).Contents (Elt F) → (⟨S100352, .i32⟩ : BufTy).Contents (Elt F)) x ((id : (⟨S_, .i32⟩ : BufTy).Contents (Elt F) → (⟨S_, .i32⟩ : BufTy).Contents (Elt F)) z))

/-- The node features padded to 100352 rows (padding 0.0). -/
def xP (x : Vec F S100000x128 .f32) : Vec F S100352x128 .f32 := padX x (constantI S_ 32 0#32 : (⟨S_, .i32⟩ : BufTy).Contents (Elt F))
/-- The self-loop normalisations padded to 100352 entries (padding 0.0). -/
def selfNormP (ei : Vec F S2x1600000 .i32) : Vec F S100352 .f32 := padS (selfNorm ei) (constantI S_ 32 0#32 : (⟨S_, .i32⟩ : BufTy).Contents (Elt F))
/-- The graph ids padded to 100352 entries (padding −1: no graph). -/
def batchP (bt : Vec F S100000 .i32) : Vec F S100352 .i32 := padB bt (constantI S_ 32 4294967295#32 : (⟨S_, .i32⟩ : BufTy).Contents (Elt F))

/-- The row mask as a one-column matrix: 1.0 on the 100000 node rows, 0.0 on the 352 padded ones. -/
def maskCol : Vec F S100352x1 .f32 :=
  ((broadcastInDim S100352x1 ![0] bcast_S100352_S100352x1_0 : (⟨S100352, .f32⟩ : BufTy).Contents (Elt F) → (⟨S100352x1, .f32⟩ : BufTy).Contents (Elt F)) ((uitofp (F := F) .f32 : (⟨S100352, .i1⟩ : BufTy).Contents (Elt F) → (⟨S100352, .f32⟩ : BufTy).Contents (Elt F)) ((cmpi .slt : (⟨S100352, .i32⟩ : BufTy).Contents (Elt F) → (⟨S100352, .i32⟩ : BufTy).Contents (Elt F) → (⟨S100352, .i1⟩ : BufTy).Contents (Elt F)) ((iotaInDim S100352 32 0) : (⟨S100352, .i32⟩ : BufTy).Contents (Elt F)) ((broadcastInDim S100352 ![] bcast_S_S100352 : (⟨S_, .i32⟩ : BufTy).Contents (Elt F) → (⟨S100352, .i32⟩ : BufTy).Contents (Elt F)) ((constantI S_ 32 100000#32) : (⟨S_, .i32⟩ : BufTy).Contents (Elt F))))))

theorem h0_1_v33 (U : Valuation τ sig (Elt F)) : StableHlo.after hostOps0_1 U main_v33 = padI (U main_v1) (U main_c_8) := by
  dsimp only [hostOps0_1]; after_results <;> (try simp only [StableHlo.TRef.ofBuf, StableHlo.TRef.toBuf, cast_eq]) <;> rfl
theorem h0_2_c_9 (U : Valuation τ sig (Elt F)) : StableHlo.after hostOps0_2 U main_c_9 = ((constantI S_ 32 0#32) : (⟨S_, .i32⟩ : BufTy).Contents (Elt F)) := by
  dsimp only [hostOps0_2]; after_results <;> (try simp only [StableHlo.TRef.ofBuf, StableHlo.TRef.toBuf, cast_eq]) <;> rfl
theorem h0_3_v34 (U : Valuation τ sig (Elt F)) : StableHlo.after hostOps0_3 U main_v34 = padI (U main_v3) (U main_c_9) := by
  dsimp only [hostOps0_3]; after_results <;> (try simp only [StableHlo.TRef.ofBuf, StableHlo.TRef.toBuf, cast_eq]) <;> rfl
theorem h0_4_c_10 (U : Valuation τ sig (Elt F)) : StableHlo.after hostOps0_4 U main_c_10 = ((constantI S_ 32 0#32) : (⟨S_, .i32⟩ : BufTy).Contents (Elt F)) := by
  dsimp only [hostOps0_4]; after_results <;> (try simp only [StableHlo.TRef.ofBuf, StableHlo.TRef.toBuf, cast_eq]) <;> rfl
theorem h0_5_v35 (U : Valuation τ sig (Elt F)) : StableHlo.after hostOps0_5 U main_v35 = padF (U main_v31) (U main_c_10) := by
  dsimp only [hostOps0_5]; after_results <;> (try simp only [StableHlo.TRef.ofBuf, StableHlo.TRef.toBuf, cast_eq]) <;> rfl
theorem h0_6_v36 (U : Valuation τ sig (Elt F)) : StableHlo.after hostOps0_6 U main_v36 = argsortE (U main_v33) := by
  dsimp only [hostOps0_6]; after_results <;> (try simp only [StableHlo.TRef.ofBuf, StableHlo.TRef.toBuf, cast_eq]) <;> rfl
theorem h0_7_v37 (U : Valuation τ sig (Elt F)) : StableHlo.after hostOps0_7 U main_v37 = argsortE (U main_v36) := by
  dsimp only [hostOps0_7]; after_results <;> (try simp only [StableHlo.TRef.ofBuf, StableHlo.TRef.toBuf, cast_eq]) <;> rfl
theorem h0_8_v38 (U : Valuation τ sig (Elt F)) : StableHlo.after hostOps0_8 U main_v38 = argsortE (U main_v34) := by
  dsimp only [hostOps0_8]; after_results <;> (try simp only [StableHlo.TRef.ofBuf, StableHlo.TRef.toBuf, cast_eq]) <;> rfl
theorem h0_10_v75 (U : Valuation τ sig (Elt F)) : StableHlo.after hostOps0_10 U main_v75 = padX (U main_arg0) (U main_c_23) := by
  dsimp only [hostOps0_10]; after_results <;> (try simp only [StableHlo.TRef.ofBuf, StableHlo.TRef.toBuf, cast_eq]) <;> rfl
theorem h0_11_c_24 (U : Valuation τ sig (Elt F)) : StableHlo.after hostOps0_11 U main_c_24 = ((constantI S_ 32 0#32) : (⟨S_, .i32⟩ : BufTy).Contents (Elt F)) := by
  dsimp only [hostOps0_11]; after_results <;> (try simp only [StableHlo.TRef.ofBuf, StableHlo.TRef.toBuf, cast_eq]) <;> rfl
theorem h0_12_v76 (U : Valuation τ sig (Elt F)) : StableHlo.after hostOps0_12 U main_v76 = padS (U main_v32) (U main_c_24) := by
  dsimp only [hostOps0_12]; after_results <;> (try simp only [StableHlo.TRef.ofBuf, StableHlo.TRef.toBuf, cast_eq]) <;> rfl
theorem h0_13_c_25 (U : Valuation τ sig (Elt F)) : StableHlo.after hostOps0_13 U main_c_25 = ((constantI S_ 32 4294967295#32) : (⟨S_, .i32⟩ : BufTy).Contents (Elt F)) := by
  dsimp only [hostOps0_13]; after_results <;> (try simp only [StableHlo.TRef.ofBuf, StableHlo.TRef.toBuf, cast_eq]) <;> rfl
theorem h0_14_v77 (U : Valuation τ sig (Elt F)) : StableHlo.after hostOps0_14 U main_v77 = padB (U main_arg2) (U main_c_25) := by
  dsimp only [hostOps0_14]; after_results <;> (try simp only [StableHlo.TRef.ofBuf, StableHlo.TRef.toBuf, cast_eq]) <;> rfl
theorem h0_15_v82 (U : Valuation τ sig (Elt F)) : StableHlo.after hostOps0_15 U main_v82 = maskCol := by
  dsimp only [hostOps0_15]; after_results <;> (try simp only [StableHlo.TRef.ofBuf, StableHlo.TRef.toBuf, cast_eq]) <;> rfl

/-! ### The sorted rows, the combined permutation, the tile tables -/

/-- Entries of an integer vector gathered at (normalised) positions: entry `e` of the result is entry `i e` of `x`. -/
def takeI (x : Vec F S1601536 .i32) (i : Vec F S1601536 .i32) : Vec F S1601536 .i32 :=
  (((fun x i => Host.gather gather_S1601536_S1601536x1_S1601536_n_0_n_n_0_1_1 x i) : (⟨S1601536, .i32⟩ : BufTy).Contents (Elt F) → (⟨S1601536x1, .i32⟩ : BufTy).Contents (Elt F) → (⟨S1601536, .i32⟩ : BufTy).Contents (Elt F)) x (colE i))

/-- The same for a float vector. -/
def takeF (y : Vec F S1601536 .f32) (i : Vec F S1601536 .i32) : Vec F S1601536 .f32 :=
  (((fun x i => Host.gather gather_S1601536_S1601536x1_S1601536_n_0_n_n_0_1_1 x i) : (⟨S1601536, .f32⟩ : BufTy).Contents (Elt F) → (⟨S1601536x1, .i32⟩ : BufTy).Contents (Elt F) → (⟨S1601536, .f32⟩ : BufTy).Contents (Elt F)) y (colE i))

/-- Per tile of 4096 consecutive entries (391 tiles), the least entry (signed). -/
def tileMin (s : Vec F S1601536 .i32) : Vec F S391 .i32 :=
  (((fun x v => Host.reduce IntOp.minsi x v reducesTo_S391x4096_S391_d1 h_S_) : (⟨S391x4096, .i32⟩ : BufTy).Contents (Elt F) → (⟨S_, .i32⟩ : BufTy).Contents (Elt F) → (⟨S391, .i32⟩ : BufTy).Contents (Elt F)) (shapeCast S391x4096 s shapeCasts_S1601536_S391x4096 : (⟨S391x4096, .i32⟩ : BufTy).Contents (Elt F)) ((constantI S_ 32 2147483647#32) : (⟨S_, .i32⟩ : BufTy).Contents (Elt F)))

/-- Per tile of 4096 consecutive entries, the greatest entry (signed). -/
def tileMax (s : Vec F S1601536 .i32) : Vec F S391 .i32 :=
  (((fun x v => Host.reduce IntOp.maxsi x v reducesTo_S391x4096_S391_d1 h_S_) : (⟨S391x4096, .i32⟩ : BufTy).Contents (Elt F) → (⟨S_, .i32⟩ : BufTy).Contents (Elt F) → (⟨S391, .i32⟩ : BufTy).Contents (Elt F)) (shapeCast S391x4096 s shapeCasts_S1601536_S391x4096 : (⟨S391x4096, .i32⟩ : BufTy).Contents (Elt F)) ((constantI S_ 32 2147483648#32) : (⟨S_, .i32⟩ : BufTy).Contents (Elt F)))

/-- From a position in destination order to the position of the same edge in source order. -/
def comb (ei : Vec F S2x1600000 .i32) : Vec F S1601536 .i32 := takeI (invPermSrc ei) (permDst ei)
/-- The padded source row in source order. -/
def srcSorted (ei : Vec F S2x1600000 .i32) : Vec F S1601536 .i32 := takeI (srcP ei) (permSrc ei)
/-- The padded edge normalisations in source order. -/
def normSorted (ei : Vec F S2x1600000 .i32) : Vec F S1601536 .f32 := takeF (normP ei) (permSrc ei)
/-- The padded destination row in destination order. -/
def dstSorted (ei : Vec F S2x1600000 .i32) : Vec F S1601536 .i32 := takeI (dstP ei) (permDst ei)
/-- The tile tables: the least and the greatest source of every tile in source order, the least and the greatest
    destination of every tile in destination order. -/
def tminSrc (ei : Vec F S2x1600000 .i32) : Vec F S391 .i32 := tileMin (srcSorted ei)
def tmaxSrc (ei : Vec F S2x1600000 .i32) : Vec F S391 .i32 := tileMax (srcSorted ei)
def tminDst (ei : Vec F S2x1600000 .i32) : Vec F S391 .i32 := tileMin (dstSorted ei)
def tmaxDst (ei : Vec F S2x1600000 .i32) : Vec F S391 .i32 := tileMax (dstSorted ei)

theorem h0_9_v45 (U : Valuation τ sig (Elt F)) : StableHlo.after hostOps0_9 U main_v45 = takeI (U main_v37) (U main_v38) := by
  dsimp only [hostOps0_9]; after_results_simp <;> rfl
theorem h0_9_v52 (U : Valuation τ sig (Elt F)) : StableHlo.after hostOps0_9 U main_v52 = takeI (U main_v33) (U main_v36) := by
  dsimp only [hostOps0_9]; after_results_simp <;> rfl
theorem h0_9_v59 (U : Valuation τ sig (Elt F)) : StableHlo.after hostOps0_9 U main_v59 = takeF (U main_v35) (U main_v36) := by
  dsimp only [hostOps0_9]; after_results_simp <;> rfl
theorem h0_9_v66 (U : Valuation τ sig (Elt F)) : StableHlo.after hostOps0_9 U main_v66 = takeI (U main_v34) (U main_v38) := by
  dsimp only [hostOps0_9]; after_results_simp <;> rfl
theorem h0_9_v68 (U : Valuation τ sig (Elt F)) : StableHlo.after hostOps0_9 U main_v68 = tileMin (takeI (U main_v33) (U main_v36)) := by
  dsimp only [hostOps0_9]; after_results_simp <;> rfl
theorem h0_9_v70 (U : Valuation τ sig (Elt F)) : StableHlo.after hostOps0_9 U main_v70 = tileMax (takeI (U main_v33) (U main_v36)) := by
  dsimp only [hostOps0_9]; after_results_simp <;> rfl
theorem h0_9_v72 (U : Valuation τ sig (Elt F)) : StableHlo.after hostOps0_9 U main_v72 = tileMin (takeI (U main_v34) (U main_v38)) := by
  dsimp only [hostOps0_9]; after_results_simp <;> rfl
theorem h0_9_v74 (U : Valuation τ sig (Elt F)) : StableHlo.after hostOps0_9 U main_v74 = tileMax (takeI (U main_v34) (U main_v38)) := by
  dsimp only [hostOps0_9]; after_results_simp <;> rfl
theorem h0_9_c_23 (U : Valuation τ sig (Elt F)) : StableHlo.after hostOps0_9 U main_c_23 = (constantI S_ 32 0#32 : (⟨S_, .i32⟩ : BufTy).Contents (Elt F)) := by
  dsimp only [hostOps0_9]; after_results_simp <;> rfl

/- The sort stays folded from here on: nothing downstream may evaluate it. -/
attribute [irreducible] argsortE

end Cert.KernelIdeal.KH
-- ==== Proof.IdxGen.lean ====
/-
  Reads, at one element and at any extent, of the index arrays a host program computes before its kernels: a
  take-style gather at a normalised index vector, a gather of whole rows, paddings at the end of an axis, and the
  minimum and maximum of each tile of a vector. Nothing here names a program.
-/
import Idealize.ShloMosaic.Lib.StableHlo.Predicate
import Idealize.ShloMosaic.Lib.KernelVsHost
import Idealize.ShloMosaic.Lib.Pipeline.Value

namespace Cert.IdxGen

open Idealize.ShloMosaic Idealize.ShloMosaic.StableHlo.Predicate

/-- The rank-zero shape. -/
abbrev S0 : Shape := ⟨0, ![]⟩

/-! ## Words -/

/-- A word below 2³¹ is not negative as a signed word. -/
theorem slt_zero_of_small {a : BitVec 32} (ha : a.toNat < 2 ^ 31) : IntOp.cmpi .slt a 0#32 = 0#1 := by
  have h := slt_iff_toNat (a := a) (b := 0#32) ha (by decide)
  rcases BitVec.eq_zero_or_eq_one (IntOp.cmpi .slt a 0#32) with h0 | h1
  · exact h0
  · exact absurd (h.mp h1) (by simp)

/-- A word below 2³¹ read signed and then as a natural is its value. -/
theorem toInt_toNat_of_small {a : BitVec 32} (ha : a.toNat < 2 ^ 31) : a.toInt.toNat = a.toNat := by
  rw [toInt_eq_toNat_of_lt ha]; rfl

/-- The index of a vector at a coordinate, in the two spellings in use. -/
theorem ofFin_eq_ix1 {n : Nat} (k : Fin n) : (Shape.Idx.ofFin k : (⟨1, ![n]⟩ : Shape).Idx) = ValueIdx.ix1 k := by
  funext a
  have ha : a = 0 := Subsingleton.elim _ _
  subst ha
  exact Fin.ext rfl

/-- The index of a rectangle at a row and a column, in the two spellings in use. -/
theorem ij_eq_ix2 {n m : Nat} (p : Fin n) (q : Fin m) : (ij p q : (⟨2, ![n, m]⟩ : Shape).Idx) = ValueIdx.ix2 p q := by
  funext a
  match a with
  | ⟨0, _⟩ => rfl
  | ⟨1, _⟩ => rfl

/-! ## The normalisation of an index vector -/

/-- An index vector with `c` added where the index is negative as a signed word (what precedes every take: a
    negative index counts from the end of an axis of extent `c`). -/
abbrev wrap {n : Nat} (c : BitVec 32) (hb : S0.BroadcastsInDim ⟨1, ![n]⟩ ![]) (p : IVec ⟨1, ![n]⟩ 32) :
    IVec ⟨1, ![n]⟩ 32 :=
  select (cmpi .slt p (broadcastInDim ⟨1, ![n]⟩ ![] hb (constantI S0 32 0#32)))
    (addi p (broadcastInDim ⟨1, ![n]⟩ ![] hb (constantI S0 32 c))) p

/-- At one element it is the scalar select. -/
theorem wrap_apply {n : Nat} (c : BitVec 32) (hb : S0.BroadcastsInDim ⟨1, ![n]⟩ ![]) (p : IVec ⟨1, ![n]⟩ 32)
    (j : (⟨1, ![n]⟩ : Shape).Idx) :
    wrap c hb p j = Scalar.select (IntOp.cmpi .slt (p j) 0#32) (IntOp.addi (p j) c) (p j) := rfl

/-- Where the index is below 2³¹ it is left as it is. -/
theorem wrap_of_small {n : Nat} (c : BitVec 32) (hb : S0.BroadcastsInDim ⟨1, ![n]⟩ ![]) (p : IVec ⟨1, ![n]⟩ 32)
    (j : (⟨1, ![n]⟩ : Shape).Idx) (hp : (p j).toNat < 2 ^ 31) : wrap c hb p j = p j := by
  rw [wrap_apply, slt_zero_of_small hp]; rfl

/-! ## The take at a normalised index vector -/

/-- The take of a rank-1 table at a normalised index vector whose entry at `k` is in range reads the table at that
    entry. -/
theorem take_wrap {α : Type} {N n : Nat} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (c : BitVec 32) (hb0 : S0.BroadcastsInDim ⟨1, ![n]⟩ ![])
    (hb1 : (⟨1, ![n]⟩ : Shape).BroadcastsInDim ⟨2, ![n, 1]⟩ ![0]) (hN : N < 2 ^ 31)
    (x : (⟨1, ![N]⟩ : Shape).Idx → α) (p : IVec ⟨1, ![n]⟩ 32) (k : Fin n)
    (hp : (p (Shape.Idx.ofFin k)).toNat < N) :
    Host.gather d x (broadcastInDim ⟨2, ![n, 1]⟩ ![0] hb1 (wrap c hb0 p)) (Shape.Idx.ofFin k)
      = x (Shape.Idx.ofFin ⟨(p (Shape.Idx.ofFin k)).toNat, hp⟩) := by
  refine (gather_take d hcoll hob hsim hivd x _ k (by omega)).trans ?_
  refine congrArg x (congrArg Shape.Idx.ofFin (Fin.ext ?_))
  show min ((broadcastInDim ⟨2, ![n, 1]⟩ ![0] hb1 (wrap c hb0 p)) (ixP k)).toInt.toNat (N - 1)
    = (p (Shape.Idx.ofFin k)).toNat
  rw [bcast_col1, wrap_of_small c hb0 p _ (by omega), toInt_toNat_of_small (by omega)]
  exact Nat.min_eq_left (by omega)

/-! ## A gather of whole rows -/

/-- The dimension numbers of a gather of whole rows of an [N × D] table at an [n × 1] column of row numbers. -/
abbrev rowDims (N n D : Nat)
    (wf : GatherDims.WF ⟨2, ![N, D]⟩ ⟨2, ![n, 1]⟩ ⟨2, ![n, D]⟩ [1] [0] [] [0] [] 1 ![1, D]) :
    GatherDims ⟨2, ![N, D]⟩ ⟨2, ![n, 1]⟩ ⟨2, ![n, D]⟩ where
  offsetDims := [1]
  collapsedSliceDims := [0]
  operandBatchingDims := []
  startIndicesBatchingDims := []
  startIndexMap := [0]
  indexVectorDim := 1
  sliceSizes := ![1, D]
  wf := wf

/-- Row `p`, column `q` of the gathered rows is the table at the row number `p` names (read signed and clamped into the
    table) and column `q`. -/
theorem gather_rows_apply {α : Type} {N n D w : Nat} (hN : 0 < N)
    (wf : GatherDims.WF ⟨2, ![N, D]⟩ ⟨2, ![n, 1]⟩ ⟨2, ![n, D]⟩ [1] [0] [] [0] [] 1 ![1, D])
    (x : (⟨2, ![N, D]⟩ : Shape).Idx → α) (idx : IVec ⟨2, ![n, 1]⟩ w) (p : Fin n) (q : Fin D) :
    Host.gather (rowDims N n D wf) x idx (ij p q)
      = x (ij ⟨min (idx (ixP p)).toInt.toNat (N - 1), by omega⟩ q) := by
  unfold Host.gather
  refine congrArg x (funext fun a => Fin.ext ?_)
  show (rowDims N n D wf).start (ij p q) idx a + (rowDims N n D wf).batchCoord (ij p q) a
    + (rowDims N n D wf).offCoord (ij p q) a = _
  rw [GatherDims.batchCoord_eq_zero _ _ _ List.not_mem_nil, Nat.add_zero]
  have h10 : (1 : Fin 2) ∉ ([0] : List (Fin 2)) := by decide
  have ha : a = (0 : Fin 2) ∨ a = (1 : Fin 2) := by
    match a with
    | ⟨0, _⟩ => exact Or.inl rfl
    | ⟨1, _⟩ => exact Or.inr rfl
  rcases ha with rfl | rfl
  · rw [GatherDims.offCoord_eq_zero _ _ _
      (fun h => ((GatherDims.mem_sKept _ _).mp h).1 (List.mem_singleton.mpr rfl)), Nat.add_zero]
    unfold GatherDims.start
    rw [dif_pos (show (0 : Fin 2) ∈ (rowDims N n D wf).startIndexMap from List.mem_singleton.mpr rfl)]
    have hsi : (rowDims N n D wf).siIdx (ij p q) ⟨List.idxOf (0 : Fin 2) (rowDims N n D wf).startIndexMap,
        List.idxOf_lt_length_iff.2 (List.mem_singleton.mpr rfl)⟩ = ixP p := by
      funext b; refine Fin.ext ?_
      match b with
      | ⟨0, _⟩ => rfl
      | ⟨1, _⟩ => rfl
    rw [hsi]
    rfl
  · have hs : (rowDims N n D wf).start (ij p q) idx (1 : Fin 2) = 0 := by
      unfold GatherDims.start
      rw [dif_neg h10]
    have ho : (rowDims N n D wf).offCoord (ij p q) (1 : Fin 2) = q.val := by
      unfold GatherDims.offCoord
      rw [dif_pos ((GatherDims.mem_sKept _ _).mpr ⟨h10, List.not_mem_nil⟩)]
      rfl
    rw [hs, ho, Nat.zero_add]

/-! ## Paddings at the end of the first axis -/

/-- A vector of `n` entries padded to `m` at its end reads the vector below `n` and the padding value from `n` on. -/
theorem pad_end_apply {α : Type} {n m hi : Nat} (x : (⟨1, ![n]⟩ : Shape).Idx → α) {u : Shape} (v : u.Idx → α)
    (hp : (⟨1, ![n]⟩ : Shape).Pads (![0] : Fin 1 → Nat) ![hi] ![0] ⟨1, ![m]⟩) (hu : 0 < u.numel)
    (j : (⟨1, ![m]⟩ : Shape).Idx) :
    pad ⟨1, ![m]⟩ ![0] ![hi] ![0] x v hp hu j
      = if h : (j 0).val < n then x (Shape.Idx.ofFin ⟨(j 0).val, h⟩) else v (Shape.Idx.first hu) := by
  by_cases h : (j 0).val < n
  · rw [dif_pos h]
    exact pad_apply_of_inside _ _ _ x v hp hu j (Shape.Idx.ofFin ⟨(j 0).val, h⟩) (by
      intro a
      have ha : a = 0 := Subsingleton.elim _ _
      subst ha
      show (j 0).val = 0 + (j 0).val * (0 + 1)
      omega)
  · rw [dif_neg h]
    exact pad_apply_of_not_inside _ _ _ x v hp hu j (0 : Fin 1) (by
      intro hin
      have e : ((j 0).val - 0) / (0 + 1) < n := hin.2.2
      rw [Nat.sub_zero, Nat.zero_add, Nat.div_one] at e
      exact h e)

/-- An [n × D] rectangle padded to [m × D] with rows at its end reads the rectangle in the rows below `n` and the
    padding value in the rows from `n` on. -/
theorem pad_rows_apply {α : Type} {n m D hi : Nat} (x : (⟨2, ![n, D]⟩ : Shape).Idx → α) {u : Shape} (v : u.Idx → α)
    (hp : (⟨2, ![n, D]⟩ : Shape).Pads (![0, 0] : Fin 2 → Nat) ![hi, 0] ![0, 0] ⟨2, ![m, D]⟩) (hu : 0 < u.numel)
    (j : (⟨2, ![m, D]⟩ : Shape).Idx) :
    pad ⟨2, ![m, D]⟩ ![0, 0] ![hi, 0] ![0, 0] x v hp hu j
      = if h : (j 0).val < n then x (ij ⟨(j 0).val, h⟩ (j 1)) else v (Shape.Idx.first hu) := by
  by_cases h : (j 0).val < n
  · rw [dif_pos h]
    exact pad_apply_of_inside _ _ _ x v hp hu j (ij ⟨(j 0).val, h⟩ (j 1)) (by
      intro a
      match a with
      | ⟨0, _⟩ => show (j 0).val = 0 + (j 0).val * (0 + 1); omega
      | ⟨1, _⟩ => show (j 1).val = 0 + (j 1).val * (0 + 1); omega)
  · rw [dif_neg h]
    exact pad_apply_of_not_inside _ _ _ x v hp hu j (0 : Fin 2) (by
      intro hin
      have e : ((j 0).val - 0) / (0 + 1) < n := hin.2.2
      rw [Nat.sub_zero, Nat.zero_add, Nat.div_one] at e
      exact h e)

/-! ## The minimum and the maximum of each tile of a vector -/

theorem le_minsi_iff {x y z : BitVec 32} :
    x.toInt ≤ (IntOp.minsi y z).toInt ↔ x.toInt ≤ y.toInt ∧ x.toInt ≤ z.toInt := by
  unfold IntOp.minsi
  split
  · next h =>
    have h' : y.toInt < z.toInt := by simpa only [BitVec.slt, decide_eq_true_eq] using h
    exact ⟨fun hx => ⟨hx, by omega⟩, fun hx => hx.1⟩
  · next h =>
    have h' : ¬ y.toInt < z.toInt := by simpa only [BitVec.slt, decide_eq_true_eq] using h
    exact ⟨fun hx => ⟨by omega, hx⟩, fun hx => hx.2⟩

theorem maxsi_le_iff {x y z : BitVec 32} :
    (IntOp.maxsi y z).toInt ≤ x.toInt ↔ y.toInt ≤ x.toInt ∧ z.toInt ≤ x.toInt := by
  unfold IntOp.maxsi
  split
  · next h =>
    have h' : z.toInt < y.toInt := by simpa only [BitVec.slt, decide_eq_true_eq] using h
    exact ⟨fun hx => ⟨hx, by omega⟩, fun hx => hx.1⟩
  · next h =>
    have h' : ¬ z.toInt < y.toInt := by simpa only [BitVec.slt, decide_eq_true_eq] using h
    exact ⟨fun hx => ⟨by omega, hx⟩, fun hx => hx.2⟩

/-- A fold of the signed minimum is at most every folded word. -/
theorem fold_minsi_le {ι : Type} (S : Finset ι) (init : BitVec 32) (f : ι → BitVec 32) (a : ι) (ha : a ∈ S) :
    (S.fold IntOp.minsi init f).toInt ≤ (f a).toInt :=
  ((Finset.fold_op_rel_iff_and (op := IntOp.minsi) (r := fun x y : BitVec 32 => x.toInt ≤ y.toInt)
    le_minsi_iff).mp le_rfl).2 a ha

/-- A fold of the signed maximum is at least every folded word. -/
theorem le_fold_maxsi {ι : Type} (S : Finset ι) (init : BitVec 32) (f : ι → BitVec 32) (a : ι) (ha : a ∈ S) :
    (f a).toInt ≤ (S.fold IntOp.maxsi init f).toInt :=
  ((Finset.fold_op_rel_iff_and (op := IntOp.maxsi) (r := fun x y : BitVec 32 => y.toInt ≤ x.toInt)
    maxsi_le_iff).mp le_rfl).2 a ha

/-- A vector of `L` words cut into `n` tiles of `m`, read at tile `e`, place `r`: the word at `e · m + r`. -/
theorem tile_apply {α : Type} {L n m : Nat} (A : (⟨1, ![L]⟩ : Shape).Idx → α)
    (hsc : (⟨1, ![L]⟩ : Shape).ShapeCasts ⟨2, ![n, m]⟩)
    (h : (⟨2, ![n, m]⟩ : Shape).Reduces [1] ⟨1, ![n]⟩) (e : Fin n) (r : Fin m) (hlt : e.val * m + r.val < L) :
    shapeCast ⟨2, ![n, m]⟩ A hsc (h.lift (Shape.Idx.ofFin e) r) = A (Shape.Idx.ofFin ⟨e.val * m + r.val, hlt⟩) := by
  refine shapeCast_apply A hsc _ _ ?_
  have h0 : ((h.lift (Shape.Idx.ofFin e) r) 0).val = e.val := rfl
  have h1 : ((h.lift (Shape.Idx.ofFin e) r) 1).val = r.val := rfl
  rw [Shape.rowMajor_val_one, Shape.rowMajor_val_two, h0, h1]
  rfl

/-- THE TILE MINIMUM: the signed-minimum reduction along the tiles' axis is, at tile `e`, at most every word of the
    tile (whatever the initial value). -/
theorem tile_min_le {L n m : Nat} (A : IVec ⟨1, ![L]⟩ 32) (hsc : (⟨1, ![L]⟩ : Shape).ShapeCasts ⟨2, ![n, m]⟩)
    (hr : (⟨2, ![n, m]⟩ : Shape).ReducesTo [1] ⟨1, ![n]⟩) {u : Shape} (init : u.Idx → BitVec 32) (hu : 0 < u.numel)
    (e : Fin n) (r : Fin m) (hlt : e.val * m + r.val < L) :
    (Host.reduce IntOp.minsi (shapeCast ⟨2, ![n, m]⟩ A hsc) init hr hu (Shape.Idx.ofFin e)).toInt
      ≤ (A (Shape.Idx.ofFin ⟨e.val * m + r.val, hlt⟩)).toInt := by
  have h : (⟨2, ![n, m]⟩ : Shape).Reduces [1] ⟨1, ![n]⟩ := ⟨hr.1, Nat.one_pos, hr.2⟩
  rw [Host.reduce_eq_fold_single IntOp.minsi _ init hr h hu]
  have := fold_minsi_le Finset.univ (init (Shape.Idx.first hu))
    (shapeCast ⟨2, ![n, m]⟩ A hsc ∘ h.lift (Shape.Idx.ofFin e)) r (Finset.mem_univ _)
  rw [← tile_apply A hsc h e r hlt]
  exact this

/-- THE TILE MAXIMUM: the signed-maximum reduction along the tiles' axis is, at tile `e`, at least every word of the
    tile. -/
theorem le_tile_max {L n m : Nat} (A : IVec ⟨1, ![L]⟩ 32) (hsc : (⟨1, ![L]⟩ : Shape).ShapeCasts ⟨2, ![n, m]⟩)
    (hr : (⟨2, ![n, m]⟩ : Shape).ReducesTo [1] ⟨1, ![n]⟩) {u : Shape} (init : u.Idx → BitVec 32) (hu : 0 < u.numel)
    (e : Fin n) (r : Fin m) (hlt : e.val * m + r.val < L) :
    (A (Shape.Idx.ofFin ⟨e.val * m + r.val, hlt⟩)).toInt
      ≤ (Host.reduce IntOp.maxsi (shapeCast ⟨2, ![n, m]⟩ A hsc) init hr hu (Shape.Idx.ofFin e)).toInt := by
  have h : (⟨2, ![n, m]⟩ : Shape).Reduces [1] ⟨1, ![n]⟩ := ⟨hr.1, Nat.one_pos, hr.2⟩
  rw [Host.reduce_eq_fold_single IntOp.maxsi _ init hr h hu]
  have := le_fold_maxsi Finset.univ (init (Shape.Idx.first hu))
    (shapeCast ⟨2, ![n, m]⟩ A hsc ∘ h.lift (Shape.Idx.ofFin e)) r (Finset.mem_univ _)
  rw [← tile_apply A hsc h e r hlt]
  exact this

end Cert.IdxGen
-- ==== Proof.IdxSort.lean ====
/-
  The argsort of a vector of 32-bit keys — the stable sort of (keys, positions) by the signed order of the keys,
  the positions' half of the result — at any extent below 2³¹: it lists a permutation of the positions, along
  which the keys do not decrease; the argsort of a vector that lists a permutation lists the inverse permutation;
  and so the composite of one argsort's inverse with another argsort carries the second order into the first.
  Nothing here names a program.
-/
import Idealize.ShloMosaic.Lib.SortFacts
import Idealize.ShloMosaic.Lib.StableHlo.Predicate
import Mathlib.Order.WellFounded
import Mathlib.Data.Fintype.Card

namespace Cert.IdxSort

open Idealize.ShloMosaic Idealize.ShloMosaic.StableHlo.Predicate

/-! ## The order and the permutation -/

/-- Position `k`'s key sorts strictly before position `k'`'s: it is smaller as a signed word. -/
def keyBefore {n : Nat} (keys : IVec ⟨1, ![n]⟩ 32) (k k' : Fin n) : Bool :=
  IntOp.cmpi .slt (keys (Shape.Idx.ofFin k)) (keys (Shape.Idx.ofFin k')) == 1#1

theorem keyBefore_iff {n : Nat} (keys : IVec ⟨1, ![n]⟩ 32) (k k' : Fin n) :
    keyBefore keys k k' = true ↔ (keys (Shape.Idx.ofFin k)).toInt < (keys (Shape.Idx.ofFin k')).toInt := by
  unfold keyBefore IntOp.cmpi
  simp only [beq_iff_eq, ofBool_eq_one_iff, BitVec.slt, decide_eq_true_eq]

theorem keyBefore_eq_false_iff {n : Nat} (keys : IVec ⟨1, ![n]⟩ 32) (k k' : Fin n) :
    keyBefore keys k k' = false ↔ (keys (Shape.Idx.ofFin k')).toInt ≤ (keys (Shape.Idx.ofFin k)).toInt := by
  rw [← Bool.not_eq_true, keyBefore_iff, not_lt]

/-- THE SORTING PERMUTATION of a key vector: the position whose key the stable sort puts at `k`. -/
def sortPerm {n : Nat} (keys : IVec ⟨1, ![n]⟩ 32) : Fin n → Fin n := sortedFrom (keyBefore keys)

theorem sortPerm_injective {n : Nat} (keys : IVec ⟨1, ![n]⟩ 32) : Function.Injective (sortPerm keys) :=
  sortedFrom_injective _

theorem sortPerm_surjective {n : Nat} (keys : IVec ⟨1, ![n]⟩ 32) : Function.Surjective (sortPerm keys) :=
  sortedFrom_surjective _

theorem sortPerm_bijective {n : Nat} (keys : IVec ⟨1, ![n]⟩ 32) : Function.Bijective (sortPerm keys) :=
  ⟨sortPerm_injective keys, sortPerm_surjective keys⟩

/-- Along the sorting permutation the keys do not decrease (signed). -/
theorem sortPerm_sorted {n : Nat} (keys : IVec ⟨1, ![n]⟩ 32) (i j : Fin n) (hij : i < j) :
    (keys (Shape.Idx.ofFin (sortPerm keys i))).toInt ≤ (keys (Shape.Idx.ofFin (sortPerm keys j))).toInt := by
  have h := sortedFrom_noInversion (keyBefore keys) (keyBefore keys)
    (fun a b hab => by
      rw [keyBefore_iff] at hab
      rw [keyBefore_eq_false_iff]
      omega)
    (fun _ _ hab => hab)
    (fun a b c hab hbc => by
      rw [keyBefore_eq_false_iff] at hab hbc ⊢
      omega)
    i j hij
  exact (keyBefore_eq_false_iff keys _ _).mp h

/-! ## The argsort reads the sorting permutation -/

/-- The second operand of a two-operand sort of vectors, read at `j`: the operand at the sorting position. -/
theorem sort2_rank1_snd {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- The first operand likewise. -/
theorem sort2_rank1_fst {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).1 j
      = x (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- THE ARGSORT of a key vector under a comparator that is the signed order of the keys: the positions' half of the
    stable sort of (keys, positions). -/
abbrev argsort {n : Nat} (cmp : BitVec 32 × BitVec 32 → BitVec 32 × BitVec 32 → BitVec 1)
    (keys : IVec ⟨1, ![n]⟩ 32) : IVec ⟨1, ![n]⟩ 32 :=
  (Host.sort2 ⟨1, ![n]⟩ 0 cmp keys (iotaInDim ⟨1, ![n]⟩ 32 0)).2

/-- It reads, at `j`, the word of the sorting permutation's value. -/
theorem argsort_apply {n : Nat} (cmp : BitVec 32 × BitVec 32 → BitVec 32 × BitVec 32 → BitVec 1)
    (hcmp : ∀ l r, cmp l r = IntOp.cmpi .slt l.1 r.1) (keys : IVec ⟨1, ![n]⟩ 32) (j : (⟨1, ![n]⟩ : Shape).Idx) :
    argsort cmp keys j = BitVec.ofNat 32 (sortPerm keys (j 0)).val := by
  show (Host.sort2 ⟨1, ![n]⟩ 0 cmp keys (iotaInDim ⟨1, ![n]⟩ 32 0)).2 j = _
  rw [sort2_rank1_snd]
  have hB : (fun k k' : Fin n => cmp (keys (Shape.Idx.ofFin k), iotaInDim ⟨1, ![n]⟩ 32 0 (Shape.Idx.ofFin k))
      (keys (Shape.Idx.ofFin k'), iotaInDim ⟨1, ![n]⟩ 32 0 (Shape.Idx.ofFin k')) == 1#1) = keyBefore keys := by
    funext k k'
    rw [hcmp]
    rfl
  rw [hB]
  rfl

/-- The keys sorted: the first half of the same sort reads the keys along the sorting permutation. -/
theorem sorted_keys_apply {n : Nat} (cmp : BitVec 32 × BitVec 32 → BitVec 32 × BitVec 32 → BitVec 1)
    (hcmp : ∀ l r, cmp l r = IntOp.cmpi .slt l.1 r.1) (keys : IVec ⟨1, ![n]⟩ 32) (j : (⟨1, ![n]⟩ : Shape).Idx) :
    (Host.sort2 ⟨1, ![n]⟩ 0 cmp keys (iotaInDim ⟨1, ![n]⟩ 32 0)).1 j
      = keys (Shape.Idx.ofFin (sortPerm keys (j 0))) := by
  rw [sort2_rank1_fst]
  have hB : (fun k k' : Fin n => cmp (keys (Shape.Idx.ofFin k), iotaInDim ⟨1, ![n]⟩ 32 0 (Shape.Idx.ofFin k))
      (keys (Shape.Idx.ofFin k'), iotaInDim ⟨1, ![n]⟩ 32 0 (Shape.Idx.ofFin k')) == 1#1) = keyBefore keys := by
    funext k k'
    rw [hcmp]
    rfl
  rw [hB]
  rfl

/-- As a number the argsort's entry is the sorting permutation's value (the extent fits a word). -/
theorem argsort_toNat {n : Nat} (hn : n < 2 ^ 31) (cmp : BitVec 32 × BitVec 32 → BitVec 32 × BitVec 32 → BitVec 1)
    (hcmp : ∀ l r, cmp l r = IntOp.cmpi .slt l.1 r.1) (keys : IVec ⟨1, ![n]⟩ 32) (j : (⟨1, ![n]⟩ : Shape).Idx) :
    (argsort cmp keys j).toNat = (sortPerm keys (j 0)).val := by
  rw [argsort_apply cmp hcmp, BitVec.toNat_ofNat]
  exact Nat.mod_eq_of_lt (by have := (sortPerm keys (j 0)).isLt; omega)

/-- So every entry is a position: below the extent … -/
theorem argsort_lt {n : Nat} (hn : n < 2 ^ 31) (cmp : BitVec 32 × BitVec 32 → BitVec 32 × BitVec 32 → BitVec 1)
    (hcmp : ∀ l r, cmp l r = IntOp.cmpi .slt l.1 r.1) (keys : IVec ⟨1, ![n]⟩ 32) (j : (⟨1, ![n]⟩ : Shape).Idx) :
    (argsort cmp keys j).toNat < n := by
  rw [argsort_toNat hn cmp hcmp]; exact (sortPerm keys (j 0)).isLt

/-- … no two entries are equal … -/
theorem argsort_injective {n : Nat} (hn : n < 2 ^ 31) (cmp : BitVec 32 × BitVec 32 → BitVec 32 × BitVec 32 → BitVec 1)
    (hcmp : ∀ l r, cmp l r = IntOp.cmpi .slt l.1 r.1) (keys : IVec ⟨1, ![n]⟩ 32) :
    Function.Injective fun j => (argsort cmp keys j).toNat := by
  intro j₁ j₂ h
  simp only [argsort_toNat hn cmp hcmp] at h
  have h0 : j₁ 0 = j₂ 0 := sortPerm_injective keys (Fin.ext h)
  rw [Shape.Idx.eq_ofFin j₁, Shape.Idx.eq_ofFin j₂, h0]

/-- … and every position is an entry. -/
theorem argsort_surjective {n : Nat} (hn : n < 2 ^ 31) (cmp : BitVec 32 × BitVec 32 → BitVec 32 × BitVec 32 → BitVec 1)
    (hcmp : ∀ l r, cmp l r = IntOp.cmpi .slt l.1 r.1) (keys : IVec ⟨1, ![n]⟩ 32) (k : Fin n) :
    ∃ j, (argsort cmp keys j).toNat = k.val := by
  obtain ⟨i, hi⟩ := sortPerm_surjective keys k
  refine ⟨Shape.Idx.ofFin i, ?_⟩
  rw [argsort_toNat hn cmp hcmp, Shape.Idx.ofFin_zero, hi]

/-! ## The argsort of a permutation is its inverse -/

/-- An injective self-map of an initial segment of the naturals that does not decrease is the identity. -/
theorem eq_self_of_injective_of_monotone {n : Nat} (f : Fin n → Fin n) (hinj : Function.Injective f)
    (hmono : ∀ i j, i < j → f i ≤ f j) (k : Fin n) : f k = k := by
  have hs : StrictMono f := fun i j hij =>
    lt_of_le_of_ne (hmono i j hij) fun e => (ne_of_lt hij) (hinj e)
  exact le_antisymm (hs.le_id k) (hs.id_le k)

/-- If the keys list an injective map `τ` of the positions, the sorting permutation inverts it: the sorted keys are
    0, 1, …, in order, so the key at sorted position `k` is `k`. -/
theorem sortPerm_of_perm {n : Nat} (hn : n < 2 ^ 31) (keys : IVec ⟨1, ![n]⟩ 32) (τ : Fin n → Fin n)
    (hτ : Function.Injective τ) (hk : ∀ k : Fin n, keys (Shape.Idx.ofFin k) = BitVec.ofNat 32 (τ k).val) (k : Fin n) :
    τ (sortPerm keys k) = k := by
  refine eq_self_of_injective_of_monotone (fun k => τ (sortPerm keys k))
    (fun a b e => sortPerm_injective keys (hτ e)) (fun i j hij => ?_) k
  have h := sortPerm_sorted keys i j hij
  rw [hk, hk, toInt_ofNat_small _ (by have := (τ (sortPerm keys i)).isLt; omega),
    toInt_ofNat_small _ (by have := (τ (sortPerm keys j)).isLt; omega)] at h
  exact Fin.le_def.mpr (by exact_mod_cast h)

/-- THE ARGSORT OF AN ARGSORT: the sorting permutation of an argsort inverts the sorting permutation it lists. -/
theorem sortPerm_argsort {n : Nat} (hn : n < 2 ^ 31) (cmp : BitVec 32 × BitVec 32 → BitVec 32 × BitVec 32 → BitVec 1)
    (hcmp : ∀ l r, cmp l r = IntOp.cmpi .slt l.1 r.1) (keys : IVec ⟨1, ![n]⟩ 32) (k : Fin n) :
    sortPerm keys (sortPerm (argsort cmp keys) k) = k :=
  sortPerm_of_perm hn (argsort cmp keys) (sortPerm keys) (sortPerm_injective keys)
    (fun k => argsort_apply cmp hcmp keys (Shape.Idx.ofFin k)) k

/-- … and from the other side. -/
theorem sortPerm_argsort' {n : Nat} (hn : n < 2 ^ 31) (cmp : BitVec 32 × BitVec 32 → BitVec 32 × BitVec 32 → BitVec 1)
    (hcmp : ∀ l r, cmp l r = IntOp.cmpi .slt l.1 r.1) (keys : IVec ⟨1, ![n]⟩ 32) (k : Fin n) :
    sortPerm (argsort cmp keys) (sortPerm keys k) = k :=
  sortPerm_injective keys (sortPerm_argsort hn cmp hcmp keys (sortPerm keys k))

/-! ## One order carried into another -/

/-- For two key vectors, the position in the first's sorted order of the element at position `k` of the second's
    sorted order. -/
def combPerm {n : Nat} (cmp : BitVec 32 × BitVec 32 → BitVec 32 × BitVec 32 → BitVec 1)
    (srcP dstP : IVec ⟨1, ![n]⟩ 32) (k : Fin n) : Fin n :=
  sortPerm (argsort cmp srcP) (sortPerm dstP k)

/-- Its defining property: the first's sorting permutation after it is the second's. -/
theorem sortPerm_combPerm {n : Nat} (hn : n < 2 ^ 31) (cmp : BitVec 32 × BitVec 32 → BitVec 32 × BitVec 32 → BitVec 1)
    (hcmp : ∀ l r, cmp l r = IntOp.cmpi .slt l.1 r.1) (srcP dstP : IVec ⟨1, ![n]⟩ 32) (k : Fin n) :
    sortPerm srcP (combPerm cmp srcP dstP k) = sortPerm dstP k :=
  sortPerm_argsort hn cmp hcmp srcP (sortPerm dstP k)

theorem combPerm_injective {n : Nat} (cmp : BitVec 32 × BitVec 32 → BitVec 32 × BitVec 32 → BitVec 1)
    (srcP dstP : IVec ⟨1, ![n]⟩ 32) : Function.Injective (combPerm cmp srcP dstP) :=
  fun _ _ e => sortPerm_injective dstP (sortPerm_injective (argsort cmp srcP) e)

theorem combPerm_surjective {n : Nat} (cmp : BitVec 32 × BitVec 32 → BitVec 32 × BitVec 32 → BitVec 1)
    (srcP dstP : IVec ⟨1, ![n]⟩ 32) : Function.Surjective (combPerm cmp srcP dstP) := by
  intro k
  obtain ⟨a, ha⟩ := sortPerm_surjective (argsort cmp srcP) k
  obtain ⟨b, hb⟩ := sortPerm_surjective dstP a
  exact ⟨b, by unfold combPerm; rw [hb, ha]⟩

end Cert.IdxSort
-- ==== Proof.IdxFacts.lean ====
/-
  The index arrays this program computes on the host before its kernels, read at one element, over VARIABLE key
  arrays (nothing here evaluates a sort): the argsort of a padded edge array lists a permutation of the 1601536
  positions; the argsort of an argsort lists the inverse permutation, so the "combined" array carries the
  destination-sorted order into the source-sorted one; a take at such an array reads its table at the listed
  position, and a gather of rows reads the listed row; the minimum and the maximum over each tile of 4096 bound
  every word of the tile.
-/
import proofs.«417346_j54202487276072_2_alg».proof.KernelIdeal
import proofs.«417346_j54202487276072_2_alg».proof.Proof.IdxGen
import proofs.«417346_j54202487276072_2_alg».proof.Proof.IdxSort

namespace Cert.KernelIdeal.IF

open Idealize.ShloMosaic Idealize.ShloMosaic.StableHlo.Predicate
open Cert.KernelIdeal Cert.KernelIdeal.Facts₀

variable [Facts₀]

/-! ## The printed terms -/

/-- The printed comparator is the signed order of the keys (the carried positions are not compared). -/
theorem hcmp (l r : BitVec 32 × BitVec 32) : comparator_i32_i32_d0 l r = IntOp.cmpi .slt l.1 r.1 := rfl

/-- The printed argsort of a key array: the positions' half of the stable sort of (keys, positions). -/
abbrev argsortP (keys : IVec S1601536 32) : IVec S1601536 32 :=
  (Host.sort2 S1601536 0 comparator_i32_i32_d0 keys (iotaInDim S1601536 32 0)).2

/-- The printed normalisation of an index array over the 1601536 positions (1601536 added where negative). -/
abbrev wrapP (p : IVec S1601536 32) : IVec S1601536 32 :=
  select (cmpi .slt p (broadcastInDim S1601536 ![] bcast_S_S1601536 (constantI S_ 32 0#32)))
    (addi p (broadcastInDim S1601536 ![] bcast_S_S1601536 (constantI S_ 32 1601536#32))) p

/-- The printed column of start indices of a take at `p`. -/
abbrev colP (p : IVec S1601536 32) : IVec S1601536x1 32 :=
  broadcastInDim S1601536x1 ![0] bcast_S1601536_S1601536x1_0 (wrapP p)

/-- The sorting permutation of a key array: the position whose key the stable sort puts at `k`. -/
abbrev perm (keys : IVec S1601536 32) : Fin 1601536 → Fin 1601536 := IdxSort.sortPerm keys

/-- The position, in the source-sorted order, of the edge at position `k` of the destination-sorted order. -/
abbrev comb (srcP dstP : IVec S1601536 32) : Fin 1601536 → Fin 1601536 :=
  IdxSort.combPerm comparator_i32_i32_d0 srcP dstP

/-! ## The argsort lists a permutation -/

theorem perm_bijective (keys : IVec S1601536 32) : Function.Bijective (perm keys) := IdxSort.sortPerm_bijective keys

/-- The argsort at `j` is the word of the sorting permutation's value. -/
theorem argsortP_apply (keys : IVec S1601536 32) (j : S1601536.Idx) :
    argsortP keys j = BitVec.ofNat 32 (perm keys (j 0)).val :=
  IdxSort.argsort_apply comparator_i32_i32_d0 hcmp keys j

theorem argsortP_toNat (keys : IVec S1601536 32) (j : S1601536.Idx) :
    (argsortP keys j).toNat = (perm keys (j 0)).val :=
  IdxSort.argsort_toNat (by decide) comparator_i32_i32_d0 hcmp keys j

theorem argsortP_lt (keys : IVec S1601536 32) (j : S1601536.Idx) : (argsortP keys j).toNat < 1601536 :=
  IdxSort.argsort_lt (by decide) comparator_i32_i32_d0 hcmp keys j

theorem argsortP_injective (keys : IVec S1601536 32) : Function.Injective fun j => (argsortP keys j).toNat :=
  IdxSort.argsort_injective (by decide) comparator_i32_i32_d0 hcmp keys

theorem argsortP_surjective (keys : IVec S1601536 32) (k : Fin 1601536) : ∃ j, (argsortP keys j).toNat = k.val :=
  IdxSort.argsort_surjective (by decide) comparator_i32_i32_d0 hcmp keys k

/-- The normalisation leaves an index array in range as it is … -/
theorem wrapP_of_lt (p : IVec S1601536 32) (j : S1601536.Idx) (hp : (p j).toNat < 1601536) : wrapP p j = p j :=
  IdxGen.wrap_of_small 1601536#32 bcast_S_S1601536 p j (by omega)

/-- … so it leaves an argsort as it is. -/
theorem wrapP_argsortP (keys : IVec S1601536 32) : wrapP (argsortP keys) = argsortP keys :=
  funext fun j => wrapP_of_lt _ j (argsortP_lt keys j)

/-- The keys sorted (the other half of the same sort) read the keys along the sorting permutation, and do not
    decrease. -/
theorem sortedKeys_apply (keys : IVec S1601536 32) (j : S1601536.Idx) :
    (Host.sort2 S1601536 0 comparator_i32_i32_d0 keys (iotaInDim S1601536 32 0)).1 j
      = keys (ValueIdx.ix1 (perm keys (j 0))) := by
  rw [← IdxGen.ofFin_eq_ix1]
  exact IdxSort.sorted_keys_apply comparator_i32_i32_d0 hcmp keys j

theorem perm_sorted (keys : IVec S1601536 32) (i j : Fin 1601536) (hij : i < j) :
    (keys (ValueIdx.ix1 (perm keys i))).toInt ≤ (keys (ValueIdx.ix1 (perm keys j))).toInt := by
  rw [← IdxGen.ofFin_eq_ix1, ← IdxGen.ofFin_eq_ix1]
  exact IdxSort.sortPerm_sorted keys i j hij

/-! ## The argsort of an argsort lists the inverse; the combined array -/

theorem perm_argsortP (keys : IVec S1601536 32) (k : Fin 1601536) : perm keys (perm (argsortP keys) k) = k :=
  IdxSort.sortPerm_argsort (by decide) comparator_i32_i32_d0 hcmp keys k

theorem perm_argsortP' (keys : IVec S1601536 32) (k : Fin 1601536) : perm (argsortP keys) (perm keys k) = k :=
  IdxSort.sortPerm_argsort' (by decide) comparator_i32_i32_d0 hcmp keys k

/-- THE COMBINED ORDER: the source-sorting permutation after it is the destination-sorting permutation. -/
theorem perm_comb (srcP dstP : IVec S1601536 32) (k : Fin 1601536) : perm srcP (comb srcP dstP k) = perm dstP k :=
  IdxSort.sortPerm_combPerm (by decide) comparator_i32_i32_d0 hcmp srcP dstP k

theorem comb_bijective (srcP dstP : IVec S1601536 32) : Function.Bijective (comb srcP dstP) :=
  ⟨IdxSort.combPerm_injective _ srcP dstP, IdxSort.combPerm_surjective _ srcP dstP⟩

/-! ## Takes and row gathers read at the listed position -/

/-- A take of any table over the 1601536 positions at an index array whose entry at `j` is in range reads the table at
    that entry. -/
theorem take_at {α : Type} (A : S1601536.Idx → α) (p : IVec S1601536 32) (j : S1601536.Idx)
    (hp : (p j).toNat < 1601536) :
    Host.gather gather_S1601536_S1601536x1_S1601536_n_0_n_n_0_1_1 A (colP p) j
      = A (ValueIdx.ix1 ⟨(p j).toNat, hp⟩) := by
  obtain ⟨k, rfl⟩ : ∃ k : Fin 1601536, j = Shape.Idx.ofFin k := ⟨j 0, Shape.Idx.eq_ofFin j⟩
  rw [← IdxGen.ofFin_eq_ix1]
  exact IdxGen.take_wrap gather_S1601536_S1601536x1_S1601536_n_0_n_n_0_1_1 rfl rfl rfl rfl 1601536#32
    bcast_S_S1601536 bcast_S1601536_S1601536x1_0 (by decide) A p k hp

/-- A take at an argsort reads the table along the sorting permutation. -/
theorem take_argsortP {α : Type} (A : S1601536.Idx → α) (keys : IVec S1601536 32) (j : S1601536.Idx) :
    Host.gather gather_S1601536_S1601536x1_S1601536_n_0_n_n_0_1_1 A (colP (argsortP keys)) j
      = A (ValueIdx.ix1 (perm keys (j 0))) := by
  rw [take_at A (argsortP keys) j (argsortP_lt keys j)]
  exact congrArg A (congrArg ValueIdx.ix1 (Fin.ext (argsortP_toNat keys j)))

/-- THE COMBINED ARRAY: the take of the inverse source order at the destination order lists `comb`. -/
theorem combined_apply (srcP dstP : IVec S1601536 32) (j : S1601536.Idx) :
    Host.gather gather_S1601536_S1601536x1_S1601536_n_0_n_n_0_1_1 (argsortP (argsortP srcP)) (colP (argsortP dstP)) j
      = BitVec.ofNat 32 (comb srcP dstP (j 0)).val := by
  rw [take_argsortP, argsortP_apply]
  rfl

theorem combined_toNat (srcP dstP : IVec S1601536 32) (j : S1601536.Idx) :
    (Host.gather gather_S1601536_S1601536x1_S1601536_n_0_n_n_0_1_1 (argsortP (argsortP srcP))
      (colP (argsortP dstP)) j).toNat = (comb srcP dstP (j 0)).val := by
  rw [combined_apply, BitVec.toNat_ofNat]
  exact Nat.mod_eq_of_lt (by have := (comb srcP dstP (j 0)).isLt; omega)

/-- A gather of whole rows (any row width `D`) at an index array whose entry for row `i 0` is in range reads that row. -/
theorem rows_wrap {α : Type} {D : Nat}
    (wf : GatherDims.WF ⟨2, ![1601536, D]⟩ ⟨2, ![1601536, 1]⟩ ⟨2, ![1601536, D]⟩ [1] [0] [] [0] [] 1 ![1, D])
    (X : (⟨2, ![1601536, D]⟩ : Shape).Idx → α) (p : IVec S1601536 32) (i : (⟨2, ![1601536, D]⟩ : Shape).Idx)
    (hp : (p (ValueIdx.ix1 (i 0))).toNat < 1601536) :
    Host.gather (IdxGen.rowDims 1601536 1601536 D wf) X (colP p) i
      = X (ValueIdx.ix2 ⟨(p (ValueIdx.ix1 (i 0))).toNat, hp⟩ (i 1)) := by
  have hw : wrapP p (ValueIdx.ix1 (i 0)) = p (ValueIdx.ix1 (i 0)) := wrapP_of_lt p _ hp
  have hc : colP p (ixP (i 0)) = p (ValueIdx.ix1 (i 0)) := by
    have h : colP p (ixP (i 0)) = wrapP p (Shape.Idx.ofFin (i 0)) :=
      bcast_col1 bcast_S1601536_S1601536x1_0 (wrapP p) (i 0)
    have h2 : (Shape.Idx.ofFin (i 0) : S1601536.Idx) = ValueIdx.ix1 (i 0) := IdxGen.ofFin_eq_ix1 (i 0)
    exact h.trans ((congrArg (wrapP p) h2).trans hw)
  have hm : min (colP p (ixP (i 0))).toInt.toNat (1601536 - 1) = (p (ValueIdx.ix1 (i 0))).toNat := by
    rw [hc, IdxGen.toInt_toNat_of_small (by omega)]
    exact Nat.min_eq_left (by omega)
  have hi : (ij (i 0) (i 1) : (⟨2, ![1601536, D]⟩ : Shape).Idx) = i := ij_eta i
  have e := IdxGen.gather_rows_apply (by decide) wf X (colP p) (i 0) (i 1)
  refine ((congrArg (Host.gather (IdxGen.rowDims 1601536 1601536 D wf) X (colP p)) hi).symm.trans e).trans ?_
  refine Eq.trans ?_ (congrArg X (IdxGen.ij_eq_ix2 (n := 1601536) (m := D) ⟨(p (ValueIdx.ix1 (i 0))).toNat, hp⟩ (i 1)))
  exact congrArg X (congrArg (fun r => ij r (i 1)) (Fin.ext hm))

/-- The three printed row gathers are gathers of whole rows. -/
theorem rows16_eq : gather_S1601536x16_S1601536x1_S1601536x16_1_0_n_n_0_1_116
    = IdxGen.rowDims 1601536 1601536 16 gather_S1601536x16_S1601536x1_S1601536x16_1_0_n_n_0_1_116_wf := rfl
theorem rows64_eq : gather_S1601536x64_S1601536x1_S1601536x64_1_0_n_n_0_1_164
    = IdxGen.rowDims 1601536 1601536 64 gather_S1601536x64_S1601536x1_S1601536x64_1_0_n_n_0_1_164_wf := rfl
theorem rows32_eq : gather_S1601536x32_S1601536x1_S1601536x32_1_0_n_n_0_1_132
    = IdxGen.rowDims 1601536 1601536 32 gather_S1601536x32_S1601536x1_S1601536x32_1_0_n_n_0_1_132_wf := rfl

/-- The row gather of width 16 at an index array in range reads the listed row … -/
theorem rows16_at {α : Type} (X : S1601536x16.Idx → α) (p : IVec S1601536 32) (i : S1601536x16.Idx)
    (hp : (p (ValueIdx.ix1 (i 0))).toNat < 1601536) :
    Host.gather gather_S1601536x16_S1601536x1_S1601536x16_1_0_n_n_0_1_116 X (colP p) i
      = X (ValueIdx.ix2 ⟨(p (ValueIdx.ix1 (i 0))).toNat, hp⟩ (i 1)) := by
  rw [rows16_eq]; exact rows_wrap _ X p i hp
/-- … of width 64 … -/
theorem rows64_at {α : Type} (X : S1601536x64.Idx → α) (p : IVec S1601536 32) (i : S1601536x64.Idx)
    (hp : (p (ValueIdx.ix1 (i 0))).toNat < 1601536) :
    Host.gather gather_S1601536x64_S1601536x1_S1601536x64_1_0_n_n_0_1_164 X (colP p) i
      = X (ValueIdx.ix2 ⟨(p (ValueIdx.ix1 (i 0))).toNat, hp⟩ (i 1)) := by
  rw [rows64_eq]; exact rows_wrap _ X p i hp
/-- … of width 32. -/
theorem rows32_at {α : Type} (X : S1601536x32.Idx → α) (p : IVec S1601536 32) (i : S1601536x32.Idx)
    (hp : (p (ValueIdx.ix1 (i 0))).toNat < 1601536) :
    Host.gather gather_S1601536x32_S1601536x1_S1601536x32_1_0_n_n_0_1_132 X (colP p) i
      = X (ValueIdx.ix2 ⟨(p (ValueIdx.ix1 (i 0))).toNat, hp⟩ (i 1)) := by
  rw [rows32_eq]; exact rows_wrap _ X p i hp

/-- The combined array, as the printed term. -/
abbrev combinedP (srcP dstP : IVec S1601536 32) : IVec S1601536 32 :=
  Host.gather gather_S1601536_S1601536x1_S1601536_n_0_n_n_0_1_1 (argsortP (argsortP srcP)) (colP (argsortP dstP))

theorem combinedP_lt (srcP dstP : IVec S1601536 32) (j : S1601536.Idx) : (combinedP srcP dstP j).toNat < 1601536 := by
  show (Host.gather gather_S1601536_S1601536x1_S1601536_n_0_n_n_0_1_1 (argsortP (argsortP srcP))
    (colP (argsortP dstP)) j).toNat < 1601536
  rw [combined_toNat]; exact (comb srcP dstP (j 0)).isLt

/-- THE ROWS AT THE COMBINED ARRAY: row `i 0` of the gathered rows is row `comb (i 0)` of the table (width 16 … -/
theorem rows16_combined {α : Type} (X : S1601536x16.Idx → α) (srcP dstP : IVec S1601536 32) (i : S1601536x16.Idx) :
    Host.gather gather_S1601536x16_S1601536x1_S1601536x16_1_0_n_n_0_1_116 X (colP (combinedP srcP dstP)) i
      = X (ValueIdx.ix2 (comb srcP dstP (i 0)) (i 1)) := by
  rw [rows16_at X (combinedP srcP dstP) i (combinedP_lt srcP dstP _)]
  exact congrArg X (congrArg (fun r => ValueIdx.ix2 r (i 1)) (Fin.ext (combined_toNat srcP dstP _)))
/-- … 64 … -/
theorem rows64_combined {α : Type} (X : S1601536x64.Idx → α) (srcP dstP : IVec S1601536 32) (i : S1601536x64.Idx) :
    Host.gather gather_S1601536x64_S1601536x1_S1601536x64_1_0_n_n_0_1_164 X (colP (combinedP srcP dstP)) i
      = X (ValueIdx.ix2 (comb srcP dstP (i 0)) (i 1)) := by
  rw [rows64_at X (combinedP srcP dstP) i (combinedP_lt srcP dstP _)]
  exact congrArg X (congrArg (fun r => ValueIdx.ix2 r (i 1)) (Fin.ext (combined_toNat srcP dstP _)))
/-- … 32). -/
theorem rows32_combined {α : Type} (X : S1601536x32.Idx → α) (srcP dstP : IVec S1601536 32) (i : S1601536x32.Idx) :
    Host.gather gather_S1601536x32_S1601536x1_S1601536x32_1_0_n_n_0_1_132 X (colP (combinedP srcP dstP)) i
      = X (ValueIdx.ix2 (comb srcP dstP (i 0)) (i 1)) := by
  rw [rows32_at X (combinedP srcP dstP) i (combinedP_lt srcP dstP _)]
  exact congrArg X (congrArg (fun r => ValueIdx.ix2 r (i 1)) (Fin.ext (combined_toNat srcP dstP _)))

/-! ## The tables bound their tiles -/

/-- The minimum over each tile of 4096 of an array over the 1601536 positions is at most every word of the tile
    (signed; whatever the initial value) … -/
theorem tile_min_le (A : IVec S1601536 32) (init : IVec S_ 32) (e : Fin 391) (r : Fin 4096) :
    (Host.reduce IntOp.minsi (shapeCast S391x4096 A shapeCasts_S1601536_S391x4096) init
        reducesTo_S391x4096_S391_d1 h_S_ (ValueIdx.ix1 e)).toInt
      ≤ (A (ValueIdx.ix1 ⟨e.val * 4096 + r.val, by have := e.isLt; have := r.isLt; omega⟩)).toInt := by
  rw [← IdxGen.ofFin_eq_ix1, ← IdxGen.ofFin_eq_ix1]
  exact IdxGen.tile_min_le A shapeCasts_S1601536_S391x4096 reducesTo_S391x4096_S391_d1 init h_S_ e r _

/-- … and the maximum at least every word of the tile. -/
theorem le_tile_max (A : IVec S1601536 32) (init : IVec S_ 32) (e : Fin 391) (r : Fin 4096) :
    (A (ValueIdx.ix1 ⟨e.val * 4096 + r.val, by have := e.isLt; have := r.isLt; omega⟩)).toInt
      ≤ (Host.reduce IntOp.maxsi (shapeCast S391x4096 A shapeCasts_S1601536_S391x4096) init
        reducesTo_S391x4096_S391_d1 h_S_ (ValueIdx.ix1 e)).toInt := by
  rw [← IdxGen.ofFin_eq_ix1, ← IdxGen.ofFin_eq_ix1]
  exact IdxGen.le_tile_max A shapeCasts_S1601536_S391x4096 reducesTo_S391x4096_S391_d1 init h_S_ e r _

end Cert.KernelIdeal.IF
-- ==== Proof.IdxBridge.lean ====
/-
  The named functions of the edge list that the host stretches compute — the contents of the index arrays when the
  first kernel region is entered — read at one element through the sorting permutations: each named term is the
  printed argsort, normalisation, take or row gather of the padded rows (the sort itself stays folded), so the source-sorted and destination-sorted rows read the
  padded rows along their sorting permutations, the rows gathered at the combined array are the rows at the combined
  order, and the four tile tables bound every word of their tiles.
-/
import proofs.«417346_j54202487276072_2_alg».proof.Proof.KHostA0
import proofs.«417346_j54202487276072_2_alg».proof.Proof.IdxFacts

set_option maxRecDepth 1692

noncomputable section

namespace Cert.KernelIdeal.IFB

open Cert.KernelIdeal Cert.KernelIdeal.Gen
open Idealize.ShloMosaic

variable {F : FTy → Type} [FloatOps F]

/-! ## The named terms as argsorts, normalisations and takes of the padded rows -/

theorem argsortE_eq (k : Vec F S1601536 .i32) : KH.argsortE k = IF.argsortP k := by
  unfold KH.argsortE; rfl
theorem wrapE_eq (i : Vec F S1601536 .i32) : KH.wrapE i = IF.wrapP i := rfl
theorem colE_eq (i : Vec F S1601536 .i32) : KH.colE i = IF.colP i := rfl
theorem permSrc_eq (ei : Vec F S2x1600000 .i32) : KH.permSrc ei = IF.argsortP (KH.srcP ei) := argsortE_eq _
theorem invPermSrc_eq (ei : Vec F S2x1600000 .i32) :
    KH.invPermSrc ei = IF.argsortP (IF.argsortP (KH.srcP ei)) := by
  unfold KH.invPermSrc; rw [argsortE_eq, permSrc_eq]
theorem permDst_eq (ei : Vec F S2x1600000 .i32) : KH.permDst ei = IF.argsortP (KH.dstP ei) := argsortE_eq _
theorem comb_eq (ei : Vec F S2x1600000 .i32) : KH.comb ei = IF.combinedP (KH.srcP ei) (KH.dstP ei) := by
  unfold KH.comb KH.takeI; rw [invPermSrc_eq, permDst_eq]; rfl

variable (ei : Vec F S2x1600000 .i32)

/-- The source-sorting permutation, the destination-sorting permutation and the combined order of an edge list. -/
abbrev πs : Fin 1601536 → Fin 1601536 := IF.perm (KH.srcP ei)
abbrev πd : Fin 1601536 → Fin 1601536 := IF.perm (KH.dstP ei)
abbrev cb : Fin 1601536 → Fin 1601536 := IF.comb (KH.srcP ei) (KH.dstP ei)

/-! ## The sorted rows and the gathered rows through the permutations -/

/-- The source-sorted row reads the padded source row along the source-sorting permutation. -/
theorem srcSorted_apply (k : Fin 1601536) :
    KH.srcSorted ei (ValueIdx.ix1 k) = KH.srcP ei (ValueIdx.ix1 (πs ei k)) := by
  unfold KH.srcSorted KH.takeI
  rw [permSrc_eq]
  exact IF.take_argsortP (KH.srcP ei) (KH.srcP ei) (ValueIdx.ix1 k)

/-- The source-sorted normalisations read the padded normalisations along the same permutation. -/
theorem normSorted_apply (k : Fin 1601536) :
    KH.normSorted ei (ValueIdx.ix1 k) = KH.normP ei (ValueIdx.ix1 (πs ei k)) := by
  unfold KH.normSorted KH.takeF
  rw [permSrc_eq]
  exact IF.take_argsortP (KH.normP ei) (KH.srcP ei) (ValueIdx.ix1 k)

/-- The destination-sorted row reads the padded destination row along the destination-sorting permutation. -/
theorem dstSorted_apply (p : Fin 1601536) :
    KH.dstSorted ei (ValueIdx.ix1 p) = KH.dstP ei (ValueIdx.ix1 (πd ei p)) := by
  unfold KH.dstSorted KH.takeI
  rw [permDst_eq]
  exact IF.take_argsortP (KH.dstP ei) (KH.dstP ei) (ValueIdx.ix1 p)

/-- The combined array lists the combined order. -/
theorem comb_apply (p : Fin 1601536) :
    KH.comb ei (ValueIdx.ix1 p) = BitVec.ofNat 32 (cb ei p).val := by
  rw [comb_eq]
  exact IF.combined_apply (KH.srcP ei) (KH.dstP ei) (ValueIdx.ix1 p)

/-- The rows gathered at the combined array are the rows at the combined order (width 16 … -/
theorem rows16_comb (X : Vec F S1601536x16 .f32) (p : Fin 1601536) (d : Fin 16) :
    KH.rows16 X (KH.comb ei) (ValueIdx.ix2 p d) = X (ValueIdx.ix2 (cb ei p) d) := by
  unfold KH.rows16
  rw [comb_eq]
  exact IF.rows16_combined X (KH.srcP ei) (KH.dstP ei) (ValueIdx.ix2 p d)
/-- … 64 … -/
theorem rows64_comb (X : Vec F S1601536x64 .f32) (p : Fin 1601536) (d : Fin 64) :
    KH.rows64 X (KH.comb ei) (ValueIdx.ix2 p d) = X (ValueIdx.ix2 (cb ei p) d) := by
  unfold KH.rows64
  rw [comb_eq]
  exact IF.rows64_combined X (KH.srcP ei) (KH.dstP ei) (ValueIdx.ix2 p d)
/-- … 32). -/
theorem rows32_comb (X : Vec F S1601536x32 .f32) (p : Fin 1601536) (d : Fin 32) :
    KH.rows32 X (KH.comb ei) (ValueIdx.ix2 p d) = X (ValueIdx.ix2 (cb ei p) d) := by
  unfold KH.rows32
  rw [comb_eq]
  exact IF.rows32_combined X (KH.srcP ei) (KH.dstP ei) (ValueIdx.ix2 p d)

/-- The source-sorting permutation after the combined order is the destination-sorting permutation; all three are
    bijections. -/
theorem πs_cb (p : Fin 1601536) : πs ei (cb ei p) = πd ei p := IF.perm_comb (KH.srcP ei) (KH.dstP ei) p
theorem πs_bijective : Function.Bijective (πs ei) := IF.perm_bijective _
theorem πd_bijective : Function.Bijective (πd ei) := IF.perm_bijective _
theorem cb_bijective : Function.Bijective (cb ei) := IF.comb_bijective _ _

/-! ## The tile tables bound their tiles -/

/-- Tile `e`, place `r`, as a position. -/
abbrev pos (e : Fin 391) (r : Fin 4096) : Fin 1601536 :=
  ⟨4096 * e.val + r.val, by have := e.isLt; have := r.isLt; omega⟩

theorem pos_eq (e : Fin 391) (r : Fin 4096) :
    (⟨e.val * 4096 + r.val, by have := e.isLt; have := r.isLt; omega⟩ : Fin 1601536) = pos e r :=
  Fin.ext (by show e.val * 4096 + r.val = 4096 * e.val + r.val; omega)

/-- The source tables: every source of tile `e` of the source-sorted row lies between the tile's table entries. -/
theorem src_tile_bounds (e : Fin 391) (r : Fin 4096) :
    (KH.tminSrc ei (ValueIdx.ix1 e)).toInt ≤ (KH.srcSorted ei (ValueIdx.ix1 (pos e r))).toInt
      ∧ (KH.srcSorted ei (ValueIdx.ix1 (pos e r))).toInt ≤ (KH.tmaxSrc ei (ValueIdx.ix1 e)).toInt := by
  rw [← pos_eq e r]
  exact ⟨IF.tile_min_le (KH.srcSorted ei) (constantI S_ 32 2147483647#32) e r,
    IF.le_tile_max (KH.srcSorted ei) (constantI S_ 32 2147483648#32) e r⟩

/-- The destination tables likewise, over the destination-sorted row. -/
theorem dst_tile_bounds (e : Fin 391) (r : Fin 4096) :
    (KH.tminDst ei (ValueIdx.ix1 e)).toInt ≤ (KH.dstSorted ei (ValueIdx.ix1 (pos e r))).toInt
      ∧ (KH.dstSorted ei (ValueIdx.ix1 (pos e r))).toInt ≤ (KH.tmaxDst ei (ValueIdx.ix1 e)).toInt := by
  rw [← pos_eq e r]
  exact ⟨IF.tile_min_le (KH.dstSorted ei) (constantI S_ 32 2147483647#32) e r,
    IF.le_tile_max (KH.dstSorted ei) (constantI S_ 32 2147483648#32) e r⟩

/-- The same at any position `k`: the tables' entries of tile `k / 4096` bound the word at `k`. -/
theorem src_tile_bounds_at (k : Fin 1601536) :
    (KH.tminSrc ei (ValueIdx.ix1 (⟨k.val / 4096, by have := k.isLt; omega⟩ : Fin 391))).toInt
        ≤ (KH.srcSorted ei (ValueIdx.ix1 k)).toInt
      ∧ (KH.srcSorted ei (ValueIdx.ix1 k)).toInt
        ≤ (KH.tmaxSrc ei (ValueIdx.ix1 (⟨k.val / 4096, by have := k.isLt; omega⟩ : Fin 391))).toInt := by
  have h := src_tile_bounds ei ⟨k.val / 4096, by have := k.isLt; omega⟩ ⟨k.val % 4096, Nat.mod_lt _ (by decide)⟩
  have hk : pos ⟨k.val / 4096, by have := k.isLt; omega⟩ ⟨k.val % 4096, Nat.mod_lt _ (by decide)⟩ = k :=
    Fin.ext (Nat.div_add_mod k.val 4096)
  rw [hk] at h
  exact h

theorem dst_tile_bounds_at (k : Fin 1601536) :
    (KH.tminDst ei (ValueIdx.ix1 (⟨k.val / 4096, by have := k.isLt; omega⟩ : Fin 391))).toInt
        ≤ (KH.dstSorted ei (ValueIdx.ix1 k)).toInt
      ∧ (KH.dstSorted ei (ValueIdx.ix1 k)).toInt
        ≤ (KH.tmaxDst ei (ValueIdx.ix1 (⟨k.val / 4096, by have := k.isLt; omega⟩ : Fin 391))).toInt := by
  have h := dst_tile_bounds ei ⟨k.val / 4096, by have := k.isLt; omega⟩ ⟨k.val % 4096, Nat.mod_lt _ (by decide)⟩
  have hk : pos ⟨k.val / 4096, by have := k.isLt; omega⟩ ⟨k.val % 4096, Nat.mod_lt _ (by decide)⟩ = k :=
    Fin.ext (Nat.div_add_mod k.val 4096)
  rw [hk] at h
  exact h

end Cert.KernelIdeal.IFB
-- ==== Proof.LayerMath.lean ====
import Mathlib.Data.EReal.Inv
import Mathlib.Algebra.BigOperators.Fin
import Mathlib.Data.Fintype.BigOperators
import Mathlib.Logic.Equiv.Fin.Basic

/-!
  The mathematics of one graph-convolution layer, of the degree count and of the mean pool, over the
  extended reals, as statements about finite sums of functions on `Fin`. Only these laws of the extended
  reals are used: addition is commutative and associative with unit `0`; `1 * x = x`, `0 * x = 0`,
  `x * 0 = 0` for EVERY `x` (the infinities included); multiplication is commutative. No distributive law.
-/

open scoped BigOperators
open Finset

namespace Cert.Proof.LM

/-! ## A 0/1 coefficient keeps or drops its value -/

/-- A 0/1 coefficient on the left keeps or drops the value: `1 * x = x` and `0 * x = 0` for every extended real. -/
theorem ind_mul (c : Prop) [Decidable c] (x : EReal) :
    (if c then (1 : EReal) else 0) * x = if c then x else 0 := by
  split_ifs
  · exact one_mul x
  · exact zero_mul x

/-- The same with the coefficient on the right. -/
theorem mul_ind (c : Prop) [Decidable c] (x : EReal) :
    x * (if c then (1 : EReal) else 0) = if c then x else 0 := by
  split_ifs
  · exact mul_one x
  · exact mul_zero x

/-! ## Selection: a one-hot row times a column picks one entry -/

/-- The row of a one-hot matrix that marks position `a`, times a column `f`, is the entry `f a`
    (and `0` when `a` is past the end). -/
theorem sel_sum {K : ℕ} (a : ℕ) (f : Fin K → EReal) :
    (∑ n : Fin K, (if a = n.val then (1 : EReal) else 0) * f n)
      = if h : a < K then f ⟨a, h⟩ else 0 := by
  simp only [ind_mul]
  split_ifs with h
  · rw [Finset.sum_eq_single (⟨a, h⟩ : Fin K)]
    · simp
    · intro n _ hn
      rw [if_neg]
      intro e
      exact hn (Fin.ext e.symm)
    · intro hh
      exact absurd (Finset.mem_univ _) hh
  · apply Finset.sum_eq_zero
    intro n _
    rw [if_neg]
    intro e
    exact h (e ▸ n.isLt)

/-- The selection with the test written the other way round (`n = a`). -/
theorem sel_sum' {K : ℕ} (a : ℕ) (f : Fin K → EReal) :
    (∑ n : Fin K, (if n.val = a then (1 : EReal) else 0) * f n)
      = if h : a < K then f ⟨a, h⟩ else 0 := by
  rw [← sel_sum a f]
  apply Finset.sum_congr rfl
  intro n _
  simp only [eq_comm]

/-- The selection for a column given on all naturals. -/
theorem sel_sum_nat (K a : ℕ) (f : ℕ → EReal) :
    (∑ n : Fin K, (if a = n.val then (1 : EReal) else 0) * f n.val) = if a < K then f a else 0 := by
  rw [sel_sum a (fun n : Fin K => f n.val)]
  split_ifs <;> rfl

/-! ## Tiles: a sum tile by tile, and tiles that may be skipped -/

/-- A tile whose every coefficient is `0` may be skipped: if each marked position `c j n` lies in an
    active tile, the sum over the active tiles of the 0/1-weighted tile sums is the sum over all tiles of
    the kept values. -/
theorem tile_drop {T B : ℕ} (active : Fin T → Prop) [DecidablePred active]
    (c : Fin T → Fin B → Prop) [∀ j n, Decidable (c j n)] (v : Fin T → Fin B → EReal)
    (hact : ∀ j n, c j n → active j) :
    (∑ j : Fin T, if active j then ∑ n : Fin B, (if c j n then (1 : EReal) else 0) * v j n else 0)
      = ∑ j : Fin T, ∑ n : Fin B, if c j n then v j n else 0 := by
  apply Finset.sum_congr rfl
  intro j _
  simp only [ind_mul]
  split_ifs with hj
  · rfl
  · symm
    apply Finset.sum_eq_zero
    intro n _
    rw [if_neg (fun h => hj (hact j n h))]

/-- `T` tiles of `B` positions each are the `T * B` positions: position `B * j + n` is the `n`-th of tile `j`. -/
theorem sum_tiles {T B P : ℕ} (hP : P = T * B) (F : ℕ → EReal) :
    (∑ j : Fin T, ∑ n : Fin B, F (B * j.val + n.val)) = ∑ p : Fin P, F p.val := by
  subst hP
  rw [← Fintype.sum_prod_type' (fun (j : Fin T) (n : Fin B) => F (B * j.val + n.val))]
  apply Fintype.sum_equiv finProdFinEquiv
  intro x
  simp only [finProdFinEquiv_apply_val, Nat.add_comm]

/-- The same for a function given on `Fin P` only. -/
theorem sum_tiles_fin {T B P : ℕ} (hP : P = T * B) (F : Fin P → EReal)
    (hlt : ∀ (j : Fin T) (n : Fin B), B * j.val + n.val < P) :
    (∑ j : Fin T, ∑ n : Fin B, F ⟨B * j.val + n.val, hlt j n⟩) = ∑ p : Fin P, F p := by
  have h := sum_tiles (T := T) (B := B) hP (fun i => if h : i < P then F ⟨i, h⟩ else 0)
  simp only [hlt, dite_true, Fin.is_lt, Fin.eta] at h
  exact h

/-- The selection, tiled: the column is read tile by tile (`T` tiles of `B` rows) and a tile is skipped when it is
    not active; nothing is lost provided the tile that holds position `a` is active. -/
theorem sel_sum_tiled {T B P : ℕ} (hP : P = T * B) (a : ℕ)
    (active : Fin T → Prop) [DecidablePred active] (f : ℕ → EReal)
    (hact : ∀ (j : Fin T) (n : Fin B), a = B * j.val + n.val → active j) :
    (∑ j : Fin T, if active j then
        ∑ n : Fin B, (if a = B * j.val + n.val then (1 : EReal) else 0) * f (B * j.val + n.val) else 0)
      = if a < P then f a else 0 := by
  rw [tile_drop active (fun j n => a = B * j.val + n.val) (fun j n => f (B * j.val + n.val)) hact,
    sum_tiles hP (fun i => if a = i then f i else 0), ← sel_sum_nat P a f]
  simp only [ind_mul]

/-- The tiled selection for a column given on `Fin P`. -/
theorem sel_sum_tiled_fin {T B P : ℕ} (hP : P = T * B) (a : ℕ)
    (active : Fin T → Prop) [DecidablePred active] (f : Fin P → EReal)
    (hlt : ∀ (j : Fin T) (n : Fin B), B * j.val + n.val < P)
    (hact : ∀ (j : Fin T) (n : Fin B), a = B * j.val + n.val → active j) :
    (∑ j : Fin T, if active j then
        ∑ n : Fin B, (if a = B * j.val + n.val then (1 : EReal) else 0) * f ⟨B * j.val + n.val, hlt j n⟩
        else 0)
      = if h : a < P then f ⟨a, h⟩ else 0 := by
  have h := sel_sum_tiled (B := B) hP a active (fun i => if h : i < P then f ⟨i, h⟩ else 0) hact
  simp only [hlt, dite_true] at h
  rw [h]
  split_ifs <;> rfl

/-! ## Scatter: a one-hot column pattern times values is a filtered sum -/

/-- The row `n` of a transposed one-hot matrix times the values `g` is the sum of the `g p` with `c p`
    (for the scatter `c p` is `d p = n`). -/
theorem scat_sum {P : ℕ} (c : Fin P → Prop) [DecidablePred c] (g : Fin P → EReal) :
    (∑ p : Fin P, (if c p then (1 : EReal) else 0) * g p) = ∑ p : Fin P, if c p then g p else 0 := by
  simp only [ind_mul]

/-- The scatter whose marks are `d p = n`. -/
theorem scat_sum_eq {P : ℕ} {ι : Type*} [DecidableEq ι] (d : Fin P → ι) (n : ι) (g : Fin P → EReal) :
    (∑ p : Fin P, (if d p = n then (1 : EReal) else 0) * g p) = ∑ p : Fin P, if d p = n then g p else 0 :=
  scat_sum (fun p => d p = n) g

/-- The scatter, tiled with skipped tiles: nothing is lost provided every marked position lies in an active tile. -/
theorem scat_sum_tiled {T B P : ℕ} (hP : P = T * B)
    (active : Fin T → Prop) [DecidablePred active] (c : ℕ → Prop) [DecidablePred c] (g : ℕ → EReal)
    (hact : ∀ (j : Fin T) (n : Fin B), c (B * j.val + n.val) → active j) :
    (∑ j : Fin T, if active j then
        ∑ n : Fin B, (if c (B * j.val + n.val) then (1 : EReal) else 0) * g (B * j.val + n.val) else 0)
      = ∑ p : Fin P, if c p.val then g p.val else 0 := by
  rw [tile_drop active (fun j n => c (B * j.val + n.val)) (fun j n => g (B * j.val + n.val)) hact,
    sum_tiles hP (fun i => if c i then g i else 0)]

/-- The tiled scatter for marks and values given on `Fin P`. -/
theorem scat_sum_tiled_fin {T B P : ℕ} (hP : P = T * B)
    (active : Fin T → Prop) [DecidablePred active] (c : Fin P → Prop) [DecidablePred c] (g : Fin P → EReal)
    (hlt : ∀ (j : Fin T) (n : Fin B), B * j.val + n.val < P)
    (hact : ∀ (j : Fin T) (n : Fin B), c ⟨B * j.val + n.val, hlt j n⟩ → active j) :
    (∑ j : Fin T, if active j then
        ∑ n : Fin B, (if c ⟨B * j.val + n.val, hlt j n⟩ then (1 : EReal) else 0)
          * g ⟨B * j.val + n.val, hlt j n⟩ else 0)
      = ∑ p : Fin P, if c p then g p else 0 := by
  rw [tile_drop active (fun j n => c ⟨B * j.val + n.val, hlt j n⟩)
    (fun j n => g ⟨B * j.val + n.val, hlt j n⟩) hact]
  exact sum_tiles_fin hP (fun p => if c p then g p else 0) hlt

/-! ## Reindexing a sum by a bijection -/

/-- A sum over all positions does not depend on the order they are visited in. -/
theorem sum_reindex {P : ℕ} (σ : Fin P → Fin P) (hσ : Function.Bijective σ) (F : Fin P → EReal) :
    (∑ p : Fin P, F (σ p)) = ∑ e : Fin P, F e :=
  hσ.sum_comp F

/-! ## Padding: a sum whose tail is zero -/

/-- A sum over `EP` padded positions whose entries past the first `E` are zero is the sum over the first `E`. -/
theorem sum_pad {E EP : ℕ} (hE : E ≤ EP) (G : Fin EP → EReal)
    (hpad : ∀ e : Fin EP, E ≤ e.val → G e = 0) :
    (∑ e : Fin EP, G e) = ∑ e : Fin E, G (Fin.castLE hE e) := by
  obtain ⟨k, rfl⟩ := Nat.exists_eq_add_of_le hE
  rw [Fin.sum_univ_add]
  have h0 : (∑ i : Fin k, G (Fin.natAdd E i)) = 0 := by
    apply Finset.sum_eq_zero
    intro i _
    apply hpad
    exact Nat.le_add_right E i.val
  rw [h0, add_zero]
  rfl

/-! ## One layer: self term + scattered messages + bias -/

/-- The layer with the messages kept abstract. Kernel side: `EP` padded edge positions visited in the order `π`,
    message `msgP e` landing on node `dstP e`, the padded positions carrying the message `0`; the node's own term
    `self` comes first and the bias last. Reference side: the `E` real edges followed by one loop per node, summed
    from `0`. The two agree at node `n` when the real edges carry the same destination and message on both sides,
    loop `i` lands on node `i`, and the loop of `n` carries `self`. -/
theorem layer_core {E N EP : ℕ} (hE : E ≤ EP) (n : ℕ) (hn : n < N)
    (dstP : Fin EP → ℕ) (msgP : Fin EP → EReal)
    (π : Fin EP → Fin EP) (hπ : Function.Bijective π)
    (dstR : Fin (E + N) → ℕ) (msgR : Fin (E + N) → EReal) (self b : EReal)
    (hdst : ∀ e : Fin E, dstR (Fin.castAdd N e) = dstP (Fin.castLE hE e))
    (hmsg : ∀ e : Fin E, msgR (Fin.castAdd N e) = msgP (Fin.castLE hE e))
    (hpad : ∀ e : Fin EP, E ≤ e.val → msgP e = 0)
    (hloopd : ∀ i : Fin N, dstR (Fin.natAdd E i) = i.val)
    (hloopm : msgR (Fin.natAdd E ⟨n, hn⟩) = self) :
    self + (∑ p : Fin EP, if dstP (π p) = n then msgP (π p) else 0) + b
      = (0 + ∑ q : Fin (E + N), if dstR q = n then msgR q else 0) + b := by
  have h1 : (∑ p : Fin EP, if dstP (π p) = n then msgP (π p) else 0)
      = ∑ e : Fin EP, if dstP e = n then msgP e else 0 :=
    sum_reindex π hπ (fun e => if dstP e = n then msgP e else 0)
  have h2 : (∑ e : Fin EP, if dstP e = n then msgP e else 0)
      = ∑ e : Fin E, if dstP (Fin.castLE hE e) = n then msgP (Fin.castLE hE e) else 0 :=
    sum_pad hE (fun e => if dstP e = n then msgP e else 0)
      (fun e he => by simp only [hpad e he, ite_self])
  have hd : dstR (Fin.natAdd E ⟨n, hn⟩) = n := hloopd ⟨n, hn⟩
  have h3 : (∑ q : Fin (E + N), if dstR q = n then msgR q else 0)
      = (∑ e : Fin E, if dstP (Fin.castLE hE e) = n then msgP (Fin.castLE hE e) else 0) + self := by
    rw [Fin.sum_univ_add]
    congr 1
    · apply Finset.sum_congr rfl
      intro e _
      rw [hdst, hmsg]
    · rw [Finset.sum_eq_single (⟨n, hn⟩ : Fin N)]
      · rw [if_pos hd, hloopm]
      · intro i _ hi
        rw [if_neg]
        rw [hloopd]
        intro e
        exact hi (Fin.ext e)
      · intro hh
        exact absurd (Finset.mem_univ _) hh
  rw [h1, h2, h3, zero_add, add_comm self]

/-- The layer with the kernel's table `hwK` given on all naturals. Kernel: `sn n * hwK n`, then the sum over the
    padded edge positions in the order `π` of the messages `hwK (srcP e) * nrmP e` that land on `n`, then `+ b`.
    Reference: `0 +` the sum over real edges then loops of `hwR (srcR q) * nrmR q`, then `+ b`. -/
theorem layer_nat {E N EP : ℕ} (hE : E ≤ EP)
    (src dst : Fin E → Fin N) (nrm : Fin E → EReal) (sn : Fin N → EReal)
    (hwK : ℕ → EReal) (b : EReal)
    (srcP dstP : Fin EP → ℕ) (nrmP : Fin EP → EReal)
    (hsrcP : ∀ (e : Fin EP) (h : e.val < E), srcP e = (src ⟨e.val, h⟩).val)
    (hdstP : ∀ (e : Fin EP) (h : e.val < E), dstP e = (dst ⟨e.val, h⟩).val)
    (hnrmP : ∀ (e : Fin EP) (h : e.val < E), nrmP e = nrm ⟨e.val, h⟩)
    (hnrm0 : ∀ e : Fin EP, E ≤ e.val → nrmP e = 0)
    (π : Fin EP → Fin EP) (hπ : Function.Bijective π)
    (srcR dstR : Fin (E + N) → Fin N) (nrmR : Fin (E + N) → EReal) (hwR : Fin N → EReal)
    (hsrcR : ∀ e : Fin E, srcR (Fin.castAdd N e) = src e)
    (hdstR : ∀ e : Fin E, dstR (Fin.castAdd N e) = dst e)
    (hnrmR : ∀ e : Fin E, nrmR (Fin.castAdd N e) = nrm e)
    (hsrcL : ∀ i : Fin N, srcR (Fin.natAdd E i) = i)
    (hdstL : ∀ i : Fin N, dstR (Fin.natAdd E i) = i)
    (hnrmL : ∀ i : Fin N, nrmR (Fin.natAdd E i) = sn i)
    (hhw : ∀ i : Fin N, hwR i = hwK i.val)
    (n : Fin N) :
    sn n * hwK n.val
        + (∑ p : Fin EP, if dstP (π p) = n.val then hwK (srcP (π p)) * nrmP (π p) else 0) + b
      = (0 + ∑ q : Fin (E + N), if dstR q = n then hwR (srcR q) * nrmR q else 0) + b := by
  have hsrcP' : ∀ e : Fin E, srcP (Fin.castLE hE e) = (src e).val :=
    fun e => hsrcP (Fin.castLE hE e) e.isLt
  have hdstP' : ∀ e : Fin E, dstP (Fin.castLE hE e) = (dst e).val :=
    fun e => hdstP (Fin.castLE hE e) e.isLt
  have hnrmP' : ∀ e : Fin E, nrmP (Fin.castLE hE e) = nrm e :=
    fun e => hnrmP (Fin.castLE hE e) e.isLt
  have hR : (∑ q : Fin (E + N), if dstR q = n then hwR (srcR q) * nrmR q else 0)
      = ∑ q : Fin (E + N), if (dstR q).val = n.val then hwR (srcR q) * nrmR q else 0 := by
    apply Finset.sum_congr rfl
    intro q _
    by_cases h : dstR q = n
    · rw [if_pos h, if_pos (congrArg Fin.val h)]
    · rw [if_neg h, if_neg (fun e => h (Fin.ext e))]
  rw [hR]
  refine layer_core hE n.val n.isLt dstP (fun e => hwK (srcP e) * nrmP e) π hπ
    (fun q => (dstR q).val) (fun q => hwR (srcR q) * nrmR q) (sn n * hwK n.val) b ?_ ?_ ?_ ?_ ?_
  · intro e
    show (dstR (Fin.castAdd N e)).val = dstP (Fin.castLE hE e)
    rw [hdstR, hdstP']
  · intro e
    show hwR (srcR (Fin.castAdd N e)) * nrmR (Fin.castAdd N e)
      = hwK (srcP (Fin.castLE hE e)) * nrmP (Fin.castLE hE e)
    rw [hsrcR, hnrmR, hhw, hsrcP', hnrmP']
  · intro e he
    show hwK (srcP e) * nrmP e = 0
    rw [hnrm0 e he, mul_zero]
  · intro i
    show (dstR (Fin.natAdd E i)).val = i.val
    rw [hdstL]
  · show hwR (srcR (Fin.natAdd E n)) * nrmR (Fin.natAdd E n) = sn n * hwK n.val
    rw [hsrcL, hnrmL, hhw, mul_comm]

/-- The layer when the kernel's table `hw` has `NP` padded rows, and a message reads row `srcP e` of it
    through the selection above, that is `if h : srcP e < NP then hw ⟨srcP e, h⟩ d else 0`. -/
theorem layer {E N NP EP D : ℕ} (hE : E ≤ EP) (hN : N ≤ NP)
    (src dst : Fin E → Fin N) (nrm : Fin E → EReal) (sn : Fin N → EReal)
    (hw : Fin NP → Fin D → EReal) (b : Fin D → EReal)
    (srcP dstP : Fin EP → ℕ) (nrmP : Fin EP → EReal)
    (hsrcP : ∀ (e : Fin EP) (h : e.val < E), srcP e = (src ⟨e.val, h⟩).val)
    (hdstP : ∀ (e : Fin EP) (h : e.val < E), dstP e = (dst ⟨e.val, h⟩).val)
    (hnrmP : ∀ (e : Fin EP) (h : e.val < E), nrmP e = nrm ⟨e.val, h⟩)
    (hnrm0 : ∀ e : Fin EP, E ≤ e.val → nrmP e = 0)
    (π : Fin EP → Fin EP) (hπ : Function.Bijective π)
    (srcR dstR : Fin (E + N) → Fin N) (nrmR : Fin (E + N) → EReal) (hwR : Fin N → Fin D → EReal)
    (hsrcR : ∀ e : Fin E, srcR (Fin.castAdd N e) = src e)
    (hdstR : ∀ e : Fin E, dstR (Fin.castAdd N e) = dst e)
    (hnrmR : ∀ e : Fin E, nrmR (Fin.castAdd N e) = nrm e)
    (hsrcL : ∀ i : Fin N, srcR (Fin.natAdd E i) = i)
    (hdstL : ∀ i : Fin N, dstR (Fin.natAdd E i) = i)
    (hnrmL : ∀ i : Fin N, nrmR (Fin.natAdd E i) = sn i)
    (hhw : ∀ (i : Fin N) (d : Fin D), hwR i d = hw (Fin.castLE hN i) d)
    (n : Fin N) (d : Fin D) :
    sn n * hw (Fin.castLE hN n) d
        + (∑ p : Fin EP, if dstP (π p) = n.val then
            (if h : srcP (π p) < NP then hw ⟨srcP (π p), h⟩ d else 0) * nrmP (π p) else 0)
        + b d
      = (0 + ∑ q : Fin (E + N), if dstR q = n then hwR (srcR q) d * nrmR q else 0) + b d := by
  have hhw' : ∀ i : Fin N, hwR i d = if h : i.val < NP then hw ⟨i.val, h⟩ d else 0 := by
    intro i
    rw [dif_pos (lt_of_lt_of_le i.isLt hN)]
    exact hhw i d
  have key := layer_nat hE src dst nrm sn (fun a => if h : a < NP then hw ⟨a, h⟩ d else 0) (b d)
    srcP dstP nrmP hsrcP hdstP hnrmP hnrm0 π hπ srcR dstR nrmR (fun i => hwR i d)
    hsrcR hdstR hnrmR hsrcL hdstL hnrmL hhw' n
  have hn : (if h : n.val < NP then hw ⟨n.val, h⟩ d else 0) = hw (Fin.castLE hN n) d :=
    dif_pos (lt_of_lt_of_le n.isLt hN)
  rw [← hn]
  exact key

/-! ## The degree: in-edges plus the node's own loop -/

/-- A sum of 0/1 marks is the number of marks. -/
theorem ind_sum_eq_card {ι : Type*} [Fintype ι] (c : ι → Prop) [DecidablePred c] :
    (∑ e : ι, if c e then (1 : EReal) else 0) = ((Finset.univ.filter c).card : EReal) := by
  rw [Finset.sum_ite, Finset.sum_const_zero, add_zero, Finset.sum_const, nsmul_one]

/-- The reference counts a node's in-edges among the real edges followed by the loops, from `0`; that is
    the count among the real edges, from `0`, plus `1` for the node's own loop. -/
theorem deg_sum {E N : ℕ} (dst : Fin E → Fin N) (dstR : Fin (E + N) → Fin N)
    (hdstR : ∀ e : Fin E, dstR (Fin.castAdd N e) = dst e)
    (hdstL : ∀ i : Fin N, dstR (Fin.natAdd E i) = i) (i : Fin N) :
    (0 + ∑ q : Fin (E + N), if dstR q = i then (1 : EReal) else 0)
      = (0 + ∑ e : Fin E, if dst e = i then (1 : EReal) else 0) + 1 := by
  rw [Fin.sum_univ_add]
  have hl : (∑ j : Fin N, if dstR (Fin.natAdd E j) = i then (1 : EReal) else 0) = 1 := by
    simp only [hdstL]
    rw [Finset.sum_ite_eq' Finset.univ i (fun _ => (1 : EReal)), if_pos (Finset.mem_univ i)]
  rw [hl]
  simp only [hdstR, add_assoc]

/-- The degree is positive. -/
theorem deg_pos {E N : ℕ} (dst : Fin E → Fin N) (i : Fin N) :
    (0 : EReal) < (0 + ∑ e : Fin E, if dst e = i then (1 : EReal) else 0) + 1 := by
  rw [zero_add]
  have hs : (0 : EReal) ≤ ∑ e : Fin E, if dst e = i then (1 : EReal) else 0 := by
    apply Finset.sum_nonneg
    intro e _
    split_ifs
    · exact zero_le_one
    · exact le_refl _
  exact lt_of_lt_of_le zero_lt_one (le_add_of_nonneg_left hs)

/-- The degree is a natural number, at least `1`. -/
theorem deg_eq_natCast {E N : ℕ} (dst : Fin E → Fin N) (i : Fin N) :
    (0 + ∑ e : Fin E, if dst e = i then (1 : EReal) else 0) + 1
      = (((Finset.univ.filter (fun e : Fin E => dst e = i)).card + 1 : ℕ) : EReal) := by
  rw [zero_add, ind_sum_eq_card, Nat.cast_add, Nat.cast_one]

/-- The degree as a real number: the natural number read in the reals. -/
theorem deg_eq_coe_real {E N : ℕ} (dst : Fin E → Fin N) (i : Fin N) :
    (0 + ∑ e : Fin E, if dst e = i then (1 : EReal) else 0) + 1
      = ((((Finset.univ.filter (fun e : Fin E => dst e = i)).card + 1 : ℕ) : ℝ) : EReal) := by
  rw [deg_eq_natCast]
  rfl

/-! ## The pool: padded nodes belong to no graph -/

/-- The sum over the `NP` padded nodes of the rows whose graph id is `g` is the reference's sum over the
    `N` real nodes from `0`, when the padded ids match no graph. -/
theorem pool_sum {N NP : ℕ} (hN : N ≤ NP) {γ : Type*} [DecidableEq γ]
    (btP : Fin NP → γ) (bt : Fin N → γ) (hP : Fin NP → EReal) (hR : Fin N → EReal) (g : γ)
    (hbt : ∀ (i : Fin NP) (h : i.val < N), btP i = bt ⟨i.val, h⟩)
    (hh : ∀ (i : Fin NP) (h : i.val < N), hP i = hR ⟨i.val, h⟩)
    (hpad : ∀ i : Fin NP, N ≤ i.val → btP i ≠ g) :
    (∑ i : Fin NP, if btP i = g then hP i else 0) = 0 + ∑ i : Fin N, if bt i = g then hR i else 0 := by
  have hbt' : ∀ i : Fin N, btP (Fin.castLE hN i) = bt i := fun i => hbt (Fin.castLE hN i) i.isLt
  have hh' : ∀ i : Fin N, hP (Fin.castLE hN i) = hR i := fun i => hh (Fin.castLE hN i) i.isLt
  have h1 : (∑ i : Fin NP, if btP i = g then hP i else 0)
      = ∑ i : Fin N, if btP (Fin.castLE hN i) = g then hP (Fin.castLE hN i) else 0 :=
    sum_pad hN (fun i => if btP i = g then hP i else 0) (fun i hi => if_neg (hpad i hi))
  rw [h1, zero_add]
  apply Finset.sum_congr rfl
  intro i _
  rw [hbt', hh']

/-- The pool with `1` in place of the rows: the node count of graph `g`. -/
theorem pool_cnt {N NP : ℕ} (hN : N ≤ NP) {γ : Type*} [DecidableEq γ]
    (btP : Fin NP → γ) (bt : Fin N → γ) (g : γ)
    (hbt : ∀ (i : Fin NP) (h : i.val < N), btP i = bt ⟨i.val, h⟩)
    (hpad : ∀ i : Fin NP, N ≤ i.val → btP i ≠ g) :
    (∑ i : Fin NP, if btP i = g then (1 : EReal) else 0)
      = 0 + ∑ i : Fin N, if bt i = g then (1 : EReal) else 0 :=
  pool_sum hN btP bt (fun _ => 1) (fun _ => 1) g hbt (fun _ _ => rfl) hpad

/-! ## Masked rows -/

/-- A kept row: times `1`. -/
theorem mask_one (x : EReal) : x * 1 = x := mul_one x

/-- A masked row: times `0`, for every extended real. -/
theorem mask_zero (x : EReal) : x * 0 = 0 := mul_zero x

/-- A row of zeros times any matrix is a row of zeros: every product `0 * w` is `0`. -/
theorem row_zero {K : ℕ} (h w : Fin K → EReal) (h0 : ∀ k, h k = 0) : (∑ k : Fin K, h k * w k) = 0 := by
  apply Finset.sum_eq_zero
  intro k _
  rw [h0, zero_mul]

/-- A masked (all-zero) row `n` of `h` gives a zero row of the product `h · w`. -/
theorem matmul_row_zero {R K D : ℕ} (h : Fin R → Fin K → EReal) (w : Fin K → Fin D → EReal)
    (n : Fin R) (h0 : ∀ k, h n k = 0) (d : Fin D) : (∑ k : Fin K, h n k * w k d) = 0 :=
  row_zero (h n) (fun k => w k d) h0

end Cert.Proof.LM
-- ==== Proof.ComposeCore.lean ====
/-
  From the regions' and the host stretches' equations to the reference's layers: the mathematics between the
  per-piece statements and the layer identities. Everything is about functions on `Fin` into the extended
  reals and index functions into the naturals; sizes are variables. Four steps: the inverse square-root
  degrees agree; the reference's edge weights are the kernel's edge and self weights; one layer of the kernel
  (dense, gather, re-gather, scatter, mask) is one layer of the reference on the real rows and zero on the
  padded rows; the pool over padded rows is the pool over real rows.
-/
import proofs.«417346_j54202487276072_2_alg».proof.Proof.LayerMath

open scoped BigOperators
open Finset

namespace Cert.Proof.C

/-! ## The inverse square-root degree and the edge weights -/

/-- The two degree counts agree (the reference's count over real edges then loops is the kernel's count over
    real edges plus one), the common value is positive, so the reference's guarded power is the power. -/
theorem dinv_step {E N : ℕ} (dst : Fin E → Fin N) (dstR : Fin (E + N) → Fin N)
    (hdstR : ∀ e : Fin E, dstR (Fin.castAdd N e) = dst e)
    (hdstL : ∀ i : Fin N, dstR (Fin.natAdd E i) = i)
    (pw : EReal → EReal) (degK degR dinvK dinvR : Fin N → EReal)
    (hdegK : ∀ i, degK i = (0 + ∑ e : Fin E, if dst e = i then (1 : EReal) else 0) + 1)
    (hdegR : ∀ i, degR i = 0 + ∑ q : Fin (E + N), if dstR q = i then (1 : EReal) else 0)
    (hdK : ∀ i, dinvK i = pw (degK i))
    (hdR : ∀ i, 0 < degR i → dinvR i = pw (degR i)) :
    ∀ i, dinvK i = dinvR i := by
  intro i
  have hdeg : degR i = degK i := by
    rw [hdegR, hdegK]
    exact LM.deg_sum dst dstR hdstR hdstL i
  have hpos : 0 < degR i := by
    rw [hdeg, hdegK]
    exact LM.deg_pos dst i
  rw [hdR i hpos, hdK, hdeg]

/-- The reference's edge weights, read on the real edges and on the loops, are the kernel's edge weights and
    the kernel's self weights. -/
theorem norm_step {E N : ℕ} (src dst : Fin E → Fin N)
    (dinvK dinvR : Fin N → EReal) (hd : ∀ i, dinvK i = dinvR i)
    (nrm : Fin E → EReal) (hnrm : ∀ e, nrm e = dinvK (src e) * dinvK (dst e))
    (sn : Fin N → EReal) (hsn : ∀ i, sn i = dinvK i * dinvK i)
    (srcR dstR : Fin (E + N) → Fin N) (nrmR : Fin (E + N) → EReal)
    (hnrmRdef : ∀ q, nrmR q = dinvR (srcR q) * dinvR (dstR q))
    (hsrcR : ∀ e : Fin E, srcR (Fin.castAdd N e) = src e)
    (hdstR : ∀ e : Fin E, dstR (Fin.castAdd N e) = dst e)
    (hsrcL : ∀ i : Fin N, srcR (Fin.natAdd E i) = i)
    (hdstL : ∀ i : Fin N, dstR (Fin.natAdd E i) = i) :
    (∀ e : Fin E, nrmR (Fin.castAdd N e) = nrm e) ∧ (∀ i : Fin N, nrmR (Fin.natAdd E i) = sn i) := by
  constructor
  · intro e
    rw [hnrmRdef, hsrcR, hdstR, hnrm, hd, hd]
  · intro i
    rw [hnrmRdef, hsrcL, hdstL, hsn, hd]

/-! ## One layer, from the regions' equations to the reference's layer -/

/-- Row `a` of a table of `NP` rows at column `d`, or `0` past the table's end. -/
noncomputable def sel {NP D : ℕ} (hw : Fin NP → Fin D → EReal) (d : Fin D) (a : ℕ) : EReal :=
  if h : a < NP then hw ⟨a, h⟩ d else 0

/-- One layer. Kernel: the dense product `hw` of the (padded, masked) input; the gathered messages `g84` in
    source-sorted order; the same messages `g91` re-read in destination-sorted order through `comb`; the scatter
    `out93` (self term, messages landing on the row, bias, activation); the row mask. The sorted arrays are the
    padded originals read through two permutations with `πs ∘ comb = πd`. Reference: the product `hwR` of its
    input, its messages over the real edges then the loops, bias, the same activation. If the kernel's input is
    the reference's on the real rows (and whatever the hypothesis says elsewhere), the kernel's masked output is
    the reference's output on the real rows and `0` on the padded rows. -/
theorem layer_step {E N NP EP K D : ℕ} (hE : E ≤ EP) (hN : N ≤ NP)
    (inK : Fin NP → Fin K → EReal) (inR : Fin N → Fin K → EReal)
    (hin : ∀ (n : Fin NP) (k : Fin K), inK n k = if h : n.val < N then inR ⟨n.val, h⟩ k else 0)
    (W : Fin K → Fin D → EReal) (b : Fin D → EReal) (act : EReal → EReal)
    (hw : Fin NP → Fin D → EReal) (hhw : ∀ n d, hw n d = ∑ k : Fin K, inK n k * W k d)
    (srcS dstS : Fin EP → ℕ) (nrmS : Fin EP → EReal)
    (g84 : Fin EP → Fin D → EReal)
    (hg84 : ∀ k d, g84 k d = (if h : srcS k < NP then hw ⟨srcS k, h⟩ d else 0) * nrmS k)
    (comb : Fin EP → Fin EP) (g91 : Fin EP → Fin D → EReal) (hg91 : ∀ p d, g91 p d = g84 (comb p) d)
    (snP : Fin NP → EReal) (out93 : Fin NP → Fin D → EReal)
    (hout93 : ∀ n d, out93 n d
      = act (snP n * hw n d + (∑ p : Fin EP, if dstS p = n.val then g91 p d else 0) + b d))
    (mask : Fin NP → EReal) (hmask : ∀ n : Fin NP, mask n = if n.val < N then 1 else 0)
    (out95 : Fin NP → Fin D → EReal) (hout95 : ∀ n d, out95 n d = out93 n d * mask n)
    (srcP dstP : Fin EP → ℕ) (nrmP : Fin EP → EReal) (πs πd : Fin EP → Fin EP)
    (hsrcS : ∀ k, srcS k = srcP (πs k)) (hnrmS : ∀ k, nrmS k = nrmP (πs k))
    (hdstS : ∀ p, dstS p = dstP (πd p))
    (hcomb : ∀ p, πs (comb p) = πd p) (hπd : Function.Bijective πd)
    (src dst : Fin E → Fin N) (nrm : Fin E → EReal) (sn : Fin N → EReal)
    (hsrcP : ∀ (e : Fin EP) (h : e.val < E), srcP e = (src ⟨e.val, h⟩).val)
    (hdstP : ∀ (e : Fin EP) (h : e.val < E), dstP e = (dst ⟨e.val, h⟩).val)
    (hnrmP : ∀ (e : Fin EP) (h : e.val < E), nrmP e = nrm ⟨e.val, h⟩)
    (hnrm0 : ∀ e : Fin EP, E ≤ e.val → nrmP e = 0)
    (hsnP : ∀ (n : Fin NP) (h : n.val < N), snP n = sn ⟨n.val, h⟩)
    (srcR dstR : Fin (E + N) → Fin N) (nrmR : Fin (E + N) → EReal)
    (hsrcR : ∀ e : Fin E, srcR (Fin.castAdd N e) = src e)
    (hdstR : ∀ e : Fin E, dstR (Fin.castAdd N e) = dst e)
    (hnrmR : ∀ e : Fin E, nrmR (Fin.castAdd N e) = nrm e)
    (hsrcL : ∀ i : Fin N, srcR (Fin.natAdd E i) = i)
    (hdstL : ∀ i : Fin N, dstR (Fin.natAdd E i) = i)
    (hnrmL : ∀ i : Fin N, nrmR (Fin.natAdd E i) = sn i)
    (hwR : Fin N → Fin D → EReal) (hhwR : ∀ n d, hwR n d = ∑ k : Fin K, inR n k * W k d)
    (outR : Fin N → Fin D → EReal)
    (houtR : ∀ n d, outR n d
      = act ((0 + ∑ q : Fin (E + N), if dstR q = n then hwR (srcR q) d * nrmR q else 0) + b d)) :
    ∀ (n : Fin NP) (d : Fin D), out95 n d = if h : n.val < N then outR ⟨n.val, h⟩ d else 0 := by
  intro n d
  have hg84' : ∀ k d, g84 k d = sel hw d (srcS k) * nrmS k := fun k d => hg84 k d
  have hhw' : ∀ (i : Fin N) (d : Fin D), hwR i d = hw (Fin.castLE hN i) d := by
    intro i d
    rw [hhwR, hhw]
    apply Finset.sum_congr rfl
    intro k _
    rw [hin, dif_pos (show (Fin.castLE hN i).val < N from i.isLt)]
    rfl
  rw [hout95, hmask]
  split_ifs with h
  · have hsum : (∑ p : Fin EP, if dstS p = n.val then g91 p d else 0)
        = ∑ p : Fin EP, if dstP (πd p) = n.val then sel hw d (srcP (πd p)) * nrmP (πd p) else 0 := by
      apply Finset.sum_congr rfl
      intro p _
      have hs : srcS (comb p) = srcP (πd p) := by rw [hsrcS, hcomb]
      have hm : nrmS (comb p) = nrmP (πd p) := by rw [hnrmS, hcomb]
      rw [hdstS, hg91, hg84', hs, hm]
    have key := LM.layer hE hN src dst nrm sn hw b srcP dstP nrmP hsrcP hdstP hnrmP hnrm0 πd hπd
      srcR dstR nrmR hwR hsrcR hdstR hnrmR hsrcL hdstL hnrmL hhw' ⟨n.val, h⟩ d
    have hc : Fin.castLE hN ⟨n.val, h⟩ = n := Fin.ext rfl
    rw [hc] at key
    rw [mul_one, hout93, houtR, hsum, hsnP n h]
    exact congrArg act key
  · exact mul_zero _

/-! ## The pool -/

/-- The pool: the kernel sums the (masked) last layer over the padded rows whose graph id is `g`; the padded
    rows carry an id that is no graph's, so this is the reference's sum over the real rows, from `0`. -/
theorem pool_step {N NP D : ℕ} (hN : N ≤ NP) {γ : Type*} [DecidableEq γ]
    (btP : Fin NP → γ) (bt : Fin N → γ) (g : γ)
    (hK : Fin NP → Fin D → EReal) (hR : Fin N → Fin D → EReal)
    (hh : ∀ (n : Fin NP) (d : Fin D), hK n d = if h : n.val < N then hR ⟨n.val, h⟩ d else 0)
    (hbt : ∀ (i : Fin NP) (h : i.val < N), btP i = bt ⟨i.val, h⟩)
    (hpad : ∀ i : Fin NP, N ≤ i.val → btP i ≠ g) (d : Fin D) :
    (∑ i : Fin NP, if btP i = g then hK i d else 0) = 0 + ∑ i : Fin N, if bt i = g then hR i d else 0 :=
  LM.pool_sum hN btP bt (fun i => hK i d) (fun i => hR i d) g hbt
    (fun i h => by rw [hh, dif_pos h]) hpad

end Cert.Proof.C
-- ==== Proof.ComposeChain.lean ====
/-
  The three layers share one edge list, one pair of sorted orders and one set of weights: they are bundled
  once, and one layer over the bundle is the layer step with only the layer's own arrays left as arguments.
  With it: the first layer's zero-padded input, and the node count of a graph.
-/
import proofs.«417346_j54202487276072_2_alg».proof.Proof.ComposeCore

open scoped BigOperators
open Finset

namespace Cert.Proof.C

/-- Everything the three layers share: the real edges `src`, `dst` with their weights `nrm` and the self
    weights `sn`; the kernel's padded copies (`srcP`, `dstP`, `nrmP`, `snP`), its two sorted orders (`srcS`,
    `nrmS` through `πs`; `dstS` through `πd`), the map `comb` between the orders, the row mask; the reference's
    edges-then-loops lists `srcR`, `dstR`, `nrmR`. -/
structure Edges (E N NP EP : ℕ) where
  hE : E ≤ EP
  hN : N ≤ NP
  src : Fin E → Fin N
  dst : Fin E → Fin N
  nrm : Fin E → EReal
  sn : Fin N → EReal
  srcP : Fin EP → ℕ
  dstP : Fin EP → ℕ
  nrmP : Fin EP → EReal
  snP : Fin NP → EReal
  mask : Fin NP → EReal
  πs : Fin EP → Fin EP
  πd : Fin EP → Fin EP
  comb : Fin EP → Fin EP
  srcS : Fin EP → ℕ
  dstS : Fin EP → ℕ
  nrmS : Fin EP → EReal
  srcR : Fin (E + N) → Fin N
  dstR : Fin (E + N) → Fin N
  nrmR : Fin (E + N) → EReal
  hmask : ∀ n : Fin NP, mask n = if n.val < N then 1 else 0
  hsrcS : ∀ k, srcS k = srcP (πs k)
  hnrmS : ∀ k, nrmS k = nrmP (πs k)
  hdstS : ∀ p, dstS p = dstP (πd p)
  hcomb : ∀ p, πs (comb p) = πd p
  hπd : Function.Bijective πd
  hsrcP : ∀ (e : Fin EP) (h : e.val < E), srcP e = (src ⟨e.val, h⟩).val
  hdstP : ∀ (e : Fin EP) (h : e.val < E), dstP e = (dst ⟨e.val, h⟩).val
  hnrmP : ∀ (e : Fin EP) (h : e.val < E), nrmP e = nrm ⟨e.val, h⟩
  hnrm0 : ∀ e : Fin EP, E ≤ e.val → nrmP e = 0
  hsnP : ∀ (n : Fin NP) (h : n.val < N), snP n = sn ⟨n.val, h⟩
  hsrcR : ∀ e : Fin E, srcR (Fin.castAdd N e) = src e
  hdstR : ∀ e : Fin E, dstR (Fin.castAdd N e) = dst e
  hnrmR : ∀ e : Fin E, nrmR (Fin.castAdd N e) = nrm e
  hsrcL : ∀ i : Fin N, srcR (Fin.natAdd E i) = i
  hdstL : ∀ i : Fin N, dstR (Fin.natAdd E i) = i
  hnrmL : ∀ i : Fin N, nrmR (Fin.natAdd E i) = sn i

/-- One layer over a shared edge package: see `layer_step`. -/
theorem Edges.layer {E N NP EP : ℕ} (P : Edges E N NP EP) {K D : ℕ}
    (inK : Fin NP → Fin K → EReal) (inR : Fin N → Fin K → EReal)
    (hin : ∀ (n : Fin NP) (k : Fin K), inK n k = if h : n.val < N then inR ⟨n.val, h⟩ k else 0)
    (W : Fin K → Fin D → EReal) (b : Fin D → EReal) (act : EReal → EReal)
    (hw : Fin NP → Fin D → EReal) (hhw : ∀ n d, hw n d = ∑ k : Fin K, inK n k * W k d)
    (g84 : Fin EP → Fin D → EReal)
    (hg84 : ∀ k d, g84 k d = (if h : P.srcS k < NP then hw ⟨P.srcS k, h⟩ d else 0) * P.nrmS k)
    (g91 : Fin EP → Fin D → EReal) (hg91 : ∀ p d, g91 p d = g84 (P.comb p) d)
    (out93 : Fin NP → Fin D → EReal)
    (hout93 : ∀ n d, out93 n d
      = act (P.snP n * hw n d + (∑ p : Fin EP, if P.dstS p = n.val then g91 p d else 0) + b d))
    (out95 : Fin NP → Fin D → EReal) (hout95 : ∀ n d, out95 n d = out93 n d * P.mask n)
    (hwR : Fin N → Fin D → EReal) (hhwR : ∀ n d, hwR n d = ∑ k : Fin K, inR n k * W k d)
    (outR : Fin N → Fin D → EReal)
    (houtR : ∀ n d, outR n d
      = act ((0 + ∑ q : Fin (E + N), if P.dstR q = n then hwR (P.srcR q) d * P.nrmR q else 0) + b d)) :
    ∀ (n : Fin NP) (d : Fin D), out95 n d = if h : n.val < N then outR ⟨n.val, h⟩ d else 0 :=
  layer_step P.hE P.hN inK inR hin W b act hw hhw P.srcS P.dstS P.nrmS g84 hg84 P.comb g91 hg91 P.snP out93
    hout93 P.mask P.hmask out95 hout95 P.srcP P.dstP P.nrmP P.πs P.πd P.hsrcS P.hnrmS P.hdstS P.hcomb P.hπd
    P.src P.dst P.nrm P.sn P.hsrcP P.hdstP P.hnrmP P.hnrm0 P.hsnP P.srcR P.dstR P.nrmR P.hsrcR P.hdstR
    P.hnrmR P.hsrcL P.hdstL P.hnrmL hwR hhwR outR houtR

/-- The first layer's input: the kernel's rows are the reference's rows, zero-padded. This is `hin` of the
    first layer when the padded input is given by cases on the row. -/
theorem pad_in {N NP K : ℕ} (xP : Fin NP → Fin K → EReal) (x : Fin N → Fin K → EReal)
    (hx : ∀ (n : Fin NP) (k : Fin K) (h : n.val < N), xP n k = x ⟨n.val, h⟩ k)
    (h0 : ∀ (n : Fin NP) (k : Fin K), N ≤ n.val → xP n k = 0) :
    ∀ (n : Fin NP) (k : Fin K), xP n k = if h : n.val < N then x ⟨n.val, h⟩ k else 0 := by
  intro n k
  split_ifs with h
  · exact hx n k h
  · exact h0 n k (Nat.le_of_not_lt h)

/-- The node count of a graph: the pool with `1` in place of the rows. -/
theorem cnt_step {N NP : ℕ} (hN : N ≤ NP) {γ : Type*} [DecidableEq γ]
    (btP : Fin NP → γ) (bt : Fin N → γ) (g : γ)
    (hbt : ∀ (i : Fin NP) (h : i.val < N), btP i = bt ⟨i.val, h⟩)
    (hpad : ∀ i : Fin NP, N ≤ i.val → btP i ≠ g) :
    (∑ i : Fin NP, if btP i = g then (1 : EReal) else 0)
      = 0 + ∑ i : Fin N, if bt i = g then (1 : EReal) else 0 :=
  LM.pool_cnt hN btP bt g hbt hpad

end Cert.Proof.C
-- ==== Proof.ComposeEdges.lean ====
/-
  The edge package of this program: the real edges are the two rows of the edge list (their words are node
  numbers by the precondition); the padded copies, the two sorted orders and the combined order are the named
  functions of the edge list the host stretches compute, read along the sorting permutations; the reference's
  edges-then-loops lists are the real edges followed by one loop per node, its weights the products of the
  kernel's inverse square-root degrees at the two ends (they agree with the reference's own by the degree step).
  What is used of the padded arrays, the weights and the row mask at an index is stated once, as `KFacts`.
-/
import proofs.«417346_j54202487276072_2_alg».proof.Proof.KHostA0
import proofs.«417346_j54202487276072_2_alg».proof.Proof.IdxBridge
import proofs.«417346_j54202487276072_2_alg».proof.Proof.ComposeChain

noncomputable section

namespace Cert.Proof.C

open Cert.KernelIdeal Cert.KernelIdeal.Gen
open Idealize.ShloMosaic
open scoped BigOperators

variable (ei : Vec Ideal S2x1600000 .i32)

/-- The words of the edge list are node numbers. -/
abbrev Ranged : Prop := ∀ (r : Fin 2) (e : Fin 1600000), (ei (ValueIdx.ix2 r e) : BitVec 32).toNat < 100000

variable (hr : Ranged ei)

/-- The source and the destination of real edge `e`. -/
def srcE (e : Fin 1600000) : Fin 100000 := ⟨(ei (ValueIdx.ix2 (0 : Fin 2) e) : BitVec 32).toNat, hr 0 e⟩
def dstE (e : Fin 1600000) : Fin 100000 := ⟨(ei (ValueIdx.ix2 (1 : Fin 2) e) : BitVec 32).toNat, hr 1 e⟩

/-- What the layer identity uses of the host stretches' named functions, at an index. `pw` is the power with the
    printed exponent. -/
structure KFacts (pw : EReal → EReal) : Prop where
  deg_eq : ∀ i : Fin 100000, (KH.deg ei (ValueIdx.ix1 i) : EReal)
    = (0 + ∑ e : Fin 1600000, if dstE ei hr e = i then (1 : EReal) else 0) + 1
  dinv_eq : ∀ i : Fin 100000, (KH.dinv ei (ValueIdx.ix1 i) : EReal) = pw (KH.deg ei (ValueIdx.ix1 i))
  normE_eq : ∀ e : Fin 1600000, (KH.normE ei (ValueIdx.ix1 e) : EReal)
    = KH.dinv ei (ValueIdx.ix1 (srcE ei hr e)) * KH.dinv ei (ValueIdx.ix1 (dstE ei hr e))
  selfNorm_eq : ∀ i : Fin 100000, (KH.selfNorm ei (ValueIdx.ix1 i) : EReal)
    = KH.dinv ei (ValueIdx.ix1 i) * KH.dinv ei (ValueIdx.ix1 i)
  srcP_eq : ∀ k : Fin 1601536, (KH.srcP ei (ValueIdx.ix1 k) : BitVec 32)
    = if h : k.val < 1600000 then ei (ValueIdx.ix2 (0 : Fin 2) ⟨k.val, h⟩) else 0#32
  dstP_eq : ∀ k : Fin 1601536, (KH.dstP ei (ValueIdx.ix1 k) : BitVec 32)
    = if h : k.val < 1600000 then ei (ValueIdx.ix2 (1 : Fin 2) ⟨k.val, h⟩) else 0#32
  normP_eq : ∀ k : Fin 1601536, (KH.normP ei (ValueIdx.ix1 k) : EReal)
    = if h : k.val < 1600000 then KH.normE ei (ValueIdx.ix1 ⟨k.val, h⟩) else 0
  selfNormP_eq : ∀ n : Fin 100352, (KH.selfNormP ei (ValueIdx.ix1 n) : EReal)
    = if h : n.val < 100000 then KH.selfNorm ei (ValueIdx.ix1 ⟨n.val, h⟩) else 0
  mask_eq : ∀ n : Fin 100352, (KH.maskCol (F := Ideal) (ValueIdx.ix2 n (0 : Fin 1)) : EReal)
    = if n.val < 100000 then 1 else 0

variable {pw : EReal → EReal}

/-- The edge package. -/
def edges (hK : KFacts ei hr pw) : Edges 1600000 100000 100352 1601536 where
  hE := by omega
  hN := by omega
  src := srcE ei hr
  dst := dstE ei hr
  nrm := fun e => KH.normE ei (ValueIdx.ix1 e)
  sn := fun i => KH.selfNorm ei (ValueIdx.ix1 i)
  srcP := fun k => (KH.srcP ei (ValueIdx.ix1 k) : BitVec 32).toNat
  dstP := fun k => (KH.dstP ei (ValueIdx.ix1 k) : BitVec 32).toNat
  nrmP := fun k => KH.normP ei (ValueIdx.ix1 k)
  snP := fun n => KH.selfNormP ei (ValueIdx.ix1 n)
  mask := fun n => KH.maskCol (F := Ideal) (ValueIdx.ix2 n (0 : Fin 1))
  πs := IFB.πs ei
  πd := IFB.πd ei
  comb := IFB.cb ei
  srcS := fun k => (KH.srcSorted ei (ValueIdx.ix1 k) : BitVec 32).toNat
  dstS := fun k => (KH.dstSorted ei (ValueIdx.ix1 k) : BitVec 32).toNat
  nrmS := fun k => KH.normSorted ei (ValueIdx.ix1 k)
  srcR := Fin.addCases (srcE ei hr) id
  dstR := Fin.addCases (dstE ei hr) id
  nrmR := fun q => KH.dinv ei (ValueIdx.ix1 (Fin.addCases (srcE ei hr) id q))
    * KH.dinv ei (ValueIdx.ix1 (Fin.addCases (dstE ei hr) id q))
  hmask := hK.mask_eq
  hsrcS := fun k => congrArg BitVec.toNat (IFB.srcSorted_apply ei k)
  hnrmS := fun k => IFB.normSorted_apply ei k
  hdstS := fun p => congrArg BitVec.toNat (IFB.dstSorted_apply ei p)
  hcomb := IFB.πs_cb ei
  hπd := IFB.πd_bijective ei
  hsrcP := fun e h => by
    show (KH.srcP ei (ValueIdx.ix1 e) : BitVec 32).toNat = _
    rw [hK.srcP_eq, dif_pos h]
    rfl
  hdstP := fun e h => by
    show (KH.dstP ei (ValueIdx.ix1 e) : BitVec 32).toNat = _
    rw [hK.dstP_eq, dif_pos h]
    rfl
  hnrmP := fun e h => by
    show (KH.normP ei (ValueIdx.ix1 e) : EReal) = _
    rw [hK.normP_eq, dif_pos h]
  hnrm0 := fun e h => by
    show (KH.normP ei (ValueIdx.ix1 e) : EReal) = 0
    rw [hK.normP_eq, dif_neg (Nat.not_lt.mpr h)]
  hsnP := fun n h => by
    show (KH.selfNormP ei (ValueIdx.ix1 n) : EReal) = _
    rw [hK.selfNormP_eq, dif_pos h]
  hsrcR := fun e => Fin.addCases_left e
  hdstR := fun e => Fin.addCases_left e
  hnrmR := fun e => by
    show KH.dinv ei (ValueIdx.ix1 (Fin.addCases (srcE ei hr) id (Fin.castAdd 100000 e)))
      * KH.dinv ei (ValueIdx.ix1 (Fin.addCases (dstE ei hr) id (Fin.castAdd 100000 e))) = KH.normE ei (ValueIdx.ix1 e)
    rw [Fin.addCases_left, Fin.addCases_left, hK.normE_eq]
  hsrcL := fun i => Fin.addCases_right i
  hdstL := fun i => Fin.addCases_right i
  hnrmL := fun i => by
    show KH.dinv ei (ValueIdx.ix1 (Fin.addCases (srcE ei hr) id (Fin.natAdd 1600000 i)))
      * KH.dinv ei (ValueIdx.ix1 (Fin.addCases (dstE ei hr) id (Fin.natAdd 1600000 i))) = KH.selfNorm ei (ValueIdx.ix1 i)
    rw [Fin.addCases_right, Fin.addCases_right, hK.selfNorm_eq]
    rfl

/-! ## The package's data, by name -/

section Proj
variable (hK : KFacts ei hr pw)
theorem edges_src : (edges ei hr hK).src = srcE ei hr := by unfold edges; with_reducible rfl
theorem edges_dst : (edges ei hr hK).dst = dstE ei hr := by unfold edges; with_reducible rfl
theorem edges_srcS (k : Fin 1601536) :
    (edges ei hr hK).srcS k = (KH.srcSorted ei (ValueIdx.ix1 k) : BitVec 32).toNat := by unfold edges; with_reducible rfl
theorem edges_dstS (p : Fin 1601536) :
    (edges ei hr hK).dstS p = (KH.dstSorted ei (ValueIdx.ix1 p) : BitVec 32).toNat := by unfold edges; with_reducible rfl
theorem edges_nrmS (k : Fin 1601536) :
    (edges ei hr hK).nrmS k = KH.normSorted ei (ValueIdx.ix1 k) := by unfold edges; with_reducible rfl
theorem edges_snP (n : Fin 100352) :
    (edges ei hr hK).snP n = KH.selfNormP ei (ValueIdx.ix1 n) := by unfold edges; with_reducible rfl
theorem edges_mask (n : Fin 100352) :
    (edges ei hr hK).mask n = KH.maskCol (F := Ideal) (ValueIdx.ix2 n (0 : Fin 1)) := by unfold edges; with_reducible rfl
theorem edges_comb (p : Fin 1601536) : (edges ei hr hK).comb p = IFB.cb ei p := by unfold edges; with_reducible rfl
theorem edges_srcR (q : Fin (1600000 + 100000)) :
    (edges ei hr hK).srcR q = Fin.addCases (srcE ei hr) id q := by unfold edges; with_reducible rfl
theorem edges_dstR (q : Fin (1600000 + 100000)) :
    (edges ei hr hK).dstR q = Fin.addCases (dstE ei hr) id q := by unfold edges; with_reducible rfl
theorem edges_nrmR (q : Fin (1600000 + 100000)) :
    (edges ei hr hK).nrmR q = KH.dinv ei (ValueIdx.ix1 ((edges ei hr hK).srcR q))
      * KH.dinv ei (ValueIdx.ix1 ((edges ei hr hK).dstR q)) := by unfold edges; with_reducible rfl
end Proj

end Cert.Proof.C

end
-- ==== Proof.ComposeLayers.lean ====
/-
  The three layers on arrays: the layer step over this program's edge package, with the layer's own arrays —
  input, weights, bias, the three regions' outputs, the reference's product and layer — as variables. The three
  differ in widths and in the named row-gather and row-mask terms only.
-/
import proofs.«417346_j54202487276072_2_alg».proof.Proof.ComposeEdges

noncomputable section

namespace Cert.Proof.C

open Cert.KernelIdeal Cert.KernelIdeal.Gen
open Idealize.ShloMosaic
open scoped BigOperators

variable (ei : Vec Ideal S2x1600000 .i32) (hr : Ranged ei) {pw : EReal → EReal}

/-- One layer at width 128 → 16, on arrays: from the dense region's, the gather region's and the scatter region's
    equations (the re-gathered rows and the masked rows being the host stretches' named terms) and the reference's
    product and layer, the masked output is the reference's layer on the real rows and zero on the padded rows. -/
theorem layer16 (hK : KFacts ei hr pw) (act : EReal → EReal)
    (inK : Vec Ideal S100352x128 .f32) (inR : (⟨2, ![100000, 128]⟩ : Shape).Idx → EReal)
    (hin : ∀ (n : Fin 100352) (k : Fin 128), (inK (ValueIdx.ix2 n k) : EReal)
      = if h : n.val < 100000 then inR (ValueIdx.ix2 ⟨n.val, h⟩ k) else 0)
    (W : Vec Ideal S128x16 .f32) (bias : Vec Ideal S16 .f32)
    (v83 : Vec Ideal S100352x16 .f32)
    (h83 : ∀ (n : Fin 100352) (d : Fin 16), (v83 (ValueIdx.ix2 n d) : EReal)
      = ∑ k : Fin 128, inK (ValueIdx.ix2 n k) * W (ValueIdx.ix2 k d))
    (v84 : Vec Ideal S1601536x16 .f32)
    (h84 : ∀ (k : Fin 1601536) (d : Fin 16), (v84 (ValueIdx.ix2 k d) : EReal)
      = (if h : (KH.srcSorted ei (ValueIdx.ix1 k) : BitVec 32).toNat < 100352
          then v83 (ValueIdx.ix2 ⟨(KH.srcSorted ei (ValueIdx.ix1 k) : BitVec 32).toNat, h⟩ d) else 0)
        * KH.normSorted ei (ValueIdx.ix1 k))
    (v93 : Vec Ideal S100352x16 .f32)
    (h93 : ∀ (n : Fin 100352) (d : Fin 16), (v93 (ValueIdx.ix2 n d) : EReal)
      = act (KH.selfNormP ei (ValueIdx.ix1 n) * v83 (ValueIdx.ix2 n d)
          + (∑ p : Fin 1601536, if (KH.dstSorted ei (ValueIdx.ix1 p) : BitVec 32).toNat = n.val
              then (KH.rows16 v84 (KH.comb ei) (ValueIdx.ix2 p d) : EReal) else 0)
          + bias (ValueIdx.ix1 d)))
    (hmaskRows : ∀ (n : Fin 100352) (d : Fin 16),
      (KH.maskRows16 v93 KH.maskCol (ValueIdx.ix2 n d) : EReal)
        = v93 (ValueIdx.ix2 n d) * KH.maskCol (F := Ideal) (ValueIdx.ix2 n (0 : Fin 1)))
    (hwR : (⟨2, ![100000, 16]⟩ : Shape).Idx → EReal)
    (hhwR : ∀ (n : Fin 100000) (d : Fin 16), (hwR (ValueIdx.ix2 n d) : EReal)
      = ∑ k : Fin 128, inR (ValueIdx.ix2 n k) * W (ValueIdx.ix2 k d))
    (outR : (⟨2, ![100000, 16]⟩ : Shape).Idx → EReal)
    (houtR : ∀ (n : Fin 100000) (d : Fin 16), (outR (ValueIdx.ix2 n d) : EReal)
      = act ((0 + ∑ q : Fin (1600000 + 100000), if (edges ei hr hK).dstR q = n
              then hwR (ValueIdx.ix2 ((edges ei hr hK).srcR q) d) * (edges ei hr hK).nrmR q else 0)
          + bias (ValueIdx.ix1 d))) :
    ∀ (n : Fin 100352) (d : Fin 16), (KH.maskRows16 v93 KH.maskCol (ValueIdx.ix2 n d) : EReal)
      = if h : n.val < 100000 then outR (ValueIdx.ix2 ⟨n.val, h⟩ d) else 0 := by
  have hg84 : ∀ (k : Fin 1601536) (d : Fin 16), (v84 (ValueIdx.ix2 k d) : EReal)
      = (if h : (edges ei hr hK).srcS k < 100352 then v83 (ValueIdx.ix2 ⟨(edges ei hr hK).srcS k, h⟩ d) else 0) * (edges ei hr hK).nrmS k := by
    intro k d
    rw [edges_srcS, edges_nrmS]
    exact h84 k d
  have hg91 : ∀ (p : Fin 1601536) (d : Fin 16), (KH.rows16 v84 (KH.comb ei) (ValueIdx.ix2 p d) : EReal)
      = v84 (ValueIdx.ix2 ((edges ei hr hK).comb p) d) := by
    intro p d
    rw [edges_comb]
    exact IFB.rows16_comb ei v84 p d
  have hout93 : ∀ (n : Fin 100352) (d : Fin 16), (v93 (ValueIdx.ix2 n d) : EReal)
      = act ((edges ei hr hK).snP n * v83 (ValueIdx.ix2 n d)
          + (∑ p : Fin 1601536, if (edges ei hr hK).dstS p = n.val
              then (KH.rows16 v84 (KH.comb ei) (ValueIdx.ix2 p d) : EReal) else 0)
          + bias (ValueIdx.ix1 d)) := by
    intro n d
    simp only [edges_snP, edges_dstS]
    exact h93 n d
  have hout95 : ∀ (n : Fin 100352) (d : Fin 16),
      (KH.maskRows16 v93 KH.maskCol (ValueIdx.ix2 n d) : EReal) = v93 (ValueIdx.ix2 n d) * (edges ei hr hK).mask n := by
    intro n d
    rw [edges_mask]
    exact hmaskRows n d
  exact (edges ei hr hK).layer (fun n k => inK (ValueIdx.ix2 n k)) (fun n k => inR (ValueIdx.ix2 n k)) hin
    (fun k d => W (ValueIdx.ix2 k d)) (fun d => bias (ValueIdx.ix1 d)) act
    (fun n d => v83 (ValueIdx.ix2 n d)) h83
    (fun k d => v84 (ValueIdx.ix2 k d)) hg84
    (fun p d => KH.rows16 v84 (KH.comb ei) (ValueIdx.ix2 p d)) hg91
    (fun n d => v93 (ValueIdx.ix2 n d)) hout93
    (fun n d => KH.maskRows16 v93 KH.maskCol (ValueIdx.ix2 n d)) hout95
    (fun n d => hwR (ValueIdx.ix2 n d)) hhwR
    (fun n d => outR (ValueIdx.ix2 n d)) houtR

/-- One layer at width 16 → 64, on arrays: from the dense region's, the gather region's and the scatter region's
    equations (the re-gathered rows and the masked rows being the host stretches' named terms) and the reference's
    product and layer, the masked output is the reference's layer on the real rows and zero on the padded rows. -/
theorem layer64 (hK : KFacts ei hr pw) (act : EReal → EReal)
    (inK : Vec Ideal S100352x16 .f32) (inR : (⟨2, ![100000, 16]⟩ : Shape).Idx → EReal)
    (hin : ∀ (n : Fin 100352) (k : Fin 16), (inK (ValueIdx.ix2 n k) : EReal)
      = if h : n.val < 100000 then inR (ValueIdx.ix2 ⟨n.val, h⟩ k) else 0)
    (W : Vec Ideal S16x64 .f32) (bias : Vec Ideal S64 .f32)
    (v83 : Vec Ideal S100352x64 .f32)
    (h83 : ∀ (n : Fin 100352) (d : Fin 64), (v83 (ValueIdx.ix2 n d) : EReal)
      = ∑ k : Fin 16, inK (ValueIdx.ix2 n k) * W (ValueIdx.ix2 k d))
    (v84 : Vec Ideal S1601536x64 .f32)
    (h84 : ∀ (k : Fin 1601536) (d : Fin 64), (v84 (ValueIdx.ix2 k d) : EReal)
      = (if h : (KH.srcSorted ei (ValueIdx.ix1 k) : BitVec 32).toNat < 100352
          then v83 (ValueIdx.ix2 ⟨(KH.srcSorted ei (ValueIdx.ix1 k) : BitVec 32).toNat, h⟩ d) else 0)
        * KH.normSorted ei (ValueIdx.ix1 k))
    (v93 : Vec Ideal S100352x64 .f32)
    (h93 : ∀ (n : Fin 100352) (d : Fin 64), (v93 (ValueIdx.ix2 n d) : EReal)
      = act (KH.selfNormP ei (ValueIdx.ix1 n) * v83 (ValueIdx.ix2 n d)
          + (∑ p : Fin 1601536, if (KH.dstSorted ei (ValueIdx.ix1 p) : BitVec 32).toNat = n.val
              then (KH.rows64 v84 (KH.comb ei) (ValueIdx.ix2 p d) : EReal) else 0)
          + bias (ValueIdx.ix1 d)))
    (hmaskRows : ∀ (n : Fin 100352) (d : Fin 64),
      (KH.maskRows64 v93 KH.maskCol (ValueIdx.ix2 n d) : EReal)
        = v93 (ValueIdx.ix2 n d) * KH.maskCol (F := Ideal) (ValueIdx.ix2 n (0 : Fin 1)))
    (hwR : (⟨2, ![100000, 64]⟩ : Shape).Idx → EReal)
    (hhwR : ∀ (n : Fin 100000) (d : Fin 64), (hwR (ValueIdx.ix2 n d) : EReal)
      = ∑ k : Fin 16, inR (ValueIdx.ix2 n k) * W (ValueIdx.ix2 k d))
    (outR : (⟨2, ![100000, 64]⟩ : Shape).Idx → EReal)
    (houtR : ∀ (n : Fin 100000) (d : Fin 64), (outR (ValueIdx.ix2 n d) : EReal)
      = act ((0 + ∑ q : Fin (1600000 + 100000), if (edges ei hr hK).dstR q = n
              then hwR (ValueIdx.ix2 ((edges ei hr hK).srcR q) d) * (edges ei hr hK).nrmR q else 0)
          + bias (ValueIdx.ix1 d))) :
    ∀ (n : Fin 100352) (d : Fin 64), (KH.maskRows64 v93 KH.maskCol (ValueIdx.ix2 n d) : EReal)
      = if h : n.val < 100000 then outR (ValueIdx.ix2 ⟨n.val, h⟩ d) else 0 := by
  have hg84 : ∀ (k : Fin 1601536) (d : Fin 64), (v84 (ValueIdx.ix2 k d) : EReal)
      = (if h : (edges ei hr hK).srcS k < 100352 then v83 (ValueIdx.ix2 ⟨(edges ei hr hK).srcS k, h⟩ d) else 0) * (edges ei hr hK).nrmS k := by
    intro k d
    rw [edges_srcS, edges_nrmS]
    exact h84 k d
  have hg91 : ∀ (p : Fin 1601536) (d : Fin 64), (KH.rows64 v84 (KH.comb ei) (ValueIdx.ix2 p d) : EReal)
      = v84 (ValueIdx.ix2 ((edges ei hr hK).comb p) d) := by
    intro p d
    rw [edges_comb]
    exact IFB.rows64_comb ei v84 p d
  have hout93 : ∀ (n : Fin 100352) (d : Fin 64), (v93 (ValueIdx.ix2 n d) : EReal)
      = act ((edges ei hr hK).snP n * v83 (ValueIdx.ix2 n d)
          + (∑ p : Fin 1601536, if (edges ei hr hK).dstS p = n.val
              then (KH.rows64 v84 (KH.comb ei) (ValueIdx.ix2 p d) : EReal) else 0)
          + bias (ValueIdx.ix1 d)) := by
    intro n d
    simp only [edges_snP, edges_dstS]
    exact h93 n d
  have hout95 : ∀ (n : Fin 100352) (d : Fin 64),
      (KH.maskRows64 v93 KH.maskCol (ValueIdx.ix2 n d) : EReal) = v93 (ValueIdx.ix2 n d) * (edges ei hr hK).mask n := by
    intro n d
    rw [edges_mask]
    exact hmaskRows n d
  exact (edges ei hr hK).layer (fun n k => inK (ValueIdx.ix2 n k)) (fun n k => inR (ValueIdx.ix2 n k)) hin
    (fun k d => W (ValueIdx.ix2 k d)) (fun d => bias (ValueIdx.ix1 d)) act
    (fun n d => v83 (ValueIdx.ix2 n d)) h83
    (fun k d => v84 (ValueIdx.ix2 k d)) hg84
    (fun p d => KH.rows64 v84 (KH.comb ei) (ValueIdx.ix2 p d)) hg91
    (fun n d => v93 (ValueIdx.ix2 n d)) hout93
    (fun n d => KH.maskRows64 v93 KH.maskCol (ValueIdx.ix2 n d)) hout95
    (fun n d => hwR (ValueIdx.ix2 n d)) hhwR
    (fun n d => outR (ValueIdx.ix2 n d)) houtR

/-- One layer at width 64 → 32, on arrays: from the dense region's, the gather region's and the scatter region's
    equations (the re-gathered rows and the masked rows being the host stretches' named terms) and the reference's
    product and layer, the masked output is the reference's layer on the real rows and zero on the padded rows. -/
theorem layer32 (hK : KFacts ei hr pw) (act : EReal → EReal)
    (inK : Vec Ideal S100352x64 .f32) (inR : (⟨2, ![100000, 64]⟩ : Shape).Idx → EReal)
    (hin : ∀ (n : Fin 100352) (k : Fin 64), (inK (ValueIdx.ix2 n k) : EReal)
      = if h : n.val < 100000 then inR (ValueIdx.ix2 ⟨n.val, h⟩ k) else 0)
    (W : Vec Ideal S64x32 .f32) (bias : Vec Ideal S32 .f32)
    (v83 : Vec Ideal S100352x32 .f32)
    (h83 : ∀ (n : Fin 100352) (d : Fin 32), (v83 (ValueIdx.ix2 n d) : EReal)
      = ∑ k : Fin 64, inK (ValueIdx.ix2 n k) * W (ValueIdx.ix2 k d))
    (v84 : Vec Ideal S1601536x32 .f32)
    (h84 : ∀ (k : Fin 1601536) (d : Fin 32), (v84 (ValueIdx.ix2 k d) : EReal)
      = (if h : (KH.srcSorted ei (ValueIdx.ix1 k) : BitVec 32).toNat < 100352
          then v83 (ValueIdx.ix2 ⟨(KH.srcSorted ei (ValueIdx.ix1 k) : BitVec 32).toNat, h⟩ d) else 0)
        * KH.normSorted ei (ValueIdx.ix1 k))
    (v93 : Vec Ideal S100352x32 .f32)
    (h93 : ∀ (n : Fin 100352) (d : Fin 32), (v93 (ValueIdx.ix2 n d) : EReal)
      = act (KH.selfNormP ei (ValueIdx.ix1 n) * v83 (ValueIdx.ix2 n d)
          + (∑ p : Fin 1601536, if (KH.dstSorted ei (ValueIdx.ix1 p) : BitVec 32).toNat = n.val
              then (KH.rows32 v84 (KH.comb ei) (ValueIdx.ix2 p d) : EReal) else 0)
          + bias (ValueIdx.ix1 d)))
    (hmaskRows : ∀ (n : Fin 100352) (d : Fin 32),
      (KH.maskRows32 v93 KH.maskCol (ValueIdx.ix2 n d) : EReal)
        = v93 (ValueIdx.ix2 n d) * KH.maskCol (F := Ideal) (ValueIdx.ix2 n (0 : Fin 1)))
    (hwR : (⟨2, ![100000, 32]⟩ : Shape).Idx → EReal)
    (hhwR : ∀ (n : Fin 100000) (d : Fin 32), (hwR (ValueIdx.ix2 n d) : EReal)
      = ∑ k : Fin 64, inR (ValueIdx.ix2 n k) * W (ValueIdx.ix2 k d))
    (outR : (⟨2, ![100000, 32]⟩ : Shape).Idx → EReal)
    (houtR : ∀ (n : Fin 100000) (d : Fin 32), (outR (ValueIdx.ix2 n d) : EReal)
      = act ((0 + ∑ q : Fin (1600000 + 100000), if (edges ei hr hK).dstR q = n
              then hwR (ValueIdx.ix2 ((edges ei hr hK).srcR q) d) * (edges ei hr hK).nrmR q else 0)
          + bias (ValueIdx.ix1 d))) :
    ∀ (n : Fin 100352) (d : Fin 32), (KH.maskRows32 v93 KH.maskCol (ValueIdx.ix2 n d) : EReal)
      = if h : n.val < 100000 then outR (ValueIdx.ix2 ⟨n.val, h⟩ d) else 0 := by
  have hg84 : ∀ (k : Fin 1601536) (d : Fin 32), (v84 (ValueIdx.ix2 k d) : EReal)
      = (if h : (edges ei hr hK).srcS k < 100352 then v83 (ValueIdx.ix2 ⟨(edges ei hr hK).srcS k, h⟩ d) else 0) * (edges ei hr hK).nrmS k := by
    intro k d
    rw [edges_srcS, edges_nrmS]
    exact h84 k d
  have hg91 : ∀ (p : Fin 1601536) (d : Fin 32), (KH.rows32 v84 (KH.comb ei) (ValueIdx.ix2 p d) : EReal)
      = v84 (ValueIdx.ix2 ((edges ei hr hK).comb p) d) := by
    intro p d
    rw [edges_comb]
    exact IFB.rows32_comb ei v84 p d
  have hout93 : ∀ (n : Fin 100352) (d : Fin 32), (v93 (ValueIdx.ix2 n d) : EReal)
      = act ((edges ei hr hK).snP n * v83 (ValueIdx.ix2 n d)
          + (∑ p : Fin 1601536, if (edges ei hr hK).dstS p = n.val
              then (KH.rows32 v84 (KH.comb ei) (ValueIdx.ix2 p d) : EReal) else 0)
          + bias (ValueIdx.ix1 d)) := by
    intro n d
    simp only [edges_snP, edges_dstS]
    exact h93 n d
  have hout95 : ∀ (n : Fin 100352) (d : Fin 32),
      (KH.maskRows32 v93 KH.maskCol (ValueIdx.ix2 n d) : EReal) = v93 (ValueIdx.ix2 n d) * (edges ei hr hK).mask n := by
    intro n d
    rw [edges_mask]
    exact hmaskRows n d
  exact (edges ei hr hK).layer (fun n k => inK (ValueIdx.ix2 n k)) (fun n k => inR (ValueIdx.ix2 n k)) hin
    (fun k d => W (ValueIdx.ix2 k d)) (fun d => bias (ValueIdx.ix1 d)) act
    (fun n d => v83 (ValueIdx.ix2 n d)) h83
    (fun k d => v84 (ValueIdx.ix2 k d)) hg84
    (fun p d => KH.rows32 v84 (KH.comb ei) (ValueIdx.ix2 p d)) hg91
    (fun n d => v93 (ValueIdx.ix2 n d)) hout93
    (fun n d => KH.maskRows32 v93 KH.maskCol (ValueIdx.ix2 n d)) hout95
    (fun n d => hwR (ValueIdx.ix2 n d)) hhwR
    (fun n d => outR (ValueIdx.ix2 n d)) houtR

end Cert.Proof.C

end
-- ==== Proof.RefReadsA.lean ====
import Idealize.ShloMosaic.Lib.ValueIdx

/-!
The accumulating scatter and the take-style gather of a message-passing program, read at an index.

The scatter's dimension numbers are always: no batching, one scatter index per update (index vector axis 1 of
extent 1), the scattered axis the operand's axis 0; the updates are either a flat vector (one value per scatter
index) or rows (one row of the operand's width per scatter index). An update's start index is read SIGNED and is
not clamped, so an update whose index is outside the operand contributes nothing.

The gather has one start index per result element (or row), read signed and CLAMPED into the operand's range.
-/

noncomputable section

open scoped BigOperators

namespace Cert.ReferenceIdeal.RR

open Idealize.ShloMosaic Idealize.ShloMosaic.ValueIdx

/-! ## Rank-1 index sets -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The flat scatter-add: operand `[N]`, scatter indices `[Q, 1]`, updates `[Q]` -/

/-- Its dimension numbers; the conditions `wf` are decided on a program's literal shapes. -/
abbrev scFlat (N Q : Nat) (wf : ScatterDims.WF ⟨1, ![N]⟩ ⟨2, ![Q, 1]⟩ ⟨1, ![Q]⟩ [] [0] [0] 1) :
    ScatterDims ⟨1, ![N]⟩ ⟨2, ![Q, 1]⟩ ⟨1, ![Q]⟩ where
  updateWindowDims := []
  insertedWindowDims := [0]
  scatterDimsToOperandDims := [0]
  indexVectorDim := 1
  wf := wf

/-- Update `j` lands on operand element `i` exactly when its (signed, unclamped) scatter index is `i`. -/
theorem scFlat_resultIdx {N Q w : Nat} (wf : ScatterDims.WF ⟨1, ![N]⟩ ⟨2, ![Q, 1]⟩ ⟨1, ![Q]⟩ [] [0] [0] 1)
    (idx : IVec ⟨2, ![Q, 1]⟩ w) (j : (⟨1, ![Q]⟩ : Shape).Idx) (i : (⟨1, ![N]⟩ : Shape).Idx) :
    (scFlat N Q wf).resultIdx? j idx = some i ↔ (idx (ix2 (j 0) 0)).toInt = ((i 0).val : Int) := by
  have hstart : (scFlat N Q wf).start j idx 0 = (idx (ix2 (j 0) 0)).toInt := by
    unfold ScatterDims.start
    rw [dif_pos (show (0 : Fin 1) ∈ (scFlat N Q wf).scatterDimsToOperandDims from List.mem_singleton.mpr rfl)]
    have hsi : (scFlat N Q wf).siIdx j ⟨List.idxOf (0 : Fin 1) (scFlat N Q wf).scatterDimsToOperandDims,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  have hwin : (scFlat N Q wf).window j 0 = 0 := by
    unfold ScatterDims.window
    have hk : (0 : Fin 1) ∉ (scFlat N Q wf).sKept :=
      (show (0 : Fin 1) ∉ (List.finRange 1).filter (fun a => a ∉ ([0] : List (Fin 1))) by decide)
    rw [dif_neg hk]
  unfold ScatterDims.resultIdx?
  constructor
  · intro h
    split at h
    · next hall =>
      have := congrArg (fun o => o.map (fun f => (f 0).val)) h
      simp only [Option.map_some] at this
      have h0 := hall 0
      rw [hstart, hwin] at h0
      have e : ((idx (ix2 (j 0) 0)).toInt + ((0 : Nat) : Int)).toNat = (i 0).val := by
        have := Option.some.inj this
        rw [hstart, hwin] at this
        exact this
      omega
    · exact absurd h (by simp)
  · intro h
    have hlt : (i 0).val < N := (i 0).isLt
    have hall : ∀ a, 0 ≤ (scFlat N Q wf).start j idx a + (scFlat N Q wf).window j a ∧
        (scFlat N Q wf).start j idx a + (scFlat N Q wf).window j a < (⟨1, ![N]⟩ : Shape).size a := by
      intro a
      obtain rfl : a = 0 := Subsingleton.elim _ _
      rw [hstart, hwin, h]
      refine ⟨by omega, ?_⟩
      show ((i 0).val : Int) + ((0 : Nat) : Int) < (N : Int)
      omega
    rw [dif_pos hall]
    congr 1
    funext a
    obtain rfl : a = 0 := Subsingleton.elim _ _
    refine Fin.ext ?_
    show ((scFlat N Q wf).start j idx 0 + (scFlat N Q wf).window j 0).toNat = (i 0).val
    rw [hstart, hwin, h]
    omega

/-- THE FLAT SCATTER-ADD READ AT `n`: the operand's element plus the updates whose scatter index is `n`. -/
theorem scatterAdd_flat_apply {N Q w : Nat} (wf : ScatterDims.WF ⟨1, ![N]⟩ ⟨2, ![Q, 1]⟩ ⟨1, ![Q]⟩ [] [0] [0] 1)
    (x : (⟨1, ![N]⟩ : Shape).Idx → EReal) (idx : IVec ⟨2, ![Q, 1]⟩ w) (upd : (⟨1, ![Q]⟩ : Shape).Idx → EReal)
    (n : Fin N) :
    Ideal.hostScatterAdd (scFlat N Q wf) x idx upd (ValueIdx.ix1 n)
      = x (ValueIdx.ix1 n)
        + ∑ q : Fin Q, if (idx (ValueIdx.ix2 q 0)).toInt = (n.val : Int) then upd (ValueIdx.ix1 q) else 0 := by
  unfold Ideal.hostScatterAdd
  congr 1
  rw [Finset.sum_filter, sum_idx1]
  refine Finset.sum_congr rfl fun q _ => ?_
  exact if_congr (scFlat_resultIdx wf idx (ix1 q) (ix1 n)) rfl rfl

/-! ## The row scatter-add: operand `[N, D]`, scatter indices `[Q, 1]`, updates `[Q, D]` -/

/-- Its dimension numbers. -/
abbrev scRows (N Q D : Nat) (wf : ScatterDims.WF ⟨2, ![N, D]⟩ ⟨2, ![Q, 1]⟩ ⟨2, ![Q, D]⟩ [1] [0] [0] 1) :
    ScatterDims ⟨2, ![N, D]⟩ ⟨2, ![Q, 1]⟩ ⟨2, ![Q, D]⟩ where
  updateWindowDims := [1]
  insertedWindowDims := [0]
  scatterDimsToOperandDims := [0]
  indexVectorDim := 1
  wf := wf

/-- Update `(q, e)` lands on operand element `(n, d)` exactly when its row's (signed, unclamped) scatter index is `n`
    and `e = d`. -/
theorem scRows_resultIdx {N Q D w : Nat} (wf : ScatterDims.WF ⟨2, ![N, D]⟩ ⟨2, ![Q, 1]⟩ ⟨2, ![Q, D]⟩ [1] [0] [0] 1)
    (idx : IVec ⟨2, ![Q, 1]⟩ w) (j : (⟨2, ![Q, D]⟩ : Shape).Idx) (i : (⟨2, ![N, D]⟩ : Shape).Idx) :
    (scRows N Q D wf).resultIdx? j idx = some i ↔
      (idx (ix2 (j 0) 0)).toInt = ((i 0).val : Int) ∧ (j 1).val = (i 1).val := by
  have hstart0 : (scRows N Q D wf).start j idx 0 = (idx (ix2 (j 0) 0)).toInt := by
    unfold ScatterDims.start
    rw [dif_pos (show (0 : Fin 2) ∈ (scRows N Q D wf).scatterDimsToOperandDims from List.mem_singleton.mpr rfl)]
    have hsi : (scRows N Q D wf).siIdx j ⟨List.idxOf (0 : Fin 2) (scRows N Q D wf).scatterDimsToOperandDims,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  have hstart1 : (scRows N Q D wf).start j idx 1 = 0 := by
    unfold ScatterDims.start
    have hk : (1 : Fin 2) ∉ (scRows N Q D wf).scatterDimsToOperandDims :=
      (show (1 : Fin 2) ∉ ([0] : List (Fin 2)) by decide)
    rw [dif_neg hk]
  have hwin0 : (scRows N Q D wf).window j 0 = 0 := by
    unfold ScatterDims.window
    have hk : (0 : Fin 2) ∉ (scRows N Q D wf).sKept :=
      (show (0 : Fin 2) ∉ (List.finRange 2).filter (fun a => a ∉ ([0] : List (Fin 2))) by decide)
    rw [dif_neg hk]
  have hwin1 : (scRows N Q D wf).window j 1 = (j 1).val := by
    unfold ScatterDims.window
    have hk : (1 : Fin 2) ∈ (scRows N Q D wf).sKept :=
      (show (1 : Fin 2) ∈ (List.finRange 2).filter (fun a => a ∉ ([0] : List (Fin 2))) by decide)
    rw [dif_pos hk]
    rfl
  have hj1 : (j 1).val < D := (j 1).isLt
  have hi0 : (i 0).val < N := (i 0).isLt
  have hi1 : (i 1).val < D := (i 1).isLt
  unfold ScatterDims.resultIdx?
  constructor
  · intro h
    split at h
    · next hall =>
      have e := Option.some.inj h
      have e0 : ((scRows N Q D wf).start j idx 0 + (scRows N Q D wf).window j 0).toNat = (i 0).val :=
        congrArg (fun f => (f 0).val) e
      have e1 : ((scRows N Q D wf).start j idx 1 + (scRows N Q D wf).window j 1).toNat = (i 1).val :=
        congrArg (fun f => (f 1).val) e
      have h0 := hall 0
      rw [hstart0, hwin0] at h0 e0
      rw [hstart1, hwin1] at e1
      omega
    · exact absurd h (by simp)
  · rintro ⟨h0, h1⟩
    have hall : ∀ a, 0 ≤ (scRows N Q D wf).start j idx a + (scRows N Q D wf).window j a ∧
        (scRows N Q D wf).start j idx a + (scRows N Q D wf).window j a < (⟨2, ![N, D]⟩ : Shape).size a := by
      intro a
      match a with
      | ⟨0, _⟩ =>
        show 0 ≤ (scRows N Q D wf).start j idx 0 + (scRows N Q D wf).window j 0 ∧
          (scRows N Q D wf).start j idx 0 + (scRows N Q D wf).window j 0 < (N : Int)
        rw [hstart0, hwin0, h0]; omega
      | ⟨1, _⟩ =>
        show 0 ≤ (scRows N Q D wf).start j idx 1 + (scRows N Q D wf).window j 1 ∧
          (scRows N Q D wf).start j idx 1 + (scRows N Q D wf).window j 1 < (D : Int)
        rw [hstart1, hwin1]; omega
    rw [dif_pos hall]
    congr 1
    funext a
    refine Fin.ext ?_
    match a with
    | ⟨0, _⟩ =>
      show ((scRows N Q D wf).start j idx 0 + (scRows N Q D wf).window j 0).toNat = (i 0).val
      rw [hstart0, hwin0, h0]; omega
    | ⟨1, _⟩ =>
      show ((scRows N Q D wf).start j idx 1 + (scRows N Q D wf).window j 1).toNat = (i 1).val
      rw [hstart1, hwin1]; omega

/-- THE ROW SCATTER-ADD READ AT `(n, d)`: the operand's element plus column `d` of the update rows whose scatter
    index is `n`. -/
theorem scatterAdd_rows_apply {N Q D w : Nat} (wf : ScatterDims.WF ⟨2, ![N, D]⟩ ⟨2, ![Q, 1]⟩ ⟨2, ![Q, D]⟩ [1] [0] [0] 1)
    (x : (⟨2, ![N, D]⟩ : Shape).Idx → EReal) (idx : IVec ⟨2, ![Q, 1]⟩ w) (upd : (⟨2, ![Q, D]⟩ : Shape).Idx → EReal)
    (n : Fin N) (d : Fin D) :
    Ideal.hostScatterAdd (scRows N Q D wf) x idx upd (ValueIdx.ix2 n d)
      = x (ValueIdx.ix2 n d)
        + ∑ q : Fin Q, if (idx (ValueIdx.ix2 q 0)).toInt = (n.val : Int) then upd (ValueIdx.ix2 q d) else 0 := by
  unfold Ideal.hostScatterAdd
  congr 1
  rw [Finset.sum_filter, sum_idx2]
  refine Finset.sum_congr rfl fun q _ => ?_
  rw [Finset.sum_eq_single d]
  · exact if_congr ((scRows_resultIdx wf idx (ix2 q d) (ix2 n d)).trans ⟨fun h => h.1, fun h => ⟨h, rfl⟩⟩) rfl rfl
  · intro e _ he
    rw [if_neg]
    intro h
    exact he (Fin.ext ((scRows_resultIdx wf idx (ix2 q e) (ix2 n d)).1 h).2)
  · intro h; exact absurd (Finset.mem_univ _) h

/-! ## The same two reads for the host operation at the ideal values -/

/-- The host's flat scatter-add at the ideal values, read at `n`. -/
theorem hostScatterAdd_flat_apply {φ : FTy} {N Q w : Nat}
    (wf : ScatterDims.WF ⟨1, ![N]⟩ ⟨2, ![Q, 1]⟩ ⟨1, ![Q]⟩ [] [0] [0] 1)
    (x : FVec Ideal ⟨1, ![N]⟩ φ) (idx : IVec ⟨2, ![Q, 1]⟩ w) (upd : FVec Ideal ⟨1, ![Q]⟩ φ) (n : Fin N) :
    Host.scatterAdd (scFlat N Q wf) x idx upd (ValueIdx.ix1 n)
      = x (ValueIdx.ix1 n)
        + ∑ q : Fin Q, if (idx (ValueIdx.ix2 q 0)).toInt = (n.val : Int) then upd (ValueIdx.ix1 q) else 0 :=
  scatterAdd_flat_apply wf x idx upd n

/-- The host's row scatter-add at the ideal values, read at `(n, d)`. -/
theorem hostScatterAdd_rows_apply {φ : FTy} {N Q D w : Nat}
    (wf : ScatterDims.WF ⟨2, ![N, D]⟩ ⟨2, ![Q, 1]⟩ ⟨2, ![Q, D]⟩ [1] [0] [0] 1)
    (x : FVec Ideal ⟨2, ![N, D]⟩ φ) (idx : IVec ⟨2, ![Q, 1]⟩ w) (upd : FVec Ideal ⟨2, ![Q, D]⟩ φ)
    (n : Fin N) (d : Fin D) :
    Host.scatterAdd (scRows N Q D wf) x idx upd (ValueIdx.ix2 n d)
      = x (ValueIdx.ix2 n d)
        + ∑ q : Fin Q, if (idx (ValueIdx.ix2 q 0)).toInt = (n.val : Int) then upd (ValueIdx.ix2 q d) else 0 :=
  scatterAdd_rows_apply wf x idx upd n d

/-! ## The take-style gather: operand `[N]` or rows `[N, D]`, start indices `[Q, 1]` -/

section Gather
variable {α : Type}

/-- The flat gather's dimension numbers. -/
abbrev gaFlat (N Q : Nat) (wf : GatherDims.WF ⟨1, ![N]⟩ ⟨2, ![Q, 1]⟩ ⟨1, ![Q]⟩ [] [0] [] [0] [] 1 ![1]) :
    GatherDims ⟨1, ![N]⟩ ⟨2, ![Q, 1]⟩ ⟨1, ![Q]⟩ where
  offsetDims := []
  collapsedSliceDims := [0]
  operandBatchingDims := []
  startIndicesBatchingDims := []
  startIndexMap := [0]
  indexVectorDim := 1
  sliceSizes := ![1]
  wf := wf

/-- THE FLAT GATHER READ AT `q`: the operand at the start index `idx[q, 0]`, read signed and clamped into `[0, N − 1]`. -/
theorem gather_flat_apply {N Q w : Nat} (hN : 0 < N)
    (wf : GatherDims.WF ⟨1, ![N]⟩ ⟨2, ![Q, 1]⟩ ⟨1, ![Q]⟩ [] [0] [] [0] [] 1 ![1])
    (x : (⟨1, ![N]⟩ : Shape).Idx → α) (idx : IVec ⟨2, ![Q, 1]⟩ w) (y : (⟨1, ![Q]⟩ : Shape).Idx) :
    Host.gather (gaFlat N Q wf) x idx y
      = x (ValueIdx.ix1 ⟨min (idx (ValueIdx.ix2 (y 0) 0)).toInt.toNat (N - 1), by omega⟩) := by
  unfold Host.gather
  congr 1
  funext a
  obtain rfl : a = 0 := Subsingleton.elim _ _
  refine Fin.ext ?_
  show (gaFlat N Q wf).start y idx 0 + (gaFlat N Q wf).batchCoord y 0 + (gaFlat N Q wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gaFlat N Q wf).startIndexMap from List.mem_singleton.mpr rfl)]
  have hsi : (gaFlat N Q wf).siIdx y ⟨List.idxOf (0 : Fin 1) (gaFlat N Q wf).startIndexMap,
      List.idxOf_lt_length_iff.2 (List.mem_singleton.mpr rfl)⟩ = ix2 (y 0) 0 := by
    funext b; refine Fin.ext ?_
    match b with
    | ⟨0, _⟩ => rfl
    | ⟨1, _⟩ => rfl
  rw [hsi]
  rfl

/-- The row gather's dimension numbers. -/
abbrev gaRows (N Q D : Nat) (wf : GatherDims.WF ⟨2, ![N, D]⟩ ⟨2, ![Q, 1]⟩ ⟨2, ![Q, D]⟩ [1] [0] [] [0] [] 1 ![1, D]) :
    GatherDims ⟨2, ![N, D]⟩ ⟨2, ![Q, 1]⟩ ⟨2, ![Q, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(q, d)`: column `d` of the operand's row at the start index `idx[q, 0]`, read signed and
    clamped into `[0, N − 1]`. -/
theorem gather_rows_apply {N Q D w : Nat} (hN : 0 < N)
    (wf : GatherDims.WF ⟨2, ![N, D]⟩ ⟨2, ![Q, 1]⟩ ⟨2, ![Q, D]⟩ [1] [0] [] [0] [] 1 ![1, D])
    (x : (⟨2, ![N, D]⟩ : Shape).Idx → α) (idx : IVec ⟨2, ![Q, 1]⟩ w) (y : (⟨2, ![Q, D]⟩ : Shape).Idx) :
    Host.gather (gaRows N Q D wf) x idx y
      = x (ValueIdx.ix2 ⟨min (idx (ValueIdx.ix2 (y 0) 0)).toInt.toNat (N - 1), by omega⟩ (y 1)) := by
  unfold Host.gather
  congr 1
  funext a
  refine Fin.ext ?_
  match a with
  | ⟨0, _⟩ =>
    show (gaRows N Q D wf).start y idx 0 + (gaRows N Q D wf).batchCoord y 0 + (gaRows N Q D wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gaRows N Q D wf).startIndexMap from List.mem_singleton.mpr rfl)]
    have hsi : (gaRows N Q D wf).siIdx y ⟨List.idxOf (0 : Fin 2) (gaRows N Q D wf).startIndexMap,
        List.idxOf_lt_length_iff.2 (List.mem_singleton.mpr rfl)⟩ = ix2 (y 0) 0 := by
      funext b; refine Fin.ext ?_
      match b with
      | ⟨0, _⟩ => rfl
      | ⟨1, _⟩ => rfl
    rw [hsi]
    rfl
  | ⟨1, _⟩ =>
    show (gaRows N Q D wf).start y idx 1 + (gaRows N Q D wf).batchCoord y 1 + (gaRows N Q D wf).offCoord y 1 = (y 1).val
    rw [GatherDims.batchCoord_eq_zero _ _ _ List.not_mem_nil]
    have hs : (gaRows N Q D wf).start y idx 1 = 0 := by
      unfold GatherDims.start
      have hk : (1 : Fin 2) ∉ (gaRows N Q D wf).startIndexMap := (show (1 : Fin 2) ∉ ([0] : List (Fin 2)) by decide)
      rw [dif_neg hk]
    have ho : (gaRows N Q D wf).offCoord y 1 = (y 1).val := by
      unfold GatherDims.offCoord
      have hk : (1 : Fin 2) ∈ (gaRows N Q D wf).sKept :=
        (GatherDims.mem_sKept _ _).mpr ⟨(show (1 : Fin 2) ∉ ([0] : List (Fin 2)) by decide), List.not_mem_nil⟩
      rw [dif_pos hk]
      rfl
    rw [hs, ho]; omega

end Gather

/-! ## Index words: the negative-index normalisation and the gather's clamp on an index already in range -/

/-- "Add the extent to a negative index" leaves an index that is not negative alone. -/
theorem wrap_of_nonneg (v c : BitVec 32) (h : 0 ≤ v.toInt) :
    Scalar.select (IntOp.cmpi .slt v 0#32) (IntOp.addi v c) v = v := by
  have hs : v.slt 0#32 = false := by
    rw [BitVec.slt_eq_decide]
    simp only [BitVec.toInt_zero, decide_eq_false_iff_not, not_lt]
    exact h
  unfold Scalar.select IntOp.cmpi
  simp only [hs]
  rw [if_neg (by decide)]

/-- The clamp into `[0, N − 1]` leaves an index in `[0, N)` alone. -/
theorem clamp_of_range {N : Nat} (v : BitVec 32) (h0 : 0 ≤ v.toInt) (hN : v.toInt < (N : Int)) :
    min v.toInt.toNat (N - 1) = v.toInt.toNat := by
  omega

/-- A sum over `[0, a + b)` is the sum over `[0, a)` plus the sum over the `b` places after it. -/
theorem sum_fin_split {M : Type*} [AddCommMonoid M] (a b : Nat) (f : Fin (a + b) → M) :
    ∑ q : Fin (a + b), f q = ∑ e : Fin a, f (Fin.castAdd b e) + ∑ i : Fin b, f (Fin.natAdd a i) :=
  Fin.sum_univ_add f

end Cert.ReferenceIdeal.RR
-- ==== Proof.RefReadsB.lean ====
import proofs.«417346_j54202487276072_2_alg».proof.Proof.Gen.ReferenceIdeal
import proofs.«417346_j54202487276072_2_alg».proof.Proof.RefReadsA
import Idealize.ShloMosaic.Lib.Pipeline.Value
import Idealize.ShloMosaic.Lib.IdealHost

/-!
The reference program's scatter-adds, gathers and index concatenations read at an index, for ANY operands: the
printed dimension-number records are the generic ones, so each read is an instance of the generic read.
-/

noncomputable section

open scoped BigOperators

namespace Cert.ReferenceIdeal.RR

open Cert.ReferenceIdeal Cert.ReferenceIdeal.Gen Idealize.ShloMosaic Idealize.ShloMosaic.ValueIdx

/-! ## The scatter-adds -/

/-- The degree count's scatter-add (operand `[100000]`, 1700000 scatter indices), read at node `n`. -/
theorem scatter_deg_apply (x : FVec Ideal S100000 .f32) (idx : IVec S1700000x1 32) (upd : FVec Ideal S1700000 .f32)
    (n : Fin 100000) :
    Host.scatterAdd scatter_S100000_S1700000x1_S1700000_n_0_0_1 x idx upd (ValueIdx.ix1 n)
      = x (ValueIdx.ix1 n)
        + ∑ q : Fin 1700000, if (idx (ValueIdx.ix2 q 0)).toInt = (n.val : Int) then upd (ValueIdx.ix1 q) else 0 :=
  hostScatterAdd_flat_apply scatter_S100000_S1700000x1_S1700000_n_0_0_1_wf x idx upd n

/-- Layer 1's scatter-add (rows of width 16), read at `(n, d)`. -/
theorem scatter_l1_apply (x : FVec Ideal S100000x16 .f32) (idx : IVec S1700000x1 32) (upd : FVec Ideal S1700000x16 .f32)
    (n : Fin 100000) (d : Fin 16) :
    Host.scatterAdd scatter_S100000x16_S1700000x1_S1700000x16_1_0_0_1 x idx upd (ValueIdx.ix2 n d)
      = x (ValueIdx.ix2 n d)
        + ∑ q : Fin 1700000, if (idx (ValueIdx.ix2 q 0)).toInt = (n.val : Int) then upd (ValueIdx.ix2 q d) else 0 :=
  hostScatterAdd_rows_apply scatter_S100000x16_S1700000x1_S1700000x16_1_0_0_1_wf x idx upd n d

/-- Layer 2's scatter-add (rows of width 64), read at `(n, d)`. -/
theorem scatter_l2_apply (x : FVec Ideal S100000x64 .f32) (idx : IVec S1700000x1 32) (upd : FVec Ideal S1700000x64 .f32)
    (n : Fin 100000) (d : Fin 64) :
    Host.scatterAdd scatter_S100000x64_S1700000x1_S1700000x64_1_0_0_1 x idx upd (ValueIdx.ix2 n d)
      = x (ValueIdx.ix2 n d)
        + ∑ q : Fin 1700000, if (idx (ValueIdx.ix2 q 0)).toInt = (n.val : Int) then upd (ValueIdx.ix2 q d) else 0 :=
  hostScatterAdd_rows_apply scatter_S100000x64_S1700000x1_S1700000x64_1_0_0_1_wf x idx upd n d

/-- Layer 3's scatter-add (rows of width 32), read at `(n, d)`. -/
theorem scatter_l3_apply (x : FVec Ideal S100000x32 .f32) (idx : IVec S1700000x1 32) (upd : FVec Ideal S1700000x32 .f32)
    (n : Fin 100000) (d : Fin 32) :
    Host.scatterAdd scatter_S100000x32_S1700000x1_S1700000x32_1_0_0_1 x idx upd (ValueIdx.ix2 n d)
      = x (ValueIdx.ix2 n d)
        + ∑ q : Fin 1700000, if (idx (ValueIdx.ix2 q 0)).toInt = (n.val : Int) then upd (ValueIdx.ix2 q d) else 0 :=
  hostScatterAdd_rows_apply scatter_S100000x32_S1700000x1_S1700000x32_1_0_0_1_wf x idx upd n d

/-- The pool's sums (operand `[64, 32]`, one scatter index per node), read at `(g, d)`. -/
theorem scatter_pool_apply (x : FVec Ideal S64x32 .f32) (idx : IVec S100000x1 32) (upd : FVec Ideal S100000x32 .f32)
    (g : Fin 64) (d : Fin 32) :
    Host.scatterAdd scatter_S64x32_S100000x1_S100000x32_1_0_0_1 x idx upd (ValueIdx.ix2 g d)
      = x (ValueIdx.ix2 g d)
        + ∑ i : Fin 100000, if (idx (ValueIdx.ix2 i 0)).toInt = (g.val : Int) then upd (ValueIdx.ix2 i d) else 0 :=
  hostScatterAdd_rows_apply scatter_S64x32_S100000x1_S100000x32_1_0_0_1_wf x idx upd g d

/-- The pool's counts (operand `[64]`), read at graph `g`. -/
theorem scatter_cnt_apply (x : FVec Ideal S64 .f32) (idx : IVec S100000x1 32) (upd : FVec Ideal S100000 .f32)
    (g : Fin 64) :
    Host.scatterAdd scatter_S64_S100000x1_S100000_n_0_0_1 x idx upd (ValueIdx.ix1 g)
      = x (ValueIdx.ix1 g)
        + ∑ i : Fin 100000, if (idx (ValueIdx.ix2 i 0)).toInt = (g.val : Int) then upd (ValueIdx.ix1 i) else 0 :=
  hostScatterAdd_flat_apply scatter_S64_S100000x1_S100000_n_0_0_1_wf x idx upd g

/-! ## The gathers -/

/-- The flat gather (operand `[100000]`, 1700000 start indices), read at `q`. -/
theorem gather_node_apply {α : Type} (x : S100000.Idx → α) (idx : IVec S1700000x1 32) (q : Fin 1700000) :
    Host.gather gather_S100000_S1700000x1_S1700000_n_0_n_n_0_1_1 x idx (ValueIdx.ix1 q)
      = x (ValueIdx.ix1 ⟨min (idx (ValueIdx.ix2 q 0)).toInt.toNat (100000 - 1), by omega⟩) :=
  gather_flat_apply (by decide) gather_S100000_S1700000x1_S1700000_n_0_n_n_0_1_1_wf x idx (ValueIdx.ix1 q)

/-- Layer 1's row gather, read at `(q, d)`. -/
theorem gather_l1_apply {α : Type} (x : S100000x16.Idx → α) (idx : IVec S1700000x1 32) (q : Fin 1700000) (d : Fin 16) :
    Host.gather gather_S100000x16_S1700000x1_S1700000x16_1_0_n_n_0_1_116 x idx (ValueIdx.ix2 q d)
      = x (ValueIdx.ix2 ⟨min (idx (ValueIdx.ix2 q 0)).toInt.toNat (100000 - 1), by omega⟩ d) :=
  gather_rows_apply (by decide) gather_S100000x16_S1700000x1_S1700000x16_1_0_n_n_0_1_116_wf x idx (ValueIdx.ix2 q d)

/-- Layer 2's row gather, read at `(q, d)`. -/
theorem gather_l2_apply {α : Type} (x : S100000x64.Idx → α) (idx : IVec S1700000x1 32) (q : Fin 1700000) (d : Fin 64) :
    Host.gather gather_S100000x64_S1700000x1_S1700000x64_1_0_n_n_0_1_164 x idx (ValueIdx.ix2 q d)
      = x (ValueIdx.ix2 ⟨min (idx (ValueIdx.ix2 q 0)).toInt.toNat (100000 - 1), by omega⟩ d) :=
  gather_rows_apply (by decide) gather_S100000x64_S1700000x1_S1700000x64_1_0_n_n_0_1_164_wf x idx (ValueIdx.ix2 q d)

/-- Layer 3's row gather, read at `(q, d)`. -/
theorem gather_l3_apply {α : Type} (x : S100000x32.Idx → α) (idx : IVec S1700000x1 32) (q : Fin 1700000) (d : Fin 32) :
    Host.gather gather_S100000x32_S1700000x1_S1700000x32_1_0_n_n_0_1_132 x idx (ValueIdx.ix2 q d)
      = x (ValueIdx.ix2 ⟨min (idx (ValueIdx.ix2 q 0)).toInt.toNat (100000 - 1), by omega⟩ d) :=
  gather_rows_apply (by decide) gather_S100000x32_S1700000x1_S1700000x32_1_0_n_n_0_1_132_wf x idx (ValueIdx.ix2 q d)

/-! ## The edge list followed by the self loops -/

/-- The concatenation of 1600000 edge endpoints and 100000 self-loop endpoints, read at `q`: the edge's endpoint
    below 1600000, the loop's from there on. -/
theorem concat_edges_loops_apply {α : Type} (a : S1600000.Idx → α) (b : S100000.Idx → α) (q : Fin 1700000) :
    concatenate S1700000 0 [⟨S1600000, a⟩, ⟨S100000, b⟩] concatenates_S1600000_S100000_S1700000_d0 (ValueIdx.ix1 q)
      = if h : q.val < 1600000 then a (ValueIdx.ix1 ⟨q.val, h⟩)
        else b (ValueIdx.ix1 ⟨q.val - 1600000, by have := q.isLt; omega⟩) := by
  split
  · next h =>
    exact concatenate_pair_apply_left (0 : Fin S1700000.rank) a b concatenates_S1600000_S100000_S1700000_d0
      (ValueIdx.ix1 q) rfl (ValueIdx.ix1 ⟨q.val, h⟩)
      (fun c => by obtain rfl : c = 0 := Subsingleton.elim _ _; rfl)
  · next h =>
    exact concatenate_pair_apply_right (0 : Fin S1700000.rank) a b concatenates_S1600000_S100000_S1700000_d0
      (ValueIdx.ix1 q) rfl rfl (ValueIdx.ix1 ⟨q.val - 1600000, by have := q.isLt; omega⟩)
      (fun c hc => absurd (Subsingleton.elim _ _) hc)
      (by show (q.val - 1600000) + 1600000 = q.val; omega)

end Cert.ReferenceIdeal.RR
-- ==== Proof.RefReadsC.lean ====
import proofs.«417346_j54202487276072_2_alg».proof.Proof.RefReadsB

/-!
The reference's message list (edges, then self loops), the degree with its inverse square root, an edge's norm, and
one layer's aggregation, as functions of the edge list.
-/

noncomputable section

open scoped BigOperators

namespace Cert.ReferenceIdeal.RR

open Cert.ReferenceIdeal Cert.ReferenceIdeal.Gen Idealize.ShloMosaic Idealize.ShloMosaic.ValueIdx

/-! ## The message list: the 1600000 edges, then one self loop per node -/

/-- The source endpoint of message `q`: the edge list's row 0 below 1600000, node `q − 1600000` from there on. -/
def srcR (ei : IVec S2x1600000 32) (q : Fin 1700000) : BitVec 32 :=
  if h : q.val < 1600000 then ei (ValueIdx.ix2 0 ⟨q.val, h⟩) else BitVec.ofNat 32 (q.val - 1600000)

/-- The destination endpoint of message `q`: the edge list's row 1 below 1600000, node `q − 1600000` from there on. -/
def dstR (ei : IVec S2x1600000 32) (q : Fin 1700000) : BitVec 32 :=
  if h : q.val < 1600000 then ei (ValueIdx.ix2 1 ⟨q.val, h⟩) else BitVec.ofNat 32 (q.val - 1600000)

/-- Every edge endpoint, read signed, is a node. -/
def EdgesInRange (ei : IVec S2x1600000 32) : Prop :=
  ∀ (r : Fin 2) (e : Fin 1600000), 0 ≤ (ei (ValueIdx.ix2 r e)).toInt ∧ (ei (ValueIdx.ix2 r e)).toInt < 100000

/-- A node number as a 32-bit word reads back, signed, as itself. -/
theorem toInt_ofNat_node (k : Nat) (hk : k < 100000) : (BitVec.ofNat 32 k).toInt = (k : Int) := by
  rw [BitVec.toInt_eq_toNat_cond, BitVec.toNat_ofNat]
  have h : k % 2 ^ 32 = k := Nat.mod_eq_of_lt (by omega)
  rw [h]
  split <;> omega

theorem srcR_range {ei : IVec S2x1600000 32} (hE : EdgesInRange ei) (q : Fin 1700000) :
    0 ≤ (srcR ei q).toInt ∧ (srcR ei q).toInt < 100000 := by
  have hq := q.isLt
  unfold srcR
  split
  · exact hE 0 _
  · rw [toInt_ofNat_node _ (by omega)]; omega

theorem dstR_range {ei : IVec S2x1600000 32} (hE : EdgesInRange ei) (q : Fin 1700000) :
    0 ≤ (dstR ei q).toInt ∧ (dstR ei q).toInt < 100000 := by
  have hq := q.isLt
  unfold dstR
  split
  · exact hE 1 _
  · rw [toInt_ofNat_node _ (by omega)]; omega

/-- Node `n`'s self loop is message `1600000 + n`, and it arrives at `n` (whatever the edge list holds). -/
theorem dstR_loop (ei : IVec S2x1600000 32) (n : Fin 100000) :
    (dstR ei ⟨1600000 + n.val, by have := n.isLt; omega⟩).toInt = (n.val : Int) := by
  have hn := n.isLt
  unfold dstR
  rw [dif_neg (by show ¬ (1600000 + n.val < 1600000); omega)]
  show (BitVec.ofNat 32 (1600000 + n.val - 1600000)).toInt = _
  rw [show 1600000 + n.val - 1600000 = n.val by omega]
  exact toInt_ofNat_node _ hn

theorem srcR_loop (ei : IVec S2x1600000 32) (n : Fin 100000) :
    (srcR ei ⟨1600000 + n.val, by have := n.isLt; omega⟩).toInt = (n.val : Int) := by
  have hn := n.isLt
  unfold srcR
  rw [dif_neg (by show ¬ (1600000 + n.val < 1600000); omega)]
  show (BitVec.ofNat 32 (1600000 + n.val - 1600000)).toInt = _
  rw [show 1600000 + n.val - 1600000 = n.val by omega]
  exact toInt_ofNat_node _ hn

/-- The node a gather reads for the start index `v`: `v` read signed and clamped into `[0, 99999]`. -/
def nodeOf (v : BitVec 32) : Fin 100000 := ⟨min v.toInt.toNat (100000 - 1), by omega⟩

theorem nodeOf_val {v : BitVec 32} (h0 : 0 ≤ v.toInt) (h1 : v.toInt < 100000) : ((nodeOf v).val : Int) = v.toInt := by
  unfold nodeOf
  show ((min v.toInt.toNat (100000 - 1) : Nat) : Int) = v.toInt
  omega

/-- On a word that is a node, "the scatter lands on `n`" is "the gather reads `n`". -/
theorem toInt_eq_iff_nodeOf {v : BitVec 32} (h0 : 0 ≤ v.toInt) (h1 : v.toInt < 100000) (n : Fin 100000) :
    v.toInt = (n.val : Int) ↔ nodeOf v = n := by
  have hv := nodeOf_val h0 h1
  constructor
  · intro h; apply Fin.ext; omega
  · intro h; rw [← h]; exact hv.symm

/-! ## The gathers, with the clamped start index written `nodeOf` -/

theorem gather_node_nodeOf {α : Type} (x : S100000.Idx → α) (idx : IVec S1700000x1 32) (q : Fin 1700000) :
    Host.gather gather_S100000_S1700000x1_S1700000_n_0_n_n_0_1_1 x idx (ValueIdx.ix1 q)
      = x (ValueIdx.ix1 (nodeOf (idx (ValueIdx.ix2 q 0)))) :=
  gather_node_apply x idx q

theorem gather_l1_nodeOf {α : Type} (x : S100000x16.Idx → α) (idx : IVec S1700000x1 32) (q : Fin 1700000) (d : Fin 16) :
    Host.gather gather_S100000x16_S1700000x1_S1700000x16_1_0_n_n_0_1_116 x idx (ValueIdx.ix2 q d)
      = x (ValueIdx.ix2 (nodeOf (idx (ValueIdx.ix2 q 0))) d) :=
  gather_l1_apply x idx q d

theorem gather_l2_nodeOf {α : Type} (x : S100000x64.Idx → α) (idx : IVec S1700000x1 32) (q : Fin 1700000) (d : Fin 64) :
    Host.gather gather_S100000x64_S1700000x1_S1700000x64_1_0_n_n_0_1_164 x idx (ValueIdx.ix2 q d)
      = x (ValueIdx.ix2 (nodeOf (idx (ValueIdx.ix2 q 0))) d) :=
  gather_l2_apply x idx q d

theorem gather_l3_nodeOf {α : Type} (x : S100000x32.Idx → α) (idx : IVec S1700000x1 32) (q : Fin 1700000) (d : Fin 32) :
    Host.gather gather_S100000x32_S1700000x1_S1700000x32_1_0_n_n_0_1_132 x idx (ValueIdx.ix2 q d)
      = x (ValueIdx.ix2 (nodeOf (idx (ValueIdx.ix2 q 0))) d) :=
  gather_l3_apply x idx q d

/-- The negative-index normalisation before a gather: the extent 100000 added to a negative start index. -/
def wrapW (v : BitVec 32) : BitVec 32 := Scalar.select (IntOp.cmpi .slt v 0#32) (IntOp.addi v 100000#32) v

theorem wrapW_of_nonneg {v : BitVec 32} (h : 0 ≤ v.toInt) : wrapW v = v := wrap_of_nonneg v _ h

/-! ## Degree, its inverse square root, and an edge's norm -/

/-- The in-degree of node `n` over the message list (its self loop counted). -/
def deg (ei : IVec S2x1600000 32) (n : Fin 100000) : EReal :=
  0 + ∑ q : Fin 1700000, if (dstR ei q).toInt = (n.val : Int) then (1 : EReal) else 0

/-- Every node has degree at least one: its self loop arrives at it. -/
theorem one_le_deg (ei : IVec S2x1600000 32) (n : Fin 100000) : 1 ≤ deg ei n := by
  unfold deg
  rw [zero_add]
  have hnn : ∀ q ∈ (Finset.univ : Finset (Fin 1700000)),
      (0 : EReal) ≤ (if (dstR ei q).toInt = (n.val : Int) then (1 : EReal) else 0) := by
    intro q _
    split
    · exact zero_le_one
    · exact le_refl _
  have h := Finset.single_le_sum hnn (Finset.mem_univ (⟨1600000 + n.val, by have := n.isLt; omega⟩ : Fin 1700000))
  rwa [if_pos (dstR_loop ei n)] at h

theorem deg_pos (ei : IVec S2x1600000 32) (n : Fin 100000) : 0 < deg ei n :=
  lt_of_lt_of_le zero_lt_one (one_le_deg ei n)

/-- The ideal power `deg ^ (−1/2)` (the exponent is the f32 word of −0.5). -/
def dinv (ei : IVec S2x1600000 32) (n : Fin 100000) : EReal :=
  Ideal.pow (deg ei n) (Ideal.ofBits .f32 0xBF000000#32)

/-- The guard "degree > 0" of the reference's inverse square root always holds. -/
theorem deg_gt_word (ei : IVec S2x1600000 32) (n : Fin 100000) : Ideal.cmp .ogt (deg ei n) 0 = 1#1 := by
  unfold Ideal.cmp
  simp only [decide_eq_true (deg_pos ei n)]
  rfl

/-- The symmetric normalisation of message `q`. -/
def norm (ei : IVec S2x1600000 32) (q : Fin 1700000) : EReal :=
  dinv ei (nodeOf (srcR ei q)) * dinv ei (nodeOf (dstR ei q))

/-- One layer's aggregation at node `n`, channel `d`: the normalised rows of `hw` at the sources of the messages that
    arrive at `n`, summed, plus the bias. -/
def agg {D : Nat} (ei : IVec S2x1600000 32) (hw : FVec Ideal ⟨2, ![100000, D]⟩ .f32) (b : FVec Ideal ⟨1, ![D]⟩ .f32)
    (n : Fin 100000) (d : Fin D) : EReal :=
  (0 + ∑ q : Fin 1700000,
      if (dstR ei q).toInt = (n.val : Int) then hw (ValueIdx.ix2 (nodeOf (srcR ei q)) d) * norm ei q else 0)
    + b (ValueIdx.ix1 d)

end Cert.ReferenceIdeal.RR
-- ==== Proof.RefReadsD.lean ====
import proofs.«417346_j54202487276072_2_alg».proof.Proof.RefRead
import proofs.«417346_j54202487276072_2_alg».proof.Proof.RefReadsC

/-!
The reference's stages read at an index, on an edge list whose entries are nodes: the message list, the degree and
its inverse square root, each layer's norm, gathered rows, aggregation and pre-activation, the mean pool, and the
result as the head applied to the pooled means.
-/

noncomputable section

open scoped BigOperators

namespace Cert.ReferenceIdeal.RR

open Cert.ReferenceIdeal Cert.ReferenceIdeal.Gen Cert.ReferenceIdeal.ReadP Idealize.ShloMosaic Idealize.ShloMosaic.ValueIdx

/-- Two rank-1 indices with the same coordinate are the same index. -/
theorem idx1_ext {n : Nat} (f g : (⟨1, ![n]⟩ : Shape).Idx) (h : (f 0).val = (g 0).val) : f = g := by
  funext a; obtain rfl : a = 0 := Subsingleton.elim _ _; exact Fin.ext h

/-- Two rank-2 indices with the same coordinates are the same index. -/
theorem idx2_ext {n0 n1 : Nat} (f g : (⟨2, ![n0, n1]⟩ : Shape).Idx) (h0 : (f 0).val = (g 0).val) (h1 : (f 1).val = (g 1).val) :
    f = g := by
  funext a
  match a with
  | ⟨0, _⟩ => exact Fin.ext h0
  | ⟨1, _⟩ => exact Fin.ext h1

theorem ofBits_zero : (FloatOps.ofBits .f32 0x00000000#32 : Ideal .f32) = 0 := Ideal.ofBits_zero_f32
theorem ofBits_one : (FloatOps.ofBits .f32 0x3F800000#32 : Ideal .f32) = 1 := Ideal.ofBits_one_f32

section
variable (x1 : (⟨S2x1600000, .i32⟩ : BufTy).Contents (Elt Ideal))

/-! ## The message list -/

theorem v0_at (i : Fin 100000) : val_main_v0 (F := Ideal) (ValueIdx.ix1 i) = BitVec.ofNat 32 i.val := rfl

theorem v2_at (e : Fin 1600000) : val_main_v2 (F := Ideal) x1 (ValueIdx.ix1 e) = x1 (ValueIdx.ix2 0 e) := by
  rw [val_main_v2_apply, val_main_v1_apply]
  congr 1
  exact idx2_ext _ _ rfl (Nat.mod_eq_of_lt e.isLt)

theorem v5_at (e : Fin 1600000) : val_main_v5 (F := Ideal) x1 (ValueIdx.ix1 e) = x1 (ValueIdx.ix2 1 e) := by
  rw [val_main_v5_apply, val_main_v4_apply]
  congr 1
  exact idx2_ext _ _ rfl (Nat.mod_eq_of_lt e.isLt)

/-- The reference's source list, read at message `q`. -/
theorem v3_at (q : Fin 1700000) : val_main_v3 (F := Ideal) x1 (ValueIdx.ix1 q) = srcR x1 q := by
  unfold val_main_v3 srcR
  rw [concat_edges_loops_apply]
  by_cases h : q.val < 1600000
  · rw [dif_pos h, dif_pos h]; exact v2_at x1 ⟨q.val, h⟩
  · rw [dif_neg h, dif_neg h]; rfl

/-- The reference's destination list, read at message `q`. -/
theorem v6_at (q : Fin 1700000) : val_main_v6 (F := Ideal) x1 (ValueIdx.ix1 q) = dstR x1 q := by
  unfold val_main_v6 dstR
  rw [concat_edges_loops_apply]
  by_cases h : q.val < 1600000
  · rw [dif_pos h, dif_pos h]; exact v5_at x1 ⟨q.val, h⟩
  · rw [dif_neg h, dif_neg h]; rfl

/-! ## The negative-index normalisations: the identity on an edge list of nodes -/

theorem v21_at (hE : EdgesInRange x1) (q : Fin 1700000) : val_main_v21 (F := Ideal) x1 (ValueIdx.ix1 q) = srcR x1 q := by
  rw [val_main_v21_apply, val_main_v18_apply, val_main_v20_apply, val_main_v17_apply, val_main_v19_apply,
    val_main_c_apply, val_main_c_4_apply, v3_at]
  exact wrap_of_nonneg _ _ (srcR_range hE q).1

theorem v22_at (hE : EdgesInRange x1) (q : Fin 1700000) : val_main_v22 (F := Ideal) x1 (ValueIdx.ix2 q 0) = srcR x1 q := by
  rw [val_main_v22_apply, ← v21_at x1 hE q]
  congr 1
  exact idx1_ext _ _ rfl

theorem v28_at (hE : EdgesInRange x1) (q : Fin 1700000) : val_main_v28 (F := Ideal) x1 (ValueIdx.ix1 q) = dstR x1 q := by
  rw [val_main_v28_apply, val_main_v25_apply, val_main_v27_apply, val_main_v24_apply, val_main_v26_apply,
    val_main_c_5_apply, val_main_c_6_apply, v6_at]
  exact wrap_of_nonneg _ _ (dstR_range hE q).1

theorem v29_at (hE : EdgesInRange x1) (q : Fin 1700000) : val_main_v29 (F := Ideal) x1 (ValueIdx.ix2 q 0) = dstR x1 q := by
  rw [val_main_v29_apply, ← v28_at x1 hE q]
  congr 1
  exact idx1_ext _ _ rfl

theorem v36_at (hE : EdgesInRange x1) (q : Fin 1700000) : val_main_v36 (F := Ideal) x1 (ValueIdx.ix1 q) = srcR x1 q := by
  rw [val_main_v36_apply, val_main_v33_apply, val_main_v35_apply, val_main_v32_apply, val_main_v34_apply,
    val_main_c_7_apply, val_main_c_8_apply, v3_at]
  exact wrap_of_nonneg _ _ (srcR_range hE q).1

theorem v37_at (hE : EdgesInRange x1) (q : Fin 1700000) : val_main_v37 (F := Ideal) x1 (ValueIdx.ix2 q 0) = srcR x1 q := by
  rw [val_main_v37_apply, ← v36_at x1 hE q]
  congr 1
  exact idx1_ext _ _ rfl

theorem v54_at (hE : EdgesInRange x1) (q : Fin 1700000) : val_main_v54 (F := Ideal) x1 (ValueIdx.ix1 q) = srcR x1 q := by
  rw [val_main_v54_apply, val_main_v51_apply, val_main_v53_apply, val_main_v50_apply, val_main_v52_apply,
    val_main_c_10_apply, val_main_c_11_apply, v3_at]
  exact wrap_of_nonneg _ _ (srcR_range hE q).1

theorem v55_at (hE : EdgesInRange x1) (q : Fin 1700000) : val_main_v55 (F := Ideal) x1 (ValueIdx.ix2 q 0) = srcR x1 q := by
  rw [val_main_v55_apply, ← v54_at x1 hE q]
  congr 1
  exact idx1_ext _ _ rfl

theorem v61_at (hE : EdgesInRange x1) (q : Fin 1700000) : val_main_v61 (F := Ideal) x1 (ValueIdx.ix1 q) = dstR x1 q := by
  rw [val_main_v61_apply, val_main_v58_apply, val_main_v60_apply, val_main_v57_apply, val_main_v59_apply,
    val_main_c_12_apply, val_main_c_13_apply, v6_at]
  exact wrap_of_nonneg _ _ (dstR_range hE q).1

theorem v62_at (hE : EdgesInRange x1) (q : Fin 1700000) : val_main_v62 (F := Ideal) x1 (ValueIdx.ix2 q 0) = dstR x1 q := by
  rw [val_main_v62_apply, ← v61_at x1 hE q]
  congr 1
  exact idx1_ext _ _ rfl

theorem v69_at (hE : EdgesInRange x1) (q : Fin 1700000) : val_main_v69 (F := Ideal) x1 (ValueIdx.ix1 q) = srcR x1 q := by
  rw [val_main_v69_apply, val_main_v66_apply, val_main_v68_apply, val_main_v65_apply, val_main_v67_apply,
    val_main_c_14_apply, val_main_c_15_apply, v3_at]
  exact wrap_of_nonneg _ _ (srcR_range hE q).1

theorem v70_at (hE : EdgesInRange x1) (q : Fin 1700000) : val_main_v70 (F := Ideal) x1 (ValueIdx.ix2 q 0) = srcR x1 q := by
  rw [val_main_v70_apply, ← v69_at x1 hE q]
  congr 1
  exact idx1_ext _ _ rfl

theorem v87_at (hE : EdgesInRange x1) (q : Fin 1700000) : val_main_v87 (F := Ideal) x1 (ValueIdx.ix1 q) = srcR x1 q := by
  rw [val_main_v87_apply, val_main_v84_apply, val_main_v86_apply, val_main_v83_apply, val_main_v85_apply,
    val_main_c_17_apply, val_main_c_18_apply, v3_at]
  exact wrap_of_nonneg _ _ (srcR_range hE q).1

theorem v88_at (hE : EdgesInRange x1) (q : Fin 1700000) : val_main_v88 (F := Ideal) x1 (ValueIdx.ix2 q 0) = srcR x1 q := by
  rw [val_main_v88_apply, ← v87_at x1 hE q]
  congr 1
  exact idx1_ext _ _ rfl

theorem v94_at (hE : EdgesInRange x1) (q : Fin 1700000) : val_main_v94 (F := Ideal) x1 (ValueIdx.ix1 q) = dstR x1 q := by
  rw [val_main_v94_apply, val_main_v91_apply, val_main_v93_apply, val_main_v90_apply, val_main_v92_apply,
    val_main_c_19_apply, val_main_c_20_apply, v6_at]
  exact wrap_of_nonneg _ _ (dstR_range hE q).1

theorem v95_at (hE : EdgesInRange x1) (q : Fin 1700000) : val_main_v95 (F := Ideal) x1 (ValueIdx.ix2 q 0) = dstR x1 q := by
  rw [val_main_v95_apply, ← v94_at x1 hE q]
  congr 1
  exact idx1_ext _ _ rfl

theorem v102_at (hE : EdgesInRange x1) (q : Fin 1700000) : val_main_v102 (F := Ideal) x1 (ValueIdx.ix1 q) = srcR x1 q := by
  rw [val_main_v102_apply, val_main_v99_apply, val_main_v101_apply, val_main_v98_apply, val_main_v100_apply,
    val_main_c_21_apply, val_main_c_22_apply, v3_at]
  exact wrap_of_nonneg _ _ (srcR_range hE q).1

theorem v103_at (hE : EdgesInRange x1) (q : Fin 1700000) : val_main_v103 (F := Ideal) x1 (ValueIdx.ix2 q 0) = srcR x1 q := by
  rw [val_main_v103_apply, ← v102_at x1 hE q]
  congr 1
  exact idx1_ext _ _ rfl

/-! ## Degree and its inverse square root -/

theorem v9_at (q : Fin 1700000) : val_main_v9 (F := Ideal) x1 (ValueIdx.ix2 q 0) = dstR x1 q := by
  rw [val_main_v9_apply, ← v6_at x1 q]
  congr 1
  exact idx1_ext _ _ rfl

/-- The reference's degree vector, read at node `n`. -/
theorem v10_at (n : Fin 100000) : val_main_v10 (F := Ideal) x1 (ValueIdx.ix1 n) = deg x1 n := by
  unfold val_main_v10 deg
  rw [scatter_deg_apply, val_main_v8_apply, val_main_cst_0_apply, ofBits_zero]
  refine congrArg (fun s : EReal => 0 + s) (Finset.sum_congr rfl fun q _ => ?_)
  rw [v9_at, val_main_v7_apply, val_main_cst_apply, ofBits_one]

/-- The reference's inverse square root of the degree, read at node `n`: the guard holds, so it is the power. -/
theorem v15_at (n : Fin 100000) : val_main_v15 (F := Ideal) x1 (ValueIdx.ix1 n) = dinv x1 n := by
  rw [val_main_v15_apply, val_main_v12_apply, val_main_v14_apply, val_main_v11_apply, val_main_cst_1_apply,
    val_main_v13_apply, val_main_cst_2_apply, v10_at, ofBits_zero]
  show Scalar.select (Ideal.cmp .ogt (deg x1 n) 0) (dinv x1 n) _ = dinv x1 n
  rw [deg_gt_word, select_one]

/-! ## The norm of a message (recomputed by each layer) -/

theorem v23_at (hE : EdgesInRange x1) (q : Fin 1700000) :
    val_main_v23 (F := Ideal) x1 (ValueIdx.ix1 q) = dinv x1 (nodeOf (srcR x1 q)) := by
  unfold val_main_v23
  rw [gather_node_nodeOf]
  rw [v22_at x1 hE q]
  exact v15_at x1 (nodeOf (srcR x1 q))

theorem v30_at (hE : EdgesInRange x1) (q : Fin 1700000) :
    val_main_v30 (F := Ideal) x1 (ValueIdx.ix1 q) = dinv x1 (nodeOf (dstR x1 q)) := by
  unfold val_main_v30
  rw [gather_node_nodeOf]
  rw [v29_at x1 hE q]
  exact v15_at x1 (nodeOf (dstR x1 q))

theorem v31_at (hE : EdgesInRange x1) (q : Fin 1700000) : val_main_v31 (F := Ideal) x1 (ValueIdx.ix1 q) = norm x1 q := by
  rw [val_main_v31_apply, v23_at x1 hE q, v30_at x1 hE q]
  rfl

theorem v56_at (hE : EdgesInRange x1) (q : Fin 1700000) :
    val_main_v56 (F := Ideal) x1 (ValueIdx.ix1 q) = dinv x1 (nodeOf (srcR x1 q)) := by
  unfold val_main_v56
  rw [gather_node_nodeOf]
  rw [v55_at x1 hE q]
  exact v15_at x1 (nodeOf (srcR x1 q))

theorem v63_at (hE : EdgesInRange x1) (q : Fin 1700000) :
    val_main_v63 (F := Ideal) x1 (ValueIdx.ix1 q) = dinv x1 (nodeOf (dstR x1 q)) := by
  unfold val_main_v63
  rw [gather_node_nodeOf]
  rw [v62_at x1 hE q]
  exact v15_at x1 (nodeOf (dstR x1 q))

theorem v64_at (hE : EdgesInRange x1) (q : Fin 1700000) : val_main_v64 (F := Ideal) x1 (ValueIdx.ix1 q) = norm x1 q := by
  rw [val_main_v64_apply, v56_at x1 hE q, v63_at x1 hE q]
  rfl

theorem v89_at (hE : EdgesInRange x1) (q : Fin 1700000) :
    val_main_v89 (F := Ideal) x1 (ValueIdx.ix1 q) = dinv x1 (nodeOf (srcR x1 q)) := by
  unfold val_main_v89
  rw [gather_node_nodeOf]
  rw [v88_at x1 hE q]
  exact v15_at x1 (nodeOf (srcR x1 q))

theorem v96_at (hE : EdgesInRange x1) (q : Fin 1700000) :
    val_main_v96 (F := Ideal) x1 (ValueIdx.ix1 q) = dinv x1 (nodeOf (dstR x1 q)) := by
  unfold val_main_v96
  rw [gather_node_nodeOf]
  rw [v95_at x1 hE q]
  exact v15_at x1 (nodeOf (dstR x1 q))

theorem v97_at (hE : EdgesInRange x1) (q : Fin 1700000) : val_main_v97 (F := Ideal) x1 (ValueIdx.ix1 q) = norm x1 q := by
  rw [val_main_v97_apply, v89_at x1 hE q, v96_at x1 hE q]
  rfl

end

end Cert.ReferenceIdeal.RR

namespace Cert.ReferenceIdeal.RR

open Cert.ReferenceIdeal Cert.ReferenceIdeal.Gen Cert.ReferenceIdeal.ReadP Idealize.ShloMosaic Idealize.ShloMosaic.ValueIdx

theorem addf_eq (a b : Ideal .f32) : FloatOps.addf a b = a + b := rfl
theorem mulf_eq (a b : Ideal .f32) : FloatOps.mulf a b = a * b := rfl
theorem maximumf_eq (a b : Ideal .f32) : FloatOps.maximumf a b = max a b := rfl
theorem hostDivf_eq (a b : Ideal .f32) : FloatOps.hostDivf a b = Ideal.div a b := rfl

section
variable (x0 : (⟨S100000x128, .f32⟩ : BufTy).Contents (Elt Ideal)) (x1 : (⟨S2x1600000, .i32⟩ : BufTy).Contents (Elt Ideal)) (x2 : (⟨S100000, .i32⟩ : BufTy).Contents (Elt Ideal))
  (x3 : (⟨S64x4, .f32⟩ : BufTy).Contents (Elt Ideal)) (x4 : (⟨S128x16, .f32⟩ : BufTy).Contents (Elt Ideal)) (x5 : (⟨S16, .f32⟩ : BufTy).Contents (Elt Ideal)) (x6 : (⟨S16x64, .f32⟩ : BufTy).Contents (Elt Ideal))
  (x7 : (⟨S64, .f32⟩ : BufTy).Contents (Elt Ideal)) (x8 : (⟨S64x32, .f32⟩ : BufTy).Contents (Elt Ideal)) (x9 : (⟨S32, .f32⟩ : BufTy).Contents (Elt Ideal)) (x10 : (⟨S32x64, .f32⟩ : BufTy).Contents (Elt Ideal))
  (x11 : (⟨S64, .f32⟩ : BufTy).Contents (Elt Ideal)) (x12 : (⟨S68x10, .f32⟩ : BufTy).Contents (Elt Ideal)) (x13 : (⟨S10, .f32⟩ : BufTy).Contents (Elt Ideal)) (x14 : (⟨S10x1, .f32⟩ : BufTy).Contents (Elt Ideal))
  (x15 : (⟨S1, .f32⟩ : BufTy).Contents (Elt Ideal))

/-! ## The three layers' pre-activations -/

theorem v38_at (hE : EdgesInRange x1) (q : Fin 1700000) (d : Fin 16) :
    val_main_v38 (F := Ideal) x0 x1 x4 (ValueIdx.ix2 q d)
      = val_main_v16 (F := Ideal) x0 x4 (ValueIdx.ix2 (nodeOf (srcR x1 q)) d) := by
  unfold val_main_v38
  rw [gather_l1_nodeOf]
  rw [v37_at x1 hE q]

theorem v40_at (hE : EdgesInRange x1) (q : Fin 1700000) (d : Fin 16) :
    val_main_v40 (F := Ideal) x1 (ValueIdx.ix2 q d) = norm x1 q := by
  rw [val_main_v40_apply, val_main_v39_apply, ← v31_at x1 hE q]
  congr 1
  exact idx1_ext _ _ rfl

theorem v41_at (hE : EdgesInRange x1) (q : Fin 1700000) (d : Fin 16) :
    val_main_v41 (F := Ideal) x0 x1 x4 (ValueIdx.ix2 q d)
      = val_main_v16 (F := Ideal) x0 x4 (ValueIdx.ix2 (nodeOf (srcR x1 q)) d) * norm x1 q := by
  rw [val_main_v41_apply, v38_at x0 x1 x4 hE q d, v40_at x1 hE q d, mulf_eq]

theorem v43_at (q : Fin 1700000) : val_main_v43 (F := Ideal) x1 (ValueIdx.ix2 q 0) = dstR x1 q := by
  rw [val_main_v43_apply, ← v6_at x1 q]
  congr 1
  exact idx1_ext _ _ rfl

theorem v46_at (n : Fin 100000) (d : Fin 16) : val_main_v46 (F := Ideal) x5 (ValueIdx.ix2 n d) = x5 (ValueIdx.ix1 d) := by
  rw [val_main_v46_apply, val_main_v45_apply]
  congr 1
  exact idx1_ext _ _ rfl

/-- Layer 1's pre-activation, read at node `n`, channel `d`. -/
theorem v47_at (hE : EdgesInRange x1) (n : Fin 100000) (d : Fin 16) :
    val_main_v47 (F := Ideal) x0 x1 x4 x5 (ValueIdx.ix2 n d)
      = agg (D := 16) x1 (val_main_v16 (F := Ideal) x0 x4) x5 n d := by
  rw [val_main_v47_apply, addf_eq, v46_at]
  unfold val_main_v44 agg
  rw [scatter_l1_apply, val_main_v42_apply, val_main_cst_9_apply, ofBits_zero]
  refine congrArg (fun s : EReal => (0 + s) + x5 (ValueIdx.ix1 d)) (Finset.sum_congr rfl fun q _ => ?_)
  rw [v43_at, v41_at x0 x1 x4 hE q d]

theorem v71_at (hE : EdgesInRange x1) (q : Fin 1700000) (d : Fin 64) :
    val_main_v71 (F := Ideal) x0 x1 x4 x5 x6 (ValueIdx.ix2 q d)
      = val_main_v49 (F := Ideal) x0 x1 x4 x5 x6 (ValueIdx.ix2 (nodeOf (srcR x1 q)) d) := by
  unfold val_main_v71
  rw [gather_l2_nodeOf]
  rw [v70_at x1 hE q]

theorem v73_at (hE : EdgesInRange x1) (q : Fin 1700000) (d : Fin 64) :
    val_main_v73 (F := Ideal) x1 (ValueIdx.ix2 q d) = norm x1 q := by
  rw [val_main_v73_apply, val_main_v72_apply, ← v64_at x1 hE q]
  congr 1
  exact idx1_ext _ _ rfl

theorem v74_at (hE : EdgesInRange x1) (q : Fin 1700000) (d : Fin 64) :
    val_main_v74 (F := Ideal) x0 x1 x4 x5 x6 (ValueIdx.ix2 q d)
      = val_main_v49 (F := Ideal) x0 x1 x4 x5 x6 (ValueIdx.ix2 (nodeOf (srcR x1 q)) d) * norm x1 q := by
  rw [val_main_v74_apply, v71_at x0 x1 x4 x5 x6 hE q d, v73_at x1 hE q d, mulf_eq]

theorem v76_at (q : Fin 1700000) : val_main_v76 (F := Ideal) x1 (ValueIdx.ix2 q 0) = dstR x1 q := by
  rw [val_main_v76_apply, ← v6_at x1 q]
  congr 1
  exact idx1_ext _ _ rfl

theorem v79_at (n : Fin 100000) (d : Fin 64) : val_main_v79 (F := Ideal) x7 (ValueIdx.ix2 n d) = x7 (ValueIdx.ix1 d) := by
  rw [val_main_v79_apply, val_main_v78_apply]
  congr 1
  exact idx1_ext _ _ rfl

/-- Layer 2's pre-activation, read at node `n`, channel `d`. -/
theorem v80_at (hE : EdgesInRange x1) (n : Fin 100000) (d : Fin 64) :
    val_main_v80 (F := Ideal) x0 x1 x4 x5 x6 x7 (ValueIdx.ix2 n d)
      = agg (D := 64) x1 (val_main_v49 (F := Ideal) x0 x1 x4 x5 x6) x7 n d := by
  rw [val_main_v80_apply, addf_eq, v79_at]
  unfold val_main_v77 agg
  rw [scatter_l2_apply, val_main_v75_apply, val_main_cst_16_apply, ofBits_zero]
  refine congrArg (fun s : EReal => (0 + s) + x7 (ValueIdx.ix1 d)) (Finset.sum_congr rfl fun q _ => ?_)
  rw [v76_at, v74_at x0 x1 x4 x5 x6 hE q d]

theorem v104_at (hE : EdgesInRange x1) (q : Fin 1700000) (d : Fin 32) :
    val_main_v104 (F := Ideal) x0 x1 x4 x5 x6 x7 x8 (ValueIdx.ix2 q d)
      = val_main_v82 (F := Ideal) x0 x1 x4 x5 x6 x7 x8 (ValueIdx.ix2 (nodeOf (srcR x1 q)) d) := by
  unfold val_main_v104
  rw [gather_l3_nodeOf]
  rw [v103_at x1 hE q]

theorem v106_at (hE : EdgesInRange x1) (q : Fin 1700000) (d : Fin 32) :
    val_main_v106 (F := Ideal) x1 (ValueIdx.ix2 q d) = norm x1 q := by
  rw [val_main_v106_apply, val_main_v105_apply, ← v97_at x1 hE q]
  congr 1
  exact idx1_ext _ _ rfl

theorem v107_at (hE : EdgesInRange x1) (q : Fin 1700000) (d : Fin 32) :
    val_main_v107 (F := Ideal) x0 x1 x4 x5 x6 x7 x8 (ValueIdx.ix2 q d)
      = val_main_v82 (F := Ideal) x0 x1 x4 x5 x6 x7 x8 (ValueIdx.ix2 (nodeOf (srcR x1 q)) d) * norm x1 q := by
  rw [val_main_v107_apply, v104_at x0 x1 x4 x5 x6 x7 x8 hE q d, v106_at x1 hE q d, mulf_eq]

theorem v109_at (q : Fin 1700000) : val_main_v109 (F := Ideal) x1 (ValueIdx.ix2 q 0) = dstR x1 q := by
  rw [val_main_v109_apply, ← v6_at x1 q]
  congr 1
  exact idx1_ext _ _ rfl

theorem v112_at (n : Fin 100000) (d : Fin 32) : val_main_v112 (F := Ideal) x9 (ValueIdx.ix2 n d) = x9 (ValueIdx.ix1 d) := by
  rw [val_main_v112_apply, val_main_v111_apply]
  congr 1
  exact idx1_ext _ _ rfl

/-- Layer 3's pre-activation, read at node `n`, channel `d`. -/
theorem v113_at (hE : EdgesInRange x1) (n : Fin 100000) (d : Fin 32) :
    val_main_v113 (F := Ideal) x0 x1 x4 x5 x6 x7 x8 x9 (ValueIdx.ix2 n d)
      = agg (D := 32) x1 (val_main_v82 (F := Ideal) x0 x1 x4 x5 x6 x7 x8) x9 n d := by
  rw [val_main_v113_apply, addf_eq, v112_at]
  unfold val_main_v110 agg
  rw [scatter_l3_apply, val_main_v108_apply, val_main_cst_23_apply, ofBits_zero]
  refine congrArg (fun s : EReal => (0 + s) + x9 (ValueIdx.ix1 d)) (Finset.sum_congr rfl fun q _ => ?_)
  rw [v109_at, v107_at x0 x1 x4 x5 x6 x7 x8 hE q d]

/-! ## The layers' inputs: the products `h · W`, and the rectifier between layers -/

/-- Layer 1's `x · W1`, read at node `n`, channel `d`. -/
theorem v16_at (n : Fin 100000) (d : Fin 16) :
    val_main_v16 (F := Ideal) x0 x4 (ValueIdx.ix2 n d) = ∑ k : Fin 128, x0 (ValueIdx.ix2 n k) * x4 (ValueIdx.ix2 k d) := by
  rw [val_main_v16_apply]
  refine Finset.sum_congr rfl fun k _ => ?_
  congr 2
  · exact idx2_ext _ _ rfl rfl
  · exact idx2_ext _ _ rfl rfl

/-- Layer 1's output, rectified. -/
theorem v48_at (hE : EdgesInRange x1) (n : Fin 100000) (d : Fin 16) :
    val_main_v48 (F := Ideal) x0 x1 x4 x5 (ValueIdx.ix2 n d)
      = max (agg (D := 16) x1 (val_main_v16 (F := Ideal) x0 x4) x5 n d) 0 := by
  rw [val_main_v48_apply, maximumf_eq, v47_at x0 x1 x4 x5 hE n d, val_main_call1_v0_apply, val_main_call1_cst_apply,
    ofBits_zero]

/-- Layer 2's `h1 · W2`, read at node `n`, channel `d`. -/
theorem v49_at (hE : EdgesInRange x1) (n : Fin 100000) (d : Fin 64) :
    val_main_v49 (F := Ideal) x0 x1 x4 x5 x6 (ValueIdx.ix2 n d)
      = ∑ k : Fin 16, max (agg (D := 16) x1 (val_main_v16 (F := Ideal) x0 x4) x5 n k) 0 * x6 (ValueIdx.ix2 k d) := by
  rw [val_main_v49_apply]
  refine Finset.sum_congr rfl fun k _ => ?_
  rw [← v48_at x0 x1 x4 x5 hE n k]
  congr 2
  · exact idx2_ext _ _ rfl rfl
  · exact idx2_ext _ _ rfl rfl

/-- Layer 2's output, rectified. -/
theorem v81_at (hE : EdgesInRange x1) (n : Fin 100000) (d : Fin 64) :
    val_main_v81 (F := Ideal) x0 x1 x4 x5 x6 x7 (ValueIdx.ix2 n d)
      = max (agg (D := 64) x1 (val_main_v49 (F := Ideal) x0 x1 x4 x5 x6) x7 n d) 0 := by
  rw [val_main_v81_apply, maximumf_eq, v80_at x0 x1 x4 x5 x6 x7 hE n d, val_main_call2_v0_apply, val_main_call2_cst_apply,
    ofBits_zero]

/-- Layer 3's `h2 · W3`, read at node `n`, channel `d`. -/
theorem v82_at (hE : EdgesInRange x1) (n : Fin 100000) (d : Fin 32) :
    val_main_v82 (F := Ideal) x0 x1 x4 x5 x6 x7 x8 (ValueIdx.ix2 n d)
      = ∑ k : Fin 64, max (agg (D := 64) x1 (val_main_v49 (F := Ideal) x0 x1 x4 x5 x6) x7 n k) 0 * x8 (ValueIdx.ix2 k d) := by
  rw [val_main_v82_apply]
  refine Finset.sum_congr rfl fun k _ => ?_
  rw [← v81_at x0 x1 x4 x5 x6 x7 hE n k]
  congr 2
  · exact idx2_ext _ _ rfl rfl
  · exact idx2_ext _ _ rfl rfl

/-! ## The mean pool -/

/-- The pool's per-graph sums of `h3` under the graph assignment `batch` (a node whose graph id is outside `[0, 64)`
    belongs to no graph). -/
def poolSum (batch : IVec S100000 32) (h3 : FVec Ideal S100000x32 .f32) (g : Fin 64) (d : Fin 32) : EReal :=
  0 + ∑ i : Fin 100000, if (batch (ValueIdx.ix1 i)).toInt = (g.val : Int) then h3 (ValueIdx.ix2 i d) else 0

/-- The pool's per-graph node counts. -/
def poolCnt (batch : IVec S100000 32) (g : Fin 64) : EReal :=
  0 + ∑ i : Fin 100000, if (batch (ValueIdx.ix1 i)).toInt = (g.val : Int) then (1 : EReal) else 0

/-- The per-graph mean: the sums over the counts, a count below one replaced by one. -/
def molOf (batch : IVec S100000 32) (h3 : FVec Ideal S100000x32 .f32) : FVec Ideal S64x32 .f32 :=
  fun j => Ideal.div (poolSum batch h3 (j 0) (j 1)) (max (poolCnt batch (j 0)) 1)

theorem v115_at (i : Fin 100000) : val_main_v115 (F := Ideal) x2 (ValueIdx.ix2 i 0) = x2 (ValueIdx.ix1 i) := by
  rw [val_main_v115_apply]
  congr 1
  exact idx1_ext _ _ rfl

theorem v119_at (i : Fin 100000) : val_main_v119 (F := Ideal) x2 (ValueIdx.ix2 i 0) = x2 (ValueIdx.ix1 i) := by
  rw [val_main_v119_apply]
  congr 1
  exact idx1_ext _ _ rfl

theorem v116_at (g : Fin 64) (d : Fin 32) :
    val_main_v116 (F := Ideal) x0 x1 x2 x4 x5 x6 x7 x8 x9 (ValueIdx.ix2 g d)
      = poolSum x2 (val_main_v113 (F := Ideal) x0 x1 x4 x5 x6 x7 x8 x9) g d := by
  unfold val_main_v116 poolSum
  rw [scatter_pool_apply, val_main_v114_apply, val_main_cst_24_apply, ofBits_zero]
  refine congrArg (fun s : EReal => 0 + s) (Finset.sum_congr rfl fun i _ => ?_)
  rw [v115_at]

theorem v120_at (g : Fin 64) : val_main_v120 (F := Ideal) x2 (ValueIdx.ix1 g) = poolCnt x2 g := by
  unfold val_main_v120 poolCnt
  rw [scatter_cnt_apply, val_main_v118_apply, val_main_cst_26_apply, ofBits_zero]
  refine congrArg (fun s : EReal => 0 + s) (Finset.sum_congr rfl fun i _ => ?_)
  rw [v119_at, val_main_v117_apply, val_main_cst_25_apply, ofBits_one]

theorem v124_at (g : Fin 64) (d : Fin 32) : val_main_v124 (F := Ideal) x2 (ValueIdx.ix2 g d) = max (poolCnt x2 g) 1 := by
  rw [val_main_v124_apply, val_main_v123_apply, val_main_v122_apply, maximumf_eq, val_main_v121_apply,
    val_main_cst_27_apply, ofBits_one, ← v120_at x2 g]
  congr 2
  exact idx1_ext _ _ rfl

/-- The reference's pooled means. -/
theorem v125_eq :
    val_main_v125 (F := Ideal) x0 x1 x2 x4 x5 x6 x7 x8 x9 = molOf x2 (val_main_v113 (F := Ideal) x0 x1 x4 x5 x6 x7 x8 x9) := by
  funext j
  obtain ⟨g, d, rfl⟩ : ∃ g d, j = ValueIdx.ix2 g d := ⟨j 0, j 1, ValueIdx.eq_ix2 j⟩
  rw [val_main_v125_apply, hostDivf_eq, v116_at, v124_at]
  rfl

/-! ## The head -/

/-- The reference's last fifteen operations as ONE function of the pooled means and the head's parameters. -/
def tailFromMol {F : FTy → Type} [FloatOps F] (mol : FVec F S64x32 .f32) (Wp1 : FVec F S32x64 .f32) (bp1 : FVec F S64 .f32)
    (action : FVec F S64x4 .f32) (Wp2 : FVec F S68x10 .f32) (bp2 : FVec F S10 .f32) (Wp3 : FVec F S10x1 .f32)
    (bp3 : FVec F S1 .f32) : FVec F S64x1 .f32 :=
  addf
    (Host.dotGeneral dot_S64x10_S10x1_S64x1_1_0_0_1_n_n none
      (maximumf
        (addf
          (Host.dotGeneral dot_S64x68_S68x10_S64x10_1_0_0_1_n_n none
            (concatenate S64x68 1
              [⟨S64x64,
                  maximumf
                    (addf (Host.dotGeneral dot_S64x32_S32x64_S64x64_1_0_0_1_n_n none mol Wp1)
                      (broadcastInDim S64x64 ![0, 1] bcast_S1x64_S64x64_0_1 (broadcastInDim S1x64 ![1] bcast_S64_S1x64_1 bp1)))
                    (broadcastInDim S64x64 ![] bcast_S_S64x64 (constant S_ .f32 0x00000000#32))⟩,
                ⟨S64x4, action⟩]
              concatenates_S64x64_S64x4_S64x68_d1)
            Wp2)
          (broadcastInDim S64x10 ![0, 1] bcast_S1x10_S64x10_0_1 (broadcastInDim S1x10 ![1] bcast_S10_S1x10_1 bp2)))
        (broadcastInDim S64x10 ![] bcast_S_S64x10 (constant S_ .f32 0x00000000#32)))
      Wp3)
    (broadcastInDim S64x1 ![0, 1] bcast_S1x1_S64x1_0_1 (broadcastInDim S1x1 ![1] bcast_S1_S1x1_1 bp3))

/-- The reference's result is the head applied to its pooled means. -/
theorem v140_eq_tail :
    val_main_v140 (F := Ideal) x0 x1 x2 x3 x4 x5 x6 x7 x8 x9 x10 x11 x12 x13 x14 x15
      = tailFromMol (F := Ideal) (val_main_v125 (F := Ideal) x0 x1 x2 x4 x5 x6 x7 x8 x9) x10 x11 x3 x12 x13 x14 x15 := rfl

/-- THE REFERENCE'S RESULT on an edge list of nodes: the head applied to the mean pool of layer 3's pre-activation. -/
theorem v140_closed (hE : EdgesInRange x1) :
    val_main_v140 (F := Ideal) x0 x1 x2 x3 x4 x5 x6 x7 x8 x9 x10 x11 x12 x13 x14 x15
      = tailFromMol (F := Ideal)
          (molOf x2 (fun j => agg (D := 32) x1 (val_main_v82 (F := Ideal) x0 x1 x4 x5 x6 x7 x8) x9 (j 0) (j 1)))
          x10 x11 x3 x12 x13 x14 x15 := by
  have h : val_main_v113 (F := Ideal) x0 x1 x4 x5 x6 x7 x8 x9
      = fun j => agg (D := 32) x1 (val_main_v82 (F := Ideal) x0 x1 x4 x5 x6 x7 x8) x9 (j 0) (j 1) := by
    funext j
    obtain ⟨n, d, rfl⟩ : ∃ n d, j = ValueIdx.ix2 n d := ⟨j 0, j 1, ValueIdx.eq_ix2 j⟩
    exact v113_at x0 x1 x4 x5 x6 x7 x8 x9 hE n d
  rw [v140_eq_tail, v125_eq, h]

end

end Cert.ReferenceIdeal.RR

end
-- ==== Proof.RefReadsE.lean ====
import proofs.«417346_j54202487276072_2_alg».proof.Proof.RefReadsD

/-!
The reference's stages with the messages' endpoints as nodes: the arrival test "the destination node is `n`", the
gathered row at the source node, and each layer's output in one bracketing, `(0 + Σ) + bias`.
-/

noncomputable section

open scoped BigOperators

namespace Cert.ReferenceIdeal.RR

open Cert.ReferenceIdeal Cert.ReferenceIdeal.Gen Cert.ReferenceIdeal.ReadP Idealize.ShloMosaic Idealize.ShloMosaic.ValueIdx

/-! ## Endpoints as nodes -/

/-- The source node of message `q`. -/
def srcN (ei : IVec S2x1600000 32) (q : Fin 1700000) : Fin 100000 := nodeOf (srcR ei q)
/-- The destination node of message `q`. -/
def dstN (ei : IVec S2x1600000 32) (q : Fin 1700000) : Fin 100000 := nodeOf (dstR ei q)

/-- On an edge list of nodes, "message `q`'s scatter index is `n`" is "its destination node is `n`". -/
theorem dst_test {ei : IVec S2x1600000 32} (hE : EdgesInRange ei) (q : Fin 1700000) (n : Fin 100000) :
    (dstR ei q).toInt = (n.val : Int) ↔ dstN ei q = n :=
  toInt_eq_iff_nodeOf (dstR_range hE q).1 (dstR_range hE q).2 n

/-- A word that reads signed as a natural number below `2 ^ 31` reads unsigned as the same number. -/
theorem toNat_of_nonneg (v : BitVec 32) (h0 : 0 ≤ v.toInt) : v.toInt.toNat = v.toNat := by
  have hlt := v.isLt
  rw [BitVec.toInt_eq_toNat_cond] at h0 ⊢
  split at h0 <;> split <;> omega

/-- A self loop's source is its node. -/
theorem srcN_loop (ei : IVec S2x1600000 32) (i : Fin 100000) : srcN ei (Fin.natAdd 1600000 i) = i := by
  have hi := i.isLt
  have h := srcR_loop ei i
  have hv := nodeOf_val (v := srcR ei ⟨1600000 + i.val, by omega⟩) (by omega) (by omega)
  apply Fin.ext
  show (nodeOf (srcR ei ⟨1600000 + i.val, _⟩)).val = i.val
  omega

/-- A self loop's destination is its node. -/
theorem dstN_loop (ei : IVec S2x1600000 32) (i : Fin 100000) : dstN ei (Fin.natAdd 1600000 i) = i := by
  have hi := i.isLt
  have h := dstR_loop ei i
  have hv := nodeOf_val (v := dstR ei ⟨1600000 + i.val, by omega⟩) (by omega) (by omega)
  apply Fin.ext
  show (nodeOf (dstR ei ⟨1600000 + i.val, _⟩)).val = i.val
  omega

/-- An edge's source is row 0 of the edge list, read unsigned. -/
theorem srcN_edge {ei : IVec S2x1600000 32} (hE : EdgesInRange ei) (e : Fin 1600000) :
    (srcN ei (Fin.castAdd 100000 e)).val = (ei (ValueIdx.ix2 0 e)).toNat := by
  have he := e.isLt
  have hr := hE 0 e
  have hs : srcR ei (Fin.castAdd 100000 e) = ei (ValueIdx.ix2 0 e) := by
    unfold srcR
    rw [dif_pos (show (Fin.castAdd 100000 e).val < 1600000 from he)]
    rfl
  have hv := nodeOf_val (v := ei (ValueIdx.ix2 0 e)) hr.1 hr.2
  have ht := toNat_of_nonneg (ei (ValueIdx.ix2 0 e)) hr.1
  show (nodeOf (srcR ei (Fin.castAdd 100000 e))).val = _
  rw [hs]
  omega

/-- An edge's destination is row 1 of the edge list, read unsigned. -/
theorem dstN_edge {ei : IVec S2x1600000 32} (hE : EdgesInRange ei) (e : Fin 1600000) :
    (dstN ei (Fin.castAdd 100000 e)).val = (ei (ValueIdx.ix2 1 e)).toNat := by
  have he := e.isLt
  have hr := hE 1 e
  have hs : dstR ei (Fin.castAdd 100000 e) = ei (ValueIdx.ix2 1 e) := by
    unfold dstR
    rw [dif_pos (show (Fin.castAdd 100000 e).val < 1600000 from he)]
    rfl
  have hv := nodeOf_val (v := ei (ValueIdx.ix2 1 e)) hr.1 hr.2
  have ht := toNat_of_nonneg (ei (ValueIdx.ix2 1 e)) hr.1
  show (nodeOf (dstR ei (Fin.castAdd 100000 e))).val = _
  rw [hs]
  omega

/-- The aggregation with the arrival test on nodes and the norm given as any function equal to it. -/
theorem agg_eq_nodes {D : Nat} {ei : IVec S2x1600000 32} (hE : EdgesInRange ei) (hw : FVec Ideal ⟨2, ![100000, D]⟩ .f32)
    (b : FVec Ideal ⟨1, ![D]⟩ .f32) (nrm : Fin 1700000 → EReal) (hn : ∀ q, nrm q = norm ei q) (n : Fin 100000) (d : Fin D) :
    agg ei hw b n d
      = (0 + ∑ q : Fin 1700000, if dstN ei q = n then hw (ValueIdx.ix2 (srcN ei q) d) * nrm q else 0)
        + b (ValueIdx.ix1 d) := by
  unfold agg
  refine congrArg (fun s : EReal => (0 + s) + b (ValueIdx.ix1 d)) (Finset.sum_congr rfl fun q _ => ?_)
  rw [hn q]
  exact if_congr (dst_test hE q n) rfl rfl

section
variable (x0 : (⟨S100000x128, .f32⟩ : BufTy).Contents (Elt Ideal)) (x1 : (⟨S2x1600000, .i32⟩ : BufTy).Contents (Elt Ideal)) (x2 : (⟨S100000, .i32⟩ : BufTy).Contents (Elt Ideal))
  (x3 : (⟨S64x4, .f32⟩ : BufTy).Contents (Elt Ideal)) (x4 : (⟨S128x16, .f32⟩ : BufTy).Contents (Elt Ideal)) (x5 : (⟨S16, .f32⟩ : BufTy).Contents (Elt Ideal)) (x6 : (⟨S16x64, .f32⟩ : BufTy).Contents (Elt Ideal))
  (x7 : (⟨S64, .f32⟩ : BufTy).Contents (Elt Ideal)) (x8 : (⟨S64x32, .f32⟩ : BufTy).Contents (Elt Ideal)) (x9 : (⟨S32, .f32⟩ : BufTy).Contents (Elt Ideal)) (x10 : (⟨S32x64, .f32⟩ : BufTy).Contents (Elt Ideal))
  (x11 : (⟨S64, .f32⟩ : BufTy).Contents (Elt Ideal)) (x12 : (⟨S68x10, .f32⟩ : BufTy).Contents (Elt Ideal)) (x13 : (⟨S10, .f32⟩ : BufTy).Contents (Elt Ideal)) (x14 : (⟨S10x1, .f32⟩ : BufTy).Contents (Elt Ideal))
  (x15 : (⟨S1, .f32⟩ : BufTy).Contents (Elt Ideal))

/-! ## The reference's stages in the shapes the layer identity consumes -/

/-- The degree. -/
theorem deg_read (hE : EdgesInRange x1) (i : Fin 100000) :
    val_main_v10 (F := Ideal) x1 (ValueIdx.ix1 i) = 0 + ∑ q : Fin 1700000, if dstN x1 q = i then (1 : EReal) else 0 := by
  rw [v10_at]
  unfold deg
  exact congrArg (fun s : EReal => 0 + s) (Finset.sum_congr rfl fun q _ => if_congr (dst_test hE q i) rfl rfl)

/-- The degree is at least one. -/
theorem one_le_deg_read (i : Fin 100000) : 1 ≤ val_main_v10 (F := Ideal) x1 (ValueIdx.ix1 i) := by
  rw [v10_at]; exact one_le_deg x1 i

/-- The inverse square root of the degree is the ideal power (the guard "degree > 0" always holds). -/
theorem dinv_read (i : Fin 100000) :
    val_main_v15 (F := Ideal) x1 (ValueIdx.ix1 i)
      = Ideal.pow (val_main_v10 (F := Ideal) x1 (ValueIdx.ix1 i)) (Ideal.ofBits .f32 0xBF000000#32) := by
  rw [v15_at, v10_at]; rfl

/-- The three layers' norms. -/
theorem nrm1_read (hE : EdgesInRange x1) (q : Fin 1700000) :
    val_main_v31 (F := Ideal) x1 (ValueIdx.ix1 q)
      = val_main_v15 (F := Ideal) x1 (ValueIdx.ix1 (srcN x1 q)) * val_main_v15 (F := Ideal) x1 (ValueIdx.ix1 (dstN x1 q)) := by
  rw [v31_at x1 hE q, v15_at, v15_at]; rfl
theorem nrm2_read (hE : EdgesInRange x1) (q : Fin 1700000) :
    val_main_v64 (F := Ideal) x1 (ValueIdx.ix1 q)
      = val_main_v15 (F := Ideal) x1 (ValueIdx.ix1 (srcN x1 q)) * val_main_v15 (F := Ideal) x1 (ValueIdx.ix1 (dstN x1 q)) := by
  rw [v64_at x1 hE q, v15_at, v15_at]; rfl
theorem nrm3_read (hE : EdgesInRange x1) (q : Fin 1700000) :
    val_main_v97 (F := Ideal) x1 (ValueIdx.ix1 q)
      = val_main_v15 (F := Ideal) x1 (ValueIdx.ix1 (srcN x1 q)) * val_main_v15 (F := Ideal) x1 (ValueIdx.ix1 (dstN x1 q)) := by
  rw [v97_at x1 hE q, v15_at, v15_at]; rfl
/-- The three norms are one function. -/
theorem nrm2_eq_nrm1 (hE : EdgesInRange x1) (q : Fin 1700000) :
    val_main_v64 (F := Ideal) x1 (ValueIdx.ix1 q) = val_main_v31 (F := Ideal) x1 (ValueIdx.ix1 q) := by
  rw [v64_at x1 hE q, v31_at x1 hE q]
theorem nrm3_eq_nrm1 (hE : EdgesInRange x1) (q : Fin 1700000) :
    val_main_v97 (F := Ideal) x1 (ValueIdx.ix1 q) = val_main_v31 (F := Ideal) x1 (ValueIdx.ix1 q) := by
  rw [v97_at x1 hE q, v31_at x1 hE q]

/-- The products `h · W` over the previous layer's stage. -/
theorem hw2_read (n : Fin 100000) (d : Fin 64) :
    val_main_v49 (F := Ideal) x0 x1 x4 x5 x6 (ValueIdx.ix2 n d)
      = ∑ k : Fin 16, val_main_v48 (F := Ideal) x0 x1 x4 x5 (ValueIdx.ix2 n k) * x6 (ValueIdx.ix2 k d) := by
  rw [val_main_v49_apply]
  refine Finset.sum_congr rfl fun k _ => ?_
  congr 2
  · exact idx2_ext _ _ rfl rfl
  · exact idx2_ext _ _ rfl rfl
theorem hw3_read (n : Fin 100000) (d : Fin 32) :
    val_main_v82 (F := Ideal) x0 x1 x4 x5 x6 x7 x8 (ValueIdx.ix2 n d)
      = ∑ k : Fin 64, val_main_v81 (F := Ideal) x0 x1 x4 x5 x6 x7 (ValueIdx.ix2 n k) * x8 (ValueIdx.ix2 k d) := by
  rw [val_main_v82_apply]
  refine Finset.sum_congr rfl fun k _ => ?_
  congr 2
  · exact idx2_ext _ _ rfl rfl
  · exact idx2_ext _ _ rfl rfl

/-- Layer 1's rectified output. -/
theorem act1_read (hE : EdgesInRange x1) (n : Fin 100000) (d : Fin 16) :
    val_main_v48 (F := Ideal) x0 x1 x4 x5 (ValueIdx.ix2 n d)
      = max ((0 + ∑ q : Fin 1700000, if dstN x1 q = n
              then val_main_v16 (F := Ideal) x0 x4 (ValueIdx.ix2 (srcN x1 q) d) * val_main_v31 (F := Ideal) x1 (ValueIdx.ix1 q) else 0)
            + x5 (ValueIdx.ix1 d)) 0 := by
  rw [v48_at x0 x1 x4 x5 hE n d,
    agg_eq_nodes hE _ _ (fun q => val_main_v31 (F := Ideal) x1 (ValueIdx.ix1 q)) (fun q => v31_at x1 hE q) n d]

/-- Layer 2's rectified output. -/
theorem act2_read (hE : EdgesInRange x1) (n : Fin 100000) (d : Fin 64) :
    val_main_v81 (F := Ideal) x0 x1 x4 x5 x6 x7 (ValueIdx.ix2 n d)
      = max ((0 + ∑ q : Fin 1700000, if dstN x1 q = n
              then val_main_v49 (F := Ideal) x0 x1 x4 x5 x6 (ValueIdx.ix2 (srcN x1 q) d) * val_main_v64 (F := Ideal) x1 (ValueIdx.ix1 q) else 0)
            + x7 (ValueIdx.ix1 d)) 0 := by
  rw [v81_at x0 x1 x4 x5 x6 x7 hE n d,
    agg_eq_nodes hE _ _ (fun q => val_main_v64 (F := Ideal) x1 (ValueIdx.ix1 q)) (fun q => v64_at x1 hE q) n d]

/-- Layer 3's output (no rectifier). -/
theorem pre3_read (hE : EdgesInRange x1) (n : Fin 100000) (d : Fin 32) :
    val_main_v113 (F := Ideal) x0 x1 x4 x5 x6 x7 x8 x9 (ValueIdx.ix2 n d)
      = (0 + ∑ q : Fin 1700000, if dstN x1 q = n
              then val_main_v82 (F := Ideal) x0 x1 x4 x5 x6 x7 x8 (ValueIdx.ix2 (srcN x1 q) d) * val_main_v97 (F := Ideal) x1 (ValueIdx.ix1 q) else 0)
            + x9 (ValueIdx.ix1 d) := by
  rw [v113_at x0 x1 x4 x5 x6 x7 x8 x9 hE n d,
    agg_eq_nodes hE _ _ (fun q => val_main_v97 (F := Ideal) x1 (ValueIdx.ix1 q)) (fun q => v97_at x1 hE q) n d]

/-- The pool's sums and counts. -/
theorem poolSum_read (g : Fin 64) (d : Fin 32) :
    val_main_v116 (F := Ideal) x0 x1 x2 x4 x5 x6 x7 x8 x9 (ValueIdx.ix2 g d)
      = 0 + ∑ i : Fin 100000, if (x2 (ValueIdx.ix1 i)).toInt = (g.val : Int)
          then val_main_v113 (F := Ideal) x0 x1 x4 x5 x6 x7 x8 x9 (ValueIdx.ix2 i d) else 0 :=
  v116_at x0 x1 x2 x4 x5 x6 x7 x8 x9 g d
theorem poolCnt_read (g : Fin 64) :
    val_main_v120 (F := Ideal) x2 (ValueIdx.ix1 g)
      = 0 + ∑ i : Fin 100000, if (x2 (ValueIdx.ix1 i)).toInt = (g.val : Int) then (1 : EReal) else 0 :=
  v120_at x2 g
/-- The pooled mean. -/
theorem mol_read (g : Fin 64) (d : Fin 32) :
    val_main_v125 (F := Ideal) x0 x1 x2 x4 x5 x6 x7 x8 x9 (ValueIdx.ix2 g d)
      = Ideal.div (val_main_v116 (F := Ideal) x0 x1 x2 x4 x5 x6 x7 x8 x9 (ValueIdx.ix2 g d))
          (max (val_main_v120 (F := Ideal) x2 (ValueIdx.ix1 g)) 1) := by
  rw [val_main_v125_apply, hostDivf_eq, v124_at, v120_at]

end

end Cert.ReferenceIdeal.RR

end
-- ==== Proof.ComposeRef.lean ====
import proofs.«417346_j54202487276072_2_alg».proof.Proof.RefReadsE

/-!
The reference side of the comparison, as functions on `Fin`: the message list's endpoints and norms, the three
layers' inputs, products and outputs in the shape the layer step consumes, the mean pool with its membership test
as word equality, and the result as the head applied to the pooled means.
-/

noncomputable section

open scoped BigOperators

namespace Cert.Proof.C

open Cert.ReferenceIdeal Cert.ReferenceIdeal.Gen Cert.ReferenceIdeal.ReadP Cert.ReferenceIdeal.RR Idealize.ShloMosaic

/-- A word reads signed as the graph number `g` exactly when it is the word of `g`. -/
theorem toInt_eq_iff_word (w : BitVec 32) (g : Nat) (hg : g < 100000) : w.toInt = (g : Int) ↔ w = BitVec.ofNat 32 g := by
  constructor
  · intro h
    apply BitVec.eq_of_toInt_eq
    rw [h, RR.toInt_ofNat_node g hg]
  · intro h
    rw [h]
    exact RR.toInt_ofNat_node g hg

section
variable (x0 : (⟨S100000x128, .f32⟩ : BufTy).Contents (Elt Ideal)) (x1 : (⟨S2x1600000, .i32⟩ : BufTy).Contents (Elt Ideal)) (x2 : (⟨S100000, .i32⟩ : BufTy).Contents (Elt Ideal))
  (x3 : (⟨S64x4, .f32⟩ : BufTy).Contents (Elt Ideal)) (x4 : (⟨S128x16, .f32⟩ : BufTy).Contents (Elt Ideal)) (x5 : (⟨S16, .f32⟩ : BufTy).Contents (Elt Ideal)) (x6 : (⟨S16x64, .f32⟩ : BufTy).Contents (Elt Ideal))
  (x7 : (⟨S64, .f32⟩ : BufTy).Contents (Elt Ideal)) (x8 : (⟨S64x32, .f32⟩ : BufTy).Contents (Elt Ideal)) (x9 : (⟨S32, .f32⟩ : BufTy).Contents (Elt Ideal)) (x10 : (⟨S32x64, .f32⟩ : BufTy).Contents (Elt Ideal))
  (x11 : (⟨S64, .f32⟩ : BufTy).Contents (Elt Ideal)) (x12 : (⟨S68x10, .f32⟩ : BufTy).Contents (Elt Ideal)) (x13 : (⟨S10, .f32⟩ : BufTy).Contents (Elt Ideal)) (x14 : (⟨S10x1, .f32⟩ : BufTy).Contents (Elt Ideal))
  (x15 : (⟨S1, .f32⟩ : BufTy).Contents (Elt Ideal))

/-! ## The reference's message list, norms and inverse square-root degrees as functions on `Fin` -/

/-- The source node of message `q` (the edges, then one self loop per node). -/
def refSrc : Fin (1600000 + 100000) → Fin 100000 := RR.srcN x1
/-- The destination node of message `q`. -/
def refDst : Fin (1600000 + 100000) → Fin 100000 := RR.dstN x1
/-- The norm of message `q`. -/
def refNrm (q : Fin (1600000 + 100000)) : EReal := val_main_v31 (F := Ideal) x1 (ValueIdx.ix1 q)
/-- The inverse square root of node `i`'s degree. -/
def refDinv (i : Fin 100000) : EReal := val_main_v15 (F := Ideal) x1 (ValueIdx.ix1 i)
/-- The norm of node `i`'s self loop. -/
def refSn (i : Fin 100000) : EReal := refDinv x1 i * refDinv x1 i

theorem ref_hsrcL : ∀ i : Fin 100000, refSrc x1 (Fin.natAdd 1600000 i) = i := fun i => RR.srcN_loop x1 i
theorem ref_hdstL : ∀ i : Fin 100000, refDst x1 (Fin.natAdd 1600000 i) = i := fun i => RR.dstN_loop x1 i

theorem ref_src_edge (hE : EdgesInRange x1) (e : Fin 1600000) :
    (refSrc x1 (Fin.castAdd 100000 e)).val = (x1 (ValueIdx.ix2 0 e) : BitVec 32).toNat := RR.srcN_edge hE e
theorem ref_dst_edge (hE : EdgesInRange x1) (e : Fin 1600000) :
    (refDst x1 (Fin.castAdd 100000 e)).val = (x1 (ValueIdx.ix2 1 e) : BitVec 32).toNat := RR.dstN_edge hE e

/-- The sources are any list of the edges' row-0 words followed by the nodes themselves. -/
theorem ref_src_addCases (hE : EdgesInRange x1) (src : Fin 1600000 → Fin 100000)
    (hs : ∀ e, (src e).val = (x1 (ValueIdx.ix2 0 e) : BitVec 32).toNat) :
    ∀ q : Fin (1600000 + 100000), refSrc x1 q = Fin.addCases src id q := by
  intro q
  induction q using Fin.addCases with
  | left e => rw [Fin.addCases_left]; exact Fin.ext ((ref_src_edge x1 hE e).trans (hs e).symm)
  | right i => rw [Fin.addCases_right]; exact ref_hsrcL x1 i

/-- The destinations are any list of the edges' row-1 words followed by the nodes themselves. -/
theorem ref_dst_addCases (hE : EdgesInRange x1) (dst : Fin 1600000 → Fin 100000)
    (hd : ∀ e, (dst e).val = (x1 (ValueIdx.ix2 1 e) : BitVec 32).toNat) :
    ∀ q : Fin (1600000 + 100000), refDst x1 q = Fin.addCases dst id q := by
  intro q
  induction q using Fin.addCases with
  | left e => rw [Fin.addCases_left]; exact Fin.ext ((ref_dst_edge x1 hE e).trans (hd e).symm)
  | right i => rw [Fin.addCases_right]; exact ref_hdstL x1 i

/-- The degree: the messages that arrive. -/
theorem ref_deg (hE : EdgesInRange x1) : ∀ i : Fin 100000,
    val_main_v10 (F := Ideal) x1 (ValueIdx.ix1 i)
      = 0 + ∑ q : Fin (1600000 + 100000), if refDst x1 q = i then (1 : EReal) else 0 :=
  fun i => RR.deg_read x1 hE i

theorem ref_one_le_deg : ∀ i : Fin 100000, 1 ≤ val_main_v10 (F := Ideal) x1 (ValueIdx.ix1 i) := fun i => RR.one_le_deg_read x1 i

/-- The inverse square root of the degree is the ideal power. -/
theorem ref_dinv : ∀ i : Fin 100000,
    refDinv x1 i = Ideal.pow (val_main_v10 (F := Ideal) x1 (ValueIdx.ix1 i)) (Ideal.ofBits .f32 0xBF000000#32) :=
  fun i => RR.dinv_read x1 i

/-- A message's norm is the product of the inverse square-root degrees at its two ends. -/
theorem ref_nrm (hE : EdgesInRange x1) : ∀ q : Fin (1600000 + 100000),
    refNrm x1 q = refDinv x1 (refSrc x1 q) * refDinv x1 (refDst x1 q) :=
  fun q => RR.nrm1_read x1 hE q

theorem ref_hnrmL (hE : EdgesInRange x1) : ∀ i : Fin 100000, refNrm x1 (Fin.natAdd 1600000 i) = refSn x1 i := by
  intro i
  rw [ref_nrm x1 hE, ref_hsrcL, ref_hdstL]
  rfl

/-! ## The three layers -/

def inR1 (n : Fin 100000) (k : Fin 128) : EReal := x0 (ValueIdx.ix2 n k)
def W1 (k : Fin 128) (d : Fin 16) : EReal := x4 (ValueIdx.ix2 k d)
def b1 (d : Fin 16) : EReal := x5 (ValueIdx.ix1 d)
def hwR1 (n : Fin 100000) (d : Fin 16) : EReal := val_main_v16 (F := Ideal) x0 x4 (ValueIdx.ix2 n d)
def outR1 (n : Fin 100000) (d : Fin 16) : EReal := val_main_v48 (F := Ideal) x0 x1 x4 x5 (ValueIdx.ix2 n d)

theorem ref_hhwR1 : ∀ n d, hwR1 x0 x4 n d = ∑ k : Fin 128, inR1 x0 n k * W1 x4 k d := fun n d => RR.v16_at x0 x4 n d

theorem ref_houtR1 (hE : EdgesInRange x1) : ∀ n d, outR1 x0 x1 x4 x5 n d
    = (fun t : EReal => max t 0)
        ((0 + ∑ q : Fin (1600000 + 100000),
            if refDst x1 q = n then hwR1 x0 x4 (refSrc x1 q) d * refNrm x1 q else 0) + b1 x5 d) :=
  fun n d => RR.act1_read x0 x1 x4 x5 hE n d

def W2 (k : Fin 16) (d : Fin 64) : EReal := x6 (ValueIdx.ix2 k d)
def b2 (d : Fin 64) : EReal := x7 (ValueIdx.ix1 d)
def hwR2 (n : Fin 100000) (d : Fin 64) : EReal := val_main_v49 (F := Ideal) x0 x1 x4 x5 x6 (ValueIdx.ix2 n d)
def outR2 (n : Fin 100000) (d : Fin 64) : EReal := val_main_v81 (F := Ideal) x0 x1 x4 x5 x6 x7 (ValueIdx.ix2 n d)

theorem ref_hhwR2 : ∀ n d, hwR2 x0 x1 x4 x5 x6 n d = ∑ k : Fin 16, outR1 x0 x1 x4 x5 n k * W2 x6 k d :=
  fun n d => RR.hw2_read x0 x1 x4 x5 x6 n d

theorem ref_houtR2 (hE : EdgesInRange x1) : ∀ n d, outR2 x0 x1 x4 x5 x6 x7 n d
    = (fun t : EReal => max t 0)
        ((0 + ∑ q : Fin (1600000 + 100000),
            if refDst x1 q = n then hwR2 x0 x1 x4 x5 x6 (refSrc x1 q) d * refNrm x1 q else 0) + b2 x7 d) := by
  intro n d
  unfold outR2
  rw [RR.v81_at x0 x1 x4 x5 x6 x7 hE n d,
    RR.agg_eq_nodes hE _ _ (fun q => val_main_v31 (F := Ideal) x1 (ValueIdx.ix1 q)) (fun q => RR.v31_at x1 hE q) n d]
  rfl

def W3 (k : Fin 64) (d : Fin 32) : EReal := x8 (ValueIdx.ix2 k d)
def b3 (d : Fin 32) : EReal := x9 (ValueIdx.ix1 d)
def hwR3 (n : Fin 100000) (d : Fin 32) : EReal := val_main_v82 (F := Ideal) x0 x1 x4 x5 x6 x7 x8 (ValueIdx.ix2 n d)
def outR3 (n : Fin 100000) (d : Fin 32) : EReal := val_main_v113 (F := Ideal) x0 x1 x4 x5 x6 x7 x8 x9 (ValueIdx.ix2 n d)

theorem ref_hhwR3 : ∀ n d, hwR3 x0 x1 x4 x5 x6 x7 x8 n d = ∑ k : Fin 64, outR2 x0 x1 x4 x5 x6 x7 n k * W3 x8 k d :=
  fun n d => RR.hw3_read x0 x1 x4 x5 x6 x7 x8 n d

theorem ref_houtR3 (hE : EdgesInRange x1) : ∀ n d, outR3 x0 x1 x4 x5 x6 x7 x8 x9 n d
    = (fun t : EReal => t)
        ((0 + ∑ q : Fin (1600000 + 100000),
            if refDst x1 q = n then hwR3 x0 x1 x4 x5 x6 x7 x8 (refSrc x1 q) d * refNrm x1 q else 0) + b3 x9 d) := by
  intro n d
  unfold outR3
  rw [RR.v113_at x0 x1 x4 x5 x6 x7 x8 x9 hE n d,
    RR.agg_eq_nodes hE _ _ (fun q => val_main_v31 (F := Ideal) x1 (ValueIdx.ix1 q)) (fun q => RR.v31_at x1 hE q) n d]
  rfl

/-! ## The mean pool and the result -/

/-- The pool's sums, the membership test as word equality. -/
theorem ref_sum (g : Fin 64) (d : Fin 32) :
    val_main_v116 (F := Ideal) x0 x1 x2 x4 x5 x6 x7 x8 x9 (ValueIdx.ix2 g d)
      = 0 + ∑ i : Fin 100000, if (x2 (ValueIdx.ix1 i) : BitVec 32) = BitVec.ofNat 32 g.val
          then outR3 x0 x1 x4 x5 x6 x7 x8 x9 i d else 0 := by
  rw [RR.poolSum_read]
  refine congrArg (fun s : EReal => 0 + s) (Finset.sum_congr rfl fun i _ => ?_)
  exact if_congr (toInt_eq_iff_word _ g.val (by have := g.isLt; omega)) rfl rfl

/-- The pool's counts, the membership test as word equality. -/
theorem ref_cnt (g : Fin 64) :
    val_main_v120 (F := Ideal) x2 (ValueIdx.ix1 g)
      = 0 + ∑ i : Fin 100000, if (x2 (ValueIdx.ix1 i) : BitVec 32) = BitVec.ofNat 32 g.val then (1 : EReal) else 0 := by
  rw [RR.poolCnt_read]
  refine congrArg (fun s : EReal => 0 + s) (Finset.sum_congr rfl fun i _ => ?_)
  exact if_congr (toInt_eq_iff_word _ g.val (by have := g.isLt; omega)) rfl rfl

/-- The pooled mean: the sums over the counts, a count below one replaced by one. -/
theorem ref_mol (g : Fin 64) (d : Fin 32) :
    val_main_v125 (F := Ideal) x0 x1 x2 x4 x5 x6 x7 x8 x9 (ValueIdx.ix2 g d)
      = Ideal.div (val_main_v116 (F := Ideal) x0 x1 x2 x4 x5 x6 x7 x8 x9 (ValueIdx.ix2 g d))
          (max (val_main_v120 (F := Ideal) x2 (ValueIdx.ix1 g)) 1) :=
  RR.mol_read x0 x1 x2 x4 x5 x6 x7 x8 x9 g d

/-- The reference's result: the head applied to the pooled means. -/
theorem ref_result :
    val_main_v140 (F := Ideal) x0 x1 x2 x3 x4 x5 x6 x7 x8 x9 x10 x11 x12 x13 x14 x15
      = RR.tailFromMol (F := Ideal) (val_main_v125 (F := Ideal) x0 x1 x2 x4 x5 x6 x7 x8 x9) x10 x11 x3 x12 x13 x14 x15 :=
  RR.v140_eq_tail x0 x1 x2 x3 x4 x5 x6 x7 x8 x9 x10 x11 x12 x13 x14 x15

end

end Cert.Proof.C

end
-- ==== Proof.ComposeWords.lean ====
/-
  Words against small naturals: the reference tests a scatter index by its signed value, the kernel by word
  equality or by its unsigned value; for the small non-negative numbers that occur these tests agree.
-/
import Mathlib.Data.Int.Basic

namespace Cert.Proof.C

/-- A word's signed value is the natural `g` (below 2^31) exactly when the word is `g` as a word. -/
theorem toInt_eq_iff_eq_ofNat (w : BitVec 32) (g : ℕ) (hg : g < 2 ^ 31) :
    w.toInt = (g : Int) ↔ w = BitVec.ofNat 32 g := by
  have hw := w.isLt
  have hmod : g % 2 ^ 32 = g := Nat.mod_eq_of_lt (by omega)
  constructor
  · intro h
    apply BitVec.eq_of_toNat_eq
    rw [BitVec.toNat_ofNat, hmod]
    rw [BitVec.toInt_eq_toNat_cond] at h
    split at h <;> omega
  · intro h
    subst h
    rw [BitVec.toInt_eq_toNat_cond, BitVec.toNat_ofNat, hmod, if_pos (by omega)]

/-- A non-negative word's signed value is the natural `n` exactly when its unsigned value is. -/
theorem toInt_eq_iff_toNat_eq (w : BitVec 32) (n : ℕ) (h0 : 0 ≤ w.toInt) :
    w.toInt = (n : Int) ↔ w.toNat = n := by
  have hw := w.isLt
  rw [BitVec.toInt_eq_toNat_cond] at h0 ⊢
  split at h0
  · rename_i hc
    rw [if_pos hc]
    omega
  · omega

/-- The all-ones word (the padded rows' graph id, −1) is no small natural as a word. -/
theorem allOnes_ne_ofNat (g : ℕ) (hg : g < 2 ^ 31) : (4294967295#32 : BitVec 32) ≠ BitVec.ofNat 32 g := by
  intro h
  have h' := congrArg BitVec.toNat h
  simp only [BitVec.toNat_ofNat] at h'
  omega

end Cert.Proof.C
-- ==== Proof.IdxPad.lean ====
/-
  Reads at one element of what the host program prepares before its kernels: the paddings at the end of the
  edge axis and of the node axis, the row mask of the real nodes, and the normalisation of the edge list's
  indices, which changes nothing under the range precondition. Every statement is over the operation as the
  program prints it, its operands variables.
-/
import proofs.«417346_j54202487276072_2_alg».proof.KernelIdeal
import Idealize.ShloMosaic.Lib.StableHlo.Predicate
import Idealize.ShloMosaic.Lib.KernelVsHost
import Idealize.ShloMosaic.Lib.ValueIdx

noncomputable section

namespace Cert.KernelIdeal.IFP

open Idealize.ShloMosaic Idealize.ShloMosaic.StableHlo.Predicate

/-! ## Words -/

/-- The signed comparison of two words below 2³¹ is the comparison of their values, as a bit. -/
theorem slt_bit {a b : BitVec 32} (ha : a.toNat < 2 ^ 31) (hb : b.toNat < 2 ^ 31) :
    IntOp.cmpi .slt a b = if a.toNat < b.toNat then 1#1 else 0#1 := by
  by_cases h : a.toNat < b.toNat
  · rw [if_pos h]
    exact (slt_iff_toNat ha hb).mpr h
  · rw [if_neg h]
    rcases BitVec.eq_zero_or_eq_one (IntOp.cmpi .slt a b) with h0 | h1
    · exact h0
    · exact absurd ((slt_iff_toNat ha hb).mp h1) h

/-- A word below 2³¹ is not negative. -/
theorem slt_zero_eq {a : BitVec 32} (ha : a.toNat < 2 ^ 31) : IntOp.cmpi .slt a 0#32 = 0#1 := by
  rw [slt_bit ha (by decide)]
  exact if_neg (Nat.not_lt_zero _)

/-- The word of a position below 2³² has the position as its value. -/
theorem toNat_ofNat_lt {n : Nat} (hn : n < 2 ^ 32) : (BitVec.ofNat 32 n).toNat = n := by
  rw [BitVec.toNat_ofNat]
  exact Nat.mod_eq_of_lt hn

/-! ## The normalisation of an index vector, and the range of the edge list -/

/-- The normalisation read at one element: `c` is added where the index is negative as a signed word. -/
theorem wrap_apply {t : Shape} (c : BitVec 32) (hb : S_.BroadcastsInDim t ![]) (p : IVec t 32) (j : t.Idx) :
    select (cmpi .slt p (broadcastInDim t ![] hb (constantI S_ 32 0#32)))
        (addi p (broadcastInDim t ![] hb (constantI S_ 32 c))) p j
      = Scalar.select (IntOp.cmpi .slt (p j) 0#32) (IntOp.addi (p j) c) (p j) := rfl

/-- Where the index is below 2³¹ the normalisation leaves it as it is. -/
theorem wrap_of_lt {t : Shape} (c : BitVec 32) (hb : S_.BroadcastsInDim t ![]) (p : IVec t 32) (j : t.Idx)
    (hp : (p j).toNat < 2 ^ 31) :
    select (cmpi .slt p (broadcastInDim t ![] hb (constantI S_ 32 0#32)))
        (addi p (broadcastInDim t ![] hb (constantI S_ 32 c))) p j = p j := by
  rw [wrap_apply, slt_zero_eq hp]
  exact ValueIdx.select_zero _ _

/-- An index vector all of whose entries are below 2³¹ is its own normalisation. -/
theorem wrap_eq_self {t : Shape} (c : BitVec 32) (hb : S_.BroadcastsInDim t ![]) (p : IVec t 32)
    (hp : ∀ j, (p j).toNat < 2 ^ 31) :
    select (cmpi .slt p (broadcastInDim t ![] hb (constantI S_ 32 0#32)))
        (addi p (broadcastInDim t ![] hb (constantI S_ 32 c))) p = p :=
  funext fun j => wrap_of_lt c hb p j (hp j)

/-- A row of the edge list, every entry below 100000, is its own normalisation against the node count. -/
theorem wrap_row_eq (hb : S_.BroadcastsInDim S1600000 ![]) (p : IVec S1600000 32)
    (hp : ∀ e : Fin 1600000, (p (ValueIdx.ix1 e)).toNat < 100000) :
    select (cmpi .slt p (broadcastInDim S1600000 ![] hb (constantI S_ 32 0#32)))
        (addi p (broadcastInDim S1600000 ![] hb (constantI S_ 32 100000#32))) p = p := by
  apply wrap_eq_self
  intro j
  rw [ValueIdx.eq_ix1 j]
  exact lt_trans (hp (j 0)) (by norm_num)

/-- The same for a padded row (1601536 positions). -/
theorem wrap_rowP_eq (c : BitVec 32) (hb : S_.BroadcastsInDim S1601536 ![]) (p : IVec S1601536 32)
    (hp : ∀ k : Fin 1601536, (p (ValueIdx.ix1 k)).toNat < 2 ^ 31) :
    select (cmpi .slt p (broadcastInDim S1601536 ![] hb (constantI S_ 32 0#32)))
        (addi p (broadcastInDim S1601536 ![] hb (constantI S_ 32 c))) p = p := by
  apply wrap_eq_self
  intro j
  rw [ValueIdx.eq_ix1 j]
  exact hp (j 0)

/-! ## Paddings at the end of the first axis, read at an index -/

section Pads
variable {α : Type}

/-- A vector of `n` entries padded at its end reads the vector below `n`. -/
theorem pad1_lt {n m hi : Nat} (x : (⟨1, ![n]⟩ : Shape).Idx → α) {u : Shape} (v : u.Idx → α)
    (hp : (⟨1, ![n]⟩ : Shape).Pads (![0] : Fin 1 → Nat) ![hi] ![0] ⟨1, ![m]⟩) (hu : 0 < u.numel)
    (k : Fin m) (h : k.val < n) :
    pad ⟨1, ![m]⟩ ![0] ![hi] ![0] x v hp hu (ValueIdx.ix1 k) = x (ValueIdx.ix1 ⟨k.val, h⟩) :=
  pad_apply_of_inside _ _ _ x v hp hu _ _ (by
    intro a
    have ha : a = 0 := Subsingleton.elim _ _
    subst ha
    show k.val = 0 + k.val * (0 + 1)
    omega)

/-- … and the padding value from `n` on. -/
theorem pad1_ge {n m hi : Nat} (x : (⟨1, ![n]⟩ : Shape).Idx → α) {u : Shape} (v : u.Idx → α)
    (hp : (⟨1, ![n]⟩ : Shape).Pads (![0] : Fin 1 → Nat) ![hi] ![0] ⟨1, ![m]⟩) (hu : 0 < u.numel)
    (k : Fin m) (h : n ≤ k.val) :
    pad ⟨1, ![m]⟩ ![0] ![hi] ![0] x v hp hu (ValueIdx.ix1 k) = v (Shape.Idx.first hu) :=
  pad_apply_of_not_inside _ _ _ x v hp hu _ (0 : Fin 1) (by
    intro hin
    have e : (k.val - 0) / (0 + 1) < n := hin.2.2
    rw [Nat.sub_zero, Nat.zero_add, Nat.div_one] at e
    omega)

/-- An [n × D] rectangle padded with rows at its end reads the rectangle in the rows below `n`. -/
theorem pad2_lt {n m D hi : Nat} (x : (⟨2, ![n, D]⟩ : Shape).Idx → α) {u : Shape} (v : u.Idx → α)
    (hp : (⟨2, ![n, D]⟩ : Shape).Pads (![0, 0] : Fin 2 → Nat) ![hi, 0] ![0, 0] ⟨2, ![m, D]⟩) (hu : 0 < u.numel)
    (r : Fin m) (c : Fin D) (h : r.val < n) :
    pad ⟨2, ![m, D]⟩ ![0, 0] ![hi, 0] ![0, 0] x v hp hu (ValueIdx.ix2 r c) = x (ValueIdx.ix2 ⟨r.val, h⟩ c) :=
  pad_apply_of_inside _ _ _ x v hp hu _ _ (by
    intro a
    match a with
    | ⟨0, _⟩ => show r.val = 0 + r.val * (0 + 1); omega
    | ⟨1, _⟩ => show c.val = 0 + c.val * (0 + 1); omega)

/-- … and the padding value in the rows from `n` on. -/
theorem pad2_ge {n m D hi : Nat} (x : (⟨2, ![n, D]⟩ : Shape).Idx → α) {u : Shape} (v : u.Idx → α)
    (hp : (⟨2, ![n, D]⟩ : Shape).Pads (![0, 0] : Fin 2 → Nat) ![hi, 0] ![0, 0] ⟨2, ![m, D]⟩) (hu : 0 < u.numel)
    (r : Fin m) (c : Fin D) (h : n ≤ r.val) :
    pad ⟨2, ![m, D]⟩ ![0, 0] ![hi, 0] ![0, 0] x v hp hu (ValueIdx.ix2 r c) = v (Shape.Idx.first hu) :=
  pad_apply_of_not_inside _ _ _ x v hp hu _ (0 : Fin 2) (by
    intro hin
    have e : (r.val - 0) / (0 + 1) < n := hin.2.2
    rw [Nat.sub_zero, Nat.zero_add, Nat.div_one] at e
    omega)

/-- The one element of a scalar operand, however its index is spelt. -/
theorem scalar_at (v : S_.Idx → α) (i : S_.Idx) : v i = v ValueIdx.ix0 := congrArg v (ValueIdx.eq_ix0 i)

/-- The padding of the edge axis (sources, destinations, edge weights): 1600000 entries to 1601536. -/
theorem padE_apply (x : S1600000.Idx → α) (v : S_.Idx → α)
    (hp : S1600000.Pads (![0] : Fin 1 → Nat) ![1536] ![0] S1601536) (hu : 0 < S_.numel) (k : Fin 1601536) :
    pad S1601536 ![0] ![1536] ![0] x v hp hu (ValueIdx.ix1 k)
      = if h : k.val < 1600000 then x (ValueIdx.ix1 ⟨k.val, h⟩) else v ValueIdx.ix0 := by
  by_cases h : k.val < 1600000
  · rw [dif_pos h]
    exact pad1_lt x v hp hu k h
  · rw [dif_neg h, ← scalar_at v (Shape.Idx.first hu)]
    exact pad1_ge x v hp hu k (Nat.le_of_not_lt h)

/-- The padding of the node axis of a vector (self weights, graph ids): 100000 entries to 100352. -/
theorem padN_apply (x : S100000.Idx → α) (v : S_.Idx → α)
    (hp : S100000.Pads (![0] : Fin 1 → Nat) ![352] ![0] S100352) (hu : 0 < S_.numel) (k : Fin 100352) :
    pad S100352 ![0] ![352] ![0] x v hp hu (ValueIdx.ix1 k)
      = if h : k.val < 100000 then x (ValueIdx.ix1 ⟨k.val, h⟩) else v ValueIdx.ix0 := by
  by_cases h : k.val < 100000
  · rw [dif_pos h]
    exact pad1_lt x v hp hu k h
  · rw [dif_neg h, ← scalar_at v (Shape.Idx.first hu)]
    exact pad1_ge x v hp hu k (Nat.le_of_not_lt h)

/-- The padding of the node axis of the feature matrix: 100000 rows to 100352. -/
theorem padX_apply (x : S100000x128.Idx → α) (v : S_.Idx → α)
    (hp : S100000x128.Pads (![0, 0] : Fin 2 → Nat) ![352, 0] ![0, 0] S100352x128) (hu : 0 < S_.numel)
    (r : Fin 100352) (c : Fin 128) :
    pad S100352x128 ![0, 0] ![352, 0] ![0, 0] x v hp hu (ValueIdx.ix2 r c)
      = if h : r.val < 100000 then x (ValueIdx.ix2 ⟨r.val, h⟩ c) else v ValueIdx.ix0 := by
  by_cases h : r.val < 100000
  · rw [dif_pos h]
    exact pad2_lt x v hp hu r c h
  · rw [dif_neg h, ← scalar_at v (Shape.Idx.first hu)]
    exact pad2_ge x v hp hu r c (Nat.le_of_not_lt h)

end Pads

/-! ## The padding values -/

/-- The integer zero converted to a float is the extended real `0`. -/
theorem padval_real (i : S_.Idx) : (sitofp (F := Ideal) .f32 (constantI S_ 32 0#32) i : EReal) = 0 := by
  show ((((0#32 : BitVec 32).toInt : ℤ) : ℝ) : EReal) = 0
  simp

/-- The graph id of a padded node, all ones (−1 as a signed word), is the id of none of the 64 graphs. -/
theorem padB_ne (g : Fin 64) : (4294967295#32 : BitVec 32) ≠ BitVec.ofNat 32 g.val := by
  intro h
  have h1 : (4294967295#32 : BitVec 32).toNat = (BitVec.ofNat 32 g.val).toNat := congrArg BitVec.toNat h
  have h2 : (4294967295#32 : BitVec 32).toNat = 4294967295 := rfl
  rw [toNat_ofNat_lt (n := g.val) (by have := g.isLt; omega), h2] at h1
  have := g.isLt
  omega

/-- Sources and destinations padded with the word `0`. -/
theorem padE_word_apply (x : IVec S1600000 32)
    (hp : S1600000.Pads (![0] : Fin 1 → Nat) ![1536] ![0] S1601536) (hu : 0 < S_.numel) (k : Fin 1601536) :
    pad S1601536 ![0] ![1536] ![0] x (constantI S_ 32 0#32) hp hu (ValueIdx.ix1 k)
      = if h : k.val < 1600000 then x (ValueIdx.ix1 ⟨k.val, h⟩) else 0#32 :=
  padE_apply x (constantI S_ 32 0#32) hp hu k

/-- Edge weights padded with `0`. -/
theorem padE_real_apply (x : FVec Ideal S1600000 .f32)
    (hp : S1600000.Pads (![0] : Fin 1 → Nat) ![1536] ![0] S1601536) (hu : 0 < S_.numel) (k : Fin 1601536) :
    (pad S1601536 ![0] ![1536] ![0] x (sitofp (F := Ideal) .f32 (constantI S_ 32 0#32)) hp hu (ValueIdx.ix1 k) : EReal)
      = if h : k.val < 1600000 then (x (ValueIdx.ix1 ⟨k.val, h⟩) : EReal) else 0 := by
  rw [padE_apply, padval_real]

/-- Self weights padded with `0`. -/
theorem padN_real_apply (x : FVec Ideal S100000 .f32)
    (hp : S100000.Pads (![0] : Fin 1 → Nat) ![352] ![0] S100352) (hu : 0 < S_.numel) (k : Fin 100352) :
    (pad S100352 ![0] ![352] ![0] x (sitofp (F := Ideal) .f32 (constantI S_ 32 0#32)) hp hu (ValueIdx.ix1 k) : EReal)
      = if h : k.val < 100000 then (x (ValueIdx.ix1 ⟨k.val, h⟩) : EReal) else 0 := by
  rw [padN_apply, padval_real]

/-- Graph ids padded with the all-ones word (−1). -/
theorem padB_word_apply (x : IVec S100000 32)
    (hp : S100000.Pads (![0] : Fin 1 → Nat) ![352] ![0] S100352) (hu : 0 < S_.numel) (k : Fin 100352) :
    pad S100352 ![0] ![352] ![0] x (constantI S_ 32 4294967295#32) hp hu (ValueIdx.ix1 k)
      = if h : k.val < 100000 then x (ValueIdx.ix1 ⟨k.val, h⟩) else 4294967295#32 :=
  padN_apply x (constantI S_ 32 4294967295#32) hp hu k

/-- The feature matrix padded with rows of `0`. -/
theorem padX_real_apply (x : FVec Ideal S100000x128 .f32)
    (hp : S100000x128.Pads (![0, 0] : Fin 2 → Nat) ![352, 0] ![0, 0] S100352x128) (hu : 0 < S_.numel)
    (r : Fin 100352) (c : Fin 128) :
    (pad S100352x128 ![0, 0] ![352, 0] ![0, 0] x (sitofp (F := Ideal) .f32 (constantI S_ 32 0#32)) hp hu
        (ValueIdx.ix2 r c) : EReal)
      = if h : r.val < 100000 then (x (ValueIdx.ix2 ⟨r.val, h⟩ c) : EReal) else 0 := by
  rw [padX_apply, padval_real]

/-- Padded sources and destinations are node numbers: below 100000 (so below the 100352 padded rows). -/
theorem padE_word_lt (x : IVec S1600000 32)
    (hp : S1600000.Pads (![0] : Fin 1 → Nat) ![1536] ![0] S1601536) (hu : 0 < S_.numel)
    (hx : ∀ e : Fin 1600000, (x (ValueIdx.ix1 e)).toNat < 100000) (k : Fin 1601536) :
    (pad S1601536 ![0] ![1536] ![0] x (constantI S_ 32 0#32) hp hu (ValueIdx.ix1 k)).toNat < 100000 := by
  rw [padE_word_apply]
  split_ifs with h
  · exact hx _
  · decide

/-! ## The row mask of the real nodes -/

/-- The position vector read at a position. -/
theorem iota1_apply {n w : Nat} (p : Fin n) :
    iotaInDim (⟨1, ![n]⟩ : Shape) w 0 (ValueIdx.ix1 p) = BitVec.ofNat w p.val := rfl

/-- A vector laid out as a one-column rectangle reads, in row `p`, the vector at `p`. -/
theorem col_apply {α : Type} {n : Nat} (h₁ : (⟨1, ![n]⟩ : Shape).BroadcastsInDim ⟨2, ![n, 1]⟩ ![0])
    (v : (⟨1, ![n]⟩ : Shape).Idx → α) (p : Fin n) (c : Fin 1) :
    broadcastInDim ⟨2, ![n, 1]⟩ ![0] h₁ v (ValueIdx.ix2 p c) = v (ValueIdx.ix1 p) := by
  have e2 : (ValueIdx.ix2 p c : (⟨2, ![n, 1]⟩ : Shape).Idx) = ixP p := by
    funext a
    match a with
    | ⟨0, _⟩ => rfl
    | ⟨1, _⟩ =>
      show c = (0 : Fin 1)
      exact Subsingleton.elim _ _
  have e1 : (Shape.Idx.ofFin p : (⟨1, ![n]⟩ : Shape).Idx) = ValueIdx.ix1 p := by
    funext a
    have ha : a = 0 := Subsingleton.elim _ _
    subst ha
    exact Fin.ext rfl
  rw [e2, bcast_col1 h₁ v p, e1]

/-- The mask's bit: the position compared, signed, with the node count. -/
theorem maskbit_apply (hb0 : S_.BroadcastsInDim S100352 ![]) (n : Fin 100352) :
    cmpi .slt (iotaInDim S100352 32 0) (broadcastInDim S100352 ![] hb0 (constantI S_ 32 100000#32))
        (ValueIdx.ix1 n)
      = if n.val < 100000 then 1#1 else 0#1 := by
  have hn : (BitVec.ofNat 32 n.val).toNat = n.val := toNat_ofNat_lt (by have := n.isLt; omega)
  have hc : (100000#32 : BitVec 32).toNat = 100000 := rfl
  show IntOp.cmpi .slt (BitVec.ofNat 32 n.val) 100000#32 = _
  rw [slt_bit (by rw [hn]; have := n.isLt; omega) (by rw [hc]; norm_num), hn, hc]

/-- The row mask at row `n`, at the ideal values: `1` for a real node and `0` for a padded one. -/
theorem mask_apply (hb0 : S_.BroadcastsInDim S100352 ![]) (hb1 : S100352.BroadcastsInDim S100352x1 ![0])
    (n : Fin 100352) (c : Fin 1) :
    (broadcastInDim S100352x1 ![0] hb1
        (uitofp (F := Ideal) .f32
          (cmpi .slt (iotaInDim S100352 32 0) (broadcastInDim S100352 ![] hb0 (constantI S_ 32 100000#32))))
        (ValueIdx.ix2 n c) : EReal)
      = if n.val < 100000 then 1 else 0 := by
  rw [col_apply]
  show ((((cmpi .slt (iotaInDim S100352 32 0) (broadcastInDim S100352 ![] hb0 (constantI S_ 32 100000#32))
      (ValueIdx.ix1 n)).toNat : ℕ) : ℝ) : EReal) = _
  rw [maskbit_apply]
  split_ifs
  · show (((1 : ℕ) : ℝ) : EReal) = 1
    rw [Nat.cast_one, EReal.coe_one]
  · show (((0 : ℕ) : ℝ) : EReal) = 0
    rw [Nat.cast_zero, EReal.coe_zero]

/-! ## A row of the edge list, read at an edge -/

/-- The [2 × E] edge list cut to its row `o` and read as a vector has, at `e`, the list's entry `(o, e)`. -/
theorem row_apply {α : Type} {E : Nat} (o : Nat) (ho : o < 2) (ei : (⟨2, ![2, E]⟩ : Shape).Idx → α)
    (hsl : (⟨2, ![2, E]⟩ : Shape).Slices ![o, 0] ⟨2, ![1, E]⟩)
    (hsc : (⟨2, ![1, E]⟩ : Shape).ShapeCasts ⟨1, ![E]⟩) (e : Fin E) :
    shapeCast ⟨1, ![E]⟩ (extractStridedSlice ⟨2, ![1, E]⟩ ![o, 0] ei hsl) hsc (ValueIdx.ix1 e)
      = ei (ValueIdx.ix2 ⟨o, ho⟩ e) := by
  have h1 : shapeCast ⟨1, ![E]⟩ (extractStridedSlice ⟨2, ![1, E]⟩ ![o, 0] ei hsl) hsc (ValueIdx.ix1 e)
      = extractStridedSlice ⟨2, ![1, E]⟩ ![o, 0] ei hsl (ValueIdx.ix2 (0 : Fin 1) e) :=
    shapeCast_apply _ hsc _ _ (by
      rw [Shape.rowMajor_val_two, Shape.rowMajor_val_one]
      show (0 : Nat) * E + e.val = e.val
      omega)
  rw [h1]
  exact extractStridedSlice_apply ![o, 0] ei hsl _ _ (fun a => match a with
    | ⟨0, _⟩ => by show o = o + 0; omega
    | ⟨1, _⟩ => by show e.val = 0 + e.val; omega)

/-- The source row (row 0) of the edge list at edge `e`. -/
theorem row0_apply {α : Type} (ei : S2x1600000.Idx → α) (hsl : S2x1600000.Slices ![0, 0] S1x1600000)
    (hsc : S1x1600000.ShapeCasts S1600000) (e : Fin 1600000) :
    shapeCast S1600000 (extractStridedSlice S1x1600000 ![0, 0] ei hsl) hsc (ValueIdx.ix1 e)
      = ei (ValueIdx.ix2 (0 : Fin 2) e) :=
  row_apply 0 (by decide) ei hsl hsc e

/-- The destination row (row 1) of the edge list at edge `e`. -/
theorem row1_apply {α : Type} (ei : S2x1600000.Idx → α) (hsl : S2x1600000.Slices ![1, 0] S1x1600000)
    (hsc : S1x1600000.ShapeCasts S1600000) (e : Fin 1600000) :
    shapeCast S1600000 (extractStridedSlice S1x1600000 ![1, 0] ei hsl) hsc (ValueIdx.ix1 e)
      = ei (ValueIdx.ix2 (1 : Fin 2) e) :=
  row_apply 1 (by decide) ei hsl hsc e

/-- Under the range precondition every entry of the source row is a node number. -/
theorem row0_lt (ei : IVec S2x1600000 32)
    (hr : ∀ (r : Fin 2) (e : Fin 1600000), (ei (ValueIdx.ix2 r e)).toNat < 100000)
    (hsl : S2x1600000.Slices ![0, 0] S1x1600000) (hsc : S1x1600000.ShapeCasts S1600000) (e : Fin 1600000) :
    (shapeCast S1600000 (extractStridedSlice S1x1600000 ![0, 0] ei hsl) hsc (ValueIdx.ix1 e)).toNat < 100000 := by
  rw [row0_apply]
  exact hr 0 e

/-- … and every entry of the destination row. -/
theorem row1_lt (ei : IVec S2x1600000 32)
    (hr : ∀ (r : Fin 2) (e : Fin 1600000), (ei (ValueIdx.ix2 r e)).toNat < 100000)
    (hsl : S2x1600000.Slices ![1, 0] S1x1600000) (hsc : S1x1600000.ShapeCasts S1600000) (e : Fin 1600000) :
    (shapeCast S1600000 (extractStridedSlice S1x1600000 ![1, 0] ei hsl) hsc (ValueIdx.ix1 e)).toNat < 100000 := by
  rw [row1_apply]
  exact hr 1 e

end Cert.KernelIdeal.IFP
-- ==== Proof.GluePw.lean ====
/-
  The power the program applies to a node's degree, as ONE named function of an extended real, with the reading
  of the host operation that computes it at an index. The kernel applies it outright and the reference under the
  guard "degree above zero"; both are this function of the degree.
-/
import Idealize.ShloMosaic.Lib.IdealHost

noncomputable section

namespace Cert.Proof.GP

open Idealize.ShloMosaic

/-- The power with the exponent the program prints: the float whose bits are `0xBF000000`, minus one half. -/
def pw (x : EReal) : EReal := Ideal.pow x (Ideal.ofBits .f32 0xBF000000#32)

/-- The definition, for rewriting either way. -/
theorem pw_def (x : EReal) : pw x = Ideal.pow x (Ideal.ofBits .f32 0xBF000000#32) := rfl

/-- The host's power of a vector by that exponent laid out over the vector's shape, read at an index. -/
theorem powf_apply {s : Shape} (hb : (⟨0, ![]⟩ : Shape).BroadcastsInDim s ![]) (x : FVec Ideal s .f32) (j : s.Idx) :
    Host.powf x (broadcastInDim s ![] hb (constant (F := Ideal) ⟨0, ![]⟩ .f32 0xBF000000#32)) j = pw (x j) := rfl

/-- "Greater than" at the ideal values is the order's: the bit is set where it holds … -/
theorem cmp_ogt_of_lt {a b : EReal} (h : b < a) : Ideal.cmp .ogt a b = 1#1 := by
  unfold Ideal.cmp
  simp only [decide_eq_true h]
  rfl

/-- … and clear where it does not. -/
theorem cmp_ogt_of_not_lt {a b : EReal} (h : ¬ b < a) : Ideal.cmp .ogt a b = 0#1 := by
  unfold Ideal.cmp
  simp only [decide_eq_false h]
  rfl

/-- The guarded power read at an index where the operand is above zero: the guard keeps the power. -/
theorem guarded_apply {s : Shape} (hb : (⟨0, ![]⟩ : Shape).BroadcastsInDim s ![]) (x : FVec Ideal s .f32)
    (z : FVec Ideal s .f32) (j : s.Idx) (h : (0 : EReal) < x j) :
    select (cmpf .ogt x (broadcastInDim s ![] hb (constant (F := Ideal) ⟨0, ![]⟩ .f32 0x00000000#32)))
        (Host.powf x (broadcastInDim s ![] hb (constant (F := Ideal) ⟨0, ![]⟩ .f32 0xBF000000#32))) z j
      = pw (x j) := by
  show Scalar.select (Ideal.cmp .ogt (x j) (Ideal.ofBits .f32 0x00000000#32)) (pw (x j)) (z j) = pw (x j)
  rw [Ideal.ofBits_zero_f32, cmp_ogt_of_lt h]
  exact ValueIdx.select_one _ _

end Cert.Proof.GP
-- ==== Proof.GlueJ.lean ====
/-
  The kernel program's host preparation read at an index, over the names of its composed terms: the degree as a
  count plus one, its power, an edge's weight as the product of the powers at its two ends, the padded copies,
  the row mask, and the two small layout steps between the kernels (a bias as a one-row matrix, a matrix times
  the row mask). The edge list is a variable; the one hypothesis is that every entry is a node number.
-/
import proofs.«417346_j54202487276072_2_alg».proof.Proof.KHostA0
import proofs.«417346_j54202487276072_2_alg».proof.Proof.RefReadsA
import proofs.«417346_j54202487276072_2_alg».proof.Proof.IdxPad
import proofs.«417346_j54202487276072_2_alg».proof.Proof.GluePw

set_option maxRecDepth 1692

noncomputable section

namespace Cert.Proof.GJ

open Idealize.ShloMosaic Idealize.ShloMosaic.StableHlo.Predicate
open Cert.KernelIdeal Cert.KernelIdeal.Gen
open scoped BigOperators

/-! ## Words in range -/

/-- A word below 100000 reads the same signed and unsigned. -/
theorem toInt_of_lt {v : BitVec 32} (h : v.toNat < 100000) : v.toInt = (v.toNat : Int) :=
  toInt_eq_toNat_of_lt (lt_trans h (by norm_num))

/-- … so a signed test against a node number is the equality of node numbers. -/
theorem toInt_eq_iff {v : BitVec 32} (h : v.toNat < 100000) (i : Fin 100000) :
    v.toInt = (i.val : Int) ↔ (⟨v.toNat, h⟩ : Fin 100000) = i := by
  rw [toInt_of_lt h]
  constructor
  · intro e
    apply Fin.ext
    show v.toNat = i.val
    omega
  · intro e
    have e' : v.toNat = i.val := congrArg Fin.val e
    omega

/-- … and the clamp of a take leaves it alone. -/
theorem clamp_eq {v : BitVec 32} (h : v.toNat < 100000) (hlt : min v.toInt.toNat (100000 - 1) < 100000) :
    (⟨min v.toInt.toNat (100000 - 1), hlt⟩ : Fin 100000) = ⟨v.toNat, h⟩ := by
  apply Fin.ext
  show min v.toInt.toNat (100000 - 1) = v.toNat
  have e := toInt_of_lt h
  omega

/-! ## The edge list's two rows -/

section Rows
variable {F : FTy → Type} [FloatOps F]

/-- The source row at an edge. -/
theorem src0_apply (ei : IVec S2x1600000 32) (e : Fin 1600000) :
    KH.src0 (F := F) ei (ValueIdx.ix1 e) = ei (ValueIdx.ix2 (0 : Fin 2) e) := by
  unfold KH.src0
  exact IFP.row0_apply ei _ _ e

/-- The destination row at an edge. -/
theorem dst0_apply (ei : IVec S2x1600000 32) (e : Fin 1600000) :
    KH.dst0 (F := F) ei (ValueIdx.ix1 e) = ei (ValueIdx.ix2 (1 : Fin 2) e) := by
  unfold KH.dst0
  exact IFP.row1_apply ei _ _ e

/-- A row of node numbers laid out as the one-column index matrix of a take or a scatter: the normalisation
    changes nothing, and row `q` of the column is the row's entry `q`. -/
theorem colN_apply (p : IVec S1600000 32) (hp : ∀ e : Fin 1600000, (p (ValueIdx.ix1 e)).toNat < 100000)
    (q : Fin 1600000) (c : Fin 1) : KH.colN (F := F) p (ValueIdx.ix2 q c) = p (ValueIdx.ix1 q) := by
  unfold KH.colN
  rw [IFP.col_apply]
  unfold KH.wrapN
  rw [IFP.wrap_row_eq _ p hp]

end Rows

/-! ## The degree scatter and the two takes, at the program's dimension numbers -/

/-- The degree count's scatter-add (1600000 scatter indices into 100000 nodes), read at node `n`. -/
theorem kscatter_apply (x : FVec Ideal S100000 .f32) (idx : IVec S1600000x1 32) (upd : FVec Ideal S1600000 .f32)
    (n : Fin 100000) :
    Host.scatterAdd scatter_S100000_S1600000x1_S1600000_n_0_0_1 x idx upd (ValueIdx.ix1 n)
      = x (ValueIdx.ix1 n)
        + ∑ q : Fin 1600000, if (idx (ValueIdx.ix2 q 0)).toInt = (n.val : Int) then upd (ValueIdx.ix1 q) else 0 :=
  Cert.ReferenceIdeal.RR.hostScatterAdd_flat_apply Facts₀.scatter_S100000_S1600000x1_S1600000_n_0_0_1_wf x idx upd n

/-- The take of a node table at an index column whose entry `q` is the node number `v`. -/
theorem kgather_node {α : Type} (x : S100000.Idx → α) (idx : IVec S1600000x1 32) (q : Fin 1600000) (v : BitVec 32)
    (hv : idx (ValueIdx.ix2 q 0) = v) (h : v.toNat < 100000) :
    Host.gather gather_S100000_S1600000x1_S1600000_n_0_n_n_0_1_1 x idx (ValueIdx.ix1 q)
      = x (ValueIdx.ix1 ⟨v.toNat, h⟩) := by
  subst hv
  have h1 := Cert.ReferenceIdeal.RR.gather_flat_apply (by decide)
    Facts₀.gather_S100000_S1600000x1_S1600000_n_0_n_n_0_1_1_wf x idx (ValueIdx.ix1 q)
  exact h1.trans (congrArg (fun k => x (ValueIdx.ix1 k)) (clamp_eq h _))

/-! ## Degree, its power, the edge weights, the self weights -/

section Edges
variable (ei : IVec S2x1600000 32) (hr : ∀ (r : Fin 2) (e : Fin 1600000), (ei (ValueIdx.ix2 r e)).toNat < 100000)

/-- A constant laid out over a shape reads the constant. -/
theorem bconst_apply {s : Shape} (hb : S_.BroadcastsInDim s ![]) (b : BitVec 32) (j : s.Idx) :
    broadcastInDim s ![] hb (constant (F := Ideal) S_ .f32 b) j = Ideal.ofBits .f32 b := rfl

include hr in
/-- The degree of node `i`: the edges that end in it, counted from `0`, plus one. -/
theorem deg_eq (i : Fin 100000) :
    (KH.deg (F := Ideal) ei (ValueIdx.ix1 i) : EReal)
      = (0 + ∑ e : Fin 1600000, if (⟨(ei (ValueIdx.ix2 (1 : Fin 2) e)).toNat, hr 1 e⟩ : Fin 100000) = i then (1 : EReal) else 0) + 1 := by
  have hlt : ∀ e : Fin 1600000, (KH.dst0 (F := Ideal) ei (ValueIdx.ix1 e)).toNat < 100000 := fun e => by
    rw [dst0_apply]
    exact hr 1 e
  unfold KH.deg
  beta_reduce
  rw [ValueIdx.addf_apply, kscatter_apply, bconst_apply, bconst_apply, Ideal.ofBits_zero_f32, Ideal.ofBits_one_f32]
  refine congrArg (fun s : EReal => (0 + s) + 1) ?_
  apply Finset.sum_congr (Eq.refl _)
  intro q _
  rw [colN_apply _ hlt, dst0_apply, bconst_apply, Ideal.ofBits_one_f32]
  exact if_congr (toInt_eq_iff (hr 1 q) i) (Eq.refl _) (Eq.refl _)

/-- The power of the degree. -/
theorem dinv_eq (i : Fin 100000) :
    (KH.dinv (F := Ideal) ei (ValueIdx.ix1 i) : EReal) = Cert.Proof.GP.pw (KH.deg (F := Ideal) ei (ValueIdx.ix1 i)) := by
  unfold KH.dinv
  exact Cert.Proof.GP.powf_apply _ _ _

/-- A node's self weight: its power squared. -/
theorem selfNorm_eq (i : Fin 100000) :
    (KH.selfNorm (F := Ideal) ei (ValueIdx.ix1 i) : EReal)
      = KH.dinv (F := Ideal) ei (ValueIdx.ix1 i) * KH.dinv (F := Ideal) ei (ValueIdx.ix1 i) := by
  unfold KH.selfNorm
  exact ValueIdx.mulf_apply _ _ _

include hr in
/-- An edge's weight: the power at its source times the power at its destination. -/
theorem normE_eq (e : Fin 1600000) :
    (KH.normE (F := Ideal) ei (ValueIdx.ix1 e) : EReal)
      = KH.dinv (F := Ideal) ei (ValueIdx.ix1 ⟨(ei (ValueIdx.ix2 (0 : Fin 2) e)).toNat, hr 0 e⟩)
          * KH.dinv (F := Ideal) ei (ValueIdx.ix1 ⟨(ei (ValueIdx.ix2 (1 : Fin 2) e)).toNat, hr 1 e⟩) := by
  have hlt0 : ∀ e : Fin 1600000, (KH.src0 (F := Ideal) ei (ValueIdx.ix1 e)).toNat < 100000 := fun e => by
    rw [src0_apply]
    exact hr 0 e
  have hlt1 : ∀ e : Fin 1600000, (KH.dst0 (F := Ideal) ei (ValueIdx.ix1 e)).toNat < 100000 := fun e => by
    rw [dst0_apply]
    exact hr 1 e
  have h0 : KH.colN (F := Ideal) (KH.src0 (F := Ideal) ei) (ValueIdx.ix2 e 0) = ei (ValueIdx.ix2 (0 : Fin 2) e) := by
    rw [colN_apply _ hlt0, src0_apply]
  have h1 : KH.colN (F := Ideal) (KH.dst0 (F := Ideal) ei) (ValueIdx.ix2 e 0) = ei (ValueIdx.ix2 (1 : Fin 2) e) := by
    rw [colN_apply _ hlt1, dst0_apply]
  unfold KH.normE
  beta_reduce
  rw [ValueIdx.mulf_apply,
    kgather_node (KH.dinv (F := Ideal) ei) (KH.colN (F := Ideal) (KH.src0 (F := Ideal) ei)) e _ h0 (hr 0 e),
    kgather_node (KH.dinv (F := Ideal) ei) (KH.colN (F := Ideal) (KH.dst0 (F := Ideal) ei)) e _ h1 (hr 1 e)]

end Edges

/-! ## The padded copies and the row mask -/

section Padded
variable (ei : IVec S2x1600000 32)

/-- The padded source row: the edge list's row 0 below 1600000, the word `0` from there on. -/
theorem srcP_eq (k : Fin 1601536) :
    (KH.srcP (F := Ideal) ei (ValueIdx.ix1 k) : BitVec 32)
      = if h : k.val < 1600000 then ei (ValueIdx.ix2 (0 : Fin 2) ⟨k.val, h⟩) else 0#32 := by
  unfold KH.srcP KH.padI
  beta_reduce
  refine (IFP.padE_word_apply (KH.src0 (F := Ideal) ei) _ _ k).trans ?_
  by_cases h : k.val < 1600000
  · rw [dif_pos h, dif_pos h, src0_apply]
  · rw [dif_neg h, dif_neg h]

/-- The padded destination row. -/
theorem dstP_eq (k : Fin 1601536) :
    (KH.dstP (F := Ideal) ei (ValueIdx.ix1 k) : BitVec 32)
      = if h : k.val < 1600000 then ei (ValueIdx.ix2 (1 : Fin 2) ⟨k.val, h⟩) else 0#32 := by
  unfold KH.dstP KH.padI
  beta_reduce
  refine (IFP.padE_word_apply (KH.dst0 (F := Ideal) ei) _ _ k).trans ?_
  by_cases h : k.val < 1600000
  · rw [dif_pos h, dif_pos h, dst0_apply]
  · rw [dif_neg h, dif_neg h]

/-- The padded edge weights: `0` on the padded positions. -/
theorem normP_eq (k : Fin 1601536) :
    (KH.normP (F := Ideal) ei (ValueIdx.ix1 k) : EReal)
      = if h : k.val < 1600000 then (KH.normE (F := Ideal) ei (ValueIdx.ix1 ⟨k.val, h⟩) : EReal) else 0 := by
  unfold KH.normP KH.padF
  beta_reduce
  exact IFP.padE_real_apply (KH.normE (F := Ideal) ei) _ _ k

/-- The padded self weights: `0` on the padded nodes. -/
theorem selfNormP_eq (n : Fin 100352) :
    (KH.selfNormP (F := Ideal) ei (ValueIdx.ix1 n) : EReal)
      = if h : n.val < 100000 then (KH.selfNorm (F := Ideal) ei (ValueIdx.ix1 ⟨n.val, h⟩) : EReal) else 0 := by
  unfold KH.selfNormP KH.padS
  beta_reduce
  exact IFP.padN_real_apply (KH.selfNorm (F := Ideal) ei) _ _ n

end Padded

/-- The padded feature matrix: rows of `0` on the padded nodes. -/
theorem xP_eq (x : FVec Ideal S100000x128 .f32) (n : Fin 100352) (k : Fin 128) :
    (KH.xP (F := Ideal) x (ValueIdx.ix2 n k) : EReal)
      = if h : n.val < 100000 then (x (ValueIdx.ix2 ⟨n.val, h⟩ k) : EReal) else 0 := by
  unfold KH.xP KH.padX
  beta_reduce
  exact IFP.padX_real_apply x _ _ n k

/-- The padded graph ids: the all-ones word on the padded nodes. -/
theorem batchP_eq (bt : IVec S100000 32) (i : Fin 100352) :
    (KH.batchP (F := Ideal) bt (ValueIdx.ix1 i) : BitVec 32)
      = if h : i.val < 100000 then bt (ValueIdx.ix1 ⟨i.val, h⟩) else 4294967295#32 := by
  unfold KH.batchP KH.padB
  beta_reduce
  exact IFP.padB_word_apply bt _ _ i

/-- The row mask: `1` on the real nodes, `0` on the padded ones. -/
theorem mask_eq (n : Fin 100352) :
    (KH.maskCol (F := Ideal) (ValueIdx.ix2 n (0 : Fin 1)) : EReal) = if n.val < 100000 then 1 else 0 := by
  unfold KH.maskCol
  exact IFP.mask_apply _ _ n 0

/-! ## Between the kernels: a matrix times the row mask, a bias as a one-row matrix -/

/-- A one-column matrix laid out along the rows of an [n × m] rectangle reads, at `(p, q)`, its row `p`. -/
theorem bcast_col_apply {α : Type} {n m : Nat} (h : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h v (ValueIdx.ix2 p q) = v (ValueIdx.ix2 p (0 : Fin 1)) := by
  have e2 : (ValueIdx.ix2 p q : (⟨2, ![n, m]⟩ : Shape).Idx) = ij p q := by
    funext a
    match a with
    | ⟨0, _⟩ => rfl
    | ⟨1, _⟩ => rfl
  have e1 : (ixP p : (⟨2, ![n, 1]⟩ : Shape).Idx) = ValueIdx.ix2 p (0 : Fin 1) := by
    funext a
    match a with
    | ⟨0, _⟩ => rfl
    | ⟨1, _⟩ => rfl
  rw [e2, bcast_of_col h v p q, e1]

/-- A vector read as a one-row matrix has, at `(r, d)`, the vector's entry `d`. -/
theorem row_of_vec_apply {α : Type} {D : Nat} (b : (⟨1, ![D]⟩ : Shape).Idx → α)
    (h : (⟨1, ![D]⟩ : Shape).ShapeCasts ⟨2, ![1, D]⟩) (r : Fin 1) (d : Fin D) :
    shapeCast ⟨2, ![1, D]⟩ b h (ValueIdx.ix2 r d) = b (ValueIdx.ix1 d) :=
  shapeCast_apply b h _ _ (by
    rw [Shape.rowMajor_val_one, Shape.rowMajor_val_two]
    show d.val = r.val * D + d.val
    have hr0 : r.val = 0 := by have := r.isLt; omega
    rw [hr0]
    omega)

/-- The 16-column matrix times the row mask, at an entry. -/
theorem maskRows16_apply (v : Vec Ideal S100352x16 .f32) (mk : Vec Ideal S100352x1 .f32) (n : Fin 100352) (d : Fin 16) :
    (KH.maskRows16 v mk (ValueIdx.ix2 n d) : EReal) = v (ValueIdx.ix2 n d) * mk (ValueIdx.ix2 n (0 : Fin 1)) := by
  unfold KH.maskRows16
  rw [ValueIdx.mulf_apply, bcast_col_apply]

/-- The 64-column matrix times the row mask, at an entry. -/
theorem maskRows64_apply (v : Vec Ideal S100352x64 .f32) (mk : Vec Ideal S100352x1 .f32) (n : Fin 100352) (d : Fin 64) :
    (KH.maskRows64 v mk (ValueIdx.ix2 n d) : EReal) = v (ValueIdx.ix2 n d) * mk (ValueIdx.ix2 n (0 : Fin 1)) := by
  unfold KH.maskRows64
  rw [ValueIdx.mulf_apply, bcast_col_apply]

/-- The 32-column matrix times the row mask, at an entry. -/
theorem maskRows32_apply (v : Vec Ideal S100352x32 .f32) (mk : Vec Ideal S100352x1 .f32) (n : Fin 100352) (d : Fin 32) :
    (KH.maskRows32 v mk (ValueIdx.ix2 n d) : EReal) = v (ValueIdx.ix2 n d) * mk (ValueIdx.ix2 n (0 : Fin 1)) := by
  unfold KH.maskRows32
  rw [ValueIdx.mulf_apply, bcast_col_apply]

/-- The bias of 16 entries as a one-row matrix, at an entry. -/
theorem biasRow16_apply (b : Vec Ideal S16 .f32) (d : Fin 16) :
    KH.biasRow16 b (ValueIdx.ix2 (0 : Fin 1) d) = b (ValueIdx.ix1 d) := by
  unfold KH.biasRow16
  exact row_of_vec_apply b _ 0 d

/-- The bias of 64 entries as a one-row matrix, at an entry. -/
theorem biasRow64_apply (b : Vec Ideal S64 .f32) (d : Fin 64) :
    KH.biasRow64 b (ValueIdx.ix2 (0 : Fin 1) d) = b (ValueIdx.ix1 d) := by
  unfold KH.biasRow64
  exact row_of_vec_apply b _ 0 d

/-- The bias of 32 entries as a one-row matrix, at an entry. -/
theorem biasRow32_apply (b : Vec Ideal S32 .f32) (d : Fin 32) :
    KH.biasRow32 b (ValueIdx.ix2 (0 : Fin 1) d) = b (ValueIdx.ix1 d) := by
  unfold KH.biasRow32
  exact row_of_vec_apply b _ 0 d

end Cert.Proof.GJ
-- ==== Proof.KHostC.lean ====
/- The host tail after the pooling region, as ONE function of the pooled sums, the counts and the head's weights:
   stretch by stretch from any contents of the buffers, then composed. -/
import proofs.«417346_j54202487276072_2_alg».proof.Proof.Gen.KernelIdeal.Launch
import Idealize.ShloMosaic.Lib.StableHlo.Run
import proofs.«417346_j54202487276072_2_alg».proof.Proof.RegionsKI
set_option maxRecDepth 1692

noncomputable section

namespace Cert.KernelIdeal.KH

open Cert.KernelIdeal Cert.KernelIdeal.Gen Cert.KernelIdeal.GenP
open Idealize.ShloMosaic Idealize.ShloMosaic.TcCoe

variable {F : FTy → Type} [FloatOps F]

/-- Mean pooling: each graph's summed node features divided by its node count, a count below one read as one. -/
def mol (sums : Vec F S64x32 .f32) (cnts : Vec F S64x1 .f32) : Vec F S64x32 .f32 :=
  ((Host.divf : (⟨S64x32, .f32⟩ : BufTy).Contents (Elt F) → (⟨S64x32, .f32⟩ : BufTy).Contents (Elt F) → (⟨S64x32, .f32⟩ : BufTy).Contents (Elt F)) sums ((broadcastInDim S64x32 ![0, 1] bcast_S64x1_S64x32_0_1 : (⟨S64x1, .f32⟩ : BufTy).Contents (Elt F) → (⟨S64x32, .f32⟩ : BufTy).Contents (Elt F)) ((maximumf : (⟨S64x1, .f32⟩ : BufTy).Contents (Elt F) → (⟨S64x1, .f32⟩ : BufTy).Contents (Elt F) → (⟨S64x1, .f32⟩ : BufTy).Contents (Elt F)) cnts ((broadcastInDim S64x1 ![] bcast_S_S64x1 : (⟨S_, .f32⟩ : BufTy).Contents (Elt F) → (⟨S64x1, .f32⟩ : BufTy).Contents (Elt F)) ((constant (F := F) S_ .f32 0x3F800000#32) : (⟨S_, .f32⟩ : BufTy).Contents (Elt F))))))

/-- The head's first dense layer before its relu: `molv · Wp1 + bp1`. -/
def head1 (molv : Vec F S64x32 .f32) (Wp1 : Vec F S32x64 .f32) (bp1 : Vec F S64 .f32) : Vec F S64x64 .f32 :=
  ((addf : (⟨S64x64, .f32⟩ : BufTy).Contents (Elt F) → (⟨S64x64, .f32⟩ : BufTy).Contents (Elt F) → (⟨S64x64, .f32⟩ : BufTy).Contents (Elt F)) (((fun l r => Host.dotGeneral dot_S64x32_S32x64_S64x64_1_0_0_1_n_n none l r) : (⟨S64x32, .f32⟩ : BufTy).Contents (Elt F) → (⟨S32x64, .f32⟩ : BufTy).Contents (Elt F) → (⟨S64x64, .f32⟩ : BufTy).Contents (Elt F)) molv Wp1) ((broadcastInDim S64x64 ![0, 1] bcast_S1x64_S64x64_0_1 : (⟨S1x64, .f32⟩ : BufTy).Contents (Elt F) → (⟨S64x64, .f32⟩ : BufTy).Contents (Elt F)) ((broadcastInDim S1x64 ![1] bcast_S64_S1x64_1 : (⟨S64, .f32⟩ : BufTy).Contents (Elt F) → (⟨S1x64, .f32⟩ : BufTy).Contents (Elt F)) bp1)))

/-- relu on a 64 × 64 matrix. -/
def relu64 (v : Vec F S64x64 .f32) : Vec F S64x64 .f32 :=
  ((maximumf : (⟨S64x64, .f32⟩ : BufTy).Contents (Elt F) → (⟨S64x64, .f32⟩ : BufTy).Contents (Elt F) → (⟨S64x64, .f32⟩ : BufTy).Contents (Elt F)) v (((broadcastInDim S64x64 ![] bcast_S_S64x64) : (⟨S_, .f32⟩ : BufTy).Contents (Elt F) → (⟨S64x64, .f32⟩ : BufTy).Contents (Elt F)) ((constant (F := F) S_ .f32 0x00000000#32) : (⟨S_, .f32⟩ : BufTy).Contents (Elt F))))

/-- The head's second dense layer before its relu, on the first layer's output with the action columns appended. -/
def head2 (h : Vec F S64x64 .f32) (action : Vec F S64x4 .f32) (Wp2 : Vec F S68x10 .f32) (bp2 : Vec F S10 .f32) : Vec F S64x10 .f32 :=
  ((addf : (⟨S64x10, .f32⟩ : BufTy).Contents (Elt F) → (⟨S64x10, .f32⟩ : BufTy).Contents (Elt F) → (⟨S64x10, .f32⟩ : BufTy).Contents (Elt F)) (((fun l r => Host.dotGeneral dot_S64x68_S68x10_S64x10_1_0_0_1_n_n none l r) : (⟨S64x68, .f32⟩ : BufTy).Contents (Elt F) → (⟨S68x10, .f32⟩ : BufTy).Contents (Elt F) → (⟨S64x10, .f32⟩ : BufTy).Contents (Elt F)) (((fun a b => concatenate S64x68 1 [⟨S64x64, a⟩, ⟨S64x4, b⟩] concatenates_S64x64_S64x4_S64x68_d1) : (⟨S64x64, .f32⟩ : BufTy).Contents (Elt F) → (⟨S64x4, .f32⟩ : BufTy).Contents (Elt F) → (⟨S64x68, .f32⟩ : BufTy).Contents (Elt F)) h action) Wp2) ((broadcastInDim S64x10 ![0, 1] bcast_S1x10_S64x10_0_1 : (⟨S1x10, .f32⟩ : BufTy).Contents (Elt F) → (⟨S64x10, .f32⟩ : BufTy).Contents (Elt F)) ((broadcastInDim S1x10 ![1] bcast_S10_S1x10_1 : (⟨S10, .f32⟩ : BufTy).Contents (Elt F) → (⟨S1x10, .f32⟩ : BufTy).Contents (Elt F)) bp2)))

/-- relu on a 64 × 10 matrix. -/
def relu10 (v : Vec F S64x10 .f32) : Vec F S64x10 .f32 :=
  ((maximumf : (⟨S64x10, .f32⟩ : BufTy).Contents (Elt F) → (⟨S64x10, .f32⟩ : BufTy).Contents (Elt F) → (⟨S64x10, .f32⟩ : BufTy).Contents (Elt F)) v (((broadcastInDim S64x10 ![] bcast_S_S64x10) : (⟨S_, .f32⟩ : BufTy).Contents (Elt F) → (⟨S64x10, .f32⟩ : BufTy).Contents (Elt F)) ((constant (F := F) S_ .f32 0x00000000#32) : (⟨S_, .f32⟩ : BufTy).Contents (Elt F))))

/-- The head's last dense layer: `h · Wp3 + bp3`. -/
def head3 (h : Vec F S64x10 .f32) (Wp3 : Vec F S10x1 .f32) (bp3 : Vec F S1 .f32) : Vec F S64x1 .f32 :=
  ((addf : (⟨S64x1, .f32⟩ : BufTy).Contents (Elt F) → (⟨S64x1, .f32⟩ : BufTy).Contents (Elt F) → (⟨S64x1, .f32⟩ : BufTy).Contents (Elt F)) (((fun l r => Host.dotGeneral dot_S64x10_S10x1_S64x1_1_0_0_1_n_n none l r) : (⟨S64x10, .f32⟩ : BufTy).Contents (Elt F) → (⟨S10x1, .f32⟩ : BufTy).Contents (Elt F) → (⟨S64x1, .f32⟩ : BufTy).Contents (Elt F)) h Wp3) ((broadcastInDim S64x1 ![0, 1] bcast_S1x1_S64x1_0_1 : (⟨S1x1, .f32⟩ : BufTy).Contents (Elt F) → (⟨S64x1, .f32⟩ : BufTy).Contents (Elt F)) ((broadcastInDim S1x1 ![1] bcast_S1_S1x1_1 : (⟨S1, .f32⟩ : BufTy).Contents (Elt F) → (⟨S1x1, .f32⟩ : BufTy).Contents (Elt F)) bp3)))

/-- The head on the pooled features. -/
def tailFromMol (molv : Vec F S64x32 .f32) (Wp1 : Vec F S32x64 .f32) (bp1 : Vec F S64 .f32) (action : Vec F S64x4 .f32) (Wp2 : Vec F S68x10 .f32) (bp2 : Vec F S10 .f32) (Wp3 : Vec F S10x1 .f32) (bp3 : Vec F S1 .f32) : Vec F S64x1 .f32 :=
  head3 (relu10 (head2 (relu64 (head1 molv Wp1 bp1)) action Wp2 bp2)) Wp3 bp3

/-- The whole tail: pooling's division, then the head. -/
def tail (sums : Vec F S64x32 .f32) (cnts : Vec F S64x1 .f32) (Wp1 : Vec F S32x64 .f32) (bp1 : Vec F S64 .f32) (action : Vec F S64x4 .f32) (Wp2 : Vec F S68x10 .f32) (bp2 : Vec F S10 .f32) (Wp3 : Vec F S10x1 .f32) (bp3 : Vec F S1 .f32) : Vec F S64x1 .f32 :=
  tailFromMol (mol sums cnts) Wp1 bp1 action Wp2 bp2 Wp3 bp3

/-! ### Stretch by stretch, from any contents -/

theorem h10_v126 (U : Valuation τ sig (Elt F)) : StableHlo.after hostOps10 U main_v126 = mol (U main_v122_0) (U main_v122_1) := by
  dsimp only [hostOps10]; after_results <;> (try simp only [StableHlo.TRef.ofBuf, StableHlo.TRef.toBuf, cast_eq]) <;> rfl
theorem h10_v130 (U : Valuation τ sig (Elt F)) :
    StableHlo.after hostOps10 U main_v130 = head1 (mol (U main_v122_0) (U main_v122_1)) (U main_arg10) (U main_arg11) := by
  dsimp only [hostOps10]; after_results <;> (try simp only [StableHlo.TRef.ofBuf, StableHlo.TRef.toBuf, cast_eq]) <;> rfl
theorem h10_1_v131 (U : Valuation τ sig (Elt F)) : StableHlo.after hostOps10_1 U main_v131 = relu64 (U main_v130) := by
  dsimp only [hostOps10_1]; after_results <;> (try simp only [StableHlo.TRef.ofBuf, StableHlo.TRef.toBuf, cast_eq]) <;> rfl
theorem h10_2_v136 (U : Valuation τ sig (Elt F)) :
    StableHlo.after hostOps10_2 U main_v136 = head2 (U main_v131) (U main_arg3) (U main_arg12) (U main_arg13) := by
  dsimp only [hostOps10_2]; after_results <;> (try simp only [StableHlo.TRef.ofBuf, StableHlo.TRef.toBuf, cast_eq]) <;> rfl
theorem h10_3_v137 (U : Valuation τ sig (Elt F)) : StableHlo.after hostOps10_3 U main_v137 = relu10 (U main_v136) := by
  dsimp only [hostOps10_3]; after_results <;> (try simp only [StableHlo.TRef.ofBuf, StableHlo.TRef.toBuf, cast_eq]) <;> rfl
theorem h10_4_v141 (U : Valuation τ sig (Elt F)) :
    StableHlo.after hostOps10_4 U main_v141 = head3 (U main_v137) (U main_arg14) (U main_arg15) := by
  dsimp only [hostOps10_4]; after_results <;> (try simp only [StableHlo.TRef.ofBuf, StableHlo.TRef.toBuf, cast_eq]) <;> rfl

/-- A reference a tail stretch does not write keeps its contents. -/
theorem nw10 (U : Valuation τ sig (Elt F)) (r : Ref sig .tc) (h : r ∉ hostOps10_W) : StableHlo.after hostOps10 U r = U r :=
  StableHlo.after_of_writes_sub hostOps10 U hostOps10_writes h
theorem nw10_1 (U : Valuation τ sig (Elt F)) (r : Ref sig .tc) (h : r ∉ hostOps10_1_W) : StableHlo.after hostOps10_1 U r = U r :=
  StableHlo.after_of_writes_sub hostOps10_1 U hostOps10_1_writes h
theorem nw10_2 (U : Valuation τ sig (Elt F)) (r : Ref sig .tc) (h : r ∉ hostOps10_2_W) : StableHlo.after hostOps10_2 U r = U r :=
  StableHlo.after_of_writes_sub hostOps10_2 U hostOps10_2_writes h
theorem nw10_3 (U : Valuation τ sig (Elt F)) (r : Ref sig .tc) (h : r ∉ hostOps10_3_W) : StableHlo.after hostOps10_3 U r = U r :=
  StableHlo.after_of_writes_sub hostOps10_3 U hostOps10_3_writes h

/-! ### Composed -/

/-- What the five tail stretches leave in the result buffer, from any contents of the buffers. -/
theorem tail_v141 (U : Valuation τ sig (Elt F)) :
    StableHlo.after hostOps10_4 (StableHlo.after hostOps10_3 (StableHlo.after hostOps10_2 (StableHlo.after hostOps10_1 (StableHlo.after hostOps10 U)))) main_v141
      = tail (U main_v122_0) (U main_v122_1) (U main_arg10) (U main_arg11) (U main_arg3) (U main_arg12) (U main_arg13) (U main_arg14) (U main_arg15) := by
  rw [h10_4_v141]
  rw [h10_3_v137, nw10_3 _ main_arg14 (by decide), nw10_3 _ main_arg15 (by decide)]
  rw [h10_2_v136, nw10_2 _ main_arg14 (by decide), nw10_2 _ main_arg15 (by decide)]
  rw [h10_1_v131, nw10_1 _ main_arg3 (by decide), nw10_1 _ main_arg12 (by decide), nw10_1 _ main_arg13 (by decide), nw10_1 _ main_arg14 (by decide), nw10_1 _ main_arg15 (by decide)]
  rw [h10_v130, nw10 _ main_arg3 (by decide), nw10 _ main_arg12 (by decide), nw10 _ main_arg13 (by decide), nw10 _ main_arg14 (by decide), nw10 _ main_arg15 (by decide)]
  rfl

/-- The same at the valuations of the run: the result buffer after the last item. -/
theorem V37_v141 (m : (ℓ : Loc nD τ sig) → Buf (Elt F) ℓ) (outs : Outs (F := F)) (c : Dev nD) :
    V37 m outs c main_v141
      = tail (V32 m outs c main_v122_0) (V32 m outs c main_v122_1) (V32 m outs c main_arg10) (V32 m outs c main_arg11) (V32 m outs c main_arg3)
          (V32 m outs c main_arg12) (V32 m outs c main_arg13) (V32 m outs c main_arg14) (V32 m outs c main_arg15) :=
  tail_v141 (V32 m outs c)

end Cert.KernelIdeal.KH
-- ==== Proof.GlueMol.lean ====
/-
  The mean pool's quotient read at an entry, kernel side: each graph's summed features divided by its node
  count, a count below one read as one. The count is a one-column matrix laid out along the 32 feature columns.
-/
import proofs.«417346_j54202487276072_2_alg».proof.Proof.KHostC
import Idealize.ShloMosaic.Lib.StableHlo.Predicate
import Idealize.ShloMosaic.Lib.ValueIdx

set_option maxRecDepth 1692

noncomputable section

namespace Cert.Proof.GM

open Idealize.ShloMosaic Idealize.ShloMosaic.StableHlo.Predicate
open Cert.KernelIdeal Cert.KernelIdeal.Gen

/-- The host's quotient of two arrays at an index, at the ideal values. -/
theorem hdivf_apply {s : Shape} (a b : FVec Ideal s .f32) (i : s.Idx) :
    Host.divf a b i = Ideal.div (a i) (b i) := rfl

/-- A one-column matrix laid out along the columns of an [n × m] rectangle reads, at `(p, q)`, its row `p`. -/
theorem col_bcast_apply {α : Type} {n m : Nat} (h : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h v (ValueIdx.ix2 p q) = v (ValueIdx.ix2 p (0 : Fin 1)) := by
  have e2 : (ValueIdx.ix2 p q : (⟨2, ![n, m]⟩ : Shape).Idx) = ij p q := by
    funext a
    match a with
    | ⟨0, _⟩ => rfl
    | ⟨1, _⟩ => rfl
  have e1 : (ixP p : (⟨2, ![n, 1]⟩ : Shape).Idx) = ValueIdx.ix2 p (0 : Fin 1) := by
    funext a
    match a with
    | ⟨0, _⟩ => rfl
    | ⟨1, _⟩ => rfl
  rw [e2, bcast_of_col h v p q, e1]

/-- The mean pool at graph `g`, feature `d`: the summed feature over the larger of the node count and one. -/
theorem mol_apply (sums : Vec Ideal S64x32 .f32) (cnts : Vec Ideal S64x1 .f32) (g : Fin 64) (d : Fin 32) :
    (KH.mol (F := Ideal) sums cnts (ValueIdx.ix2 g d) : EReal)
      = Ideal.div (sums (ValueIdx.ix2 g d))
          (max (cnts (ValueIdx.ix2 g (0 : Fin 1))) (Ideal.ofBits .f32 0x3F800000#32)) := by
  unfold KH.mol
  rw [hdivf_apply, col_bcast_apply, ValueIdx.maximumf_apply]
  rfl

end Cert.Proof.GM
-- ==== Proof.GlueMolR.lean ====
/-
  The mean pool's quotient read at an entry, reference side: each graph's summed features divided by its node
  count, a count below one read as one. The count is a vector laid out in two steps, first as a one-column
  matrix and then along the 32 feature columns; at an entry it is the vector's entry at the graph.
-/
import proofs.«417346_j54202487276072_2_alg».proof.Proof.RefRead

noncomputable section

namespace Cert.Proof.GMR

open Idealize.ShloMosaic
open Cert.ReferenceIdeal Cert.ReferenceIdeal.Gen Cert.ReferenceIdeal.ReadP

/-- The two layout steps of the count, composed, send entry `(g, d)` to the vector's position `g`. -/
theorem idx_mol (g : Fin 64) (d : Fin 32) :
    idx_main_v123 (idx_main_v124 (ValueIdx.ix2 g d)) = ValueIdx.ix1 g := by
  funext a
  match a with
  | ⟨0, _⟩ => rfl

/-- The mean pool at graph `g`, feature `d`: the summed feature over the larger of the node count and one. -/
theorem molR_apply (x0 : FVec Ideal S100000x128 .f32) (x1 : IVec S2x1600000 32) (x2 : IVec S100000 32)
    (x4 : FVec Ideal S128x16 .f32) (x5 : FVec Ideal S16 .f32) (x6 : FVec Ideal S16x64 .f32)
    (x7 : FVec Ideal S64 .f32) (x8 : FVec Ideal S64x32 .f32) (x9 : FVec Ideal S32 .f32)
    (g : Fin 64) (d : Fin 32) :
    (val_main_v125 (F := Ideal) x0 x1 x2 x4 x5 x6 x7 x8 x9 (ValueIdx.ix2 g d) : EReal)
      = Ideal.div (val_main_v116 (F := Ideal) x0 x1 x2 x4 x5 x6 x7 x8 x9 (ValueIdx.ix2 g d))
          (max (val_main_v120 (F := Ideal) x2 (ValueIdx.ix1 g)) (Ideal.ofBits .f32 0x3F800000#32)) := by
  rw [val_main_v125_apply, val_main_v124_apply, val_main_v123_apply, val_main_v122_apply, val_main_v121_apply,
    val_main_cst_27_apply, idx_mol, Ideal.hostDivf_def, Ideal.maximumf_def, Ideal.ofBits_def]

end Cert.Proof.GMR
-- ==== Proof.KHostA.lean ====
/- The buffers' contents when the first kernel region is entered, as the named functions of the argument arrays:
   level by level through the sixteen host stretches. -/
import proofs.«417346_j54202487276072_2_alg».proof.Proof.RegionsKI
import proofs.«417346_j54202487276072_2_alg».proof.Proof.KHostA0

set_option maxRecDepth 1692

noncomputable section

namespace Cert.KernelIdeal.KH

open Cert.KernelIdeal Cert.KernelIdeal.Gen Cert.KernelIdeal.GenP
open Idealize.ShloMosaic Idealize.ShloMosaic.TcCoe

variable {F : FTy → Type} [FloatOps F]
variable (m : (ℓ : Loc nD τ sig) → Buf (Elt F) ℓ)

/-! ### After the first stretch -/
theorem V1_v1 (c : Dev nD) : V1 m c main_v1 = src0 (m ((c : Thread nD τ).loc main_arg1)) :=
  h0_v1 (V0 m c)
theorem V1_v3 (c : Dev nD) : V1 m c main_v3 = dst0 (m ((c : Thread nD τ).loc main_arg1)) :=
  h0_v3 (V0 m c)
theorem V1_v31 (c : Dev nD) : V1 m c main_v31 = normE (m ((c : Thread nD τ).loc main_arg1)) :=
  h0_v31 (V0 m c)
theorem V1_v32 (c : Dev nD) : V1 m c main_v32 = selfNorm (m ((c : Thread nD τ).loc main_arg1)) :=
  h0_v32 (V0 m c)
theorem V1_c_8 (c : Dev nD) : V1 m c main_c_8 = (constantI S_ 32 0#32 : (⟨S_, .i32⟩ : BufTy).Contents (Elt F)) :=
  h0_c_8 (V0 m c)

/-! ### The paddings and the three sorts -/
theorem V2_v33 (c : Dev nD) : V2 m c main_v33 = srcP (m ((c : Thread nD τ).loc main_arg1)) := by
  refine (h0_1_v33 (V1 m c)).trans ?_
  rw [V1_v1 m c, V1_c_8 m c]
  rfl
theorem V3_c_9 (c : Dev nD) : V3 m c main_c_9 = (constantI S_ 32 0#32 : (⟨S_, .i32⟩ : BufTy).Contents (Elt F)) := h0_2_c_9 (V2 m c)
theorem V3_v3 (c : Dev nD) : V3 m c main_v3 = dst0 (m ((c : Thread nD τ).loc main_arg1)) :=
  ((V3_of m c main_v3 (by decide)).trans <| (V2_of m c main_v3 (by decide))).trans (V1_v3 m c)
theorem V4_v34 (c : Dev nD) : V4 m c main_v34 = dstP (m ((c : Thread nD τ).loc main_arg1)) := by
  refine (h0_3_v34 (V3 m c)).trans ?_
  rw [V3_v3 m c, V3_c_9 m c]
  rfl
theorem V5_c_10 (c : Dev nD) : V5 m c main_c_10 = (constantI S_ 32 0#32 : (⟨S_, .i32⟩ : BufTy).Contents (Elt F)) := h0_4_c_10 (V4 m c)
theorem V5_v31 (c : Dev nD) : V5 m c main_v31 = normE (m ((c : Thread nD τ).loc main_arg1)) :=
  ((V5_of m c main_v31 (by decide)).trans <| (V4_of m c main_v31 (by decide)).trans <| (V3_of m c main_v31 (by decide)).trans <| (V2_of m c main_v31 (by decide))).trans (V1_v31 m c)
theorem V6_v35 (c : Dev nD) : V6 m c main_v35 = normP (m ((c : Thread nD τ).loc main_arg1)) := by
  refine (h0_5_v35 (V5 m c)).trans ?_
  rw [V5_v31 m c, V5_c_10 m c]
  rfl
theorem V6_v33 (c : Dev nD) : V6 m c main_v33 = srcP (m ((c : Thread nD τ).loc main_arg1)) :=
  ((V6_of m c main_v33 (by decide)).trans <| (V5_of m c main_v33 (by decide)).trans <| (V4_of m c main_v33 (by decide)).trans <| (V3_of m c main_v33 (by decide))).trans (V2_v33 m c)
theorem V7_v36 (c : Dev nD) : V7 m c main_v36 = permSrc (m ((c : Thread nD τ).loc main_arg1)) := by
  refine (h0_6_v36 (V6 m c)).trans ?_
  rw [V6_v33 m c]
  rfl
theorem V8_v37 (c : Dev nD) : V8 m c main_v37 = invPermSrc (m ((c : Thread nD τ).loc main_arg1)) := by
  refine (h0_7_v37 (V7 m c)).trans ?_
  rw [V7_v36 m c]
  rfl
theorem V8_v34 (c : Dev nD) : V8 m c main_v34 = dstP (m ((c : Thread nD τ).loc main_arg1)) :=
  ((V8_of m c main_v34 (by decide)).trans <| (V7_of m c main_v34 (by decide)).trans <| (V6_of m c main_v34 (by decide)).trans <| (V5_of m c main_v34 (by decide))).trans (V4_v34 m c)
theorem V9_v38 (c : Dev nD) : V9 m c main_v38 = permDst (m ((c : Thread nD τ).loc main_arg1)) := by
  refine (h0_8_v38 (V8 m c)).trans ?_
  rw [V8_v34 m c]
  rfl

/-! ### The operands of the ninth stretch, where it starts -/
theorem V9_v33 (c : Dev nD) : V9 m c main_v33 = srcP (m ((c : Thread nD τ).loc main_arg1)) :=
  ((V9_of m c main_v33 (by decide)).trans <| (V8_of m c main_v33 (by decide)).trans <| (V7_of m c main_v33 (by decide)).trans <| (V6_of m c main_v33 (by decide)).trans <| (V5_of m c main_v33 (by decide)).trans <| (V4_of m c main_v33 (by decide)).trans <| (V3_of m c main_v33 (by decide))).trans (V2_v33 m c)
theorem V9_v34 (c : Dev nD) : V9 m c main_v34 = dstP (m ((c : Thread nD τ).loc main_arg1)) :=
  ((V9_of m c main_v34 (by decide)).trans <| (V8_of m c main_v34 (by decide)).trans <| (V7_of m c main_v34 (by decide)).trans <| (V6_of m c main_v34 (by decide)).trans <| (V5_of m c main_v34 (by decide))).trans (V4_v34 m c)
theorem V9_v35 (c : Dev nD) : V9 m c main_v35 = normP (m ((c : Thread nD τ).loc main_arg1)) :=
  ((V9_of m c main_v35 (by decide)).trans <| (V8_of m c main_v35 (by decide)).trans <| (V7_of m c main_v35 (by decide))).trans (V6_v35 m c)
theorem V9_v36 (c : Dev nD) : V9 m c main_v36 = permSrc (m ((c : Thread nD τ).loc main_arg1)) :=
  ((V9_of m c main_v36 (by decide)).trans <| (V8_of m c main_v36 (by decide))).trans (V7_v36 m c)
theorem V9_v37 (c : Dev nD) : V9 m c main_v37 = invPermSrc (m ((c : Thread nD τ).loc main_arg1)) :=
  ((V9_of m c main_v37 (by decide))).trans (V8_v37 m c)

/-! ### What the ninth stretch writes -/
theorem V10_v45 (c : Dev nD) : V10 m c main_v45 = comb (m ((c : Thread nD τ).loc main_arg1)) := by
  refine (h0_9_v45 (V9 m c)).trans ?_
  rw [V9_v37 m c, V9_v38 m c]
  rfl
theorem V10_v52 (c : Dev nD) : V10 m c main_v52 = srcSorted (m ((c : Thread nD τ).loc main_arg1)) := by
  refine (h0_9_v52 (V9 m c)).trans ?_
  rw [V9_v33 m c, V9_v36 m c]
  rfl
theorem V10_v59 (c : Dev nD) : V10 m c main_v59 = normSorted (m ((c : Thread nD τ).loc main_arg1)) := by
  refine (h0_9_v59 (V9 m c)).trans ?_
  rw [V9_v35 m c, V9_v36 m c]
  rfl
theorem V10_v66 (c : Dev nD) : V10 m c main_v66 = dstSorted (m ((c : Thread nD τ).loc main_arg1)) := by
  refine (h0_9_v66 (V9 m c)).trans ?_
  rw [V9_v34 m c, V9_v38 m c]
  rfl
theorem V10_v68 (c : Dev nD) : V10 m c main_v68 = tminSrc (m ((c : Thread nD τ).loc main_arg1)) := by
  refine (h0_9_v68 (V9 m c)).trans ?_
  rw [V9_v33 m c, V9_v36 m c]
  rfl
theorem V10_v70 (c : Dev nD) : V10 m c main_v70 = tmaxSrc (m ((c : Thread nD τ).loc main_arg1)) := by
  refine (h0_9_v70 (V9 m c)).trans ?_
  rw [V9_v33 m c, V9_v36 m c]
  rfl
theorem V10_v72 (c : Dev nD) : V10 m c main_v72 = tminDst (m ((c : Thread nD τ).loc main_arg1)) := by
  refine (h0_9_v72 (V9 m c)).trans ?_
  rw [V9_v34 m c, V9_v38 m c]
  rfl
theorem V10_v74 (c : Dev nD) : V10 m c main_v74 = tmaxDst (m ((c : Thread nD τ).loc main_arg1)) := by
  refine (h0_9_v74 (V9 m c)).trans ?_
  rw [V9_v34 m c, V9_v38 m c]
  rfl
theorem V10_c_23 (c : Dev nD) : V10 m c main_c_23 = (constantI S_ 32 0#32 : (⟨S_, .i32⟩ : BufTy).Contents (Elt F)) := h0_9_c_23 (V9 m c)

/-! ### The last paddings and the row mask -/
theorem V10_arg0 (c : Dev nD) : V10 m c main_arg0 = (m ((c : Thread nD τ).loc main_arg0)) :=
  (V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide))
theorem V11_v75 (c : Dev nD) : V11 m c main_v75 = xP (m ((c : Thread nD τ).loc main_arg0)) := by
  refine (h0_10_v75 (V10 m c)).trans ?_
  rw [V10_arg0 m c, V10_c_23 m c]
  rfl
theorem V12_c_24 (c : Dev nD) : V12 m c main_c_24 = (constantI S_ 32 0#32 : (⟨S_, .i32⟩ : BufTy).Contents (Elt F)) := h0_11_c_24 (V11 m c)
theorem V12_v32 (c : Dev nD) : V12 m c main_v32 = selfNorm (m ((c : Thread nD τ).loc main_arg1)) :=
  ((V12_of m c main_v32 (by decide)).trans <| (V11_of m c main_v32 (by decide)).trans <| (V10_of m c main_v32 (by decide)).trans <| (V9_of m c main_v32 (by decide)).trans <| (V8_of m c main_v32 (by decide)).trans <| (V7_of m c main_v32 (by decide)).trans <| (V6_of m c main_v32 (by decide)).trans <| (V5_of m c main_v32 (by decide)).trans <| (V4_of m c main_v32 (by decide)).trans <| (V3_of m c main_v32 (by decide)).trans <| (V2_of m c main_v32 (by decide))).trans (V1_v32 m c)
theorem V13_v76 (c : Dev nD) : V13 m c main_v76 = selfNormP (m ((c : Thread nD τ).loc main_arg1)) := by
  refine (h0_12_v76 (V12 m c)).trans ?_
  rw [V12_v32 m c, V12_c_24 m c]
  rfl
theorem V14_c_25 (c : Dev nD) : V14 m c main_c_25 = (constantI S_ 32 4294967295#32 : (⟨S_, .i32⟩ : BufTy).Contents (Elt F)) := h0_13_c_25 (V13 m c)
theorem V14_arg2 (c : Dev nD) : V14 m c main_arg2 = (m ((c : Thread nD τ).loc main_arg2)) :=
  (V14_of m c main_arg2 (by decide)).trans <| (V13_of m c main_arg2 (by decide)).trans <| (V12_of m c main_arg2 (by decide)).trans <| (V11_of m c main_arg2 (by decide)).trans <| (V10_of m c main_arg2 (by decide)).trans <| (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide))
theorem V15_v77 (c : Dev nD) : V15 m c main_v77 = batchP (m ((c : Thread nD τ).loc main_arg2)) := by
  refine (h0_14_v77 (V14 m c)).trans ?_
  rw [V14_arg2 m c, V14_c_25 m c]
  rfl
theorem V16_v82' (c : Dev nD) : V16 m c main_v82 = maskCol := h0_15_v82 (V15 m c)

/-! ### At the first kernel region's entry -/
theorem V16_v45 (c : Dev nD) : V16 m c main_v45 = comb (m ((c : Thread nD τ).loc main_arg1)) :=
  ((V16_of m c main_v45 (by decide)).trans <| (V15_of m c main_v45 (by decide)).trans <| (V14_of m c main_v45 (by decide)).trans <| (V13_of m c main_v45 (by decide)).trans <| (V12_of m c main_v45 (by decide)).trans <| (V11_of m c main_v45 (by decide))).trans (V10_v45 m c)
theorem V16_v52 (c : Dev nD) : V16 m c main_v52 = srcSorted (m ((c : Thread nD τ).loc main_arg1)) :=
  ((V16_of m c main_v52 (by decide)).trans <| (V15_of m c main_v52 (by decide)).trans <| (V14_of m c main_v52 (by decide)).trans <| (V13_of m c main_v52 (by decide)).trans <| (V12_of m c main_v52 (by decide)).trans <| (V11_of m c main_v52 (by decide))).trans (V10_v52 m c)
theorem V16_v59 (c : Dev nD) : V16 m c main_v59 = normSorted (m ((c : Thread nD τ).loc main_arg1)) :=
  ((V16_of m c main_v59 (by decide)).trans <| (V15_of m c main_v59 (by decide)).trans <| (V14_of m c main_v59 (by decide)).trans <| (V13_of m c main_v59 (by decide)).trans <| (V12_of m c main_v59 (by decide)).trans <| (V11_of m c main_v59 (by decide))).trans (V10_v59 m c)
theorem V16_v66 (c : Dev nD) : V16 m c main_v66 = dstSorted (m ((c : Thread nD τ).loc main_arg1)) :=
  ((V16_of m c main_v66 (by decide)).trans <| (V15_of m c main_v66 (by decide)).trans <| (V14_of m c main_v66 (by decide)).trans <| (V13_of m c main_v66 (by decide)).trans <| (V12_of m c main_v66 (by decide)).trans <| (V11_of m c main_v66 (by decide))).trans (V10_v66 m c)
theorem V16_v68 (c : Dev nD) : V16 m c main_v68 = tminSrc (m ((c : Thread nD τ).loc main_arg1)) :=
  ((V16_of m c main_v68 (by decide)).trans <| (V15_of m c main_v68 (by decide)).trans <| (V14_of m c main_v68 (by decide)).trans <| (V13_of m c main_v68 (by decide)).trans <| (V12_of m c main_v68 (by decide)).trans <| (V11_of m c main_v68 (by decide))).trans (V10_v68 m c)
theorem V16_v70 (c : Dev nD) : V16 m c main_v70 = tmaxSrc (m ((c : Thread nD τ).loc main_arg1)) :=
  ((V16_of m c main_v70 (by decide)).trans <| (V15_of m c main_v70 (by decide)).trans <| (V14_of m c main_v70 (by decide)).trans <| (V13_of m c main_v70 (by decide)).trans <| (V12_of m c main_v70 (by decide)).trans <| (V11_of m c main_v70 (by decide))).trans (V10_v70 m c)
theorem V16_v72 (c : Dev nD) : V16 m c main_v72 = tminDst (m ((c : Thread nD τ).loc main_arg1)) :=
  ((V16_of m c main_v72 (by decide)).trans <| (V15_of m c main_v72 (by decide)).trans <| (V14_of m c main_v72 (by decide)).trans <| (V13_of m c main_v72 (by decide)).trans <| (V12_of m c main_v72 (by decide)).trans <| (V11_of m c main_v72 (by decide))).trans (V10_v72 m c)
theorem V16_v74 (c : Dev nD) : V16 m c main_v74 = tmaxDst (m ((c : Thread nD τ).loc main_arg1)) :=
  ((V16_of m c main_v74 (by decide)).trans <| (V15_of m c main_v74 (by decide)).trans <| (V14_of m c main_v74 (by decide)).trans <| (V13_of m c main_v74 (by decide)).trans <| (V12_of m c main_v74 (by decide)).trans <| (V11_of m c main_v74 (by decide))).trans (V10_v74 m c)
theorem V16_v75 (c : Dev nD) : V16 m c main_v75 = xP (m ((c : Thread nD τ).loc main_arg0)) :=
  ((V16_of m c main_v75 (by decide)).trans <| (V15_of m c main_v75 (by decide)).trans <| (V14_of m c main_v75 (by decide)).trans <| (V13_of m c main_v75 (by decide)).trans <| (V12_of m c main_v75 (by decide))).trans (V11_v75 m c)
theorem V16_v76 (c : Dev nD) : V16 m c main_v76 = selfNormP (m ((c : Thread nD τ).loc main_arg1)) :=
  ((V16_of m c main_v76 (by decide)).trans <| (V15_of m c main_v76 (by decide)).trans <| (V14_of m c main_v76 (by decide))).trans (V13_v76 m c)
theorem V16_v77 (c : Dev nD) : V16 m c main_v77 = batchP (m ((c : Thread nD τ).loc main_arg2)) :=
  ((V16_of m c main_v77 (by decide))).trans (V15_v77 m c)
theorem V16_v82 (c : Dev nD) : V16 m c main_v82 = maskCol := V16_v82' m c
theorem V16_arg0 (c : Dev nD) : V16 m c main_arg0 = (m ((c : Thread nD τ).loc main_arg0)) :=
  (V16_of m c main_arg0 (by decide)).trans <| (V15_of m c main_arg0 (by decide)).trans <| (V14_of m c main_arg0 (by decide)).trans <| (V13_of m c main_arg0 (by decide)).trans <| (V12_of m c main_arg0 (by decide)).trans <| (V11_of m c main_arg0 (by decide)).trans <| (V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide))
theorem V16_arg1 (c : Dev nD) : V16 m c main_arg1 = (m ((c : Thread nD τ).loc main_arg1)) :=
  (V16_of m c main_arg1 (by decide)).trans <| (V15_of m c main_arg1 (by decide)).trans <| (V14_of m c main_arg1 (by decide)).trans <| (V13_of m c main_arg1 (by decide)).trans <| (V12_of m c main_arg1 (by decide)).trans <| (V11_of m c main_arg1 (by decide)).trans <| (V10_of m c main_arg1 (by decide)).trans <| (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide))
theorem V16_arg2 (c : Dev nD) : V16 m c main_arg2 = (m ((c : Thread nD τ).loc main_arg2)) :=
  (V16_of m c main_arg2 (by decide)).trans <| (V15_of m c main_arg2 (by decide)).trans <| (V14_of m c main_arg2 (by decide)).trans <| (V13_of m c main_arg2 (by decide)).trans <| (V12_of m c main_arg2 (by decide)).trans <| (V11_of m c main_arg2 (by decide)).trans <| (V10_of m c main_arg2 (by decide)).trans <| (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide))
theorem V16_arg3 (c : Dev nD) : V16 m c main_arg3 = (m ((c : Thread nD τ).loc main_arg3)) :=
  (V16_of m c main_arg3 (by decide)).trans <| (V15_of m c main_arg3 (by decide)).trans <| (V14_of m c main_arg3 (by decide)).trans <| (V13_of m c main_arg3 (by decide)).trans <| (V12_of m c main_arg3 (by decide)).trans <| (V11_of m c main_arg3 (by decide)).trans <| (V10_of m c main_arg3 (by decide)).trans <| (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide))
theorem V16_arg4 (c : Dev nD) : V16 m c main_arg4 = (m ((c : Thread nD τ).loc main_arg4)) :=
  (V16_of m c main_arg4 (by decide)).trans <| (V15_of m c main_arg4 (by decide)).trans <| (V14_of m c main_arg4 (by decide)).trans <| (V13_of m c main_arg4 (by decide)).trans <| (V12_of m c main_arg4 (by decide)).trans <| (V11_of m c main_arg4 (by decide)).trans <| (V10_of m c main_arg4 (by decide)).trans <| (V9_of m c main_arg4 (by decide)).trans <| (V8_of m c main_arg4 (by decide)).trans <| (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide))
theorem V16_arg5 (c : Dev nD) : V16 m c main_arg5 = (m ((c : Thread nD τ).loc main_arg5)) :=
  (V16_of m c main_arg5 (by decide)).trans <| (V15_of m c main_arg5 (by decide)).trans <| (V14_of m c main_arg5 (by decide)).trans <| (V13_of m c main_arg5 (by decide)).trans <| (V12_of m c main_arg5 (by decide)).trans <| (V11_of m c main_arg5 (by decide)).trans <| (V10_of m c main_arg5 (by decide)).trans <| (V9_of m c main_arg5 (by decide)).trans <| (V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide))
theorem V16_arg6 (c : Dev nD) : V16 m c main_arg6 = (m ((c : Thread nD τ).loc main_arg6)) :=
  (V16_of m c main_arg6 (by decide)).trans <| (V15_of m c main_arg6 (by decide)).trans <| (V14_of m c main_arg6 (by decide)).trans <| (V13_of m c main_arg6 (by decide)).trans <| (V12_of m c main_arg6 (by decide)).trans <| (V11_of m c main_arg6 (by decide)).trans <| (V10_of m c main_arg6 (by decide)).trans <| (V9_of m c main_arg6 (by decide)).trans <| (V8_of m c main_arg6 (by decide)).trans <| (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide))
theorem V16_arg7 (c : Dev nD) : V16 m c main_arg7 = (m ((c : Thread nD τ).loc main_arg7)) :=
  (V16_of m c main_arg7 (by decide)).trans <| (V15_of m c main_arg7 (by decide)).trans <| (V14_of m c main_arg7 (by decide)).trans <| (V13_of m c main_arg7 (by decide)).trans <| (V12_of m c main_arg7 (by decide)).trans <| (V11_of m c main_arg7 (by decide)).trans <| (V10_of m c main_arg7 (by decide)).trans <| (V9_of m c main_arg7 (by decide)).trans <| (V8_of m c main_arg7 (by decide)).trans <| (V7_of m c main_arg7 (by decide)).trans <| (V6_of m c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide))
theorem V16_arg8 (c : Dev nD) : V16 m c main_arg8 = (m ((c : Thread nD τ).loc main_arg8)) :=
  (V16_of m c main_arg8 (by decide)).trans <| (V15_of m c main_arg8 (by decide)).trans <| (V14_of m c main_arg8 (by decide)).trans <| (V13_of m c main_arg8 (by decide)).trans <| (V12_of m c main_arg8 (by decide)).trans <| (V11_of m c main_arg8 (by decide)).trans <| (V10_of m c main_arg8 (by decide)).trans <| (V9_of m c main_arg8 (by decide)).trans <| (V8_of m c main_arg8 (by decide)).trans <| (V7_of m c main_arg8 (by decide)).trans <| (V6_of m c main_arg8 (by decide)).trans <| (V5_of m c main_arg8 (by decide)).trans <| (V4_of m c main_arg8 (by decide)).trans <| (V3_of m c main_arg8 (by decide)).trans <| (V2_of m c main_arg8 (by decide)).trans <| (V1_of m c main_arg8 (by decide))
theorem V16_arg9 (c : Dev nD) : V16 m c main_arg9 = (m ((c : Thread nD τ).loc main_arg9)) :=
  (V16_of m c main_arg9 (by decide)).trans <| (V15_of m c main_arg9 (by decide)).trans <| (V14_of m c main_arg9 (by decide)).trans <| (V13_of m c main_arg9 (by decide)).trans <| (V12_of m c main_arg9 (by decide)).trans <| (V11_of m c main_arg9 (by decide)).trans <| (V10_of m c main_arg9 (by decide)).trans <| (V9_of m c main_arg9 (by decide)).trans <| (V8_of m c main_arg9 (by decide)).trans <| (V7_of m c main_arg9 (by decide)).trans <| (V6_of m c main_arg9 (by decide)).trans <| (V5_of m c main_arg9 (by decide)).trans <| (V4_of m c main_arg9 (by decide)).trans <| (V3_of m c main_arg9 (by decide)).trans <| (V2_of m c main_arg9 (by decide)).trans <| (V1_of m c main_arg9 (by decide))
theorem V16_arg10 (c : Dev nD) : V16 m c main_arg10 = (m ((c : Thread nD τ).loc main_arg10)) :=
  (V16_of m c main_arg10 (by decide)).trans <| (V15_of m c main_arg10 (by decide)).trans <| (V14_of m c main_arg10 (by decide)).trans <| (V13_of m c main_arg10 (by decide)).trans <| (V12_of m c main_arg10 (by decide)).trans <| (V11_of m c main_arg10 (by decide)).trans <| (V10_of m c main_arg10 (by decide)).trans <| (V9_of m c main_arg10 (by decide)).trans <| (V8_of m c main_arg10 (by decide)).trans <| (V7_of m c main_arg10 (by decide)).trans <| (V6_of m c main_arg10 (by decide)).trans <| (V5_of m c main_arg10 (by decide)).trans <| (V4_of m c main_arg10 (by decide)).trans <| (V3_of m c main_arg10 (by decide)).trans <| (V2_of m c main_arg10 (by decide)).trans <| (V1_of m c main_arg10 (by decide))
theorem V16_arg11 (c : Dev nD) : V16 m c main_arg11 = (m ((c : Thread nD τ).loc main_arg11)) :=
  (V16_of m c main_arg11 (by decide)).trans <| (V15_of m c main_arg11 (by decide)).trans <| (V14_of m c main_arg11 (by decide)).trans <| (V13_of m c main_arg11 (by decide)).trans <| (V12_of m c main_arg11 (by decide)).trans <| (V11_of m c main_arg11 (by decide)).trans <| (V10_of m c main_arg11 (by decide)).trans <| (V9_of m c main_arg11 (by decide)).trans <| (V8_of m c main_arg11 (by decide)).trans <| (V7_of m c main_arg11 (by decide)).trans <| (V6_of m c main_arg11 (by decide)).trans <| (V5_of m c main_arg11 (by decide)).trans <| (V4_of m c main_arg11 (by decide)).trans <| (V3_of m c main_arg11 (by decide)).trans <| (V2_of m c main_arg11 (by decide)).trans <| (V1_of m c main_arg11 (by decide))
theorem V16_arg12 (c : Dev nD) : V16 m c main_arg12 = (m ((c : Thread nD τ).loc main_arg12)) :=
  (V16_of m c main_arg12 (by decide)).trans <| (V15_of m c main_arg12 (by decide)).trans <| (V14_of m c main_arg12 (by decide)).trans <| (V13_of m c main_arg12 (by decide)).trans <| (V12_of m c main_arg12 (by decide)).trans <| (V11_of m c main_arg12 (by decide)).trans <| (V10_of m c main_arg12 (by decide)).trans <| (V9_of m c main_arg12 (by decide)).trans <| (V8_of m c main_arg12 (by decide)).trans <| (V7_of m c main_arg12 (by decide)).trans <| (V6_of m c main_arg12 (by decide)).trans <| (V5_of m c main_arg12 (by decide)).trans <| (V4_of m c main_arg12 (by decide)).trans <| (V3_of m c main_arg12 (by decide)).trans <| (V2_of m c main_arg12 (by decide)).trans <| (V1_of m c main_arg12 (by decide))
theorem V16_arg13 (c : Dev nD) : V16 m c main_arg13 = (m ((c : Thread nD τ).loc main_arg13)) :=
  (V16_of m c main_arg13 (by decide)).trans <| (V15_of m c main_arg13 (by decide)).trans <| (V14_of m c main_arg13 (by decide)).trans <| (V13_of m c main_arg13 (by decide)).trans <| (V12_of m c main_arg13 (by decide)).trans <| (V11_of m c main_arg13 (by decide)).trans <| (V10_of m c main_arg13 (by decide)).trans <| (V9_of m c main_arg13 (by decide)).trans <| (V8_of m c main_arg13 (by decide)).trans <| (V7_of m c main_arg13 (by decide)).trans <| (V6_of m c main_arg13 (by decide)).trans <| (V5_of m c main_arg13 (by decide)).trans <| (V4_of m c main_arg13 (by decide)).trans <| (V3_of m c main_arg13 (by decide)).trans <| (V2_of m c main_arg13 (by decide)).trans <| (V1_of m c main_arg13 (by decide))
theorem V16_arg14 (c : Dev nD) : V16 m c main_arg14 = (m ((c : Thread nD τ).loc main_arg14)) :=
  (V16_of m c main_arg14 (by decide)).trans <| (V15_of m c main_arg14 (by decide)).trans <| (V14_of m c main_arg14 (by decide)).trans <| (V13_of m c main_arg14 (by decide)).trans <| (V12_of m c main_arg14 (by decide)).trans <| (V11_of m c main_arg14 (by decide)).trans <| (V10_of m c main_arg14 (by decide)).trans <| (V9_of m c main_arg14 (by decide)).trans <| (V8_of m c main_arg14 (by decide)).trans <| (V7_of m c main_arg14 (by decide)).trans <| (V6_of m c main_arg14 (by decide)).trans <| (V5_of m c main_arg14 (by decide)).trans <| (V4_of m c main_arg14 (by decide)).trans <| (V3_of m c main_arg14 (by decide)).trans <| (V2_of m c main_arg14 (by decide)).trans <| (V1_of m c main_arg14 (by decide))
theorem V16_arg15 (c : Dev nD) : V16 m c main_arg15 = (m ((c : Thread nD τ).loc main_arg15)) :=
  (V16_of m c main_arg15 (by decide)).trans <| (V15_of m c main_arg15 (by decide)).trans <| (V14_of m c main_arg15 (by decide)).trans <| (V13_of m c main_arg15 (by decide)).trans <| (V12_of m c main_arg15 (by decide)).trans <| (V11_of m c main_arg15 (by decide)).trans <| (V10_of m c main_arg15 (by decide)).trans <| (V9_of m c main_arg15 (by decide)).trans <| (V8_of m c main_arg15 (by decide)).trans <| (V7_of m c main_arg15 (by decide)).trans <| (V6_of m c main_arg15 (by decide)).trans <| (V5_of m c main_arg15 (by decide)).trans <| (V4_of m c main_arg15 (by decide)).trans <| (V3_of m c main_arg15 (by decide)).trans <| (V2_of m c main_arg15 (by decide)).trans <| (V1_of m c main_arg15 (by decide))

end Cert.KernelIdeal.KH
-- ==== Proof.KHostD.lean ====
/- The buffers' contents at the levels where the kernel regions and the later host stretches read them: the arrays
   computed before the first region unchanged, every region's output as the region left it, and what the stretches
   between the regions make of those. -/
import proofs.«417346_j54202487276072_2_alg».proof.Proof.RegionsKI
import proofs.«417346_j54202487276072_2_alg».proof.Proof.KHostA
import proofs.«417346_j54202487276072_2_alg».proof.Proof.KHostC

set_option maxRecDepth 1692

noncomputable section

namespace Cert.KernelIdeal.KH

open Cert.KernelIdeal Cert.KernelIdeal.Gen Cert.KernelIdeal.GenP
open Idealize.ShloMosaic Idealize.ShloMosaic.TcCoe

variable {F : FTy → Type} [FloatOps F]
variable (m : (ℓ : Loc nD τ sig) → Buf (Elt F) ℓ) (outs : Outs (F := F))

/-! ### Layer 1: at the gather region's entry (level 17) -/
theorem V17_v83 (c : Dev nD) : V17 m outs c main_v83 = outs 17 main_v83 c :=
  Function.update_self (Proc.devRef (τ := τ) .tc main_v83) (outs 17 main_v83 c) (V16 m c)
theorem V17_v68 (c : Dev nD) : V17 m outs c main_v68 = tminSrc (m ((c : Thread nD τ).loc main_arg1)) :=
  ((V17_of m outs c main_v68 (by decide))).trans (V16_v68 m c)
theorem V17_v70 (c : Dev nD) : V17 m outs c main_v70 = tmaxSrc (m ((c : Thread nD τ).loc main_arg1)) :=
  ((V17_of m outs c main_v70 (by decide))).trans (V16_v70 m c)
theorem V17_v52 (c : Dev nD) : V17 m outs c main_v52 = srcSorted (m ((c : Thread nD τ).loc main_arg1)) :=
  ((V17_of m outs c main_v52 (by decide))).trans (V16_v52 m c)
theorem V17_v59 (c : Dev nD) : V17 m outs c main_v59 = normSorted (m ((c : Thread nD τ).loc main_arg1)) :=
  ((V17_of m outs c main_v59 (by decide))).trans (V16_v59 m c)

/-! ### … what the stretch after the gather region writes (level 19: the scatter region's entry) -/
theorem V18_v84 (c : Dev nD) : V18 m outs c main_v84 = outs 18 main_v84 c :=
  Function.update_self (Proc.devRef (τ := τ) .tc main_v84) (outs 18 main_v84 c) (V17 m outs c)
theorem V18_v45 (c : Dev nD) : V18 m outs c main_v45 = comb (m ((c : Thread nD τ).loc main_arg1)) :=
  ((V18_of m outs c main_v45 (by decide)).trans <| (V17_of m outs c main_v45 (by decide))).trans (V16_v45 m c)
theorem V18_arg5 (c : Dev nD) : V18 m outs c main_arg5 = (m ((c : Thread nD τ).loc main_arg5)) :=
  (V18_of m outs c main_arg5 (by decide)).trans <| (V17_of m outs c main_arg5 (by decide)).trans <| (V16_of m c main_arg5 (by decide)).trans <| (V15_of m c main_arg5 (by decide)).trans <| (V14_of m c main_arg5 (by decide)).trans <| (V13_of m c main_arg5 (by decide)).trans <| (V12_of m c main_arg5 (by decide)).trans <| (V11_of m c main_arg5 (by decide)).trans <| (V10_of m c main_arg5 (by decide)).trans <| (V9_of m c main_arg5 (by decide)).trans <| (V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide))
theorem V19_v91 (c : Dev nD) : V19 m outs c main_v91 = rows16 (outs 18 main_v84 c) (comb (m ((c : Thread nD τ).loc main_arg1))) :=
  (h2_v91 (V18 m outs c)).trans (by rw [V18_v84 m outs c, V18_v45 m outs c])
theorem V19_v92 (c : Dev nD) : V19 m outs c main_v92 = biasRow16 (m ((c : Thread nD τ).loc main_arg5)) :=
  (h2_v92 (V18 m outs c)).trans (by rw [V18_arg5 m outs c])
theorem V19_v72 (c : Dev nD) : V19 m outs c main_v72 = tminDst (m ((c : Thread nD τ).loc main_arg1)) :=
  ((V19_of m outs c main_v72 (by decide)).trans <| (V18_of m outs c main_v72 (by decide)).trans <| (V17_of m outs c main_v72 (by decide))).trans (V16_v72 m c)
theorem V19_v74 (c : Dev nD) : V19 m outs c main_v74 = tmaxDst (m ((c : Thread nD τ).loc main_arg1)) :=
  ((V19_of m outs c main_v74 (by decide)).trans <| (V18_of m outs c main_v74 (by decide)).trans <| (V17_of m outs c main_v74 (by decide))).trans (V16_v74 m c)
theorem V19_v66 (c : Dev nD) : V19 m outs c main_v66 = dstSorted (m ((c : Thread nD τ).loc main_arg1)) :=
  ((V19_of m outs c main_v66 (by decide)).trans <| (V18_of m outs c main_v66 (by decide)).trans <| (V17_of m outs c main_v66 (by decide))).trans (V16_v66 m c)
theorem V19_v76 (c : Dev nD) : V19 m outs c main_v76 = selfNormP (m ((c : Thread nD τ).loc main_arg1)) :=
  ((V19_of m outs c main_v76 (by decide)).trans <| (V18_of m outs c main_v76 (by decide)).trans <| (V17_of m outs c main_v76 (by decide))).trans (V16_v76 m c)
theorem V19_v83 (c : Dev nD) : V19 m outs c main_v83 = outs 17 main_v83 c :=
  ((V19_of m outs c main_v83 (by decide)).trans <| (V18_of m outs c main_v83 (by decide))).trans (V17_v83 m outs c)

/-! ### … what the stretch after the scatter region writes (level 21) -/
theorem V20_v93 (c : Dev nD) : V20 m outs c main_v93 = outs 20 main_v93 c :=
  Function.update_self (Proc.devRef (τ := τ) .tc main_v93) (outs 20 main_v93 c) (V19 m outs c)
theorem V20_v82 (c : Dev nD) : V20 m outs c main_v82 = maskCol :=
  ((V20_of m outs c main_v82 (by decide)).trans <| (V19_of m outs c main_v82 (by decide)).trans <| (V18_of m outs c main_v82 (by decide)).trans <| (V17_of m outs c main_v82 (by decide))).trans (V16_v82 m c)
theorem V21_v95 (c : Dev nD) : V21 m outs c main_v95 = maskRows16 (outs 20 main_v93 c) maskCol :=
  (h3_v95 (V20 m outs c)).trans (by rw [V20_v93 m outs c, V20_v82 m outs c])
theorem V21_arg6 (c : Dev nD) : V21 m outs c main_arg6 = (m ((c : Thread nD τ).loc main_arg6)) :=
  (V21_of m outs c main_arg6 (by decide)).trans <| (V20_of m outs c main_arg6 (by decide)).trans <| (V19_of m outs c main_arg6 (by decide)).trans <| (V18_of m outs c main_arg6 (by decide)).trans <| (V17_of m outs c main_arg6 (by decide)).trans <| (V16_of m c main_arg6 (by decide)).trans <| (V15_of m c main_arg6 (by decide)).trans <| (V14_of m c main_arg6 (by decide)).trans <| (V13_of m c main_arg6 (by decide)).trans <| (V12_of m c main_arg6 (by decide)).trans <| (V11_of m c main_arg6 (by decide)).trans <| (V10_of m c main_arg6 (by decide)).trans <| (V9_of m c main_arg6 (by decide)).trans <| (V8_of m c main_arg6 (by decide)).trans <| (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide))

/-! ### Layer 2: at the gather region's entry (level 22) -/
theorem V22_v96 (c : Dev nD) : V22 m outs c main_v96 = outs 22 main_v96 c :=
  Function.update_self (Proc.devRef (τ := τ) .tc main_v96) (outs 22 main_v96 c) (V21 m outs c)
theorem V22_v68 (c : Dev nD) : V22 m outs c main_v68 = tminSrc (m ((c : Thread nD τ).loc main_arg1)) :=
  ((V22_of m outs c main_v68 (by decide)).trans <| (V21_of m outs c main_v68 (by decide)).trans <| (V20_of m outs c main_v68 (by decide)).trans <| (V19_of m outs c main_v68 (by decide)).trans <| (V18_of m outs c main_v68 (by decide)).trans <| (V17_of m outs c main_v68 (by decide))).trans (V16_v68 m c)
theorem V22_v70 (c : Dev nD) : V22 m outs c main_v70 = tmaxSrc (m ((c : Thread nD τ).loc main_arg1)) :=
  ((V22_of m outs c main_v70 (by decide)).trans <| (V21_of m outs c main_v70 (by decide)).trans <| (V20_of m outs c main_v70 (by decide)).trans <| (V19_of m outs c main_v70 (by decide)).trans <| (V18_of m outs c main_v70 (by decide)).trans <| (V17_of m outs c main_v70 (by decide))).trans (V16_v70 m c)
theorem V22_v52 (c : Dev nD) : V22 m outs c main_v52 = srcSorted (m ((c : Thread nD τ).loc main_arg1)) :=
  ((V22_of m outs c main_v52 (by decide)).trans <| (V21_of m outs c main_v52 (by decide)).trans <| (V20_of m outs c main_v52 (by decide)).trans <| (V19_of m outs c main_v52 (by decide)).trans <| (V18_of m outs c main_v52 (by decide)).trans <| (V17_of m outs c main_v52 (by decide))).trans (V16_v52 m c)
theorem V22_v59 (c : Dev nD) : V22 m outs c main_v59 = normSorted (m ((c : Thread nD τ).loc main_arg1)) :=
  ((V22_of m outs c main_v59 (by decide)).trans <| (V21_of m outs c main_v59 (by decide)).trans <| (V20_of m outs c main_v59 (by decide)).trans <| (V19_of m outs c main_v59 (by decide)).trans <| (V18_of m outs c main_v59 (by decide)).trans <| (V17_of m outs c main_v59 (by decide))).trans (V16_v59 m c)

/-! ### … what the stretch after the gather region writes (level 24: the scatter region's entry) -/
theorem V23_v97 (c : Dev nD) : V23 m outs c main_v97 = outs 23 main_v97 c :=
  Function.update_self (Proc.devRef (τ := τ) .tc main_v97) (outs 23 main_v97 c) (V22 m outs c)
theorem V23_v45 (c : Dev nD) : V23 m outs c main_v45 = comb (m ((c : Thread nD τ).loc main_arg1)) :=
  ((V23_of m outs c main_v45 (by decide)).trans <| (V22_of m outs c main_v45 (by decide)).trans <| (V21_of m outs c main_v45 (by decide)).trans <| (V20_of m outs c main_v45 (by decide)).trans <| (V19_of m outs c main_v45 (by decide)).trans <| (V18_of m outs c main_v45 (by decide)).trans <| (V17_of m outs c main_v45 (by decide))).trans (V16_v45 m c)
theorem V23_arg7 (c : Dev nD) : V23 m outs c main_arg7 = (m ((c : Thread nD τ).loc main_arg7)) :=
  (V23_of m outs c main_arg7 (by decide)).trans <| (V22_of m outs c main_arg7 (by decide)).trans <| (V21_of m outs c main_arg7 (by decide)).trans <| (V20_of m outs c main_arg7 (by decide)).trans <| (V19_of m outs c main_arg7 (by decide)).trans <| (V18_of m outs c main_arg7 (by decide)).trans <| (V17_of m outs c main_arg7 (by decide)).trans <| (V16_of m c main_arg7 (by decide)).trans <| (V15_of m c main_arg7 (by decide)).trans <| (V14_of m c main_arg7 (by decide)).trans <| (V13_of m c main_arg7 (by decide)).trans <| (V12_of m c main_arg7 (by decide)).trans <| (V11_of m c main_arg7 (by decide)).trans <| (V10_of m c main_arg7 (by decide)).trans <| (V9_of m c main_arg7 (by decide)).trans <| (V8_of m c main_arg7 (by decide)).trans <| (V7_of m c main_arg7 (by decide)).trans <| (V6_of m c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide))
theorem V24_v104 (c : Dev nD) : V24 m outs c main_v104 = rows64 (outs 23 main_v97 c) (comb (m ((c : Thread nD τ).loc main_arg1))) :=
  (h5_v104 (V23 m outs c)).trans (by rw [V23_v97 m outs c, V23_v45 m outs c])
theorem V24_v105 (c : Dev nD) : V24 m outs c main_v105 = biasRow64 (m ((c : Thread nD τ).loc main_arg7)) :=
  (h5_v105 (V23 m outs c)).trans (by rw [V23_arg7 m outs c])
theorem V24_v72 (c : Dev nD) : V24 m outs c main_v72 = tminDst (m ((c : Thread nD τ).loc main_arg1)) :=
  ((V24_of m outs c main_v72 (by decide)).trans <| (V23_of m outs c main_v72 (by decide)).trans <| (V22_of m outs c main_v72 (by decide)).trans <| (V21_of m outs c main_v72 (by decide)).trans <| (V20_of m outs c main_v72 (by decide)).trans <| (V19_of m outs c main_v72 (by decide)).trans <| (V18_of m outs c main_v72 (by decide)).trans <| (V17_of m outs c main_v72 (by decide))).trans (V16_v72 m c)
theorem V24_v74 (c : Dev nD) : V24 m outs c main_v74 = tmaxDst (m ((c : Thread nD τ).loc main_arg1)) :=
  ((V24_of m outs c main_v74 (by decide)).trans <| (V23_of m outs c main_v74 (by decide)).trans <| (V22_of m outs c main_v74 (by decide)).trans <| (V21_of m outs c main_v74 (by decide)).trans <| (V20_of m outs c main_v74 (by decide)).trans <| (V19_of m outs c main_v74 (by decide)).trans <| (V18_of m outs c main_v74 (by decide)).trans <| (V17_of m outs c main_v74 (by decide))).trans (V16_v74 m c)
theorem V24_v66 (c : Dev nD) : V24 m outs c main_v66 = dstSorted (m ((c : Thread nD τ).loc main_arg1)) :=
  ((V24_of m outs c main_v66 (by decide)).trans <| (V23_of m outs c main_v66 (by decide)).trans <| (V22_of m outs c main_v66 (by decide)).trans <| (V21_of m outs c main_v66 (by decide)).trans <| (V20_of m outs c main_v66 (by decide)).trans <| (V19_of m outs c main_v66 (by decide)).trans <| (V18_of m outs c main_v66 (by decide)).trans <| (V17_of m outs c main_v66 (by decide))).trans (V16_v66 m c)
theorem V24_v76 (c : Dev nD) : V24 m outs c main_v76 = selfNormP (m ((c : Thread nD τ).loc main_arg1)) :=
  ((V24_of m outs c main_v76 (by decide)).trans <| (V23_of m outs c main_v76 (by decide)).trans <| (V22_of m outs c main_v76 (by decide)).trans <| (V21_of m outs c main_v76 (by decide)).trans <| (V20_of m outs c main_v76 (by decide)).trans <| (V19_of m outs c main_v76 (by decide)).trans <| (V18_of m outs c main_v76 (by decide)).trans <| (V17_of m outs c main_v76 (by decide))).trans (V16_v76 m c)
theorem V24_v96 (c : Dev nD) : V24 m outs c main_v96 = outs 22 main_v96 c :=
  ((V24_of m outs c main_v96 (by decide)).trans <| (V23_of m outs c main_v96 (by decide))).trans (V22_v96 m outs c)

/-! ### … what the stretch after the scatter region writes (level 26) -/
theorem V25_v106 (c : Dev nD) : V25 m outs c main_v106 = outs 25 main_v106 c :=
  Function.update_self (Proc.devRef (τ := τ) .tc main_v106) (outs 25 main_v106 c) (V24 m outs c)
theorem V25_v82 (c : Dev nD) : V25 m outs c main_v82 = maskCol :=
  ((V25_of m outs c main_v82 (by decide)).trans <| (V24_of m outs c main_v82 (by decide)).trans <| (V23_of m outs c main_v82 (by decide)).trans <| (V22_of m outs c main_v82 (by decide)).trans <| (V21_of m outs c main_v82 (by decide)).trans <| (V20_of m outs c main_v82 (by decide)).trans <| (V19_of m outs c main_v82 (by decide)).trans <| (V18_of m outs c main_v82 (by decide)).trans <| (V17_of m outs c main_v82 (by decide))).trans (V16_v82 m c)
theorem V26_v108 (c : Dev nD) : V26 m outs c main_v108 = maskRows64 (outs 25 main_v106 c) maskCol :=
  (h6_v108 (V25 m outs c)).trans (by rw [V25_v106 m outs c, V25_v82 m outs c])
theorem V26_arg8 (c : Dev nD) : V26 m outs c main_arg8 = (m ((c : Thread nD τ).loc main_arg8)) :=
  (V26_of m outs c main_arg8 (by decide)).trans <| (V25_of m outs c main_arg8 (by decide)).trans <| (V24_of m outs c main_arg8 (by decide)).trans <| (V23_of m outs c main_arg8 (by decide)).trans <| (V22_of m outs c main_arg8 (by decide)).trans <| (V21_of m outs c main_arg8 (by decide)).trans <| (V20_of m outs c main_arg8 (by decide)).trans <| (V19_of m outs c main_arg8 (by decide)).trans <| (V18_of m outs c main_arg8 (by decide)).trans <| (V17_of m outs c main_arg8 (by decide)).trans <| (V16_of m c main_arg8 (by decide)).trans <| (V15_of m c main_arg8 (by decide)).trans <| (V14_of m c main_arg8 (by decide)).trans <| (V13_of m c main_arg8 (by decide)).trans <| (V12_of m c main_arg8 (by decide)).trans <| (V11_of m c main_arg8 (by decide)).trans <| (V10_of m c main_arg8 (by decide)).trans <| (V9_of m c main_arg8 (by decide)).trans <| (V8_of m c main_arg8 (by decide)).trans <| (V7_of m c main_arg8 (by decide)).trans <| (V6_of m c main_arg8 (by decide)).trans <| (V5_of m c main_arg8 (by decide)).trans <| (V4_of m c main_arg8 (by decide)).trans <| (V3_of m c main_arg8 (by decide)).trans <| (V2_of m c main_arg8 (by decide)).trans <| (V1_of m c main_arg8 (by decide))

/-! ### Layer 3: at the gather region's entry (level 27) -/
theorem V27_v109 (c : Dev nD) : V27 m outs c main_v109 = outs 27 main_v109 c :=
  Function.update_self (Proc.devRef (τ := τ) .tc main_v109) (outs 27 main_v109 c) (V26 m outs c)
theorem V27_v68 (c : Dev nD) : V27 m outs c main_v68 = tminSrc (m ((c : Thread nD τ).loc main_arg1)) :=
  ((V27_of m outs c main_v68 (by decide)).trans <| (V26_of m outs c main_v68 (by decide)).trans <| (V25_of m outs c main_v68 (by decide)).trans <| (V24_of m outs c main_v68 (by decide)).trans <| (V23_of m outs c main_v68 (by decide)).trans <| (V22_of m outs c main_v68 (by decide)).trans <| (V21_of m outs c main_v68 (by decide)).trans <| (V20_of m outs c main_v68 (by decide)).trans <| (V19_of m outs c main_v68 (by decide)).trans <| (V18_of m outs c main_v68 (by decide)).trans <| (V17_of m outs c main_v68 (by decide))).trans (V16_v68 m c)
theorem V27_v70 (c : Dev nD) : V27 m outs c main_v70 = tmaxSrc (m ((c : Thread nD τ).loc main_arg1)) :=
  ((V27_of m outs c main_v70 (by decide)).trans <| (V26_of m outs c main_v70 (by decide)).trans <| (V25_of m outs c main_v70 (by decide)).trans <| (V24_of m outs c main_v70 (by decide)).trans <| (V23_of m outs c main_v70 (by decide)).trans <| (V22_of m outs c main_v70 (by decide)).trans <| (V21_of m outs c main_v70 (by decide)).trans <| (V20_of m outs c main_v70 (by decide)).trans <| (V19_of m outs c main_v70 (by decide)).trans <| (V18_of m outs c main_v70 (by decide)).trans <| (V17_of m outs c main_v70 (by decide))).trans (V16_v70 m c)
theorem V27_v52 (c : Dev nD) : V27 m outs c main_v52 = srcSorted (m ((c : Thread nD τ).loc main_arg1)) :=
  ((V27_of m outs c main_v52 (by decide)).trans <| (V26_of m outs c main_v52 (by decide)).trans <| (V25_of m outs c main_v52 (by decide)).trans <| (V24_of m outs c main_v52 (by decide)).trans <| (V23_of m outs c main_v52 (by decide)).trans <| (V22_of m outs c main_v52 (by decide)).trans <| (V21_of m outs c main_v52 (by decide)).trans <| (V20_of m outs c main_v52 (by decide)).trans <| (V19_of m outs c main_v52 (by decide)).trans <| (V18_of m outs c main_v52 (by decide)).trans <| (V17_of m outs c main_v52 (by decide))).trans (V16_v52 m c)
theorem V27_v59 (c : Dev nD) : V27 m outs c main_v59 = normSorted (m ((c : Thread nD τ).loc main_arg1)) :=
  ((V27_of m outs c main_v59 (by decide)).trans <| (V26_of m outs c main_v59 (by decide)).trans <| (V25_of m outs c main_v59 (by decide)).trans <| (V24_of m outs c main_v59 (by decide)).trans <| (V23_of m outs c main_v59 (by decide)).trans <| (V22_of m outs c main_v59 (by decide)).trans <| (V21_of m outs c main_v59 (by decide)).trans <| (V20_of m outs c main_v59 (by decide)).trans <| (V19_of m outs c main_v59 (by decide)).trans <| (V18_of m outs c main_v59 (by decide)).trans <| (V17_of m outs c main_v59 (by decide))).trans (V16_v59 m c)

/-! ### … what the stretch after the gather region writes (level 29: the scatter region's entry) -/
theorem V28_v110 (c : Dev nD) : V28 m outs c main_v110 = outs 28 main_v110 c :=
  Function.update_self (Proc.devRef (τ := τ) .tc main_v110) (outs 28 main_v110 c) (V27 m outs c)
theorem V28_v45 (c : Dev nD) : V28 m outs c main_v45 = comb (m ((c : Thread nD τ).loc main_arg1)) :=
  ((V28_of m outs c main_v45 (by decide)).trans <| (V27_of m outs c main_v45 (by decide)).trans <| (V26_of m outs c main_v45 (by decide)).trans <| (V25_of m outs c main_v45 (by decide)).trans <| (V24_of m outs c main_v45 (by decide)).trans <| (V23_of m outs c main_v45 (by decide)).trans <| (V22_of m outs c main_v45 (by decide)).trans <| (V21_of m outs c main_v45 (by decide)).trans <| (V20_of m outs c main_v45 (by decide)).trans <| (V19_of m outs c main_v45 (by decide)).trans <| (V18_of m outs c main_v45 (by decide)).trans <| (V17_of m outs c main_v45 (by decide))).trans (V16_v45 m c)
theorem V28_arg9 (c : Dev nD) : V28 m outs c main_arg9 = (m ((c : Thread nD τ).loc main_arg9)) :=
  (V28_of m outs c main_arg9 (by decide)).trans <| (V27_of m outs c main_arg9 (by decide)).trans <| (V26_of m outs c main_arg9 (by decide)).trans <| (V25_of m outs c main_arg9 (by decide)).trans <| (V24_of m outs c main_arg9 (by decide)).trans <| (V23_of m outs c main_arg9 (by decide)).trans <| (V22_of m outs c main_arg9 (by decide)).trans <| (V21_of m outs c main_arg9 (by decide)).trans <| (V20_of m outs c main_arg9 (by decide)).trans <| (V19_of m outs c main_arg9 (by decide)).trans <| (V18_of m outs c main_arg9 (by decide)).trans <| (V17_of m outs c main_arg9 (by decide)).trans <| (V16_of m c main_arg9 (by decide)).trans <| (V15_of m c main_arg9 (by decide)).trans <| (V14_of m c main_arg9 (by decide)).trans <| (V13_of m c main_arg9 (by decide)).trans <| (V12_of m c main_arg9 (by decide)).trans <| (V11_of m c main_arg9 (by decide)).trans <| (V10_of m c main_arg9 (by decide)).trans <| (V9_of m c main_arg9 (by decide)).trans <| (V8_of m c main_arg9 (by decide)).trans <| (V7_of m c main_arg9 (by decide)).trans <| (V6_of m c main_arg9 (by decide)).trans <| (V5_of m c main_arg9 (by decide)).trans <| (V4_of m c main_arg9 (by decide)).trans <| (V3_of m c main_arg9 (by decide)).trans <| (V2_of m c main_arg9 (by decide)).trans <| (V1_of m c main_arg9 (by decide))
theorem V29_v117 (c : Dev nD) : V29 m outs c main_v117 = rows32 (outs 28 main_v110 c) (comb (m ((c : Thread nD τ).loc main_arg1))) :=
  (h8_v117 (V28 m outs c)).trans (by rw [V28_v110 m outs c, V28_v45 m outs c])
theorem V29_v118 (c : Dev nD) : V29 m outs c main_v118 = biasRow32 (m ((c : Thread nD τ).loc main_arg9)) :=
  (h8_v118 (V28 m outs c)).trans (by rw [V28_arg9 m outs c])
theorem V29_v72 (c : Dev nD) : V29 m outs c main_v72 = tminDst (m ((c : Thread nD τ).loc main_arg1)) :=
  ((V29_of m outs c main_v72 (by decide)).trans <| (V28_of m outs c main_v72 (by decide)).trans <| (V27_of m outs c main_v72 (by decide)).trans <| (V26_of m outs c main_v72 (by decide)).trans <| (V25_of m outs c main_v72 (by decide)).trans <| (V24_of m outs c main_v72 (by decide)).trans <| (V23_of m outs c main_v72 (by decide)).trans <| (V22_of m outs c main_v72 (by decide)).trans <| (V21_of m outs c main_v72 (by decide)).trans <| (V20_of m outs c main_v72 (by decide)).trans <| (V19_of m outs c main_v72 (by decide)).trans <| (V18_of m outs c main_v72 (by decide)).trans <| (V17_of m outs c main_v72 (by decide))).trans (V16_v72 m c)
theorem V29_v74 (c : Dev nD) : V29 m outs c main_v74 = tmaxDst (m ((c : Thread nD τ).loc main_arg1)) :=
  ((V29_of m outs c main_v74 (by decide)).trans <| (V28_of m outs c main_v74 (by decide)).trans <| (V27_of m outs c main_v74 (by decide)).trans <| (V26_of m outs c main_v74 (by decide)).trans <| (V25_of m outs c main_v74 (by decide)).trans <| (V24_of m outs c main_v74 (by decide)).trans <| (V23_of m outs c main_v74 (by decide)).trans <| (V22_of m outs c main_v74 (by decide)).trans <| (V21_of m outs c main_v74 (by decide)).trans <| (V20_of m outs c main_v74 (by decide)).trans <| (V19_of m outs c main_v74 (by decide)).trans <| (V18_of m outs c main_v74 (by decide)).trans <| (V17_of m outs c main_v74 (by decide))).trans (V16_v74 m c)
theorem V29_v66 (c : Dev nD) : V29 m outs c main_v66 = dstSorted (m ((c : Thread nD τ).loc main_arg1)) :=
  ((V29_of m outs c main_v66 (by decide)).trans <| (V28_of m outs c main_v66 (by decide)).trans <| (V27_of m outs c main_v66 (by decide)).trans <| (V26_of m outs c main_v66 (by decide)).trans <| (V25_of m outs c main_v66 (by decide)).trans <| (V24_of m outs c main_v66 (by decide)).trans <| (V23_of m outs c main_v66 (by decide)).trans <| (V22_of m outs c main_v66 (by decide)).trans <| (V21_of m outs c main_v66 (by decide)).trans <| (V20_of m outs c main_v66 (by decide)).trans <| (V19_of m outs c main_v66 (by decide)).trans <| (V18_of m outs c main_v66 (by decide)).trans <| (V17_of m outs c main_v66 (by decide))).trans (V16_v66 m c)
theorem V29_v76 (c : Dev nD) : V29 m outs c main_v76 = selfNormP (m ((c : Thread nD τ).loc main_arg1)) :=
  ((V29_of m outs c main_v76 (by decide)).trans <| (V28_of m outs c main_v76 (by decide)).trans <| (V27_of m outs c main_v76 (by decide)).trans <| (V26_of m outs c main_v76 (by decide)).trans <| (V25_of m outs c main_v76 (by decide)).trans <| (V24_of m outs c main_v76 (by decide)).trans <| (V23_of m outs c main_v76 (by decide)).trans <| (V22_of m outs c main_v76 (by decide)).trans <| (V21_of m outs c main_v76 (by decide)).trans <| (V20_of m outs c main_v76 (by decide)).trans <| (V19_of m outs c main_v76 (by decide)).trans <| (V18_of m outs c main_v76 (by decide)).trans <| (V17_of m outs c main_v76 (by decide))).trans (V16_v76 m c)
theorem V29_v109 (c : Dev nD) : V29 m outs c main_v109 = outs 27 main_v109 c :=
  ((V29_of m outs c main_v109 (by decide)).trans <| (V28_of m outs c main_v109 (by decide))).trans (V27_v109 m outs c)

/-! ### … what the stretch after the scatter region writes (level 31) -/
theorem V30_v119 (c : Dev nD) : V30 m outs c main_v119 = outs 30 main_v119 c :=
  Function.update_self (Proc.devRef (τ := τ) .tc main_v119) (outs 30 main_v119 c) (V29 m outs c)
theorem V30_v82 (c : Dev nD) : V30 m outs c main_v82 = maskCol :=
  ((V30_of m outs c main_v82 (by decide)).trans <| (V29_of m outs c main_v82 (by decide)).trans <| (V28_of m outs c main_v82 (by decide)).trans <| (V27_of m outs c main_v82 (by decide)).trans <| (V26_of m outs c main_v82 (by decide)).trans <| (V25_of m outs c main_v82 (by decide)).trans <| (V24_of m outs c main_v82 (by decide)).trans <| (V23_of m outs c main_v82 (by decide)).trans <| (V22_of m outs c main_v82 (by decide)).trans <| (V21_of m outs c main_v82 (by decide)).trans <| (V20_of m outs c main_v82 (by decide)).trans <| (V19_of m outs c main_v82 (by decide)).trans <| (V18_of m outs c main_v82 (by decide)).trans <| (V17_of m outs c main_v82 (by decide))).trans (V16_v82 m c)
theorem V31_v121 (c : Dev nD) : V31 m outs c main_v121 = maskRows32 (outs 30 main_v119 c) maskCol :=
  (h9_v121 (V30 m outs c)).trans (by rw [V30_v119 m outs c, V30_v82 m outs c])

/-! ### The pooling region's entry (level 31), and the tail -/
theorem V31_v77 (c : Dev nD) : V31 m outs c main_v77 = batchP (m ((c : Thread nD τ).loc main_arg2)) :=
  ((V31_of m outs c main_v77 (by decide)).trans <| (V30_of m outs c main_v77 (by decide)).trans <| (V29_of m outs c main_v77 (by decide)).trans <| (V28_of m outs c main_v77 (by decide)).trans <| (V27_of m outs c main_v77 (by decide)).trans <| (V26_of m outs c main_v77 (by decide)).trans <| (V25_of m outs c main_v77 (by decide)).trans <| (V24_of m outs c main_v77 (by decide)).trans <| (V23_of m outs c main_v77 (by decide)).trans <| (V22_of m outs c main_v77 (by decide)).trans <| (V21_of m outs c main_v77 (by decide)).trans <| (V20_of m outs c main_v77 (by decide)).trans <| (V19_of m outs c main_v77 (by decide)).trans <| (V18_of m outs c main_v77 (by decide)).trans <| (V17_of m outs c main_v77 (by decide))).trans (V16_v77 m c)
theorem V32_v122_1 (c : Dev nD) : V32 m outs c main_v122_1 = outs 32 main_v122_1 c :=
  Function.update_self (Proc.devRef (τ := τ) .tc main_v122_1) (outs 32 main_v122_1 c)
    (Function.update (V31 m outs c) (Proc.devRef (τ := τ) .tc main_v122_0) (outs 32 main_v122_0 c))
theorem V32_v122_0 (c : Dev nD) : V32 m outs c main_v122_0 = outs 32 main_v122_0 c :=
  (Function.update_of_ne (StableHlo.devRef_ne_of_ne (by decide) : (Proc.devRef .tc main_v122_0 : DevRef τ sig) ≠ Proc.devRef .tc main_v122_1)
      (outs 32 main_v122_1 c) (Function.update (V31 m outs c) (Proc.devRef (τ := τ) .tc main_v122_0) (outs 32 main_v122_0 c))).trans
    (Function.update_self (Proc.devRef (τ := τ) .tc main_v122_0) (outs 32 main_v122_0 c) (V31 m outs c))
theorem V32_arg3 (c : Dev nD) : V32 m outs c main_arg3 = (m ((c : Thread nD τ).loc main_arg3)) :=
  (V32_of m outs c main_arg3 (by decide)).trans <| (V31_of m outs c main_arg3 (by decide)).trans <| (V30_of m outs c main_arg3 (by decide)).trans <| (V29_of m outs c main_arg3 (by decide)).trans <| (V28_of m outs c main_arg3 (by decide)).trans <| (V27_of m outs c main_arg3 (by decide)).trans <| (V26_of m outs c main_arg3 (by decide)).trans <| (V25_of m outs c main_arg3 (by decide)).trans <| (V24_of m outs c main_arg3 (by decide)).trans <| (V23_of m outs c main_arg3 (by decide)).trans <| (V22_of m outs c main_arg3 (by decide)).trans <| (V21_of m outs c main_arg3 (by decide)).trans <| (V20_of m outs c main_arg3 (by decide)).trans <| (V19_of m outs c main_arg3 (by decide)).trans <| (V18_of m outs c main_arg3 (by decide)).trans <| (V17_of m outs c main_arg3 (by decide)).trans <| (V16_of m c main_arg3 (by decide)).trans <| (V15_of m c main_arg3 (by decide)).trans <| (V14_of m c main_arg3 (by decide)).trans <| (V13_of m c main_arg3 (by decide)).trans <| (V12_of m c main_arg3 (by decide)).trans <| (V11_of m c main_arg3 (by decide)).trans <| (V10_of m c main_arg3 (by decide)).trans <| (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide))
theorem V32_arg10 (c : Dev nD) : V32 m outs c main_arg10 = (m ((c : Thread nD τ).loc main_arg10)) :=
  (V32_of m outs c main_arg10 (by decide)).trans <| (V31_of m outs c main_arg10 (by decide)).trans <| (V30_of m outs c main_arg10 (by decide)).trans <| (V29_of m outs c main_arg10 (by decide)).trans <| (V28_of m outs c main_arg10 (by decide)).trans <| (V27_of m outs c main_arg10 (by decide)).trans <| (V26_of m outs c main_arg10 (by decide)).trans <| (V25_of m outs c main_arg10 (by decide)).trans <| (V24_of m outs c main_arg10 (by decide)).trans <| (V23_of m outs c main_arg10 (by decide)).trans <| (V22_of m outs c main_arg10 (by decide)).trans <| (V21_of m outs c main_arg10 (by decide)).trans <| (V20_of m outs c main_arg10 (by decide)).trans <| (V19_of m outs c main_arg10 (by decide)).trans <| (V18_of m outs c main_arg10 (by decide)).trans <| (V17_of m outs c main_arg10 (by decide)).trans <| (V16_of m c main_arg10 (by decide)).trans <| (V15_of m c main_arg10 (by decide)).trans <| (V14_of m c main_arg10 (by decide)).trans <| (V13_of m c main_arg10 (by decide)).trans <| (V12_of m c main_arg10 (by decide)).trans <| (V11_of m c main_arg10 (by decide)).trans <| (V10_of m c main_arg10 (by decide)).trans <| (V9_of m c main_arg10 (by decide)).trans <| (V8_of m c main_arg10 (by decide)).trans <| (V7_of m c main_arg10 (by decide)).trans <| (V6_of m c main_arg10 (by decide)).trans <| (V5_of m c main_arg10 (by decide)).trans <| (V4_of m c main_arg10 (by decide)).trans <| (V3_of m c main_arg10 (by decide)).trans <| (V2_of m c main_arg10 (by decide)).trans <| (V1_of m c main_arg10 (by decide))
theorem V32_arg11 (c : Dev nD) : V32 m outs c main_arg11 = (m ((c : Thread nD τ).loc main_arg11)) :=
  (V32_of m outs c main_arg11 (by decide)).trans <| (V31_of m outs c main_arg11 (by decide)).trans <| (V30_of m outs c main_arg11 (by decide)).trans <| (V29_of m outs c main_arg11 (by decide)).trans <| (V28_of m outs c main_arg11 (by decide)).trans <| (V27_of m outs c main_arg11 (by decide)).trans <| (V26_of m outs c main_arg11 (by decide)).trans <| (V25_of m outs c main_arg11 (by decide)).trans <| (V24_of m outs c main_arg11 (by decide)).trans <| (V23_of m outs c main_arg11 (by decide)).trans <| (V22_of m outs c main_arg11 (by decide)).trans <| (V21_of m outs c main_arg11 (by decide)).trans <| (V20_of m outs c main_arg11 (by decide)).trans <| (V19_of m outs c main_arg11 (by decide)).trans <| (V18_of m outs c main_arg11 (by decide)).trans <| (V17_of m outs c main_arg11 (by decide)).trans <| (V16_of m c main_arg11 (by decide)).trans <| (V15_of m c main_arg11 (by decide)).trans <| (V14_of m c main_arg11 (by decide)).trans <| (V13_of m c main_arg11 (by decide)).trans <| (V12_of m c main_arg11 (by decide)).trans <| (V11_of m c main_arg11 (by decide)).trans <| (V10_of m c main_arg11 (by decide)).trans <| (V9_of m c main_arg11 (by decide)).trans <| (V8_of m c main_arg11 (by decide)).trans <| (V7_of m c main_arg11 (by decide)).trans <| (V6_of m c main_arg11 (by decide)).trans <| (V5_of m c main_arg11 (by decide)).trans <| (V4_of m c main_arg11 (by decide)).trans <| (V3_of m c main_arg11 (by decide)).trans <| (V2_of m c main_arg11 (by decide)).trans <| (V1_of m c main_arg11 (by decide))
theorem V32_arg12 (c : Dev nD) : V32 m outs c main_arg12 = (m ((c : Thread nD τ).loc main_arg12)) :=
  (V32_of m outs c main_arg12 (by decide)).trans <| (V31_of m outs c main_arg12 (by decide)).trans <| (V30_of m outs c main_arg12 (by decide)).trans <| (V29_of m outs c main_arg12 (by decide)).trans <| (V28_of m outs c main_arg12 (by decide)).trans <| (V27_of m outs c main_arg12 (by decide)).trans <| (V26_of m outs c main_arg12 (by decide)).trans <| (V25_of m outs c main_arg12 (by decide)).trans <| (V24_of m outs c main_arg12 (by decide)).trans <| (V23_of m outs c main_arg12 (by decide)).trans <| (V22_of m outs c main_arg12 (by decide)).trans <| (V21_of m outs c main_arg12 (by decide)).trans <| (V20_of m outs c main_arg12 (by decide)).trans <| (V19_of m outs c main_arg12 (by decide)).trans <| (V18_of m outs c main_arg12 (by decide)).trans <| (V17_of m outs c main_arg12 (by decide)).trans <| (V16_of m c main_arg12 (by decide)).trans <| (V15_of m c main_arg12 (by decide)).trans <| (V14_of m c main_arg12 (by decide)).trans <| (V13_of m c main_arg12 (by decide)).trans <| (V12_of m c main_arg12 (by decide)).trans <| (V11_of m c main_arg12 (by decide)).trans <| (V10_of m c main_arg12 (by decide)).trans <| (V9_of m c main_arg12 (by decide)).trans <| (V8_of m c main_arg12 (by decide)).trans <| (V7_of m c main_arg12 (by decide)).trans <| (V6_of m c main_arg12 (by decide)).trans <| (V5_of m c main_arg12 (by decide)).trans <| (V4_of m c main_arg12 (by decide)).trans <| (V3_of m c main_arg12 (by decide)).trans <| (V2_of m c main_arg12 (by decide)).trans <| (V1_of m c main_arg12 (by decide))
theorem V32_arg13 (c : Dev nD) : V32 m outs c main_arg13 = (m ((c : Thread nD τ).loc main_arg13)) :=
  (V32_of m outs c main_arg13 (by decide)).trans <| (V31_of m outs c main_arg13 (by decide)).trans <| (V30_of m outs c main_arg13 (by decide)).trans <| (V29_of m outs c main_arg13 (by decide)).trans <| (V28_of m outs c main_arg13 (by decide)).trans <| (V27_of m outs c main_arg13 (by decide)).trans <| (V26_of m outs c main_arg13 (by decide)).trans <| (V25_of m outs c main_arg13 (by decide)).trans <| (V24_of m outs c main_arg13 (by decide)).trans <| (V23_of m outs c main_arg13 (by decide)).trans <| (V22_of m outs c main_arg13 (by decide)).trans <| (V21_of m outs c main_arg13 (by decide)).trans <| (V20_of m outs c main_arg13 (by decide)).trans <| (V19_of m outs c main_arg13 (by decide)).trans <| (V18_of m outs c main_arg13 (by decide)).trans <| (V17_of m outs c main_arg13 (by decide)).trans <| (V16_of m c main_arg13 (by decide)).trans <| (V15_of m c main_arg13 (by decide)).trans <| (V14_of m c main_arg13 (by decide)).trans <| (V13_of m c main_arg13 (by decide)).trans <| (V12_of m c main_arg13 (by decide)).trans <| (V11_of m c main_arg13 (by decide)).trans <| (V10_of m c main_arg13 (by decide)).trans <| (V9_of m c main_arg13 (by decide)).trans <| (V8_of m c main_arg13 (by decide)).trans <| (V7_of m c main_arg13 (by decide)).trans <| (V6_of m c main_arg13 (by decide)).trans <| (V5_of m c main_arg13 (by decide)).trans <| (V4_of m c main_arg13 (by decide)).trans <| (V3_of m c main_arg13 (by decide)).trans <| (V2_of m c main_arg13 (by decide)).trans <| (V1_of m c main_arg13 (by decide))
theorem V32_arg14 (c : Dev nD) : V32 m outs c main_arg14 = (m ((c : Thread nD τ).loc main_arg14)) :=
  (V32_of m outs c main_arg14 (by decide)).trans <| (V31_of m outs c main_arg14 (by decide)).trans <| (V30_of m outs c main_arg14 (by decide)).trans <| (V29_of m outs c main_arg14 (by decide)).trans <| (V28_of m outs c main_arg14 (by decide)).trans <| (V27_of m outs c main_arg14 (by decide)).trans <| (V26_of m outs c main_arg14 (by decide)).trans <| (V25_of m outs c main_arg14 (by decide)).trans <| (V24_of m outs c main_arg14 (by decide)).trans <| (V23_of m outs c main_arg14 (by decide)).trans <| (V22_of m outs c main_arg14 (by decide)).trans <| (V21_of m outs c main_arg14 (by decide)).trans <| (V20_of m outs c main_arg14 (by decide)).trans <| (V19_of m outs c main_arg14 (by decide)).trans <| (V18_of m outs c main_arg14 (by decide)).trans <| (V17_of m outs c main_arg14 (by decide)).trans <| (V16_of m c main_arg14 (by decide)).trans <| (V15_of m c main_arg14 (by decide)).trans <| (V14_of m c main_arg14 (by decide)).trans <| (V13_of m c main_arg14 (by decide)).trans <| (V12_of m c main_arg14 (by decide)).trans <| (V11_of m c main_arg14 (by decide)).trans <| (V10_of m c main_arg14 (by decide)).trans <| (V9_of m c main_arg14 (by decide)).trans <| (V8_of m c main_arg14 (by decide)).trans <| (V7_of m c main_arg14 (by decide)).trans <| (V6_of m c main_arg14 (by decide)).trans <| (V5_of m c main_arg14 (by decide)).trans <| (V4_of m c main_arg14 (by decide)).trans <| (V3_of m c main_arg14 (by decide)).trans <| (V2_of m c main_arg14 (by decide)).trans <| (V1_of m c main_arg14 (by decide))
theorem V32_arg15 (c : Dev nD) : V32 m outs c main_arg15 = (m ((c : Thread nD τ).loc main_arg15)) :=
  (V32_of m outs c main_arg15 (by decide)).trans <| (V31_of m outs c main_arg15 (by decide)).trans <| (V30_of m outs c main_arg15 (by decide)).trans <| (V29_of m outs c main_arg15 (by decide)).trans <| (V28_of m outs c main_arg15 (by decide)).trans <| (V27_of m outs c main_arg15 (by decide)).trans <| (V26_of m outs c main_arg15 (by decide)).trans <| (V25_of m outs c main_arg15 (by decide)).trans <| (V24_of m outs c main_arg15 (by decide)).trans <| (V23_of m outs c main_arg15 (by decide)).trans <| (V22_of m outs c main_arg15 (by decide)).trans <| (V21_of m outs c main_arg15 (by decide)).trans <| (V20_of m outs c main_arg15 (by decide)).trans <| (V19_of m outs c main_arg15 (by decide)).trans <| (V18_of m outs c main_arg15 (by decide)).trans <| (V17_of m outs c main_arg15 (by decide)).trans <| (V16_of m c main_arg15 (by decide)).trans <| (V15_of m c main_arg15 (by decide)).trans <| (V14_of m c main_arg15 (by decide)).trans <| (V13_of m c main_arg15 (by decide)).trans <| (V12_of m c main_arg15 (by decide)).trans <| (V11_of m c main_arg15 (by decide)).trans <| (V10_of m c main_arg15 (by decide)).trans <| (V9_of m c main_arg15 (by decide)).trans <| (V8_of m c main_arg15 (by decide)).trans <| (V7_of m c main_arg15 (by decide)).trans <| (V6_of m c main_arg15 (by decide)).trans <| (V5_of m c main_arg15 (by decide)).trans <| (V4_of m c main_arg15 (by decide)).trans <| (V3_of m c main_arg15 (by decide)).trans <| (V2_of m c main_arg15 (by decide)).trans <| (V1_of m c main_arg15 (by decide))

/-- THE RESULT: the result buffer after the last item, from what the pooling region left and the head's weights. -/
theorem V37_result (c : Dev nD) :
    V37 m outs c main_v141
      = tail (outs 32 main_v122_0 c) (outs 32 main_v122_1 c) (m ((c : Thread nD τ).loc main_arg10)) (m ((c : Thread nD τ).loc main_arg11)) (m ((c : Thread nD τ).loc main_arg3)) (m ((c : Thread nD τ).loc main_arg12)) (m ((c : Thread nD τ).loc main_arg13)) (m ((c : Thread nD τ).loc main_arg14)) (m ((c : Thread nD τ).loc main_arg15)) :=
  (V37_v141 m outs c).trans (by rw [V32_v122_0 m outs c, V32_v122_1 m outs c, V32_arg10 m outs c, V32_arg11 m outs c, V32_arg3 m outs c, V32_arg12 m outs c, V32_arg13 m outs c, V32_arg14 m outs c, V32_arg15 m outs c])

end Cert.KernelIdeal.KH
-- ==== Proof.ComposeValue.lean ====
/-
  The one equation between the two results. The argument arrays are read off the memory; the edge package is the
  program's; the three layers chain (each layer's input hypothesis is the previous layer's conclusion, the first
  layer's the zero-padded features); the pool's sums and counts over the padded rows are the reference's over the
  real rows; the quotient agrees entry by entry; and the head on the pooled features is the same term on both sides.
-/
import proofs.«417346_j54202487276072_2_alg».proof.Proof.ComposeFacts
import proofs.«417346_j54202487276072_2_alg».proof.Proof.ComposeLayers
import proofs.«417346_j54202487276072_2_alg».proof.Proof.ComposeRef
import proofs.«417346_j54202487276072_2_alg».proof.Proof.ComposeWords
import proofs.«417346_j54202487276072_2_alg».proof.Proof.GlueJ
import proofs.«417346_j54202487276072_2_alg».proof.Proof.GlueMol
import proofs.«417346_j54202487276072_2_alg».proof.Proof.GlueMolR
import proofs.«417346_j54202487276072_2_alg».proof.Proof.KHostD

noncomputable section

namespace Cert.Proof.C

open Cert.KernelIdeal Cert.KernelIdeal.Gen
open Idealize.ShloMosaic Idealize.ShloMosaic.TcCoe
open scoped BigOperators

variable (m : (ℓ : Loc nD τ sig) → Buf (Elt Ideal) ℓ) (outs : GenP.Outs (F := Ideal)) (c : Dev nD)

/-! ## The argument arrays -/

abbrev A0 : Vec Ideal S100000x128 .f32 := m ((c : Thread nD τ).loc main_arg0)
abbrev A1 : Vec Ideal S2x1600000 .i32 := m ((c : Thread nD τ).loc main_arg1)
abbrev A2 : Vec Ideal S100000 .i32 := m ((c : Thread nD τ).loc main_arg2)
abbrev A3 : Vec Ideal S64x4 .f32 := m ((c : Thread nD τ).loc main_arg3)
abbrev A4 : Vec Ideal S128x16 .f32 := m ((c : Thread nD τ).loc main_arg4)
abbrev A5 : Vec Ideal S16 .f32 := m ((c : Thread nD τ).loc main_arg5)
abbrev A6 : Vec Ideal S16x64 .f32 := m ((c : Thread nD τ).loc main_arg6)
abbrev A7 : Vec Ideal S64 .f32 := m ((c : Thread nD τ).loc main_arg7)
abbrev A8 : Vec Ideal S64x32 .f32 := m ((c : Thread nD τ).loc main_arg8)
abbrev A9 : Vec Ideal S32 .f32 := m ((c : Thread nD τ).loc main_arg9)
abbrev A10 : Vec Ideal S32x64 .f32 := m ((c : Thread nD τ).loc main_arg10)
abbrev A11 : Vec Ideal S64 .f32 := m ((c : Thread nD τ).loc main_arg11)
abbrev A12 : Vec Ideal S68x10 .f32 := m ((c : Thread nD τ).loc main_arg12)
abbrev A13 : Vec Ideal S10 .f32 := m ((c : Thread nD τ).loc main_arg13)
abbrev A14 : Vec Ideal S10x1 .f32 := m ((c : Thread nD τ).loc main_arg14)
abbrev A15 : Vec Ideal S1 .f32 := m ((c : Thread nD τ).loc main_arg15)

/-! ## The edge package of this memory, and the reference's lists read through it -/

/-- The host stretches' named functions at an index, for this memory's edge list. -/
theorem kfacts (hr : Ranged (A1 m c)) : KFacts (A1 m c) hr Cert.Proof.GP.pw :=
  ⟨Cert.Proof.GJ.deg_eq (A1 m c) hr, Cert.Proof.GJ.dinv_eq (A1 m c), Cert.Proof.GJ.normE_eq (A1 m c) hr,
    Cert.Proof.GJ.selfNorm_eq (A1 m c), Cert.Proof.GJ.srcP_eq (A1 m c), Cert.Proof.GJ.dstP_eq (A1 m c),
    Cert.Proof.GJ.normP_eq (A1 m c), Cert.Proof.GJ.selfNormP_eq (A1 m c), Cert.Proof.GJ.mask_eq⟩

/-- The reference's destination list is the package's. -/
theorem ref_dst_eq (hr : Ranged (A1 m c)) (hE : Cert.ReferenceIdeal.RR.EdgesInRange (A1 m c)) (q : Fin (1600000 + 100000)) :
    refDst (A1 m c) q = (edges (A1 m c) hr (kfacts m c hr)).dstR q :=
  (ref_dst_addCases (A1 m c) hE (dstE (A1 m c) hr) (fun _ => rfl) q).trans (edges_dstR (A1 m c) hr (kfacts m c hr) q).symm

/-- The reference's source list is the package's. -/
theorem ref_src_eq (hr : Ranged (A1 m c)) (hE : Cert.ReferenceIdeal.RR.EdgesInRange (A1 m c)) (q : Fin (1600000 + 100000)) :
    refSrc (A1 m c) q = (edges (A1 m c) hr (kfacts m c hr)).srcR q :=
  (ref_src_addCases (A1 m c) hE (srcE (A1 m c) hr) (fun _ => rfl) q).trans (edges_srcR (A1 m c) hr (kfacts m c hr) q).symm

/-- The kernel's inverse square-root degree is the reference's. -/
theorem dinv_eq_ref (hr : Ranged (A1 m c)) (hE : Cert.ReferenceIdeal.RR.EdgesInRange (A1 m c)) (i : Fin 100000) :
    (KH.dinv (A1 m c) (ValueIdx.ix1 i) : EReal) = refDinv (A1 m c) i :=
  dinv_step (dstE (A1 m c) hr) (refDst (A1 m c)) (fun e => Fin.ext (ref_dst_edge (A1 m c) hE e)) (ref_hdstL (A1 m c))
    Cert.Proof.GP.pw (fun i => KH.deg (A1 m c) (ValueIdx.ix1 i))
    (fun i => Cert.ReferenceIdeal.ReadP.val_main_v10 (F := Ideal) (A1 m c) (ValueIdx.ix1 i))
    (fun i => KH.dinv (A1 m c) (ValueIdx.ix1 i)) (refDinv (A1 m c))
    (Cert.Proof.GJ.deg_eq (A1 m c) hr) (ref_deg (A1 m c) hE) (Cert.Proof.GJ.dinv_eq (A1 m c))
    (fun i _ => ref_dinv (A1 m c) i) i

/-- The reference's edge weights are the package's. -/
theorem ref_nrm_eq (hr : Ranged (A1 m c)) (hE : Cert.ReferenceIdeal.RR.EdgesInRange (A1 m c)) (q : Fin (1600000 + 100000)) :
    refNrm (A1 m c) q = (edges (A1 m c) hr (kfacts m c hr)).nrmR q := by
  rw [ref_nrm (A1 m c) hE q, edges_nrmR, ← dinv_eq_ref m c hr hE, ← dinv_eq_ref m c hr hE,
    ref_src_eq m c hr hE q, ref_dst_eq m c hr hE q]

/-! ## The three layers -/

/-- Layer 1: the kernel's masked layer output is the reference's layer output on the real rows, zero on the padded rows. -/
theorem layer1_eq (hr : Ranged (A1 m c)) (hE : Cert.ReferenceIdeal.RR.EdgesInRange (A1 m c)) (hReg : RegionFacts m outs c) :
    ∀ (n : Fin 100352) (d : Fin 16), (KH.maskRows16 (outs 20 main_v93 c) KH.maskCol (ValueIdx.ix2 n d) : EReal)
      = if h : n.val < 100000 then ((Cert.ReferenceIdeal.ReadP.val_main_v48 (F := Ideal) (A0 m c) (A1 m c) (A4 m c) (A5 m c)) (ValueIdx.ix2 ⟨n.val, h⟩ d) : EReal) else 0 := by
  have h83 : DenseEq (K := 128) (D := 16) (outs 17 main_v83 c) (KH.xP (A0 m c)) (A4 m c) := by
    have h := hReg.d1
    rw [KH.V16_v75 m c, KH.V16_arg4 m c] at h
    exact h
  have h84 : GatherEq (D := 16) (outs 18 main_v84 c) (KH.srcSorted (A1 m c)) (outs 17 main_v83 c) (KH.normSorted (A1 m c)) := by
    have h := hReg.g1
    rw [KH.V17_v52 m outs c, KH.V17_v83 m outs c, KH.V17_v59 m outs c] at h
    exact h
  have h93a : ScatterEq (D := 16) (fun t : EReal => max t 0) (outs 20 main_v93 c) (KH.selfNormP (A1 m c)) (outs 17 main_v83 c) (KH.dstSorted (A1 m c))
      (KH.rows16 (outs 18 main_v84 c) (KH.comb (A1 m c))) (KH.biasRow16 (A5 m c)) := by
    have h := hReg.s1
    rw [KH.V19_v76 m outs c, KH.V19_v83 m outs c, KH.V19_v66 m outs c, KH.V19_v91 m outs c, KH.V19_v92 m outs c] at h
    exact h
  have h93 : ∀ (n : Fin 100352) (d : Fin 16),
      (((outs 20 main_v93 c) : Vec Ideal S100352x16 .f32) (ValueIdx.ix2 n d) : EReal)
      = (fun t : EReal => max t 0) (KH.selfNormP (A1 m c) (ValueIdx.ix1 n) * ((outs 17 main_v83 c) : Vec Ideal S100352x16 .f32) (ValueIdx.ix2 n d)
          + (∑ p : Fin 1601536, if (KH.dstSorted (A1 m c) (ValueIdx.ix1 p) : BitVec 32).toNat = n.val
              then (KH.rows16 (outs 18 main_v84 c) (KH.comb (A1 m c)) (ValueIdx.ix2 p d) : EReal) else 0)
          + (A5 m c) (ValueIdx.ix1 d)) := by
    intro n d
    have h' := h93a n d
    rw [Cert.Proof.GJ.biasRow16_apply] at h'
    exact h'
  have houtR : ∀ (n : Fin 100000) (d : Fin 16), ((Cert.ReferenceIdeal.ReadP.val_main_v48 (F := Ideal) (A0 m c) (A1 m c) (A4 m c) (A5 m c)) (ValueIdx.ix2 n d) : EReal)
      = (fun t : EReal => max t 0) ((0 + ∑ q : Fin (1600000 + 100000), if (edges (A1 m c) hr (kfacts m c hr)).dstR q = n
              then ((Cert.ReferenceIdeal.ReadP.val_main_v16 (F := Ideal) (A0 m c) (A4 m c)) (ValueIdx.ix2 ((edges (A1 m c) hr (kfacts m c hr)).srcR q) d) : EReal) * (edges (A1 m c) hr (kfacts m c hr)).nrmR q else 0)
          + (A5 m c) (ValueIdx.ix1 d)) := by
    intro n d
    have h := ref_houtR1 (A0 m c) (A1 m c) (A4 m c) (A5 m c) hE n d
    simp only [ref_dst_eq m c hr hE, ref_src_eq m c hr hE, ref_nrm_eq m c hr hE] at h
    exact h
  exact layer16 (A1 m c) hr (kfacts m c hr) (fun t : EReal => max t 0) (KH.xP (A0 m c)) (A0 m c) (Cert.Proof.GJ.xP_eq (A0 m c)) (A4 m c) (A5 m c)
    (outs 17 main_v83 c) h83 (outs 18 main_v84 c) h84 (outs 20 main_v93 c) h93 (Cert.Proof.GJ.maskRows16_apply _ _)
    (Cert.ReferenceIdeal.ReadP.val_main_v16 (F := Ideal) (A0 m c) (A4 m c)) (ref_hhwR1 (A0 m c) (A4 m c)) (Cert.ReferenceIdeal.ReadP.val_main_v48 (F := Ideal) (A0 m c) (A1 m c) (A4 m c) (A5 m c)) houtR

/-- Layer 2: the kernel's masked layer output is the reference's layer output on the real rows, zero on the padded rows. -/
theorem layer2_eq (hr : Ranged (A1 m c)) (hE : Cert.ReferenceIdeal.RR.EdgesInRange (A1 m c)) (hReg : RegionFacts m outs c) :
    ∀ (n : Fin 100352) (d : Fin 64), (KH.maskRows64 (outs 25 main_v106 c) KH.maskCol (ValueIdx.ix2 n d) : EReal)
      = if h : n.val < 100000 then ((Cert.ReferenceIdeal.ReadP.val_main_v81 (F := Ideal) (A0 m c) (A1 m c) (A4 m c) (A5 m c) (A6 m c) (A7 m c)) (ValueIdx.ix2 ⟨n.val, h⟩ d) : EReal) else 0 := by
  have h83 : DenseEq (K := 16) (D := 64) (outs 22 main_v96 c) (KH.maskRows16 (outs 20 main_v93 c) KH.maskCol) (A6 m c) := by
    have h := hReg.d2
    rw [KH.V21_v95 m outs c, KH.V21_arg6 m outs c] at h
    exact h
  have h84 : GatherEq (D := 64) (outs 23 main_v97 c) (KH.srcSorted (A1 m c)) (outs 22 main_v96 c) (KH.normSorted (A1 m c)) := by
    have h := hReg.g2
    rw [KH.V22_v52 m outs c, KH.V22_v96 m outs c, KH.V22_v59 m outs c] at h
    exact h
  have h93a : ScatterEq (D := 64) (fun t : EReal => max t 0) (outs 25 main_v106 c) (KH.selfNormP (A1 m c)) (outs 22 main_v96 c) (KH.dstSorted (A1 m c))
      (KH.rows64 (outs 23 main_v97 c) (KH.comb (A1 m c))) (KH.biasRow64 (A7 m c)) := by
    have h := hReg.s2
    rw [KH.V24_v76 m outs c, KH.V24_v96 m outs c, KH.V24_v66 m outs c, KH.V24_v104 m outs c, KH.V24_v105 m outs c] at h
    exact h
  have h93 : ∀ (n : Fin 100352) (d : Fin 64),
      (((outs 25 main_v106 c) : Vec Ideal S100352x64 .f32) (ValueIdx.ix2 n d) : EReal)
      = (fun t : EReal => max t 0) (KH.selfNormP (A1 m c) (ValueIdx.ix1 n) * ((outs 22 main_v96 c) : Vec Ideal S100352x64 .f32) (ValueIdx.ix2 n d)
          + (∑ p : Fin 1601536, if (KH.dstSorted (A1 m c) (ValueIdx.ix1 p) : BitVec 32).toNat = n.val
              then (KH.rows64 (outs 23 main_v97 c) (KH.comb (A1 m c)) (ValueIdx.ix2 p d) : EReal) else 0)
          + (A7 m c) (ValueIdx.ix1 d)) := by
    intro n d
    have h' := h93a n d
    rw [Cert.Proof.GJ.biasRow64_apply] at h'
    exact h'
  have houtR : ∀ (n : Fin 100000) (d : Fin 64), ((Cert.ReferenceIdeal.ReadP.val_main_v81 (F := Ideal) (A0 m c) (A1 m c) (A4 m c) (A5 m c) (A6 m c) (A7 m c)) (ValueIdx.ix2 n d) : EReal)
      = (fun t : EReal => max t 0) ((0 + ∑ q : Fin (1600000 + 100000), if (edges (A1 m c) hr (kfacts m c hr)).dstR q = n
              then ((Cert.ReferenceIdeal.ReadP.val_main_v49 (F := Ideal) (A0 m c) (A1 m c) (A4 m c) (A5 m c) (A6 m c)) (ValueIdx.ix2 ((edges (A1 m c) hr (kfacts m c hr)).srcR q) d) : EReal) * (edges (A1 m c) hr (kfacts m c hr)).nrmR q else 0)
          + (A7 m c) (ValueIdx.ix1 d)) := by
    intro n d
    have h := ref_houtR2 (A0 m c) (A1 m c) (A4 m c) (A5 m c) (A6 m c) (A7 m c) hE n d
    simp only [ref_dst_eq m c hr hE, ref_src_eq m c hr hE, ref_nrm_eq m c hr hE] at h
    exact h
  exact layer64 (A1 m c) hr (kfacts m c hr) (fun t : EReal => max t 0) (KH.maskRows16 (outs 20 main_v93 c) KH.maskCol) (Cert.ReferenceIdeal.ReadP.val_main_v48 (F := Ideal) (A0 m c) (A1 m c) (A4 m c) (A5 m c)) (layer1_eq m outs c hr hE hReg) (A6 m c) (A7 m c)
    (outs 22 main_v96 c) h83 (outs 23 main_v97 c) h84 (outs 25 main_v106 c) h93 (Cert.Proof.GJ.maskRows64_apply _ _)
    (Cert.ReferenceIdeal.ReadP.val_main_v49 (F := Ideal) (A0 m c) (A1 m c) (A4 m c) (A5 m c) (A6 m c)) (ref_hhwR2 (A0 m c) (A1 m c) (A4 m c) (A5 m c) (A6 m c)) (Cert.ReferenceIdeal.ReadP.val_main_v81 (F := Ideal) (A0 m c) (A1 m c) (A4 m c) (A5 m c) (A6 m c) (A7 m c)) houtR

/-- Layer 3: the kernel's masked layer output is the reference's layer output on the real rows, zero on the padded rows. -/
theorem layer3_eq (hr : Ranged (A1 m c)) (hE : Cert.ReferenceIdeal.RR.EdgesInRange (A1 m c)) (hReg : RegionFacts m outs c) :
    ∀ (n : Fin 100352) (d : Fin 32), (KH.maskRows32 (outs 30 main_v119 c) KH.maskCol (ValueIdx.ix2 n d) : EReal)
      = if h : n.val < 100000 then ((Cert.ReferenceIdeal.ReadP.val_main_v113 (F := Ideal) (A0 m c) (A1 m c) (A4 m c) (A5 m c) (A6 m c) (A7 m c) (A8 m c) (A9 m c)) (ValueIdx.ix2 ⟨n.val, h⟩ d) : EReal) else 0 := by
  have h83 : DenseEq (K := 64) (D := 32) (outs 27 main_v109 c) (KH.maskRows64 (outs 25 main_v106 c) KH.maskCol) (A8 m c) := by
    have h := hReg.d3
    rw [KH.V26_v108 m outs c, KH.V26_arg8 m outs c] at h
    exact h
  have h84 : GatherEq (D := 32) (outs 28 main_v110 c) (KH.srcSorted (A1 m c)) (outs 27 main_v109 c) (KH.normSorted (A1 m c)) := by
    have h := hReg.g3
    rw [KH.V27_v52 m outs c, KH.V27_v109 m outs c, KH.V27_v59 m outs c] at h
    exact h
  have h93a : ScatterEq (D := 32) (fun t : EReal => t) (outs 30 main_v119 c) (KH.selfNormP (A1 m c)) (outs 27 main_v109 c) (KH.dstSorted (A1 m c))
      (KH.rows32 (outs 28 main_v110 c) (KH.comb (A1 m c))) (KH.biasRow32 (A9 m c)) := by
    have h := hReg.s3
    rw [KH.V29_v76 m outs c, KH.V29_v109 m outs c, KH.V29_v66 m outs c, KH.V29_v117 m outs c, KH.V29_v118 m outs c] at h
    exact h
  have h93 : ∀ (n : Fin 100352) (d : Fin 32),
      (((outs 30 main_v119 c) : Vec Ideal S100352x32 .f32) (ValueIdx.ix2 n d) : EReal)
      = (fun t : EReal => t) (KH.selfNormP (A1 m c) (ValueIdx.ix1 n) * ((outs 27 main_v109 c) : Vec Ideal S100352x32 .f32) (ValueIdx.ix2 n d)
          + (∑ p : Fin 1601536, if (KH.dstSorted (A1 m c) (ValueIdx.ix1 p) : BitVec 32).toNat = n.val
              then (KH.rows32 (outs 28 main_v110 c) (KH.comb (A1 m c)) (ValueIdx.ix2 p d) : EReal) else 0)
          + (A9 m c) (ValueIdx.ix1 d)) := by
    intro n d
    have h' := h93a n d
    rw [Cert.Proof.GJ.biasRow32_apply] at h'
    exact h'
  have houtR : ∀ (n : Fin 100000) (d : Fin 32), ((Cert.ReferenceIdeal.ReadP.val_main_v113 (F := Ideal) (A0 m c) (A1 m c) (A4 m c) (A5 m c) (A6 m c) (A7 m c) (A8 m c) (A9 m c)) (ValueIdx.ix2 n d) : EReal)
      = (fun t : EReal => t) ((0 + ∑ q : Fin (1600000 + 100000), if (edges (A1 m c) hr (kfacts m c hr)).dstR q = n
              then ((Cert.ReferenceIdeal.ReadP.val_main_v82 (F := Ideal) (A0 m c) (A1 m c) (A4 m c) (A5 m c) (A6 m c) (A7 m c) (A8 m c)) (ValueIdx.ix2 ((edges (A1 m c) hr (kfacts m c hr)).srcR q) d) : EReal) * (edges (A1 m c) hr (kfacts m c hr)).nrmR q else 0)
          + (A9 m c) (ValueIdx.ix1 d)) := by
    intro n d
    have h := ref_houtR3 (A0 m c) (A1 m c) (A4 m c) (A5 m c) (A6 m c) (A7 m c) (A8 m c) (A9 m c) hE n d
    simp only [ref_dst_eq m c hr hE, ref_src_eq m c hr hE, ref_nrm_eq m c hr hE] at h
    exact h
  exact layer32 (A1 m c) hr (kfacts m c hr) (fun t : EReal => t) (KH.maskRows64 (outs 25 main_v106 c) KH.maskCol) (Cert.ReferenceIdeal.ReadP.val_main_v81 (F := Ideal) (A0 m c) (A1 m c) (A4 m c) (A5 m c) (A6 m c) (A7 m c)) (layer2_eq m outs c hr hE hReg) (A8 m c) (A9 m c)
    (outs 27 main_v109 c) h83 (outs 28 main_v110 c) h84 (outs 30 main_v119 c) h93 (Cert.Proof.GJ.maskRows32_apply _ _)
    (Cert.ReferenceIdeal.ReadP.val_main_v82 (F := Ideal) (A0 m c) (A1 m c) (A4 m c) (A5 m c) (A6 m c) (A7 m c) (A8 m c)) (ref_hhwR3 (A0 m c) (A1 m c) (A4 m c) (A5 m c) (A6 m c) (A7 m c) (A8 m c)) (Cert.ReferenceIdeal.ReadP.val_main_v113 (F := Ideal) (A0 m c) (A1 m c) (A4 m c) (A5 m c) (A6 m c) (A7 m c) (A8 m c) (A9 m c)) houtR

/-! ## The pool, the quotient, the head -/

/-- The padded graph ids are the real ones on the real rows. -/
theorem batch_real (i : Fin 100352) (h : i.val < 100000) :
    (KH.batchP (A2 m c) (ValueIdx.ix1 i) : BitVec 32) = (A2 m c) (ValueIdx.ix1 ⟨i.val, h⟩) := by
  rw [Cert.Proof.GJ.batchP_eq, dif_pos h]

/-- The padded rows' graph id is no graph's. -/
theorem batch_pad (g : Fin 64) (i : Fin 100352) (h : 100000 ≤ i.val) :
    (KH.batchP (A2 m c) (ValueIdx.ix1 i) : BitVec 32) ≠ BitVec.ofNat 32 g.val := by
  rw [Cert.Proof.GJ.batchP_eq, dif_neg (Nat.not_lt.mpr h)]
  exact allOnes_ne_ofNat g.val (by have := g.isLt; omega)

/-- The pooled sums agree. -/
theorem sums_eq (hr : Ranged (A1 m c)) (hE : Cert.ReferenceIdeal.RR.EdgesInRange (A1 m c)) (hReg : RegionFacts m outs c)
    (g : Fin 64) (d : Fin 32) : (outs 32 main_v122_0 c : Vec Ideal S64x32 .f32) (ValueIdx.ix2 g d)
      = Cert.ReferenceIdeal.ReadP.val_main_v116 (F := Ideal) (A0 m c) (A1 m c) (A2 m c) (A4 m c) (A5 m c) (A6 m c) (A7 m c) (A8 m c) (A9 m c) (ValueIdx.ix2 g d) := by
  have h := hReg.ps
  rw [KH.V31_v77 m outs c, KH.V31_v121 m outs c] at h
  rw [h g d, ref_sum (A0 m c) (A1 m c) (A2 m c) (A4 m c) (A5 m c) (A6 m c) (A7 m c) (A8 m c) (A9 m c) g d]
  exact pool_step (N := 100000) (NP := 100352) (by omega)
    (fun i => (KH.batchP (A2 m c) (ValueIdx.ix1 i) : BitVec 32)) (fun i => ((A2 m c) (ValueIdx.ix1 i) : BitVec 32))
    (BitVec.ofNat 32 g.val)
    (fun n d => (KH.maskRows32 (outs 30 main_v119 c) KH.maskCol (ValueIdx.ix2 n d) : EReal))
    (fun n d => ((Cert.ReferenceIdeal.ReadP.val_main_v113 (F := Ideal) (A0 m c) (A1 m c) (A4 m c) (A5 m c) (A6 m c) (A7 m c) (A8 m c) (A9 m c)) (ValueIdx.ix2 n d) : EReal))
    (layer3_eq m outs c hr hE hReg) (batch_real m c) (batch_pad m c g) d

/-- The node counts agree. -/
theorem cnts_eq (hReg : RegionFacts m outs c) (g : Fin 64) :
    (outs 32 main_v122_1 c : Vec Ideal S64x1 .f32) (ValueIdx.ix2 g (0 : Fin 1))
      = Cert.ReferenceIdeal.ReadP.val_main_v120 (F := Ideal) (A2 m c) (ValueIdx.ix1 g) := by
  have h := hReg.pc
  rw [KH.V31_v77 m outs c] at h
  rw [h g, ref_cnt (A2 m c) g]
  exact cnt_step (N := 100000) (NP := 100352) (by omega)
    (fun i => (KH.batchP (A2 m c) (ValueIdx.ix1 i) : BitVec 32)) (fun i => ((A2 m c) (ValueIdx.ix1 i) : BitVec 32))
    (BitVec.ofNat 32 g.val) (batch_real m c) (batch_pad m c g)

/-- The head on the pooled features is the same term in the two programs. -/
theorem tail_same (molv : Vec Ideal S64x32 .f32) (Wp1 : Vec Ideal S32x64 .f32) (bp1 : Vec Ideal S64 .f32)
    (action : Vec Ideal S64x4 .f32) (Wp2 : Vec Ideal S68x10 .f32) (bp2 : Vec Ideal S10 .f32)
    (Wp3 : Vec Ideal S10x1 .f32) (bp3 : Vec Ideal S1 .f32) :
    Cert.ReferenceIdeal.RR.tailFromMol (F := Ideal) molv Wp1 bp1 action Wp2 bp2 Wp3 bp3
      = KH.tailFromMol molv Wp1 bp1 action Wp2 bp2 Wp3 bp3 := rfl

/-- THE EQUATION: the reference's result, as a term of the arguments, is what the idealized program leaves in its
    result buffer. -/
theorem value_eq_of (hr : Ranged (A1 m c)) (hE : Cert.ReferenceIdeal.RR.EdgesInRange (A1 m c)) (hReg : RegionFacts m outs c) :
    Cert.ReferenceIdeal.ReadP.val_main_v140 (F := Ideal) (A0 m c) (A1 m c) (A2 m c) (A3 m c) (A4 m c) (A5 m c) (A6 m c) (A7 m c) (A8 m c) (A9 m c) (A10 m c) (A11 m c) (A12 m c) (A13 m c) (A14 m c) (A15 m c)
      = GenP.V37 m outs c main_v141 := by
  have hmol : Cert.ReferenceIdeal.ReadP.val_main_v125 (F := Ideal) (A0 m c) (A1 m c) (A2 m c) (A4 m c) (A5 m c) (A6 m c) (A7 m c) (A8 m c) (A9 m c)
      = KH.mol (outs 32 main_v122_0 c) (outs 32 main_v122_1 c) := by
    funext j
    obtain ⟨g, d, rfl⟩ : ∃ (g : Fin 64) (d : Fin 32), j = ValueIdx.ix2 g d := ⟨j 0, j 1, ValueIdx.eq_ix2 j⟩
    rw [Cert.Proof.GMR.molR_apply (A0 m c) (A1 m c) (A2 m c) (A4 m c) (A5 m c) (A6 m c) (A7 m c) (A8 m c) (A9 m c) g d, Cert.Proof.GM.mol_apply,
      sums_eq m outs c hr hE hReg g d, cnts_eq m outs c hReg g]
  rw [KH.V37_result m outs c, ref_result (A0 m c) (A1 m c) (A2 m c) (A3 m c) (A4 m c) (A5 m c) (A6 m c) (A7 m c) (A8 m c) (A9 m c) (A10 m c) (A11 m c) (A12 m c) (A13 m c) (A14 m c) (A15 m c), hmol, tail_same]
  rfl

end Cert.Proof.C

end
-- ==== Proof.PreDecode.lean ====
/-
  The precondition, read back. The printed predicate is a conjunction of fourteen "every entry is finite"
  tests with, last, "every entry of both rows of the edge list is at least 0 and below 100000", each test a
  reduction by `and` over all axes. From "the predicate is all ones" this module keeps the last conjunct only:
  every word of the edge list, read signed, lies in [0, 100000) — and therefore, read unsigned, is below 100000.
  The statement about the predicate is generic in the float instance; the two corollaries read it off the
  precondition of the idealized program and of the word-level program.
-/
import proofs.«417346_j54202487276072_2_alg».proof.Defs
import Idealize.ShloMosaic.Lib.ReduceAll
import Idealize.ShloMosaic.Lib.ValueIdx

noncomputable section

namespace Cert.Proof.PD

open Idealize.ShloMosaic Idealize.SL.Sem
open Cert.Pre_finite_inputs

/-- The scalar shape has one index. -/
instance subsingleton_S_ : Subsingleton S_.Idx := ⟨fun a b => funext fun d => d.elim0⟩

/-- The two bounds the predicate compares against, read signed. -/
theorem toInt_c0 : (0#32 : BitVec 32).toInt = 0 := by decide
theorem toInt_c100000 : (100000#32 : BitVec 32).toInt = 100000 := by decide

/-- A 32-bit word that is in [0, 100000) read signed is below 100000 read unsigned. -/
theorem toNat_lt_of_toInt (w : BitVec 32) (h0 : 0 ≤ w.toInt) (h1 : w.toInt < 100000) : w.toNat < 100000 := by
  have hw := w.isLt
  rw [BitVec.toInt_eq_toNat_cond] at h0 h1
  split at h0
  · rename_i hc
    rw [if_pos hc] at h1
    omega
  · omega

/-- The last part of the predicate: its result is the conjunction of two carried bits with the reduction by
    `and`, over both axes, of (word ≥ 0) ∧ (word < 100000). If the result is 1, the reduction is 1, so every
    element of the reduced array is 1, so both comparisons hold at every index. The broadcast constants read
    at an index are the constants themselves. -/
theorem ei_range_of_part4 [Facts] {F : FTy → Type} [FloatOps F] (a1 : IVec S2x1600000 32) (x y : IVec S_ 1)
    (h : fn_part4 (F := F) a1 x y = fun _ => 1#1) :
    ∀ (r : Fin 2) (e : Fin 1600000),
      0 ≤ (a1 (ValueIdx.ix2 r e)).toInt ∧ (a1 (ValueIdx.ix2 r e)).toInt < 100000 := by
  intro r e
  have h0 := congrFun h ValueIdx.ix0
  dsimp only [fn_part4, andi] at h0
  obtain ⟨-, h2⟩ := IntOp.andi_eq_one.1 h0
  have h3 := Host.reduce_andi_all _ _ _ _ _ h2 (ValueIdx.ix2 r e)
  obtain ⟨hge, hlt⟩ := IntOp.andi_eq_one.1 h3
  have hge' := IntOp.cmpi_sge.1 hge
  have hlt' := IntOp.cmpi_slt.1 hlt
  exact ⟨toInt_c0 ▸ hge', toInt_c100000 ▸ hlt'⟩

/-- The whole predicate: its four parts are one chain ending in the last part applied to the edge list and
    two bits computed from the float arguments, so the last part's reading applies whatever those bits are. -/
theorem ei_range_of_fn [Facts] {F : FTy → Type} [FloatOps F]
    (a0 : FVec F S100000x128 .f32) (a1 : IVec S2x1600000 32) (a2 : IVec S100000 32) (a3 : FVec F S64x4 .f32)
    (a4 : FVec F S128x16 .f32) (a5 : FVec F S16 .f32) (a6 : FVec F S16x64 .f32) (a7 : FVec F S64 .f32)
    (a8 : FVec F S64x32 .f32) (a9 : FVec F S32 .f32) (a10 : FVec F S32x64 .f32) (a11 : FVec F S64 .f32)
    (a12 : FVec F S68x10 .f32) (a13 : FVec F S10 .f32) (a14 : FVec F S10x1 .f32) (a15 : FVec F S1 .f32)
    (h : fn (F := F) a0 a1 a2 a3 a4 a5 a6 a7 a8 a9 a10 a11 a12 a13 a14 a15 = fun _ => 1#1) :
    ∀ (r : Fin 2) (e : Fin 1600000),
      0 ≤ (a1 (ValueIdx.ix2 r e)).toInt ∧ (a1 (ValueIdx.ix2 r e)).toInt < 100000 :=
  ei_range_of_part4 (F := F) a1 _ _ h

/-- Under the idealized program's precondition every word of the edge list is in [0, 100000), signed. -/
theorem ei_range [Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ (r : Fin 2) (e : Fin 1600000),
      0 ≤ ((m ((c.tc : Thread Cert.KernelIdeal.nD Cert.KernelIdeal.τ).loc Cert.KernelIdeal.main_arg1) :
              Cert.KernelIdeal.S2x1600000.Idx → BitVec 32) (ValueIdx.ix2 r e)).toInt
      ∧ ((m ((c.tc : Thread Cert.KernelIdeal.nD Cert.KernelIdeal.τ).loc Cert.KernelIdeal.main_arg1) :
              Cert.KernelIdeal.S2x1600000.Idx → BitVec 32) (ValueIdx.ix2 r e)).toInt < 100000 :=
  ei_range_of_fn (F := Ideal) _ _ _ _ _ _ _ _ _ _ _ _ _ _ _ _ (h c)

/-- The same, unsigned. -/
theorem ei_toNat_lt [Facts]
    (m : (ℓ : Loc Cert.KernelIdeal.nD Cert.KernelIdeal.τ Cert.KernelIdeal.sig) → Buf (Elt Ideal) ℓ)
    (h : Cert.Pre_KernelIdeal m) (c : Dev Cert.KernelIdeal.nD) (r : Fin 2) (e : Fin 1600000) :
    ((m ((c.tc : Thread Cert.KernelIdeal.nD Cert.KernelIdeal.τ).loc Cert.KernelIdeal.main_arg1) :
        Cert.KernelIdeal.S2x1600000.Idx → BitVec 32) (ValueIdx.ix2 r e)).toNat < 100000 :=
  toNat_lt_of_toInt _ (ei_range m h c r e).1 (ei_range m h c r e).2

/-- Under the word-level program's precondition every word of the edge list is in [0, 100000), signed. -/
theorem ei_range_K [Facts]
    (m : (ℓ : Loc Cert.Kernel.nD Cert.Kernel.τ Cert.Kernel.sig) → Buf (Elt Bits) ℓ)
    (h : Cert.Pre_Kernel m) (c : Dev Cert.Kernel.nD) :
    ∀ (r : Fin 2) (e : Fin 1600000),
      0 ≤ ((m ((c.tc : Thread Cert.Kernel.nD Cert.Kernel.τ).loc Cert.Kernel.main_arg1) :
              Cert.Kernel.S2x1600000.Idx → BitVec 32) (ValueIdx.ix2 r e)).toInt
      ∧ ((m ((c.tc : Thread Cert.Kernel.nD Cert.Kernel.τ).loc Cert.Kernel.main_arg1) :
              Cert.Kernel.S2x1600000.Idx → BitVec 32) (ValueIdx.ix2 r e)).toInt < 100000 :=
  ei_range_of_fn (F := Bits) _ _ _ _ _ _ _ _ _ _ _ _ _ _ _ _ (h c)

/-- The same, unsigned. -/
theorem ei_toNat_lt_K [Facts]
    (m : (ℓ : Loc Cert.Kernel.nD Cert.Kernel.τ Cert.Kernel.sig) → Buf (Elt Bits) ℓ)
    (h : Cert.Pre_Kernel m) (c : Dev Cert.Kernel.nD) (r : Fin 2) (e : Fin 1600000) :
    ((m ((c.tc : Thread Cert.Kernel.nD Cert.Kernel.τ).loc Cert.Kernel.main_arg1) :
        Cert.Kernel.S2x1600000.Idx → BitVec 32) (ValueIdx.ix2 r e)).toNat < 100000 :=
  toNat_lt_of_toInt _ (ei_range_K m h c r e).1 (ei_range_K m h c r e).2

end Cert.Proof.PD

end
-- ==== Proof.ComposeHval.lean ====
/-
  The equation between the two results, in the form the assembly takes it: for memories that agree on the
  arguments, the reference's stage function of ITS arguments is what the idealized program leaves in its result
  buffer. The agreement turns the reference's arguments into the idealized program's; the precondition gives the
  edge list's range, signed and unsigned.
-/
import proofs.«417346_j54202487276072_2_alg».proof.Proof.ComposeAsm
import proofs.«417346_j54202487276072_2_alg».proof.Proof.ComposeValue
import proofs.«417346_j54202487276072_2_alg».proof.Proof.PreDecode

noncomputable section

namespace Cert.Proof.C

open Idealize.ShloMosaic Idealize.ShloMosaic.TcCoe Idealize.SL.Sem

/-- The reference's result as the stage function of its launch arguments. -/
abbrev resRef (m' : MemR) (c : Dev Cert.ReferenceIdeal.nD) :
    Buf (Elt Ideal) ((c.tc : Thread Cert.ReferenceIdeal.nD Cert.ReferenceIdeal.τ).loc Cert.ReferenceIdeal.main_v140) :=
  Cert.ReferenceIdeal.ReadP.val_main_v140 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))

theorem hval_of [hP : Cert.Pre_finite_inputs.Facts] (outs : MemK → Cert.KernelIdeal.GenP.Outs (F := Ideal))
    (hreg : ∀ (m : MemK) (c : Dev Cert.KernelIdeal.nD), RegionFacts m (outs m) c) :
    ∀ (m : MemK) (m' : MemR), Cert.Pre_KernelIdeal m → Agree m m' → ∀ c : Dev Cert.KernelIdeal.nD,
      resRef m' c = Cert.KernelIdeal.GenP.V37 m (outs m) c Cert.KernelIdeal.main_v141 := by
  intro m m' hpre hag c
  obtain ⟨h0, h1, h2, h3, h4, h5, h6, h7, h8, h9, h10, h11, h12, h13, h14, h15⟩ := hag c
  show Cert.ReferenceIdeal.ReadP.val_main_v140 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) = _
  rw [h0, h1, h2, h3, h4, h5, h6, h7, h8, h9, h10, h11, h12, h13, h14, h15]
  exact value_eq_of m (outs m) c (fun r e => Cert.Proof.PD.ei_toNat_lt m hpre c r e)
    (Cert.Proof.PD.ei_range m hpre c) (hreg m c)

end Cert.Proof.C

end
-- ==== Proof.R0Value.lean ====
/- Region 0 of @main, the values: at the ideal values the output array after the region is the matrix product of
   the two operand arrays as the region finds them: the first dense layer, rows of the padded feature matrix times the first weight matrix.
   The body's payload at an entry of a block is the sum over the contraction index; point t writes back block t of
   the product; the 49 blocks cover the array. -/
import proofs.«417346_j54202487276072_2_alg».proof.Proof.R0Frame
import Idealize.ShloMosaic.Lib.Pipeline.Value
import Idealize.ShloMosaic.Lib.ValueIdx
import Idealize.ShloMosaic.PureOps.Ideal.Laws

noncomputable section

namespace Cert.KernelIdeal.R0V

open Cert.KernelIdeal Cert.KernelIdeal.Gen
open Idealize.ShloMosaic Idealize.ShloMosaic.TcCoe Idealize.SL.Sem
open Idealize.ShloMosaic.Pipeline (Dat)
open scoped BigOperators

/-- The contraction length (the operands' shared axis) and the number of output columns, written once. -/
local notation "KLEN" => 128
local notation "NCOL" => 16

/-! ## The product, index by index -/

/-- Row `j 0`, column `k` of the left operand's array. -/
abbrev lhsAt (j : S100352x16.Idx) (k : Fin KLEN) : S100352x128.Idx :=
  ValueIdx.ix2 (⟨(j 0).val, ValueIdx.idx2_lt0 j⟩ : Fin 100352) k
/-- Row `k`, column `j 1` of the right operand's array. -/
abbrev rhsAt (j : S100352x16.Idx) (k : Fin KLEN) : S128x16.Idx :=
  ValueIdx.ix2 k (⟨(j 1).val, ValueIdx.idx2_lt1 j⟩ : Fin NCOL)

/-- The matrix product of two arrays, entry by entry: the sum over the contraction index of the products. -/
def prod (X : S100352x128.Idx → EReal) (W : S128x16.Idx → EReal) : S100352x16.Idx → EReal :=
  fun j => ∑ k : Fin KLEN, X (lhsAt j k) * W (rhsAt j k)

/-! ## The body's payload at an index of the block -/

/-- The four coordinates of the dot's operand indices: the left operand is read at (row of the output, contraction
    index), the right at (contraction index, column of the output). -/
theorem lhs_ax0 (j : S2048x16.Idx) (q : dot_S2048x128_S128x16_S2048x16_1_0_0_1_n_n.contr.Idx) :
    (dot_S2048x128_S128x16_S2048x16_1_0_0_1_n_n.lhsIdx j q 0).val = (j 0).val := by
  unfold DotDims.lhsIdx
  rw [dif_neg (show ¬(0 : Fin S2048x128.rank) ∈ dot_S2048x128_S128x16_S2048x16_1_0_0_1_n_n.lhsBatch by decide),
    dif_pos (show (0 : Fin S2048x128.rank) ∈ dot_S2048x128_S128x16_S2048x16_1_0_0_1_n_n.lhsNonContracting by decide)]
  rfl
theorem lhs_ax1 (j : S2048x16.Idx) (q : dot_S2048x128_S128x16_S2048x16_1_0_0_1_n_n.contr.Idx) :
    (dot_S2048x128_S128x16_S2048x16_1_0_0_1_n_n.lhsIdx j q 1).val = (q ⟨0, by decide⟩).val :=
  dot_S2048x128_S128x16_S2048x16_1_0_0_1_n_n.lhsIdx_val_of_single rfl j q
theorem rhs_ax0 (j : S2048x16.Idx) (q : dot_S2048x128_S128x16_S2048x16_1_0_0_1_n_n.contr.Idx) :
    (dot_S2048x128_S128x16_S2048x16_1_0_0_1_n_n.rhsIdx j q 0).val = (q ⟨0, by decide⟩).val :=
  dot_S2048x128_S128x16_S2048x16_1_0_0_1_n_n.rhsIdx_val_of_single rfl j q
theorem rhs_ax1 (j : S2048x16.Idx) (q : dot_S2048x128_S128x16_S2048x16_1_0_0_1_n_n.contr.Idx) :
    (dot_S2048x128_S128x16_S2048x16_1_0_0_1_n_n.rhsIdx j q 1).val = (j 1).val := by
  unfold DotDims.rhsIdx
  rw [dif_neg (show ¬(1 : Fin S128x16.rank) ∈ dot_S2048x128_S128x16_S2048x16_1_0_0_1_n_n.rhsBatch by decide),
    dif_pos (show (1 : Fin S128x16.rank) ∈ dot_S2048x128_S128x16_S2048x16_1_0_0_1_n_n.rhsNonContracting by decide)]
  rfl

/-- At the ideal values the payload at entry (r, n) of the block is the sum over k of (left block at (r, k)) times
    (right block at (k, n)): the two roundings to the narrow format are the identity on extended reals, the
    same-shape cast is the identity, and the accumulator is zero. -/
theorem pay_apply (x0 : Vec Ideal S2048x128 .f32) (x1 : Vec Ideal S128x16 .f32) (j : S2048x16.Idx) :
    k0_pay1 (F := Ideal) x0 x1 j
      = ∑ k : Fin KLEN, x0 (ValueIdx.ix2 (⟨(j 0).val, ValueIdx.idx2_lt0 j⟩ : Fin 2048) k)
          * x1 (ValueIdx.ix2 k (⟨(j 1).val, ValueIdx.idx2_lt1 j⟩ : Fin NCOL)) := by
  unfold k0_pay1
  simp only [matmul]
  rw [Ideal.matmul_constant_zero_apply,
    ← Equiv.sum_comp (ValueIdx.contrEquiv1 dot_S2048x128_S128x16_S2048x16_1_0_0_1_n_n KLEN rfl rfl).symm]
  refine Finset.sum_congr rfl fun k _ => ?_
  have hk := ValueIdx.contrEquiv1_symm_val dot_S2048x128_S128x16_S2048x16_1_0_0_1_n_n KLEN rfl rfl k
  have el : dot_S2048x128_S128x16_S2048x16_1_0_0_1_n_n.lhsIdx j
      ((ValueIdx.contrEquiv1 dot_S2048x128_S128x16_S2048x16_1_0_0_1_n_n KLEN rfl rfl).symm k)
      = ValueIdx.ix2 (⟨(j 0).val, ValueIdx.idx2_lt0 j⟩ : Fin 2048) k := funext fun a => Fin.ext (by
    match a with
    | ⟨0, _⟩ => exact lhs_ax0 _ _
    | ⟨1, _⟩ => exact (lhs_ax1 _ _).trans hk)
  have er : dot_S2048x128_S128x16_S2048x16_1_0_0_1_n_n.rhsIdx j
      ((ValueIdx.contrEquiv1 dot_S2048x128_S128x16_S2048x16_1_0_0_1_n_n KLEN rfl rfl).symm k)
      = ValueIdx.ix2 k (⟨(j 1).val, ValueIdx.idx2_lt1 j⟩ : Fin NCOL) := funext fun a => Fin.ext (by
    match a with
    | ⟨0, _⟩ => exact (rhs_ax0 _ _).trans hk
    | ⟨1, _⟩ => exact rhs_ax1 _ _)
  rw [ValueIdx.truncf_apply, ValueIdx.truncf_apply, shapeCast_self, el, er]

/-! ## The windows' index maps over the grid -/

/-- Decided over the 49 points: the row-block windows (operand 0 and the output) are at block row `t`, block
    column 0; the weight window never moves. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- An index of the output array is in point `t`'s block iff each coordinate is in the block's range on its axis. -/
theorem mem_blk (t : Fin cfg0.N) (i : S100352x16.Idx) :
    i ∈ ((cfg0.win 2).blk t).view.set ↔ ∀ a : Fin 2, win0_2.index t a * S2048x16.size a ≤ (i a).val
      ∧ (i a).val < win0_2.index t a * S2048x16.size a + S2048x16.size a := by
  show i ∈ ((View.whole main_v83).slice (win0_2.rect t)).set ↔ _
  rw [View.set_slice_whole, Rect.mem_set_unit]
  exact Iff.rfl

/-! ## What a point writes back, the cover, and the array after the region -/

section Region
variable (V : (c : Dev nD) → (b : Ref sig .tc) → Buf (Elt Ideal) ((c : Thread nD τ).loc b))

/-- Point `t` writes back block `t` of the product of the two arrays as the region finds them: entry (r, n) of the
    block is array row `2048·t + r`; the left operand's block at (r, k) is the array at that row and column `k`, the
    right operand's block is the whole right operand. -/
theorem flushed_eq (c : Dev nD) (t : Fin cfg0.N) :
    (R0.dat0 (F := Ideal) V c).flushed 2 t
      = ((cfg0.win 2).blk t).view.read (Elt Ideal) (prod (V c main_v75) (V c main_arg4)) := by
  show (cfg0.win 2).cut (grid0.coords t) ((R0.dat0 (F := Ideal) V c).after 2 t) = _
  rw [R0.after0_2]
  unfold R0.out0_2
  rw [View.canon_unit_zero R0.zeroOff]
  simp only [View.ld_unit_zero (S := S2048x128) R0.zeroOff, View.ld_unit_zero (S := S128x16) R0.zeroOff]
  obtain ⟨e00, e01, e10, e11, e20, e21⟩ := idx_facts t
  funext y
  show k0_pay1 (F := Ideal) (R0.iblk0 V c 0 t) (R0.iblk0 V c 1 t) y
    = prod (V c main_v75) (V c main_arg4) (((cfg0.win 2).blk t).view.emb y)
  refine (pay_apply _ _ _).trans ?_
  unfold prod
  refine Finset.sum_congr rfl fun k _ => ?_
  have hy0 : (y 0).val < 2048 := (y 0).isLt
  have hy1 : (y 1).val < NCOL := (y 1).isLt
  have hk : k.val < KLEN := k.isLt
  have h0 : ((cfg0.win 0).blk t).view.emb (ValueIdx.ix2 (⟨(y 0).val, hy0⟩ : Fin 2048) k)
      = lhsAt (((cfg0.win 2).blk t).view.emb y) k := by
    funext a; apply Fin.ext
    match a with
    | ⟨0, _⟩ =>
      show win0_0.index t (0 : Fin 2) * 2048 + 1 * (y 0).val = win0_2.index t (0 : Fin 2) * 2048 + 1 * (y 0).val
      omega
    | ⟨1, _⟩ =>
      show win0_0.index t (1 : Fin 2) * KLEN + 1 * k.val = k.val
      omega
  have h1 : ((cfg0.win 1).blk t).view.emb (ValueIdx.ix2 k (⟨(y 1).val, hy1⟩ : Fin NCOL))
      = rhsAt (((cfg0.win 2).blk t).view.emb y) k := by
    funext a; apply Fin.ext
    match a with
    | ⟨0, _⟩ =>
      show win0_1.index t (0 : Fin 2) * KLEN + 1 * k.val = k.val
      omega
    | ⟨1, _⟩ =>
      show win0_1.index t (1 : Fin 2) * NCOL + 1 * (y 1).val = win0_2.index t (1 : Fin 2) * NCOL + 1 * (y 1).val
      omega
  exact congrArg₂ (fun a b : EReal => a * b)
    (congrArg (V c main_v75 : S100352x128.Idx → EReal) h0)
    (congrArg (V c main_arg4 : S128x16.Idx → EReal) h1)

/-- Every entry of the output array lies in some point's block: row `r` is in the block of point `r / 2048`
    (the 49 blocks of 2048 rows tile the 100352 rows; the one block column is the whole width). -/
theorem cover (i : S100352x16.Idx) :
    ∃ t : Fin cfg0.N, (cfg0.win 2).flush t = true ∧ i ∈ ((cfg0.win 2).blk t).view.set := by
  have hi0 : (i 0).val < 100352 := ValueIdx.idx2_lt0 i
  have hi1 : (i 1).val < NCOL := ValueIdx.idx2_lt1 i
  have ht : (i 0).val / 2048 < cfg0.N := Nat.lt_of_lt_of_eq (by omega : (i 0).val / 2048 < 49) N_0.symm
  refine ⟨⟨(i 0).val / 2048, ht⟩, flush0_2 _, ?_⟩
  rw [mem_blk]
  obtain ⟨-, -, -, -, e20, e21⟩ := idx_facts ⟨(i 0).val / 2048, ht⟩
  intro a
  match a with
  | ⟨0, _⟩ =>
    show win0_2.index ⟨(i 0).val / 2048, ht⟩ (0 : Fin 2) * 2048 ≤ (i 0).val
      ∧ (i 0).val < win0_2.index ⟨(i 0).val / 2048, ht⟩ (0 : Fin 2) * 2048 + 2048
    rw [e20]
    show (i 0).val / 2048 * 2048 ≤ (i 0).val ∧ (i 0).val < (i 0).val / 2048 * 2048 + 2048
    omega
  | ⟨1, _⟩ =>
    show win0_2.index ⟨(i 0).val / 2048, ht⟩ (1 : Fin 2) * NCOL ≤ (i 1).val
      ∧ (i 1).val < win0_2.index ⟨(i 0).val / 2048, ht⟩ (1 : Fin 2) * NCOL + NCOL
    rw [e21]
    omega

/-- THE OUTPUT ARRAY AFTER THE REGION is the product of the two operand arrays as the region finds them. -/
theorem out_eq (c : Dev nD) :
    (R0.dat0 (F := Ideal) V c).arrAt 2 cfg0.N = prod (V c main_v75) (V c main_arg4) :=
  (R0.dat0 (F := Ideal) V c).arrAt_eq_of_cover 2 (prod (V c main_v75) (V c main_arg4))
    (fun t _ => flushed_eq V c t) cover

end Region

end Cert.KernelIdeal.R0V

end
-- ==== Proof.R3Value.lean ====
/- Region 3 of @main, the values: at the ideal values the output array after the region is the matrix product of
   the two operand arrays as the region finds them: the second dense layer, rows of the first layer's activations times the second weight matrix.
   The body's payload at an entry of a block is the sum over the contraction index; point t writes back block t of
   the product; the 49 blocks cover the array. -/
import proofs.«417346_j54202487276072_2_alg».proof.Proof.R3Frame
import Idealize.ShloMosaic.Lib.Pipeline.Value
import Idealize.ShloMosaic.Lib.ValueIdx
import Idealize.ShloMosaic.PureOps.Ideal.Laws

noncomputable section

namespace Cert.KernelIdeal.R3V

open Cert.KernelIdeal Cert.KernelIdeal.Gen
open Idealize.ShloMosaic Idealize.ShloMosaic.TcCoe Idealize.SL.Sem
open Idealize.ShloMosaic.Pipeline (Dat)
open scoped BigOperators

/-- The contraction length (the operands' shared axis) and the number of output columns, written once. -/
local notation "KLEN" => 16
local notation "NCOL" => 64

/-! ## The product, index by index -/

/-- Row `j 0`, column `k` of the left operand's array. -/
abbrev lhsAt (j : S100352x64.Idx) (k : Fin KLEN) : S100352x16.Idx :=
  ValueIdx.ix2 (⟨(j 0).val, ValueIdx.idx2_lt0 j⟩ : Fin 100352) k
/-- Row `k`, column `j 1` of the right operand's array. -/
abbrev rhsAt (j : S100352x64.Idx) (k : Fin KLEN) : S16x64.Idx :=
  ValueIdx.ix2 k (⟨(j 1).val, ValueIdx.idx2_lt1 j⟩ : Fin NCOL)

/-- The matrix product of two arrays, entry by entry: the sum over the contraction index of the products. -/
def prod (X : S100352x16.Idx → EReal) (W : S16x64.Idx → EReal) : S100352x64.Idx → EReal :=
  fun j => ∑ k : Fin KLEN, X (lhsAt j k) * W (rhsAt j k)

/-! ## The body's payload at an index of the block -/

/-- The four coordinates of the dot's operand indices: the left operand is read at (row of the output, contraction
    index), the right at (contraction index, column of the output). -/
theorem lhs_ax0 (j : S2048x64.Idx) (q : dot_S2048x16_S16x64_S2048x64_1_0_0_1_n_n.contr.Idx) :
    (dot_S2048x16_S16x64_S2048x64_1_0_0_1_n_n.lhsIdx j q 0).val = (j 0).val := by
  unfold DotDims.lhsIdx
  rw [dif_neg (show ¬(0 : Fin S2048x16.rank) ∈ dot_S2048x16_S16x64_S2048x64_1_0_0_1_n_n.lhsBatch by decide),
    dif_pos (show (0 : Fin S2048x16.rank) ∈ dot_S2048x16_S16x64_S2048x64_1_0_0_1_n_n.lhsNonContracting by decide)]
  rfl
theorem lhs_ax1 (j : S2048x64.Idx) (q : dot_S2048x16_S16x64_S2048x64_1_0_0_1_n_n.contr.Idx) :
    (dot_S2048x16_S16x64_S2048x64_1_0_0_1_n_n.lhsIdx j q 1).val = (q ⟨0, by decide⟩).val :=
  dot_S2048x16_S16x64_S2048x64_1_0_0_1_n_n.lhsIdx_val_of_single rfl j q
theorem rhs_ax0 (j : S2048x64.Idx) (q : dot_S2048x16_S16x64_S2048x64_1_0_0_1_n_n.contr.Idx) :
    (dot_S2048x16_S16x64_S2048x64_1_0_0_1_n_n.rhsIdx j q 0).val = (q ⟨0, by decide⟩).val :=
  dot_S2048x16_S16x64_S2048x64_1_0_0_1_n_n.rhsIdx_val_of_single rfl j q
theorem rhs_ax1 (j : S2048x64.Idx) (q : dot_S2048x16_S16x64_S2048x64_1_0_0_1_n_n.contr.Idx) :
    (dot_S2048x16_S16x64_S2048x64_1_0_0_1_n_n.rhsIdx j q 1).val = (j 1).val := by
  unfold DotDims.rhsIdx
  rw [dif_neg (show ¬(1 : Fin S16x64.rank) ∈ dot_S2048x16_S16x64_S2048x64_1_0_0_1_n_n.rhsBatch by decide),
    dif_pos (show (1 : Fin S16x64.rank) ∈ dot_S2048x16_S16x64_S2048x64_1_0_0_1_n_n.rhsNonContracting by decide)]
  rfl

/-- At the ideal values the payload at entry (r, n) of the block is the sum over k of (left block at (r, k)) times
    (right block at (k, n)): the two roundings to the narrow format are the identity on extended reals, the
    same-shape cast is the identity, and the accumulator is zero. -/
theorem pay_apply (x0 : Vec Ideal S2048x16 .f32) (x1 : Vec Ideal S16x64 .f32) (j : S2048x64.Idx) :
    k3_pay1 (F := Ideal) x0 x1 j
      = ∑ k : Fin KLEN, x0 (ValueIdx.ix2 (⟨(j 0).val, ValueIdx.idx2_lt0 j⟩ : Fin 2048) k)
          * x1 (ValueIdx.ix2 k (⟨(j 1).val, ValueIdx.idx2_lt1 j⟩ : Fin NCOL)) := by
  unfold k3_pay1
  simp only [matmul]
  rw [Ideal.matmul_constant_zero_apply,
    ← Equiv.sum_comp (ValueIdx.contrEquiv1 dot_S2048x16_S16x64_S2048x64_1_0_0_1_n_n KLEN rfl rfl).symm]
  refine Finset.sum_congr rfl fun k _ => ?_
  have hk := ValueIdx.contrEquiv1_symm_val dot_S2048x16_S16x64_S2048x64_1_0_0_1_n_n KLEN rfl rfl k
  have el : dot_S2048x16_S16x64_S2048x64_1_0_0_1_n_n.lhsIdx j
      ((ValueIdx.contrEquiv1 dot_S2048x16_S16x64_S2048x64_1_0_0_1_n_n KLEN rfl rfl).symm k)
      = ValueIdx.ix2 (⟨(j 0).val, ValueIdx.idx2_lt0 j⟩ : Fin 2048) k := funext fun a => Fin.ext (by
    match a with
    | ⟨0, _⟩ => exact lhs_ax0 _ _
    | ⟨1, _⟩ => exact (lhs_ax1 _ _).trans hk)
  have er : dot_S2048x16_S16x64_S2048x64_1_0_0_1_n_n.rhsIdx j
      ((ValueIdx.contrEquiv1 dot_S2048x16_S16x64_S2048x64_1_0_0_1_n_n KLEN rfl rfl).symm k)
      = ValueIdx.ix2 k (⟨(j 1).val, ValueIdx.idx2_lt1 j⟩ : Fin NCOL) := funext fun a => Fin.ext (by
    match a with
    | ⟨0, _⟩ => exact (rhs_ax0 _ _).trans hk
    | ⟨1, _⟩ => exact rhs_ax1 _ _)
  rw [ValueIdx.truncf_apply, ValueIdx.truncf_apply, shapeCast_self, el, er]

/-! ## The windows' index maps over the grid -/

/-- Decided over the 49 points: the row-block windows (operand 0 and the output) are at block row `t`, block
    column 0; the weight window never moves. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- An index of the output array is in point `t`'s block iff each coordinate is in the block's range on its axis. -/
theorem mem_blk (t : Fin cfg3.N) (i : S100352x64.Idx) :
    i ∈ ((cfg3.win 2).blk t).view.set ↔ ∀ a : Fin 2, win3_2.index t a * S2048x64.size a ≤ (i a).val
      ∧ (i a).val < win3_2.index t a * S2048x64.size a + S2048x64.size a := by
  show i ∈ ((View.whole main_v96).slice (win3_2.rect t)).set ↔ _
  rw [View.set_slice_whole, Rect.mem_set_unit]
  exact Iff.rfl

/-! ## What a point writes back, the cover, and the array after the region -/

section Region
variable (V : (c : Dev nD) → (b : Ref sig .tc) → Buf (Elt Ideal) ((c : Thread nD τ).loc b))

/-- Point `t` writes back block `t` of the product of the two arrays as the region finds them: entry (r, n) of the
    block is array row `2048·t + r`; the left operand's block at (r, k) is the array at that row and column `k`, the
    right operand's block is the whole right operand. -/
theorem flushed_eq (c : Dev nD) (t : Fin cfg3.N) :
    (R3.dat3 (F := Ideal) V c).flushed 2 t
      = ((cfg3.win 2).blk t).view.read (Elt Ideal) (prod (V c main_v95) (V c main_arg6)) := by
  show (cfg3.win 2).cut (grid3.coords t) ((R3.dat3 (F := Ideal) V c).after 2 t) = _
  rw [R3.after3_2]
  unfold R3.out3_2
  rw [View.canon_unit_zero R3.zeroOff]
  simp only [View.ld_unit_zero (S := S2048x16) R3.zeroOff, View.ld_unit_zero (S := S16x64) R3.zeroOff]
  obtain ⟨e00, e01, e10, e11, e20, e21⟩ := idx_facts t
  funext y
  show k3_pay1 (F := Ideal) (R3.iblk3 V c 0 t) (R3.iblk3 V c 1 t) y
    = prod (V c main_v95) (V c main_arg6) (((cfg3.win 2).blk t).view.emb y)
  refine (pay_apply _ _ _).trans ?_
  unfold prod
  refine Finset.sum_congr rfl fun k _ => ?_
  have hy0 : (y 0).val < 2048 := (y 0).isLt
  have hy1 : (y 1).val < NCOL := (y 1).isLt
  have hk : k.val < KLEN := k.isLt
  have h0 : ((cfg3.win 0).blk t).view.emb (ValueIdx.ix2 (⟨(y 0).val, hy0⟩ : Fin 2048) k)
      = lhsAt (((cfg3.win 2).blk t).view.emb y) k := by
    funext a; apply Fin.ext
    match a with
    | ⟨0, _⟩ =>
      show win3_0.index t (0 : Fin 2) * 2048 + 1 * (y 0).val = win3_2.index t (0 : Fin 2) * 2048 + 1 * (y 0).val
      omega
    | ⟨1, _⟩ =>
      show win3_0.index t (1 : Fin 2) * KLEN + 1 * k.val = k.val
      omega
  have h1 : ((cfg3.win 1).blk t).view.emb (ValueIdx.ix2 k (⟨(y 1).val, hy1⟩ : Fin NCOL))
      = rhsAt (((cfg3.win 2).blk t).view.emb y) k := by
    funext a; apply Fin.ext
    match a with
    | ⟨0, _⟩ =>
      show win3_1.index t (0 : Fin 2) * KLEN + 1 * k.val = k.val
      omega
    | ⟨1, _⟩ =>
      show win3_1.index t (1 : Fin 2) * NCOL + 1 * (y 1).val = win3_2.index t (1 : Fin 2) * NCOL + 1 * (y 1).val
      omega
  exact congrArg₂ (fun a b : EReal => a * b)
    (congrArg (V c main_v95 : S100352x16.Idx → EReal) h0)
    (congrArg (V c main_arg6 : S16x64.Idx → EReal) h1)

/-- Every entry of the output array lies in some point's block: row `r` is in the block of point `r / 2048`
    (the 49 blocks of 2048 rows tile the 100352 rows; the one block column is the whole width). -/
theorem cover (i : S100352x64.Idx) :
    ∃ t : Fin cfg3.N, (cfg3.win 2).flush t = true ∧ i ∈ ((cfg3.win 2).blk t).view.set := by
  have hi0 : (i 0).val < 100352 := ValueIdx.idx2_lt0 i
  have hi1 : (i 1).val < NCOL := ValueIdx.idx2_lt1 i
  have ht : (i 0).val / 2048 < cfg3.N := Nat.lt_of_lt_of_eq (by omega : (i 0).val / 2048 < 49) N_3.symm
  refine ⟨⟨(i 0).val / 2048, ht⟩, flush3_2 _, ?_⟩
  rw [mem_blk]
  obtain ⟨-, -, -, -, e20, e21⟩ := idx_facts ⟨(i 0).val / 2048, ht⟩
  intro a
  match a with
  | ⟨0, _⟩ =>
    show win3_2.index ⟨(i 0).val / 2048, ht⟩ (0 : Fin 2) * 2048 ≤ (i 0).val
      ∧ (i 0).val < win3_2.index ⟨(i 0).val / 2048, ht⟩ (0 : Fin 2) * 2048 + 2048
    rw [e20]
    show (i 0).val / 2048 * 2048 ≤ (i 0).val ∧ (i 0).val < (i 0).val / 2048 * 2048 + 2048
    omega
  | ⟨1, _⟩ =>
    show win3_2.index ⟨(i 0).val / 2048, ht⟩ (1 : Fin 2) * NCOL ≤ (i 1).val
      ∧ (i 1).val < win3_2.index ⟨(i 0).val / 2048, ht⟩ (1 : Fin 2) * NCOL + NCOL
    rw [e21]
    omega

/-- THE OUTPUT ARRAY AFTER THE REGION is the product of the two operand arrays as the region finds them. -/
theorem out_eq (c : Dev nD) :
    (R3.dat3 (F := Ideal) V c).arrAt 2 cfg3.N = prod (V c main_v95) (V c main_arg6) :=
  (R3.dat3 (F := Ideal) V c).arrAt_eq_of_cover 2 (prod (V c main_v95) (V c main_arg6))
    (fun t _ => flushed_eq V c t) cover

end Region

end Cert.KernelIdeal.R3V

end
-- ==== Proof.R6Value.lean ====
/- Region 6 of @main, the values: at the ideal values the output array after the region is the matrix product of
   the two operand arrays as the region finds them: the third dense layer, rows of the second layer's activations times the third weight matrix.
   The body's payload at an entry of a block is the sum over the contraction index; point t writes back block t of
   the product; the 49 blocks cover the array. -/
import proofs.«417346_j54202487276072_2_alg».proof.Proof.R6Frame
import Idealize.ShloMosaic.Lib.Pipeline.Value
import Idealize.ShloMosaic.Lib.ValueIdx
import Idealize.ShloMosaic.PureOps.Ideal.Laws

noncomputable section

namespace Cert.KernelIdeal.R6V

open Cert.KernelIdeal Cert.KernelIdeal.Gen
open Idealize.ShloMosaic Idealize.ShloMosaic.TcCoe Idealize.SL.Sem
open Idealize.ShloMosaic.Pipeline (Dat)
open scoped BigOperators

/-- The contraction length (the operands' shared axis) and the number of output columns, written once. -/
local notation "KLEN" => 64
local notation "NCOL" => 32

/-! ## The product, index by index -/

/-- Row `j 0`, column `k` of the left operand's array. -/
abbrev lhsAt (j : S100352x32.Idx) (k : Fin KLEN) : S100352x64.Idx :=
  ValueIdx.ix2 (⟨(j 0).val, ValueIdx.idx2_lt0 j⟩ : Fin 100352) k
/-- Row `k`, column `j 1` of the right operand's array. -/
abbrev rhsAt (j : S100352x32.Idx) (k : Fin KLEN) : S64x32.Idx :=
  ValueIdx.ix2 k (⟨(j 1).val, ValueIdx.idx2_lt1 j⟩ : Fin NCOL)

/-- The matrix product of two arrays, entry by entry: the sum over the contraction index of the products. -/
def prod (X : S100352x64.Idx → EReal) (W : S64x32.Idx → EReal) : S100352x32.Idx → EReal :=
  fun j => ∑ k : Fin KLEN, X (lhsAt j k) * W (rhsAt j k)

/-! ## The body's payload at an index of the block -/

/-- The four coordinates of the dot's operand indices: the left operand is read at (row of the output, contraction
    index), the right at (contraction index, column of the output). -/
theorem lhs_ax0 (j : S2048x32.Idx) (q : dot_S2048x64_S64x32_S2048x32_1_0_0_1_n_n.contr.Idx) :
    (dot_S2048x64_S64x32_S2048x32_1_0_0_1_n_n.lhsIdx j q 0).val = (j 0).val := by
  unfold DotDims.lhsIdx
  rw [dif_neg (show ¬(0 : Fin S2048x64.rank) ∈ dot_S2048x64_S64x32_S2048x32_1_0_0_1_n_n.lhsBatch by decide),
    dif_pos (show (0 : Fin S2048x64.rank) ∈ dot_S2048x64_S64x32_S2048x32_1_0_0_1_n_n.lhsNonContracting by decide)]
  rfl
theorem lhs_ax1 (j : S2048x32.Idx) (q : dot_S2048x64_S64x32_S2048x32_1_0_0_1_n_n.contr.Idx) :
    (dot_S2048x64_S64x32_S2048x32_1_0_0_1_n_n.lhsIdx j q 1).val = (q ⟨0, by decide⟩).val :=
  dot_S2048x64_S64x32_S2048x32_1_0_0_1_n_n.lhsIdx_val_of_single rfl j q
theorem rhs_ax0 (j : S2048x32.Idx) (q : dot_S2048x64_S64x32_S2048x32_1_0_0_1_n_n.contr.Idx) :
    (dot_S2048x64_S64x32_S2048x32_1_0_0_1_n_n.rhsIdx j q 0).val = (q ⟨0, by decide⟩).val :=
  dot_S2048x64_S64x32_S2048x32_1_0_0_1_n_n.rhsIdx_val_of_single rfl j q
theorem rhs_ax1 (j : S2048x32.Idx) (q : dot_S2048x64_S64x32_S2048x32_1_0_0_1_n_n.contr.Idx) :
    (dot_S2048x64_S64x32_S2048x32_1_0_0_1_n_n.rhsIdx j q 1).val = (j 1).val := by
  unfold DotDims.rhsIdx
  rw [dif_neg (show ¬(1 : Fin S64x32.rank) ∈ dot_S2048x64_S64x32_S2048x32_1_0_0_1_n_n.rhsBatch by decide),
    dif_pos (show (1 : Fin S64x32.rank) ∈ dot_S2048x64_S64x32_S2048x32_1_0_0_1_n_n.rhsNonContracting by decide)]
  rfl

/-- At the ideal values the payload at entry (r, n) of the block is the sum over k of (left block at (r, k)) times
    (right block at (k, n)): the two roundings to the narrow format are the identity on extended reals, the
    same-shape cast is the identity, and the accumulator is zero. -/
theorem pay_apply (x0 : Vec Ideal S2048x64 .f32) (x1 : Vec Ideal S64x32 .f32) (j : S2048x32.Idx) :
    k6_pay1 (F := Ideal) x0 x1 j
      = ∑ k : Fin KLEN, x0 (ValueIdx.ix2 (⟨(j 0).val, ValueIdx.idx2_lt0 j⟩ : Fin 2048) k)
          * x1 (ValueIdx.ix2 k (⟨(j 1).val, ValueIdx.idx2_lt1 j⟩ : Fin NCOL)) := by
  unfold k6_pay1
  simp only [matmul]
  rw [Ideal.matmul_constant_zero_apply,
    ← Equiv.sum_comp (ValueIdx.contrEquiv1 dot_S2048x64_S64x32_S2048x32_1_0_0_1_n_n KLEN rfl rfl).symm]
  refine Finset.sum_congr rfl fun k _ => ?_
  have hk := ValueIdx.contrEquiv1_symm_val dot_S2048x64_S64x32_S2048x32_1_0_0_1_n_n KLEN rfl rfl k
  have el : dot_S2048x64_S64x32_S2048x32_1_0_0_1_n_n.lhsIdx j
      ((ValueIdx.contrEquiv1 dot_S2048x64_S64x32_S2048x32_1_0_0_1_n_n KLEN rfl rfl).symm k)
      = ValueIdx.ix2 (⟨(j 0).val, ValueIdx.idx2_lt0 j⟩ : Fin 2048) k := funext fun a => Fin.ext (by
    match a with
    | ⟨0, _⟩ => exact lhs_ax0 _ _
    | ⟨1, _⟩ => exact (lhs_ax1 _ _).trans hk)
  have er : dot_S2048x64_S64x32_S2048x32_1_0_0_1_n_n.rhsIdx j
      ((ValueIdx.contrEquiv1 dot_S2048x64_S64x32_S2048x32_1_0_0_1_n_n KLEN rfl rfl).symm k)
      = ValueIdx.ix2 k (⟨(j 1).val, ValueIdx.idx2_lt1 j⟩ : Fin NCOL) := funext fun a => Fin.ext (by
    match a with
    | ⟨0, _⟩ => exact (rhs_ax0 _ _).trans hk
    | ⟨1, _⟩ => exact rhs_ax1 _ _)
  rw [ValueIdx.truncf_apply, ValueIdx.truncf_apply, shapeCast_self, el, er]

/-! ## The windows' index maps over the grid -/

/-- Decided over the 49 points: the row-block windows (operand 0 and the output) are at block row `t`, block
    column 0; the weight window never moves. -/
theorem idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- An index of the output array is in point `t`'s block iff each coordinate is in the block's range on its axis. -/
theorem mem_blk (t : Fin cfg6.N) (i : S100352x32.Idx) :
    i ∈ ((cfg6.win 2).blk t).view.set ↔ ∀ a : Fin 2, win6_2.index t a * S2048x32.size a ≤ (i a).val
      ∧ (i a).val < win6_2.index t a * S2048x32.size a + S2048x32.size a := by
  show i ∈ ((View.whole main_v109).slice (win6_2.rect t)).set ↔ _
  rw [View.set_slice_whole, Rect.mem_set_unit]
  exact Iff.rfl

/-! ## What a point writes back, the cover, and the array after the region -/

section Region
variable (V : (c : Dev nD) → (b : Ref sig .tc) → Buf (Elt Ideal) ((c : Thread nD τ).loc b))

/-- Point `t` writes back block `t` of the product of the two arrays as the region finds them: entry (r, n) of the
    block is array row `2048·t + r`; the left operand's block at (r, k) is the array at that row and column `k`, the
    right operand's block is the whole right operand. -/
theorem flushed_eq (c : Dev nD) (t : Fin cfg6.N) :
    (R6.dat6 (F := Ideal) V c).flushed 2 t
      = ((cfg6.win 2).blk t).view.read (Elt Ideal) (prod (V c main_v108) (V c main_arg8)) := by
  show (cfg6.win 2).cut (grid6.coords t) ((R6.dat6 (F := Ideal) V c).after 2 t) = _
  rw [R6.after6_2]
  unfold R6.out6_2
  rw [View.canon_unit_zero R6.zeroOff]
  simp only [View.ld_unit_zero (S := S2048x64) R6.zeroOff, View.ld_unit_zero (S := S64x32) R6.zeroOff]
  obtain ⟨e00, e01, e10, e11, e20, e21⟩ := idx_facts t
  funext y
  show k6_pay1 (F := Ideal) (R6.iblk6 V c 0 t) (R6.iblk6 V c 1 t) y
    = prod (V c main_v108) (V c main_arg8) (((cfg6.win 2).blk t).view.emb y)
  refine (pay_apply _ _ _).trans ?_
  unfold prod
  refine Finset.sum_congr rfl fun k _ => ?_
  have hy0 : (y 0).val < 2048 := (y 0).isLt
  have hy1 : (y 1).val < NCOL := (y 1).isLt
  have hk : k.val < KLEN := k.isLt
  have h0 : ((cfg6.win 0).blk t).view.emb (ValueIdx.ix2 (⟨(y 0).val, hy0⟩ : Fin 2048) k)
      = lhsAt (((cfg6.win 2).blk t).view.emb y) k := by
    funext a; apply Fin.ext
    match a with
    | ⟨0, _⟩ =>
      show win6_0.index t (0 : Fin 2) * 2048 + 1 * (y 0).val = win6_2.index t (0 : Fin 2) * 2048 + 1 * (y 0).val
      omega
    | ⟨1, _⟩ =>
      show win6_0.index t (1 : Fin 2) * KLEN + 1 * k.val = k.val
      omega
  have h1 : ((cfg6.win 1).blk t).view.emb (ValueIdx.ix2 k (⟨(y 1).val, hy1⟩ : Fin NCOL))
      = rhsAt (((cfg6.win 2).blk t).view.emb y) k := by
    funext a; apply Fin.ext
    match a with
    | ⟨0, _⟩ =>
      show win6_1.index t (0 : Fin 2) * KLEN + 1 * k.val = k.val
      omega
    | ⟨1, _⟩ =>
      show win6_1.index t (1 : Fin 2) * NCOL + 1 * (y 1).val = win6_2.index t (1 : Fin 2) * NCOL + 1 * (y 1).val
      omega
  exact congrArg₂ (fun a b : EReal => a * b)
    (congrArg (V c main_v108 : S100352x64.Idx → EReal) h0)
    (congrArg (V c main_arg8 : S64x32.Idx → EReal) h1)

/-- Every entry of the output array lies in some point's block: row `r` is in the block of point `r / 2048`
    (the 49 blocks of 2048 rows tile the 100352 rows; the one block column is the whole width). -/
theorem cover (i : S100352x32.Idx) :
    ∃ t : Fin cfg6.N, (cfg6.win 2).flush t = true ∧ i ∈ ((cfg6.win 2).blk t).view.set := by
  have hi0 : (i 0).val < 100352 := ValueIdx.idx2_lt0 i
  have hi1 : (i 1).val < NCOL := ValueIdx.idx2_lt1 i
  have ht : (i 0).val / 2048 < cfg6.N := Nat.lt_of_lt_of_eq (by omega : (i 0).val / 2048 < 49) N_6.symm
  refine ⟨⟨(i 0).val / 2048, ht⟩, flush6_2 _, ?_⟩
  rw [mem_blk]
  obtain ⟨-, -, -, -, e20, e21⟩ := idx_facts ⟨(i 0).val / 2048, ht⟩
  intro a
  match a with
  | ⟨0, _⟩ =>
    show win6_2.index ⟨(i 0).val / 2048, ht⟩ (0 : Fin 2) * 2048 ≤ (i 0).val
      ∧ (i 0).val < win6_2.index ⟨(i 0).val / 2048, ht⟩ (0 : Fin 2) * 2048 + 2048
    rw [e20]
    show (i 0).val / 2048 * 2048 ≤ (i 0).val ∧ (i 0).val < (i 0).val / 2048 * 2048 + 2048
    omega
  | ⟨1, _⟩ =>
    show win6_2.index ⟨(i 0).val / 2048, ht⟩ (1 : Fin 2) * NCOL ≤ (i 1).val
      ∧ (i 1).val < win6_2.index ⟨(i 0).val / 2048, ht⟩ (1 : Fin 2) * NCOL + NCOL
    rw [e21]
    omega

/-- THE OUTPUT ARRAY AFTER THE REGION is the product of the two operand arrays as the region finds them. -/
theorem out_eq (c : Dev nD) :
    (R6.dat6 (F := Ideal) V c).arrAt 2 cfg6.N = prod (V c main_v108) (V c main_arg8) :=
  (R6.dat6 (F := Ideal) V c).arrAt_eq_of_cover 2 (prod (V c main_v108) (V c main_arg8))
    (fun t _ => flushed_eq V c t) cover

end Region

end Cert.KernelIdeal.R6V

end
-- ==== Proof.R9Pay.lean ====
import proofs.«417346_j54202487276072_2_alg».proof.Proof.Gen.KernelIdeal.Skeleton
import Idealize.ShloMosaic.Lib.ValueLayout
import Idealize.ShloMosaic.PureOps.Ideal.Laws

/-!
  The pool region's three computed payloads, read at an index, at the ideal values.

  One grid point sees a block of 2048 graph ids (32-bit words) and the matching 2048 × 32 block of
  node features.  It forms the 64 × 2048 matrix whose entry (g, r) is 1 when row r's id is g and 0
  otherwise, and adds to the two resident outputs that matrix times the feature block, and the
  matrix's row sums.  Over the extended reals 1 · x = x and 0 · x = 0 for every x, so the product is
  the plain sum of the selected rows, and the row sum counts them.
-/

noncomputable section

namespace Cert.KernelIdeal.R9V

open Idealize.ShloMosaic Cert.KernelIdeal Cert.KernelIdeal.Gen

variable {α : Type}

/-- A vector of length a viewed as a column [a, 1] reads, at (i, 0), the vector at i: both
    positions are i in row-major order. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ValueIdx.ix2 i u) = x (ValueIdx.ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The one-bit word of a comparison that holds, widened to 32 bits and read signed, is 1; -/
theorem word_of_true : ((BitVec.ofBool true).setWidth 32).toInt = 1 := by decide
/-- of one that fails, 0. -/
theorem word_of_false : ((BitVec.ofBool false).setWidth 32).toInt = 0 := by decide

/-- (a) The selection matrix: entry (g, r) is 1 if row r of the id block is g, else 0.  The row
    number comes from the iota down the 64 rows broadcast along the columns, the id from the block
    laid out as one row and broadcast down the rows; their equality bit is widened and converted. -/
theorem k9_pay3_apply (b : Vec Ideal S2048 .i32) (g : Fin 64) (r : Fin 2048) :
    k9_pay3 (F := Ideal) b (ValueIdx.ix2 g r)
      = if b (ValueIdx.ix1 r) = BitVec.ofNat 32 g.val then 1 else 0 := by
  unfold k9_pay3
  rw [ValueIdx.sitofp_apply, ValueIdx.extui_apply]
  unfold cmpi
  rw [ValueIdx.broadcastTo_1b_ab_apply, ValueIdx.shapeCast_a_1a_apply, shapeCast_self]
  rw [broadcastTo_apply _ _ (ValueIdx.ix2 g r) (ValueIdx.ix2 g (0 : Fin 1)) (by
    intro a
    match a with
    | ⟨0, _⟩ => rfl
    | ⟨1, _⟩ => rfl)]
  rw [iota_single_apply]
  show ((((BitVec.ofBool (BitVec.ofNat 32 g.val == b (ValueIdx.ix1 r))).setWidth 32).toInt : ℝ) : EReal) = _
  by_cases h : b (ValueIdx.ix1 r) = BitVec.ofNat 32 g.val
  · have e : (BitVec.ofNat 32 g.val == b (ValueIdx.ix1 r)) = true := by rw [h]; exact beq_self_eq_true _
    rw [if_pos h, e, word_of_true, Int.cast_one, EReal.coe_one]
  · have e : (BitVec.ofNat 32 g.val == b (ValueIdx.ix1 r)) = false :=
      beq_eq_false_iff_ne.2 fun e => h e.symm
    rw [if_neg h, e, word_of_false, Int.cast_zero, EReal.coe_zero]

/-! The product's operand indices at output (g, d) and contraction coordinate k are (g, k) and (k, d). -/

theorem lhs_pool_0 (i : S64x32.Idx) (q : dot_S64x2048_S2048x32_S64x32_1_0_0_1_n_n.contr.Idx) :
    (dot_S64x2048_S2048x32_S64x32_1_0_0_1_n_n.lhsIdx i q 0).val = (i 0).val := by
  unfold DotDims.lhsIdx
  rw [dif_neg (show ¬(0 : Fin S64x2048.rank) ∈ dot_S64x2048_S2048x32_S64x32_1_0_0_1_n_n.lhsBatch by decide), dif_pos (show (0 : Fin S64x2048.rank) ∈ dot_S64x2048_S2048x32_S64x32_1_0_0_1_n_n.lhsNonContracting by decide)]
  rfl
theorem lhs_pool_1 (i : S64x32.Idx) (q : dot_S64x2048_S2048x32_S64x32_1_0_0_1_n_n.contr.Idx) :
    (dot_S64x2048_S2048x32_S64x32_1_0_0_1_n_n.lhsIdx i q 1).val = (q ⟨0, by decide⟩).val :=
  dot_S64x2048_S2048x32_S64x32_1_0_0_1_n_n.lhsIdx_val_of_single rfl i q
theorem rhs_pool_0 (i : S64x32.Idx) (q : dot_S64x2048_S2048x32_S64x32_1_0_0_1_n_n.contr.Idx) :
    (dot_S64x2048_S2048x32_S64x32_1_0_0_1_n_n.rhsIdx i q 0).val = (q ⟨0, by decide⟩).val :=
  dot_S64x2048_S2048x32_S64x32_1_0_0_1_n_n.rhsIdx_val_of_single rfl i q
theorem rhs_pool_1 (i : S64x32.Idx) (q : dot_S64x2048_S2048x32_S64x32_1_0_0_1_n_n.contr.Idx) :
    (dot_S64x2048_S2048x32_S64x32_1_0_0_1_n_n.rhsIdx i q 1).val = (i 1).val := by
  unfold DotDims.rhsIdx
  rw [dif_neg (show ¬(1 : Fin S2048x32.rank) ∈ dot_S64x2048_S2048x32_S64x32_1_0_0_1_n_n.rhsBatch by decide), dif_pos (show (1 : Fin S2048x32.rank) ∈ dot_S64x2048_S2048x32_S64x32_1_0_0_1_n_n.rhsNonContracting by decide)]
  rfl

/-- (b) The sums after one point: what was there plus, for each row r of the block whose id is g,
    that row's feature d.  The two narrowings to bf16 are the identity at the ideal values. -/
theorem k9_pay4_apply (b : Vec Ideal S2048 .i32) (s : Vec Ideal S64x32 .f32) (h : Vec Ideal S2048x32 .f32)
    (g : Fin 64) (d : Fin 32) :
    k9_pay4 (F := Ideal) b s h (ValueIdx.ix2 g d)
      = s (ValueIdx.ix2 g d)
        + ∑ r : Fin 2048, if b (ValueIdx.ix1 r) = BitVec.ofNat 32 g.val then h (ValueIdx.ix2 r d) else 0 := by
  unfold k9_pay4
  rw [ValueIdx.addf_apply, shapeCast_self]
  simp only [matmul]
  rw [Ideal.matmul_constant_zero_apply, ← Equiv.sum_comp (ValueIdx.contrEquiv1 dot_S64x2048_S2048x32_S64x32_1_0_0_1_n_n 2048 rfl rfl).symm]
  refine congrArg (s (ValueIdx.ix2 g d) + ·) (Finset.sum_congr rfl fun k _ => ?_)
  have hk := ValueIdx.contrEquiv1_symm_val dot_S64x2048_S2048x32_S64x32_1_0_0_1_n_n 2048 rfl rfl k
  have el : dot_S64x2048_S2048x32_S64x32_1_0_0_1_n_n.lhsIdx (ValueIdx.ix2 g d) ((ValueIdx.contrEquiv1 dot_S64x2048_S2048x32_S64x32_1_0_0_1_n_n 2048 rfl rfl).symm k) = ValueIdx.ix2 g k := funext fun a => Fin.ext (by
    match a with
    | ⟨0, _⟩ => exact lhs_pool_0 _ _
    | ⟨1, _⟩ => exact (lhs_pool_1 _ _).trans hk)
  have er : dot_S64x2048_S2048x32_S64x32_1_0_0_1_n_n.rhsIdx (ValueIdx.ix2 g d) ((ValueIdx.contrEquiv1 dot_S64x2048_S2048x32_S64x32_1_0_0_1_n_n 2048 rfl rfl).symm k) = ValueIdx.ix2 k d := funext fun a => Fin.ext (by
    match a with
    | ⟨0, _⟩ => exact (rhs_pool_0 _ _).trans hk
    | ⟨1, _⟩ => exact rhs_pool_1 _ _)
  rw [el, er, ValueIdx.truncf_apply, ValueIdx.truncf_apply, shapeCast_self, k9_pay3_apply]
  by_cases hb : b (ValueIdx.ix1 k) = BitVec.ofNat 32 g.val
  · rw [if_pos hb, if_pos hb, one_mul]
  · rw [if_neg hb, if_neg hb, zero_mul]

/-- (c) The counts after one point: what was there plus the number of rows of the block whose id
    is g — the selection matrix's row g summed along its 2048 columns. -/
theorem k9_pay5_apply (b : Vec Ideal S2048 .i32) (cn : Vec Ideal S64x1 .f32) (g : Fin 64) (u : Fin 1) :
    k9_pay5 (F := Ideal) b cn (ValueIdx.ix2 g u)
      = cn (ValueIdx.ix2 g u)
        + ∑ r : Fin 2048, if b (ValueIdx.ix1 r) = BitVec.ofNat 32 g.val then (1 : EReal) else 0 := by
  unfold k9_pay5
  rw [ValueIdx.addf_apply, shapeCast_self, shapeCast_a_a1_apply]
  refine congrArg (cn (ValueIdx.ix2 g u) + ·) ?_
  refine (Ideal.multiReduction_add_single (k9_pay3 (F := Ideal) b) 0x00000000#32 Gen.reduces_S64x2048_S64 (.inl rfl) rfl (ValueIdx.ix1 g)).trans ?_
  refine Finset.sum_congr rfl fun (r : Fin 2048) _ => ?_
  have e : Gen.reduces_S64x2048_S64.lift (ValueIdx.ix1 g) r = ValueIdx.ix2 g r := funext fun a => Fin.ext (by
    match a with
    | ⟨0, _⟩ => rfl
    | ⟨1, _⟩ => rfl)
  exact (congrArg (k9_pay3 (F := Ideal) b) e).trans (k9_pay3_apply b g r)

end Cert.KernelIdeal.R9V

end
-- ==== Proof.R9Value.lean ====
import proofs.«417346_j54202487276072_2_alg».proof.Proof.R9Frame
import proofs.«417346_j54202487276072_2_alg».proof.Proof.R9Pay
import Mathlib.Algebra.BigOperators.Fin
import Mathlib.Logic.Equiv.Fin.Basic

/-!
  The pool region's value at the ideal instance.

  The region walks 49 grid points.  Point t sees positions 2048 t … 2048 t + 2047 of the id array
  and of the feature array, and adds to the two resident outputs, for every graph g, the features
  of the positions whose id is g, and their number.  The first point starts from zeros.  So after
  the last point the outputs hold, for each g, the sum over ALL 100352 positions whose id is g of
  the features, and the count of such positions: the 49 blocks of 2048 tile the positions.
  The contents V of the arrays when the region is entered stay a variable throughout.
-/

noncomputable section

namespace Cert.KernelIdeal.R9V

open Cert.KernelIdeal Cert.KernelIdeal.Gen
open Idealize.ShloMosaic Idealize.ShloMosaic.TcCoe Idealize.SL.Sem

variable (V : (c : Dev nD) → (b : Ref sig .tc) → Buf (Elt Ideal) ((c : Thread nD τ).loc b))

/-! ## Finite sums -/

section Sums
variable {M : Type*} [AddCommMonoid M]

/-- A sequence that starts at f 0 and at each step adds f (n + 1) is, at n, the sum of f over the
    first n + 1 points. -/
theorem acc_eq_sum {N : ℕ} (a : (n : ℕ) → n < N → M) (f : Fin N → M)
    (h0 : ∀ h : 0 < N, a 0 h = f ⟨0, h⟩)
    (hs : ∀ (n : ℕ) (h : n + 1 < N), a (n + 1) h = a n (Nat.lt_of_succ_lt h) + f ⟨n + 1, h⟩) :
    ∀ (n : ℕ) (h : n < N), a n h = ∑ t : Fin (n + 1), f ⟨t.val, lt_of_lt_of_le t.isLt h⟩ := by
  intro n
  induction n with
  | zero =>
    intro h
    rw [h0 h, Fin.sum_univ_one]
    rfl
  | succ n ih =>
    intro h
    rw [hs n h, ih (Nat.lt_of_succ_lt h)]
    exact ((Fin.sum_univ_castSucc fun t : Fin (n + 1 + 1) => f ⟨t.val, lt_of_lt_of_le t.isLt h⟩).trans rfl).symm

/-- 49 blocks of 2048 consecutive positions are the 100352 positions: (t, r) ↦ 2048 t + r is a
    bijection. -/
theorem sum_blocks (G : Fin 100352 → M) :
    ∑ t : Fin 49, ∑ r : Fin 2048, G ⟨2048 * t.val + r.val, by omega⟩ = ∑ i : Fin 100352, G i := by
  rw [← Fintype.sum_prod_type']
  exact Fintype.sum_equiv (finProdFinEquiv : Fin 49 × Fin 2048 ≃ Fin 100352) _ _ fun p =>
    congrArg G (Fin.ext (by show 2048 * p.1.val + p.2.val = p.2.val + 2048 * p.1.val; omega))

end Sums

/-! ## A point's blocks, read off the arrays -/

/-- The id window's block index at point t is t; the feature window's is (t, 0). -/
theorem idx9 : ∀ t : Fin cfg9.N, win9_0.index t (0 : Fin 1) = t.val ∧ win9_1.index t (0 : Fin 2) = t.val ∧ win9_1.index t (1 : Fin 2) = 0 :=
  (by decide +kernel : ∀ t : Fin grid9.N, _)

/-- Row r of point t's id block is position 2048 t + r of the id array. -/
theorem iblk9_0_apply (c : Dev nD) (t : Fin cfg9.N) (r : Fin 2048) (i : Fin 100352) (hi : i.val = 2048 * t.val + r.val) :
    R9.iblk9 V c 0 t (ValueIdx.ix1 r) = V c main_v77 (ValueIdx.ix1 i) := by
  show V c main_v77 (((cfg9.win 0).blk t).view.emb (ValueIdx.ix1 r)) = _
  refine congrArg (V c main_v77) (funext fun a => Fin.ext ?_)
  match a with
  | ⟨0, _⟩ =>
    show win9_0.index t (0 : Fin 1) * 2048 + 1 * r.val = i.val
    rw [(idx9 t).1, hi]; omega

/-- Entry (r, d) of point t's feature block is entry (2048 t + r, d) of the feature array. -/
theorem iblk9_1_apply (c : Dev nD) (t : Fin cfg9.N) (r : Fin 2048) (d : Fin 32) (i : Fin 100352) (hi : i.val = 2048 * t.val + r.val) :
    R9.iblk9 V c 1 t (ValueIdx.ix2 r d) = V c main_v121 (ValueIdx.ix2 i d) := by
  show V c main_v121 (((cfg9.win 1).blk t).view.emb (ValueIdx.ix2 r d)) = _
  refine congrArg (V c main_v121) (funext fun a => Fin.ext ?_)
  match a with
  | ⟨0, _⟩ =>
    show win9_1.index t (0 : Fin 2) * 2048 + 1 * r.val = i.val
    rw [(idx9 t).2.1, hi]; omega
  | ⟨1, _⟩ =>
    show win9_1.index t (1 : Fin 2) * 32 + 1 * d.val = d.val
    rw [(idx9 t).2.2]; omega

/-! ## The two zero blocks the first point starts from -/

theorem k9_pay1_apply (j : S64x32.Idx) : k9_pay1 (F := Ideal) j = 0 := Ideal.ofBits_zero_f32
theorem k9_pay2_apply (j : S64x1.Idx) : k9_pay2 (F := Ideal) j = 0 := Ideal.ofBits_zero_f32

/-! ## The run: after the last point each output holds the sum over every position -/

/-- What point t adds to the sum of graph g, feature d: the selected rows of its block. -/
def ptSum (c : Dev nD) (g : Fin 64) (d : Fin 32) (t : Fin cfg9.N) : EReal :=
  ∑ r : Fin 2048, if (R9.iblk9 V c 0 t : Vec Ideal S2048 .i32) (ValueIdx.ix1 r) = BitVec.ofNat 32 g.val
    then (R9.iblk9 V c 1 t : Vec Ideal S2048x32 .f32) (ValueIdx.ix2 r d) else 0

/-- What point t adds to the count of graph g: the number of selected rows of its block. -/
def ptCnt (c : Dev nD) (g : Fin 64) (t : Fin cfg9.N) : EReal :=
  ∑ r : Fin 2048, if (R9.iblk9 V c 0 t : Vec Ideal S2048 .i32) (ValueIdx.ix1 r) = BitVec.ofNat 32 g.val
    then (1 : EReal) else 0

/-- The sums after the last point, entry (g, d): every position whose id is g contributes its
    feature d. -/
theorem sums_run (c : Dev nD) (g : Fin 64) (d : Fin 32) :
    (R9.outsAt9 V c 48 R9.lt48).1 (ValueIdx.ix2 g d)
      = ∑ i : Fin 100352, ((if (V c main_v77 (ValueIdx.ix1 i) : BitVec 32) = BitVec.ofNat 32 g.val then V c main_v121 (ValueIdx.ix2 i d) else 0 : EReal)) := by
  have hrun := acc_eq_sum (fun n h => (R9.outsAt9 V c n h).1 (ValueIdx.ix2 g d)) (ptSum V c g d)
    (fun h => by
      show k9_pay4 (F := Ideal) (R9.iblk9 V c 0 ⟨0, h⟩) (k9_pay1 (F := Ideal)) (R9.iblk9 V c 1 ⟨0, h⟩) (ValueIdx.ix2 g d) = _
      refine (k9_pay4_apply _ _ _ g d).trans ?_
      rw [k9_pay1_apply, zero_add]
      rfl)
    (fun n h => by
      show k9_pay4 (F := Ideal) (R9.iblk9 V c 0 ⟨n + 1, h⟩) (R9.outsAt9 V c n (Nat.lt_of_succ_lt h)).1 (R9.iblk9 V c 1 ⟨n + 1, h⟩) (ValueIdx.ix2 g d) = _
      exact k9_pay4_apply _ _ _ g d)
    48 R9.lt48
  refine hrun.trans ?_
  rw [← sum_blocks]
  refine Finset.sum_congr rfl fun (t : Fin 49) _ => Finset.sum_congr rfl fun r _ => ?_
  have ht : t.val < cfg9.N := lt_of_lt_of_le t.isLt R9.lt48
  rw [iblk9_0_apply V c ⟨t.val, ht⟩ r ⟨2048 * t.val + r.val, by omega⟩ rfl,
    iblk9_1_apply V c ⟨t.val, ht⟩ r d ⟨2048 * t.val + r.val, by omega⟩ rfl]

/-- The counts after the last point, entry (g, 0): the number of positions whose id is g. -/
theorem cnts_run (c : Dev nD) (g : Fin 64) :
    (R9.outsAt9 V c 48 R9.lt48).2 (ValueIdx.ix2 g (0 : Fin 1))
      = ∑ i : Fin 100352, ((if (V c main_v77 (ValueIdx.ix1 i) : BitVec 32) = BitVec.ofNat 32 g.val then 1 else 0 : EReal)) := by
  have hrun := acc_eq_sum (fun n h => (R9.outsAt9 V c n h).2 (ValueIdx.ix2 g (0 : Fin 1))) (ptCnt V c g)
    (fun h => by
      show k9_pay5 (F := Ideal) (R9.iblk9 V c 0 ⟨0, h⟩) (k9_pay2 (F := Ideal)) (ValueIdx.ix2 g (0 : Fin 1)) = _
      refine (k9_pay5_apply _ _ g 0).trans ?_
      rw [k9_pay2_apply, zero_add]
      rfl)
    (fun n h => by
      show k9_pay5 (F := Ideal) (R9.iblk9 V c 0 ⟨n + 1, h⟩) (R9.outsAt9 V c n (Nat.lt_of_succ_lt h)).2 (ValueIdx.ix2 g (0 : Fin 1)) = _
      exact k9_pay5_apply _ _ g 0)
    48 R9.lt48
  refine hrun.trans ?_
  rw [← sum_blocks]
  refine Finset.sum_congr rfl fun (t : Fin 49) _ => Finset.sum_congr rfl fun r _ => ?_
  have ht : t.val < cfg9.N := lt_of_lt_of_le t.isLt R9.lt48
  rw [iblk9_0_apply V c ⟨t.val, ht⟩ r ⟨2048 * t.val + r.val, by omega⟩ rfl]

/-! ## The final arrays -/

/-- The sums array after the region: entry (g, d) is the sum, over the positions whose id is g, of
    feature d. -/
theorem sums_eq (c : Dev nD) : ∀ (g : Fin 64) (d : Fin 32),
    (R9.dat9 (F := Ideal) V c).arrAt 2 cfg9.N (ValueIdx.ix2 g d)
      = ∑ i : Fin 100352, ((if (V c main_v77 (ValueIdx.ix1 i) : BitVec 32) = BitVec.ofNat 32 g.val then V c main_v121 (ValueIdx.ix2 i d) else 0 : EReal)) :=
  fun g d => (congrFun (R9.arrAt9_2 V c) (ValueIdx.ix2 g d)).trans (sums_run V c g d)

/-- The counts array after the region: entry (g, 0) is the number of positions whose id is g. -/
theorem cnts_eq (c : Dev nD) : ∀ (g : Fin 64),
    (R9.dat9 (F := Ideal) V c).arrAt 3 cfg9.N (ValueIdx.ix2 g (0 : Fin 1))
      = ∑ i : Fin 100352, ((if (V c main_v77 (ValueIdx.ix1 i) : BitVec 32) = BitVec.ofNat 32 g.val then 1 else 0 : EReal)) :=
  fun g => (congrFun (R9.arrAt9_3 V c) (ValueIdx.ix2 g (0 : Fin 1))).trans (cnts_run V c g)

end Cert.KernelIdeal.R9V

end
-- ==== Proof.RegionFactsA0.lean ====
/-
  The dense regions' and the pool region's output arrays as statements about arrays: each value theorem, read at
  an entry, once the array the run names is identified with the region's final array.
-/
import proofs.«417346_j54202487276072_2_alg».proof.Proof.ComposeFacts
import proofs.«417346_j54202487276072_2_alg».proof.Proof.R0Value
import proofs.«417346_j54202487276072_2_alg».proof.Proof.R3Value
import proofs.«417346_j54202487276072_2_alg».proof.Proof.R6Value
import proofs.«417346_j54202487276072_2_alg».proof.Proof.R9Value

noncomputable section

namespace Cert.Proof.C

open Cert.KernelIdeal Cert.KernelIdeal.Gen
open Idealize.ShloMosaic Idealize.ShloMosaic.TcCoe
open scoped BigOperators

/-- The dense region of layer 1: its output array, read at an entry, is the product's entry. -/
theorem d1_of (V : (c : Dev nD) → (b : Ref sig .tc) → Buf (Elt Ideal) ((c : Thread nD τ).loc b)) (c : Dev nD) (o : (⟨2, ![100352, 16]⟩ : Shape).Idx → EReal)
    (hl : o = (R0.dat0 (F := Ideal) V c).arrAt 2 cfg0.N) :
    DenseEq (K := 128) (D := 16) o (V c main_v75) (V c main_arg4) := by
  intro n d
  rw [hl, R0V.out_eq V c]
  rfl

/-- The dense region of layer 2: its output array, read at an entry, is the product's entry. -/
theorem d2_of (V : (c : Dev nD) → (b : Ref sig .tc) → Buf (Elt Ideal) ((c : Thread nD τ).loc b)) (c : Dev nD) (o : (⟨2, ![100352, 64]⟩ : Shape).Idx → EReal)
    (hl : o = (R3.dat3 (F := Ideal) V c).arrAt 2 cfg3.N) :
    DenseEq (K := 16) (D := 64) o (V c main_v95) (V c main_arg6) := by
  intro n d
  rw [hl, R3V.out_eq V c]
  rfl

/-- The dense region of layer 3: its output array, read at an entry, is the product's entry. -/
theorem d3_of (V : (c : Dev nD) → (b : Ref sig .tc) → Buf (Elt Ideal) ((c : Thread nD τ).loc b)) (c : Dev nD) (o : (⟨2, ![100352, 32]⟩ : Shape).Idx → EReal)
    (hl : o = (R6.dat6 (F := Ideal) V c).arrAt 2 cfg6.N) :
    DenseEq (K := 64) (D := 32) o (V c main_v108) (V c main_arg8) := by
  intro n d
  rw [hl, R6V.out_eq V c]
  rfl

/-- The pool region's sums. -/
theorem ps_of (V : (c : Dev nD) → (b : Ref sig .tc) → Buf (Elt Ideal) ((c : Thread nD τ).loc b)) (c : Dev nD) (o : (⟨2, ![64, 32]⟩ : Shape).Idx → EReal)
    (hl : o = (R9.dat9 (F := Ideal) V c).arrAt 2 cfg9.N) :
    PoolSumEq (D := 32) o (V c main_v77) (V c main_v121) := by
  intro g d
  rw [hl]
  exact R9V.sums_eq V c g d

/-- The pool region's counts. -/
theorem pc_of (V : (c : Dev nD) → (b : Ref sig .tc) → Buf (Elt Ideal) ((c : Thread nD τ).loc b)) (c : Dev nD) (o : (⟨2, ![64, 1]⟩ : Shape).Idx → EReal)
    (hl : o = (R9.dat9 (F := Ideal) V c).arrAt 3 cfg9.N) :
    PoolCntEq o (V c main_v77) := by
  intro g
  rw [hl]
  exact R9V.cnts_eq V c g

end Cert.Proof.C

end
-- ==== Proof.RegionFactsA.lean ====
/-
  The dense regions' and the pool region's fields of the regions' statement, at the arrays the run names.
-/
import proofs.«417346_j54202487276072_2_alg».proof.Proof.RegionFactsA0
import proofs.«417346_j54202487276072_2_alg».proof.Proof.RunKI

noncomputable section

namespace Cert.Proof.C

open Cert.KernelIdeal Cert.KernelIdeal.Gen
open Idealize.ShloMosaic Idealize.ShloMosaic.TcCoe

variable (m : (ℓ : Loc nD τ sig) → Buf (Elt Ideal) ℓ) (c : Dev nD)

theorem reg_d1 : DenseEq (K := 128) (D := 16) (Run.outs m 17 main_v83 c) (GenP.V16 m c main_v75)
    (GenP.V16 m c main_arg4) :=
  d1_of (fun c b => GenP.V16 m c b) c (Run.outs m 17 main_v83 c) (Run.outs_17 m c)

theorem reg_d2 : DenseEq (K := 16) (D := 64) (Run.outs m 22 main_v96 c) (GenP.V21 m (Run.outs m) c main_v95)
    (GenP.V21 m (Run.outs m) c main_arg6) :=
  d2_of (fun c b => GenP.V21 m (Run.outs m) c b) c (Run.outs m 22 main_v96 c) (Run.outs_22 m c)

theorem reg_d3 : DenseEq (K := 64) (D := 32) (Run.outs m 27 main_v109 c) (GenP.V26 m (Run.outs m) c main_v108)
    (GenP.V26 m (Run.outs m) c main_arg8) :=
  d3_of (fun c b => GenP.V26 m (Run.outs m) c b) c (Run.outs m 27 main_v109 c) (Run.outs_27 m c)

theorem reg_ps : PoolSumEq (D := 32) (Run.outs m 32 main_v122_0 c) (GenP.V31 m (Run.outs m) c main_v77)
    (GenP.V31 m (Run.outs m) c main_v121) :=
  ps_of (fun c b => GenP.V31 m (Run.outs m) c b) c (Run.outs m 32 main_v122_0 c) (Run.outs_32a m c)

theorem reg_pc : PoolCntEq (Run.outs m 32 main_v122_1 c) (GenP.V31 m (Run.outs m) c main_v77) :=
  pc_of (fun c b => GenP.V31 m (Run.outs m) c b) c (Run.outs m 32 main_v122_1 c) (Run.outs_32b m c)

end Cert.Proof.C

end
-- ==== Proof.R1Pay.lean ====
import proofs.«417346_j54202487276072_2_alg».proof.Proof.Gen.KernelIdeal.Skeleton
import Idealize.ShloMosaic.Lib.ValueIdx
import Idealize.ShloMosaic.Lib.ValueLayout
import Idealize.ShloMosaic.Lib.Pipeline.Value
import Idealize.ShloMosaic.Lib.Affine
import Idealize.ShloMosaic.PureOps.Ideal.Laws

/-! The gather kernel's three payloads read at an index, at the ideal values.

The accumulator update adds, to row `r`, the product of a 0/1 matrix with the tile's block of node rows: entry
`(r, n)` of the matrix is `1` exactly when the row's node id is the tile's `n`-th id, so the product's row is the
node's row when the id lies in the tile and zero otherwise. The output payload scales each row by its weight. The
tile test compares the tile's id range with the two table words as signed integers. -/

noncomputable section

namespace Cert.KernelIdeal.R1V

open Idealize.ShloMosaic Idealize.SL.Sem Idealize.ShloMosaic.ValueIdx Cert.KernelIdeal Cert.KernelIdeal.Gen

local notation "𝕀" => Idealize.ShloMosaic.Ideal

/-! ## The tile's ids -/

/-- The id of column `n` of tile `j`, as the kernel forms it: `n + j * 2048` in 32-bit words. -/
def colId (j : Nat) (n : Nat) : BitVec 32 :=
  IntOp.addi (BitVec.ofNat 32 n) (Scalar.muli (BitVec.ofNat 32 j) 2048#32)

/-- No wrap-around: there are 49 tiles of 2048 ids. -/
theorem colId_toNat {j n : Nat} (hj : j < 49) (hn : n < 2048) : (colId j n).toNat = 2048 * j + n := by
  simp only [colId, IntOp.addi, Scalar.muli, IntOp.muli, BitVec.toNat_add, BitVec.toNat_mul, BitVec.toNat_ofNat]
  omega

/-! ## The 0/1 matrix -/

/-- An equality bit widened to 32 bits and converted to a float is `1` or `0`. -/
theorem sitofp_eqbit (a b : BitVec 32) :
    (FloatOps.sitofp (F := 𝕀) .f32 ((IntOp.cmpi .eq a b).setWidth 32) : EReal) = if a = b then 1 else 0 := by
  show ((((IntOp.cmpi .eq a b).setWidth 32).toInt : ℝ) : EReal) = _
  by_cases h : a = b
  · rw [if_pos h, IntOp.cmpi_eq.mpr h, show ((1#1 : BitVec 1).setWidth 32).toInt = 1 from by decide]
    simp
  · rw [if_neg h, eq_zero_of_ne_one (mt IntOp.cmpi_eq.mp h), show ((0#1 : BitVec 1).setWidth 32).toInt = 0 from by decide]
    simp

/-- The row ids broadcast along the columns: entry `(r, n)` is row `r`'s id. -/
theorem rowIds_apply (src : Vec 𝕀 S4096 .i32) (r : Fin 4096) (n : Fin 2048) :
    broadcastTo S4096x2048 (shapeCast S4096x1 src shapeCasts_S4096_S4096x1)
        broadcasts_S4096x1_S4096x2048 (ValueIdx.ix2 r n) = src (ValueIdx.ix1 r) := by
  refine (broadcastTo_apply _ _ (ValueIdx.ix2 r n) (ValueIdx.ix2 r (0 : Fin 1))
    (fun a => match a with | ⟨0, _⟩ => rfl | ⟨1, _⟩ => rfl)).trans ?_
  exact shapeCast_apply _ _ (ValueIdx.ix2 r (0 : Fin 1)) (ValueIdx.ix1 r)
    (by rw [Shape.rowMajor_val_one, Shape.rowMajor_val_two]; show r.val = r.val * 1 + 0; omega)

/-- The tile's ids broadcast down the rows: entry `(r, n)` is the tile's `n`-th id. -/
theorem colIds_apply (j : Nat) (r : Fin 4096) (n : Fin 2048) :
    broadcastTo S4096x2048 (addi (iota .tc S1x2048 32 [1] iota_S1x2048_d1_w32)
        (broadcast S1x2048 (Scalar.muli (BitVec.ofNat 32 j) 2048#32))) broadcasts_S1x2048_S4096x2048 (ValueIdx.ix2 r n)
      = colId j n.val := by
  refine (broadcastTo_apply _ _ (ValueIdx.ix2 r n) (ValueIdx.ix2 (0 : Fin 1) n)
    (fun a => match a with | ⟨0, _⟩ => rfl | ⟨1, _⟩ => rfl)).trans ?_
  show IntOp.addi (iota .tc S1x2048 32 [1] iota_S1x2048_d1_w32 (ValueIdx.ix2 (0 : Fin 1) n)) _ = _
  rw [iota_single_apply]
  rfl

/-! ## The product's operand indices -/

local notation "𝔻" => dot_S4096x2048_S2048x16_S4096x16_1_0_0_1_n_n

/-- The contraction index is the column of the matrix: one axis of extent 2048. -/
def contrE : (𝔻).contr.Idx ≃ Fin 2048 := contrEquiv1 𝔻 2048 rfl rfl

theorem lhsIdx_eq (r : Fin 4096) (d : Fin 16) (n : Fin 2048) :
    (𝔻).lhsIdx (ValueIdx.ix2 r d) (contrE.symm n) = ValueIdx.ix2 r n :=
  Shape.idx_ext₂ rfl ((rfl : (((𝔻).lhsIdx (ValueIdx.ix2 r d) (contrE.symm n)) 1 : ℕ) = ((contrE.symm n) ⟨0, by decide⟩ : ℕ)).trans
    (contrEquiv1_symm_val 𝔻 2048 rfl rfl n))

theorem rhsIdx_eq (r : Fin 4096) (d : Fin 16) (n : Fin 2048) :
    (𝔻).rhsIdx (ValueIdx.ix2 r d) (contrE.symm n) = ValueIdx.ix2 n d :=
  Shape.idx_ext₂ ((rfl : (((𝔻).rhsIdx (ValueIdx.ix2 r d) (contrE.symm n)) 0 : ℕ) = ((contrE.symm n) ⟨0, by decide⟩ : ℕ)).trans
    (contrEquiv1_symm_val 𝔻 2048 rfl rfl n)) rfl

/-! ## A 0/1 selector's sum -/

/-- Over one tile's columns at most one id equals `s`: the sum keeps that column's term, or is zero. -/
theorem sum_onehot {j : Nat} (hj : j < 49) (s : BitVec 32) (f : Fin 2048 → EReal) :
    (∑ n : Fin 2048, (if s = colId j n.val then (1 : EReal) else 0) * f n)
      = if h : 2048 * j ≤ s.toNat ∧ s.toNat < 2048 * j + 2048 then f ⟨s.toNat - 2048 * j, by omega⟩ else 0 := by
  have key : ∀ n : Fin 2048, s = colId j n.val ↔ s.toNat = 2048 * j + n.val := fun n => by
    rw [← BitVec.toNat_inj, colId_toNat hj n.isLt]
  simp only [key]
  split_ifs with h
  · rw [Finset.sum_eq_single (⟨s.toNat - 2048 * j, by omega⟩ : Fin 2048)]
    · rw [if_pos (by show s.toNat = 2048 * j + (s.toNat - 2048 * j); omega), one_mul]
    · intro n _ hn
      rw [if_neg, zero_mul]
      intro e; apply hn; apply Fin.ext; show n.val = s.toNat - 2048 * j; omega
    · intro h'; exact absurd (Finset.mem_univ _) h'
  · refine Finset.sum_eq_zero fun n _ => ?_
    rw [if_neg, zero_mul]
    intro e; apply h; have := n.isLt; omega

/-! ## (a) the accumulator update -/

theorem pay2_sum (i : grid1.Coords) (src : Vec 𝕀 S4096 .i32) (acc : Vec 𝕀 S4096x16 .f32) (hw : Vec 𝕀 S2048x16 .f32)
    (r : Fin 4096) (d : Fin 16) :
    k1_pay2 (F := 𝕀) i src acc hw (ValueIdx.ix2 r d)
      = acc (ValueIdx.ix2 r d) + ∑ n : Fin 2048,
          (if src (ValueIdx.ix1 r) = colId (i 1).val n.val then (1 : EReal) else 0) * hw (ValueIdx.ix2 n d) := by
  unfold k1_pay2
  simp only [shapeCast_self]
  rw [addf_apply]
  congr 1
  simp only [matmul]
  rw [Ideal.matmul_constant_zero_apply]
  refine (Equiv.sum_comp contrE.symm _).symm.trans ?_
  refine Finset.sum_congr rfl fun n _ => ?_
  rw [lhsIdx_eq, rhsIdx_eq]
  congr 1
  show FloatOps.sitofp (F := 𝕀) .f32 ((IntOp.cmpi .eq (broadcastTo S4096x2048 _ broadcasts_S4096x1_S4096x2048 (ValueIdx.ix2 r n))
    (broadcastTo S4096x2048 _ broadcasts_S1x2048_S4096x2048 (ValueIdx.ix2 r n))).setWidth 32) = _
  rw [rowIds_apply, colIds_apply, sitofp_eqbit]

/-- (a): the update adds the node's row when row `r`'s id lies in tile `i 1`, and nothing otherwise. -/
theorem pay2_apply (i : grid1.Coords) (src : Vec 𝕀 S4096 .i32) (acc : Vec 𝕀 S4096x16 .f32) (hw : Vec 𝕀 S2048x16 .f32)
    (r : Fin 4096) (d : Fin 16) :
    k1_pay2 (F := 𝕀) i src acc hw (ValueIdx.ix2 r d)
      = acc (ValueIdx.ix2 r d)
        + (if h : 2048 * (i 1).val ≤ (src (ValueIdx.ix1 r)).toNat ∧ (src (ValueIdx.ix1 r)).toNat < 2048 * (i 1).val + 2048
            then hw (ValueIdx.ix2 ⟨(src (ValueIdx.ix1 r)).toNat - 2048 * (i 1).val, by omega⟩ d) else 0) := by
  rw [pay2_sum, sum_onehot (show (i 1).val < 49 from (i 1).isLt) (src (ValueIdx.ix1 r)) (fun n => hw (ValueIdx.ix2 n d))]

/-- The reset payload is zero everywhere. -/
theorem pay1_apply (x : S4096x16.Idx) : k1_pay1 (F := 𝕀) x = 0 := by
  unfold k1_pay1
  simp only [shapeCast_self]
  show Ideal.ofBits .f32 0x00000000#32 = 0
  exact Ideal.ofBits_zero_f32

/-! ## (b) the output payload -/

theorem pay3_apply (nrm : Vec 𝕀 S4096 .f32) (acc : Vec 𝕀 S4096x16 .f32) (r : Fin 4096) (d : Fin 16) :
    k1_pay3 (F := 𝕀) nrm acc (ValueIdx.ix2 r d) = acc (ValueIdx.ix2 r d) * nrm (ValueIdx.ix1 r) := by
  unfold k1_pay3
  show acc (ValueIdx.ix2 r d) * (broadcastTo S4096x16 (shapeCast S4096x1 (shapeCast S4096 nrm shapeCasts_S4096_S4096) shapeCasts_S4096_S4096x1)
    broadcasts_S4096x1_S4096x16) (ValueIdx.ix2 r d) = _
  congr 1
  refine (broadcastTo_apply _ _ (ValueIdx.ix2 r d) (ValueIdx.ix2 r (0 : Fin 1))
    (fun a => match a with | ⟨0, _⟩ => rfl | ⟨1, _⟩ => rfl)).trans ?_
  refine (shapeCast_apply _ _ (ValueIdx.ix2 r (0 : Fin 1)) (ValueIdx.ix1 r)
    (by rw [Shape.rowMajor_val_one, Shape.rowMajor_val_two]; show r.val = r.val * 1 + 0; omega)).trans ?_
  rw [shapeCast_self]

/-! ## (c) the tile test -/

theorem active_iff (j : Fin 49) (tmin tmax : BitVec 32) :
    Scalar.cmpi .ne (Scalar.extui (Scalar.andi
        (Scalar.cmpi .sle (Scalar.muli (BitVec.ofNat 32 j.val) 2048#32) tmax)
        (Scalar.cmpi .sgt (Scalar.addi (Scalar.muli (BitVec.ofNat 32 j.val) 2048#32) 2048#32) tmin))) 0#32 = 1#1
      ↔ (2048 * (j.val : Int) ≤ tmax.toInt ∧ tmin.toInt < 2048 * (j.val : Int) + 2048) := by
  have hj := j.isLt
  have h3 : (Scalar.muli (BitVec.ofNat 32 j.val) 2048#32).toInt = 2048 * (j.val : Int) := by
    rw [BitVec.toInt_eq_toNat_of_lt] <;> (simp only [Scalar.muli, IntOp.muli, BitVec.toNat_mul, BitVec.toNat_ofNat]; omega)
  have h4 : (Scalar.addi (Scalar.muli (BitVec.ofNat 32 j.val) 2048#32) 2048#32).toInt = 2048 * (j.val : Int) + 2048 := by
    rw [BitVec.toInt_eq_toNat_of_lt] <;> (simp only [Scalar.addi, IntOp.addi, Scalar.muli, IntOp.muli, BitVec.toNat_add, BitVec.toNat_mul, BitVec.toNat_ofNat]; omega)
  rw [Scalar.guard_iff, Scalar.andi, IntOp.andi_eq_one, Scalar.cmpi, Scalar.cmpi, IntOp.cmpi_sle, IntOp.cmpi_sgt, h3, h4]

end Cert.KernelIdeal.R1V
-- ==== Proof.R1Acc.lean ====
import proofs.«417346_j54202487276072_2_alg».proof.Proof.R1Pay

/-! The gather kernel's scratch accumulator along one edge block's run of 49 tiles, at the ideal values.

The accumulator is reset at the run's first tile and, at each tile the table test lets through, gains the product of the
tile's 0/1 matrix with the tile's node rows. When the two table words bound the block's ids, a tile the test skips holds
none of them, so after tile `j` row `r` holds the node row of its id when the id is below `2048 (j + 1)`, and zero
otherwise: each row meets its id's tile at most once. -/

noncomputable section

namespace Cert.KernelIdeal.R1V

open Idealize.ShloMosaic Idealize.SL.Sem Idealize.ShloMosaic.ValueIdx Cert.KernelIdeal Cert.KernelIdeal.Gen

local notation "𝕀" => Idealize.ShloMosaic.Ideal

/-- One tile's step at `(r, d)`: whether or not the test lets the tile through, the row gains the node row of its id
    exactly when the id lies in the tile (`H` is the node table read by id, `hhw` says the tile's block is its rows). -/
theorem step_apply (i : grid1.Coords) (C : Prop) {dC : Decidable C} (tmn tmx : BitVec 32)
    (hC : C ↔ (2048 * ((i 1).val : Int) ≤ tmx.toInt ∧ tmn.toInt < 2048 * ((i 1).val : Int) + 2048))
    (src : Vec 𝕀 S4096 .i32) (prev : Vec 𝕀 S4096x16 .f32) (hw : Vec 𝕀 S2048x16 .f32) (r : Fin 4096) (d : Fin 16)
    (H : ℕ → EReal) (hhw : ∀ m : Fin 2048, hw (ValueIdx.ix2 m d) = H (2048 * (i 1).val + m.val))
    (hb : tmn.toInt ≤ (src (ValueIdx.ix1 r)).toInt ∧ (src (ValueIdx.ix1 r)).toInt ≤ tmx.toInt) :
    (@ite _ C dC (k1_pay2 (F := 𝕀) i src prev hw) prev) (ValueIdx.ix2 r d)
      = prev (ValueIdx.ix2 r d)
        + (if 2048 * (i 1).val ≤ (src (ValueIdx.ix1 r)).toNat ∧ (src (ValueIdx.ix1 r)).toNat < 2048 * (i 1).val + 2048
            then H (src (ValueIdx.ix1 r)).toNat else 0) := by
  have hj : (i 1).val < 49 := (i 1).isLt
  by_cases hc : C
  · rw [if_pos hc, pay2_apply]
    congr 1
    by_cases h : 2048 * (i 1).val ≤ (src (ValueIdx.ix1 r)).toNat ∧ (src (ValueIdx.ix1 r)).toNat < 2048 * (i 1).val + 2048
    · rw [dif_pos h, if_pos h, hhw]
      congr 1
      show 2048 * (i 1).val + ((src (ValueIdx.ix1 r)).toNat - 2048 * (i 1).val) = _
      omega
    · rw [dif_neg h, if_neg h]
  · rw [if_neg hc, if_neg, add_zero]
    rintro ⟨h1, h2⟩
    apply hc; rw [hC]
    have hs : (src (ValueIdx.ix1 r)).toInt = ((src (ValueIdx.ix1 r)).toNat : Int) :=
      BitVec.toInt_eq_toNat_of_lt (by omega)
    rw [hs] at hb
    constructor <;> omega

/-- Ids below tile `j` already counted, plus tile `j`'s own: ids below tile `j + 1`. -/
theorem combine (j s : ℕ) (x : EReal) :
    (if s < 2048 * j then x else 0) + (if 2048 * j ≤ s ∧ s < 2048 * j + 2048 then x else 0)
      = if s < 2048 * (j + 1) then x else 0 := by
  by_cases h1 : s < 2048 * j
  · rw [if_pos h1, if_neg (by omega), add_zero, if_pos (by omega)]
  · rw [if_neg h1, zero_add]
    by_cases h2 : s < 2048 * j + 2048
    · rw [if_pos ⟨by omega, h2⟩, if_pos (by omega)]
    · rw [if_neg (by omega), if_neg (by omega)]

/-- THE RUN. `X` is the accumulator after each grid point, given by its two equations (reset at a run's first tile,
    stepped from the point before elsewhere); `S e` the ids of edge block `e`, `H` the node table by id. After point
    `n` (block `n / 49`, tile `n % 49`) row `r` holds its id's node row when the id is below `2048 (n % 49 + 1)`. -/
theorem acc_apply {N : ℕ}
    (X : (n : ℕ) → n < N → Vec 𝕀 S4096x16 .f32)
    (I : (n : ℕ) → n < N → grid1.Coords)
    (C : (n : ℕ) → n < N → Prop) {dC : ∀ n h, Decidable (C n h)}
    (SRC : (n : ℕ) → n < N → Vec 𝕀 S4096 .i32) (HW : (n : ℕ) → n < N → Vec 𝕀 S2048x16 .f32)
    (tmn tmx : (n : ℕ) → n < N → BitVec 32)
    (hI : ∀ n h, ((I n h) 1).val = n % 49)
    (hC : ∀ n h, C n h ↔ (2048 * (((I n h) 1).val : Int) ≤ (tmx n h).toInt
      ∧ (tmn n h).toInt < 2048 * (((I n h) 1).val : Int) + 2048))
    (hfirst : ∀ n h, n % 49 = 0 →
      X n h = @ite _ (C n h) (dC n h) (k1_pay2 (F := 𝕀) (I n h) (SRC n h) (k1_pay1 (F := 𝕀)) (HW n h)) (k1_pay1 (F := 𝕀)))
    (hnext : ∀ n h (h0 : n % 49 ≠ 0),
      X n h = @ite _ (C n h) (dC n h) (k1_pay2 (F := 𝕀) (I n h) (SRC n h) (X (n - 1) (by omega)) (HW n h)) (X (n - 1) (by omega)))
    (S : ℕ → Fin 4096 → BitVec 32) (H : ℕ → Fin 16 → EReal)
    (hSRC : ∀ n h r, SRC n h (ValueIdx.ix1 r) = S (n / 49) r)
    (hHW : ∀ n h (m : Fin 2048) (d : Fin 16), HW n h (ValueIdx.ix2 m d) = H (2048 * (n % 49) + m.val) d)
    (hb : ∀ n h r, (tmn n h).toInt ≤ (S (n / 49) r).toInt ∧ (S (n / 49) r).toInt ≤ (tmx n h).toInt) :
    ∀ n h (r : Fin 4096) (d : Fin 16), X n h (ValueIdx.ix2 r d)
      = if (S (n / 49) r).toNat < 2048 * (n % 49 + 1) then H (S (n / 49) r).toNat d else 0 := by
  -- one step at point `n`, from any previous contents `prev`
  have step : ∀ n h (prev : Vec 𝕀 S4096x16 .f32) (r : Fin 4096) (d : Fin 16),
      (@ite _ (C n h) (dC n h) (k1_pay2 (F := 𝕀) (I n h) (SRC n h) prev (HW n h)) prev) (ValueIdx.ix2 r d)
        = prev (ValueIdx.ix2 r d)
          + (if 2048 * (n % 49) ≤ (S (n / 49) r).toNat ∧ (S (n / 49) r).toNat < 2048 * (n % 49) + 2048
              then H (S (n / 49) r).toNat d else 0) := by
    intro n h prev r d
    have e := step_apply (I n h) (C n h) (dC := dC n h) (tmn n h) (tmx n h) (hC n h) (SRC n h) prev (HW n h) r d
      (fun k => H k d) (fun m => by rw [hHW n h m d, hI n h]) (by rw [hSRC n h r]; exact hb n h r)
    rw [hSRC n h r, hI n h] at e
    exact e
  intro n
  induction n with
  | zero =>
    intro h r d
    rw [hfirst 0 h rfl, step 0 h, pay1_apply, zero_add]
    have := combine 0 (S (0 / 49) r).toNat (H (S (0 / 49) r).toNat d)
    rw [if_neg (by omega), zero_add] at this
    exact this
  | succ n ih =>
    intro h r d
    by_cases h0 : (n + 1) % 49 = 0
    · rw [hfirst (n + 1) h h0, step (n + 1) h, pay1_apply, zero_add, h0]
      have := combine 0 (S ((n + 1) / 49) r).toNat (H (S ((n + 1) / 49) r).toNat d)
      rw [if_neg (by omega), zero_add] at this
      exact this
    · have e1 : (n + 1) / 49 = n / 49 := by omega
      have e2 : (n + 1) % 49 = n % 49 + 1 := by omega
      have hp : (X (n + 1 - 1) (by omega)) (ValueIdx.ix2 r d)
          = if (S (n / 49) r).toNat < 2048 * (n % 49 + 1) then H (S (n / 49) r).toNat d else 0 := ih (by omega) r d
      rw [hnext (n + 1) h h0, step (n + 1) h, hp, e1, e2]
      exact combine (n % 49 + 1) (S (n / 49) r).toNat (H (S (n / 49) r).toNat d)

end Cert.KernelIdeal.R1V
-- ==== Proof.R1Value.lean ====
import proofs.«417346_j54202487276072_2_alg».proof.Proof.Gen.KernelIdeal.Launch
import proofs.«417346_j54202487276072_2_alg».proof.Proof.R1Sched
import proofs.«417346_j54202487276072_2_alg».proof.Proof.R1Acc
import Idealize.ShloMosaic.Lib.ValueIdx
import Idealize.ShloMosaic.Lib.Pipeline.Value

/-! The gather region's value at the ideal values.

Point t of the grid is (edge block t / 49, node tile t % 49). Each window's block sits in its array at the block index
times the block's extent, so a block read at an element is the array read at the element's place. The accumulator's
closed form along an edge block's 49 tiles, with the output window left at the accumulator scaled row by row by the
edges' weights and written back at the last tile, gives every output row: the node row of the edge's source id (zero when
the id is past the node range), times the edge's weight. The rows are covered because row k lies in the block written
back at point 49 (k / 4096) + 48. -/

noncomputable section
namespace Cert.KernelIdeal.R1V
open Cert.KernelIdeal Cert.KernelIdeal.Gen
open Idealize.ShloMosaic Idealize.ShloMosaic.TcCoe
open Idealize.SL Idealize.SL.Sem
open Idealize.ShloMosaic.Pipeline (Dat)
local notation "𝕀" => Idealize.ShloMosaic.Ideal

section Blocks
variable {F : FTy → Type} [FloatOps F]
variable (a : (pcfg1 (F := F)).Adm)
/-- Where element r of the ids' block at point t sits in the array. -/
theorem embSrc (t : Fin (cfg1 a).N) (hidx : ((cfg1 a).win 0).index t = ![t.val / 49]) (r : Fin 4096)
    (hr : 4096 * (t.val / 49) + r.val < 1601536) :
    (((cfg1 a).win 0).blk t).view.emb (ValueIdx.ix1 r) = (ValueIdx.ix1 (⟨4096 * (t.val / 49) + r.val, hr⟩ : Fin 1601536)) := by
  funext x
  match x with
  | ⟨0, _⟩ =>
    apply Fin.ext
    have e := Pipeline.Window.rect_emb_val ((cfg1 a).win 0) t (ValueIdx.ix1 r) ⟨0, Nat.one_pos⟩
    rw [hidx] at e
    exact e.trans (by show t.val / 49 * 4096 + r.val = 4096 * (t.val / 49) + r.val; omega)

theorem embNrm (t : Fin (cfg1 a).N) (hidx : ((cfg1 a).win 1).index t = ![t.val / 49]) (r : Fin 4096)
    (hr : 4096 * (t.val / 49) + r.val < 1601536) :
    (((cfg1 a).win 1).blk t).view.emb (ValueIdx.ix1 r) = (ValueIdx.ix1 (⟨4096 * (t.val / 49) + r.val, hr⟩ : Fin 1601536)) := by
  funext x
  match x with
  | ⟨0, _⟩ =>
    apply Fin.ext
    have e := Pipeline.Window.rect_emb_val ((cfg1 a).win 1) t (ValueIdx.ix1 r) ⟨0, Nat.one_pos⟩
    rw [hidx] at e
    exact e.trans (by show t.val / 49 * 4096 + r.val = 4096 * (t.val / 49) + r.val; omega)

/-- Where element (m, d) of the node block at point t sits in the node array. -/
theorem embHw (t : Fin (cfg1 a).N) (hidx : ((cfg1 a).win 2).index t = ![t.val % 49, 0]) (m : Fin 2048) (d : Fin 16)
    (hm : 2048 * (t.val % 49) + m.val < 100352) :
    (((cfg1 a).win 2).blk t).view.emb (ValueIdx.ix2 m d)
      = (ValueIdx.ix2 (⟨2048 * (t.val % 49) + m.val, hm⟩ : Fin 100352) d) := by
  funext x
  match x with
  | ⟨0, _⟩ =>
    apply Fin.ext
    have e := Pipeline.Window.rect_emb_val ((cfg1 a).win 2) t (ValueIdx.ix2 m d) ⟨0, Nat.two_pos⟩
    rw [hidx] at e
    exact e.trans (by show t.val % 49 * 2048 + m.val = 2048 * (t.val % 49) + m.val; omega)
  | ⟨1, _⟩ =>
    apply Fin.ext
    have e := Pipeline.Window.rect_emb_val ((cfg1 a).win 2) t (ValueIdx.ix2 m d) ⟨1, Nat.one_lt_two⟩
    rw [hidx] at e
    exact e.trans (by show 0 * _ + d.val = d.val; rw [Nat.zero_mul, Nat.zero_add])

/-- Where element (r, d) of the output block at point t sits in the output array. -/
theorem embOut (t : Fin (cfg1 a).N) (hidx : ((cfg1 a).win 3).index t = ![t.val / 49, 0]) (r : Fin 4096) (d : Fin 16)
    (hr : 4096 * (t.val / 49) + r.val < 1601536) :
    (((cfg1 a).win 3).blk t).view.emb (ValueIdx.ix2 r d)
      = (ValueIdx.ix2 (⟨4096 * (t.val / 49) + r.val, hr⟩ : Fin 1601536) d) := by
  funext x
  match x with
  | ⟨0, _⟩ =>
    apply Fin.ext
    have e := Pipeline.Window.rect_emb_val ((cfg1 a).win 3) t (ValueIdx.ix2 r d) ⟨0, Nat.two_pos⟩
    rw [hidx] at e
    exact e.trans (by show t.val / 49 * 4096 + r.val = 4096 * (t.val / 49) + r.val; omega)
  | ⟨1, _⟩ =>
    apply Fin.ext
    have e := Pipeline.Window.rect_emb_val ((cfg1 a).win 3) t (ValueIdx.ix2 r d) ⟨1, Nat.one_lt_two⟩
    rw [hidx] at e
    exact e.trans (by show 0 * _ + d.val = d.val; rw [Nat.zero_mul, Nat.zero_add])

/-- A block read at an element is the array at the element's place. -/
theorem readSrc (V : (c : Dev nD) → (b : Ref sig .tc) → Buf (Elt F) ((c : Thread nD τ).loc b)) (c : Dev nD)
    (t : Fin (cfg1 a).N) (hidx : ((cfg1 a).win 0).index t = ![t.val / 49]) (r : Fin 4096)
    (hr : 4096 * (t.val / 49) + r.val < 1601536) :
    (((cfg1 a).win 0).blk t).view.read (Elt F) (V c (Pipeline.arrRef spec1 0)) (ValueIdx.ix1 r)
      = (V c (Pipeline.arrRef spec1 0)) (ValueIdx.ix1 (⟨4096 * (t.val / 49) + r.val, hr⟩ : Fin 1601536)) :=
  congrArg (V c (Pipeline.arrRef spec1 0)) (embSrc a t hidx r hr)

theorem readHw (V : (c : Dev nD) → (b : Ref sig .tc) → Buf (Elt F) ((c : Thread nD τ).loc b)) (c : Dev nD)
    (t : Fin (cfg1 a).N) (hidx : ((cfg1 a).win 2).index t = ![t.val % 49, 0]) (m : Fin 2048) (d : Fin 16)
    (hm : 2048 * (t.val % 49) + m.val < 100352) :
    (((cfg1 a).win 2).blk t).view.read (Elt F) (V c (Pipeline.arrRef spec1 2)) (ValueIdx.ix2 m d)
      = (V c (Pipeline.arrRef spec1 2)) (ValueIdx.ix2 (⟨2048 * (t.val % 49) + m.val, hm⟩ : Fin 100352) d) :=
  congrArg (V c (Pipeline.arrRef spec1 2)) (embHw a t hidx m d hm)

end Blocks

/-! ## The expected output -/

/-- Row `k` of the gathered array: the node row of edge `k`'s source id (zero when the id is past the padded node
    range), scaled by the edge's weight. -/
def gath (src : S1601536.Idx → BitVec 32) (nrm : S1601536.Idx → EReal) (hw : S100352x16.Idx → EReal) :
    S1601536x16.Idx → EReal :=
  fun i => (if h : (src (ValueIdx.ix1 (i 0))).toNat < 100352 then hw (ValueIdx.ix2 ⟨(src (ValueIdx.ix1 (i 0))).toNat, h⟩ (i 1)) else 0)
    * nrm (ValueIdx.ix1 (i 0))

/-- `gath` at a row and a column. -/
theorem gath_apply (src : S1601536.Idx → BitVec 32) (nrm : S1601536.Idx → EReal) (hw : S100352x16.Idx → EReal)
    (k : Fin 1601536) (d : Fin 16) :
    gath src nrm hw (ValueIdx.ix2 k d)
      = (if h : (src (ValueIdx.ix1 k)).toNat < 100352 then hw (ValueIdx.ix2 ⟨(src (ValueIdx.ix1 k)).toNat, h⟩ d) else 0)
        * nrm (ValueIdx.ix1 k) := rfl

section Glue

variable (V : (c : Dev nD) → (b : Ref sig .tc) → Buf (Elt 𝕀) ((c : Thread nD τ).loc b))
variable (a : (pcfg1 (F := 𝕀)).Adm) (c : Dev nD)

/-- The three input blocks at a point, typed. -/
abbrev srcBlk (t : Fin (cfg1 a).N) : Vec 𝕀 S4096 .i32 := (((cfg1 a).win 0).blk t).view.read (Elt 𝕀) (V c (Pipeline.arrRef spec1 0))
abbrev nrmBlk (t : Fin (cfg1 a).N) : Vec 𝕀 S4096 .f32 := (((cfg1 a).win 1).blk t).view.read (Elt 𝕀) (V c (Pipeline.arrRef spec1 1))
abbrev hwBlk (t : Fin (cfg1 a).N) : Vec 𝕀 S2048x16 .f32 := (((cfg1 a).win 2).blk t).view.read (Elt 𝕀) (V c (Pipeline.arrRef spec1 2))

/-- THE REGION'S VALUE, from the proof data's equations: any accumulator family `X` that is reset at a run's first tile and
    stepped elsewhere, with the output window left at the scaled accumulator at each run's last tile, ends with the output array at `gath` when the
    two table words bound each edge block's ids. -/
theorem out_eq_of
    (dat : Dat τ (Elt 𝕀) Unit ℕ (UR sig nD τ) ℕ (cfg1 a) c)
    (X : (n : ℕ) → n < (cfg1 a).N → Vec 𝕀 S4096x16 .f32)
    (act : grid1.Coords → Prop) {dact : ∀ i, Decidable (act i)} (mx mn : grid1.Coords → BitVec 32)
    (hact : ∀ i, act i ↔ (2048 * ((i 1).val : Int) ≤ (mx i).toInt ∧ (mn i).toInt < 2048 * ((i 1).val : Int) + 2048))
    (hafter : ∀ t : Fin (cfg1 a).N, t.val % 49 = 48 → dat.after 3 t = k1_pay3 (F := 𝕀) (nrmBlk V a c t) (X t.val t.isLt))
    (hfirst : ∀ (t : Fin (cfg1 a).N), (grid1.coords t 1).val = 0 →
      X t.val t.isLt = @ite _ (act (grid1.coords t)) (dact _)
        (k1_pay2 (F := 𝕀) (grid1.coords t) (srcBlk V a c t) (k1_pay1 (F := 𝕀)) (hwBlk V a c t)) (k1_pay1 (F := 𝕀)))
    (hnext : ∀ (t : Fin (cfg1 a).N) (hk : (grid1.coords t 1).val ≠ 0),
      X t.val t.isLt = @ite _ (act (grid1.coords t)) (dact _)
        (k1_pay2 (F := 𝕀) (grid1.coords t) (srcBlk V a c t) (X (t.val - 1) (by have := t.isLt; omega)) (hwBlk V a c t))
        (X (t.val - 1) (by have := t.isLt; omega)))
    (hb : ∀ (t : Fin (cfg1 a).N) (r : Fin 4096) (hr : 4096 * (t.val / 49) + r.val < 1601536),
      (mn (grid1.coords t)).toInt ≤ ((V c main_v52) (ValueIdx.ix1 (⟨4096 * (t.val / 49) + r.val, hr⟩ : Fin 1601536))).toInt
        ∧ ((V c main_v52) (ValueIdx.ix1 (⟨4096 * (t.val / 49) + r.val, hr⟩ : Fin 1601536))).toInt ≤ (mx (grid1.coords t)).toInt) :
    dat.arrAt 3 (cfg1 a).N = gath (V c main_v52) (V c main_v59) (V c main_v83) := by
  have hN : (cfg1 a).N = 19159 := N_1
  -- the ids of edge block `e`, and the node table by id, as total functions
  let S : ℕ → Fin 4096 → BitVec 32 := fun e r =>
    if h : 4096 * e + r.val < 1601536 then (V c main_v52) (ValueIdx.ix1 (⟨4096 * e + r.val, h⟩ : Fin 1601536)) else 0#32
  let H : ℕ → Fin 16 → EReal := fun k d =>
    if h : k < 100352 then (V c main_v83) (ValueIdx.ix2 (⟨k, h⟩ : Fin 100352) d) else 0
  have hrow : ∀ (n : ℕ) (h : n < (cfg1 a).N) (r : Fin 4096), 4096 * (n / 49) + r.val < 1601536 := fun n h r => by
    have := r.isLt; omega
  have hS : ∀ (n : ℕ) (h : n < (cfg1 a).N) (r : Fin 4096),
      S (n / 49) r = (V c main_v52) (ValueIdx.ix1 (⟨4096 * (n / 49) + r.val, hrow n h r⟩ : Fin 1601536)) := fun n h r =>
    dif_pos (hrow n h r)
  -- the accumulator in closed form
  have hacc := acc_apply (N := (cfg1 a).N) X (fun n h => grid1.coords ⟨n, h⟩) (fun n h => act (grid1.coords ⟨n, h⟩))
    (dC := fun n h => dact _) (fun n h => srcBlk V a c ⟨n, h⟩) (fun n h => hwBlk V a c ⟨n, h⟩)
    (fun n h => mn (grid1.coords ⟨n, h⟩)) (fun n h => mx (grid1.coords ⟨n, h⟩))
    (fun n h => R1.coords1_1 ⟨n, h⟩) (fun n h => hact _)
    (fun n h h0 => hfirst ⟨n, h⟩ ((R1.coords1_1 ⟨n, h⟩).trans h0))
    (fun n h h0 => hnext ⟨n, h⟩ (fun e => h0 ((R1.coords1_1 ⟨n, h⟩).symm.trans e)))
    S H
    (fun n h r => (readSrc a V c ⟨n, h⟩ (R1.idx1_0 a ⟨n, h⟩) r (hrow n h r)).trans (hS n h r).symm)
    (fun n h m d => by
      have hm : 2048 * (n % 49) + m.val < 100352 := by have := m.isLt; omega
      have e : H (2048 * (n % 49) + m.val) d = (V c main_v83) (ValueIdx.ix2 (⟨2048 * (n % 49) + m.val, hm⟩ : Fin 100352) d) := dif_pos hm
      exact (readHw a V c ⟨n, h⟩ (R1.idx1_2 a ⟨n, h⟩) m d hm).trans e.symm)
    (fun n h r => by rw [hS n h r]; exact hb ⟨n, h⟩ r (hrow n h r))
  refine dat.arrAt_eq_of_cover 3 (gath (V c main_v52) (V c main_v59) (V c main_v83)) (fun t hf => ?_) (fun i => ?_)
  · -- what a flushing point writes back is its block of `gath`
    have h48 : t.val % 49 = 48 := (R1.flush1_3 a t).mp hf
    funext y
    obtain ⟨r, d, rfl⟩ : ∃ (r : Fin 4096) (d : Fin 16), y = ValueIdx.ix2 r d := ⟨_, _, ValueIdx.eq_ix2 y⟩
    have hr := hrow t.val t.isLt r
    have hL : dat.flushed 3 t (ValueIdx.ix2 r d)
        = X t.val t.isLt (ValueIdx.ix2 r d) * (V c main_v59) (ValueIdx.ix1 (⟨4096 * (t.val / 49) + r.val, hr⟩ : Fin 1601536)) :=
      (congrFun (hafter t h48) (ValueIdx.ix2 r d)).trans ((pay3_apply _ _ r d).trans
        (congrArg (X t.val t.isLt (ValueIdx.ix2 r d) * ·) (congrArg (V c (Pipeline.arrRef spec1 1)) (embNrm a t (R1.idx1_1 a t) r hr))))
    have hR : (((cfg1 a).win 3).blk t).view.read (Elt 𝕀) (gath (V c main_v52) (V c main_v59) (V c main_v83)) (ValueIdx.ix2 r d)
        = gath (V c main_v52) (V c main_v59) (V c main_v83) (ValueIdx.ix2 (⟨4096 * (t.val / 49) + r.val, hr⟩ : Fin 1601536) d) :=
      congrArg (gath (V c main_v52) (V c main_v59) (V c main_v83)) (embOut a t (R1.idx1_3 a t) r d hr)
    rw [hL, hR, hacc t.val t.isLt r d, h48, hS t.val t.isLt r]
    show _ = (if h : ((V c main_v52) (ValueIdx.ix1 (⟨4096 * (t.val / 49) + r.val, hr⟩ : Fin 1601536))).toNat < 100352 then _ else 0) * _
    congr 1
    by_cases h : ((V c main_v52) (ValueIdx.ix1 (⟨4096 * (t.val / 49) + r.val, hr⟩ : Fin 1601536))).toNat < 100352
    · rw [if_pos (by omega), dif_pos h]; exact dif_pos h
    · rw [if_neg (by omega), dif_neg h]
  · -- every output row lies in the block written back at its edge block's last tile
    obtain ⟨k, d, rfl⟩ : ∃ (k : Fin 1601536) (d : Fin 16), i = ValueIdx.ix2 k d := ⟨_, _, ValueIdx.eq_ix2 i⟩
    have hk := k.isLt
    let t : Fin (cfg1 a).N := ⟨49 * (k.val / 4096) + 48, by omega⟩
    have hq : t.val / 49 = k.val / 4096 := by show (49 * (k.val / 4096) + 48) / 49 = _; omega
    have hr : 4096 * (t.val / 49) + k.val % 4096 < 1601536 := by rw [hq]; omega
    refine ⟨t, (R1.flush1_3 a t).mpr (by show (49 * (k.val / 4096) + 48) % 49 = 48; omega), ?_⟩
    have hm := (((cfg1 a).win 3).blk t).view.emb_mem_set (ValueIdx.ix2 (⟨k.val % 4096, Nat.mod_lt _ (by norm_num)⟩ : Fin 4096) d)
    have he := embOut a t (R1.idx1_3 a t) (⟨k.val % 4096, Nat.mod_lt _ (by norm_num)⟩ : Fin 4096) d hr
    have hkk : (⟨4096 * (t.val / 49) + k.val % 4096, hr⟩ : Fin 1601536) = k := Fin.ext (by show 4096 * (t.val / 49) + k.val % 4096 = k.val; rw [hq]; omega)
    rw [he, hkk] at hm
    exact hm

end Glue

end Cert.KernelIdeal.R1V
-- ==== Proof.R1Out.lean ====
import proofs.«417346_j54202487276072_2_alg».proof.Proof.R1Frame
import proofs.«417346_j54202487276072_2_alg».proof.Proof.R1Value

/-! The gather region's output array at the ideal values, for the region's proof data.

The two words the body loads at a point are the entries of the two tables at the point's edge block, and its tile test is
the comparison of the tile's id range with them. So when the tables bound each edge block's ids the output array ends at
the gathered rows: the node row of each edge's source id, times the edge's weight. -/

noncomputable section

namespace Cert.KernelIdeal.R1V

open Cert.KernelIdeal Cert.KernelIdeal.Gen
open Idealize.ShloMosaic Idealize.ShloMosaic.TcCoe
open Idealize.SL Idealize.SL.Sem

local notation "𝕀" => Idealize.ShloMosaic.Ideal

variable (V : (c : Dev nD) → (b : Ref sig .tc) → Buf (Elt 𝕀) ((c : Thread nD τ).loc b))
variable (a : (pcfg1 (F := 𝕀)).Adm) (c : Dev nD)

/-- The edges' source ids, and the two tables' entries at an edge block, at their word types. -/
abbrev srcV : (⟨1, ![1601536]⟩ : Shape).Idx → BitVec 32 := V c main_v52
abbrev tminV (k : Fin 391) : BitVec 32 := (a.1 0) (ValueIdx.ix1 k)
abbrev tmaxV (k : Fin 391) : BitVec 32 := (a.1 1) (ValueIdx.ix1 k)

/-- The word of the least-id table loaded at a point is the table's entry at the point's edge block. -/
theorem wMin1_eq (i : grid1.Coords) :
    R1.wMin1 a i = tminV a ⟨(i 0).val, (i 0).isLt⟩ := by
  refine congrArg (a.1 0) ?_
  funext x
  match x with
  | ⟨0, _⟩ =>
    apply Fin.ext
    show (k1_off1 i) ⟨0, Nat.one_pos⟩ + 1 * 0 = (i 0).val
    rw [k1_off1_eq]; rfl

/-- The word of the greatest-id table likewise. -/
theorem wMax1_eq (i : grid1.Coords) :
    R1.wMax1 a i = tmaxV a ⟨(i 0).val, (i 0).isLt⟩ := by
  refine congrArg (a.1 1) ?_
  funext x
  match x with
  | ⟨0, _⟩ =>
    apply Fin.ext
    show (k1_off1 i) ⟨0, Nat.one_pos⟩ + 1 * 0 = (i 0).val
    rw [k1_off1_eq]; rfl

/-- The step is taken exactly when the tile's id range meets the range between the two words, as signed integers. -/
theorem act1_iff (i : grid1.Coords) :
    R1.act1 a i ↔ (2048 * ((i 1).val : Int) ≤ (R1.wMax1 a i).toInt ∧ (R1.wMin1 a i).toInt < 2048 * ((i 1).val : Int) + 2048) :=
  active_iff (i 1) (R1.wMin1 a i) (R1.wMax1 a i)

/-- The output array, when the two words loaded at each point bound the point's edge block's ids. -/
theorem out_eq_words
    (hb : ∀ (t : Fin (cfg1 a).N) (r : Fin 4096) (hr : 4096 * (t.val / 49) + r.val < 1601536),
      (R1.wMin1 a (grid1.coords t)).toInt ≤ ((V c main_v52) (ValueIdx.ix1 (⟨4096 * (t.val / 49) + r.val, hr⟩ : Fin 1601536))).toInt
        ∧ ((V c main_v52) (ValueIdx.ix1 (⟨4096 * (t.val / 49) + r.val, hr⟩ : Fin 1601536))).toInt ≤ (R1.wMax1 a (grid1.coords t)).toInt) :
    (R1.dat1 V a c).arrAt 3 (cfg1 a).N = gath (V c main_v52) (V c main_v59) (V c main_v83) :=
  out_eq_of V a c (R1.dat1 V a c) (R1.accAt1 V a c) (R1.act1 a) (R1.wMax1 a) (R1.wMin1 a) (act1_iff a)
    (fun t _ => R1.after1_3 V a c t) (R1.accAt1_first V a c) (R1.accAt1_next V a c) hb

/-- THE OUTPUT ARRAY, when entry `k` of the first table is at most, and entry `k` of the second at least, every id of edge
    block `k` (rows `4096 k … 4096 k + 4095`). -/
theorem out_eq
    (hb : ∀ (k : Fin 391) (r : Fin 4096),
      (tminV a k).toInt
          ≤ (srcV V c (ValueIdx.ix1 ⟨4096 * k.val + r.val, by have := k.isLt; have := r.isLt; omega⟩)).toInt
        ∧ (srcV V c (ValueIdx.ix1 ⟨4096 * k.val + r.val, by have := k.isLt; have := r.isLt; omega⟩)).toInt
          ≤ (tmaxV a k).toInt) :
    (R1.dat1 V a c).arrAt 3 (cfg1 a).N = gath (V c main_v52) (V c main_v59) (V c main_v83) := by
  refine out_eq_words V a c fun t r hr => ?_
  have hN : (cfg1 a).N = 19159 := N_1
  have he : t.val / 49 < 391 := by have := t.isLt; omega
  have h0 : (⟨(grid1.coords t 0).val, (grid1.coords t 0).isLt⟩ : Fin 391) = ⟨t.val / 49, he⟩ := Fin.ext (R1.coords1_0 t)
  rw [wMin1_eq, wMax1_eq, h0]
  exact hb ⟨t.val / 49, he⟩ r

/-- The output array at a row and a column (`gath_apply` reads the right side). -/
theorem out_apply
    (hb : ∀ (k : Fin 391) (r : Fin 4096),
      (tminV a k).toInt
          ≤ (srcV V c (ValueIdx.ix1 ⟨4096 * k.val + r.val, by have := k.isLt; have := r.isLt; omega⟩)).toInt
        ∧ (srcV V c (ValueIdx.ix1 ⟨4096 * k.val + r.val, by have := k.isLt; have := r.isLt; omega⟩)).toInt
          ≤ (tmaxV a k).toInt)
    (n : Fin 1601536) (d : Fin 16) :
    (R1.dat1 V a c).arrAt 3 (cfg1 a).N (ValueIdx.ix2 n d)
      = gath (V c main_v52) (V c main_v59) (V c main_v83) (ValueIdx.ix2 n d) :=
  congrFun (out_eq V a c hb) (ValueIdx.ix2 n d)

end Cert.KernelIdeal.R1V
-- ==== Proof.R4Pay.lean ====
import proofs.«417346_j54202487276072_2_alg».proof.Proof.Gen.KernelIdeal.Skeleton
import Idealize.ShloMosaic.Lib.ValueIdx
import Idealize.ShloMosaic.Lib.ValueLayout
import Idealize.ShloMosaic.Lib.Pipeline.Value
import Idealize.ShloMosaic.Lib.Affine
import Idealize.ShloMosaic.PureOps.Ideal.Laws

/-! The gather kernel's three payloads read at an index, at the ideal values.

The accumulator update adds, to row `r`, the product of a 0/1 matrix with the tile's block of node rows: entry
`(r, n)` of the matrix is `1` exactly when the row's node id is the tile's `n`-th id, so the product's row is the
node's row when the id lies in the tile and zero otherwise. The output payload scales each row by its weight. The
tile test compares the tile's id range with the two table words as signed integers. -/

noncomputable section

namespace Cert.KernelIdeal.R4V

open Idealize.ShloMosaic Idealize.SL.Sem Idealize.ShloMosaic.ValueIdx Cert.KernelIdeal Cert.KernelIdeal.Gen

local notation "𝕀" => Idealize.ShloMosaic.Ideal

/-! ## The tile's ids -/

/-- The id of column `n` of tile `j`, as the kernel forms it: `n + j * 2048` in 32-bit words. -/
def colId (j : Nat) (n : Nat) : BitVec 32 :=
  IntOp.addi (BitVec.ofNat 32 n) (Scalar.muli (BitVec.ofNat 32 j) 2048#32)

/-- No wrap-around: there are 49 tiles of 2048 ids. -/
theorem colId_toNat {j n : Nat} (hj : j < 49) (hn : n < 2048) : (colId j n).toNat = 2048 * j + n := by
  simp only [colId, IntOp.addi, Scalar.muli, IntOp.muli, BitVec.toNat_add, BitVec.toNat_mul, BitVec.toNat_ofNat]
  omega

/-! ## The 0/1 matrix -/

/-- An equality bit widened to 32 bits and converted to a float is `1` or `0`. -/
theorem sitofp_eqbit (a b : BitVec 32) :
    (FloatOps.sitofp (F := 𝕀) .f32 ((IntOp.cmpi .eq a b).setWidth 32) : EReal) = if a = b then 1 else 0 := by
  show ((((IntOp.cmpi .eq a b).setWidth 32).toInt : ℝ) : EReal) = _
  by_cases h : a = b
  · rw [if_pos h, IntOp.cmpi_eq.mpr h, show ((1#1 : BitVec 1).setWidth 32).toInt = 1 from by decide]
    simp
  · rw [if_neg h, eq_zero_of_ne_one (mt IntOp.cmpi_eq.mp h), show ((0#1 : BitVec 1).setWidth 32).toInt = 0 from by decide]
    simp

/-- The row ids broadcast along the columns: entry `(r, n)` is row `r`'s id. -/
theorem rowIds_apply (src : Vec 𝕀 S4096 .i32) (r : Fin 4096) (n : Fin 2048) :
    broadcastTo S4096x2048 (shapeCast S4096x1 src shapeCasts_S4096_S4096x1)
        broadcasts_S4096x1_S4096x2048 (ValueIdx.ix2 r n) = src (ValueIdx.ix1 r) := by
  refine (broadcastTo_apply _ _ (ValueIdx.ix2 r n) (ValueIdx.ix2 r (0 : Fin 1))
    (fun a => match a with | ⟨0, _⟩ => rfl | ⟨1, _⟩ => rfl)).trans ?_
  exact shapeCast_apply _ _ (ValueIdx.ix2 r (0 : Fin 1)) (ValueIdx.ix1 r)
    (by rw [Shape.rowMajor_val_one, Shape.rowMajor_val_two]; show r.val = r.val * 1 + 0; omega)

/-- The tile's ids broadcast down the rows: entry `(r, n)` is the tile's `n`-th id. -/
theorem colIds_apply (j : Nat) (r : Fin 4096) (n : Fin 2048) :
    broadcastTo S4096x2048 (addi (iota .tc S1x2048 32 [1] iota_S1x2048_d1_w32)
        (broadcast S1x2048 (Scalar.muli (BitVec.ofNat 32 j) 2048#32))) broadcasts_S1x2048_S4096x2048 (ValueIdx.ix2 r n)
      = colId j n.val := by
  refine (broadcastTo_apply _ _ (ValueIdx.ix2 r n) (ValueIdx.ix2 (0 : Fin 1) n)
    (fun a => match a with | ⟨0, _⟩ => rfl | ⟨1, _⟩ => rfl)).trans ?_
  show IntOp.addi (iota .tc S1x2048 32 [1] iota_S1x2048_d1_w32 (ValueIdx.ix2 (0 : Fin 1) n)) _ = _
  rw [iota_single_apply]
  rfl

/-! ## The product's operand indices -/

local notation "𝔻" => dot_S4096x2048_S2048x64_S4096x64_1_0_0_1_n_n

/-- The contraction index is the column of the matrix: one axis of extent 2048. -/
def contrE : (𝔻).contr.Idx ≃ Fin 2048 := contrEquiv1 𝔻 2048 rfl rfl

theorem lhsIdx_eq (r : Fin 4096) (d : Fin 64) (n : Fin 2048) :
    (𝔻).lhsIdx (ValueIdx.ix2 r d) (contrE.symm n) = ValueIdx.ix2 r n :=
  Shape.idx_ext₂ rfl ((rfl : (((𝔻).lhsIdx (ValueIdx.ix2 r d) (contrE.symm n)) 1 : ℕ) = ((contrE.symm n) ⟨0, by decide⟩ : ℕ)).trans
    (contrEquiv1_symm_val 𝔻 2048 rfl rfl n))

theorem rhsIdx_eq (r : Fin 4096) (d : Fin 64) (n : Fin 2048) :
    (𝔻).rhsIdx (ValueIdx.ix2 r d) (contrE.symm n) = ValueIdx.ix2 n d :=
  Shape.idx_ext₂ ((rfl : (((𝔻).rhsIdx (ValueIdx.ix2 r d) (contrE.symm n)) 0 : ℕ) = ((contrE.symm n) ⟨0, by decide⟩ : ℕ)).trans
    (contrEquiv1_symm_val 𝔻 2048 rfl rfl n)) rfl

/-! ## A 0/1 selector's sum -/

/-- Over one tile's columns at most one id equals `s`: the sum keeps that column's term, or is zero. -/
theorem sum_onehot {j : Nat} (hj : j < 49) (s : BitVec 32) (f : Fin 2048 → EReal) :
    (∑ n : Fin 2048, (if s = colId j n.val then (1 : EReal) else 0) * f n)
      = if h : 2048 * j ≤ s.toNat ∧ s.toNat < 2048 * j + 2048 then f ⟨s.toNat - 2048 * j, by omega⟩ else 0 := by
  have key : ∀ n : Fin 2048, s = colId j n.val ↔ s.toNat = 2048 * j + n.val := fun n => by
    rw [← BitVec.toNat_inj, colId_toNat hj n.isLt]
  simp only [key]
  split_ifs with h
  · rw [Finset.sum_eq_single (⟨s.toNat - 2048 * j, by omega⟩ : Fin 2048)]
    · rw [if_pos (by show s.toNat = 2048 * j + (s.toNat - 2048 * j); omega), one_mul]
    · intro n _ hn
      rw [if_neg, zero_mul]
      intro e; apply hn; apply Fin.ext; show n.val = s.toNat - 2048 * j; omega
    · intro h'; exact absurd (Finset.mem_univ _) h'
  · refine Finset.sum_eq_zero fun n _ => ?_
    rw [if_neg, zero_mul]
    intro e; apply h; have := n.isLt; omega

/-! ## (a) the accumulator update -/

theorem pay2_sum (i : grid4.Coords) (src : Vec 𝕀 S4096 .i32) (acc : Vec 𝕀 S4096x64 .f32) (hw : Vec 𝕀 S2048x64 .f32)
    (r : Fin 4096) (d : Fin 64) :
    k4_pay2 (F := 𝕀) i src acc hw (ValueIdx.ix2 r d)
      = acc (ValueIdx.ix2 r d) + ∑ n : Fin 2048,
          (if src (ValueIdx.ix1 r) = colId (i 1).val n.val then (1 : EReal) else 0) * hw (ValueIdx.ix2 n d) := by
  unfold k4_pay2
  simp only [shapeCast_self]
  rw [addf_apply]
  congr 1
  simp only [matmul]
  rw [Ideal.matmul_constant_zero_apply]
  refine (Equiv.sum_comp contrE.symm _).symm.trans ?_
  refine Finset.sum_congr rfl fun n _ => ?_
  rw [lhsIdx_eq, rhsIdx_eq]
  congr 1
  show FloatOps.sitofp (F := 𝕀) .f32 ((IntOp.cmpi .eq (broadcastTo S4096x2048 _ broadcasts_S4096x1_S4096x2048 (ValueIdx.ix2 r n))
    (broadcastTo S4096x2048 _ broadcasts_S1x2048_S4096x2048 (ValueIdx.ix2 r n))).setWidth 32) = _
  rw [rowIds_apply, colIds_apply, sitofp_eqbit]

/-- (a): the update adds the node's row when row `r`'s id lies in tile `i 1`, and nothing otherwise. -/
theorem pay2_apply (i : grid4.Coords) (src : Vec 𝕀 S4096 .i32) (acc : Vec 𝕀 S4096x64 .f32) (hw : Vec 𝕀 S2048x64 .f32)
    (r : Fin 4096) (d : Fin 64) :
    k4_pay2 (F := 𝕀) i src acc hw (ValueIdx.ix2 r d)
      = acc (ValueIdx.ix2 r d)
        + (if h : 2048 * (i 1).val ≤ (src (ValueIdx.ix1 r)).toNat ∧ (src (ValueIdx.ix1 r)).toNat < 2048 * (i 1).val + 2048
            then hw (ValueIdx.ix2 ⟨(src (ValueIdx.ix1 r)).toNat - 2048 * (i 1).val, by omega⟩ d) else 0) := by
  rw [pay2_sum, sum_onehot (show (i 1).val < 49 from (i 1).isLt) (src (ValueIdx.ix1 r)) (fun n => hw (ValueIdx.ix2 n d))]

/-- The reset payload is zero everywhere. -/
theorem pay1_apply (x : S4096x64.Idx) : k4_pay1 (F := 𝕀) x = 0 := by
  unfold k4_pay1
  simp only [shapeCast_self]
  show Ideal.ofBits .f32 0x00000000#32 = 0
  exact Ideal.ofBits_zero_f32

/-! ## (b) the output payload -/

theorem pay3_apply (nrm : Vec 𝕀 S4096 .f32) (acc : Vec 𝕀 S4096x64 .f32) (r : Fin 4096) (d : Fin 64) :
    k4_pay3 (F := 𝕀) nrm acc (ValueIdx.ix2 r d) = acc (ValueIdx.ix2 r d) * nrm (ValueIdx.ix1 r) := by
  unfold k4_pay3
  show acc (ValueIdx.ix2 r d) * (broadcastTo S4096x64 (shapeCast S4096x1 (shapeCast S4096 nrm shapeCasts_S4096_S4096) shapeCasts_S4096_S4096x1)
    broadcasts_S4096x1_S4096x64) (ValueIdx.ix2 r d) = _
  congr 1
  refine (broadcastTo_apply _ _ (ValueIdx.ix2 r d) (ValueIdx.ix2 r (0 : Fin 1))
    (fun a => match a with | ⟨0, _⟩ => rfl | ⟨1, _⟩ => rfl)).trans ?_
  refine (shapeCast_apply _ _ (ValueIdx.ix2 r (0 : Fin 1)) (ValueIdx.ix1 r)
    (by rw [Shape.rowMajor_val_one, Shape.rowMajor_val_two]; show r.val = r.val * 1 + 0; omega)).trans ?_
  rw [shapeCast_self]

/-! ## (c) the tile test -/

theorem active_iff (j : Fin 49) (tmin tmax : BitVec 32) :
    Scalar.cmpi .ne (Scalar.extui (Scalar.andi
        (Scalar.cmpi .sle (Scalar.muli (BitVec.ofNat 32 j.val) 2048#32) tmax)
        (Scalar.cmpi .sgt (Scalar.addi (Scalar.muli (BitVec.ofNat 32 j.val) 2048#32) 2048#32) tmin))) 0#32 = 1#1
      ↔ (2048 * (j.val : Int) ≤ tmax.toInt ∧ tmin.toInt < 2048 * (j.val : Int) + 2048) := by
  have hj := j.isLt
  have h3 : (Scalar.muli (BitVec.ofNat 32 j.val) 2048#32).toInt = 2048 * (j.val : Int) := by
    rw [BitVec.toInt_eq_toNat_of_lt] <;> (simp only [Scalar.muli, IntOp.muli, BitVec.toNat_mul, BitVec.toNat_ofNat]; omega)
  have h4 : (Scalar.addi (Scalar.muli (BitVec.ofNat 32 j.val) 2048#32) 2048#32).toInt = 2048 * (j.val : Int) + 2048 := by
    rw [BitVec.toInt_eq_toNat_of_lt] <;> (simp only [Scalar.addi, IntOp.addi, Scalar.muli, IntOp.muli, BitVec.toNat_add, BitVec.toNat_mul, BitVec.toNat_ofNat]; omega)
  rw [Scalar.guard_iff, Scalar.andi, IntOp.andi_eq_one, Scalar.cmpi, Scalar.cmpi, IntOp.cmpi_sle, IntOp.cmpi_sgt, h3, h4]

end Cert.KernelIdeal.R4V
-- ==== Proof.R4Acc.lean ====
import proofs.«417346_j54202487276072_2_alg».proof.Proof.R4Pay

/-! The gather kernel's scratch accumulator along one edge block's run of 49 tiles, at the ideal values.

The accumulator is reset at the run's first tile and, at each tile the table test lets through, gains the product of the
tile's 0/1 matrix with the tile's node rows. When the two table words bound the block's ids, a tile the test skips holds
none of them, so after tile `j` row `r` holds the node row of its id when the id is below `2048 (j + 1)`, and zero
otherwise: each row meets its id's tile at most once. -/

noncomputable section

namespace Cert.KernelIdeal.R4V

open Idealize.ShloMosaic Idealize.SL.Sem Idealize.ShloMosaic.ValueIdx Cert.KernelIdeal Cert.KernelIdeal.Gen

local notation "𝕀" => Idealize.ShloMosaic.Ideal

/-- One tile's step at `(r, d)`: whether or not the test lets the tile through, the row gains the node row of its id
    exactly when the id lies in the tile (`H` is the node table read by id, `hhw` says the tile's block is its rows). -/
theorem step_apply (i : grid4.Coords) (C : Prop) {dC : Decidable C} (tmn tmx : BitVec 32)
    (hC : C ↔ (2048 * ((i 1).val : Int) ≤ tmx.toInt ∧ tmn.toInt < 2048 * ((i 1).val : Int) + 2048))
    (src : Vec 𝕀 S4096 .i32) (prev : Vec 𝕀 S4096x64 .f32) (hw : Vec 𝕀 S2048x64 .f32) (r : Fin 4096) (d : Fin 64)
    (H : ℕ → EReal) (hhw : ∀ m : Fin 2048, hw (ValueIdx.ix2 m d) = H (2048 * (i 1).val + m.val))
    (hb : tmn.toInt ≤ (src (ValueIdx.ix1 r)).toInt ∧ (src (ValueIdx.ix1 r)).toInt ≤ tmx.toInt) :
    (@ite _ C dC (k4_pay2 (F := 𝕀) i src prev hw) prev) (ValueIdx.ix2 r d)
      = prev (ValueIdx.ix2 r d)
        + (if 2048 * (i 1).val ≤ (src (ValueIdx.ix1 r)).toNat ∧ (src (ValueIdx.ix1 r)).toNat < 2048 * (i 1).val + 2048
            then H (src (ValueIdx.ix1 r)).toNat else 0) := by
  have hj : (i 1).val < 49 := (i 1).isLt
  by_cases hc : C
  · rw [if_pos hc, pay2_apply]
    congr 1
    by_cases h : 2048 * (i 1).val ≤ (src (ValueIdx.ix1 r)).toNat ∧ (src (ValueIdx.ix1 r)).toNat < 2048 * (i 1).val + 2048
    · rw [dif_pos h, if_pos h, hhw]
      congr 1
      show 2048 * (i 1).val + ((src (ValueIdx.ix1 r)).toNat - 2048 * (i 1).val) = _
      omega
    · rw [dif_neg h, if_neg h]
  · rw [if_neg hc, if_neg, add_zero]
    rintro ⟨h1, h2⟩
    apply hc; rw [hC]
    have hs : (src (ValueIdx.ix1 r)).toInt = ((src (ValueIdx.ix1 r)).toNat : Int) :=
      BitVec.toInt_eq_toNat_of_lt (by omega)
    rw [hs] at hb
    constructor <;> omega

/-- Ids below tile `j` already counted, plus tile `j`'s own: ids below tile `j + 1`. -/
theorem combine (j s : ℕ) (x : EReal) :
    (if s < 2048 * j then x else 0) + (if 2048 * j ≤ s ∧ s < 2048 * j + 2048 then x else 0)
      = if s < 2048 * (j + 1) then x else 0 := by
  by_cases h1 : s < 2048 * j
  · rw [if_pos h1, if_neg (by omega), add_zero, if_pos (by omega)]
  · rw [if_neg h1, zero_add]
    by_cases h2 : s < 2048 * j + 2048
    · rw [if_pos ⟨by omega, h2⟩, if_pos (by omega)]
    · rw [if_neg (by omega), if_neg (by omega)]

/-- THE RUN. `X` is the accumulator after each grid point, given by its two equations (reset at a run's first tile,
    stepped from the point before elsewhere); `S e` the ids of edge block `e`, `H` the node table by id. After point
    `n` (block `n / 49`, tile `n % 49`) row `r` holds its id's node row when the id is below `2048 (n % 49 + 1)`. -/
theorem acc_apply {N : ℕ}
    (X : (n : ℕ) → n < N → Vec 𝕀 S4096x64 .f32)
    (I : (n : ℕ) → n < N → grid4.Coords)
    (C : (n : ℕ) → n < N → Prop) {dC : ∀ n h, Decidable (C n h)}
    (SRC : (n : ℕ) → n < N → Vec 𝕀 S4096 .i32) (HW : (n : ℕ) → n < N → Vec 𝕀 S2048x64 .f32)
    (tmn tmx : (n : ℕ) → n < N → BitVec 32)
    (hI : ∀ n h, ((I n h) 1).val = n % 49)
    (hC : ∀ n h, C n h ↔ (2048 * (((I n h) 1).val : Int) ≤ (tmx n h).toInt
      ∧ (tmn n h).toInt < 2048 * (((I n h) 1).val : Int) + 2048))
    (hfirst : ∀ n h, n % 49 = 0 →
      X n h = @ite _ (C n h) (dC n h) (k4_pay2 (F := 𝕀) (I n h) (SRC n h) (k4_pay1 (F := 𝕀)) (HW n h)) (k4_pay1 (F := 𝕀)))
    (hnext : ∀ n h (h0 : n % 49 ≠ 0),
      X n h = @ite _ (C n h) (dC n h) (k4_pay2 (F := 𝕀) (I n h) (SRC n h) (X (n - 1) (by omega)) (HW n h)) (X (n - 1) (by omega)))
    (S : ℕ → Fin 4096 → BitVec 32) (H : ℕ → Fin 64 → EReal)
    (hSRC : ∀ n h r, SRC n h (ValueIdx.ix1 r) = S (n / 49) r)
    (hHW : ∀ n h (m : Fin 2048) (d : Fin 64), HW n h (ValueIdx.ix2 m d) = H (2048 * (n % 49) + m.val) d)
    (hb : ∀ n h r, (tmn n h).toInt ≤ (S (n / 49) r).toInt ∧ (S (n / 49) r).toInt ≤ (tmx n h).toInt) :
    ∀ n h (r : Fin 4096) (d : Fin 64), X n h (ValueIdx.ix2 r d)
      = if (S (n / 49) r).toNat < 2048 * (n % 49 + 1) then H (S (n / 49) r).toNat d else 0 := by
  -- one step at point `n`, from any previous contents `prev`
  have step : ∀ n h (prev : Vec 𝕀 S4096x64 .f32) (r : Fin 4096) (d : Fin 64),
      (@ite _ (C n h) (dC n h) (k4_pay2 (F := 𝕀) (I n h) (SRC n h) prev (HW n h)) prev) (ValueIdx.ix2 r d)
        = prev (ValueIdx.ix2 r d)
          + (if 2048 * (n % 49) ≤ (S (n / 49) r).toNat ∧ (S (n / 49) r).toNat < 2048 * (n % 49) + 2048
              then H (S (n / 49) r).toNat d else 0) := by
    intro n h prev r d
    have e := step_apply (I n h) (C n h) (dC := dC n h) (tmn n h) (tmx n h) (hC n h) (SRC n h) prev (HW n h) r d
      (fun k => H k d) (fun m => by rw [hHW n h m d, hI n h]) (by rw [hSRC n h r]; exact hb n h r)
    rw [hSRC n h r, hI n h] at e
    exact e
  intro n
  induction n with
  | zero =>
    intro h r d
    rw [hfirst 0 h rfl, step 0 h, pay1_apply, zero_add]
    have := combine 0 (S (0 / 49) r).toNat (H (S (0 / 49) r).toNat d)
    rw [if_neg (by omega), zero_add] at this
    exact this
  | succ n ih =>
    intro h r d
    by_cases h0 : (n + 1) % 49 = 0
    · rw [hfirst (n + 1) h h0, step (n + 1) h, pay1_apply, zero_add, h0]
      have := combine 0 (S ((n + 1) / 49) r).toNat (H (S ((n + 1) / 49) r).toNat d)
      rw [if_neg (by omega), zero_add] at this
      exact this
    · have e1 : (n + 1) / 49 = n / 49 := by omega
      have e2 : (n + 1) % 49 = n % 49 + 1 := by omega
      have hp : (X (n + 1 - 1) (by omega)) (ValueIdx.ix2 r d)
          = if (S (n / 49) r).toNat < 2048 * (n % 49 + 1) then H (S (n / 49) r).toNat d else 0 := ih (by omega) r d
      rw [hnext (n + 1) h h0, step (n + 1) h, hp, e1, e2]
      exact combine (n % 49 + 1) (S (n / 49) r).toNat (H (S (n / 49) r).toNat d)

end Cert.KernelIdeal.R4V
-- ==== Proof.R4Value.lean ====
import proofs.«417346_j54202487276072_2_alg».proof.Proof.Gen.KernelIdeal.Launch
import proofs.«417346_j54202487276072_2_alg».proof.Proof.R4Sched
import proofs.«417346_j54202487276072_2_alg».proof.Proof.R4Acc
import Idealize.ShloMosaic.Lib.ValueIdx
import Idealize.ShloMosaic.Lib.Pipeline.Value

/-! The gather region's value at the ideal values.

Point t of the grid is (edge block t / 49, node tile t % 49). Each window's block sits in its array at the block index
times the block's extent, so a block read at an element is the array read at the element's place. The accumulator's
closed form along an edge block's 49 tiles, with the output window left at the accumulator scaled row by row by the
edges' weights and written back at the last tile, gives every output row: the node row of the edge's source id (zero when
the id is past the node range), times the edge's weight. The rows are covered because row k lies in the block written
back at point 49 (k / 4096) + 48. -/

noncomputable section
namespace Cert.KernelIdeal.R4V
open Cert.KernelIdeal Cert.KernelIdeal.Gen
open Idealize.ShloMosaic Idealize.ShloMosaic.TcCoe
open Idealize.SL Idealize.SL.Sem
open Idealize.ShloMosaic.Pipeline (Dat)
local notation "𝕀" => Idealize.ShloMosaic.Ideal

section Blocks
variable {F : FTy → Type} [FloatOps F]
variable (a : (pcfg4 (F := F)).Adm)
/-- Where element r of the ids' block at point t sits in the array. -/
theorem embSrc (t : Fin (cfg4 a).N) (hidx : ((cfg4 a).win 0).index t = ![t.val / 49]) (r : Fin 4096)
    (hr : 4096 * (t.val / 49) + r.val < 1601536) :
    (((cfg4 a).win 0).blk t).view.emb (ValueIdx.ix1 r) = (ValueIdx.ix1 (⟨4096 * (t.val / 49) + r.val, hr⟩ : Fin 1601536)) := by
  funext x
  match x with
  | ⟨0, _⟩ =>
    apply Fin.ext
    have e := Pipeline.Window.rect_emb_val ((cfg4 a).win 0) t (ValueIdx.ix1 r) ⟨0, Nat.one_pos⟩
    rw [hidx] at e
    exact e.trans (by show t.val / 49 * 4096 + r.val = 4096 * (t.val / 49) + r.val; omega)

theorem embNrm (t : Fin (cfg4 a).N) (hidx : ((cfg4 a).win 1).index t = ![t.val / 49]) (r : Fin 4096)
    (hr : 4096 * (t.val / 49) + r.val < 1601536) :
    (((cfg4 a).win 1).blk t).view.emb (ValueIdx.ix1 r) = (ValueIdx.ix1 (⟨4096 * (t.val / 49) + r.val, hr⟩ : Fin 1601536)) := by
  funext x
  match x with
  | ⟨0, _⟩ =>
    apply Fin.ext
    have e := Pipeline.Window.rect_emb_val ((cfg4 a).win 1) t (ValueIdx.ix1 r) ⟨0, Nat.one_pos⟩
    rw [hidx] at e
    exact e.trans (by show t.val / 49 * 4096 + r.val = 4096 * (t.val / 49) + r.val; omega)

/-- Where element (m, d) of the node block at point t sits in the node array. -/
theorem embHw (t : Fin (cfg4 a).N) (hidx : ((cfg4 a).win 2).index t = ![t.val % 49, 0]) (m : Fin 2048) (d : Fin 64)
    (hm : 2048 * (t.val % 49) + m.val < 100352) :
    (((cfg4 a).win 2).blk t).view.emb (ValueIdx.ix2 m d)
      = (ValueIdx.ix2 (⟨2048 * (t.val % 49) + m.val, hm⟩ : Fin 100352) d) := by
  funext x
  match x with
  | ⟨0, _⟩ =>
    apply Fin.ext
    have e := Pipeline.Window.rect_emb_val ((cfg4 a).win 2) t (ValueIdx.ix2 m d) ⟨0, Nat.two_pos⟩
    rw [hidx] at e
    exact e.trans (by show t.val % 49 * 2048 + m.val = 2048 * (t.val % 49) + m.val; omega)
  | ⟨1, _⟩ =>
    apply Fin.ext
    have e := Pipeline.Window.rect_emb_val ((cfg4 a).win 2) t (ValueIdx.ix2 m d) ⟨1, Nat.one_lt_two⟩
    rw [hidx] at e
    exact e.trans (by show 0 * _ + d.val = d.val; rw [Nat.zero_mul, Nat.zero_add])

/-- Where element (r, d) of the output block at point t sits in the output array. -/
theorem embOut (t : Fin (cfg4 a).N) (hidx : ((cfg4 a).win 3).index t = ![t.val / 49, 0]) (r : Fin 4096) (d : Fin 64)
    (hr : 4096 * (t.val / 49) + r.val < 1601536) :
    (((cfg4 a).win 3).blk t).view.emb (ValueIdx.ix2 r d)
      = (ValueIdx.ix2 (⟨4096 * (t.val / 49) + r.val, hr⟩ : Fin 1601536) d) := by
  funext x
  match x with
  | ⟨0, _⟩ =>
    apply Fin.ext
    have e := Pipeline.Window.rect_emb_val ((cfg4 a).win 3) t (ValueIdx.ix2 r d) ⟨0, Nat.two_pos⟩
    rw [hidx] at e
    exact e.trans (by show t.val / 49 * 4096 + r.val = 4096 * (t.val / 49) + r.val; omega)
  | ⟨1, _⟩ =>
    apply Fin.ext
    have e := Pipeline.Window.rect_emb_val ((cfg4 a).win 3) t (ValueIdx.ix2 r d) ⟨1, Nat.one_lt_two⟩
    rw [hidx] at e
    exact e.trans (by show 0 * _ + d.val = d.val; rw [Nat.zero_mul, Nat.zero_add])

/-- A block read at an element is the array at the element's place. -/
theorem readSrc (V : (c : Dev nD) → (b : Ref sig .tc) → Buf (Elt F) ((c : Thread nD τ).loc b)) (c : Dev nD)
    (t : Fin (cfg4 a).N) (hidx : ((cfg4 a).win 0).index t = ![t.val / 49]) (r : Fin 4096)
    (hr : 4096 * (t.val / 49) + r.val < 1601536) :
    (((cfg4 a).win 0).blk t).view.read (Elt F) (V c (Pipeline.arrRef spec4 0)) (ValueIdx.ix1 r)
      = (V c (Pipeline.arrRef spec4 0)) (ValueIdx.ix1 (⟨4096 * (t.val / 49) + r.val, hr⟩ : Fin 1601536)) :=
  congrArg (V c (Pipeline.arrRef spec4 0)) (embSrc a t hidx r hr)

theorem readHw (V : (c : Dev nD) → (b : Ref sig .tc) → Buf (Elt F) ((c : Thread nD τ).loc b)) (c : Dev nD)
    (t : Fin (cfg4 a).N) (hidx : ((cfg4 a).win 2).index t = ![t.val % 49, 0]) (m : Fin 2048) (d : Fin 64)
    (hm : 2048 * (t.val % 49) + m.val < 100352) :
    (((cfg4 a).win 2).blk t).view.read (Elt F) (V c (Pipeline.arrRef spec4 2)) (ValueIdx.ix2 m d)
      = (V c (Pipeline.arrRef spec4 2)) (ValueIdx.ix2 (⟨2048 * (t.val % 49) + m.val, hm⟩ : Fin 100352) d) :=
  congrArg (V c (Pipeline.arrRef spec4 2)) (embHw a t hidx m d hm)

end Blocks

/-! ## The expected output -/

/-- Row `k` of the gathered array: the node row of edge `k`'s source id (zero when the id is past the padded node
    range), scaled by the edge's weight. -/
def gath (src : S1601536.Idx → BitVec 32) (nrm : S1601536.Idx → EReal) (hw : S100352x64.Idx → EReal) :
    S1601536x64.Idx → EReal :=
  fun i => (if h : (src (ValueIdx.ix1 (i 0))).toNat < 100352 then hw (ValueIdx.ix2 ⟨(src (ValueIdx.ix1 (i 0))).toNat, h⟩ (i 1)) else 0)
    * nrm (ValueIdx.ix1 (i 0))

/-- `gath` at a row and a column. -/
theorem gath_apply (src : S1601536.Idx → BitVec 32) (nrm : S1601536.Idx → EReal) (hw : S100352x64.Idx → EReal)
    (k : Fin 1601536) (d : Fin 64) :
    gath src nrm hw (ValueIdx.ix2 k d)
      = (if h : (src (ValueIdx.ix1 k)).toNat < 100352 then hw (ValueIdx.ix2 ⟨(src (ValueIdx.ix1 k)).toNat, h⟩ d) else 0)
        * nrm (ValueIdx.ix1 k) := rfl

section Glue

variable (V : (c : Dev nD) → (b : Ref sig .tc) → Buf (Elt 𝕀) ((c : Thread nD τ).loc b))
variable (a : (pcfg4 (F := 𝕀)).Adm) (c : Dev nD)

/-- The three input blocks at a point, typed. -/
abbrev srcBlk (t : Fin (cfg4 a).N) : Vec 𝕀 S4096 .i32 := (((cfg4 a).win 0).blk t).view.read (Elt 𝕀) (V c (Pipeline.arrRef spec4 0))
abbrev nrmBlk (t : Fin (cfg4 a).N) : Vec 𝕀 S4096 .f32 := (((cfg4 a).win 1).blk t).view.read (Elt 𝕀) (V c (Pipeline.arrRef spec4 1))
abbrev hwBlk (t : Fin (cfg4 a).N) : Vec 𝕀 S2048x64 .f32 := (((cfg4 a).win 2).blk t).view.read (Elt 𝕀) (V c (Pipeline.arrRef spec4 2))

/-- THE REGION'S VALUE, from the proof data's equations: any accumulator family `X` that is reset at a run's first tile and
    stepped elsewhere, with the output window left at the scaled accumulator at each run's last tile, ends with the output array at `gath` when the
    two table words bound each edge block's ids. -/
theorem out_eq_of
    (dat : Dat τ (Elt 𝕀) Unit ℕ (UR sig nD τ) ℕ (cfg4 a) c)
    (X : (n : ℕ) → n < (cfg4 a).N → Vec 𝕀 S4096x64 .f32)
    (act : grid4.Coords → Prop) {dact : ∀ i, Decidable (act i)} (mx mn : grid4.Coords → BitVec 32)
    (hact : ∀ i, act i ↔ (2048 * ((i 1).val : Int) ≤ (mx i).toInt ∧ (mn i).toInt < 2048 * ((i 1).val : Int) + 2048))
    (hafter : ∀ t : Fin (cfg4 a).N, t.val % 49 = 48 → dat.after 3 t = k4_pay3 (F := 𝕀) (nrmBlk V a c t) (X t.val t.isLt))
    (hfirst : ∀ (t : Fin (cfg4 a).N), (grid4.coords t 1).val = 0 →
      X t.val t.isLt = @ite _ (act (grid4.coords t)) (dact _)
        (k4_pay2 (F := 𝕀) (grid4.coords t) (srcBlk V a c t) (k4_pay1 (F := 𝕀)) (hwBlk V a c t)) (k4_pay1 (F := 𝕀)))
    (hnext : ∀ (t : Fin (cfg4 a).N) (hk : (grid4.coords t 1).val ≠ 0),
      X t.val t.isLt = @ite _ (act (grid4.coords t)) (dact _)
        (k4_pay2 (F := 𝕀) (grid4.coords t) (srcBlk V a c t) (X (t.val - 1) (by have := t.isLt; omega)) (hwBlk V a c t))
        (X (t.val - 1) (by have := t.isLt; omega)))
    (hb : ∀ (t : Fin (cfg4 a).N) (r : Fin 4096) (hr : 4096 * (t.val / 49) + r.val < 1601536),
      (mn (grid4.coords t)).toInt ≤ ((V c main_v52) (ValueIdx.ix1 (⟨4096 * (t.val / 49) + r.val, hr⟩ : Fin 1601536))).toInt
        ∧ ((V c main_v52) (ValueIdx.ix1 (⟨4096 * (t.val / 49) + r.val, hr⟩ : Fin 1601536))).toInt ≤ (mx (grid4.coords t)).toInt) :
    dat.arrAt 3 (cfg4 a).N = gath (V c main_v52) (V c main_v59) (V c main_v96) := by
  have hN : (cfg4 a).N = 19159 := N_4
  -- the ids of edge block `e`, and the node table by id, as total functions
  let S : ℕ → Fin 4096 → BitVec 32 := fun e r =>
    if h : 4096 * e + r.val < 1601536 then (V c main_v52) (ValueIdx.ix1 (⟨4096 * e + r.val, h⟩ : Fin 1601536)) else 0#32
  let H : ℕ → Fin 64 → EReal := fun k d =>
    if h : k < 100352 then (V c main_v96) (ValueIdx.ix2 (⟨k, h⟩ : Fin 100352) d) else 0
  have hrow : ∀ (n : ℕ) (h : n < (cfg4 a).N) (r : Fin 4096), 4096 * (n / 49) + r.val < 1601536 := fun n h r => by
    have := r.isLt; omega
  have hS : ∀ (n : ℕ) (h : n < (cfg4 a).N) (r : Fin 4096),
      S (n / 49) r = (V c main_v52) (ValueIdx.ix1 (⟨4096 * (n / 49) + r.val, hrow n h r⟩ : Fin 1601536)) := fun n h r =>
    dif_pos (hrow n h r)
  -- the accumulator in closed form
  have hacc := acc_apply (N := (cfg4 a).N) X (fun n h => grid4.coords ⟨n, h⟩) (fun n h => act (grid4.coords ⟨n, h⟩))
    (dC := fun n h => dact _) (fun n h => srcBlk V a c ⟨n, h⟩) (fun n h => hwBlk V a c ⟨n, h⟩)
    (fun n h => mn (grid4.coords ⟨n, h⟩)) (fun n h => mx (grid4.coords ⟨n, h⟩))
    (fun n h => R4.coords4_1 ⟨n, h⟩) (fun n h => hact _)
    (fun n h h0 => hfirst ⟨n, h⟩ ((R4.coords4_1 ⟨n, h⟩).trans h0))
    (fun n h h0 => hnext ⟨n, h⟩ (fun e => h0 ((R4.coords4_1 ⟨n, h⟩).symm.trans e)))
    S H
    (fun n h r => (readSrc a V c ⟨n, h⟩ (R4.idx4_0 a ⟨n, h⟩) r (hrow n h r)).trans (hS n h r).symm)
    (fun n h m d => by
      have hm : 2048 * (n % 49) + m.val < 100352 := by have := m.isLt; omega
      have e : H (2048 * (n % 49) + m.val) d = (V c main_v96) (ValueIdx.ix2 (⟨2048 * (n % 49) + m.val, hm⟩ : Fin 100352) d) := dif_pos hm
      exact (readHw a V c ⟨n, h⟩ (R4.idx4_2 a ⟨n, h⟩) m d hm).trans e.symm)
    (fun n h r => by rw [hS n h r]; exact hb ⟨n, h⟩ r (hrow n h r))
  refine dat.arrAt_eq_of_cover 3 (gath (V c main_v52) (V c main_v59) (V c main_v96)) (fun t hf => ?_) (fun i => ?_)
  · -- what a flushing point writes back is its block of `gath`
    have h48 : t.val % 49 = 48 := (R4.flush4_3 a t).mp hf
    funext y
    obtain ⟨r, d, rfl⟩ : ∃ (r : Fin 4096) (d : Fin 64), y = ValueIdx.ix2 r d := ⟨_, _, ValueIdx.eq_ix2 y⟩
    have hr := hrow t.val t.isLt r
    have hL : dat.flushed 3 t (ValueIdx.ix2 r d)
        = X t.val t.isLt (ValueIdx.ix2 r d) * (V c main_v59) (ValueIdx.ix1 (⟨4096 * (t.val / 49) + r.val, hr⟩ : Fin 1601536)) :=
      (congrFun (hafter t h48) (ValueIdx.ix2 r d)).trans ((pay3_apply _ _ r d).trans
        (congrArg (X t.val t.isLt (ValueIdx.ix2 r d) * ·) (congrArg (V c (Pipeline.arrRef spec4 1)) (embNrm a t (R4.idx4_1 a t) r hr))))
    have hR : (((cfg4 a).win 3).blk t).view.read (Elt 𝕀) (gath (V c main_v52) (V c main_v59) (V c main_v96)) (ValueIdx.ix2 r d)
        = gath (V c main_v52) (V c main_v59) (V c main_v96) (ValueIdx.ix2 (⟨4096 * (t.val / 49) + r.val, hr⟩ : Fin 1601536) d) :=
      congrArg (gath (V c main_v52) (V c main_v59) (V c main_v96)) (embOut a t (R4.idx4_3 a t) r d hr)
    rw [hL, hR, hacc t.val t.isLt r d, h48, hS t.val t.isLt r]
    show _ = (if h : ((V c main_v52) (ValueIdx.ix1 (⟨4096 * (t.val / 49) + r.val, hr⟩ : Fin 1601536))).toNat < 100352 then _ else 0) * _
    congr 1
    by_cases h : ((V c main_v52) (ValueIdx.ix1 (⟨4096 * (t.val / 49) + r.val, hr⟩ : Fin 1601536))).toNat < 100352
    · rw [if_pos (by omega), dif_pos h]; exact dif_pos h
    · rw [if_neg (by omega), dif_neg h]
  · -- every output row lies in the block written back at its edge block's last tile
    obtain ⟨k, d, rfl⟩ : ∃ (k : Fin 1601536) (d : Fin 64), i = ValueIdx.ix2 k d := ⟨_, _, ValueIdx.eq_ix2 i⟩
    have hk := k.isLt
    let t : Fin (cfg4 a).N := ⟨49 * (k.val / 4096) + 48, by omega⟩
    have hq : t.val / 49 = k.val / 4096 := by show (49 * (k.val / 4096) + 48) / 49 = _; omega
    have hr : 4096 * (t.val / 49) + k.val % 4096 < 1601536 := by rw [hq]; omega
    refine ⟨t, (R4.flush4_3 a t).mpr (by show (49 * (k.val / 4096) + 48) % 49 = 48; omega), ?_⟩
    have hm := (((cfg4 a).win 3).blk t).view.emb_mem_set (ValueIdx.ix2 (⟨k.val % 4096, Nat.mod_lt _ (by norm_num)⟩ : Fin 4096) d)
    have he := embOut a t (R4.idx4_3 a t) (⟨k.val % 4096, Nat.mod_lt _ (by norm_num)⟩ : Fin 4096) d hr
    have hkk : (⟨4096 * (t.val / 49) + k.val % 4096, hr⟩ : Fin 1601536) = k := Fin.ext (by show 4096 * (t.val / 49) + k.val % 4096 = k.val; rw [hq]; omega)
    rw [he, hkk] at hm
    exact hm

end Glue

end Cert.KernelIdeal.R4V
-- ==== Proof.R4Out.lean ====
import proofs.«417346_j54202487276072_2_alg».proof.Proof.R4Frame
import proofs.«417346_j54202487276072_2_alg».proof.Proof.R4Value

/-! The gather region's output array at the ideal values, for the region's proof data.

The two words the body loads at a point are the entries of the two tables at the point's edge block, and its tile test is
the comparison of the tile's id range with them. So when the tables bound each edge block's ids the output array ends at
the gathered rows: the node row of each edge's source id, times the edge's weight. -/

noncomputable section

namespace Cert.KernelIdeal.R4V

open Cert.KernelIdeal Cert.KernelIdeal.Gen
open Idealize.ShloMosaic Idealize.ShloMosaic.TcCoe
open Idealize.SL Idealize.SL.Sem

local notation "𝕀" => Idealize.ShloMosaic.Ideal

variable (V : (c : Dev nD) → (b : Ref sig .tc) → Buf (Elt 𝕀) ((c : Thread nD τ).loc b))
variable (a : (pcfg4 (F := 𝕀)).Adm) (c : Dev nD)

/-- The edges' source ids, and the two tables' entries at an edge block, at their word types. -/
abbrev srcV : (⟨1, ![1601536]⟩ : Shape).Idx → BitVec 32 := V c main_v52
abbrev tminV (k : Fin 391) : BitVec 32 := (a.1 0) (ValueIdx.ix1 k)
abbrev tmaxV (k : Fin 391) : BitVec 32 := (a.1 1) (ValueIdx.ix1 k)

/-- The word of the least-id table loaded at a point is the table's entry at the point's edge block. -/
theorem wMin4_eq (i : grid4.Coords) :
    R4.wMin4 a i = tminV a ⟨(i 0).val, (i 0).isLt⟩ := by
  refine congrArg (a.1 0) ?_
  funext x
  match x with
  | ⟨0, _⟩ =>
    apply Fin.ext
    show (k4_off1 i) ⟨0, Nat.one_pos⟩ + 1 * 0 = (i 0).val
    rw [k4_off1_eq]; rfl

/-- The word of the greatest-id table likewise. -/
theorem wMax4_eq (i : grid4.Coords) :
    R4.wMax4 a i = tmaxV a ⟨(i 0).val, (i 0).isLt⟩ := by
  refine congrArg (a.1 1) ?_
  funext x
  match x with
  | ⟨0, _⟩ =>
    apply Fin.ext
    show (k4_off1 i) ⟨0, Nat.one_pos⟩ + 1 * 0 = (i 0).val
    rw [k4_off1_eq]; rfl

/-- The step is taken exactly when the tile's id range meets the range between the two words, as signed integers. -/
theorem act4_iff (i : grid4.Coords) :
    R4.act4 a i ↔ (2048 * ((i 1).val : Int) ≤ (R4.wMax4 a i).toInt ∧ (R4.wMin4 a i).toInt < 2048 * ((i 1).val : Int) + 2048) :=
  active_iff (i 1) (R4.wMin4 a i) (R4.wMax4 a i)

/-- The output array, when the two words loaded at each point bound the point's edge block's ids. -/
theorem out_eq_words
    (hb : ∀ (t : Fin (cfg4 a).N) (r : Fin 4096) (hr : 4096 * (t.val / 49) + r.val < 1601536),
      (R4.wMin4 a (grid4.coords t)).toInt ≤ ((V c main_v52) (ValueIdx.ix1 (⟨4096 * (t.val / 49) + r.val, hr⟩ : Fin 1601536))).toInt
        ∧ ((V c main_v52) (ValueIdx.ix1 (⟨4096 * (t.val / 49) + r.val, hr⟩ : Fin 1601536))).toInt ≤ (R4.wMax4 a (grid4.coords t)).toInt) :
    (R4.dat4 V a c).arrAt 3 (cfg4 a).N = gath (V c main_v52) (V c main_v59) (V c main_v96) :=
  out_eq_of V a c (R4.dat4 V a c) (R4.accAt4 V a c) (R4.act4 a) (R4.wMax4 a) (R4.wMin4 a) (act4_iff a)
    (fun t _ => R4.after4_3 V a c t) (R4.accAt4_first V a c) (R4.accAt4_next V a c) hb

/-- THE OUTPUT ARRAY, when entry `k` of the first table is at most, and entry `k` of the second at least, every id of edge
    block `k` (rows `4096 k … 4096 k + 4095`). -/
theorem out_eq
    (hb : ∀ (k : Fin 391) (r : Fin 4096),
      (tminV a k).toInt
          ≤ (srcV V c (ValueIdx.ix1 ⟨4096 * k.val + r.val, by have := k.isLt; have := r.isLt; omega⟩)).toInt
        ∧ (srcV V c (ValueIdx.ix1 ⟨4096 * k.val + r.val, by have := k.isLt; have := r.isLt; omega⟩)).toInt
          ≤ (tmaxV a k).toInt) :
    (R4.dat4 V a c).arrAt 3 (cfg4 a).N = gath (V c main_v52) (V c main_v59) (V c main_v96) := by
  refine out_eq_words V a c fun t r hr => ?_
  have hN : (cfg4 a).N = 19159 := N_4
  have he : t.val / 49 < 391 := by have := t.isLt; omega
  have h0 : (⟨(grid4.coords t 0).val, (grid4.coords t 0).isLt⟩ : Fin 391) = ⟨t.val / 49, he⟩ := Fin.ext (R4.coords4_0 t)
  rw [wMin4_eq, wMax4_eq, h0]
  exact hb ⟨t.val / 49, he⟩ r

/-- The output array at a row and a column (`gath_apply` reads the right side). -/
theorem out_apply
    (hb : ∀ (k : Fin 391) (r : Fin 4096),
      (tminV a k).toInt
          ≤ (srcV V c (ValueIdx.ix1 ⟨4096 * k.val + r.val, by have := k.isLt; have := r.isLt; omega⟩)).toInt
        ∧ (srcV V c (ValueIdx.ix1 ⟨4096 * k.val + r.val, by have := k.isLt; have := r.isLt; omega⟩)).toInt
          ≤ (tmaxV a k).toInt)
    (n : Fin 1601536) (d : Fin 64) :
    (R4.dat4 V a c).arrAt 3 (cfg4 a).N (ValueIdx.ix2 n d)
      = gath (V c main_v52) (V c main_v59) (V c main_v96) (ValueIdx.ix2 n d) :=
  congrFun (out_eq V a c hb) (ValueIdx.ix2 n d)

end Cert.KernelIdeal.R4V
-- ==== Proof.R7Pay.lean ====
import proofs.«417346_j54202487276072_2_alg».proof.Proof.Gen.KernelIdeal.Skeleton
import Idealize.ShloMosaic.Lib.ValueIdx
import Idealize.ShloMosaic.Lib.ValueLayout
import Idealize.ShloMosaic.Lib.Pipeline.Value
import Idealize.ShloMosaic.Lib.Affine
import Idealize.ShloMosaic.PureOps.Ideal.Laws

/-! The gather kernel's three payloads read at an index, at the ideal values.

The accumulator update adds, to row `r`, the product of a 0/1 matrix with the tile's block of node rows: entry
`(r, n)` of the matrix is `1` exactly when the row's node id is the tile's `n`-th id, so the product's row is the
node's row when the id lies in the tile and zero otherwise. The output payload scales each row by its weight. The
tile test compares the tile's id range with the two table words as signed integers. -/

noncomputable section

namespace Cert.KernelIdeal.R7V

open Idealize.ShloMosaic Idealize.SL.Sem Idealize.ShloMosaic.ValueIdx Cert.KernelIdeal Cert.KernelIdeal.Gen

local notation "𝕀" => Idealize.ShloMosaic.Ideal

/-! ## The tile's ids -/

/-- The id of column `n` of tile `j`, as the kernel forms it: `n + j * 2048` in 32-bit words. -/
def colId (j : Nat) (n : Nat) : BitVec 32 :=
  IntOp.addi (BitVec.ofNat 32 n) (Scalar.muli (BitVec.ofNat 32 j) 2048#32)

/-- No wrap-around: there are 49 tiles of 2048 ids. -/
theorem colId_toNat {j n : Nat} (hj : j < 49) (hn : n < 2048) : (colId j n).toNat = 2048 * j + n := by
  simp only [colId, IntOp.addi, Scalar.muli, IntOp.muli, BitVec.toNat_add, BitVec.toNat_mul, BitVec.toNat_ofNat]
  omega

/-! ## The 0/1 matrix -/

/-- An equality bit widened to 32 bits and converted to a float is `1` or `0`. -/
theorem sitofp_eqbit (a b : BitVec 32) :
    (FloatOps.sitofp (F := 𝕀) .f32 ((IntOp.cmpi .eq a b).setWidth 32) : EReal) = if a = b then 1 else 0 := by
  show ((((IntOp.cmpi .eq a b).setWidth 32).toInt : ℝ) : EReal) = _
  by_cases h : a = b
  · rw [if_pos h, IntOp.cmpi_eq.mpr h, show ((1#1 : BitVec 1).setWidth 32).toInt = 1 from by decide]
    simp
  · rw [if_neg h, eq_zero_of_ne_one (mt IntOp.cmpi_eq.mp h), show ((0#1 : BitVec 1).setWidth 32).toInt = 0 from by decide]
    simp

/-- The row ids broadcast along the columns: entry `(r, n)` is row `r`'s id. -/
theorem rowIds_apply (src : Vec 𝕀 S4096 .i32) (r : Fin 4096) (n : Fin 2048) :
    broadcastTo S4096x2048 (shapeCast S4096x1 src shapeCasts_S4096_S4096x1)
        broadcasts_S4096x1_S4096x2048 (ValueIdx.ix2 r n) = src (ValueIdx.ix1 r) := by
  refine (broadcastTo_apply _ _ (ValueIdx.ix2 r n) (ValueIdx.ix2 r (0 : Fin 1))
    (fun a => match a with | ⟨0, _⟩ => rfl | ⟨1, _⟩ => rfl)).trans ?_
  exact shapeCast_apply _ _ (ValueIdx.ix2 r (0 : Fin 1)) (ValueIdx.ix1 r)
    (by rw [Shape.rowMajor_val_one, Shape.rowMajor_val_two]; show r.val = r.val * 1 + 0; omega)

/-- The tile's ids broadcast down the rows: entry `(r, n)` is the tile's `n`-th id. -/
theorem colIds_apply (j : Nat) (r : Fin 4096) (n : Fin 2048) :
    broadcastTo S4096x2048 (addi (iota .tc S1x2048 32 [1] iota_S1x2048_d1_w32)
        (broadcast S1x2048 (Scalar.muli (BitVec.ofNat 32 j) 2048#32))) broadcasts_S1x2048_S4096x2048 (ValueIdx.ix2 r n)
      = colId j n.val := by
  refine (broadcastTo_apply _ _ (ValueIdx.ix2 r n) (ValueIdx.ix2 (0 : Fin 1) n)
    (fun a => match a with | ⟨0, _⟩ => rfl | ⟨1, _⟩ => rfl)).trans ?_
  show IntOp.addi (iota .tc S1x2048 32 [1] iota_S1x2048_d1_w32 (ValueIdx.ix2 (0 : Fin 1) n)) _ = _
  rw [iota_single_apply]
  rfl

/-! ## The product's operand indices -/

local notation "𝔻" => dot_S4096x2048_S2048x32_S4096x32_1_0_0_1_n_n

/-- The contraction index is the column of the matrix: one axis of extent 2048. -/
def contrE : (𝔻).contr.Idx ≃ Fin 2048 := contrEquiv1 𝔻 2048 rfl rfl

theorem lhsIdx_eq (r : Fin 4096) (d : Fin 32) (n : Fin 2048) :
    (𝔻).lhsIdx (ValueIdx.ix2 r d) (contrE.symm n) = ValueIdx.ix2 r n :=
  Shape.idx_ext₂ rfl ((rfl : (((𝔻).lhsIdx (ValueIdx.ix2 r d) (contrE.symm n)) 1 : ℕ) = ((contrE.symm n) ⟨0, by decide⟩ : ℕ)).trans
    (contrEquiv1_symm_val 𝔻 2048 rfl rfl n))

theorem rhsIdx_eq (r : Fin 4096) (d : Fin 32) (n : Fin 2048) :
    (𝔻).rhsIdx (ValueIdx.ix2 r d) (contrE.symm n) = ValueIdx.ix2 n d :=
  Shape.idx_ext₂ ((rfl : (((𝔻).rhsIdx (ValueIdx.ix2 r d) (contrE.symm n)) 0 : ℕ) = ((contrE.symm n) ⟨0, by decide⟩ : ℕ)).trans
    (contrEquiv1_symm_val 𝔻 2048 rfl rfl n)) rfl

/-! ## A 0/1 selector's sum -/

/-- Over one tile's columns at most one id equals `s`: the sum keeps that column's term, or is zero. -/
theorem sum_onehot {j : Nat} (hj : j < 49) (s : BitVec 32) (f : Fin 2048 → EReal) :
    (∑ n : Fin 2048, (if s = colId j n.val then (1 : EReal) else 0) * f n)
      = if h : 2048 * j ≤ s.toNat ∧ s.toNat < 2048 * j + 2048 then f ⟨s.toNat - 2048 * j, by omega⟩ else 0 := by
  have key : ∀ n : Fin 2048, s = colId j n.val ↔ s.toNat = 2048 * j + n.val := fun n => by
    rw [← BitVec.toNat_inj, colId_toNat hj n.isLt]
  simp only [key]
  split_ifs with h
  · rw [Finset.sum_eq_single (⟨s.toNat - 2048 * j, by omega⟩ : Fin 2048)]
    · rw [if_pos (by show s.toNat = 2048 * j + (s.toNat - 2048 * j); omega), one_mul]
    · intro n _ hn
      rw [if_neg, zero_mul]
      intro e; apply hn; apply Fin.ext; show n.val = s.toNat - 2048 * j; omega
    · intro h'; exact absurd (Finset.mem_univ _) h'
  · refine Finset.sum_eq_zero fun n _ => ?_
    rw [if_neg, zero_mul]
    intro e; apply h; have := n.isLt; omega

/-! ## (a) the accumulator update -/

theorem pay2_sum (i : grid7.Coords) (src : Vec 𝕀 S4096 .i32) (acc : Vec 𝕀 S4096x32 .f32) (hw : Vec 𝕀 S2048x32 .f32)
    (r : Fin 4096) (d : Fin 32) :
    k7_pay2 (F := 𝕀) i src acc hw (ValueIdx.ix2 r d)
      = acc (ValueIdx.ix2 r d) + ∑ n : Fin 2048,
          (if src (ValueIdx.ix1 r) = colId (i 1).val n.val then (1 : EReal) else 0) * hw (ValueIdx.ix2 n d) := by
  unfold k7_pay2
  simp only [shapeCast_self]
  rw [addf_apply]
  congr 1
  simp only [matmul]
  rw [Ideal.matmul_constant_zero_apply]
  refine (Equiv.sum_comp contrE.symm _).symm.trans ?_
  refine Finset.sum_congr rfl fun n _ => ?_
  rw [lhsIdx_eq, rhsIdx_eq]
  congr 1
  show FloatOps.sitofp (F := 𝕀) .f32 ((IntOp.cmpi .eq (broadcastTo S4096x2048 _ broadcasts_S4096x1_S4096x2048 (ValueIdx.ix2 r n))
    (broadcastTo S4096x2048 _ broadcasts_S1x2048_S4096x2048 (ValueIdx.ix2 r n))).setWidth 32) = _
  rw [rowIds_apply, colIds_apply, sitofp_eqbit]

/-- (a): the update adds the node's row when row `r`'s id lies in tile `i 1`, and nothing otherwise. -/
theorem pay2_apply (i : grid7.Coords) (src : Vec 𝕀 S4096 .i32) (acc : Vec 𝕀 S4096x32 .f32) (hw : Vec 𝕀 S2048x32 .f32)
    (r : Fin 4096) (d : Fin 32) :
    k7_pay2 (F := 𝕀) i src acc hw (ValueIdx.ix2 r d)
      = acc (ValueIdx.ix2 r d)
        + (if h : 2048 * (i 1).val ≤ (src (ValueIdx.ix1 r)).toNat ∧ (src (ValueIdx.ix1 r)).toNat < 2048 * (i 1).val + 2048
            then hw (ValueIdx.ix2 ⟨(src (ValueIdx.ix1 r)).toNat - 2048 * (i 1).val, by omega⟩ d) else 0) := by
  rw [pay2_sum, sum_onehot (show (i 1).val < 49 from (i 1).isLt) (src (ValueIdx.ix1 r)) (fun n => hw (ValueIdx.ix2 n d))]

/-- The reset payload is zero everywhere. -/
theorem pay1_apply (x : S4096x32.Idx) : k7_pay1 (F := 𝕀) x = 0 := by
  unfold k7_pay1
  simp only [shapeCast_self]
  show Ideal.ofBits .f32 0x00000000#32 = 0
  exact Ideal.ofBits_zero_f32

/-! ## (b) the output payload -/

theorem pay3_apply (nrm : Vec 𝕀 S4096 .f32) (acc : Vec 𝕀 S4096x32 .f32) (r : Fin 4096) (d : Fin 32) :
    k7_pay3 (F := 𝕀) nrm acc (ValueIdx.ix2 r d) = acc (ValueIdx.ix2 r d) * nrm (ValueIdx.ix1 r) := by
  unfold k7_pay3
  show acc (ValueIdx.ix2 r d) * (broadcastTo S4096x32 (shapeCast S4096x1 (shapeCast S4096 nrm shapeCasts_S4096_S4096) shapeCasts_S4096_S4096x1)
    broadcasts_S4096x1_S4096x32) (ValueIdx.ix2 r d) = _
  congr 1
  refine (broadcastTo_apply _ _ (ValueIdx.ix2 r d) (ValueIdx.ix2 r (0 : Fin 1))
    (fun a => match a with | ⟨0, _⟩ => rfl | ⟨1, _⟩ => rfl)).trans ?_
  refine (shapeCast_apply _ _ (ValueIdx.ix2 r (0 : Fin 1)) (ValueIdx.ix1 r)
    (by rw [Shape.rowMajor_val_one, Shape.rowMajor_val_two]; show r.val = r.val * 1 + 0; omega)).trans ?_
  rw [shapeCast_self]

/-! ## (c) the tile test -/

theorem active_iff (j : Fin 49) (tmin tmax : BitVec 32) :
    Scalar.cmpi .ne (Scalar.extui (Scalar.andi
        (Scalar.cmpi .sle (Scalar.muli (BitVec.ofNat 32 j.val) 2048#32) tmax)
        (Scalar.cmpi .sgt (Scalar.addi (Scalar.muli (BitVec.ofNat 32 j.val) 2048#32) 2048#32) tmin))) 0#32 = 1#1
      ↔ (2048 * (j.val : Int) ≤ tmax.toInt ∧ tmin.toInt < 2048 * (j.val : Int) + 2048) := by
  have hj := j.isLt
  have h3 : (Scalar.muli (BitVec.ofNat 32 j.val) 2048#32).toInt = 2048 * (j.val : Int) := by
    rw [BitVec.toInt_eq_toNat_of_lt] <;> (simp only [Scalar.muli, IntOp.muli, BitVec.toNat_mul, BitVec.toNat_ofNat]; omega)
  have h4 : (Scalar.addi (Scalar.muli (BitVec.ofNat 32 j.val) 2048#32) 2048#32).toInt = 2048 * (j.val : Int) + 2048 := by
    rw [BitVec.toInt_eq_toNat_of_lt] <;> (simp only [Scalar.addi, IntOp.addi, Scalar.muli, IntOp.muli, BitVec.toNat_add, BitVec.toNat_mul, BitVec.toNat_ofNat]; omega)
  rw [Scalar.guard_iff, Scalar.andi, IntOp.andi_eq_one, Scalar.cmpi, Scalar.cmpi, IntOp.cmpi_sle, IntOp.cmpi_sgt, h3, h4]

end Cert.KernelIdeal.R7V
-- ==== Proof.R7Acc.lean ====
import proofs.«417346_j54202487276072_2_alg».proof.Proof.R7Pay

/-! The gather kernel's scratch accumulator along one edge block's run of 49 tiles, at the ideal values.

The accumulator is reset at the run's first tile and, at each tile the table test lets through, gains the product of the
tile's 0/1 matrix with the tile's node rows. When the two table words bound the block's ids, a tile the test skips holds
none of them, so after tile `j` row `r` holds the node row of its id when the id is below `2048 (j + 1)`, and zero
otherwise: each row meets its id's tile at most once. -/

noncomputable section

namespace Cert.KernelIdeal.R7V

open Idealize.ShloMosaic Idealize.SL.Sem Idealize.ShloMosaic.ValueIdx Cert.KernelIdeal Cert.KernelIdeal.Gen

local notation "𝕀" => Idealize.ShloMosaic.Ideal

/-- One tile's step at `(r, d)`: whether or not the test lets the tile through, the row gains the node row of its id
    exactly when the id lies in the tile (`H` is the node table read by id, `hhw` says the tile's block is its rows). -/
theorem step_apply (i : grid7.Coords) (C : Prop) {dC : Decidable C} (tmn tmx : BitVec 32)
    (hC : C ↔ (2048 * ((i 1).val : Int) ≤ tmx.toInt ∧ tmn.toInt < 2048 * ((i 1).val : Int) + 2048))
    (src : Vec 𝕀 S4096 .i32) (prev : Vec 𝕀 S4096x32 .f32) (hw : Vec 𝕀 S2048x32 .f32) (r : Fin 4096) (d : Fin 32)
    (H : ℕ → EReal) (hhw : ∀ m : Fin 2048, hw (ValueIdx.ix2 m d) = H (2048 * (i 1).val + m.val))
    (hb : tmn.toInt ≤ (src (ValueIdx.ix1 r)).toInt ∧ (src (ValueIdx.ix1 r)).toInt ≤ tmx.toInt) :
    (@ite _ C dC (k7_pay2 (F := 𝕀) i src prev hw) prev) (ValueIdx.ix2 r d)
      = prev (ValueIdx.ix2 r d)
        + (if 2048 * (i 1).val ≤ (src (ValueIdx.ix1 r)).toNat ∧ (src (ValueIdx.ix1 r)).toNat < 2048 * (i 1).val + 2048
            then H (src (ValueIdx.ix1 r)).toNat else 0) := by
  have hj : (i 1).val < 49 := (i 1).isLt
  by_cases hc : C
  · rw [if_pos hc, pay2_apply]
    congr 1
    by_cases h : 2048 * (i 1).val ≤ (src (ValueIdx.ix1 r)).toNat ∧ (src (ValueIdx.ix1 r)).toNat < 2048 * (i 1).val + 2048
    · rw [dif_pos h, if_pos h, hhw]
      congr 1
      show 2048 * (i 1).val + ((src (ValueIdx.ix1 r)).toNat - 2048 * (i 1).val) = _
      omega
    · rw [dif_neg h, if_neg h]
  · rw [if_neg hc, if_neg, add_zero]
    rintro ⟨h1, h2⟩
    apply hc; rw [hC]
    have hs : (src (ValueIdx.ix1 r)).toInt = ((src (ValueIdx.ix1 r)).toNat : Int) :=
      BitVec.toInt_eq_toNat_of_lt (by omega)
    rw [hs] at hb
    constructor <;> omega

/-- Ids below tile `j` already counted, plus tile `j`'s own: ids below tile `j + 1`. -/
theorem combine (j s : ℕ) (x : EReal) :
    (if s < 2048 * j then x else 0) + (if 2048 * j ≤ s ∧ s < 2048 * j + 2048 then x else 0)
      = if s < 2048 * (j + 1) then x else 0 := by
  by_cases h1 : s < 2048 * j
  · rw [if_pos h1, if_neg (by omega), add_zero, if_pos (by omega)]
  · rw [if_neg h1, zero_add]
    by_cases h2 : s < 2048 * j + 2048
    · rw [if_pos ⟨by omega, h2⟩, if_pos (by omega)]
    · rw [if_neg (by omega), if_neg (by omega)]

/-- THE RUN. `X` is the accumulator after each grid point, given by its two equations (reset at a run's first tile,
    stepped from the point before elsewhere); `S e` the ids of edge block `e`, `H` the node table by id. After point
    `n` (block `n / 49`, tile `n % 49`) row `r` holds its id's node row when the id is below `2048 (n % 49 + 1)`. -/
theorem acc_apply {N : ℕ}
    (X : (n : ℕ) → n < N → Vec 𝕀 S4096x32 .f32)
    (I : (n : ℕ) → n < N → grid7.Coords)
    (C : (n : ℕ) → n < N → Prop) {dC : ∀ n h, Decidable (C n h)}
    (SRC : (n : ℕ) → n < N → Vec 𝕀 S4096 .i32) (HW : (n : ℕ) → n < N → Vec 𝕀 S2048x32 .f32)
    (tmn tmx : (n : ℕ) → n < N → BitVec 32)
    (hI : ∀ n h, ((I n h) 1).val = n % 49)
    (hC : ∀ n h, C n h ↔ (2048 * (((I n h) 1).val : Int) ≤ (tmx n h).toInt
      ∧ (tmn n h).toInt < 2048 * (((I n h) 1).val : Int) + 2048))
    (hfirst : ∀ n h, n % 49 = 0 →
      X n h = @ite _ (C n h) (dC n h) (k7_pay2 (F := 𝕀) (I n h) (SRC n h) (k7_pay1 (F := 𝕀)) (HW n h)) (k7_pay1 (F := 𝕀)))
    (hnext : ∀ n h (h0 : n % 49 ≠ 0),
      X n h = @ite _ (C n h) (dC n h) (k7_pay2 (F := 𝕀) (I n h) (SRC n h) (X (n - 1) (by omega)) (HW n h)) (X (n - 1) (by omega)))
    (S : ℕ → Fin 4096 → BitVec 32) (H : ℕ → Fin 32 → EReal)
    (hSRC : ∀ n h r, SRC n h (ValueIdx.ix1 r) = S (n / 49) r)
    (hHW : ∀ n h (m : Fin 2048) (d : Fin 32), HW n h (ValueIdx.ix2 m d) = H (2048 * (n % 49) + m.val) d)
    (hb : ∀ n h r, (tmn n h).toInt ≤ (S (n / 49) r).toInt ∧ (S (n / 49) r).toInt ≤ (tmx n h).toInt) :
    ∀ n h (r : Fin 4096) (d : Fin 32), X n h (ValueIdx.ix2 r d)
      = if (S (n / 49) r).toNat < 2048 * (n % 49 + 1) then H (S (n / 49) r).toNat d else 0 := by
  -- one step at point `n`, from any previous contents `prev`
  have step : ∀ n h (prev : Vec 𝕀 S4096x32 .f32) (r : Fin 4096) (d : Fin 32),
      (@ite _ (C n h) (dC n h) (k7_pay2 (F := 𝕀) (I n h) (SRC n h) prev (HW n h)) prev) (ValueIdx.ix2 r d)
        = prev (ValueIdx.ix2 r d)
          + (if 2048 * (n % 49) ≤ (S (n / 49) r).toNat ∧ (S (n / 49) r).toNat < 2048 * (n % 49) + 2048
              then H (S (n / 49) r).toNat d else 0) := by
    intro n h prev r d
    have e := step_apply (I n h) (C n h) (dC := dC n h) (tmn n h) (tmx n h) (hC n h) (SRC n h) prev (HW n h) r d
      (fun k => H k d) (fun m => by rw [hHW n h m d, hI n h]) (by rw [hSRC n h r]; exact hb n h r)
    rw [hSRC n h r, hI n h] at e
    exact e
  intro n
  induction n with
  | zero =>
    intro h r d
    rw [hfirst 0 h rfl, step 0 h, pay1_apply, zero_add]
    have := combine 0 (S (0 / 49) r).toNat (H (S (0 / 49) r).toNat d)
    rw [if_neg (by omega), zero_add] at this
    exact this
  | succ n ih =>
    intro h r d
    by_cases h0 : (n + 1) % 49 = 0
    · rw [hfirst (n + 1) h h0, step (n + 1) h, pay1_apply, zero_add, h0]
      have := combine 0 (S ((n + 1) / 49) r).toNat (H (S ((n + 1) / 49) r).toNat d)
      rw [if_neg (by omega), zero_add] at this
      exact this
    · have e1 : (n + 1) / 49 = n / 49 := by omega
      have e2 : (n + 1) % 49 = n % 49 + 1 := by omega
      have hp : (X (n + 1 - 1) (by omega)) (ValueIdx.ix2 r d)
          = if (S (n / 49) r).toNat < 2048 * (n % 49 + 1) then H (S (n / 49) r).toNat d else 0 := ih (by omega) r d
      rw [hnext (n + 1) h h0, step (n + 1) h, hp, e1, e2]
      exact combine (n % 49 + 1) (S (n / 49) r).toNat (H (S (n / 49) r).toNat d)

end Cert.KernelIdeal.R7V
-- ==== Proof.R7Value.lean ====
import proofs.«417346_j54202487276072_2_alg».proof.Proof.Gen.KernelIdeal.Launch
import proofs.«417346_j54202487276072_2_alg».proof.Proof.R7Sched
import proofs.«417346_j54202487276072_2_alg».proof.Proof.R7Acc
import Idealize.ShloMosaic.Lib.ValueIdx
import Idealize.ShloMosaic.Lib.Pipeline.Value

/-! The gather region's value at the ideal values.

Point t of the grid is (edge block t / 49, node tile t % 49). Each window's block sits in its array at the block index
times the block's extent, so a block read at an element is the array read at the element's place. The accumulator's
closed form along an edge block's 49 tiles, with the output window left at the accumulator scaled row by row by the
edges' weights and written back at the last tile, gives every output row: the node row of the edge's source id (zero when
the id is past the node range), times the edge's weight. The rows are covered because row k lies in the block written
back at point 49 (k / 4096) + 48. -/

noncomputable section
namespace Cert.KernelIdeal.R7V
open Cert.KernelIdeal Cert.KernelIdeal.Gen
open Idealize.ShloMosaic Idealize.ShloMosaic.TcCoe
open Idealize.SL Idealize.SL.Sem
open Idealize.ShloMosaic.Pipeline (Dat)
local notation "𝕀" => Idealize.ShloMosaic.Ideal

section Blocks
variable {F : FTy → Type} [FloatOps F]
variable (a : (pcfg7 (F := F)).Adm)
/-- Where element r of the ids' block at point t sits in the array. -/
theorem embSrc (t : Fin (cfg7 a).N) (hidx : ((cfg7 a).win 0).index t = ![t.val / 49]) (r : Fin 4096)
    (hr : 4096 * (t.val / 49) + r.val < 1601536) :
    (((cfg7 a).win 0).blk t).view.emb (ValueIdx.ix1 r) = (ValueIdx.ix1 (⟨4096 * (t.val / 49) + r.val, hr⟩ : Fin 1601536)) := by
  funext x
  match x with
  | ⟨0, _⟩ =>
    apply Fin.ext
    have e := Pipeline.Window.rect_emb_val ((cfg7 a).win 0) t (ValueIdx.ix1 r) ⟨0, Nat.one_pos⟩
    rw [hidx] at e
    exact e.trans (by show t.val / 49 * 4096 + r.val = 4096 * (t.val / 49) + r.val; omega)

theorem embNrm (t : Fin (cfg7 a).N) (hidx : ((cfg7 a).win 1).index t = ![t.val / 49]) (r : Fin 4096)
    (hr : 4096 * (t.val / 49) + r.val < 1601536) :
    (((cfg7 a).win 1).blk t).view.emb (ValueIdx.ix1 r) = (ValueIdx.ix1 (⟨4096 * (t.val / 49) + r.val, hr⟩ : Fin 1601536)) := by
  funext x
  match x with
  | ⟨0, _⟩ =>
    apply Fin.ext
    have e := Pipeline.Window.rect_emb_val ((cfg7 a).win 1) t (ValueIdx.ix1 r) ⟨0, Nat.one_pos⟩
    rw [hidx] at e
    exact e.trans (by show t.val / 49 * 4096 + r.val = 4096 * (t.val / 49) + r.val; omega)

/-- Where element (m, d) of the node block at point t sits in the node array. -/
theorem embHw (t : Fin (cfg7 a).N) (hidx : ((cfg7 a).win 2).index t = ![t.val % 49, 0]) (m : Fin 2048) (d : Fin 32)
    (hm : 2048 * (t.val % 49) + m.val < 100352) :
    (((cfg7 a).win 2).blk t).view.emb (ValueIdx.ix2 m d)
      = (ValueIdx.ix2 (⟨2048 * (t.val % 49) + m.val, hm⟩ : Fin 100352) d) := by
  funext x
  match x with
  | ⟨0, _⟩ =>
    apply Fin.ext
    have e := Pipeline.Window.rect_emb_val ((cfg7 a).win 2) t (ValueIdx.ix2 m d) ⟨0, Nat.two_pos⟩
    rw [hidx] at e
    exact e.trans (by show t.val % 49 * 2048 + m.val = 2048 * (t.val % 49) + m.val; omega)
  | ⟨1, _⟩ =>
    apply Fin.ext
    have e := Pipeline.Window.rect_emb_val ((cfg7 a).win 2) t (ValueIdx.ix2 m d) ⟨1, Nat.one_lt_two⟩
    rw [hidx] at e
    exact e.trans (by show 0 * _ + d.val = d.val; rw [Nat.zero_mul, Nat.zero_add])

/-- Where element (r, d) of the output block at point t sits in the output array. -/
theorem embOut (t : Fin (cfg7 a).N) (hidx : ((cfg7 a).win 3).index t = ![t.val / 49, 0]) (r : Fin 4096) (d : Fin 32)
    (hr : 4096 * (t.val / 49) + r.val < 1601536) :
    (((cfg7 a).win 3).blk t).view.emb (ValueIdx.ix2 r d)
      = (ValueIdx.ix2 (⟨4096 * (t.val / 49) + r.val, hr⟩ : Fin 1601536) d) := by
  funext x
  match x with
  | ⟨0, _⟩ =>
    apply Fin.ext
    have e := Pipeline.Window.rect_emb_val ((cfg7 a).win 3) t (ValueIdx.ix2 r d) ⟨0, Nat.two_pos⟩
    rw [hidx] at e
    exact e.trans (by show t.val / 49 * 4096 + r.val = 4096 * (t.val / 49) + r.val; omega)
  | ⟨1, _⟩ =>
    apply Fin.ext
    have e := Pipeline.Window.rect_emb_val ((cfg7 a).win 3) t (ValueIdx.ix2 r d) ⟨1, Nat.one_lt_two⟩
    rw [hidx] at e
    exact e.trans (by show 0 * _ + d.val = d.val; rw [Nat.zero_mul, Nat.zero_add])

/-- A block read at an element is the array at the element's place. -/
theorem readSrc (V : (c : Dev nD) → (b : Ref sig .tc) → Buf (Elt F) ((c : Thread nD τ).loc b)) (c : Dev nD)
    (t : Fin (cfg7 a).N) (hidx : ((cfg7 a).win 0).index t = ![t.val / 49]) (r : Fin 4096)
    (hr : 4096 * (t.val / 49) + r.val < 1601536) :
    (((cfg7 a).win 0).blk t).view.read (Elt F) (V c (Pipeline.arrRef spec7 0)) (ValueIdx.ix1 r)
      = (V c (Pipeline.arrRef spec7 0)) (ValueIdx.ix1 (⟨4096 * (t.val / 49) + r.val, hr⟩ : Fin 1601536)) :=
  congrArg (V c (Pipeline.arrRef spec7 0)) (embSrc a t hidx r hr)

theorem readHw (V : (c : Dev nD) → (b : Ref sig .tc) → Buf (Elt F) ((c : Thread nD τ).loc b)) (c : Dev nD)
    (t : Fin (cfg7 a).N) (hidx : ((cfg7 a).win 2).index t = ![t.val % 49, 0]) (m : Fin 2048) (d : Fin 32)
    (hm : 2048 * (t.val % 49) + m.val < 100352) :
    (((cfg7 a).win 2).blk t).view.read (Elt F) (V c (Pipeline.arrRef spec7 2)) (ValueIdx.ix2 m d)
      = (V c (Pipeline.arrRef spec7 2)) (ValueIdx.ix2 (⟨2048 * (t.val % 49) + m.val, hm⟩ : Fin 100352) d) :=
  congrArg (V c (Pipeline.arrRef spec7 2)) (embHw a t hidx m d hm)

end Blocks

/-! ## The expected output -/

/-- Row `k` of the gathered array: the node row of edge `k`'s source id (zero when the id is past the padded node
    range), scaled by the edge's weight. -/
def gath (src : S1601536.Idx → BitVec 32) (nrm : S1601536.Idx → EReal) (hw : S100352x32.Idx → EReal) :
    S1601536x32.Idx → EReal :=
  fun i => (if h : (src (ValueIdx.ix1 (i 0))).toNat < 100352 then hw (ValueIdx.ix2 ⟨(src (ValueIdx.ix1 (i 0))).toNat, h⟩ (i 1)) else 0)
    * nrm (ValueIdx.ix1 (i 0))

/-- `gath` at a row and a column. -/
theorem gath_apply (src : S1601536.Idx → BitVec 32) (nrm : S1601536.Idx → EReal) (hw : S100352x32.Idx → EReal)
    (k : Fin 1601536) (d : Fin 32) :
    gath src nrm hw (ValueIdx.ix2 k d)
      = (if h : (src (ValueIdx.ix1 k)).toNat < 100352 then hw (ValueIdx.ix2 ⟨(src (ValueIdx.ix1 k)).toNat, h⟩ d) else 0)
        * nrm (ValueIdx.ix1 k) := rfl

section Glue

variable (V : (c : Dev nD) → (b : Ref sig .tc) → Buf (Elt 𝕀) ((c : Thread nD τ).loc b))
variable (a : (pcfg7 (F := 𝕀)).Adm) (c : Dev nD)

/-- The three input blocks at a point, typed. -/
abbrev srcBlk (t : Fin (cfg7 a).N) : Vec 𝕀 S4096 .i32 := (((cfg7 a).win 0).blk t).view.read (Elt 𝕀) (V c (Pipeline.arrRef spec7 0))
abbrev nrmBlk (t : Fin (cfg7 a).N) : Vec 𝕀 S4096 .f32 := (((cfg7 a).win 1).blk t).view.read (Elt 𝕀) (V c (Pipeline.arrRef spec7 1))
abbrev hwBlk (t : Fin (cfg7 a).N) : Vec 𝕀 S2048x32 .f32 := (((cfg7 a).win 2).blk t).view.read (Elt 𝕀) (V c (Pipeline.arrRef spec7 2))

/-- THE REGION'S VALUE, from the proof data's equations: any accumulator family `X` that is reset at a run's first tile and
    stepped elsewhere, with the output window left at the scaled accumulator at each run's last tile, ends with the output array at `gath` when the
    two table words bound each edge block's ids. -/
theorem out_eq_of
    (dat : Dat τ (Elt 𝕀) Unit ℕ (UR sig nD τ) ℕ (cfg7 a) c)
    (X : (n : ℕ) → n < (cfg7 a).N → Vec 𝕀 S4096x32 .f32)
    (act : grid7.Coords → Prop) {dact : ∀ i, Decidable (act i)} (mx mn : grid7.Coords → BitVec 32)
    (hact : ∀ i, act i ↔ (2048 * ((i 1).val : Int) ≤ (mx i).toInt ∧ (mn i).toInt < 2048 * ((i 1).val : Int) + 2048))
    (hafter : ∀ t : Fin (cfg7 a).N, t.val % 49 = 48 → dat.after 3 t = k7_pay3 (F := 𝕀) (nrmBlk V a c t) (X t.val t.isLt))
    (hfirst : ∀ (t : Fin (cfg7 a).N), (grid7.coords t 1).val = 0 →
      X t.val t.isLt = @ite _ (act (grid7.coords t)) (dact _)
        (k7_pay2 (F := 𝕀) (grid7.coords t) (srcBlk V a c t) (k7_pay1 (F := 𝕀)) (hwBlk V a c t)) (k7_pay1 (F := 𝕀)))
    (hnext : ∀ (t : Fin (cfg7 a).N) (hk : (grid7.coords t 1).val ≠ 0),
      X t.val t.isLt = @ite _ (act (grid7.coords t)) (dact _)
        (k7_pay2 (F := 𝕀) (grid7.coords t) (srcBlk V a c t) (X (t.val - 1) (by have := t.isLt; omega)) (hwBlk V a c t))
        (X (t.val - 1) (by have := t.isLt; omega)))
    (hb : ∀ (t : Fin (cfg7 a).N) (r : Fin 4096) (hr : 4096 * (t.val / 49) + r.val < 1601536),
      (mn (grid7.coords t)).toInt ≤ ((V c main_v52) (ValueIdx.ix1 (⟨4096 * (t.val / 49) + r.val, hr⟩ : Fin 1601536))).toInt
        ∧ ((V c main_v52) (ValueIdx.ix1 (⟨4096 * (t.val / 49) + r.val, hr⟩ : Fin 1601536))).toInt ≤ (mx (grid7.coords t)).toInt) :
    dat.arrAt 3 (cfg7 a).N = gath (V c main_v52) (V c main_v59) (V c main_v109) := by
  have hN : (cfg7 a).N = 19159 := N_7
  -- the ids of edge block `e`, and the node table by id, as total functions
  let S : ℕ → Fin 4096 → BitVec 32 := fun e r =>
    if h : 4096 * e + r.val < 1601536 then (V c main_v52) (ValueIdx.ix1 (⟨4096 * e + r.val, h⟩ : Fin 1601536)) else 0#32
  let H : ℕ → Fin 32 → EReal := fun k d =>
    if h : k < 100352 then (V c main_v109) (ValueIdx.ix2 (⟨k, h⟩ : Fin 100352) d) else 0
  have hrow : ∀ (n : ℕ) (h : n < (cfg7 a).N) (r : Fin 4096), 4096 * (n / 49) + r.val < 1601536 := fun n h r => by
    have := r.isLt; omega
  have hS : ∀ (n : ℕ) (h : n < (cfg7 a).N) (r : Fin 4096),
      S (n / 49) r = (V c main_v52) (ValueIdx.ix1 (⟨4096 * (n / 49) + r.val, hrow n h r⟩ : Fin 1601536)) := fun n h r =>
    dif_pos (hrow n h r)
  -- the accumulator in closed form
  have hacc := acc_apply (N := (cfg7 a).N) X (fun n h => grid7.coords ⟨n, h⟩) (fun n h => act (grid7.coords ⟨n, h⟩))
    (dC := fun n h => dact _) (fun n h => srcBlk V a c ⟨n, h⟩) (fun n h => hwBlk V a c ⟨n, h⟩)
    (fun n h => mn (grid7.coords ⟨n, h⟩)) (fun n h => mx (grid7.coords ⟨n, h⟩))
    (fun n h => R7.coords7_1 ⟨n, h⟩) (fun n h => hact _)
    (fun n h h0 => hfirst ⟨n, h⟩ ((R7.coords7_1 ⟨n, h⟩).trans h0))
    (fun n h h0 => hnext ⟨n, h⟩ (fun e => h0 ((R7.coords7_1 ⟨n, h⟩).symm.trans e)))
    S H
    (fun n h r => (readSrc a V c ⟨n, h⟩ (R7.idx7_0 a ⟨n, h⟩) r (hrow n h r)).trans (hS n h r).symm)
    (fun n h m d => by
      have hm : 2048 * (n % 49) + m.val < 100352 := by have := m.isLt; omega
      have e : H (2048 * (n % 49) + m.val) d = (V c main_v109) (ValueIdx.ix2 (⟨2048 * (n % 49) + m.val, hm⟩ : Fin 100352) d) := dif_pos hm
      exact (readHw a V c ⟨n, h⟩ (R7.idx7_2 a ⟨n, h⟩) m d hm).trans e.symm)
    (fun n h r => by rw [hS n h r]; exact hb ⟨n, h⟩ r (hrow n h r))
  refine dat.arrAt_eq_of_cover 3 (gath (V c main_v52) (V c main_v59) (V c main_v109)) (fun t hf => ?_) (fun i => ?_)
  · -- what a flushing point writes back is its block of `gath`
    have h48 : t.val % 49 = 48 := (R7.flush7_3 a t).mp hf
    funext y
    obtain ⟨r, d, rfl⟩ : ∃ (r : Fin 4096) (d : Fin 32), y = ValueIdx.ix2 r d := ⟨_, _, ValueIdx.eq_ix2 y⟩
    have hr := hrow t.val t.isLt r
    have hL : dat.flushed 3 t (ValueIdx.ix2 r d)
        = X t.val t.isLt (ValueIdx.ix2 r d) * (V c main_v59) (ValueIdx.ix1 (⟨4096 * (t.val / 49) + r.val, hr⟩ : Fin 1601536)) :=
      (congrFun (hafter t h48) (ValueIdx.ix2 r d)).trans ((pay3_apply _ _ r d).trans
        (congrArg (X t.val t.isLt (ValueIdx.ix2 r d) * ·) (congrArg (V c (Pipeline.arrRef spec7 1)) (embNrm a t (R7.idx7_1 a t) r hr))))
    have hR : (((cfg7 a).win 3).blk t).view.read (Elt 𝕀) (gath (V c main_v52) (V c main_v59) (V c main_v109)) (ValueIdx.ix2 r d)
        = gath (V c main_v52) (V c main_v59) (V c main_v109) (ValueIdx.ix2 (⟨4096 * (t.val / 49) + r.val, hr⟩ : Fin 1601536) d) :=
      congrArg (gath (V c main_v52) (V c main_v59) (V c main_v109)) (embOut a t (R7.idx7_3 a t) r d hr)
    rw [hL, hR, hacc t.val t.isLt r d, h48, hS t.val t.isLt r]
    show _ = (if h : ((V c main_v52) (ValueIdx.ix1 (⟨4096 * (t.val / 49) + r.val, hr⟩ : Fin 1601536))).toNat < 100352 then _ else 0) * _
    congr 1
    by_cases h : ((V c main_v52) (ValueIdx.ix1 (⟨4096 * (t.val / 49) + r.val, hr⟩ : Fin 1601536))).toNat < 100352
    · rw [if_pos (by omega), dif_pos h]; exact dif_pos h
    · rw [if_neg (by omega), dif_neg h]
  · -- every output row lies in the block written back at its edge block's last tile
    obtain ⟨k, d, rfl⟩ : ∃ (k : Fin 1601536) (d : Fin 32), i = ValueIdx.ix2 k d := ⟨_, _, ValueIdx.eq_ix2 i⟩
    have hk := k.isLt
    let t : Fin (cfg7 a).N := ⟨49 * (k.val / 4096) + 48, by omega⟩
    have hq : t.val / 49 = k.val / 4096 := by show (49 * (k.val / 4096) + 48) / 49 = _; omega
    have hr : 4096 * (t.val / 49) + k.val % 4096 < 1601536 := by rw [hq]; omega
    refine ⟨t, (R7.flush7_3 a t).mpr (by show (49 * (k.val / 4096) + 48) % 49 = 48; omega), ?_⟩
    have hm := (((cfg7 a).win 3).blk t).view.emb_mem_set (ValueIdx.ix2 (⟨k.val % 4096, Nat.mod_lt _ (by norm_num)⟩ : Fin 4096) d)
    have he := embOut a t (R7.idx7_3 a t) (⟨k.val % 4096, Nat.mod_lt _ (by norm_num)⟩ : Fin 4096) d hr
    have hkk : (⟨4096 * (t.val / 49) + k.val % 4096, hr⟩ : Fin 1601536) = k := Fin.ext (by show 4096 * (t.val / 49) + k.val % 4096 = k.val; rw [hq]; omega)
    rw [he, hkk] at hm
    exact hm

end Glue

end Cert.KernelIdeal.R7V
-- ==== Proof.R7Out.lean ====
import proofs.«417346_j54202487276072_2_alg».proof.Proof.R7Frame
import proofs.«417346_j54202487276072_2_alg».proof.Proof.R7Value

/-! The gather region's output array at the ideal values, for the region's proof data.

The two words the body loads at a point are the entries of the two tables at the point's edge block, and its tile test is
the comparison of the tile's id range with them. So when the tables bound each edge block's ids the output array ends at
the gathered rows: the node row of each edge's source id, times the edge's weight. -/

noncomputable section

namespace Cert.KernelIdeal.R7V

open Cert.KernelIdeal Cert.KernelIdeal.Gen
open Idealize.ShloMosaic Idealize.ShloMosaic.TcCoe
open Idealize.SL Idealize.SL.Sem

local notation "𝕀" => Idealize.ShloMosaic.Ideal

variable (V : (c : Dev nD) → (b : Ref sig .tc) → Buf (Elt 𝕀) ((c : Thread nD τ).loc b))
variable (a : (pcfg7 (F := 𝕀)).Adm) (c : Dev nD)

/-- The edges' source ids, and the two tables' entries at an edge block, at their word types. -/
abbrev srcV : (⟨1, ![1601536]⟩ : Shape).Idx → BitVec 32 := V c main_v52
abbrev tminV (k : Fin 391) : BitVec 32 := (a.1 0) (ValueIdx.ix1 k)
abbrev tmaxV (k : Fin 391) : BitVec 32 := (a.1 1) (ValueIdx.ix1 k)

/-- The word of the least-id table loaded at a point is the table's entry at the point's edge block. -/
theorem wMin7_eq (i : grid7.Coords) :
    R7.wMin7 a i = tminV a ⟨(i 0).val, (i 0).isLt⟩ := by
  refine congrArg (a.1 0) ?_
  funext x
  match x with
  | ⟨0, _⟩ =>
    apply Fin.ext
    show (k7_off1 i) ⟨0, Nat.one_pos⟩ + 1 * 0 = (i 0).val
    rw [k7_off1_eq]; rfl

/-- The word of the greatest-id table likewise. -/
theorem wMax7_eq (i : grid7.Coords) :
    R7.wMax7 a i = tmaxV a ⟨(i 0).val, (i 0).isLt⟩ := by
  refine congrArg (a.1 1) ?_
  funext x
  match x with
  | ⟨0, _⟩ =>
    apply Fin.ext
    show (k7_off1 i) ⟨0, Nat.one_pos⟩ + 1 * 0 = (i 0).val
    rw [k7_off1_eq]; rfl

/-- The step is taken exactly when the tile's id range meets the range between the two words, as signed integers. -/
theorem act7_iff (i : grid7.Coords) :
    R7.act7 a i ↔ (2048 * ((i 1).val : Int) ≤ (R7.wMax7 a i).toInt ∧ (R7.wMin7 a i).toInt < 2048 * ((i 1).val : Int) + 2048) :=
  active_iff (i 1) (R7.wMin7 a i) (R7.wMax7 a i)

/-- The output array, when the two words loaded at each point bound the point's edge block's ids. -/
theorem out_eq_words
    (hb : ∀ (t : Fin (cfg7 a).N) (r : Fin 4096) (hr : 4096 * (t.val / 49) + r.val < 1601536),
      (R7.wMin7 a (grid7.coords t)).toInt ≤ ((V c main_v52) (ValueIdx.ix1 (⟨4096 * (t.val / 49) + r.val, hr⟩ : Fin 1601536))).toInt
        ∧ ((V c main_v52) (ValueIdx.ix1 (⟨4096 * (t.val / 49) + r.val, hr⟩ : Fin 1601536))).toInt ≤ (R7.wMax7 a (grid7.coords t)).toInt) :
    (R7.dat7 V a c).arrAt 3 (cfg7 a).N = gath (V c main_v52) (V c main_v59) (V c main_v109) :=
  out_eq_of V a c (R7.dat7 V a c) (R7.accAt7 V a c) (R7.act7 a) (R7.wMax7 a) (R7.wMin7 a) (act7_iff a)
    (fun t _ => R7.after7_3 V a c t) (R7.accAt7_first V a c) (R7.accAt7_next V a c) hb

/-- THE OUTPUT ARRAY, when entry `k` of the first table is at most, and entry `k` of the second at least, every id of edge
    block `k` (rows `4096 k … 4096 k + 4095`). -/
theorem out_eq
    (hb : ∀ (k : Fin 391) (r : Fin 4096),
      (tminV a k).toInt
          ≤ (srcV V c (ValueIdx.ix1 ⟨4096 * k.val + r.val, by have := k.isLt; have := r.isLt; omega⟩)).toInt
        ∧ (srcV V c (ValueIdx.ix1 ⟨4096 * k.val + r.val, by have := k.isLt; have := r.isLt; omega⟩)).toInt
          ≤ (tmaxV a k).toInt) :
    (R7.dat7 V a c).arrAt 3 (cfg7 a).N = gath (V c main_v52) (V c main_v59) (V c main_v109) := by
  refine out_eq_words V a c fun t r hr => ?_
  have hN : (cfg7 a).N = 19159 := N_7
  have he : t.val / 49 < 391 := by have := t.isLt; omega
  have h0 : (⟨(grid7.coords t 0).val, (grid7.coords t 0).isLt⟩ : Fin 391) = ⟨t.val / 49, he⟩ := Fin.ext (R7.coords7_0 t)
  rw [wMin7_eq, wMax7_eq, h0]
  exact hb ⟨t.val / 49, he⟩ r

/-- The output array at a row and a column (`gath_apply` reads the right side). -/
theorem out_apply
    (hb : ∀ (k : Fin 391) (r : Fin 4096),
      (tminV a k).toInt
          ≤ (srcV V c (ValueIdx.ix1 ⟨4096 * k.val + r.val, by have := k.isLt; have := r.isLt; omega⟩)).toInt
        ∧ (srcV V c (ValueIdx.ix1 ⟨4096 * k.val + r.val, by have := k.isLt; have := r.isLt; omega⟩)).toInt
          ≤ (tmaxV a k).toInt)
    (n : Fin 1601536) (d : Fin 32) :
    (R7.dat7 V a c).arrAt 3 (cfg7 a).N (ValueIdx.ix2 n d)
      = gath (V c main_v52) (V c main_v59) (V c main_v109) (ValueIdx.ix2 n d) :=
  congrFun (out_eq V a c hb) (ValueIdx.ix2 n d)

end Cert.KernelIdeal.R7V
-- ==== Proof.RegionFactsG0.lean ====
import proofs.«417346_j54202487276072_2_alg».proof.Proof.ComposeFacts
import proofs.«417346_j54202487276072_2_alg».proof.Proof.R1Out
import proofs.«417346_j54202487276072_2_alg».proof.Proof.R4Out
import proofs.«417346_j54202487276072_2_alg».proof.Proof.R7Out
import proofs.«417346_j54202487276072_2_alg».proof.Proof.KHostD
import proofs.«417346_j54202487276072_2_alg».proof.Proof.IdxBridge

/-!
  What each gather region leaves in its output array, stated at the buffers as the run finds them when the region is
  entered: the region's own value (its output array as one function of the arrays it reads) read at the run's
  valuation, with the bound the tables put on each tile taken from what the host computed them as.
-/

noncomputable section

namespace Cert.Proof.C

open Cert.KernelIdeal Cert.KernelIdeal.Gen Cert.KernelIdeal.GenP
open Idealize.ShloMosaic Idealize.ShloMosaic.TcCoe
open scoped BigOperators

variable (m : (ℓ : Loc nD τ sig) → Buf (Elt Ideal) ℓ) (outs : GenP.Outs (F := Ideal)) (c : Dev nD)

/-! ## The gather regions -/

/-- Layer 1's gather region at the run's valuation: row `k` of its result is the row of the dense layer's output that
    the source-sorted row names at `k` (zero past the table's end), times the edge weight at `k`. The region's two tables are
    the least and the greatest source of each tile of the source-sorted row, so they bound the tile. -/
theorem g1_of (a : (pcfg1 (F := Ideal)).Adm) (ha : ∀ k : Fin 2, a.1 k = V16 m 0 (pre1.ref k))
    (hlink : outs 18 main_v84 c = (R1.dat1 (fun c b => V17 m outs c b) a c).arrAt 3 (cfg1 a).N) :
    GatherEq (D := 16) (outs 18 main_v84 c) (V17 m outs c main_v52) (V17 m outs c main_v83)
      (V17 m outs c main_v59) := by
  unfold GatherEq
  intro k d
  obtain rfl : c = 0 := Subsingleton.elim _ _
  refine (congrFun (hlink.trans (R1V.out_eq (fun c b => V17 m outs c b) a 0 (fun e r => ?_))) (ValueIdx.ix2 k d)).trans
    (R1V.gath_apply _ _ _ k d)
  have e1 : R1V.tminV a e = KH.tminSrc (m (((0 : Dev nD) : Thread nD τ).loc main_arg1)) (ValueIdx.ix1 e) :=
    (congrFun (ha 0) (ValueIdx.ix1 e)).trans (congrFun (KH.V16_v68 m 0) (ValueIdx.ix1 e))
  have e2 : R1V.tmaxV a e = KH.tmaxSrc (m (((0 : Dev nD) : Thread nD τ).loc main_arg1)) (ValueIdx.ix1 e) :=
    (congrFun (ha 1) (ValueIdx.ix1 e)).trans (congrFun (KH.V16_v70 m 0) (ValueIdx.ix1 e))
  have e3 : R1V.srcV (fun c b => V17 m outs c b) 0 (ValueIdx.ix1 (IFB.pos e r))
      = KH.srcSorted (m (((0 : Dev nD) : Thread nD τ).loc main_arg1)) (ValueIdx.ix1 (IFB.pos e r)) :=
    congrFun (KH.V17_v52 m outs 0) _
  have h := IFB.src_tile_bounds (m (((0 : Dev nD) : Thread nD τ).loc main_arg1)) e r
  rw [← e1, ← e2, ← e3] at h
  exact h

/-- Layer 2's gather region at the run's valuation: row `k` of its result is the row of the dense layer's output that
    the source-sorted row names at `k` (zero past the table's end), times the edge weight at `k`. The region's two tables are
    the least and the greatest source of each tile of the source-sorted row, so they bound the tile. -/
theorem g2_of (a : (pcfg4 (F := Ideal)).Adm) (ha : ∀ k : Fin 2, a.1 k = V16 m 0 (pre1.ref k))
    (hlink : outs 23 main_v97 c = (R4.dat4 (fun c b => V22 m outs c b) a c).arrAt 3 (cfg4 a).N) :
    GatherEq (D := 64) (outs 23 main_v97 c) (V22 m outs c main_v52) (V22 m outs c main_v96)
      (V22 m outs c main_v59) := by
  unfold GatherEq
  intro k d
  obtain rfl : c = 0 := Subsingleton.elim _ _
  refine (congrFun (hlink.trans (R4V.out_eq (fun c b => V22 m outs c b) a 0 (fun e r => ?_))) (ValueIdx.ix2 k d)).trans
    (R4V.gath_apply _ _ _ k d)
  have e1 : R4V.tminV a e = KH.tminSrc (m (((0 : Dev nD) : Thread nD τ).loc main_arg1)) (ValueIdx.ix1 e) :=
    (congrFun (ha 0) (ValueIdx.ix1 e)).trans (congrFun (KH.V16_v68 m 0) (ValueIdx.ix1 e))
  have e2 : R4V.tmaxV a e = KH.tmaxSrc (m (((0 : Dev nD) : Thread nD τ).loc main_arg1)) (ValueIdx.ix1 e) :=
    (congrFun (ha 1) (ValueIdx.ix1 e)).trans (congrFun (KH.V16_v70 m 0) (ValueIdx.ix1 e))
  have e3 : R4V.srcV (fun c b => V22 m outs c b) 0 (ValueIdx.ix1 (IFB.pos e r))
      = KH.srcSorted (m (((0 : Dev nD) : Thread nD τ).loc main_arg1)) (ValueIdx.ix1 (IFB.pos e r)) :=
    congrFun (KH.V22_v52 m outs 0) _
  have h := IFB.src_tile_bounds (m (((0 : Dev nD) : Thread nD τ).loc main_arg1)) e r
  rw [← e1, ← e2, ← e3] at h
  exact h

/-- Layer 3's gather region at the run's valuation: row `k` of its result is the row of the dense layer's output that
    the source-sorted row names at `k` (zero past the table's end), times the edge weight at `k`. The region's two tables are
    the least and the greatest source of each tile of the source-sorted row, so they bound the tile. -/
theorem g3_of (a : (pcfg7 (F := Ideal)).Adm) (ha : ∀ k : Fin 2, a.1 k = V16 m 0 (pre1.ref k))
    (hlink : outs 28 main_v110 c = (R7.dat7 (fun c b => V27 m outs c b) a c).arrAt 3 (cfg7 a).N) :
    GatherEq (D := 32) (outs 28 main_v110 c) (V27 m outs c main_v52) (V27 m outs c main_v109)
      (V27 m outs c main_v59) := by
  unfold GatherEq
  intro k d
  obtain rfl : c = 0 := Subsingleton.elim _ _
  refine (congrFun (hlink.trans (R7V.out_eq (fun c b => V27 m outs c b) a 0 (fun e r => ?_))) (ValueIdx.ix2 k d)).trans
    (R7V.gath_apply _ _ _ k d)
  have e1 : R7V.tminV a e = KH.tminSrc (m (((0 : Dev nD) : Thread nD τ).loc main_arg1)) (ValueIdx.ix1 e) :=
    (congrFun (ha 0) (ValueIdx.ix1 e)).trans (congrFun (KH.V16_v68 m 0) (ValueIdx.ix1 e))
  have e2 : R7V.tmaxV a e = KH.tmaxSrc (m (((0 : Dev nD) : Thread nD τ).loc main_arg1)) (ValueIdx.ix1 e) :=
    (congrFun (ha 1) (ValueIdx.ix1 e)).trans (congrFun (KH.V16_v70 m 0) (ValueIdx.ix1 e))
  have e3 : R7V.srcV (fun c b => V27 m outs c b) 0 (ValueIdx.ix1 (IFB.pos e r))
      = KH.srcSorted (m (((0 : Dev nD) : Thread nD τ).loc main_arg1)) (ValueIdx.ix1 (IFB.pos e r)) :=
    congrFun (KH.V27_v52 m outs 0) _
  have h := IFB.src_tile_bounds (m (((0 : Dev nD) : Thread nD τ).loc main_arg1)) e r
  rw [← e1, ← e2, ← e3] at h
  exact h

end Cert.Proof.C
-- ==== Proof.RegionFactsG.lean ====
/-
  The gather regions' fields of the regions' statement, at the arrays the run names.
-/
import proofs.«417346_j54202487276072_2_alg».proof.Proof.RegionFactsG0
import proofs.«417346_j54202487276072_2_alg».proof.Proof.RunKI

noncomputable section

namespace Cert.Proof.C

open Cert.KernelIdeal Cert.KernelIdeal.Gen
open Idealize.ShloMosaic Idealize.ShloMosaic.TcCoe

variable (m : (ℓ : Loc nD τ sig) → Buf (Elt Ideal) ℓ) (c : Dev nD)

/-! ## The gather regions at the run -/

theorem reg_g1 : GatherEq (D := 16) (Run.outs m 18 main_v84 c) (GenP.V17 m (Run.outs m) c main_v52)
    (GenP.V17 m (Run.outs m) c main_v83) (GenP.V17 m (Run.outs m) c main_v59) :=
  g1_of m (Run.outs m) c (Run.adm1 m) (fun k => Run.tabG_apply m k) (Run.outs_18 m c)

theorem reg_g2 : GatherEq (D := 64) (Run.outs m 23 main_v97 c) (GenP.V22 m (Run.outs m) c main_v52)
    (GenP.V22 m (Run.outs m) c main_v96) (GenP.V22 m (Run.outs m) c main_v59) :=
  g2_of m (Run.outs m) c (Run.adm4 m) (fun k => Run.tabG_apply m k) (Run.outs_23 m c)

theorem reg_g3 : GatherEq (D := 32) (Run.outs m 28 main_v110 c) (GenP.V27 m (Run.outs m) c main_v52)
    (GenP.V27 m (Run.outs m) c main_v109) (GenP.V27 m (Run.outs m) c main_v59) :=
  g3_of m (Run.outs m) c (Run.adm7 m) (fun k => Run.tabG_apply m k) (Run.outs_28 m c)

end Cert.Proof.C

end
-- ==== Proof.R2Alg.lean ====
import Idealize.ShloMosaic.Lib.ValueIdx
import Mathlib.Logic.Equiv.Fin.Basic

/-!
  The arithmetic under the scatter regions' value, with no program in sight: the 0/1 matrix's entry as
  an extended real, the comparison of a node row's word with an edge's target word, the tile test on
  the two table words as an inequality of integers, the accumulation over the edge tiles as a sum, and
  the sum over (tile, position in the tile) as the sum over all edge positions.
-/

namespace Cert.KernelIdeal.R2V

open Idealize.ShloMosaic
open scoped BigOperators

/-! ## A 0/1 factor selects -/

/-- On the extended reals `1 * x = x` and `0 * x = 0` for every `x`, the infinities included: a 0/1 factor selects. -/
theorem ite_mul_eq (p : Prop) [Decidable p] (x : EReal) :
    (if p then (1 : EReal) else 0) * x = if p then x else 0 := by
  by_cases h : p
  · rw [if_pos h, if_pos h, one_mul]
  · rw [if_neg h, if_neg h, zero_mul]

/-! ## Words -/

/-- An equality test of two words, as a bit. -/
theorem cmpi_eq_def {w : Nat} (x y : BitVec w) : IntOp.cmpi .eq x y = BitVec.ofBool (x == y) := rfl

/-- The 0/1 matrix's entry: the comparison bit widened to a word and converted is `1` where the two words are
    equal and `0` elsewhere. -/
theorem onehot_val (x y : BitVec 32) :
    (FloatOps.sitofp (F := Ideal) .f32 ((IntOp.cmpi .eq x y).setWidth 32) : EReal) = if x = y then 1 else 0 := by
  show ((((IntOp.cmpi .eq x y).setWidth 32).toInt : ℝ) : EReal) = _
  rw [cmpi_eq_def]
  by_cases h : x = y
  · have hb : (x == y) = true := by simpa using h
    have h1 : ((BitVec.ofBool true).setWidth 32).toInt = 1 := by decide
    rw [hb, h1, if_pos h]; norm_num
  · have hb : (x == y) = false := by simpa using h
    have h0 : ((BitVec.ofBool false).setWidth 32).toInt = 0 := by decide
    rw [hb, h0, if_neg h]; norm_num

/-- The word of node tile `I`'s first row, `2048 * I`, as a natural. -/
theorem tile_word_toNat (I : Nat) (hI : I < 49) : (Scalar.muli (BitVec.ofNat 32 I) 2048#32).toNat = 2048 * I := by
  show (BitVec.ofNat 32 I * 2048#32).toNat = 2048 * I
  rw [BitVec.toNat_mul, BitVec.toNat_ofNat, BitVec.toNat_ofNat]
  omega

/-- Row `n` of node tile `I`, as the word the kernel compares, is an edge's target word exactly when the target,
    read as a natural, is `2048 * I + n`. -/
theorem node_word_eq (I n : Nat) (hI : I < 49) (hn : n < 2048) (w : BitVec 32) :
    IntOp.addi (BitVec.ofNat 32 n) (Scalar.muli (BitVec.ofNat 32 I) 2048#32) = w ↔ w.toNat = 2048 * I + n := by
  have hv : (IntOp.addi (BitVec.ofNat 32 n) (Scalar.muli (BitVec.ofNat 32 I) 2048#32)).toNat = 2048 * I + n := by
    show (BitVec.ofNat 32 n + Scalar.muli (BitVec.ofNat 32 I) 2048#32).toNat = _
    rw [BitVec.toNat_add, tile_word_toNat I hI, BitVec.toNat_ofNat]
    omega
  constructor
  · rintro rfl; exact hv
  · intro h; exact BitVec.eq_of_toNat_eq (hv.trans h.symm)

/-- The tile test's last three steps, on two decided bits: the test holds exactly when both do. -/
theorem gate_bits (p q : Bool) :
    Scalar.cmpi .ne (Scalar.extui (Scalar.andi (BitVec.ofBool p) (BitVec.ofBool q))) 0#32 = 1#1 ↔ (p = true ∧ q = true) := by
  cases p <;> cases q <;> decide

/-- THE TILE TEST on the two table words `mx` (the tile's largest target) and `mn` (its smallest): the kernel's
    chain of comparisons holds exactly when, as signed integers, `2048 * I ≤ mx` and `mn < 2048 * I + 2048`. -/
theorem act_word_iff (I : Nat) (hI : I < 49) (mx mn : BitVec 32) :
    Scalar.cmpi .ne (Scalar.extui (Scalar.andi (Scalar.cmpi .sle (Scalar.muli (BitVec.ofNat 32 I) 2048#32) mx)
        (Scalar.cmpi .sgt (Scalar.addi (Scalar.muli (BitVec.ofNat 32 I) 2048#32) 2048#32) mn))) 0#32 = 1#1
      ↔ ((2048 * I : ℤ) ≤ mx.toInt ∧ mn.toInt < 2048 * I + 2048) := by
  have h3n := tile_word_toNat I hI
  have h3 : (Scalar.muli (BitVec.ofNat 32 I) 2048#32).toInt = 2048 * I := by
    rw [BitVec.toInt_eq_toNat_of_lt (by rw [h3n]; omega), h3n]; push_cast; ring
  have h4n : (Scalar.addi (Scalar.muli (BitVec.ofNat 32 I) 2048#32) 2048#32).toNat = 2048 * I + 2048 := by
    show (Scalar.muli (BitVec.ofNat 32 I) 2048#32 + 2048#32).toNat = _
    rw [BitVec.toNat_add, h3n, BitVec.toNat_ofNat]
    omega
  have h4 : (Scalar.addi (Scalar.muli (BitVec.ofNat 32 I) 2048#32) 2048#32).toInt = 2048 * I + 2048 := by
    rw [BitVec.toInt_eq_toNat_of_lt (by rw [h4n]; omega), h4n]; push_cast; ring
  show Scalar.cmpi .ne (Scalar.extui (Scalar.andi (BitVec.ofBool (BitVec.sle _ mx)) (BitVec.ofBool (BitVec.slt mn _)))) 0#32 = 1#1 ↔ _
  rw [gate_bits, BitVec.sle_iff_toInt_le, BitVec.slt_iff_toInt_lt, h3, h4]

/-- A tile that fails the test holds no target in node tile `I`: if the tile's targets lie between its two table
    words and one of them is row `n` of node tile `I`, the test holds. -/
theorem act_of_hit (I n : Nat) (hI : I < 49) (hn : n < 2048) (mx mn w : BitVec 32)
    (hlo : mn.toInt ≤ w.toInt) (hhi : w.toInt ≤ mx.toInt) (hw : w.toNat = 2048 * I + n) :
    ((2048 * I : ℤ) ≤ mx.toInt ∧ mn.toInt < 2048 * I + 2048) := by
  have hwi : w.toInt = ((2048 * I + n : ℕ) : ℤ) := by
    rw [BitVec.toInt_eq_toNat_of_lt (by rw [hw]; omega), hw]
  push_cast at hwi
  constructor <;> omega

/-! ## The accumulation over the edge tiles -/

/-- A scratch value that starts at `base` (taking tile `0`'s addend when tile `0` passes the test) and at each later
    tile takes that tile's addend when the tile passes the test and is kept otherwise, where a tile that fails the
    test has addend `0`, is after tile `k` the base plus the addends of tiles `0 … k`. -/
theorem acc_eq_sum {M : Type*} [AddCommMonoid M] (A T : ℕ → M) (base : M) (act : ℕ → Prop) [DecidablePred act]
    (h0 : A 0 = if act 0 then base + T 0 else base)
    (hs : ∀ k, A (k + 1) = if act (k + 1) then A k + T (k + 1) else A k)
    (hz : ∀ k, ¬ act k → T k = 0) :
    ∀ k, A k = base + ∑ j ∈ Finset.range (k + 1), T j
  | 0 => by
    rw [h0, Finset.sum_range_one]
    by_cases h : act 0
    · rw [if_pos h]
    · rw [if_neg h, hz 0 h, add_zero]
  | k + 1 => by
    rw [hs k, Finset.sum_range_succ, ← add_assoc, ← acc_eq_sum A T base act h0 hs hz k]
    by_cases h : act (k + 1)
    · rw [if_pos h]
    · rw [if_neg h, hz _ h, add_zero]

/-! ## The accumulation over the grid's points -/

/-- THE SCRATCH OVER THE GRID, in closed form. Point `m` of the grid is edge tile `m % 391` of node tile `m / 391`. A quantity
    `A m` (defined at the points below `K`) that at the first edge tile of each node tile is the tile's base value (plus that
    edge tile's addend when the point passes the test), and at every other point is its value at the point before (plus the
    point's addend when the point passes the test), where a point that fails the test has addend `0`, is at every point the
    node tile's base value plus the addends of the edge tiles up to the point's own. -/
theorem scratch_closed {M : Type*} [AddCommMonoid M] (K : ℕ) (A : (m : ℕ) → m < K → M) (base : ℕ → M) (T : ℕ → ℕ → M)
    (act : (m : ℕ) → m < K → Prop) [∀ m h, Decidable (act m h)]
    (hfirst : ∀ m (h : m < K), m % 391 = 0 →
      A m h = if act m h then base (m / 391) + T (m / 391) 0 else base (m / 391))
    (hnext : ∀ m (h : m + 1 < K), (m + 1) % 391 ≠ 0 →
      A (m + 1) h = if act (m + 1) h then A m (Nat.lt_of_succ_lt h) + T ((m + 1) / 391) ((m + 1) % 391)
        else A m (Nat.lt_of_succ_lt h))
    (hz : ∀ m (h : m < K), ¬ act m h → T (m / 391) (m % 391) = 0) :
    ∀ m (h : m < K), A m h = base (m / 391) + ∑ j ∈ Finset.range (m % 391 + 1), T (m / 391) j
  | 0, h0 => by
    have hf := hfirst 0 h0 rfl
    have hzz := hz 0 h0
    simp only [Nat.zero_div, Nat.zero_mod, Nat.zero_add, Finset.sum_range_one] at hf hzz ⊢
    rw [hf]
    by_cases h : act 0 h0
    · rw [if_pos h]
    · rw [if_neg h, hzz h, add_zero]
  | m + 1, hm => by
    by_cases h : (m + 1) % 391 = 0
    · have hf := hfirst (m + 1) hm h
      have hzz := hz (m + 1) hm
      rw [h] at hzz ⊢
      rw [hf, Nat.zero_add, Finset.sum_range_one]
      by_cases ha : act (m + 1) hm
      · rw [if_pos ha]
      · rw [if_neg ha, hzz ha, add_zero]
    · have ih := scratch_closed K A base T act hfirst hnext hz m (Nat.lt_of_succ_lt hm)
      have hd : (m + 1) / 391 = m / 391 := by omega
      have hmod : (m + 1) % 391 = m % 391 + 1 := by omega
      have hzz := hz (m + 1) hm
      rw [hnext m hm h, hd, hmod, Finset.sum_range_succ (n := m % 391 + 1), ← add_assoc, ← ih]
      rw [hd, hmod] at hzz
      by_cases ha : act (m + 1) hm
      · rw [if_pos ha]
      · rw [if_neg ha, hzz ha, add_zero]

/-! ## All edge positions, tile by tile -/

/-- The sum over the 391 tiles of the sum over a tile's 4096 positions is the sum over all 1601536 positions. -/
theorem sum_tiles {M : Type*} [AddCommMonoid M] (f : Fin 1601536 → M) :
    ∑ k : Fin 391, ∑ r : Fin 4096, f ⟨4096 * k.val + r.val, by have := k.isLt; have := r.isLt; omega⟩ = ∑ p : Fin 1601536, f p := by
  rw [← Fintype.sum_prod_type (f := fun x : Fin 391 × Fin 4096 => f ⟨4096 * x.1.val + x.2.val, by have := x.1.isLt; have := x.2.isLt; omega⟩)]
  exact Fintype.sum_equiv (finProdFinEquiv : Fin 391 × Fin 4096 ≃ Fin 1601536) _ _
    (fun x => congrArg f (Fin.ext (by show 4096 * x.1.val + x.2.val = x.2.val + 4096 * x.1.val; omega)))

end Cert.KernelIdeal.R2V
-- ==== Proof.R2Pay.lean ====
import proofs.«417346_j54202487276072_2_alg».proof.Proof.Gen.KernelIdeal.Skeleton
import proofs.«417346_j54202487276072_2_alg».proof.Proof.R2Alg
import Idealize.ShloMosaic.Lib.ValueIdx
import Idealize.ShloMosaic.Lib.ValueLayout
import Idealize.ShloMosaic.Lib.Pipeline.Value
import Idealize.ShloMosaic.PureOps.Ideal.Laws

/-!
  The three payloads of the scatter kernel read at one element, at the ideal values: the first is the row's
  self weight times the dense layer's entry; the second adds to the scratch the targets' 0/1 matrix times the
  tile of messages, which is the sum of the messages whose target is the row; the third adds the bias and
  takes the maximum with zero.
-/

noncomputable section

namespace Cert.KernelIdeal.R2V

open Cert.KernelIdeal Cert.KernelIdeal.Gen
open Idealize.ShloMosaic Idealize.SL.Sem
open scoped BigOperators

/-! ## Two layout operations at an index -/

section Layout
variable {α : Type}

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ValueIdx.ix2 p c) = v (ValueIdx.ix2 p (0 : Fin 1)) := by
  refine broadcastTo_apply v h (ValueIdx.ix2 p c) (ValueIdx.ix2 p (0 : Fin 1)) fun ax => ?_
  match ax with
  | ⟨0, _⟩ =>
    show p.val = if a = 1 then 0 else p.val
    split
    · have := p.isLt; omega
    · rfl
  | ⟨1, _⟩ => rfl

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ValueIdx.ix2 i u) = x (ValueIdx.ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An integer comparison of two vectors at an index compares the elements. -/
theorem cmpi_apply {s : Shape} {w : Nat} (p : CmpIPredicate) (x y : IVec s w) (i : s.Idx) : cmpi p x y i = IntOp.cmpi p (x i) (y i) := rfl
/-- An integer sum of two vectors at an index adds the elements. -/
theorem addi_apply {s : Shape} {w : Nat} (x y : IVec s w) (i : s.Idx) : addi x y i = IntOp.addi (x i) (y i) := rfl

end Layout

/-! ## The first payload -/

/-- The first payload at row `n`, column `d`: the row's self weight times the dense layer's entry, in that order. -/
theorem pay1_apply (sn : Vec Ideal S2048 .f32) (hw : Vec Ideal S2048x16 .f32) (n : Fin 2048) (d : Fin 16) :
    k2_pay1 sn hw (ValueIdx.ix2 n d) = sn (ValueIdx.ix1 n) * hw (ValueIdx.ix2 n d) := by
  unfold k2_pay1
  simp only [shapeCast_self, ValueIdx.mulf_apply, broadcastTo_a1_ab_apply, shapeCast_a_a1_apply]

/-! ## The third payload -/

/-- The third payload at row `n`, column `d`: the scratch plus the bias, then the maximum with zero. -/
theorem pay3_apply (acc : Vec Ideal S2048x16 .f32) (b : Vec Ideal S1x16 .f32) (n : Fin 2048) (d : Fin 16) :
    k2_pay3 acc b (ValueIdx.ix2 n d) = max (acc (ValueIdx.ix2 n d) + b (ValueIdx.ix2 (0 : Fin 1) d)) 0 := by
  unfold k2_pay3
  simp only [shapeCast_self, ValueIdx.maximumf_apply, ValueIdx.addf_apply, ValueIdx.broadcast_apply, ValueIdx.broadcastTo_1b_ab_apply]
  show max _ (Ideal.ofBits .f32 0x00000000#32) = _
  rw [Ideal.ofBits_zero_f32]

/-! ## The second payload -/

/-- The product's dimension numbers contract one axis of extent 4096. -/
abbrev D2 := dot_S2048x4096_S4096x16_S2048x16_1_0_0_1_n_n

/-- The contraction index of the product is a position in the tile of targets. -/
def ce : D2.contr.Idx ≃ Fin 4096 := ValueIdx.contrEquiv1 D2 4096 rfl rfl

/-- At output `(n, d)` and contraction position `r` the left operand is read at `(n, r)` … -/
theorem lhs_at (n : Fin 2048) (d : Fin 16) (r : Fin 4096) : D2.lhsIdx (ValueIdx.ix2 n d) (ce.symm r) = ValueIdx.ix2 n r := by
  refine Shape.idx_ext₂ ?_ ?_
  · first
    | rfl
    | (simp [DotDims.lhsIdx, D2, dot_S2048x4096_S4096x16_S2048x16_1_0_0_1_n_n]; done)
    | (simp [DotDims.lhsIdx, D2, dot_S2048x4096_S4096x16_S2048x16_1_0_0_1_n_n]; rfl)
  · exact (D2.lhsIdx_val_of_single (cl := 1) rfl _ _).trans (ValueIdx.contrEquiv1_symm_val D2 4096 rfl rfl r)

/-- … and the right operand at `(r, d)`. -/
theorem rhs_at (n : Fin 2048) (d : Fin 16) (r : Fin 4096) : D2.rhsIdx (ValueIdx.ix2 n d) (ce.symm r) = ValueIdx.ix2 r d := by
  refine Shape.idx_ext₂ ?_ ?_
  · exact (D2.rhsIdx_val_of_single (cr := 0) rfl _ _).trans (ValueIdx.contrEquiv1_symm_val D2 4096 rfl rfl r)
  · first
    | rfl
    | (simp [DotDims.rhsIdx, D2, dot_S2048x4096_S4096x16_S2048x16_1_0_0_1_n_n]; done)
    | (simp [DotDims.rhsIdx, D2, dot_S2048x4096_S4096x16_S2048x16_1_0_0_1_n_n]; rfl)

/-- The second payload at row `n`, column `d`: the scratch plus the messages of the tile whose target is row `n` of node tile
    `i 0` (the 0/1 matrix selects: `1 * x = x` and `0 * x = 0` for every extended real). -/
theorem pay2_apply (i : grid2.Coords) (dst : Vec Ideal S4096 .i32) (acc : Vec Ideal S2048x16 .f32) (g : Vec Ideal S4096x16 .f32)
    (n : Fin 2048) (d : Fin 16) :
    k2_pay2 i dst acc g (ValueIdx.ix2 n d)
      = acc (ValueIdx.ix2 n d)
        + ∑ r : Fin 4096, if BitVec.toNat (dst (ValueIdx.ix1 r)) = 2048 * (i 0).val + n.val then g (ValueIdx.ix2 r d) else 0 := by
  unfold k2_pay2
  simp only [shapeCast_self, ValueIdx.addf_apply, matmul]
  rw [Ideal.matmul_constant_zero_apply]
  refine congrArg (acc (ValueIdx.ix2 n d) + ·) ?_
  rw [← Equiv.sum_comp ce.symm]
  refine Finset.sum_congr rfl fun r _ => ?_
  rw [lhs_at, rhs_at]
  simp only [ValueIdx.truncf_apply, ValueIdx.sitofp_apply, ValueIdx.extui_apply, cmpi_apply, addi_apply, broadcastTo_a1_ab_apply,
    ValueIdx.broadcastTo_1b_ab_apply, ValueIdx.shapeCast_a_1a_apply, iota_single_apply, ValueIdx.broadcast_apply]
  have hI : (i 0).val < 49 := (i 0).isLt
  have hio : iota Kind.tc S2048x1 32 [0] iota_S2048x1_d0_w32 (ValueIdx.ix2 n (0 : Fin 1)) = BitVec.ofNat 32 n.val :=
    iota_single_apply Kind.tc S2048x1 32 0 iota_S2048x1_d0_w32 (ValueIdx.ix2 n (0 : Fin 1))
  rw [onehot_val, ite_mul_eq, hio]
  exact if_congr (node_word_eq (i 0).val n.val hI n.isLt _) rfl rfl

end Cert.KernelIdeal.R2V
-- ==== Proof.R2Blk.lean ====
import proofs.«417346_j54202487276072_2_alg».proof.Proof.Gen.KernelIdeal.Launch
import Idealize.ShloMosaic.Lib.ValueIdx
import Idealize.ShloMosaic.Lib.Pipeline.Value

/-!
  Where the scatter region's blocks sit in their arrays. Point `t` of the grid `[49, 391]` is edge tile `t % 391` of node
  tile `t / 391`. The windows over the node arrays (the dense layer's output, the self weights, the result) move with the
  node tile, 2048 rows at a time; the windows over the edge arrays (the targets, the messages) move with the edge tile,
  4096 positions at a time; the bias is one block. So an element of a block is the array's element at block index times
  block size plus the element's own coordinate; and every row of the result lies in the block of the last point of its
  node tile's run.
-/

noncomputable section

namespace Cert.KernelIdeal.R2V

open Cert.KernelIdeal Cert.KernelIdeal.Gen
open Idealize.ShloMosaic Idealize.SL.Sem

variable {F : FTy → Type} [FloatOps F] (a : (pcfg2 (F := F)).Adm)

/-- A natural below `2 ^ 32` is the value of its own 32-bit word. -/
theorem ofNat_toNat_lt (x : Nat) (h : x < 4294967296) : (BitVec.ofNat 32 x).toNat = x := by
  rw [BitVec.toNat_ofNat]; omega

/-! ## The grid's coordinates -/

/-- The grid has `49 * 391` points. -/
theorem N_eq : (cfg2 a).N = 19159 := N_2
/-- The node-tile coordinate is below 49 … -/
theorem c0_lt (t : Fin (cfg2 a).N) : (grid2.coords t 0).val < 49 := (grid2.coords t 0).isLt
/-- … and the edge-tile coordinate below 391. -/
theorem c1_lt (t : Fin (cfg2 a).N) : (grid2.coords t 1).val < 391 := (grid2.coords t 1).isLt
/-- The node-tile coordinate of point `t` is `t / 391` … -/
theorem co0 (t : Fin (cfg2 a).N) : (grid2.coords t 0).val = t.val / 391 := by
  have hs : grid2.stride 0 = 391 := by decide
  have ht : t.val < 19159 := (N_eq a) ▸ t.isLt
  show t.val / grid2.stride 0 % 49 = _
  rw [hs]; omega
/-- … and its edge-tile coordinate is `t % 391`. -/
theorem co1 (t : Fin (cfg2 a).N) : (grid2.coords t 1).val = t.val % 391 := by
  have hs : grid2.stride 1 = 1 := by decide
  show t.val / grid2.stride 1 % 391 = _
  rw [hs]; omega

/-! ## The windows' block indices -/

/-- The targets' window is at the edge tile. -/
theorem idx0 (t : Fin (cfg2 a).N) : ((cfg2 a).win 0).index t (0 : Fin 1) = (grid2.coords t 1).val := by
  show (BitVec.ofNat 32 (grid2.coords t 1).val).toNat = _
  exact ofNat_toNat_lt _ (by have := c1_lt a t; omega)
/-- The messages' window is at the edge tile, all columns. -/
theorem idx1_0 (t : Fin (cfg2 a).N) : ((cfg2 a).win 1).index t (0 : Fin 2) = (grid2.coords t 1).val := by
  show (BitVec.ofNat 32 (grid2.coords t 1).val).toNat = _
  exact ofNat_toNat_lt _ (by have := c1_lt a t; omega)
theorem idx1_1 (t : Fin (cfg2 a).N) : ((cfg2 a).win 1).index t (1 : Fin 2) = 0 := rfl
/-- The dense layer's window is at the node tile, all columns. -/
theorem idx2_0 (t : Fin (cfg2 a).N) : ((cfg2 a).win 2).index t (0 : Fin 2) = (grid2.coords t 0).val := by
  show (BitVec.ofNat 32 (grid2.coords t 0).val).toNat = _
  exact ofNat_toNat_lt _ (by have := c0_lt a t; omega)
theorem idx2_1 (t : Fin (cfg2 a).N) : ((cfg2 a).win 2).index t (1 : Fin 2) = 0 := rfl
/-- The self weights' window is at the node tile. -/
theorem idx3 (t : Fin (cfg2 a).N) : ((cfg2 a).win 3).index t (0 : Fin 1) = (grid2.coords t 0).val := by
  show (BitVec.ofNat 32 (grid2.coords t 0).val).toNat = _
  exact ofNat_toNat_lt _ (by have := c0_lt a t; omega)
/-- The bias is one block. -/
theorem idx4_0 (t : Fin (cfg2 a).N) : ((cfg2 a).win 4).index t (0 : Fin 2) = 0 := rfl
theorem idx4_1 (t : Fin (cfg2 a).N) : ((cfg2 a).win 4).index t (1 : Fin 2) = 0 := rfl
/-- The result's window is at the node tile, all columns. -/
theorem idx5_0 (t : Fin (cfg2 a).N) : ((cfg2 a).win 5).index t (0 : Fin 2) = (grid2.coords t 0).val := by
  show (BitVec.ofNat 32 (grid2.coords t 0).val).toNat = _
  exact ofNat_toNat_lt _ (by have := c0_lt a t; omega)
theorem idx5_1 (t : Fin (cfg2 a).N) : ((cfg2 a).win 5).index t (1 : Fin 2) = 0 := rfl

/-! ## Blocks read at an index -/

/-- Element `(n, d)` of the result's block at point `t` is the array's element `(2048 * (node tile) + n, d)`. -/
theorem emb5 (t : Fin (cfg2 a).N) (n : Fin 2048) (d : Fin 16) :
    (((cfg2 a).win 5).blk t).view.emb (ValueIdx.ix2 n d)
      = ValueIdx.ix2 (⟨2048 * (grid2.coords t 0).val + n.val, by have := c0_lt a t; omega⟩ : Fin 100352) d := by
  funext ax; apply Fin.ext
  match ax with
  | ⟨0, _⟩ =>
    show ((cfg2 a).win 5).index t (0 : Fin 2) * 2048 + 1 * n.val = 2048 * (grid2.coords t 0).val + n.val
    rw [idx5_0]; omega
  | ⟨1, _⟩ =>
    show ((cfg2 a).win 5).index t (1 : Fin 2) * 16 + 1 * d.val = d.val
    rw [idx5_1]; omega

/-- The self weights' block at point `t`, read at `n`. -/
theorem read3 (t : Fin (cfg2 a).N) (X : (⟨1, ![100352]⟩ : Shape).Idx → Elt F .f32) (n : Fin 2048) :
    (((cfg2 a).win 3).blk t).view.read (Elt F) X (ValueIdx.ix1 n)
      = X (ValueIdx.ix1 (⟨2048 * (grid2.coords t 0).val + n.val, by have := c0_lt a t; omega⟩ : Fin 100352)) := by
  show X ((((cfg2 a).win 3).blk t).view.emb (ValueIdx.ix1 n)) = _
  congr 1
  funext ax; apply Fin.ext
  match ax with
  | ⟨0, _⟩ =>
    show ((cfg2 a).win 3).index t (0 : Fin 1) * 2048 + 1 * n.val = 2048 * (grid2.coords t 0).val + n.val
    rw [idx3]; omega

/-- The dense layer's block at point `t`, read at `(n, d)`. -/
theorem read2 (t : Fin (cfg2 a).N) (X : (⟨2, ![100352, 16]⟩ : Shape).Idx → Elt F .f32) (n : Fin 2048) (d : Fin 16) :
    (((cfg2 a).win 2).blk t).view.read (Elt F) X (ValueIdx.ix2 n d)
      = X (ValueIdx.ix2 (⟨2048 * (grid2.coords t 0).val + n.val, by have := c0_lt a t; omega⟩ : Fin 100352) d) := by
  show X ((((cfg2 a).win 2).blk t).view.emb (ValueIdx.ix2 n d)) = _
  congr 1
  funext ax; apply Fin.ext
  match ax with
  | ⟨0, _⟩ =>
    show ((cfg2 a).win 2).index t (0 : Fin 2) * 2048 + 1 * n.val = 2048 * (grid2.coords t 0).val + n.val
    rw [idx2_0]; omega
  | ⟨1, _⟩ =>
    show ((cfg2 a).win 2).index t (1 : Fin 2) * 16 + 1 * d.val = d.val
    rw [idx2_1]; omega

/-- The targets' block at point `t`, read at `r`. -/
theorem read0 (t : Fin (cfg2 a).N) (X : (⟨1, ![1601536]⟩ : Shape).Idx → Elt F .i32) (r : Fin 4096) :
    (((cfg2 a).win 0).blk t).view.read (Elt F) X (ValueIdx.ix1 r)
      = X (ValueIdx.ix1 (⟨4096 * (grid2.coords t 1).val + r.val, by have := c1_lt a t; omega⟩ : Fin 1601536)) := by
  show X ((((cfg2 a).win 0).blk t).view.emb (ValueIdx.ix1 r)) = _
  congr 1
  funext ax; apply Fin.ext
  match ax with
  | ⟨0, _⟩ =>
    show ((cfg2 a).win 0).index t (0 : Fin 1) * 4096 + 1 * r.val = 4096 * (grid2.coords t 1).val + r.val
    rw [idx0]; omega

/-- The messages' block at point `t`, read at `(r, d)`. -/
theorem read1 (t : Fin (cfg2 a).N) (X : (⟨2, ![1601536, 16]⟩ : Shape).Idx → Elt F .f32) (r : Fin 4096) (d : Fin 16) :
    (((cfg2 a).win 1).blk t).view.read (Elt F) X (ValueIdx.ix2 r d)
      = X (ValueIdx.ix2 (⟨4096 * (grid2.coords t 1).val + r.val, by have := c1_lt a t; omega⟩ : Fin 1601536) d) := by
  show X ((((cfg2 a).win 1).blk t).view.emb (ValueIdx.ix2 r d)) = _
  congr 1
  funext ax; apply Fin.ext
  match ax with
  | ⟨0, _⟩ =>
    show ((cfg2 a).win 1).index t (0 : Fin 2) * 4096 + 1 * r.val = 4096 * (grid2.coords t 1).val + r.val
    rw [idx1_0]; omega
  | ⟨1, _⟩ =>
    show ((cfg2 a).win 1).index t (1 : Fin 2) * 16 + 1 * d.val = d.val
    rw [idx1_1]; omega

/-- The bias block, read at column `d`. -/
theorem read4 (t : Fin (cfg2 a).N) (X : (⟨2, ![1, 16]⟩ : Shape).Idx → Elt F .f32) (u : Fin 1) (d : Fin 16) :
    (((cfg2 a).win 4).blk t).view.read (Elt F) X (ValueIdx.ix2 u d) = X (ValueIdx.ix2 (0 : Fin 1) d) := by
  show X ((((cfg2 a).win 4).blk t).view.emb (ValueIdx.ix2 u d)) = _
  congr 1
  funext ax; apply Fin.ext
  match ax with
  | ⟨0, _⟩ =>
    show ((cfg2 a).win 4).index t (0 : Fin 2) * 1 + 1 * u.val = 0
    rw [idx4_0]; omega
  | ⟨1, _⟩ =>
    show ((cfg2 a).win 4).index t (1 : Fin 2) * 16 + 1 * d.val = d.val
    rw [idx4_1]; omega

/-- Every row of the output is in the block of the last point of its node tile's run. -/
theorem cover5 (i : (⟨2, ![100352, 16]⟩ : Shape).Idx) :
    ∃ t : Fin (cfg2 a).N, t.val % 391 = 390 ∧ i ∈ (((cfg2 a).win 5).blk t).view.set := by
  have hi0 : (i 0).val < 100352 := (i 0).isLt
  have hi1 : (i 1).val < 16 := (i 1).isLt
  let t : Fin (cfg2 a).N := ⟨391 * ((i 0).val / 2048) + 390, by rw [N_eq]; omega⟩
  have h0 : (grid2.coords t 0).val = (i 0).val / 2048 := by
    rw [co0]; show (391 * ((i 0).val / 2048) + 390) / 391 = _; omega
  refine ⟨t, by show (391 * ((i 0).val / 2048) + 390) % 391 = 390; omega,
    Finset.mem_map.mpr ⟨ValueIdx.ix2 (⟨(i 0).val % 2048, by omega⟩ : Fin 2048) (⟨(i 1).val, hi1⟩ : Fin 16), Finset.mem_univ _, ?_⟩⟩
  refine (emb5 a t _ _).trans ?_
  funext ax; apply Fin.ext
  match ax with
  | ⟨0, _⟩ =>
    show 2048 * (grid2.coords t 0).val + (i 0).val % 2048 = (i 0).val
    rw [h0]; omega
  | ⟨1, _⟩ => rfl

end Cert.KernelIdeal.R2V
-- ==== Proof.R2Value.lean ====
import proofs.«417346_j54202487276072_2_alg».proof.Proof.R2Frame
import proofs.«417346_j54202487276072_2_alg».proof.Proof.R2Pay
import proofs.«417346_j54202487276072_2_alg».proof.Proof.R2Blk

/-!
  THE SCATTER REGION'S VALUE at the ideal values. Node tile `I` (2048 rows) meets the 391 edge tiles (4096 positions each)
  in turn. The scratch starts, at the first edge tile, from the row's self weight times the dense layer's entry; each edge
  tile that passes the test on its two table words adds the tile's messages whose target is the row (a 0/1 matrix times
  the tile of messages); a tile that fails the test holds no target in the node tile, because the table words bound the
  tile's targets; so after the last edge tile the scratch holds the self term plus the messages of ALL edges whose target
  is the row. The last point adds the bias, takes the maximum with zero, and writes the block back; those blocks cover the
  result array.
-/

noncomputable section

namespace Cert.KernelIdeal.R2V

open Cert.KernelIdeal Cert.KernelIdeal.Gen
open Idealize.ShloMosaic Idealize.SL.Sem
open scoped BigOperators

section Core

variable (a : (pcfg2 (F := Ideal)).Adm)
variable (SN : (⟨1, ![100352]⟩ : Shape).Idx → EReal) (HW : (⟨2, ![100352, 16]⟩ : Shape).Idx → EReal)
  (DST : (⟨1, ![1601536]⟩ : Shape).Idx → BitVec 32) (G : (⟨2, ![1601536, 16]⟩ : Shape).Idx → EReal)

/-- The self weights as a function of the row number (zero past the array). -/
def snN (p : ℕ) : EReal := if h : p < 100352 then SN (ValueIdx.ix1 ⟨p, h⟩) else 0
/-- The dense layer's output as a function of the row number and the column. -/
def hwN (p : ℕ) (d : Fin 16) : EReal := if h : p < 100352 then HW (ValueIdx.ix2 ⟨p, h⟩ d) else 0
/-- The targets as a function of the edge position. -/
def dstN (p : ℕ) : BitVec 32 := if h : p < 1601536 then DST (ValueIdx.ix1 ⟨p, h⟩) else 0
/-- The messages as a function of the edge position and the column. -/
def gN (p : ℕ) (d : Fin 16) : EReal := if h : p < 1601536 then G (ValueIdx.ix2 ⟨p, h⟩ d) else 0

/-- Edge tile `j`'s addend to row `n` of node tile `I`, column `d`: the tile's messages whose target is that row. -/
def tileSum (I j : ℕ) (n : Fin 2048) (d : Fin 16) : EReal :=
  ∑ r : Fin 4096, if (dstN DST (4096 * j + r.val)).toNat = 2048 * I + n.val then gN G (4096 * j + r.val) d else 0

/-- The blocks the body loads at point `t`. -/
abbrev dstAt (t : Fin (cfg2 a).N) : Vec Ideal S4096 .i32 := (((cfg2 a).win 0).blk t).view.read (Elt Ideal) DST
abbrev gAt (t : Fin (cfg2 a).N) : Vec Ideal S4096x16 .f32 := (((cfg2 a).win 1).blk t).view.read (Elt Ideal) G
abbrev hwAt (t : Fin (cfg2 a).N) : Vec Ideal S2048x16 .f32 := (((cfg2 a).win 2).blk t).view.read (Elt Ideal) HW
abbrev snAt (t : Fin (cfg2 a).N) : Vec Ideal S2048 .f32 := (((cfg2 a).win 3).blk t).view.read (Elt Ideal) SN

theorem node_lt (t : Fin (cfg2 a).N) (n : Fin 2048) : 2048 * (t.val / 391) + n.val < 100352 := by
  have := N_eq a; have := t.isLt; have := n.isLt; omega
theorem edge_lt (t : Fin (cfg2 a).N) (r : Fin 4096) : 4096 * (t.val % 391) + r.val < 1601536 := by
  have := r.isLt; omega

theorem snAt_eq (t : Fin (cfg2 a).N) (n : Fin 2048) :
    snAt a SN t (ValueIdx.ix1 n) = snN SN (2048 * (t.val / 391) + n.val) := by
  refine (read3 a t SN n).trans ?_
  unfold snN; rw [dif_pos (node_lt a t n)]
  exact congrArg SN (congrArg ValueIdx.ix1 (Fin.ext (by
    show 2048 * (grid2.coords t 0).val + n.val = 2048 * (t.val / 391) + n.val; rw [co0])))

theorem hwAt_eq (t : Fin (cfg2 a).N) (n : Fin 2048) (d : Fin 16) :
    hwAt a HW t (ValueIdx.ix2 n d) = hwN HW (2048 * (t.val / 391) + n.val) d := by
  refine (read2 a t HW n d).trans ?_
  unfold hwN; rw [dif_pos (node_lt a t n)]
  exact congrArg HW (congrArg (ValueIdx.ix2 · d) (Fin.ext (by
    show 2048 * (grid2.coords t 0).val + n.val = 2048 * (t.val / 391) + n.val; rw [co0])))

theorem dstAt_eq (t : Fin (cfg2 a).N) (r : Fin 4096) :
    dstAt a DST t (ValueIdx.ix1 r) = dstN DST (4096 * (t.val % 391) + r.val) := by
  refine (read0 a t DST r).trans ?_
  unfold dstN; rw [dif_pos (edge_lt a t r)]
  exact congrArg DST (congrArg ValueIdx.ix1 (Fin.ext (by
    show 4096 * (grid2.coords t 1).val + r.val = 4096 * (t.val % 391) + r.val; rw [co1])))

theorem gAt_eq (t : Fin (cfg2 a).N) (r : Fin 4096) (d : Fin 16) :
    gAt a G t (ValueIdx.ix2 r d) = gN G (4096 * (t.val % 391) + r.val) d := by
  refine (read1 a t G r d).trans ?_
  unfold gN; rw [dif_pos (edge_lt a t r)]
  exact congrArg G (congrArg (ValueIdx.ix2 · d) (Fin.ext (by
    show 4096 * (grid2.coords t 1).val + r.val = 4096 * (t.val % 391) + r.val; rw [co1])))

/-- The first payload at point `t`: the node tile's base value. -/
theorem pay1_at (t : Fin (cfg2 a).N) (n : Fin 2048) (d : Fin 16) :
    k2_pay1 (snAt a SN t) (hwAt a HW t) (ValueIdx.ix2 n d)
      = snN SN (2048 * (t.val / 391) + n.val) * hwN HW (2048 * (t.val / 391) + n.val) d := by
  rw [pay1_apply, snAt_eq, hwAt_eq]

/-- The second payload at point `t`: what was there plus the point's tile addend. -/
theorem pay2_at (t : Fin (cfg2 a).N) (X : Vec Ideal S2048x16 .f32) (n : Fin 2048) (d : Fin 16) :
    k2_pay2 (grid2.coords t) (dstAt a DST t) X (gAt a G t) (ValueIdx.ix2 n d)
      = X (ValueIdx.ix2 n d) + tileSum DST G (t.val / 391) (t.val % 391) n d := by
  rw [pay2_apply]
  refine congrArg (X (ValueIdx.ix2 n d) + ·) ?_
  unfold tileSum
  refine Finset.sum_congr rfl fun r _ => ?_
  rw [dstAt_eq, gAt_eq, co0]

/-- THE SCRATCH after point `m`, at row `n` and column `d`: the node tile's base value plus the addends of the edge tiles up
    to the point's own — from the two equations of the scratch (at the first edge tile of a node tile; at the others),
    where a point that fails the test has no target in its node tile. -/
theorem scratch_value
    (acc : (m : ℕ) → m < (cfg2 a).N → Vec Ideal S2048x16 .f32)
    (act : grid2.Coords → Prop) [DecidablePred act]
    (hfirst : ∀ t : Fin (cfg2 a).N, (grid2.coords t 1).val = 0 →
      acc t.val t.isLt = if act (grid2.coords t)
        then k2_pay2 (grid2.coords t) (dstAt a DST t) (k2_pay1 (snAt a SN t) (hwAt a HW t)) (gAt a G t)
        else k2_pay1 (snAt a SN t) (hwAt a HW t))
    (hnext : ∀ (m : ℕ) (h : m + 1 < (cfg2 a).N), (grid2.coords ⟨m + 1, h⟩ 1).val ≠ 0 →
      acc (m + 1) h = if act (grid2.coords ⟨m + 1, h⟩)
        then k2_pay2 (grid2.coords ⟨m + 1, h⟩) (dstAt a DST ⟨m + 1, h⟩) (acc m (Nat.lt_of_succ_lt h)) (gAt a G ⟨m + 1, h⟩)
        else acc m (Nat.lt_of_succ_lt h))
    (hmiss : ∀ t : Fin (cfg2 a).N, ¬ act (grid2.coords t) → ∀ (n : Fin 2048) (r : Fin 4096),
      (dstN DST (4096 * (t.val % 391) + r.val)).toNat ≠ 2048 * (t.val / 391) + n.val)
    (n : Fin 2048) (d : Fin 16) :
    ∀ (m : ℕ) (h : m < (cfg2 a).N), acc m h (ValueIdx.ix2 n d)
      = snN SN (2048 * (m / 391) + n.val) * hwN HW (2048 * (m / 391) + n.val) d
        + ∑ j ∈ Finset.range (m % 391 + 1), tileSum DST G (m / 391) j n d := by
  refine scratch_closed (cfg2 a).N (fun m h => acc m h (ValueIdx.ix2 n d))
    (fun I => snN SN (2048 * I + n.val) * hwN HW (2048 * I + n.val) d) (fun I j => tileSum DST G I j n d)
    (fun m h => act (grid2.coords ⟨m, h⟩)) ?_ ?_ ?_
  · intro m h h0
    have hk : (grid2.coords (⟨m, h⟩ : Fin (cfg2 a).N) 1).val = 0 := by rw [co1]; exact h0
    have e := congrFun (hfirst ⟨m, h⟩ hk) (ValueIdx.ix2 n d)
    show acc m h (ValueIdx.ix2 n d) = _
    rw [e]
    by_cases ha : act (grid2.coords ⟨m, h⟩)
    · rw [if_pos ha, if_pos ha, pay2_at, pay1_at]
      show _ + tileSum DST G (m / 391) (m % 391) n d = _
      rw [h0]
    · rw [if_neg ha, if_neg ha, pay1_at]
  · intro m h hne
    have hk : (grid2.coords (⟨m + 1, h⟩ : Fin (cfg2 a).N) 1).val ≠ 0 := by rw [co1]; exact hne
    have e := congrFun (hnext m h hk) (ValueIdx.ix2 n d)
    show acc (m + 1) h (ValueIdx.ix2 n d) = _
    rw [e]
    by_cases ha : act (grid2.coords ⟨m + 1, h⟩)
    · rw [if_pos ha, if_pos ha, pay2_at]
    · rw [if_neg ha, if_neg ha]
  · intro m h hna
    show tileSum DST G (m / 391) (m % 391) n d = 0
    unfold tileSum
    exact Finset.sum_eq_zero fun r _ => if_neg (hmiss ⟨m, h⟩ hna n r)

end Core

end Cert.KernelIdeal.R2V

namespace Cert.KernelIdeal.R2V

open Cert.KernelIdeal Cert.KernelIdeal.Gen
open Idealize.ShloMosaic Idealize.SL.Sem
open scoped BigOperators

section Out

variable (a : (pcfg2 (F := Ideal)).Adm)
variable (SN : (⟨1, ![100352]⟩ : Shape).Idx → EReal) (HW : (⟨2, ![100352, 16]⟩ : Shape).Idx → EReal)
  (DST : (⟨1, ![1601536]⟩ : Shape).Idx → BitVec 32) (G : (⟨2, ![1601536, 16]⟩ : Shape).Idx → EReal)
  (B : (⟨2, ![1, 16]⟩ : Shape).Idx → EReal)

/-- The bias block the body loads at point `t`. -/
abbrev bAt (t : Fin (cfg2 a).N) : Vec Ideal S1x16 .f32 := (((cfg2 a).win 4).blk t).view.read (Elt Ideal) B

/-- WHAT THE REGION COMPUTES, as one function of the arrays: at row `i 0` and column `i 1`, the row's self weight times
    the dense layer's entry, plus the messages of all edges whose target is the row, plus the bias; then the maximum with zero. -/
def outG : (⟨2, ![100352, 16]⟩ : Shape).Idx → EReal := fun i =>
  max (SN (ValueIdx.ix1 (i 0)) * HW (ValueIdx.ix2 (i 0) (i 1))
      + (∑ p : Fin 1601536, if (DST (ValueIdx.ix1 p)).toNat = (i 0).val then G (ValueIdx.ix2 p (i 1)) else 0)
      + B (ValueIdx.ix2 (0 : Fin 1) (i 1))) 0

/-- The region's function at row `N`, column `d`. -/
theorem outG_apply (N : Fin 100352) (d : Fin 16) :
    outG SN HW DST G B (ValueIdx.ix2 N d)
      = max (SN (ValueIdx.ix1 N) * HW (ValueIdx.ix2 N d)
          + (∑ p : Fin 1601536, if (DST (ValueIdx.ix1 p)).toNat = N.val then G (ValueIdx.ix2 p d) else 0)
          + B (ValueIdx.ix2 (0 : Fin 1) d)) 0 := rfl

/-- The bias block is the bias. -/
theorem bAt_eq (t : Fin (cfg2 a).N) (d : Fin 16) :
    bAt a B t (ValueIdx.ix2 (0 : Fin 1) d) = B (ValueIdx.ix2 (0 : Fin 1) d) := read4 a t B 0 d

/-- The addends of all 391 edge tiles are the messages of all 1601536 edge positions whose target is the row. -/
theorem tiles_total (I : ℕ) (n : Fin 2048) (d : Fin 16) :
    ∑ j ∈ Finset.range 391, tileSum DST G I j n d
      = ∑ p : Fin 1601536, if (DST (ValueIdx.ix1 p)).toNat = 2048 * I + n.val then G (ValueIdx.ix2 p d) else 0 := by
  rw [Finset.sum_range,
    ← sum_tiles (f := fun p => if (DST (ValueIdx.ix1 p)).toNat = 2048 * I + n.val then G (ValueIdx.ix2 p d) else 0)]
  refine Finset.sum_congr rfl fun j _ => ?_
  unfold tileSum
  refine Finset.sum_congr rfl fun r _ => ?_
  have hb : 4096 * j.val + r.val < 1601536 := by have := j.isLt; have := r.isLt; omega
  unfold dstN gN
  rw [dif_pos hb, dif_pos hb]

/-- WHAT THE LAST POINT OF A NODE TILE'S RUN WRITES BACK, at row `n` and column `d` of its block: the region's function at
    that row of the array. -/
theorem flushed_value
    (acc : (m : ℕ) → m < (cfg2 a).N → Vec Ideal S2048x16 .f32)
    (act : grid2.Coords → Prop) [DecidablePred act]
    (hfirst : ∀ t : Fin (cfg2 a).N, (grid2.coords t 1).val = 0 →
      acc t.val t.isLt = if act (grid2.coords t)
        then k2_pay2 (grid2.coords t) (dstAt a DST t) (k2_pay1 (snAt a SN t) (hwAt a HW t)) (gAt a G t)
        else k2_pay1 (snAt a SN t) (hwAt a HW t))
    (hnext : ∀ (m : ℕ) (h : m + 1 < (cfg2 a).N), (grid2.coords ⟨m + 1, h⟩ 1).val ≠ 0 →
      acc (m + 1) h = if act (grid2.coords ⟨m + 1, h⟩)
        then k2_pay2 (grid2.coords ⟨m + 1, h⟩) (dstAt a DST ⟨m + 1, h⟩) (acc m (Nat.lt_of_succ_lt h)) (gAt a G ⟨m + 1, h⟩)
        else acc m (Nat.lt_of_succ_lt h))
    (hmiss : ∀ t : Fin (cfg2 a).N, ¬ act (grid2.coords t) → ∀ (n : Fin 2048) (r : Fin 4096),
      (dstN DST (4096 * (t.val % 391) + r.val)).toNat ≠ 2048 * (t.val / 391) + n.val)
    (t : Fin (cfg2 a).N) (hlast : t.val % 391 = 390) (n : Fin 2048) (d : Fin 16) :
    k2_pay3 (acc t.val t.isLt) (bAt a B t) (ValueIdx.ix2 n d)
      = outG SN HW DST G B (ValueIdx.ix2 (⟨2048 * (grid2.coords t 0).val + n.val, by have := c0_lt a t; omega⟩ : Fin 100352) d) := by
  have hrow : (⟨2048 * (grid2.coords t 0).val + n.val, by have := c0_lt a t; omega⟩ : Fin 100352)
      = ⟨2048 * (t.val / 391) + n.val, node_lt a t n⟩ := Fin.ext (by
    show 2048 * (grid2.coords t 0).val + n.val = 2048 * (t.val / 391) + n.val; rw [co0])
  rw [hrow, outG_apply, pay3_apply, scratch_value a SN HW DST G acc act hfirst hnext hmiss n d t.val t.isLt, hlast,
    tiles_total DST G (t.val / 391) n d, bAt_eq]
  unfold snN hwN
  rw [dif_pos (node_lt a t n), dif_pos (node_lt a t n)]

/-- THE RESULT ARRAY after the region: the region's function of the arrays, at every row and column — from what the body
    leaves in the result's block at each point (the third payload of the scratch and the bias) and the points that write
    their block back (the last of each node tile's run), whose blocks cover the array. -/
theorem out_of_dat {Ix : Type} [DecidableEq Ix] {Name : Type} [DecidableEq Name] {U : Type} [Idealize.SL.RA.URA U] {Lvl : Type}
    (c : Dev nD) (dat : Pipeline.Dat τ (Elt Ideal) Ix Name U Lvl (cfg2 a) c)
    (acc : (m : ℕ) → m < (cfg2 a).N → Vec Ideal S2048x16 .f32)
    (act : grid2.Coords → Prop) [DecidablePred act]
    (hfirst : ∀ t : Fin (cfg2 a).N, (grid2.coords t 1).val = 0 →
      acc t.val t.isLt = if act (grid2.coords t)
        then k2_pay2 (grid2.coords t) (dstAt a DST t) (k2_pay1 (snAt a SN t) (hwAt a HW t)) (gAt a G t)
        else k2_pay1 (snAt a SN t) (hwAt a HW t))
    (hnext : ∀ (m : ℕ) (h : m + 1 < (cfg2 a).N), (grid2.coords ⟨m + 1, h⟩ 1).val ≠ 0 →
      acc (m + 1) h = if act (grid2.coords ⟨m + 1, h⟩)
        then k2_pay2 (grid2.coords ⟨m + 1, h⟩) (dstAt a DST ⟨m + 1, h⟩) (acc m (Nat.lt_of_succ_lt h)) (gAt a G ⟨m + 1, h⟩)
        else acc m (Nat.lt_of_succ_lt h))
    (hmiss : ∀ t : Fin (cfg2 a).N, ¬ act (grid2.coords t) → ∀ (n : Fin 2048) (r : Fin 4096),
      (dstN DST (4096 * (t.val % 391) + r.val)).toNat ≠ 2048 * (t.val / 391) + n.val)
    (hafter : ∀ t : Fin (cfg2 a).N, dat.after 5 t = k2_pay3 (acc t.val t.isLt) (bAt a B t))
    (hflush : ∀ t : Fin (cfg2 a).N, ((cfg2 a).win 5).flush t = true ↔ t.val % 391 = 390) :
    dat.arrAt 5 (cfg2 a).N = outG SN HW DST G B := by
  refine dat.arrAt_eq_of_cover 5 (outG SN HW DST G B) (fun t hf => ?_) (fun i => ?_)
  · have hlast := (hflush t).mp hf
    funext y
    obtain ⟨n, d, rfl⟩ : ∃ (n : Fin 2048) (d : Fin 16), y = ValueIdx.ix2 n d := ⟨_, _, ValueIdx.eq_ix2 (n0 := 2048) (n1 := 16) y⟩
    show dat.after 5 t (ValueIdx.ix2 n d) = outG SN HW DST G B ((((cfg2 a).win 5).blk t).view.emb (ValueIdx.ix2 n d))
    refine (congrFun (hafter t) (ValueIdx.ix2 n d)).trans ?_
    refine Eq.trans ?_ (congrArg (outG SN HW DST G B) (emb5 a t n d)).symm
    exact flushed_value a SN HW DST G B acc act hfirst hnext hmiss t hlast n d
  · obtain ⟨t, hlast, hmem⟩ := cover5 a i
    exact ⟨t, (hflush t).mpr hlast, hmem⟩

end Out

end Cert.KernelIdeal.R2V

namespace Cert.KernelIdeal.R2V

open Cert.KernelIdeal Cert.KernelIdeal.Gen
open Idealize.ShloMosaic Idealize.SL.Sem
open scoped BigOperators

section Miss

variable (a : (pcfg2 (F := Ideal)).Adm) (DST : (⟨1, ![1601536]⟩ : Shape).Idx → BitVec 32)

/-- A POINT THAT FAILS THE TEST HAS NO TARGET IN ITS NODE TILE: when each edge tile's targets lie between the tile's two
    table words (as signed integers), and the test at a point is the pair of inequalities between the node tile's row range
    and the edge tile's table words, a point where some target of the edge tile is a row of the node tile passes the test. -/
theorem miss_of_bounds (tmin tmax : Fin 391 → BitVec 32)
    (hb : ∀ (k : Fin 391) (r : Fin 4096),
      (tmin k).toInt ≤ (DST (ValueIdx.ix1 ⟨4096 * k.val + r.val, by have := k.isLt; have := r.isLt; omega⟩)).toInt
        ∧ (DST (ValueIdx.ix1 ⟨4096 * k.val + r.val, by have := k.isLt; have := r.isLt; omega⟩)).toInt ≤ (tmax k).toInt)
    (act : grid2.Coords → Prop)
    (hact : ∀ t : Fin (cfg2 a).N, act (grid2.coords t) ↔
      ((2048 * (t.val / 391 : ℕ) : ℤ) ≤ (tmax ⟨t.val % 391, Nat.mod_lt _ (by decide)⟩).toInt
        ∧ (tmin ⟨t.val % 391, Nat.mod_lt _ (by decide)⟩).toInt < 2048 * (t.val / 391 : ℕ) + 2048)) :
    ∀ t : Fin (cfg2 a).N, ¬ act (grid2.coords t) → ∀ (n : Fin 2048) (r : Fin 4096),
      (dstN DST (4096 * (t.val % 391) + r.val)).toNat ≠ 2048 * (t.val / 391) + n.val := by
  intro t hna n r heq
  apply hna
  rw [hact t]
  have hI : t.val / 391 < 49 := by have := N_eq a; have := t.isLt; omega
  obtain ⟨hlo, hhi⟩ := hb ⟨t.val % 391, Nat.mod_lt _ (by decide)⟩ r
  have hd : dstN DST (4096 * (t.val % 391) + r.val)
      = DST (ValueIdx.ix1 ⟨4096 * (t.val % 391) + r.val, edge_lt a t r⟩) := by
    unfold dstN; rw [dif_pos (edge_lt a t r)]
  rw [hd] at heq
  exact act_of_hit (t.val / 391) n.val hI n.isLt _ _ _ hlo hhi heq

end Miss

end Cert.KernelIdeal.R2V

namespace Cert.KernelIdeal.R2V

open Cert.KernelIdeal Cert.KernelIdeal.Gen
open Idealize.ShloMosaic Idealize.ShloMosaic.TcCoe Idealize.SL.Sem
open scoped BigOperators

section Final

variable (V : (c : Dev nD) → (b : Ref sig .tc) → Buf (Elt Ideal) ((c : Thread nD τ).loc b))
  (a : (pcfg2 (F := Ideal)).Adm) (c : Dev nD)

/-- The arrays the region reads, as it finds them: the edges' targets, the messages, the dense layer's output, the self
    weights, the bias. -/
abbrev dstV : (⟨1, ![1601536]⟩ : Shape).Idx → BitVec 32 := V c main_v66
abbrev gV : (⟨2, ![1601536, 16]⟩ : Shape).Idx → EReal := V c main_v91
abbrev hwV : (⟨2, ![100352, 16]⟩ : Shape).Idx → EReal := V c main_v83
abbrev snV : (⟨1, ![100352]⟩ : Shape).Idx → EReal := V c main_v76
abbrev bV : (⟨2, ![1, 16]⟩ : Shape).Idx → EReal := V c main_v92
/-- The two tables, entry by entry: each edge tile's least and greatest target. -/
abbrev tminV (k : Fin 391) : BitVec 32 := (a.1 0) (ValueIdx.ix1 k)
abbrev tmaxV (k : Fin 391) : BitVec 32 := (a.1 1) (ValueIdx.ix1 k)

/-- The word of the first table the body loads at point `i` is the table's entry at the point's edge tile … -/
theorem wMin_eq (i : grid2.Coords) : R2.wMin a i = tminV a ⟨(i 1).val, (i 1).isLt⟩ := by
  have h : ∀ f : (⟨1, ![391]⟩ : Shape).Idx → BitVec 32,
      R2.wd2 (F := Ideal) R2.tbMin f i = f (ValueIdx.ix1 (⟨(i 1).val, (i 1).isLt⟩ : Fin 391)) := by
    intro f
    show f _ = f _
    congr 1
    funext ax; apply Fin.ext
    match ax with
    | ⟨0, _⟩ =>
      show k2_off1 i 0 + 1 * 0 = (i 1).val
      rw [k2_off1_eq]; rfl
  exact h (a.1 0)

/-- … and likewise the second table's. -/
theorem wMax_eq (i : grid2.Coords) : R2.wMax a i = tmaxV a ⟨(i 1).val, (i 1).isLt⟩ := by
  have h : ∀ f : (⟨1, ![391]⟩ : Shape).Idx → BitVec 32,
      R2.wd2 (F := Ideal) R2.tbMax f i = f (ValueIdx.ix1 (⟨(i 1).val, (i 1).isLt⟩ : Fin 391)) := by
    intro f
    show f _ = f _
    congr 1
    funext ax; apply Fin.ext
    match ax with
    | ⟨0, _⟩ =>
      show k2_off1 i 0 + 1 * 0 = (i 1).val
      rw [k2_off1_eq]; rfl
  exact h (a.1 1)

/-- THE TEST AT A POINT, read on the tables: point `t` accumulates exactly when node tile `t / 391`'s row range
    `[2048 * (t / 391), 2048 * (t / 391) + 2048)` meets the range between edge tile `t % 391`'s two table entries. -/
theorem act2_iff (t : Fin (cfg2 a).N) :
    R2.act2 a (grid2.coords t) ↔
      ((2048 * (t.val / 391 : ℕ) : ℤ) ≤ (tmaxV a ⟨t.val % 391, Nat.mod_lt _ (by decide)⟩).toInt
        ∧ (tminV a ⟨t.val % 391, Nat.mod_lt _ (by decide)⟩).toInt < 2048 * (t.val / 391 : ℕ) + 2048) := by
  have e0 : (grid2.coords t 0).val = t.val / 391 := co0 a t
  have kx : (⟨(grid2.coords t 1).val, (grid2.coords t 1).isLt⟩ : Fin 391) = ⟨t.val % 391, Nat.mod_lt _ (by decide)⟩ :=
    Fin.ext (co1 a t)
  show R2.k2_act (grid2.coords t) (R2.wMax a (grid2.coords t)) (R2.wMin a (grid2.coords t)) = 1#1 ↔ _
  rw [wMax_eq, wMin_eq, kx, ← e0]
  exact act_word_iff (grid2.coords t 0).val (c0_lt a t) _ _

/-- THE REGION'S RESULT. If every edge tile's targets lie between the tile's two table entries (as signed integers), the
    result array after the region holds, at row `n` and column `d`: the row's self weight times the dense layer's entry,
    plus the messages of all edges whose target is the row, plus the bias; then the maximum with zero. -/
theorem out_eq
    (hb : ∀ (k : Fin 391) (r : Fin 4096),
      (tminV a k).toInt
          ≤ (dstV V c (ValueIdx.ix1 ⟨4096 * k.val + r.val, by have := k.isLt; have := r.isLt; omega⟩)).toInt
        ∧ (dstV V c (ValueIdx.ix1 ⟨4096 * k.val + r.val, by have := k.isLt; have := r.isLt; omega⟩)).toInt
          ≤ (tmaxV a k).toInt) :
    ∀ (n : Fin 100352) (d : Fin 16),
      (R2.dat2 V a c).arrAt 5 (cfg2 a).N (ValueIdx.ix2 n d)
        = max (snV V c (ValueIdx.ix1 n) * hwV V c (ValueIdx.ix2 n d)
            + (∑ p : Fin 1601536, if (dstV V c (ValueIdx.ix1 p)).toNat = n.val then gV V c (ValueIdx.ix2 p d) else 0)
            + bV V c (ValueIdx.ix2 (0 : Fin 1) d)) 0 := by
  intro n d
  have hmiss := miss_of_bounds a (dstV V c) (tminV a) (tmaxV a) hb (R2.act2 a) (act2_iff a)
  have key := out_of_dat a (snV V c) (hwV V c) (dstV V c) (gV V c) (bV V c) c (R2.dat2 V a c) (R2.accAt2 V a c) (R2.act2 a)
    (fun t hk => R2.accAt2_first V a c t hk)
    (fun m h hk => R2.accAt2_next V a c ⟨m + 1, h⟩ hk)
    hmiss (R2.after2_5 V a c) (R2.flush2_5 a)
  exact (congrFun key (ValueIdx.ix2 n d)).trans (outG_apply (snV V c) (hwV V c) (dstV V c) (gV V c) (bV V c) n d)

end Final

end Cert.KernelIdeal.R2V
-- ==== Proof.R5Pay.lean ====
import proofs.«417346_j54202487276072_2_alg».proof.Proof.Gen.KernelIdeal.Skeleton
import proofs.«417346_j54202487276072_2_alg».proof.Proof.R2Alg
import Idealize.ShloMosaic.Lib.ValueIdx
import Idealize.ShloMosaic.Lib.ValueLayout
import Idealize.ShloMosaic.Lib.Pipeline.Value
import Idealize.ShloMosaic.PureOps.Ideal.Laws

/-!
  The three payloads of the scatter kernel read at one element, at the ideal values: the first is the row's
  self weight times the dense layer's entry; the second adds to the scratch the targets' 0/1 matrix times the
  tile of messages, which is the sum of the messages whose target is the row; the third adds the bias and
  takes the maximum with zero.
-/

noncomputable section

namespace Cert.KernelIdeal.R5V

open Cert.KernelIdeal.R2V (acc_eq_sum act_of_hit act_word_iff cmpi_eq_def gate_bits ite_mul_eq node_word_eq onehot_val scratch_closed sum_tiles tile_word_toNat)

open Cert.KernelIdeal Cert.KernelIdeal.Gen
open Idealize.ShloMosaic Idealize.SL.Sem
open scoped BigOperators

/-! ## Two layout operations at an index -/

section Layout
variable {α : Type}

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ValueIdx.ix2 p c) = v (ValueIdx.ix2 p (0 : Fin 1)) := by
  refine broadcastTo_apply v h (ValueIdx.ix2 p c) (ValueIdx.ix2 p (0 : Fin 1)) fun ax => ?_
  match ax with
  | ⟨0, _⟩ =>
    show p.val = if a = 1 then 0 else p.val
    split
    · have := p.isLt; omega
    · rfl
  | ⟨1, _⟩ => rfl

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ValueIdx.ix2 i u) = x (ValueIdx.ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An integer comparison of two vectors at an index compares the elements. -/
theorem cmpi_apply {s : Shape} {w : Nat} (p : CmpIPredicate) (x y : IVec s w) (i : s.Idx) : cmpi p x y i = IntOp.cmpi p (x i) (y i) := rfl
/-- An integer sum of two vectors at an index adds the elements. -/
theorem addi_apply {s : Shape} {w : Nat} (x y : IVec s w) (i : s.Idx) : addi x y i = IntOp.addi (x i) (y i) := rfl

end Layout

/-! ## The first payload -/

/-- The first payload at row `n`, column `d`: the row's self weight times the dense layer's entry, in that order. -/
theorem pay1_apply (sn : Vec Ideal S2048 .f32) (hw : Vec Ideal S2048x64 .f32) (n : Fin 2048) (d : Fin 64) :
    k5_pay1 sn hw (ValueIdx.ix2 n d) = sn (ValueIdx.ix1 n) * hw (ValueIdx.ix2 n d) := by
  unfold k5_pay1
  simp only [shapeCast_self, ValueIdx.mulf_apply, broadcastTo_a1_ab_apply, shapeCast_a_a1_apply]

/-! ## The third payload -/

/-- The third payload at row `n`, column `d`: the scratch plus the bias, then the maximum with zero. -/
theorem pay3_apply (acc : Vec Ideal S2048x64 .f32) (b : Vec Ideal S1x64 .f32) (n : Fin 2048) (d : Fin 64) :
    k5_pay3 acc b (ValueIdx.ix2 n d) = max (acc (ValueIdx.ix2 n d) + b (ValueIdx.ix2 (0 : Fin 1) d)) 0 := by
  unfold k5_pay3
  simp only [shapeCast_self, ValueIdx.maximumf_apply, ValueIdx.addf_apply, ValueIdx.broadcast_apply, ValueIdx.broadcastTo_1b_ab_apply]
  show max _ (Ideal.ofBits .f32 0x00000000#32) = _
  rw [Ideal.ofBits_zero_f32]

/-! ## The second payload -/

/-- The product's dimension numbers contract one axis of extent 4096. -/
abbrev D5 := dot_S2048x4096_S4096x64_S2048x64_1_0_0_1_n_n

/-- The contraction index of the product is a position in the tile of targets. -/
def ce : D5.contr.Idx ≃ Fin 4096 := ValueIdx.contrEquiv1 D5 4096 rfl rfl

/-- At output `(n, d)` and contraction position `r` the left operand is read at `(n, r)` … -/
theorem lhs_at (n : Fin 2048) (d : Fin 64) (r : Fin 4096) : D5.lhsIdx (ValueIdx.ix2 n d) (ce.symm r) = ValueIdx.ix2 n r := by
  refine Shape.idx_ext₂ ?_ ?_
  · first
    | rfl
    | (simp [DotDims.lhsIdx, D5, dot_S2048x4096_S4096x64_S2048x64_1_0_0_1_n_n]; done)
    | (simp [DotDims.lhsIdx, D5, dot_S2048x4096_S4096x64_S2048x64_1_0_0_1_n_n]; rfl)
  · exact (D5.lhsIdx_val_of_single (cl := 1) rfl _ _).trans (ValueIdx.contrEquiv1_symm_val D5 4096 rfl rfl r)

/-- … and the right operand at `(r, d)`. -/
theorem rhs_at (n : Fin 2048) (d : Fin 64) (r : Fin 4096) : D5.rhsIdx (ValueIdx.ix2 n d) (ce.symm r) = ValueIdx.ix2 r d := by
  refine Shape.idx_ext₂ ?_ ?_
  · exact (D5.rhsIdx_val_of_single (cr := 0) rfl _ _).trans (ValueIdx.contrEquiv1_symm_val D5 4096 rfl rfl r)
  · first
    | rfl
    | (simp [DotDims.rhsIdx, D5, dot_S2048x4096_S4096x64_S2048x64_1_0_0_1_n_n]; done)
    | (simp [DotDims.rhsIdx, D5, dot_S2048x4096_S4096x64_S2048x64_1_0_0_1_n_n]; rfl)

/-- The second payload at row `n`, column `d`: the scratch plus the messages of the tile whose target is row `n` of node tile
    `i 0` (the 0/1 matrix selects: `1 * x = x` and `0 * x = 0` for every extended real). -/
theorem pay2_apply (i : grid5.Coords) (dst : Vec Ideal S4096 .i32) (acc : Vec Ideal S2048x64 .f32) (g : Vec Ideal S4096x64 .f32)
    (n : Fin 2048) (d : Fin 64) :
    k5_pay2 i dst acc g (ValueIdx.ix2 n d)
      = acc (ValueIdx.ix2 n d)
        + ∑ r : Fin 4096, if BitVec.toNat (dst (ValueIdx.ix1 r)) = 2048 * (i 0).val + n.val then g (ValueIdx.ix2 r d) else 0 := by
  unfold k5_pay2
  simp only [shapeCast_self, ValueIdx.addf_apply, matmul]
  rw [Ideal.matmul_constant_zero_apply]
  refine congrArg (acc (ValueIdx.ix2 n d) + ·) ?_
  rw [← Equiv.sum_comp ce.symm]
  refine Finset.sum_congr rfl fun r _ => ?_
  rw [lhs_at, rhs_at]
  simp only [ValueIdx.truncf_apply, ValueIdx.sitofp_apply, ValueIdx.extui_apply, cmpi_apply, addi_apply, broadcastTo_a1_ab_apply,
    ValueIdx.broadcastTo_1b_ab_apply, ValueIdx.shapeCast_a_1a_apply, iota_single_apply, ValueIdx.broadcast_apply]
  have hI : (i 0).val < 49 := (i 0).isLt
  have hio : iota Kind.tc S2048x1 32 [0] iota_S2048x1_d0_w32 (ValueIdx.ix2 n (0 : Fin 1)) = BitVec.ofNat 32 n.val :=
    iota_single_apply Kind.tc S2048x1 32 0 iota_S2048x1_d0_w32 (ValueIdx.ix2 n (0 : Fin 1))
  rw [onehot_val, ite_mul_eq, hio]
  exact if_congr (node_word_eq (i 0).val n.val hI n.isLt _) rfl rfl

end Cert.KernelIdeal.R5V
-- ==== Proof.R5Blk.lean ====
import proofs.«417346_j54202487276072_2_alg».proof.Proof.Gen.KernelIdeal.Launch
import Idealize.ShloMosaic.Lib.ValueIdx
import Idealize.ShloMosaic.Lib.Pipeline.Value

/-!
  Where the scatter region's blocks sit in their arrays. Point `t` of the grid `[49, 391]` is edge tile `t % 391` of node
  tile `t / 391`. The windows over the node arrays (the dense layer's output, the self weights, the result) move with the
  node tile, 2048 rows at a time; the windows over the edge arrays (the targets, the messages) move with the edge tile,
  4096 positions at a time; the bias is one block. So an element of a block is the array's element at block index times
  block size plus the element's own coordinate; and every row of the result lies in the block of the last point of its
  node tile's run.
-/

noncomputable section

namespace Cert.KernelIdeal.R5V

open Cert.KernelIdeal Cert.KernelIdeal.Gen
open Idealize.ShloMosaic Idealize.SL.Sem

variable {F : FTy → Type} [FloatOps F] (a : (pcfg5 (F := F)).Adm)

/-- A natural below `2 ^ 32` is the value of its own 32-bit word. -/
theorem ofNat_toNat_lt (x : Nat) (h : x < 4294967296) : (BitVec.ofNat 32 x).toNat = x := by
  rw [BitVec.toNat_ofNat]; omega

/-! ## The grid's coordinates -/

/-- The grid has `49 * 391` points. -/
theorem N_eq : (cfg5 a).N = 19159 := N_5
/-- The node-tile coordinate is below 49 … -/
theorem c0_lt (t : Fin (cfg5 a).N) : (grid5.coords t 0).val < 49 := (grid5.coords t 0).isLt
/-- … and the edge-tile coordinate below 391. -/
theorem c1_lt (t : Fin (cfg5 a).N) : (grid5.coords t 1).val < 391 := (grid5.coords t 1).isLt
/-- The node-tile coordinate of point `t` is `t / 391` … -/
theorem co0 (t : Fin (cfg5 a).N) : (grid5.coords t 0).val = t.val / 391 := by
  have hs : grid5.stride 0 = 391 := by decide
  have ht : t.val < 19159 := (N_eq a) ▸ t.isLt
  show t.val / grid5.stride 0 % 49 = _
  rw [hs]; omega
/-- … and its edge-tile coordinate is `t % 391`. -/
theorem co1 (t : Fin (cfg5 a).N) : (grid5.coords t 1).val = t.val % 391 := by
  have hs : grid5.stride 1 = 1 := by decide
  show t.val / grid5.stride 1 % 391 = _
  rw [hs]; omega

/-! ## The windows' block indices -/

/-- The targets' window is at the edge tile. -/
theorem idx0 (t : Fin (cfg5 a).N) : ((cfg5 a).win 0).index t (0 : Fin 1) = (grid5.coords t 1).val := by
  show (BitVec.ofNat 32 (grid5.coords t 1).val).toNat = _
  exact ofNat_toNat_lt _ (by have := c1_lt a t; omega)
/-- The messages' window is at the edge tile, all columns. -/
theorem idx1_0 (t : Fin (cfg5 a).N) : ((cfg5 a).win 1).index t (0 : Fin 2) = (grid5.coords t 1).val := by
  show (BitVec.ofNat 32 (grid5.coords t 1).val).toNat = _
  exact ofNat_toNat_lt _ (by have := c1_lt a t; omega)
theorem idx1_1 (t : Fin (cfg5 a).N) : ((cfg5 a).win 1).index t (1 : Fin 2) = 0 := rfl
/-- The dense layer's window is at the node tile, all columns. -/
theorem idx2_0 (t : Fin (cfg5 a).N) : ((cfg5 a).win 2).index t (0 : Fin 2) = (grid5.coords t 0).val := by
  show (BitVec.ofNat 32 (grid5.coords t 0).val).toNat = _
  exact ofNat_toNat_lt _ (by have := c0_lt a t; omega)
theorem idx2_1 (t : Fin (cfg5 a).N) : ((cfg5 a).win 2).index t (1 : Fin 2) = 0 := rfl
/-- The self weights' window is at the node tile. -/
theorem idx3 (t : Fin (cfg5 a).N) : ((cfg5 a).win 3).index t (0 : Fin 1) = (grid5.coords t 0).val := by
  show (BitVec.ofNat 32 (grid5.coords t 0).val).toNat = _
  exact ofNat_toNat_lt _ (by have := c0_lt a t; omega)
/-- The bias is one block. -/
theorem idx4_0 (t : Fin (cfg5 a).N) : ((cfg5 a).win 4).index t (0 : Fin 2) = 0 := rfl
theorem idx4_1 (t : Fin (cfg5 a).N) : ((cfg5 a).win 4).index t (1 : Fin 2) = 0 := rfl
/-- The result's window is at the node tile, all columns. -/
theorem idx5_0 (t : Fin (cfg5 a).N) : ((cfg5 a).win 5).index t (0 : Fin 2) = (grid5.coords t 0).val := by
  show (BitVec.ofNat 32 (grid5.coords t 0).val).toNat = _
  exact ofNat_toNat_lt _ (by have := c0_lt a t; omega)
theorem idx5_1 (t : Fin (cfg5 a).N) : ((cfg5 a).win 5).index t (1 : Fin 2) = 0 := rfl

/-! ## Blocks read at an index -/

/-- Element `(n, d)` of the result's block at point `t` is the array's element `(2048 * (node tile) + n, d)`. -/
theorem emb5 (t : Fin (cfg5 a).N) (n : Fin 2048) (d : Fin 64) :
    (((cfg5 a).win 5).blk t).view.emb (ValueIdx.ix2 n d)
      = ValueIdx.ix2 (⟨2048 * (grid5.coords t 0).val + n.val, by have := c0_lt a t; omega⟩ : Fin 100352) d := by
  funext ax; apply Fin.ext
  match ax with
  | ⟨0, _⟩ =>
    show ((cfg5 a).win 5).index t (0 : Fin 2) * 2048 + 1 * n.val = 2048 * (grid5.coords t 0).val + n.val
    rw [idx5_0]; omega
  | ⟨1, _⟩ =>
    show ((cfg5 a).win 5).index t (1 : Fin 2) * 64 + 1 * d.val = d.val
    rw [idx5_1]; omega

/-- The self weights' block at point `t`, read at `n`. -/
theorem read3 (t : Fin (cfg5 a).N) (X : (⟨1, ![100352]⟩ : Shape).Idx → Elt F .f32) (n : Fin 2048) :
    (((cfg5 a).win 3).blk t).view.read (Elt F) X (ValueIdx.ix1 n)
      = X (ValueIdx.ix1 (⟨2048 * (grid5.coords t 0).val + n.val, by have := c0_lt a t; omega⟩ : Fin 100352)) := by
  show X ((((cfg5 a).win 3).blk t).view.emb (ValueIdx.ix1 n)) = _
  congr 1
  funext ax; apply Fin.ext
  match ax with
  | ⟨0, _⟩ =>
    show ((cfg5 a).win 3).index t (0 : Fin 1) * 2048 + 1 * n.val = 2048 * (grid5.coords t 0).val + n.val
    rw [idx3]; omega

/-- The dense layer's block at point `t`, read at `(n, d)`. -/
theorem read2 (t : Fin (cfg5 a).N) (X : (⟨2, ![100352, 64]⟩ : Shape).Idx → Elt F .f32) (n : Fin 2048) (d : Fin 64) :
    (((cfg5 a).win 2).blk t).view.read (Elt F) X (ValueIdx.ix2 n d)
      = X (ValueIdx.ix2 (⟨2048 * (grid5.coords t 0).val + n.val, by have := c0_lt a t; omega⟩ : Fin 100352) d) := by
  show X ((((cfg5 a).win 2).blk t).view.emb (ValueIdx.ix2 n d)) = _
  congr 1
  funext ax; apply Fin.ext
  match ax with
  | ⟨0, _⟩ =>
    show ((cfg5 a).win 2).index t (0 : Fin 2) * 2048 + 1 * n.val = 2048 * (grid5.coords t 0).val + n.val
    rw [idx2_0]; omega
  | ⟨1, _⟩ =>
    show ((cfg5 a).win 2).index t (1 : Fin 2) * 64 + 1 * d.val = d.val
    rw [idx2_1]; omega

/-- The targets' block at point `t`, read at `r`. -/
theorem read0 (t : Fin (cfg5 a).N) (X : (⟨1, ![1601536]⟩ : Shape).Idx → Elt F .i32) (r : Fin 4096) :
    (((cfg5 a).win 0).blk t).view.read (Elt F) X (ValueIdx.ix1 r)
      = X (ValueIdx.ix1 (⟨4096 * (grid5.coords t 1).val + r.val, by have := c1_lt a t; omega⟩ : Fin 1601536)) := by
  show X ((((cfg5 a).win 0).blk t).view.emb (ValueIdx.ix1 r)) = _
  congr 1
  funext ax; apply Fin.ext
  match ax with
  | ⟨0, _⟩ =>
    show ((cfg5 a).win 0).index t (0 : Fin 1) * 4096 + 1 * r.val = 4096 * (grid5.coords t 1).val + r.val
    rw [idx0]; omega

/-- The messages' block at point `t`, read at `(r, d)`. -/
theorem read1 (t : Fin (cfg5 a).N) (X : (⟨2, ![1601536, 64]⟩ : Shape).Idx → Elt F .f32) (r : Fin 4096) (d : Fin 64) :
    (((cfg5 a).win 1).blk t).view.read (Elt F) X (ValueIdx.ix2 r d)
      = X (ValueIdx.ix2 (⟨4096 * (grid5.coords t 1).val + r.val, by have := c1_lt a t; omega⟩ : Fin 1601536) d) := by
  show X ((((cfg5 a).win 1).blk t).view.emb (ValueIdx.ix2 r d)) = _
  congr 1
  funext ax; apply Fin.ext
  match ax with
  | ⟨0, _⟩ =>
    show ((cfg5 a).win 1).index t (0 : Fin 2) * 4096 + 1 * r.val = 4096 * (grid5.coords t 1).val + r.val
    rw [idx1_0]; omega
  | ⟨1, _⟩ =>
    show ((cfg5 a).win 1).index t (1 : Fin 2) * 64 + 1 * d.val = d.val
    rw [idx1_1]; omega

/-- The bias block, read at column `d`. -/
theorem read4 (t : Fin (cfg5 a).N) (X : (⟨2, ![1, 64]⟩ : Shape).Idx → Elt F .f32) (u : Fin 1) (d : Fin 64) :
    (((cfg5 a).win 4).blk t).view.read (Elt F) X (ValueIdx.ix2 u d) = X (ValueIdx.ix2 (0 : Fin 1) d) := by
  show X ((((cfg5 a).win 4).blk t).view.emb (ValueIdx.ix2 u d)) = _
  congr 1
  funext ax; apply Fin.ext
  match ax with
  | ⟨0, _⟩ =>
    show ((cfg5 a).win 4).index t (0 : Fin 2) * 1 + 1 * u.val = 0
    rw [idx4_0]; omega
  | ⟨1, _⟩ =>
    show ((cfg5 a).win 4).index t (1 : Fin 2) * 64 + 1 * d.val = d.val
    rw [idx4_1]; omega

/-- Every row of the output is in the block of the last point of its node tile's run. -/
theorem cover5 (i : (⟨2, ![100352, 64]⟩ : Shape).Idx) :
    ∃ t : Fin (cfg5 a).N, t.val % 391 = 390 ∧ i ∈ (((cfg5 a).win 5).blk t).view.set := by
  have hi0 : (i 0).val < 100352 := (i 0).isLt
  have hi1 : (i 1).val < 64 := (i 1).isLt
  let t : Fin (cfg5 a).N := ⟨391 * ((i 0).val / 2048) + 390, by rw [N_eq]; omega⟩
  have h0 : (grid5.coords t 0).val = (i 0).val / 2048 := by
    rw [co0]; show (391 * ((i 0).val / 2048) + 390) / 391 = _; omega
  refine ⟨t, by show (391 * ((i 0).val / 2048) + 390) % 391 = 390; omega,
    Finset.mem_map.mpr ⟨ValueIdx.ix2 (⟨(i 0).val % 2048, by omega⟩ : Fin 2048) (⟨(i 1).val, hi1⟩ : Fin 64), Finset.mem_univ _, ?_⟩⟩
  refine (emb5 a t _ _).trans ?_
  funext ax; apply Fin.ext
  match ax with
  | ⟨0, _⟩ =>
    show 2048 * (grid5.coords t 0).val + (i 0).val % 2048 = (i 0).val
    rw [h0]; omega
  | ⟨1, _⟩ => rfl

end Cert.KernelIdeal.R5V
-- ==== Proof.R5Value.lean ====
import proofs.«417346_j54202487276072_2_alg».proof.Proof.R5Frame
import proofs.«417346_j54202487276072_2_alg».proof.Proof.R5Pay
import proofs.«417346_j54202487276072_2_alg».proof.Proof.R5Blk

/-!
  THE SCATTER REGION'S VALUE at the ideal values. Node tile `I` (2048 rows) meets the 391 edge tiles (4096 positions each)
  in turn. The scratch starts, at the first edge tile, from the row's self weight times the dense layer's entry; each edge
  tile that passes the test on its two table words adds the tile's messages whose target is the row (a 0/1 matrix times
  the tile of messages); a tile that fails the test holds no target in the node tile, because the table words bound the
  tile's targets; so after the last edge tile the scratch holds the self term plus the messages of ALL edges whose target
  is the row. The last point adds the bias, takes the maximum with zero, and writes the block back; those blocks cover the
  result array.
-/

noncomputable section

namespace Cert.KernelIdeal.R5V

open Cert.KernelIdeal.R2V (acc_eq_sum act_of_hit act_word_iff cmpi_eq_def gate_bits ite_mul_eq node_word_eq onehot_val scratch_closed sum_tiles tile_word_toNat)

open Cert.KernelIdeal Cert.KernelIdeal.Gen
open Idealize.ShloMosaic Idealize.SL.Sem
open scoped BigOperators

section Core

variable (a : (pcfg5 (F := Ideal)).Adm)
variable (SN : (⟨1, ![100352]⟩ : Shape).Idx → EReal) (HW : (⟨2, ![100352, 64]⟩ : Shape).Idx → EReal)
  (DST : (⟨1, ![1601536]⟩ : Shape).Idx → BitVec 32) (G : (⟨2, ![1601536, 64]⟩ : Shape).Idx → EReal)

/-- The self weights as a function of the row number (zero past the array). -/
def snN (p : ℕ) : EReal := if h : p < 100352 then SN (ValueIdx.ix1 ⟨p, h⟩) else 0
/-- The dense layer's output as a function of the row number and the column. -/
def hwN (p : ℕ) (d : Fin 64) : EReal := if h : p < 100352 then HW (ValueIdx.ix2 ⟨p, h⟩ d) else 0
/-- The targets as a function of the edge position. -/
def dstN (p : ℕ) : BitVec 32 := if h : p < 1601536 then DST (ValueIdx.ix1 ⟨p, h⟩) else 0
/-- The messages as a function of the edge position and the column. -/
def gN (p : ℕ) (d : Fin 64) : EReal := if h : p < 1601536 then G (ValueIdx.ix2 ⟨p, h⟩ d) else 0

/-- Edge tile `j`'s addend to row `n` of node tile `I`, column `d`: the tile's messages whose target is that row. -/
def tileSum (I j : ℕ) (n : Fin 2048) (d : Fin 64) : EReal :=
  ∑ r : Fin 4096, if (dstN DST (4096 * j + r.val)).toNat = 2048 * I + n.val then gN G (4096 * j + r.val) d else 0

/-- The blocks the body loads at point `t`. -/
abbrev dstAt (t : Fin (cfg5 a).N) : Vec Ideal S4096 .i32 := (((cfg5 a).win 0).blk t).view.read (Elt Ideal) DST
abbrev gAt (t : Fin (cfg5 a).N) : Vec Ideal S4096x64 .f32 := (((cfg5 a).win 1).blk t).view.read (Elt Ideal) G
abbrev hwAt (t : Fin (cfg5 a).N) : Vec Ideal S2048x64 .f32 := (((cfg5 a).win 2).blk t).view.read (Elt Ideal) HW
abbrev snAt (t : Fin (cfg5 a).N) : Vec Ideal S2048 .f32 := (((cfg5 a).win 3).blk t).view.read (Elt Ideal) SN

theorem node_lt (t : Fin (cfg5 a).N) (n : Fin 2048) : 2048 * (t.val / 391) + n.val < 100352 := by
  have := N_eq a; have := t.isLt; have := n.isLt; omega
theorem edge_lt (t : Fin (cfg5 a).N) (r : Fin 4096) : 4096 * (t.val % 391) + r.val < 1601536 := by
  have := r.isLt; omega

theorem snAt_eq (t : Fin (cfg5 a).N) (n : Fin 2048) :
    snAt a SN t (ValueIdx.ix1 n) = snN SN (2048 * (t.val / 391) + n.val) := by
  refine (read3 a t SN n).trans ?_
  unfold snN; rw [dif_pos (node_lt a t n)]
  exact congrArg SN (congrArg ValueIdx.ix1 (Fin.ext (by
    show 2048 * (grid5.coords t 0).val + n.val = 2048 * (t.val / 391) + n.val; rw [co0])))

theorem hwAt_eq (t : Fin (cfg5 a).N) (n : Fin 2048) (d : Fin 64) :
    hwAt a HW t (ValueIdx.ix2 n d) = hwN HW (2048 * (t.val / 391) + n.val) d := by
  refine (read2 a t HW n d).trans ?_
  unfold hwN; rw [dif_pos (node_lt a t n)]
  exact congrArg HW (congrArg (ValueIdx.ix2 · d) (Fin.ext (by
    show 2048 * (grid5.coords t 0).val + n.val = 2048 * (t.val / 391) + n.val; rw [co0])))

theorem dstAt_eq (t : Fin (cfg5 a).N) (r : Fin 4096) :
    dstAt a DST t (ValueIdx.ix1 r) = dstN DST (4096 * (t.val % 391) + r.val) := by
  refine (read0 a t DST r).trans ?_
  unfold dstN; rw [dif_pos (edge_lt a t r)]
  exact congrArg DST (congrArg ValueIdx.ix1 (Fin.ext (by
    show 4096 * (grid5.coords t 1).val + r.val = 4096 * (t.val % 391) + r.val; rw [co1])))

theorem gAt_eq (t : Fin (cfg5 a).N) (r : Fin 4096) (d : Fin 64) :
    gAt a G t (ValueIdx.ix2 r d) = gN G (4096 * (t.val % 391) + r.val) d := by
  refine (read1 a t G r d).trans ?_
  unfold gN; rw [dif_pos (edge_lt a t r)]
  exact congrArg G (congrArg (ValueIdx.ix2 · d) (Fin.ext (by
    show 4096 * (grid5.coords t 1).val + r.val = 4096 * (t.val % 391) + r.val; rw [co1])))

/-- The first payload at point `t`: the node tile's base value. -/
theorem pay1_at (t : Fin (cfg5 a).N) (n : Fin 2048) (d : Fin 64) :
    k5_pay1 (snAt a SN t) (hwAt a HW t) (ValueIdx.ix2 n d)
      = snN SN (2048 * (t.val / 391) + n.val) * hwN HW (2048 * (t.val / 391) + n.val) d := by
  rw [pay1_apply, snAt_eq, hwAt_eq]

/-- The second payload at point `t`: what was there plus the point's tile addend. -/
theorem pay2_at (t : Fin (cfg5 a).N) (X : Vec Ideal S2048x64 .f32) (n : Fin 2048) (d : Fin 64) :
    k5_pay2 (grid5.coords t) (dstAt a DST t) X (gAt a G t) (ValueIdx.ix2 n d)
      = X (ValueIdx.ix2 n d) + tileSum DST G (t.val / 391) (t.val % 391) n d := by
  rw [pay2_apply]
  refine congrArg (X (ValueIdx.ix2 n d) + ·) ?_
  unfold tileSum
  refine Finset.sum_congr rfl fun r _ => ?_
  rw [dstAt_eq, gAt_eq, co0]

/-- THE SCRATCH after point `m`, at row `n` and column `d`: the node tile's base value plus the addends of the edge tiles up
    to the point's own — from the two equations of the scratch (at the first edge tile of a node tile; at the others),
    where a point that fails the test has no target in its node tile. -/
theorem scratch_value
    (acc : (m : ℕ) → m < (cfg5 a).N → Vec Ideal S2048x64 .f32)
    (act : grid5.Coords → Prop) [DecidablePred act]
    (hfirst : ∀ t : Fin (cfg5 a).N, (grid5.coords t 1).val = 0 →
      acc t.val t.isLt = if act (grid5.coords t)
        then k5_pay2 (grid5.coords t) (dstAt a DST t) (k5_pay1 (snAt a SN t) (hwAt a HW t)) (gAt a G t)
        else k5_pay1 (snAt a SN t) (hwAt a HW t))
    (hnext : ∀ (m : ℕ) (h : m + 1 < (cfg5 a).N), (grid5.coords ⟨m + 1, h⟩ 1).val ≠ 0 →
      acc (m + 1) h = if act (grid5.coords ⟨m + 1, h⟩)
        then k5_pay2 (grid5.coords ⟨m + 1, h⟩) (dstAt a DST ⟨m + 1, h⟩) (acc m (Nat.lt_of_succ_lt h)) (gAt a G ⟨m + 1, h⟩)
        else acc m (Nat.lt_of_succ_lt h))
    (hmiss : ∀ t : Fin (cfg5 a).N, ¬ act (grid5.coords t) → ∀ (n : Fin 2048) (r : Fin 4096),
      (dstN DST (4096 * (t.val % 391) + r.val)).toNat ≠ 2048 * (t.val / 391) + n.val)
    (n : Fin 2048) (d : Fin 64) :
    ∀ (m : ℕ) (h : m < (cfg5 a).N), acc m h (ValueIdx.ix2 n d)
      = snN SN (2048 * (m / 391) + n.val) * hwN HW (2048 * (m / 391) + n.val) d
        + ∑ j ∈ Finset.range (m % 391 + 1), tileSum DST G (m / 391) j n d := by
  refine scratch_closed (cfg5 a).N (fun m h => acc m h (ValueIdx.ix2 n d))
    (fun I => snN SN (2048 * I + n.val) * hwN HW (2048 * I + n.val) d) (fun I j => tileSum DST G I j n d)
    (fun m h => act (grid5.coords ⟨m, h⟩)) ?_ ?_ ?_
  · intro m h h0
    have hk : (grid5.coords (⟨m, h⟩ : Fin (cfg5 a).N) 1).val = 0 := by rw [co1]; exact h0
    have e := congrFun (hfirst ⟨m, h⟩ hk) (ValueIdx.ix2 n d)
    show acc m h (ValueIdx.ix2 n d) = _
    rw [e]
    by_cases ha : act (grid5.coords ⟨m, h⟩)
    · rw [if_pos ha, if_pos ha, pay2_at, pay1_at]
      show _ + tileSum DST G (m / 391) (m % 391) n d = _
      rw [h0]
    · rw [if_neg ha, if_neg ha, pay1_at]
  · intro m h hne
    have hk : (grid5.coords (⟨m + 1, h⟩ : Fin (cfg5 a).N) 1).val ≠ 0 := by rw [co1]; exact hne
    have e := congrFun (hnext m h hk) (ValueIdx.ix2 n d)
    show acc (m + 1) h (ValueIdx.ix2 n d) = _
    rw [e]
    by_cases ha : act (grid5.coords ⟨m + 1, h⟩)
    · rw [if_pos ha, if_pos ha, pay2_at]
    · rw [if_neg ha, if_neg ha]
  · intro m h hna
    show tileSum DST G (m / 391) (m % 391) n d = 0
    unfold tileSum
    exact Finset.sum_eq_zero fun r _ => if_neg (hmiss ⟨m, h⟩ hna n r)

end Core

end Cert.KernelIdeal.R5V

namespace Cert.KernelIdeal.R5V

open Cert.KernelIdeal.R2V (acc_eq_sum act_of_hit act_word_iff cmpi_eq_def gate_bits ite_mul_eq node_word_eq onehot_val scratch_closed sum_tiles tile_word_toNat)

open Cert.KernelIdeal Cert.KernelIdeal.Gen
open Idealize.ShloMosaic Idealize.SL.Sem
open scoped BigOperators

section Out

variable (a : (pcfg5 (F := Ideal)).Adm)
variable (SN : (⟨1, ![100352]⟩ : Shape).Idx → EReal) (HW : (⟨2, ![100352, 64]⟩ : Shape).Idx → EReal)
  (DST : (⟨1, ![1601536]⟩ : Shape).Idx → BitVec 32) (G : (⟨2, ![1601536, 64]⟩ : Shape).Idx → EReal)
  (B : (⟨2, ![1, 64]⟩ : Shape).Idx → EReal)

/-- The bias block the body loads at point `t`. -/
abbrev bAt (t : Fin (cfg5 a).N) : Vec Ideal S1x64 .f32 := (((cfg5 a).win 4).blk t).view.read (Elt Ideal) B

/-- WHAT THE REGION COMPUTES, as one function of the arrays: at row `i 0` and column `i 1`, the row's self weight times
    the dense layer's entry, plus the messages of all edges whose target is the row, plus the bias; then the maximum with zero. -/
def outG : (⟨2, ![100352, 64]⟩ : Shape).Idx → EReal := fun i =>
  max (SN (ValueIdx.ix1 (i 0)) * HW (ValueIdx.ix2 (i 0) (i 1))
      + (∑ p : Fin 1601536, if (DST (ValueIdx.ix1 p)).toNat = (i 0).val then G (ValueIdx.ix2 p (i 1)) else 0)
      + B (ValueIdx.ix2 (0 : Fin 1) (i 1))) 0

/-- The region's function at row `N`, column `d`. -/
theorem outG_apply (N : Fin 100352) (d : Fin 64) :
    outG SN HW DST G B (ValueIdx.ix2 N d)
      = max (SN (ValueIdx.ix1 N) * HW (ValueIdx.ix2 N d)
          + (∑ p : Fin 1601536, if (DST (ValueIdx.ix1 p)).toNat = N.val then G (ValueIdx.ix2 p d) else 0)
          + B (ValueIdx.ix2 (0 : Fin 1) d)) 0 := rfl

/-- The bias block is the bias. -/
theorem bAt_eq (t : Fin (cfg5 a).N) (d : Fin 64) :
    bAt a B t (ValueIdx.ix2 (0 : Fin 1) d) = B (ValueIdx.ix2 (0 : Fin 1) d) := read4 a t B 0 d

/-- The addends of all 391 edge tiles are the messages of all 1601536 edge positions whose target is the row. -/
theorem tiles_total (I : ℕ) (n : Fin 2048) (d : Fin 64) :
    ∑ j ∈ Finset.range 391, tileSum DST G I j n d
      = ∑ p : Fin 1601536, if (DST (ValueIdx.ix1 p)).toNat = 2048 * I + n.val then G (ValueIdx.ix2 p d) else 0 := by
  rw [Finset.sum_range,
    ← sum_tiles (f := fun p => if (DST (ValueIdx.ix1 p)).toNat = 2048 * I + n.val then G (ValueIdx.ix2 p d) else 0)]
  refine Finset.sum_congr rfl fun j _ => ?_
  unfold tileSum
  refine Finset.sum_congr rfl fun r _ => ?_
  have hb : 4096 * j.val + r.val < 1601536 := by have := j.isLt; have := r.isLt; omega
  unfold dstN gN
  rw [dif_pos hb, dif_pos hb]

/-- WHAT THE LAST POINT OF A NODE TILE'S RUN WRITES BACK, at row `n` and column `d` of its block: the region's function at
    that row of the array. -/
theorem flushed_value
    (acc : (m : ℕ) → m < (cfg5 a).N → Vec Ideal S2048x64 .f32)
    (act : grid5.Coords → Prop) [DecidablePred act]
    (hfirst : ∀ t : Fin (cfg5 a).N, (grid5.coords t 1).val = 0 →
      acc t.val t.isLt = if act (grid5.coords t)
        then k5_pay2 (grid5.coords t) (dstAt a DST t) (k5_pay1 (snAt a SN t) (hwAt a HW t)) (gAt a G t)
        else k5_pay1 (snAt a SN t) (hwAt a HW t))
    (hnext : ∀ (m : ℕ) (h : m + 1 < (cfg5 a).N), (grid5.coords ⟨m + 1, h⟩ 1).val ≠ 0 →
      acc (m + 1) h = if act (grid5.coords ⟨m + 1, h⟩)
        then k5_pay2 (grid5.coords ⟨m + 1, h⟩) (dstAt a DST ⟨m + 1, h⟩) (acc m (Nat.lt_of_succ_lt h)) (gAt a G ⟨m + 1, h⟩)
        else acc m (Nat.lt_of_succ_lt h))
    (hmiss : ∀ t : Fin (cfg5 a).N, ¬ act (grid5.coords t) → ∀ (n : Fin 2048) (r : Fin 4096),
      (dstN DST (4096 * (t.val % 391) + r.val)).toNat ≠ 2048 * (t.val / 391) + n.val)
    (t : Fin (cfg5 a).N) (hlast : t.val % 391 = 390) (n : Fin 2048) (d : Fin 64) :
    k5_pay3 (acc t.val t.isLt) (bAt a B t) (ValueIdx.ix2 n d)
      = outG SN HW DST G B (ValueIdx.ix2 (⟨2048 * (grid5.coords t 0).val + n.val, by have := c0_lt a t; omega⟩ : Fin 100352) d) := by
  have hrow : (⟨2048 * (grid5.coords t 0).val + n.val, by have := c0_lt a t; omega⟩ : Fin 100352)
      = ⟨2048 * (t.val / 391) + n.val, node_lt a t n⟩ := Fin.ext (by
    show 2048 * (grid5.coords t 0).val + n.val = 2048 * (t.val / 391) + n.val; rw [co0])
  rw [hrow, outG_apply, pay3_apply, scratch_value a SN HW DST G acc act hfirst hnext hmiss n d t.val t.isLt, hlast,
    tiles_total DST G (t.val / 391) n d, bAt_eq]
  unfold snN hwN
  rw [dif_pos (node_lt a t n), dif_pos (node_lt a t n)]

/-- THE RESULT ARRAY after the region: the region's function of the arrays, at every row and column — from what the body
    leaves in the result's block at each point (the third payload of the scratch and the bias) and the points that write
    their block back (the last of each node tile's run), whose blocks cover the array. -/
theorem out_of_dat {Ix : Type} [DecidableEq Ix] {Name : Type} [DecidableEq Name] {U : Type} [Idealize.SL.RA.URA U] {Lvl : Type}
    (c : Dev nD) (dat : Pipeline.Dat τ (Elt Ideal) Ix Name U Lvl (cfg5 a) c)
    (acc : (m : ℕ) → m < (cfg5 a).N → Vec Ideal S2048x64 .f32)
    (act : grid5.Coords → Prop) [DecidablePred act]
    (hfirst : ∀ t : Fin (cfg5 a).N, (grid5.coords t 1).val = 0 →
      acc t.val t.isLt = if act (grid5.coords t)
        then k5_pay2 (grid5.coords t) (dstAt a DST t) (k5_pay1 (snAt a SN t) (hwAt a HW t)) (gAt a G t)
        else k5_pay1 (snAt a SN t) (hwAt a HW t))
    (hnext : ∀ (m : ℕ) (h : m + 1 < (cfg5 a).N), (grid5.coords ⟨m + 1, h⟩ 1).val ≠ 0 →
      acc (m + 1) h = if act (grid5.coords ⟨m + 1, h⟩)
        then k5_pay2 (grid5.coords ⟨m + 1, h⟩) (dstAt a DST ⟨m + 1, h⟩) (acc m (Nat.lt_of_succ_lt h)) (gAt a G ⟨m + 1, h⟩)
        else acc m (Nat.lt_of_succ_lt h))
    (hmiss : ∀ t : Fin (cfg5 a).N, ¬ act (grid5.coords t) → ∀ (n : Fin 2048) (r : Fin 4096),
      (dstN DST (4096 * (t.val % 391) + r.val)).toNat ≠ 2048 * (t.val / 391) + n.val)
    (hafter : ∀ t : Fin (cfg5 a).N, dat.after 5 t = k5_pay3 (acc t.val t.isLt) (bAt a B t))
    (hflush : ∀ t : Fin (cfg5 a).N, ((cfg5 a).win 5).flush t = true ↔ t.val % 391 = 390) :
    dat.arrAt 5 (cfg5 a).N = outG SN HW DST G B := by
  refine dat.arrAt_eq_of_cover 5 (outG SN HW DST G B) (fun t hf => ?_) (fun i => ?_)
  · have hlast := (hflush t).mp hf
    funext y
    obtain ⟨n, d, rfl⟩ : ∃ (n : Fin 2048) (d : Fin 64), y = ValueIdx.ix2 n d := ⟨_, _, ValueIdx.eq_ix2 (n0 := 2048) (n1 := 64) y⟩
    show dat.after 5 t (ValueIdx.ix2 n d) = outG SN HW DST G B ((((cfg5 a).win 5).blk t).view.emb (ValueIdx.ix2 n d))
    refine (congrFun (hafter t) (ValueIdx.ix2 n d)).trans ?_
    refine Eq.trans ?_ (congrArg (outG SN HW DST G B) (emb5 a t n d)).symm
    exact flushed_value a SN HW DST G B acc act hfirst hnext hmiss t hlast n d
  · obtain ⟨t, hlast, hmem⟩ := cover5 a i
    exact ⟨t, (hflush t).mpr hlast, hmem⟩

end Out

end Cert.KernelIdeal.R5V

namespace Cert.KernelIdeal.R5V

open Cert.KernelIdeal.R2V (acc_eq_sum act_of_hit act_word_iff cmpi_eq_def gate_bits ite_mul_eq node_word_eq onehot_val scratch_closed sum_tiles tile_word_toNat)

open Cert.KernelIdeal Cert.KernelIdeal.Gen
open Idealize.ShloMosaic Idealize.SL.Sem
open scoped BigOperators

section Miss

variable (a : (pcfg5 (F := Ideal)).Adm) (DST : (⟨1, ![1601536]⟩ : Shape).Idx → BitVec 32)

/-- A POINT THAT FAILS THE TEST HAS NO TARGET IN ITS NODE TILE: when each edge tile's targets lie between the tile's two
    table words (as signed integers), and the test at a point is the pair of inequalities between the node tile's row range
    and the edge tile's table words, a point where some target of the edge tile is a row of the node tile passes the test. -/
theorem miss_of_bounds (tmin tmax : Fin 391 → BitVec 32)
    (hb : ∀ (k : Fin 391) (r : Fin 4096),
      (tmin k).toInt ≤ (DST (ValueIdx.ix1 ⟨4096 * k.val + r.val, by have := k.isLt; have := r.isLt; omega⟩)).toInt
        ∧ (DST (ValueIdx.ix1 ⟨4096 * k.val + r.val, by have := k.isLt; have := r.isLt; omega⟩)).toInt ≤ (tmax k).toInt)
    (act : grid5.Coords → Prop)
    (hact : ∀ t : Fin (cfg5 a).N, act (grid5.coords t) ↔
      ((2048 * (t.val / 391 : ℕ) : ℤ) ≤ (tmax ⟨t.val % 391, Nat.mod_lt _ (by decide)⟩).toInt
        ∧ (tmin ⟨t.val % 391, Nat.mod_lt _ (by decide)⟩).toInt < 2048 * (t.val / 391 : ℕ) + 2048)) :
    ∀ t : Fin (cfg5 a).N, ¬ act (grid5.coords t) → ∀ (n : Fin 2048) (r : Fin 4096),
      (dstN DST (4096 * (t.val % 391) + r.val)).toNat ≠ 2048 * (t.val / 391) + n.val := by
  intro t hna n r heq
  apply hna
  rw [hact t]
  have hI : t.val / 391 < 49 := by have := N_eq a; have := t.isLt; omega
  obtain ⟨hlo, hhi⟩ := hb ⟨t.val % 391, Nat.mod_lt _ (by decide)⟩ r
  have hd : dstN DST (4096 * (t.val % 391) + r.val)
      = DST (ValueIdx.ix1 ⟨4096 * (t.val % 391) + r.val, edge_lt a t r⟩) := by
    unfold dstN; rw [dif_pos (edge_lt a t r)]
  rw [hd] at heq
  exact act_of_hit (t.val / 391) n.val hI n.isLt _ _ _ hlo hhi heq

end Miss

end Cert.KernelIdeal.R5V

namespace Cert.KernelIdeal.R5V

open Cert.KernelIdeal.R2V (acc_eq_sum act_of_hit act_word_iff cmpi_eq_def gate_bits ite_mul_eq node_word_eq onehot_val scratch_closed sum_tiles tile_word_toNat)

open Cert.KernelIdeal Cert.KernelIdeal.Gen
open Idealize.ShloMosaic Idealize.ShloMosaic.TcCoe Idealize.SL.Sem
open scoped BigOperators

section Final

variable (V : (c : Dev nD) → (b : Ref sig .tc) → Buf (Elt Ideal) ((c : Thread nD τ).loc b))
  (a : (pcfg5 (F := Ideal)).Adm) (c : Dev nD)

/-- The arrays the region reads, as it finds them: the edges' targets, the messages, the dense layer's output, the self
    weights, the bias. -/
abbrev dstV : (⟨1, ![1601536]⟩ : Shape).Idx → BitVec 32 := V c main_v66
abbrev gV : (⟨2, ![1601536, 64]⟩ : Shape).Idx → EReal := V c main_v104
abbrev hwV : (⟨2, ![100352, 64]⟩ : Shape).Idx → EReal := V c main_v96
abbrev snV : (⟨1, ![100352]⟩ : Shape).Idx → EReal := V c main_v76
abbrev bV : (⟨2, ![1, 64]⟩ : Shape).Idx → EReal := V c main_v105
/-- The two tables, entry by entry: each edge tile's least and greatest target. -/
abbrev tminV (k : Fin 391) : BitVec 32 := (a.1 0) (ValueIdx.ix1 k)
abbrev tmaxV (k : Fin 391) : BitVec 32 := (a.1 1) (ValueIdx.ix1 k)

/-- The word of the first table the body loads at point `i` is the table's entry at the point's edge tile … -/
theorem wMin_eq (i : grid5.Coords) : R5.wMin a i = tminV a ⟨(i 1).val, (i 1).isLt⟩ := by
  have h : ∀ f : (⟨1, ![391]⟩ : Shape).Idx → BitVec 32,
      R5.wd5 (F := Ideal) R5.tbMin f i = f (ValueIdx.ix1 (⟨(i 1).val, (i 1).isLt⟩ : Fin 391)) := by
    intro f
    show f _ = f _
    congr 1
    funext ax; apply Fin.ext
    match ax with
    | ⟨0, _⟩ =>
      show k5_off1 i 0 + 1 * 0 = (i 1).val
      rw [k5_off1_eq]; rfl
  exact h (a.1 0)

/-- … and likewise the second table's. -/
theorem wMax_eq (i : grid5.Coords) : R5.wMax a i = tmaxV a ⟨(i 1).val, (i 1).isLt⟩ := by
  have h : ∀ f : (⟨1, ![391]⟩ : Shape).Idx → BitVec 32,
      R5.wd5 (F := Ideal) R5.tbMax f i = f (ValueIdx.ix1 (⟨(i 1).val, (i 1).isLt⟩ : Fin 391)) := by
    intro f
    show f _ = f _
    congr 1
    funext ax; apply Fin.ext
    match ax with
    | ⟨0, _⟩ =>
      show k5_off1 i 0 + 1 * 0 = (i 1).val
      rw [k5_off1_eq]; rfl
  exact h (a.1 1)

/-- THE TEST AT A POINT, read on the tables: point `t` accumulates exactly when node tile `t / 391`'s row range
    `[2048 * (t / 391), 2048 * (t / 391) + 2048)` meets the range between edge tile `t % 391`'s two table entries. -/
theorem act5_iff (t : Fin (cfg5 a).N) :
    R5.act5 a (grid5.coords t) ↔
      ((2048 * (t.val / 391 : ℕ) : ℤ) ≤ (tmaxV a ⟨t.val % 391, Nat.mod_lt _ (by decide)⟩).toInt
        ∧ (tminV a ⟨t.val % 391, Nat.mod_lt _ (by decide)⟩).toInt < 2048 * (t.val / 391 : ℕ) + 2048) := by
  have e0 : (grid5.coords t 0).val = t.val / 391 := co0 a t
  have kx : (⟨(grid5.coords t 1).val, (grid5.coords t 1).isLt⟩ : Fin 391) = ⟨t.val % 391, Nat.mod_lt _ (by decide)⟩ :=
    Fin.ext (co1 a t)
  show R5.k5_act (grid5.coords t) (R5.wMax a (grid5.coords t)) (R5.wMin a (grid5.coords t)) = 1#1 ↔ _
  rw [wMax_eq, wMin_eq, kx, ← e0]
  exact act_word_iff (grid5.coords t 0).val (c0_lt a t) _ _

/-- THE REGION'S RESULT. If every edge tile's targets lie between the tile's two table entries (as signed integers), the
    result array after the region holds, at row `n` and column `d`: the row's self weight times the dense layer's entry,
    plus the messages of all edges whose target is the row, plus the bias; then the maximum with zero. -/
theorem out_eq
    (hb : ∀ (k : Fin 391) (r : Fin 4096),
      (tminV a k).toInt
          ≤ (dstV V c (ValueIdx.ix1 ⟨4096 * k.val + r.val, by have := k.isLt; have := r.isLt; omega⟩)).toInt
        ∧ (dstV V c (ValueIdx.ix1 ⟨4096 * k.val + r.val, by have := k.isLt; have := r.isLt; omega⟩)).toInt
          ≤ (tmaxV a k).toInt) :
    ∀ (n : Fin 100352) (d : Fin 64),
      (R5.dat5 V a c).arrAt 5 (cfg5 a).N (ValueIdx.ix2 n d)
        = max (snV V c (ValueIdx.ix1 n) * hwV V c (ValueIdx.ix2 n d)
            + (∑ p : Fin 1601536, if (dstV V c (ValueIdx.ix1 p)).toNat = n.val then gV V c (ValueIdx.ix2 p d) else 0)
            + bV V c (ValueIdx.ix2 (0 : Fin 1) d)) 0 := by
  intro n d
  have hmiss := miss_of_bounds a (dstV V c) (tminV a) (tmaxV a) hb (R5.act5 a) (act5_iff a)
  have key := out_of_dat a (snV V c) (hwV V c) (dstV V c) (gV V c) (bV V c) c (R5.dat5 V a c) (R5.accAt5 V a c) (R5.act5 a)
    (fun t hk => R5.accAt5_first V a c t hk)
    (fun m h hk => R5.accAt5_next V a c ⟨m + 1, h⟩ hk)
    hmiss (R5.after5_5 V a c) (R5.flush5_5 a)
  exact (congrFun key (ValueIdx.ix2 n d)).trans (outG_apply (snV V c) (hwV V c) (dstV V c) (gV V c) (bV V c) n d)

end Final

end Cert.KernelIdeal.R5V
-- ==== Proof.R8Pay.lean ====
import proofs.«417346_j54202487276072_2_alg».proof.Proof.Gen.KernelIdeal.Skeleton
import proofs.«417346_j54202487276072_2_alg».proof.Proof.R2Alg
import Idealize.ShloMosaic.Lib.ValueIdx
import Idealize.ShloMosaic.Lib.ValueLayout
import Idealize.ShloMosaic.Lib.Pipeline.Value
import Idealize.ShloMosaic.PureOps.Ideal.Laws

/-!
  The three payloads of the scatter kernel read at one element, at the ideal values: the first is the row's
  self weight times the dense layer's entry; the second adds to the scratch the targets' 0/1 matrix times the
  tile of messages, which is the sum of the messages whose target is the row; the third adds the bias (the last
  layer takes no maximum with zero).
-/

noncomputable section

namespace Cert.KernelIdeal.R8V

open Cert.KernelIdeal.R2V (acc_eq_sum act_of_hit act_word_iff cmpi_eq_def gate_bits ite_mul_eq node_word_eq onehot_val scratch_closed sum_tiles tile_word_toNat)

open Cert.KernelIdeal Cert.KernelIdeal.Gen
open Idealize.ShloMosaic Idealize.SL.Sem
open scoped BigOperators

/-! ## Two layout operations at an index -/

section Layout
variable {α : Type}

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ValueIdx.ix2 p c) = v (ValueIdx.ix2 p (0 : Fin 1)) := by
  refine broadcastTo_apply v h (ValueIdx.ix2 p c) (ValueIdx.ix2 p (0 : Fin 1)) fun ax => ?_
  match ax with
  | ⟨0, _⟩ =>
    show p.val = if a = 1 then 0 else p.val
    split
    · have := p.isLt; omega
    · rfl
  | ⟨1, _⟩ => rfl

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ValueIdx.ix2 i u) = x (ValueIdx.ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An integer comparison of two vectors at an index compares the elements. -/
theorem cmpi_apply {s : Shape} {w : Nat} (p : CmpIPredicate) (x y : IVec s w) (i : s.Idx) : cmpi p x y i = IntOp.cmpi p (x i) (y i) := rfl
/-- An integer sum of two vectors at an index adds the elements. -/
theorem addi_apply {s : Shape} {w : Nat} (x y : IVec s w) (i : s.Idx) : addi x y i = IntOp.addi (x i) (y i) := rfl

end Layout

/-! ## The first payload -/

/-- The first payload at row `n`, column `d`: the row's self weight times the dense layer's entry, in that order. -/
theorem pay1_apply (sn : Vec Ideal S2048 .f32) (hw : Vec Ideal S2048x32 .f32) (n : Fin 2048) (d : Fin 32) :
    k8_pay1 sn hw (ValueIdx.ix2 n d) = sn (ValueIdx.ix1 n) * hw (ValueIdx.ix2 n d) := by
  unfold k8_pay1
  simp only [shapeCast_self, ValueIdx.mulf_apply, broadcastTo_a1_ab_apply, shapeCast_a_a1_apply]

/-! ## The third payload -/

/-- The third payload at row `n`, column `d`: the scratch plus the bias (the last layer takes no maximum with zero). -/
theorem pay3_apply (acc : Vec Ideal S2048x32 .f32) (b : Vec Ideal S1x32 .f32) (n : Fin 2048) (d : Fin 32) :
    k8_pay3 acc b (ValueIdx.ix2 n d) = acc (ValueIdx.ix2 n d) + b (ValueIdx.ix2 (0 : Fin 1) d) := by
  unfold k8_pay3
  simp only [shapeCast_self, ValueIdx.addf_apply, ValueIdx.broadcastTo_1b_ab_apply]

/-! ## The second payload -/

/-- The product's dimension numbers contract one axis of extent 4096. -/
abbrev D8 := dot_S2048x4096_S4096x32_S2048x32_1_0_0_1_n_n

/-- The contraction index of the product is a position in the tile of targets. -/
def ce : D8.contr.Idx ≃ Fin 4096 := ValueIdx.contrEquiv1 D8 4096 rfl rfl

/-- At output `(n, d)` and contraction position `r` the left operand is read at `(n, r)` … -/
theorem lhs_at (n : Fin 2048) (d : Fin 32) (r : Fin 4096) : D8.lhsIdx (ValueIdx.ix2 n d) (ce.symm r) = ValueIdx.ix2 n r := by
  refine Shape.idx_ext₂ ?_ ?_
  · first
    | rfl
    | (simp [DotDims.lhsIdx, D8, dot_S2048x4096_S4096x32_S2048x32_1_0_0_1_n_n]; done)
    | (simp [DotDims.lhsIdx, D8, dot_S2048x4096_S4096x32_S2048x32_1_0_0_1_n_n]; rfl)
  · exact (D8.lhsIdx_val_of_single (cl := 1) rfl _ _).trans (ValueIdx.contrEquiv1_symm_val D8 4096 rfl rfl r)

/-- … and the right operand at `(r, d)`. -/
theorem rhs_at (n : Fin 2048) (d : Fin 32) (r : Fin 4096) : D8.rhsIdx (ValueIdx.ix2 n d) (ce.symm r) = ValueIdx.ix2 r d := by
  refine Shape.idx_ext₂ ?_ ?_
  · exact (D8.rhsIdx_val_of_single (cr := 0) rfl _ _).trans (ValueIdx.contrEquiv1_symm_val D8 4096 rfl rfl r)
  · first
    | rfl
    | (simp [DotDims.rhsIdx, D8, dot_S2048x4096_S4096x32_S2048x32_1_0_0_1_n_n]; done)
    | (simp [DotDims.rhsIdx, D8, dot_S2048x4096_S4096x32_S2048x32_1_0_0_1_n_n]; rfl)

/-- The second payload at row `n`, column `d`: the scratch plus the messages of the tile whose target is row `n` of node tile
    `i 0` (the 0/1 matrix selects: `1 * x = x` and `0 * x = 0` for every extended real). -/
theorem pay2_apply (i : grid8.Coords) (dst : Vec Ideal S4096 .i32) (acc : Vec Ideal S2048x32 .f32) (g : Vec Ideal S4096x32 .f32)
    (n : Fin 2048) (d : Fin 32) :
    k8_pay2 i dst acc g (ValueIdx.ix2 n d)
      = acc (ValueIdx.ix2 n d)
        + ∑ r : Fin 4096, if BitVec.toNat (dst (ValueIdx.ix1 r)) = 2048 * (i 0).val + n.val then g (ValueIdx.ix2 r d) else 0 := by
  unfold k8_pay2
  simp only [shapeCast_self, ValueIdx.addf_apply, matmul]
  rw [Ideal.matmul_constant_zero_apply]
  refine congrArg (acc (ValueIdx.ix2 n d) + ·) ?_
  rw [← Equiv.sum_comp ce.symm]
  refine Finset.sum_congr rfl fun r _ => ?_
  rw [lhs_at, rhs_at]
  simp only [ValueIdx.truncf_apply, ValueIdx.sitofp_apply, ValueIdx.extui_apply, cmpi_apply, addi_apply, broadcastTo_a1_ab_apply,
    ValueIdx.broadcastTo_1b_ab_apply, ValueIdx.shapeCast_a_1a_apply, iota_single_apply, ValueIdx.broadcast_apply]
  have hI : (i 0).val < 49 := (i 0).isLt
  have hio : iota Kind.tc S2048x1 32 [0] iota_S2048x1_d0_w32 (ValueIdx.ix2 n (0 : Fin 1)) = BitVec.ofNat 32 n.val :=
    iota_single_apply Kind.tc S2048x1 32 0 iota_S2048x1_d0_w32 (ValueIdx.ix2 n (0 : Fin 1))
  rw [onehot_val, ite_mul_eq, hio]
  exact if_congr (node_word_eq (i 0).val n.val hI n.isLt _) rfl rfl

end Cert.KernelIdeal.R8V
-- ==== Proof.R8Blk.lean ====
import proofs.«417346_j54202487276072_2_alg».proof.Proof.Gen.KernelIdeal.Launch
import Idealize.ShloMosaic.Lib.ValueIdx
import Idealize.ShloMosaic.Lib.Pipeline.Value

/-!
  Where the scatter region's blocks sit in their arrays. Point `t` of the grid `[49, 391]` is edge tile `t % 391` of node
  tile `t / 391`. The windows over the node arrays (the dense layer's output, the self weights, the result) move with the
  node tile, 2048 rows at a time; the windows over the edge arrays (the targets, the messages) move with the edge tile,
  4096 positions at a time; the bias is one block. So an element of a block is the array's element at block index times
  block size plus the element's own coordinate; and every row of the result lies in the block of the last point of its
  node tile's run.
-/

noncomputable section

namespace Cert.KernelIdeal.R8V

open Cert.KernelIdeal Cert.KernelIdeal.Gen
open Idealize.ShloMosaic Idealize.SL.Sem

variable {F : FTy → Type} [FloatOps F] (a : (pcfg8 (F := F)).Adm)

/-- A natural below `2 ^ 32` is the value of its own 32-bit word. -/
theorem ofNat_toNat_lt (x : Nat) (h : x < 4294967296) : (BitVec.ofNat 32 x).toNat = x := by
  rw [BitVec.toNat_ofNat]; omega

/-! ## The grid's coordinates -/

/-- The grid has `49 * 391` points. -/
theorem N_eq : (cfg8 a).N = 19159 := N_8
/-- The node-tile coordinate is below 49 … -/
theorem c0_lt (t : Fin (cfg8 a).N) : (grid8.coords t 0).val < 49 := (grid8.coords t 0).isLt
/-- … and the edge-tile coordinate below 391. -/
theorem c1_lt (t : Fin (cfg8 a).N) : (grid8.coords t 1).val < 391 := (grid8.coords t 1).isLt
/-- The node-tile coordinate of point `t` is `t / 391` … -/
theorem co0 (t : Fin (cfg8 a).N) : (grid8.coords t 0).val = t.val / 391 := by
  have hs : grid8.stride 0 = 391 := by decide
  have ht : t.val < 19159 := (N_eq a) ▸ t.isLt
  show t.val / grid8.stride 0 % 49 = _
  rw [hs]; omega
/-- … and its edge-tile coordinate is `t % 391`. -/
theorem co1 (t : Fin (cfg8 a).N) : (grid8.coords t 1).val = t.val % 391 := by
  have hs : grid8.stride 1 = 1 := by decide
  show t.val / grid8.stride 1 % 391 = _
  rw [hs]; omega

/-! ## The windows' block indices -/

/-- The targets' window is at the edge tile. -/
theorem idx0 (t : Fin (cfg8 a).N) : ((cfg8 a).win 0).index t (0 : Fin 1) = (grid8.coords t 1).val := by
  show (BitVec.ofNat 32 (grid8.coords t 1).val).toNat = _
  exact ofNat_toNat_lt _ (by have := c1_lt a t; omega)
/-- The messages' window is at the edge tile, all columns. -/
theorem idx1_0 (t : Fin (cfg8 a).N) : ((cfg8 a).win 1).index t (0 : Fin 2) = (grid8.coords t 1).val := by
  show (BitVec.ofNat 32 (grid8.coords t 1).val).toNat = _
  exact ofNat_toNat_lt _ (by have := c1_lt a t; omega)
theorem idx1_1 (t : Fin (cfg8 a).N) : ((cfg8 a).win 1).index t (1 : Fin 2) = 0 := rfl
/-- The dense layer's window is at the node tile, all columns. -/
theorem idx2_0 (t : Fin (cfg8 a).N) : ((cfg8 a).win 2).index t (0 : Fin 2) = (grid8.coords t 0).val := by
  show (BitVec.ofNat 32 (grid8.coords t 0).val).toNat = _
  exact ofNat_toNat_lt _ (by have := c0_lt a t; omega)
theorem idx2_1 (t : Fin (cfg8 a).N) : ((cfg8 a).win 2).index t (1 : Fin 2) = 0 := rfl
/-- The self weights' window is at the node tile. -/
theorem idx3 (t : Fin (cfg8 a).N) : ((cfg8 a).win 3).index t (0 : Fin 1) = (grid8.coords t 0).val := by
  show (BitVec.ofNat 32 (grid8.coords t 0).val).toNat = _
  exact ofNat_toNat_lt _ (by have := c0_lt a t; omega)
/-- The bias is one block. -/
theorem idx4_0 (t : Fin (cfg8 a).N) : ((cfg8 a).win 4).index t (0 : Fin 2) = 0 := rfl
theorem idx4_1 (t : Fin (cfg8 a).N) : ((cfg8 a).win 4).index t (1 : Fin 2) = 0 := rfl
/-- The result's window is at the node tile, all columns. -/
theorem idx5_0 (t : Fin (cfg8 a).N) : ((cfg8 a).win 5).index t (0 : Fin 2) = (grid8.coords t 0).val := by
  show (BitVec.ofNat 32 (grid8.coords t 0).val).toNat = _
  exact ofNat_toNat_lt _ (by have := c0_lt a t; omega)
theorem idx5_1 (t : Fin (cfg8 a).N) : ((cfg8 a).win 5).index t (1 : Fin 2) = 0 := rfl

/-! ## Blocks read at an index -/

/-- Element `(n, d)` of the result's block at point `t` is the array's element `(2048 * (node tile) + n, d)`. -/
theorem emb5 (t : Fin (cfg8 a).N) (n : Fin 2048) (d : Fin 32) :
    (((cfg8 a).win 5).blk t).view.emb (ValueIdx.ix2 n d)
      = ValueIdx.ix2 (⟨2048 * (grid8.coords t 0).val + n.val, by have := c0_lt a t; omega⟩ : Fin 100352) d := by
  funext ax; apply Fin.ext
  match ax with
  | ⟨0, _⟩ =>
    show ((cfg8 a).win 5).index t (0 : Fin 2) * 2048 + 1 * n.val = 2048 * (grid8.coords t 0).val + n.val
    rw [idx5_0]; omega
  | ⟨1, _⟩ =>
    show ((cfg8 a).win 5).index t (1 : Fin 2) * 32 + 1 * d.val = d.val
    rw [idx5_1]; omega

/-- The self weights' block at point `t`, read at `n`. -/
theorem read3 (t : Fin (cfg8 a).N) (X : (⟨1, ![100352]⟩ : Shape).Idx → Elt F .f32) (n : Fin 2048) :
    (((cfg8 a).win 3).blk t).view.read (Elt F) X (ValueIdx.ix1 n)
      = X (ValueIdx.ix1 (⟨2048 * (grid8.coords t 0).val + n.val, by have := c0_lt a t; omega⟩ : Fin 100352)) := by
  show X ((((cfg8 a).win 3).blk t).view.emb (ValueIdx.ix1 n)) = _
  congr 1
  funext ax; apply Fin.ext
  match ax with
  | ⟨0, _⟩ =>
    show ((cfg8 a).win 3).index t (0 : Fin 1) * 2048 + 1 * n.val = 2048 * (grid8.coords t 0).val + n.val
    rw [idx3]; omega

/-- The dense layer's block at point `t`, read at `(n, d)`. -/
theorem read2 (t : Fin (cfg8 a).N) (X : (⟨2, ![100352, 32]⟩ : Shape).Idx → Elt F .f32) (n : Fin 2048) (d : Fin 32) :
    (((cfg8 a).win 2).blk t).view.read (Elt F) X (ValueIdx.ix2 n d)
      = X (ValueIdx.ix2 (⟨2048 * (grid8.coords t 0).val + n.val, by have := c0_lt a t; omega⟩ : Fin 100352) d) := by
  show X ((((cfg8 a).win 2).blk t).view.emb (ValueIdx.ix2 n d)) = _
  congr 1
  funext ax; apply Fin.ext
  match ax with
  | ⟨0, _⟩ =>
    show ((cfg8 a).win 2).index t (0 : Fin 2) * 2048 + 1 * n.val = 2048 * (grid8.coords t 0).val + n.val
    rw [idx2_0]; omega
  | ⟨1, _⟩ =>
    show ((cfg8 a).win 2).index t (1 : Fin 2) * 32 + 1 * d.val = d.val
    rw [idx2_1]; omega

/-- The targets' block at point `t`, read at `r`. -/
theorem read0 (t : Fin (cfg8 a).N) (X : (⟨1, ![1601536]⟩ : Shape).Idx → Elt F .i32) (r : Fin 4096) :
    (((cfg8 a).win 0).blk t).view.read (Elt F) X (ValueIdx.ix1 r)
      = X (ValueIdx.ix1 (⟨4096 * (grid8.coords t 1).val + r.val, by have := c1_lt a t; omega⟩ : Fin 1601536)) := by
  show X ((((cfg8 a).win 0).blk t).view.emb (ValueIdx.ix1 r)) = _
  congr 1
  funext ax; apply Fin.ext
  match ax with
  | ⟨0, _⟩ =>
    show ((cfg8 a).win 0).index t (0 : Fin 1) * 4096 + 1 * r.val = 4096 * (grid8.coords t 1).val + r.val
    rw [idx0]; omega

/-- The messages' block at point `t`, read at `(r, d)`. -/
theorem read1 (t : Fin (cfg8 a).N) (X : (⟨2, ![1601536, 32]⟩ : Shape).Idx → Elt F .f32) (r : Fin 4096) (d : Fin 32) :
    (((cfg8 a).win 1).blk t).view.read (Elt F) X (ValueIdx.ix2 r d)
      = X (ValueIdx.ix2 (⟨4096 * (grid8.coords t 1).val + r.val, by have := c1_lt a t; omega⟩ : Fin 1601536) d) := by
  show X ((((cfg8 a).win 1).blk t).view.emb (ValueIdx.ix2 r d)) = _
  congr 1
  funext ax; apply Fin.ext
  match ax with
  | ⟨0, _⟩ =>
    show ((cfg8 a).win 1).index t (0 : Fin 2) * 4096 + 1 * r.val = 4096 * (grid8.coords t 1).val + r.val
    rw [idx1_0]; omega
  | ⟨1, _⟩ =>
    show ((cfg8 a).win 1).index t (1 : Fin 2) * 32 + 1 * d.val = d.val
    rw [idx1_1]; omega

/-- The bias block, read at column `d`. -/
theorem read4 (t : Fin (cfg8 a).N) (X : (⟨2, ![1, 32]⟩ : Shape).Idx → Elt F .f32) (u : Fin 1) (d : Fin 32) :
    (((cfg8 a).win 4).blk t).view.read (Elt F) X (ValueIdx.ix2 u d) = X (ValueIdx.ix2 (0 : Fin 1) d) := by
  show X ((((cfg8 a).win 4).blk t).view.emb (ValueIdx.ix2 u d)) = _
  congr 1
  funext ax; apply Fin.ext
  match ax with
  | ⟨0, _⟩ =>
    show ((cfg8 a).win 4).index t (0 : Fin 2) * 1 + 1 * u.val = 0
    rw [idx4_0]; omega
  | ⟨1, _⟩ =>
    show ((cfg8 a).win 4).index t (1 : Fin 2) * 32 + 1 * d.val = d.val
    rw [idx4_1]; omega

/-- Every row of the output is in the block of the last point of its node tile's run. -/
theorem cover5 (i : (⟨2, ![100352, 32]⟩ : Shape).Idx) :
    ∃ t : Fin (cfg8 a).N, t.val % 391 = 390 ∧ i ∈ (((cfg8 a).win 5).blk t).view.set := by
  have hi0 : (i 0).val < 100352 := (i 0).isLt
  have hi1 : (i 1).val < 32 := (i 1).isLt
  let t : Fin (cfg8 a).N := ⟨391 * ((i 0).val / 2048) + 390, by rw [N_eq]; omega⟩
  have h0 : (grid8.coords t 0).val = (i 0).val / 2048 := by
    rw [co0]; show (391 * ((i 0).val / 2048) + 390) / 391 = _; omega
  refine ⟨t, by show (391 * ((i 0).val / 2048) + 390) % 391 = 390; omega,
    Finset.mem_map.mpr ⟨ValueIdx.ix2 (⟨(i 0).val % 2048, by omega⟩ : Fin 2048) (⟨(i 1).val, hi1⟩ : Fin 32), Finset.mem_univ _, ?_⟩⟩
  refine (emb5 a t _ _).trans ?_
  funext ax; apply Fin.ext
  match ax with
  | ⟨0, _⟩ =>
    show 2048 * (grid8.coords t 0).val + (i 0).val % 2048 = (i 0).val
    rw [h0]; omega
  | ⟨1, _⟩ => rfl

end Cert.KernelIdeal.R8V
-- ==== Proof.R8Value.lean ====
import proofs.«417346_j54202487276072_2_alg».proof.Proof.R8Frame
import proofs.«417346_j54202487276072_2_alg».proof.Proof.R8Pay
import proofs.«417346_j54202487276072_2_alg».proof.Proof.R8Blk

/-!
  THE SCATTER REGION'S VALUE at the ideal values. Node tile `I` (2048 rows) meets the 391 edge tiles (4096 positions each)
  in turn. The scratch starts, at the first edge tile, from the row's self weight times the dense layer's entry; each edge
  tile that passes the test on its two table words adds the tile's messages whose target is the row (a 0/1 matrix times
  the tile of messages); a tile that fails the test holds no target in the node tile, because the table words bound the
  tile's targets; so after the last edge tile the scratch holds the self term plus the messages of ALL edges whose target
  is the row. The last point adds the bias (the last layer takes no maximum with zero) and writes the block back; those blocks cover the
  result array.
-/

noncomputable section

namespace Cert.KernelIdeal.R8V

open Cert.KernelIdeal.R2V (acc_eq_sum act_of_hit act_word_iff cmpi_eq_def gate_bits ite_mul_eq node_word_eq onehot_val scratch_closed sum_tiles tile_word_toNat)

open Cert.KernelIdeal Cert.KernelIdeal.Gen
open Idealize.ShloMosaic Idealize.SL.Sem
open scoped BigOperators

section Core

variable (a : (pcfg8 (F := Ideal)).Adm)
variable (SN : (⟨1, ![100352]⟩ : Shape).Idx → EReal) (HW : (⟨2, ![100352, 32]⟩ : Shape).Idx → EReal)
  (DST : (⟨1, ![1601536]⟩ : Shape).Idx → BitVec 32) (G : (⟨2, ![1601536, 32]⟩ : Shape).Idx → EReal)

/-- The self weights as a function of the row number (zero past the array). -/
def snN (p : ℕ) : EReal := if h : p < 100352 then SN (ValueIdx.ix1 ⟨p, h⟩) else 0
/-- The dense layer's output as a function of the row number and the column. -/
def hwN (p : ℕ) (d : Fin 32) : EReal := if h : p < 100352 then HW (ValueIdx.ix2 ⟨p, h⟩ d) else 0
/-- The targets as a function of the edge position. -/
def dstN (p : ℕ) : BitVec 32 := if h : p < 1601536 then DST (ValueIdx.ix1 ⟨p, h⟩) else 0
/-- The messages as a function of the edge position and the column. -/
def gN (p : ℕ) (d : Fin 32) : EReal := if h : p < 1601536 then G (ValueIdx.ix2 ⟨p, h⟩ d) else 0

/-- Edge tile `j`'s addend to row `n` of node tile `I`, column `d`: the tile's messages whose target is that row. -/
def tileSum (I j : ℕ) (n : Fin 2048) (d : Fin 32) : EReal :=
  ∑ r : Fin 4096, if (dstN DST (4096 * j + r.val)).toNat = 2048 * I + n.val then gN G (4096 * j + r.val) d else 0

/-- The blocks the body loads at point `t`. -/
abbrev dstAt (t : Fin (cfg8 a).N) : Vec Ideal S4096 .i32 := (((cfg8 a).win 0).blk t).view.read (Elt Ideal) DST
abbrev gAt (t : Fin (cfg8 a).N) : Vec Ideal S4096x32 .f32 := (((cfg8 a).win 1).blk t).view.read (Elt Ideal) G
abbrev hwAt (t : Fin (cfg8 a).N) : Vec Ideal S2048x32 .f32 := (((cfg8 a).win 2).blk t).view.read (Elt Ideal) HW
abbrev snAt (t : Fin (cfg8 a).N) : Vec Ideal S2048 .f32 := (((cfg8 a).win 3).blk t).view.read (Elt Ideal) SN

theorem node_lt (t : Fin (cfg8 a).N) (n : Fin 2048) : 2048 * (t.val / 391) + n.val < 100352 := by
  have := N_eq a; have := t.isLt; have := n.isLt; omega
theorem edge_lt (t : Fin (cfg8 a).N) (r : Fin 4096) : 4096 * (t.val % 391) + r.val < 1601536 := by
  have := r.isLt; omega

theorem snAt_eq (t : Fin (cfg8 a).N) (n : Fin 2048) :
    snAt a SN t (ValueIdx.ix1 n) = snN SN (2048 * (t.val / 391) + n.val) := by
  refine (read3 a t SN n).trans ?_
  unfold snN; rw [dif_pos (node_lt a t n)]
  exact congrArg SN (congrArg ValueIdx.ix1 (Fin.ext (by
    show 2048 * (grid8.coords t 0).val + n.val = 2048 * (t.val / 391) + n.val; rw [co0])))

theorem hwAt_eq (t : Fin (cfg8 a).N) (n : Fin 2048) (d : Fin 32) :
    hwAt a HW t (ValueIdx.ix2 n d) = hwN HW (2048 * (t.val / 391) + n.val) d := by
  refine (read2 a t HW n d).trans ?_
  unfold hwN; rw [dif_pos (node_lt a t n)]
  exact congrArg HW (congrArg (ValueIdx.ix2 · d) (Fin.ext (by
    show 2048 * (grid8.coords t 0).val + n.val = 2048 * (t.val / 391) + n.val; rw [co0])))

theorem dstAt_eq (t : Fin (cfg8 a).N) (r : Fin 4096) :
    dstAt a DST t (ValueIdx.ix1 r) = dstN DST (4096 * (t.val % 391) + r.val) := by
  refine (read0 a t DST r).trans ?_
  unfold dstN; rw [dif_pos (edge_lt a t r)]
  exact congrArg DST (congrArg ValueIdx.ix1 (Fin.ext (by
    show 4096 * (grid8.coords t 1).val + r.val = 4096 * (t.val % 391) + r.val; rw [co1])))

theorem gAt_eq (t : Fin (cfg8 a).N) (r : Fin 4096) (d : Fin 32) :
    gAt a G t (ValueIdx.ix2 r d) = gN G (4096 * (t.val % 391) + r.val) d := by
  refine (read1 a t G r d).trans ?_
  unfold gN; rw [dif_pos (edge_lt a t r)]
  exact congrArg G (congrArg (ValueIdx.ix2 · d) (Fin.ext (by
    show 4096 * (grid8.coords t 1).val + r.val = 4096 * (t.val % 391) + r.val; rw [co1])))

/-- The first payload at point `t`: the node tile's base value. -/
theorem pay1_at (t : Fin (cfg8 a).N) (n : Fin 2048) (d : Fin 32) :
    k8_pay1 (snAt a SN t) (hwAt a HW t) (ValueIdx.ix2 n d)
      = snN SN (2048 * (t.val / 391) + n.val) * hwN HW (2048 * (t.val / 391) + n.val) d := by
  rw [pay1_apply, snAt_eq, hwAt_eq]

/-- The second payload at point `t`: what was there plus the point's tile addend. -/
theorem pay2_at (t : Fin (cfg8 a).N) (X : Vec Ideal S2048x32 .f32) (n : Fin 2048) (d : Fin 32) :
    k8_pay2 (grid8.coords t) (dstAt a DST t) X (gAt a G t) (ValueIdx.ix2 n d)
      = X (ValueIdx.ix2 n d) + tileSum DST G (t.val / 391) (t.val % 391) n d := by
  rw [pay2_apply]
  refine congrArg (X (ValueIdx.ix2 n d) + ·) ?_
  unfold tileSum
  refine Finset.sum_congr rfl fun r _ => ?_
  rw [dstAt_eq, gAt_eq, co0]

/-- THE SCRATCH after point `m`, at row `n` and column `d`: the node tile's base value plus the addends of the edge tiles up
    to the point's own — from the two equations of the scratch (at the first edge tile of a node tile; at the others),
    where a point that fails the test has no target in its node tile. -/
theorem scratch_value
    (acc : (m : ℕ) → m < (cfg8 a).N → Vec Ideal S2048x32 .f32)
    (act : grid8.Coords → Prop) [DecidablePred act]
    (hfirst : ∀ t : Fin (cfg8 a).N, (grid8.coords t 1).val = 0 →
      acc t.val t.isLt = if act (grid8.coords t)
        then k8_pay2 (grid8.coords t) (dstAt a DST t) (k8_pay1 (snAt a SN t) (hwAt a HW t)) (gAt a G t)
        else k8_pay1 (snAt a SN t) (hwAt a HW t))
    (hnext : ∀ (m : ℕ) (h : m + 1 < (cfg8 a).N), (grid8.coords ⟨m + 1, h⟩ 1).val ≠ 0 →
      acc (m + 1) h = if act (grid8.coords ⟨m + 1, h⟩)
        then k8_pay2 (grid8.coords ⟨m + 1, h⟩) (dstAt a DST ⟨m + 1, h⟩) (acc m (Nat.lt_of_succ_lt h)) (gAt a G ⟨m + 1, h⟩)
        else acc m (Nat.lt_of_succ_lt h))
    (hmiss : ∀ t : Fin (cfg8 a).N, ¬ act (grid8.coords t) → ∀ (n : Fin 2048) (r : Fin 4096),
      (dstN DST (4096 * (t.val % 391) + r.val)).toNat ≠ 2048 * (t.val / 391) + n.val)
    (n : Fin 2048) (d : Fin 32) :
    ∀ (m : ℕ) (h : m < (cfg8 a).N), acc m h (ValueIdx.ix2 n d)
      = snN SN (2048 * (m / 391) + n.val) * hwN HW (2048 * (m / 391) + n.val) d
        + ∑ j ∈ Finset.range (m % 391 + 1), tileSum DST G (m / 391) j n d := by
  refine scratch_closed (cfg8 a).N (fun m h => acc m h (ValueIdx.ix2 n d))
    (fun I => snN SN (2048 * I + n.val) * hwN HW (2048 * I + n.val) d) (fun I j => tileSum DST G I j n d)
    (fun m h => act (grid8.coords ⟨m, h⟩)) ?_ ?_ ?_
  · intro m h h0
    have hk : (grid8.coords (⟨m, h⟩ : Fin (cfg8 a).N) 1).val = 0 := by rw [co1]; exact h0
    have e := congrFun (hfirst ⟨m, h⟩ hk) (ValueIdx.ix2 n d)
    show acc m h (ValueIdx.ix2 n d) = _
    rw [e]
    by_cases ha : act (grid8.coords ⟨m, h⟩)
    · rw [if_pos ha, if_pos ha, pay2_at, pay1_at]
      show _ + tileSum DST G (m / 391) (m % 391) n d = _
      rw [h0]
    · rw [if_neg ha, if_neg ha, pay1_at]
  · intro m h hne
    have hk : (grid8.coords (⟨m + 1, h⟩ : Fin (cfg8 a).N) 1).val ≠ 0 := by rw [co1]; exact hne
    have e := congrFun (hnext m h hk) (ValueIdx.ix2 n d)
    show acc (m + 1) h (ValueIdx.ix2 n d) = _
    rw [e]
    by_cases ha : act (grid8.coords ⟨m + 1, h⟩)
    · rw [if_pos ha, if_pos ha, pay2_at]
    · rw [if_neg ha, if_neg ha]
  · intro m h hna
    show tileSum DST G (m / 391) (m % 391) n d = 0
    unfold tileSum
    exact Finset.sum_eq_zero fun r _ => if_neg (hmiss ⟨m, h⟩ hna n r)

end Core

end Cert.KernelIdeal.R8V

namespace Cert.KernelIdeal.R8V

open Cert.KernelIdeal.R2V (acc_eq_sum act_of_hit act_word_iff cmpi_eq_def gate_bits ite_mul_eq node_word_eq onehot_val scratch_closed sum_tiles tile_word_toNat)

open Cert.KernelIdeal Cert.KernelIdeal.Gen
open Idealize.ShloMosaic Idealize.SL.Sem
open scoped BigOperators

section Out

variable (a : (pcfg8 (F := Ideal)).Adm)
variable (SN : (⟨1, ![100352]⟩ : Shape).Idx → EReal) (HW : (⟨2, ![100352, 32]⟩ : Shape).Idx → EReal)
  (DST : (⟨1, ![1601536]⟩ : Shape).Idx → BitVec 32) (G : (⟨2, ![1601536, 32]⟩ : Shape).Idx → EReal)
  (B : (⟨2, ![1, 32]⟩ : Shape).Idx → EReal)

/-- The bias block the body loads at point `t`. -/
abbrev bAt (t : Fin (cfg8 a).N) : Vec Ideal S1x32 .f32 := (((cfg8 a).win 4).blk t).view.read (Elt Ideal) B

/-- WHAT THE REGION COMPUTES, as one function of the arrays: at row `i 0` and column `i 1`, the row's self weight times
    the dense layer's entry, plus the messages of all edges whose target is the row, plus the bias (the last layer takes no maximum with zero). -/
def outG : (⟨2, ![100352, 32]⟩ : Shape).Idx → EReal := fun i =>
  SN (ValueIdx.ix1 (i 0)) * HW (ValueIdx.ix2 (i 0) (i 1))
      + (∑ p : Fin 1601536, if (DST (ValueIdx.ix1 p)).toNat = (i 0).val then G (ValueIdx.ix2 p (i 1)) else 0)
      + B (ValueIdx.ix2 (0 : Fin 1) (i 1))

/-- The region's function at row `N`, column `d`. -/
theorem outG_apply (N : Fin 100352) (d : Fin 32) :
    outG SN HW DST G B (ValueIdx.ix2 N d)
      = SN (ValueIdx.ix1 N) * HW (ValueIdx.ix2 N d)
          + (∑ p : Fin 1601536, if (DST (ValueIdx.ix1 p)).toNat = N.val then G (ValueIdx.ix2 p d) else 0)
          + B (ValueIdx.ix2 (0 : Fin 1) d) := rfl

/-- The bias block is the bias. -/
theorem bAt_eq (t : Fin (cfg8 a).N) (d : Fin 32) :
    bAt a B t (ValueIdx.ix2 (0 : Fin 1) d) = B (ValueIdx.ix2 (0 : Fin 1) d) := read4 a t B 0 d

/-- The addends of all 391 edge tiles are the messages of all 1601536 edge positions whose target is the row. -/
theorem tiles_total (I : ℕ) (n : Fin 2048) (d : Fin 32) :
    ∑ j ∈ Finset.range 391, tileSum DST G I j n d
      = ∑ p : Fin 1601536, if (DST (ValueIdx.ix1 p)).toNat = 2048 * I + n.val then G (ValueIdx.ix2 p d) else 0 := by
  rw [Finset.sum_range,
    ← sum_tiles (f := fun p => if (DST (ValueIdx.ix1 p)).toNat = 2048 * I + n.val then G (ValueIdx.ix2 p d) else 0)]
  refine Finset.sum_congr rfl fun j _ => ?_
  unfold tileSum
  refine Finset.sum_congr rfl fun r _ => ?_
  have hb : 4096 * j.val + r.val < 1601536 := by have := j.isLt; have := r.isLt; omega
  unfold dstN gN
  rw [dif_pos hb, dif_pos hb]

/-- WHAT THE LAST POINT OF A NODE TILE'S RUN WRITES BACK, at row `n` and column `d` of its block: the region's function at
    that row of the array. -/
theorem flushed_value
    (acc : (m : ℕ) → m < (cfg8 a).N → Vec Ideal S2048x32 .f32)
    (act : grid8.Coords → Prop) [DecidablePred act]
    (hfirst : ∀ t : Fin (cfg8 a).N, (grid8.coords t 1).val = 0 →
      acc t.val t.isLt = if act (grid8.coords t)
        then k8_pay2 (grid8.coords t) (dstAt a DST t) (k8_pay1 (snAt a SN t) (hwAt a HW t)) (gAt a G t)
        else k8_pay1 (snAt a SN t) (hwAt a HW t))
    (hnext : ∀ (m : ℕ) (h : m + 1 < (cfg8 a).N), (grid8.coords ⟨m + 1, h⟩ 1).val ≠ 0 →
      acc (m + 1) h = if act (grid8.coords ⟨m + 1, h⟩)
        then k8_pay2 (grid8.coords ⟨m + 1, h⟩) (dstAt a DST ⟨m + 1, h⟩) (acc m (Nat.lt_of_succ_lt h)) (gAt a G ⟨m + 1, h⟩)
        else acc m (Nat.lt_of_succ_lt h))
    (hmiss : ∀ t : Fin (cfg8 a).N, ¬ act (grid8.coords t) → ∀ (n : Fin 2048) (r : Fin 4096),
      (dstN DST (4096 * (t.val % 391) + r.val)).toNat ≠ 2048 * (t.val / 391) + n.val)
    (t : Fin (cfg8 a).N) (hlast : t.val % 391 = 390) (n : Fin 2048) (d : Fin 32) :
    k8_pay3 (acc t.val t.isLt) (bAt a B t) (ValueIdx.ix2 n d)
      = outG SN HW DST G B (ValueIdx.ix2 (⟨2048 * (grid8.coords t 0).val + n.val, by have := c0_lt a t; omega⟩ : Fin 100352) d) := by
  have hrow : (⟨2048 * (grid8.coords t 0).val + n.val, by have := c0_lt a t; omega⟩ : Fin 100352)
      = ⟨2048 * (t.val / 391) + n.val, node_lt a t n⟩ := Fin.ext (by
    show 2048 * (grid8.coords t 0).val + n.val = 2048 * (t.val / 391) + n.val; rw [co0])
  rw [hrow, outG_apply, pay3_apply, scratch_value a SN HW DST G acc act hfirst hnext hmiss n d t.val t.isLt, hlast,
    tiles_total DST G (t.val / 391) n d, bAt_eq]
  unfold snN hwN
  rw [dif_pos (node_lt a t n), dif_pos (node_lt a t n)]

/-- THE RESULT ARRAY after the region: the region's function of the arrays, at every row and column — from what the body
    leaves in the result's block at each point (the third payload of the scratch and the bias) and the points that write
    their block back (the last of each node tile's run), whose blocks cover the array. -/
theorem out_of_dat {Ix : Type} [DecidableEq Ix] {Name : Type} [DecidableEq Name] {U : Type} [Idealize.SL.RA.URA U] {Lvl : Type}
    (c : Dev nD) (dat : Pipeline.Dat τ (Elt Ideal) Ix Name U Lvl (cfg8 a) c)
    (acc : (m : ℕ) → m < (cfg8 a).N → Vec Ideal S2048x32 .f32)
    (act : grid8.Coords → Prop) [DecidablePred act]
    (hfirst : ∀ t : Fin (cfg8 a).N, (grid8.coords t 1).val = 0 →
      acc t.val t.isLt = if act (grid8.coords t)
        then k8_pay2 (grid8.coords t) (dstAt a DST t) (k8_pay1 (snAt a SN t) (hwAt a HW t)) (gAt a G t)
        else k8_pay1 (snAt a SN t) (hwAt a HW t))
    (hnext : ∀ (m : ℕ) (h : m + 1 < (cfg8 a).N), (grid8.coords ⟨m + 1, h⟩ 1).val ≠ 0 →
      acc (m + 1) h = if act (grid8.coords ⟨m + 1, h⟩)
        then k8_pay2 (grid8.coords ⟨m + 1, h⟩) (dstAt a DST ⟨m + 1, h⟩) (acc m (Nat.lt_of_succ_lt h)) (gAt a G ⟨m + 1, h⟩)
        else acc m (Nat.lt_of_succ_lt h))
    (hmiss : ∀ t : Fin (cfg8 a).N, ¬ act (grid8.coords t) → ∀ (n : Fin 2048) (r : Fin 4096),
      (dstN DST (4096 * (t.val % 391) + r.val)).toNat ≠ 2048 * (t.val / 391) + n.val)
    (hafter : ∀ t : Fin (cfg8 a).N, dat.after 5 t = k8_pay3 (acc t.val t.isLt) (bAt a B t))
    (hflush : ∀ t : Fin (cfg8 a).N, ((cfg8 a).win 5).flush t = true ↔ t.val % 391 = 390) :
    dat.arrAt 5 (cfg8 a).N = outG SN HW DST G B := by
  refine dat.arrAt_eq_of_cover 5 (outG SN HW DST G B) (fun t hf => ?_) (fun i => ?_)
  · have hlast := (hflush t).mp hf
    funext y
    obtain ⟨n, d, rfl⟩ : ∃ (n : Fin 2048) (d : Fin 32), y = ValueIdx.ix2 n d := ⟨_, _, ValueIdx.eq_ix2 (n0 := 2048) (n1 := 32) y⟩
    show dat.after 5 t (ValueIdx.ix2 n d) = outG SN HW DST G B ((((cfg8 a).win 5).blk t).view.emb (ValueIdx.ix2 n d))
    refine (congrFun (hafter t) (ValueIdx.ix2 n d)).trans ?_
    refine Eq.trans ?_ (congrArg (outG SN HW DST G B) (emb5 a t n d)).symm
    exact flushed_value a SN HW DST G B acc act hfirst hnext hmiss t hlast n d
  · obtain ⟨t, hlast, hmem⟩ := cover5 a i
    exact ⟨t, (hflush t).mpr hlast, hmem⟩

end Out

end Cert.KernelIdeal.R8V

namespace Cert.KernelIdeal.R8V

open Cert.KernelIdeal.R2V (acc_eq_sum act_of_hit act_word_iff cmpi_eq_def gate_bits ite_mul_eq node_word_eq onehot_val scratch_closed sum_tiles tile_word_toNat)

open Cert.KernelIdeal Cert.KernelIdeal.Gen
open Idealize.ShloMosaic Idealize.SL.Sem
open scoped BigOperators

section Miss

variable (a : (pcfg8 (F := Ideal)).Adm) (DST : (⟨1, ![1601536]⟩ : Shape).Idx → BitVec 32)

/-- A POINT THAT FAILS THE TEST HAS NO TARGET IN ITS NODE TILE: when each edge tile's targets lie between the tile's two
    table words (as signed integers), and the test at a point is the pair of inequalities between the node tile's row range
    and the edge tile's table words, a point where some target of the edge tile is a row of the node tile passes the test. -/
theorem miss_of_bounds (tmin tmax : Fin 391 → BitVec 32)
    (hb : ∀ (k : Fin 391) (r : Fin 4096),
      (tmin k).toInt ≤ (DST (ValueIdx.ix1 ⟨4096 * k.val + r.val, by have := k.isLt; have := r.isLt; omega⟩)).toInt
        ∧ (DST (ValueIdx.ix1 ⟨4096 * k.val + r.val, by have := k.isLt; have := r.isLt; omega⟩)).toInt ≤ (tmax k).toInt)
    (act : grid8.Coords → Prop)
    (hact : ∀ t : Fin (cfg8 a).N, act (grid8.coords t) ↔
      ((2048 * (t.val / 391 : ℕ) : ℤ) ≤ (tmax ⟨t.val % 391, Nat.mod_lt _ (by decide)⟩).toInt
        ∧ (tmin ⟨t.val % 391, Nat.mod_lt _ (by decide)⟩).toInt < 2048 * (t.val / 391 : ℕ) + 2048)) :
    ∀ t : Fin (cfg8 a).N, ¬ act (grid8.coords t) → ∀ (n : Fin 2048) (r : Fin 4096),
      (dstN DST (4096 * (t.val % 391) + r.val)).toNat ≠ 2048 * (t.val / 391) + n.val := by
  intro t hna n r heq
  apply hna
  rw [hact t]
  have hI : t.val / 391 < 49 := by have := N_eq a; have := t.isLt; omega
  obtain ⟨hlo, hhi⟩ := hb ⟨t.val % 391, Nat.mod_lt _ (by decide)⟩ r
  have hd : dstN DST (4096 * (t.val % 391) + r.val)
      = DST (ValueIdx.ix1 ⟨4096 * (t.val % 391) + r.val, edge_lt a t r⟩) := by
    unfold dstN; rw [dif_pos (edge_lt a t r)]
  rw [hd] at heq
  exact act_of_hit (t.val / 391) n.val hI n.isLt _ _ _ hlo hhi heq

end Miss

end Cert.KernelIdeal.R8V

namespace Cert.KernelIdeal.R8V

open Cert.KernelIdeal.R2V (acc_eq_sum act_of_hit act_word_iff cmpi_eq_def gate_bits ite_mul_eq node_word_eq onehot_val scratch_closed sum_tiles tile_word_toNat)

open Cert.KernelIdeal Cert.KernelIdeal.Gen
open Idealize.ShloMosaic Idealize.ShloMosaic.TcCoe Idealize.SL.Sem
open scoped BigOperators

section Final

variable (V : (c : Dev nD) → (b : Ref sig .tc) → Buf (Elt Ideal) ((c : Thread nD τ).loc b))
  (a : (pcfg8 (F := Ideal)).Adm) (c : Dev nD)

/-- The arrays the region reads, as it finds them: the edges' targets, the messages, the dense layer's output, the self
    weights, the bias. -/
abbrev dstV : (⟨1, ![1601536]⟩ : Shape).Idx → BitVec 32 := V c main_v66
abbrev gV : (⟨2, ![1601536, 32]⟩ : Shape).Idx → EReal := V c main_v117
abbrev hwV : (⟨2, ![100352, 32]⟩ : Shape).Idx → EReal := V c main_v109
abbrev snV : (⟨1, ![100352]⟩ : Shape).Idx → EReal := V c main_v76
abbrev bV : (⟨2, ![1, 32]⟩ : Shape).Idx → EReal := V c main_v118
/-- The two tables, entry by entry: each edge tile's least and greatest target. -/
abbrev tminV (k : Fin 391) : BitVec 32 := (a.1 0) (ValueIdx.ix1 k)
abbrev tmaxV (k : Fin 391) : BitVec 32 := (a.1 1) (ValueIdx.ix1 k)

/-- The word of the first table the body loads at point `i` is the table's entry at the point's edge tile … -/
theorem wMin_eq (i : grid8.Coords) : R8.wMin a i = tminV a ⟨(i 1).val, (i 1).isLt⟩ := by
  have h : ∀ f : (⟨1, ![391]⟩ : Shape).Idx → BitVec 32,
      R8.wd8 (F := Ideal) R8.tbMin f i = f (ValueIdx.ix1 (⟨(i 1).val, (i 1).isLt⟩ : Fin 391)) := by
    intro f
    show f _ = f _
    congr 1
    funext ax; apply Fin.ext
    match ax with
    | ⟨0, _⟩ =>
      show k8_off1 i 0 + 1 * 0 = (i 1).val
      rw [k8_off1_eq]; rfl
  exact h (a.1 0)

/-- … and likewise the second table's. -/
theorem wMax_eq (i : grid8.Coords) : R8.wMax a i = tmaxV a ⟨(i 1).val, (i 1).isLt⟩ := by
  have h : ∀ f : (⟨1, ![391]⟩ : Shape).Idx → BitVec 32,
      R8.wd8 (F := Ideal) R8.tbMax f i = f (ValueIdx.ix1 (⟨(i 1).val, (i 1).isLt⟩ : Fin 391)) := by
    intro f
    show f _ = f _
    congr 1
    funext ax; apply Fin.ext
    match ax with
    | ⟨0, _⟩ =>
      show k8_off1 i 0 + 1 * 0 = (i 1).val
      rw [k8_off1_eq]; rfl
  exact h (a.1 1)

/-- THE TEST AT A POINT, read on the tables: point `t` accumulates exactly when node tile `t / 391`'s row range
    `[2048 * (t / 391), 2048 * (t / 391) + 2048)` meets the range between edge tile `t % 391`'s two table entries. -/
theorem act8_iff (t : Fin (cfg8 a).N) :
    R8.act8 a (grid8.coords t) ↔
      ((2048 * (t.val / 391 : ℕ) : ℤ) ≤ (tmaxV a ⟨t.val % 391, Nat.mod_lt _ (by decide)⟩).toInt
        ∧ (tminV a ⟨t.val % 391, Nat.mod_lt _ (by decide)⟩).toInt < 2048 * (t.val / 391 : ℕ) + 2048) := by
  have e0 : (grid8.coords t 0).val = t.val / 391 := co0 a t
  have kx : (⟨(grid8.coords t 1).val, (grid8.coords t 1).isLt⟩ : Fin 391) = ⟨t.val % 391, Nat.mod_lt _ (by decide)⟩ :=
    Fin.ext (co1 a t)
  show R8.k8_act (grid8.coords t) (R8.wMax a (grid8.coords t)) (R8.wMin a (grid8.coords t)) = 1#1 ↔ _
  rw [wMax_eq, wMin_eq, kx, ← e0]
  exact act_word_iff (grid8.coords t 0).val (c0_lt a t) _ _

/-- THE REGION'S RESULT. If every edge tile's targets lie between the tile's two table entries (as signed integers), the
    result array after the region holds, at row `n` and column `d`: the row's self weight times the dense layer's entry,
    plus the messages of all edges whose target is the row, plus the bias (the last layer takes no maximum with zero). -/
theorem out_eq
    (hb : ∀ (k : Fin 391) (r : Fin 4096),
      (tminV a k).toInt
          ≤ (dstV V c (ValueIdx.ix1 ⟨4096 * k.val + r.val, by have := k.isLt; have := r.isLt; omega⟩)).toInt
        ∧ (dstV V c (ValueIdx.ix1 ⟨4096 * k.val + r.val, by have := k.isLt; have := r.isLt; omega⟩)).toInt
          ≤ (tmaxV a k).toInt) :
    ∀ (n : Fin 100352) (d : Fin 32),
      (R8.dat8 V a c).arrAt 5 (cfg8 a).N (ValueIdx.ix2 n d)
        = snV V c (ValueIdx.ix1 n) * hwV V c (ValueIdx.ix2 n d)
            + (∑ p : Fin 1601536, if (dstV V c (ValueIdx.ix1 p)).toNat = n.val then gV V c (ValueIdx.ix2 p d) else 0)
            + bV V c (ValueIdx.ix2 (0 : Fin 1) d) := by
  intro n d
  have hmiss := miss_of_bounds a (dstV V c) (tminV a) (tmaxV a) hb (R8.act8 a) (act8_iff a)
  have key := out_of_dat a (snV V c) (hwV V c) (dstV V c) (gV V c) (bV V c) c (R8.dat8 V a c) (R8.accAt8 V a c) (R8.act8 a)
    (fun t hk => R8.accAt8_first V a c t hk)
    (fun m h hk => R8.accAt8_next V a c ⟨m + 1, h⟩ hk)
    hmiss (R8.after8_5 V a c) (R8.flush8_5 a)
  exact (congrFun key (ValueIdx.ix2 n d)).trans (outG_apply (snV V c) (hwV V c) (dstV V c) (gV V c) (bV V c) n d)

end Final

end Cert.KernelIdeal.R8V
-- ==== Proof.RegionFactsB0.lean ====
import proofs.«417346_j54202487276072_2_alg».proof.Proof.ComposeFacts
import proofs.«417346_j54202487276072_2_alg».proof.Proof.R2Value
import proofs.«417346_j54202487276072_2_alg».proof.Proof.R5Value
import proofs.«417346_j54202487276072_2_alg».proof.Proof.R8Value
import proofs.«417346_j54202487276072_2_alg».proof.Proof.KHostD
import proofs.«417346_j54202487276072_2_alg».proof.Proof.IdxBridge

/-!
  What each scatter region leaves in its output array, stated at the buffers as the run finds them when the region is
  entered: the region's own value (its output array as one function of the arrays it reads) read at the run's
  valuation, with the bound the tables put on each tile taken from what the host computed them as.
-/

noncomputable section

namespace Cert.Proof.C

open Cert.KernelIdeal Cert.KernelIdeal.Gen Cert.KernelIdeal.GenP
open Idealize.ShloMosaic Idealize.ShloMosaic.TcCoe
open scoped BigOperators

variable (m : (ℓ : Loc nD τ sig) → Buf (Elt Ideal) ℓ) (outs : GenP.Outs (F := Ideal)) (c : Dev nD)

/-! ## The scatter regions -/

/-- Layer 1's scatter region at the run's valuation: each row of its result is the self term, plus the messages of all
    edges whose target is the row, plus the bias, under the maximum with zero. The region's two tables are the least and the greatest
    target of each tile of the target-sorted row, so they bound the tile. -/
theorem s1_of (a : (pcfg2 (F := Ideal)).Adm) (ha : ∀ k : Fin 2, a.1 k = V16 m 0 (pre2.ref k))
    (hlink : outs 20 main_v93 c = (R2.dat2 (fun c b => V19 m outs c b) a c).arrAt 5 (cfg2 a).N) :
    ScatterEq (D := 16) (fun t : EReal => max t 0) (outs 20 main_v93 c) (V19 m outs c main_v76) (V19 m outs c main_v83)
      (V19 m outs c main_v66) (V19 m outs c main_v91) (V19 m outs c main_v92) := by
  unfold ScatterEq
  intro n d
  obtain rfl : c = 0 := Subsingleton.elim _ _
  refine (congrFun hlink (ValueIdx.ix2 n d)).trans
    (R2V.out_eq (fun c b => V19 m outs c b) a 0 (fun k r => ?_) n d)
  have e1 : R2V.tminV a k = KH.tminDst (m (((0 : Dev nD) : Thread nD τ).loc main_arg1)) (ValueIdx.ix1 k) :=
    (congrFun (ha 0) (ValueIdx.ix1 k)).trans (congrFun (KH.V16_v72 m 0) (ValueIdx.ix1 k))
  have e2 : R2V.tmaxV a k = KH.tmaxDst (m (((0 : Dev nD) : Thread nD τ).loc main_arg1)) (ValueIdx.ix1 k) :=
    (congrFun (ha 1) (ValueIdx.ix1 k)).trans (congrFun (KH.V16_v74 m 0) (ValueIdx.ix1 k))
  have e3 : R2V.dstV (fun c b => V19 m outs c b) 0 (ValueIdx.ix1 (IFB.pos k r))
      = KH.dstSorted (m (((0 : Dev nD) : Thread nD τ).loc main_arg1)) (ValueIdx.ix1 (IFB.pos k r)) :=
    congrFun (KH.V19_v66 m outs 0) _
  have h := IFB.dst_tile_bounds (m (((0 : Dev nD) : Thread nD τ).loc main_arg1)) k r
  rw [← e1, ← e2, ← e3] at h
  exact h

/-- Layer 2's scatter region at the run's valuation: each row of its result is the self term, plus the messages of all
    edges whose target is the row, plus the bias, under the maximum with zero. The region's two tables are the least and the greatest
    target of each tile of the target-sorted row, so they bound the tile. -/
theorem s2_of (a : (pcfg5 (F := Ideal)).Adm) (ha : ∀ k : Fin 2, a.1 k = V16 m 0 (pre2.ref k))
    (hlink : outs 25 main_v106 c = (R5.dat5 (fun c b => V24 m outs c b) a c).arrAt 5 (cfg5 a).N) :
    ScatterEq (D := 64) (fun t : EReal => max t 0) (outs 25 main_v106 c) (V24 m outs c main_v76) (V24 m outs c main_v96)
      (V24 m outs c main_v66) (V24 m outs c main_v104) (V24 m outs c main_v105) := by
  unfold ScatterEq
  intro n d
  obtain rfl : c = 0 := Subsingleton.elim _ _
  refine (congrFun hlink (ValueIdx.ix2 n d)).trans
    (R5V.out_eq (fun c b => V24 m outs c b) a 0 (fun k r => ?_) n d)
  have e1 : R5V.tminV a k = KH.tminDst (m (((0 : Dev nD) : Thread nD τ).loc main_arg1)) (ValueIdx.ix1 k) :=
    (congrFun (ha 0) (ValueIdx.ix1 k)).trans (congrFun (KH.V16_v72 m 0) (ValueIdx.ix1 k))
  have e2 : R5V.tmaxV a k = KH.tmaxDst (m (((0 : Dev nD) : Thread nD τ).loc main_arg1)) (ValueIdx.ix1 k) :=
    (congrFun (ha 1) (ValueIdx.ix1 k)).trans (congrFun (KH.V16_v74 m 0) (ValueIdx.ix1 k))
  have e3 : R5V.dstV (fun c b => V24 m outs c b) 0 (ValueIdx.ix1 (IFB.pos k r))
      = KH.dstSorted (m (((0 : Dev nD) : Thread nD τ).loc main_arg1)) (ValueIdx.ix1 (IFB.pos k r)) :=
    congrFun (KH.V24_v66 m outs 0) _
  have h := IFB.dst_tile_bounds (m (((0 : Dev nD) : Thread nD τ).loc main_arg1)) k r
  rw [← e1, ← e2, ← e3] at h
  exact h

/-- Layer 3's scatter region at the run's valuation: each row of its result is the self term, plus the messages of all
    edges whose target is the row, plus the bias. The region's two tables are the least and the greatest
    target of each tile of the target-sorted row, so they bound the tile. -/
theorem s3_of (a : (pcfg8 (F := Ideal)).Adm) (ha : ∀ k : Fin 2, a.1 k = V16 m 0 (pre2.ref k))
    (hlink : outs 30 main_v119 c = (R8.dat8 (fun c b => V29 m outs c b) a c).arrAt 5 (cfg8 a).N) :
    ScatterEq (D := 32) (fun t : EReal => t) (outs 30 main_v119 c) (V29 m outs c main_v76) (V29 m outs c main_v109)
      (V29 m outs c main_v66) (V29 m outs c main_v117) (V29 m outs c main_v118) := by
  unfold ScatterEq
  intro n d
  obtain rfl : c = 0 := Subsingleton.elim _ _
  refine (congrFun hlink (ValueIdx.ix2 n d)).trans
    (R8V.out_eq (fun c b => V29 m outs c b) a 0 (fun k r => ?_) n d)
  have e1 : R8V.tminV a k = KH.tminDst (m (((0 : Dev nD) : Thread nD τ).loc main_arg1)) (ValueIdx.ix1 k) :=
    (congrFun (ha 0) (ValueIdx.ix1 k)).trans (congrFun (KH.V16_v72 m 0) (ValueIdx.ix1 k))
  have e2 : R8V.tmaxV a k = KH.tmaxDst (m (((0 : Dev nD) : Thread nD τ).loc main_arg1)) (ValueIdx.ix1 k) :=
    (congrFun (ha 1) (ValueIdx.ix1 k)).trans (congrFun (KH.V16_v74 m 0) (ValueIdx.ix1 k))
  have e3 : R8V.dstV (fun c b => V29 m outs c b) 0 (ValueIdx.ix1 (IFB.pos k r))
      = KH.dstSorted (m (((0 : Dev nD) : Thread nD τ).loc main_arg1)) (ValueIdx.ix1 (IFB.pos k r)) :=
    congrFun (KH.V29_v66 m outs 0) _
  have h := IFB.dst_tile_bounds (m (((0 : Dev nD) : Thread nD τ).loc main_arg1)) k r
  rw [← e1, ← e2, ← e3] at h
  exact h

end Cert.Proof.C
-- ==== Proof.RegionFacts.lean ====
import proofs.«417346_j54202487276072_2_alg».proof.Proof.RegionFactsA
import proofs.«417346_j54202487276072_2_alg».proof.Proof.RegionFactsG
import proofs.«417346_j54202487276072_2_alg».proof.Proof.RegionFactsB0
import proofs.«417346_j54202487276072_2_alg».proof.Proof.RunKI

/-!
  What the ten kernel regions leave in their output arrays, at the arrays the run names: each region's own value read
  at the buffers as the run finds them when the region is entered, the gather and scatter regions' tables being the
  tile minima and maxima the host stretches computed before the first region.
-/

noncomputable section

namespace Cert.Proof.C

open Cert.KernelIdeal Cert.KernelIdeal.Gen
open Idealize.ShloMosaic Idealize.ShloMosaic.TcCoe

variable (m : (ℓ : Loc nD τ sig) → Buf (Elt Ideal) ℓ) (c : Dev nD)

/-! ## The scatter regions at the run -/

theorem reg_s1 : ScatterEq (D := 16) (fun t : EReal => max t 0) (Run.outs m 20 main_v93 c)
    (GenP.V19 m (Run.outs m) c main_v76) (GenP.V19 m (Run.outs m) c main_v83) (GenP.V19 m (Run.outs m) c main_v66)
    (GenP.V19 m (Run.outs m) c main_v91) (GenP.V19 m (Run.outs m) c main_v92) :=
  s1_of m (Run.outs m) c (Run.adm2 m) (fun k => Run.tabS_apply m k) (Run.outs_20 m c)

theorem reg_s2 : ScatterEq (D := 64) (fun t : EReal => max t 0) (Run.outs m 25 main_v106 c)
    (GenP.V24 m (Run.outs m) c main_v76) (GenP.V24 m (Run.outs m) c main_v96) (GenP.V24 m (Run.outs m) c main_v66)
    (GenP.V24 m (Run.outs m) c main_v104) (GenP.V24 m (Run.outs m) c main_v105) :=
  s2_of m (Run.outs m) c (Run.adm5 m) (fun k => Run.tabS_apply m k) (Run.outs_25 m c)

theorem reg_s3 : ScatterEq (D := 32) (fun t : EReal => t) (Run.outs m 30 main_v119 c)
    (GenP.V29 m (Run.outs m) c main_v76) (GenP.V29 m (Run.outs m) c main_v109) (GenP.V29 m (Run.outs m) c main_v66)
    (GenP.V29 m (Run.outs m) c main_v117) (GenP.V29 m (Run.outs m) c main_v118) :=
  s3_of m (Run.outs m) c (Run.adm8 m) (fun k => Run.tabS_apply m k) (Run.outs_30 m c)

/-! ## All ten regions -/

/-- What the ten regions leave, each at the buffers as the run finds them when the region is entered. -/
theorem regionFacts : RegionFacts m (Run.outs m) c :=
  ⟨reg_d1 m c, reg_g1 m c, reg_s1 m c, reg_d2 m c, reg_g2 m c, reg_s2 m c, reg_d3 m c, reg_g3 m c, reg_s3 m c,
    reg_ps m c, reg_pc m c⟩

end Cert.Proof.C

end
-- ==== Proof.Compose.lean ====
/-
  The value claim. The idealized program's run leaves every unscoped buffer at the last valuation; the reference's
  run leaves its result at the stage function of its arguments; and for memories that agree on the arguments that
  stage function is what the idealized program leaves in its result buffer.
-/
import proofs.«417346_j54202487276072_2_alg».proof.Proof.ComposeHval
import proofs.«417346_j54202487276072_2_alg».proof.Proof.RegionFacts
import proofs.«417346_j54202487276072_2_alg».proof.Proof.RunKI
import proofs.«417346_j54202487276072_2_alg».proof.Proof.RefRunH

noncomputable section

namespace Cert.Proof.C

open Idealize.ShloMosaic Idealize.ShloMosaic.TcCoe Idealize.SL.Sem

theorem algebraic [hKI : Cert.KernelIdeal.Facts] [hRI : Cert.ReferenceIdeal.Facts] [hP : Cert.Pre_finite_inputs.Facts] :
    Cert.algebraic_KernelIdeal_ReferenceIdeal :=
  algebraic_of (fun m => Cert.KernelIdeal.Run.outs m) resRef
    (fun m ρ _ => Cert.KernelIdeal.Run.run m ρ)
    (fun m' ρ' => Cert.ReferenceIdeal.RunH.run m' ρ')
    (hval_of (fun m => Cert.KernelIdeal.Run.outs m) (fun m c => regionFacts m c))

end Cert.Proof.C

end
-- ==== Proof.lean ====
/-
  The kernel computes a three-layer graph convolution, a mean pool over graphs and a three-layer dense head, and is
  compared with the plain formulation of the same network. A layer sends h to act(Â (h W) + b), where Â weights the
  edge (s → t) by deg(s)^(-1/2) deg(t)^(-1/2), every node carries a self loop, and deg counts incoming edges, the self
  loop included. The reference gathers rows of h W at the edges' sources, scales them and adds them up at the targets.
  The kernel sorts the (padded) edge list once by source and once by target and evaluates each layer as three products:
  h W row block by row block; a selection "row src(e) of h W" written as the product of a 0/1 matrix with h W, one node
  tile at a time, a tile being skipped when the tile's smallest and largest source lie outside it; and a sum "over the
  edges with target n" written as the product of a 0/1 matrix with the messages, one edge tile at a time, with the same
  skip. Over the extended reals 0 * x = 0 and 1 * x = x for every x, so a 0/1 row times a matrix is the selected row, or
  the plain sum of the selected rows; a skipped tile selects nothing because the two table entries bound the tile's
  indices; sorting gives a permutation, the inverse of a permutation composed with a second one carries positions of
  the second order to positions of the first, and a sum over positions re-indexes along a bijection; the padded edges
  carry weight 0; the self loops of the reference are the kernel's separate self term; rows beyond the last node are
  kept at 0 by a 0/1 column and carry graph number -1, which matches no graph. No distributive law is used, and of
  the precondition only the range of the edge indices, 0 ≤ index < 100000, which makes the reference's own gathers
  read in range.
  The three frames: each region's body is run at every grid point, for either value of the tile test, and the regions
  are chained through the buffer contents between them; the reference is a host program, cut into nine runs.
-/
import proofs.«417346_j54202487276072_2_alg».proof.Defs
import proofs.«417346_j54202487276072_2_alg».proof.Proof.Gen.Kernel
import proofs.«417346_j54202487276072_2_alg».proof.Proof.Gen.KernelIdeal
import proofs.«417346_j54202487276072_2_alg».proof.Proof.Gen.ReferenceIdeal
import proofs.«417346_j54202487276072_2_alg».proof.Proof.Gen.Pre_finite_inputs
import proofs.«417346_j54202487276072_2_alg».proof.Proof.RunKI
import proofs.«417346_j54202487276072_2_alg».proof.Proof.K.RunKI
import proofs.«417346_j54202487276072_2_alg».proof.Proof.RefRunH
import proofs.«417346_j54202487276072_2_alg».proof.Proof.Preserves
import proofs.«417346_j54202487276072_2_alg».proof.Proof.Compose

noncomputable section

namespace Cert.Proof

open Idealize.ShloMosaic Idealize.SL.Sem

/-- The word-level program runs at every grid point whatever the tables hold, and no item of it writes an argument. -/
theorem frame_k : Cert.frame_Kernel (hKernel := Cert.Kernel.Gen.facts) (hPre_finite_inputs := Cert.Pre_finite_inputs.Gen.facts) :=
  fun m ρ _ => Cert.Kernel.Run.frame m ρ

/-- The same run at the extended reals. -/
theorem frame_ki : Cert.frame_KernelIdeal (hKernelIdeal := Cert.KernelIdeal.Gen.facts) (hPre_finite_inputs := Cert.Pre_finite_inputs.Gen.facts) :=
  fun m ρ _ => Cert.KernelIdeal.Run.frame m ρ

/-- The reference's run, its result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RunH.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, Cert.Proof.P.preserves, Cert.Proof.C.algebraic⟩

end Cert.Proof

end
